-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v565)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v565) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v587) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x2 : Shape := ⟨2, ![20000, 2]⟩
abbrev S2x128 : Shape := ⟨2, ![2, 128]⟩
abbrev S128 : Shape := ⟨1, ![128]⟩
abbrev S4 : Shape := ⟨1, ![4]⟩
abbrev S4x128x128 : Shape := ⟨3, ![4, 128, 128]⟩
abbrev S4x128 : Shape := ⟨2, ![4, 128]⟩
abbrev S5x256x128 : Shape := ⟨3, ![5, 256, 128]⟩
abbrev S5x128 : Shape := ⟨2, ![5, 128]⟩
abbrev S5x128x2 : Shape := ⟨3, ![5, 128, 2]⟩
abbrev S5x2 : Shape := ⟨2, ![5, 2]⟩
abbrev S320000 : Shape := ⟨1, ![320000]⟩
abbrev S_ : Shape := ⟨0, ![]⟩

class Facts : Prop where
  bcast_S_S20000x2 : S_.BroadcastsInDim S20000x2 (![] : Fin 0 → Fin S20000x2.rank)
  reducesTo_S20000x2_S_d0_1 : S20000x2.ReducesTo [0, 1] S_
  h_S_ : 0 < S_.numel
  bcast_S_S2x128 : S_.BroadcastsInDim S2x128 (![] : Fin 0 → Fin S2x128.rank)
  reducesTo_S2x128_S_d0_1 : S2x128.ReducesTo [0, 1] S_
  bcast_S_S128 : S_.BroadcastsInDim S128 (![] : Fin 0 → Fin S128.rank)
  reducesTo_S128_S_d0 : S128.ReducesTo [0] S_
  bcast_S_S4 : S_.BroadcastsInDim S4 (![] : Fin 0 → Fin S4.rank)
  reducesTo_S4_S_d0 : S4.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S5x256x128 : S_.BroadcastsInDim S5x256x128 (![] : Fin 0 → Fin S5x256x128.rank)
  reducesTo_S5x256x128_S_d0_1_2 : S5x256x128.ReducesTo [0, 1, 2] S_
  bcast_S_S5x128 : S_.BroadcastsInDim S5x128 (![] : Fin 0 → Fin S5x128.rank)
  reducesTo_S5x128_S_d0_1 : S5x128.ReducesTo [0, 1] S_
  bcast_S_S5x128x2 : S_.BroadcastsInDim S5x128x2 (![] : Fin 0 → Fin S5x128x2.rank)
  reducesTo_S5x128x2_S_d0_1_2 : S5x128x2.ReducesTo [0, 1, 2] S_
  bcast_S_S5x2 : S_.BroadcastsInDim S5x2 (![] : Fin 0 → Fin S5x2.rank)
  reducesTo_S5x2_S_d0_1 : S5x2.ReducesTo [0, 1] S_

variable [Facts]

def fn_part5 {F : FTy → Type} [FloatOps F] (main_v83 : IVec S_ 1) (main_v84 : FVec F S5x2 .f32) (main_cst_32 : FVec F S_ .f32) : IVec S_ 1 :=
  let main_v85 : FVec F S5x2 .f32 := broadcastInDim S5x2 ![] bcast_S_S5x2 main_cst_32
  let main_v86 : IVec S5x2 1 := cmpf .olt main_v84 main_v85
  let main_c_33 : IVec S_ 1 := constantI S_ 1 1#1
  let main_v87 : IVec S_ 1 := (fun x v => Host.reduce IntOp.andi x v reducesTo_S5x2_S_d0_1 h_S_) main_v86 main_c_33
  let main_v88 : IVec S_ 1 := andi main_v83 main_v87
  main_v88

def fn_part4 {F : FTy → Type} [FloatOps F] (main_arg14 : FVec F S5x256x128 .f32) (main_arg15 : FVec F S5x128 .f32) (main_arg16 : FVec F S5x128x2 .f32) (main_arg17 : FVec F S5x2 .f32) (main_v63 : IVec S_ 1) (main_v67 : IVec S_ 1) : IVec S_ 1 :=
  let main_v68 : IVec S_ 1 := andi main_v63 main_v67
  let main_v69 : FVec F S5x256x128 .f32 := Host.absf main_arg14
  let main_cst_26 : FVec F S_ .f32 := constant S_ .f32 0x7F800000#32
  let main_v70 : FVec F S5x256x128 .f32 := broadcastInDim S5x256x128 ![] bcast_S_S5x256x128 main_cst_26
  let main_v71 : IVec S5x256x128 1 := cmpf .olt main_v69 main_v70
  let main_c_27 : IVec S_ 1 := constantI S_ 1 1#1
  let main_v72 : IVec S_ 1 := (fun x v => Host.reduce IntOp.andi x v reducesTo_S5x256x128_S_d0_1_2 h_S_) main_v71 main_c_27
  let main_v73 : IVec S_ 1 := andi main_v68 main_v72
  let main_v74 : FVec F S5x128 .f32 := Host.absf main_arg15
  let main_cst_28 : FVec F S_ .f32 := constant S_ .f32 0x7F800000#32
  let main_v75 : FVec F S5x128 .f32 := broadcastInDim S5x128 ![] bcast_S_S5x128 main_cst_28
  let main_v76 : IVec S5x128 1 := cmpf .olt main_v74 main_v75
  let main_c_29 : IVec S_ 1 := constantI S_ 1 1#1
  let main_v77 : IVec S_ 1 := (fun x v => Host.reduce IntOp.andi x v reducesTo_S5x128_S_d0_1 h_S_) main_v76 main_c_29
  let main_v78 : IVec S_ 1 := andi main_v73 main_v77
  let main_v79 : FVec F S5x128x2 .f32 := Host.absf main_arg16
  let main_cst_30 : FVec F S_ .f32 := constant S_ .f32 0x7F800000#32
  let main_v80 : FVec F S5x128x2 .f32 := broadcastInDim S5x128x2 ![] bcast_S_S5x128x2 main_cst_30
  let main_v81 : IVec S5x128x2 1 := cmpf .olt main_v79 main_v80
  let main_c_31 : IVec S_ 1 := constantI S_ 1 1#1
  let main_v82 : IVec S_ 1 := (fun x v => Host.reduce IntOp.andi x v reducesTo_S5x128x2_S_d0_1_2 h_S_) main_v81 main_c_31
  let main_v83 : IVec S_ 1 := andi main_v78 main_v82
  let main_v84 : FVec F S5x2 .f32 := Host.absf main_arg17
  let main_cst_32 : FVec F S_ .f32 := constant S_ .f32 0x7F800000#32
  fn_part5 (F := F) main_v83 main_v84 main_cst_32

def fn_part3 {F : FTy → Type} [FloatOps F] (main_arg11 : FVec F S4x128 .f32) (main_arg12 : FVec F S4x128 .f32) (main_arg13 : FVec F S4x128 .f32) (main_arg14 : FVec F S5x256x128 .f32) (main_arg15 : FVec F S5x128 .f32) (main_arg16 : FVec F S5x128x2 .f32) (main_arg17 : FVec F S5x2 .f32) (main_v48 : IVec S_ 1) (main_v49 : FVec F S4x128 .f32) (main_v50 : FVec F S4x128 .f32) : IVec S_ 1 :=
  let main_v51 : IVec S4x128 1 := cmpf .olt main_v49 main_v50
  let main_c_19 : IVec S_ 1 := constantI S_ 1 1#1
  let main_v52 : IVec S_ 1 := (fun x v => Host.reduce IntOp.andi x v reducesTo_S4x128_S_d0_1 h_S_) main_v51 main_c_19
  let main_v53 : IVec S_ 1 := andi main_v48 main_v52
  let main_v54 : FVec F S4x128 .f32 := Host.absf main_arg11
  let main_cst_20 : FVec F S_ .f32 := constant S_ .f32 0x7F800000#32
  let main_v55 : FVec F S4x128 .f32 := broadcastInDim S4x128 ![] bcast_S_S4x128 main_cst_20
  let main_v56 : IVec S4x128 1 := cmpf .olt main_v54 main_v55
  let main_c_21 : IVec S_ 1 := constantI S_ 1 1#1
  let main_v57 : IVec S_ 1 := (fun x v => Host.reduce IntOp.andi x v reducesTo_S4x128_S_d0_1 h_S_) main_v56 main_c_21
  let main_v58 : IVec S_ 1 := andi main_v53 main_v57
  let main_v59 : FVec F S4x128 .f32 := Host.absf main_arg12
  let main_cst_22 : FVec F S_ .f32 := constant S_ .f32 0x7F800000#32
  let main_v60 : FVec F S4x128 .f32 := broadcastInDim S4x128 ![] bcast_S_S4x128 main_cst_22
  let main_v61 : IVec S4x128 1 := cmpf .olt main_v59 main_v60
  let main_c_23 : IVec S_ 1 := constantI S_ 1 1#1
  let main_v62 : IVec S_ 1 := (fun x v => Host.reduce IntOp.andi x v reducesTo_S4x128_S_d0_1 h_S_) main_v61 main_c_23
  let main_v63 : IVec S_ 1 := andi main_v58 main_v62
  let main_v64 : FVec F S4x128 .f32 := Host.absf main_arg13
  let main_cst_24 : FVec F S_ .f32 := constant S_ .f32 0x7F800000#32
  let main_v65 : FVec F S4x128 .f32 := broadcastInDim S4x128 ![] bcast_S_S4x128 main_cst_24
  let main_v66 : IVec S4x128 1 := cmpf .olt main_v64 main_v65
  let main_c_25 : IVec S_ 1 := constantI S_ 1 1#1
  let main_v67 : IVec S_ 1 := (fun x v => Host.reduce IntOp.andi x v reducesTo_S4x128_S_d0_1 h_S_) main_v66 main_c_25
  fn_part4 (F := F) main_arg14 main_arg15 main_arg16 main_arg17 main_v63 main_v67

def fn_part2 {F : FTy → Type} [FloatOps F] (main_arg7 : FVec F S4x128 .f32) (main_arg8 : FVec F S4x128x128 .f32) (main_arg9 : FVec F S4x128 .f32) (main_arg10 : FVec F S4x128 .f32) (main_arg11 : FVec F S4x128 .f32) (main_arg12 : FVec F S4x128 .f32) (main_arg13 : FVec F S4x128 .f32) (main_arg14 : FVec F S5x256x128 .f32) (main_arg15 : FVec F S5x128 .f32) (main_arg16 : FVec F S5x128x2 .f32) (main_arg17 : FVec F S5x2 .f32) (main_v33 : IVec S_ 1) : IVec S_ 1 :=
  let main_v34 : FVec F S4x128 .f32 := Host.absf main_arg7
  let main_cst_12 : FVec F S_ .f32 := constant S_ .f32 0x7F800000#32
  let main_v35 : FVec F S4x128 .f32 := broadcastInDim S4x128 ![] bcast_S_S4x128 main_cst_12
  let main_v36 : IVec S4x128 1 := cmpf .olt main_v34 main_v35
  let main_c_13 : IVec S_ 1 := constantI S_ 1 1#1
  let main_v37 : IVec S_ 1 := (fun x v => Host.reduce IntOp.andi x v reducesTo_S4x128_S_d0_1 h_S_) main_v36 main_c_13
  let main_v38 : IVec S_ 1 := andi main_v33 main_v37
  let main_v39 : FVec F S4x128x128 .f32 := Host.absf main_arg8
  let main_cst_14 : FVec F S_ .f32 := constant S_ .f32 0x7F800000#32
  let main_v40 : FVec F S4x128x128 .f32 := broadcastInDim S4x128x128 ![] bcast_S_S4x128x128 main_cst_14
  let main_v41 : IVec S4x128x128 1 := cmpf .olt main_v39 main_v40
  let main_c_15 : IVec S_ 1 := constantI S_ 1 1#1
  let main_v42 : IVec S_ 1 := (fun x v => Host.reduce IntOp.andi x v reducesTo_S4x128x128_S_d0_1_2 h_S_) main_v41 main_c_15
  let main_v43 : IVec S_ 1 := andi main_v38 main_v42
  let main_v44 : FVec F S4x128 .f32 := Host.absf main_arg9
  let main_cst_16 : FVec F S_ .f32 := constant S_ .f32 0x7F800000#32
  let main_v45 : FVec F S4x128 .f32 := broadcastInDim S4x128 ![] bcast_S_S4x128 main_cst_16
  let main_v46 : IVec S4x128 1 := cmpf .olt main_v44 main_v45
  let main_c_17 : IVec S_ 1 := constantI S_ 1 1#1
  let main_v47 : IVec S_ 1 := (fun x v => Host.reduce IntOp.andi x v reducesTo_S4x128_S_d0_1 h_S_) main_v46 main_c_17
  let main_v48 : IVec S_ 1 := andi main_v43 main_v47
  let main_v49 : FVec F S4x128 .f32 := Host.absf main_arg10
  let main_cst_18 : FVec F S_ .f32 := constant S_ .f32 0x7F800000#32
  let main_v50 : FVec F S4x128 .f32 := broadcastInDim S4x128 ![] bcast_S_S4x128 main_cst_18
  fn_part3 (F := F) main_arg11 main_arg12 main_arg13 main_arg14 main_arg15 main_arg16 main_arg17 main_v48 main_v49 main_v50

def fn_part1 {F : FTy → Type} [FloatOps F] (main_arg4 : FVec F S4x128x128 .f32) (main_arg5 : FVec F S4x128 .f32) (main_arg6 : FVec F S4x128 .f32) (main_arg7 : FVec F S4x128 .f32) (main_arg8 : FVec F S4x128x128 .f32) (main_arg9 : FVec F S4x128 .f32) (main_arg10 : FVec F S4x128 .f32) (main_arg11 : FVec F S4x128 .f32) (main_arg12 : FVec F S4x128 .f32) (main_arg13 : FVec F S4x128 .f32) (main_arg14 : FVec F S5x256x128 .f32) (main_arg15 : FVec F S5x128 .f32) (main_arg16 : FVec F S5x128x2 .f32) (main_arg17 : FVec F S5x2 .f32) (main_v13 : IVec S_ 1) (main_v16 : IVec S4 1) : IVec S_ 1 :=
  let main_c_5 : IVec S_ 1 := constantI S_ 1 1#1
  let main_v17 : IVec S_ 1 := (fun x v => Host.reduce IntOp.andi x v reducesTo_S4_S_d0 h_S_) main_v16 main_c_5
  let main_v18 : IVec S_ 1 := andi main_v13 main_v17
  let main_v19 : FVec F S4x128x128 .f32 := Host.absf main_arg4
  let main_cst_6 : FVec F S_ .f32 := constant S_ .f32 0x7F800000#32
  let main_v20 : FVec F S4x128x128 .f32 := broadcastInDim S4x128x128 ![] bcast_S_S4x128x128 main_cst_6
  let main_v21 : IVec S4x128x128 1 := cmpf .olt main_v19 main_v20
  let main_c_7 : IVec S_ 1 := constantI S_ 1 1#1
  let main_v22 : IVec S_ 1 := (fun x v => Host.reduce IntOp.andi x v reducesTo_S4x128x128_S_d0_1_2 h_S_) main_v21 main_c_7
  let main_v23 : IVec S_ 1 := andi main_v18 main_v22
  let main_v24 : FVec F S4x128 .f32 := Host.absf main_arg5
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128 .f32 := Host.absf main_arg6
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S20000x2 .f32) (main_arg1 : FVec F S2x128 .f32) (main_arg2 : FVec F S128 .f32) (main_arg3 : FVec F S4 .f32) (main_arg4 : FVec F S4x128x128 .f32) (main_arg5 : FVec F S4x128 .f32) (main_arg6 : FVec F S4x128 .f32) (main_arg7 : FVec F S4x128 .f32) (main_arg8 : FVec F S4x128x128 .f32) (main_arg9 : FVec F S4x128 .f32) (main_arg10 : FVec F S4x128 .f32) (main_arg11 : FVec F S4x128 .f32) (main_arg12 : FVec F S4x128 .f32) (main_arg13 : FVec F S4x128 .f32) (main_arg14 : FVec F S5x256x128 .f32) (main_arg15 : FVec F S5x128 .f32) (main_arg16 : FVec F S5x128x2 .f32) (main_arg17 : FVec F S5x2 .f32) (main_arg18 : IVec S320000 32) (main_arg19 : IVec S320000 32) : IVec S_ 1 :=
  let main_v0 : FVec F S20000x2 .f32 := Host.absf main_arg0
  let main_cst : FVec F S_ .f32 := constant S_ .f32 0x7F800000#32
  let main_v1 : FVec F S20000x2 .f32 := broadcastInDim S20000x2 ![] bcast_S_S20000x2 main_cst
  let main_v2 : IVec S20000x2 1 := cmpf .olt main_v0 main_v1
  let main_c : IVec S_ 1 := constantI S_ 1 1#1
  let main_v3 : IVec S_ 1 := (fun x v => Host.reduce IntOp.andi x v reducesTo_S20000x2_S_d0_1 h_S_) main_v2 main_c
  let main_v4 : FVec F S2x128 .f32 := Host.absf main_arg1
  let main_cst_0 : FVec F S_ .f32 := constant S_ .f32 0x7F800000#32
  let main_v5 : FVec F S2x128 .f32 := broadcastInDim S2x128 ![] bcast_S_S2x128 main_cst_0
  let main_v6 : IVec S2x128 1 := cmpf .olt main_v4 main_v5
  let main_c_1 : IVec S_ 1 := constantI S_ 1 1#1
  let main_v7 : IVec S_ 1 := (fun x v => Host.reduce IntOp.andi x v reducesTo_S2x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S4 .f32 := Host.absf main_arg3
  let main_cst_4 : FVec F S_ .f32 := constant S_ .f32 0x7F800000#32
  let main_v15 : FVec F S4 .f32 := broadcastInDim S4 ![] bcast_S_S4 main_cst_4
  let main_v16 : IVec S4 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S20000x2 : Shape := ⟨2, ![20000, 2]⟩
abbrev S2x128 : Shape := ⟨2, ![2, 128]⟩
abbrev S128 : Shape := ⟨1, ![128]⟩
abbrev S4 : Shape := ⟨1, ![4]⟩
abbrev S4x128x128 : Shape := ⟨3, ![4, 128, 128]⟩
abbrev S4x128 : Shape := ⟨2, ![4, 128]⟩
abbrev S5x256x128 : Shape := ⟨3, ![5, 256, 128]⟩
abbrev S5x128 : Shape := ⟨2, ![5, 128]⟩
abbrev S5x128x2 : Shape := ⟨3, ![5, 128, 2]⟩
abbrev S5x2 : Shape := ⟨2, ![5, 2]⟩
abbrev S320000 : Shape := ⟨1, ![320000]⟩
abbrev S20000x128 : Shape := ⟨2, ![20000, 128]⟩
abbrev S1x128 : Shape := ⟨2, ![1, 128]⟩
abbrev S1x256x128 : Shape := ⟨3, ![1, 256, 128]⟩
abbrev S256x128 : Shape := ⟨2, ![256, 128]⟩
abbrev S128x128 : Shape := ⟨2, ![128, 128]⟩
abbrev S4000x128 : Shape := ⟨2, ![4000, 128]⟩
abbrev S_ : Shape := ⟨0, ![]⟩
abbrev S320000x1 : Shape := ⟨2, ![320000, 1]⟩
abbrev S320000x128 : Shape := ⟨2, ![320000, 128]⟩
abbrev S1x128x2 : Shape := ⟨3, ![1, 128, 2]⟩
abbrev S128x2 : Shape := ⟨2, ![128, 2]⟩
abbrev S320000x2 : Shape := ⟨2, ![320000, 2]⟩
abbrev S1x2 : Shape := ⟨2, ![1, 2]⟩
abbrev S2 : Shape := ⟨1, ![2]⟩
abbrev S1 : Shape := ⟨1, ![1]⟩
abbrev S1x1 : Shape := ⟨2, ![1, 1]⟩
abbrev S1x128x128 : Shape := ⟨3, ![1, 128, 128]⟩
abbrev S5x8x128 : Shape := ⟨3, ![5, 8, 128]⟩
abbrev S1x8x128 : Shape := ⟨3, ![1, 8, 128]⟩
abbrev S1x1x128 : Shape := ⟨3, ![1, 1, 128]⟩

abbrev nBuf : Space → Nat
  | .hbm => 745
  | .vmem => 228
  | .smem => 0
  | _ => 0

abbrev hbmTy0_0 (i : Nat) : BufTy := match i % 128 with
  | 0 => ⟨S20000x2, .f32⟩
  | 1 => ⟨S2x128, .f32⟩
  | 2 => ⟨S128, .f32⟩
  | 3 => ⟨S4, .f32⟩
  | 4 => ⟨S4x128x128, .f32⟩
  | 5 => ⟨S4x128, .f32⟩
  | 6 => ⟨S4x128, .f32⟩
  | 7 => ⟨S4x128, .f32⟩
  | 8 => ⟨S4x128x128, .f32⟩
  | 9 => ⟨S4x128, .f32⟩
  | 10 => ⟨S4x128, .f32⟩
  | 11 => ⟨S4x128, .f32⟩
  | 12 => ⟨S4x128, .f32⟩
  | 13 => ⟨S4x128, .f32⟩
  | 14 => ⟨S5x256x128, .f32⟩
  | 15 => ⟨S5x128, .f32⟩
  | 16 => ⟨S5x128x2, .f32⟩
  | 17 => ⟨S5x2, .f32⟩
  | 18 => ⟨S320000, .i32⟩
  | 19 => ⟨S320000, .i32⟩
  | 20 => ⟨S20000x128, .f32⟩
  | 21 => ⟨S1x128, .f32⟩
  | 22 => ⟨S20000x128, .f32⟩
  | 23 => ⟨S20000x128, .f32⟩
  | 24 => ⟨S1x256x128, .f32⟩
  | 25 => ⟨S256x128, .f32⟩
  | 26 => ⟨S128x128, .f32⟩
  | 27 => ⟨S128x128, .bf16⟩
  | 28 => ⟨S128x128, .f32⟩
  | 29 => ⟨S128x128, .bf16⟩
  | 30 => ⟨S20000x128, .bf16⟩
  | 31 => ⟨S20000x128, .bf16⟩
  | 32 => ⟨S_, .i32⟩
  | 33 => ⟨S320000, .i32⟩
  | 34 => ⟨S320000, .i1⟩
  | 35 => ⟨S_, .i32⟩
  | 36 => ⟨S320000, .i32⟩
  | 37 => ⟨S320000, .i32⟩
  | 38 => ⟨S320000, .i32⟩
  | 39 => ⟨S320000x1, .i32⟩
  | 40 => ⟨S320000x128, .bf16⟩
  | 41 => ⟨S320000x128, .f32⟩
  | 42 => ⟨S_, .i32⟩
  | 43 => ⟨S320000, .i32⟩
  | 44 => ⟨S320000, .i1⟩
  | 45 => ⟨S_, .i32⟩
  | 46 => ⟨S320000, .i32⟩
  | 47 => ⟨S320000, .i32⟩
  | 48 => ⟨S320000, .i32⟩
  | 49 => ⟨S320000x1, .i32⟩
  | 50 => ⟨S320000x128, .bf16⟩
  | 51 => ⟨S320000x128, .f32⟩
  | 52 => ⟨S320000x128, .f32⟩
  | 53 => ⟨S1x128, .f32⟩
  | 54 => ⟨S128, .f32⟩
  | 55 => ⟨S1x128, .f32⟩
  | 56 => ⟨S320000x128, .f32⟩
  | 57 => ⟨S320000x128, .f32⟩
  | 58 => ⟨S_, .f32⟩
  | 59 => ⟨S320000x128, .f32⟩
  | 60 => ⟨S320000x128, .f32⟩
  | 61 => ⟨S1x128x2, .f32⟩
  | 62 => ⟨S128x2, .f32⟩
  | 63 => ⟨S320000x2, .f32⟩
  | 64 => ⟨S1x2, .f32⟩
  | 65 => ⟨S2, .f32⟩
  | 66 => ⟨S1x2, .f32⟩
  | 67 => ⟨S320000x2, .f32⟩
  | 68 => ⟨S320000x2, .f32⟩
  | 69 => ⟨S_, .i32⟩
  | 70 => ⟨S320000, .i32⟩
  | 71 => ⟨S320000, .i1⟩
  | 72 => ⟨S_, .i32⟩
  | 73 => ⟨S320000, .i32⟩
  | 74 => ⟨S320000, .i32⟩
  | 75 => ⟨S320000, .i32⟩
  | 76 => ⟨S320000x1, .i32⟩
  | 77 => ⟨S320000x128, .f32⟩
  | 78 => ⟨S_, .f32⟩
  | 79 => ⟨S20000x128, .f32⟩
  | 80 => ⟨S320000x1, .i32⟩
  | 81 => ⟨S20000x128, .f32⟩
  | 82 => ⟨S1, .f32⟩
  | 83 => ⟨S_, .f32⟩
  | 84 => ⟨S1x1, .f32⟩
  | 85 => ⟨S1x128x128, .f32⟩
  | 86 => ⟨S128x128, .f32⟩
  | 87 => ⟨S1x128, .f32⟩
  | 88 => ⟨S128, .f32⟩
  | 89 => ⟨S1x128, .f32⟩
  | 90 => ⟨S20000x128, .bf16⟩
  | 91 => ⟨S5x8x128, .f32⟩
  | 92 => ⟨S5x8x128, .f32⟩
  | 93 => ⟨S_, .f32⟩
  | 94 => ⟨S128, .f32⟩
  | 95 => ⟨S_, .f32⟩
  | 96 => ⟨S128, .f32⟩
  | 97 => ⟨S128, .f32⟩
  | 98 => ⟨S_, .f32⟩
  | 99 => ⟨S128, .f32⟩
  | 100 => ⟨S_, .f32⟩
  | 101 => ⟨S128, .f32⟩
  | 102 => ⟨S128, .f32⟩
  | 103 => ⟨S_, .f32⟩
  | 104 => ⟨S128, .f32⟩
  | 105 => ⟨S128, .f32⟩
  | 106 => ⟨S_, .f32⟩
  | 107 => ⟨S128, .f32⟩
  | 108 => ⟨S128, .f32⟩
  | 109 => ⟨S128, .f32⟩
  | 110 => ⟨S128, .f32⟩
  | 111 => ⟨S_, .f32⟩
  | 112 => ⟨S128, .f32⟩
  | 113 => ⟨S128, .f32⟩
  | 114 => ⟨S1x128, .f32⟩
  | 115 => ⟨S1x128, .f32⟩
  | 116 => ⟨S1x128, .f32⟩
  | 117 => ⟨S128, .f32⟩
  | 118 => ⟨S1x128, .f32⟩
  | 119 => ⟨S1x128, .f32⟩
  | 120 => ⟨S128, .f32⟩
  | 121 => ⟨S1x128, .f32⟩
  | 122 => ⟨S1x128x128, .f32⟩
  | 123 => ⟨S128x128, .f32⟩
  | 124 => ⟨S1x128, .f32⟩
  | 125 => ⟨S128, .f32⟩
  | 126 => ⟨S1x128, .f32⟩
  | 127 => ⟨S20000x128, .bf16⟩
  | _ => ⟨S20000x2, .f32⟩

abbrev hbmTy0_1 (i : Nat) : BufTy := match i % 128 with
  | 0 => ⟨S5x8x128, .f32⟩
  | 1 => ⟨S5x8x128, .f32⟩
  | 2 => ⟨S_, .f32⟩
  | 3 => ⟨S128, .f32⟩
  | 4 => ⟨S_, .f32⟩
  | 5 => ⟨S128, .f32⟩
  | 6 => ⟨S128, .f32⟩
  | 7 => ⟨S_, .f32⟩
  | 8 => ⟨S128, .f32⟩
  | 9 => ⟨S_, .f32⟩
  | 10 => ⟨S128, .f32⟩
  | 11 => ⟨S128, .f32⟩
  | 12 => ⟨S_, .f32⟩
  | 13 => ⟨S128, .f32⟩
  | 14 => ⟨S128, .f32⟩
  | 15 => ⟨S_, .f32⟩
  | 16 => ⟨S128, .f32⟩
  | 17 => ⟨S128, .f32⟩
  | 18 => ⟨S128, .f32⟩
  | 19 => ⟨S128, .f32⟩
  | 20 => ⟨S_, .f32⟩
  | 21 => ⟨S128, .f32⟩
  | 22 => ⟨S128, .f32⟩
  | 23 => ⟨S1x128, .f32⟩
  | 24 => ⟨S1x128, .f32⟩
  | 25 => ⟨S1x128, .f32⟩
  | 26 => ⟨S128, .f32⟩
  | 27 => ⟨S1x128, .f32⟩
  | 28 => ⟨S1x128, .f32⟩
  | 29 => ⟨S128, .f32⟩
  | 30 => ⟨S1x128, .f32⟩
  | 31 => ⟨S20000x128, .bf16⟩
  | 32 => ⟨S5x8x128, .f32⟩
  | 33 => ⟨S5x8x128, .f32⟩
  | 34 => ⟨S_, .f32⟩
  | 35 => ⟨S128, .f32⟩
  | 36 => ⟨S_, .f32⟩
  | 37 => ⟨S128, .f32⟩
  | 38 => ⟨S128, .f32⟩
  | 39 => ⟨S_, .f32⟩
  | 40 => ⟨S128, .f32⟩
  | 41 => ⟨S_, .f32⟩
  | 42 => ⟨S128, .f32⟩
  | 43 => ⟨S128, .f32⟩
  | 44 => ⟨S_, .f32⟩
  | 45 => ⟨S128, .f32⟩
  | 46 => ⟨S128, .f32⟩
  | 47 => ⟨S_, .f32⟩
  | 48 => ⟨S128, .f32⟩
  | 49 => ⟨S128, .f32⟩
  | 50 => ⟨S128, .f32⟩
  | 51 => ⟨S128, .f32⟩
  | 52 => ⟨S_, .f32⟩
  | 53 => ⟨S128, .f32⟩
  | 54 => ⟨S128, .f32⟩
  | 55 => ⟨S1x128, .f32⟩
  | 56 => ⟨S1x128, .f32⟩
  | 57 => ⟨S1x128, .f32⟩
  | 58 => ⟨S128, .f32⟩
  | 59 => ⟨S1x128, .f32⟩
  | 60 => ⟨S1x128, .f32⟩
  | 61 => ⟨S128, .f32⟩
  | 62 => ⟨S1x128, .f32⟩
  | 63 => ⟨S1x256x128, .f32⟩
  | 64 => ⟨S256x128, .f32⟩
  | 65 => ⟨S128x128, .f32⟩
  | 66 => ⟨S128x128, .bf16⟩
  | 67 => ⟨S128x128, .f32⟩
  | 68 => ⟨S128x128, .bf16⟩
  | 69 => ⟨S20000x128, .f32⟩
  | 70 => ⟨S20000x128, .bf16⟩
  | 71 => ⟨S20000x128, .bf16⟩
  | 72 => ⟨S_, .i32⟩
  | 73 => ⟨S320000, .i32⟩
  | 74 => ⟨S320000, .i1⟩
  | 75 => ⟨S_, .i32⟩
  | 76 => ⟨S320000, .i32⟩
  | 77 => ⟨S320000, .i32⟩
  | 78 => ⟨S320000, .i32⟩
  | 79 => ⟨S320000x1, .i32⟩
  | 80 => ⟨S320000x128, .bf16⟩
  | 81 => ⟨S320000x128, .f32⟩
  | 82 => ⟨S_, .i32⟩
  | 83 => ⟨S320000, .i32⟩
  | 84 => ⟨S320000, .i1⟩
  | 85 => ⟨S_, .i32⟩
  | 86 => ⟨S320000, .i32⟩
  | 87 => ⟨S320000, .i32⟩
  | 88 => ⟨S320000, .i32⟩
  | 89 => ⟨S320000x1, .i32⟩
  | 90 => ⟨S320000x128, .bf16⟩
  | 91 => ⟨S320000x128, .f32⟩
  | 92 => ⟨S320000x128, .f32⟩
  | 93 => ⟨S1x128, .f32⟩
  | 94 => ⟨S128, .f32⟩
  | 95 => ⟨S1x128, .f32⟩
  | 96 => ⟨S320000x128, .f32⟩
  | 97 => ⟨S320000x128, .f32⟩
  | 98 => ⟨S_, .f32⟩
  | 99 => ⟨S320000x128, .f32⟩
  | 100 => ⟨S320000x128, .f32⟩
  | 101 => ⟨S1x128x2, .f32⟩
  | 102 => ⟨S128x2, .f32⟩
  | 103 => ⟨S320000x2, .f32⟩
  | 104 => ⟨S1x2, .f32⟩
  | 105 => ⟨S2, .f32⟩
  | 106 => ⟨S1x2, .f32⟩
  | 107 => ⟨S320000x2, .f32⟩
  | 108 => ⟨S320000x2, .f32⟩
  | 109 => ⟨S320000x2, .f32⟩
  | 110 => ⟨S_, .i32⟩
  | 111 => ⟨S320000, .i32⟩
  | 112 => ⟨S320000, .i1⟩
  | 113 => ⟨S_, .i32⟩
  | 114 => ⟨S320000, .i32⟩
  | 115 => ⟨S320000, .i32⟩
  | 116 => ⟨S320000, .i32⟩
  | 117 => ⟨S320000x1, .i32⟩
  | 118 => ⟨S320000x128, .f32⟩
  | 119 => ⟨S_, .f32⟩
  | 120 => ⟨S20000x128, .f32⟩
  | 121 => ⟨S320000x1, .i32⟩
  | 122 => ⟨S20000x128, .f32⟩
  | 123 => ⟨S1, .f32⟩
  | 124 => ⟨S_, .f32⟩
  | 125 => ⟨S1x1, .f32⟩
  | 126 => ⟨S1x128x128, .f32⟩
  | 127 => ⟨S128x128, .f32⟩
  | _ => ⟨S20000x2, .f32⟩

abbrev hbmTy0_2 (i : Nat) : BufTy := match i % 128 with
  | 0 => ⟨S1x128, .f32⟩
  | 1 => ⟨S128, .f32⟩
  | 2 => ⟨S1x128, .f32⟩
  | 3 => ⟨S20000x128, .bf16⟩
  | 4 => ⟨S5x8x128, .f32⟩
  | 5 => ⟨S5x8x128, .f32⟩
  | 6 => ⟨S_, .f32⟩
  | 7 => ⟨S128, .f32⟩
  | 8 => ⟨S_, .f32⟩
  | 9 => ⟨S128, .f32⟩
  | 10 => ⟨S128, .f32⟩
  | 11 => ⟨S_, .f32⟩
  | 12 => ⟨S128, .f32⟩
  | 13 => ⟨S_, .f32⟩
  | 14 => ⟨S128, .f32⟩
  | 15 => ⟨S128, .f32⟩
  | 16 => ⟨S_, .f32⟩
  | 17 => ⟨S128, .f32⟩
  | 18 => ⟨S128, .f32⟩
  | 19 => ⟨S_, .f32⟩
  | 20 => ⟨S128, .f32⟩
  | 21 => ⟨S128, .f32⟩
  | 22 => ⟨S128, .f32⟩
  | 23 => ⟨S128, .f32⟩
  | 24 => ⟨S_, .f32⟩
  | 25 => ⟨S128, .f32⟩
  | 26 => ⟨S128, .f32⟩
  | 27 => ⟨S1x128, .f32⟩
  | 28 => ⟨S1x128, .f32⟩
  | 29 => ⟨S1x128, .f32⟩
  | 30 => ⟨S128, .f32⟩
  | 31 => ⟨S1x128, .f32⟩
  | 32 => ⟨S1x128, .f32⟩
  | 33 => ⟨S128, .f32⟩
  | 34 => ⟨S1x128, .f32⟩
  | 35 => ⟨S1x128x128, .f32⟩
  | 36 => ⟨S128x128, .f32⟩
  | 37 => ⟨S1x128, .f32⟩
  | 38 => ⟨S128, .f32⟩
  | 39 => ⟨S1x128, .f32⟩
  | 40 => ⟨S20000x128, .bf16⟩
  | 41 => ⟨S5x8x128, .f32⟩
  | 42 => ⟨S5x8x128, .f32⟩
  | 43 => ⟨S_, .f32⟩
  | 44 => ⟨S128, .f32⟩
  | 45 => ⟨S_, .f32⟩
  | 46 => ⟨S128, .f32⟩
  | 47 => ⟨S128, .f32⟩
  | 48 => ⟨S_, .f32⟩
  | 49 => ⟨S128, .f32⟩
  | 50 => ⟨S_, .f32⟩
  | 51 => ⟨S128, .f32⟩
  | 52 => ⟨S128, .f32⟩
  | 53 => ⟨S_, .f32⟩
  | 54 => ⟨S128, .f32⟩
  | 55 => ⟨S128, .f32⟩
  | 56 => ⟨S_, .f32⟩
  | 57 => ⟨S128, .f32⟩
  | 58 => ⟨S128, .f32⟩
  | 59 => ⟨S128, .f32⟩
  | 60 => ⟨S128, .f32⟩
  | 61 => ⟨S_, .f32⟩
  | 62 => ⟨S128, .f32⟩
  | 63 => ⟨S128, .f32⟩
  | 64 => ⟨S1x128, .f32⟩
  | 65 => ⟨S1x128, .f32⟩
  | 66 => ⟨S1x128, .f32⟩
  | 67 => ⟨S128, .f32⟩
  | 68 => ⟨S1x128, .f32⟩
  | 69 => ⟨S1x128, .f32⟩
  | 70 => ⟨S128, .f32⟩
  | 71 => ⟨S1x128, .f32⟩
  | 72 => ⟨S20000x128, .bf16⟩
  | 73 => ⟨S5x8x128, .f32⟩
  | 74 => ⟨S5x8x128, .f32⟩
  | 75 => ⟨S_, .f32⟩
  | 76 => ⟨S128, .f32⟩
  | 77 => ⟨S_, .f32⟩
  | 78 => ⟨S128, .f32⟩
  | 79 => ⟨S128, .f32⟩
  | 80 => ⟨S_, .f32⟩
  | 81 => ⟨S128, .f32⟩
  | 82 => ⟨S_, .f32⟩
  | 83 => ⟨S128, .f32⟩
  | 84 => ⟨S128, .f32⟩
  | 85 => ⟨S_, .f32⟩
  | 86 => ⟨S128, .f32⟩
  | 87 => ⟨S128, .f32⟩
  | 88 => ⟨S_, .f32⟩
  | 89 => ⟨S128, .f32⟩
  | 90 => ⟨S128, .f32⟩
  | 91 => ⟨S128, .f32⟩
  | 92 => ⟨S128, .f32⟩
  | 93 => ⟨S_, .f32⟩
  | 94 => ⟨S128, .f32⟩
  | 95 => ⟨S128, .f32⟩
  | 96 => ⟨S1x128, .f32⟩
  | 97 => ⟨S1x128, .f32⟩
  | 98 => ⟨S1x128, .f32⟩
  | 99 => ⟨S128, .f32⟩
  | 100 => ⟨S1x128, .f32⟩
  | 101 => ⟨S1x128, .f32⟩
  | 102 => ⟨S128, .f32⟩
  | 103 => ⟨S1x128, .f32⟩
  | 104 => ⟨S1x256x128, .f32⟩
  | 105 => ⟨S256x128, .f32⟩
  | 106 => ⟨S128x128, .f32⟩
  | 107 => ⟨S128x128, .bf16⟩
  | 108 => ⟨S128x128, .f32⟩
  | 109 => ⟨S128x128, .bf16⟩
  | 110 => ⟨S20000x128, .f32⟩
  | 111 => ⟨S20000x128, .bf16⟩
  | 112 => ⟨S20000x128, .bf16⟩
  | 113 => ⟨S_, .i32⟩
  | 114 => ⟨S320000, .i32⟩
  | 115 => ⟨S320000, .i1⟩
  | 116 => ⟨S_, .i32⟩
  | 117 => ⟨S320000, .i32⟩
  | 118 => ⟨S320000, .i32⟩
  | 119 => ⟨S320000, .i32⟩
  | 120 => ⟨S320000x1, .i32⟩
  | 121 => ⟨S320000x128, .bf16⟩
  | 122 => ⟨S320000x128, .f32⟩
  | 123 => ⟨S_, .i32⟩
  | 124 => ⟨S320000, .i32⟩
  | 125 => ⟨S320000, .i1⟩
  | 126 => ⟨S_, .i32⟩
  | 127 => ⟨S320000, .i32⟩
  | _ => ⟨S20000x2, .f32⟩

abbrev hbmTy0_3 (i : Nat) : BufTy := match i % 128 with
  | 0 => ⟨S320000, .i32⟩
  | 1 => ⟨S320000, .i32⟩
  | 2 => ⟨S320000x1, .i32⟩
  | 3 => ⟨S320000x128, .bf16⟩
  | 4 => ⟨S320000x128, .f32⟩
  | 5 => ⟨S320000x128, .f32⟩
  | 6 => ⟨S1x128, .f32⟩
  | 7 => ⟨S128, .f32⟩
  | 8 => ⟨S1x128, .f32⟩
  | 9 => ⟨S320000x128, .f32⟩
  | 10 => ⟨S320000x128, .f32⟩
  | 11 => ⟨S_, .f32⟩
  | 12 => ⟨S320000x128, .f32⟩
  | 13 => ⟨S320000x128, .f32⟩
  | 14 => ⟨S1x128x2, .f32⟩
  | 15 => ⟨S128x2, .f32⟩
  | 16 => ⟨S320000x2, .f32⟩
  | 17 => ⟨S1x2, .f32⟩
  | 18 => ⟨S2, .f32⟩
  | 19 => ⟨S1x2, .f32⟩
  | 20 => ⟨S320000x2, .f32⟩
  | 21 => ⟨S320000x2, .f32⟩
  | 22 => ⟨S320000x2, .f32⟩
  | 23 => ⟨S_, .i32⟩
  | 24 => ⟨S320000, .i32⟩
  | 25 => ⟨S320000, .i1⟩
  | 26 => ⟨S_, .i32⟩
  | 27 => ⟨S320000, .i32⟩
  | 28 => ⟨S320000, .i32⟩
  | 29 => ⟨S320000, .i32⟩
  | 30 => ⟨S320000x1, .i32⟩
  | 31 => ⟨S320000x128, .f32⟩
  | 32 => ⟨S_, .f32⟩
  | 33 => ⟨S20000x128, .f32⟩
  | 34 => ⟨S320000x1, .i32⟩
  | 35 => ⟨S20000x128, .f32⟩
  | 36 => ⟨S1, .f32⟩
  | 37 => ⟨S_, .f32⟩
  | 38 => ⟨S1x1, .f32⟩
  | 39 => ⟨S1x128x128, .f32⟩
  | 40 => ⟨S128x128, .f32⟩
  | 41 => ⟨S1x128, .f32⟩
  | 42 => ⟨S128, .f32⟩
  | 43 => ⟨S1x128, .f32⟩
  | 44 => ⟨S20000x128, .bf16⟩
  | 45 => ⟨S5x8x128, .f32⟩
  | 46 => ⟨S5x8x128, .f32⟩
  | 47 => ⟨S_, .f32⟩
  | 48 => ⟨S128, .f32⟩
  | 49 => ⟨S_, .f32⟩
  | 50 => ⟨S128, .f32⟩
  | 51 => ⟨S128, .f32⟩
  | 52 => ⟨S_, .f32⟩
  | 53 => ⟨S128, .f32⟩
  | 54 => ⟨S_, .f32⟩
  | 55 => ⟨S128, .f32⟩
  | 56 => ⟨S128, .f32⟩
  | 57 => ⟨S_, .f32⟩
  | 58 => ⟨S128, .f32⟩
  | 59 => ⟨S128, .f32⟩
  | 60 => ⟨S_, .f32⟩
  | 61 => ⟨S128, .f32⟩
  | 62 => ⟨S128, .f32⟩
  | 63 => ⟨S128, .f32⟩
  | 64 => ⟨S128, .f32⟩
  | 65 => ⟨S_, .f32⟩
  | 66 => ⟨S128, .f32⟩
  | 67 => ⟨S128, .f32⟩
  | 68 => ⟨S1x128, .f32⟩
  | 69 => ⟨S1x128, .f32⟩
  | 70 => ⟨S1x128, .f32⟩
  | 71 => ⟨S128, .f32⟩
  | 72 => ⟨S1x128, .f32⟩
  | 73 => ⟨S1x128, .f32⟩
  | 74 => ⟨S128, .f32⟩
  | 75 => ⟨S1x128, .f32⟩
  | 76 => ⟨S1x128x128, .f32⟩
  | 77 => ⟨S128x128, .f32⟩
  | 78 => ⟨S1x128, .f32⟩
  | 79 => ⟨S128, .f32⟩
  | 80 => ⟨S1x128, .f32⟩
  | 81 => ⟨S20000x128, .bf16⟩
  | 82 => ⟨S5x8x128, .f32⟩
  | 83 => ⟨S5x8x128, .f32⟩
  | 84 => ⟨S_, .f32⟩
  | 85 => ⟨S128, .f32⟩
  | 86 => ⟨S_, .f32⟩
  | 87 => ⟨S128, .f32⟩
  | 88 => ⟨S128, .f32⟩
  | 89 => ⟨S_, .f32⟩
  | 90 => ⟨S128, .f32⟩
  | 91 => ⟨S_, .f32⟩
  | 92 => ⟨S128, .f32⟩
  | 93 => ⟨S128, .f32⟩
  | 94 => ⟨S_, .f32⟩
  | 95 => ⟨S128, .f32⟩
  | 96 => ⟨S128, .f32⟩
  | 97 => ⟨S_, .f32⟩
  | 98 => ⟨S128, .f32⟩
  | 99 => ⟨S128, .f32⟩
  | 100 => ⟨S128, .f32⟩
  | 101 => ⟨S128, .f32⟩
  | 102 => ⟨S_, .f32⟩
  | 103 => ⟨S128, .f32⟩
  | 104 => ⟨S128, .f32⟩
  | 105 => ⟨S1x128, .f32⟩
  | 106 => ⟨S1x128, .f32⟩
  | 107 => ⟨S1x128, .f32⟩
  | 108 => ⟨S128, .f32⟩
  | 109 => ⟨S1x128, .f32⟩
  | 110 => ⟨S1x128, .f32⟩
  | 111 => ⟨S128, .f32⟩
  | 112 => ⟨S1x128, .f32⟩
  | 113 => ⟨S20000x128, .bf16⟩
  | 114 => ⟨S5x8x128, .f32⟩
  | 115 => ⟨S5x8x128, .f32⟩
  | 116 => ⟨S_, .f32⟩
  | 117 => ⟨S128, .f32⟩
  | 118 => ⟨S_, .f32⟩
  | 119 => ⟨S128, .f32⟩
  | 120 => ⟨S128, .f32⟩
  | 121 => ⟨S_, .f32⟩
  | 122 => ⟨S128, .f32⟩
  | 123 => ⟨S_, .f32⟩
  | 124 => ⟨S128, .f32⟩
  | 125 => ⟨S128, .f32⟩
  | 126 => ⟨S_, .f32⟩
  | 127 => ⟨S128, .f32⟩
  | _ => ⟨S20000x2, .f32⟩

abbrev hbmTy0_4 (i : Nat) : BufTy := match i % 128 with
  | 0 => ⟨S128, .f32⟩
  | 1 => ⟨S_, .f32⟩
  | 2 => ⟨S128, .f32⟩
  | 3 => ⟨S128, .f32⟩
  | 4 => ⟨S128, .f32⟩
  | 5 => ⟨S128, .f32⟩
  | 6 => ⟨S_, .f32⟩
  | 7 => ⟨S128, .f32⟩
  | 8 => ⟨S128, .f32⟩
  | 9 => ⟨S1x128, .f32⟩
  | 10 => ⟨S1x128, .f32⟩
  | 11 => ⟨S1x128, .f32⟩
  | 12 => ⟨S128, .f32⟩
  | 13 => ⟨S1x128, .f32⟩
  | 14 => ⟨S1x128, .f32⟩
  | 15 => ⟨S128, .f32⟩
  | 16 => ⟨S1x128, .f32⟩
  | 17 => ⟨S1x256x128, .f32⟩
  | 18 => ⟨S256x128, .f32⟩
  | 19 => ⟨S128x128, .f32⟩
  | 20 => ⟨S128x128, .bf16⟩
  | 21 => ⟨S128x128, .f32⟩
  | 22 => ⟨S128x128, .bf16⟩
  | 23 => ⟨S20000x128, .f32⟩
  | 24 => ⟨S20000x128, .bf16⟩
  | 25 => ⟨S20000x128, .bf16⟩
  | 26 => ⟨S_, .i32⟩
  | 27 => ⟨S320000, .i32⟩
  | 28 => ⟨S320000, .i1⟩
  | 29 => ⟨S_, .i32⟩
  | 30 => ⟨S320000, .i32⟩
  | 31 => ⟨S320000, .i32⟩
  | 32 => ⟨S320000, .i32⟩
  | 33 => ⟨S320000x1, .i32⟩
  | 34 => ⟨S320000x128, .bf16⟩
  | 35 => ⟨S320000x128, .f32⟩
  | 36 => ⟨S_, .i32⟩
  | 37 => ⟨S320000, .i32⟩
  | 38 => ⟨S320000, .i1⟩
  | 39 => ⟨S_, .i32⟩
  | 40 => ⟨S320000, .i32⟩
  | 41 => ⟨S320000, .i32⟩
  | 42 => ⟨S320000, .i32⟩
  | 43 => ⟨S320000x1, .i32⟩
  | 44 => ⟨S320000x128, .bf16⟩
  | 45 => ⟨S320000x128, .f32⟩
  | 46 => ⟨S320000x128, .f32⟩
  | 47 => ⟨S1x128, .f32⟩
  | 48 => ⟨S128, .f32⟩
  | 49 => ⟨S1x128, .f32⟩
  | 50 => ⟨S320000x128, .f32⟩
  | 51 => ⟨S320000x128, .f32⟩
  | 52 => ⟨S_, .f32⟩
  | 53 => ⟨S320000x128, .f32⟩
  | 54 => ⟨S320000x128, .f32⟩
  | 55 => ⟨S1x128x2, .f32⟩
  | 56 => ⟨S128x2, .f32⟩
  | 57 => ⟨S320000x2, .f32⟩
  | 58 => ⟨S1x2, .f32⟩
  | 59 => ⟨S2, .f32⟩
  | 60 => ⟨S1x2, .f32⟩
  | 61 => ⟨S320000x2, .f32⟩
  | 62 => ⟨S320000x2, .f32⟩
  | 63 => ⟨S320000x2, .f32⟩
  | 64 => ⟨S_, .i32⟩
  | 65 => ⟨S320000, .i32⟩
  | 66 => ⟨S320000, .i1⟩
  | 67 => ⟨S_, .i32⟩
  | 68 => ⟨S320000, .i32⟩
  | 69 => ⟨S320000, .i32⟩
  | 70 => ⟨S320000, .i32⟩
  | 71 => ⟨S320000x1, .i32⟩
  | 72 => ⟨S320000x128, .f32⟩
  | 73 => ⟨S_, .f32⟩
  | 74 => ⟨S20000x128, .f32⟩
  | 75 => ⟨S320000x1, .i32⟩
  | 76 => ⟨S20000x128, .f32⟩
  | 77 => ⟨S1, .f32⟩
  | 78 => ⟨S_, .f32⟩
  | 79 => ⟨S1x1, .f32⟩
  | 80 => ⟨S1x128x128, .f32⟩
  | 81 => ⟨S128x128, .f32⟩
  | 82 => ⟨S1x128, .f32⟩
  | 83 => ⟨S128, .f32⟩
  | 84 => ⟨S1x128, .f32⟩
  | 85 => ⟨S20000x128, .bf16⟩
  | 86 => ⟨S5x8x128, .f32⟩
  | 87 => ⟨S5x8x128, .f32⟩
  | 88 => ⟨S_, .f32⟩
  | 89 => ⟨S128, .f32⟩
  | 90 => ⟨S_, .f32⟩
  | 91 => ⟨S128, .f32⟩
  | 92 => ⟨S128, .f32⟩
  | 93 => ⟨S_, .f32⟩
  | 94 => ⟨S128, .f32⟩
  | 95 => ⟨S_, .f32⟩
  | 96 => ⟨S128, .f32⟩
  | 97 => ⟨S128, .f32⟩
  | 98 => ⟨S_, .f32⟩
  | 99 => ⟨S128, .f32⟩
  | 100 => ⟨S128, .f32⟩
  | 101 => ⟨S_, .f32⟩
  | 102 => ⟨S128, .f32⟩
  | 103 => ⟨S128, .f32⟩
  | 104 => ⟨S128, .f32⟩
  | 105 => ⟨S128, .f32⟩
  | 106 => ⟨S_, .f32⟩
  | 107 => ⟨S128, .f32⟩
  | 108 => ⟨S128, .f32⟩
  | 109 => ⟨S1x128, .f32⟩
  | 110 => ⟨S1x128, .f32⟩
  | 111 => ⟨S1x128, .f32⟩
  | 112 => ⟨S128, .f32⟩
  | 113 => ⟨S1x128, .f32⟩
  | 114 => ⟨S1x128, .f32⟩
  | 115 => ⟨S128, .f32⟩
  | 116 => ⟨S1x128, .f32⟩
  | 117 => ⟨S1x128x128, .f32⟩
  | 118 => ⟨S128x128, .f32⟩
  | 119 => ⟨S1x128, .f32⟩
  | 120 => ⟨S128, .f32⟩
  | 121 => ⟨S1x128, .f32⟩
  | 122 => ⟨S20000x128, .bf16⟩
  | 123 => ⟨S5x8x128, .f32⟩
  | 124 => ⟨S5x8x128, .f32⟩
  | 125 => ⟨S_, .f32⟩
  | 126 => ⟨S128, .f32⟩
  | 127 => ⟨S_, .f32⟩
  | _ => ⟨S20000x2, .f32⟩

abbrev hbmTy0_5 (i : Nat) : BufTy := match i % 128 with
  | 0 => ⟨S128, .f32⟩
  | 1 => ⟨S128, .f32⟩
  | 2 => ⟨S_, .f32⟩
  | 3 => ⟨S128, .f32⟩
  | 4 => ⟨S_, .f32⟩
  | 5 => ⟨S128, .f32⟩
  | 6 => ⟨S128, .f32⟩
  | 7 => ⟨S_, .f32⟩
  | 8 => ⟨S128, .f32⟩
  | 9 => ⟨S128, .f32⟩
  | 10 => ⟨S_, .f32⟩
  | 11 => ⟨S128, .f32⟩
  | 12 => ⟨S128, .f32⟩
  | 13 => ⟨S128, .f32⟩
  | 14 => ⟨S128, .f32⟩
  | 15 => ⟨S_, .f32⟩
  | 16 => ⟨S128, .f32⟩
  | 17 => ⟨S128, .f32⟩
  | 18 => ⟨S1x128, .f32⟩
  | 19 => ⟨S1x128, .f32⟩
  | 20 => ⟨S1x128, .f32⟩
  | 21 => ⟨S128, .f32⟩
  | 22 => ⟨S1x128, .f32⟩
  | 23 => ⟨S1x128, .f32⟩
  | 24 => ⟨S128, .f32⟩
  | 25 => ⟨S1x128, .f32⟩
  | 26 => ⟨S20000x128, .bf16⟩
  | 27 => ⟨S5x8x128, .f32⟩
  | 28 => ⟨S5x8x128, .f32⟩
  | 29 => ⟨S_, .f32⟩
  | 30 => ⟨S128, .f32⟩
  | 31 => ⟨S_, .f32⟩
  | 32 => ⟨S128, .f32⟩
  | 33 => ⟨S128, .f32⟩
  | 34 => ⟨S_, .f32⟩
  | 35 => ⟨S128, .f32⟩
  | 36 => ⟨S_, .f32⟩
  | 37 => ⟨S128, .f32⟩
  | 38 => ⟨S128, .f32⟩
  | 39 => ⟨S_, .f32⟩
  | 40 => ⟨S128, .f32⟩
  | 41 => ⟨S128, .f32⟩
  | 42 => ⟨S_, .f32⟩
  | 43 => ⟨S128, .f32⟩
  | 44 => ⟨S128, .f32⟩
  | 45 => ⟨S128, .f32⟩
  | 46 => ⟨S128, .f32⟩
  | 47 => ⟨S_, .f32⟩
  | 48 => ⟨S128, .f32⟩
  | 49 => ⟨S128, .f32⟩
  | 50 => ⟨S1x128, .f32⟩
  | 51 => ⟨S1x128, .f32⟩
  | 52 => ⟨S1x128, .f32⟩
  | 53 => ⟨S128, .f32⟩
  | 54 => ⟨S1x128, .f32⟩
  | 55 => ⟨S1x128, .f32⟩
  | 56 => ⟨S128, .f32⟩
  | 57 => ⟨S1x128, .f32⟩
  | 58 => ⟨S1x256x128, .f32⟩
  | 59 => ⟨S256x128, .f32⟩
  | 60 => ⟨S128x128, .f32⟩
  | 61 => ⟨S128x128, .bf16⟩
  | 62 => ⟨S128x128, .f32⟩
  | 63 => ⟨S128x128, .bf16⟩
  | 64 => ⟨S20000x128, .f32⟩
  | 65 => ⟨S20000x128, .bf16⟩
  | 66 => ⟨S20000x128, .bf16⟩
  | 67 => ⟨S_, .i32⟩
  | 68 => ⟨S320000, .i32⟩
  | 69 => ⟨S320000, .i1⟩
  | 70 => ⟨S_, .i32⟩
  | 71 => ⟨S320000, .i32⟩
  | 72 => ⟨S320000, .i32⟩
  | 73 => ⟨S320000, .i32⟩
  | 74 => ⟨S320000x1, .i32⟩
  | 75 => ⟨S320000x128, .bf16⟩
  | 76 => ⟨S320000x128, .f32⟩
  | 77 => ⟨S_, .i32⟩
  | 78 => ⟨S320000, .i32⟩
  | 79 => ⟨S320000, .i1⟩
  | 80 => ⟨S_, .i32⟩
  | 81 => ⟨S320000, .i32⟩
  | 82 => ⟨S320000, .i32⟩
  | 83 => ⟨S320000, .i32⟩
  | 84 => ⟨S320000x1, .i32⟩
  | 85 => ⟨S320000x128, .bf16⟩
  | 86 => ⟨S320000x128, .f32⟩
  | 87 => ⟨S320000x128, .f32⟩
  | 88 => ⟨S1x128, .f32⟩
  | 89 => ⟨S128, .f32⟩
  | 90 => ⟨S1x128, .f32⟩
  | 91 => ⟨S320000x128, .f32⟩
  | 92 => ⟨S320000x128, .f32⟩
  | 93 => ⟨S_, .f32⟩
  | 94 => ⟨S320000x128, .f32⟩
  | 95 => ⟨S320000x128, .f32⟩
  | 96 => ⟨S1x128x2, .f32⟩
  | 97 => ⟨S128x2, .f32⟩
  | 98 => ⟨S320000x2, .f32⟩
  | 99 => ⟨S1x2, .f32⟩
  | 100 => ⟨S2, .f32⟩
  | 101 => ⟨S1x2, .f32⟩
  | 102 => ⟨S320000x2, .f32⟩
  | 103 => ⟨S320000x2, .f32⟩
  | 104 => ⟨S320000x2, .f32⟩
  | _ => ⟨S20000x2, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S20000x2, .f32⟩

abbrev vmemTy0_0 (i : Nat) : BufTy := match i % 128 with
  | 0 => ⟨S4000x128, .f32⟩
  | 1 => ⟨S4000x128, .f32⟩
  | 2 => ⟨S128x128, .bf16⟩
  | 3 => ⟨S128x128, .bf16⟩
  | 4 => ⟨S4000x128, .bf16⟩
  | 5 => ⟨S4000x128, .bf16⟩
  | 6 => ⟨S4000x128, .bf16⟩
  | 7 => ⟨S4000x128, .bf16⟩
  | 8 => ⟨S4000x128, .f32⟩
  | 9 => ⟨S4000x128, .f32⟩
  | 10 => ⟨S4000x128, .f32⟩
  | 11 => ⟨S4000x128, .f32⟩
  | 12 => ⟨S1x1, .f32⟩
  | 13 => ⟨S128x128, .f32⟩
  | 14 => ⟨S1x128, .f32⟩
  | 15 => ⟨S4000x128, .bf16⟩
  | 16 => ⟨S4000x128, .bf16⟩
  | 17 => ⟨S1x8x128, .f32⟩
  | 18 => ⟨S1x8x128, .f32⟩
  | 19 => ⟨S1x8x128, .f32⟩
  | 20 => ⟨S1x8x128, .f32⟩
  | 21 => ⟨S4000x128, .bf16⟩
  | 22 => ⟨S4000x128, .bf16⟩
  | 23 => ⟨S1x128, .f32⟩
  | 24 => ⟨S1x128, .f32⟩
  | 25 => ⟨S1x128, .f32⟩
  | 26 => ⟨S1x128, .f32⟩
  | 27 => ⟨S128x128, .f32⟩
  | 28 => ⟨S1x128, .f32⟩
  | 29 => ⟨S4000x128, .bf16⟩
  | 30 => ⟨S4000x128, .bf16⟩
  | 31 => ⟨S1x8x128, .f32⟩
  | 32 => ⟨S1x8x128, .f32⟩
  | 33 => ⟨S1x8x128, .f32⟩
  | 34 => ⟨S1x8x128, .f32⟩
  | 35 => ⟨S4000x128, .bf16⟩
  | 36 => ⟨S4000x128, .bf16⟩
  | 37 => ⟨S1x128, .f32⟩
  | 38 => ⟨S1x128, .f32⟩
  | 39 => ⟨S1x128, .f32⟩
  | 40 => ⟨S1x128, .f32⟩
  | 41 => ⟨S4000x128, .bf16⟩
  | 42 => ⟨S4000x128, .bf16⟩
  | 43 => ⟨S1x8x128, .f32⟩
  | 44 => ⟨S1x8x128, .f32⟩
  | 45 => ⟨S1x8x128, .f32⟩
  | 46 => ⟨S1x8x128, .f32⟩
  | 47 => ⟨S4000x128, .bf16⟩
  | 48 => ⟨S4000x128, .bf16⟩
  | 49 => ⟨S1x128, .f32⟩
  | 50 => ⟨S1x128, .f32⟩
  | 51 => ⟨S1x128, .f32⟩
  | 52 => ⟨S1x128, .f32⟩
  | 53 => ⟨S4000x128, .f32⟩
  | 54 => ⟨S4000x128, .f32⟩
  | 55 => ⟨S128x128, .bf16⟩
  | 56 => ⟨S128x128, .bf16⟩
  | 57 => ⟨S4000x128, .f32⟩
  | 58 => ⟨S4000x128, .f32⟩
  | 59 => ⟨S4000x128, .bf16⟩
  | 60 => ⟨S4000x128, .bf16⟩
  | 61 => ⟨S4000x128, .bf16⟩
  | 62 => ⟨S4000x128, .bf16⟩
  | 63 => ⟨S4000x128, .f32⟩
  | 64 => ⟨S4000x128, .f32⟩
  | 65 => ⟨S4000x128, .f32⟩
  | 66 => ⟨S4000x128, .f32⟩
  | 67 => ⟨S1x1, .f32⟩
  | 68 => ⟨S128x128, .f32⟩
  | 69 => ⟨S1x128, .f32⟩
  | 70 => ⟨S4000x128, .bf16⟩
  | 71 => ⟨S4000x128, .bf16⟩
  | 72 => ⟨S1x8x128, .f32⟩
  | 73 => ⟨S1x8x128, .f32⟩
  | 74 => ⟨S1x8x128, .f32⟩
  | 75 => ⟨S1x8x128, .f32⟩
  | 76 => ⟨S4000x128, .bf16⟩
  | 77 => ⟨S4000x128, .bf16⟩
  | 78 => ⟨S1x128, .f32⟩
  | 79 => ⟨S1x128, .f32⟩
  | 80 => ⟨S1x128, .f32⟩
  | 81 => ⟨S1x128, .f32⟩
  | 82 => ⟨S128x128, .f32⟩
  | 83 => ⟨S1x128, .f32⟩
  | 84 => ⟨S4000x128, .bf16⟩
  | 85 => ⟨S4000x128, .bf16⟩
  | 86 => ⟨S1x8x128, .f32⟩
  | 87 => ⟨S1x8x128, .f32⟩
  | 88 => ⟨S1x8x128, .f32⟩
  | 89 => ⟨S1x8x128, .f32⟩
  | 90 => ⟨S4000x128, .bf16⟩
  | 91 => ⟨S4000x128, .bf16⟩
  | 92 => ⟨S1x128, .f32⟩
  | 93 => ⟨S1x128, .f32⟩
  | 94 => ⟨S1x128, .f32⟩
  | 95 => ⟨S1x128, .f32⟩
  | 96 => ⟨S4000x128, .bf16⟩
  | 97 => ⟨S4000x128, .bf16⟩
  | 98 => ⟨S1x8x128, .f32⟩
  | 99 => ⟨S1x8x128, .f32⟩
  | 100 => ⟨S1x8x128, .f32⟩
  | 101 => ⟨S1x8x128, .f32⟩
  | 102 => ⟨S4000x128, .bf16⟩
  | 103 => ⟨S4000x128, .bf16⟩
  | 104 => ⟨S1x128, .f32⟩
  | 105 => ⟨S1x128, .f32⟩
  | 106 => ⟨S1x128, .f32⟩
  | 107 => ⟨S1x128, .f32⟩
  | 108 => ⟨S4000x128, .f32⟩
  | 109 => ⟨S4000x128, .f32⟩
  | 110 => ⟨S128x128, .bf16⟩
  | 111 => ⟨S128x128, .bf16⟩
  | 112 => ⟨S4000x128, .f32⟩
  | 113 => ⟨S4000x128, .f32⟩
  | 114 => ⟨S4000x128, .bf16⟩
  | 115 => ⟨S4000x128, .bf16⟩
  | 116 => ⟨S4000x128, .bf16⟩
  | 117 => ⟨S4000x128, .bf16⟩
  | 118 => ⟨S4000x128, .f32⟩
  | 119 => ⟨S4000x128, .f32⟩
  | 120 => ⟨S4000x128, .f32⟩
  | 121 => ⟨S4000x128, .f32⟩
  | 122 => ⟨S1x1, .f32⟩
  | 123 => ⟨S128x128, .f32⟩
  | 124 => ⟨S1x128, .f32⟩
  | 125 => ⟨S4000x128, .bf16⟩
  | 126 => ⟨S4000x128, .bf16⟩
  | 127 => ⟨S1x8x128, .f32⟩
  | _ => ⟨S20000x2, .f32⟩

abbrev vmemTy0_1 (i : Nat) : BufTy := match i % 128 with
  | 0 => ⟨S1x8x128, .f32⟩
  | 1 => ⟨S1x8x128, .f32⟩
  | 2 => ⟨S1x8x128, .f32⟩
  | 3 => ⟨S4000x128, .bf16⟩
  | 4 => ⟨S4000x128, .bf16⟩
  | 5 => ⟨S1x128, .f32⟩
  | 6 => ⟨S1x128, .f32⟩
  | 7 => ⟨S1x128, .f32⟩
  | 8 => ⟨S1x128, .f32⟩
  | 9 => ⟨S128x128, .f32⟩
  | 10 => ⟨S1x128, .f32⟩
  | 11 => ⟨S4000x128, .bf16⟩
  | 12 => ⟨S4000x128, .bf16⟩
  | 13 => ⟨S1x8x128, .f32⟩
  | 14 => ⟨S1x8x128, .f32⟩
  | 15 => ⟨S1x8x128, .f32⟩
  | 16 => ⟨S1x8x128, .f32⟩
  | 17 => ⟨S4000x128, .bf16⟩
  | 18 => ⟨S4000x128, .bf16⟩
  | 19 => ⟨S1x128, .f32⟩
  | 20 => ⟨S1x128, .f32⟩
  | 21 => ⟨S1x128, .f32⟩
  | 22 => ⟨S1x128, .f32⟩
  | 23 => ⟨S4000x128, .bf16⟩
  | 24 => ⟨S4000x128, .bf16⟩
  | 25 => ⟨S1x8x128, .f32⟩
  | 26 => ⟨S1x8x128, .f32⟩
  | 27 => ⟨S1x8x128, .f32⟩
  | 28 => ⟨S1x8x128, .f32⟩
  | 29 => ⟨S4000x128, .bf16⟩
  | 30 => ⟨S4000x128, .bf16⟩
  | 31 => ⟨S1x128, .f32⟩
  | 32 => ⟨S1x128, .f32⟩
  | 33 => ⟨S1x128, .f32⟩
  | 34 => ⟨S1x128, .f32⟩
  | 35 => ⟨S4000x128, .f32⟩
  | 36 => ⟨S4000x128, .f32⟩
  | 37 => ⟨S128x128, .bf16⟩
  | 38 => ⟨S128x128, .bf16⟩
  | 39 => ⟨S4000x128, .f32⟩
  | 40 => ⟨S4000x128, .f32⟩
  | 41 => ⟨S4000x128, .bf16⟩
  | 42 => ⟨S4000x128, .bf16⟩
  | 43 => ⟨S4000x128, .bf16⟩
  | 44 => ⟨S4000x128, .bf16⟩
  | 45 => ⟨S4000x128, .f32⟩
  | 46 => ⟨S4000x128, .f32⟩
  | 47 => ⟨S4000x128, .f32⟩
  | 48 => ⟨S4000x128, .f32⟩
  | 49 => ⟨S1x1, .f32⟩
  | 50 => ⟨S128x128, .f32⟩
  | 51 => ⟨S1x128, .f32⟩
  | 52 => ⟨S4000x128, .bf16⟩
  | 53 => ⟨S4000x128, .bf16⟩
  | 54 => ⟨S1x8x128, .f32⟩
  | 55 => ⟨S1x8x128, .f32⟩
  | 56 => ⟨S1x8x128, .f32⟩
  | 57 => ⟨S1x8x128, .f32⟩
  | 58 => ⟨S4000x128, .bf16⟩
  | 59 => ⟨S4000x128, .bf16⟩
  | 60 => ⟨S1x128, .f32⟩
  | 61 => ⟨S1x128, .f32⟩
  | 62 => ⟨S1x128, .f32⟩
  | 63 => ⟨S1x128, .f32⟩
  | 64 => ⟨S128x128, .f32⟩
  | 65 => ⟨S1x128, .f32⟩
  | 66 => ⟨S4000x128, .bf16⟩
  | 67 => ⟨S4000x128, .bf16⟩
  | 68 => ⟨S1x8x128, .f32⟩
  | 69 => ⟨S1x8x128, .f32⟩
  | 70 => ⟨S1x8x128, .f32⟩
  | 71 => ⟨S1x8x128, .f32⟩
  | 72 => ⟨S4000x128, .bf16⟩
  | 73 => ⟨S4000x128, .bf16⟩
  | 74 => ⟨S1x128, .f32⟩
  | 75 => ⟨S1x128, .f32⟩
  | 76 => ⟨S1x128, .f32⟩
  | 77 => ⟨S1x128, .f32⟩
  | 78 => ⟨S4000x128, .bf16⟩
  | 79 => ⟨S4000x128, .bf16⟩
  | 80 => ⟨S1x8x128, .f32⟩
  | 81 => ⟨S1x8x128, .f32⟩
  | 82 => ⟨S1x8x128, .f32⟩
  | 83 => ⟨S1x8x128, .f32⟩
  | 84 => ⟨S4000x128, .bf16⟩
  | 85 => ⟨S4000x128, .bf16⟩
  | 86 => ⟨S1x128, .f32⟩
  | 87 => ⟨S1x128, .f32⟩
  | 88 => ⟨S1x128, .f32⟩
  | 89 => ⟨S1x128, .f32⟩
  | 90 => ⟨S4000x128, .f32⟩
  | 91 => ⟨S4000x128, .f32⟩
  | 92 => ⟨S128x128, .bf16⟩
  | 93 => ⟨S128x128, .bf16⟩
  | 94 => ⟨S4000x128, .f32⟩
  | 95 => ⟨S4000x128, .f32⟩
  | 96 => ⟨S4000x128, .bf16⟩
  | 97 => ⟨S4000x128, .bf16⟩
  | 98 => ⟨S4000x128, .bf16⟩
  | 99 => ⟨S4000x128, .bf16⟩
  | _ => ⟨S20000x2, .f32⟩

abbrev vmemTy (i : Nat) : BufTy := match i / 128 with
  | 0 => vmemTy0_0 i
  | 1 => vmemTy0_1 i
  | _ => ⟨S20000x2, .f32⟩

abbrev bufTy : (tb : Table) → Fin (tcTables nBuf tb) → BufTy
  | .hbm, ⟨i, _⟩ => hbmTy i
  | .local _ .vmem, ⟨i, _⟩ => vmemTy i
  | _, _ => ⟨S20000x2, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 228 → Bool
  | ⟨i, _⟩ => dmaSemScopedAt i

abbrev sig : RefSig :=
  ofTc nBuf bufTy 0 228 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10_0 : Ref sig .tc := ⟨.hbm, 30, rfl⟩
abbrev main_v10_1 : Ref sig .tc := ⟨.hbm, 31, rfl⟩
abbrev main_c : Ref sig .tc := ⟨.hbm, 32, rfl⟩
abbrev main_v11 : Ref sig .tc := ⟨.hbm, 33, rfl⟩
abbrev main_v12 : Ref sig .tc := ⟨.hbm, 34, rfl⟩
abbrev main_c_0 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_c_1 : Ref sig .tc := ⟨.hbm, 42, rfl⟩
abbrev main_v19 : Ref sig .tc := ⟨.hbm, 43, rfl⟩
abbrev main_v20 : Ref sig .tc := ⟨.hbm, 44, rfl⟩
abbrev main_c_2 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_call0_cst : Ref sig .tc := ⟨.hbm, 58, rfl⟩
abbrev main_call0_v0 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_c_3 : Ref sig .tc := ⟨.hbm, 69, rfl⟩
abbrev main_v42 : Ref sig .tc := ⟨.hbm, 70, rfl⟩
abbrev main_v43 : Ref sig .tc := ⟨.hbm, 71, rfl⟩
abbrev main_c_4 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60_0 : Ref sig .tc := ⟨.hbm, 90, rfl⟩
abbrev main_v60_1 : Ref sig .tc := ⟨.hbm, 91, rfl⟩
abbrev main_v60_2 : Ref sig .tc := ⟨.hbm, 92, rfl⟩
abbrev main_cst_5 : Ref sig .tc := ⟨.hbm, 93, rfl⟩
abbrev main_v61 : Ref sig .tc := ⟨.hbm, 94, rfl⟩
abbrev main_cst_6 : Ref sig .tc := ⟨.hbm, 95, rfl⟩
abbrev main_v62 : Ref sig .tc := ⟨.hbm, 96, rfl⟩
abbrev main_v63 : Ref sig .tc := ⟨.hbm, 97, rfl⟩
abbrev main_cst_7 : Ref sig .tc := ⟨.hbm, 98, rfl⟩
abbrev main_v64 : Ref sig .tc := ⟨.hbm, 99, rfl⟩
abbrev main_cst_8 : Ref sig .tc := ⟨.hbm, 100, rfl⟩
abbrev main_v65 : Ref sig .tc := ⟨.hbm, 101, rfl⟩
abbrev main_v66 : Ref sig .tc := ⟨.hbm, 102, rfl⟩
abbrev main_cst_9 : Ref sig .tc := ⟨.hbm, 103, rfl⟩
abbrev main_v67 : Ref sig .tc := ⟨.hbm, 104, rfl⟩
abbrev main_v68 : Ref sig .tc := ⟨.hbm, 105, rfl⟩
abbrev main_cst_10 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_11 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88_0 : Ref sig .tc := ⟨.hbm, 127, rfl⟩
abbrev main_v88_1 : Ref sig .tc := ⟨.hbm, 128, rfl⟩
abbrev main_v88_2 : Ref sig .tc := ⟨.hbm, 129, rfl⟩
abbrev main_cst_12 : Ref sig .tc := ⟨.hbm, 130, rfl⟩
abbrev main_v89 : Ref sig .tc := ⟨.hbm, 131, rfl⟩
abbrev main_cst_13 : Ref sig .tc := ⟨.hbm, 132, rfl⟩
abbrev main_v90 : Ref sig .tc := ⟨.hbm, 133, rfl⟩
abbrev main_v91 : Ref sig .tc := ⟨.hbm, 134, rfl⟩
abbrev main_cst_14 : Ref sig .tc := ⟨.hbm, 135, rfl⟩
abbrev main_v92 : Ref sig .tc := ⟨.hbm, 136, rfl⟩
abbrev main_cst_15 : Ref sig .tc := ⟨.hbm, 137, rfl⟩
abbrev main_v93 : Ref sig .tc := ⟨.hbm, 138, rfl⟩
abbrev main_v94 : Ref sig .tc := ⟨.hbm, 139, rfl⟩
abbrev main_cst_16 : Ref sig .tc := ⟨.hbm, 140, rfl⟩
abbrev main_v95 : Ref sig .tc := ⟨.hbm, 141, rfl⟩
abbrev main_v96 : Ref sig .tc := ⟨.hbm, 142, rfl⟩
abbrev main_cst_17 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_cst_18 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111_0 : Ref sig .tc := ⟨.hbm, 159, rfl⟩
abbrev main_v111_1 : Ref sig .tc := ⟨.hbm, 160, rfl⟩
abbrev main_v111_2 : Ref sig .tc := ⟨.hbm, 161, rfl⟩
abbrev main_cst_19 : Ref sig .tc := ⟨.hbm, 162, rfl⟩
abbrev main_v112 : Ref sig .tc := ⟨.hbm, 163, rfl⟩
abbrev main_cst_20 : Ref sig .tc := ⟨.hbm, 164, rfl⟩
abbrev main_v113 : Ref sig .tc := ⟨.hbm, 165, rfl⟩
abbrev main_v114 : Ref sig .tc := ⟨.hbm, 166, rfl⟩
abbrev main_cst_21 : Ref sig .tc := ⟨.hbm, 167, rfl⟩
abbrev main_v115 : Ref sig .tc := ⟨.hbm, 168, rfl⟩
abbrev main_cst_22 : Ref sig .tc := ⟨.hbm, 169, rfl⟩
abbrev main_v116 : Ref sig .tc := ⟨.hbm, 170, rfl⟩
abbrev main_v117 : Ref sig .tc := ⟨.hbm, 171, rfl⟩
abbrev main_cst_23 : Ref sig .tc := ⟨.hbm, 172, rfl⟩
abbrev main_v118 : Ref sig .tc := ⟨.hbm, 173, rfl⟩
abbrev main_v119 : Ref sig .tc := ⟨.hbm, 174, rfl⟩
abbrev main_cst_24 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_cst_25 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140_0 : Ref sig .tc := ⟨.hbm, 197, rfl⟩
abbrev main_v140_1 : Ref sig .tc := ⟨.hbm, 198, rfl⟩
abbrev main_v140_2 : Ref sig .tc := ⟨.hbm, 199, rfl⟩
abbrev main_c_26 : Ref sig .tc := ⟨.hbm, 200, rfl⟩
abbrev main_v141 : Ref sig .tc := ⟨.hbm, 201, rfl⟩
abbrev main_v142 : Ref sig .tc := ⟨.hbm, 202, rfl⟩
abbrev main_c_27 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_c_28 : Ref sig .tc := ⟨.hbm, 210, rfl⟩
abbrev main_v149 : Ref sig .tc := ⟨.hbm, 211, rfl⟩
abbrev main_v150 : Ref sig .tc := ⟨.hbm, 212, rfl⟩
abbrev main_c_29 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_call1_cst : Ref sig .tc := ⟨.hbm, 226, rfl⟩
abbrev main_call1_v0 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_c_30 : Ref sig .tc := ⟨.hbm, 238, rfl⟩
abbrev main_v173 : Ref sig .tc := ⟨.hbm, 239, rfl⟩
abbrev main_v174 : Ref sig .tc := ⟨.hbm, 240, rfl⟩
abbrev main_c_31 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_cst_32 : Ref sig .tc := ⟨.hbm, 247, rfl⟩
abbrev main_v180 : Ref sig .tc := ⟨.hbm, 248, rfl⟩
abbrev main_v181 : Ref sig .tc := ⟨.hbm, 249, rfl⟩
abbrev main_v182 : Ref sig .tc := ⟨.hbm, 250, rfl⟩
abbrev main_v183 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_v187 : Ref sig .tc := ⟨.hbm, 255, rfl⟩
abbrev main_v188 : Ref sig .tc := ⟨.hbm, 256, rfl⟩
abbrev main_v189 : Ref sig .tc := ⟨.hbm, 257, rfl⟩
abbrev main_v190 : Ref sig .tc := ⟨.hbm, 258, rfl⟩
abbrev main_v191_0 : Ref sig .tc := ⟨.hbm, 259, rfl⟩
abbrev main_v191_1 : Ref sig .tc := ⟨.hbm, 260, rfl⟩
abbrev main_v191_2 : Ref sig .tc := ⟨.hbm, 261, rfl⟩
abbrev main_cst_33 : Ref sig .tc := ⟨.hbm, 262, rfl⟩
abbrev main_v192 : Ref sig .tc := ⟨.hbm, 263, rfl⟩
abbrev main_cst_34 : Ref sig .tc := ⟨.hbm, 264, rfl⟩
abbrev main_v193 : Ref sig .tc := ⟨.hbm, 265, rfl⟩
abbrev main_v194 : Ref sig .tc := ⟨.hbm, 266, rfl⟩
abbrev main_cst_35 : Ref sig .tc := ⟨.hbm, 267, rfl⟩
abbrev main_v195 : Ref sig .tc := ⟨.hbm, 268, rfl⟩
abbrev main_cst_36 : Ref sig .tc := ⟨.hbm, 269, rfl⟩
abbrev main_v196 : Ref sig .tc := ⟨.hbm, 270, rfl⟩
abbrev main_v197 : Ref sig .tc := ⟨.hbm, 271, rfl⟩
abbrev main_cst_37 : Ref sig .tc := ⟨.hbm, 272, rfl⟩
abbrev main_v198 : Ref sig .tc := ⟨.hbm, 273, rfl⟩
abbrev main_v199 : Ref sig .tc := ⟨.hbm, 274, rfl⟩
abbrev main_cst_38 : Ref sig .tc := ⟨.hbm, 275, rfl⟩
abbrev main_v200 : Ref sig .tc := ⟨.hbm, 276, rfl⟩
abbrev main_v201 : Ref sig .tc := ⟨.hbm, 277, rfl⟩
abbrev main_v202 : Ref sig .tc := ⟨.hbm, 278, rfl⟩
abbrev main_v203 : Ref sig .tc := ⟨.hbm, 279, rfl⟩
abbrev main_cst_39 : Ref sig .tc := ⟨.hbm, 280, rfl⟩
abbrev main_v204 : Ref sig .tc := ⟨.hbm, 281, rfl⟩
abbrev main_v205 : Ref sig .tc := ⟨.hbm, 282, rfl⟩
abbrev main_v206 : Ref sig .tc := ⟨.hbm, 283, rfl⟩
abbrev main_v207 : Ref sig .tc := ⟨.hbm, 284, rfl⟩
abbrev main_v208 : Ref sig .tc := ⟨.hbm, 285, rfl⟩
abbrev main_v209 : Ref sig .tc := ⟨.hbm, 286, rfl⟩
abbrev main_v210 : Ref sig .tc := ⟨.hbm, 287, rfl⟩
abbrev main_v211 : Ref sig .tc := ⟨.hbm, 288, rfl⟩
abbrev main_v212 : Ref sig .tc := ⟨.hbm, 289, rfl⟩
abbrev main_v213 : Ref sig .tc := ⟨.hbm, 290, rfl⟩
abbrev main_v214 : Ref sig .tc := ⟨.hbm, 291, rfl⟩
abbrev main_v215 : Ref sig .tc := ⟨.hbm, 292, rfl⟩
abbrev main_v216 : Ref sig .tc := ⟨.hbm, 293, rfl⟩
abbrev main_v217 : Ref sig .tc := ⟨.hbm, 294, rfl⟩
abbrev main_v218 : Ref sig .tc := ⟨.hbm, 295, rfl⟩
abbrev main_v219_0 : Ref sig .tc := ⟨.hbm, 296, rfl⟩
abbrev main_v219_1 : Ref sig .tc := ⟨.hbm, 297, rfl⟩
abbrev main_v219_2 : Ref sig .tc := ⟨.hbm, 298, rfl⟩
abbrev main_cst_40 : Ref sig .tc := ⟨.hbm, 299, rfl⟩
abbrev main_v220 : Ref sig .tc := ⟨.hbm, 300, rfl⟩
abbrev main_cst_41 : Ref sig .tc := ⟨.hbm, 301, rfl⟩
abbrev main_v221 : Ref sig .tc := ⟨.hbm, 302, rfl⟩
abbrev main_v222 : Ref sig .tc := ⟨.hbm, 303, rfl⟩
abbrev main_cst_42 : Ref sig .tc := ⟨.hbm, 304, rfl⟩
abbrev main_v223 : Ref sig .tc := ⟨.hbm, 305, rfl⟩
abbrev main_cst_43 : Ref sig .tc := ⟨.hbm, 306, rfl⟩
abbrev main_v224 : Ref sig .tc := ⟨.hbm, 307, rfl⟩
abbrev main_v225 : Ref sig .tc := ⟨.hbm, 308, rfl⟩
abbrev main_cst_44 : Ref sig .tc := ⟨.hbm, 309, rfl⟩
abbrev main_v226 : Ref sig .tc := ⟨.hbm, 310, rfl⟩
abbrev main_v227 : Ref sig .tc := ⟨.hbm, 311, rfl⟩
abbrev main_cst_45 : Ref sig .tc := ⟨.hbm, 312, rfl⟩
abbrev main_v228 : Ref sig .tc := ⟨.hbm, 313, rfl⟩
abbrev main_v229 : Ref sig .tc := ⟨.hbm, 314, rfl⟩
abbrev main_v230 : Ref sig .tc := ⟨.hbm, 315, rfl⟩
abbrev main_v231 : Ref sig .tc := ⟨.hbm, 316, rfl⟩
abbrev main_cst_46 : Ref sig .tc := ⟨.hbm, 317, rfl⟩
abbrev main_v232 : Ref sig .tc := ⟨.hbm, 318, rfl⟩
abbrev main_v233 : Ref sig .tc := ⟨.hbm, 319, rfl⟩
abbrev main_v234 : Ref sig .tc := ⟨.hbm, 320, rfl⟩
abbrev main_v235 : Ref sig .tc := ⟨.hbm, 321, rfl⟩
abbrev main_v236 : Ref sig .tc := ⟨.hbm, 322, rfl⟩
abbrev main_v237 : Ref sig .tc := ⟨.hbm, 323, rfl⟩
abbrev main_v238 : Ref sig .tc := ⟨.hbm, 324, rfl⟩
abbrev main_v239 : Ref sig .tc := ⟨.hbm, 325, rfl⟩
abbrev main_v240 : Ref sig .tc := ⟨.hbm, 326, rfl⟩
abbrev main_v241 : Ref sig .tc := ⟨.hbm, 327, rfl⟩
abbrev main_v242_0 : Ref sig .tc := ⟨.hbm, 328, rfl⟩
abbrev main_v242_1 : Ref sig .tc := ⟨.hbm, 329, rfl⟩
abbrev main_v242_2 : Ref sig .tc := ⟨.hbm, 330, rfl⟩
abbrev main_cst_47 : Ref sig .tc := ⟨.hbm, 331, rfl⟩
abbrev main_v243 : Ref sig .tc := ⟨.hbm, 332, rfl⟩
abbrev main_cst_48 : Ref sig .tc := ⟨.hbm, 333, rfl⟩
abbrev main_v244 : Ref sig .tc := ⟨.hbm, 334, rfl⟩
abbrev main_v245 : Ref sig .tc := ⟨.hbm, 335, rfl⟩
abbrev main_cst_49 : Ref sig .tc := ⟨.hbm, 336, rfl⟩
abbrev main_v246 : Ref sig .tc := ⟨.hbm, 337, rfl⟩
abbrev main_cst_50 : Ref sig .tc := ⟨.hbm, 338, rfl⟩
abbrev main_v247 : Ref sig .tc := ⟨.hbm, 339, rfl⟩
abbrev main_v248 : Ref sig .tc := ⟨.hbm, 340, rfl⟩
abbrev main_cst_51 : Ref sig .tc := ⟨.hbm, 341, rfl⟩
abbrev main_v249 : Ref sig .tc := ⟨.hbm, 342, rfl⟩
abbrev main_v250 : Ref sig .tc := ⟨.hbm, 343, rfl⟩
abbrev main_cst_52 : Ref sig .tc := ⟨.hbm, 344, rfl⟩
abbrev main_v251 : Ref sig .tc := ⟨.hbm, 345, rfl⟩
abbrev main_v252 : Ref sig .tc := ⟨.hbm, 346, rfl⟩
abbrev main_v253 : Ref sig .tc := ⟨.hbm, 347, rfl⟩
abbrev main_v254 : Ref sig .tc := ⟨.hbm, 348, rfl⟩
abbrev main_cst_53 : Ref sig .tc := ⟨.hbm, 349, rfl⟩
abbrev main_v255 : Ref sig .tc := ⟨.hbm, 350, rfl⟩
abbrev main_v256 : Ref sig .tc := ⟨.hbm, 351, rfl⟩
abbrev main_v257 : Ref sig .tc := ⟨.hbm, 352, rfl⟩
abbrev main_v258 : Ref sig .tc := ⟨.hbm, 353, rfl⟩
abbrev main_v259 : Ref sig .tc := ⟨.hbm, 354, rfl⟩
abbrev main_v260 : Ref sig .tc := ⟨.hbm, 355, rfl⟩
abbrev main_v261 : Ref sig .tc := ⟨.hbm, 356, rfl⟩
abbrev main_v262 : Ref sig .tc := ⟨.hbm, 357, rfl⟩
abbrev main_v263 : Ref sig .tc := ⟨.hbm, 358, rfl⟩
abbrev main_v264 : Ref sig .tc := ⟨.hbm, 359, rfl⟩
abbrev main_v265 : Ref sig .tc := ⟨.hbm, 360, rfl⟩
abbrev main_v266 : Ref sig .tc := ⟨.hbm, 361, rfl⟩
abbrev main_v267 : Ref sig .tc := ⟨.hbm, 362, rfl⟩
abbrev main_v268 : Ref sig .tc := ⟨.hbm, 363, rfl⟩
abbrev main_v269 : Ref sig .tc := ⟨.hbm, 364, rfl⟩
abbrev main_v270 : Ref sig .tc := ⟨.hbm, 365, rfl⟩
abbrev main_v271_0 : Ref sig .tc := ⟨.hbm, 366, rfl⟩
abbrev main_v271_1 : Ref sig .tc := ⟨.hbm, 367, rfl⟩
abbrev main_v271_2 : Ref sig .tc := ⟨.hbm, 368, rfl⟩
abbrev main_c_54 : Ref sig .tc := ⟨.hbm, 369, rfl⟩
abbrev main_v272 : Ref sig .tc := ⟨.hbm, 370, rfl⟩
abbrev main_v273 : Ref sig .tc := ⟨.hbm, 371, rfl⟩
abbrev main_c_55 : Ref sig .tc := ⟨.hbm, 372, rfl⟩
abbrev main_v274 : Ref sig .tc := ⟨.hbm, 373, rfl⟩
abbrev main_v275 : Ref sig .tc := ⟨.hbm, 374, rfl⟩
abbrev main_v276 : Ref sig .tc := ⟨.hbm, 375, rfl⟩
abbrev main_v277 : Ref sig .tc := ⟨.hbm, 376, rfl⟩
abbrev main_v278 : Ref sig .tc := ⟨.hbm, 377, rfl⟩
abbrev main_v279 : Ref sig .tc := ⟨.hbm, 378, rfl⟩
abbrev main_c_56 : Ref sig .tc := ⟨.hbm, 379, rfl⟩
abbrev main_v280 : Ref sig .tc := ⟨.hbm, 380, rfl⟩
abbrev main_v281 : Ref sig .tc := ⟨.hbm, 381, rfl⟩
abbrev main_c_57 : Ref sig .tc := ⟨.hbm, 382, rfl⟩
abbrev main_v282 : Ref sig .tc := ⟨.hbm, 383, rfl⟩
abbrev main_v283 : Ref sig .tc := ⟨.hbm, 384, rfl⟩
abbrev main_v284 : Ref sig .tc := ⟨.hbm, 385, rfl⟩
abbrev main_v285 : Ref sig .tc := ⟨.hbm, 386, rfl⟩
abbrev main_v286 : Ref sig .tc := ⟨.hbm, 387, rfl⟩
abbrev main_v287 : Ref sig .tc := ⟨.hbm, 388, rfl⟩
abbrev main_v288 : Ref sig .tc := ⟨.hbm, 389, rfl⟩
abbrev main_v289 : Ref sig .tc := ⟨.hbm, 390, rfl⟩
abbrev main_v290 : Ref sig .tc := ⟨.hbm, 391, rfl⟩
abbrev main_v291 : Ref sig .tc := ⟨.hbm, 392, rfl⟩
abbrev main_v292 : Ref sig .tc := ⟨.hbm, 393, rfl⟩
abbrev main_v293 : Ref sig .tc := ⟨.hbm, 394, rfl⟩
abbrev main_call2_cst : Ref sig .tc := ⟨.hbm, 395, rfl⟩
abbrev main_call2_v0 : Ref sig .tc := ⟨.hbm, 396, rfl⟩
abbrev main_v294 : Ref sig .tc := ⟨.hbm, 397, rfl⟩
abbrev main_v295 : Ref sig .tc := ⟨.hbm, 398, rfl⟩
abbrev main_v296 : Ref sig .tc := ⟨.hbm, 399, rfl⟩
abbrev main_v297 : Ref sig .tc := ⟨.hbm, 400, rfl⟩
abbrev main_v298 : Ref sig .tc := ⟨.hbm, 401, rfl⟩
abbrev main_v299 : Ref sig .tc := ⟨.hbm, 402, rfl⟩
abbrev main_v300 : Ref sig .tc := ⟨.hbm, 403, rfl⟩
abbrev main_v301 : Ref sig .tc := ⟨.hbm, 404, rfl⟩
abbrev main_v302 : Ref sig .tc := ⟨.hbm, 405, rfl⟩
abbrev main_v303 : Ref sig .tc := ⟨.hbm, 406, rfl⟩
abbrev main_c_58 : Ref sig .tc := ⟨.hbm, 407, rfl⟩
abbrev main_v304 : Ref sig .tc := ⟨.hbm, 408, rfl⟩
abbrev main_v305 : Ref sig .tc := ⟨.hbm, 409, rfl⟩
abbrev main_c_59 : Ref sig .tc := ⟨.hbm, 410, rfl⟩
abbrev main_v306 : Ref sig .tc := ⟨.hbm, 411, rfl⟩
abbrev main_v307 : Ref sig .tc := ⟨.hbm, 412, rfl⟩
abbrev main_v308 : Ref sig .tc := ⟨.hbm, 413, rfl⟩
abbrev main_v309 : Ref sig .tc := ⟨.hbm, 414, rfl⟩
abbrev main_v310 : Ref sig .tc := ⟨.hbm, 415, rfl⟩
abbrev main_cst_60 : Ref sig .tc := ⟨.hbm, 416, rfl⟩
abbrev main_v311 : Ref sig .tc := ⟨.hbm, 417, rfl⟩
abbrev main_v312 : Ref sig .tc := ⟨.hbm, 418, rfl⟩
abbrev main_v313 : Ref sig .tc := ⟨.hbm, 419, rfl⟩
abbrev main_v314 : Ref sig .tc := ⟨.hbm, 420, rfl⟩
abbrev main_v315 : Ref sig .tc := ⟨.hbm, 421, rfl⟩
abbrev main_v316 : Ref sig .tc := ⟨.hbm, 422, rfl⟩
abbrev main_v317 : Ref sig .tc := ⟨.hbm, 423, rfl⟩
abbrev main_v318 : Ref sig .tc := ⟨.hbm, 424, rfl⟩
abbrev main_v319 : Ref sig .tc := ⟨.hbm, 425, rfl⟩
abbrev main_v320 : Ref sig .tc := ⟨.hbm, 426, rfl⟩
abbrev main_v321 : Ref sig .tc := ⟨.hbm, 427, rfl⟩
abbrev main_v322_0 : Ref sig .tc := ⟨.hbm, 428, rfl⟩
abbrev main_v322_1 : Ref sig .tc := ⟨.hbm, 429, rfl⟩
abbrev main_v322_2 : Ref sig .tc := ⟨.hbm, 430, rfl⟩
abbrev main_cst_61 : Ref sig .tc := ⟨.hbm, 431, rfl⟩
abbrev main_v323 : Ref sig .tc := ⟨.hbm, 432, rfl⟩
abbrev main_cst_62 : Ref sig .tc := ⟨.hbm, 433, rfl⟩
abbrev main_v324 : Ref sig .tc := ⟨.hbm, 434, rfl⟩
abbrev main_v325 : Ref sig .tc := ⟨.hbm, 435, rfl⟩
abbrev main_cst_63 : Ref sig .tc := ⟨.hbm, 436, rfl⟩
abbrev main_v326 : Ref sig .tc := ⟨.hbm, 437, rfl⟩
abbrev main_cst_64 : Ref sig .tc := ⟨.hbm, 438, rfl⟩
abbrev main_v327 : Ref sig .tc := ⟨.hbm, 439, rfl⟩
abbrev main_v328 : Ref sig .tc := ⟨.hbm, 440, rfl⟩
abbrev main_cst_65 : Ref sig .tc := ⟨.hbm, 441, rfl⟩
abbrev main_v329 : Ref sig .tc := ⟨.hbm, 442, rfl⟩
abbrev main_v330 : Ref sig .tc := ⟨.hbm, 443, rfl⟩
abbrev main_cst_66 : Ref sig .tc := ⟨.hbm, 444, rfl⟩
abbrev main_v331 : Ref sig .tc := ⟨.hbm, 445, rfl⟩
abbrev main_v332 : Ref sig .tc := ⟨.hbm, 446, rfl⟩
abbrev main_v333 : Ref sig .tc := ⟨.hbm, 447, rfl⟩
abbrev main_v334 : Ref sig .tc := ⟨.hbm, 448, rfl⟩
abbrev main_cst_67 : Ref sig .tc := ⟨.hbm, 449, rfl⟩
abbrev main_v335 : Ref sig .tc := ⟨.hbm, 450, rfl⟩
abbrev main_v336 : Ref sig .tc := ⟨.hbm, 451, rfl⟩
abbrev main_v337 : Ref sig .tc := ⟨.hbm, 452, rfl⟩
abbrev main_v338 : Ref sig .tc := ⟨.hbm, 453, rfl⟩
abbrev main_v339 : Ref sig .tc := ⟨.hbm, 454, rfl⟩
abbrev main_v340 : Ref sig .tc := ⟨.hbm, 455, rfl⟩
abbrev main_v341 : Ref sig .tc := ⟨.hbm, 456, rfl⟩
abbrev main_v342 : Ref sig .tc := ⟨.hbm, 457, rfl⟩
abbrev main_v343 : Ref sig .tc := ⟨.hbm, 458, rfl⟩
abbrev main_v344 : Ref sig .tc := ⟨.hbm, 459, rfl⟩
abbrev main_v345 : Ref sig .tc := ⟨.hbm, 460, rfl⟩
abbrev main_v346 : Ref sig .tc := ⟨.hbm, 461, rfl⟩
abbrev main_v347 : Ref sig .tc := ⟨.hbm, 462, rfl⟩
abbrev main_v348 : Ref sig .tc := ⟨.hbm, 463, rfl⟩
abbrev main_v349 : Ref sig .tc := ⟨.hbm, 464, rfl⟩
abbrev main_v350_0 : Ref sig .tc := ⟨.hbm, 465, rfl⟩
abbrev main_v350_1 : Ref sig .tc := ⟨.hbm, 466, rfl⟩
abbrev main_v350_2 : Ref sig .tc := ⟨.hbm, 467, rfl⟩
abbrev main_cst_68 : Ref sig .tc := ⟨.hbm, 468, rfl⟩
abbrev main_v351 : Ref sig .tc := ⟨.hbm, 469, rfl⟩
abbrev main_cst_69 : Ref sig .tc := ⟨.hbm, 470, rfl⟩
abbrev main_v352 : Ref sig .tc := ⟨.hbm, 471, rfl⟩
abbrev main_v353 : Ref sig .tc := ⟨.hbm, 472, rfl⟩
abbrev main_cst_70 : Ref sig .tc := ⟨.hbm, 473, rfl⟩
abbrev main_v354 : Ref sig .tc := ⟨.hbm, 474, rfl⟩
abbrev main_cst_71 : Ref sig .tc := ⟨.hbm, 475, rfl⟩
abbrev main_v355 : Ref sig .tc := ⟨.hbm, 476, rfl⟩
abbrev main_v356 : Ref sig .tc := ⟨.hbm, 477, rfl⟩
abbrev main_cst_72 : Ref sig .tc := ⟨.hbm, 478, rfl⟩
abbrev main_v357 : Ref sig .tc := ⟨.hbm, 479, rfl⟩
abbrev main_v358 : Ref sig .tc := ⟨.hbm, 480, rfl⟩
abbrev main_cst_73 : Ref sig .tc := ⟨.hbm, 481, rfl⟩
abbrev main_v359 : Ref sig .tc := ⟨.hbm, 482, rfl⟩
abbrev main_v360 : Ref sig .tc := ⟨.hbm, 483, rfl⟩
abbrev main_v361 : Ref sig .tc := ⟨.hbm, 484, rfl⟩
abbrev main_v362 : Ref sig .tc := ⟨.hbm, 485, rfl⟩
abbrev main_cst_74 : Ref sig .tc := ⟨.hbm, 486, rfl⟩
abbrev main_v363 : Ref sig .tc := ⟨.hbm, 487, rfl⟩
abbrev main_v364 : Ref sig .tc := ⟨.hbm, 488, rfl⟩
abbrev main_v365 : Ref sig .tc := ⟨.hbm, 489, rfl⟩
abbrev main_v366 : Ref sig .tc := ⟨.hbm, 490, rfl⟩
abbrev main_v367 : Ref sig .tc := ⟨.hbm, 491, rfl⟩
abbrev main_v368 : Ref sig .tc := ⟨.hbm, 492, rfl⟩
abbrev main_v369 : Ref sig .tc := ⟨.hbm, 493, rfl⟩
abbrev main_v370 : Ref sig .tc := ⟨.hbm, 494, rfl⟩
abbrev main_v371 : Ref sig .tc := ⟨.hbm, 495, rfl⟩
abbrev main_v372 : Ref sig .tc := ⟨.hbm, 496, rfl⟩
abbrev main_v373_0 : Ref sig .tc := ⟨.hbm, 497, rfl⟩
abbrev main_v373_1 : Ref sig .tc := ⟨.hbm, 498, rfl⟩
abbrev main_v373_2 : Ref sig .tc := ⟨.hbm, 499, rfl⟩
abbrev main_cst_75 : Ref sig .tc := ⟨.hbm, 500, rfl⟩
abbrev main_v374 : Ref sig .tc := ⟨.hbm, 501, rfl⟩
abbrev main_cst_76 : Ref sig .tc := ⟨.hbm, 502, rfl⟩
abbrev main_v375 : Ref sig .tc := ⟨.hbm, 503, rfl⟩
abbrev main_v376 : Ref sig .tc := ⟨.hbm, 504, rfl⟩
abbrev main_cst_77 : Ref sig .tc := ⟨.hbm, 505, rfl⟩
abbrev main_v377 : Ref sig .tc := ⟨.hbm, 506, rfl⟩
abbrev main_cst_78 : Ref sig .tc := ⟨.hbm, 507, rfl⟩
abbrev main_v378 : Ref sig .tc := ⟨.hbm, 508, rfl⟩
abbrev main_v379 : Ref sig .tc := ⟨.hbm, 509, rfl⟩
abbrev main_cst_79 : Ref sig .tc := ⟨.hbm, 510, rfl⟩
abbrev main_v380 : Ref sig .tc := ⟨.hbm, 511, rfl⟩
abbrev main_v381 : Ref sig .tc := ⟨.hbm, 512, rfl⟩
abbrev main_cst_80 : Ref sig .tc := ⟨.hbm, 513, rfl⟩
abbrev main_v382 : Ref sig .tc := ⟨.hbm, 514, rfl⟩
abbrev main_v383 : Ref sig .tc := ⟨.hbm, 515, rfl⟩
abbrev main_v384 : Ref sig .tc := ⟨.hbm, 516, rfl⟩
abbrev main_v385 : Ref sig .tc := ⟨.hbm, 517, rfl⟩
abbrev main_cst_81 : Ref sig .tc := ⟨.hbm, 518, rfl⟩
abbrev main_v386 : Ref sig .tc := ⟨.hbm, 519, rfl⟩
abbrev main_v387 : Ref sig .tc := ⟨.hbm, 520, rfl⟩
abbrev main_v388 : Ref sig .tc := ⟨.hbm, 521, rfl⟩
abbrev main_v389 : Ref sig .tc := ⟨.hbm, 522, rfl⟩
abbrev main_v390 : Ref sig .tc := ⟨.hbm, 523, rfl⟩
abbrev main_v391 : Ref sig .tc := ⟨.hbm, 524, rfl⟩
abbrev main_v392 : Ref sig .tc := ⟨.hbm, 525, rfl⟩
abbrev main_v393 : Ref sig .tc := ⟨.hbm, 526, rfl⟩
abbrev main_v394 : Ref sig .tc := ⟨.hbm, 527, rfl⟩
abbrev main_v395 : Ref sig .tc := ⟨.hbm, 528, rfl⟩
abbrev main_v396 : Ref sig .tc := ⟨.hbm, 529, rfl⟩
abbrev main_v397 : Ref sig .tc := ⟨.hbm, 530, rfl⟩
abbrev main_v398 : Ref sig .tc := ⟨.hbm, 531, rfl⟩
abbrev main_v399 : Ref sig .tc := ⟨.hbm, 532, rfl⟩
abbrev main_v400 : Ref sig .tc := ⟨.hbm, 533, rfl⟩
abbrev main_v401 : Ref sig .tc := ⟨.hbm, 534, rfl⟩
abbrev main_v402_0 : Ref sig .tc := ⟨.hbm, 535, rfl⟩
abbrev main_v402_1 : Ref sig .tc := ⟨.hbm, 536, rfl⟩
abbrev main_v402_2 : Ref sig .tc := ⟨.hbm, 537, rfl⟩
abbrev main_c_82 : Ref sig .tc := ⟨.hbm, 538, rfl⟩
abbrev main_v403 : Ref sig .tc := ⟨.hbm, 539, rfl⟩
abbrev main_v404 : Ref sig .tc := ⟨.hbm, 540, rfl⟩
abbrev main_c_83 : Ref sig .tc := ⟨.hbm, 541, rfl⟩
abbrev main_v405 : Ref sig .tc := ⟨.hbm, 542, rfl⟩
abbrev main_v406 : Ref sig .tc := ⟨.hbm, 543, rfl⟩
abbrev main_v407 : Ref sig .tc := ⟨.hbm, 544, rfl⟩
abbrev main_v408 : Ref sig .tc := ⟨.hbm, 545, rfl⟩
abbrev main_v409 : Ref sig .tc := ⟨.hbm, 546, rfl⟩
abbrev main_v410 : Ref sig .tc := ⟨.hbm, 547, rfl⟩
abbrev main_c_84 : Ref sig .tc := ⟨.hbm, 548, rfl⟩
abbrev main_v411 : Ref sig .tc := ⟨.hbm, 549, rfl⟩
abbrev main_v412 : Ref sig .tc := ⟨.hbm, 550, rfl⟩
abbrev main_c_85 : Ref sig .tc := ⟨.hbm, 551, rfl⟩
abbrev main_v413 : Ref sig .tc := ⟨.hbm, 552, rfl⟩
abbrev main_v414 : Ref sig .tc := ⟨.hbm, 553, rfl⟩
abbrev main_v415 : Ref sig .tc := ⟨.hbm, 554, rfl⟩
abbrev main_v416 : Ref sig .tc := ⟨.hbm, 555, rfl⟩
abbrev main_v417 : Ref sig .tc := ⟨.hbm, 556, rfl⟩
abbrev main_v418 : Ref sig .tc := ⟨.hbm, 557, rfl⟩
abbrev main_v419 : Ref sig .tc := ⟨.hbm, 558, rfl⟩
abbrev main_v420 : Ref sig .tc := ⟨.hbm, 559, rfl⟩
abbrev main_v421 : Ref sig .tc := ⟨.hbm, 560, rfl⟩
abbrev main_v422 : Ref sig .tc := ⟨.hbm, 561, rfl⟩
abbrev main_v423 : Ref sig .tc := ⟨.hbm, 562, rfl⟩
abbrev main_v424 : Ref sig .tc := ⟨.hbm, 563, rfl⟩
abbrev main_call3_cst : Ref sig .tc := ⟨.hbm, 564, rfl⟩
abbrev main_call3_v0 : Ref sig .tc := ⟨.hbm, 565, rfl⟩
abbrev main_v425 : Ref sig .tc := ⟨.hbm, 566, rfl⟩
abbrev main_v426 : Ref sig .tc := ⟨.hbm, 567, rfl⟩
abbrev main_v427 : Ref sig .tc := ⟨.hbm, 568, rfl⟩
abbrev main_v428 : Ref sig .tc := ⟨.hbm, 569, rfl⟩
abbrev main_v429 : Ref sig .tc := ⟨.hbm, 570, rfl⟩
abbrev main_v430 : Ref sig .tc := ⟨.hbm, 571, rfl⟩
abbrev main_v431 : Ref sig .tc := ⟨.hbm, 572, rfl⟩
abbrev main_v432 : Ref sig .tc := ⟨.hbm, 573, rfl⟩
abbrev main_v433 : Ref sig .tc := ⟨.hbm, 574, rfl⟩
abbrev main_v434 : Ref sig .tc := ⟨.hbm, 575, rfl⟩
abbrev main_c_86 : Ref sig .tc := ⟨.hbm, 576, rfl⟩
abbrev main_v435 : Ref sig .tc := ⟨.hbm, 577, rfl⟩
abbrev main_v436 : Ref sig .tc := ⟨.hbm, 578, rfl⟩
abbrev main_c_87 : Ref sig .tc := ⟨.hbm, 579, rfl⟩
abbrev main_v437 : Ref sig .tc := ⟨.hbm, 580, rfl⟩
abbrev main_v438 : Ref sig .tc := ⟨.hbm, 581, rfl⟩
abbrev main_v439 : Ref sig .tc := ⟨.hbm, 582, rfl⟩
abbrev main_v440 : Ref sig .tc := ⟨.hbm, 583, rfl⟩
abbrev main_v441 : Ref sig .tc := ⟨.hbm, 584, rfl⟩
abbrev main_cst_88 : Ref sig .tc := ⟨.hbm, 585, rfl⟩
abbrev main_v442 : Ref sig .tc := ⟨.hbm, 586, rfl⟩
abbrev main_v443 : Ref sig .tc := ⟨.hbm, 587, rfl⟩
abbrev main_v444 : Ref sig .tc := ⟨.hbm, 588, rfl⟩
abbrev main_v445 : Ref sig .tc := ⟨.hbm, 589, rfl⟩
abbrev main_v446 : Ref sig .tc := ⟨.hbm, 590, rfl⟩
abbrev main_v447 : Ref sig .tc := ⟨.hbm, 591, rfl⟩
abbrev main_v448 : Ref sig .tc := ⟨.hbm, 592, rfl⟩
abbrev main_v449 : Ref sig .tc := ⟨.hbm, 593, rfl⟩
abbrev main_v450 : Ref sig .tc := ⟨.hbm, 594, rfl⟩
abbrev main_v451 : Ref sig .tc := ⟨.hbm, 595, rfl⟩
abbrev main_v452 : Ref sig .tc := ⟨.hbm, 596, rfl⟩
abbrev main_v453_0 : Ref sig .tc := ⟨.hbm, 597, rfl⟩
abbrev main_v453_1 : Ref sig .tc := ⟨.hbm, 598, rfl⟩
abbrev main_v453_2 : Ref sig .tc := ⟨.hbm, 599, rfl⟩
abbrev main_cst_89 : Ref sig .tc := ⟨.hbm, 600, rfl⟩
abbrev main_v454 : Ref sig .tc := ⟨.hbm, 601, rfl⟩
abbrev main_cst_90 : Ref sig .tc := ⟨.hbm, 602, rfl⟩
abbrev main_v455 : Ref sig .tc := ⟨.hbm, 603, rfl⟩
abbrev main_v456 : Ref sig .tc := ⟨.hbm, 604, rfl⟩
abbrev main_cst_91 : Ref sig .tc := ⟨.hbm, 605, rfl⟩
abbrev main_v457 : Ref sig .tc := ⟨.hbm, 606, rfl⟩
abbrev main_cst_92 : Ref sig .tc := ⟨.hbm, 607, rfl⟩
abbrev main_v458 : Ref sig .tc := ⟨.hbm, 608, rfl⟩
abbrev main_v459 : Ref sig .tc := ⟨.hbm, 609, rfl⟩
abbrev main_cst_93 : Ref sig .tc := ⟨.hbm, 610, rfl⟩
abbrev main_v460 : Ref sig .tc := ⟨.hbm, 611, rfl⟩
abbrev main_v461 : Ref sig .tc := ⟨.hbm, 612, rfl⟩
abbrev main_cst_94 : Ref sig .tc := ⟨.hbm, 613, rfl⟩
abbrev main_v462 : Ref sig .tc := ⟨.hbm, 614, rfl⟩
abbrev main_v463 : Ref sig .tc := ⟨.hbm, 615, rfl⟩
abbrev main_v464 : Ref sig .tc := ⟨.hbm, 616, rfl⟩
abbrev main_v465 : Ref sig .tc := ⟨.hbm, 617, rfl⟩
abbrev main_cst_95 : Ref sig .tc := ⟨.hbm, 618, rfl⟩
abbrev main_v466 : Ref sig .tc := ⟨.hbm, 619, rfl⟩
abbrev main_v467 : Ref sig .tc := ⟨.hbm, 620, rfl⟩
abbrev main_v468 : Ref sig .tc := ⟨.hbm, 621, rfl⟩
abbrev main_v469 : Ref sig .tc := ⟨.hbm, 622, rfl⟩
abbrev main_v470 : Ref sig .tc := ⟨.hbm, 623, rfl⟩
abbrev main_v471 : Ref sig .tc := ⟨.hbm, 624, rfl⟩
abbrev main_v472 : Ref sig .tc := ⟨.hbm, 625, rfl⟩
abbrev main_v473 : Ref sig .tc := ⟨.hbm, 626, rfl⟩
abbrev main_v474 : Ref sig .tc := ⟨.hbm, 627, rfl⟩
abbrev main_v475 : Ref sig .tc := ⟨.hbm, 628, rfl⟩
abbrev main_v476 : Ref sig .tc := ⟨.hbm, 629, rfl⟩
abbrev main_v477 : Ref sig .tc := ⟨.hbm, 630, rfl⟩
abbrev main_v478 : Ref sig .tc := ⟨.hbm, 631, rfl⟩
abbrev main_v479 : Ref sig .tc := ⟨.hbm, 632, rfl⟩
abbrev main_v480 : Ref sig .tc := ⟨.hbm, 633, rfl⟩
abbrev main_v481_0 : Ref sig .tc := ⟨.hbm, 634, rfl⟩
abbrev main_v481_1 : Ref sig .tc := ⟨.hbm, 635, rfl⟩
abbrev main_v481_2 : Ref sig .tc := ⟨.hbm, 636, rfl⟩
abbrev main_cst_96 : Ref sig .tc := ⟨.hbm, 637, rfl⟩
abbrev main_v482 : Ref sig .tc := ⟨.hbm, 638, rfl⟩
abbrev main_cst_97 : Ref sig .tc := ⟨.hbm, 639, rfl⟩
abbrev main_v483 : Ref sig .tc := ⟨.hbm, 640, rfl⟩
abbrev main_v484 : Ref sig .tc := ⟨.hbm, 641, rfl⟩
abbrev main_cst_98 : Ref sig .tc := ⟨.hbm, 642, rfl⟩
abbrev main_v485 : Ref sig .tc := ⟨.hbm, 643, rfl⟩
abbrev main_cst_99 : Ref sig .tc := ⟨.hbm, 644, rfl⟩
abbrev main_v486 : Ref sig .tc := ⟨.hbm, 645, rfl⟩
abbrev main_v487 : Ref sig .tc := ⟨.hbm, 646, rfl⟩
abbrev main_cst_100 : Ref sig .tc := ⟨.hbm, 647, rfl⟩
abbrev main_v488 : Ref sig .tc := ⟨.hbm, 648, rfl⟩
abbrev main_v489 : Ref sig .tc := ⟨.hbm, 649, rfl⟩
abbrev main_cst_101 : Ref sig .tc := ⟨.hbm, 650, rfl⟩
abbrev main_v490 : Ref sig .tc := ⟨.hbm, 651, rfl⟩
abbrev main_v491 : Ref sig .tc := ⟨.hbm, 652, rfl⟩
abbrev main_v492 : Ref sig .tc := ⟨.hbm, 653, rfl⟩
abbrev main_v493 : Ref sig .tc := ⟨.hbm, 654, rfl⟩
abbrev main_cst_102 : Ref sig .tc := ⟨.hbm, 655, rfl⟩
abbrev main_v494 : Ref sig .tc := ⟨.hbm, 656, rfl⟩
abbrev main_v495 : Ref sig .tc := ⟨.hbm, 657, rfl⟩
abbrev main_v496 : Ref sig .tc := ⟨.hbm, 658, rfl⟩
abbrev main_v497 : Ref sig .tc := ⟨.hbm, 659, rfl⟩
abbrev main_v498 : Ref sig .tc := ⟨.hbm, 660, rfl⟩
abbrev main_v499 : Ref sig .tc := ⟨.hbm, 661, rfl⟩
abbrev main_v500 : Ref sig .tc := ⟨.hbm, 662, rfl⟩
abbrev main_v501 : Ref sig .tc := ⟨.hbm, 663, rfl⟩
abbrev main_v502 : Ref sig .tc := ⟨.hbm, 664, rfl⟩
abbrev main_v503 : Ref sig .tc := ⟨.hbm, 665, rfl⟩
abbrev main_v504_0 : Ref sig .tc := ⟨.hbm, 666, rfl⟩
abbrev main_v504_1 : Ref sig .tc := ⟨.hbm, 667, rfl⟩
abbrev main_v504_2 : Ref sig .tc := ⟨.hbm, 668, rfl⟩
abbrev main_cst_103 : Ref sig .tc := ⟨.hbm, 669, rfl⟩
abbrev main_v505 : Ref sig .tc := ⟨.hbm, 670, rfl⟩
abbrev main_cst_104 : Ref sig .tc := ⟨.hbm, 671, rfl⟩
abbrev main_v506 : Ref sig .tc := ⟨.hbm, 672, rfl⟩
abbrev main_v507 : Ref sig .tc := ⟨.hbm, 673, rfl⟩
abbrev main_cst_105 : Ref sig .tc := ⟨.hbm, 674, rfl⟩
abbrev main_v508 : Ref sig .tc := ⟨.hbm, 675, rfl⟩
abbrev main_cst_106 : Ref sig .tc := ⟨.hbm, 676, rfl⟩
abbrev main_v509 : Ref sig .tc := ⟨.hbm, 677, rfl⟩
abbrev main_v510 : Ref sig .tc := ⟨.hbm, 678, rfl⟩
abbrev main_cst_107 : Ref sig .tc := ⟨.hbm, 679, rfl⟩
abbrev main_v511 : Ref sig .tc := ⟨.hbm, 680, rfl⟩
abbrev main_v512 : Ref sig .tc := ⟨.hbm, 681, rfl⟩
abbrev main_cst_108 : Ref sig .tc := ⟨.hbm, 682, rfl⟩
abbrev main_v513 : Ref sig .tc := ⟨.hbm, 683, rfl⟩
abbrev main_v514 : Ref sig .tc := ⟨.hbm, 684, rfl⟩
abbrev main_v515 : Ref sig .tc := ⟨.hbm, 685, rfl⟩
abbrev main_v516 : Ref sig .tc := ⟨.hbm, 686, rfl⟩
abbrev main_cst_109 : Ref sig .tc := ⟨.hbm, 687, rfl⟩
abbrev main_v517 : Ref sig .tc := ⟨.hbm, 688, rfl⟩
abbrev main_v518 : Ref sig .tc := ⟨.hbm, 689, rfl⟩
abbrev main_v519 : Ref sig .tc := ⟨.hbm, 690, rfl⟩
abbrev main_v520 : Ref sig .tc := ⟨.hbm, 691, rfl⟩
abbrev main_v521 : Ref sig .tc := ⟨.hbm, 692, rfl⟩
abbrev main_v522 : Ref sig .tc := ⟨.hbm, 693, rfl⟩
abbrev main_v523 : Ref sig .tc := ⟨.hbm, 694, rfl⟩
abbrev main_v524 : Ref sig .tc := ⟨.hbm, 695, rfl⟩
abbrev main_v525 : Ref sig .tc := ⟨.hbm, 696, rfl⟩
abbrev main_v526 : Ref sig .tc := ⟨.hbm, 697, rfl⟩
abbrev main_v527 : Ref sig .tc := ⟨.hbm, 698, rfl⟩
abbrev main_v528 : Ref sig .tc := ⟨.hbm, 699, rfl⟩
abbrev main_v529 : Ref sig .tc := ⟨.hbm, 700, rfl⟩
abbrev main_v530 : Ref sig .tc := ⟨.hbm, 701, rfl⟩
abbrev main_v531 : Ref sig .tc := ⟨.hbm, 702, rfl⟩
abbrev main_v532 : Ref sig .tc := ⟨.hbm, 703, rfl⟩
abbrev main_v533_0 : Ref sig .tc := ⟨.hbm, 704, rfl⟩
abbrev main_v533_1 : Ref sig .tc := ⟨.hbm, 705, rfl⟩
abbrev main_v533_2 : Ref sig .tc := ⟨.hbm, 706, rfl⟩
abbrev main_c_110 : Ref sig .tc := ⟨.hbm, 707, rfl⟩
abbrev main_v534 : Ref sig .tc := ⟨.hbm, 708, rfl⟩
abbrev main_v535 : Ref sig .tc := ⟨.hbm, 709, rfl⟩
abbrev main_c_111 : Ref sig .tc := ⟨.hbm, 710, rfl⟩
abbrev main_v536 : Ref sig .tc := ⟨.hbm, 711, rfl⟩
abbrev main_v537 : Ref sig .tc := ⟨.hbm, 712, rfl⟩
abbrev main_v538 : Ref sig .tc := ⟨.hbm, 713, rfl⟩
abbrev main_v539 : Ref sig .tc := ⟨.hbm, 714, rfl⟩
abbrev main_v540 : Ref sig .tc := ⟨.hbm, 715, rfl⟩
abbrev main_v541 : Ref sig .tc := ⟨.hbm, 716, rfl⟩
abbrev main_c_112 : Ref sig .tc := ⟨.hbm, 717, rfl⟩
abbrev main_v542 : Ref sig .tc := ⟨.hbm, 718, rfl⟩
abbrev main_v543 : Ref sig .tc := ⟨.hbm, 719, rfl⟩
abbrev main_c_113 : Ref sig .tc := ⟨.hbm, 720, rfl⟩
abbrev main_v544 : Ref sig .tc := ⟨.hbm, 721, rfl⟩
abbrev main_v545 : Ref sig .tc := ⟨.hbm, 722, rfl⟩
abbrev main_v546 : Ref sig .tc := ⟨.hbm, 723, rfl⟩
abbrev main_v547 : Ref sig .tc := ⟨.hbm, 724, rfl⟩
abbrev main_v548 : Ref sig .tc := ⟨.hbm, 725, rfl⟩
abbrev main_v549 : Ref sig .tc := ⟨.hbm, 726, rfl⟩
abbrev main_v550 : Ref sig .tc := ⟨.hbm, 727, rfl⟩
abbrev main_v551 : Ref sig .tc := ⟨.hbm, 728, rfl⟩
abbrev main_v552 : Ref sig .tc := ⟨.hbm, 729, rfl⟩
abbrev main_v553 : Ref sig .tc := ⟨.hbm, 730, rfl⟩
abbrev main_v554 : Ref sig .tc := ⟨.hbm, 731, rfl⟩
abbrev main_v555 : Ref sig .tc := ⟨.hbm, 732, rfl⟩
abbrev main_call4_cst : Ref sig .tc := ⟨.hbm, 733, rfl⟩
abbrev main_call4_v0 : Ref sig .tc := ⟨.hbm, 734, rfl⟩
abbrev main_v556 : Ref sig .tc := ⟨.hbm, 735, rfl⟩
abbrev main_v557 : Ref sig .tc := ⟨.hbm, 736, rfl⟩
abbrev main_v558 : Ref sig .tc := ⟨.hbm, 737, rfl⟩
abbrev main_v559 : Ref sig .tc := ⟨.hbm, 738, rfl⟩
abbrev main_v560 : Ref sig .tc := ⟨.hbm, 739, rfl⟩
abbrev main_v561 : Ref sig .tc := ⟨.hbm, 740, rfl⟩
abbrev main_v562 : Ref sig .tc := ⟨.hbm, 741, rfl⟩
abbrev main_v563 : Ref sig .tc := ⟨.hbm, 742, rfl⟩
abbrev main_v564 : Ref sig .tc := ⟨.hbm, 743, rfl⟩
abbrev main_v565 : Ref sig .tc := ⟨.hbm, 744, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg7_1 : Ref sig .tc := ⟨.vmem, 30, rfl⟩
abbrev cc2_stg8_0 : Ref sig .tc := ⟨.vmem, 31, rfl⟩
abbrev cc2_stg8_1 : Ref sig .tc := ⟨.vmem, 32, rfl⟩
abbrev cc2_stg9_0 : Ref sig .tc := ⟨.vmem, 33, rfl⟩
abbrev cc2_stg9_1 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg2_0 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg5_1 : Ref sig .tc := ⟨.vmem, 42, rfl⟩
abbrev cc3_stg6_0 : Ref sig .tc := ⟨.vmem, 43, rfl⟩
abbrev cc3_stg6_1 : Ref sig .tc := ⟨.vmem, 44, rfl⟩
abbrev cc3_stg7_0 : Ref sig .tc := ⟨.vmem, 45, rfl⟩
abbrev cc3_stg7_1 : Ref sig .tc := ⟨.vmem, 46, rfl⟩
abbrev cc4_stg0_0 : Ref sig .tc := ⟨.vmem, 47, rfl⟩
abbrev cc4_stg0_1 : Ref sig .tc := ⟨.vmem, 48, rfl⟩
abbrev cc4_stg1_0 : Ref sig .tc := ⟨.vmem, 49, rfl⟩
abbrev cc4_stg2_0 : Ref sig .tc := ⟨.vmem, 50, rfl⟩
abbrev cc4_stg3_0 : Ref sig .tc := ⟨.vmem, 51, rfl⟩
abbrev cc4_stg4_0 : Ref sig .tc := ⟨.vmem, 52, rfl⟩
abbrev cc4_stg5_0 : Ref sig .tc := ⟨.vmem, 53, rfl⟩
abbrev cc4_stg5_1 : Ref sig .tc := ⟨.vmem, 54, rfl⟩
abbrev cc4_stg6_0 : Ref sig .tc := ⟨.vmem, 55, rfl⟩
abbrev cc4_stg7_0 : Ref sig .tc := ⟨.vmem, 56, rfl⟩
abbrev cc4_stg8_0 : Ref sig .tc := ⟨.vmem, 57, rfl⟩
abbrev cc4_stg8_1 : Ref sig .tc := ⟨.vmem, 58, rfl⟩
abbrev cc4_stg9_0 : Ref sig .tc := ⟨.vmem, 59, rfl⟩
abbrev cc4_stg9_1 : Ref sig .tc := ⟨.vmem, 60, rfl⟩
abbrev cc4_stg10_0 : Ref sig .tc := ⟨.vmem, 61, rfl⟩
abbrev cc4_stg10_1 : Ref sig .tc := ⟨.vmem, 62, rfl⟩
abbrev cc5_stg0_0 : Ref sig .tc := ⟨.vmem, 63, rfl⟩
abbrev cc5_stg0_1 : Ref sig .tc := ⟨.vmem, 64, rfl⟩
abbrev cc5_stg1_0 : Ref sig .tc := ⟨.vmem, 65, rfl⟩
abbrev cc5_stg1_1 : Ref sig .tc := ⟨.vmem, 66, rfl⟩
abbrev cc5_stg2_0 : Ref sig .tc := ⟨.vmem, 67, rfl⟩
abbrev cc5_stg3_0 : Ref sig .tc := ⟨.vmem, 68, rfl⟩
abbrev cc5_stg4_0 : Ref sig .tc := ⟨.vmem, 69, rfl⟩
abbrev cc5_stg5_0 : Ref sig .tc := ⟨.vmem, 70, rfl⟩
abbrev cc5_stg5_1 : Ref sig .tc := ⟨.vmem, 71, rfl⟩
abbrev cc5_stg6_0 : Ref sig .tc := ⟨.vmem, 72, rfl⟩
abbrev cc5_stg6_1 : Ref sig .tc := ⟨.vmem, 73, rfl⟩
abbrev cc5_stg7_0 : Ref sig .tc := ⟨.vmem, 74, rfl⟩
abbrev cc5_stg7_1 : Ref sig .tc := ⟨.vmem, 75, rfl⟩
abbrev cc6_stg0_0 : Ref sig .tc := ⟨.vmem, 76, rfl⟩
abbrev cc6_stg0_1 : Ref sig .tc := ⟨.vmem, 77, rfl⟩
abbrev cc6_stg1_0 : Ref sig .tc := ⟨.vmem, 78, rfl⟩
abbrev cc6_stg2_0 : Ref sig .tc := ⟨.vmem, 79, rfl⟩
abbrev cc6_stg3_0 : Ref sig .tc := ⟨.vmem, 80, rfl⟩
abbrev cc6_stg4_0 : Ref sig .tc := ⟨.vmem, 81, rfl⟩
abbrev cc6_stg5_0 : Ref sig .tc := ⟨.vmem, 82, rfl⟩
abbrev cc6_stg6_0 : Ref sig .tc := ⟨.vmem, 83, rfl⟩
abbrev cc6_stg7_0 : Ref sig .tc := ⟨.vmem, 84, rfl⟩
abbrev cc6_stg7_1 : Ref sig .tc := ⟨.vmem, 85, rfl⟩
abbrev cc6_stg8_0 : Ref sig .tc := ⟨.vmem, 86, rfl⟩
abbrev cc6_stg8_1 : Ref sig .tc := ⟨.vmem, 87, rfl⟩
abbrev cc6_stg9_0 : Ref sig .tc := ⟨.vmem, 88, rfl⟩
abbrev cc6_stg9_1 : Ref sig .tc := ⟨.vmem, 89, rfl⟩
abbrev cc7_stg0_0 : Ref sig .tc := ⟨.vmem, 90, rfl⟩
abbrev cc7_stg0_1 : Ref sig .tc := ⟨.vmem, 91, rfl⟩
abbrev cc7_stg1_0 : Ref sig .tc := ⟨.vmem, 92, rfl⟩
abbrev cc7_stg2_0 : Ref sig .tc := ⟨.vmem, 93, rfl⟩
abbrev cc7_stg3_0 : Ref sig .tc := ⟨.vmem, 94, rfl⟩
abbrev cc7_stg4_0 : Ref sig .tc := ⟨.vmem, 95, rfl⟩
abbrev cc7_stg5_0 : Ref sig .tc := ⟨.vmem, 96, rfl⟩
abbrev cc7_stg5_1 : Ref sig .tc := ⟨.vmem, 97, rfl⟩
abbrev cc7_stg6_0 : Ref sig .tc := ⟨.vmem, 98, rfl⟩
abbrev cc7_stg6_1 : Ref sig .tc := ⟨.vmem, 99, rfl⟩
abbrev cc7_stg7_0 : Ref sig .tc := ⟨.vmem, 100, rfl⟩
abbrev cc7_stg7_1 : Ref sig .tc := ⟨.vmem, 101, rfl⟩
abbrev cc8_stg0_0 : Ref sig .tc := ⟨.vmem, 102, rfl⟩
abbrev cc8_stg0_1 : Ref sig .tc := ⟨.vmem, 103, rfl⟩
abbrev cc8_stg1_0 : Ref sig .tc := ⟨.vmem, 104, rfl⟩
abbrev cc8_stg2_0 : Ref sig .tc := ⟨.vmem, 105, rfl⟩
abbrev cc8_stg3_0 : Ref sig .tc := ⟨.vmem, 106, rfl⟩
abbrev cc8_stg4_0 : Ref sig .tc := ⟨.vmem, 107, rfl⟩
abbrev cc8_stg5_0 : Ref sig .tc := ⟨.vmem, 108, rfl⟩
abbrev cc8_stg5_1 : Ref sig .tc := ⟨.vmem, 109, rfl⟩
abbrev cc8_stg6_0 : Ref sig .tc := ⟨.vmem, 110, rfl⟩
abbrev cc8_stg7_0 : Ref sig .tc := ⟨.vmem, 111, rfl⟩
abbrev cc8_stg8_0 : Ref sig .tc := ⟨.vmem, 112, rfl⟩
abbrev cc8_stg8_1 : Ref sig .tc := ⟨.vmem, 113, rfl⟩
abbrev cc8_stg9_0 : Ref sig .tc := ⟨.vmem, 114, rfl⟩
abbrev cc8_stg9_1 : Ref sig .tc := ⟨.vmem, 115, rfl⟩
abbrev cc8_stg10_0 : Ref sig .tc := ⟨.vmem, 116, rfl⟩
abbrev cc8_stg10_1 : Ref sig .tc := ⟨.vmem, 117, rfl⟩
abbrev cc9_stg0_0 : Ref sig .tc := ⟨.vmem, 118, rfl⟩
abbrev cc9_stg0_1 : Ref sig .tc := ⟨.vmem, 119, rfl⟩
abbrev cc9_stg1_0 : Ref sig .tc := ⟨.vmem, 120, rfl⟩
abbrev cc9_stg1_1 : Ref sig .tc := ⟨.vmem, 121, rfl⟩
abbrev cc9_stg2_0 : Ref sig .tc := ⟨.vmem, 122, rfl⟩
abbrev cc9_stg3_0 : Ref sig .tc := ⟨.vmem, 123, rfl⟩
abbrev cc9_stg4_0 : Ref sig .tc := ⟨.vmem, 124, rfl⟩
abbrev cc9_stg5_0 : Ref sig .tc := ⟨.vmem, 125, rfl⟩
abbrev cc9_stg5_1 : Ref sig .tc := ⟨.vmem, 126, rfl⟩
abbrev cc9_stg6_0 : Ref sig .tc := ⟨.vmem, 127, rfl⟩
abbrev cc9_stg6_1 : Ref sig .tc := ⟨.vmem, 128, rfl⟩
abbrev cc9_stg7_0 : Ref sig .tc := ⟨.vmem, 129, rfl⟩
abbrev cc9_stg7_1 : Ref sig .tc := ⟨.vmem, 130, rfl⟩
abbrev cc10_stg0_0 : Ref sig .tc := ⟨.vmem, 131, rfl⟩
abbrev cc10_stg0_1 : Ref sig .tc := ⟨.vmem, 132, rfl⟩
abbrev cc10_stg1_0 : Ref sig .tc := ⟨.vmem, 133, rfl⟩
abbrev cc10_stg2_0 : Ref sig .tc := ⟨.vmem, 134, rfl⟩
abbrev cc10_stg3_0 : Ref sig .tc := ⟨.vmem, 135, rfl⟩
abbrev cc10_stg4_0 : Ref sig .tc := ⟨.vmem, 136, rfl⟩
abbrev cc10_stg5_0 : Ref sig .tc := ⟨.vmem, 137, rfl⟩
abbrev cc10_stg6_0 : Ref sig .tc := ⟨.vmem, 138, rfl⟩
abbrev cc10_stg7_0 : Ref sig .tc := ⟨.vmem, 139, rfl⟩
abbrev cc10_stg7_1 : Ref sig .tc := ⟨.vmem, 140, rfl⟩
abbrev cc10_stg8_0 : Ref sig .tc := ⟨.vmem, 141, rfl⟩
abbrev cc10_stg8_1 : Ref sig .tc := ⟨.vmem, 142, rfl⟩
abbrev cc10_stg9_0 : Ref sig .tc := ⟨.vmem, 143, rfl⟩
abbrev cc10_stg9_1 : Ref sig .tc := ⟨.vmem, 144, rfl⟩
abbrev cc11_stg0_0 : Ref sig .tc := ⟨.vmem, 145, rfl⟩
abbrev cc11_stg0_1 : Ref sig .tc := ⟨.vmem, 146, rfl⟩
abbrev cc11_stg1_0 : Ref sig .tc := ⟨.vmem, 147, rfl⟩
abbrev cc11_stg2_0 : Ref sig .tc := ⟨.vmem, 148, rfl⟩
abbrev cc11_stg3_0 : Ref sig .tc := ⟨.vmem, 149, rfl⟩
abbrev cc11_stg4_0 : Ref sig .tc := ⟨.vmem, 150, rfl⟩
abbrev cc11_stg5_0 : Ref sig .tc := ⟨.vmem, 151, rfl⟩
abbrev cc11_stg5_1 : Ref sig .tc := ⟨.vmem, 152, rfl⟩
abbrev cc11_stg6_0 : Ref sig .tc := ⟨.vmem, 153, rfl⟩
abbrev cc11_stg6_1 : Ref sig .tc := ⟨.vmem, 154, rfl⟩
abbrev cc11_stg7_0 : Ref sig .tc := ⟨.vmem, 155, rfl⟩
abbrev cc11_stg7_1 : Ref sig .tc := ⟨.vmem, 156, rfl⟩
abbrev cc12_stg0_0 : Ref sig .tc := ⟨.vmem, 157, rfl⟩
abbrev cc12_stg0_1 : Ref sig .tc := ⟨.vmem, 158, rfl⟩
abbrev cc12_stg1_0 : Ref sig .tc := ⟨.vmem, 159, rfl⟩
abbrev cc12_stg2_0 : Ref sig .tc := ⟨.vmem, 160, rfl⟩
abbrev cc12_stg3_0 : Ref sig .tc := ⟨.vmem, 161, rfl⟩
abbrev cc12_stg4_0 : Ref sig .tc := ⟨.vmem, 162, rfl⟩
abbrev cc12_stg5_0 : Ref sig .tc := ⟨.vmem, 163, rfl⟩
abbrev cc12_stg5_1 : Ref sig .tc := ⟨.vmem, 164, rfl⟩
abbrev cc12_stg6_0 : Ref sig .tc := ⟨.vmem, 165, rfl⟩
abbrev cc12_stg7_0 : Ref sig .tc := ⟨.vmem, 166, rfl⟩
abbrev cc12_stg8_0 : Ref sig .tc := ⟨.vmem, 167, rfl⟩
abbrev cc12_stg8_1 : Ref sig .tc := ⟨.vmem, 168, rfl⟩
abbrev cc12_stg9_0 : Ref sig .tc := ⟨.vmem, 169, rfl⟩
abbrev cc12_stg9_1 : Ref sig .tc := ⟨.vmem, 170, rfl⟩
abbrev cc12_stg10_0 : Ref sig .tc := ⟨.vmem, 171, rfl⟩
abbrev cc12_stg10_1 : Ref sig .tc := ⟨.vmem, 172, rfl⟩
abbrev cc13_stg0_0 : Ref sig .tc := ⟨.vmem, 173, rfl⟩
abbrev cc13_stg0_1 : Ref sig .tc := ⟨.vmem, 174, rfl⟩
abbrev cc13_stg1_0 : Ref sig .tc := ⟨.vmem, 175, rfl⟩
abbrev cc13_stg1_1 : Ref sig .tc := ⟨.vmem, 176, rfl⟩
abbrev cc13_stg2_0 : Ref sig .tc := ⟨.vmem, 177, rfl⟩
abbrev cc13_stg3_0 : Ref sig .tc := ⟨.vmem, 178, rfl⟩
abbrev cc13_stg4_0 : Ref sig .tc := ⟨.vmem, 179, rfl⟩
abbrev cc13_stg5_0 : Ref sig .tc := ⟨.vmem, 180, rfl⟩
abbrev cc13_stg5_1 : Ref sig .tc := ⟨.vmem, 181, rfl⟩
abbrev cc13_stg6_0 : Ref sig .tc := ⟨.vmem, 182, rfl⟩
abbrev cc13_stg6_1 : Ref sig .tc := ⟨.vmem, 183, rfl⟩
abbrev cc13_stg7_0 : Ref sig .tc := ⟨.vmem, 184, rfl⟩
abbrev cc13_stg7_1 : Ref sig .tc := ⟨.vmem, 185, rfl⟩
abbrev cc14_stg0_0 : Ref sig .tc := ⟨.vmem, 186, rfl⟩
abbrev cc14_stg0_1 : Ref sig .tc := ⟨.vmem, 187, rfl⟩
abbrev cc14_stg1_0 : Ref sig .tc := ⟨.vmem, 188, rfl⟩
abbrev cc14_stg2_0 : Ref sig .tc := ⟨.vmem, 189, rfl⟩
abbrev cc14_stg3_0 : Ref sig .tc := ⟨.vmem, 190, rfl⟩
abbrev cc14_stg4_0 : Ref sig .tc := ⟨.vmem, 191, rfl⟩
abbrev cc14_stg5_0 : Ref sig .tc := ⟨.vmem, 192, rfl⟩
abbrev cc14_stg6_0 : Ref sig .tc := ⟨.vmem, 193, rfl⟩
abbrev cc14_stg7_0 : Ref sig .tc := ⟨.vmem, 194, rfl⟩
abbrev cc14_stg7_1 : Ref sig .tc := ⟨.vmem, 195, rfl⟩
abbrev cc14_stg8_0 : Ref sig .tc := ⟨.vmem, 196, rfl⟩
abbrev cc14_stg8_1 : Ref sig .tc := ⟨.vmem, 197, rfl⟩
abbrev cc14_stg9_0 : Ref sig .tc := ⟨.vmem, 198, rfl⟩
abbrev cc14_stg9_1 : Ref sig .tc := ⟨.vmem, 199, rfl⟩
abbrev cc15_stg0_0 : Ref sig .tc := ⟨.vmem, 200, rfl⟩
abbrev cc15_stg0_1 : Ref sig .tc := ⟨.vmem, 201, rfl⟩
abbrev cc15_stg1_0 : Ref sig .tc := ⟨.vmem, 202, rfl⟩
abbrev cc15_stg2_0 : Ref sig .tc := ⟨.vmem, 203, rfl⟩
abbrev cc15_stg3_0 : Ref sig .tc := ⟨.vmem, 204, rfl⟩
abbrev cc15_stg4_0 : Ref sig .tc := ⟨.vmem, 205, rfl⟩
abbrev cc15_stg5_0 : Ref sig .tc := ⟨.vmem, 206, rfl⟩
abbrev cc15_stg5_1 : Ref sig .tc := ⟨.vmem, 207, rfl⟩
abbrev cc15_stg6_0 : Ref sig .tc := ⟨.vmem, 208, rfl⟩
abbrev cc15_stg6_1 : Ref sig .tc := ⟨.vmem, 209, rfl⟩
abbrev cc15_stg7_0 : Ref sig .tc := ⟨.vmem, 210, rfl⟩
abbrev cc15_stg7_1 : Ref sig .tc := ⟨.vmem, 211, rfl⟩
abbrev cc16_stg0_0 : Ref sig .tc := ⟨.vmem, 212, rfl⟩
abbrev cc16_stg0_1 : Ref sig .tc := ⟨.vmem, 213, rfl⟩
abbrev cc16_stg1_0 : Ref sig .tc := ⟨.vmem, 214, rfl⟩
abbrev cc16_stg2_0 : Ref sig .tc := ⟨.vmem, 215, rfl⟩
abbrev cc16_stg3_0 : Ref sig .tc := ⟨.vmem, 216, rfl⟩
abbrev cc16_stg4_0 : Ref sig .tc := ⟨.vmem, 217, rfl⟩
abbrev cc16_stg5_0 : Ref sig .tc := ⟨.vmem, 218, rfl⟩
abbrev cc16_stg5_1 : Ref sig .tc := ⟨.vmem, 219, rfl⟩
abbrev cc16_stg6_0 : Ref sig .tc := ⟨.vmem, 220, rfl⟩
abbrev cc16_stg7_0 : Ref sig .tc := ⟨.vmem, 221, rfl⟩
abbrev cc16_stg8_0 : Ref sig .tc := ⟨.vmem, 222, rfl⟩
abbrev cc16_stg8_1 : Ref sig .tc := ⟨.vmem, 223, rfl⟩
abbrev cc16_stg9_0 : Ref sig .tc := ⟨.vmem, 224, rfl⟩
abbrev cc16_stg9_1 : Ref sig .tc := ⟨.vmem, 225, rfl⟩
abbrev cc16_stg10_0 : Ref sig .tc := ⟨.vmem, 226, rfl⟩
abbrev cc16_stg10_1 : Ref sig .tc := ⟨.vmem, 227, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem7_1 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem7_1 : DmaSem sig := 30
abbrev cc2_sem8_0 : DmaSem sig := 31
abbrev cc2_sem8_1 : DmaSem sig := 32
abbrev cc2_sem9_0 : DmaSem sig := 33
abbrev cc2_sem9_1 : DmaSem sig := 34
abbrev cc3_sem0_0 : DmaSem sig := 35
abbrev cc3_sem0_1 : DmaSem sig := 36
abbrev cc3_sem1_0 : DmaSem sig := 37
abbrev cc3_sem2_0 : DmaSem sig := 38
abbrev cc3_sem3_0 : DmaSem sig := 39
abbrev cc3_sem4_0 : DmaSem sig := 40
abbrev cc3_sem5_0 : DmaSem sig := 41
abbrev cc3_sem5_1 : DmaSem sig := 42
abbrev cc3_sem6_0 : DmaSem sig := 43
abbrev cc3_sem6_1 : DmaSem sig := 44
abbrev cc3_sem7_0 : DmaSem sig := 45
abbrev cc3_sem7_1 : DmaSem sig := 46
abbrev cc4_sem0_0 : DmaSem sig := 47
abbrev cc4_sem0_1 : DmaSem sig := 48
abbrev cc4_sem1_0 : DmaSem sig := 49
abbrev cc4_sem2_0 : DmaSem sig := 50
abbrev cc4_sem3_0 : DmaSem sig := 51
abbrev cc4_sem4_0 : DmaSem sig := 52
abbrev cc4_sem5_0 : DmaSem sig := 53
abbrev cc4_sem5_1 : DmaSem sig := 54
abbrev cc4_sem6_0 : DmaSem sig := 55
abbrev cc4_sem7_0 : DmaSem sig := 56
abbrev cc4_sem8_0 : DmaSem sig := 57
abbrev cc4_sem8_1 : DmaSem sig := 58
abbrev cc4_sem9_0 : DmaSem sig := 59
abbrev cc4_sem9_1 : DmaSem sig := 60
abbrev cc4_sem10_0 : DmaSem sig := 61
abbrev cc4_sem10_1 : DmaSem sig := 62
abbrev cc5_sem0_0 : DmaSem sig := 63
abbrev cc5_sem0_1 : DmaSem sig := 64
abbrev cc5_sem1_0 : DmaSem sig := 65
abbrev cc5_sem1_1 : DmaSem sig := 66
abbrev cc5_sem2_0 : DmaSem sig := 67
abbrev cc5_sem3_0 : DmaSem sig := 68
abbrev cc5_sem4_0 : DmaSem sig := 69
abbrev cc5_sem5_0 : DmaSem sig := 70
abbrev cc5_sem5_1 : DmaSem sig := 71
abbrev cc5_sem6_0 : DmaSem sig := 72
abbrev cc5_sem6_1 : DmaSem sig := 73
abbrev cc5_sem7_0 : DmaSem sig := 74
abbrev cc5_sem7_1 : DmaSem sig := 75
abbrev cc6_sem0_0 : DmaSem sig := 76
abbrev cc6_sem0_1 : DmaSem sig := 77
abbrev cc6_sem1_0 : DmaSem sig := 78
abbrev cc6_sem2_0 : DmaSem sig := 79
abbrev cc6_sem3_0 : DmaSem sig := 80
abbrev cc6_sem4_0 : DmaSem sig := 81
abbrev cc6_sem5_0 : DmaSem sig := 82
abbrev cc6_sem6_0 : DmaSem sig := 83
abbrev cc6_sem7_0 : DmaSem sig := 84
abbrev cc6_sem7_1 : DmaSem sig := 85
abbrev cc6_sem8_0 : DmaSem sig := 86
abbrev cc6_sem8_1 : DmaSem sig := 87
abbrev cc6_sem9_0 : DmaSem sig := 88
abbrev cc6_sem9_1 : DmaSem sig := 89
abbrev cc7_sem0_0 : DmaSem sig := 90
abbrev cc7_sem0_1 : DmaSem sig := 91
abbrev cc7_sem1_0 : DmaSem sig := 92
abbrev cc7_sem2_0 : DmaSem sig := 93
abbrev cc7_sem3_0 : DmaSem sig := 94
abbrev cc7_sem4_0 : DmaSem sig := 95
abbrev cc7_sem5_0 : DmaSem sig := 96
abbrev cc7_sem5_1 : DmaSem sig := 97
abbrev cc7_sem6_0 : DmaSem sig := 98
abbrev cc7_sem6_1 : DmaSem sig := 99
abbrev cc7_sem7_0 : DmaSem sig := 100
abbrev cc7_sem7_1 : DmaSem sig := 101
abbrev cc8_sem0_0 : DmaSem sig := 102
abbrev cc8_sem0_1 : DmaSem sig := 103
abbrev cc8_sem1_0 : DmaSem sig := 104
abbrev cc8_sem2_0 : DmaSem sig := 105
abbrev cc8_sem3_0 : DmaSem sig := 106
abbrev cc8_sem4_0 : DmaSem sig := 107
abbrev cc8_sem5_0 : DmaSem sig := 108
abbrev cc8_sem5_1 : DmaSem sig := 109
abbrev cc8_sem6_0 : DmaSem sig := 110
abbrev cc8_sem7_0 : DmaSem sig := 111
abbrev cc8_sem8_0 : DmaSem sig := 112
abbrev cc8_sem8_1 : DmaSem sig := 113
abbrev cc8_sem9_0 : DmaSem sig := 114
abbrev cc8_sem9_1 : DmaSem sig := 115
abbrev cc8_sem10_0 : DmaSem sig := 116
abbrev cc8_sem10_1 : DmaSem sig := 117
abbrev cc9_sem0_0 : DmaSem sig := 118
abbrev cc9_sem0_1 : DmaSem sig := 119
abbrev cc9_sem1_0 : DmaSem sig := 120
abbrev cc9_sem1_1 : DmaSem sig := 121
abbrev cc9_sem2_0 : DmaSem sig := 122
abbrev cc9_sem3_0 : DmaSem sig := 123
abbrev cc9_sem4_0 : DmaSem sig := 124
abbrev cc9_sem5_0 : DmaSem sig := 125
abbrev cc9_sem5_1 : DmaSem sig := 126
abbrev cc9_sem6_0 : DmaSem sig := 127
abbrev cc9_sem6_1 : DmaSem sig := 128
abbrev cc9_sem7_0 : DmaSem sig := 129
abbrev cc9_sem7_1 : DmaSem sig := 130
abbrev cc10_sem0_0 : DmaSem sig := 131
abbrev cc10_sem0_1 : DmaSem sig := 132
abbrev cc10_sem1_0 : DmaSem sig := 133
abbrev cc10_sem2_0 : DmaSem sig := 134
abbrev cc10_sem3_0 : DmaSem sig := 135
abbrev cc10_sem4_0 : DmaSem sig := 136
abbrev cc10_sem5_0 : DmaSem sig := 137
abbrev cc10_sem6_0 : DmaSem sig := 138
abbrev cc10_sem7_0 : DmaSem sig := 139
abbrev cc10_sem7_1 : DmaSem sig := 140
abbrev cc10_sem8_0 : DmaSem sig := 141
abbrev cc10_sem8_1 : DmaSem sig := 142
abbrev cc10_sem9_0 : DmaSem sig := 143
abbrev cc10_sem9_1 : DmaSem sig := 144
abbrev cc11_sem0_0 : DmaSem sig := 145
abbrev cc11_sem0_1 : DmaSem sig := 146
abbrev cc11_sem1_0 : DmaSem sig := 147
abbrev cc11_sem2_0 : DmaSem sig := 148
abbrev cc11_sem3_0 : DmaSem sig := 149
abbrev cc11_sem4_0 : DmaSem sig := 150
abbrev cc11_sem5_0 : DmaSem sig := 151
abbrev cc11_sem5_1 : DmaSem sig := 152
abbrev cc11_sem6_0 : DmaSem sig := 153
abbrev cc11_sem6_1 : DmaSem sig := 154
abbrev cc11_sem7_0 : DmaSem sig := 155
abbrev cc11_sem7_1 : DmaSem sig := 156
abbrev cc12_sem0_0 : DmaSem sig := 157
abbrev cc12_sem0_1 : DmaSem sig := 158
abbrev cc12_sem1_0 : DmaSem sig := 159
abbrev cc12_sem2_0 : DmaSem sig := 160
abbrev cc12_sem3_0 : DmaSem sig := 161
abbrev cc12_sem4_0 : DmaSem sig := 162
abbrev cc12_sem5_0 : DmaSem sig := 163
abbrev cc12_sem5_1 : DmaSem sig := 164
abbrev cc12_sem6_0 : DmaSem sig := 165
abbrev cc12_sem7_0 : DmaSem sig := 166
abbrev cc12_sem8_0 : DmaSem sig := 167
abbrev cc12_sem8_1 : DmaSem sig := 168
abbrev cc12_sem9_0 : DmaSem sig := 169
abbrev cc12_sem9_1 : DmaSem sig := 170
abbrev cc12_sem10_0 : DmaSem sig := 171
abbrev cc12_sem10_1 : DmaSem sig := 172
abbrev cc13_sem0_0 : DmaSem sig := 173
abbrev cc13_sem0_1 : DmaSem sig := 174
abbrev cc13_sem1_0 : DmaSem sig := 175
abbrev cc13_sem1_1 : DmaSem sig := 176
abbrev cc13_sem2_0 : DmaSem sig := 177
abbrev cc13_sem3_0 : DmaSem sig := 178
abbrev cc13_sem4_0 : DmaSem sig := 179
abbrev cc13_sem5_0 : DmaSem sig := 180
abbrev cc13_sem5_1 : DmaSem sig := 181
abbrev cc13_sem6_0 : DmaSem sig := 182
abbrev cc13_sem6_1 : DmaSem sig := 183
abbrev cc13_sem7_0 : DmaSem sig := 184
abbrev cc13_sem7_1 : DmaSem sig := 185
abbrev cc14_sem0_0 : DmaSem sig := 186
abbrev cc14_sem0_1 : DmaSem sig := 187
abbrev cc14_sem1_0 : DmaSem sig := 188
abbrev cc14_sem2_0 : DmaSem sig := 189
abbrev cc14_sem3_0 : DmaSem sig := 190
abbrev cc14_sem4_0 : DmaSem sig := 191
abbrev cc14_sem5_0 : DmaSem sig := 192
abbrev cc14_sem6_0 : DmaSem sig := 193
abbrev cc14_sem7_0 : DmaSem sig := 194
abbrev cc14_sem7_1 : DmaSem sig := 195
abbrev cc14_sem8_0 : DmaSem sig := 196
abbrev cc14_sem8_1 : DmaSem sig := 197
abbrev cc14_sem9_0 : DmaSem sig := 198
abbrev cc14_sem9_1 : DmaSem sig := 199
abbrev cc15_sem0_0 : DmaSem sig := 200
abbrev cc15_sem0_1 : DmaSem sig := 201
abbrev cc15_sem1_0 : DmaSem sig := 202
abbrev cc15_sem2_0 : DmaSem sig := 203
abbrev cc15_sem3_0 : DmaSem sig := 204
abbrev cc15_sem4_0 : DmaSem sig := 205
abbrev cc15_sem5_0 : DmaSem sig := 206
abbrev cc15_sem5_1 : DmaSem sig := 207
abbrev cc15_sem6_0 : DmaSem sig := 208
abbrev cc15_sem6_1 : DmaSem sig := 209
abbrev cc15_sem7_0 : DmaSem sig := 210
abbrev cc15_sem7_1 : DmaSem sig := 211
abbrev cc16_sem0_0 : DmaSem sig := 212
abbrev cc16_sem0_1 : DmaSem sig := 213
abbrev cc16_sem1_0 : DmaSem sig := 214
abbrev cc16_sem2_0 : DmaSem sig := 215
abbrev cc16_sem3_0 : DmaSem sig := 216
abbrev cc16_sem4_0 : DmaSem sig := 217
abbrev cc16_sem5_0 : DmaSem sig := 218
abbrev cc16_sem5_1 : DmaSem sig := 219
abbrev cc16_sem6_0 : DmaSem sig := 220
abbrev cc16_sem7_0 : DmaSem sig := 221
abbrev cc16_sem8_0 : DmaSem sig := 222
abbrev cc16_sem8_1 : DmaSem sig := 223
abbrev cc16_sem9_0 : DmaSem sig := 224
abbrev cc16_sem9_1 : DmaSem sig := 225
abbrev cc16_sem10_0 : DmaSem sig := 226
abbrev cc16_sem10_1 : DmaSem sig := 227

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x8x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x8x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_9 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S4000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4000x128 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x8x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S1x8x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_7 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S4000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4000x128 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x8x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x8x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S4000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S128x128 .bf16 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S128x128 .bf16 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S4000x128 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev stage4_9 : Fin 2 → Memref sig .tc .vmem S4000x128 .bf16 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev stage4_10 : Fin 2 → Memref sig .tc .vmem S4000x128 .bf16 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_7 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S4000x128 .bf16 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S1x8x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S1x8x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_8 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_9 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S4000x128 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S4000x128 .bf16 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 2 → Memref sig .tc .vmem S1x8x128 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev stage6_9 : Fin 2 → Memref sig .tc .vmem S1x8x128 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_7 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S4000x128 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S4000x128 .bf16 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S1x8x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev stage7_7 : Fin 2 → Memref sig .tc .vmem S1x8x128 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev grid8 : Pipeline.Grid := ⟨1, ![5], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_9 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_10 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S4000x128 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S4000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 1 → Memref sig .tc .vmem S128x128 .bf16 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S128x128 .bf16 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 2 → Memref sig .tc .vmem S4000x128 .f32 := fun | 0 => Memref.whole cc8_stg8_0 | 1 => Memref.whole cc8_stg8_1 | ⟨_ + 2, h⟩ => absurd h (Nat.not_lt.2 (Nat.le_add_left _ _))
abbrev sem8_8 : Fin 2 → DmaSem sig := fun | 0 => cc8_sem8_0 | 1 => cc8_sem8_1 | ⟨_ + 2, h⟩ => absurd h (Nat.not_lt.2 (Nat.le_add_left _ _))
abbrev reads8_8 : Fin grid8.rank → Bool := ![true]

abbrev stage8_9 : Fin 2 → Memref sig .tc .vmem S4000x128 .bf16 := fun | 0 => Memref.whole cc8_stg9_0 | 1 => Memref.whole cc8_stg9_1 | ⟨_ + 2, h⟩ => absurd h (Nat.not_lt.2 (Nat.le_add_left _ _))
abbrev sem8_9 : Fin 2 → DmaSem sig := fun | 0 => cc8_sem9_0 | 1 => cc8_sem9_1 | ⟨_ + 2, h⟩ => absurd h (Nat.not_lt.2 (Nat.le_add_left _ _))
abbrev reads8_9 : Fin grid8.rank → Bool := ![true]

abbrev stage8_10 : Fin 2 → Memref sig .tc .vmem S4000x128 .bf16 := fun | 0 => Memref.whole cc8_stg10_0 | 1 => Memref.whole cc8_stg10_1 | ⟨_ + 2, h⟩ => absurd h (Nat.not_lt.2 (Nat.le_add_left _ _))
abbrev sem8_10 : Fin 2 → DmaSem sig := fun | 0 => cc8_sem10_0 | 1 => cc8_sem10_1 | ⟨_ + 2, h⟩ => absurd h (Nat.not_lt.2 (Nat.le_add_left _ _))
abbrev reads8_10 : Fin grid8.rank → Bool := ![true]

abbrev grid9 : Pipeline.Grid := ⟨1, ![5], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_6 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc9_transform_7 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage9_0 : Fin 2 → Memref sig .tc .vmem S4000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S4000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S1x1 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S128x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S4000x128 .bf16 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev stage9_6 : Fin 2 → Memref sig .tc .vmem S1x8x128 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev stage9_7 : Fin 2 → Memref sig .tc .vmem S1x8x128 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true]

abbrev grid10 : Pipeline.Grid := ⟨1, ![5], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_8 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc10_transform_9 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage10_0 : Fin 2 → Memref sig .tc .vmem S4000x128 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S128x128 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x128 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 2 → Memref sig .tc .vmem S4000x128 .bf16 := fun | 0 => Memref.whole cc10_stg7_0 | 1 => Memref.whole cc10_stg7_1 | ⟨_ + 2, h⟩ => absurd h (Nat.not_lt.2 (Nat.le_add_left _ _))
abbrev sem10_7 : Fin 2 → DmaSem sig := fun | 0 => cc10_sem7_0 | 1 => cc10_sem7_1 | ⟨_ + 2, h⟩ => absurd h (Nat.not_lt.2 (Nat.le_add_left _ _))
abbrev reads10_7 : Fin grid10.rank → Bool := ![true]

abbrev stage10_8 : Fin 2 → Memref sig .tc .vmem S1x8x128 .f32 := fun | 0 => Memref.whole cc10_stg8_0 | 1 => Memref.whole cc10_stg8_1 | ⟨_ + 2, h⟩ => absurd h (Nat.not_lt.2 (Nat.le_add_left _ _))
abbrev sem10_8 : Fin 2 → DmaSem sig := fun | 0 => cc10_sem8_0 | 1 => cc10_sem8_1 | ⟨_ + 2, h⟩ => absurd h (Nat.not_lt.2 (Nat.le_add_left _ _))
abbrev reads10_8 : Fin grid10.rank → Bool := ![true]

abbrev stage10_9 : Fin 2 → Memref sig .tc .vmem S1x8x128 .f32 := fun | 0 => Memref.whole cc10_stg9_0 | 1 => Memref.whole cc10_stg9_1 | ⟨_ + 2, h⟩ => absurd h (Nat.not_lt.2 (Nat.le_add_left _ _))
abbrev sem10_9 : Fin 2 → DmaSem sig := fun | 0 => cc10_sem9_0 | 1 => cc10_sem9_1 | ⟨_ + 2, h⟩ => absurd h (Nat.not_lt.2 (Nat.le_add_left _ _))
abbrev reads10_9 : Fin grid10.rank → Bool := ![true]

abbrev grid11 : Pipeline.Grid := ⟨1, ![5], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_6 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc11_transform_7 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage11_0 : Fin 2 → Memref sig .tc .vmem S4000x128 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S4000x128 .bf16 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev stage11_6 : Fin 2 → Memref sig .tc .vmem S1x8x128 .f32 := fun | 0 => Memref.whole cc11_stg6_0 | 1 => Memref.whole cc11_stg6_1 | ⟨_ + 2, h⟩ => absurd h (Nat.not_lt.2 (Nat.le_add_left _ _))
abbrev sem11_6 : Fin 2 → DmaSem sig := fun | 0 => cc11_sem6_0 | 1 => cc11_sem6_1 | ⟨_ + 2, h⟩ => absurd h (Nat.not_lt.2 (Nat.le_add_left _ _))
abbrev reads11_6 : Fin grid11.rank → Bool := ![true]

abbrev stage11_7 : Fin 2 → Memref sig .tc .vmem S1x8x128 .f32 := fun | 0 => Memref.whole cc11_stg7_0 | 1 => Memref.whole cc11_stg7_1 | ⟨_ + 2, h⟩ => absurd h (Nat.not_lt.2 (Nat.le_add_left _ _))
abbrev sem11_7 : Fin 2 → DmaSem sig := fun | 0 => cc11_sem7_0 | 1 => cc11_sem7_1 | ⟨_ + 2, h⟩ => absurd h (Nat.not_lt.2 (Nat.le_add_left _ _))
abbrev reads11_7 : Fin grid11.rank → Bool := ![true]

abbrev grid12 : Pipeline.Grid := ⟨1, ![5], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_6 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_7 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_8 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_9 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_10 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S4000x128 .bf16 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S1x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x128 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x128 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 2 → Memref sig .tc .vmem S4000x128 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev stage12_6 : Fin 1 → Memref sig .tc .vmem S128x128 .bf16 := fun | 0 => Memref.whole cc12_stg6_0 | ⟨_ + 1, h⟩ => absurd h (Nat.not_lt.2 (Nat.le_add_left _ _))
abbrev sem12_6 : Fin 1 → DmaSem sig := fun | 0 => cc12_sem6_0 | ⟨_ + 1, h⟩ => absurd h (Nat.not_lt.2 (Nat.le_add_left _ _))
abbrev reads12_6 : Fin grid12.rank → Bool := ![false]

abbrev stage12_7 : Fin 1 → Memref sig .tc .vmem S128x128 .bf16 := fun | 0 => Memref.whole cc12_stg7_0 | ⟨_ + 1, h⟩ => absurd h (Nat.not_lt.2 (Nat.le_add_left _ _))
abbrev sem12_7 : Fin 1 → DmaSem sig := fun | 0 => cc12_sem7_0 | ⟨_ + 1, h⟩ => absurd h (Nat.not_lt.2 (Nat.le_add_left _ _))
abbrev reads12_7 : Fin grid12.rank → Bool := ![false]

abbrev stage12_8 : Fin 2 → Memref sig .tc .vmem S4000x128 .f32 := fun | 0 => Memref.whole cc12_stg8_0 | 1 => Memref.whole cc12_stg8_1 | ⟨_ + 2, h⟩ => absurd h (Nat.not_lt.2 (Nat.le_add_left _ _))
abbrev sem12_8 : Fin 2 → DmaSem sig := fun | 0 => cc12_sem8_0 | 1 => cc12_sem8_1 | ⟨_ + 2, h⟩ => absurd h (Nat.not_lt.2 (Nat.le_add_left _ _))
abbrev reads12_8 : Fin grid12.rank → Bool := ![true]

abbrev stage12_9 : Fin 2 → Memref sig .tc .vmem S4000x128 .bf16 := fun | 0 => Memref.whole cc12_stg9_0 | 1 => Memref.whole cc12_stg9_1 | ⟨_ + 2, h⟩ => absurd h (Nat.not_lt.2 (Nat.le_add_left _ _))
abbrev sem12_9 : Fin 2 → DmaSem sig := fun | 0 => cc12_sem9_0 | 1 => cc12_sem9_1 | ⟨_ + 2, h⟩ => absurd h (Nat.not_lt.2 (Nat.le_add_left _ _))
abbrev reads12_9 : Fin grid12.rank → Bool := ![true]

abbrev stage12_10 : Fin 2 → Memref sig .tc .vmem S4000x128 .bf16 := fun | 0 => Memref.whole cc12_stg10_0 | 1 => Memref.whole cc12_stg10_1 | ⟨_ + 2, h⟩ => absurd h (Nat.not_lt.2 (Nat.le_add_left _ _))
abbrev sem12_10 : Fin 2 → DmaSem sig := fun | 0 => cc12_sem10_0 | 1 => cc12_sem10_1 | ⟨_ + 2, h⟩ => absurd h (Nat.not_lt.2 (Nat.le_add_left _ _))
abbrev reads12_10 : Fin grid12.rank → Bool := ![true]

abbrev grid13 : Pipeline.Grid := ⟨1, ![5], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_6 (i : grid13.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc13_transform_7 (i : grid13.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage13_0 : Fin 2 → Memref sig .tc .vmem S4000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S4000x128 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S1x1 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S128x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x128 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 2 → Memref sig .tc .vmem S4000x128 .bf16 := fun | 0 => Memref.whole cc13_stg5_0 | 1 => Memref.whole cc13_stg5_1 | ⟨_ + 2, h⟩ => absurd h (Nat.not_lt.2 (Nat.le_add_left _ _))
abbrev sem13_5 : Fin 2 → DmaSem sig := fun | 0 => cc13_sem5_0 | 1 => cc13_sem5_1 | ⟨_ + 2, h⟩ => absurd h (Nat.not_lt.2 (Nat.le_add_left _ _))
abbrev reads13_5 : Fin grid13.rank → Bool := ![true]

abbrev stage13_6 : Fin 2 → Memref sig .tc .vmem S1x8x128 .f32 := fun | 0 => Memref.whole cc13_stg6_0 | 1 => Memref.whole cc13_stg6_1 | ⟨_ + 2, h⟩ => absurd h (Nat.not_lt.2 (Nat.le_add_left _ _))
abbrev sem13_6 : Fin 2 → DmaSem sig := fun | 0 => cc13_sem6_0 | 1 => cc13_sem6_1 | ⟨_ + 2, h⟩ => absurd h (Nat.not_lt.2 (Nat.le_add_left _ _))
abbrev reads13_6 : Fin grid13.rank → Bool := ![true]

abbrev stage13_7 : Fin 2 → Memref sig .tc .vmem S1x8x128 .f32 := fun | 0 => Memref.whole cc13_stg7_0 | 1 => Memref.whole cc13_stg7_1 | ⟨_ + 2, h⟩ => absurd h (Nat.not_lt.2 (Nat.le_add_left _ _))
abbrev sem13_7 : Fin 2 → DmaSem sig := fun | 0 => cc13_sem7_0 | 1 => cc13_sem7_1 | ⟨_ + 2, h⟩ => absurd h (Nat.not_lt.2 (Nat.le_add_left _ _))
abbrev reads13_7 : Fin grid13.rank → Bool := ![true]

abbrev grid14 : Pipeline.Grid := ⟨1, ![5], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_6 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_7 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_8 (i : grid14.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc14_transform_9 (i : grid14.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage14_0 : Fin 2 → Memref sig .tc .vmem S4000x128 .bf16 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S1x128 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x128 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x128 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x128 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 1 → Memref sig .tc .vmem S128x128 .f32 := fun | 0 => Memref.whole cc14_stg5_0 | ⟨_ + 1, h⟩ => absurd h (Nat.not_lt.2 (Nat.le_add_left _ _))
abbrev sem14_5 : Fin 1 → DmaSem sig := fun | 0 => cc14_sem5_0 | ⟨_ + 1, h⟩ => absurd h (Nat.not_lt.2 (Nat.le_add_left _ _))
abbrev reads14_5 : Fin grid14.rank → Bool := ![false]

abbrev stage14_6 : Fin 1 → Memref sig .tc .vmem S1x128 .f32 := fun | 0 => Memref.whole cc14_stg6_0 | ⟨_ + 1, h⟩ => absurd h (Nat.not_lt.2 (Nat.le_add_left _ _))
abbrev sem14_6 : Fin 1 → DmaSem sig := fun | 0 => cc14_sem6_0 | ⟨_ + 1, h⟩ => absurd h (Nat.not_lt.2 (Nat.le_add_left _ _))
abbrev reads14_6 : Fin grid14.rank → Bool := ![false]

abbrev stage14_7 : Fin 2 → Memref sig .tc .vmem S4000x128 .bf16 := fun | 0 => Memref.whole cc14_stg7_0 | 1 => Memref.whole cc14_stg7_1 | ⟨_ + 2, h⟩ => absurd h (Nat.not_lt.2 (Nat.le_add_left _ _))
abbrev sem14_7 : Fin 2 → DmaSem sig := fun | 0 => cc14_sem7_0 | 1 => cc14_sem7_1 | ⟨_ + 2, h⟩ => absurd h (Nat.not_lt.2 (Nat.le_add_left _ _))
abbrev reads14_7 : Fin grid14.rank → Bool := ![true]

abbrev stage14_8 : Fin 2 → Memref sig .tc .vmem S1x8x128 .f32 := fun | 0 => Memref.whole cc14_stg8_0 | 1 => Memref.whole cc14_stg8_1 | ⟨_ + 2, h⟩ => absurd h (Nat.not_lt.2 (Nat.le_add_left _ _))
abbrev sem14_8 : Fin 2 → DmaSem sig := fun | 0 => cc14_sem8_0 | 1 => cc14_sem8_1 | ⟨_ + 2, h⟩ => absurd h (Nat.not_lt.2 (Nat.le_add_left _ _))
abbrev reads14_8 : Fin grid14.rank → Bool := ![true]

abbrev stage14_9 : Fin 2 → Memref sig .tc .vmem S1x8x128 .f32 := fun | 0 => Memref.whole cc14_stg9_0 | 1 => Memref.whole cc14_stg9_1 | ⟨_ + 2, h⟩ => absurd h (Nat.not_lt.2 (Nat.le_add_left _ _))
abbrev sem14_9 : Fin 2 → DmaSem sig := fun | 0 => cc14_sem9_0 | 1 => cc14_sem9_1 | ⟨_ + 2, h⟩ => absurd h (Nat.not_lt.2 (Nat.le_add_left _ _))
abbrev reads14_9 : Fin grid14.rank → Bool := ![true]

abbrev grid15 : Pipeline.Grid := ⟨1, ![5], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_5 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_6 (i : grid15.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc15_transform_7 (i : grid15.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage15_0 : Fin 2 → Memref sig .tc .vmem S4000x128 .bf16 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S1x128 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x128 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S1x128 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 1 → Memref sig .tc .vmem S1x128 .f32 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))
abbrev reads15_4 : Fin grid15.rank → Bool := ![false]

abbrev stage15_5 : Fin 2 → Memref sig .tc .vmem S4000x128 .bf16 := fun | 0 => Memref.whole cc15_stg5_0 | 1 => Memref.whole cc15_stg5_1 | ⟨_ + 2, h⟩ => absurd h (Nat.not_lt.2 (Nat.le_add_left _ _))
abbrev sem15_5 : Fin 2 → DmaSem sig := fun | 0 => cc15_sem5_0 | 1 => cc15_sem5_1 | ⟨_ + 2, h⟩ => absurd h (Nat.not_lt.2 (Nat.le_add_left _ _))
abbrev reads15_5 : Fin grid15.rank → Bool := ![true]

abbrev stage15_6 : Fin 2 → Memref sig .tc .vmem S1x8x128 .f32 := fun | 0 => Memref.whole cc15_stg6_0 | 1 => Memref.whole cc15_stg6_1 | ⟨_ + 2, h⟩ => absurd h (Nat.not_lt.2 (Nat.le_add_left _ _))
abbrev sem15_6 : Fin 2 → DmaSem sig := fun | 0 => cc15_sem6_0 | 1 => cc15_sem6_1 | ⟨_ + 2, h⟩ => absurd h (Nat.not_lt.2 (Nat.le_add_left _ _))
abbrev reads15_6 : Fin grid15.rank → Bool := ![true]

abbrev stage15_7 : Fin 2 → Memref sig .tc .vmem S1x8x128 .f32 := fun | 0 => Memref.whole cc15_stg7_0 | 1 => Memref.whole cc15_stg7_1 | ⟨_ + 2, h⟩ => absurd h (Nat.not_lt.2 (Nat.le_add_left _ _))
abbrev sem15_7 : Fin 2 → DmaSem sig := fun | 0 => cc15_sem7_0 | 1 => cc15_sem7_1 | ⟨_ + 2, h⟩ => absurd h (Nat.not_lt.2 (Nat.le_add_left _ _))
abbrev reads15_7 : Fin grid15.rank → Bool := ![true]

abbrev grid16 : Pipeline.Grid := ⟨1, ![5], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_4 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_5 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_6 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_7 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_8 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_9 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_10 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S4000x128 .bf16 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 1 → Memref sig .tc .vmem S1x128 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 1 → Memref sig .tc .vmem S1x128 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 1 → Memref sig .tc .vmem S1x128 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![false]

abbrev stage16_4 : Fin 1 → Memref sig .tc .vmem S1x128 .f32 := fun | 0 => Memref.whole cc16_stg4_0 | ⟨_ + 1, h⟩ => absurd h (Nat.not_lt.2 (Nat.le_add_left _ _))
abbrev sem16_4 : Fin 1 → DmaSem sig := fun | 0 => cc16_sem4_0 | ⟨_ + 1, h⟩ => absurd h (Nat.not_lt.2 (Nat.le_add_left _ _))
abbrev reads16_4 : Fin grid16.rank → Bool := ![false]

abbrev stage16_5 : Fin 2 → Memref sig .tc .vmem S4000x128 .f32 := fun | 0 => Memref.whole cc16_stg5_0 | 1 => Memref.whole cc16_stg5_1 | ⟨_ + 2, h⟩ => absurd h (Nat.not_lt.2 (Nat.le_add_left _ _))
abbrev sem16_5 : Fin 2 → DmaSem sig := fun | 0 => cc16_sem5_0 | 1 => cc16_sem5_1 | ⟨_ + 2, h⟩ => absurd h (Nat.not_lt.2 (Nat.le_add_left _ _))
abbrev reads16_5 : Fin grid16.rank → Bool := ![true]

abbrev stage16_6 : Fin 1 → Memref sig .tc .vmem S128x128 .bf16 := fun | 0 => Memref.whole cc16_stg6_0 | ⟨_ + 1, h⟩ => absurd h (Nat.not_lt.2 (Nat.le_add_left _ _))
abbrev sem16_6 : Fin 1 → DmaSem sig := fun | 0 => cc16_sem6_0 | ⟨_ + 1, h⟩ => absurd h (Nat.not_lt.2 (Nat.le_add_left _ _))
abbrev reads16_6 : Fin grid16.rank → Bool := ![false]

abbrev stage16_7 : Fin 1 → Memref sig .tc .vmem S128x128 .bf16 := fun | 0 => Memref.whole cc16_stg7_0 | ⟨_ + 1, h⟩ => absurd h (Nat.not_lt.2 (Nat.le_add_left _ _))
abbrev sem16_7 : Fin 1 → DmaSem sig := fun | 0 => cc16_sem7_0 | ⟨_ + 1, h⟩ => absurd h (Nat.not_lt.2 (Nat.le_add_left _ _))
abbrev reads16_7 : Fin grid16.rank → Bool := ![false]

abbrev stage16_8 : Fin 2 → Memref sig .tc .vmem S4000x128 .f32 := fun | 0 => Memref.whole cc16_stg8_0 | 1 => Memref.whole cc16_stg8_1 | ⟨_ + 2, h⟩ => absurd h (Nat.not_lt.2 (Nat.le_add_left _ _))
abbrev sem16_8 : Fin 2 → DmaSem sig := fun | 0 => cc16_sem8_0 | 1 => cc16_sem8_1 | ⟨_ + 2, h⟩ => absurd h (Nat.not_lt.2 (Nat.le_add_left _ _))
abbrev reads16_8 : Fin grid16.rank → Bool := ![true]

abbrev stage16_9 : Fin 2 → Memref sig .tc .vmem S4000x128 .bf16 := fun | 0 => Memref.whole cc16_stg9_0 | 1 => Memref.whole cc16_stg9_1 | ⟨_ + 2, h⟩ => absurd h (Nat.not_lt.2 (Nat.le_add_left _ _))
abbrev sem16_9 : Fin 2 → DmaSem sig := fun | 0 => cc16_sem9_0 | 1 => cc16_sem9_1 | ⟨_ + 2, h⟩ => absurd h (Nat.not_lt.2 (Nat.le_add_left _ _))
abbrev reads16_9 : Fin grid16.rank → Bool := ![true]

abbrev stage16_10 : Fin 2 → Memref sig .tc .vmem S4000x128 .bf16 := fun | 0 => Memref.whole cc16_stg10_0 | 1 => Memref.whole cc16_stg10_1 | ⟨_ + 2, h⟩ => absurd h (Nat.not_lt.2 (Nat.le_add_left _ _))
abbrev sem16_10 : Fin 2 → DmaSem sig := fun | 0 => cc16_sem10_0 | 1 => cc16_sem10_1 | ⟨_ + 2, h⟩ => absurd h (Nat.not_lt.2 (Nat.le_add_left _ _))
abbrev reads16_10 : Fin grid16.rank → Bool := ![true]

class Facts₀ : Prop where
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  slices_S5x256x128_S1x256x128_0_0_0 : S5x256x128.Slices ![0, 0, 0] S1x256x128
  shapeCasts_S1x256x128_S256x128 : S1x256x128.ShapeCasts S256x128
  slices_S256x128_S128x128_0_0 : S256x128.Slices ![0, 0] S128x128
  bitsLt_bf16_f32 : FTy.bits .bf16 < FTy.bits .f32
  slices_S256x128_S128x128_128_0 : S256x128.Slices ![128, 0] S128x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  packedbf16_S4000x128_S4000x128_0_0 : (Rect.unit (s := S4000x128) ![0, 0] S4000x128.size inb_S4000x128_S4000x128_0_0).PackedRows (EltTy.packing .bf16)
  bcast_S_S320000 : S_.BroadcastsInDim S320000 (![] : Fin 0 → Fin S320000.rank)
  bcast_S320000_S320000x1_0 : S320000.BroadcastsInDim S320000x1 (![0] : Fin 1 → Fin S320000x1.rank)
  slices_S5x128_S1x128_0_0 : S5x128.Slices ![0, 0] S1x128
  shapeCasts_S1x128_S128 : S1x128.ShapeCasts S128
  bcast_S1x128_S320000x128_0_1 : S1x128.BroadcastsInDim S320000x128 (![0, 1] : Fin 2 → Fin S320000x128.rank)
  bcast_S_S320000x128 : S_.BroadcastsInDim S320000x128 (![] : Fin 0 → Fin S320000x128.rank)
  slices_S5x128x2_S1x128x2_0_0_0 : S5x128x2.Slices ![0, 0, 0] S1x128x2
  shapeCasts_S1x128x2_S128x2 : S1x128x2.ShapeCasts S128x2
  slices_S5x2_S1x2_0_0 : S5x2.Slices ![0, 0] S1x2
  shapeCasts_S1x2_S2 : S1x2.ShapeCasts S2
  bcast_S2_S1x2_1 : S2.BroadcastsInDim S1x2 (![1] : Fin 1 → Fin S1x2.rank)
  bcast_S1x2_S320000x2_0_1 : S1x2.BroadcastsInDim S320000x2 (![0, 1] : Fin 2 → Fin S320000x2.rank)
  bcast_S_S20000x128 : S_.BroadcastsInDim S20000x128 (![] : Fin 0 → Fin S20000x128.rank)
  slices_S4_S1_0 : S4.Slices ![0] S1
  shapeCasts_S1_S_ : S1.ShapeCasts S_
  shapeCasts_S_S1x1 : S_.ShapeCasts S1x1
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S128_S1x128 : S128.ShapeCasts S1x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x128 : S1x1.Broadcasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S128 : S4000x128.Reduces [0] S128
  shapeCasts_S1x128_S1x1x128 : S1x128.ShapeCasts S1x1x128
  shapeCasts_S1x1x128_S1x1x128 : S1x1x128.ShapeCasts S1x1x128
  broadcasts_S1x1x128_S1x8x128 : S1x1x128.Broadcasts S1x8x128
  inb_S1x8x128_S1x8x128_0_0_0 : ∀ a, (![0, 0, 0] : Fin 3 → Nat) a + S1x8x128.size a ≤ S1x8x128.size a
  h_S1x8x128 : 0 < S1x8x128.numel
  reducesTo_S5x8x128_S128_d0_1 : S5x8x128.ReducesTo [0, 1] S128
  h_S_ : 0 < S_.numel
  bcast_S_S128 : S_.BroadcastsInDim S128 (![] : Fin 0 → Fin S128.rank)
  slices_S5x256x128_S1x256x128_1_0_0 : S5x256x128.Slices ![1, 0, 0] S1x256x128
  slices_S5x128_S1x128_1_0 : S5x128.Slices ![1, 0] S1x128
  slices_S5x128x2_S1x128x2_1_0_0 : S5x128x2.Slices ![1, 0, 0] S1x128x2
  slices_S5x2_S1x2_1_0 : S5x2.Slices ![1, 0] S1x2
  slices_S4_S1_1 : S4.Slices ![1] S1
  slices_S4x128x128_S1x128x128_1_0_0 : S4x128x128.Slices ![1, 0, 0] S1x128x128
  slices_S4x128_S1x128_1_0 : S4x128.Slices ![1, 0] S1x128
  slices_S5x256x128_S1x256x128_2_0_0 : S5x256x128.Slices ![2, 0, 0] S1x256x128
  slices_S5x128_S1x128_2_0 : S5x128.Slices ![2, 0] S1x128
  slices_S5x128x2_S1x128x2_2_0_0 : S5x128x2.Slices ![2, 0, 0] S1x128x2
  slices_S5x2_S1x2_2_0 : S5x2.Slices ![2, 0] S1x2
  slices_S4_S1_2 : S4.Slices ![2] S1
  slices_S4x128x128_S1x128x128_2_0_0 : S4x128x128.Slices ![2, 0, 0] S1x128x128
  slices_S4x128_S1x128_2_0 : S4x128.Slices ![2, 0] S1x128
  slices_S5x256x128_S1x256x128_3_0_0 : S5x256x128.Slices ![3, 0, 0] S1x256x128
  slices_S5x128_S1x128_3_0 : S5x128.Slices ![3, 0] S1x128
  slices_S5x128x2_S1x128x2_3_0_0 : S5x128x2.Slices ![3, 0, 0] S1x128x2
  slices_S5x2_S1x2_3_0 : S5x2.Slices ![3, 0] S1x2
  slices_S4_S1_3 : S4.Slices ![3] S1
  slices_S4x128x128_S1x128x128_3_0_0 : S4x128x128.Slices ![3, 0, 0] S1x128x128
  slices_S4x128_S1x128_3_0 : S4x128.Slices ![3, 0] S1x128
  slices_S5x256x128_S1x256x128_4_0_0 : S5x256x128.Slices ![4, 0, 0] S1x256x128
  slices_S5x128_S1x128_4_0 : S5x128.Slices ![4, 0] S1x128
  slices_S5x128x2_S1x128x2_4_0_0 : S5x128x2.Slices ![4, 0, 0] S1x128x2
  slices_S5x2_S1x2_4_0 : S5x2.Slices ![4, 0] S1x2
  dot_S20000x2_S2x128_S20000x128_1_0_0_1_n_n_wf : DotDims.WF S20000x2 S2x128 S20000x128 [1] [0] [0] [1] [] []
  dot_S4000x128_S128x128_S4000x128_1_0_0_1_n_n_wf : DotDims.WF S4000x128 S128x128 S4000x128 [1] [0] [0] [1] [] []
  gather_S20000x128_S320000x1_S320000x128_1_0_n_n_0_1_1128_wf : GatherDims.WF S20000x128 S320000x1 S320000x128 [1] [0] [] [0] [] 1 ![1, 128]
  dot_S320000x128_S128x2_S320000x2_1_0_0_1_n_n_wf : DotDims.WF S320000x128 S128x2 S320000x2 [1] [0] [0] [1] [] []
  scatter_S20000x128_S320000x1_S320000x128_1_0_0_1_wf : ScatterDims.WF S20000x128 S320000x1 S320000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S20000x128.size a
  hwx0_0 : ∀ i : grid0.Coords, EltTy.bits .f32 = 32 ∨ (Rect.block (s := S20000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S20000x128.size a
  hwx0_3 : ∀ i : grid0.Coords, EltTy.bits .bf16 = 32 ∨ (Rect.block (s := S20000x128) S4000x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S20000x128.size a
  hwx0_4 : ∀ i : grid0.Coords, EltTy.bits .bf16 = 32 ∨ (Rect.block (s := S20000x128) S4000x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S20000x128.size a
  hwx1_0 : ∀ i : grid1.Coords, EltTy.bits .f32 = 32 ∨ (Rect.block (s := S20000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S20000x128.size a
  hwx1_1 : ∀ i : grid1.Coords, EltTy.bits .f32 = 32 ∨ (Rect.block (s := S20000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S20000x128.size a
  hwx1_5 : ∀ i : grid1.Coords, EltTy.bits .bf16 = 32 ∨ (Rect.block (s := S20000x128) S4000x128.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x8x128.size a ≤ S5x8x128.size a
  hwx1_6 : ∀ i : grid1.Coords, EltTy.bits .f32 = 32 ∨ (Rect.block (s := S5x8x128) S1x8x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x8x128.size a ≤ S5x8x128.size a
  hwx1_7 : ∀ i : grid1.Coords, EltTy.bits .f32 = 32 ∨ (Rect.block (s := S5x8x128) S1x8x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S20000x128.size a
  hwx2_0 : ∀ i : grid2.Coords, EltTy.bits .bf16 = 32 ∨ (Rect.block (s := S20000x128) S4000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x128.size a ≤ S20000x128.size a
  hwx2_7 : ∀ i : grid2.Coords, EltTy.bits .bf16 = 32 ∨ (Rect.block (s := S20000x128) S4000x128.size (cc2_transform_7 i) (hinb2_7 i)).WholeWords (EltTy.packing .bf16)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1x8x128.size a ≤ S5x8x128.size a
  hwx2_8 : ∀ i : grid2.Coords, EltTy.bits .f32 = 32 ∨ (Rect.block (s := S5x8x128) S1x8x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1x8x128.size a ≤ S5x8x128.size a
  hwx2_9 : ∀ i : grid2.Coords, EltTy.bits .f32 = 32 ∨ (Rect.block (s := S5x8x128) S1x8x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S20000x128.size a
  hwx3_0 : ∀ i : grid3.Coords, EltTy.bits .bf16 = 32 ∨ (Rect.block (s := S20000x128) S4000x128.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x128.size a ≤ S20000x128.size a
  hwx3_5 : ∀ i : grid3.Coords, EltTy.bits .bf16 = 32 ∨ (Rect.block (s := S20000x128) S4000x128.size (cc3_transform_5 i) (hinb3_5 i)).WholeWords (EltTy.packing .bf16)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1x8x128.size a ≤ S5x8x128.size a
  hwx3_6 : ∀ i : grid3.Coords, EltTy.bits .f32 = 32 ∨ (Rect.block (s := S5x8x128) S1x8x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1x8x128.size a ≤ S5x8x128.size a
  hwx3_7 : ∀ i : grid3.Coords, EltTy.bits .f32 = 32 ∨ (Rect.block (s := S5x8x128) S1x8x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S20000x128.size a
  hwx4_0 : ∀ i : grid4.Coords, EltTy.bits .bf16 = 32 ∨ (Rect.block (s := S20000x128) S4000x128.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S4000x128.size a ≤ S20000x128.size a
  hwx4_5 : ∀ i : grid4.Coords, EltTy.bits .f32 = 32 ∨ (Rect.block (s := S20000x128) S4000x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128x128.size a ≤ S128x128.size a
  hwx4_6 : ∀ i : grid4.Coords, EltTy.bits .bf16 = 32 ∨ (Rect.block (s := S128x128) S128x128.size (cc4_transform_6 i) (hinb4_6 i)).WholeWords (EltTy.packing .bf16)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S128x128.size a ≤ S128x128.size a
  hwx4_7 : ∀ i : grid4.Coords, EltTy.bits .bf16 = 32 ∨ (Rect.block (s := S128x128) S128x128.size (cc4_transform_7 i) (hinb4_7 i)).WholeWords (EltTy.packing .bf16)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S4000x128.size a ≤ S20000x128.size a
  hwx4_8 : ∀ i : grid4.Coords, EltTy.bits .f32 = 32 ∨ (Rect.block (s := S20000x128) S4000x128.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S4000x128.size a ≤ S20000x128.size a
  hwx4_9 : ∀ i : grid4.Coords, EltTy.bits .bf16 = 32 ∨ (Rect.block (s := S20000x128) S4000x128.size (cc4_transform_9 i) (hinb4_9 i)).WholeWords (EltTy.packing .bf16)
  hstage4_10 : ∀ j, (stage4_10 j).IsWhole
  nbuf4_10 : grid4.bufCount reads4_10 false = 2
  hreads4_10 : ∀ i i' : grid4.Coords, (∀ a, reads4_10 a = true → i a = i' a) → cc4_transform_10 i = cc4_transform_10 i'
  hinb4_10 : ∀ (i : grid4.Coords) a, (cc4_transform_10 i a + 1) * S4000x128.size a ≤ S20000x128.size a
  hwx4_10 : ∀ i : grid4.Coords, EltTy.bits .bf16 = 32 ∨ (Rect.block (s := S20000x128) S4000x128.size (cc4_transform_10 i) (hinb4_10 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S20000x128.size a
  hwx5_0 : ∀ i : grid5.Coords, EltTy.bits .f32 = 32 ∨ (Rect.block (s := S20000x128) S4000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x128.size a ≤ S20000x128.size a
  hwx5_1 : ∀ i : grid5.Coords, EltTy.bits .f32 = 32 ∨ (Rect.block (s := S20000x128) S4000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1.size a ≤ S1x1.size a
  hwx5_2 : ∀ i : grid5.Coords, EltTy.bits .f32 = 32 ∨ (Rect.block (s := S1x1) S1x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S4000x128.size a ≤ S20000x128.size a
  hwx5_5 : ∀ i : grid5.Coords, EltTy.bits .bf16 = 32 ∨ (Rect.block (s := S20000x128) S4000x128.size (cc5_transform_5 i) (hinb5_5 i)).WholeWords (EltTy.packing .bf16)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S1x8x128.size a ≤ S5x8x128.size a
  hwx5_6 : ∀ i : grid5.Coords, EltTy.bits .f32 = 32 ∨ (Rect.block (s := S5x8x128) S1x8x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S1x8x128.size a ≤ S5x8x128.size a
  hwx5_7 : ∀ i : grid5.Coords, EltTy.bits .f32 = 32 ∨ (Rect.block (s := S5x8x128) S1x8x128.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x128.size a ≤ S20000x128.size a
  hwx6_0 : ∀ i : grid6.Coords, EltTy.bits .bf16 = 32 ∨ (Rect.block (s := S20000x128) S4000x128.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x128.size a ≤ S128x128.size a
  hwx6_5 : ∀ i : grid6.Coords, EltTy.bits .f32 = 32 ∨ (Rect.block (s := S128x128) S128x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S4000x128.size a ≤ S20000x128.size a
  hwx6_7 : ∀ i : grid6.Coords, EltTy.bits .bf16 = 32 ∨ (Rect.block (s := S20000x128) S4000x128.size (cc6_transform_7 i) (hinb6_7 i)).WholeWords (EltTy.packing .bf16)
  hstage6_8 : ∀ j, (stage6_8 j).IsWhole
  nbuf6_8 : grid6.bufCount reads6_8 false = 2
  hreads6_8 : ∀ i i' : grid6.Coords, (∀ a, reads6_8 a = true → i a = i' a) → cc6_transform_8 i = cc6_transform_8 i'
  hinb6_8 : ∀ (i : grid6.Coords) a, (cc6_transform_8 i a + 1) * S1x8x128.size a ≤ S5x8x128.size a
  hwx6_8 : ∀ i : grid6.Coords, EltTy.bits .f32 = 32 ∨ (Rect.block (s := S5x8x128) S1x8x128.size (cc6_transform_8 i) (hinb6_8 i)).WholeWords (EltTy.packing .f32)
  hstage6_9 : ∀ j, (stage6_9 j).IsWhole
  nbuf6_9 : grid6.bufCount reads6_9 false = 2
  hreads6_9 : ∀ i i' : grid6.Coords, (∀ a, reads6_9 a = true → i a = i' a) → cc6_transform_9 i = cc6_transform_9 i'
  hinb6_9 : ∀ (i : grid6.Coords) a, (cc6_transform_9 i a + 1) * S1x8x128.size a ≤ S5x8x128.size a
  hwx6_9 : ∀ i : grid6.Coords, EltTy.bits .f32 = 32 ∨ (Rect.block (s := S5x8x128) S1x8x128.size (cc6_transform_9 i) (hinb6_9 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x128.size a ≤ S20000x128.size a
  hwx7_0 : ∀ i : grid7.Coords, EltTy.bits .bf16 = 32 ∨ (Rect.block (s := S20000x128) S4000x128.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S4000x128.size a ≤ S20000x128.size a
  hwx7_5 : ∀ i : grid7.Coords, EltTy.bits .bf16 = 32 ∨ (Rect.block (s := S20000x128) S4000x128.size (cc7_transform_5 i) (hinb7_5 i)).WholeWords (EltTy.packing .bf16)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S1x8x128.size a ≤ S5x8x128.size a
  hwx7_6 : ∀ i : grid7.Coords, EltTy.bits .f32 = 32 ∨ (Rect.block (s := S5x8x128) S1x8x128.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S1x8x128.size a ≤ S5x8x128.size a
  hwx7_7 : ∀ i : grid7.Coords, EltTy.bits .f32 = 32 ∨ (Rect.block (s := S5x8x128) S1x8x128.size (cc7_transform_7 i) (hinb7_7 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4000x128.size a ≤ S20000x128.size a
  hwx8_0 : ∀ i : grid8.Coords, EltTy.bits .bf16 = 32 ∨ (Rect.block (s := S20000x128) S4000x128.size (cc8_transform_0 i) (hinb8_0 i)).WholeWords (EltTy.packing .bf16)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S4000x128.size a ≤ S20000x128.size a
  hwx8_5 : ∀ i : grid8.Coords, EltTy.bits .f32 = 32 ∨ (Rect.block (s := S20000x128) S4000x128.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S128x128.size a ≤ S128x128.size a
  hwx8_6 : ∀ i : grid8.Coords, EltTy.bits .bf16 = 32 ∨ (Rect.block (s := S128x128) S128x128.size (cc8_transform_6 i) (hinb8_6 i)).WholeWords (EltTy.packing .bf16)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S128x128.size a ≤ S128x128.size a
  hwx8_7 : ∀ i : grid8.Coords, EltTy.bits .bf16 = 32 ∨ (Rect.block (s := S128x128) S128x128.size (cc8_transform_7 i) (hinb8_7 i)).WholeWords (EltTy.packing .bf16)
  hstage8_8 : ∀ j, (stage8_8 j).IsWhole
  nbuf8_8 : grid8.bufCount reads8_8 false = 2
  hreads8_8 : ∀ i i' : grid8.Coords, (∀ a, reads8_8 a = true → i a = i' a) → cc8_transform_8 i = cc8_transform_8 i'
  hinb8_8 : ∀ (i : grid8.Coords) a, (cc8_transform_8 i a + 1) * S4000x128.size a ≤ S20000x128.size a
  hwx8_8 : ∀ i : grid8.Coords, EltTy.bits .f32 = 32 ∨ (Rect.block (s := S20000x128) S4000x128.size (cc8_transform_8 i) (hinb8_8 i)).WholeWords (EltTy.packing .f32)
  hstage8_9 : ∀ j, (stage8_9 j).IsWhole
  nbuf8_9 : grid8.bufCount reads8_9 false = 2
  hreads8_9 : ∀ i i' : grid8.Coords, (∀ a, reads8_9 a = true → i a = i' a) → cc8_transform_9 i = cc8_transform_9 i'
  hinb8_9 : ∀ (i : grid8.Coords) a, (cc8_transform_9 i a + 1) * S4000x128.size a ≤ S20000x128.size a
  hwx8_9 : ∀ i : grid8.Coords, EltTy.bits .bf16 = 32 ∨ (Rect.block (s := S20000x128) S4000x128.size (cc8_transform_9 i) (hinb8_9 i)).WholeWords (EltTy.packing .bf16)
  hstage8_10 : ∀ j, (stage8_10 j).IsWhole
  nbuf8_10 : grid8.bufCount reads8_10 false = 2
  hreads8_10 : ∀ i i' : grid8.Coords, (∀ a, reads8_10 a = true → i a = i' a) → cc8_transform_10 i = cc8_transform_10 i'
  hinb8_10 : ∀ (i : grid8.Coords) a, (cc8_transform_10 i a + 1) * S4000x128.size a ≤ S20000x128.size a
  hwx8_10 : ∀ i : grid8.Coords, EltTy.bits .bf16 = 32 ∨ (Rect.block (s := S20000x128) S4000x128.size (cc8_transform_10 i) (hinb8_10 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S4000x128.size a ≤ S20000x128.size a
  hwx9_0 : ∀ i : grid9.Coords, EltTy.bits .f32 = 32 ∨ (Rect.block (s := S20000x128) S4000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S4000x128.size a ≤ S20000x128.size a
  hwx9_1 : ∀ i : grid9.Coords, EltTy.bits .f32 = 32 ∨ (Rect.block (s := S20000x128) S4000x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x1.size a ≤ S1x1.size a
  hwx9_2 : ∀ i : grid9.Coords, EltTy.bits .f32 = 32 ∨ (Rect.block (s := S1x1) S1x1.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128x128.size a ≤ S128x128.size a
  hwx9_3 : ∀ i : grid9.Coords, EltTy.bits .f32 = 32 ∨ (Rect.block (s := S128x128) S128x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S4000x128.size a ≤ S20000x128.size a
  hwx9_5 : ∀ i : grid9.Coords, EltTy.bits .bf16 = 32 ∨ (Rect.block (s := S20000x128) S4000x128.size (cc9_transform_5 i) (hinb9_5 i)).WholeWords (EltTy.packing .bf16)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S1x8x128.size a ≤ S5x8x128.size a
  hwx9_6 : ∀ i : grid9.Coords, EltTy.bits .f32 = 32 ∨ (Rect.block (s := S5x8x128) S1x8x128.size (cc9_transform_6 i) (hinb9_6 i)).WholeWords (EltTy.packing .f32)
  hstage9_7 : ∀ j, (stage9_7 j).IsWhole
  nbuf9_7 : grid9.bufCount reads9_7 false = 2
  hreads9_7 : ∀ i i' : grid9.Coords, (∀ a, reads9_7 a = true → i a = i' a) → cc9_transform_7 i = cc9_transform_7 i'
  hinb9_7 : ∀ (i : grid9.Coords) a, (cc9_transform_7 i a + 1) * S1x8x128.size a ≤ S5x8x128.size a
  hwx9_7 : ∀ i : grid9.Coords, EltTy.bits .f32 = 32 ∨ (Rect.block (s := S5x8x128) S1x8x128.size (cc9_transform_7 i) (hinb9_7 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S4000x128.size a ≤ S20000x128.size a
  hwx10_0 : ∀ i : grid10.Coords, EltTy.bits .bf16 = 32 ∨ (Rect.block (s := S20000x128) S4000x128.size (cc10_transform_0 i) (hinb10_0 i)).WholeWords (EltTy.packing .bf16)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x128.size a ≤ S1x128.size a
  hwx10_1 : ∀ i : grid10.Coords, EltTy.bits .f32 = 32 ∨ (Rect.block (s := S1x128) S1x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x128.size a ≤ S1x128.size a
  hwx10_3 : ∀ i : grid10.Coords, EltTy.bits .f32 = 32 ∨ (Rect.block (s := S1x128) S1x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S128x128.size a ≤ S128x128.size a
  hwx10_5 : ∀ i : grid10.Coords, EltTy.bits .f32 = 32 ∨ (Rect.block (s := S128x128) S128x128.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x128.size a ≤ S1x128.size a
  hwx10_6 : ∀ i : grid10.Coords, EltTy.bits .f32 = 32 ∨ (Rect.block (s := S1x128) S1x128.size (cc10_transform_6 i) (hinb10_6 i)).WholeWords (EltTy.packing .f32)
  hstage10_7 : ∀ j, (stage10_7 j).IsWhole
  nbuf10_7 : grid10.bufCount reads10_7 false = 2
  hreads10_7 : ∀ i i' : grid10.Coords, (∀ a, reads10_7 a = true → i a = i' a) → cc10_transform_7 i = cc10_transform_7 i'
  hinb10_7 : ∀ (i : grid10.Coords) a, (cc10_transform_7 i a + 1) * S4000x128.size a ≤ S20000x128.size a
  hwx10_7 : ∀ i : grid10.Coords, EltTy.bits .bf16 = 32 ∨ (Rect.block (s := S20000x128) S4000x128.size (cc10_transform_7 i) (hinb10_7 i)).WholeWords (EltTy.packing .bf16)
  hstage10_8 : ∀ j, (stage10_8 j).IsWhole
  nbuf10_8 : grid10.bufCount reads10_8 false = 2
  hreads10_8 : ∀ i i' : grid10.Coords, (∀ a, reads10_8 a = true → i a = i' a) → cc10_transform_8 i = cc10_transform_8 i'
  hinb10_8 : ∀ (i : grid10.Coords) a, (cc10_transform_8 i a + 1) * S1x8x128.size a ≤ S5x8x128.size a
  hwx10_8 : ∀ i : grid10.Coords, EltTy.bits .f32 = 32 ∨ (Rect.block (s := S5x8x128) S1x8x128.size (cc10_transform_8 i) (hinb10_8 i)).WholeWords (EltTy.packing .f32)
  hstage10_9 : ∀ j, (stage10_9 j).IsWhole
  nbuf10_9 : grid10.bufCount reads10_9 false = 2
  hreads10_9 : ∀ i i' : grid10.Coords, (∀ a, reads10_9 a = true → i a = i' a) → cc10_transform_9 i = cc10_transform_9 i'
  hinb10_9 : ∀ (i : grid10.Coords) a, (cc10_transform_9 i a + 1) * S1x8x128.size a ≤ S5x8x128.size a
  hwx10_9 : ∀ i : grid10.Coords, EltTy.bits .f32 = 32 ∨ (Rect.block (s := S5x8x128) S1x8x128.size (cc10_transform_9 i) (hinb10_9 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S4000x128.size a ≤ S20000x128.size a
  hwx11_0 : ∀ i : grid11.Coords, EltTy.bits .bf16 = 32 ∨ (Rect.block (s := S20000x128) S4000x128.size (cc11_transform_0 i) (hinb11_0 i)).WholeWords (EltTy.packing .bf16)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128.size a ≤ S1x128.size a
  hwx11_1 : ∀ i : grid11.Coords, EltTy.bits .f32 = 32 ∨ (Rect.block (s := S1x128) S1x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S4000x128.size a ≤ S20000x128.size a
  hwx11_5 : ∀ i : grid11.Coords, EltTy.bits .bf16 = 32 ∨ (Rect.block (s := S20000x128) S4000x128.size (cc11_transform_5 i) (hinb11_5 i)).WholeWords (EltTy.packing .bf16)
  hstage11_6 : ∀ j, (stage11_6 j).IsWhole
  nbuf11_6 : grid11.bufCount reads11_6 false = 2
  hreads11_6 : ∀ i i' : grid11.Coords, (∀ a, reads11_6 a = true → i a = i' a) → cc11_transform_6 i = cc11_transform_6 i'
  hinb11_6 : ∀ (i : grid11.Coords) a, (cc11_transform_6 i a + 1) * S1x8x128.size a ≤ S5x8x128.size a
  hwx11_6 : ∀ i : grid11.Coords, EltTy.bits .f32 = 32 ∨ (Rect.block (s := S5x8x128) S1x8x128.size (cc11_transform_6 i) (hinb11_6 i)).WholeWords (EltTy.packing .f32)
  hstage11_7 : ∀ j, (stage11_7 j).IsWhole
  nbuf11_7 : grid11.bufCount reads11_7 false = 2
  hreads11_7 : ∀ i i' : grid11.Coords, (∀ a, reads11_7 a = true → i a = i' a) → cc11_transform_7 i = cc11_transform_7 i'
  hinb11_7 : ∀ (i : grid11.Coords) a, (cc11_transform_7 i a + 1) * S1x8x128.size a ≤ S5x8x128.size a
  hwx11_7 : ∀ i : grid11.Coords, EltTy.bits .f32 = 32 ∨ (Rect.block (s := S5x8x128) S1x8x128.size (cc11_transform_7 i) (hinb11_7 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S4000x128.size a ≤ S20000x128.size a
  hwx12_0 : ∀ i : grid12.Coords, EltTy.bits .bf16 = 32 ∨ (Rect.block (s := S20000x128) S4000x128.size (cc12_transform_0 i) (hinb12_0 i)).WholeWords (EltTy.packing .bf16)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S1x128.size a ≤ S1x128.size a
  hwx12_1 : ∀ i : grid12.Coords, EltTy.bits .f32 = 32 ∨ (Rect.block (s := S1x128) S1x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x128.size a ≤ S1x128.size a
  hwx12_2 : ∀ i : grid12.Coords, EltTy.bits .f32 = 32 ∨ (Rect.block (s := S1x128) S1x128.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x128.size a ≤ S1x128.size a
  hwx12_3 : ∀ i : grid12.Coords, EltTy.bits .f32 = 32 ∨ (Rect.block (s := S1x128) S1x128.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x128.size a ≤ S1x128.size a
  hwx12_4 : ∀ i : grid12.Coords, EltTy.bits .f32 = 32 ∨ (Rect.block (s := S1x128) S1x128.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S4000x128.size a ≤ S20000x128.size a
  hwx12_5 : ∀ i : grid12.Coords, EltTy.bits .f32 = 32 ∨ (Rect.block (s := S20000x128) S4000x128.size (cc12_transform_5 i) (hinb12_5 i)).WholeWords (EltTy.packing .f32)
  hstage12_6 : ∀ j, (stage12_6 j).IsWhole
  nbuf12_6 : grid12.bufCount reads12_6 true = 1
  hreads12_6 : ∀ i i' : grid12.Coords, (∀ a, reads12_6 a = true → i a = i' a) → cc12_transform_6 i = cc12_transform_6 i'
  hinb12_6 : ∀ (i : grid12.Coords) a, (cc12_transform_6 i a + 1) * S128x128.size a ≤ S128x128.size a
  hwx12_6 : ∀ i : grid12.Coords, EltTy.bits .bf16 = 32 ∨ (Rect.block (s := S128x128) S128x128.size (cc12_transform_6 i) (hinb12_6 i)).WholeWords (EltTy.packing .bf16)
  hstage12_7 : ∀ j, (stage12_7 j).IsWhole
  nbuf12_7 : grid12.bufCount reads12_7 true = 1
  hreads12_7 : ∀ i i' : grid12.Coords, (∀ a, reads12_7 a = true → i a = i' a) → cc12_transform_7 i = cc12_transform_7 i'
  hinb12_7 : ∀ (i : grid12.Coords) a, (cc12_transform_7 i a + 1) * S128x128.size a ≤ S128x128.size a
  hwx12_7 : ∀ i : grid12.Coords, EltTy.bits .bf16 = 32 ∨ (Rect.block (s := S128x128) S128x128.size (cc12_transform_7 i) (hinb12_7 i)).WholeWords (EltTy.packing .bf16)
  hstage12_8 : ∀ j, (stage12_8 j).IsWhole
  nbuf12_8 : grid12.bufCount reads12_8 false = 2
  hreads12_8 : ∀ i i' : grid12.Coords, (∀ a, reads12_8 a = true → i a = i' a) → cc12_transform_8 i = cc12_transform_8 i'
  hinb12_8 : ∀ (i : grid12.Coords) a, (cc12_transform_8 i a + 1) * S4000x128.size a ≤ S20000x128.size a
  hwx12_8 : ∀ i : grid12.Coords, EltTy.bits .f32 = 32 ∨ (Rect.block (s := S20000x128) S4000x128.size (cc12_transform_8 i) (hinb12_8 i)).WholeWords (EltTy.packing .f32)
  hstage12_9 : ∀ j, (stage12_9 j).IsWhole
  nbuf12_9 : grid12.bufCount reads12_9 false = 2
  hreads12_9 : ∀ i i' : grid12.Coords, (∀ a, reads12_9 a = true → i a = i' a) → cc12_transform_9 i = cc12_transform_9 i'
  hinb12_9 : ∀ (i : grid12.Coords) a, (cc12_transform_9 i a + 1) * S4000x128.size a ≤ S20000x128.size a
  hwx12_9 : ∀ i : grid12.Coords, EltTy.bits .bf16 = 32 ∨ (Rect.block (s := S20000x128) S4000x128.size (cc12_transform_9 i) (hinb12_9 i)).WholeWords (EltTy.packing .bf16)
  hstage12_10 : ∀ j, (stage12_10 j).IsWhole
  nbuf12_10 : grid12.bufCount reads12_10 false = 2
  hreads12_10 : ∀ i i' : grid12.Coords, (∀ a, reads12_10 a = true → i a = i' a) → cc12_transform_10 i = cc12_transform_10 i'
  hinb12_10 : ∀ (i : grid12.Coords) a, (cc12_transform_10 i a + 1) * S4000x128.size a ≤ S20000x128.size a
  hwx12_10 : ∀ i : grid12.Coords, EltTy.bits .bf16 = 32 ∨ (Rect.block (s := S20000x128) S4000x128.size (cc12_transform_10 i) (hinb12_10 i)).WholeWords (EltTy.packing .bf16)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S4000x128.size a ≤ S20000x128.size a
  hwx13_0 : ∀ i : grid13.Coords, EltTy.bits .f32 = 32 ∨ (Rect.block (s := S20000x128) S4000x128.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S4000x128.size a ≤ S20000x128.size a
  hwx13_1 : ∀ i : grid13.Coords, EltTy.bits .f32 = 32 ∨ (Rect.block (s := S20000x128) S4000x128.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x1.size a ≤ S1x1.size a
  hwx13_2 : ∀ i : grid13.Coords, EltTy.bits .f32 = 32 ∨ (Rect.block (s := S1x1) S1x1.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S128x128.size a ≤ S128x128.size a
  hwx13_3 : ∀ i : grid13.Coords, EltTy.bits .f32 = 32 ∨ (Rect.block (s := S128x128) S128x128.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x128.size a ≤ S1x128.size a
  hwx13_4 : ∀ i : grid13.Coords, EltTy.bits .f32 = 32 ∨ (Rect.block (s := S1x128) S1x128.size (cc13_transform_4 i) (hinb13_4 i)).WholeWords (EltTy.packing .f32)
  hstage13_5 : ∀ j, (stage13_5 j).IsWhole
  nbuf13_5 : grid13.bufCount reads13_5 false = 2
  hreads13_5 : ∀ i i' : grid13.Coords, (∀ a, reads13_5 a = true → i a = i' a) → cc13_transform_5 i = cc13_transform_5 i'
  hinb13_5 : ∀ (i : grid13.Coords) a, (cc13_transform_5 i a + 1) * S4000x128.size a ≤ S20000x128.size a
  hwx13_5 : ∀ i : grid13.Coords, EltTy.bits .bf16 = 32 ∨ (Rect.block (s := S20000x128) S4000x128.size (cc13_transform_5 i) (hinb13_5 i)).WholeWords (EltTy.packing .bf16)
  hstage13_6 : ∀ j, (stage13_6 j).IsWhole
  nbuf13_6 : grid13.bufCount reads13_6 false = 2
  hreads13_6 : ∀ i i' : grid13.Coords, (∀ a, reads13_6 a = true → i a = i' a) → cc13_transform_6 i = cc13_transform_6 i'
  hinb13_6 : ∀ (i : grid13.Coords) a, (cc13_transform_6 i a + 1) * S1x8x128.size a ≤ S5x8x128.size a
  hwx13_6 : ∀ i : grid13.Coords, EltTy.bits .f32 = 32 ∨ (Rect.block (s := S5x8x128) S1x8x128.size (cc13_transform_6 i) (hinb13_6 i)).WholeWords (EltTy.packing .f32)
  hstage13_7 : ∀ j, (stage13_7 j).IsWhole
  nbuf13_7 : grid13.bufCount reads13_7 false = 2
  hreads13_7 : ∀ i i' : grid13.Coords, (∀ a, reads13_7 a = true → i a = i' a) → cc13_transform_7 i = cc13_transform_7 i'
  hinb13_7 : ∀ (i : grid13.Coords) a, (cc13_transform_7 i a + 1) * S1x8x128.size a ≤ S5x8x128.size a
  hwx13_7 : ∀ i : grid13.Coords, EltTy.bits .f32 = 32 ∨ (Rect.block (s := S5x8x128) S1x8x128.size (cc13_transform_7 i) (hinb13_7 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S4000x128.size a ≤ S20000x128.size a
  hwx14_0 : ∀ i : grid14.Coords, EltTy.bits .bf16 = 32 ∨ (Rect.block (s := S20000x128) S4000x128.size (cc14_transform_0 i) (hinb14_0 i)).WholeWords (EltTy.packing .bf16)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S1x128.size a ≤ S1x128.size a
  hwx14_1 : ∀ i : grid14.Coords, EltTy.bits .f32 = 32 ∨ (Rect.block (s := S1x128) S1x128.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x128.size a ≤ S1x128.size a
  hwx14_2 : ∀ i : grid14.Coords, EltTy.bits .f32 = 32 ∨ (Rect.block (s := S1x128) S1x128.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x128.size a ≤ S1x128.size a
  hwx14_3 : ∀ i : grid14.Coords, EltTy.bits .f32 = 32 ∨ (Rect.block (s := S1x128) S1x128.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x128.size a ≤ S1x128.size a
  hwx14_4 : ∀ i : grid14.Coords, EltTy.bits .f32 = 32 ∨ (Rect.block (s := S1x128) S1x128.size (cc14_transform_4 i) (hinb14_4 i)).WholeWords (EltTy.packing .f32)
  hstage14_5 : ∀ j, (stage14_5 j).IsWhole
  nbuf14_5 : grid14.bufCount reads14_5 true = 1
  hreads14_5 : ∀ i i' : grid14.Coords, (∀ a, reads14_5 a = true → i a = i' a) → cc14_transform_5 i = cc14_transform_5 i'
  hinb14_5 : ∀ (i : grid14.Coords) a, (cc14_transform_5 i a + 1) * S128x128.size a ≤ S128x128.size a
  hwx14_5 : ∀ i : grid14.Coords, EltTy.bits .f32 = 32 ∨ (Rect.block (s := S128x128) S128x128.size (cc14_transform_5 i) (hinb14_5 i)).WholeWords (EltTy.packing .f32)
  hstage14_6 : ∀ j, (stage14_6 j).IsWhole
  nbuf14_6 : grid14.bufCount reads14_6 true = 1
  hreads14_6 : ∀ i i' : grid14.Coords, (∀ a, reads14_6 a = true → i a = i' a) → cc14_transform_6 i = cc14_transform_6 i'
  hinb14_6 : ∀ (i : grid14.Coords) a, (cc14_transform_6 i a + 1) * S1x128.size a ≤ S1x128.size a
  hwx14_6 : ∀ i : grid14.Coords, EltTy.bits .f32 = 32 ∨ (Rect.block (s := S1x128) S1x128.size (cc14_transform_6 i) (hinb14_6 i)).WholeWords (EltTy.packing .f32)
  hstage14_7 : ∀ j, (stage14_7 j).IsWhole
  nbuf14_7 : grid14.bufCount reads14_7 false = 2
  hreads14_7 : ∀ i i' : grid14.Coords, (∀ a, reads14_7 a = true → i a = i' a) → cc14_transform_7 i = cc14_transform_7 i'
  hinb14_7 : ∀ (i : grid14.Coords) a, (cc14_transform_7 i a + 1) * S4000x128.size a ≤ S20000x128.size a
  hwx14_7 : ∀ i : grid14.Coords, EltTy.bits .bf16 = 32 ∨ (Rect.block (s := S20000x128) S4000x128.size (cc14_transform_7 i) (hinb14_7 i)).WholeWords (EltTy.packing .bf16)
  hstage14_8 : ∀ j, (stage14_8 j).IsWhole
  nbuf14_8 : grid14.bufCount reads14_8 false = 2
  hreads14_8 : ∀ i i' : grid14.Coords, (∀ a, reads14_8 a = true → i a = i' a) → cc14_transform_8 i = cc14_transform_8 i'
  hinb14_8 : ∀ (i : grid14.Coords) a, (cc14_transform_8 i a + 1) * S1x8x128.size a ≤ S5x8x128.size a
  hwx14_8 : ∀ i : grid14.Coords, EltTy.bits .f32 = 32 ∨ (Rect.block (s := S5x8x128) S1x8x128.size (cc14_transform_8 i) (hinb14_8 i)).WholeWords (EltTy.packing .f32)
  hstage14_9 : ∀ j, (stage14_9 j).IsWhole
  nbuf14_9 : grid14.bufCount reads14_9 false = 2
  hreads14_9 : ∀ i i' : grid14.Coords, (∀ a, reads14_9 a = true → i a = i' a) → cc14_transform_9 i = cc14_transform_9 i'
  hinb14_9 : ∀ (i : grid14.Coords) a, (cc14_transform_9 i a + 1) * S1x8x128.size a ≤ S5x8x128.size a
  hwx14_9 : ∀ i : grid14.Coords, EltTy.bits .f32 = 32 ∨ (Rect.block (s := S5x8x128) S1x8x128.size (cc14_transform_9 i) (hinb14_9 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S4000x128.size a ≤ S20000x128.size a
  hwx15_0 : ∀ i : grid15.Coords, EltTy.bits .bf16 = 32 ∨ (Rect.block (s := S20000x128) S4000x128.size (cc15_transform_0 i) (hinb15_0 i)).WholeWords (EltTy.packing .bf16)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S1x128.size a ≤ S1x128.size a
  hwx15_1 : ∀ i : grid15.Coords, EltTy.bits .f32 = 32 ∨ (Rect.block (s := S1x128) S1x128.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x128.size a ≤ S1x128.size a
  hwx15_2 : ∀ i : grid15.Coords, EltTy.bits .f32 = 32 ∨ (Rect.block (s := S1x128) S1x128.size (cc15_transform_2 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S1x128.size a ≤ S1x128.size a
  hwx15_3 : ∀ i : grid15.Coords, EltTy.bits .f32 = 32 ∨ (Rect.block (s := S1x128) S1x128.size (cc15_transform_3 i) (hinb15_3 i)).WholeWords (EltTy.packing .f32)
  hstage15_4 : ∀ j, (stage15_4 j).IsWhole
  nbuf15_4 : grid15.bufCount reads15_4 true = 1
  hreads15_4 : ∀ i i' : grid15.Coords, (∀ a, reads15_4 a = true → i a = i' a) → cc15_transform_4 i = cc15_transform_4 i'
  hinb15_4 : ∀ (i : grid15.Coords) a, (cc15_transform_4 i a + 1) * S1x128.size a ≤ S1x128.size a
  hwx15_4 : ∀ i : grid15.Coords, EltTy.bits .f32 = 32 ∨ (Rect.block (s := S1x128) S1x128.size (cc15_transform_4 i) (hinb15_4 i)).WholeWords (EltTy.packing .f32)
  hstage15_5 : ∀ j, (stage15_5 j).IsWhole
  nbuf15_5 : grid15.bufCount reads15_5 false = 2
  hreads15_5 : ∀ i i' : grid15.Coords, (∀ a, reads15_5 a = true → i a = i' a) → cc15_transform_5 i = cc15_transform_5 i'
  hinb15_5 : ∀ (i : grid15.Coords) a, (cc15_transform_5 i a + 1) * S4000x128.size a ≤ S20000x128.size a
  hwx15_5 : ∀ i : grid15.Coords, EltTy.bits .bf16 = 32 ∨ (Rect.block (s := S20000x128) S4000x128.size (cc15_transform_5 i) (hinb15_5 i)).WholeWords (EltTy.packing .bf16)
  hstage15_6 : ∀ j, (stage15_6 j).IsWhole
  nbuf15_6 : grid15.bufCount reads15_6 false = 2
  hreads15_6 : ∀ i i' : grid15.Coords, (∀ a, reads15_6 a = true → i a = i' a) → cc15_transform_6 i = cc15_transform_6 i'
  hinb15_6 : ∀ (i : grid15.Coords) a, (cc15_transform_6 i a + 1) * S1x8x128.size a ≤ S5x8x128.size a
  hwx15_6 : ∀ i : grid15.Coords, EltTy.bits .f32 = 32 ∨ (Rect.block (s := S5x8x128) S1x8x128.size (cc15_transform_6 i) (hinb15_6 i)).WholeWords (EltTy.packing .f32)
  hstage15_7 : ∀ j, (stage15_7 j).IsWhole
  nbuf15_7 : grid15.bufCount reads15_7 false = 2
  hreads15_7 : ∀ i i' : grid15.Coords, (∀ a, reads15_7 a = true → i a = i' a) → cc15_transform_7 i = cc15_transform_7 i'
  hinb15_7 : ∀ (i : grid15.Coords) a, (cc15_transform_7 i a + 1) * S1x8x128.size a ≤ S5x8x128.size a
  hwx15_7 : ∀ i : grid15.Coords, EltTy.bits .f32 = 32 ∨ (Rect.block (s := S5x8x128) S1x8x128.size (cc15_transform_7 i) (hinb15_7 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S4000x128.size a ≤ S20000x128.size a
  hwx16_0 : ∀ i : grid16.Coords, EltTy.bits .bf16 = 32 ∨ (Rect.block (s := S20000x128) S4000x128.size (cc16_transform_0 i) (hinb16_0 i)).WholeWords (EltTy.packing .bf16)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S1x128.size a ≤ S1x128.size a
  hwx16_1 : ∀ i : grid16.Coords, EltTy.bits .f32 = 32 ∨ (Rect.block (s := S1x128) S1x128.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x128.size a ≤ S1x128.size a
  hwx16_2 : ∀ i : grid16.Coords, EltTy.bits .f32 = 32 ∨ (Rect.block (s := S1x128) S1x128.size (cc16_transform_2 i) (hinb16_2 i)).WholeWords (EltTy.packing .f32)
  hstage16_3 : ∀ j, (stage16_3 j).IsWhole
  nbuf16_3 : grid16.bufCount reads16_3 true = 1
  hreads16_3 : ∀ i i' : grid16.Coords, (∀ a, reads16_3 a = true → i a = i' a) → cc16_transform_3 i = cc16_transform_3 i'
  hinb16_3 : ∀ (i : grid16.Coords) a, (cc16_transform_3 i a + 1) * S1x128.size a ≤ S1x128.size a
  hwx16_3 : ∀ i : grid16.Coords, EltTy.bits .f32 = 32 ∨ (Rect.block (s := S1x128) S1x128.size (cc16_transform_3 i) (hinb16_3 i)).WholeWords (EltTy.packing .f32)
  hstage16_4 : ∀ j, (stage16_4 j).IsWhole
  nbuf16_4 : grid16.bufCount reads16_4 true = 1
  hreads16_4 : ∀ i i' : grid16.Coords, (∀ a, reads16_4 a = true → i a = i' a) → cc16_transform_4 i = cc16_transform_4 i'
  hinb16_4 : ∀ (i : grid16.Coords) a, (cc16_transform_4 i a + 1) * S1x128.size a ≤ S1x128.size a
  hwx16_4 : ∀ i : grid16.Coords, EltTy.bits .f32 = 32 ∨ (Rect.block (s := S1x128) S1x128.size (cc16_transform_4 i) (hinb16_4 i)).WholeWords (EltTy.packing .f32)
  hstage16_5 : ∀ j, (stage16_5 j).IsWhole
  nbuf16_5 : grid16.bufCount reads16_5 false = 2
  hreads16_5 : ∀ i i' : grid16.Coords, (∀ a, reads16_5 a = true → i a = i' a) → cc16_transform_5 i = cc16_transform_5 i'
  hinb16_5 : ∀ (i : grid16.Coords) a, (cc16_transform_5 i a + 1) * S4000x128.size a ≤ S20000x128.size a
  hwx16_5 : ∀ i : grid16.Coords, EltTy.bits .f32 = 32 ∨ (Rect.block (s := S20000x128) S4000x128.size (cc16_transform_5 i) (hinb16_5 i)).WholeWords (EltTy.packing .f32)
  hstage16_6 : ∀ j, (stage16_6 j).IsWhole
  nbuf16_6 : grid16.bufCount reads16_6 true = 1
  hreads16_6 : ∀ i i' : grid16.Coords, (∀ a, reads16_6 a = true → i a = i' a) → cc16_transform_6 i = cc16_transform_6 i'
  hinb16_6 : ∀ (i : grid16.Coords) a, (cc16_transform_6 i a + 1) * S128x128.size a ≤ S128x128.size a
  hwx16_6 : ∀ i : grid16.Coords, EltTy.bits .bf16 = 32 ∨ (Rect.block (s := S128x128) S128x128.size (cc16_transform_6 i) (hinb16_6 i)).WholeWords (EltTy.packing .bf16)
  hstage16_7 : ∀ j, (stage16_7 j).IsWhole
  nbuf16_7 : grid16.bufCount reads16_7 true = 1
  hreads16_7 : ∀ i i' : grid16.Coords, (∀ a, reads16_7 a = true → i a = i' a) → cc16_transform_7 i = cc16_transform_7 i'
  hinb16_7 : ∀ (i : grid16.Coords) a, (cc16_transform_7 i a + 1) * S128x128.size a ≤ S128x128.size a
  hwx16_7 : ∀ i : grid16.Coords, EltTy.bits .bf16 = 32 ∨ (Rect.block (s := S128x128) S128x128.size (cc16_transform_7 i) (hinb16_7 i)).WholeWords (EltTy.packing .bf16)
  hstage16_8 : ∀ j, (stage16_8 j).IsWhole
  nbuf16_8 : grid16.bufCount reads16_8 false = 2
  hreads16_8 : ∀ i i' : grid16.Coords, (∀ a, reads16_8 a = true → i a = i' a) → cc16_transform_8 i = cc16_transform_8 i'
  hinb16_8 : ∀ (i : grid16.Coords) a, (cc16_transform_8 i a + 1) * S4000x128.size a ≤ S20000x128.size a
  hwx16_8 : ∀ i : grid16.Coords, EltTy.bits .f32 = 32 ∨ (Rect.block (s := S20000x128) S4000x128.size (cc16_transform_8 i) (hinb16_8 i)).WholeWords (EltTy.packing .f32)
  hstage16_9 : ∀ j, (stage16_9 j).IsWhole
  nbuf16_9 : grid16.bufCount reads16_9 false = 2
  hreads16_9 : ∀ i i' : grid16.Coords, (∀ a, reads16_9 a = true → i a = i' a) → cc16_transform_9 i = cc16_transform_9 i'
  hinb16_9 : ∀ (i : grid16.Coords) a, (cc16_transform_9 i a + 1) * S4000x128.size a ≤ S20000x128.size a
  hwx16_9 : ∀ i : grid16.Coords, EltTy.bits .bf16 = 32 ∨ (Rect.block (s := S20000x128) S4000x128.size (cc16_transform_9 i) (hinb16_9 i)).WholeWords (EltTy.packing .bf16)
  hstage16_10 : ∀ j, (stage16_10 j).IsWhole
  nbuf16_10 : grid16.bufCount reads16_10 false = 2
  hreads16_10 : ∀ i i' : grid16.Coords, (∀ a, reads16_10 a = true → i a = i' a) → cc16_transform_10 i = cc16_transform_10 i'
  hinb16_10 : ∀ (i : grid16.Coords) a, (cc16_transform_10 i a + 1) * S4000x128.size a ≤ S20000x128.size a
  hwx16_10 : ∀ i : grid16.Coords, EltTy.bits .bf16 = 32 ∨ (Rect.block (s := S20000x128) S4000x128.size (cc16_transform_10 i) (hinb16_10 i)).WholeWords (EltTy.packing .bf16)

variable [Facts₀]

def dot_S20000x2_S2x128_S20000x128_1_0_0_1_n_n : DotDims S20000x2 S2x128 S20000x128 where
  lhsContracting := [1]
  rhsContracting := [0]
  lhsNonContracting := [0]
  rhsNonContracting := [1]
  lhsBatch := []
  rhsBatch := []
  wf := dot_S20000x2_S2x128_S20000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S20000x128_S320000x1_S320000x128_1_0_n_n_0_1_1128 : GatherDims S20000x128 S320000x1 S320000x128 where
  offsetDims := [1]
  collapsedSliceDims := [0]
  operandBatchingDims := []
  startIndicesBatchingDims := []
  startIndexMap := [0]
  indexVectorDim := 1
  sliceSizes := ![1, 128]
  wf := gather_S20000x128_S320000x1_S320000x128_1_0_n_n_0_1_1128_wf
def dot_S320000x128_S128x2_S320000x2_1_0_0_1_n_n : DotDims S320000x128 S128x2 S320000x2 where
  lhsContracting := [1]
  rhsContracting := [0]
  lhsNonContracting := [0]
  rhsNonContracting := [1]
  lhsBatch := []
  rhsBatch := []
  wf := dot_S320000x128_S128x2_S320000x2_1_0_0_1_n_n_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf

abbrev win0_0 : Pipeline.Window sig grid0 :=
  Pipeline.Window.ofSpec (Memref.whole main_v3) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10_0) S4000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10_1) S4000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v3) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v54) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v56) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v59) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v60_0) S4000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v60_1) S1x8x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v60_2) S1x8x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v60_0) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v75) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v76) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v79) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v82) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v84) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v87) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v88_0) S4000x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v88_1) S1x8x128.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v88_2) S1x8x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v88_0) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v103) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v104) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v107) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v110) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v111_0) S4000x128.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v111_1) S1x8x128.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v111_2) S1x8x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v111_0) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v126) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v127) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v130) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v133) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v3) S4000x128.size cc4_transform_5 reads4_5 false false 2 stage4_5 sem4_5
    hrank4 hreads4_5 hinb4_5 nbuf4_5 (Memref.isWhole_whole _) hwx4_5 hstage4_5

abbrev win4_6 : Pipeline.Window sig grid4 :=
  Pipeline.Window.ofSpec (Memref.whole main_v137) S128x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v139) S128x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v140_0) S4000x128.size cc4_transform_8 reads4_8 true false 2 stage4_8 sem4_8
    hrank4 hreads4_8 hinb4_8 nbuf4_8 (Memref.isWhole_whole _) hwx4_8 hstage4_8

abbrev win4_9 : Pipeline.Window sig grid4 :=
  Pipeline.Window.ofSpec (Memref.whole main_v140_1) S4000x128.size cc4_transform_9 reads4_9 true false 2 stage4_9 sem4_9
    hrank4 hreads4_9 hinb4_9 nbuf4_9 (Memref.isWhole_whole _) hwx4_9 hstage4_9

abbrev win4_10 : Pipeline.Window sig grid4 :=
  Pipeline.Window.ofSpec (Memref.whole main_v140_2) S4000x128.size cc4_transform_10 reads4_10 true false 2 stage4_10 sem4_10
    hrank4 hreads4_10 hinb4_10 nbuf4_10 (Memref.isWhole_whole _) hwx4_10 hstage4_10

abbrev win4 : Fin 11 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | ⟨_ + 11, h⟩ => absurd h (Nat.not_lt.2 (Nat.le_add_left _ _))
abbrev spec4 : Fin 11 → Pipeline.WinSpec sig grid4.rank := fun w => (win4 w).toWinSpec

abbrev win5_0 : Pipeline.Window sig grid5 :=
  Pipeline.Window.ofSpec (Memref.whole main_v140_0) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v182) S4000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v185) S1x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v187) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v190) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v191_0) S4000x128.size cc5_transform_5 reads5_5 true false 2 stage5_5 sem5_5
    hrank5 hreads5_5 hinb5_5 nbuf5_5 (Memref.isWhole_whole _) hwx5_5 hstage5_5

abbrev win5_6 : Pipeline.Window sig grid5 :=
  Pipeline.Window.ofSpec (Memref.whole main_v191_1) S1x8x128.size cc5_transform_6 reads5_6 true false 2 stage5_6 sem5_6
    hrank5 hreads5_6 hinb5_6 nbuf5_6 (Memref.isWhole_whole _) hwx5_6 hstage5_6

abbrev win5_7 : Pipeline.Window sig grid5 :=
  Pipeline.Window.ofSpec (Memref.whole main_v191_2) S1x8x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v191_0) S4000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v206) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v207) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v210) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v213) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v215) S128x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v218) S1x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v219_0) S4000x128.size cc6_transform_7 reads6_7 true false 2 stage6_7 sem6_7
    hrank6 hreads6_7 hinb6_7 nbuf6_7 (Memref.isWhole_whole _) hwx6_7 hstage6_7

abbrev win6_8 : Pipeline.Window sig grid6 :=
  Pipeline.Window.ofSpec (Memref.whole main_v219_1) S1x8x128.size cc6_transform_8 reads6_8 true false 2 stage6_8 sem6_8
    hrank6 hreads6_8 hinb6_8 nbuf6_8 (Memref.isWhole_whole _) hwx6_8 hstage6_8

abbrev win6_9 : Pipeline.Window sig grid6 :=
  Pipeline.Window.ofSpec (Memref.whole main_v219_2) S1x8x128.size cc6_transform_9 reads6_9 true false 2 stage6_9 sem6_9
    hrank6 hreads6_9 hinb6_9 nbuf6_9 (Memref.isWhole_whole _) hwx6_9 hstage6_9

abbrev win6 : Fin 10 → Pipeline.Window sig grid6 := fun | 0 => win6_0 | 1 => win6_1 | 2 => win6_2 | 3 => win6_3 | 4 => win6_4 | 5 => win6_5 | 6 => win6_6 | 7 => win6_7 | 8 => win6_8 | 9 => win6_9 | ⟨_ + 10, h⟩ => absurd h (Nat.not_lt.2 (Nat.le_add_left _ _))
abbrev spec6 : Fin 10 → Pipeline.WinSpec sig grid6.rank := fun w => (win6 w).toWinSpec

abbrev win7_0 : Pipeline.Window sig grid7 :=
  Pipeline.Window.ofSpec (Memref.whole main_v219_0) S4000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v234) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v235) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v238) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v241) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v242_0) S4000x128.size cc7_transform_5 reads7_5 true false 2 stage7_5 sem7_5
    hrank7 hreads7_5 hinb7_5 nbuf7_5 (Memref.isWhole_whole _) hwx7_5 hstage7_5

abbrev win7_6 : Pipeline.Window sig grid7 :=
  Pipeline.Window.ofSpec (Memref.whole main_v242_1) S1x8x128.size cc7_transform_6 reads7_6 true false 2 stage7_6 sem7_6
    hrank7 hreads7_6 hinb7_6 nbuf7_6 (Memref.isWhole_whole _) hwx7_6 hstage7_6

abbrev win7_7 : Pipeline.Window sig grid7 :=
  Pipeline.Window.ofSpec (Memref.whole main_v242_2) S1x8x128.size cc7_transform_7 reads7_7 true false 2 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

abbrev win8_0 : Pipeline.Window sig grid8 :=
  Pipeline.Window.ofSpec (Memref.whole main_v242_0) S4000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v257) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v258) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v261) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v264) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v140_0) S4000x128.size cc8_transform_5 reads8_5 false false 2 stage8_5 sem8_5
    hrank8 hreads8_5 hinb8_5 nbuf8_5 (Memref.isWhole_whole _) hwx8_5 hstage8_5

abbrev win8_6 : Pipeline.Window sig grid8 :=
  Pipeline.Window.ofSpec (Memref.whole main_v268) S128x128.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v270) S128x128.size cc8_transform_7 reads8_7 false true 1 stage8_7 sem8_7
    hrank8 hreads8_7 hinb8_7 nbuf8_7 (Memref.isWhole_whole _) hwx8_7 hstage8_7

abbrev win8_8 : Pipeline.Window sig grid8 :=
  Pipeline.Window.ofSpec (Memref.whole main_v271_0) S4000x128.size cc8_transform_8 reads8_8 true false 2 stage8_8 sem8_8
    hrank8 hreads8_8 hinb8_8 nbuf8_8 (Memref.isWhole_whole _) hwx8_8 hstage8_8

abbrev win8_9 : Pipeline.Window sig grid8 :=
  Pipeline.Window.ofSpec (Memref.whole main_v271_1) S4000x128.size cc8_transform_9 reads8_9 true false 2 stage8_9 sem8_9
    hrank8 hreads8_9 hinb8_9 nbuf8_9 (Memref.isWhole_whole _) hwx8_9 hstage8_9

abbrev win8_10 : Pipeline.Window sig grid8 :=
  Pipeline.Window.ofSpec (Memref.whole main_v271_2) S4000x128.size cc8_transform_10 reads8_10 true false 2 stage8_10 sem8_10
    hrank8 hreads8_10 hinb8_10 nbuf8_10 (Memref.isWhole_whole _) hwx8_10 hstage8_10

abbrev win8 : Fin 11 → Pipeline.Window sig grid8 := fun | 0 => win8_0 | 1 => win8_1 | 2 => win8_2 | 3 => win8_3 | 4 => win8_4 | 5 => win8_5 | 6 => win8_6 | 7 => win8_7 | 8 => win8_8 | 9 => win8_9 | 10 => win8_10 | ⟨_ + 11, h⟩ => absurd h (Nat.not_lt.2 (Nat.le_add_left _ _))
abbrev spec8 : Fin 11 → Pipeline.WinSpec sig grid8.rank := fun w => (win8 w).toWinSpec

abbrev win9_0 : Pipeline.Window sig grid9 :=
  Pipeline.Window.ofSpec (Memref.whole main_v271_0) S4000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v313) S4000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v316) S1x1.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v318) S128x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v321) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v322_0) S4000x128.size cc9_transform_5 reads9_5 true false 2 stage9_5 sem9_5
    hrank9 hreads9_5 hinb9_5 nbuf9_5 (Memref.isWhole_whole _) hwx9_5 hstage9_5

abbrev win9_6 : Pipeline.Window sig grid9 :=
  Pipeline.Window.ofSpec (Memref.whole main_v322_1) S1x8x128.size cc9_transform_6 reads9_6 true false 2 stage9_6 sem9_6
    hrank9 hreads9_6 hinb9_6 nbuf9_6 (Memref.isWhole_whole _) hwx9_6 hstage9_6

abbrev win9_7 : Pipeline.Window sig grid9 :=
  Pipeline.Window.ofSpec (Memref.whole main_v322_2) S1x8x128.size cc9_transform_7 reads9_7 true false 2 stage9_7 sem9_7
    hrank9 hreads9_7 hinb9_7 nbuf9_7 (Memref.isWhole_whole _) hwx9_7 hstage9_7

abbrev win9 : Fin 8 → Pipeline.Window sig grid9 := fun | 0 => win9_0 | 1 => win9_1 | 2 => win9_2 | 3 => win9_3 | 4 => win9_4 | 5 => win9_5 | 6 => win9_6 | 7 => win9_7 | ⟨_ + 8, h⟩ => absurd h (Nat.not_lt.2 (Nat.le_add_left _ _))
abbrev spec9 : Fin 8 → Pipeline.WinSpec sig grid9.rank := fun w => (win9 w).toWinSpec

abbrev win10_0 : Pipeline.Window sig grid10 :=
  Pipeline.Window.ofSpec (Memref.whole main_v322_0) S4000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v337) S1x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v338) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v341) S1x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v344) S1x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v346) S128x128.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v349) S1x128.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_v350_0) S4000x128.size cc10_transform_7 reads10_7 true false 2 stage10_7 sem10_7
    hrank10 hreads10_7 hinb10_7 nbuf10_7 (Memref.isWhole_whole _) hwx10_7 hstage10_7

abbrev win10_8 : Pipeline.Window sig grid10 :=
  Pipeline.Window.ofSpec (Memref.whole main_v350_1) S1x8x128.size cc10_transform_8 reads10_8 true false 2 stage10_8 sem10_8
    hrank10 hreads10_8 hinb10_8 nbuf10_8 (Memref.isWhole_whole _) hwx10_8 hstage10_8

abbrev win10_9 : Pipeline.Window sig grid10 :=
  Pipeline.Window.ofSpec (Memref.whole main_v350_2) S1x8x128.size cc10_transform_9 reads10_9 true false 2 stage10_9 sem10_9
    hrank10 hreads10_9 hinb10_9 nbuf10_9 (Memref.isWhole_whole _) hwx10_9 hstage10_9

abbrev win10 : Fin 10 → Pipeline.Window sig grid10 := fun | 0 => win10_0 | 1 => win10_1 | 2 => win10_2 | 3 => win10_3 | 4 => win10_4 | 5 => win10_5 | 6 => win10_6 | 7 => win10_7 | 8 => win10_8 | 9 => win10_9 | ⟨_ + 10, h⟩ => absurd h (Nat.not_lt.2 (Nat.le_add_left _ _))
abbrev spec10 : Fin 10 → Pipeline.WinSpec sig grid10.rank := fun w => (win10 w).toWinSpec

abbrev win11_0 : Pipeline.Window sig grid11 :=
  Pipeline.Window.ofSpec (Memref.whole main_v350_0) S4000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v365) S1x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v366) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v369) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v372) S1x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v373_0) S4000x128.size cc11_transform_5 reads11_5 true false 2 stage11_5 sem11_5
    hrank11 hreads11_5 hinb11_5 nbuf11_5 (Memref.isWhole_whole _) hwx11_5 hstage11_5

abbrev win11_6 : Pipeline.Window sig grid11 :=
  Pipeline.Window.ofSpec (Memref.whole main_v373_1) S1x8x128.size cc11_transform_6 reads11_6 true false 2 stage11_6 sem11_6
    hrank11 hreads11_6 hinb11_6 nbuf11_6 (Memref.isWhole_whole _) hwx11_6 hstage11_6

abbrev win11_7 : Pipeline.Window sig grid11 :=
  Pipeline.Window.ofSpec (Memref.whole main_v373_2) S1x8x128.size cc11_transform_7 reads11_7 true false 2 stage11_7 sem11_7
    hrank11 hreads11_7 hinb11_7 nbuf11_7 (Memref.isWhole_whole _) hwx11_7 hstage11_7

abbrev win11 : Fin 8 → Pipeline.Window sig grid11 := fun | 0 => win11_0 | 1 => win11_1 | 2 => win11_2 | 3 => win11_3 | 4 => win11_4 | 5 => win11_5 | 6 => win11_6 | 7 => win11_7 | ⟨_ + 8, h⟩ => absurd h (Nat.not_lt.2 (Nat.le_add_left _ _))
abbrev spec11 : Fin 8 → Pipeline.WinSpec sig grid11.rank := fun w => (win11 w).toWinSpec

abbrev win12_0 : Pipeline.Window sig grid12 :=
  Pipeline.Window.ofSpec (Memref.whole main_v373_0) S4000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v388) S1x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v389) S1x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v392) S1x128.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v395) S1x128.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v271_0) S4000x128.size cc12_transform_5 reads12_5 false false 2 stage12_5 sem12_5
    hrank12 hreads12_5 hinb12_5 nbuf12_5 (Memref.isWhole_whole _) hwx12_5 hstage12_5

abbrev win12_6 : Pipeline.Window sig grid12 :=
  Pipeline.Window.ofSpec (Memref.whole main_v399) S128x128.size cc12_transform_6 reads12_6 false true 1 stage12_6 sem12_6
    hrank12 hreads12_6 hinb12_6 nbuf12_6 (Memref.isWhole_whole _) hwx12_6 hstage12_6

abbrev win12_7 : Pipeline.Window sig grid12 :=
  Pipeline.Window.ofSpec (Memref.whole main_v401) S128x128.size cc12_transform_7 reads12_7 false true 1 stage12_7 sem12_7
    hrank12 hreads12_7 hinb12_7 nbuf12_7 (Memref.isWhole_whole _) hwx12_7 hstage12_7

abbrev win12_8 : Pipeline.Window sig grid12 :=
  Pipeline.Window.ofSpec (Memref.whole main_v402_0) S4000x128.size cc12_transform_8 reads12_8 true false 2 stage12_8 sem12_8
    hrank12 hreads12_8 hinb12_8 nbuf12_8 (Memref.isWhole_whole _) hwx12_8 hstage12_8

abbrev win12_9 : Pipeline.Window sig grid12 :=
  Pipeline.Window.ofSpec (Memref.whole main_v402_1) S4000x128.size cc12_transform_9 reads12_9 true false 2 stage12_9 sem12_9
    hrank12 hreads12_9 hinb12_9 nbuf12_9 (Memref.isWhole_whole _) hwx12_9 hstage12_9

abbrev win12_10 : Pipeline.Window sig grid12 :=
  Pipeline.Window.ofSpec (Memref.whole main_v402_2) S4000x128.size cc12_transform_10 reads12_10 true false 2 stage12_10 sem12_10
    hrank12 hreads12_10 hinb12_10 nbuf12_10 (Memref.isWhole_whole _) hwx12_10 hstage12_10

abbrev win12 : Fin 11 → Pipeline.Window sig grid12 := fun | 0 => win12_0 | 1 => win12_1 | 2 => win12_2 | 3 => win12_3 | 4 => win12_4 | 5 => win12_5 | 6 => win12_6 | 7 => win12_7 | 8 => win12_8 | 9 => win12_9 | 10 => win12_10 | ⟨_ + 11, h⟩ => absurd h (Nat.not_lt.2 (Nat.le_add_left _ _))
abbrev spec12 : Fin 11 → Pipeline.WinSpec sig grid12.rank := fun w => (win12 w).toWinSpec

abbrev win13_0 : Pipeline.Window sig grid13 :=
  Pipeline.Window.ofSpec (Memref.whole main_v402_0) S4000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v444) S4000x128.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v447) S1x1.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v449) S128x128.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v452) S1x128.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v453_0) S4000x128.size cc13_transform_5 reads13_5 true false 2 stage13_5 sem13_5
    hrank13 hreads13_5 hinb13_5 nbuf13_5 (Memref.isWhole_whole _) hwx13_5 hstage13_5

abbrev win13_6 : Pipeline.Window sig grid13 :=
  Pipeline.Window.ofSpec (Memref.whole main_v453_1) S1x8x128.size cc13_transform_6 reads13_6 true false 2 stage13_6 sem13_6
    hrank13 hreads13_6 hinb13_6 nbuf13_6 (Memref.isWhole_whole _) hwx13_6 hstage13_6

abbrev win13_7 : Pipeline.Window sig grid13 :=
  Pipeline.Window.ofSpec (Memref.whole main_v453_2) S1x8x128.size cc13_transform_7 reads13_7 true false 2 stage13_7 sem13_7
    hrank13 hreads13_7 hinb13_7 nbuf13_7 (Memref.isWhole_whole _) hwx13_7 hstage13_7

abbrev win13 : Fin 8 → Pipeline.Window sig grid13 := fun | 0 => win13_0 | 1 => win13_1 | 2 => win13_2 | 3 => win13_3 | 4 => win13_4 | 5 => win13_5 | 6 => win13_6 | 7 => win13_7 | ⟨_ + 8, h⟩ => absurd h (Nat.not_lt.2 (Nat.le_add_left _ _))
abbrev spec13 : Fin 8 → Pipeline.WinSpec sig grid13.rank := fun w => (win13 w).toWinSpec

abbrev win14_0 : Pipeline.Window sig grid14 :=
  Pipeline.Window.ofSpec (Memref.whole main_v453_0) S4000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v468) S1x128.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v469) S1x128.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v472) S1x128.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v475) S1x128.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v477) S128x128.size cc14_transform_5 reads14_5 false true 1 stage14_5 sem14_5
    hrank14 hreads14_5 hinb14_5 nbuf14_5 (Memref.isWhole_whole _) hwx14_5 hstage14_5

abbrev win14_6 : Pipeline.Window sig grid14 :=
  Pipeline.Window.ofSpec (Memref.whole main_v480) S1x128.size cc14_transform_6 reads14_6 false true 1 stage14_6 sem14_6
    hrank14 hreads14_6 hinb14_6 nbuf14_6 (Memref.isWhole_whole _) hwx14_6 hstage14_6

abbrev win14_7 : Pipeline.Window sig grid14 :=
  Pipeline.Window.ofSpec (Memref.whole main_v481_0) S4000x128.size cc14_transform_7 reads14_7 true false 2 stage14_7 sem14_7
    hrank14 hreads14_7 hinb14_7 nbuf14_7 (Memref.isWhole_whole _) hwx14_7 hstage14_7

abbrev win14_8 : Pipeline.Window sig grid14 :=
  Pipeline.Window.ofSpec (Memref.whole main_v481_1) S1x8x128.size cc14_transform_8 reads14_8 true false 2 stage14_8 sem14_8
    hrank14 hreads14_8 hinb14_8 nbuf14_8 (Memref.isWhole_whole _) hwx14_8 hstage14_8

abbrev win14_9 : Pipeline.Window sig grid14 :=
  Pipeline.Window.ofSpec (Memref.whole main_v481_2) S1x8x128.size cc14_transform_9 reads14_9 true false 2 stage14_9 sem14_9
    hrank14 hreads14_9 hinb14_9 nbuf14_9 (Memref.isWhole_whole _) hwx14_9 hstage14_9

abbrev win14 : Fin 10 → Pipeline.Window sig grid14 := fun | 0 => win14_0 | 1 => win14_1 | 2 => win14_2 | 3 => win14_3 | 4 => win14_4 | 5 => win14_5 | 6 => win14_6 | 7 => win14_7 | 8 => win14_8 | 9 => win14_9 | ⟨_ + 10, h⟩ => absurd h (Nat.not_lt.2 (Nat.le_add_left _ _))
abbrev spec14 : Fin 10 → Pipeline.WinSpec sig grid14.rank := fun w => (win14 w).toWinSpec

abbrev win15_0 : Pipeline.Window sig grid15 :=
  Pipeline.Window.ofSpec (Memref.whole main_v481_0) S4000x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v496) S1x128.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v497) S1x128.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v500) S1x128.size cc15_transform_3 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v503) S1x128.size cc15_transform_4 reads15_4 false true 1 stage15_4 sem15_4
    hrank15 hreads15_4 hinb15_4 nbuf15_4 (Memref.isWhole_whole _) hwx15_4 hstage15_4

abbrev win15_5 : Pipeline.Window sig grid15 :=
  Pipeline.Window.ofSpec (Memref.whole main_v504_0) S4000x128.size cc15_transform_5 reads15_5 true false 2 stage15_5 sem15_5
    hrank15 hreads15_5 hinb15_5 nbuf15_5 (Memref.isWhole_whole _) hwx15_5 hstage15_5

abbrev win15_6 : Pipeline.Window sig grid15 :=
  Pipeline.Window.ofSpec (Memref.whole main_v504_1) S1x8x128.size cc15_transform_6 reads15_6 true false 2 stage15_6 sem15_6
    hrank15 hreads15_6 hinb15_6 nbuf15_6 (Memref.isWhole_whole _) hwx15_6 hstage15_6

abbrev win15_7 : Pipeline.Window sig grid15 :=
  Pipeline.Window.ofSpec (Memref.whole main_v504_2) S1x8x128.size cc15_transform_7 reads15_7 true false 2 stage15_7 sem15_7
    hrank15 hreads15_7 hinb15_7 nbuf15_7 (Memref.isWhole_whole _) hwx15_7 hstage15_7

abbrev win15 : Fin 8 → Pipeline.Window sig grid15 := fun | 0 => win15_0 | 1 => win15_1 | 2 => win15_2 | 3 => win15_3 | 4 => win15_4 | 5 => win15_5 | 6 => win15_6 | 7 => win15_7 | ⟨_ + 8, h⟩ => absurd h (Nat.not_lt.2 (Nat.le_add_left _ _))
abbrev spec15 : Fin 8 → Pipeline.WinSpec sig grid15.rank := fun w => (win15 w).toWinSpec

abbrev win16_0 : Pipeline.Window sig grid16 :=
  Pipeline.Window.ofSpec (Memref.whole main_v504_0) S4000x128.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v519) S1x128.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v520) S1x128.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v523) S1x128.size cc16_transform_3 reads16_3 false true 1 stage16_3 sem16_3
    hrank16 hreads16_3 hinb16_3 nbuf16_3 (Memref.isWhole_whole _) hwx16_3 hstage16_3

abbrev win16_4 : Pipeline.Window sig grid16 :=
  Pipeline.Window.ofSpec (Memref.whole main_v526) S1x128.size cc16_transform_4 reads16_4 false true 1 stage16_4 sem16_4
    hrank16 hreads16_4 hinb16_4 nbuf16_4 (Memref.isWhole_whole _) hwx16_4 hstage16_4

abbrev win16_5 : Pipeline.Window sig grid16 :=
  Pipeline.Window.ofSpec (Memref.whole main_v402_0) S4000x128.size cc16_transform_5 reads16_5 false false 2 stage16_5 sem16_5
    hrank16 hreads16_5 hinb16_5 nbuf16_5 (Memref.isWhole_whole _) hwx16_5 hstage16_5

abbrev win16_6 : Pipeline.Window sig grid16 :=
  Pipeline.Window.ofSpec (Memref.whole main_v530) S128x128.size cc16_transform_6 reads16_6 false true 1 stage16_6 sem16_6
    hrank16 hreads16_6 hinb16_6 nbuf16_6 (Memref.isWhole_whole _) hwx16_6 hstage16_6

abbrev win16_7 : Pipeline.Window sig grid16 :=
  Pipeline.Window.ofSpec (Memref.whole main_v532) S128x128.size cc16_transform_7 reads16_7 false true 1 stage16_7 sem16_7
    hrank16 hreads16_7 hinb16_7 nbuf16_7 (Memref.isWhole_whole _) hwx16_7 hstage16_7

abbrev win16_8 : Pipeline.Window sig grid16 :=
  Pipeline.Window.ofSpec (Memref.whole main_v533_0) S4000x128.size cc16_transform_8 reads16_8 true false 2 stage16_8 sem16_8
    hrank16 hreads16_8 hinb16_8 nbuf16_8 (Memref.isWhole_whole _) hwx16_8 hstage16_8

abbrev win16_9 : Pipeline.Window sig grid16 :=
  Pipeline.Window.ofSpec (Memref.whole main_v533_1) S4000x128.size cc16_transform_9 reads16_9 true false 2 stage16_9 sem16_9
    hrank16 hreads16_9 hinb16_9 nbuf16_9 (Memref.isWhole_whole _) hwx16_9 hstage16_9

abbrev win16_10 : Pipeline.Window sig grid16 :=
  Pipeline.Window.ofSpec (Memref.whole main_v533_2) S4000x128.size cc16_transform_10 reads16_10 true false 2 stage16_10 sem16_10
    hrank16 hreads16_10 hinb16_10 nbuf16_10 (Memref.isWhole_whole _) hwx16_10 hstage16_10

abbrev win16 : Fin 11 → Pipeline.Window sig grid16 := fun | 0 => win16_0 | 1 => win16_1 | 2 => win16_2 | 3 => win16_3 | 4 => win16_4 | 5 => win16_5 | 6 => win16_6 | 7 => win16_7 | 8 => win16_8 | 9 => win16_9 | 10 => win16_10 | ⟨_ + 11, h⟩ => absurd h (Nat.not_lt.2 (Nat.le_add_left _ _))
abbrev spec16 : Fin 11 → Pipeline.WinSpec sig grid16.rank := fun w => (win16 w).toWinSpec

class Facts : Prop extends Facts₀ where

variable [Facts]
-- ==== ReferenceIdeal.lean ====
abbrev S20000x2 : Shape := ⟨2, ![20000, 2]⟩
abbrev S2x128 : Shape := ⟨2, ![2, 128]⟩
abbrev S128 : Shape := ⟨1, ![128]⟩
abbrev S4 : Shape := ⟨1, ![4]⟩
abbrev S4x128x128 : Shape := ⟨3, ![4, 128, 128]⟩
abbrev S4x128 : Shape := ⟨2, ![4, 128]⟩
abbrev S5x256x128 : Shape := ⟨3, ![5, 256, 128]⟩
abbrev S5x128 : Shape := ⟨2, ![5, 128]⟩
abbrev S5x128x2 : Shape := ⟨3, ![5, 128, 2]⟩
abbrev S5x2 : Shape := ⟨2, ![5, 2]⟩
abbrev S320000 : Shape := ⟨1, ![320000]⟩
abbrev S20000x128 : Shape := ⟨2, ![20000, 128]⟩
abbrev S1x128 : Shape := ⟨2, ![1, 128]⟩
abbrev S_ : Shape := ⟨0, ![]⟩
abbrev S320000x1 : Shape := ⟨2, ![320000, 1]⟩
abbrev S320000x128 : Shape := ⟨2, ![320000, 128]⟩
abbrev S320000x256 : Shape := ⟨2, ![320000, 256]⟩
abbrev S1x256x128 : Shape := ⟨3, ![1, 256, 128]⟩
abbrev S256x128 : Shape := ⟨2, ![256, 128]⟩
abbrev S1x128x2 : Shape := ⟨3, ![1, 128, 2]⟩
abbrev S128x2 : Shape := ⟨2, ![128, 2]⟩
abbrev S320000x2 : Shape := ⟨2, ![320000, 2]⟩
abbrev S1x2 : Shape := ⟨2, ![1, 2]⟩
abbrev S2 : Shape := ⟨1, ![2]⟩
abbrev S1 : Shape := ⟨1, ![1]⟩
abbrev S1x128x128 : Shape := ⟨3, ![1, 128, 128]⟩
abbrev S128x128 : Shape := ⟨2, ![128, 128]⟩

abbrev nBuf : Space → Nat
  | .hbm => 978
  | .vmem => 0
  | .smem => 0
  | _ => 0

abbrev hbmTy0_0 (i : Nat) : BufTy := match i % 128 with
  | 0 => ⟨S20000x2, .f32⟩
  | 1 => ⟨S2x128, .f32⟩
  | 2 => ⟨S128, .f32⟩
  | 3 => ⟨S4, .f32⟩
  | 4 => ⟨S4x128x128, .f32⟩
  | 5 => ⟨S4x128, .f32⟩
  | 6 => ⟨S4x128, .f32⟩
  | 7 => ⟨S4x128, .f32⟩
  | 8 => ⟨S4x128x128, .f32⟩
  | 9 => ⟨S4x128, .f32⟩
  | 10 => ⟨S4x128, .f32⟩
  | 11 => ⟨S4x128, .f32⟩
  | 12 => ⟨S4x128, .f32⟩
  | 13 => ⟨S4x128, .f32⟩
  | 14 => ⟨S5x256x128, .f32⟩
  | 15 => ⟨S5x128, .f32⟩
  | 16 => ⟨S5x128x2, .f32⟩
  | 17 => ⟨S5x2, .f32⟩
  | 18 => ⟨S320000, .i32⟩
  | 19 => ⟨S320000, .i32⟩
  | 20 => ⟨S20000x128, .f32⟩
  | 21 => ⟨S1x128, .f32⟩
  | 22 => ⟨S20000x128, .f32⟩
  | 23 => ⟨S20000x128, .f32⟩
  | 24 => ⟨S_, .i32⟩
  | 25 => ⟨S320000, .i32⟩
  | 26 => ⟨S320000, .i1⟩
  | 27 => ⟨S_, .i32⟩
  | 28 => ⟨S320000, .i32⟩
  | 29 => ⟨S320000, .i32⟩
  | 30 => ⟨S320000, .i32⟩
  | 31 => ⟨S320000x1, .i32⟩
  | 32 => ⟨S320000x128, .f32⟩
  | 33 => ⟨S_, .i32⟩
  | 34 => ⟨S320000, .i32⟩
  | 35 => ⟨S320000, .i1⟩
  | 36 => ⟨S_, .i32⟩
  | 37 => ⟨S320000, .i32⟩
  | 38 => ⟨S320000, .i32⟩
  | 39 => ⟨S320000, .i32⟩
  | 40 => ⟨S320000x1, .i32⟩
  | 41 => ⟨S320000x128, .f32⟩
  | 42 => ⟨S320000x256, .f32⟩
  | 43 => ⟨S1x256x128, .f32⟩
  | 44 => ⟨S256x128, .f32⟩
  | 45 => ⟨S320000x128, .f32⟩
  | 46 => ⟨S1x128, .f32⟩
  | 47 => ⟨S128, .f32⟩
  | 48 => ⟨S1x128, .f32⟩
  | 49 => ⟨S320000x128, .f32⟩
  | 50 => ⟨S320000x128, .f32⟩
  | 51 => ⟨S_, .f32⟩
  | 52 => ⟨S320000x128, .f32⟩
  | 53 => ⟨S320000x128, .f32⟩
  | 54 => ⟨S1x128x2, .f32⟩
  | 55 => ⟨S128x2, .f32⟩
  | 56 => ⟨S320000x2, .f32⟩
  | 57 => ⟨S1x2, .f32⟩
  | 58 => ⟨S2, .f32⟩
  | 59 => ⟨S1x2, .f32⟩
  | 60 => ⟨S320000x2, .f32⟩
  | 61 => ⟨S320000x2, .f32⟩
  | 62 => ⟨S_, .i32⟩
  | 63 => ⟨S320000, .i32⟩
  | 64 => ⟨S320000, .i1⟩
  | 65 => ⟨S_, .i32⟩
  | 66 => ⟨S320000, .i32⟩
  | 67 => ⟨S320000, .i32⟩
  | 68 => ⟨S320000, .i32⟩
  | 69 => ⟨S320000x1, .i32⟩
  | 70 => ⟨S320000x128, .f32⟩
  | 71 => ⟨S_, .f32⟩
  | 72 => ⟨S20000x128, .f32⟩
  | 73 => ⟨S320000x1, .i32⟩
  | 74 => ⟨S20000x128, .f32⟩
  | 75 => ⟨S1, .f32⟩
  | 76 => ⟨S_, .f32⟩
  | 77 => ⟨S_, .f32⟩
  | 78 => ⟨S_, .f32⟩
  | 79 => ⟨S20000x128, .f32⟩
  | 80 => ⟨S20000x128, .f32⟩
  | 81 => ⟨S20000x128, .f32⟩
  | 82 => ⟨S1x128x128, .f32⟩
  | 83 => ⟨S128x128, .f32⟩
  | 84 => ⟨S20000x128, .f32⟩
  | 85 => ⟨S1x128, .f32⟩
  | 86 => ⟨S128, .f32⟩
  | 87 => ⟨S1x128, .f32⟩
  | 88 => ⟨S20000x128, .f32⟩
  | 89 => ⟨S20000x128, .f32⟩
  | 90 => ⟨S1x128, .f32⟩
  | 91 => ⟨S128, .f32⟩
  | 92 => ⟨S1x128, .f32⟩
  | 93 => ⟨S128, .f32⟩
  | 94 => ⟨S_, .f32⟩
  | 95 => ⟨S128, .f32⟩
  | 96 => ⟨S_, .f32⟩
  | 97 => ⟨S128, .f32⟩
  | 98 => ⟨S128, .f32⟩
  | 99 => ⟨S_, .i32⟩
  | 100 => ⟨S_, .f32⟩
  | 101 => ⟨S128, .f32⟩
  | 102 => ⟨S1x128, .f32⟩
  | 103 => ⟨S_, .f32⟩
  | 104 => ⟨S1x128, .f32⟩
  | 105 => ⟨S1x128, .f32⟩
  | 106 => ⟨S20000x128, .f32⟩
  | 107 => ⟨S20000x128, .f32⟩
  | 108 => ⟨S20000x128, .f32⟩
  | 109 => ⟨S_, .f32⟩
  | 110 => ⟨S_, .f32⟩
  | 111 => ⟨S_, .f32⟩
  | 112 => ⟨S_, .f32⟩
  | 113 => ⟨S128, .f32⟩
  | 114 => ⟨S128, .f32⟩
  | 115 => ⟨S128, .f32⟩
  | 116 => ⟨S_, .f32⟩
  | 117 => ⟨S_, .i1⟩
  | 118 => ⟨S_, .f32⟩
  | 119 => ⟨S_, .f32⟩
  | 120 => ⟨S128, .f32⟩
  | 121 => ⟨S128, .f32⟩
  | 122 => ⟨S1x128, .f32⟩
  | 123 => ⟨S20000x128, .f32⟩
  | 124 => ⟨S20000x128, .f32⟩
  | 125 => ⟨S_, .f32⟩
  | 126 => ⟨S128, .f32⟩
  | 127 => ⟨S128, .f32⟩
  | _ => ⟨S20000x2, .f32⟩

abbrev hbmTy0_1 (i : Nat) : BufTy := match i % 128 with
  | 0 => ⟨S128, .f32⟩
  | 1 => ⟨S1x128, .f32⟩
  | 2 => ⟨S20000x128, .f32⟩
  | 3 => ⟨S20000x128, .f32⟩
  | 4 => ⟨S1x128, .f32⟩
  | 5 => ⟨S20000x128, .f32⟩
  | 6 => ⟨S20000x128, .f32⟩
  | 7 => ⟨S1x128, .f32⟩
  | 8 => ⟨S20000x128, .f32⟩
  | 9 => ⟨S20000x128, .f32⟩
  | 10 => ⟨S_, .f32⟩
  | 11 => ⟨S20000x128, .f32⟩
  | 12 => ⟨S20000x128, .f32⟩
  | 13 => ⟨S1x128x128, .f32⟩
  | 14 => ⟨S128x128, .f32⟩
  | 15 => ⟨S20000x128, .f32⟩
  | 16 => ⟨S1x128, .f32⟩
  | 17 => ⟨S128, .f32⟩
  | 18 => ⟨S1x128, .f32⟩
  | 19 => ⟨S20000x128, .f32⟩
  | 20 => ⟨S20000x128, .f32⟩
  | 21 => ⟨S1x128, .f32⟩
  | 22 => ⟨S128, .f32⟩
  | 23 => ⟨S1x128, .f32⟩
  | 24 => ⟨S128, .f32⟩
  | 25 => ⟨S_, .f32⟩
  | 26 => ⟨S128, .f32⟩
  | 27 => ⟨S_, .f32⟩
  | 28 => ⟨S128, .f32⟩
  | 29 => ⟨S128, .f32⟩
  | 30 => ⟨S_, .i32⟩
  | 31 => ⟨S_, .f32⟩
  | 32 => ⟨S128, .f32⟩
  | 33 => ⟨S1x128, .f32⟩
  | 34 => ⟨S_, .f32⟩
  | 35 => ⟨S1x128, .f32⟩
  | 36 => ⟨S1x128, .f32⟩
  | 37 => ⟨S20000x128, .f32⟩
  | 38 => ⟨S20000x128, .f32⟩
  | 39 => ⟨S20000x128, .f32⟩
  | 40 => ⟨S_, .f32⟩
  | 41 => ⟨S_, .f32⟩
  | 42 => ⟨S_, .f32⟩
  | 43 => ⟨S_, .f32⟩
  | 44 => ⟨S128, .f32⟩
  | 45 => ⟨S128, .f32⟩
  | 46 => ⟨S128, .f32⟩
  | 47 => ⟨S_, .f32⟩
  | 48 => ⟨S_, .i1⟩
  | 49 => ⟨S_, .f32⟩
  | 50 => ⟨S_, .f32⟩
  | 51 => ⟨S128, .f32⟩
  | 52 => ⟨S128, .f32⟩
  | 53 => ⟨S1x128, .f32⟩
  | 54 => ⟨S20000x128, .f32⟩
  | 55 => ⟨S20000x128, .f32⟩
  | 56 => ⟨S_, .f32⟩
  | 57 => ⟨S128, .f32⟩
  | 58 => ⟨S128, .f32⟩
  | 59 => ⟨S128, .f32⟩
  | 60 => ⟨S1x128, .f32⟩
  | 61 => ⟨S20000x128, .f32⟩
  | 62 => ⟨S20000x128, .f32⟩
  | 63 => ⟨S1x128, .f32⟩
  | 64 => ⟨S20000x128, .f32⟩
  | 65 => ⟨S20000x128, .f32⟩
  | 66 => ⟨S1x128, .f32⟩
  | 67 => ⟨S20000x128, .f32⟩
  | 68 => ⟨S20000x128, .f32⟩
  | 69 => ⟨S_, .f32⟩
  | 70 => ⟨S20000x128, .f32⟩
  | 71 => ⟨S20000x128, .f32⟩
  | 72 => ⟨S1x128, .f32⟩
  | 73 => ⟨S128, .f32⟩
  | 74 => ⟨S1x128, .f32⟩
  | 75 => ⟨S128, .f32⟩
  | 76 => ⟨S_, .f32⟩
  | 77 => ⟨S128, .f32⟩
  | 78 => ⟨S_, .f32⟩
  | 79 => ⟨S128, .f32⟩
  | 80 => ⟨S128, .f32⟩
  | 81 => ⟨S_, .i32⟩
  | 82 => ⟨S_, .f32⟩
  | 83 => ⟨S128, .f32⟩
  | 84 => ⟨S1x128, .f32⟩
  | 85 => ⟨S_, .f32⟩
  | 86 => ⟨S1x128, .f32⟩
  | 87 => ⟨S1x128, .f32⟩
  | 88 => ⟨S20000x128, .f32⟩
  | 89 => ⟨S20000x128, .f32⟩
  | 90 => ⟨S20000x128, .f32⟩
  | 91 => ⟨S_, .f32⟩
  | 92 => ⟨S_, .f32⟩
  | 93 => ⟨S_, .f32⟩
  | 94 => ⟨S_, .f32⟩
  | 95 => ⟨S128, .f32⟩
  | 96 => ⟨S128, .f32⟩
  | 97 => ⟨S128, .f32⟩
  | 98 => ⟨S_, .f32⟩
  | 99 => ⟨S_, .i1⟩
  | 100 => ⟨S_, .f32⟩
  | 101 => ⟨S_, .f32⟩
  | 102 => ⟨S128, .f32⟩
  | 103 => ⟨S128, .f32⟩
  | 104 => ⟨S1x128, .f32⟩
  | 105 => ⟨S20000x128, .f32⟩
  | 106 => ⟨S20000x128, .f32⟩
  | 107 => ⟨S_, .f32⟩
  | 108 => ⟨S128, .f32⟩
  | 109 => ⟨S128, .f32⟩
  | 110 => ⟨S128, .f32⟩
  | 111 => ⟨S1x128, .f32⟩
  | 112 => ⟨S20000x128, .f32⟩
  | 113 => ⟨S20000x128, .f32⟩
  | 114 => ⟨S1x128, .f32⟩
  | 115 => ⟨S20000x128, .f32⟩
  | 116 => ⟨S20000x128, .f32⟩
  | 117 => ⟨S1x128, .f32⟩
  | 118 => ⟨S20000x128, .f32⟩
  | 119 => ⟨S20000x128, .f32⟩
  | 120 => ⟨S_, .f32⟩
  | 121 => ⟨S20000x128, .f32⟩
  | 122 => ⟨S20000x128, .f32⟩
  | 123 => ⟨S20000x128, .f32⟩
  | 124 => ⟨S_, .i32⟩
  | 125 => ⟨S320000, .i32⟩
  | 126 => ⟨S320000, .i1⟩
  | 127 => ⟨S_, .i32⟩
  | _ => ⟨S20000x2, .f32⟩

abbrev hbmTy0_2 (i : Nat) : BufTy := match i % 128 with
  | 0 => ⟨S320000, .i32⟩
  | 1 => ⟨S320000, .i32⟩
  | 2 => ⟨S320000, .i32⟩
  | 3 => ⟨S320000x1, .i32⟩
  | 4 => ⟨S320000x128, .f32⟩
  | 5 => ⟨S_, .i32⟩
  | 6 => ⟨S320000, .i32⟩
  | 7 => ⟨S320000, .i1⟩
  | 8 => ⟨S_, .i32⟩
  | 9 => ⟨S320000, .i32⟩
  | 10 => ⟨S320000, .i32⟩
  | 11 => ⟨S320000, .i32⟩
  | 12 => ⟨S320000x1, .i32⟩
  | 13 => ⟨S320000x128, .f32⟩
  | 14 => ⟨S320000x256, .f32⟩
  | 15 => ⟨S1x256x128, .f32⟩
  | 16 => ⟨S256x128, .f32⟩
  | 17 => ⟨S320000x128, .f32⟩
  | 18 => ⟨S1x128, .f32⟩
  | 19 => ⟨S128, .f32⟩
  | 20 => ⟨S1x128, .f32⟩
  | 21 => ⟨S320000x128, .f32⟩
  | 22 => ⟨S320000x128, .f32⟩
  | 23 => ⟨S_, .f32⟩
  | 24 => ⟨S320000x128, .f32⟩
  | 25 => ⟨S320000x128, .f32⟩
  | 26 => ⟨S1x128x2, .f32⟩
  | 27 => ⟨S128x2, .f32⟩
  | 28 => ⟨S320000x2, .f32⟩
  | 29 => ⟨S1x2, .f32⟩
  | 30 => ⟨S2, .f32⟩
  | 31 => ⟨S1x2, .f32⟩
  | 32 => ⟨S320000x2, .f32⟩
  | 33 => ⟨S320000x2, .f32⟩
  | 34 => ⟨S320000x2, .f32⟩
  | 35 => ⟨S_, .i32⟩
  | 36 => ⟨S320000, .i32⟩
  | 37 => ⟨S320000, .i1⟩
  | 38 => ⟨S_, .i32⟩
  | 39 => ⟨S320000, .i32⟩
  | 40 => ⟨S320000, .i32⟩
  | 41 => ⟨S320000, .i32⟩
  | 42 => ⟨S320000x1, .i32⟩
  | 43 => ⟨S320000x128, .f32⟩
  | 44 => ⟨S_, .f32⟩
  | 45 => ⟨S20000x128, .f32⟩
  | 46 => ⟨S320000x1, .i32⟩
  | 47 => ⟨S20000x128, .f32⟩
  | 48 => ⟨S1, .f32⟩
  | 49 => ⟨S_, .f32⟩
  | 50 => ⟨S_, .f32⟩
  | 51 => ⟨S_, .f32⟩
  | 52 => ⟨S20000x128, .f32⟩
  | 53 => ⟨S20000x128, .f32⟩
  | 54 => ⟨S20000x128, .f32⟩
  | 55 => ⟨S1x128x128, .f32⟩
  | 56 => ⟨S128x128, .f32⟩
  | 57 => ⟨S20000x128, .f32⟩
  | 58 => ⟨S1x128, .f32⟩
  | 59 => ⟨S128, .f32⟩
  | 60 => ⟨S1x128, .f32⟩
  | 61 => ⟨S20000x128, .f32⟩
  | 62 => ⟨S20000x128, .f32⟩
  | 63 => ⟨S1x128, .f32⟩
  | 64 => ⟨S128, .f32⟩
  | 65 => ⟨S1x128, .f32⟩
  | 66 => ⟨S128, .f32⟩
  | 67 => ⟨S_, .f32⟩
  | 68 => ⟨S128, .f32⟩
  | 69 => ⟨S_, .f32⟩
  | 70 => ⟨S128, .f32⟩
  | 71 => ⟨S128, .f32⟩
  | 72 => ⟨S_, .i32⟩
  | 73 => ⟨S_, .f32⟩
  | 74 => ⟨S128, .f32⟩
  | 75 => ⟨S1x128, .f32⟩
  | 76 => ⟨S_, .f32⟩
  | 77 => ⟨S1x128, .f32⟩
  | 78 => ⟨S1x128, .f32⟩
  | 79 => ⟨S20000x128, .f32⟩
  | 80 => ⟨S20000x128, .f32⟩
  | 81 => ⟨S20000x128, .f32⟩
  | 82 => ⟨S_, .f32⟩
  | 83 => ⟨S_, .f32⟩
  | 84 => ⟨S_, .f32⟩
  | 85 => ⟨S_, .f32⟩
  | 86 => ⟨S128, .f32⟩
  | 87 => ⟨S128, .f32⟩
  | 88 => ⟨S128, .f32⟩
  | 89 => ⟨S_, .f32⟩
  | 90 => ⟨S_, .i1⟩
  | 91 => ⟨S_, .f32⟩
  | 92 => ⟨S_, .f32⟩
  | 93 => ⟨S128, .f32⟩
  | 94 => ⟨S128, .f32⟩
  | 95 => ⟨S1x128, .f32⟩
  | 96 => ⟨S20000x128, .f32⟩
  | 97 => ⟨S20000x128, .f32⟩
  | 98 => ⟨S_, .f32⟩
  | 99 => ⟨S128, .f32⟩
  | 100 => ⟨S128, .f32⟩
  | 101 => ⟨S128, .f32⟩
  | 102 => ⟨S1x128, .f32⟩
  | 103 => ⟨S20000x128, .f32⟩
  | 104 => ⟨S20000x128, .f32⟩
  | 105 => ⟨S1x128, .f32⟩
  | 106 => ⟨S20000x128, .f32⟩
  | 107 => ⟨S20000x128, .f32⟩
  | 108 => ⟨S1x128, .f32⟩
  | 109 => ⟨S20000x128, .f32⟩
  | 110 => ⟨S20000x128, .f32⟩
  | 111 => ⟨S_, .f32⟩
  | 112 => ⟨S20000x128, .f32⟩
  | 113 => ⟨S20000x128, .f32⟩
  | 114 => ⟨S1x128x128, .f32⟩
  | 115 => ⟨S128x128, .f32⟩
  | 116 => ⟨S20000x128, .f32⟩
  | 117 => ⟨S1x128, .f32⟩
  | 118 => ⟨S128, .f32⟩
  | 119 => ⟨S1x128, .f32⟩
  | 120 => ⟨S20000x128, .f32⟩
  | 121 => ⟨S20000x128, .f32⟩
  | 122 => ⟨S1x128, .f32⟩
  | 123 => ⟨S128, .f32⟩
  | 124 => ⟨S1x128, .f32⟩
  | 125 => ⟨S128, .f32⟩
  | 126 => ⟨S_, .f32⟩
  | 127 => ⟨S128, .f32⟩
  | _ => ⟨S20000x2, .f32⟩

abbrev hbmTy0_3 (i : Nat) : BufTy := match i % 128 with
  | 0 => ⟨S_, .f32⟩
  | 1 => ⟨S128, .f32⟩
  | 2 => ⟨S128, .f32⟩
  | 3 => ⟨S_, .i32⟩
  | 4 => ⟨S_, .f32⟩
  | 5 => ⟨S128, .f32⟩
  | 6 => ⟨S1x128, .f32⟩
  | 7 => ⟨S_, .f32⟩
  | 8 => ⟨S1x128, .f32⟩
  | 9 => ⟨S1x128, .f32⟩
  | 10 => ⟨S20000x128, .f32⟩
  | 11 => ⟨S20000x128, .f32⟩
  | 12 => ⟨S20000x128, .f32⟩
  | 13 => ⟨S_, .f32⟩
  | 14 => ⟨S_, .f32⟩
  | 15 => ⟨S_, .f32⟩
  | 16 => ⟨S_, .f32⟩
  | 17 => ⟨S128, .f32⟩
  | 18 => ⟨S128, .f32⟩
  | 19 => ⟨S128, .f32⟩
  | 20 => ⟨S_, .f32⟩
  | 21 => ⟨S_, .i1⟩
  | 22 => ⟨S_, .f32⟩
  | 23 => ⟨S_, .f32⟩
  | 24 => ⟨S128, .f32⟩
  | 25 => ⟨S128, .f32⟩
  | 26 => ⟨S1x128, .f32⟩
  | 27 => ⟨S20000x128, .f32⟩
  | 28 => ⟨S20000x128, .f32⟩
  | 29 => ⟨S_, .f32⟩
  | 30 => ⟨S128, .f32⟩
  | 31 => ⟨S128, .f32⟩
  | 32 => ⟨S128, .f32⟩
  | 33 => ⟨S1x128, .f32⟩
  | 34 => ⟨S20000x128, .f32⟩
  | 35 => ⟨S20000x128, .f32⟩
  | 36 => ⟨S1x128, .f32⟩
  | 37 => ⟨S20000x128, .f32⟩
  | 38 => ⟨S20000x128, .f32⟩
  | 39 => ⟨S1x128, .f32⟩
  | 40 => ⟨S20000x128, .f32⟩
  | 41 => ⟨S20000x128, .f32⟩
  | 42 => ⟨S_, .f32⟩
  | 43 => ⟨S20000x128, .f32⟩
  | 44 => ⟨S20000x128, .f32⟩
  | 45 => ⟨S1x128, .f32⟩
  | 46 => ⟨S128, .f32⟩
  | 47 => ⟨S1x128, .f32⟩
  | 48 => ⟨S128, .f32⟩
  | 49 => ⟨S_, .f32⟩
  | 50 => ⟨S128, .f32⟩
  | 51 => ⟨S_, .f32⟩
  | 52 => ⟨S128, .f32⟩
  | 53 => ⟨S128, .f32⟩
  | 54 => ⟨S_, .i32⟩
  | 55 => ⟨S_, .f32⟩
  | 56 => ⟨S128, .f32⟩
  | 57 => ⟨S1x128, .f32⟩
  | 58 => ⟨S_, .f32⟩
  | 59 => ⟨S1x128, .f32⟩
  | 60 => ⟨S1x128, .f32⟩
  | 61 => ⟨S20000x128, .f32⟩
  | 62 => ⟨S20000x128, .f32⟩
  | 63 => ⟨S20000x128, .f32⟩
  | 64 => ⟨S_, .f32⟩
  | 65 => ⟨S_, .f32⟩
  | 66 => ⟨S_, .f32⟩
  | 67 => ⟨S_, .f32⟩
  | 68 => ⟨S128, .f32⟩
  | 69 => ⟨S128, .f32⟩
  | 70 => ⟨S128, .f32⟩
  | 71 => ⟨S_, .f32⟩
  | 72 => ⟨S_, .i1⟩
  | 73 => ⟨S_, .f32⟩
  | 74 => ⟨S_, .f32⟩
  | 75 => ⟨S128, .f32⟩
  | 76 => ⟨S128, .f32⟩
  | 77 => ⟨S1x128, .f32⟩
  | 78 => ⟨S20000x128, .f32⟩
  | 79 => ⟨S20000x128, .f32⟩
  | 80 => ⟨S_, .f32⟩
  | 81 => ⟨S128, .f32⟩
  | 82 => ⟨S128, .f32⟩
  | 83 => ⟨S128, .f32⟩
  | 84 => ⟨S1x128, .f32⟩
  | 85 => ⟨S20000x128, .f32⟩
  | 86 => ⟨S20000x128, .f32⟩
  | 87 => ⟨S1x128, .f32⟩
  | 88 => ⟨S20000x128, .f32⟩
  | 89 => ⟨S20000x128, .f32⟩
  | 90 => ⟨S1x128, .f32⟩
  | 91 => ⟨S20000x128, .f32⟩
  | 92 => ⟨S20000x128, .f32⟩
  | 93 => ⟨S_, .f32⟩
  | 94 => ⟨S20000x128, .f32⟩
  | 95 => ⟨S20000x128, .f32⟩
  | 96 => ⟨S20000x128, .f32⟩
  | 97 => ⟨S_, .i32⟩
  | 98 => ⟨S320000, .i32⟩
  | 99 => ⟨S320000, .i1⟩
  | 100 => ⟨S_, .i32⟩
  | 101 => ⟨S320000, .i32⟩
  | 102 => ⟨S320000, .i32⟩
  | 103 => ⟨S320000, .i32⟩
  | 104 => ⟨S320000x1, .i32⟩
  | 105 => ⟨S320000x128, .f32⟩
  | 106 => ⟨S_, .i32⟩
  | 107 => ⟨S320000, .i32⟩
  | 108 => ⟨S320000, .i1⟩
  | 109 => ⟨S_, .i32⟩
  | 110 => ⟨S320000, .i32⟩
  | 111 => ⟨S320000, .i32⟩
  | 112 => ⟨S320000, .i32⟩
  | 113 => ⟨S320000x1, .i32⟩
  | 114 => ⟨S320000x128, .f32⟩
  | 115 => ⟨S320000x256, .f32⟩
  | 116 => ⟨S1x256x128, .f32⟩
  | 117 => ⟨S256x128, .f32⟩
  | 118 => ⟨S320000x128, .f32⟩
  | 119 => ⟨S1x128, .f32⟩
  | 120 => ⟨S128, .f32⟩
  | 121 => ⟨S1x128, .f32⟩
  | 122 => ⟨S320000x128, .f32⟩
  | 123 => ⟨S320000x128, .f32⟩
  | 124 => ⟨S_, .f32⟩
  | 125 => ⟨S320000x128, .f32⟩
  | 126 => ⟨S320000x128, .f32⟩
  | 127 => ⟨S1x128x2, .f32⟩
  | _ => ⟨S20000x2, .f32⟩

abbrev hbmTy0_4 (i : Nat) : BufTy := match i % 128 with
  | 0 => ⟨S128x2, .f32⟩
  | 1 => ⟨S320000x2, .f32⟩
  | 2 => ⟨S1x2, .f32⟩
  | 3 => ⟨S2, .f32⟩
  | 4 => ⟨S1x2, .f32⟩
  | 5 => ⟨S320000x2, .f32⟩
  | 6 => ⟨S320000x2, .f32⟩
  | 7 => ⟨S320000x2, .f32⟩
  | 8 => ⟨S_, .i32⟩
  | 9 => ⟨S320000, .i32⟩
  | 10 => ⟨S320000, .i1⟩
  | 11 => ⟨S_, .i32⟩
  | 12 => ⟨S320000, .i32⟩
  | 13 => ⟨S320000, .i32⟩
  | 14 => ⟨S320000, .i32⟩
  | 15 => ⟨S320000x1, .i32⟩
  | 16 => ⟨S320000x128, .f32⟩
  | 17 => ⟨S_, .f32⟩
  | 18 => ⟨S20000x128, .f32⟩
  | 19 => ⟨S320000x1, .i32⟩
  | 20 => ⟨S20000x128, .f32⟩
  | 21 => ⟨S1, .f32⟩
  | 22 => ⟨S_, .f32⟩
  | 23 => ⟨S_, .f32⟩
  | 24 => ⟨S_, .f32⟩
  | 25 => ⟨S20000x128, .f32⟩
  | 26 => ⟨S20000x128, .f32⟩
  | 27 => ⟨S20000x128, .f32⟩
  | 28 => ⟨S1x128x128, .f32⟩
  | 29 => ⟨S128x128, .f32⟩
  | 30 => ⟨S20000x128, .f32⟩
  | 31 => ⟨S1x128, .f32⟩
  | 32 => ⟨S128, .f32⟩
  | 33 => ⟨S1x128, .f32⟩
  | 34 => ⟨S20000x128, .f32⟩
  | 35 => ⟨S20000x128, .f32⟩
  | 36 => ⟨S1x128, .f32⟩
  | 37 => ⟨S128, .f32⟩
  | 38 => ⟨S1x128, .f32⟩
  | 39 => ⟨S128, .f32⟩
  | 40 => ⟨S_, .f32⟩
  | 41 => ⟨S128, .f32⟩
  | 42 => ⟨S_, .f32⟩
  | 43 => ⟨S128, .f32⟩
  | 44 => ⟨S128, .f32⟩
  | 45 => ⟨S_, .i32⟩
  | 46 => ⟨S_, .f32⟩
  | 47 => ⟨S128, .f32⟩
  | 48 => ⟨S1x128, .f32⟩
  | 49 => ⟨S_, .f32⟩
  | 50 => ⟨S1x128, .f32⟩
  | 51 => ⟨S1x128, .f32⟩
  | 52 => ⟨S20000x128, .f32⟩
  | 53 => ⟨S20000x128, .f32⟩
  | 54 => ⟨S20000x128, .f32⟩
  | 55 => ⟨S_, .f32⟩
  | 56 => ⟨S_, .f32⟩
  | 57 => ⟨S_, .f32⟩
  | 58 => ⟨S_, .f32⟩
  | 59 => ⟨S128, .f32⟩
  | 60 => ⟨S128, .f32⟩
  | 61 => ⟨S128, .f32⟩
  | 62 => ⟨S_, .f32⟩
  | 63 => ⟨S_, .i1⟩
  | 64 => ⟨S_, .f32⟩
  | 65 => ⟨S_, .f32⟩
  | 66 => ⟨S128, .f32⟩
  | 67 => ⟨S128, .f32⟩
  | 68 => ⟨S1x128, .f32⟩
  | 69 => ⟨S20000x128, .f32⟩
  | 70 => ⟨S20000x128, .f32⟩
  | 71 => ⟨S_, .f32⟩
  | 72 => ⟨S128, .f32⟩
  | 73 => ⟨S128, .f32⟩
  | 74 => ⟨S128, .f32⟩
  | 75 => ⟨S1x128, .f32⟩
  | 76 => ⟨S20000x128, .f32⟩
  | 77 => ⟨S20000x128, .f32⟩
  | 78 => ⟨S1x128, .f32⟩
  | 79 => ⟨S20000x128, .f32⟩
  | 80 => ⟨S20000x128, .f32⟩
  | 81 => ⟨S1x128, .f32⟩
  | 82 => ⟨S20000x128, .f32⟩
  | 83 => ⟨S20000x128, .f32⟩
  | 84 => ⟨S_, .f32⟩
  | 85 => ⟨S20000x128, .f32⟩
  | 86 => ⟨S20000x128, .f32⟩
  | 87 => ⟨S1x128x128, .f32⟩
  | 88 => ⟨S128x128, .f32⟩
  | 89 => ⟨S20000x128, .f32⟩
  | 90 => ⟨S1x128, .f32⟩
  | 91 => ⟨S128, .f32⟩
  | 92 => ⟨S1x128, .f32⟩
  | 93 => ⟨S20000x128, .f32⟩
  | 94 => ⟨S20000x128, .f32⟩
  | 95 => ⟨S1x128, .f32⟩
  | 96 => ⟨S128, .f32⟩
  | 97 => ⟨S1x128, .f32⟩
  | 98 => ⟨S128, .f32⟩
  | 99 => ⟨S_, .f32⟩
  | 100 => ⟨S128, .f32⟩
  | 101 => ⟨S_, .f32⟩
  | 102 => ⟨S128, .f32⟩
  | 103 => ⟨S128, .f32⟩
  | 104 => ⟨S_, .i32⟩
  | 105 => ⟨S_, .f32⟩
  | 106 => ⟨S128, .f32⟩
  | 107 => ⟨S1x128, .f32⟩
  | 108 => ⟨S_, .f32⟩
  | 109 => ⟨S1x128, .f32⟩
  | 110 => ⟨S1x128, .f32⟩
  | 111 => ⟨S20000x128, .f32⟩
  | 112 => ⟨S20000x128, .f32⟩
  | 113 => ⟨S20000x128, .f32⟩
  | 114 => ⟨S_, .f32⟩
  | 115 => ⟨S_, .f32⟩
  | 116 => ⟨S_, .f32⟩
  | 117 => ⟨S_, .f32⟩
  | 118 => ⟨S128, .f32⟩
  | 119 => ⟨S128, .f32⟩
  | 120 => ⟨S128, .f32⟩
  | 121 => ⟨S_, .f32⟩
  | 122 => ⟨S_, .i1⟩
  | 123 => ⟨S_, .f32⟩
  | 124 => ⟨S_, .f32⟩
  | 125 => ⟨S128, .f32⟩
  | 126 => ⟨S128, .f32⟩
  | 127 => ⟨S1x128, .f32⟩
  | _ => ⟨S20000x2, .f32⟩

abbrev hbmTy0_5 (i : Nat) : BufTy := match i % 128 with
  | 0 => ⟨S20000x128, .f32⟩
  | 1 => ⟨S20000x128, .f32⟩
  | 2 => ⟨S_, .f32⟩
  | 3 => ⟨S128, .f32⟩
  | 4 => ⟨S128, .f32⟩
  | 5 => ⟨S128, .f32⟩
  | 6 => ⟨S1x128, .f32⟩
  | 7 => ⟨S20000x128, .f32⟩
  | 8 => ⟨S20000x128, .f32⟩
  | 9 => ⟨S1x128, .f32⟩
  | 10 => ⟨S20000x128, .f32⟩
  | 11 => ⟨S20000x128, .f32⟩
  | 12 => ⟨S1x128, .f32⟩
  | 13 => ⟨S20000x128, .f32⟩
  | 14 => ⟨S20000x128, .f32⟩
  | 15 => ⟨S_, .f32⟩
  | 16 => ⟨S20000x128, .f32⟩
  | 17 => ⟨S20000x128, .f32⟩
  | 18 => ⟨S1x128, .f32⟩
  | 19 => ⟨S128, .f32⟩
  | 20 => ⟨S1x128, .f32⟩
  | 21 => ⟨S128, .f32⟩
  | 22 => ⟨S_, .f32⟩
  | 23 => ⟨S128, .f32⟩
  | 24 => ⟨S_, .f32⟩
  | 25 => ⟨S128, .f32⟩
  | 26 => ⟨S128, .f32⟩
  | 27 => ⟨S_, .i32⟩
  | 28 => ⟨S_, .f32⟩
  | 29 => ⟨S128, .f32⟩
  | 30 => ⟨S1x128, .f32⟩
  | 31 => ⟨S_, .f32⟩
  | 32 => ⟨S1x128, .f32⟩
  | 33 => ⟨S1x128, .f32⟩
  | 34 => ⟨S20000x128, .f32⟩
  | 35 => ⟨S20000x128, .f32⟩
  | 36 => ⟨S20000x128, .f32⟩
  | 37 => ⟨S_, .f32⟩
  | 38 => ⟨S_, .f32⟩
  | 39 => ⟨S_, .f32⟩
  | 40 => ⟨S_, .f32⟩
  | 41 => ⟨S128, .f32⟩
  | 42 => ⟨S128, .f32⟩
  | 43 => ⟨S128, .f32⟩
  | 44 => ⟨S_, .f32⟩
  | 45 => ⟨S_, .i1⟩
  | 46 => ⟨S_, .f32⟩
  | 47 => ⟨S_, .f32⟩
  | 48 => ⟨S128, .f32⟩
  | 49 => ⟨S128, .f32⟩
  | 50 => ⟨S1x128, .f32⟩
  | 51 => ⟨S20000x128, .f32⟩
  | 52 => ⟨S20000x128, .f32⟩
  | 53 => ⟨S_, .f32⟩
  | 54 => ⟨S128, .f32⟩
  | 55 => ⟨S128, .f32⟩
  | 56 => ⟨S128, .f32⟩
  | 57 => ⟨S1x128, .f32⟩
  | 58 => ⟨S20000x128, .f32⟩
  | 59 => ⟨S20000x128, .f32⟩
  | 60 => ⟨S1x128, .f32⟩
  | 61 => ⟨S20000x128, .f32⟩
  | 62 => ⟨S20000x128, .f32⟩
  | 63 => ⟨S1x128, .f32⟩
  | 64 => ⟨S20000x128, .f32⟩
  | 65 => ⟨S20000x128, .f32⟩
  | 66 => ⟨S_, .f32⟩
  | 67 => ⟨S20000x128, .f32⟩
  | 68 => ⟨S20000x128, .f32⟩
  | 69 => ⟨S20000x128, .f32⟩
  | 70 => ⟨S_, .i32⟩
  | 71 => ⟨S320000, .i32⟩
  | 72 => ⟨S320000, .i1⟩
  | 73 => ⟨S_, .i32⟩
  | 74 => ⟨S320000, .i32⟩
  | 75 => ⟨S320000, .i32⟩
  | 76 => ⟨S320000, .i32⟩
  | 77 => ⟨S320000x1, .i32⟩
  | 78 => ⟨S320000x128, .f32⟩
  | 79 => ⟨S_, .i32⟩
  | 80 => ⟨S320000, .i32⟩
  | 81 => ⟨S320000, .i1⟩
  | 82 => ⟨S_, .i32⟩
  | 83 => ⟨S320000, .i32⟩
  | 84 => ⟨S320000, .i32⟩
  | 85 => ⟨S320000, .i32⟩
  | 86 => ⟨S320000x1, .i32⟩
  | 87 => ⟨S320000x128, .f32⟩
  | 88 => ⟨S320000x256, .f32⟩
  | 89 => ⟨S1x256x128, .f32⟩
  | 90 => ⟨S256x128, .f32⟩
  | 91 => ⟨S320000x128, .f32⟩
  | 92 => ⟨S1x128, .f32⟩
  | 93 => ⟨S128, .f32⟩
  | 94 => ⟨S1x128, .f32⟩
  | 95 => ⟨S320000x128, .f32⟩
  | 96 => ⟨S320000x128, .f32⟩
  | 97 => ⟨S_, .f32⟩
  | 98 => ⟨S320000x128, .f32⟩
  | 99 => ⟨S320000x128, .f32⟩
  | 100 => ⟨S1x128x2, .f32⟩
  | 101 => ⟨S128x2, .f32⟩
  | 102 => ⟨S320000x2, .f32⟩
  | 103 => ⟨S1x2, .f32⟩
  | 104 => ⟨S2, .f32⟩
  | 105 => ⟨S1x2, .f32⟩
  | 106 => ⟨S320000x2, .f32⟩
  | 107 => ⟨S320000x2, .f32⟩
  | 108 => ⟨S320000x2, .f32⟩
  | 109 => ⟨S_, .i32⟩
  | 110 => ⟨S320000, .i32⟩
  | 111 => ⟨S320000, .i1⟩
  | 112 => ⟨S_, .i32⟩
  | 113 => ⟨S320000, .i32⟩
  | 114 => ⟨S320000, .i32⟩
  | 115 => ⟨S320000, .i32⟩
  | 116 => ⟨S320000x1, .i32⟩
  | 117 => ⟨S320000x128, .f32⟩
  | 118 => ⟨S_, .f32⟩
  | 119 => ⟨S20000x128, .f32⟩
  | 120 => ⟨S320000x1, .i32⟩
  | 121 => ⟨S20000x128, .f32⟩
  | 122 => ⟨S1, .f32⟩
  | 123 => ⟨S_, .f32⟩
  | 124 => ⟨S_, .f32⟩
  | 125 => ⟨S_, .f32⟩
  | 126 => ⟨S20000x128, .f32⟩
  | 127 => ⟨S20000x128, .f32⟩
  | _ => ⟨S20000x2, .f32⟩

abbrev hbmTy0_6 (i : Nat) : BufTy := match i % 128 with
  | 0 => ⟨S20000x128, .f32⟩
  | 1 => ⟨S1x128x128, .f32⟩
  | 2 => ⟨S128x128, .f32⟩
  | 3 => ⟨S20000x128, .f32⟩
  | 4 => ⟨S1x128, .f32⟩
  | 5 => ⟨S128, .f32⟩
  | 6 => ⟨S1x128, .f32⟩
  | 7 => ⟨S20000x128, .f32⟩
  | 8 => ⟨S20000x128, .f32⟩
  | 9 => ⟨S1x128, .f32⟩
  | 10 => ⟨S128, .f32⟩
  | 11 => ⟨S1x128, .f32⟩
  | 12 => ⟨S128, .f32⟩
  | 13 => ⟨S_, .f32⟩
  | 14 => ⟨S128, .f32⟩
  | 15 => ⟨S_, .f32⟩
  | 16 => ⟨S128, .f32⟩
  | 17 => ⟨S128, .f32⟩
  | 18 => ⟨S_, .i32⟩
  | 19 => ⟨S_, .f32⟩
  | 20 => ⟨S128, .f32⟩
  | 21 => ⟨S1x128, .f32⟩
  | 22 => ⟨S_, .f32⟩
  | 23 => ⟨S1x128, .f32⟩
  | 24 => ⟨S1x128, .f32⟩
  | 25 => ⟨S20000x128, .f32⟩
  | 26 => ⟨S20000x128, .f32⟩
  | 27 => ⟨S20000x128, .f32⟩
  | 28 => ⟨S_, .f32⟩
  | 29 => ⟨S_, .f32⟩
  | 30 => ⟨S_, .f32⟩
  | 31 => ⟨S_, .f32⟩
  | 32 => ⟨S128, .f32⟩
  | 33 => ⟨S128, .f32⟩
  | 34 => ⟨S128, .f32⟩
  | 35 => ⟨S_, .f32⟩
  | 36 => ⟨S_, .i1⟩
  | 37 => ⟨S_, .f32⟩
  | 38 => ⟨S_, .f32⟩
  | 39 => ⟨S128, .f32⟩
  | 40 => ⟨S128, .f32⟩
  | 41 => ⟨S1x128, .f32⟩
  | 42 => ⟨S20000x128, .f32⟩
  | 43 => ⟨S20000x128, .f32⟩
  | 44 => ⟨S_, .f32⟩
  | 45 => ⟨S128, .f32⟩
  | 46 => ⟨S128, .f32⟩
  | 47 => ⟨S128, .f32⟩
  | 48 => ⟨S1x128, .f32⟩
  | 49 => ⟨S20000x128, .f32⟩
  | 50 => ⟨S20000x128, .f32⟩
  | 51 => ⟨S1x128, .f32⟩
  | 52 => ⟨S20000x128, .f32⟩
  | 53 => ⟨S20000x128, .f32⟩
  | 54 => ⟨S1x128, .f32⟩
  | 55 => ⟨S20000x128, .f32⟩
  | 56 => ⟨S20000x128, .f32⟩
  | 57 => ⟨S_, .f32⟩
  | 58 => ⟨S20000x128, .f32⟩
  | 59 => ⟨S20000x128, .f32⟩
  | 60 => ⟨S1x128x128, .f32⟩
  | 61 => ⟨S128x128, .f32⟩
  | 62 => ⟨S20000x128, .f32⟩
  | 63 => ⟨S1x128, .f32⟩
  | 64 => ⟨S128, .f32⟩
  | 65 => ⟨S1x128, .f32⟩
  | 66 => ⟨S20000x128, .f32⟩
  | 67 => ⟨S20000x128, .f32⟩
  | 68 => ⟨S1x128, .f32⟩
  | 69 => ⟨S128, .f32⟩
  | 70 => ⟨S1x128, .f32⟩
  | 71 => ⟨S128, .f32⟩
  | 72 => ⟨S_, .f32⟩
  | 73 => ⟨S128, .f32⟩
  | 74 => ⟨S_, .f32⟩
  | 75 => ⟨S128, .f32⟩
  | 76 => ⟨S128, .f32⟩
  | 77 => ⟨S_, .i32⟩
  | 78 => ⟨S_, .f32⟩
  | 79 => ⟨S128, .f32⟩
  | 80 => ⟨S1x128, .f32⟩
  | 81 => ⟨S_, .f32⟩
  | 82 => ⟨S1x128, .f32⟩
  | 83 => ⟨S1x128, .f32⟩
  | 84 => ⟨S20000x128, .f32⟩
  | 85 => ⟨S20000x128, .f32⟩
  | 86 => ⟨S20000x128, .f32⟩
  | 87 => ⟨S_, .f32⟩
  | 88 => ⟨S_, .f32⟩
  | 89 => ⟨S_, .f32⟩
  | 90 => ⟨S_, .f32⟩
  | 91 => ⟨S128, .f32⟩
  | 92 => ⟨S128, .f32⟩
  | 93 => ⟨S128, .f32⟩
  | 94 => ⟨S_, .f32⟩
  | 95 => ⟨S_, .i1⟩
  | 96 => ⟨S_, .f32⟩
  | 97 => ⟨S_, .f32⟩
  | 98 => ⟨S128, .f32⟩
  | 99 => ⟨S128, .f32⟩
  | 100 => ⟨S1x128, .f32⟩
  | 101 => ⟨S20000x128, .f32⟩
  | 102 => ⟨S20000x128, .f32⟩
  | 103 => ⟨S_, .f32⟩
  | 104 => ⟨S128, .f32⟩
  | 105 => ⟨S128, .f32⟩
  | 106 => ⟨S128, .f32⟩
  | 107 => ⟨S1x128, .f32⟩
  | 108 => ⟨S20000x128, .f32⟩
  | 109 => ⟨S20000x128, .f32⟩
  | 110 => ⟨S1x128, .f32⟩
  | 111 => ⟨S20000x128, .f32⟩
  | 112 => ⟨S20000x128, .f32⟩
  | 113 => ⟨S1x128, .f32⟩
  | 114 => ⟨S20000x128, .f32⟩
  | 115 => ⟨S20000x128, .f32⟩
  | 116 => ⟨S_, .f32⟩
  | 117 => ⟨S20000x128, .f32⟩
  | 118 => ⟨S20000x128, .f32⟩
  | 119 => ⟨S1x128, .f32⟩
  | 120 => ⟨S128, .f32⟩
  | 121 => ⟨S1x128, .f32⟩
  | 122 => ⟨S128, .f32⟩
  | 123 => ⟨S_, .f32⟩
  | 124 => ⟨S128, .f32⟩
  | 125 => ⟨S_, .f32⟩
  | 126 => ⟨S128, .f32⟩
  | 127 => ⟨S128, .f32⟩
  | _ => ⟨S20000x2, .f32⟩

abbrev hbmTy0_7 (i : Nat) : BufTy := match i % 128 with
  | 0 => ⟨S_, .i32⟩
  | 1 => ⟨S_, .f32⟩
  | 2 => ⟨S128, .f32⟩
  | 3 => ⟨S1x128, .f32⟩
  | 4 => ⟨S_, .f32⟩
  | 5 => ⟨S1x128, .f32⟩
  | 6 => ⟨S1x128, .f32⟩
  | 7 => ⟨S20000x128, .f32⟩
  | 8 => ⟨S20000x128, .f32⟩
  | 9 => ⟨S20000x128, .f32⟩
  | 10 => ⟨S_, .f32⟩
  | 11 => ⟨S_, .f32⟩
  | 12 => ⟨S_, .f32⟩
  | 13 => ⟨S_, .f32⟩
  | 14 => ⟨S128, .f32⟩
  | 15 => ⟨S128, .f32⟩
  | 16 => ⟨S128, .f32⟩
  | 17 => ⟨S_, .f32⟩
  | 18 => ⟨S_, .i1⟩
  | 19 => ⟨S_, .f32⟩
  | 20 => ⟨S_, .f32⟩
  | 21 => ⟨S128, .f32⟩
  | 22 => ⟨S128, .f32⟩
  | 23 => ⟨S1x128, .f32⟩
  | 24 => ⟨S20000x128, .f32⟩
  | 25 => ⟨S20000x128, .f32⟩
  | 26 => ⟨S_, .f32⟩
  | 27 => ⟨S128, .f32⟩
  | 28 => ⟨S128, .f32⟩
  | 29 => ⟨S128, .f32⟩
  | 30 => ⟨S1x128, .f32⟩
  | 31 => ⟨S20000x128, .f32⟩
  | 32 => ⟨S20000x128, .f32⟩
  | 33 => ⟨S1x128, .f32⟩
  | 34 => ⟨S20000x128, .f32⟩
  | 35 => ⟨S20000x128, .f32⟩
  | 36 => ⟨S1x128, .f32⟩
  | 37 => ⟨S20000x128, .f32⟩
  | 38 => ⟨S20000x128, .f32⟩
  | 39 => ⟨S_, .f32⟩
  | 40 => ⟨S20000x128, .f32⟩
  | 41 => ⟨S20000x128, .f32⟩
  | 42 => ⟨S20000x128, .f32⟩
  | 43 => ⟨S_, .i32⟩
  | 44 => ⟨S320000, .i32⟩
  | 45 => ⟨S320000, .i1⟩
  | 46 => ⟨S_, .i32⟩
  | 47 => ⟨S320000, .i32⟩
  | 48 => ⟨S320000, .i32⟩
  | 49 => ⟨S320000, .i32⟩
  | 50 => ⟨S320000x1, .i32⟩
  | 51 => ⟨S320000x128, .f32⟩
  | 52 => ⟨S_, .i32⟩
  | 53 => ⟨S320000, .i32⟩
  | 54 => ⟨S320000, .i1⟩
  | 55 => ⟨S_, .i32⟩
  | 56 => ⟨S320000, .i32⟩
  | 57 => ⟨S320000, .i32⟩
  | 58 => ⟨S320000, .i32⟩
  | 59 => ⟨S320000x1, .i32⟩
  | 60 => ⟨S320000x128, .f32⟩
  | 61 => ⟨S320000x256, .f32⟩
  | 62 => ⟨S1x256x128, .f32⟩
  | 63 => ⟨S256x128, .f32⟩
  | 64 => ⟨S320000x128, .f32⟩
  | 65 => ⟨S1x128, .f32⟩
  | 66 => ⟨S128, .f32⟩
  | 67 => ⟨S1x128, .f32⟩
  | 68 => ⟨S320000x128, .f32⟩
  | 69 => ⟨S320000x128, .f32⟩
  | 70 => ⟨S_, .f32⟩
  | 71 => ⟨S320000x128, .f32⟩
  | 72 => ⟨S320000x128, .f32⟩
  | 73 => ⟨S1x128x2, .f32⟩
  | 74 => ⟨S128x2, .f32⟩
  | 75 => ⟨S320000x2, .f32⟩
  | 76 => ⟨S1x2, .f32⟩
  | 77 => ⟨S2, .f32⟩
  | 78 => ⟨S1x2, .f32⟩
  | 79 => ⟨S320000x2, .f32⟩
  | 80 => ⟨S320000x2, .f32⟩
  | 81 => ⟨S320000x2, .f32⟩
  | _ => ⟨S20000x2, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S20000x2, .f32⟩

abbrev bufTy : (tb : Table) → Fin (tcTables nBuf tb) → BufTy
  | .hbm, ⟨i, _⟩ => hbmTy i
  | _, _ => ⟨S20000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_1 : Ref sig .tc := ⟨.hbm, 33, rfl⟩
abbrev main_v11 : Ref sig .tc := ⟨.hbm, 34, rfl⟩
abbrev main_v12 : Ref sig .tc := ⟨.hbm, 35, rfl⟩
abbrev main_c_2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_call0_cst : Ref sig .tc := ⟨.hbm, 51, rfl⟩
abbrev main_call0_v0 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_3 : Ref sig .tc := ⟨.hbm, 62, rfl⟩
abbrev main_v36 : Ref sig .tc := ⟨.hbm, 63, rfl⟩
abbrev main_v37 : Ref sig .tc := ⟨.hbm, 64, rfl⟩
abbrev main_c_4 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_5 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_6 : Ref sig .tc := ⟨.hbm, 94, rfl⟩
abbrev main_v64 : Ref sig .tc := ⟨.hbm, 95, rfl⟩
abbrev main_cst_7 : Ref sig .tc := ⟨.hbm, 96, rfl⟩
abbrev main_v65 : Ref sig .tc := ⟨.hbm, 97, rfl⟩
abbrev main_v66 : Ref sig .tc := ⟨.hbm, 98, rfl⟩
abbrev main_c_8 : Ref sig .tc := ⟨.hbm, 99, rfl⟩
abbrev main_call1_cst : Ref sig .tc := ⟨.hbm, 100, rfl⟩
abbrev main_call1_v0 : Ref sig .tc := ⟨.hbm, 101, rfl⟩
abbrev main_call1_v1 : Ref sig .tc := ⟨.hbm, 102, rfl⟩
abbrev main_call1_cst_0 : Ref sig .tc := ⟨.hbm, 103, rfl⟩
abbrev main_call1_v2 : Ref sig .tc := ⟨.hbm, 104, rfl⟩
abbrev main_call1_v3 : Ref sig .tc := ⟨.hbm, 105, rfl⟩
abbrev main_call1_v4 : Ref sig .tc := ⟨.hbm, 106, rfl⟩
abbrev main_call1_v5 : Ref sig .tc := ⟨.hbm, 107, rfl⟩
abbrev main_call1_v6 : Ref sig .tc := ⟨.hbm, 108, rfl⟩
abbrev main_call1_v7 : Ref sig .tc := ⟨.hbm, 109, rfl⟩
abbrev main_call1_cst_1 : Ref sig .tc := ⟨.hbm, 110, rfl⟩
abbrev main_call1_v8 : Ref sig .tc := ⟨.hbm, 111, rfl⟩
abbrev main_call1_cst_2 : Ref sig .tc := ⟨.hbm, 112, rfl⟩
abbrev main_call1_v9 : Ref sig .tc := ⟨.hbm, 113, rfl⟩
abbrev main_call1_v10 : Ref sig .tc := ⟨.hbm, 114, rfl⟩
abbrev main_call1_v11 : Ref sig .tc := ⟨.hbm, 115, rfl⟩
abbrev main_call1_cst_3 : Ref sig .tc := ⟨.hbm, 116, rfl⟩
abbrev main_call1_v12 : Ref sig .tc := ⟨.hbm, 117, rfl⟩
abbrev main_call1_cst_4 : Ref sig .tc := ⟨.hbm, 118, rfl⟩
abbrev main_call1_call0_v0 : Ref sig .tc := ⟨.hbm, 119, rfl⟩
abbrev main_call1_call0_v1 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_cst_9 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_call2_cst : Ref sig .tc := ⟨.hbm, 138, rfl⟩
abbrev main_call2_v0 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_cst_10 : Ref sig .tc := ⟨.hbm, 153, rfl⟩
abbrev main_v96 : Ref sig .tc := ⟨.hbm, 154, rfl⟩
abbrev main_cst_11 : Ref sig .tc := ⟨.hbm, 155, rfl⟩
abbrev main_v97 : Ref sig .tc := ⟨.hbm, 156, rfl⟩
abbrev main_v98 : Ref sig .tc := ⟨.hbm, 157, rfl⟩
abbrev main_c_12 : Ref sig .tc := ⟨.hbm, 158, rfl⟩
abbrev main_call3_cst : Ref sig .tc := ⟨.hbm, 159, rfl⟩
abbrev main_call3_v0 : Ref sig .tc := ⟨.hbm, 160, rfl⟩
abbrev main_call3_v1 : Ref sig .tc := ⟨.hbm, 161, rfl⟩
abbrev main_call3_cst_0 : Ref sig .tc := ⟨.hbm, 162, rfl⟩
abbrev main_call3_v2 : Ref sig .tc := ⟨.hbm, 163, rfl⟩
abbrev main_call3_v3 : Ref sig .tc := ⟨.hbm, 164, rfl⟩
abbrev main_call3_v4 : Ref sig .tc := ⟨.hbm, 165, rfl⟩
abbrev main_call3_v5 : Ref sig .tc := ⟨.hbm, 166, rfl⟩
abbrev main_call3_v6 : Ref sig .tc := ⟨.hbm, 167, rfl⟩
abbrev main_call3_v7 : Ref sig .tc := ⟨.hbm, 168, rfl⟩
abbrev main_call3_cst_1 : Ref sig .tc := ⟨.hbm, 169, rfl⟩
abbrev main_call3_v8 : Ref sig .tc := ⟨.hbm, 170, rfl⟩
abbrev main_call3_cst_2 : Ref sig .tc := ⟨.hbm, 171, rfl⟩
abbrev main_call3_v9 : Ref sig .tc := ⟨.hbm, 172, rfl⟩
abbrev main_call3_v10 : Ref sig .tc := ⟨.hbm, 173, rfl⟩
abbrev main_call3_v11 : Ref sig .tc := ⟨.hbm, 174, rfl⟩
abbrev main_call3_cst_3 : Ref sig .tc := ⟨.hbm, 175, rfl⟩
abbrev main_call3_v12 : Ref sig .tc := ⟨.hbm, 176, rfl⟩
abbrev main_call3_cst_4 : Ref sig .tc := ⟨.hbm, 177, rfl⟩
abbrev main_call3_call0_v0 : Ref sig .tc := ⟨.hbm, 178, rfl⟩
abbrev main_call3_call0_v1 : Ref sig .tc := ⟨.hbm, 179, rfl⟩
abbrev main_v99 : Ref sig .tc := ⟨.hbm, 180, rfl⟩
abbrev main_v100 : Ref sig .tc := ⟨.hbm, 181, rfl⟩
abbrev main_v101 : Ref sig .tc := ⟨.hbm, 182, rfl⟩
abbrev main_v102 : Ref sig .tc := ⟨.hbm, 183, rfl⟩
abbrev main_cst_13 : Ref sig .tc := ⟨.hbm, 184, rfl⟩
abbrev main_v103 : Ref sig .tc := ⟨.hbm, 185, rfl⟩
abbrev main_v104 : Ref sig .tc := ⟨.hbm, 186, rfl⟩
abbrev main_v105 : Ref sig .tc := ⟨.hbm, 187, rfl⟩
abbrev main_v106 : Ref sig .tc := ⟨.hbm, 188, rfl⟩
abbrev main_v107 : Ref sig .tc := ⟨.hbm, 189, rfl⟩
abbrev main_v108 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_v112 : Ref sig .tc := ⟨.hbm, 194, rfl⟩
abbrev main_v113 : Ref sig .tc := ⟨.hbm, 195, rfl⟩
abbrev main_v114 : Ref sig .tc := ⟨.hbm, 196, rfl⟩
abbrev main_call4_cst : Ref sig .tc := ⟨.hbm, 197, rfl⟩
abbrev main_call4_v0 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_v118 : Ref sig .tc := ⟨.hbm, 202, rfl⟩
abbrev main_v119 : Ref sig .tc := ⟨.hbm, 203, rfl⟩
abbrev main_cst_14 : Ref sig .tc := ⟨.hbm, 204, rfl⟩
abbrev main_v120 : Ref sig .tc := ⟨.hbm, 205, rfl⟩
abbrev main_cst_15 : Ref sig .tc := ⟨.hbm, 206, rfl⟩
abbrev main_v121 : Ref sig .tc := ⟨.hbm, 207, rfl⟩
abbrev main_v122 : Ref sig .tc := ⟨.hbm, 208, rfl⟩
abbrev main_c_16 : Ref sig .tc := ⟨.hbm, 209, rfl⟩
abbrev main_call5_cst : Ref sig .tc := ⟨.hbm, 210, rfl⟩
abbrev main_call5_v0 : Ref sig .tc := ⟨.hbm, 211, rfl⟩
abbrev main_call5_v1 : Ref sig .tc := ⟨.hbm, 212, rfl⟩
abbrev main_call5_cst_0 : Ref sig .tc := ⟨.hbm, 213, rfl⟩
abbrev main_call5_v2 : Ref sig .tc := ⟨.hbm, 214, rfl⟩
abbrev main_call5_v3 : Ref sig .tc := ⟨.hbm, 215, rfl⟩
abbrev main_call5_v4 : Ref sig .tc := ⟨.hbm, 216, rfl⟩
abbrev main_call5_v5 : Ref sig .tc := ⟨.hbm, 217, rfl⟩
abbrev main_call5_v6 : Ref sig .tc := ⟨.hbm, 218, rfl⟩
abbrev main_call5_v7 : Ref sig .tc := ⟨.hbm, 219, rfl⟩
abbrev main_call5_cst_1 : Ref sig .tc := ⟨.hbm, 220, rfl⟩
abbrev main_call5_v8 : Ref sig .tc := ⟨.hbm, 221, rfl⟩
abbrev main_call5_cst_2 : Ref sig .tc := ⟨.hbm, 222, rfl⟩
abbrev main_call5_v9 : Ref sig .tc := ⟨.hbm, 223, rfl⟩
abbrev main_call5_v10 : Ref sig .tc := ⟨.hbm, 224, rfl⟩
abbrev main_call5_v11 : Ref sig .tc := ⟨.hbm, 225, rfl⟩
abbrev main_call5_cst_3 : Ref sig .tc := ⟨.hbm, 226, rfl⟩
abbrev main_call5_v12 : Ref sig .tc := ⟨.hbm, 227, rfl⟩
abbrev main_call5_cst_4 : Ref sig .tc := ⟨.hbm, 228, rfl⟩
abbrev main_call5_call0_v0 : Ref sig .tc := ⟨.hbm, 229, rfl⟩
abbrev main_call5_call0_v1 : Ref sig .tc := ⟨.hbm, 230, rfl⟩
abbrev main_v123 : Ref sig .tc := ⟨.hbm, 231, rfl⟩
abbrev main_v124 : Ref sig .tc := ⟨.hbm, 232, rfl⟩
abbrev main_v125 : Ref sig .tc := ⟨.hbm, 233, rfl⟩
abbrev main_v126 : Ref sig .tc := ⟨.hbm, 234, rfl⟩
abbrev main_cst_17 : Ref sig .tc := ⟨.hbm, 235, rfl⟩
abbrev main_v127 : Ref sig .tc := ⟨.hbm, 236, rfl⟩
abbrev main_v128 : Ref sig .tc := ⟨.hbm, 237, rfl⟩
abbrev main_v129 : Ref sig .tc := ⟨.hbm, 238, rfl⟩
abbrev main_v130 : Ref sig .tc := ⟨.hbm, 239, rfl⟩
abbrev main_v131 : Ref sig .tc := ⟨.hbm, 240, rfl⟩
abbrev main_v132 : Ref sig .tc := ⟨.hbm, 241, rfl⟩
abbrev main_v133 : Ref sig .tc := ⟨.hbm, 242, rfl⟩
abbrev main_v134 : Ref sig .tc := ⟨.hbm, 243, rfl⟩
abbrev main_v135 : Ref sig .tc := ⟨.hbm, 244, rfl⟩
abbrev main_v136 : Ref sig .tc := ⟨.hbm, 245, rfl⟩
abbrev main_v137 : Ref sig .tc := ⟨.hbm, 246, rfl⟩
abbrev main_v138 : Ref sig .tc := ⟨.hbm, 247, rfl⟩
abbrev main_call6_cst : Ref sig .tc := ⟨.hbm, 248, rfl⟩
abbrev main_call6_v0 : Ref sig .tc := ⟨.hbm, 249, rfl⟩
abbrev main_v139 : Ref sig .tc := ⟨.hbm, 250, rfl⟩
abbrev main_v140 : Ref sig .tc := ⟨.hbm, 251, rfl⟩
abbrev main_c_18 : Ref sig .tc := ⟨.hbm, 252, rfl⟩
abbrev main_v141 : Ref sig .tc := ⟨.hbm, 253, rfl⟩
abbrev main_v142 : Ref sig .tc := ⟨.hbm, 254, rfl⟩
abbrev main_c_19 : Ref sig .tc := ⟨.hbm, 255, rfl⟩
abbrev main_v143 : Ref sig .tc := ⟨.hbm, 256, rfl⟩
abbrev main_v144 : Ref sig .tc := ⟨.hbm, 257, rfl⟩
abbrev main_v145 : Ref sig .tc := ⟨.hbm, 258, rfl⟩
abbrev main_v146 : Ref sig .tc := ⟨.hbm, 259, rfl⟩
abbrev main_v147 : Ref sig .tc := ⟨.hbm, 260, rfl⟩
abbrev main_c_20 : Ref sig .tc := ⟨.hbm, 261, rfl⟩
abbrev main_v148 : Ref sig .tc := ⟨.hbm, 262, rfl⟩
abbrev main_v149 : Ref sig .tc := ⟨.hbm, 263, rfl⟩
abbrev main_c_21 : Ref sig .tc := ⟨.hbm, 264, rfl⟩
abbrev main_v150 : Ref sig .tc := ⟨.hbm, 265, rfl⟩
abbrev main_v151 : Ref sig .tc := ⟨.hbm, 266, rfl⟩
abbrev main_v152 : Ref sig .tc := ⟨.hbm, 267, rfl⟩
abbrev main_v153 : Ref sig .tc := ⟨.hbm, 268, rfl⟩
abbrev main_v154 : Ref sig .tc := ⟨.hbm, 269, rfl⟩
abbrev main_v155 : Ref sig .tc := ⟨.hbm, 270, rfl⟩
abbrev main_v156 : Ref sig .tc := ⟨.hbm, 271, rfl⟩
abbrev main_v157 : Ref sig .tc := ⟨.hbm, 272, rfl⟩
abbrev main_v158 : Ref sig .tc := ⟨.hbm, 273, rfl⟩
abbrev main_v159 : Ref sig .tc := ⟨.hbm, 274, rfl⟩
abbrev main_v160 : Ref sig .tc := ⟨.hbm, 275, rfl⟩
abbrev main_v161 : Ref sig .tc := ⟨.hbm, 276, rfl⟩
abbrev main_v162 : Ref sig .tc := ⟨.hbm, 277, rfl⟩
abbrev main_v163 : Ref sig .tc := ⟨.hbm, 278, rfl⟩
abbrev main_call7_cst : Ref sig .tc := ⟨.hbm, 279, rfl⟩
abbrev main_call7_v0 : Ref sig .tc := ⟨.hbm, 280, rfl⟩
abbrev main_v164 : Ref sig .tc := ⟨.hbm, 281, rfl⟩
abbrev main_v165 : Ref sig .tc := ⟨.hbm, 282, rfl⟩
abbrev main_v166 : Ref sig .tc := ⟨.hbm, 283, rfl⟩
abbrev main_v167 : Ref sig .tc := ⟨.hbm, 284, rfl⟩
abbrev main_v168 : Ref sig .tc := ⟨.hbm, 285, rfl⟩
abbrev main_v169 : Ref sig .tc := ⟨.hbm, 286, rfl⟩
abbrev main_v170 : Ref sig .tc := ⟨.hbm, 287, rfl⟩
abbrev main_v171 : Ref sig .tc := ⟨.hbm, 288, rfl⟩
abbrev main_v172 : Ref sig .tc := ⟨.hbm, 289, rfl⟩
abbrev main_v173 : Ref sig .tc := ⟨.hbm, 290, rfl⟩
abbrev main_c_22 : Ref sig .tc := ⟨.hbm, 291, rfl⟩
abbrev main_v174 : Ref sig .tc := ⟨.hbm, 292, rfl⟩
abbrev main_v175 : Ref sig .tc := ⟨.hbm, 293, rfl⟩
abbrev main_c_23 : Ref sig .tc := ⟨.hbm, 294, rfl⟩
abbrev main_v176 : Ref sig .tc := ⟨.hbm, 295, rfl⟩
abbrev main_v177 : Ref sig .tc := ⟨.hbm, 296, rfl⟩
abbrev main_v178 : Ref sig .tc := ⟨.hbm, 297, rfl⟩
abbrev main_v179 : Ref sig .tc := ⟨.hbm, 298, rfl⟩
abbrev main_v180 : Ref sig .tc := ⟨.hbm, 299, rfl⟩
abbrev main_cst_24 : Ref sig .tc := ⟨.hbm, 300, rfl⟩
abbrev main_v181 : Ref sig .tc := ⟨.hbm, 301, rfl⟩
abbrev main_v182 : Ref sig .tc := ⟨.hbm, 302, rfl⟩
abbrev main_v183 : Ref sig .tc := ⟨.hbm, 303, rfl⟩
abbrev main_v184 : Ref sig .tc := ⟨.hbm, 304, rfl⟩
abbrev main_v185 : Ref sig .tc := ⟨.hbm, 305, rfl⟩
abbrev main_cst_25 : Ref sig .tc := ⟨.hbm, 306, rfl⟩
abbrev main_v186 : Ref sig .tc := ⟨.hbm, 307, rfl⟩
abbrev main_v187 : Ref sig .tc := ⟨.hbm, 308, rfl⟩
abbrev main_v188 : Ref sig .tc := ⟨.hbm, 309, rfl⟩
abbrev main_v189 : Ref sig .tc := ⟨.hbm, 310, rfl⟩
abbrev main_v190 : Ref sig .tc := ⟨.hbm, 311, rfl⟩
abbrev main_v191 : Ref sig .tc := ⟨.hbm, 312, rfl⟩
abbrev main_v192 : Ref sig .tc := ⟨.hbm, 313, rfl⟩
abbrev main_v193 : Ref sig .tc := ⟨.hbm, 314, rfl⟩
abbrev main_v194 : Ref sig .tc := ⟨.hbm, 315, rfl⟩
abbrev main_v195 : Ref sig .tc := ⟨.hbm, 316, rfl⟩
abbrev main_v196 : Ref sig .tc := ⟨.hbm, 317, rfl⟩
abbrev main_v197 : Ref sig .tc := ⟨.hbm, 318, rfl⟩
abbrev main_v198 : Ref sig .tc := ⟨.hbm, 319, rfl⟩
abbrev main_v199 : Ref sig .tc := ⟨.hbm, 320, rfl⟩
abbrev main_v200 : Ref sig .tc := ⟨.hbm, 321, rfl⟩
abbrev main_v201 : Ref sig .tc := ⟨.hbm, 322, rfl⟩
abbrev main_cst_26 : Ref sig .tc := ⟨.hbm, 323, rfl⟩
abbrev main_v202 : Ref sig .tc := ⟨.hbm, 324, rfl⟩
abbrev main_cst_27 : Ref sig .tc := ⟨.hbm, 325, rfl⟩
abbrev main_v203 : Ref sig .tc := ⟨.hbm, 326, rfl⟩
abbrev main_v204 : Ref sig .tc := ⟨.hbm, 327, rfl⟩
abbrev main_c_28 : Ref sig .tc := ⟨.hbm, 328, rfl⟩
abbrev main_call8_cst : Ref sig .tc := ⟨.hbm, 329, rfl⟩
abbrev main_call8_v0 : Ref sig .tc := ⟨.hbm, 330, rfl⟩
abbrev main_call8_v1 : Ref sig .tc := ⟨.hbm, 331, rfl⟩
abbrev main_call8_cst_0 : Ref sig .tc := ⟨.hbm, 332, rfl⟩
abbrev main_call8_v2 : Ref sig .tc := ⟨.hbm, 333, rfl⟩
abbrev main_call8_v3 : Ref sig .tc := ⟨.hbm, 334, rfl⟩
abbrev main_call8_v4 : Ref sig .tc := ⟨.hbm, 335, rfl⟩
abbrev main_call8_v5 : Ref sig .tc := ⟨.hbm, 336, rfl⟩
abbrev main_call8_v6 : Ref sig .tc := ⟨.hbm, 337, rfl⟩
abbrev main_call8_v7 : Ref sig .tc := ⟨.hbm, 338, rfl⟩
abbrev main_call8_cst_1 : Ref sig .tc := ⟨.hbm, 339, rfl⟩
abbrev main_call8_v8 : Ref sig .tc := ⟨.hbm, 340, rfl⟩
abbrev main_call8_cst_2 : Ref sig .tc := ⟨.hbm, 341, rfl⟩
abbrev main_call8_v9 : Ref sig .tc := ⟨.hbm, 342, rfl⟩
abbrev main_call8_v10 : Ref sig .tc := ⟨.hbm, 343, rfl⟩
abbrev main_call8_v11 : Ref sig .tc := ⟨.hbm, 344, rfl⟩
abbrev main_call8_cst_3 : Ref sig .tc := ⟨.hbm, 345, rfl⟩
abbrev main_call8_v12 : Ref sig .tc := ⟨.hbm, 346, rfl⟩
abbrev main_call8_cst_4 : Ref sig .tc := ⟨.hbm, 347, rfl⟩
abbrev main_call8_call0_v0 : Ref sig .tc := ⟨.hbm, 348, rfl⟩
abbrev main_call8_call0_v1 : Ref sig .tc := ⟨.hbm, 349, rfl⟩
abbrev main_v205 : Ref sig .tc := ⟨.hbm, 350, rfl⟩
abbrev main_v206 : Ref sig .tc := ⟨.hbm, 351, rfl⟩
abbrev main_v207 : Ref sig .tc := ⟨.hbm, 352, rfl⟩
abbrev main_v208 : Ref sig .tc := ⟨.hbm, 353, rfl⟩
abbrev main_cst_29 : Ref sig .tc := ⟨.hbm, 354, rfl⟩
abbrev main_v209 : Ref sig .tc := ⟨.hbm, 355, rfl⟩
abbrev main_v210 : Ref sig .tc := ⟨.hbm, 356, rfl⟩
abbrev main_v211 : Ref sig .tc := ⟨.hbm, 357, rfl⟩
abbrev main_v212 : Ref sig .tc := ⟨.hbm, 358, rfl⟩
abbrev main_v213 : Ref sig .tc := ⟨.hbm, 359, rfl⟩
abbrev main_v214 : Ref sig .tc := ⟨.hbm, 360, rfl⟩
abbrev main_v215 : Ref sig .tc := ⟨.hbm, 361, rfl⟩
abbrev main_v216 : Ref sig .tc := ⟨.hbm, 362, rfl⟩
abbrev main_v217 : Ref sig .tc := ⟨.hbm, 363, rfl⟩
abbrev main_v218 : Ref sig .tc := ⟨.hbm, 364, rfl⟩
abbrev main_v219 : Ref sig .tc := ⟨.hbm, 365, rfl⟩
abbrev main_v220 : Ref sig .tc := ⟨.hbm, 366, rfl⟩
abbrev main_call9_cst : Ref sig .tc := ⟨.hbm, 367, rfl⟩
abbrev main_call9_v0 : Ref sig .tc := ⟨.hbm, 368, rfl⟩
abbrev main_v221 : Ref sig .tc := ⟨.hbm, 369, rfl⟩
abbrev main_v222 : Ref sig .tc := ⟨.hbm, 370, rfl⟩
abbrev main_v223 : Ref sig .tc := ⟨.hbm, 371, rfl⟩
abbrev main_v224 : Ref sig .tc := ⟨.hbm, 372, rfl⟩
abbrev main_v225 : Ref sig .tc := ⟨.hbm, 373, rfl⟩
abbrev main_v226 : Ref sig .tc := ⟨.hbm, 374, rfl⟩
abbrev main_v227 : Ref sig .tc := ⟨.hbm, 375, rfl⟩
abbrev main_v228 : Ref sig .tc := ⟨.hbm, 376, rfl⟩
abbrev main_v229 : Ref sig .tc := ⟨.hbm, 377, rfl⟩
abbrev main_v230 : Ref sig .tc := ⟨.hbm, 378, rfl⟩
abbrev main_v231 : Ref sig .tc := ⟨.hbm, 379, rfl⟩
abbrev main_v232 : Ref sig .tc := ⟨.hbm, 380, rfl⟩
abbrev main_v233 : Ref sig .tc := ⟨.hbm, 381, rfl⟩
abbrev main_cst_30 : Ref sig .tc := ⟨.hbm, 382, rfl⟩
abbrev main_v234 : Ref sig .tc := ⟨.hbm, 383, rfl⟩
abbrev main_cst_31 : Ref sig .tc := ⟨.hbm, 384, rfl⟩
abbrev main_v235 : Ref sig .tc := ⟨.hbm, 385, rfl⟩
abbrev main_v236 : Ref sig .tc := ⟨.hbm, 386, rfl⟩
abbrev main_c_32 : Ref sig .tc := ⟨.hbm, 387, rfl⟩
abbrev main_call10_cst : Ref sig .tc := ⟨.hbm, 388, rfl⟩
abbrev main_call10_v0 : Ref sig .tc := ⟨.hbm, 389, rfl⟩
abbrev main_call10_v1 : Ref sig .tc := ⟨.hbm, 390, rfl⟩
abbrev main_call10_cst_0 : Ref sig .tc := ⟨.hbm, 391, rfl⟩
abbrev main_call10_v2 : Ref sig .tc := ⟨.hbm, 392, rfl⟩
abbrev main_call10_v3 : Ref sig .tc := ⟨.hbm, 393, rfl⟩
abbrev main_call10_v4 : Ref sig .tc := ⟨.hbm, 394, rfl⟩
abbrev main_call10_v5 : Ref sig .tc := ⟨.hbm, 395, rfl⟩
abbrev main_call10_v6 : Ref sig .tc := ⟨.hbm, 396, rfl⟩
abbrev main_call10_v7 : Ref sig .tc := ⟨.hbm, 397, rfl⟩
abbrev main_call10_cst_1 : Ref sig .tc := ⟨.hbm, 398, rfl⟩
abbrev main_call10_v8 : Ref sig .tc := ⟨.hbm, 399, rfl⟩
abbrev main_call10_cst_2 : Ref sig .tc := ⟨.hbm, 400, rfl⟩
abbrev main_call10_v9 : Ref sig .tc := ⟨.hbm, 401, rfl⟩
abbrev main_call10_v10 : Ref sig .tc := ⟨.hbm, 402, rfl⟩
abbrev main_call10_v11 : Ref sig .tc := ⟨.hbm, 403, rfl⟩
abbrev main_call10_cst_3 : Ref sig .tc := ⟨.hbm, 404, rfl⟩
abbrev main_call10_v12 : Ref sig .tc := ⟨.hbm, 405, rfl⟩
abbrev main_call10_cst_4 : Ref sig .tc := ⟨.hbm, 406, rfl⟩
abbrev main_call10_call0_v0 : Ref sig .tc := ⟨.hbm, 407, rfl⟩
abbrev main_call10_call0_v1 : Ref sig .tc := ⟨.hbm, 408, rfl⟩
abbrev main_v237 : Ref sig .tc := ⟨.hbm, 409, rfl⟩
abbrev main_v238 : Ref sig .tc := ⟨.hbm, 410, rfl⟩
abbrev main_v239 : Ref sig .tc := ⟨.hbm, 411, rfl⟩
abbrev main_v240 : Ref sig .tc := ⟨.hbm, 412, rfl⟩
abbrev main_cst_33 : Ref sig .tc := ⟨.hbm, 413, rfl⟩
abbrev main_v241 : Ref sig .tc := ⟨.hbm, 414, rfl⟩
abbrev main_v242 : Ref sig .tc := ⟨.hbm, 415, rfl⟩
abbrev main_v243 : Ref sig .tc := ⟨.hbm, 416, rfl⟩
abbrev main_v244 : Ref sig .tc := ⟨.hbm, 417, rfl⟩
abbrev main_v245 : Ref sig .tc := ⟨.hbm, 418, rfl⟩
abbrev main_v246 : Ref sig .tc := ⟨.hbm, 419, rfl⟩
abbrev main_v247 : Ref sig .tc := ⟨.hbm, 420, rfl⟩
abbrev main_v248 : Ref sig .tc := ⟨.hbm, 421, rfl⟩
abbrev main_v249 : Ref sig .tc := ⟨.hbm, 422, rfl⟩
abbrev main_v250 : Ref sig .tc := ⟨.hbm, 423, rfl⟩
abbrev main_v251 : Ref sig .tc := ⟨.hbm, 424, rfl⟩
abbrev main_v252 : Ref sig .tc := ⟨.hbm, 425, rfl⟩
abbrev main_call11_cst : Ref sig .tc := ⟨.hbm, 426, rfl⟩
abbrev main_call11_v0 : Ref sig .tc := ⟨.hbm, 427, rfl⟩
abbrev main_v253 : Ref sig .tc := ⟨.hbm, 428, rfl⟩
abbrev main_v254 : Ref sig .tc := ⟨.hbm, 429, rfl⟩
abbrev main_v255 : Ref sig .tc := ⟨.hbm, 430, rfl⟩
abbrev main_v256 : Ref sig .tc := ⟨.hbm, 431, rfl⟩
abbrev main_v257 : Ref sig .tc := ⟨.hbm, 432, rfl⟩
abbrev main_cst_34 : Ref sig .tc := ⟨.hbm, 433, rfl⟩
abbrev main_v258 : Ref sig .tc := ⟨.hbm, 434, rfl⟩
abbrev main_cst_35 : Ref sig .tc := ⟨.hbm, 435, rfl⟩
abbrev main_v259 : Ref sig .tc := ⟨.hbm, 436, rfl⟩
abbrev main_v260 : Ref sig .tc := ⟨.hbm, 437, rfl⟩
abbrev main_c_36 : Ref sig .tc := ⟨.hbm, 438, rfl⟩
abbrev main_call12_cst : Ref sig .tc := ⟨.hbm, 439, rfl⟩
abbrev main_call12_v0 : Ref sig .tc := ⟨.hbm, 440, rfl⟩
abbrev main_call12_v1 : Ref sig .tc := ⟨.hbm, 441, rfl⟩
abbrev main_call12_cst_0 : Ref sig .tc := ⟨.hbm, 442, rfl⟩
abbrev main_call12_v2 : Ref sig .tc := ⟨.hbm, 443, rfl⟩
abbrev main_call12_v3 : Ref sig .tc := ⟨.hbm, 444, rfl⟩
abbrev main_call12_v4 : Ref sig .tc := ⟨.hbm, 445, rfl⟩
abbrev main_call12_v5 : Ref sig .tc := ⟨.hbm, 446, rfl⟩
abbrev main_call12_v6 : Ref sig .tc := ⟨.hbm, 447, rfl⟩
abbrev main_call12_v7 : Ref sig .tc := ⟨.hbm, 448, rfl⟩
abbrev main_call12_cst_1 : Ref sig .tc := ⟨.hbm, 449, rfl⟩
abbrev main_call12_v8 : Ref sig .tc := ⟨.hbm, 450, rfl⟩
abbrev main_call12_cst_2 : Ref sig .tc := ⟨.hbm, 451, rfl⟩
abbrev main_call12_v9 : Ref sig .tc := ⟨.hbm, 452, rfl⟩
abbrev main_call12_v10 : Ref sig .tc := ⟨.hbm, 453, rfl⟩
abbrev main_call12_v11 : Ref sig .tc := ⟨.hbm, 454, rfl⟩
abbrev main_call12_cst_3 : Ref sig .tc := ⟨.hbm, 455, rfl⟩
abbrev main_call12_v12 : Ref sig .tc := ⟨.hbm, 456, rfl⟩
abbrev main_call12_cst_4 : Ref sig .tc := ⟨.hbm, 457, rfl⟩
abbrev main_call12_call0_v0 : Ref sig .tc := ⟨.hbm, 458, rfl⟩
abbrev main_call12_call0_v1 : Ref sig .tc := ⟨.hbm, 459, rfl⟩
abbrev main_v261 : Ref sig .tc := ⟨.hbm, 460, rfl⟩
abbrev main_v262 : Ref sig .tc := ⟨.hbm, 461, rfl⟩
abbrev main_v263 : Ref sig .tc := ⟨.hbm, 462, rfl⟩
abbrev main_v264 : Ref sig .tc := ⟨.hbm, 463, rfl⟩
abbrev main_cst_37 : Ref sig .tc := ⟨.hbm, 464, rfl⟩
abbrev main_v265 : Ref sig .tc := ⟨.hbm, 465, rfl⟩
abbrev main_v266 : Ref sig .tc := ⟨.hbm, 466, rfl⟩
abbrev main_v267 : Ref sig .tc := ⟨.hbm, 467, rfl⟩
abbrev main_v268 : Ref sig .tc := ⟨.hbm, 468, rfl⟩
abbrev main_v269 : Ref sig .tc := ⟨.hbm, 469, rfl⟩
abbrev main_v270 : Ref sig .tc := ⟨.hbm, 470, rfl⟩
abbrev main_v271 : Ref sig .tc := ⟨.hbm, 471, rfl⟩
abbrev main_v272 : Ref sig .tc := ⟨.hbm, 472, rfl⟩
abbrev main_v273 : Ref sig .tc := ⟨.hbm, 473, rfl⟩
abbrev main_v274 : Ref sig .tc := ⟨.hbm, 474, rfl⟩
abbrev main_v275 : Ref sig .tc := ⟨.hbm, 475, rfl⟩
abbrev main_v276 : Ref sig .tc := ⟨.hbm, 476, rfl⟩
abbrev main_call13_cst : Ref sig .tc := ⟨.hbm, 477, rfl⟩
abbrev main_call13_v0 : Ref sig .tc := ⟨.hbm, 478, rfl⟩
abbrev main_v277 : Ref sig .tc := ⟨.hbm, 479, rfl⟩
abbrev main_v278 : Ref sig .tc := ⟨.hbm, 480, rfl⟩
abbrev main_c_38 : Ref sig .tc := ⟨.hbm, 481, rfl⟩
abbrev main_v279 : Ref sig .tc := ⟨.hbm, 482, rfl⟩
abbrev main_v280 : Ref sig .tc := ⟨.hbm, 483, rfl⟩
abbrev main_c_39 : Ref sig .tc := ⟨.hbm, 484, rfl⟩
abbrev main_v281 : Ref sig .tc := ⟨.hbm, 485, rfl⟩
abbrev main_v282 : Ref sig .tc := ⟨.hbm, 486, rfl⟩
abbrev main_v283 : Ref sig .tc := ⟨.hbm, 487, rfl⟩
abbrev main_v284 : Ref sig .tc := ⟨.hbm, 488, rfl⟩
abbrev main_v285 : Ref sig .tc := ⟨.hbm, 489, rfl⟩
abbrev main_c_40 : Ref sig .tc := ⟨.hbm, 490, rfl⟩
abbrev main_v286 : Ref sig .tc := ⟨.hbm, 491, rfl⟩
abbrev main_v287 : Ref sig .tc := ⟨.hbm, 492, rfl⟩
abbrev main_c_41 : Ref sig .tc := ⟨.hbm, 493, rfl⟩
abbrev main_v288 : Ref sig .tc := ⟨.hbm, 494, rfl⟩
abbrev main_v289 : Ref sig .tc := ⟨.hbm, 495, rfl⟩
abbrev main_v290 : Ref sig .tc := ⟨.hbm, 496, rfl⟩
abbrev main_v291 : Ref sig .tc := ⟨.hbm, 497, rfl⟩
abbrev main_v292 : Ref sig .tc := ⟨.hbm, 498, rfl⟩
abbrev main_v293 : Ref sig .tc := ⟨.hbm, 499, rfl⟩
abbrev main_v294 : Ref sig .tc := ⟨.hbm, 500, rfl⟩
abbrev main_v295 : Ref sig .tc := ⟨.hbm, 501, rfl⟩
abbrev main_v296 : Ref sig .tc := ⟨.hbm, 502, rfl⟩
abbrev main_v297 : Ref sig .tc := ⟨.hbm, 503, rfl⟩
abbrev main_v298 : Ref sig .tc := ⟨.hbm, 504, rfl⟩
abbrev main_v299 : Ref sig .tc := ⟨.hbm, 505, rfl⟩
abbrev main_v300 : Ref sig .tc := ⟨.hbm, 506, rfl⟩
abbrev main_v301 : Ref sig .tc := ⟨.hbm, 507, rfl⟩
abbrev main_call14_cst : Ref sig .tc := ⟨.hbm, 508, rfl⟩
abbrev main_call14_v0 : Ref sig .tc := ⟨.hbm, 509, rfl⟩
abbrev main_v302 : Ref sig .tc := ⟨.hbm, 510, rfl⟩
abbrev main_v303 : Ref sig .tc := ⟨.hbm, 511, rfl⟩
abbrev main_v304 : Ref sig .tc := ⟨.hbm, 512, rfl⟩
abbrev main_v305 : Ref sig .tc := ⟨.hbm, 513, rfl⟩
abbrev main_v306 : Ref sig .tc := ⟨.hbm, 514, rfl⟩
abbrev main_v307 : Ref sig .tc := ⟨.hbm, 515, rfl⟩
abbrev main_v308 : Ref sig .tc := ⟨.hbm, 516, rfl⟩
abbrev main_v309 : Ref sig .tc := ⟨.hbm, 517, rfl⟩
abbrev main_v310 : Ref sig .tc := ⟨.hbm, 518, rfl⟩
abbrev main_v311 : Ref sig .tc := ⟨.hbm, 519, rfl⟩
abbrev main_c_42 : Ref sig .tc := ⟨.hbm, 520, rfl⟩
abbrev main_v312 : Ref sig .tc := ⟨.hbm, 521, rfl⟩
abbrev main_v313 : Ref sig .tc := ⟨.hbm, 522, rfl⟩
abbrev main_c_43 : Ref sig .tc := ⟨.hbm, 523, rfl⟩
abbrev main_v314 : Ref sig .tc := ⟨.hbm, 524, rfl⟩
abbrev main_v315 : Ref sig .tc := ⟨.hbm, 525, rfl⟩
abbrev main_v316 : Ref sig .tc := ⟨.hbm, 526, rfl⟩
abbrev main_v317 : Ref sig .tc := ⟨.hbm, 527, rfl⟩
abbrev main_v318 : Ref sig .tc := ⟨.hbm, 528, rfl⟩
abbrev main_cst_44 : Ref sig .tc := ⟨.hbm, 529, rfl⟩
abbrev main_v319 : Ref sig .tc := ⟨.hbm, 530, rfl⟩
abbrev main_v320 : Ref sig .tc := ⟨.hbm, 531, rfl⟩
abbrev main_v321 : Ref sig .tc := ⟨.hbm, 532, rfl⟩
abbrev main_v322 : Ref sig .tc := ⟨.hbm, 533, rfl⟩
abbrev main_v323 : Ref sig .tc := ⟨.hbm, 534, rfl⟩
abbrev main_cst_45 : Ref sig .tc := ⟨.hbm, 535, rfl⟩
abbrev main_v324 : Ref sig .tc := ⟨.hbm, 536, rfl⟩
abbrev main_v325 : Ref sig .tc := ⟨.hbm, 537, rfl⟩
abbrev main_v326 : Ref sig .tc := ⟨.hbm, 538, rfl⟩
abbrev main_v327 : Ref sig .tc := ⟨.hbm, 539, rfl⟩
abbrev main_v328 : Ref sig .tc := ⟨.hbm, 540, rfl⟩
abbrev main_v329 : Ref sig .tc := ⟨.hbm, 541, rfl⟩
abbrev main_v330 : Ref sig .tc := ⟨.hbm, 542, rfl⟩
abbrev main_v331 : Ref sig .tc := ⟨.hbm, 543, rfl⟩
abbrev main_v332 : Ref sig .tc := ⟨.hbm, 544, rfl⟩
abbrev main_v333 : Ref sig .tc := ⟨.hbm, 545, rfl⟩
abbrev main_v334 : Ref sig .tc := ⟨.hbm, 546, rfl⟩
abbrev main_v335 : Ref sig .tc := ⟨.hbm, 547, rfl⟩
abbrev main_v336 : Ref sig .tc := ⟨.hbm, 548, rfl⟩
abbrev main_v337 : Ref sig .tc := ⟨.hbm, 549, rfl⟩
abbrev main_v338 : Ref sig .tc := ⟨.hbm, 550, rfl⟩
abbrev main_v339 : Ref sig .tc := ⟨.hbm, 551, rfl⟩
abbrev main_cst_46 : Ref sig .tc := ⟨.hbm, 552, rfl⟩
abbrev main_v340 : Ref sig .tc := ⟨.hbm, 553, rfl⟩
abbrev main_cst_47 : Ref sig .tc := ⟨.hbm, 554, rfl⟩
abbrev main_v341 : Ref sig .tc := ⟨.hbm, 555, rfl⟩
abbrev main_v342 : Ref sig .tc := ⟨.hbm, 556, rfl⟩
abbrev main_c_48 : Ref sig .tc := ⟨.hbm, 557, rfl⟩
abbrev main_call15_cst : Ref sig .tc := ⟨.hbm, 558, rfl⟩
abbrev main_call15_v0 : Ref sig .tc := ⟨.hbm, 559, rfl⟩
abbrev main_call15_v1 : Ref sig .tc := ⟨.hbm, 560, rfl⟩
abbrev main_call15_cst_0 : Ref sig .tc := ⟨.hbm, 561, rfl⟩
abbrev main_call15_v2 : Ref sig .tc := ⟨.hbm, 562, rfl⟩
abbrev main_call15_v3 : Ref sig .tc := ⟨.hbm, 563, rfl⟩
abbrev main_call15_v4 : Ref sig .tc := ⟨.hbm, 564, rfl⟩
abbrev main_call15_v5 : Ref sig .tc := ⟨.hbm, 565, rfl⟩
abbrev main_call15_v6 : Ref sig .tc := ⟨.hbm, 566, rfl⟩
abbrev main_call15_v7 : Ref sig .tc := ⟨.hbm, 567, rfl⟩
abbrev main_call15_cst_1 : Ref sig .tc := ⟨.hbm, 568, rfl⟩
abbrev main_call15_v8 : Ref sig .tc := ⟨.hbm, 569, rfl⟩
abbrev main_call15_cst_2 : Ref sig .tc := ⟨.hbm, 570, rfl⟩
abbrev main_call15_v9 : Ref sig .tc := ⟨.hbm, 571, rfl⟩
abbrev main_call15_v10 : Ref sig .tc := ⟨.hbm, 572, rfl⟩
abbrev main_call15_v11 : Ref sig .tc := ⟨.hbm, 573, rfl⟩
abbrev main_call15_cst_3 : Ref sig .tc := ⟨.hbm, 574, rfl⟩
abbrev main_call15_v12 : Ref sig .tc := ⟨.hbm, 575, rfl⟩
abbrev main_call15_cst_4 : Ref sig .tc := ⟨.hbm, 576, rfl⟩
abbrev main_call15_call0_v0 : Ref sig .tc := ⟨.hbm, 577, rfl⟩
abbrev main_call15_call0_v1 : Ref sig .tc := ⟨.hbm, 578, rfl⟩
abbrev main_v343 : Ref sig .tc := ⟨.hbm, 579, rfl⟩
abbrev main_v344 : Ref sig .tc := ⟨.hbm, 580, rfl⟩
abbrev main_v345 : Ref sig .tc := ⟨.hbm, 581, rfl⟩
abbrev main_v346 : Ref sig .tc := ⟨.hbm, 582, rfl⟩
abbrev main_cst_49 : Ref sig .tc := ⟨.hbm, 583, rfl⟩
abbrev main_v347 : Ref sig .tc := ⟨.hbm, 584, rfl⟩
abbrev main_v348 : Ref sig .tc := ⟨.hbm, 585, rfl⟩
abbrev main_v349 : Ref sig .tc := ⟨.hbm, 586, rfl⟩
abbrev main_v350 : Ref sig .tc := ⟨.hbm, 587, rfl⟩
abbrev main_v351 : Ref sig .tc := ⟨.hbm, 588, rfl⟩
abbrev main_v352 : Ref sig .tc := ⟨.hbm, 589, rfl⟩
abbrev main_v353 : Ref sig .tc := ⟨.hbm, 590, rfl⟩
abbrev main_v354 : Ref sig .tc := ⟨.hbm, 591, rfl⟩
abbrev main_v355 : Ref sig .tc := ⟨.hbm, 592, rfl⟩
abbrev main_v356 : Ref sig .tc := ⟨.hbm, 593, rfl⟩
abbrev main_v357 : Ref sig .tc := ⟨.hbm, 594, rfl⟩
abbrev main_v358 : Ref sig .tc := ⟨.hbm, 595, rfl⟩
abbrev main_call16_cst : Ref sig .tc := ⟨.hbm, 596, rfl⟩
abbrev main_call16_v0 : Ref sig .tc := ⟨.hbm, 597, rfl⟩
abbrev main_v359 : Ref sig .tc := ⟨.hbm, 598, rfl⟩
abbrev main_v360 : Ref sig .tc := ⟨.hbm, 599, rfl⟩
abbrev main_v361 : Ref sig .tc := ⟨.hbm, 600, rfl⟩
abbrev main_v362 : Ref sig .tc := ⟨.hbm, 601, rfl⟩
abbrev main_v363 : Ref sig .tc := ⟨.hbm, 602, rfl⟩
abbrev main_v364 : Ref sig .tc := ⟨.hbm, 603, rfl⟩
abbrev main_v365 : Ref sig .tc := ⟨.hbm, 604, rfl⟩
abbrev main_v366 : Ref sig .tc := ⟨.hbm, 605, rfl⟩
abbrev main_v367 : Ref sig .tc := ⟨.hbm, 606, rfl⟩
abbrev main_v368 : Ref sig .tc := ⟨.hbm, 607, rfl⟩
abbrev main_v369 : Ref sig .tc := ⟨.hbm, 608, rfl⟩
abbrev main_v370 : Ref sig .tc := ⟨.hbm, 609, rfl⟩
abbrev main_v371 : Ref sig .tc := ⟨.hbm, 610, rfl⟩
abbrev main_cst_50 : Ref sig .tc := ⟨.hbm, 611, rfl⟩
abbrev main_v372 : Ref sig .tc := ⟨.hbm, 612, rfl⟩
abbrev main_cst_51 : Ref sig .tc := ⟨.hbm, 613, rfl⟩
abbrev main_v373 : Ref sig .tc := ⟨.hbm, 614, rfl⟩
abbrev main_v374 : Ref sig .tc := ⟨.hbm, 615, rfl⟩
abbrev main_c_52 : Ref sig .tc := ⟨.hbm, 616, rfl⟩
abbrev main_call17_cst : Ref sig .tc := ⟨.hbm, 617, rfl⟩
abbrev main_call17_v0 : Ref sig .tc := ⟨.hbm, 618, rfl⟩
abbrev main_call17_v1 : Ref sig .tc := ⟨.hbm, 619, rfl⟩
abbrev main_call17_cst_0 : Ref sig .tc := ⟨.hbm, 620, rfl⟩
abbrev main_call17_v2 : Ref sig .tc := ⟨.hbm, 621, rfl⟩
abbrev main_call17_v3 : Ref sig .tc := ⟨.hbm, 622, rfl⟩
abbrev main_call17_v4 : Ref sig .tc := ⟨.hbm, 623, rfl⟩
abbrev main_call17_v5 : Ref sig .tc := ⟨.hbm, 624, rfl⟩
abbrev main_call17_v6 : Ref sig .tc := ⟨.hbm, 625, rfl⟩
abbrev main_call17_v7 : Ref sig .tc := ⟨.hbm, 626, rfl⟩
abbrev main_call17_cst_1 : Ref sig .tc := ⟨.hbm, 627, rfl⟩
abbrev main_call17_v8 : Ref sig .tc := ⟨.hbm, 628, rfl⟩
abbrev main_call17_cst_2 : Ref sig .tc := ⟨.hbm, 629, rfl⟩
abbrev main_call17_v9 : Ref sig .tc := ⟨.hbm, 630, rfl⟩
abbrev main_call17_v10 : Ref sig .tc := ⟨.hbm, 631, rfl⟩
abbrev main_call17_v11 : Ref sig .tc := ⟨.hbm, 632, rfl⟩
abbrev main_call17_cst_3 : Ref sig .tc := ⟨.hbm, 633, rfl⟩
abbrev main_call17_v12 : Ref sig .tc := ⟨.hbm, 634, rfl⟩
abbrev main_call17_cst_4 : Ref sig .tc := ⟨.hbm, 635, rfl⟩
abbrev main_call17_call0_v0 : Ref sig .tc := ⟨.hbm, 636, rfl⟩
abbrev main_call17_call0_v1 : Ref sig .tc := ⟨.hbm, 637, rfl⟩
abbrev main_v375 : Ref sig .tc := ⟨.hbm, 638, rfl⟩
abbrev main_v376 : Ref sig .tc := ⟨.hbm, 639, rfl⟩
abbrev main_v377 : Ref sig .tc := ⟨.hbm, 640, rfl⟩
abbrev main_v378 : Ref sig .tc := ⟨.hbm, 641, rfl⟩
abbrev main_cst_53 : Ref sig .tc := ⟨.hbm, 642, rfl⟩
abbrev main_v379 : Ref sig .tc := ⟨.hbm, 643, rfl⟩
abbrev main_v380 : Ref sig .tc := ⟨.hbm, 644, rfl⟩
abbrev main_v381 : Ref sig .tc := ⟨.hbm, 645, rfl⟩
abbrev main_v382 : Ref sig .tc := ⟨.hbm, 646, rfl⟩
abbrev main_v383 : Ref sig .tc := ⟨.hbm, 647, rfl⟩
abbrev main_v384 : Ref sig .tc := ⟨.hbm, 648, rfl⟩
abbrev main_v385 : Ref sig .tc := ⟨.hbm, 649, rfl⟩
abbrev main_v386 : Ref sig .tc := ⟨.hbm, 650, rfl⟩
abbrev main_v387 : Ref sig .tc := ⟨.hbm, 651, rfl⟩
abbrev main_v388 : Ref sig .tc := ⟨.hbm, 652, rfl⟩
abbrev main_v389 : Ref sig .tc := ⟨.hbm, 653, rfl⟩
abbrev main_v390 : Ref sig .tc := ⟨.hbm, 654, rfl⟩
abbrev main_call18_cst : Ref sig .tc := ⟨.hbm, 655, rfl⟩
abbrev main_call18_v0 : Ref sig .tc := ⟨.hbm, 656, rfl⟩
abbrev main_v391 : Ref sig .tc := ⟨.hbm, 657, rfl⟩
abbrev main_v392 : Ref sig .tc := ⟨.hbm, 658, rfl⟩
abbrev main_v393 : Ref sig .tc := ⟨.hbm, 659, rfl⟩
abbrev main_v394 : Ref sig .tc := ⟨.hbm, 660, rfl⟩
abbrev main_v395 : Ref sig .tc := ⟨.hbm, 661, rfl⟩
abbrev main_cst_54 : Ref sig .tc := ⟨.hbm, 662, rfl⟩
abbrev main_v396 : Ref sig .tc := ⟨.hbm, 663, rfl⟩
abbrev main_cst_55 : Ref sig .tc := ⟨.hbm, 664, rfl⟩
abbrev main_v397 : Ref sig .tc := ⟨.hbm, 665, rfl⟩
abbrev main_v398 : Ref sig .tc := ⟨.hbm, 666, rfl⟩
abbrev main_c_56 : Ref sig .tc := ⟨.hbm, 667, rfl⟩
abbrev main_call19_cst : Ref sig .tc := ⟨.hbm, 668, rfl⟩
abbrev main_call19_v0 : Ref sig .tc := ⟨.hbm, 669, rfl⟩
abbrev main_call19_v1 : Ref sig .tc := ⟨.hbm, 670, rfl⟩
abbrev main_call19_cst_0 : Ref sig .tc := ⟨.hbm, 671, rfl⟩
abbrev main_call19_v2 : Ref sig .tc := ⟨.hbm, 672, rfl⟩
abbrev main_call19_v3 : Ref sig .tc := ⟨.hbm, 673, rfl⟩
abbrev main_call19_v4 : Ref sig .tc := ⟨.hbm, 674, rfl⟩
abbrev main_call19_v5 : Ref sig .tc := ⟨.hbm, 675, rfl⟩
abbrev main_call19_v6 : Ref sig .tc := ⟨.hbm, 676, rfl⟩
abbrev main_call19_v7 : Ref sig .tc := ⟨.hbm, 677, rfl⟩
abbrev main_call19_cst_1 : Ref sig .tc := ⟨.hbm, 678, rfl⟩
abbrev main_call19_v8 : Ref sig .tc := ⟨.hbm, 679, rfl⟩
abbrev main_call19_cst_2 : Ref sig .tc := ⟨.hbm, 680, rfl⟩
abbrev main_call19_v9 : Ref sig .tc := ⟨.hbm, 681, rfl⟩
abbrev main_call19_v10 : Ref sig .tc := ⟨.hbm, 682, rfl⟩
abbrev main_call19_v11 : Ref sig .tc := ⟨.hbm, 683, rfl⟩
abbrev main_call19_cst_3 : Ref sig .tc := ⟨.hbm, 684, rfl⟩
abbrev main_call19_v12 : Ref sig .tc := ⟨.hbm, 685, rfl⟩
abbrev main_call19_cst_4 : Ref sig .tc := ⟨.hbm, 686, rfl⟩
abbrev main_call19_call0_v0 : Ref sig .tc := ⟨.hbm, 687, rfl⟩
abbrev main_call19_call0_v1 : Ref sig .tc := ⟨.hbm, 688, rfl⟩
abbrev main_v399 : Ref sig .tc := ⟨.hbm, 689, rfl⟩
abbrev main_v400 : Ref sig .tc := ⟨.hbm, 690, rfl⟩
abbrev main_v401 : Ref sig .tc := ⟨.hbm, 691, rfl⟩
abbrev main_v402 : Ref sig .tc := ⟨.hbm, 692, rfl⟩
abbrev main_cst_57 : Ref sig .tc := ⟨.hbm, 693, rfl⟩
abbrev main_v403 : Ref sig .tc := ⟨.hbm, 694, rfl⟩
abbrev main_v404 : Ref sig .tc := ⟨.hbm, 695, rfl⟩
abbrev main_v405 : Ref sig .tc := ⟨.hbm, 696, rfl⟩
abbrev main_v406 : Ref sig .tc := ⟨.hbm, 697, rfl⟩
abbrev main_v407 : Ref sig .tc := ⟨.hbm, 698, rfl⟩
abbrev main_v408 : Ref sig .tc := ⟨.hbm, 699, rfl⟩
abbrev main_v409 : Ref sig .tc := ⟨.hbm, 700, rfl⟩
abbrev main_v410 : Ref sig .tc := ⟨.hbm, 701, rfl⟩
abbrev main_v411 : Ref sig .tc := ⟨.hbm, 702, rfl⟩
abbrev main_v412 : Ref sig .tc := ⟨.hbm, 703, rfl⟩
abbrev main_v413 : Ref sig .tc := ⟨.hbm, 704, rfl⟩
abbrev main_v414 : Ref sig .tc := ⟨.hbm, 705, rfl⟩
abbrev main_call20_cst : Ref sig .tc := ⟨.hbm, 706, rfl⟩
abbrev main_call20_v0 : Ref sig .tc := ⟨.hbm, 707, rfl⟩
abbrev main_v415 : Ref sig .tc := ⟨.hbm, 708, rfl⟩
abbrev main_v416 : Ref sig .tc := ⟨.hbm, 709, rfl⟩
abbrev main_c_58 : Ref sig .tc := ⟨.hbm, 710, rfl⟩
abbrev main_v417 : Ref sig .tc := ⟨.hbm, 711, rfl⟩
abbrev main_v418 : Ref sig .tc := ⟨.hbm, 712, rfl⟩
abbrev main_c_59 : Ref sig .tc := ⟨.hbm, 713, rfl⟩
abbrev main_v419 : Ref sig .tc := ⟨.hbm, 714, rfl⟩
abbrev main_v420 : Ref sig .tc := ⟨.hbm, 715, rfl⟩
abbrev main_v421 : Ref sig .tc := ⟨.hbm, 716, rfl⟩
abbrev main_v422 : Ref sig .tc := ⟨.hbm, 717, rfl⟩
abbrev main_v423 : Ref sig .tc := ⟨.hbm, 718, rfl⟩
abbrev main_c_60 : Ref sig .tc := ⟨.hbm, 719, rfl⟩
abbrev main_v424 : Ref sig .tc := ⟨.hbm, 720, rfl⟩
abbrev main_v425 : Ref sig .tc := ⟨.hbm, 721, rfl⟩
abbrev main_c_61 : Ref sig .tc := ⟨.hbm, 722, rfl⟩
abbrev main_v426 : Ref sig .tc := ⟨.hbm, 723, rfl⟩
abbrev main_v427 : Ref sig .tc := ⟨.hbm, 724, rfl⟩
abbrev main_v428 : Ref sig .tc := ⟨.hbm, 725, rfl⟩
abbrev main_v429 : Ref sig .tc := ⟨.hbm, 726, rfl⟩
abbrev main_v430 : Ref sig .tc := ⟨.hbm, 727, rfl⟩
abbrev main_v431 : Ref sig .tc := ⟨.hbm, 728, rfl⟩
abbrev main_v432 : Ref sig .tc := ⟨.hbm, 729, rfl⟩
abbrev main_v433 : Ref sig .tc := ⟨.hbm, 730, rfl⟩
abbrev main_v434 : Ref sig .tc := ⟨.hbm, 731, rfl⟩
abbrev main_v435 : Ref sig .tc := ⟨.hbm, 732, rfl⟩
abbrev main_v436 : Ref sig .tc := ⟨.hbm, 733, rfl⟩
abbrev main_v437 : Ref sig .tc := ⟨.hbm, 734, rfl⟩
abbrev main_v438 : Ref sig .tc := ⟨.hbm, 735, rfl⟩
abbrev main_v439 : Ref sig .tc := ⟨.hbm, 736, rfl⟩
abbrev main_call21_cst : Ref sig .tc := ⟨.hbm, 737, rfl⟩
abbrev main_call21_v0 : Ref sig .tc := ⟨.hbm, 738, rfl⟩
abbrev main_v440 : Ref sig .tc := ⟨.hbm, 739, rfl⟩
abbrev main_v441 : Ref sig .tc := ⟨.hbm, 740, rfl⟩
abbrev main_v442 : Ref sig .tc := ⟨.hbm, 741, rfl⟩
abbrev main_v443 : Ref sig .tc := ⟨.hbm, 742, rfl⟩
abbrev main_v444 : Ref sig .tc := ⟨.hbm, 743, rfl⟩
abbrev main_v445 : Ref sig .tc := ⟨.hbm, 744, rfl⟩
abbrev main_v446 : Ref sig .tc := ⟨.hbm, 745, rfl⟩
abbrev main_v447 : Ref sig .tc := ⟨.hbm, 746, rfl⟩
abbrev main_v448 : Ref sig .tc := ⟨.hbm, 747, rfl⟩
abbrev main_v449 : Ref sig .tc := ⟨.hbm, 748, rfl⟩
abbrev main_c_62 : Ref sig .tc := ⟨.hbm, 749, rfl⟩
abbrev main_v450 : Ref sig .tc := ⟨.hbm, 750, rfl⟩
abbrev main_v451 : Ref sig .tc := ⟨.hbm, 751, rfl⟩
abbrev main_c_63 : Ref sig .tc := ⟨.hbm, 752, rfl⟩
abbrev main_v452 : Ref sig .tc := ⟨.hbm, 753, rfl⟩
abbrev main_v453 : Ref sig .tc := ⟨.hbm, 754, rfl⟩
abbrev main_v454 : Ref sig .tc := ⟨.hbm, 755, rfl⟩
abbrev main_v455 : Ref sig .tc := ⟨.hbm, 756, rfl⟩
abbrev main_v456 : Ref sig .tc := ⟨.hbm, 757, rfl⟩
abbrev main_cst_64 : Ref sig .tc := ⟨.hbm, 758, rfl⟩
abbrev main_v457 : Ref sig .tc := ⟨.hbm, 759, rfl⟩
abbrev main_v458 : Ref sig .tc := ⟨.hbm, 760, rfl⟩
abbrev main_v459 : Ref sig .tc := ⟨.hbm, 761, rfl⟩
abbrev main_v460 : Ref sig .tc := ⟨.hbm, 762, rfl⟩
abbrev main_v461 : Ref sig .tc := ⟨.hbm, 763, rfl⟩
abbrev main_cst_65 : Ref sig .tc := ⟨.hbm, 764, rfl⟩
abbrev main_v462 : Ref sig .tc := ⟨.hbm, 765, rfl⟩
abbrev main_v463 : Ref sig .tc := ⟨.hbm, 766, rfl⟩
abbrev main_v464 : Ref sig .tc := ⟨.hbm, 767, rfl⟩
abbrev main_v465 : Ref sig .tc := ⟨.hbm, 768, rfl⟩
abbrev main_v466 : Ref sig .tc := ⟨.hbm, 769, rfl⟩
abbrev main_v467 : Ref sig .tc := ⟨.hbm, 770, rfl⟩
abbrev main_v468 : Ref sig .tc := ⟨.hbm, 771, rfl⟩
abbrev main_v469 : Ref sig .tc := ⟨.hbm, 772, rfl⟩
abbrev main_v470 : Ref sig .tc := ⟨.hbm, 773, rfl⟩
abbrev main_v471 : Ref sig .tc := ⟨.hbm, 774, rfl⟩
abbrev main_v472 : Ref sig .tc := ⟨.hbm, 775, rfl⟩
abbrev main_v473 : Ref sig .tc := ⟨.hbm, 776, rfl⟩
abbrev main_v474 : Ref sig .tc := ⟨.hbm, 777, rfl⟩
abbrev main_v475 : Ref sig .tc := ⟨.hbm, 778, rfl⟩
abbrev main_v476 : Ref sig .tc := ⟨.hbm, 779, rfl⟩
abbrev main_v477 : Ref sig .tc := ⟨.hbm, 780, rfl⟩
abbrev main_cst_66 : Ref sig .tc := ⟨.hbm, 781, rfl⟩
abbrev main_v478 : Ref sig .tc := ⟨.hbm, 782, rfl⟩
abbrev main_cst_67 : Ref sig .tc := ⟨.hbm, 783, rfl⟩
abbrev main_v479 : Ref sig .tc := ⟨.hbm, 784, rfl⟩
abbrev main_v480 : Ref sig .tc := ⟨.hbm, 785, rfl⟩
abbrev main_c_68 : Ref sig .tc := ⟨.hbm, 786, rfl⟩
abbrev main_call22_cst : Ref sig .tc := ⟨.hbm, 787, rfl⟩
abbrev main_call22_v0 : Ref sig .tc := ⟨.hbm, 788, rfl⟩
abbrev main_call22_v1 : Ref sig .tc := ⟨.hbm, 789, rfl⟩
abbrev main_call22_cst_0 : Ref sig .tc := ⟨.hbm, 790, rfl⟩
abbrev main_call22_v2 : Ref sig .tc := ⟨.hbm, 791, rfl⟩
abbrev main_call22_v3 : Ref sig .tc := ⟨.hbm, 792, rfl⟩
abbrev main_call22_v4 : Ref sig .tc := ⟨.hbm, 793, rfl⟩
abbrev main_call22_v5 : Ref sig .tc := ⟨.hbm, 794, rfl⟩
abbrev main_call22_v6 : Ref sig .tc := ⟨.hbm, 795, rfl⟩
abbrev main_call22_v7 : Ref sig .tc := ⟨.hbm, 796, rfl⟩
abbrev main_call22_cst_1 : Ref sig .tc := ⟨.hbm, 797, rfl⟩
abbrev main_call22_v8 : Ref sig .tc := ⟨.hbm, 798, rfl⟩
abbrev main_call22_cst_2 : Ref sig .tc := ⟨.hbm, 799, rfl⟩
abbrev main_call22_v9 : Ref sig .tc := ⟨.hbm, 800, rfl⟩
abbrev main_call22_v10 : Ref sig .tc := ⟨.hbm, 801, rfl⟩
abbrev main_call22_v11 : Ref sig .tc := ⟨.hbm, 802, rfl⟩
abbrev main_call22_cst_3 : Ref sig .tc := ⟨.hbm, 803, rfl⟩
abbrev main_call22_v12 : Ref sig .tc := ⟨.hbm, 804, rfl⟩
abbrev main_call22_cst_4 : Ref sig .tc := ⟨.hbm, 805, rfl⟩
abbrev main_call22_call0_v0 : Ref sig .tc := ⟨.hbm, 806, rfl⟩
abbrev main_call22_call0_v1 : Ref sig .tc := ⟨.hbm, 807, rfl⟩
abbrev main_v481 : Ref sig .tc := ⟨.hbm, 808, rfl⟩
abbrev main_v482 : Ref sig .tc := ⟨.hbm, 809, rfl⟩
abbrev main_v483 : Ref sig .tc := ⟨.hbm, 810, rfl⟩
abbrev main_v484 : Ref sig .tc := ⟨.hbm, 811, rfl⟩
abbrev main_cst_69 : Ref sig .tc := ⟨.hbm, 812, rfl⟩
abbrev main_v485 : Ref sig .tc := ⟨.hbm, 813, rfl⟩
abbrev main_v486 : Ref sig .tc := ⟨.hbm, 814, rfl⟩
abbrev main_v487 : Ref sig .tc := ⟨.hbm, 815, rfl⟩
abbrev main_v488 : Ref sig .tc := ⟨.hbm, 816, rfl⟩
abbrev main_v489 : Ref sig .tc := ⟨.hbm, 817, rfl⟩
abbrev main_v490 : Ref sig .tc := ⟨.hbm, 818, rfl⟩
abbrev main_v491 : Ref sig .tc := ⟨.hbm, 819, rfl⟩
abbrev main_v492 : Ref sig .tc := ⟨.hbm, 820, rfl⟩
abbrev main_v493 : Ref sig .tc := ⟨.hbm, 821, rfl⟩
abbrev main_v494 : Ref sig .tc := ⟨.hbm, 822, rfl⟩
abbrev main_v495 : Ref sig .tc := ⟨.hbm, 823, rfl⟩
abbrev main_v496 : Ref sig .tc := ⟨.hbm, 824, rfl⟩
abbrev main_call23_cst : Ref sig .tc := ⟨.hbm, 825, rfl⟩
abbrev main_call23_v0 : Ref sig .tc := ⟨.hbm, 826, rfl⟩
abbrev main_v497 : Ref sig .tc := ⟨.hbm, 827, rfl⟩
abbrev main_v498 : Ref sig .tc := ⟨.hbm, 828, rfl⟩
abbrev main_v499 : Ref sig .tc := ⟨.hbm, 829, rfl⟩
abbrev main_v500 : Ref sig .tc := ⟨.hbm, 830, rfl⟩
abbrev main_v501 : Ref sig .tc := ⟨.hbm, 831, rfl⟩
abbrev main_v502 : Ref sig .tc := ⟨.hbm, 832, rfl⟩
abbrev main_v503 : Ref sig .tc := ⟨.hbm, 833, rfl⟩
abbrev main_v504 : Ref sig .tc := ⟨.hbm, 834, rfl⟩
abbrev main_v505 : Ref sig .tc := ⟨.hbm, 835, rfl⟩
abbrev main_v506 : Ref sig .tc := ⟨.hbm, 836, rfl⟩
abbrev main_v507 : Ref sig .tc := ⟨.hbm, 837, rfl⟩
abbrev main_v508 : Ref sig .tc := ⟨.hbm, 838, rfl⟩
abbrev main_v509 : Ref sig .tc := ⟨.hbm, 839, rfl⟩
abbrev main_cst_70 : Ref sig .tc := ⟨.hbm, 840, rfl⟩
abbrev main_v510 : Ref sig .tc := ⟨.hbm, 841, rfl⟩
abbrev main_cst_71 : Ref sig .tc := ⟨.hbm, 842, rfl⟩
abbrev main_v511 : Ref sig .tc := ⟨.hbm, 843, rfl⟩
abbrev main_v512 : Ref sig .tc := ⟨.hbm, 844, rfl⟩
abbrev main_c_72 : Ref sig .tc := ⟨.hbm, 845, rfl⟩
abbrev main_call24_cst : Ref sig .tc := ⟨.hbm, 846, rfl⟩
abbrev main_call24_v0 : Ref sig .tc := ⟨.hbm, 847, rfl⟩
abbrev main_call24_v1 : Ref sig .tc := ⟨.hbm, 848, rfl⟩
abbrev main_call24_cst_0 : Ref sig .tc := ⟨.hbm, 849, rfl⟩
abbrev main_call24_v2 : Ref sig .tc := ⟨.hbm, 850, rfl⟩
abbrev main_call24_v3 : Ref sig .tc := ⟨.hbm, 851, rfl⟩
abbrev main_call24_v4 : Ref sig .tc := ⟨.hbm, 852, rfl⟩
abbrev main_call24_v5 : Ref sig .tc := ⟨.hbm, 853, rfl⟩
abbrev main_call24_v6 : Ref sig .tc := ⟨.hbm, 854, rfl⟩
abbrev main_call24_v7 : Ref sig .tc := ⟨.hbm, 855, rfl⟩
abbrev main_call24_cst_1 : Ref sig .tc := ⟨.hbm, 856, rfl⟩
abbrev main_call24_v8 : Ref sig .tc := ⟨.hbm, 857, rfl⟩
abbrev main_call24_cst_2 : Ref sig .tc := ⟨.hbm, 858, rfl⟩
abbrev main_call24_v9 : Ref sig .tc := ⟨.hbm, 859, rfl⟩
abbrev main_call24_v10 : Ref sig .tc := ⟨.hbm, 860, rfl⟩
abbrev main_call24_v11 : Ref sig .tc := ⟨.hbm, 861, rfl⟩
abbrev main_call24_cst_3 : Ref sig .tc := ⟨.hbm, 862, rfl⟩
abbrev main_call24_v12 : Ref sig .tc := ⟨.hbm, 863, rfl⟩
abbrev main_call24_cst_4 : Ref sig .tc := ⟨.hbm, 864, rfl⟩
abbrev main_call24_call0_v0 : Ref sig .tc := ⟨.hbm, 865, rfl⟩
abbrev main_call24_call0_v1 : Ref sig .tc := ⟨.hbm, 866, rfl⟩
abbrev main_v513 : Ref sig .tc := ⟨.hbm, 867, rfl⟩
abbrev main_v514 : Ref sig .tc := ⟨.hbm, 868, rfl⟩
abbrev main_v515 : Ref sig .tc := ⟨.hbm, 869, rfl⟩
abbrev main_v516 : Ref sig .tc := ⟨.hbm, 870, rfl⟩
abbrev main_cst_73 : Ref sig .tc := ⟨.hbm, 871, rfl⟩
abbrev main_v517 : Ref sig .tc := ⟨.hbm, 872, rfl⟩
abbrev main_v518 : Ref sig .tc := ⟨.hbm, 873, rfl⟩
abbrev main_v519 : Ref sig .tc := ⟨.hbm, 874, rfl⟩
abbrev main_v520 : Ref sig .tc := ⟨.hbm, 875, rfl⟩
abbrev main_v521 : Ref sig .tc := ⟨.hbm, 876, rfl⟩
abbrev main_v522 : Ref sig .tc := ⟨.hbm, 877, rfl⟩
abbrev main_v523 : Ref sig .tc := ⟨.hbm, 878, rfl⟩
abbrev main_v524 : Ref sig .tc := ⟨.hbm, 879, rfl⟩
abbrev main_v525 : Ref sig .tc := ⟨.hbm, 880, rfl⟩
abbrev main_v526 : Ref sig .tc := ⟨.hbm, 881, rfl⟩
abbrev main_v527 : Ref sig .tc := ⟨.hbm, 882, rfl⟩
abbrev main_v528 : Ref sig .tc := ⟨.hbm, 883, rfl⟩
abbrev main_call25_cst : Ref sig .tc := ⟨.hbm, 884, rfl⟩
abbrev main_call25_v0 : Ref sig .tc := ⟨.hbm, 885, rfl⟩
abbrev main_v529 : Ref sig .tc := ⟨.hbm, 886, rfl⟩
abbrev main_v530 : Ref sig .tc := ⟨.hbm, 887, rfl⟩
abbrev main_v531 : Ref sig .tc := ⟨.hbm, 888, rfl⟩
abbrev main_v532 : Ref sig .tc := ⟨.hbm, 889, rfl⟩
abbrev main_v533 : Ref sig .tc := ⟨.hbm, 890, rfl⟩
abbrev main_cst_74 : Ref sig .tc := ⟨.hbm, 891, rfl⟩
abbrev main_v534 : Ref sig .tc := ⟨.hbm, 892, rfl⟩
abbrev main_cst_75 : Ref sig .tc := ⟨.hbm, 893, rfl⟩
abbrev main_v535 : Ref sig .tc := ⟨.hbm, 894, rfl⟩
abbrev main_v536 : Ref sig .tc := ⟨.hbm, 895, rfl⟩
abbrev main_c_76 : Ref sig .tc := ⟨.hbm, 896, rfl⟩
abbrev main_call26_cst : Ref sig .tc := ⟨.hbm, 897, rfl⟩
abbrev main_call26_v0 : Ref sig .tc := ⟨.hbm, 898, rfl⟩
abbrev main_call26_v1 : Ref sig .tc := ⟨.hbm, 899, rfl⟩
abbrev main_call26_cst_0 : Ref sig .tc := ⟨.hbm, 900, rfl⟩
abbrev main_call26_v2 : Ref sig .tc := ⟨.hbm, 901, rfl⟩
abbrev main_call26_v3 : Ref sig .tc := ⟨.hbm, 902, rfl⟩
abbrev main_call26_v4 : Ref sig .tc := ⟨.hbm, 903, rfl⟩
abbrev main_call26_v5 : Ref sig .tc := ⟨.hbm, 904, rfl⟩
abbrev main_call26_v6 : Ref sig .tc := ⟨.hbm, 905, rfl⟩
abbrev main_call26_v7 : Ref sig .tc := ⟨.hbm, 906, rfl⟩
abbrev main_call26_cst_1 : Ref sig .tc := ⟨.hbm, 907, rfl⟩
abbrev main_call26_v8 : Ref sig .tc := ⟨.hbm, 908, rfl⟩
abbrev main_call26_cst_2 : Ref sig .tc := ⟨.hbm, 909, rfl⟩
abbrev main_call26_v9 : Ref sig .tc := ⟨.hbm, 910, rfl⟩
abbrev main_call26_v10 : Ref sig .tc := ⟨.hbm, 911, rfl⟩
abbrev main_call26_v11 : Ref sig .tc := ⟨.hbm, 912, rfl⟩
abbrev main_call26_cst_3 : Ref sig .tc := ⟨.hbm, 913, rfl⟩
abbrev main_call26_v12 : Ref sig .tc := ⟨.hbm, 914, rfl⟩
abbrev main_call26_cst_4 : Ref sig .tc := ⟨.hbm, 915, rfl⟩
abbrev main_call26_call0_v0 : Ref sig .tc := ⟨.hbm, 916, rfl⟩
abbrev main_call26_call0_v1 : Ref sig .tc := ⟨.hbm, 917, rfl⟩
abbrev main_v537 : Ref sig .tc := ⟨.hbm, 918, rfl⟩
abbrev main_v538 : Ref sig .tc := ⟨.hbm, 919, rfl⟩
abbrev main_v539 : Ref sig .tc := ⟨.hbm, 920, rfl⟩
abbrev main_v540 : Ref sig .tc := ⟨.hbm, 921, rfl⟩
abbrev main_cst_77 : Ref sig .tc := ⟨.hbm, 922, rfl⟩
abbrev main_v541 : Ref sig .tc := ⟨.hbm, 923, rfl⟩
abbrev main_v542 : Ref sig .tc := ⟨.hbm, 924, rfl⟩
abbrev main_v543 : Ref sig .tc := ⟨.hbm, 925, rfl⟩
abbrev main_v544 : Ref sig .tc := ⟨.hbm, 926, rfl⟩
abbrev main_v545 : Ref sig .tc := ⟨.hbm, 927, rfl⟩
abbrev main_v546 : Ref sig .tc := ⟨.hbm, 928, rfl⟩
abbrev main_v547 : Ref sig .tc := ⟨.hbm, 929, rfl⟩
abbrev main_v548 : Ref sig .tc := ⟨.hbm, 930, rfl⟩
abbrev main_v549 : Ref sig .tc := ⟨.hbm, 931, rfl⟩
abbrev main_v550 : Ref sig .tc := ⟨.hbm, 932, rfl⟩
abbrev main_v551 : Ref sig .tc := ⟨.hbm, 933, rfl⟩
abbrev main_v552 : Ref sig .tc := ⟨.hbm, 934, rfl⟩
abbrev main_call27_cst : Ref sig .tc := ⟨.hbm, 935, rfl⟩
abbrev main_call27_v0 : Ref sig .tc := ⟨.hbm, 936, rfl⟩
abbrev main_v553 : Ref sig .tc := ⟨.hbm, 937, rfl⟩
abbrev main_v554 : Ref sig .tc := ⟨.hbm, 938, rfl⟩
abbrev main_c_78 : Ref sig .tc := ⟨.hbm, 939, rfl⟩
abbrev main_v555 : Ref sig .tc := ⟨.hbm, 940, rfl⟩
abbrev main_v556 : Ref sig .tc := ⟨.hbm, 941, rfl⟩
abbrev main_c_79 : Ref sig .tc := ⟨.hbm, 942, rfl⟩
abbrev main_v557 : Ref sig .tc := ⟨.hbm, 943, rfl⟩
abbrev main_v558 : Ref sig .tc := ⟨.hbm, 944, rfl⟩
abbrev main_v559 : Ref sig .tc := ⟨.hbm, 945, rfl⟩
abbrev main_v560 : Ref sig .tc := ⟨.hbm, 946, rfl⟩
abbrev main_v561 : Ref sig .tc := ⟨.hbm, 947, rfl⟩
abbrev main_c_80 : Ref sig .tc := ⟨.hbm, 948, rfl⟩
abbrev main_v562 : Ref sig .tc := ⟨.hbm, 949, rfl⟩
abbrev main_v563 : Ref sig .tc := ⟨.hbm, 950, rfl⟩
abbrev main_c_81 : Ref sig .tc := ⟨.hbm, 951, rfl⟩
abbrev main_v564 : Ref sig .tc := ⟨.hbm, 952, rfl⟩
abbrev main_v565 : Ref sig .tc := ⟨.hbm, 953, rfl⟩
abbrev main_v566 : Ref sig .tc := ⟨.hbm, 954, rfl⟩
abbrev main_v567 : Ref sig .tc := ⟨.hbm, 955, rfl⟩
abbrev main_v568 : Ref sig .tc := ⟨.hbm, 956, rfl⟩
abbrev main_v569 : Ref sig .tc := ⟨.hbm, 957, rfl⟩
abbrev main_v570 : Ref sig .tc := ⟨.hbm, 958, rfl⟩
abbrev main_v571 : Ref sig .tc := ⟨.hbm, 959, rfl⟩
abbrev main_v572 : Ref sig .tc := ⟨.hbm, 960, rfl⟩
abbrev main_v573 : Ref sig .tc := ⟨.hbm, 961, rfl⟩
abbrev main_v574 : Ref sig .tc := ⟨.hbm, 962, rfl⟩
abbrev main_v575 : Ref sig .tc := ⟨.hbm, 963, rfl⟩
abbrev main_v576 : Ref sig .tc := ⟨.hbm, 964, rfl⟩
abbrev main_v577 : Ref sig .tc := ⟨.hbm, 965, rfl⟩
abbrev main_call28_cst : Ref sig .tc := ⟨.hbm, 966, rfl⟩
abbrev main_call28_v0 : Ref sig .tc := ⟨.hbm, 967, rfl⟩
abbrev main_v578 : Ref sig .tc := ⟨.hbm, 968, rfl⟩
abbrev main_v579 : Ref sig .tc := ⟨.hbm, 969, rfl⟩
abbrev main_v580 : Ref sig .tc := ⟨.hbm, 970, rfl⟩
abbrev main_v581 : Ref sig .tc := ⟨.hbm, 971, rfl⟩
abbrev main_v582 : Ref sig .tc := ⟨.hbm, 972, rfl⟩
abbrev main_v583 : Ref sig .tc := ⟨.hbm, 973, rfl⟩
abbrev main_v584 : Ref sig .tc := ⟨.hbm, 974, rfl⟩
abbrev main_v585 : Ref sig .tc := ⟨.hbm, 975, rfl⟩
abbrev main_v586 : Ref sig .tc := ⟨.hbm, 976, rfl⟩
abbrev main_v587 : Ref sig .tc := ⟨.hbm, 977, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S320000 : S_.BroadcastsInDim S320000 (![] : Fin 0 → Fin S320000.rank)
  bcast_S320000_S320000x1_0 : S320000.BroadcastsInDim S320000x1 (![0] : Fin 1 → Fin S320000x1.rank)
  concatenates_S320000x128_S320000x128_S320000x256_d1 : Shape.Concatenates [S320000x128, S320000x128] S320000x256 1
  slices_S5x256x128_S1x256x128_0_0_0 : S5x256x128.Slices ![0, 0, 0] S1x256x128
  shapeCasts_S1x256x128_S256x128 : S1x256x128.ShapeCasts S256x128
  slices_S5x128_S1x128_0_0 : S5x128.Slices ![0, 0] S1x128
  shapeCasts_S1x128_S128 : S1x128.ShapeCasts S128
  bcast_S1x128_S320000x128_0_1 : S1x128.BroadcastsInDim S320000x128 (![0, 1] : Fin 2 → Fin S320000x128.rank)
  bcast_S_S320000x128 : S_.BroadcastsInDim S320000x128 (![] : Fin 0 → Fin S320000x128.rank)
  slices_S5x128x2_S1x128x2_0_0_0 : S5x128x2.Slices ![0, 0, 0] S1x128x2
  shapeCasts_S1x128x2_S128x2 : S1x128x2.ShapeCasts S128x2
  slices_S5x2_S1x2_0_0 : S5x2.Slices ![0, 0] S1x2
  shapeCasts_S1x2_S2 : S1x2.ShapeCasts S2
  bcast_S2_S1x2_1 : S2.BroadcastsInDim S1x2 (![1] : Fin 1 → Fin S1x2.rank)
  bcast_S1x2_S320000x2_0_1 : S1x2.BroadcastsInDim S320000x2 (![0, 1] : Fin 2 → Fin S320000x2.rank)
  bcast_S_S20000x128 : S_.BroadcastsInDim S20000x128 (![] : Fin 0 → Fin S20000x128.rank)
  slices_S4_S1_0 : S4.Slices ![0] S1
  shapeCasts_S1_S_ : S1.ShapeCasts S_
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  reducesTo_S20000x128_S128_d0 : S20000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S5x256x128_S1x256x128_1_0_0 : S5x256x128.Slices ![1, 0, 0] S1x256x128
  slices_S5x128_S1x128_1_0 : S5x128.Slices ![1, 0] S1x128
  slices_S5x128x2_S1x128x2_1_0_0 : S5x128x2.Slices ![1, 0, 0] S1x128x2
  slices_S5x2_S1x2_1_0 : S5x2.Slices ![1, 0] S1x2
  slices_S4_S1_1 : S4.Slices ![1] S1
  slices_S4x128x128_S1x128x128_1_0_0 : S4x128x128.Slices ![1, 0, 0] S1x128x128
  slices_S4x128_S1x128_1_0 : S4x128.Slices ![1, 0] S1x128
  slices_S5x256x128_S1x256x128_2_0_0 : S5x256x128.Slices ![2, 0, 0] S1x256x128
  slices_S5x128_S1x128_2_0 : S5x128.Slices ![2, 0] S1x128
  slices_S5x128x2_S1x128x2_2_0_0 : S5x128x2.Slices ![2, 0, 0] S1x128x2
  slices_S5x2_S1x2_2_0 : S5x2.Slices ![2, 0] S1x2
  slices_S4_S1_2 : S4.Slices ![2] S1
  slices_S4x128x128_S1x128x128_2_0_0 : S4x128x128.Slices ![2, 0, 0] S1x128x128
  slices_S4x128_S1x128_2_0 : S4x128.Slices ![2, 0] S1x128
  slices_S5x256x128_S1x256x128_3_0_0 : S5x256x128.Slices ![3, 0, 0] S1x256x128
  slices_S5x128_S1x128_3_0 : S5x128.Slices ![3, 0] S1x128
  slices_S5x128x2_S1x128x2_3_0_0 : S5x128x2.Slices ![3, 0, 0] S1x128x2
  slices_S5x2_S1x2_3_0 : S5x2.Slices ![3, 0] S1x2
  slices_S4_S1_3 : S4.Slices ![3] S1
  slices_S4x128x128_S1x128x128_3_0_0 : S4x128x128.Slices ![3, 0, 0] S1x128x128
  slices_S4x128_S1x128_3_0 : S4x128.Slices ![3, 0] S1x128
  slices_S5x256x128_S1x256x128_4_0_0 : S5x256x128.Slices ![4, 0, 0] S1x256x128
  slices_S5x128_S1x128_4_0 : S5x128.Slices ![4, 0] S1x128
  slices_S5x128x2_S1x128x2_4_0_0 : S5x128x2.Slices ![4, 0, 0] S1x128x2
  slices_S5x2_S1x2_4_0 : S5x2.Slices ![4, 0] S1x2
  dot_S20000x2_S2x128_S20000x128_1_0_0_1_n_n_wf : DotDims.WF S20000x2 S2x128 S20000x128 [1] [0] [0] [1] [] []
  gather_S20000x128_S320000x1_S320000x128_1_0_n_n_0_1_1128_wf : GatherDims.WF S20000x128 S320000x1 S320000x128 [1] [0] [] [0] [] 1 ![1, 128]
  dot_S320000x256_S256x128_S320000x128_1_0_0_1_n_n_wf : DotDims.WF S320000x256 S256x128 S320000x128 [1] [0] [0] [1] [] []
  dot_S320000x128_S128x2_S320000x2_1_0_0_1_n_n_wf : DotDims.WF S320000x128 S128x2 S320000x2 [1] [0] [0] [1] [] []
  scatter_S20000x128_S320000x1_S320000x128_1_0_0_1_wf : ScatterDims.WF S20000x128 S320000x1 S320000x128 [1] [0] [0] 1
  dot_S20000x128_S128x128_S20000x128_1_0_0_1_n_n_wf : DotDims.WF S20000x128 S128x128 S20000x128 [1] [0] [0] [1] [] []

variable [Facts₀]

def dot_S20000x2_S2x128_S20000x128_1_0_0_1_n_n : DotDims S20000x2 S2x128 S20000x128 where
  lhsContracting := [1]
  rhsContracting := [0]
  lhsNonContracting := [0]
  rhsNonContracting := [1]
  lhsBatch := []
  rhsBatch := []
  wf := dot_S20000x2_S2x128_S20000x128_1_0_0_1_n_n_wf
def gather_S20000x128_S320000x1_S320000x128_1_0_n_n_0_1_1128 : GatherDims S20000x128 S320000x1 S320000x128 where
  offsetDims := [1]
  collapsedSliceDims := [0]
  operandBatchingDims := []
  startIndicesBatchingDims := []
  startIndexMap := [0]
  indexVectorDim := 1
  sliceSizes := ![1, 128]
  wf := gather_S20000x128_S320000x1_S320000x128_1_0_n_n_0_1_1128_wf
def dot_S320000x256_S256x128_S320000x128_1_0_0_1_n_n : DotDims S320000x256 S256x128 S320000x128 where
  lhsContracting := [1]
  rhsContracting := [0]
  lhsNonContracting := [0]
  rhsNonContracting := [1]
  lhsBatch := []
  rhsBatch := []
  wf := dot_S320000x256_S256x128_S320000x128_1_0_0_1_n_n_wf
def dot_S320000x128_S128x2_S320000x2_1_0_0_1_n_n : DotDims S320000x128 S128x2 S320000x2 where
  lhsContracting := [1]
  rhsContracting := [0]
  lhsNonContracting := [0]
  rhsNonContracting := [1]
  lhsBatch := []
  rhsBatch := []
  wf := dot_S320000x128_S128x2_S320000x2_1_0_0_1_n_n_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf

class Facts : Prop extends Facts₀ where

variable [Facts]
-- ==== Proof.Spec.lean ====
/-
  The mathematics of the graph network both programs compute, as functions of coordinates on the extended reals.

  A node array is a function `Fin n → Fin 128 → EReal` (row = node, column = feature). One layer is
  `x ↦ x + relu(bn(relu(bn(relu(bn(((1+ε)·x + neigh)·W₁ + b₁))·W₂ + b₂))))`, each `bn` a batch normalisation over the
  rows (mean and biased variance of every column). An edge head scores each edge from the two node rows it joins.

  Two forms of every statistic are stated: the two-pass form (mean, then the mean of squared deviations) and the
  tiled one-pass form (per-tile sums of the values and of their squares, replicated over eight rows, summed, divided
  by eight and by the row count; variance as mean of squares minus squared mean, cut at zero). On real (finite)
  entries the two agree; that equality is proved in a separate module, as is the splitting of the head's
  contraction over the concatenated row pair into the sum of two contractions over the halves.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.M

/-! ## Arrays as functions of coordinates -/

/-- A rank-1 array read at its coordinate. -/
abbrev at1 {a : Nat} (x : (⟨1, ![a]⟩ : Shape).Idx → EReal) (i : Fin a) : EReal := x (ix1 i)
/-- A rank-2 array read at its coordinates. -/
abbrev at2 {a b : Nat} (x : (⟨2, ![a, b]⟩ : Shape).Idx → EReal) (i : Fin a) (j : Fin b) : EReal := x (ix2 i j)
/-- A rank-3 array read at its coordinates. -/
abbrev at3 {a b c : Nat} (x : (⟨3, ![a, b, c]⟩ : Shape).Idx → EReal) (i : Fin a) (j : Fin b) (k : Fin c) : EReal := x (ix3 i j k)
/-- The rank-1 array of a function of the coordinate. -/
def mk1 {a : Nat} (f : Fin a → EReal) : (⟨1, ![a]⟩ : Shape).Idx → EReal := fun i => f (i 0)
/-- The rank-2 array of a function of the coordinates. -/
def mk2 {a b : Nat} (f : Fin a → Fin b → EReal) : (⟨2, ![a, b]⟩ : Shape).Idx → EReal := fun i => f (i 0) (i 1)
/-- The rank-3 array of a function of the coordinates. -/
def mk3 {a b c : Nat} (f : Fin a → Fin b → Fin c → EReal) : (⟨3, ![a, b, c]⟩ : Shape).Idx → EReal := fun i => f (i 0) (i 1) (i 2)

theorem mk1_apply {a : Nat} (f : Fin a → EReal) (i : Fin a) : mk1 f (ix1 i) = f i := rfl
theorem mk2_apply {a b : Nat} (f : Fin a → Fin b → EReal) (i : Fin a) (j : Fin b) : mk2 f (ix2 i j) = f i j := rfl
theorem mk3_apply {a b c : Nat} (f : Fin a → Fin b → Fin c → EReal) (i : Fin a) (j : Fin b) (k : Fin c) :
    mk3 f (ix3 i j k) = f i j k := rfl

/-! ## The constants (kept as their words; their values are computed where a law needs them) -/

/-- The row count 20000 as the f32 word both programs divide by. -/
abbrev cN : EReal := Ideal.ofBits .f32 0x469C4000#32
/-- The replication factor 8 as the f32 word the tiled statistics divide by. -/
abbrev c8 : EReal := Ideal.ofBits .f32 0x41000000#32
/-- The f32 zero word. -/
abbrev c0 : EReal := Ideal.ofBits .f32 0x00000000#32
/-- The f32 one word. -/
abbrev c1 : EReal := Ideal.ofBits .f32 0x3F800000#32
/-- The normalisation's small constant: the f32 word nearest 1e-5. -/
abbrev cEps : EReal := Ideal.ofBits .f32 0x3727C5AC#32

/-! ## Linear maps -/

/-- The matrix product `x · w`. -/
def mm {n k d : Nat} (x : Fin n → Fin k → EReal) (w : Fin k → Fin d → EReal) : Fin n → Fin d → EReal :=
  fun r j => ∑ t : Fin k, x r t * w t j

/-- The matrix product plus a bias on every row: `x · w + b`. -/
def affine {n k d : Nat} (x : Fin n → Fin k → EReal) (w : Fin k → Fin d → EReal) (b : Fin d → EReal) :
    Fin n → Fin d → EReal :=
  fun r j => mm x w r j + b j

/-- A layer's first linear map: `((1 + ε) · x + neigh) · w + b`. -/
def lin {n : Nat} (x ng : Fin n → Fin 128 → EReal) (e : EReal) (w : Fin 128 → Fin 128 → EReal) (b : Fin 128 → EReal) :
    Fin n → Fin 128 → EReal :=
  affine (fun r k => (c1 + e) * x r k + ng r k) w b

/-! ## Column statistics, two-pass form -/

/-- A column's mean: the column's sum (from the zero word) over the row-count word. -/
def meanR {n : Nat} (a : Fin n → Fin 128 → EReal) : Fin 128 → EReal :=
  fun j => Ideal.div (c0 + ∑ r : Fin n, a r j) cN

/-- A column's biased variance: the mean of the squared deviations from the column's mean. -/
def varR {n : Nat} (a : Fin n → Fin 128 → EReal) : Fin 128 → EReal :=
  fun j => Ideal.div (c0 + ∑ r : Fin n, (a r j - meanR a j) * (a r j - meanR a j)) cN

/-! ## Column statistics, tiled one-pass form -/

/-- Row `r` of tile `t` among 5 tiles of 4000 rows. -/
def tileRow (t : Fin 5) (r : Fin 4000) : Fin 20000 := ⟨4000 * t.val + r.val, by omega⟩

/-- The per-tile column sums, one copy in each of eight rows. -/
def sumT (a : Fin 20000 → Fin 128 → EReal) : Fin 5 → Fin 8 → Fin 128 → EReal :=
  fun t _ j => ∑ r : Fin 4000, a (tileRow t r) j

/-- The per-tile column sums of squares, one copy in each of eight rows. -/
def sumsqT (a : Fin 20000 → Fin 128 → EReal) : Fin 5 → Fin 8 → Fin 128 → EReal :=
  sumT fun r j => a r j * a r j

/-- The mean from tile sums: all forty rows summed, over eight, over the row count. -/
def meanK (S : Fin 5 → Fin 8 → Fin 128 → EReal) : Fin 128 → EReal :=
  fun j => Ideal.div (Ideal.div (c0 + ∑ p : Fin 5 × Fin 8, S p.1 p.2 j) c8) cN

/-- The variance from tile sums: mean of squares minus squared mean, cut at zero. -/
def varK (S SQ : Fin 5 → Fin 8 → Fin 128 → EReal) : Fin 128 → EReal :=
  fun j => max (meanK SQ j - meanK S j * meanK S j) c0

/-! ## Normalisation -/

/-- Batch normalisation with given statistics, then the rectifier:
    `max ((a − mean) · rsqrt (var + ε) · g + b) 0`. -/
def bnrelu {n : Nat} (a : Fin n → Fin 128 → EReal) (mean var g b : Fin 128 → EReal) : Fin n → Fin 128 → EReal :=
  fun r j => max ((a r j - mean j) * Ideal.rsqrt (var j + cEps) * g j + b j) c0

/-! ## One layer -/

/-- The value after the first linear map. -/
abbrev stage1 {n : Nat} (x ng : Fin n → Fin 128 → EReal) (e : EReal) (w1 : Fin 128 → Fin 128 → EReal) (b1 : Fin 128 → EReal) :=
  lin x ng e w1 b1
/-- The value after the second linear map. -/
def stage2 {n : Nat} (a1 : Fin n → Fin 128 → EReal) (g1 c1' : Fin 128 → EReal) (w2 : Fin 128 → Fin 128 → EReal)
    (b2 : Fin 128 → EReal) : Fin n → Fin 128 → EReal :=
  affine (bnrelu a1 (meanR a1) (varR a1) g1 c1') w2 b2
/-- The value after the second normalisation. -/
def stage3 {n : Nat} (a2 : Fin n → Fin 128 → EReal) (ag ab : Fin 128 → EReal) : Fin n → Fin 128 → EReal :=
  bnrelu a2 (meanR a2) (varR a2) ag ab
/-- The layer's output: the input plus the third normalisation of stage 3. -/
def stage4 {n : Nat} (x z4 : Fin n → Fin 128 → EReal) (gg gb : Fin 128 → EReal) : Fin n → Fin 128 → EReal :=
  fun r j => x r j + bnrelu z4 (meanR z4) (varR z4) gg gb r j

/-- One layer, from the node array and the neighbour sums. -/
def layer {n : Nat} (x ng : Fin n → Fin 128 → EReal) (e : EReal) (w1 : Fin 128 → Fin 128 → EReal)
    (b1 g1 c1' : Fin 128 → EReal) (w2 : Fin 128 → Fin 128 → EReal) (b2 ag ab gg gb : Fin 128 → EReal) :
    Fin n → Fin 128 → EReal :=
  stage4 x (stage3 (stage2 (stage1 x ng e w1 b1) g1 c1' w2 b2) ag ab) gg gb

/-! ## The edge head -/

/-- The concatenation of two rows of 128 into one of 256. -/
def cat (u v : Fin 128 → EReal) : Fin 256 → EReal :=
  fun k => if h : k.val < 128 then u ⟨k.val, h⟩ else v ⟨k.val - 128, by omega⟩

/-- The head on an edge's two node rows: `relu ([xs, xd] · W₁ + b₁) · w₂ + b₂`. -/
def headR {m : Nat} (xs xd : Fin m → Fin 128 → EReal) (W1 : Fin 256 → Fin 128 → EReal) (b1 : Fin 128 → EReal)
    (w2 : Fin 128 → Fin 2 → EReal) (b2 : Fin 2 → EReal) : Fin m → Fin 2 → EReal :=
  fun e c => (∑ j : Fin 128, max ((∑ k : Fin 256, cat (xs e) (xd e) k * W1 k j) + b1 j) c0 * w2 j c) + b2 c

/-- The same head from the two halves' products taken per node first:
    `relu (ps + qd + b₁) · w₂ + b₂`. -/
def headK {m : Nat} (ps qd : Fin m → Fin 128 → EReal) (b1 : Fin 128 → EReal)
    (w2 : Fin 128 → Fin 2 → EReal) (b2 : Fin 2 → EReal) : Fin m → Fin 2 → EReal :=
  fun e c => (∑ j : Fin 128, max ((ps e j + qd e j) + b1 j) c0 * w2 j c) + b2 c

/-- The top half of a 256-row weight. -/
def top (W : Fin 256 → Fin 128 → EReal) : Fin 128 → Fin 128 → EReal := fun k j => W ⟨k.val, by omega⟩ j
/-- The bottom half of a 256-row weight. -/
def bot (W : Fin 256 → Fin 128 → EReal) : Fin 128 → Fin 128 → EReal := fun k j => W ⟨128 + k.val, by omega⟩ j

/-- Every entry is a real number. -/
def Fin2 {a b : Nat} (x : Fin a → Fin b → EReal) : Prop := ∀ i j, ∃ r : ℝ, x i j = (r : EReal)
/-- Every entry is a real number. -/
def Fin1 {a : Nat} (x : Fin a → EReal) : Prop := ∀ i, ∃ r : ℝ, x i = (r : EReal)

/-! ## Edges: gathered rows and neighbour sums -/

/-- The node an index word gathers from: a negative word first has the node count added, then the word, read signed,
    is clamped into `[0, 19999]`. -/
def gRow (w : BitVec 32) : Fin 20000 :=
  ⟨min (if w.toInt < 0 then w + 20000#32 else w).toInt.toNat 19999, by omega⟩

/-- The node an index word scatters to: the word read signed, when it is a node; no node otherwise (the update is
    dropped). -/
def sRow (w : BitVec 32) : Option (Fin 20000) :=
  if h : 0 ≤ w.toInt ∧ w.toInt < 20000 then some ⟨w.toInt.toNat, by omega⟩ else none

/-- The rows of a node array at the edges' index words. -/
def rows (x : Fin 20000 → Fin 128 → EReal) (idx : Fin 320000 → BitVec 32) : Fin 320000 → Fin 128 → EReal :=
  fun e j => x (gRow (idx e)) j

/-- The neighbour sums: at node `r`, the sum over the edges whose target word scatters to `r` of the source node's
    row (from the zero word). -/
def neigh (x : Fin 20000 → Fin 128 → EReal) (src dst : Fin 320000 → BitVec 32) : Fin 20000 → Fin 128 → EReal :=
  fun r j => c0 + ∑ e ∈ Finset.univ.filter (fun e : Fin 320000 => sRow (dst e) = some r), rows x src e j

/-! ## The whole network -/

/-- The twenty inputs as functions of coordinates. -/
structure Inputs where
  h : Fin 20000 → Fin 2 → EReal
  emb_w : Fin 2 → Fin 128 → EReal
  emb_b : Fin 128 → EReal
  eps : Fin 4 → EReal
  mlp_w1 : Fin 4 → Fin 128 → Fin 128 → EReal
  mlp_b1 : Fin 4 → Fin 128 → EReal
  mlp_bn_g : Fin 4 → Fin 128 → EReal
  mlp_bn_b : Fin 4 → Fin 128 → EReal
  mlp_w2 : Fin 4 → Fin 128 → Fin 128 → EReal
  mlp_b2 : Fin 4 → Fin 128 → EReal
  app_bn_g : Fin 4 → Fin 128 → EReal
  app_bn_b : Fin 4 → Fin 128 → EReal
  gin_bn_g : Fin 4 → Fin 128 → EReal
  gin_bn_b : Fin 4 → Fin 128 → EReal
  pred_w1 : Fin 5 → Fin 256 → Fin 128 → EReal
  pred_b1 : Fin 5 → Fin 128 → EReal
  pred_w2 : Fin 5 → Fin 128 → Fin 2 → EReal
  pred_b2 : Fin 5 → Fin 2 → EReal
  src : Fin 320000 → BitVec 32
  dst : Fin 320000 → BitVec 32

/-- Every float input is real. -/
structure Inputs.Finite (A : Inputs) : Prop where
  h : Fin2 A.h
  emb_w : Fin2 A.emb_w
  emb_b : Fin1 A.emb_b
  eps : Fin1 A.eps
  mlp_w1 : ∀ i, Fin2 (A.mlp_w1 i)
  mlp_b1 : ∀ i, Fin1 (A.mlp_b1 i)
  mlp_bn_g : ∀ i, Fin1 (A.mlp_bn_g i)
  mlp_bn_b : ∀ i, Fin1 (A.mlp_bn_b i)
  mlp_w2 : ∀ i, Fin2 (A.mlp_w2 i)
  mlp_b2 : ∀ i, Fin1 (A.mlp_b2 i)
  app_bn_g : ∀ i, Fin1 (A.app_bn_g i)
  app_bn_b : ∀ i, Fin1 (A.app_bn_b i)
  gin_bn_g : ∀ i, Fin1 (A.gin_bn_g i)
  gin_bn_b : ∀ i, Fin1 (A.gin_bn_b i)
  pred_w1 : ∀ i, Fin2 (A.pred_w1 i)
  pred_b1 : ∀ i, Fin1 (A.pred_b1 i)
  pred_w2 : ∀ i, Fin2 (A.pred_w2 i)
  pred_b2 : ∀ i, Fin1 (A.pred_b2 i)

/-- The embedding: `h · emb_w + emb_b`. -/
def x0 (A : Inputs) : Fin 20000 → Fin 128 → EReal := affine A.h A.emb_w A.emb_b

/-- Layer `i` applied to a node array. -/
def layerI (A : Inputs) (i : Fin 4) (x : Fin 20000 → Fin 128 → EReal) : Fin 20000 → Fin 128 → EReal :=
  layer x (neigh x A.src A.dst) (A.eps i) (A.mlp_w1 i) (A.mlp_b1 i) (A.mlp_bn_g i) (A.mlp_bn_b i) (A.mlp_w2 i) (A.mlp_b2 i)
    (A.app_bn_g i) (A.app_bn_b i) (A.gin_bn_g i) (A.gin_bn_b i)

def x1 (A : Inputs) := layerI A 0 (x0 A)
def x2 (A : Inputs) := layerI A 1 (x1 A)
def x3 (A : Inputs) := layerI A 2 (x2 A)
def x4 (A : Inputs) := layerI A 3 (x3 A)

/-- Head `i` on a node array: every edge scored from its two nodes' rows. -/
def headI (A : Inputs) (i : Fin 5) (x : Fin 20000 → Fin 128 → EReal) : Fin 320000 → Fin 2 → EReal :=
  headR (rows x A.src) (rows x A.dst) (A.pred_w1 i) (A.pred_b1 i) (A.pred_w2 i) (A.pred_b2 i)

/-- The network's result: the five heads' scores added in order. -/
def score (A : Inputs) : Fin 320000 → Fin 2 → EReal :=
  fun e c => (((headI A 0 (x0 A) e c + headI A 1 (x1 A) e c) + headI A 2 (x2 A) e c) + headI A 3 (x3 A) e c)
    + headI A 4 (x4 A) e c

/-- The inputs record of the twenty argument arrays (each an array over its literal shape). -/
def inputsOf
    (a0 : (⟨2, ![20000, 2]⟩ : Shape).Idx → EReal) (a1 : (⟨2, ![2, 128]⟩ : Shape).Idx → EReal)
    (a2 : (⟨1, ![128]⟩ : Shape).Idx → EReal) (a3 : (⟨1, ![4]⟩ : Shape).Idx → EReal)
    (a4 : (⟨3, ![4, 128, 128]⟩ : Shape).Idx → EReal) (a5 a6 a7 : (⟨2, ![4, 128]⟩ : Shape).Idx → EReal)
    (a8 : (⟨3, ![4, 128, 128]⟩ : Shape).Idx → EReal) (a9 a10 a11 a12 a13 : (⟨2, ![4, 128]⟩ : Shape).Idx → EReal)
    (a14 : (⟨3, ![5, 256, 128]⟩ : Shape).Idx → EReal) (a15 : (⟨2, ![5, 128]⟩ : Shape).Idx → EReal)
    (a16 : (⟨3, ![5, 128, 2]⟩ : Shape).Idx → EReal) (a17 : (⟨2, ![5, 2]⟩ : Shape).Idx → EReal)
    (a18 a19 : (⟨1, ![320000]⟩ : Shape).Idx → BitVec 32) : Inputs where
  h := at2 a0
  emb_w := at2 a1
  emb_b := at1 a2
  eps := at1 a3
  mlp_w1 := at3 a4
  mlp_b1 := at2 a5
  mlp_bn_g := at2 a6
  mlp_bn_b := at2 a7
  mlp_w2 := at3 a8
  mlp_b2 := at2 a9
  app_bn_g := at2 a10
  app_bn_b := at2 a11
  gin_bn_g := at2 a12
  gin_bn_b := at2 a13
  pred_w1 := at3 a14
  pred_b1 := at2 a15
  pred_w2 := at3 a16
  pred_b2 := at2 a17
  src := fun e => a18 (ix1 e)
  dst := fun e => a19 (ix1 e)

end Cert.M

end
-- ==== Proof.InputsFinite.lean ====
/-
  From "every entry of each float argument array is a real number" to the finiteness record of the inputs read
  as functions of coordinates: an entry at coordinates is the array's entry at the index those coordinates build.
-/
import proofs.«416875_j80633716015165_3_alg».proof.Proof.Spec

noncomputable section

open Idealize.ShloMosaic Idealize.ShloMosaic.ValueIdx

namespace Cert.InputsFinite

open Cert.M

/-- Real entries of the eighteen float argument arrays give the finiteness record of `inputsOf`. -/
theorem inputsOf_finite
    (a0 : (⟨2, ![20000, 2]⟩ : Shape).Idx → EReal) (a1 : (⟨2, ![2, 128]⟩ : Shape).Idx → EReal)
    (a2 : (⟨1, ![128]⟩ : Shape).Idx → EReal) (a3 : (⟨1, ![4]⟩ : Shape).Idx → EReal)
    (a4 : (⟨3, ![4, 128, 128]⟩ : Shape).Idx → EReal) (a5 a6 a7 : (⟨2, ![4, 128]⟩ : Shape).Idx → EReal)
    (a8 : (⟨3, ![4, 128, 128]⟩ : Shape).Idx → EReal) (a9 a10 a11 a12 a13 : (⟨2, ![4, 128]⟩ : Shape).Idx → EReal)
    (a14 : (⟨3, ![5, 256, 128]⟩ : Shape).Idx → EReal) (a15 : (⟨2, ![5, 128]⟩ : Shape).Idx → EReal)
    (a16 : (⟨3, ![5, 128, 2]⟩ : Shape).Idx → EReal) (a17 : (⟨2, ![5, 2]⟩ : Shape).Idx → EReal)
    (a18 a19 : (⟨1, ![320000]⟩ : Shape).Idx → BitVec 32)
    (h0 : ∀ i, ∃ r : ℝ, a0 i = (r : EReal)) (h1 : ∀ i, ∃ r : ℝ, a1 i = (r : EReal))
    (h2 : ∀ i, ∃ r : ℝ, a2 i = (r : EReal)) (h3 : ∀ i, ∃ r : ℝ, a3 i = (r : EReal))
    (h4 : ∀ i, ∃ r : ℝ, a4 i = (r : EReal)) (h5 : ∀ i, ∃ r : ℝ, a5 i = (r : EReal))
    (h6 : ∀ i, ∃ r : ℝ, a6 i = (r : EReal)) (h7 : ∀ i, ∃ r : ℝ, a7 i = (r : EReal))
    (h8 : ∀ i, ∃ r : ℝ, a8 i = (r : EReal)) (h9 : ∀ i, ∃ r : ℝ, a9 i = (r : EReal))
    (h10 : ∀ i, ∃ r : ℝ, a10 i = (r : EReal)) (h11 : ∀ i, ∃ r : ℝ, a11 i = (r : EReal))
    (h12 : ∀ i, ∃ r : ℝ, a12 i = (r : EReal)) (h13 : ∀ i, ∃ r : ℝ, a13 i = (r : EReal))
    (h14 : ∀ i, ∃ r : ℝ, a14 i = (r : EReal)) (h15 : ∀ i, ∃ r : ℝ, a15 i = (r : EReal))
    (h16 : ∀ i, ∃ r : ℝ, a16 i = (r : EReal)) (h17 : ∀ i, ∃ r : ℝ, a17 i = (r : EReal)) :
    (inputsOf a0 a1 a2 a3 a4 a5 a6 a7 a8 a9 a10 a11 a12 a13 a14 a15 a16 a17 a18 a19).Finite where
  h := fun _ _ => h0 _
  emb_w := fun _ _ => h1 _
  emb_b := fun _ => h2 _
  eps := fun _ => h3 _
  mlp_w1 := fun _ _ _ => h4 _
  mlp_b1 := fun _ _ => h5 _
  mlp_bn_g := fun _ _ => h6 _
  mlp_bn_b := fun _ _ => h7 _
  mlp_w2 := fun _ _ _ => h8 _
  mlp_b2 := fun _ _ => h9 _
  app_bn_g := fun _ _ => h10 _
  app_bn_b := fun _ _ => h11 _
  gin_bn_g := fun _ _ => h12 _
  gin_bn_b := fun _ _ => h13 _
  pred_w1 := fun _ _ _ => h14 _
  pred_b1 := fun _ _ => h15 _
  pred_w2 := fun _ _ _ => h16 _
  pred_b2 := fun _ _ => h17 _

end Cert.InputsFinite

end
-- ==== Proof.PreFinite.lean ====
/-
  The printed precondition read back: when "every float input has |x| < +∞ at every index" evaluates to the all-ones
  scalar, every entry of every float input is a real number.

  One array's test is: the absolute value compared (ordered less-than) with the +∞ word broadcast to the array's
  shape, the comparison reduced by `and` over all axes from the constant 1. If that reduction is 1 at the single
  result index, each compared element is 1, so `max x (-x) < ⊤` on the extended reals, which excludes `⊤` and `⊥`.
  The eighteen tests are joined by `and`; a conjunction of bits that is 1 has every conjunct 1.
-/
import proofs.«416875_j80633716015165_3_alg».proof.Pre_finite_inputs
import proofs.«416875_j80633716015165_3_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll

noncomputable section

open Idealize.ShloMosaic Idealize.ShloMosaic.ValueIdx
open Cert.Pre_finite_inputs

namespace Cert.PreFinite

/-- The rank-0 shape has one index. -/
instance subsingleton_S_ : Subsingleton S_.Idx := ⟨fun a b => funext fun d => d.elim0⟩

/-- An extended real whose absolute value is below `⊤` is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- The +∞ word of f32 denotes `⊤`. -/
theorem inf_word : Ideal.ofBits .f32 0x7F800000#32 = (⊤ : EReal) := by
  simp [Ideal.ofBits, Ideal.ieee]

/-- A conjunction of two rank-0 bits is 1 exactly when both are. -/
theorem andi_ix0 (x y : IVec S_ 1) : andi x y ix0 = 1#1 ↔ x ix0 = 1#1 ∧ y ix0 = 1#1 := IntOp.andi_eq_one

/-- One array's test: if `all (|x| < +∞)` is 1, every entry of `x` is real. Over any shape, any axes list reducing
    it to the rank-0 shape, and any witnesses of the broadcast and the reduction. -/
theorem real_of_all {s : Shape} {axes : List (Fin s.rank)} (x : FVec Ideal s .f32)
    (hb : S_.BroadcastsInDim s (![] : Fin 0 → Fin s.rank)) (h : s.ReducesTo axes S_) (hu : 0 < S_.numel)
    (e : Host.reduce IntOp.andi
          (cmpf .olt (Host.absf x) (broadcastInDim s ![] hb (constant (F := Ideal) S_ .f32 0x7F800000#32)))
          (constantI S_ 1 1#1) h hu ix0 = 1#1) :
    ∀ i, ∃ r : ℝ, x i = (r : EReal) := by
  intro i
  have hi := Host.reduce_andi_all _ _ h hu ix0 e i
  have hlt : max (x i) (-(x i)) < (⊤ : EReal) := by
    have h2 : Ideal.cmp .olt (max (x i) (-(x i))) (Ideal.ofBits .f32 0x7F800000#32) = 1#1 := hi
    rw [inf_word] at h2
    by_contra hn
    simp [Ideal.cmp, hn] at h2
  exact real_of_abs_lt_top _ hlt

/-- The precondition read back: all ones means every float input has only real entries. -/
theorem real_of_pre [Facts] (a0 : FVec Ideal S20000x2 .f32) (a1 : FVec Ideal S2x128 .f32) (a2 : FVec Ideal S128 .f32) (a3 : FVec Ideal S4 .f32) (a4 : FVec Ideal S4x128x128 .f32) (a5 : FVec Ideal S4x128 .f32) (a6 : FVec Ideal S4x128 .f32) (a7 : FVec Ideal S4x128 .f32) (a8 : FVec Ideal S4x128x128 .f32) (a9 : FVec Ideal S4x128 .f32) (a10 : FVec Ideal S4x128 .f32) (a11 : FVec Ideal S4x128 .f32) (a12 : FVec Ideal S4x128 .f32) (a13 : FVec Ideal S4x128 .f32) (a14 : FVec Ideal S5x256x128 .f32) (a15 : FVec Ideal S5x128 .f32) (a16 : FVec Ideal S5x128x2 .f32) (a17 : FVec Ideal S5x2 .f32)
    (a18 : IVec S320000 32) (a19 : IVec S320000 32)
    (h : Cert.Pre_finite_inputs.fn (F := Ideal) a0 a1 a2 a3 a4 a5 a6 a7 a8 a9 a10 a11 a12 a13 a14 a15 a16 a17 a18 a19 = (fun _ => 1#1)) :
    (∀ i, ∃ r : ℝ, a0 i = (r : EReal))
      ∧ (∀ i, ∃ r : ℝ, a1 i = (r : EReal))
      ∧ (∀ i, ∃ r : ℝ, a2 i = (r : EReal))
      ∧ (∀ i, ∃ r : ℝ, a3 i = (r : EReal))
      ∧ (∀ i, ∃ r : ℝ, a4 i = (r : EReal))
      ∧ (∀ i, ∃ r : ℝ, a5 i = (r : EReal))
      ∧ (∀ i, ∃ r : ℝ, a6 i = (r : EReal))
      ∧ (∀ i, ∃ r : ℝ, a7 i = (r : EReal))
      ∧ (∀ i, ∃ r : ℝ, a8 i = (r : EReal))
      ∧ (∀ i, ∃ r : ℝ, a9 i = (r : EReal))
      ∧ (∀ i, ∃ r : ℝ, a10 i = (r : EReal))
      ∧ (∀ i, ∃ r : ℝ, a11 i = (r : EReal))
      ∧ (∀ i, ∃ r : ℝ, a12 i = (r : EReal))
      ∧ (∀ i, ∃ r : ℝ, a13 i = (r : EReal))
      ∧ (∀ i, ∃ r : ℝ, a14 i = (r : EReal))
      ∧ (∀ i, ∃ r : ℝ, a15 i = (r : EReal))
      ∧ (∀ i, ∃ r : ℝ, a16 i = (r : EReal))
      ∧ (∀ i, ∃ r : ℝ, a17 i = (r : EReal)) := by
  have h0 := congrFun h ix0
  simp only [fn, fn_part1, fn_part2, fn_part3, fn_part4, fn_part5, andi_ix0] at h0
  obtain ⟨⟨⟨⟨⟨⟨⟨⟨⟨⟨⟨⟨⟨⟨⟨⟨⟨h_0, h_1⟩, h_2⟩, h_3⟩, h_4⟩, h_5⟩, h_6⟩, h_7⟩, h_8⟩, h_9⟩, h_10⟩, h_11⟩, h_12⟩, h_13⟩, h_14⟩, h_15⟩, h_16⟩, h_17⟩ := h0
  exact ⟨real_of_all _ _ _ _ h_0,
    real_of_all _ _ _ _ h_1,
    real_of_all _ _ _ _ h_2,
    real_of_all _ _ _ _ h_3,
    real_of_all _ _ _ _ h_4,
    real_of_all _ _ _ _ h_5,
    real_of_all _ _ _ _ h_6,
    real_of_all _ _ _ _ h_7,
    real_of_all _ _ _ _ h_8,
    real_of_all _ _ _ _ h_9,
    real_of_all _ _ _ _ h_10,
    real_of_all _ _ _ _ h_11,
    real_of_all _ _ _ _ h_12,
    real_of_all _ _ _ _ h_13,
    real_of_all _ _ _ _ h_14,
    real_of_all _ _ _ _ h_15,
    real_of_all _ _ _ _ h_16,
    real_of_all _ _ _ _ h_17⟩

end Cert.PreFinite

end
-- ==== Proof.KChainKeep.lean ====
/-
  What each stretch of host operations writes, and that every other buffer holds after the stretch what it held before;
  a region leaves every buffer but its outputs as entered. A reference is told apart from a list of references by its
  index among the buffers of its space.
-/
import proofs.«416875_j80633716015165_3_alg».proof.Proof.FrameKI

set_option maxRecDepth 16384
-- one declaration at a time: the passes over a region's windows are not elaborated side by side
set_option Elab.async false

noncomputable section

open Idealize.ShloMosaic Idealize.ShloMosaic.TcCoe
open Cert.KernelIdeal Cert.KernelIdeal.Gen

namespace Cert.KChain

variable {F : FTy → Type} [FloatOps F] (m : (ℓ : Loc nD τ sig) → Buf (Elt F) ℓ) (ρ : Dev nD → PrngReg) (c : Dev nD)

/-- A reference of a list, as a device buffer, is among the list's device buffers. -/
theorem sub_of_mem {L : List (Ref sig .tc)} {y : Ref sig .tc} (hy : y ∈ L) :
    ({Proc.devRef (τ := τ) .tc y} : Finset (DevRef τ sig)) ⊆ (L.map (Proc.devRef (τ := τ) .tc)).toFinset :=
  Finset.singleton_subset_iff.mpr (List.mem_toFinset.mpr (List.mem_map_of_mem hy))

/-- A reference whose index is not among a list's indices is not in the list. -/
theorem nm {r : Ref sig .tc} {L : List (Ref sig .tc)} (h : r.idx.val ∉ L.map fun y => y.idx.val) : r ∉ L :=
  fun hm => h (List.mem_map_of_mem (f := fun y : Ref sig .tc => y.idx.val) hm)

/-- A reference of index below 20 is not in a list of references of index 20 or more. -/
theorem nm_lt {r : Ref sig .tc} {L : List (Ref sig .tc)} (hr : r.idx.val < 20) (hL : ∀ y ∈ L, 20 ≤ y.idx.val) : r ∉ L :=
  fun hm => absurd (hL r hm) (by omega)

/-- The references the stretch hostOps0 writes, in order. -/
abbrev wr_hostOps0 : List (Ref sig .tc) :=
  [main_v0, main_v1, main_v2, main_v3, main_v4, main_v5, main_v6, main_v7, main_v8, main_v9]
theorem wr_hostOps0_sub : (hostOps0 (F := F)).Forall fun op => op.writes ⊆ (wr_hostOps0.map (Proc.devRef (τ := τ) .tc)).toFinset := by
  simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps0_ge : ∀ y ∈ wr_hostOps0, 20 ≤ y.idx.val := by decide
/-- A buffer the stretch hostOps0 does not write holds after it what it held before. -/
theorem keepW1 (r : Ref sig .tc) (hr : r ∉ wr_hostOps0) :
    W1 (F := F) m ρ c (Proc.devRef .tc r) = W0 (F := F) m ρ c (Proc.devRef .tc r) :=
  StableHlo.after_of_writes_sub _ _ wr_hostOps0_sub hr

/-- Region 0's output arrays. -/
abbrev outs0 : List (Ref sig .tc) := [main_v10_0, main_v10_1]
theorem outs0_spec : ∀ w, (cfg0.win w).isOut = true → Pipeline.arrRef spec0 w ∈ outs0 := by decide +kernel
theorem outs0_ge : ∀ y ∈ outs0, 20 ≤ y.idx.val := by decide
/-- Region 0 leaves every buffer but its outputs as entered. -/
theorem keepW2 (b : Ref sig .tc) (hb : b ∉ outs0) :
    W2 (F := F) m ρ c (Proc.devRef .tc b) = W1 (F := F) m ρ c (Proc.devRef .tc b) := by
  by_cases h : ∃ w, Pipeline.arrRef spec0 w = b
  · obtain ⟨w, rfl⟩ := h
    have hin : (cfg0.win w).isOut = false := by
      cases hw : (cfg0.win w).isOut with
      | false => rfl
      | true => exact absurd (outs0_spec w hw) hb
    exact (W2_arr m ρ c w).trans (((dat0 (V1 m ρ) c).arrAt_in w hin _).trans (A_eq0 (V1 m ρ) c w))
  · exact W2_of_ne m ρ c b fun w e => h ⟨w, e⟩

/-- The references the stretch hostOps1 writes, in order. -/
abbrev wr_hostOps1 : List (Ref sig .tc) :=
  [main_c, main_v11, main_v12, main_c_0, main_v13, main_v14, main_v15, main_v16, main_v17, main_v18, main_c_1, main_v19, main_v20, main_c_2, main_v21, main_v22, main_v23, main_v24, main_v25, main_v26, main_v27, main_v28, main_v29, main_v30, main_v31, main_v32]
theorem wr_hostOps1_sub : (hostOps1 (F := F)).Forall fun op => op.writes ⊆ (wr_hostOps1.map (Proc.devRef (τ := τ) .tc)).toFinset := by
  simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps1_ge : ∀ y ∈ wr_hostOps1, 20 ≤ y.idx.val := by decide
/-- A buffer the stretch hostOps1 does not write holds after it what it held before. -/
theorem keepW3 (r : Ref sig .tc) (hr : r ∉ wr_hostOps1) :
    W3 (F := F) m ρ c (Proc.devRef .tc r) = W2 (F := F) m ρ c (Proc.devRef .tc r) :=
  StableHlo.after_of_writes_sub _ _ wr_hostOps1_sub hr

/-- The references the stretch hostOps1_1 writes, in order. -/
abbrev wr_hostOps1_1 : List (Ref sig .tc) :=
  [main_call0_cst, main_call0_v0, main_v33]
theorem wr_hostOps1_1_sub : (hostOps1_1 (F := F)).Forall fun op => op.writes ⊆ (wr_hostOps1_1.map (Proc.devRef (τ := τ) .tc)).toFinset := by
  simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps1_1_ge : ∀ y ∈ wr_hostOps1_1, 20 ≤ y.idx.val := by decide
/-- A buffer the stretch hostOps1_1 does not write holds after it what it held before. -/
theorem keepW4 (r : Ref sig .tc) (hr : r ∉ wr_hostOps1_1) :
    W4 (F := F) m ρ c (Proc.devRef .tc r) = W3 (F := F) m ρ c (Proc.devRef .tc r) :=
  StableHlo.after_of_writes_sub _ _ wr_hostOps1_1_sub hr

/-- The references the stretch hostOps1_2 writes, in order. -/
abbrev wr_hostOps1_2 : List (Ref sig .tc) :=
  [main_v34, main_v35, main_v36, main_v37, main_v38, main_v39, main_v40, main_v41, main_c_3, main_v42, main_v43, main_c_4, main_v44, main_v45, main_v46, main_v47, main_v48, main_cst, main_v49, main_v50, main_v51, main_v52, main_v53, main_v54, main_v55, main_v56, main_v57, main_v58, main_v59]
theorem wr_hostOps1_2_sub : (hostOps1_2 (F := F)).Forall fun op => op.writes ⊆ (wr_hostOps1_2.map (Proc.devRef (τ := τ) .tc)).toFinset := by
  simp only [hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps1_2_ge : ∀ y ∈ wr_hostOps1_2, 20 ≤ y.idx.val := by decide
/-- A buffer the stretch hostOps1_2 does not write holds after it what it held before. -/
theorem keepW5 (r : Ref sig .tc) (hr : r ∉ wr_hostOps1_2) :
    W5 (F := F) m ρ c (Proc.devRef .tc r) = W4 (F := F) m ρ c (Proc.devRef .tc r) :=
  StableHlo.after_of_writes_sub _ _ wr_hostOps1_2_sub hr

/-- Region 1's output arrays. -/
abbrev outs1 : List (Ref sig .tc) := [main_v60_0, main_v60_1, main_v60_2]
theorem outs1_spec : ∀ w, (cfg1.win w).isOut = true → Pipeline.arrRef spec1 w ∈ outs1 := by decide +kernel
theorem outs1_ge : ∀ y ∈ outs1, 20 ≤ y.idx.val := by decide
/-- Region 1 leaves every buffer but its outputs as entered. -/
theorem keepW6 (b : Ref sig .tc) (hb : b ∉ outs1) :
    W6 (F := F) m ρ c (Proc.devRef .tc b) = W5 (F := F) m ρ c (Proc.devRef .tc b) := by
  by_cases h : ∃ w, Pipeline.arrRef spec1 w = b
  · obtain ⟨w, rfl⟩ := h
    have hin : (cfg1.win w).isOut = false := by
      cases hw : (cfg1.win w).isOut with
      | false => rfl
      | true => exact absurd (outs1_spec w hw) hb
    exact (W6_arr m ρ c w).trans (((dat1 (V5 m ρ) c).arrAt_in w hin _).trans (A_eq1 (V5 m ρ) c w))
  · exact W6_of_ne m ρ c b fun w e => h ⟨w, e⟩

/-- The references the stretch hostOps2 writes, in order. -/
abbrev wr_hostOps2 : List (Ref sig .tc) :=
  [main_cst_5, main_v61, main_cst_6, main_v62, main_v63, main_cst_7, main_v64, main_cst_8, main_v65, main_v66, main_cst_9, main_v67, main_v68, main_cst_10, main_v69, main_v70, main_v71, main_v72, main_cst_11, main_v73, main_v74, main_v75, main_v76, main_v77, main_v78, main_v79, main_v80, main_v81, main_v82, main_v83, main_v84, main_v85, main_v86, main_v87]
theorem wr_hostOps2_sub : (hostOps2 (F := F)).Forall fun op => op.writes ⊆ (wr_hostOps2.map (Proc.devRef (τ := τ) .tc)).toFinset := by
  simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps2_ge : ∀ y ∈ wr_hostOps2, 20 ≤ y.idx.val := by decide
/-- A buffer the stretch hostOps2 does not write holds after it what it held before. -/
theorem keepW7 (r : Ref sig .tc) (hr : r ∉ wr_hostOps2) :
    W7 (F := F) m ρ c (Proc.devRef .tc r) = W6 (F := F) m ρ c (Proc.devRef .tc r) :=
  StableHlo.after_of_writes_sub _ _ wr_hostOps2_sub hr

/-- Region 2's output arrays. -/
abbrev outs2 : List (Ref sig .tc) := [main_v88_0, main_v88_1, main_v88_2]
theorem outs2_spec : ∀ w, (cfg2.win w).isOut = true → Pipeline.arrRef spec2 w ∈ outs2 := by decide +kernel
theorem outs2_ge : ∀ y ∈ outs2, 20 ≤ y.idx.val := by decide
/-- Region 2 leaves every buffer but its outputs as entered. -/
theorem keepW8 (b : Ref sig .tc) (hb : b ∉ outs2) :
    W8 (F := F) m ρ c (Proc.devRef .tc b) = W7 (F := F) m ρ c (Proc.devRef .tc b) := by
  by_cases h : ∃ w, Pipeline.arrRef spec2 w = b
  · obtain ⟨w, rfl⟩ := h
    have hin : (cfg2.win w).isOut = false := by
      cases hw : (cfg2.win w).isOut with
      | false => rfl
      | true => exact absurd (outs2_spec w hw) hb
    exact (W8_arr m ρ c w).trans (((dat2 (V7 m ρ) c).arrAt_in w hin _).trans (A_eq2 (V7 m ρ) c w))
  · exact W8_of_ne m ρ c b fun w e => h ⟨w, e⟩

/-- The references the stretch hostOps3 writes, in order. -/
abbrev wr_hostOps3 : List (Ref sig .tc) :=
  [main_cst_12, main_v89, main_cst_13, main_v90, main_v91, main_cst_14, main_v92, main_cst_15, main_v93, main_v94, main_cst_16, main_v95, main_v96, main_cst_17, main_v97, main_v98, main_v99, main_v100, main_cst_18, main_v101, main_v102, main_v103, main_v104, main_v105, main_v106, main_v107, main_v108, main_v109, main_v110]
theorem wr_hostOps3_sub : (hostOps3 (F := F)).Forall fun op => op.writes ⊆ (wr_hostOps3.map (Proc.devRef (τ := τ) .tc)).toFinset := by
  simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps3_ge : ∀ y ∈ wr_hostOps3, 20 ≤ y.idx.val := by decide
/-- A buffer the stretch hostOps3 does not write holds after it what it held before. -/
theorem keepW9 (r : Ref sig .tc) (hr : r ∉ wr_hostOps3) :
    W9 (F := F) m ρ c (Proc.devRef .tc r) = W8 (F := F) m ρ c (Proc.devRef .tc r) :=
  StableHlo.after_of_writes_sub _ _ wr_hostOps3_sub hr

/-- Region 3's output arrays. -/
abbrev outs3 : List (Ref sig .tc) := [main_v111_0, main_v111_1, main_v111_2]
theorem outs3_spec : ∀ w, (cfg3.win w).isOut = true → Pipeline.arrRef spec3 w ∈ outs3 := by decide +kernel
theorem outs3_ge : ∀ y ∈ outs3, 20 ≤ y.idx.val := by decide
/-- Region 3 leaves every buffer but its outputs as entered. -/
theorem keepW10 (b : Ref sig .tc) (hb : b ∉ outs3) :
    W10 (F := F) m ρ c (Proc.devRef .tc b) = W9 (F := F) m ρ c (Proc.devRef .tc b) := by
  by_cases h : ∃ w, Pipeline.arrRef spec3 w = b
  · obtain ⟨w, rfl⟩ := h
    have hin : (cfg3.win w).isOut = false := by
      cases hw : (cfg3.win w).isOut with
      | false => rfl
      | true => exact absurd (outs3_spec w hw) hb
    exact (W10_arr m ρ c w).trans (((dat3 (V9 m ρ) c).arrAt_in w hin _).trans (A_eq3 (V9 m ρ) c w))
  · exact W10_of_ne m ρ c b fun w e => h ⟨w, e⟩

/-- The references the stretch hostOps4 writes, in order. -/
abbrev wr_hostOps4 : List (Ref sig .tc) :=
  [main_cst_19, main_v112, main_cst_20, main_v113, main_v114, main_cst_21, main_v115, main_cst_22, main_v116, main_v117, main_cst_23, main_v118, main_v119, main_cst_24, main_v120, main_v121, main_v122, main_v123, main_cst_25, main_v124, main_v125, main_v126, main_v127, main_v128, main_v129, main_v130, main_v131, main_v132, main_v133, main_v134, main_v135, main_v136, main_v137, main_v138, main_v139]
theorem wr_hostOps4_sub : (hostOps4 (F := F)).Forall fun op => op.writes ⊆ (wr_hostOps4.map (Proc.devRef (τ := τ) .tc)).toFinset := by
  simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps4_ge : ∀ y ∈ wr_hostOps4, 20 ≤ y.idx.val := by decide
/-- A buffer the stretch hostOps4 does not write holds after it what it held before. -/
theorem keepW11 (r : Ref sig .tc) (hr : r ∉ wr_hostOps4) :
    W11 (F := F) m ρ c (Proc.devRef .tc r) = W10 (F := F) m ρ c (Proc.devRef .tc r) :=
  StableHlo.after_of_writes_sub _ _ wr_hostOps4_sub hr

/-- Region 4's output arrays. -/
abbrev outs4 : List (Ref sig .tc) := [main_v140_0, main_v140_1, main_v140_2]
theorem outs4_spec : ∀ w, (cfg4.win w).isOut = true → Pipeline.arrRef spec4 w ∈ outs4 := by decide +kernel
theorem outs4_ge : ∀ y ∈ outs4, 20 ≤ y.idx.val := by decide
/-- Region 4 leaves every buffer but its outputs as entered. -/
theorem keepW12 (b : Ref sig .tc) (hb : b ∉ outs4) :
    W12 (F := F) m ρ c (Proc.devRef .tc b) = W11 (F := F) m ρ c (Proc.devRef .tc b) := by
  by_cases h : ∃ w, Pipeline.arrRef spec4 w = b
  · obtain ⟨w, rfl⟩ := h
    have hin : (cfg4.win w).isOut = false := by
      cases hw : (cfg4.win w).isOut with
      | false => rfl
      | true => exact absurd (outs4_spec w hw) hb
    exact (W12_arr m ρ c w).trans (((dat4 (V11 m ρ) c).arrAt_in w hin _).trans (A_eq4 (V11 m ρ) c w))
  · exact W12_of_ne m ρ c b fun w e => h ⟨w, e⟩

/-- The references the stretch hostOps5 writes, in order. -/
abbrev wr_hostOps5 : List (Ref sig .tc) :=
  [main_c_26, main_v141, main_v142, main_c_27, main_v143, main_v144, main_v145, main_v146, main_v147, main_v148, main_c_28, main_v149, main_v150, main_c_29, main_v151, main_v152, main_v153, main_v154, main_v155, main_v156, main_v157, main_v158, main_v159, main_v160, main_v161, main_v162]
theorem wr_hostOps5_sub : (hostOps5 (F := F)).Forall fun op => op.writes ⊆ (wr_hostOps5.map (Proc.devRef (τ := τ) .tc)).toFinset := by
  simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps5_ge : ∀ y ∈ wr_hostOps5, 20 ≤ y.idx.val := by decide
/-- A buffer the stretch hostOps5 does not write holds after it what it held before. -/
theorem keepW13 (r : Ref sig .tc) (hr : r ∉ wr_hostOps5) :
    W13 (F := F) m ρ c (Proc.devRef .tc r) = W12 (F := F) m ρ c (Proc.devRef .tc r) :=
  StableHlo.after_of_writes_sub _ _ wr_hostOps5_sub hr

/-- The references the stretch hostOps5_1 writes, in order. -/
abbrev wr_hostOps5_1 : List (Ref sig .tc) :=
  [main_call1_cst, main_call1_v0, main_v163]
theorem wr_hostOps5_1_sub : (hostOps5_1 (F := F)).Forall fun op => op.writes ⊆ (wr_hostOps5_1.map (Proc.devRef (τ := τ) .tc)).toFinset := by
  simp only [hostOps5_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps5_1_ge : ∀ y ∈ wr_hostOps5_1, 20 ≤ y.idx.val := by decide
/-- A buffer the stretch hostOps5_1 does not write holds after it what it held before. -/
theorem keepW14 (r : Ref sig .tc) (hr : r ∉ wr_hostOps5_1) :
    W14 (F := F) m ρ c (Proc.devRef .tc r) = W13 (F := F) m ρ c (Proc.devRef .tc r) :=
  StableHlo.after_of_writes_sub _ _ wr_hostOps5_1_sub hr

/-- The references the stretch hostOps5_2 writes, in order. -/
abbrev wr_hostOps5_2 : List (Ref sig .tc) :=
  [main_v164, main_v165, main_v166, main_v167, main_v168, main_v169, main_v170, main_v171, main_v172, main_c_30, main_v173, main_v174, main_c_31, main_v175, main_v176, main_v177, main_v178, main_v179, main_cst_32, main_v180, main_v181, main_v182, main_v183, main_v184, main_v185, main_v186, main_v187, main_v188, main_v189, main_v190]
theorem wr_hostOps5_2_sub : (hostOps5_2 (F := F)).Forall fun op => op.writes ⊆ (wr_hostOps5_2.map (Proc.devRef (τ := τ) .tc)).toFinset := by
  simp only [hostOps5_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps5_2_ge : ∀ y ∈ wr_hostOps5_2, 20 ≤ y.idx.val := by decide
/-- A buffer the stretch hostOps5_2 does not write holds after it what it held before. -/
theorem keepW15 (r : Ref sig .tc) (hr : r ∉ wr_hostOps5_2) :
    W15 (F := F) m ρ c (Proc.devRef .tc r) = W14 (F := F) m ρ c (Proc.devRef .tc r) :=
  StableHlo.after_of_writes_sub _ _ wr_hostOps5_2_sub hr

/-- Region 5's output arrays. -/
abbrev outs5 : List (Ref sig .tc) := [main_v191_0, main_v191_1, main_v191_2]
theorem outs5_spec : ∀ w, (cfg5.win w).isOut = true → Pipeline.arrRef spec5 w ∈ outs5 := by decide +kernel
theorem outs5_ge : ∀ y ∈ outs5, 20 ≤ y.idx.val := by decide
/-- Region 5 leaves every buffer but its outputs as entered. -/
theorem keepW16 (b : Ref sig .tc) (hb : b ∉ outs5) :
    W16 (F := F) m ρ c (Proc.devRef .tc b) = W15 (F := F) m ρ c (Proc.devRef .tc b) := by
  by_cases h : ∃ w, Pipeline.arrRef spec5 w = b
  · obtain ⟨w, rfl⟩ := h
    have hin : (cfg5.win w).isOut = false := by
      cases hw : (cfg5.win w).isOut with
      | false => rfl
      | true => exact absurd (outs5_spec w hw) hb
    exact (W16_arr m ρ c w).trans (((dat5 (V15 m ρ) c).arrAt_in w hin _).trans (A_eq5 (V15 m ρ) c w))
  · exact W16_of_ne m ρ c b fun w e => h ⟨w, e⟩

/-- The references the stretch hostOps6 writes, in order. -/
abbrev wr_hostOps6 : List (Ref sig .tc) :=
  [main_cst_33, main_v192, main_cst_34, main_v193, main_v194, main_cst_35, main_v195, main_cst_36, main_v196, main_v197, main_cst_37, main_v198, main_v199, main_cst_38, main_v200, main_v201, main_v202, main_v203, main_cst_39, main_v204, main_v205, main_v206, main_v207, main_v208, main_v209, main_v210, main_v211, main_v212, main_v213, main_v214, main_v215, main_v216, main_v217, main_v218]
theorem wr_hostOps6_sub : (hostOps6 (F := F)).Forall fun op => op.writes ⊆ (wr_hostOps6.map (Proc.devRef (τ := τ) .tc)).toFinset := by
  simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps6_ge : ∀ y ∈ wr_hostOps6, 20 ≤ y.idx.val := by decide
/-- A buffer the stretch hostOps6 does not write holds after it what it held before. -/
theorem keepW17 (r : Ref sig .tc) (hr : r ∉ wr_hostOps6) :
    W17 (F := F) m ρ c (Proc.devRef .tc r) = W16 (F := F) m ρ c (Proc.devRef .tc r) :=
  StableHlo.after_of_writes_sub _ _ wr_hostOps6_sub hr

/-- Region 6's output arrays. -/
abbrev outs6 : List (Ref sig .tc) := [main_v219_0, main_v219_1, main_v219_2]
theorem outs6_spec : ∀ w, (cfg6.win w).isOut = true → Pipeline.arrRef spec6 w ∈ outs6 := by decide +kernel
theorem outs6_ge : ∀ y ∈ outs6, 20 ≤ y.idx.val := by decide
/-- Region 6 leaves every buffer but its outputs as entered. -/
theorem keepW18 (b : Ref sig .tc) (hb : b ∉ outs6) :
    W18 (F := F) m ρ c (Proc.devRef .tc b) = W17 (F := F) m ρ c (Proc.devRef .tc b) := by
  by_cases h : ∃ w, Pipeline.arrRef spec6 w = b
  · obtain ⟨w, rfl⟩ := h
    have hin : (cfg6.win w).isOut = false := by
      cases hw : (cfg6.win w).isOut with
      | false => rfl
      | true => exact absurd (outs6_spec w hw) hb
    exact (W18_arr m ρ c w).trans (((dat6 (V17 m ρ) c).arrAt_in w hin _).trans (A_eq6 (V17 m ρ) c w))
  · exact W18_of_ne m ρ c b fun w e => h ⟨w, e⟩

/-- The references the stretch hostOps7 writes, in order. -/
abbrev wr_hostOps7 : List (Ref sig .tc) :=
  [main_cst_40, main_v220, main_cst_41, main_v221, main_v222, main_cst_42, main_v223, main_cst_43, main_v224, main_v225, main_cst_44, main_v226, main_v227, main_cst_45, main_v228, main_v229, main_v230, main_v231, main_cst_46, main_v232, main_v233, main_v234, main_v235, main_v236, main_v237, main_v238, main_v239, main_v240, main_v241]
theorem wr_hostOps7_sub : (hostOps7 (F := F)).Forall fun op => op.writes ⊆ (wr_hostOps7.map (Proc.devRef (τ := τ) .tc)).toFinset := by
  simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps7_ge : ∀ y ∈ wr_hostOps7, 20 ≤ y.idx.val := by decide
/-- A buffer the stretch hostOps7 does not write holds after it what it held before. -/
theorem keepW19 (r : Ref sig .tc) (hr : r ∉ wr_hostOps7) :
    W19 (F := F) m ρ c (Proc.devRef .tc r) = W18 (F := F) m ρ c (Proc.devRef .tc r) :=
  StableHlo.after_of_writes_sub _ _ wr_hostOps7_sub hr

/-- Region 7's output arrays. -/
abbrev outs7 : List (Ref sig .tc) := [main_v242_0, main_v242_1, main_v242_2]
theorem outs7_spec : ∀ w, (cfg7.win w).isOut = true → Pipeline.arrRef spec7 w ∈ outs7 := by decide +kernel
theorem outs7_ge : ∀ y ∈ outs7, 20 ≤ y.idx.val := by decide
/-- Region 7 leaves every buffer but its outputs as entered. -/
theorem keepW20 (b : Ref sig .tc) (hb : b ∉ outs7) :
    W20 (F := F) m ρ c (Proc.devRef .tc b) = W19 (F := F) m ρ c (Proc.devRef .tc b) := by
  by_cases h : ∃ w, Pipeline.arrRef spec7 w = b
  · obtain ⟨w, rfl⟩ := h
    have hin : (cfg7.win w).isOut = false := by
      cases hw : (cfg7.win w).isOut with
      | false => rfl
      | true => exact absurd (outs7_spec w hw) hb
    exact (W20_arr m ρ c w).trans (((dat7 (V19 m ρ) c).arrAt_in w hin _).trans (A_eq7 (V19 m ρ) c w))
  · exact W20_of_ne m ρ c b fun w e => h ⟨w, e⟩

/-- The references the stretch hostOps8 writes, in order. -/
abbrev wr_hostOps8 : List (Ref sig .tc) :=
  [main_cst_47, main_v243, main_cst_48, main_v244, main_v245, main_cst_49, main_v246, main_cst_50, main_v247, main_v248, main_cst_51, main_v249, main_v250, main_cst_52, main_v251, main_v252, main_v253, main_v254, main_cst_53, main_v255, main_v256, main_v257, main_v258, main_v259, main_v260, main_v261, main_v262, main_v263, main_v264, main_v265, main_v266, main_v267, main_v268, main_v269, main_v270]
theorem wr_hostOps8_sub : (hostOps8 (F := F)).Forall fun op => op.writes ⊆ (wr_hostOps8.map (Proc.devRef (τ := τ) .tc)).toFinset := by
  simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps8_ge : ∀ y ∈ wr_hostOps8, 20 ≤ y.idx.val := by decide
/-- A buffer the stretch hostOps8 does not write holds after it what it held before. -/
theorem keepW21 (r : Ref sig .tc) (hr : r ∉ wr_hostOps8) :
    W21 (F := F) m ρ c (Proc.devRef .tc r) = W20 (F := F) m ρ c (Proc.devRef .tc r) :=
  StableHlo.after_of_writes_sub _ _ wr_hostOps8_sub hr

/-- Region 8's output arrays. -/
abbrev outs8 : List (Ref sig .tc) := [main_v271_0, main_v271_1, main_v271_2]
theorem outs8_spec : ∀ w, (cfg8.win w).isOut = true → Pipeline.arrRef spec8 w ∈ outs8 := by decide +kernel
theorem outs8_ge : ∀ y ∈ outs8, 20 ≤ y.idx.val := by decide
/-- Region 8 leaves every buffer but its outputs as entered. -/
theorem keepW22 (b : Ref sig .tc) (hb : b ∉ outs8) :
    W22 (F := F) m ρ c (Proc.devRef .tc b) = W21 (F := F) m ρ c (Proc.devRef .tc b) := by
  by_cases h : ∃ w, Pipeline.arrRef spec8 w = b
  · obtain ⟨w, rfl⟩ := h
    have hin : (cfg8.win w).isOut = false := by
      cases hw : (cfg8.win w).isOut with
      | false => rfl
      | true => exact absurd (outs8_spec w hw) hb
    exact (W22_arr m ρ c w).trans (((dat8 (V21 m ρ) c).arrAt_in w hin _).trans (A_eq8 (V21 m ρ) c w))
  · exact W22_of_ne m ρ c b fun w e => h ⟨w, e⟩

/-- The references the stretch hostOps9 writes, in order. -/
abbrev wr_hostOps9 : List (Ref sig .tc) :=
  [main_c_54, main_v272, main_v273, main_c_55, main_v274, main_v275, main_v276, main_v277, main_v278, main_v279, main_c_56, main_v280, main_v281, main_c_57, main_v282, main_v283, main_v284, main_v285, main_v286, main_v287, main_v288, main_v289, main_v290, main_v291, main_v292, main_v293]
theorem wr_hostOps9_sub : (hostOps9 (F := F)).Forall fun op => op.writes ⊆ (wr_hostOps9.map (Proc.devRef (τ := τ) .tc)).toFinset := by
  simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps9_ge : ∀ y ∈ wr_hostOps9, 20 ≤ y.idx.val := by decide
/-- A buffer the stretch hostOps9 does not write holds after it what it held before. -/
theorem keepW23 (r : Ref sig .tc) (hr : r ∉ wr_hostOps9) :
    W23 (F := F) m ρ c (Proc.devRef .tc r) = W22 (F := F) m ρ c (Proc.devRef .tc r) :=
  StableHlo.after_of_writes_sub _ _ wr_hostOps9_sub hr

/-- The references the stretch hostOps9_1 writes, in order. -/
abbrev wr_hostOps9_1 : List (Ref sig .tc) :=
  [main_call2_cst, main_call2_v0, main_v294]
theorem wr_hostOps9_1_sub : (hostOps9_1 (F := F)).Forall fun op => op.writes ⊆ (wr_hostOps9_1.map (Proc.devRef (τ := τ) .tc)).toFinset := by
  simp only [hostOps9_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps9_1_ge : ∀ y ∈ wr_hostOps9_1, 20 ≤ y.idx.val := by decide
/-- A buffer the stretch hostOps9_1 does not write holds after it what it held before. -/
theorem keepW24 (r : Ref sig .tc) (hr : r ∉ wr_hostOps9_1) :
    W24 (F := F) m ρ c (Proc.devRef .tc r) = W23 (F := F) m ρ c (Proc.devRef .tc r) :=
  StableHlo.after_of_writes_sub _ _ wr_hostOps9_1_sub hr

/-- The references the stretch hostOps9_2 writes, in order. -/
abbrev wr_hostOps9_2 : List (Ref sig .tc) :=
  [main_v295, main_v296, main_v297, main_v298, main_v299, main_v300, main_v301, main_v302, main_v303, main_c_58, main_v304, main_v305, main_c_59, main_v306, main_v307, main_v308, main_v309, main_v310, main_cst_60, main_v311, main_v312, main_v313, main_v314, main_v315, main_v316, main_v317, main_v318, main_v319, main_v320, main_v321]
theorem wr_hostOps9_2_sub : (hostOps9_2 (F := F)).Forall fun op => op.writes ⊆ (wr_hostOps9_2.map (Proc.devRef (τ := τ) .tc)).toFinset := by
  simp only [hostOps9_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps9_2_ge : ∀ y ∈ wr_hostOps9_2, 20 ≤ y.idx.val := by decide
/-- A buffer the stretch hostOps9_2 does not write holds after it what it held before. -/
theorem keepW25 (r : Ref sig .tc) (hr : r ∉ wr_hostOps9_2) :
    W25 (F := F) m ρ c (Proc.devRef .tc r) = W24 (F := F) m ρ c (Proc.devRef .tc r) :=
  StableHlo.after_of_writes_sub _ _ wr_hostOps9_2_sub hr

/-- Region 9's output arrays. -/
abbrev outs9 : List (Ref sig .tc) := [main_v322_0, main_v322_1, main_v322_2]
theorem outs9_spec : ∀ w, (cfg9.win w).isOut = true → Pipeline.arrRef spec9 w ∈ outs9 := by decide +kernel
theorem outs9_ge : ∀ y ∈ outs9, 20 ≤ y.idx.val := by decide
/-- Region 9 leaves every buffer but its outputs as entered. -/
theorem keepW26 (b : Ref sig .tc) (hb : b ∉ outs9) :
    W26 (F := F) m ρ c (Proc.devRef .tc b) = W25 (F := F) m ρ c (Proc.devRef .tc b) := by
  by_cases h : ∃ w, Pipeline.arrRef spec9 w = b
  · obtain ⟨w, rfl⟩ := h
    have hin : (cfg9.win w).isOut = false := by
      cases hw : (cfg9.win w).isOut with
      | false => rfl
      | true => exact absurd (outs9_spec w hw) hb
    exact (W26_arr m ρ c w).trans (((dat9 (V25 m ρ) c).arrAt_in w hin _).trans (A_eq9 (V25 m ρ) c w))
  · exact W26_of_ne m ρ c b fun w e => h ⟨w, e⟩

/-- The references the stretch hostOps10 writes, in order. -/
abbrev wr_hostOps10 : List (Ref sig .tc) :=
  [main_cst_61, main_v323, main_cst_62, main_v324, main_v325, main_cst_63, main_v326, main_cst_64, main_v327, main_v328, main_cst_65, main_v329, main_v330, main_cst_66, main_v331, main_v332, main_v333, main_v334, main_cst_67, main_v335, main_v336, main_v337, main_v338, main_v339, main_v340, main_v341, main_v342, main_v343, main_v344, main_v345, main_v346, main_v347, main_v348, main_v349]
theorem wr_hostOps10_sub : (hostOps10 (F := F)).Forall fun op => op.writes ⊆ (wr_hostOps10.map (Proc.devRef (τ := τ) .tc)).toFinset := by
  simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps10_ge : ∀ y ∈ wr_hostOps10, 20 ≤ y.idx.val := by decide
/-- A buffer the stretch hostOps10 does not write holds after it what it held before. -/
theorem keepW27 (r : Ref sig .tc) (hr : r ∉ wr_hostOps10) :
    W27 (F := F) m ρ c (Proc.devRef .tc r) = W26 (F := F) m ρ c (Proc.devRef .tc r) :=
  StableHlo.after_of_writes_sub _ _ wr_hostOps10_sub hr

/-- Region 10's output arrays. -/
abbrev outs10 : List (Ref sig .tc) := [main_v350_0, main_v350_1, main_v350_2]
theorem outs10_spec : ∀ w, (cfg10.win w).isOut = true → Pipeline.arrRef spec10 w ∈ outs10 := by decide +kernel
theorem outs10_ge : ∀ y ∈ outs10, 20 ≤ y.idx.val := by decide
/-- Region 10 leaves every buffer but its outputs as entered. -/
theorem keepW28 (b : Ref sig .tc) (hb : b ∉ outs10) :
    W28 (F := F) m ρ c (Proc.devRef .tc b) = W27 (F := F) m ρ c (Proc.devRef .tc b) := by
  by_cases h : ∃ w, Pipeline.arrRef spec10 w = b
  · obtain ⟨w, rfl⟩ := h
    have hin : (cfg10.win w).isOut = false := by
      cases hw : (cfg10.win w).isOut with
      | false => rfl
      | true => exact absurd (outs10_spec w hw) hb
    exact (W28_arr m ρ c w).trans (((dat10 (V27 m ρ) c).arrAt_in w hin _).trans (A_eq10 (V27 m ρ) c w))
  · exact W28_of_ne m ρ c b fun w e => h ⟨w, e⟩

/-- The references the stretch hostOps11 writes, in order. -/
abbrev wr_hostOps11 : List (Ref sig .tc) :=
  [main_cst_68, main_v351, main_cst_69, main_v352, main_v353, main_cst_70, main_v354, main_cst_71, main_v355, main_v356, main_cst_72, main_v357, main_v358, main_cst_73, main_v359, main_v360, main_v361, main_v362, main_cst_74, main_v363, main_v364, main_v365, main_v366, main_v367, main_v368, main_v369, main_v370, main_v371, main_v372]
theorem wr_hostOps11_sub : (hostOps11 (F := F)).Forall fun op => op.writes ⊆ (wr_hostOps11.map (Proc.devRef (τ := τ) .tc)).toFinset := by
  simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps11_ge : ∀ y ∈ wr_hostOps11, 20 ≤ y.idx.val := by decide
/-- A buffer the stretch hostOps11 does not write holds after it what it held before. -/
theorem keepW29 (r : Ref sig .tc) (hr : r ∉ wr_hostOps11) :
    W29 (F := F) m ρ c (Proc.devRef .tc r) = W28 (F := F) m ρ c (Proc.devRef .tc r) :=
  StableHlo.after_of_writes_sub _ _ wr_hostOps11_sub hr

/-- Region 11's output arrays. -/
abbrev outs11 : List (Ref sig .tc) := [main_v373_0, main_v373_1, main_v373_2]
theorem outs11_spec : ∀ w, (cfg11.win w).isOut = true → Pipeline.arrRef spec11 w ∈ outs11 := by decide +kernel
theorem outs11_ge : ∀ y ∈ outs11, 20 ≤ y.idx.val := by decide
/-- Region 11 leaves every buffer but its outputs as entered. -/
theorem keepW30 (b : Ref sig .tc) (hb : b ∉ outs11) :
    W30 (F := F) m ρ c (Proc.devRef .tc b) = W29 (F := F) m ρ c (Proc.devRef .tc b) := by
  by_cases h : ∃ w, Pipeline.arrRef spec11 w = b
  · obtain ⟨w, rfl⟩ := h
    have hin : (cfg11.win w).isOut = false := by
      cases hw : (cfg11.win w).isOut with
      | false => rfl
      | true => exact absurd (outs11_spec w hw) hb
    exact (W30_arr m ρ c w).trans (((dat11 (V29 m ρ) c).arrAt_in w hin _).trans (A_eq11 (V29 m ρ) c w))
  · exact W30_of_ne m ρ c b fun w e => h ⟨w, e⟩

/-- The references the stretch hostOps12 writes, in order. -/
abbrev wr_hostOps12 : List (Ref sig .tc) :=
  [main_cst_75, main_v374, main_cst_76, main_v375, main_v376, main_cst_77, main_v377, main_cst_78, main_v378, main_v379, main_cst_79, main_v380, main_v381, main_cst_80, main_v382, main_v383, main_v384, main_v385, main_cst_81, main_v386, main_v387, main_v388, main_v389, main_v390, main_v391, main_v392, main_v393, main_v394, main_v395, main_v396, main_v397, main_v398, main_v399, main_v400, main_v401]
theorem wr_hostOps12_sub : (hostOps12 (F := F)).Forall fun op => op.writes ⊆ (wr_hostOps12.map (Proc.devRef (τ := τ) .tc)).toFinset := by
  simp only [hostOps12, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps12_ge : ∀ y ∈ wr_hostOps12, 20 ≤ y.idx.val := by decide
/-- A buffer the stretch hostOps12 does not write holds after it what it held before. -/
theorem keepW31 (r : Ref sig .tc) (hr : r ∉ wr_hostOps12) :
    W31 (F := F) m ρ c (Proc.devRef .tc r) = W30 (F := F) m ρ c (Proc.devRef .tc r) :=
  StableHlo.after_of_writes_sub _ _ wr_hostOps12_sub hr

/-- Region 12's output arrays. -/
abbrev outs12 : List (Ref sig .tc) := [main_v402_0, main_v402_1, main_v402_2]
theorem outs12_spec : ∀ w, (cfg12.win w).isOut = true → Pipeline.arrRef spec12 w ∈ outs12 := by decide +kernel
theorem outs12_ge : ∀ y ∈ outs12, 20 ≤ y.idx.val := by decide
/-- Region 12 leaves every buffer but its outputs as entered. -/
theorem keepW32 (b : Ref sig .tc) (hb : b ∉ outs12) :
    W32 (F := F) m ρ c (Proc.devRef .tc b) = W31 (F := F) m ρ c (Proc.devRef .tc b) := by
  by_cases h : ∃ w, Pipeline.arrRef spec12 w = b
  · obtain ⟨w, rfl⟩ := h
    have hin : (cfg12.win w).isOut = false := by
      cases hw : (cfg12.win w).isOut with
      | false => rfl
      | true => exact absurd (outs12_spec w hw) hb
    exact (W32_arr m ρ c w).trans (((dat12 (V31 m ρ) c).arrAt_in w hin _).trans (A_eq12 (V31 m ρ) c w))
  · exact W32_of_ne m ρ c b fun w e => h ⟨w, e⟩

/-- The references the stretch hostOps13 writes, in order. -/
abbrev wr_hostOps13 : List (Ref sig .tc) :=
  [main_c_82, main_v403, main_v404, main_c_83, main_v405, main_v406, main_v407, main_v408, main_v409, main_v410, main_c_84, main_v411, main_v412, main_c_85, main_v413, main_v414, main_v415, main_v416, main_v417, main_v418, main_v419, main_v420, main_v421, main_v422, main_v423, main_v424]
theorem wr_hostOps13_sub : (hostOps13 (F := F)).Forall fun op => op.writes ⊆ (wr_hostOps13.map (Proc.devRef (τ := τ) .tc)).toFinset := by
  simp only [hostOps13, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps13_ge : ∀ y ∈ wr_hostOps13, 20 ≤ y.idx.val := by decide
/-- A buffer the stretch hostOps13 does not write holds after it what it held before. -/
theorem keepW33 (r : Ref sig .tc) (hr : r ∉ wr_hostOps13) :
    W33 (F := F) m ρ c (Proc.devRef .tc r) = W32 (F := F) m ρ c (Proc.devRef .tc r) :=
  StableHlo.after_of_writes_sub _ _ wr_hostOps13_sub hr

/-- The references the stretch hostOps13_1 writes, in order. -/
abbrev wr_hostOps13_1 : List (Ref sig .tc) :=
  [main_call3_cst, main_call3_v0, main_v425]
theorem wr_hostOps13_1_sub : (hostOps13_1 (F := F)).Forall fun op => op.writes ⊆ (wr_hostOps13_1.map (Proc.devRef (τ := τ) .tc)).toFinset := by
  simp only [hostOps13_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps13_1_ge : ∀ y ∈ wr_hostOps13_1, 20 ≤ y.idx.val := by decide
/-- A buffer the stretch hostOps13_1 does not write holds after it what it held before. -/
theorem keepW34 (r : Ref sig .tc) (hr : r ∉ wr_hostOps13_1) :
    W34 (F := F) m ρ c (Proc.devRef .tc r) = W33 (F := F) m ρ c (Proc.devRef .tc r) :=
  StableHlo.after_of_writes_sub _ _ wr_hostOps13_1_sub hr

/-- The references the stretch hostOps13_2 writes, in order. -/
abbrev wr_hostOps13_2 : List (Ref sig .tc) :=
  [main_v426, main_v427, main_v428, main_v429, main_v430, main_v431, main_v432, main_v433, main_v434, main_c_86, main_v435, main_v436, main_c_87, main_v437, main_v438, main_v439, main_v440, main_v441, main_cst_88, main_v442, main_v443, main_v444, main_v445, main_v446, main_v447, main_v448, main_v449, main_v450, main_v451, main_v452]
theorem wr_hostOps13_2_sub : (hostOps13_2 (F := F)).Forall fun op => op.writes ⊆ (wr_hostOps13_2.map (Proc.devRef (τ := τ) .tc)).toFinset := by
  simp only [hostOps13_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps13_2_ge : ∀ y ∈ wr_hostOps13_2, 20 ≤ y.idx.val := by decide
/-- A buffer the stretch hostOps13_2 does not write holds after it what it held before. -/
theorem keepW35 (r : Ref sig .tc) (hr : r ∉ wr_hostOps13_2) :
    W35 (F := F) m ρ c (Proc.devRef .tc r) = W34 (F := F) m ρ c (Proc.devRef .tc r) :=
  StableHlo.after_of_writes_sub _ _ wr_hostOps13_2_sub hr

/-- Region 13's output arrays. -/
abbrev outs13 : List (Ref sig .tc) := [main_v453_0, main_v453_1, main_v453_2]
theorem outs13_spec : ∀ w, (cfg13.win w).isOut = true → Pipeline.arrRef spec13 w ∈ outs13 := by decide +kernel
theorem outs13_ge : ∀ y ∈ outs13, 20 ≤ y.idx.val := by decide
/-- Region 13 leaves every buffer but its outputs as entered. -/
theorem keepW36 (b : Ref sig .tc) (hb : b ∉ outs13) :
    W36 (F := F) m ρ c (Proc.devRef .tc b) = W35 (F := F) m ρ c (Proc.devRef .tc b) := by
  by_cases h : ∃ w, Pipeline.arrRef spec13 w = b
  · obtain ⟨w, rfl⟩ := h
    have hin : (cfg13.win w).isOut = false := by
      cases hw : (cfg13.win w).isOut with
      | false => rfl
      | true => exact absurd (outs13_spec w hw) hb
    exact (W36_arr m ρ c w).trans (((dat13 (V35 m ρ) c).arrAt_in w hin _).trans (A_eq13 (V35 m ρ) c w))
  · exact W36_of_ne m ρ c b fun w e => h ⟨w, e⟩

/-- The references the stretch hostOps14 writes, in order. -/
abbrev wr_hostOps14 : List (Ref sig .tc) :=
  [main_cst_89, main_v454, main_cst_90, main_v455, main_v456, main_cst_91, main_v457, main_cst_92, main_v458, main_v459, main_cst_93, main_v460, main_v461, main_cst_94, main_v462, main_v463, main_v464, main_v465, main_cst_95, main_v466, main_v467, main_v468, main_v469, main_v470, main_v471, main_v472, main_v473, main_v474, main_v475, main_v476, main_v477, main_v478, main_v479, main_v480]
theorem wr_hostOps14_sub : (hostOps14 (F := F)).Forall fun op => op.writes ⊆ (wr_hostOps14.map (Proc.devRef (τ := τ) .tc)).toFinset := by
  simp only [hostOps14, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps14_ge : ∀ y ∈ wr_hostOps14, 20 ≤ y.idx.val := by decide
/-- A buffer the stretch hostOps14 does not write holds after it what it held before. -/
theorem keepW37 (r : Ref sig .tc) (hr : r ∉ wr_hostOps14) :
    W37 (F := F) m ρ c (Proc.devRef .tc r) = W36 (F := F) m ρ c (Proc.devRef .tc r) :=
  StableHlo.after_of_writes_sub _ _ wr_hostOps14_sub hr

/-- Region 14's output arrays. -/
abbrev outs14 : List (Ref sig .tc) := [main_v481_0, main_v481_1, main_v481_2]
theorem outs14_spec : ∀ w, (cfg14.win w).isOut = true → Pipeline.arrRef spec14 w ∈ outs14 := by decide +kernel
theorem outs14_ge : ∀ y ∈ outs14, 20 ≤ y.idx.val := by decide
/-- Region 14 leaves every buffer but its outputs as entered. -/
theorem keepW38 (b : Ref sig .tc) (hb : b ∉ outs14) :
    W38 (F := F) m ρ c (Proc.devRef .tc b) = W37 (F := F) m ρ c (Proc.devRef .tc b) := by
  by_cases h : ∃ w, Pipeline.arrRef spec14 w = b
  · obtain ⟨w, rfl⟩ := h
    have hin : (cfg14.win w).isOut = false := by
      cases hw : (cfg14.win w).isOut with
      | false => rfl
      | true => exact absurd (outs14_spec w hw) hb
    exact (W38_arr m ρ c w).trans (((dat14 (V37 m ρ) c).arrAt_in w hin _).trans (A_eq14 (V37 m ρ) c w))
  · exact W38_of_ne m ρ c b fun w e => h ⟨w, e⟩

/-- The references the stretch hostOps15 writes, in order. -/
abbrev wr_hostOps15 : List (Ref sig .tc) :=
  [main_cst_96, main_v482, main_cst_97, main_v483, main_v484, main_cst_98, main_v485, main_cst_99, main_v486, main_v487, main_cst_100, main_v488, main_v489, main_cst_101, main_v490, main_v491, main_v492, main_v493, main_cst_102, main_v494, main_v495, main_v496, main_v497, main_v498, main_v499, main_v500, main_v501, main_v502, main_v503]
theorem wr_hostOps15_sub : (hostOps15 (F := F)).Forall fun op => op.writes ⊆ (wr_hostOps15.map (Proc.devRef (τ := τ) .tc)).toFinset := by
  simp only [hostOps15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps15_ge : ∀ y ∈ wr_hostOps15, 20 ≤ y.idx.val := by decide
/-- A buffer the stretch hostOps15 does not write holds after it what it held before. -/
theorem keepW39 (r : Ref sig .tc) (hr : r ∉ wr_hostOps15) :
    W39 (F := F) m ρ c (Proc.devRef .tc r) = W38 (F := F) m ρ c (Proc.devRef .tc r) :=
  StableHlo.after_of_writes_sub _ _ wr_hostOps15_sub hr

/-- Region 15's output arrays. -/
abbrev outs15 : List (Ref sig .tc) := [main_v504_0, main_v504_1, main_v504_2]
theorem outs15_spec : ∀ w, (cfg15.win w).isOut = true → Pipeline.arrRef spec15 w ∈ outs15 := by decide +kernel
theorem outs15_ge : ∀ y ∈ outs15, 20 ≤ y.idx.val := by decide
/-- Region 15 leaves every buffer but its outputs as entered. -/
theorem keepW40 (b : Ref sig .tc) (hb : b ∉ outs15) :
    W40 (F := F) m ρ c (Proc.devRef .tc b) = W39 (F := F) m ρ c (Proc.devRef .tc b) := by
  by_cases h : ∃ w, Pipeline.arrRef spec15 w = b
  · obtain ⟨w, rfl⟩ := h
    have hin : (cfg15.win w).isOut = false := by
      cases hw : (cfg15.win w).isOut with
      | false => rfl
      | true => exact absurd (outs15_spec w hw) hb
    exact (W40_arr m ρ c w).trans (((dat15 (V39 m ρ) c).arrAt_in w hin _).trans (A_eq15 (V39 m ρ) c w))
  · exact W40_of_ne m ρ c b fun w e => h ⟨w, e⟩

/-- The references the stretch hostOps16 writes, in order. -/
abbrev wr_hostOps16 : List (Ref sig .tc) :=
  [main_cst_103, main_v505, main_cst_104, main_v506, main_v507, main_cst_105, main_v508, main_cst_106, main_v509, main_v510, main_cst_107, main_v511, main_v512, main_cst_108, main_v513, main_v514, main_v515, main_v516, main_cst_109, main_v517, main_v518, main_v519, main_v520, main_v521, main_v522, main_v523, main_v524, main_v525, main_v526, main_v527, main_v528, main_v529, main_v530, main_v531, main_v532]
theorem wr_hostOps16_sub : (hostOps16 (F := F)).Forall fun op => op.writes ⊆ (wr_hostOps16.map (Proc.devRef (τ := τ) .tc)).toFinset := by
  simp only [hostOps16, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps16_ge : ∀ y ∈ wr_hostOps16, 20 ≤ y.idx.val := by decide
/-- A buffer the stretch hostOps16 does not write holds after it what it held before. -/
theorem keepW41 (r : Ref sig .tc) (hr : r ∉ wr_hostOps16) :
    W41 (F := F) m ρ c (Proc.devRef .tc r) = W40 (F := F) m ρ c (Proc.devRef .tc r) :=
  StableHlo.after_of_writes_sub _ _ wr_hostOps16_sub hr

/-- Region 16's output arrays. -/
abbrev outs16 : List (Ref sig .tc) := [main_v533_0, main_v533_1, main_v533_2]
theorem outs16_spec : ∀ w, (cfg16.win w).isOut = true → Pipeline.arrRef spec16 w ∈ outs16 := by decide +kernel
theorem outs16_ge : ∀ y ∈ outs16, 20 ≤ y.idx.val := by decide
/-- Region 16 leaves every buffer but its outputs as entered. -/
theorem keepW42 (b : Ref sig .tc) (hb : b ∉ outs16) :
    W42 (F := F) m ρ c (Proc.devRef .tc b) = W41 (F := F) m ρ c (Proc.devRef .tc b) := by
  by_cases h : ∃ w, Pipeline.arrRef spec16 w = b
  · obtain ⟨w, rfl⟩ := h
    have hin : (cfg16.win w).isOut = false := by
      cases hw : (cfg16.win w).isOut with
      | false => rfl
      | true => exact absurd (outs16_spec w hw) hb
    exact (W42_arr m ρ c w).trans (((dat16 (V41 m ρ) c).arrAt_in w hin _).trans (A_eq16 (V41 m ρ) c w))
  · exact W42_of_ne m ρ c b fun w e => h ⟨w, e⟩

/-- The references the stretch hostOps17 writes, in order. -/
abbrev wr_hostOps17 : List (Ref sig .tc) :=
  [main_c_110, main_v534, main_v535, main_c_111, main_v536, main_v537, main_v538, main_v539, main_v540, main_v541, main_c_112, main_v542, main_v543, main_c_113, main_v544, main_v545, main_v546, main_v547, main_v548, main_v549, main_v550, main_v551, main_v552, main_v553, main_v554, main_v555]
theorem wr_hostOps17_sub : (hostOps17 (F := F)).Forall fun op => op.writes ⊆ (wr_hostOps17.map (Proc.devRef (τ := τ) .tc)).toFinset := by
  simp only [hostOps17, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps17_ge : ∀ y ∈ wr_hostOps17, 20 ≤ y.idx.val := by decide
/-- A buffer the stretch hostOps17 does not write holds after it what it held before. -/
theorem keepW43 (r : Ref sig .tc) (hr : r ∉ wr_hostOps17) :
    W43 (F := F) m ρ c (Proc.devRef .tc r) = W42 (F := F) m ρ c (Proc.devRef .tc r) :=
  StableHlo.after_of_writes_sub _ _ wr_hostOps17_sub hr

/-- The references the stretch hostOps17_1 writes, in order. -/
abbrev wr_hostOps17_1 : List (Ref sig .tc) :=
  [main_call4_cst, main_call4_v0, main_v556]
theorem wr_hostOps17_1_sub : (hostOps17_1 (F := F)).Forall fun op => op.writes ⊆ (wr_hostOps17_1.map (Proc.devRef (τ := τ) .tc)).toFinset := by
  simp only [hostOps17_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps17_1_ge : ∀ y ∈ wr_hostOps17_1, 20 ≤ y.idx.val := by decide
/-- A buffer the stretch hostOps17_1 does not write holds after it what it held before. -/
theorem keepW44 (r : Ref sig .tc) (hr : r ∉ wr_hostOps17_1) :
    W44 (F := F) m ρ c (Proc.devRef .tc r) = W43 (F := F) m ρ c (Proc.devRef .tc r) :=
  StableHlo.after_of_writes_sub _ _ wr_hostOps17_1_sub hr

/-- The references the stretch hostOps17_2 writes, in order. -/
abbrev wr_hostOps17_2 : List (Ref sig .tc) :=
  [main_v557, main_v558, main_v559, main_v560, main_v561, main_v562, main_v563, main_v564, main_v565]
theorem wr_hostOps17_2_sub : (hostOps17_2 (F := F)).Forall fun op => op.writes ⊆ (wr_hostOps17_2.map (Proc.devRef (τ := τ) .tc)).toFinset := by
  simp only [hostOps17_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps17_2_ge : ∀ y ∈ wr_hostOps17_2, 20 ≤ y.idx.val := by decide
/-- A buffer the stretch hostOps17_2 does not write holds after it what it held before. -/
theorem keepW45 (r : Ref sig .tc) (hr : r ∉ wr_hostOps17_2) :
    W45 (F := F) m ρ c (Proc.devRef .tc r) = W44 (F := F) m ρ c (Proc.devRef .tc r) :=
  StableHlo.after_of_writes_sub _ _ wr_hostOps17_2_sub hr

end Cert.KChain

end
-- ==== Proof.KChainArgs.lean ====
/-
  No stretch of host operations and no region writes an argument (the arguments are the references of index below 20,
  everything written has index 20 or more): at every boundary of the run each argument holds its launch contents.
-/
import proofs.«416875_j80633716015165_3_alg».proof.Proof.KChainKeep

set_option maxRecDepth 16384
-- one declaration at a time: the passes over a region's windows are not elaborated side by side
set_option Elab.async false

noncomputable section

open Idealize.ShloMosaic Idealize.ShloMosaic.TcCoe
open Cert.KernelIdeal Cert.KernelIdeal.Gen

namespace Cert.KChain

variable {F : FTy → Type} [FloatOps F] (m : (ℓ : Loc nD τ sig) → Buf (Elt F) ℓ) (ρ : Dev nD → PrngReg) (c : Dev nD)

/-- The twenty argument references. -/
def argRefs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19]

/-- The valuation holds every argument's launch contents. -/
def ArgsKept (m : (ℓ : Loc nD τ sig) → Buf (Elt F) ℓ) (c : Dev nD) (V : Valuation τ sig (Elt F)) : Prop :=
  ∀ r ∈ argRefs, V (Proc.devRef .tc r) = m ((c : Thread nD τ).loc r)

/-- The arguments are the references of index below 20. -/
theorem argRefs_lt : ∀ r ∈ argRefs, r.idx.val < 20 := by decide

/-- At launch every argument holds its launch contents. -/
theorem argsW0 : ArgsKept m c (W0 (F := F) m ρ c) := fun _ _ => rfl

/-! ## One boundary to the next -/

theorem argsW1 (h : ArgsKept m c (W0 (F := F) m ρ c)) : ArgsKept m c (W1 (F := F) m ρ c) :=
  fun r hr => (keepW1 m ρ c r (nm_lt (argRefs_lt r hr) wr_hostOps0_ge)).trans (h r hr)
theorem argsW2 (h : ArgsKept m c (W1 (F := F) m ρ c)) : ArgsKept m c (W2 (F := F) m ρ c) :=
  fun r hr => (keepW2 m ρ c r (nm_lt (argRefs_lt r hr) outs0_ge)).trans (h r hr)
theorem argsW3 (h : ArgsKept m c (W2 (F := F) m ρ c)) : ArgsKept m c (W3 (F := F) m ρ c) :=
  fun r hr => (keepW3 m ρ c r (nm_lt (argRefs_lt r hr) wr_hostOps1_ge)).trans (h r hr)
theorem argsW4 (h : ArgsKept m c (W3 (F := F) m ρ c)) : ArgsKept m c (W4 (F := F) m ρ c) :=
  fun r hr => (keepW4 m ρ c r (nm_lt (argRefs_lt r hr) wr_hostOps1_1_ge)).trans (h r hr)
theorem argsW5 (h : ArgsKept m c (W4 (F := F) m ρ c)) : ArgsKept m c (W5 (F := F) m ρ c) :=
  fun r hr => (keepW5 m ρ c r (nm_lt (argRefs_lt r hr) wr_hostOps1_2_ge)).trans (h r hr)
theorem argsW6 (h : ArgsKept m c (W5 (F := F) m ρ c)) : ArgsKept m c (W6 (F := F) m ρ c) :=
  fun r hr => (keepW6 m ρ c r (nm_lt (argRefs_lt r hr) outs1_ge)).trans (h r hr)
theorem argsW7 (h : ArgsKept m c (W6 (F := F) m ρ c)) : ArgsKept m c (W7 (F := F) m ρ c) :=
  fun r hr => (keepW7 m ρ c r (nm_lt (argRefs_lt r hr) wr_hostOps2_ge)).trans (h r hr)
theorem argsW8 (h : ArgsKept m c (W7 (F := F) m ρ c)) : ArgsKept m c (W8 (F := F) m ρ c) :=
  fun r hr => (keepW8 m ρ c r (nm_lt (argRefs_lt r hr) outs2_ge)).trans (h r hr)
theorem argsW9 (h : ArgsKept m c (W8 (F := F) m ρ c)) : ArgsKept m c (W9 (F := F) m ρ c) :=
  fun r hr => (keepW9 m ρ c r (nm_lt (argRefs_lt r hr) wr_hostOps3_ge)).trans (h r hr)
theorem argsW10 (h : ArgsKept m c (W9 (F := F) m ρ c)) : ArgsKept m c (W10 (F := F) m ρ c) :=
  fun r hr => (keepW10 m ρ c r (nm_lt (argRefs_lt r hr) outs3_ge)).trans (h r hr)
theorem argsW11 (h : ArgsKept m c (W10 (F := F) m ρ c)) : ArgsKept m c (W11 (F := F) m ρ c) :=
  fun r hr => (keepW11 m ρ c r (nm_lt (argRefs_lt r hr) wr_hostOps4_ge)).trans (h r hr)
theorem argsW12 (h : ArgsKept m c (W11 (F := F) m ρ c)) : ArgsKept m c (W12 (F := F) m ρ c) :=
  fun r hr => (keepW12 m ρ c r (nm_lt (argRefs_lt r hr) outs4_ge)).trans (h r hr)
theorem argsW13 (h : ArgsKept m c (W12 (F := F) m ρ c)) : ArgsKept m c (W13 (F := F) m ρ c) :=
  fun r hr => (keepW13 m ρ c r (nm_lt (argRefs_lt r hr) wr_hostOps5_ge)).trans (h r hr)
theorem argsW14 (h : ArgsKept m c (W13 (F := F) m ρ c)) : ArgsKept m c (W14 (F := F) m ρ c) :=
  fun r hr => (keepW14 m ρ c r (nm_lt (argRefs_lt r hr) wr_hostOps5_1_ge)).trans (h r hr)
theorem argsW15 (h : ArgsKept m c (W14 (F := F) m ρ c)) : ArgsKept m c (W15 (F := F) m ρ c) :=
  fun r hr => (keepW15 m ρ c r (nm_lt (argRefs_lt r hr) wr_hostOps5_2_ge)).trans (h r hr)
theorem argsW16 (h : ArgsKept m c (W15 (F := F) m ρ c)) : ArgsKept m c (W16 (F := F) m ρ c) :=
  fun r hr => (keepW16 m ρ c r (nm_lt (argRefs_lt r hr) outs5_ge)).trans (h r hr)
theorem argsW17 (h : ArgsKept m c (W16 (F := F) m ρ c)) : ArgsKept m c (W17 (F := F) m ρ c) :=
  fun r hr => (keepW17 m ρ c r (nm_lt (argRefs_lt r hr) wr_hostOps6_ge)).trans (h r hr)
theorem argsW18 (h : ArgsKept m c (W17 (F := F) m ρ c)) : ArgsKept m c (W18 (F := F) m ρ c) :=
  fun r hr => (keepW18 m ρ c r (nm_lt (argRefs_lt r hr) outs6_ge)).trans (h r hr)
theorem argsW19 (h : ArgsKept m c (W18 (F := F) m ρ c)) : ArgsKept m c (W19 (F := F) m ρ c) :=
  fun r hr => (keepW19 m ρ c r (nm_lt (argRefs_lt r hr) wr_hostOps7_ge)).trans (h r hr)
theorem argsW20 (h : ArgsKept m c (W19 (F := F) m ρ c)) : ArgsKept m c (W20 (F := F) m ρ c) :=
  fun r hr => (keepW20 m ρ c r (nm_lt (argRefs_lt r hr) outs7_ge)).trans (h r hr)
theorem argsW21 (h : ArgsKept m c (W20 (F := F) m ρ c)) : ArgsKept m c (W21 (F := F) m ρ c) :=
  fun r hr => (keepW21 m ρ c r (nm_lt (argRefs_lt r hr) wr_hostOps8_ge)).trans (h r hr)
theorem argsW22 (h : ArgsKept m c (W21 (F := F) m ρ c)) : ArgsKept m c (W22 (F := F) m ρ c) :=
  fun r hr => (keepW22 m ρ c r (nm_lt (argRefs_lt r hr) outs8_ge)).trans (h r hr)
theorem argsW23 (h : ArgsKept m c (W22 (F := F) m ρ c)) : ArgsKept m c (W23 (F := F) m ρ c) :=
  fun r hr => (keepW23 m ρ c r (nm_lt (argRefs_lt r hr) wr_hostOps9_ge)).trans (h r hr)
theorem argsW24 (h : ArgsKept m c (W23 (F := F) m ρ c)) : ArgsKept m c (W24 (F := F) m ρ c) :=
  fun r hr => (keepW24 m ρ c r (nm_lt (argRefs_lt r hr) wr_hostOps9_1_ge)).trans (h r hr)
theorem argsW25 (h : ArgsKept m c (W24 (F := F) m ρ c)) : ArgsKept m c (W25 (F := F) m ρ c) :=
  fun r hr => (keepW25 m ρ c r (nm_lt (argRefs_lt r hr) wr_hostOps9_2_ge)).trans (h r hr)
theorem argsW26 (h : ArgsKept m c (W25 (F := F) m ρ c)) : ArgsKept m c (W26 (F := F) m ρ c) :=
  fun r hr => (keepW26 m ρ c r (nm_lt (argRefs_lt r hr) outs9_ge)).trans (h r hr)
theorem argsW27 (h : ArgsKept m c (W26 (F := F) m ρ c)) : ArgsKept m c (W27 (F := F) m ρ c) :=
  fun r hr => (keepW27 m ρ c r (nm_lt (argRefs_lt r hr) wr_hostOps10_ge)).trans (h r hr)
theorem argsW28 (h : ArgsKept m c (W27 (F := F) m ρ c)) : ArgsKept m c (W28 (F := F) m ρ c) :=
  fun r hr => (keepW28 m ρ c r (nm_lt (argRefs_lt r hr) outs10_ge)).trans (h r hr)
theorem argsW29 (h : ArgsKept m c (W28 (F := F) m ρ c)) : ArgsKept m c (W29 (F := F) m ρ c) :=
  fun r hr => (keepW29 m ρ c r (nm_lt (argRefs_lt r hr) wr_hostOps11_ge)).trans (h r hr)
theorem argsW30 (h : ArgsKept m c (W29 (F := F) m ρ c)) : ArgsKept m c (W30 (F := F) m ρ c) :=
  fun r hr => (keepW30 m ρ c r (nm_lt (argRefs_lt r hr) outs11_ge)).trans (h r hr)
theorem argsW31 (h : ArgsKept m c (W30 (F := F) m ρ c)) : ArgsKept m c (W31 (F := F) m ρ c) :=
  fun r hr => (keepW31 m ρ c r (nm_lt (argRefs_lt r hr) wr_hostOps12_ge)).trans (h r hr)
theorem argsW32 (h : ArgsKept m c (W31 (F := F) m ρ c)) : ArgsKept m c (W32 (F := F) m ρ c) :=
  fun r hr => (keepW32 m ρ c r (nm_lt (argRefs_lt r hr) outs12_ge)).trans (h r hr)
theorem argsW33 (h : ArgsKept m c (W32 (F := F) m ρ c)) : ArgsKept m c (W33 (F := F) m ρ c) :=
  fun r hr => (keepW33 m ρ c r (nm_lt (argRefs_lt r hr) wr_hostOps13_ge)).trans (h r hr)
theorem argsW34 (h : ArgsKept m c (W33 (F := F) m ρ c)) : ArgsKept m c (W34 (F := F) m ρ c) :=
  fun r hr => (keepW34 m ρ c r (nm_lt (argRefs_lt r hr) wr_hostOps13_1_ge)).trans (h r hr)
theorem argsW35 (h : ArgsKept m c (W34 (F := F) m ρ c)) : ArgsKept m c (W35 (F := F) m ρ c) :=
  fun r hr => (keepW35 m ρ c r (nm_lt (argRefs_lt r hr) wr_hostOps13_2_ge)).trans (h r hr)
theorem argsW36 (h : ArgsKept m c (W35 (F := F) m ρ c)) : ArgsKept m c (W36 (F := F) m ρ c) :=
  fun r hr => (keepW36 m ρ c r (nm_lt (argRefs_lt r hr) outs13_ge)).trans (h r hr)
theorem argsW37 (h : ArgsKept m c (W36 (F := F) m ρ c)) : ArgsKept m c (W37 (F := F) m ρ c) :=
  fun r hr => (keepW37 m ρ c r (nm_lt (argRefs_lt r hr) wr_hostOps14_ge)).trans (h r hr)
theorem argsW38 (h : ArgsKept m c (W37 (F := F) m ρ c)) : ArgsKept m c (W38 (F := F) m ρ c) :=
  fun r hr => (keepW38 m ρ c r (nm_lt (argRefs_lt r hr) outs14_ge)).trans (h r hr)
theorem argsW39 (h : ArgsKept m c (W38 (F := F) m ρ c)) : ArgsKept m c (W39 (F := F) m ρ c) :=
  fun r hr => (keepW39 m ρ c r (nm_lt (argRefs_lt r hr) wr_hostOps15_ge)).trans (h r hr)
theorem argsW40 (h : ArgsKept m c (W39 (F := F) m ρ c)) : ArgsKept m c (W40 (F := F) m ρ c) :=
  fun r hr => (keepW40 m ρ c r (nm_lt (argRefs_lt r hr) outs15_ge)).trans (h r hr)
theorem argsW41 (h : ArgsKept m c (W40 (F := F) m ρ c)) : ArgsKept m c (W41 (F := F) m ρ c) :=
  fun r hr => (keepW41 m ρ c r (nm_lt (argRefs_lt r hr) wr_hostOps16_ge)).trans (h r hr)
theorem argsW42 (h : ArgsKept m c (W41 (F := F) m ρ c)) : ArgsKept m c (W42 (F := F) m ρ c) :=
  fun r hr => (keepW42 m ρ c r (nm_lt (argRefs_lt r hr) outs16_ge)).trans (h r hr)
theorem argsW43 (h : ArgsKept m c (W42 (F := F) m ρ c)) : ArgsKept m c (W43 (F := F) m ρ c) :=
  fun r hr => (keepW43 m ρ c r (nm_lt (argRefs_lt r hr) wr_hostOps17_ge)).trans (h r hr)
theorem argsW44 (h : ArgsKept m c (W43 (F := F) m ρ c)) : ArgsKept m c (W44 (F := F) m ρ c) :=
  fun r hr => (keepW44 m ρ c r (nm_lt (argRefs_lt r hr) wr_hostOps17_1_ge)).trans (h r hr)
theorem argsW45 (h : ArgsKept m c (W44 (F := F) m ρ c)) : ArgsKept m c (W45 (F := F) m ρ c) :=
  fun r hr => (keepW45 m ρ c r (nm_lt (argRefs_lt r hr) wr_hostOps17_2_ge)).trans (h r hr)

/-! ## From the launch to every boundary -/

theorem W0_args : ArgsKept m c (W0 (F := F) m ρ c) := argsW0 m ρ c
theorem W1_args : ArgsKept m c (W1 (F := F) m ρ c) := argsW1 m ρ c (W0_args m ρ c)
theorem W2_args : ArgsKept m c (W2 (F := F) m ρ c) := argsW2 m ρ c (W1_args m ρ c)
theorem W3_args : ArgsKept m c (W3 (F := F) m ρ c) := argsW3 m ρ c (W2_args m ρ c)
theorem W4_args : ArgsKept m c (W4 (F := F) m ρ c) := argsW4 m ρ c (W3_args m ρ c)
theorem W5_args : ArgsKept m c (W5 (F := F) m ρ c) := argsW5 m ρ c (W4_args m ρ c)
theorem W6_args : ArgsKept m c (W6 (F := F) m ρ c) := argsW6 m ρ c (W5_args m ρ c)
theorem W7_args : ArgsKept m c (W7 (F := F) m ρ c) := argsW7 m ρ c (W6_args m ρ c)
theorem W8_args : ArgsKept m c (W8 (F := F) m ρ c) := argsW8 m ρ c (W7_args m ρ c)
theorem W9_args : ArgsKept m c (W9 (F := F) m ρ c) := argsW9 m ρ c (W8_args m ρ c)
theorem W10_args : ArgsKept m c (W10 (F := F) m ρ c) := argsW10 m ρ c (W9_args m ρ c)
theorem W11_args : ArgsKept m c (W11 (F := F) m ρ c) := argsW11 m ρ c (W10_args m ρ c)
theorem W12_args : ArgsKept m c (W12 (F := F) m ρ c) := argsW12 m ρ c (W11_args m ρ c)
theorem W13_args : ArgsKept m c (W13 (F := F) m ρ c) := argsW13 m ρ c (W12_args m ρ c)
theorem W14_args : ArgsKept m c (W14 (F := F) m ρ c) := argsW14 m ρ c (W13_args m ρ c)
theorem W15_args : ArgsKept m c (W15 (F := F) m ρ c) := argsW15 m ρ c (W14_args m ρ c)
theorem W16_args : ArgsKept m c (W16 (F := F) m ρ c) := argsW16 m ρ c (W15_args m ρ c)
theorem W17_args : ArgsKept m c (W17 (F := F) m ρ c) := argsW17 m ρ c (W16_args m ρ c)
theorem W18_args : ArgsKept m c (W18 (F := F) m ρ c) := argsW18 m ρ c (W17_args m ρ c)
theorem W19_args : ArgsKept m c (W19 (F := F) m ρ c) := argsW19 m ρ c (W18_args m ρ c)
theorem W20_args : ArgsKept m c (W20 (F := F) m ρ c) := argsW20 m ρ c (W19_args m ρ c)
theorem W21_args : ArgsKept m c (W21 (F := F) m ρ c) := argsW21 m ρ c (W20_args m ρ c)
theorem W22_args : ArgsKept m c (W22 (F := F) m ρ c) := argsW22 m ρ c (W21_args m ρ c)
theorem W23_args : ArgsKept m c (W23 (F := F) m ρ c) := argsW23 m ρ c (W22_args m ρ c)
theorem W24_args : ArgsKept m c (W24 (F := F) m ρ c) := argsW24 m ρ c (W23_args m ρ c)
theorem W25_args : ArgsKept m c (W25 (F := F) m ρ c) := argsW25 m ρ c (W24_args m ρ c)
theorem W26_args : ArgsKept m c (W26 (F := F) m ρ c) := argsW26 m ρ c (W25_args m ρ c)
theorem W27_args : ArgsKept m c (W27 (F := F) m ρ c) := argsW27 m ρ c (W26_args m ρ c)
theorem W28_args : ArgsKept m c (W28 (F := F) m ρ c) := argsW28 m ρ c (W27_args m ρ c)
theorem W29_args : ArgsKept m c (W29 (F := F) m ρ c) := argsW29 m ρ c (W28_args m ρ c)
theorem W30_args : ArgsKept m c (W30 (F := F) m ρ c) := argsW30 m ρ c (W29_args m ρ c)
theorem W31_args : ArgsKept m c (W31 (F := F) m ρ c) := argsW31 m ρ c (W30_args m ρ c)
theorem W32_args : ArgsKept m c (W32 (F := F) m ρ c) := argsW32 m ρ c (W31_args m ρ c)
theorem W33_args : ArgsKept m c (W33 (F := F) m ρ c) := argsW33 m ρ c (W32_args m ρ c)
theorem W34_args : ArgsKept m c (W34 (F := F) m ρ c) := argsW34 m ρ c (W33_args m ρ c)
theorem W35_args : ArgsKept m c (W35 (F := F) m ρ c) := argsW35 m ρ c (W34_args m ρ c)
theorem W36_args : ArgsKept m c (W36 (F := F) m ρ c) := argsW36 m ρ c (W35_args m ρ c)
theorem W37_args : ArgsKept m c (W37 (F := F) m ρ c) := argsW37 m ρ c (W36_args m ρ c)
theorem W38_args : ArgsKept m c (W38 (F := F) m ρ c) := argsW38 m ρ c (W37_args m ρ c)
theorem W39_args : ArgsKept m c (W39 (F := F) m ρ c) := argsW39 m ρ c (W38_args m ρ c)
theorem W40_args : ArgsKept m c (W40 (F := F) m ρ c) := argsW40 m ρ c (W39_args m ρ c)
theorem W41_args : ArgsKept m c (W41 (F := F) m ρ c) := argsW41 m ρ c (W40_args m ρ c)
theorem W42_args : ArgsKept m c (W42 (F := F) m ρ c) := argsW42 m ρ c (W41_args m ρ c)
theorem W43_args : ArgsKept m c (W43 (F := F) m ρ c) := argsW43 m ρ c (W42_args m ρ c)
theorem W44_args : ArgsKept m c (W44 (F := F) m ρ c) := argsW44 m ρ c (W43_args m ρ c)
theorem W45_args : ArgsKept m c (W45 (F := F) m ρ c) := argsW45 m ρ c (W44_args m ρ c)

end Cert.KChain

end
-- ==== Proof.KChainKeepK.lean ====
/-
  What each stretch of host operations writes, and that every other buffer holds after the stretch what it held before;
  a region leaves every buffer but its outputs as entered. A reference is told apart from a list of references by its
  index among the buffers of its space.
-/
import proofs.«416875_j80633716015165_3_alg».proof.Proof.FrameK

set_option maxRecDepth 16384
-- one declaration at a time: the passes over a region's windows are not elaborated side by side
set_option Elab.async false

noncomputable section

open Idealize.ShloMosaic Idealize.ShloMosaic.TcCoe
open Cert.Kernel Cert.Kernel.Gen

namespace Cert.KChainK

variable {F : FTy → Type} [FloatOps F] (m : (ℓ : Loc nD τ sig) → Buf (Elt F) ℓ) (ρ : Dev nD → PrngReg) (c : Dev nD)

/-- A reference of a list, as a device buffer, is among the list's device buffers. -/
theorem sub_of_mem {L : List (Ref sig .tc)} {y : Ref sig .tc} (hy : y ∈ L) :
    ({Proc.devRef (τ := τ) .tc y} : Finset (DevRef τ sig)) ⊆ (L.map (Proc.devRef (τ := τ) .tc)).toFinset :=
  Finset.singleton_subset_iff.mpr (List.mem_toFinset.mpr (List.mem_map_of_mem hy))

/-- A reference whose index is not among a list's indices is not in the list. -/
theorem nm {r : Ref sig .tc} {L : List (Ref sig .tc)} (h : r.idx.val ∉ L.map fun y => y.idx.val) : r ∉ L :=
  fun hm => h (List.mem_map_of_mem (f := fun y : Ref sig .tc => y.idx.val) hm)

/-- A reference of index below 20 is not in a list of references of index 20 or more. -/
theorem nm_lt {r : Ref sig .tc} {L : List (Ref sig .tc)} (hr : r.idx.val < 20) (hL : ∀ y ∈ L, 20 ≤ y.idx.val) : r ∉ L :=
  fun hm => absurd (hL r hm) (by omega)

/-- The references the stretch hostOps0 writes, in order. -/
abbrev wr_hostOps0 : List (Ref sig .tc) :=
  [main_v0, main_v1, main_v2, main_v3, main_v4, main_v5, main_v6, main_v7, main_v8, main_v9]
theorem wr_hostOps0_sub : (hostOps0 (F := F)).Forall fun op => op.writes ⊆ (wr_hostOps0.map (Proc.devRef (τ := τ) .tc)).toFinset := by
  simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps0_ge : ∀ y ∈ wr_hostOps0, 20 ≤ y.idx.val := by decide
/-- A buffer the stretch hostOps0 does not write holds after it what it held before. -/
theorem keepW1 (r : Ref sig .tc) (hr : r ∉ wr_hostOps0) :
    W1 (F := F) m ρ c (Proc.devRef .tc r) = W0 (F := F) m ρ c (Proc.devRef .tc r) :=
  StableHlo.after_of_writes_sub _ _ wr_hostOps0_sub hr

/-- Region 0's output arrays. -/
abbrev outs0 : List (Ref sig .tc) := [main_v10_0, main_v10_1]
theorem outs0_spec : ∀ w, (cfg0.win w).isOut = true → Pipeline.arrRef spec0 w ∈ outs0 := by decide +kernel
theorem outs0_ge : ∀ y ∈ outs0, 20 ≤ y.idx.val := by decide
/-- Region 0 leaves every buffer but its outputs as entered. -/
theorem keepW2 (b : Ref sig .tc) (hb : b ∉ outs0) :
    W2 (F := F) m ρ c (Proc.devRef .tc b) = W1 (F := F) m ρ c (Proc.devRef .tc b) := by
  by_cases h : ∃ w, Pipeline.arrRef spec0 w = b
  · obtain ⟨w, rfl⟩ := h
    have hin : (cfg0.win w).isOut = false := by
      cases hw : (cfg0.win w).isOut with
      | false => rfl
      | true => exact absurd (outs0_spec w hw) hb
    exact (W2_arr m ρ c w).trans (((dat0 (V1 m ρ) c).arrAt_in w hin _).trans (A_eq0 (V1 m ρ) c w))
  · exact W2_of_ne m ρ c b fun w e => h ⟨w, e⟩

/-- The references the stretch hostOps1 writes, in order. -/
abbrev wr_hostOps1 : List (Ref sig .tc) :=
  [main_c, main_v11, main_v12, main_c_0, main_v13, main_v14, main_v15, main_v16, main_v17, main_v18, main_c_1, main_v19, main_v20, main_c_2, main_v21, main_v22, main_v23, main_v24, main_v25, main_v26, main_v27, main_v28, main_v29, main_v30, main_v31, main_v32]
theorem wr_hostOps1_sub : (hostOps1 (F := F)).Forall fun op => op.writes ⊆ (wr_hostOps1.map (Proc.devRef (τ := τ) .tc)).toFinset := by
  simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps1_ge : ∀ y ∈ wr_hostOps1, 20 ≤ y.idx.val := by decide
/-- A buffer the stretch hostOps1 does not write holds after it what it held before. -/
theorem keepW3 (r : Ref sig .tc) (hr : r ∉ wr_hostOps1) :
    W3 (F := F) m ρ c (Proc.devRef .tc r) = W2 (F := F) m ρ c (Proc.devRef .tc r) :=
  StableHlo.after_of_writes_sub _ _ wr_hostOps1_sub hr

/-- The references the stretch hostOps1_1 writes, in order. -/
abbrev wr_hostOps1_1 : List (Ref sig .tc) :=
  [main_call0_cst, main_call0_v0, main_v33]
theorem wr_hostOps1_1_sub : (hostOps1_1 (F := F)).Forall fun op => op.writes ⊆ (wr_hostOps1_1.map (Proc.devRef (τ := τ) .tc)).toFinset := by
  simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps1_1_ge : ∀ y ∈ wr_hostOps1_1, 20 ≤ y.idx.val := by decide
/-- A buffer the stretch hostOps1_1 does not write holds after it what it held before. -/
theorem keepW4 (r : Ref sig .tc) (hr : r ∉ wr_hostOps1_1) :
    W4 (F := F) m ρ c (Proc.devRef .tc r) = W3 (F := F) m ρ c (Proc.devRef .tc r) :=
  StableHlo.after_of_writes_sub _ _ wr_hostOps1_1_sub hr

/-- The references the stretch hostOps1_2 writes, in order. -/
abbrev wr_hostOps1_2 : List (Ref sig .tc) :=
  [main_v34, main_v35, main_v36, main_v37, main_v38, main_v39, main_v40, main_v41, main_c_3, main_v42, main_v43, main_c_4, main_v44, main_v45, main_v46, main_v47, main_v48, main_cst, main_v49, main_v50, main_v51, main_v52, main_v53, main_v54, main_v55, main_v56, main_v57, main_v58, main_v59]
theorem wr_hostOps1_2_sub : (hostOps1_2 (F := F)).Forall fun op => op.writes ⊆ (wr_hostOps1_2.map (Proc.devRef (τ := τ) .tc)).toFinset := by
  simp only [hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps1_2_ge : ∀ y ∈ wr_hostOps1_2, 20 ≤ y.idx.val := by decide
/-- A buffer the stretch hostOps1_2 does not write holds after it what it held before. -/
theorem keepW5 (r : Ref sig .tc) (hr : r ∉ wr_hostOps1_2) :
    W5 (F := F) m ρ c (Proc.devRef .tc r) = W4 (F := F) m ρ c (Proc.devRef .tc r) :=
  StableHlo.after_of_writes_sub _ _ wr_hostOps1_2_sub hr

/-- Region 1's output arrays. -/
abbrev outs1 : List (Ref sig .tc) := [main_v60_0, main_v60_1, main_v60_2]
theorem outs1_spec : ∀ w, (cfg1.win w).isOut = true → Pipeline.arrRef spec1 w ∈ outs1 := by decide +kernel
theorem outs1_ge : ∀ y ∈ outs1, 20 ≤ y.idx.val := by decide
/-- Region 1 leaves every buffer but its outputs as entered. -/
theorem keepW6 (b : Ref sig .tc) (hb : b ∉ outs1) :
    W6 (F := F) m ρ c (Proc.devRef .tc b) = W5 (F := F) m ρ c (Proc.devRef .tc b) := by
  by_cases h : ∃ w, Pipeline.arrRef spec1 w = b
  · obtain ⟨w, rfl⟩ := h
    have hin : (cfg1.win w).isOut = false := by
      cases hw : (cfg1.win w).isOut with
      | false => rfl
      | true => exact absurd (outs1_spec w hw) hb
    exact (W6_arr m ρ c w).trans (((dat1 (V5 m ρ) c).arrAt_in w hin _).trans (A_eq1 (V5 m ρ) c w))
  · exact W6_of_ne m ρ c b fun w e => h ⟨w, e⟩

/-- The references the stretch hostOps2 writes, in order. -/
abbrev wr_hostOps2 : List (Ref sig .tc) :=
  [main_cst_5, main_v61, main_cst_6, main_v62, main_v63, main_cst_7, main_v64, main_cst_8, main_v65, main_v66, main_cst_9, main_v67, main_v68, main_cst_10, main_v69, main_v70, main_v71, main_v72, main_cst_11, main_v73, main_v74, main_v75, main_v76, main_v77, main_v78, main_v79, main_v80, main_v81, main_v82, main_v83, main_v84, main_v85, main_v86, main_v87]
theorem wr_hostOps2_sub : (hostOps2 (F := F)).Forall fun op => op.writes ⊆ (wr_hostOps2.map (Proc.devRef (τ := τ) .tc)).toFinset := by
  simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps2_ge : ∀ y ∈ wr_hostOps2, 20 ≤ y.idx.val := by decide
/-- A buffer the stretch hostOps2 does not write holds after it what it held before. -/
theorem keepW7 (r : Ref sig .tc) (hr : r ∉ wr_hostOps2) :
    W7 (F := F) m ρ c (Proc.devRef .tc r) = W6 (F := F) m ρ c (Proc.devRef .tc r) :=
  StableHlo.after_of_writes_sub _ _ wr_hostOps2_sub hr

/-- Region 2's output arrays. -/
abbrev outs2 : List (Ref sig .tc) := [main_v88_0, main_v88_1, main_v88_2]
theorem outs2_spec : ∀ w, (cfg2.win w).isOut = true → Pipeline.arrRef spec2 w ∈ outs2 := by decide +kernel
theorem outs2_ge : ∀ y ∈ outs2, 20 ≤ y.idx.val := by decide
/-- Region 2 leaves every buffer but its outputs as entered. -/
theorem keepW8 (b : Ref sig .tc) (hb : b ∉ outs2) :
    W8 (F := F) m ρ c (Proc.devRef .tc b) = W7 (F := F) m ρ c (Proc.devRef .tc b) := by
  by_cases h : ∃ w, Pipeline.arrRef spec2 w = b
  · obtain ⟨w, rfl⟩ := h
    have hin : (cfg2.win w).isOut = false := by
      cases hw : (cfg2.win w).isOut with
      | false => rfl
      | true => exact absurd (outs2_spec w hw) hb
    exact (W8_arr m ρ c w).trans (((dat2 (V7 m ρ) c).arrAt_in w hin _).trans (A_eq2 (V7 m ρ) c w))
  · exact W8_of_ne m ρ c b fun w e => h ⟨w, e⟩

/-- The references the stretch hostOps3 writes, in order. -/
abbrev wr_hostOps3 : List (Ref sig .tc) :=
  [main_cst_12, main_v89, main_cst_13, main_v90, main_v91, main_cst_14, main_v92, main_cst_15, main_v93, main_v94, main_cst_16, main_v95, main_v96, main_cst_17, main_v97, main_v98, main_v99, main_v100, main_cst_18, main_v101, main_v102, main_v103, main_v104, main_v105, main_v106, main_v107, main_v108, main_v109, main_v110]
theorem wr_hostOps3_sub : (hostOps3 (F := F)).Forall fun op => op.writes ⊆ (wr_hostOps3.map (Proc.devRef (τ := τ) .tc)).toFinset := by
  simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps3_ge : ∀ y ∈ wr_hostOps3, 20 ≤ y.idx.val := by decide
/-- A buffer the stretch hostOps3 does not write holds after it what it held before. -/
theorem keepW9 (r : Ref sig .tc) (hr : r ∉ wr_hostOps3) :
    W9 (F := F) m ρ c (Proc.devRef .tc r) = W8 (F := F) m ρ c (Proc.devRef .tc r) :=
  StableHlo.after_of_writes_sub _ _ wr_hostOps3_sub hr

/-- Region 3's output arrays. -/
abbrev outs3 : List (Ref sig .tc) := [main_v111_0, main_v111_1, main_v111_2]
theorem outs3_spec : ∀ w, (cfg3.win w).isOut = true → Pipeline.arrRef spec3 w ∈ outs3 := by decide +kernel
theorem outs3_ge : ∀ y ∈ outs3, 20 ≤ y.idx.val := by decide
/-- Region 3 leaves every buffer but its outputs as entered. -/
theorem keepW10 (b : Ref sig .tc) (hb : b ∉ outs3) :
    W10 (F := F) m ρ c (Proc.devRef .tc b) = W9 (F := F) m ρ c (Proc.devRef .tc b) := by
  by_cases h : ∃ w, Pipeline.arrRef spec3 w = b
  · obtain ⟨w, rfl⟩ := h
    have hin : (cfg3.win w).isOut = false := by
      cases hw : (cfg3.win w).isOut with
      | false => rfl
      | true => exact absurd (outs3_spec w hw) hb
    exact (W10_arr m ρ c w).trans (((dat3 (V9 m ρ) c).arrAt_in w hin _).trans (A_eq3 (V9 m ρ) c w))
  · exact W10_of_ne m ρ c b fun w e => h ⟨w, e⟩

/-- The references the stretch hostOps4 writes, in order. -/
abbrev wr_hostOps4 : List (Ref sig .tc) :=
  [main_cst_19, main_v112, main_cst_20, main_v113, main_v114, main_cst_21, main_v115, main_cst_22, main_v116, main_v117, main_cst_23, main_v118, main_v119, main_cst_24, main_v120, main_v121, main_v122, main_v123, main_cst_25, main_v124, main_v125, main_v126, main_v127, main_v128, main_v129, main_v130, main_v131, main_v132, main_v133, main_v134, main_v135, main_v136, main_v137, main_v138, main_v139]
theorem wr_hostOps4_sub : (hostOps4 (F := F)).Forall fun op => op.writes ⊆ (wr_hostOps4.map (Proc.devRef (τ := τ) .tc)).toFinset := by
  simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps4_ge : ∀ y ∈ wr_hostOps4, 20 ≤ y.idx.val := by decide
/-- A buffer the stretch hostOps4 does not write holds after it what it held before. -/
theorem keepW11 (r : Ref sig .tc) (hr : r ∉ wr_hostOps4) :
    W11 (F := F) m ρ c (Proc.devRef .tc r) = W10 (F := F) m ρ c (Proc.devRef .tc r) :=
  StableHlo.after_of_writes_sub _ _ wr_hostOps4_sub hr

/-- Region 4's output arrays. -/
abbrev outs4 : List (Ref sig .tc) := [main_v140_0, main_v140_1, main_v140_2]
theorem outs4_spec : ∀ w, (cfg4.win w).isOut = true → Pipeline.arrRef spec4 w ∈ outs4 := by decide +kernel
theorem outs4_ge : ∀ y ∈ outs4, 20 ≤ y.idx.val := by decide
/-- Region 4 leaves every buffer but its outputs as entered. -/
theorem keepW12 (b : Ref sig .tc) (hb : b ∉ outs4) :
    W12 (F := F) m ρ c (Proc.devRef .tc b) = W11 (F := F) m ρ c (Proc.devRef .tc b) := by
  by_cases h : ∃ w, Pipeline.arrRef spec4 w = b
  · obtain ⟨w, rfl⟩ := h
    have hin : (cfg4.win w).isOut = false := by
      cases hw : (cfg4.win w).isOut with
      | false => rfl
      | true => exact absurd (outs4_spec w hw) hb
    exact (W12_arr m ρ c w).trans (((dat4 (V11 m ρ) c).arrAt_in w hin _).trans (A_eq4 (V11 m ρ) c w))
  · exact W12_of_ne m ρ c b fun w e => h ⟨w, e⟩

/-- The references the stretch hostOps5 writes, in order. -/
abbrev wr_hostOps5 : List (Ref sig .tc) :=
  [main_c_26, main_v141, main_v142, main_c_27, main_v143, main_v144, main_v145, main_v146, main_v147, main_v148, main_c_28, main_v149, main_v150, main_c_29, main_v151, main_v152, main_v153, main_v154, main_v155, main_v156, main_v157, main_v158, main_v159, main_v160, main_v161, main_v162]
theorem wr_hostOps5_sub : (hostOps5 (F := F)).Forall fun op => op.writes ⊆ (wr_hostOps5.map (Proc.devRef (τ := τ) .tc)).toFinset := by
  simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps5_ge : ∀ y ∈ wr_hostOps5, 20 ≤ y.idx.val := by decide
/-- A buffer the stretch hostOps5 does not write holds after it what it held before. -/
theorem keepW13 (r : Ref sig .tc) (hr : r ∉ wr_hostOps5) :
    W13 (F := F) m ρ c (Proc.devRef .tc r) = W12 (F := F) m ρ c (Proc.devRef .tc r) :=
  StableHlo.after_of_writes_sub _ _ wr_hostOps5_sub hr

/-- The references the stretch hostOps5_1 writes, in order. -/
abbrev wr_hostOps5_1 : List (Ref sig .tc) :=
  [main_call1_cst, main_call1_v0, main_v163]
theorem wr_hostOps5_1_sub : (hostOps5_1 (F := F)).Forall fun op => op.writes ⊆ (wr_hostOps5_1.map (Proc.devRef (τ := τ) .tc)).toFinset := by
  simp only [hostOps5_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps5_1_ge : ∀ y ∈ wr_hostOps5_1, 20 ≤ y.idx.val := by decide
/-- A buffer the stretch hostOps5_1 does not write holds after it what it held before. -/
theorem keepW14 (r : Ref sig .tc) (hr : r ∉ wr_hostOps5_1) :
    W14 (F := F) m ρ c (Proc.devRef .tc r) = W13 (F := F) m ρ c (Proc.devRef .tc r) :=
  StableHlo.after_of_writes_sub _ _ wr_hostOps5_1_sub hr

/-- The references the stretch hostOps5_2 writes, in order. -/
abbrev wr_hostOps5_2 : List (Ref sig .tc) :=
  [main_v164, main_v165, main_v166, main_v167, main_v168, main_v169, main_v170, main_v171, main_v172, main_c_30, main_v173, main_v174, main_c_31, main_v175, main_v176, main_v177, main_v178, main_v179, main_cst_32, main_v180, main_v181, main_v182, main_v183, main_v184, main_v185, main_v186, main_v187, main_v188, main_v189, main_v190]
theorem wr_hostOps5_2_sub : (hostOps5_2 (F := F)).Forall fun op => op.writes ⊆ (wr_hostOps5_2.map (Proc.devRef (τ := τ) .tc)).toFinset := by
  simp only [hostOps5_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps5_2_ge : ∀ y ∈ wr_hostOps5_2, 20 ≤ y.idx.val := by decide
/-- A buffer the stretch hostOps5_2 does not write holds after it what it held before. -/
theorem keepW15 (r : Ref sig .tc) (hr : r ∉ wr_hostOps5_2) :
    W15 (F := F) m ρ c (Proc.devRef .tc r) = W14 (F := F) m ρ c (Proc.devRef .tc r) :=
  StableHlo.after_of_writes_sub _ _ wr_hostOps5_2_sub hr

/-- Region 5's output arrays. -/
abbrev outs5 : List (Ref sig .tc) := [main_v191_0, main_v191_1, main_v191_2]
theorem outs5_spec : ∀ w, (cfg5.win w).isOut = true → Pipeline.arrRef spec5 w ∈ outs5 := by decide +kernel
theorem outs5_ge : ∀ y ∈ outs5, 20 ≤ y.idx.val := by decide
/-- Region 5 leaves every buffer but its outputs as entered. -/
theorem keepW16 (b : Ref sig .tc) (hb : b ∉ outs5) :
    W16 (F := F) m ρ c (Proc.devRef .tc b) = W15 (F := F) m ρ c (Proc.devRef .tc b) := by
  by_cases h : ∃ w, Pipeline.arrRef spec5 w = b
  · obtain ⟨w, rfl⟩ := h
    have hin : (cfg5.win w).isOut = false := by
      cases hw : (cfg5.win w).isOut with
      | false => rfl
      | true => exact absurd (outs5_spec w hw) hb
    exact (W16_arr m ρ c w).trans (((dat5 (V15 m ρ) c).arrAt_in w hin _).trans (A_eq5 (V15 m ρ) c w))
  · exact W16_of_ne m ρ c b fun w e => h ⟨w, e⟩

/-- The references the stretch hostOps6 writes, in order. -/
abbrev wr_hostOps6 : List (Ref sig .tc) :=
  [main_cst_33, main_v192, main_cst_34, main_v193, main_v194, main_cst_35, main_v195, main_cst_36, main_v196, main_v197, main_cst_37, main_v198, main_v199, main_cst_38, main_v200, main_v201, main_v202, main_v203, main_cst_39, main_v204, main_v205, main_v206, main_v207, main_v208, main_v209, main_v210, main_v211, main_v212, main_v213, main_v214, main_v215, main_v216, main_v217, main_v218]
theorem wr_hostOps6_sub : (hostOps6 (F := F)).Forall fun op => op.writes ⊆ (wr_hostOps6.map (Proc.devRef (τ := τ) .tc)).toFinset := by
  simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps6_ge : ∀ y ∈ wr_hostOps6, 20 ≤ y.idx.val := by decide
/-- A buffer the stretch hostOps6 does not write holds after it what it held before. -/
theorem keepW17 (r : Ref sig .tc) (hr : r ∉ wr_hostOps6) :
    W17 (F := F) m ρ c (Proc.devRef .tc r) = W16 (F := F) m ρ c (Proc.devRef .tc r) :=
  StableHlo.after_of_writes_sub _ _ wr_hostOps6_sub hr

/-- Region 6's output arrays. -/
abbrev outs6 : List (Ref sig .tc) := [main_v219_0, main_v219_1, main_v219_2]
theorem outs6_spec : ∀ w, (cfg6.win w).isOut = true → Pipeline.arrRef spec6 w ∈ outs6 := by decide +kernel
theorem outs6_ge : ∀ y ∈ outs6, 20 ≤ y.idx.val := by decide
/-- Region 6 leaves every buffer but its outputs as entered. -/
theorem keepW18 (b : Ref sig .tc) (hb : b ∉ outs6) :
    W18 (F := F) m ρ c (Proc.devRef .tc b) = W17 (F := F) m ρ c (Proc.devRef .tc b) := by
  by_cases h : ∃ w, Pipeline.arrRef spec6 w = b
  · obtain ⟨w, rfl⟩ := h
    have hin : (cfg6.win w).isOut = false := by
      cases hw : (cfg6.win w).isOut with
      | false => rfl
      | true => exact absurd (outs6_spec w hw) hb
    exact (W18_arr m ρ c w).trans (((dat6 (V17 m ρ) c).arrAt_in w hin _).trans (A_eq6 (V17 m ρ) c w))
  · exact W18_of_ne m ρ c b fun w e => h ⟨w, e⟩

/-- The references the stretch hostOps7 writes, in order. -/
abbrev wr_hostOps7 : List (Ref sig .tc) :=
  [main_cst_40, main_v220, main_cst_41, main_v221, main_v222, main_cst_42, main_v223, main_cst_43, main_v224, main_v225, main_cst_44, main_v226, main_v227, main_cst_45, main_v228, main_v229, main_v230, main_v231, main_cst_46, main_v232, main_v233, main_v234, main_v235, main_v236, main_v237, main_v238, main_v239, main_v240, main_v241]
theorem wr_hostOps7_sub : (hostOps7 (F := F)).Forall fun op => op.writes ⊆ (wr_hostOps7.map (Proc.devRef (τ := τ) .tc)).toFinset := by
  simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps7_ge : ∀ y ∈ wr_hostOps7, 20 ≤ y.idx.val := by decide
/-- A buffer the stretch hostOps7 does not write holds after it what it held before. -/
theorem keepW19 (r : Ref sig .tc) (hr : r ∉ wr_hostOps7) :
    W19 (F := F) m ρ c (Proc.devRef .tc r) = W18 (F := F) m ρ c (Proc.devRef .tc r) :=
  StableHlo.after_of_writes_sub _ _ wr_hostOps7_sub hr

/-- Region 7's output arrays. -/
abbrev outs7 : List (Ref sig .tc) := [main_v242_0, main_v242_1, main_v242_2]
theorem outs7_spec : ∀ w, (cfg7.win w).isOut = true → Pipeline.arrRef spec7 w ∈ outs7 := by decide +kernel
theorem outs7_ge : ∀ y ∈ outs7, 20 ≤ y.idx.val := by decide
/-- Region 7 leaves every buffer but its outputs as entered. -/
theorem keepW20 (b : Ref sig .tc) (hb : b ∉ outs7) :
    W20 (F := F) m ρ c (Proc.devRef .tc b) = W19 (F := F) m ρ c (Proc.devRef .tc b) := by
  by_cases h : ∃ w, Pipeline.arrRef spec7 w = b
  · obtain ⟨w, rfl⟩ := h
    have hin : (cfg7.win w).isOut = false := by
      cases hw : (cfg7.win w).isOut with
      | false => rfl
      | true => exact absurd (outs7_spec w hw) hb
    exact (W20_arr m ρ c w).trans (((dat7 (V19 m ρ) c).arrAt_in w hin _).trans (A_eq7 (V19 m ρ) c w))
  · exact W20_of_ne m ρ c b fun w e => h ⟨w, e⟩

/-- The references the stretch hostOps8 writes, in order. -/
abbrev wr_hostOps8 : List (Ref sig .tc) :=
  [main_cst_47, main_v243, main_cst_48, main_v244, main_v245, main_cst_49, main_v246, main_cst_50, main_v247, main_v248, main_cst_51, main_v249, main_v250, main_cst_52, main_v251, main_v252, main_v253, main_v254, main_cst_53, main_v255, main_v256, main_v257, main_v258, main_v259, main_v260, main_v261, main_v262, main_v263, main_v264, main_v265, main_v266, main_v267, main_v268, main_v269, main_v270]
theorem wr_hostOps8_sub : (hostOps8 (F := F)).Forall fun op => op.writes ⊆ (wr_hostOps8.map (Proc.devRef (τ := τ) .tc)).toFinset := by
  simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps8_ge : ∀ y ∈ wr_hostOps8, 20 ≤ y.idx.val := by decide
/-- A buffer the stretch hostOps8 does not write holds after it what it held before. -/
theorem keepW21 (r : Ref sig .tc) (hr : r ∉ wr_hostOps8) :
    W21 (F := F) m ρ c (Proc.devRef .tc r) = W20 (F := F) m ρ c (Proc.devRef .tc r) :=
  StableHlo.after_of_writes_sub _ _ wr_hostOps8_sub hr

/-- Region 8's output arrays. -/
abbrev outs8 : List (Ref sig .tc) := [main_v271_0, main_v271_1, main_v271_2]
theorem outs8_spec : ∀ w, (cfg8.win w).isOut = true → Pipeline.arrRef spec8 w ∈ outs8 := by decide +kernel
theorem outs8_ge : ∀ y ∈ outs8, 20 ≤ y.idx.val := by decide
/-- Region 8 leaves every buffer but its outputs as entered. -/
theorem keepW22 (b : Ref sig .tc) (hb : b ∉ outs8) :
    W22 (F := F) m ρ c (Proc.devRef .tc b) = W21 (F := F) m ρ c (Proc.devRef .tc b) := by
  by_cases h : ∃ w, Pipeline.arrRef spec8 w = b
  · obtain ⟨w, rfl⟩ := h
    have hin : (cfg8.win w).isOut = false := by
      cases hw : (cfg8.win w).isOut with
      | false => rfl
      | true => exact absurd (outs8_spec w hw) hb
    exact (W22_arr m ρ c w).trans (((dat8 (V21 m ρ) c).arrAt_in w hin _).trans (A_eq8 (V21 m ρ) c w))
  · exact W22_of_ne m ρ c b fun w e => h ⟨w, e⟩

/-- The references the stretch hostOps9 writes, in order. -/
abbrev wr_hostOps9 : List (Ref sig .tc) :=
  [main_c_54, main_v272, main_v273, main_c_55, main_v274, main_v275, main_v276, main_v277, main_v278, main_v279, main_c_56, main_v280, main_v281, main_c_57, main_v282, main_v283, main_v284, main_v285, main_v286, main_v287, main_v288, main_v289, main_v290, main_v291, main_v292, main_v293]
theorem wr_hostOps9_sub : (hostOps9 (F := F)).Forall fun op => op.writes ⊆ (wr_hostOps9.map (Proc.devRef (τ := τ) .tc)).toFinset := by
  simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps9_ge : ∀ y ∈ wr_hostOps9, 20 ≤ y.idx.val := by decide
/-- A buffer the stretch hostOps9 does not write holds after it what it held before. -/
theorem keepW23 (r : Ref sig .tc) (hr : r ∉ wr_hostOps9) :
    W23 (F := F) m ρ c (Proc.devRef .tc r) = W22 (F := F) m ρ c (Proc.devRef .tc r) :=
  StableHlo.after_of_writes_sub _ _ wr_hostOps9_sub hr

/-- The references the stretch hostOps9_1 writes, in order. -/
abbrev wr_hostOps9_1 : List (Ref sig .tc) :=
  [main_call2_cst, main_call2_v0, main_v294]
theorem wr_hostOps9_1_sub : (hostOps9_1 (F := F)).Forall fun op => op.writes ⊆ (wr_hostOps9_1.map (Proc.devRef (τ := τ) .tc)).toFinset := by
  simp only [hostOps9_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps9_1_ge : ∀ y ∈ wr_hostOps9_1, 20 ≤ y.idx.val := by decide
/-- A buffer the stretch hostOps9_1 does not write holds after it what it held before. -/
theorem keepW24 (r : Ref sig .tc) (hr : r ∉ wr_hostOps9_1) :
    W24 (F := F) m ρ c (Proc.devRef .tc r) = W23 (F := F) m ρ c (Proc.devRef .tc r) :=
  StableHlo.after_of_writes_sub _ _ wr_hostOps9_1_sub hr

/-- The references the stretch hostOps9_2 writes, in order. -/
abbrev wr_hostOps9_2 : List (Ref sig .tc) :=
  [main_v295, main_v296, main_v297, main_v298, main_v299, main_v300, main_v301, main_v302, main_v303, main_c_58, main_v304, main_v305, main_c_59, main_v306, main_v307, main_v308, main_v309, main_v310, main_cst_60, main_v311, main_v312, main_v313, main_v314, main_v315, main_v316, main_v317, main_v318, main_v319, main_v320, main_v321]
theorem wr_hostOps9_2_sub : (hostOps9_2 (F := F)).Forall fun op => op.writes ⊆ (wr_hostOps9_2.map (Proc.devRef (τ := τ) .tc)).toFinset := by
  simp only [hostOps9_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps9_2_ge : ∀ y ∈ wr_hostOps9_2, 20 ≤ y.idx.val := by decide
/-- A buffer the stretch hostOps9_2 does not write holds after it what it held before. -/
theorem keepW25 (r : Ref sig .tc) (hr : r ∉ wr_hostOps9_2) :
    W25 (F := F) m ρ c (Proc.devRef .tc r) = W24 (F := F) m ρ c (Proc.devRef .tc r) :=
  StableHlo.after_of_writes_sub _ _ wr_hostOps9_2_sub hr

/-- Region 9's output arrays. -/
abbrev outs9 : List (Ref sig .tc) := [main_v322_0, main_v322_1, main_v322_2]
theorem outs9_spec : ∀ w, (cfg9.win w).isOut = true → Pipeline.arrRef spec9 w ∈ outs9 := by decide +kernel
theorem outs9_ge : ∀ y ∈ outs9, 20 ≤ y.idx.val := by decide
/-- Region 9 leaves every buffer but its outputs as entered. -/
theorem keepW26 (b : Ref sig .tc) (hb : b ∉ outs9) :
    W26 (F := F) m ρ c (Proc.devRef .tc b) = W25 (F := F) m ρ c (Proc.devRef .tc b) := by
  by_cases h : ∃ w, Pipeline.arrRef spec9 w = b
  · obtain ⟨w, rfl⟩ := h
    have hin : (cfg9.win w).isOut = false := by
      cases hw : (cfg9.win w).isOut with
      | false => rfl
      | true => exact absurd (outs9_spec w hw) hb
    exact (W26_arr m ρ c w).trans (((dat9 (V25 m ρ) c).arrAt_in w hin _).trans (A_eq9 (V25 m ρ) c w))
  · exact W26_of_ne m ρ c b fun w e => h ⟨w, e⟩

/-- The references the stretch hostOps10 writes, in order. -/
abbrev wr_hostOps10 : List (Ref sig .tc) :=
  [main_cst_61, main_v323, main_cst_62, main_v324, main_v325, main_cst_63, main_v326, main_cst_64, main_v327, main_v328, main_cst_65, main_v329, main_v330, main_cst_66, main_v331, main_v332, main_v333, main_v334, main_cst_67, main_v335, main_v336, main_v337, main_v338, main_v339, main_v340, main_v341, main_v342, main_v343, main_v344, main_v345, main_v346, main_v347, main_v348, main_v349]
theorem wr_hostOps10_sub : (hostOps10 (F := F)).Forall fun op => op.writes ⊆ (wr_hostOps10.map (Proc.devRef (τ := τ) .tc)).toFinset := by
  simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps10_ge : ∀ y ∈ wr_hostOps10, 20 ≤ y.idx.val := by decide
/-- A buffer the stretch hostOps10 does not write holds after it what it held before. -/
theorem keepW27 (r : Ref sig .tc) (hr : r ∉ wr_hostOps10) :
    W27 (F := F) m ρ c (Proc.devRef .tc r) = W26 (F := F) m ρ c (Proc.devRef .tc r) :=
  StableHlo.after_of_writes_sub _ _ wr_hostOps10_sub hr

/-- Region 10's output arrays. -/
abbrev outs10 : List (Ref sig .tc) := [main_v350_0, main_v350_1, main_v350_2]
theorem outs10_spec : ∀ w, (cfg10.win w).isOut = true → Pipeline.arrRef spec10 w ∈ outs10 := by decide +kernel
theorem outs10_ge : ∀ y ∈ outs10, 20 ≤ y.idx.val := by decide
/-- Region 10 leaves every buffer but its outputs as entered. -/
theorem keepW28 (b : Ref sig .tc) (hb : b ∉ outs10) :
    W28 (F := F) m ρ c (Proc.devRef .tc b) = W27 (F := F) m ρ c (Proc.devRef .tc b) := by
  by_cases h : ∃ w, Pipeline.arrRef spec10 w = b
  · obtain ⟨w, rfl⟩ := h
    have hin : (cfg10.win w).isOut = false := by
      cases hw : (cfg10.win w).isOut with
      | false => rfl
      | true => exact absurd (outs10_spec w hw) hb
    exact (W28_arr m ρ c w).trans (((dat10 (V27 m ρ) c).arrAt_in w hin _).trans (A_eq10 (V27 m ρ) c w))
  · exact W28_of_ne m ρ c b fun w e => h ⟨w, e⟩

/-- The references the stretch hostOps11 writes, in order. -/
abbrev wr_hostOps11 : List (Ref sig .tc) :=
  [main_cst_68, main_v351, main_cst_69, main_v352, main_v353, main_cst_70, main_v354, main_cst_71, main_v355, main_v356, main_cst_72, main_v357, main_v358, main_cst_73, main_v359, main_v360, main_v361, main_v362, main_cst_74, main_v363, main_v364, main_v365, main_v366, main_v367, main_v368, main_v369, main_v370, main_v371, main_v372]
theorem wr_hostOps11_sub : (hostOps11 (F := F)).Forall fun op => op.writes ⊆ (wr_hostOps11.map (Proc.devRef (τ := τ) .tc)).toFinset := by
  simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps11_ge : ∀ y ∈ wr_hostOps11, 20 ≤ y.idx.val := by decide
/-- A buffer the stretch hostOps11 does not write holds after it what it held before. -/
theorem keepW29 (r : Ref sig .tc) (hr : r ∉ wr_hostOps11) :
    W29 (F := F) m ρ c (Proc.devRef .tc r) = W28 (F := F) m ρ c (Proc.devRef .tc r) :=
  StableHlo.after_of_writes_sub _ _ wr_hostOps11_sub hr

/-- Region 11's output arrays. -/
abbrev outs11 : List (Ref sig .tc) := [main_v373_0, main_v373_1, main_v373_2]
theorem outs11_spec : ∀ w, (cfg11.win w).isOut = true → Pipeline.arrRef spec11 w ∈ outs11 := by decide +kernel
theorem outs11_ge : ∀ y ∈ outs11, 20 ≤ y.idx.val := by decide
/-- Region 11 leaves every buffer but its outputs as entered. -/
theorem keepW30 (b : Ref sig .tc) (hb : b ∉ outs11) :
    W30 (F := F) m ρ c (Proc.devRef .tc b) = W29 (F := F) m ρ c (Proc.devRef .tc b) := by
  by_cases h : ∃ w, Pipeline.arrRef spec11 w = b
  · obtain ⟨w, rfl⟩ := h
    have hin : (cfg11.win w).isOut = false := by
      cases hw : (cfg11.win w).isOut with
      | false => rfl
      | true => exact absurd (outs11_spec w hw) hb
    exact (W30_arr m ρ c w).trans (((dat11 (V29 m ρ) c).arrAt_in w hin _).trans (A_eq11 (V29 m ρ) c w))
  · exact W30_of_ne m ρ c b fun w e => h ⟨w, e⟩

/-- The references the stretch hostOps12 writes, in order. -/
abbrev wr_hostOps12 : List (Ref sig .tc) :=
  [main_cst_75, main_v374, main_cst_76, main_v375, main_v376, main_cst_77, main_v377, main_cst_78, main_v378, main_v379, main_cst_79, main_v380, main_v381, main_cst_80, main_v382, main_v383, main_v384, main_v385, main_cst_81, main_v386, main_v387, main_v388, main_v389, main_v390, main_v391, main_v392, main_v393, main_v394, main_v395, main_v396, main_v397, main_v398, main_v399, main_v400, main_v401]
theorem wr_hostOps12_sub : (hostOps12 (F := F)).Forall fun op => op.writes ⊆ (wr_hostOps12.map (Proc.devRef (τ := τ) .tc)).toFinset := by
  simp only [hostOps12, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps12_ge : ∀ y ∈ wr_hostOps12, 20 ≤ y.idx.val := by decide
/-- A buffer the stretch hostOps12 does not write holds after it what it held before. -/
theorem keepW31 (r : Ref sig .tc) (hr : r ∉ wr_hostOps12) :
    W31 (F := F) m ρ c (Proc.devRef .tc r) = W30 (F := F) m ρ c (Proc.devRef .tc r) :=
  StableHlo.after_of_writes_sub _ _ wr_hostOps12_sub hr

/-- Region 12's output arrays. -/
abbrev outs12 : List (Ref sig .tc) := [main_v402_0, main_v402_1, main_v402_2]
theorem outs12_spec : ∀ w, (cfg12.win w).isOut = true → Pipeline.arrRef spec12 w ∈ outs12 := by decide +kernel
theorem outs12_ge : ∀ y ∈ outs12, 20 ≤ y.idx.val := by decide
/-- Region 12 leaves every buffer but its outputs as entered. -/
theorem keepW32 (b : Ref sig .tc) (hb : b ∉ outs12) :
    W32 (F := F) m ρ c (Proc.devRef .tc b) = W31 (F := F) m ρ c (Proc.devRef .tc b) := by
  by_cases h : ∃ w, Pipeline.arrRef spec12 w = b
  · obtain ⟨w, rfl⟩ := h
    have hin : (cfg12.win w).isOut = false := by
      cases hw : (cfg12.win w).isOut with
      | false => rfl
      | true => exact absurd (outs12_spec w hw) hb
    exact (W32_arr m ρ c w).trans (((dat12 (V31 m ρ) c).arrAt_in w hin _).trans (A_eq12 (V31 m ρ) c w))
  · exact W32_of_ne m ρ c b fun w e => h ⟨w, e⟩

/-- The references the stretch hostOps13 writes, in order. -/
abbrev wr_hostOps13 : List (Ref sig .tc) :=
  [main_c_82, main_v403, main_v404, main_c_83, main_v405, main_v406, main_v407, main_v408, main_v409, main_v410, main_c_84, main_v411, main_v412, main_c_85, main_v413, main_v414, main_v415, main_v416, main_v417, main_v418, main_v419, main_v420, main_v421, main_v422, main_v423, main_v424]
theorem wr_hostOps13_sub : (hostOps13 (F := F)).Forall fun op => op.writes ⊆ (wr_hostOps13.map (Proc.devRef (τ := τ) .tc)).toFinset := by
  simp only [hostOps13, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps13_ge : ∀ y ∈ wr_hostOps13, 20 ≤ y.idx.val := by decide
/-- A buffer the stretch hostOps13 does not write holds after it what it held before. -/
theorem keepW33 (r : Ref sig .tc) (hr : r ∉ wr_hostOps13) :
    W33 (F := F) m ρ c (Proc.devRef .tc r) = W32 (F := F) m ρ c (Proc.devRef .tc r) :=
  StableHlo.after_of_writes_sub _ _ wr_hostOps13_sub hr

/-- The references the stretch hostOps13_1 writes, in order. -/
abbrev wr_hostOps13_1 : List (Ref sig .tc) :=
  [main_call3_cst, main_call3_v0, main_v425]
theorem wr_hostOps13_1_sub : (hostOps13_1 (F := F)).Forall fun op => op.writes ⊆ (wr_hostOps13_1.map (Proc.devRef (τ := τ) .tc)).toFinset := by
  simp only [hostOps13_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps13_1_ge : ∀ y ∈ wr_hostOps13_1, 20 ≤ y.idx.val := by decide
/-- A buffer the stretch hostOps13_1 does not write holds after it what it held before. -/
theorem keepW34 (r : Ref sig .tc) (hr : r ∉ wr_hostOps13_1) :
    W34 (F := F) m ρ c (Proc.devRef .tc r) = W33 (F := F) m ρ c (Proc.devRef .tc r) :=
  StableHlo.after_of_writes_sub _ _ wr_hostOps13_1_sub hr

/-- The references the stretch hostOps13_2 writes, in order. -/
abbrev wr_hostOps13_2 : List (Ref sig .tc) :=
  [main_v426, main_v427, main_v428, main_v429, main_v430, main_v431, main_v432, main_v433, main_v434, main_c_86, main_v435, main_v436, main_c_87, main_v437, main_v438, main_v439, main_v440, main_v441, main_cst_88, main_v442, main_v443, main_v444, main_v445, main_v446, main_v447, main_v448, main_v449, main_v450, main_v451, main_v452]
theorem wr_hostOps13_2_sub : (hostOps13_2 (F := F)).Forall fun op => op.writes ⊆ (wr_hostOps13_2.map (Proc.devRef (τ := τ) .tc)).toFinset := by
  simp only [hostOps13_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps13_2_ge : ∀ y ∈ wr_hostOps13_2, 20 ≤ y.idx.val := by decide
/-- A buffer the stretch hostOps13_2 does not write holds after it what it held before. -/
theorem keepW35 (r : Ref sig .tc) (hr : r ∉ wr_hostOps13_2) :
    W35 (F := F) m ρ c (Proc.devRef .tc r) = W34 (F := F) m ρ c (Proc.devRef .tc r) :=
  StableHlo.after_of_writes_sub _ _ wr_hostOps13_2_sub hr

/-- Region 13's output arrays. -/
abbrev outs13 : List (Ref sig .tc) := [main_v453_0, main_v453_1, main_v453_2]
theorem outs13_spec : ∀ w, (cfg13.win w).isOut = true → Pipeline.arrRef spec13 w ∈ outs13 := by decide +kernel
theorem outs13_ge : ∀ y ∈ outs13, 20 ≤ y.idx.val := by decide
/-- Region 13 leaves every buffer but its outputs as entered. -/
theorem keepW36 (b : Ref sig .tc) (hb : b ∉ outs13) :
    W36 (F := F) m ρ c (Proc.devRef .tc b) = W35 (F := F) m ρ c (Proc.devRef .tc b) := by
  by_cases h : ∃ w, Pipeline.arrRef spec13 w = b
  · obtain ⟨w, rfl⟩ := h
    have hin : (cfg13.win w).isOut = false := by
      cases hw : (cfg13.win w).isOut with
      | false => rfl
      | true => exact absurd (outs13_spec w hw) hb
    exact (W36_arr m ρ c w).trans (((dat13 (V35 m ρ) c).arrAt_in w hin _).trans (A_eq13 (V35 m ρ) c w))
  · exact W36_of_ne m ρ c b fun w e => h ⟨w, e⟩

/-- The references the stretch hostOps14 writes, in order. -/
abbrev wr_hostOps14 : List (Ref sig .tc) :=
  [main_cst_89, main_v454, main_cst_90, main_v455, main_v456, main_cst_91, main_v457, main_cst_92, main_v458, main_v459, main_cst_93, main_v460, main_v461, main_cst_94, main_v462, main_v463, main_v464, main_v465, main_cst_95, main_v466, main_v467, main_v468, main_v469, main_v470, main_v471, main_v472, main_v473, main_v474, main_v475, main_v476, main_v477, main_v478, main_v479, main_v480]
theorem wr_hostOps14_sub : (hostOps14 (F := F)).Forall fun op => op.writes ⊆ (wr_hostOps14.map (Proc.devRef (τ := τ) .tc)).toFinset := by
  simp only [hostOps14, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps14_ge : ∀ y ∈ wr_hostOps14, 20 ≤ y.idx.val := by decide
/-- A buffer the stretch hostOps14 does not write holds after it what it held before. -/
theorem keepW37 (r : Ref sig .tc) (hr : r ∉ wr_hostOps14) :
    W37 (F := F) m ρ c (Proc.devRef .tc r) = W36 (F := F) m ρ c (Proc.devRef .tc r) :=
  StableHlo.after_of_writes_sub _ _ wr_hostOps14_sub hr

/-- Region 14's output arrays. -/
abbrev outs14 : List (Ref sig .tc) := [main_v481_0, main_v481_1, main_v481_2]
theorem outs14_spec : ∀ w, (cfg14.win w).isOut = true → Pipeline.arrRef spec14 w ∈ outs14 := by decide +kernel
theorem outs14_ge : ∀ y ∈ outs14, 20 ≤ y.idx.val := by decide
/-- Region 14 leaves every buffer but its outputs as entered. -/
theorem keepW38 (b : Ref sig .tc) (hb : b ∉ outs14) :
    W38 (F := F) m ρ c (Proc.devRef .tc b) = W37 (F := F) m ρ c (Proc.devRef .tc b) := by
  by_cases h : ∃ w, Pipeline.arrRef spec14 w = b
  · obtain ⟨w, rfl⟩ := h
    have hin : (cfg14.win w).isOut = false := by
      cases hw : (cfg14.win w).isOut with
      | false => rfl
      | true => exact absurd (outs14_spec w hw) hb
    exact (W38_arr m ρ c w).trans (((dat14 (V37 m ρ) c).arrAt_in w hin _).trans (A_eq14 (V37 m ρ) c w))
  · exact W38_of_ne m ρ c b fun w e => h ⟨w, e⟩

/-- The references the stretch hostOps15 writes, in order. -/
abbrev wr_hostOps15 : List (Ref sig .tc) :=
  [main_cst_96, main_v482, main_cst_97, main_v483, main_v484, main_cst_98, main_v485, main_cst_99, main_v486, main_v487, main_cst_100, main_v488, main_v489, main_cst_101, main_v490, main_v491, main_v492, main_v493, main_cst_102, main_v494, main_v495, main_v496, main_v497, main_v498, main_v499, main_v500, main_v501, main_v502, main_v503]
theorem wr_hostOps15_sub : (hostOps15 (F := F)).Forall fun op => op.writes ⊆ (wr_hostOps15.map (Proc.devRef (τ := τ) .tc)).toFinset := by
  simp only [hostOps15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps15_ge : ∀ y ∈ wr_hostOps15, 20 ≤ y.idx.val := by decide
/-- A buffer the stretch hostOps15 does not write holds after it what it held before. -/
theorem keepW39 (r : Ref sig .tc) (hr : r ∉ wr_hostOps15) :
    W39 (F := F) m ρ c (Proc.devRef .tc r) = W38 (F := F) m ρ c (Proc.devRef .tc r) :=
  StableHlo.after_of_writes_sub _ _ wr_hostOps15_sub hr

/-- Region 15's output arrays. -/
abbrev outs15 : List (Ref sig .tc) := [main_v504_0, main_v504_1, main_v504_2]
theorem outs15_spec : ∀ w, (cfg15.win w).isOut = true → Pipeline.arrRef spec15 w ∈ outs15 := by decide +kernel
theorem outs15_ge : ∀ y ∈ outs15, 20 ≤ y.idx.val := by decide
/-- Region 15 leaves every buffer but its outputs as entered. -/
theorem keepW40 (b : Ref sig .tc) (hb : b ∉ outs15) :
    W40 (F := F) m ρ c (Proc.devRef .tc b) = W39 (F := F) m ρ c (Proc.devRef .tc b) := by
  by_cases h : ∃ w, Pipeline.arrRef spec15 w = b
  · obtain ⟨w, rfl⟩ := h
    have hin : (cfg15.win w).isOut = false := by
      cases hw : (cfg15.win w).isOut with
      | false => rfl
      | true => exact absurd (outs15_spec w hw) hb
    exact (W40_arr m ρ c w).trans (((dat15 (V39 m ρ) c).arrAt_in w hin _).trans (A_eq15 (V39 m ρ) c w))
  · exact W40_of_ne m ρ c b fun w e => h ⟨w, e⟩

/-- The references the stretch hostOps16 writes, in order. -/
abbrev wr_hostOps16 : List (Ref sig .tc) :=
  [main_cst_103, main_v505, main_cst_104, main_v506, main_v507, main_cst_105, main_v508, main_cst_106, main_v509, main_v510, main_cst_107, main_v511, main_v512, main_cst_108, main_v513, main_v514, main_v515, main_v516, main_cst_109, main_v517, main_v518, main_v519, main_v520, main_v521, main_v522, main_v523, main_v524, main_v525, main_v526, main_v527, main_v528, main_v529, main_v530, main_v531, main_v532]
theorem wr_hostOps16_sub : (hostOps16 (F := F)).Forall fun op => op.writes ⊆ (wr_hostOps16.map (Proc.devRef (τ := τ) .tc)).toFinset := by
  simp only [hostOps16, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps16_ge : ∀ y ∈ wr_hostOps16, 20 ≤ y.idx.val := by decide
/-- A buffer the stretch hostOps16 does not write holds after it what it held before. -/
theorem keepW41 (r : Ref sig .tc) (hr : r ∉ wr_hostOps16) :
    W41 (F := F) m ρ c (Proc.devRef .tc r) = W40 (F := F) m ρ c (Proc.devRef .tc r) :=
  StableHlo.after_of_writes_sub _ _ wr_hostOps16_sub hr

/-- Region 16's output arrays. -/
abbrev outs16 : List (Ref sig .tc) := [main_v533_0, main_v533_1, main_v533_2]
theorem outs16_spec : ∀ w, (cfg16.win w).isOut = true → Pipeline.arrRef spec16 w ∈ outs16 := by decide +kernel
theorem outs16_ge : ∀ y ∈ outs16, 20 ≤ y.idx.val := by decide
/-- Region 16 leaves every buffer but its outputs as entered. -/
theorem keepW42 (b : Ref sig .tc) (hb : b ∉ outs16) :
    W42 (F := F) m ρ c (Proc.devRef .tc b) = W41 (F := F) m ρ c (Proc.devRef .tc b) := by
  by_cases h : ∃ w, Pipeline.arrRef spec16 w = b
  · obtain ⟨w, rfl⟩ := h
    have hin : (cfg16.win w).isOut = false := by
      cases hw : (cfg16.win w).isOut with
      | false => rfl
      | true => exact absurd (outs16_spec w hw) hb
    exact (W42_arr m ρ c w).trans (((dat16 (V41 m ρ) c).arrAt_in w hin _).trans (A_eq16 (V41 m ρ) c w))
  · exact W42_of_ne m ρ c b fun w e => h ⟨w, e⟩

/-- The references the stretch hostOps17 writes, in order. -/
abbrev wr_hostOps17 : List (Ref sig .tc) :=
  [main_c_110, main_v534, main_v535, main_c_111, main_v536, main_v537, main_v538, main_v539, main_v540, main_v541, main_c_112, main_v542, main_v543, main_c_113, main_v544, main_v545, main_v546, main_v547, main_v548, main_v549, main_v550, main_v551, main_v552, main_v553, main_v554, main_v555]
theorem wr_hostOps17_sub : (hostOps17 (F := F)).Forall fun op => op.writes ⊆ (wr_hostOps17.map (Proc.devRef (τ := τ) .tc)).toFinset := by
  simp only [hostOps17, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps17_ge : ∀ y ∈ wr_hostOps17, 20 ≤ y.idx.val := by decide
/-- A buffer the stretch hostOps17 does not write holds after it what it held before. -/
theorem keepW43 (r : Ref sig .tc) (hr : r ∉ wr_hostOps17) :
    W43 (F := F) m ρ c (Proc.devRef .tc r) = W42 (F := F) m ρ c (Proc.devRef .tc r) :=
  StableHlo.after_of_writes_sub _ _ wr_hostOps17_sub hr

/-- The references the stretch hostOps17_1 writes, in order. -/
abbrev wr_hostOps17_1 : List (Ref sig .tc) :=
  [main_call4_cst, main_call4_v0, main_v556]
theorem wr_hostOps17_1_sub : (hostOps17_1 (F := F)).Forall fun op => op.writes ⊆ (wr_hostOps17_1.map (Proc.devRef (τ := τ) .tc)).toFinset := by
  simp only [hostOps17_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps17_1_ge : ∀ y ∈ wr_hostOps17_1, 20 ≤ y.idx.val := by decide
/-- A buffer the stretch hostOps17_1 does not write holds after it what it held before. -/
theorem keepW44 (r : Ref sig .tc) (hr : r ∉ wr_hostOps17_1) :
    W44 (F := F) m ρ c (Proc.devRef .tc r) = W43 (F := F) m ρ c (Proc.devRef .tc r) :=
  StableHlo.after_of_writes_sub _ _ wr_hostOps17_1_sub hr

/-- The references the stretch hostOps17_2 writes, in order. -/
abbrev wr_hostOps17_2 : List (Ref sig .tc) :=
  [main_v557, main_v558, main_v559, main_v560, main_v561, main_v562, main_v563, main_v564, main_v565]
theorem wr_hostOps17_2_sub : (hostOps17_2 (F := F)).Forall fun op => op.writes ⊆ (wr_hostOps17_2.map (Proc.devRef (τ := τ) .tc)).toFinset := by
  simp only [hostOps17_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes]
  repeat' apply And.intro
  all_goals exact sub_of_mem (by decide)
/-- None of them is an argument: their indices are 20 or more. -/
theorem wr_hostOps17_2_ge : ∀ y ∈ wr_hostOps17_2, 20 ≤ y.idx.val := by decide
/-- A buffer the stretch hostOps17_2 does not write holds after it what it held before. -/
theorem keepW45 (r : Ref sig .tc) (hr : r ∉ wr_hostOps17_2) :
    W45 (F := F) m ρ c (Proc.devRef .tc r) = W44 (F := F) m ρ c (Proc.devRef .tc r) :=
  StableHlo.after_of_writes_sub _ _ wr_hostOps17_2_sub hr

end Cert.KChainK

end
-- ==== Proof.KChainArgsK.lean ====
/-
  No stretch of host operations and no region writes an argument (the arguments are the references of index below 20,
  everything written has index 20 or more): at every boundary of the run each argument holds its launch contents.
-/
import proofs.«416875_j80633716015165_3_alg».proof.Proof.KChainKeepK

set_option maxRecDepth 16384
-- one declaration at a time: the passes over a region's windows are not elaborated side by side
set_option Elab.async false

noncomputable section

open Idealize.ShloMosaic Idealize.ShloMosaic.TcCoe
open Cert.Kernel Cert.Kernel.Gen

namespace Cert.KChainK

variable {F : FTy → Type} [FloatOps F] (m : (ℓ : Loc nD τ sig) → Buf (Elt F) ℓ) (ρ : Dev nD → PrngReg) (c : Dev nD)

/-- The twenty argument references. -/
def argRefs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19]

/-- The valuation holds every argument's launch contents. -/
def ArgsKept (m : (ℓ : Loc nD τ sig) → Buf (Elt F) ℓ) (c : Dev nD) (V : Valuation τ sig (Elt F)) : Prop :=
  ∀ r ∈ argRefs, V (Proc.devRef .tc r) = m ((c : Thread nD τ).loc r)

/-- The arguments are the references of index below 20. -/
theorem argRefs_lt : ∀ r ∈ argRefs, r.idx.val < 20 := by decide

/-- At launch every argument holds its launch contents. -/
theorem argsW0 : ArgsKept m c (W0 (F := F) m ρ c) := fun _ _ => rfl

/-! ## One boundary to the next -/

theorem argsW1 (h : ArgsKept m c (W0 (F := F) m ρ c)) : ArgsKept m c (W1 (F := F) m ρ c) :=
  fun r hr => (keepW1 m ρ c r (nm_lt (argRefs_lt r hr) wr_hostOps0_ge)).trans (h r hr)
theorem argsW2 (h : ArgsKept m c (W1 (F := F) m ρ c)) : ArgsKept m c (W2 (F := F) m ρ c) :=
  fun r hr => (keepW2 m ρ c r (nm_lt (argRefs_lt r hr) outs0_ge)).trans (h r hr)
theorem argsW3 (h : ArgsKept m c (W2 (F := F) m ρ c)) : ArgsKept m c (W3 (F := F) m ρ c) :=
  fun r hr => (keepW3 m ρ c r (nm_lt (argRefs_lt r hr) wr_hostOps1_ge)).trans (h r hr)
theorem argsW4 (h : ArgsKept m c (W3 (F := F) m ρ c)) : ArgsKept m c (W4 (F := F) m ρ c) :=
  fun r hr => (keepW4 m ρ c r (nm_lt (argRefs_lt r hr) wr_hostOps1_1_ge)).trans (h r hr)
theorem argsW5 (h : ArgsKept m c (W4 (F := F) m ρ c)) : ArgsKept m c (W5 (F := F) m ρ c) :=
  fun r hr => (keepW5 m ρ c r (nm_lt (argRefs_lt r hr) wr_hostOps1_2_ge)).trans (h r hr)
theorem argsW6 (h : ArgsKept m c (W5 (F := F) m ρ c)) : ArgsKept m c (W6 (F := F) m ρ c) :=
  fun r hr => (keepW6 m ρ c r (nm_lt (argRefs_lt r hr) outs1_ge)).trans (h r hr)
theorem argsW7 (h : ArgsKept m c (W6 (F := F) m ρ c)) : ArgsKept m c (W7 (F := F) m ρ c) :=
  fun r hr => (keepW7 m ρ c r (nm_lt (argRefs_lt r hr) wr_hostOps2_ge)).trans (h r hr)
theorem argsW8 (h : ArgsKept m c (W7 (F := F) m ρ c)) : ArgsKept m c (W8 (F := F) m ρ c) :=
  fun r hr => (keepW8 m ρ c r (nm_lt (argRefs_lt r hr) outs2_ge)).trans (h r hr)
theorem argsW9 (h : ArgsKept m c (W8 (F := F) m ρ c)) : ArgsKept m c (W9 (F := F) m ρ c) :=
  fun r hr => (keepW9 m ρ c r (nm_lt (argRefs_lt r hr) wr_hostOps3_ge)).trans (h r hr)
theorem argsW10 (h : ArgsKept m c (W9 (F := F) m ρ c)) : ArgsKept m c (W10 (F := F) m ρ c) :=
  fun r hr => (keepW10 m ρ c r (nm_lt (argRefs_lt r hr) outs3_ge)).trans (h r hr)
theorem argsW11 (h : ArgsKept m c (W10 (F := F) m ρ c)) : ArgsKept m c (W11 (F := F) m ρ c) :=
  fun r hr => (keepW11 m ρ c r (nm_lt (argRefs_lt r hr) wr_hostOps4_ge)).trans (h r hr)
theorem argsW12 (h : ArgsKept m c (W11 (F := F) m ρ c)) : ArgsKept m c (W12 (F := F) m ρ c) :=
  fun r hr => (keepW12 m ρ c r (nm_lt (argRefs_lt r hr) outs4_ge)).trans (h r hr)
theorem argsW13 (h : ArgsKept m c (W12 (F := F) m ρ c)) : ArgsKept m c (W13 (F := F) m ρ c) :=
  fun r hr => (keepW13 m ρ c r (nm_lt (argRefs_lt r hr) wr_hostOps5_ge)).trans (h r hr)
theorem argsW14 (h : ArgsKept m c (W13 (F := F) m ρ c)) : ArgsKept m c (W14 (F := F) m ρ c) :=
  fun r hr => (keepW14 m ρ c r (nm_lt (argRefs_lt r hr) wr_hostOps5_1_ge)).trans (h r hr)
theorem argsW15 (h : ArgsKept m c (W14 (F := F) m ρ c)) : ArgsKept m c (W15 (F := F) m ρ c) :=
  fun r hr => (keepW15 m ρ c r (nm_lt (argRefs_lt r hr) wr_hostOps5_2_ge)).trans (h r hr)
theorem argsW16 (h : ArgsKept m c (W15 (F := F) m ρ c)) : ArgsKept m c (W16 (F := F) m ρ c) :=
  fun r hr => (keepW16 m ρ c r (nm_lt (argRefs_lt r hr) outs5_ge)).trans (h r hr)
theorem argsW17 (h : ArgsKept m c (W16 (F := F) m ρ c)) : ArgsKept m c (W17 (F := F) m ρ c) :=
  fun r hr => (keepW17 m ρ c r (nm_lt (argRefs_lt r hr) wr_hostOps6_ge)).trans (h r hr)
theorem argsW18 (h : ArgsKept m c (W17 (F := F) m ρ c)) : ArgsKept m c (W18 (F := F) m ρ c) :=
  fun r hr => (keepW18 m ρ c r (nm_lt (argRefs_lt r hr) outs6_ge)).trans (h r hr)
theorem argsW19 (h : ArgsKept m c (W18 (F := F) m ρ c)) : ArgsKept m c (W19 (F := F) m ρ c) :=
  fun r hr => (keepW19 m ρ c r (nm_lt (argRefs_lt r hr) wr_hostOps7_ge)).trans (h r hr)
theorem argsW20 (h : ArgsKept m c (W19 (F := F) m ρ c)) : ArgsKept m c (W20 (F := F) m ρ c) :=
  fun r hr => (keepW20 m ρ c r (nm_lt (argRefs_lt r hr) outs7_ge)).trans (h r hr)
theorem argsW21 (h : ArgsKept m c (W20 (F := F) m ρ c)) : ArgsKept m c (W21 (F := F) m ρ c) :=
  fun r hr => (keepW21 m ρ c r (nm_lt (argRefs_lt r hr) wr_hostOps8_ge)).trans (h r hr)
theorem argsW22 (h : ArgsKept m c (W21 (F := F) m ρ c)) : ArgsKept m c (W22 (F := F) m ρ c) :=
  fun r hr => (keepW22 m ρ c r (nm_lt (argRefs_lt r hr) outs8_ge)).trans (h r hr)
theorem argsW23 (h : ArgsKept m c (W22 (F := F) m ρ c)) : ArgsKept m c (W23 (F := F) m ρ c) :=
  fun r hr => (keepW23 m ρ c r (nm_lt (argRefs_lt r hr) wr_hostOps9_ge)).trans (h r hr)
theorem argsW24 (h : ArgsKept m c (W23 (F := F) m ρ c)) : ArgsKept m c (W24 (F := F) m ρ c) :=
  fun r hr => (keepW24 m ρ c r (nm_lt (argRefs_lt r hr) wr_hostOps9_1_ge)).trans (h r hr)
theorem argsW25 (h : ArgsKept m c (W24 (F := F) m ρ c)) : ArgsKept m c (W25 (F := F) m ρ c) :=
  fun r hr => (keepW25 m ρ c r (nm_lt (argRefs_lt r hr) wr_hostOps9_2_ge)).trans (h r hr)
theorem argsW26 (h : ArgsKept m c (W25 (F := F) m ρ c)) : ArgsKept m c (W26 (F := F) m ρ c) :=
  fun r hr => (keepW26 m ρ c r (nm_lt (argRefs_lt r hr) outs9_ge)).trans (h r hr)
theorem argsW27 (h : ArgsKept m c (W26 (F := F) m ρ c)) : ArgsKept m c (W27 (F := F) m ρ c) :=
  fun r hr => (keepW27 m ρ c r (nm_lt (argRefs_lt r hr) wr_hostOps10_ge)).trans (h r hr)
theorem argsW28 (h : ArgsKept m c (W27 (F := F) m ρ c)) : ArgsKept m c (W28 (F := F) m ρ c) :=
  fun r hr => (keepW28 m ρ c r (nm_lt (argRefs_lt r hr) outs10_ge)).trans (h r hr)
theorem argsW29 (h : ArgsKept m c (W28 (F := F) m ρ c)) : ArgsKept m c (W29 (F := F) m ρ c) :=
  fun r hr => (keepW29 m ρ c r (nm_lt (argRefs_lt r hr) wr_hostOps11_ge)).trans (h r hr)
theorem argsW30 (h : ArgsKept m c (W29 (F := F) m ρ c)) : ArgsKept m c (W30 (F := F) m ρ c) :=
  fun r hr => (keepW30 m ρ c r (nm_lt (argRefs_lt r hr) outs11_ge)).trans (h r hr)
theorem argsW31 (h : ArgsKept m c (W30 (F := F) m ρ c)) : ArgsKept m c (W31 (F := F) m ρ c) :=
  fun r hr => (keepW31 m ρ c r (nm_lt (argRefs_lt r hr) wr_hostOps12_ge)).trans (h r hr)
theorem argsW32 (h : ArgsKept m c (W31 (F := F) m ρ c)) : ArgsKept m c (W32 (F := F) m ρ c) :=
  fun r hr => (keepW32 m ρ c r (nm_lt (argRefs_lt r hr) outs12_ge)).trans (h r hr)
theorem argsW33 (h : ArgsKept m c (W32 (F := F) m ρ c)) : ArgsKept m c (W33 (F := F) m ρ c) :=
  fun r hr => (keepW33 m ρ c r (nm_lt (argRefs_lt r hr) wr_hostOps13_ge)).trans (h r hr)
theorem argsW34 (h : ArgsKept m c (W33 (F := F) m ρ c)) : ArgsKept m c (W34 (F := F) m ρ c) :=
  fun r hr => (keepW34 m ρ c r (nm_lt (argRefs_lt r hr) wr_hostOps13_1_ge)).trans (h r hr)
theorem argsW35 (h : ArgsKept m c (W34 (F := F) m ρ c)) : ArgsKept m c (W35 (F := F) m ρ c) :=
  fun r hr => (keepW35 m ρ c r (nm_lt (argRefs_lt r hr) wr_hostOps13_2_ge)).trans (h r hr)
theorem argsW36 (h : ArgsKept m c (W35 (F := F) m ρ c)) : ArgsKept m c (W36 (F := F) m ρ c) :=
  fun r hr => (keepW36 m ρ c r (nm_lt (argRefs_lt r hr) outs13_ge)).trans (h r hr)
theorem argsW37 (h : ArgsKept m c (W36 (F := F) m ρ c)) : ArgsKept m c (W37 (F := F) m ρ c) :=
  fun r hr => (keepW37 m ρ c r (nm_lt (argRefs_lt r hr) wr_hostOps14_ge)).trans (h r hr)
theorem argsW38 (h : ArgsKept m c (W37 (F := F) m ρ c)) : ArgsKept m c (W38 (F := F) m ρ c) :=
  fun r hr => (keepW38 m ρ c r (nm_lt (argRefs_lt r hr) outs14_ge)).trans (h r hr)
theorem argsW39 (h : ArgsKept m c (W38 (F := F) m ρ c)) : ArgsKept m c (W39 (F := F) m ρ c) :=
  fun r hr => (keepW39 m ρ c r (nm_lt (argRefs_lt r hr) wr_hostOps15_ge)).trans (h r hr)
theorem argsW40 (h : ArgsKept m c (W39 (F := F) m ρ c)) : ArgsKept m c (W40 (F := F) m ρ c) :=
  fun r hr => (keepW40 m ρ c r (nm_lt (argRefs_lt r hr) outs15_ge)).trans (h r hr)
theorem argsW41 (h : ArgsKept m c (W40 (F := F) m ρ c)) : ArgsKept m c (W41 (F := F) m ρ c) :=
  fun r hr => (keepW41 m ρ c r (nm_lt (argRefs_lt r hr) wr_hostOps16_ge)).trans (h r hr)
theorem argsW42 (h : ArgsKept m c (W41 (F := F) m ρ c)) : ArgsKept m c (W42 (F := F) m ρ c) :=
  fun r hr => (keepW42 m ρ c r (nm_lt (argRefs_lt r hr) outs16_ge)).trans (h r hr)
theorem argsW43 (h : ArgsKept m c (W42 (F := F) m ρ c)) : ArgsKept m c (W43 (F := F) m ρ c) :=
  fun r hr => (keepW43 m ρ c r (nm_lt (argRefs_lt r hr) wr_hostOps17_ge)).trans (h r hr)
theorem argsW44 (h : ArgsKept m c (W43 (F := F) m ρ c)) : ArgsKept m c (W44 (F := F) m ρ c) :=
  fun r hr => (keepW44 m ρ c r (nm_lt (argRefs_lt r hr) wr_hostOps17_1_ge)).trans (h r hr)
theorem argsW45 (h : ArgsKept m c (W44 (F := F) m ρ c)) : ArgsKept m c (W45 (F := F) m ρ c) :=
  fun r hr => (keepW45 m ρ c r (nm_lt (argRefs_lt r hr) wr_hostOps17_2_ge)).trans (h r hr)

/-! ## From the launch to every boundary -/

theorem W0_args : ArgsKept m c (W0 (F := F) m ρ c) := argsW0 m ρ c
theorem W1_args : ArgsKept m c (W1 (F := F) m ρ c) := argsW1 m ρ c (W0_args m ρ c)
theorem W2_args : ArgsKept m c (W2 (F := F) m ρ c) := argsW2 m ρ c (W1_args m ρ c)
theorem W3_args : ArgsKept m c (W3 (F := F) m ρ c) := argsW3 m ρ c (W2_args m ρ c)
theorem W4_args : ArgsKept m c (W4 (F := F) m ρ c) := argsW4 m ρ c (W3_args m ρ c)
theorem W5_args : ArgsKept m c (W5 (F := F) m ρ c) := argsW5 m ρ c (W4_args m ρ c)
theorem W6_args : ArgsKept m c (W6 (F := F) m ρ c) := argsW6 m ρ c (W5_args m ρ c)
theorem W7_args : ArgsKept m c (W7 (F := F) m ρ c) := argsW7 m ρ c (W6_args m ρ c)
theorem W8_args : ArgsKept m c (W8 (F := F) m ρ c) := argsW8 m ρ c (W7_args m ρ c)
theorem W9_args : ArgsKept m c (W9 (F := F) m ρ c) := argsW9 m ρ c (W8_args m ρ c)
theorem W10_args : ArgsKept m c (W10 (F := F) m ρ c) := argsW10 m ρ c (W9_args m ρ c)
theorem W11_args : ArgsKept m c (W11 (F := F) m ρ c) := argsW11 m ρ c (W10_args m ρ c)
theorem W12_args : ArgsKept m c (W12 (F := F) m ρ c) := argsW12 m ρ c (W11_args m ρ c)
theorem W13_args : ArgsKept m c (W13 (F := F) m ρ c) := argsW13 m ρ c (W12_args m ρ c)
theorem W14_args : ArgsKept m c (W14 (F := F) m ρ c) := argsW14 m ρ c (W13_args m ρ c)
theorem W15_args : ArgsKept m c (W15 (F := F) m ρ c) := argsW15 m ρ c (W14_args m ρ c)
theorem W16_args : ArgsKept m c (W16 (F := F) m ρ c) := argsW16 m ρ c (W15_args m ρ c)
theorem W17_args : ArgsKept m c (W17 (F := F) m ρ c) := argsW17 m ρ c (W16_args m ρ c)
theorem W18_args : ArgsKept m c (W18 (F := F) m ρ c) := argsW18 m ρ c (W17_args m ρ c)
theorem W19_args : ArgsKept m c (W19 (F := F) m ρ c) := argsW19 m ρ c (W18_args m ρ c)
theorem W20_args : ArgsKept m c (W20 (F := F) m ρ c) := argsW20 m ρ c (W19_args m ρ c)
theorem W21_args : ArgsKept m c (W21 (F := F) m ρ c) := argsW21 m ρ c (W20_args m ρ c)
theorem W22_args : ArgsKept m c (W22 (F := F) m ρ c) := argsW22 m ρ c (W21_args m ρ c)
theorem W23_args : ArgsKept m c (W23 (F := F) m ρ c) := argsW23 m ρ c (W22_args m ρ c)
theorem W24_args : ArgsKept m c (W24 (F := F) m ρ c) := argsW24 m ρ c (W23_args m ρ c)
theorem W25_args : ArgsKept m c (W25 (F := F) m ρ c) := argsW25 m ρ c (W24_args m ρ c)
theorem W26_args : ArgsKept m c (W26 (F := F) m ρ c) := argsW26 m ρ c (W25_args m ρ c)
theorem W27_args : ArgsKept m c (W27 (F := F) m ρ c) := argsW27 m ρ c (W26_args m ρ c)
theorem W28_args : ArgsKept m c (W28 (F := F) m ρ c) := argsW28 m ρ c (W27_args m ρ c)
theorem W29_args : ArgsKept m c (W29 (F := F) m ρ c) := argsW29 m ρ c (W28_args m ρ c)
theorem W30_args : ArgsKept m c (W30 (F := F) m ρ c) := argsW30 m ρ c (W29_args m ρ c)
theorem W31_args : ArgsKept m c (W31 (F := F) m ρ c) := argsW31 m ρ c (W30_args m ρ c)
theorem W32_args : ArgsKept m c (W32 (F := F) m ρ c) := argsW32 m ρ c (W31_args m ρ c)
theorem W33_args : ArgsKept m c (W33 (F := F) m ρ c) := argsW33 m ρ c (W32_args m ρ c)
theorem W34_args : ArgsKept m c (W34 (F := F) m ρ c) := argsW34 m ρ c (W33_args m ρ c)
theorem W35_args : ArgsKept m c (W35 (F := F) m ρ c) := argsW35 m ρ c (W34_args m ρ c)
theorem W36_args : ArgsKept m c (W36 (F := F) m ρ c) := argsW36 m ρ c (W35_args m ρ c)
theorem W37_args : ArgsKept m c (W37 (F := F) m ρ c) := argsW37 m ρ c (W36_args m ρ c)
theorem W38_args : ArgsKept m c (W38 (F := F) m ρ c) := argsW38 m ρ c (W37_args m ρ c)
theorem W39_args : ArgsKept m c (W39 (F := F) m ρ c) := argsW39 m ρ c (W38_args m ρ c)
theorem W40_args : ArgsKept m c (W40 (F := F) m ρ c) := argsW40 m ρ c (W39_args m ρ c)
theorem W41_args : ArgsKept m c (W41 (F := F) m ρ c) := argsW41 m ρ c (W40_args m ρ c)
theorem W42_args : ArgsKept m c (W42 (F := F) m ρ c) := argsW42 m ρ c (W41_args m ρ c)
theorem W43_args : ArgsKept m c (W43 (F := F) m ρ c) := argsW43 m ρ c (W42_args m ρ c)
theorem W44_args : ArgsKept m c (W44 (F := F) m ρ c) := argsW44 m ρ c (W43_args m ρ c)
theorem W45_args : ArgsKept m c (W45 (F := F) m ρ c) := argsW45 m ρ c (W44_args m ρ c)

end Cert.KChainK

end
-- ==== Proof.MathStats.lean ====
/-
  The mathematics both readings of the network share, on the extended reals.

  * The constants' words denote the reals 20000, 8, 0, 1 and a positive real.
  * On real entries the tiled one-pass statistics (per-tile sums replicated eight times, summed, divided by eight
    and by the row count; variance as mean of squares minus squared mean, cut at zero) equal the two-pass statistics
    (mean, then mean of squared deviations): the five tiles of 4000 rows re-index the 20000 rows, eight copies over
    eight is one copy, and the mean of squares minus the squared mean is the mean of squared deviations, which is
    not negative, so the cut at zero changes nothing.
  * The head's contraction over a concatenated row pair is the sum of the two contractions over the halves.
  * Every stage of a layer keeps real entries real.
-/
import proofs.«416875_j80633716015165_3_alg».proof.Proof.Spec
import Mathlib.Algebra.BigOperators.Fin
import Mathlib.Algebra.BigOperators.Ring.Finset
import Mathlib.Algebra.Order.BigOperators.Ring.Finset
import Mathlib.Data.Fintype.BigOperators
import Mathlib.Tactic.Ring
import Mathlib.Tactic.FieldSimp
import Mathlib.Tactic.NormNum
import Mathlib.Tactic.Positivity

noncomputable section

open Idealize.ShloMosaic

namespace Cert.MathStats

open scoped BigOperators

/-! ## The constants -/

theorem cN_val : M.cN = ((20000 : ℝ) : EReal) := by
  simp [Ideal.ofBits, Ideal.ieee, -EReal.coe_mul]; norm_num

theorem c8_val : M.c8 = ((8 : ℝ) : EReal) := by
  simp [Ideal.ofBits, Ideal.ieee, -EReal.coe_mul]; norm_num

theorem c0_val : M.c0 = 0 := by
  simp [Ideal.ofBits, Ideal.ieee]

theorem c1_val : M.c1 = ((1 : ℝ) : EReal) := by
  simp [Ideal.ofBits, Ideal.ieee, -EReal.coe_mul]; norm_num

theorem cEps_val : ∃ ε : ℝ, 0 < ε ∧ M.cEps = (ε : EReal) := by
  refine ⟨(10995116 : ℝ) * (2 : ℝ) ^ (-40 : Int), by positivity, ?_⟩
  simp [Ideal.ofBits, Ideal.ieee, -EReal.coe_mul]

/-! ## Casts of real sums, and the constants as divisors -/

/-- The cast of a finite sum of reals is the sum of the casts. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- Adding to the zero word changes nothing. -/
theorem c0_add (x : EReal) : M.c0 + x = x := by rw [c0_val, zero_add]

/-- Division of a real by the row-count word. -/
theorem div_cN (x : ℝ) : Ideal.div (x : EReal) M.cN = ((x / 20000 : ℝ) : EReal) := by
  rw [cN_val, Ideal.div_coe (by norm_num), ← EReal.coe_mul, mul_one_div]

/-- Division of a real by the replication word. -/
theorem div_c8 (x : ℝ) : Ideal.div (x : EReal) M.c8 = ((x / 8 : ℝ) : EReal) := by
  rw [c8_val, Ideal.div_coe (by norm_num), ← EReal.coe_mul, mul_one_div]

/-- An array of real entries is the cast of an array of reals. -/
theorem exists_real2 {a b : Nat} {x : Fin a → Fin b → EReal} (hx : M.Fin2 x) :
    ∃ f : Fin a → Fin b → ℝ, x = fun i j => (f i j : EReal) := by
  choose f hf using hx
  exact ⟨f, funext fun i => funext fun j => hf i j⟩

/-- A vector of real entries is the cast of a vector of reals. -/
theorem exists_real1 {a : Nat} {x : Fin a → EReal} (hx : M.Fin1 x) :
    ∃ f : Fin a → ℝ, x = fun i => (f i : EReal) := by
  choose f hf using hx
  exact ⟨f, funext fun i => hf i⟩

/-! ## The tiles re-index the rows -/

/-- Tile and row within the tile, together, run over all rows exactly once. -/
theorem tileRow_bijective : Function.Bijective (fun p : Fin 5 × Fin 4000 => M.tileRow p.1 p.2) := by
  constructor
  · rintro ⟨t, r⟩ ⟨t', r'⟩ h
    have h' : 4000 * t.val + r.val = 4000 * t'.val + r'.val := congrArg Fin.val h
    have ht : t.val = t'.val := by omega
    have hr : r.val = r'.val := by omega
    exact Prod.ext (Fin.ext ht) (Fin.ext hr)
  · intro i
    refine ⟨(⟨i.val / 4000, by omega⟩, ⟨i.val % 4000, by omega⟩), Fin.ext ?_⟩
    show 4000 * (i.val / 4000) + i.val % 4000 = i.val
    omega

/-- The sum over the tiles of the sums over a tile's rows is the sum over all rows. -/
theorem sum_tiles {β : Type*} [AddCommMonoid β] (g : Fin 20000 → β) :
    ∑ t : Fin 5, ∑ r : Fin 4000, g (M.tileRow t r) = ∑ i, g i :=
  (Fintype.sum_prod_type' (fun t r => g (M.tileRow t r))).symm.trans
    (Fintype.sum_bijective (fun p : Fin 5 × Fin 4000 => M.tileRow p.1 p.2) tileRow_bijective _ _ (fun _ => rfl))

/-! ## The statistics on real entries -/

/-- The two-pass mean of real entries. -/
theorem meanR_real {n : Nat} (f : Fin n → Fin 128 → ℝ) (j : Fin 128) :
    M.meanR (fun i j => (f i j : EReal)) j = (((∑ i, f i j) / 20000 : ℝ) : EReal) := by
  show Ideal.div (M.c0 + ∑ r, (f r j : EReal)) M.cN = _
  rw [c0_add, ← coe_sum, div_cN]

/-- The two-pass variance of real entries. -/
theorem varR_real {n : Nat} (f : Fin n → Fin 128 → ℝ) (j : Fin 128) :
    M.varR (fun i j => (f i j : EReal)) j
      = (((∑ i, (f i j - (∑ i, f i j) / 20000) * (f i j - (∑ i, f i j) / 20000)) / 20000 : ℝ) : EReal) := by
  show Ideal.div (M.c0 + ∑ r, ((f r j : EReal) - M.meanR (fun i j => (f i j : EReal)) j)
    * ((f r j : EReal) - M.meanR (fun i j => (f i j : EReal)) j)) M.cN = _
  rw [meanR_real, c0_add]
  simp only [← EReal.coe_sub, ← EReal.coe_mul, ← coe_sum]
  rw [div_cN]

/-- The tiled mean of real entries: eight copies of every tile sum, over eight, over the row count. -/
theorem meanK_sumT_real (f : Fin 20000 → Fin 128 → ℝ) (j : Fin 128) :
    M.meanK (M.sumT (fun i j => (f i j : EReal))) j = (((∑ i, f i j) / 20000 : ℝ) : EReal) := by
  show Ideal.div (Ideal.div (M.c0 + ∑ p : Fin 5 × Fin 8, ∑ r : Fin 4000, (f (M.tileRow p.1 r) j : EReal)) M.c8) M.cN = _
  have h1 : (∑ p : Fin 5 × Fin 8, ∑ r : Fin 4000, (f (M.tileRow p.1 r) j : EReal))
      = ((8 * ∑ i, f i j : ℝ) : EReal) := by
    simp only [← coe_sum]
    congr 1
    rw [Fintype.sum_prod_type]
    simp only [Finset.sum_const, Finset.card_univ, Fintype.card_fin, nsmul_eq_mul, Nat.cast_ofNat]
    rw [← Finset.mul_sum, sum_tiles (fun i => f i j)]
  have h8 : (8 * ∑ i, f i j) / 8 = ∑ i, f i j := by ring
  rw [h1, c0_add, div_c8, div_cN, h8]

/-- The mean of squared deviations is the mean of squares minus the squared mean. -/
theorem var_identity (g : Fin 20000 → ℝ) (μ : ℝ) (hμ : μ = (∑ i, g i) / 20000) :
    (∑ i, (g i - μ) * (g i - μ)) / 20000 = (∑ i, g i * g i) / 20000 - μ * μ := by
  have h : ∑ i, (g i - μ) * (g i - μ) = (∑ i, g i * g i) - 2 * μ * (∑ i, g i) + 20000 * (μ * μ) := by
    have e : ∀ i, (g i - μ) * (g i - μ) = g i * g i - 2 * μ * g i + μ * μ := fun i => by ring
    simp only [e, Finset.sum_add_distrib, Finset.sum_sub_distrib, ← Finset.mul_sum, Finset.sum_const,
      Finset.card_univ, Fintype.card_fin, nsmul_eq_mul, Nat.cast_ofNat]
    ring
  have hS : (∑ i, g i) = 20000 * μ := by rw [hμ]; ring
  rw [h, hS]
  ring

theorem meanK_sumT (a : Fin 20000 → Fin 128 → EReal) (ha : M.Fin2 a) : M.meanK (M.sumT a) = M.meanR a := by
  obtain ⟨f, rfl⟩ := exists_real2 ha
  funext j
  rw [meanK_sumT_real, meanR_real]

theorem varK_sumT (a : Fin 20000 → Fin 128 → EReal) (ha : M.Fin2 a) :
    M.varK (M.sumT a) (M.sumsqT a) = M.varR a := by
  obtain ⟨f, rfl⟩ := exists_real2 ha
  funext j
  have hsq : M.sumsqT (fun i j => (f i j : EReal)) = M.sumT (fun i j => ((f i j * f i j : ℝ) : EReal)) := by
    show M.sumT (fun r j => (f r j : EReal) * (f r j : EReal)) = _
    simp only [← EReal.coe_mul]
  show max (M.meanK (M.sumsqT (fun i j => (f i j : EReal))) j
    - M.meanK (M.sumT (fun i j => (f i j : EReal))) j * M.meanK (M.sumT (fun i j => (f i j : EReal))) j) M.c0 = _
  rw [hsq, meanK_sumT_real, meanK_sumT_real, varR_real, c0_val, ← EReal.coe_mul, ← EReal.coe_sub,
    var_identity (fun i => f i j) _ rfl, max_eq_left]
  rw [← var_identity (fun i => f i j) _ rfl]
  exact EReal.coe_nonneg.2 (div_nonneg (Finset.sum_nonneg fun i _ => mul_self_nonneg _) (by norm_num))

/-! ## The head -/

/-- The low half of a concatenation. -/
theorem cat_lo (u v : Fin 128 → EReal) (t : Fin 128) : M.cat u v ⟨t.val, by omega⟩ = u t := by
  simp [M.cat, t.isLt]

/-- The high half of a concatenation. -/
theorem cat_hi (u v : Fin 128 → EReal) (t : Fin 128) : M.cat u v ⟨128 + t.val, by omega⟩ = v t := by
  have h : ¬ (128 + t.val < 128) := by omega
  simp [M.cat, h]

/-- A contraction over a concatenated row is the sum of the contractions over its halves. -/
theorem sum_cat (u v : Fin 128 → EReal) (W : Fin 256 → Fin 128 → EReal) (j : Fin 128) :
    ∑ k : Fin 256, M.cat u v k * W k j
      = (∑ t : Fin 128, u t * M.top W t j) + ∑ t : Fin 128, v t * M.bot W t j := by
  have h := Fin.sum_univ_add (a := 128) (b := 128) (fun k : Fin 256 => M.cat u v k * W k j)
  have e1 : ∀ t : Fin 128, M.cat u v (Fin.castAdd 128 t) * W (Fin.castAdd 128 t) j = u t * M.top W t j := fun t => by
    show M.cat u v ⟨t.val, _⟩ * W ⟨t.val, _⟩ j = u t * W ⟨t.val, _⟩ j
    rw [cat_lo]
  have e2 : ∀ t : Fin 128, M.cat u v (Fin.natAdd 128 t) * W (Fin.natAdd 128 t) j = v t * M.bot W t j := fun t => by
    show M.cat u v ⟨128 + t.val, _⟩ * W ⟨128 + t.val, _⟩ j = v t * W ⟨128 + t.val, _⟩ j
    rw [cat_hi]
  exact h.trans (congrArg₂ (· + ·) (Finset.sum_congr rfl fun t _ => e1 t) (Finset.sum_congr rfl fun t _ => e2 t))

theorem headK_eq {m : Nat} (xs xd : Fin m → Fin 128 → EReal) (W1 : Fin 256 → Fin 128 → EReal) (b1 : Fin 128 → EReal)
    (w2 : Fin 128 → Fin 2 → EReal) (b2 : Fin 2 → EReal) :
    M.headK (M.mm xs (M.top W1)) (M.mm xd (M.bot W1)) b1 w2 b2 = M.headR xs xd W1 b1 w2 b2 := by
  funext e c
  show (∑ j : Fin 128, max ((M.mm xs (M.top W1) e j + M.mm xd (M.bot W1) e j) + b1 j) M.c0 * w2 j c) + b2 c
    = (∑ j : Fin 128, max ((∑ k : Fin 256, M.cat (xs e) (xd e) k * W1 k j) + b1 j) M.c0 * w2 j c) + b2 c
  congr 1
  refine Finset.sum_congr rfl fun j _ => ?_
  rw [sum_cat]
  rfl

/-! ## Real entries stay real -/

theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

theorem real_sub {x y : EReal} (hx : ∃ r : ℝ, x = (r : EReal)) (hy : ∃ r : ℝ, y = (r : EReal)) :
    ∃ r : ℝ, x - y = (r : EReal) := by
  obtain ⟨a, rfl⟩ := hx
  obtain ⟨b, rfl⟩ := hy
  exact ⟨a - b, (EReal.coe_sub a b).symm⟩

theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

theorem real_max {x y : EReal} (hx : ∃ r : ℝ, x = (r : EReal)) (hy : ∃ r : ℝ, y = (r : EReal)) :
    ∃ r : ℝ, max x y = (r : EReal) := by
  obtain ⟨a, rfl⟩ := hx
  obtain ⟨b, rfl⟩ := hy
  rcases le_total (a : EReal) (b : EReal) with h | h
  · exact ⟨b, max_eq_right h⟩
  · exact ⟨a, max_eq_left h⟩

theorem real_sum {ι : Type*} (s : Finset ι) (f : ι → EReal) (h : ∀ i, ∃ r : ℝ, f i = (r : EReal)) :
    ∃ r : ℝ, ∑ i ∈ s, f i = (r : EReal) := by
  choose g hg using h
  exact ⟨∑ i ∈ s, g i, by rw [coe_sum]; exact Finset.sum_congr rfl fun i _ => hg i⟩

theorem real_c0 : ∃ r : ℝ, M.c0 = (r : EReal) := ⟨0, c0_val.trans EReal.coe_zero.symm⟩

theorem real_c1 : ∃ r : ℝ, M.c1 = (r : EReal) := ⟨1, c1_val⟩

/-- The reciprocal square root of a real that is not negative plus the small constant is real. -/
theorem real_rsqrt {x : EReal} (hx : ∃ v : ℝ, 0 ≤ v ∧ x = (v : EReal)) :
    ∃ r : ℝ, Ideal.rsqrt (x + M.cEps) = (r : EReal) := by
  obtain ⟨v, hv0, rfl⟩ := hx
  obtain ⟨ε, hε, hcE⟩ := cEps_val
  have hpos : 0 < v + ε := add_pos_of_nonneg_of_pos hv0 hε
  refine ⟨(Real.sqrt (v + ε))⁻¹, ?_⟩
  rw [hcE, ← EReal.coe_add, Ideal.rsqrt_coe, if_neg (not_lt.2 hpos.le), if_neg hpos.ne']

theorem fin_mm {n k d : Nat} (x : Fin n → Fin k → EReal) (w : Fin k → Fin d → EReal) (hx : M.Fin2 x) (hw : M.Fin2 w) :
    M.Fin2 (M.mm x w) :=
  fun r j => real_sum _ _ fun t => real_mul (hx r t) (hw t j)

theorem fin_affine {n k d : Nat} (x : Fin n → Fin k → EReal) (w : Fin k → Fin d → EReal) (b : Fin d → EReal)
    (hx : M.Fin2 x) (hw : M.Fin2 w) (hb : M.Fin1 b) : M.Fin2 (M.affine x w b) :=
  fun r j => real_add (fin_mm x w hx hw r j) (hb j)

theorem fin_lin {n : Nat} (x ng : Fin n → Fin 128 → EReal) (e : EReal) (w : Fin 128 → Fin 128 → EReal)
    (b : Fin 128 → EReal) (hx : M.Fin2 x) (hng : M.Fin2 ng) (he : ∃ r : ℝ, e = (r : EReal)) (hw : M.Fin2 w)
    (hb : M.Fin1 b) : M.Fin2 (M.lin x ng e w b) :=
  fin_affine _ w b (fun r k => real_add (real_mul (real_add real_c1 he) (hx r k)) (hng r k)) hw hb

theorem fin_meanR {n : Nat} (a : Fin n → Fin 128 → EReal) (ha : M.Fin2 a) : M.Fin1 (M.meanR a) := by
  obtain ⟨f, rfl⟩ := exists_real2 ha
  exact fun j => ⟨_, meanR_real f j⟩

/-- The biased variance of real entries is a real that is not negative. -/
theorem varR_nonneg {n : Nat} (a : Fin n → Fin 128 → EReal) (ha : M.Fin2 a) (j : Fin 128) :
    ∃ v : ℝ, 0 ≤ v ∧ M.varR a j = (v : EReal) := by
  obtain ⟨f, rfl⟩ := exists_real2 ha
  exact ⟨_, div_nonneg (Finset.sum_nonneg fun i _ => mul_self_nonneg _) (by norm_num), varR_real f j⟩

theorem fin_varR {n : Nat} (a : Fin n → Fin 128 → EReal) (ha : M.Fin2 a) : M.Fin1 (M.varR a) := fun j => by
  obtain ⟨v, _, hv⟩ := varR_nonneg a ha j
  exact ⟨v, hv⟩

theorem fin_bnrelu {n : Nat} (a : Fin n → Fin 128 → EReal) (mean var g b : Fin 128 → EReal) (ha : M.Fin2 a)
    (hm : M.Fin1 mean) (hv : ∀ j, ∃ v : ℝ, 0 ≤ v ∧ var j = (v : EReal)) (hg : M.Fin1 g) (hb : M.Fin1 b) :
    M.Fin2 (M.bnrelu a mean var g b) :=
  fun r j => real_max (real_add (real_mul (real_mul (real_sub (ha r j) (hm j)) (real_rsqrt (hv j))) (hg j)) (hb j))
    real_c0

theorem fin_stage2 {n : Nat} (a1 : Fin n → Fin 128 → EReal) (g1 c1' : Fin 128 → EReal) (w2 : Fin 128 → Fin 128 → EReal)
    (b2 : Fin 128 → EReal) (ha : M.Fin2 a1) (hg : M.Fin1 g1) (hc : M.Fin1 c1') (hw : M.Fin2 w2) (hb : M.Fin1 b2) :
    M.Fin2 (M.stage2 a1 g1 c1' w2 b2) :=
  fin_affine _ w2 b2 (fin_bnrelu a1 _ _ g1 c1' ha (fin_meanR a1 ha) (varR_nonneg a1 ha) hg hc) hw hb

theorem fin_stage3 {n : Nat} (a2 : Fin n → Fin 128 → EReal) (ag ab : Fin 128 → EReal) (ha : M.Fin2 a2) (hg : M.Fin1 ag)
    (hb : M.Fin1 ab) : M.Fin2 (M.stage3 a2 ag ab) :=
  fin_bnrelu a2 _ _ ag ab ha (fin_meanR a2 ha) (varR_nonneg a2 ha) hg hb

theorem fin_stage4 {n : Nat} (x z4 : Fin n → Fin 128 → EReal) (gg gb : Fin 128 → EReal) (hx : M.Fin2 x) (hz : M.Fin2 z4)
    (hg : M.Fin1 gg) (hb : M.Fin1 gb) : M.Fin2 (M.stage4 x z4 gg gb) :=
  fun r j => real_add (hx r j) (fin_bnrelu z4 _ _ gg gb hz (fin_meanR z4 hz) (varR_nonneg z4 hz) hg hb r j)

theorem fin_layer {n : Nat} (x ng : Fin n → Fin 128 → EReal) (e : EReal) (w1 : Fin 128 → Fin 128 → EReal)
    (b1 g1 c1' : Fin 128 → EReal) (w2 : Fin 128 → Fin 128 → EReal) (b2 ag ab gg gb : Fin 128 → EReal)
    (hx : M.Fin2 x) (hng : M.Fin2 ng) (he : ∃ r : ℝ, e = (r : EReal)) (hw1 : M.Fin2 w1) (hb1 : M.Fin1 b1)
    (hg1 : M.Fin1 g1) (hc1 : M.Fin1 c1') (hw2 : M.Fin2 w2) (hb2 : M.Fin1 b2) (hag : M.Fin1 ag) (hab : M.Fin1 ab)
    (hgg : M.Fin1 gg) (hgb : M.Fin1 gb) : M.Fin2 (M.layer x ng e w1 b1 g1 c1' w2 b2 ag ab gg gb) :=
  fin_stage4 x _ gg gb hx
    (fin_stage3 _ ag ab (fin_stage2 _ g1 c1' w2 b2 (fin_lin x ng e w1 b1 hx hng he hw1 hb1) hg1 hc1 hw2 hb2) hag hab)
    hgg hgb

theorem fin_rows (x : Fin 20000 → Fin 128 → EReal) (idx : Fin 320000 → BitVec 32) (hx : M.Fin2 x) :
    M.Fin2 (M.rows x idx) :=
  fun e j => hx (M.gRow (idx e)) j

theorem fin_neigh (x : Fin 20000 → Fin 128 → EReal) (src dst : Fin 320000 → BitVec 32) (hx : M.Fin2 x) :
    M.Fin2 (M.neigh x src dst) :=
  fun _ j => real_add real_c0 (real_sum _ _ fun e => fin_rows x src hx e j)

theorem fin_x0 (A : M.Inputs) (hA : A.Finite) : M.Fin2 (M.x0 A) :=
  fin_affine A.h A.emb_w A.emb_b hA.h hA.emb_w hA.emb_b

theorem fin_layerI (A : M.Inputs) (hA : A.Finite) (i : Fin 4) (x : Fin 20000 → Fin 128 → EReal) (hx : M.Fin2 x) :
    M.Fin2 (M.layerI A i x) :=
  fin_layer x _ (A.eps i) (A.mlp_w1 i) (A.mlp_b1 i) (A.mlp_bn_g i) (A.mlp_bn_b i) (A.mlp_w2 i) (A.mlp_b2 i)
    (A.app_bn_g i) (A.app_bn_b i) (A.gin_bn_g i) (A.gin_bn_b i) hx (fin_neigh x A.src A.dst hx) (hA.eps i)
    (hA.mlp_w1 i) (hA.mlp_b1 i) (hA.mlp_bn_g i) (hA.mlp_bn_b i) (hA.mlp_w2 i) (hA.mlp_b2 i) (hA.app_bn_g i)
    (hA.app_bn_b i) (hA.gin_bn_g i) (hA.gin_bn_b i)

theorem fin_x1 (A : M.Inputs) (hA : A.Finite) : M.Fin2 (M.x1 A) := fin_layerI A hA 0 _ (fin_x0 A hA)

theorem fin_x2 (A : M.Inputs) (hA : A.Finite) : M.Fin2 (M.x2 A) := fin_layerI A hA 1 _ (fin_x1 A hA)

theorem fin_x3 (A : M.Inputs) (hA : A.Finite) : M.Fin2 (M.x3 A) := fin_layerI A hA 2 _ (fin_x2 A hA)

theorem fin_x4 (A : M.Inputs) (hA : A.Finite) : M.Fin2 (M.x4 A) := fin_layerI A hA 3 _ (fin_x3 A hA)

/-! ## The layer's stages with the tiled statistics in place of the two-pass ones -/

theorem stage2_K (a1 : Fin 20000 → Fin 128 → EReal) (ha : M.Fin2 a1) (g1 c1' : Fin 128 → EReal)
    (w2 : Fin 128 → Fin 128 → EReal) (b2 : Fin 128 → EReal) :
    M.affine (M.bnrelu a1 (M.meanK (M.sumT a1)) (M.varK (M.sumT a1) (M.sumsqT a1)) g1 c1') w2 b2
      = M.stage2 a1 g1 c1' w2 b2 := by
  rw [meanK_sumT a1 ha, varK_sumT a1 ha]
  rfl

theorem stage3_K (a2 : Fin 20000 → Fin 128 → EReal) (ha : M.Fin2 a2) (ag ab : Fin 128 → EReal) :
    M.bnrelu a2 (M.meanK (M.sumT a2)) (M.varK (M.sumT a2) (M.sumsqT a2)) ag ab = M.stage3 a2 ag ab := by
  rw [meanK_sumT a2 ha, varK_sumT a2 ha]
  rfl

theorem stage4_K (x z4 : Fin 20000 → Fin 128 → EReal) (hz : M.Fin2 z4) (gg gb : Fin 128 → EReal) :
    (fun r j => x r j + M.bnrelu z4 (M.meanK (M.sumT z4)) (M.varK (M.sumT z4) (M.sumsqT z4)) gg gb r j)
      = M.stage4 x z4 gg gb := by
  rw [meanK_sumT z4 hz, varK_sumT z4 hz]
  rfl

end Cert.MathStats

end
-- ==== Proof.KChainMath.lean ====
/-
  The mathematics the kernel's run is read into: the partial scores, one layer's intermediate values, the head from
  per-node products, and the regions' values on arrays that hold M-forms.
-/
import proofs.«416875_j80633716015165_3_alg».proof.Proof.Spec
import proofs.«416875_j80633716015165_3_alg».proof.Proof.MathStats

noncomputable section

open Idealize.ShloMosaic Idealize.ShloMosaic.ValueIdx

namespace Cert.KChain

/-! ## The heads' scores added in order -/

/-- Head 0's score. -/
def s0 (A : M.Inputs) : Fin 320000 → Fin 2 → EReal := fun e k => M.headI A 0 (M.x0 A) e k
/-- Heads 0 and 1. -/
def s1 (A : M.Inputs) : Fin 320000 → Fin 2 → EReal := fun e k => s0 A e k + M.headI A 1 (M.x1 A) e k
/-- Heads 0 to 2. -/
def s2 (A : M.Inputs) : Fin 320000 → Fin 2 → EReal := fun e k => s1 A e k + M.headI A 2 (M.x2 A) e k
/-- Heads 0 to 3. -/
def s3 (A : M.Inputs) : Fin 320000 → Fin 2 → EReal := fun e k => s2 A e k + M.headI A 3 (M.x3 A) e k

/-- The network's score is the first four heads' sum plus head 4's score. -/
theorem score_eq (A : M.Inputs) : M.score A = fun e k => s3 A e k + M.headI A 4 (M.x4 A) e k := rfl

/-! ## Arrays made from functions, read back -/

theorem at1_mk1 {a : Nat} (f : Fin a → EReal) : M.at1 (M.mk1 f) = f := rfl
theorem at2_mk2 {a b : Nat} (f : Fin a → Fin b → EReal) : M.at2 (M.mk2 f) = f := rfl
theorem at3_mk3 {a b d : Nat} (f : Fin a → Fin b → Fin d → EReal) : M.at3 (M.mk3 f) = f := rfl

/-! ## One layer's intermediate values -/

/-- Layer `i`'s value after its first linear map, from the node array `x`. -/
def a1I (A : M.Inputs) (i : Fin 4) (x : Fin 20000 → Fin 128 → EReal) : Fin 20000 → Fin 128 → EReal :=
  M.lin x (M.neigh x A.src A.dst) (A.eps i) (A.mlp_w1 i) (A.mlp_b1 i)
/-- Layer `i`'s value after its second linear map. -/
def a2I (A : M.Inputs) (i : Fin 4) (x : Fin 20000 → Fin 128 → EReal) : Fin 20000 → Fin 128 → EReal :=
  M.stage2 (a1I A i x) (A.mlp_bn_g i) (A.mlp_bn_b i) (A.mlp_w2 i) (A.mlp_b2 i)
/-- Layer `i`'s value after its second normalisation. -/
def a3I (A : M.Inputs) (i : Fin 4) (x : Fin 20000 → Fin 128 → EReal) : Fin 20000 → Fin 128 → EReal :=
  M.stage3 (a2I A i x) (A.app_bn_g i) (A.app_bn_b i)

/-- The layer is its input plus the third normalisation of the third intermediate value. -/
theorem layerI_eq (A : M.Inputs) (i : Fin 4) (x : Fin 20000 → Fin 128 → EReal) :
    M.layerI A i x = M.stage4 x (a3I A i x) (A.gin_bn_g i) (A.gin_bn_b i) := rfl

theorem fin_a1I (A : M.Inputs) (hA : A.Finite) (i : Fin 4) (x : Fin 20000 → Fin 128 → EReal) (hx : M.Fin2 x) :
    M.Fin2 (a1I A i x) :=
  MathStats.fin_lin x _ _ _ _ hx (MathStats.fin_neigh x A.src A.dst hx) (hA.eps i) (hA.mlp_w1 i) (hA.mlp_b1 i)
theorem fin_a2I (A : M.Inputs) (hA : A.Finite) (i : Fin 4) (x : Fin 20000 → Fin 128 → EReal) (hx : M.Fin2 x) :
    M.Fin2 (a2I A i x) :=
  MathStats.fin_stage2 _ _ _ _ _ (fin_a1I A hA i x hx) (hA.mlp_bn_g i) (hA.mlp_bn_b i) (hA.mlp_w2 i) (hA.mlp_b2 i)
theorem fin_a3I (A : M.Inputs) (hA : A.Finite) (i : Fin 4) (x : Fin 20000 → Fin 128 → EReal) (hx : M.Fin2 x) :
    M.Fin2 (a3I A i x) :=
  MathStats.fin_stage3 _ _ _ (fin_a2I A hA i x hx) (hA.app_bn_g i) (hA.app_bn_b i)

/-! ## The head from per-node products -/

/-- Gathering rows commutes with a row-wise product. -/
theorem rows_mm (x : Fin 20000 → Fin 128 → EReal) (w : Fin 128 → Fin 128 → EReal) (idx : Fin 320000 → BitVec 32) :
    M.rows (M.mm x w) idx = M.mm (M.rows x idx) w := rfl

/-- Head `i` on `x`, from the two per-node products of `x` with the halves of the head's first weight. -/
theorem headI_K (A : M.Inputs) (i : Fin 5) (x : Fin 20000 → Fin 128 → EReal) :
    M.headK (M.rows (M.mm x (M.top (A.pred_w1 i))) A.src) (M.rows (M.mm x (M.bot (A.pred_w1 i))) A.dst)
      (A.pred_b1 i) (A.pred_w2 i) (A.pred_b2 i) = M.headI A i x :=
  MathStats.headK_eq (M.rows x A.src) (M.rows x A.dst) (A.pred_w1 i) (A.pred_b1 i) (A.pred_w2 i) (A.pred_b2 i)

/-! ## The regions' values on arrays that hold M-forms

Each is stated over array variables and closed after substituting them; the region lemmas' terms are instances. -/

/-- The first linear map's value, its operands given as arrays. -/
theorem shapeA {x ng : (⟨2, ![20000, 128]⟩ : Shape).Idx → EReal} {e : (⟨2, ![1, 1]⟩ : Shape).Idx → EReal}
    {w : (⟨2, ![128, 128]⟩ : Shape).Idx → EReal} {b : (⟨2, ![1, 128]⟩ : Shape).Idx → EReal}
    {X NG : Fin 20000 → Fin 128 → EReal} {E : EReal} {Wt : Fin 128 → Fin 128 → EReal} {B : Fin 128 → EReal}
    (hx : x = M.mk2 X) (hn : ng = M.mk2 NG) (he : e = M.mk2 fun _ _ => E) (hw : w = M.mk2 Wt)
    (hb : b = M.mk2 fun _ j => B j) :
    M.lin (M.at2 x) (M.at2 ng) (M.at2 e 0 0) (M.at2 w) (fun j => M.at2 b 0 j) = M.lin X NG E Wt B := by
  subst hx hn he hw hb; rfl

/-- The second linear map's value from the tiled statistics of the first, its operands given as arrays. -/
theorem shapeB {a : (⟨2, ![20000, 128]⟩ : Shape).Idx → EReal} {mean var g b : (⟨2, ![1, 128]⟩ : Shape).Idx → EReal}
    {w : (⟨2, ![128, 128]⟩ : Shape).Idx → EReal} {b2 : (⟨2, ![1, 128]⟩ : Shape).Idx → EReal}
    {A1 : Fin 20000 → Fin 128 → EReal} (hA1 : M.Fin2 A1) {G C : Fin 128 → EReal} {W2 : Fin 128 → Fin 128 → EReal}
    {B2 : Fin 128 → EReal}
    (ha : a = M.mk2 A1) (hm : mean = M.mk2 fun _ j => M.meanK (M.sumT A1) j)
    (hv : var = M.mk2 fun _ j => M.varK (M.sumT A1) (M.sumsqT A1) j) (hg : g = M.mk2 fun _ j => G j)
    (hb : b = M.mk2 fun _ j => C j) (hw : w = M.mk2 W2) (hb2 : b2 = M.mk2 fun _ j => B2 j) :
    M.affine (M.bnrelu (M.at2 a) (fun j => M.at2 mean 0 j) (fun j => M.at2 var 0 j) (fun j => M.at2 g 0 j)
        (fun j => M.at2 b 0 j)) (M.at2 w) (fun j => M.at2 b2 0 j) = M.stage2 A1 G C W2 B2 := by
  subst ha hm hv hg hb hw hb2; exact MathStats.stage2_K A1 hA1 G C W2 B2

/-- The second normalisation's value from the tiled statistics, its operands given as arrays. -/
theorem shapeC {a : (⟨2, ![20000, 128]⟩ : Shape).Idx → EReal} {mean var g b : (⟨2, ![1, 128]⟩ : Shape).Idx → EReal}
    {A2 : Fin 20000 → Fin 128 → EReal} (hA2 : M.Fin2 A2) {G C : Fin 128 → EReal}
    (ha : a = M.mk2 A2) (hm : mean = M.mk2 fun _ j => M.meanK (M.sumT A2) j)
    (hv : var = M.mk2 fun _ j => M.varK (M.sumT A2) (M.sumsqT A2) j) (hg : g = M.mk2 fun _ j => G j)
    (hb : b = M.mk2 fun _ j => C j) :
    M.bnrelu (M.at2 a) (fun j => M.at2 mean 0 j) (fun j => M.at2 var 0 j) (fun j => M.at2 g 0 j)
        (fun j => M.at2 b 0 j) = M.stage3 A2 G C := by
  subst ha hm hv hg hb; exact MathStats.stage3_K A2 hA2 G C

/-- The layer's output from the tiled statistics, its operands given as arrays. -/
theorem shapeD {z h : (⟨2, ![20000, 128]⟩ : Shape).Idx → EReal} {mean var g b : (⟨2, ![1, 128]⟩ : Shape).Idx → EReal}
    {Z X : Fin 20000 → Fin 128 → EReal} (hZ : M.Fin2 Z) {G C : Fin 128 → EReal}
    (hz : z = M.mk2 Z) (hm : mean = M.mk2 fun _ j => M.meanK (M.sumT Z) j)
    (hv : var = M.mk2 fun _ j => M.varK (M.sumT Z) (M.sumsqT Z) j) (hg : g = M.mk2 fun _ j => G j)
    (hb : b = M.mk2 fun _ j => C j) (hh : h = M.mk2 X) :
    (fun r j => M.at2 h r j + M.bnrelu (M.at2 z) (fun j => M.at2 mean 0 j) (fun j => M.at2 var 0 j)
        (fun j => M.at2 g 0 j) (fun j => M.at2 b 0 j) r j) = M.stage4 X Z G C := by
  subst hz hm hv hg hb hh; exact MathStats.stage4_K X Z hZ G C

end Cert.KChain

end
-- ==== Proof.KChainBase.lean ====
/-
  The kernel's run read as mathematics, the common ground: the launch arguments as functions of coordinates, the
  partial scores, and what the buffers hold where each layer's first region is entered and where the last region is
  left.
-/
import proofs.«416875_j80633716015165_3_alg».proof.Proof.Spec
import proofs.«416875_j80633716015165_3_alg».proof.Proof.KChainMath
import proofs.«416875_j80633716015165_3_alg».proof.Proof.FrameKI
import proofs.«416875_j80633716015165_3_alg».proof.Proof.KChainArgs

noncomputable section

open Idealize.ShloMosaic Idealize.ShloMosaic.TcCoe Idealize.ShloMosaic.ValueIdx
open Cert.KernelIdeal Cert.KernelIdeal.Gen

namespace Cert.KChain

/-- The twenty argument arrays of core `c` at launch, as functions of coordinates. -/
def inputsK (m : (ℓ : Loc nD τ sig) → Buf (Elt Ideal) ℓ) (c : Dev nD) : M.Inputs :=
  M.inputsOf (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14)) (m ((c : Thread nD τ).loc main_arg15))
    (m ((c : Thread nD τ).loc main_arg16)) (m ((c : Thread nD τ).loc main_arg17)) (m ((c : Thread nD τ).loc main_arg18)) (m ((c : Thread nD τ).loc main_arg19))

/-! ## The boundary records -/

/-- What the buffers hold where layer 0's first region is entered: the node array, the scores of heads 0..0 added in
    order, the neighbour sums, the layer's `eps`, first weight and first bias, and the arguments as launched. -/
structure Entry0 (m : (ℓ : Loc nD τ sig) → Buf (Elt Ideal) ℓ) (c : Dev nD) (V : Valuation τ sig (Elt Ideal)) : Prop where
  x : V (Proc.devRef .tc main_v3) = M.mk2 (M.x0 (inputsK m c))
  score : V (Proc.devRef .tc main_v41) = M.mk2 (s0 (inputsK m c))
  neigh : V (Proc.devRef .tc main_v51) = M.mk2 (M.neigh (M.x0 (inputsK m c)) (inputsK m c).src (inputsK m c).dst)
  eps : V (Proc.devRef .tc main_v54) = M.mk2 (fun (_ : Fin 1) (_ : Fin 1) => (inputsK m c).eps 0)
  w1 : V (Proc.devRef .tc main_v56) = M.mk2 ((inputsK m c).mlp_w1 0)
  b1 : V (Proc.devRef .tc main_v59) = M.mk2 (fun (_ : Fin 1) (j : Fin 128) => (inputsK m c).mlp_b1 0 j)
  args : ArgsKept m c V

/-- What the buffers hold where layer 1's first region is entered: the node array, the scores of heads 0..1 added in
    order, the neighbour sums, the layer's `eps`, first weight and first bias, and the arguments as launched. -/
structure Entry1 (m : (ℓ : Loc nD τ sig) → Buf (Elt Ideal) ℓ) (c : Dev nD) (V : Valuation τ sig (Elt Ideal)) : Prop where
  x : V (Proc.devRef .tc main_v140_0) = M.mk2 (M.x1 (inputsK m c))
  score : V (Proc.devRef .tc main_v172) = M.mk2 (s1 (inputsK m c))
  neigh : V (Proc.devRef .tc main_v182) = M.mk2 (M.neigh (M.x1 (inputsK m c)) (inputsK m c).src (inputsK m c).dst)
  eps : V (Proc.devRef .tc main_v185) = M.mk2 (fun (_ : Fin 1) (_ : Fin 1) => (inputsK m c).eps 1)
  w1 : V (Proc.devRef .tc main_v187) = M.mk2 ((inputsK m c).mlp_w1 1)
  b1 : V (Proc.devRef .tc main_v190) = M.mk2 (fun (_ : Fin 1) (j : Fin 128) => (inputsK m c).mlp_b1 1 j)
  args : ArgsKept m c V

/-- What the buffers hold where layer 2's first region is entered: the node array, the scores of heads 0..2 added in
    order, the neighbour sums, the layer's `eps`, first weight and first bias, and the arguments as launched. -/
structure Entry2 (m : (ℓ : Loc nD τ sig) → Buf (Elt Ideal) ℓ) (c : Dev nD) (V : Valuation τ sig (Elt Ideal)) : Prop where
  x : V (Proc.devRef .tc main_v271_0) = M.mk2 (M.x2 (inputsK m c))
  score : V (Proc.devRef .tc main_v303) = M.mk2 (s2 (inputsK m c))
  neigh : V (Proc.devRef .tc main_v313) = M.mk2 (M.neigh (M.x2 (inputsK m c)) (inputsK m c).src (inputsK m c).dst)
  eps : V (Proc.devRef .tc main_v316) = M.mk2 (fun (_ : Fin 1) (_ : Fin 1) => (inputsK m c).eps 2)
  w1 : V (Proc.devRef .tc main_v318) = M.mk2 ((inputsK m c).mlp_w1 2)
  b1 : V (Proc.devRef .tc main_v321) = M.mk2 (fun (_ : Fin 1) (j : Fin 128) => (inputsK m c).mlp_b1 2 j)
  args : ArgsKept m c V

/-- What the buffers hold where layer 3's first region is entered: the node array, the scores of heads 0..3 added in
    order, the neighbour sums, the layer's `eps`, first weight and first bias, and the arguments as launched. -/
structure Entry3 (m : (ℓ : Loc nD τ sig) → Buf (Elt Ideal) ℓ) (c : Dev nD) (V : Valuation τ sig (Elt Ideal)) : Prop where
  x : V (Proc.devRef .tc main_v402_0) = M.mk2 (M.x3 (inputsK m c))
  score : V (Proc.devRef .tc main_v434) = M.mk2 (s3 (inputsK m c))
  neigh : V (Proc.devRef .tc main_v444) = M.mk2 (M.neigh (M.x3 (inputsK m c)) (inputsK m c).src (inputsK m c).dst)
  eps : V (Proc.devRef .tc main_v447) = M.mk2 (fun (_ : Fin 1) (_ : Fin 1) => (inputsK m c).eps 3)
  w1 : V (Proc.devRef .tc main_v449) = M.mk2 ((inputsK m c).mlp_w1 3)
  b1 : V (Proc.devRef .tc main_v452) = M.mk2 (fun (_ : Fin 1) (j : Fin 128) => (inputsK m c).mlp_b1 3 j)
  args : ArgsKept m c V

/-- What the buffers hold where layer 0's last region is left: the next node array, its two per-node products with the
    halves of head 1's first weight, the scores of heads 0..0 added in order, and the arguments as launched. -/
structure Exit0 (m : (ℓ : Loc nD τ sig) → Buf (Elt Ideal) ℓ) (c : Dev nD) (V : Valuation τ sig (Elt Ideal)) : Prop where
  x : V (Proc.devRef .tc main_v140_0) = M.mk2 (M.x1 (inputsK m c))
  p : V (Proc.devRef .tc main_v140_1) = M.mk2 (M.mm (M.x1 (inputsK m c)) (M.top ((inputsK m c).pred_w1 1)))
  q : V (Proc.devRef .tc main_v140_2) = M.mk2 (M.mm (M.x1 (inputsK m c)) (M.bot ((inputsK m c).pred_w1 1)))
  score : V (Proc.devRef .tc main_v41) = M.mk2 (s0 (inputsK m c))
  args : ArgsKept m c V

/-- What the buffers hold where layer 1's last region is left: the next node array, its two per-node products with the
    halves of head 2's first weight, the scores of heads 0..1 added in order, and the arguments as launched. -/
structure Exit1 (m : (ℓ : Loc nD τ sig) → Buf (Elt Ideal) ℓ) (c : Dev nD) (V : Valuation τ sig (Elt Ideal)) : Prop where
  x : V (Proc.devRef .tc main_v271_0) = M.mk2 (M.x2 (inputsK m c))
  p : V (Proc.devRef .tc main_v271_1) = M.mk2 (M.mm (M.x2 (inputsK m c)) (M.top ((inputsK m c).pred_w1 2)))
  q : V (Proc.devRef .tc main_v271_2) = M.mk2 (M.mm (M.x2 (inputsK m c)) (M.bot ((inputsK m c).pred_w1 2)))
  score : V (Proc.devRef .tc main_v172) = M.mk2 (s1 (inputsK m c))
  args : ArgsKept m c V

/-- What the buffers hold where layer 2's last region is left: the next node array, its two per-node products with the
    halves of head 3's first weight, the scores of heads 0..2 added in order, and the arguments as launched. -/
structure Exit2 (m : (ℓ : Loc nD τ sig) → Buf (Elt Ideal) ℓ) (c : Dev nD) (V : Valuation τ sig (Elt Ideal)) : Prop where
  x : V (Proc.devRef .tc main_v402_0) = M.mk2 (M.x3 (inputsK m c))
  p : V (Proc.devRef .tc main_v402_1) = M.mk2 (M.mm (M.x3 (inputsK m c)) (M.top ((inputsK m c).pred_w1 3)))
  q : V (Proc.devRef .tc main_v402_2) = M.mk2 (M.mm (M.x3 (inputsK m c)) (M.bot ((inputsK m c).pred_w1 3)))
  score : V (Proc.devRef .tc main_v303) = M.mk2 (s2 (inputsK m c))
  args : ArgsKept m c V

/-- What the buffers hold where the last region is left: the final node array, its two per-node products with the
    halves of head 4's first weight, the scores of heads 0..3 added in order, and the arguments as launched. -/
structure Exit3 (m : (ℓ : Loc nD τ sig) → Buf (Elt Ideal) ℓ) (c : Dev nD) (V : Valuation τ sig (Elt Ideal)) : Prop where
  x : V (Proc.devRef .tc main_v533_0) = M.mk2 (M.x4 (inputsK m c))
  p : V (Proc.devRef .tc main_v533_1) = M.mk2 (M.mm (M.x4 (inputsK m c)) (M.top ((inputsK m c).pred_w1 4)))
  q : V (Proc.devRef .tc main_v533_2) = M.mk2 (M.mm (M.x4 (inputsK m c)) (M.bot ((inputsK m c).pred_w1 4)))
  score : V (Proc.devRef .tc main_v434) = M.mk2 (s3 (inputsK m c))
  args : ArgsKept m c V

end Cert.KChain

end
-- ==== Proof.KStageHead.lean ====
/-
  The kernel's host terms around the edge heads, read into functions of coordinates (at the ideal values).

  On arrays: the embedding is the affine map of the node features; the first head's weight halves are the top and
  bottom halves of its first weight; a head's tail on the two gathered tables of per-node products — widen, add, add the
  first bias, rectify, multiply by the second weight, add the second bias — is the head computed from per-node products;
  the parameter slices handed to the next layer are that layer's scale, first weight and first bias. The gathers and the
  scatter-add are kept as printed (index wrap included) and are read elsewhere.

  On valuations: for each host stretch and any contents of the buffers before it, the value each later reader takes
  from it, as one of the terms above of the contents before the stretch.
-/
import proofs.«416875_j80633716015165_3_alg».proof.KernelIdeal
import proofs.«416875_j80633716015165_3_alg».proof.Proof.Gen.KernelIdeal
import proofs.«416875_j80633716015165_3_alg».proof.Proof.Gen.KernelIdeal.Launch
import proofs.«416875_j80633716015165_3_alg».proof.Proof.Spec
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost
import Idealize.ShloMosaic.Lib.StackMember
import Idealize.ShloMosaic.Lib.StableHlo.Run

noncomputable section

open Idealize.ShloMosaic Idealize.ShloMosaic.ValueIdx

namespace Cert.KStageHead

open Cert.KernelIdeal Cert.KernelIdeal.Gen

/-- A bias row broadcast over all rows, read at a coordinate pair: the bias at the column. -/
theorem biasRows_apply {n d : Nat} (b : FVec Ideal ⟨1, ![d]⟩ .f32)
    (h1 : (⟨1, ![d]⟩ : Shape).BroadcastsInDim ⟨2, ![1, d]⟩ (![1] : Fin 1 → Fin 2))
    (h2 : (⟨2, ![1, d]⟩ : Shape).BroadcastsInDim ⟨2, ![n, d]⟩ (![0, 1] : Fin 2 → Fin 2)) (p : Fin n) (q : Fin d) :
    broadcastInDim ⟨2, ![n, d]⟩ ![0, 1] h2 (broadcastInDim ⟨2, ![1, d]⟩ ![1] h1 b) (ix2 p q) = b (ix1 q) := by
  refine (broadcastInDim_apply _ h2 _ (ix2 p q) (ix2 (0 : Fin 1) q) fun a => ?_).trans ?_
  · match a with
    | ⟨0, _⟩ => rfl
    | ⟨1, _⟩ =>
      show q.val = if d = 1 then 0 else q.val
      split
      · have := q.isLt; omega
      · rfl
  · refine broadcastInDim_apply _ h1 b (ix2 (0 : Fin 1) q) (ix1 q) fun a => ?_
    match a with
    | ⟨0, _⟩ =>
      show q.val = if d = 1 then 0 else q.val
      split
      · have := q.isLt; omega
      · rfl

/-- The embedding: the product with the weight plus the bias on every row. -/
theorem emb_eq (h : FVec Ideal S20000x2 .f32) (w : FVec Ideal S2x128 .f32) (b : FVec Ideal S128 .f32) :
    addf (Host.dotGeneral dot_S20000x2_S2x128_S20000x128_1_0_0_1_n_n none h w)
      (broadcastInDim S20000x128 ![0, 1] bcast_S1x128_S20000x128_0_1 (broadcastInDim S1x128 ![1] bcast_S128_S1x128_1 b))
    = M.mk2 (M.affine (M.at2 h) (M.at2 w) (M.at1 b)) := by
  funext i
  obtain ⟨p, q, rfl⟩ : ∃ p q, i = ix2 p q := ⟨i 0, i 1, eq_ix2 i⟩
  have e : dot_S20000x2_S2x128_S20000x128_1_0_0_1_n_n = DotDims.plain 20000 2 128 := rfl
  rw [addf_apply, M.mk2_apply, e, StackMember.dotGeneral_plain_apply, biasRows_apply]
  rfl

theorem ops0_v3 (V : Valuation τ sig (Elt Ideal)) :
    (StableHlo.after hostOps0 V (Proc.devRef .tc main_v3) : S20000x128.Idx → EReal)
      = M.mk2 (M.affine (M.at2 (V (Proc.devRef .tc main_arg0))) (M.at2 (V (Proc.devRef .tc main_arg1)))
          (M.at1 (V (Proc.devRef .tc main_arg2)))) := by
  after_results
  exact emb_eq _ _ _

/-- The top half of head i's first weight, in the narrow format. -/
theorem wtop_eq (W : FVec Ideal S5x256x128 .f32) (off : Fin 3 → ℕ) (hs : S5x256x128.Slices off S1x256x128) (i : Fin 5)
    (h0 : off 0 = i.val) (h1 : off 1 = 0) (h2 : off 2 = 0) :
    truncf .bf16 (extractStridedSlice S128x128 ![0, 0]
        (shapeCast S256x128 (extractStridedSlice S1x256x128 off W hs) shapeCasts_S1x256x128_S256x128)
        slices_S256x128_S128x128_0_0) bitsLt_bf16_f32
      = M.mk2 (M.top (fun k j => M.at3 W i k j)) := by
  funext x
  obtain ⟨p, q, rfl⟩ : ∃ p q, x = ix2 p q := ⟨x 0, x 1, eq_ix2 x⟩
  rw [truncf_apply, M.mk2_apply]
  refine (extractStridedSlice_apply _ _ _ (ix2 p q) (ix2 (⟨p.val, by omega⟩ : Fin 256) q) fun a => ?_).trans ?_
  · match a with
    | ⟨0, _⟩ => exact (Nat.zero_add _).symm
    | ⟨1, _⟩ => exact (Nat.zero_add _).symm
  rw [shapeCast_1ab_ab_apply]
  refine (extractStridedSlice_apply off W hs _ (ix3 i (⟨p.val, by omega⟩ : Fin 256) q) fun a => ?_).trans rfl
  match a with
  | ⟨0, _⟩ => show i.val = off 0 + 0; omega
  | ⟨1, _⟩ => show p.val = off 1 + p.val; omega
  | ⟨2, _⟩ => show q.val = off 2 + q.val; omega

/-- The bottom half of head i's first weight, in the narrow format. -/
theorem wbot_eq (W : FVec Ideal S5x256x128 .f32) (off : Fin 3 → ℕ) (hs : S5x256x128.Slices off S1x256x128) (i : Fin 5)
    (h0 : off 0 = i.val) (h1 : off 1 = 0) (h2 : off 2 = 0) :
    truncf .bf16 (extractStridedSlice S128x128 ![128, 0]
        (shapeCast S256x128 (extractStridedSlice S1x256x128 off W hs) shapeCasts_S1x256x128_S256x128)
        slices_S256x128_S128x128_128_0) bitsLt_bf16_f32
      = M.mk2 (M.bot (fun k j => M.at3 W i k j)) := by
  funext x
  obtain ⟨p, q, rfl⟩ : ∃ p q, x = ix2 p q := ⟨x 0, x 1, eq_ix2 x⟩
  rw [truncf_apply, M.mk2_apply]
  refine (extractStridedSlice_apply _ _ _ (ix2 p q) (ix2 (⟨128 + p.val, by omega⟩ : Fin 256) q) fun a => ?_).trans ?_
  · match a with
    | ⟨0, _⟩ => rfl
    | ⟨1, _⟩ => exact (Nat.zero_add _).symm
  rw [shapeCast_1ab_ab_apply]
  refine (extractStridedSlice_apply off W hs _ (ix3 i (⟨128 + p.val, by omega⟩ : Fin 256) q) fun a => ?_).trans rfl
  match a with
  | ⟨0, _⟩ => show i.val = off 0 + 0; omega
  | ⟨1, _⟩ => show 128 + p.val = off 1 + (128 + p.val); omega
  | ⟨2, _⟩ => show q.val = off 2 + q.val; omega

theorem ops0_v7 (V : Valuation τ sig (Elt Ideal)) :
    (StableHlo.after hostOps0 V (Proc.devRef .tc main_v7) : S128x128.Idx → EReal)
      = M.mk2 (M.top (fun k j => M.at3 (V (Proc.devRef .tc main_arg14)) 0 k j)) := by
  after_results
  exact wtop_eq _ _ _ 0 rfl rfl rfl

theorem ops0_v9 (V : Valuation τ sig (Elt Ideal)) :
    (StableHlo.after hostOps0 V (Proc.devRef .tc main_v9) : S128x128.Idx → EReal)
      = M.mk2 (M.bot (fun k j => M.at3 (V (Proc.devRef .tc main_arg14)) 0 k j)) := by
  after_results
  exact wbot_eq _ _ _ 0 rfl rfl rfl

/-! ## The head's tail on the two gathered tables -/

/-- The sum of the two gathered rows plus head i's first bias. -/
theorem preact_eq (gs gd : FVec Ideal S320000x128 .bf16) (B1 : FVec Ideal S5x128 .f32) (off : Fin 2 → ℕ)
    (hs : S5x128.Slices off S1x128) (i : Fin 5) (h0 : off 0 = i.val) (h1 : off 1 = 0) :
    addf (addf (extf .f32 gs bitsLt_bf16_f32) (extf .f32 gd bitsLt_bf16_f32))
      (broadcastInDim S320000x128 ![0, 1] bcast_S1x128_S320000x128_0_1 (broadcastInDim S1x128 ![1] bcast_S128_S1x128_1
        (shapeCast S128 (extractStridedSlice S1x128 off B1 hs) shapeCasts_S1x128_S128)))
    = M.mk2 (fun e j => (M.at2 gs e j + M.at2 gd e j) + M.at2 B1 i j) := by
  funext x
  obtain ⟨e, j, rfl⟩ : ∃ e j, x = ix2 e j := ⟨x 0, x 1, eq_ix2 x⟩
  have hsl : extractStridedSlice S1x128 off B1 hs (ix2 (0 : Fin 1) j) = B1 (ix2 i j) :=
    extractStridedSlice_apply off B1 hs _ _ fun a => by
      match a with
      | ⟨0, _⟩ => show i.val = off 0 + 0; omega
      | ⟨1, _⟩ => show j.val = off 1 + j.val; omega
  rw [addf_apply, addf_apply, extf_apply, extf_apply, M.mk2_apply, biasRows_apply, shapeCast_1a_a_apply, hsl]

/-- The rectifier: the maximum with the broadcast zero word. -/
theorem relu_eq (z : FVec Ideal S320000x128 .f32) :
    maximumf z (broadcastInDim S320000x128 ![] bcast_S_S320000x128 (constant (F := Ideal) S_ .f32 0x00000000#32))
    = M.mk2 (fun e j => max (M.at2 z e j) M.c0) := by
  funext x
  obtain ⟨e, j, rfl⟩ : ∃ e j, x = ix2 e j := ⟨x 0, x 1, eq_ix2 x⟩
  rw [maximumf_apply, broadcastInDim_scalar_apply, constant_apply, M.mk2_apply]

/-- The product with head i's second weight plus its second bias. -/
theorem score_eq (r : FVec Ideal S320000x128 .f32) (W2 : FVec Ideal S5x128x2 .f32) (B2 : FVec Ideal S5x2 .f32)
    (offW : Fin 3 → ℕ) (hW : S5x128x2.Slices offW S1x128x2) (offB : Fin 2 → ℕ) (hB : S5x2.Slices offB S1x2) (i : Fin 5)
    (w0 : offW 0 = i.val) (w1 : offW 1 = 0) (w2 : offW 2 = 0) (b0 : offB 0 = i.val) (b1 : offB 1 = 0) :
    addf (Host.dotGeneral dot_S320000x128_S128x2_S320000x2_1_0_0_1_n_n none r
        (shapeCast S128x2 (extractStridedSlice S1x128x2 offW W2 hW) shapeCasts_S1x128x2_S128x2))
      (broadcastInDim S320000x2 ![0, 1] bcast_S1x2_S320000x2_0_1 (broadcastInDim S1x2 ![1] bcast_S2_S1x2_1
        (shapeCast S2 (extractStridedSlice S1x2 offB B2 hB) shapeCasts_S1x2_S2)))
    = M.mk2 (fun e c => (∑ j : Fin 128, M.at2 r e j * M.at3 W2 i j c) + M.at2 B2 i c) := by
  funext x
  obtain ⟨e, c, rfl⟩ : ∃ e c, x = ix2 e c := ⟨x 0, x 1, eq_ix2 x⟩
  have ed : dot_S320000x128_S128x2_S320000x2_1_0_0_1_n_n = DotDims.plain 320000 128 2 := rfl
  have hb : extractStridedSlice S1x2 offB B2 hB (ix2 (0 : Fin 1) c) = B2 (ix2 i c) :=
    extractStridedSlice_apply offB B2 hB _ _ fun a => by
      match a with
      | ⟨0, _⟩ => show i.val = offB 0 + 0; omega
      | ⟨1, _⟩ => show c.val = offB 1 + c.val; omega
  have hw : ∀ j : Fin 128, extractStridedSlice S1x128x2 offW W2 hW (ix3 (0 : Fin 1) j c) = W2 (ix3 i j c) := fun j =>
    extractStridedSlice_apply offW W2 hW _ _ fun a => by
      match a with
      | ⟨0, _⟩ => show i.val = offW 0 + 0; omega
      | ⟨1, _⟩ => show j.val = offW 1 + j.val; omega
      | ⟨2, _⟩ => show c.val = offW 2 + c.val; omega
  rw [addf_apply, M.mk2_apply, ed, StackMember.dotGeneral_plain_apply, biasRows_apply, shapeCast_1a_a_apply, hb]
  refine congrArg (· + B2 (ix2 i c)) (Finset.sum_congr rfl fun j _ => ?_)
  rw [shapeCast_1ab_ab_apply, hw]

/-- The three together: the head from per-node products. -/
theorem headK_eq (gs gd : FVec Ideal S320000x128 .bf16) (B1 : FVec Ideal S5x128 .f32) (W2 : FVec Ideal S5x128x2 .f32)
    (B2 : FVec Ideal S5x2 .f32) (off1 : Fin 2 → ℕ) (h1 : S5x128.Slices off1 S1x128)
    (offW : Fin 3 → ℕ) (hW : S5x128x2.Slices offW S1x128x2) (offB : Fin 2 → ℕ) (hB : S5x2.Slices offB S1x2) (i : Fin 5)
    (a0 : off1 0 = i.val) (a1 : off1 1 = 0)
    (w0 : offW 0 = i.val) (w1 : offW 1 = 0) (w2 : offW 2 = 0) (b0 : offB 0 = i.val) (b1 : offB 1 = 0) :
    addf (Host.dotGeneral dot_S320000x128_S128x2_S320000x2_1_0_0_1_n_n none
        (maximumf
          (addf (addf (extf .f32 gs bitsLt_bf16_f32) (extf .f32 gd bitsLt_bf16_f32))
            (broadcastInDim S320000x128 ![0, 1] bcast_S1x128_S320000x128_0_1 (broadcastInDim S1x128 ![1] bcast_S128_S1x128_1
              (shapeCast S128 (extractStridedSlice S1x128 off1 B1 h1) shapeCasts_S1x128_S128))))
          (broadcastInDim S320000x128 ![] bcast_S_S320000x128 (constant (F := Ideal) S_ .f32 0x00000000#32)))
        (shapeCast S128x2 (extractStridedSlice S1x128x2 offW W2 hW) shapeCasts_S1x128x2_S128x2))
      (broadcastInDim S320000x2 ![0, 1] bcast_S1x2_S320000x2_0_1 (broadcastInDim S1x2 ![1] bcast_S2_S1x2_1
        (shapeCast S2 (extractStridedSlice S1x2 offB B2 hB) shapeCasts_S1x2_S2)))
    = M.mk2 (M.headK (M.at2 gs) (M.at2 gd) (fun j => M.at2 B1 i j) (fun j c => M.at3 W2 i j c) (fun c => M.at2 B2 i c)) := by
  rw [preact_eq gs gd B1 off1 h1 i a0 a1, relu_eq, score_eq _ W2 B2 offW hW offB hB i w0 w1 w2 b0 b1]
  rfl

/-! ## The next region's parameter slices -/

/-- A reshape between two one-element shapes reads the one element. -/
theorem shapeCast_unit_apply {s t : Shape} {α : Type} (x : s.Idx → α) (h : s.ShapeCasts t) (hs : s.numel = 1) (ht : t.numel = 1)
    (j : t.Idx) (k : s.Idx) : shapeCast t x h j = x k :=
  shapeCast_apply x h j k (by have a := (s.rowMajor k).isLt; have b := (t.rowMajor j).isLt; omega)

/-- Layer i's scale as a one-by-one array. -/
theorem eps_eq (E : FVec Ideal S4 .f32) (off : Fin 1 → ℕ) (hs : S4.Slices off S1) (i : Fin 4) (h0 : off 0 = i.val) :
    shapeCast S1x1 (shapeCast S_ (extractStridedSlice S1 off E hs) shapeCasts_S1_S_) shapeCasts_S_S1x1
    = M.mk2 (fun (_ : Fin 1) (_ : Fin 1) => M.at1 E i) := by
  funext x
  obtain ⟨p, q, rfl⟩ : ∃ p q, x = ix2 p q := ⟨x 0, x 1, eq_ix2 x⟩
  rw [shapeCast_unit_apply _ shapeCasts_S_S1x1 (by decide) (by decide) _ ix0,
    shapeCast_unit_apply _ shapeCasts_S1_S_ (by decide) (by decide) _ (ix1 (0 : Fin 1)), M.mk2_apply]
  exact extractStridedSlice_apply off E hs (ix1 (0 : Fin 1)) (ix1 i) fun a => by
    match a with
    | ⟨0, _⟩ => show i.val = off 0 + 0; omega

/-- Layer i's first weight. -/
theorem w1_eq (W : FVec Ideal S4x128x128 .f32) (off : Fin 3 → ℕ) (hs : S4x128x128.Slices off S1x128x128) (i : Fin 4)
    (h0 : off 0 = i.val) (h1 : off 1 = 0) (h2 : off 2 = 0) :
    shapeCast S128x128 (extractStridedSlice S1x128x128 off W hs) shapeCasts_S1x128x128_S128x128
    = M.mk2 (fun k j => M.at3 W i k j) := by
  funext x
  obtain ⟨p, q, rfl⟩ : ∃ p q, x = ix2 p q := ⟨x 0, x 1, eq_ix2 x⟩
  rw [shapeCast_1ab_ab_apply, M.mk2_apply]
  exact extractStridedSlice_apply off W hs (ix3 (0 : Fin 1) p q) (ix3 i p q) fun a => by
    match a with
    | ⟨0, _⟩ => show i.val = off 0 + 0; omega
    | ⟨1, _⟩ => show p.val = off 1 + p.val; omega
    | ⟨2, _⟩ => show q.val = off 2 + q.val; omega

/-- Layer i's first bias as a one-row array. -/
theorem b1row_eq (B : FVec Ideal S4x128 .f32) (off : Fin 2 → ℕ) (hs : S4x128.Slices off S1x128) (i : Fin 4)
    (h0 : off 0 = i.val) (h1 : off 1 = 0) :
    shapeCast S1x128 (shapeCast S128 (extractStridedSlice S1x128 off B hs) shapeCasts_S1x128_S128) shapeCasts_S128_S1x128
    = M.mk2 (fun (_ : Fin 1) j => M.at2 B i j) := by
  funext x
  obtain ⟨p, q, rfl⟩ : ∃ p q, x = ix2 p q := ⟨x 0, x 1, eq_ix2 x⟩
  rw [shapeCast_a_1a_apply, shapeCast_1a_a_apply, M.mk2_apply]
  exact extractStridedSlice_apply off B hs (ix2 (0 : Fin 1) q) (ix2 i q) fun a => by
    match a with
    | ⟨0, _⟩ => show i.val = off 0 + 0; omega
    | ⟨1, _⟩ => show q.val = off 1 + q.val; omega

/-! ## The printed index wrap, gather and scatter-add, kept as they are printed -/

/-- The index words as a gather takes them: a negative word has the node count added; then laid out as one column. -/
abbrev wrapCol (idx : IVec S320000 32) : IVec S320000x1 32 :=
  broadcastInDim S320000x1 ![0] bcast_S320000_S320000x1_0
    (select (cmpi .slt idx (broadcastInDim S320000 ![] bcast_S_S320000 (constantI S_ 32 0#32)))
      (addi idx (broadcastInDim S320000 ![] bcast_S_S320000 (constantI S_ 32 20000#32))) idx)

/-- The rows of a node array gathered at the wrapped index words. -/
abbrev gath (φ : FTy) (x : FVec Ideal S20000x128 φ) (idx : IVec S320000 32) : FVec Ideal S320000x128 φ :=
  Host.gather gather_S20000x128_S320000x1_S320000x128_1_0_n_n_0_1_1128 x (wrapCol idx)

/-- Edge rows added into the zero array at the (unwrapped) index words. -/
abbrev scat (idx : IVec S320000 32) (u : FVec Ideal S320000x128 .f32) : FVec Ideal S20000x128 .f32 :=
  Host.scatterAdd scatter_S20000x128_S320000x1_S320000x128_1_0_0_1
    (broadcastInDim S20000x128 ![] bcast_S_S20000x128 (constant (F := Ideal) S_ .f32 0x00000000#32))
    (broadcastInDim S320000x1 ![0] bcast_S320000_S320000x1_0 idx) u

/-! ## The first head's stretches -/

theorem ops1_v17 (V : Valuation τ sig (Elt Ideal)) :
    (StableHlo.after hostOps1 V (Proc.devRef .tc main_v17) : S320000x128.Idx → EReal)
      = gath .bf16 (V (Proc.devRef .tc main_v10_0)) (V (Proc.devRef .tc main_arg18)) := by
  after_results

theorem ops1_v25 (V : Valuation τ sig (Elt Ideal)) :
    (StableHlo.after hostOps1 V (Proc.devRef .tc main_v25) : S320000x128.Idx → EReal)
      = gath .bf16 (V (Proc.devRef .tc main_v10_1)) (V (Proc.devRef .tc main_arg19)) := by
  after_results_simp

theorem ops1_v32 (V : Valuation τ sig (Elt Ideal)) :
    (StableHlo.after hostOps1 V (Proc.devRef .tc main_v32) : S320000x128.Idx → EReal)
      = M.mk2 (fun e j =>
          (M.at2 (gath .bf16 (V (Proc.devRef .tc main_v10_0)) (V (Proc.devRef .tc main_arg18))) e j
            + M.at2 (gath .bf16 (V (Proc.devRef .tc main_v10_1)) (V (Proc.devRef .tc main_arg19))) e j)
          + M.at2 (V (Proc.devRef .tc main_arg15)) 0 j) := by
  after_results_simp
  exact preact_eq _ _ _ _ _ 0 rfl rfl

theorem ops1_1_v33 (V : Valuation τ sig (Elt Ideal)) :
    (StableHlo.after hostOps1_1 V (Proc.devRef .tc main_v33) : S320000x128.Idx → EReal)
      = M.mk2 (fun e j => max (M.at2 (V (Proc.devRef .tc main_v32)) e j) M.c0) := by
  after_results
  exact relu_eq _

theorem ops1_2_v41 (V : Valuation τ sig (Elt Ideal)) :
    (StableHlo.after hostOps1_2 V (Proc.devRef .tc main_v41) : S320000x2.Idx → EReal)
      = M.mk2 (fun e c => (∑ j : Fin 128, M.at2 (V (Proc.devRef .tc main_v33)) e j * M.at3 (V (Proc.devRef .tc main_arg16)) 0 j c)
          + M.at2 (V (Proc.devRef .tc main_arg17)) 0 c) := by
  after_results
  exact score_eq _ _ _ _ _ _ _ 0 rfl rfl rfl rfl rfl

theorem ops1_2_v48 (V : Valuation τ sig (Elt Ideal)) :
    (StableHlo.after hostOps1_2 V (Proc.devRef .tc main_v48) : S320000x128.Idx → EReal)
      = gath .f32 (V (Proc.devRef .tc main_v3)) (V (Proc.devRef .tc main_arg18)) := by
  after_results_simp

theorem ops1_2_v51 (V : Valuation τ sig (Elt Ideal)) :
    (StableHlo.after hostOps1_2 V (Proc.devRef .tc main_v51) : S20000x128.Idx → EReal)
      = scat (V (Proc.devRef .tc main_arg19)) (gath .f32 (V (Proc.devRef .tc main_v3)) (V (Proc.devRef .tc main_arg18))) := by
  after_results_simp

theorem ops1_2_v54 (V : Valuation τ sig (Elt Ideal)) :
    (StableHlo.after hostOps1_2 V (Proc.devRef .tc main_v54) : S1x1.Idx → EReal)
      = M.mk2 (fun (_ : Fin 1) (_ : Fin 1) => M.at1 (V (Proc.devRef .tc main_arg3)) 0) := by
  after_results
  exact eps_eq _ _ _ 0 rfl

theorem ops1_2_v56 (V : Valuation τ sig (Elt Ideal)) :
    (StableHlo.after hostOps1_2 V (Proc.devRef .tc main_v56) : S128x128.Idx → EReal)
      = M.mk2 (fun k j => M.at3 (V (Proc.devRef .tc main_arg4)) 0 k j) := by
  after_results
  exact w1_eq _ _ _ 0 rfl rfl rfl

theorem ops1_2_v59 (V : Valuation τ sig (Elt Ideal)) :
    (StableHlo.after hostOps1_2 V (Proc.devRef .tc main_v59) : S1x128.Idx → EReal)
      = M.mk2 (fun (_ : Fin 1) j => M.at2 (V (Proc.devRef .tc main_arg5)) 0 j) := by
  after_results
  exact b1row_eq _ _ _ 0 rfl rfl

/-- The first head's score, across its three stretches, from the contents before them. -/
theorem head0_v41 (V : Valuation τ sig (Elt Ideal)) :
    (StableHlo.after hostOps1_2 (StableHlo.after hostOps1_1 (StableHlo.after hostOps1 V)) (Proc.devRef .tc main_v41) : S320000x2.Idx → EReal)
      = M.mk2 (M.headK (M.at2 (gath .bf16 (V (Proc.devRef .tc main_v10_0)) (V (Proc.devRef .tc main_arg18))))
          (M.at2 (gath .bf16 (V (Proc.devRef .tc main_v10_1)) (V (Proc.devRef .tc main_arg19))))
          (fun j => M.at2 (V (Proc.devRef .tc main_arg15)) 0 j) (fun j c => M.at3 (V (Proc.devRef .tc main_arg16)) 0 j c)
          (fun c => M.at2 (V (Proc.devRef .tc main_arg17)) 0 c)) := by
  have e16 : StableHlo.after hostOps1_1 (StableHlo.after hostOps1 V) (Proc.devRef .tc main_arg16) = V (Proc.devRef .tc main_arg16) := by
    after_results_simp
  have e17 : StableHlo.after hostOps1_1 (StableHlo.after hostOps1 V) (Proc.devRef .tc main_arg17) = V (Proc.devRef .tc main_arg17) := by
    after_results_simp
  rw [ops1_2_v41, ops1_1_v33, ops1_v32, e16, e17]
  rfl

/-! ## From the second head on: the score added to the running score -/

/-- A head's score term added to the running score. -/
theorem scoreAcc_eq (s : FVec Ideal S320000x2 .f32) (r : FVec Ideal S320000x128 .f32) (W2 : FVec Ideal S5x128x2 .f32)
    (B2 : FVec Ideal S5x2 .f32) (offW : Fin 3 → ℕ) (hW : S5x128x2.Slices offW S1x128x2) (offB : Fin 2 → ℕ)
    (hB : S5x2.Slices offB S1x2) (i : Fin 5)
    (w0 : offW 0 = i.val) (w1 : offW 1 = 0) (w2 : offW 2 = 0) (b0 : offB 0 = i.val) (b1 : offB 1 = 0) :
    addf s (addf (Host.dotGeneral dot_S320000x128_S128x2_S320000x2_1_0_0_1_n_n none r
        (shapeCast S128x2 (extractStridedSlice S1x128x2 offW W2 hW) shapeCasts_S1x128x2_S128x2))
      (broadcastInDim S320000x2 ![0, 1] bcast_S1x2_S320000x2_0_1 (broadcastInDim S1x2 ![1] bcast_S2_S1x2_1
        (shapeCast S2 (extractStridedSlice S1x2 offB B2 hB) shapeCasts_S1x2_S2))))
    = M.mk2 (fun e c => M.at2 s e c + ((∑ j : Fin 128, M.at2 r e j * M.at3 W2 i j c) + M.at2 B2 i c)) := by
  rw [score_eq r W2 B2 offW hW offB hB i w0 w1 w2 b0 b1]
  funext x
  obtain ⟨e, c, rfl⟩ : ∃ e c, x = ix2 e c := ⟨x 0, x 1, eq_ix2 x⟩
  rw [addf_apply, M.mk2_apply, M.mk2_apply]

/-! ## The second head's stretches -/

theorem ops5_v147 (V : Valuation τ sig (Elt Ideal)) :
    (StableHlo.after hostOps5 V (Proc.devRef .tc main_v147) : S320000x128.Idx → EReal)
      = gath .bf16 (V (Proc.devRef .tc main_v140_1)) (V (Proc.devRef .tc main_arg18)) := by
  after_results

theorem ops5_v155 (V : Valuation τ sig (Elt Ideal)) :
    (StableHlo.after hostOps5 V (Proc.devRef .tc main_v155) : S320000x128.Idx → EReal)
      = gath .bf16 (V (Proc.devRef .tc main_v140_2)) (V (Proc.devRef .tc main_arg19)) := by
  after_results_simp

theorem ops5_v162 (V : Valuation τ sig (Elt Ideal)) :
    (StableHlo.after hostOps5 V (Proc.devRef .tc main_v162) : S320000x128.Idx → EReal)
      = M.mk2 (fun e j =>
          (M.at2 (gath .bf16 (V (Proc.devRef .tc main_v140_1)) (V (Proc.devRef .tc main_arg18))) e j
            + M.at2 (gath .bf16 (V (Proc.devRef .tc main_v140_2)) (V (Proc.devRef .tc main_arg19))) e j)
          + M.at2 (V (Proc.devRef .tc main_arg15)) (1 : Fin 5) j) := by
  after_results_simp
  exact preact_eq _ _ _ _ _ (1 : Fin 5) rfl rfl

theorem ops5_1_v163 (V : Valuation τ sig (Elt Ideal)) :
    (StableHlo.after hostOps5_1 V (Proc.devRef .tc main_v163) : S320000x128.Idx → EReal)
      = M.mk2 (fun e j => max (M.at2 (V (Proc.devRef .tc main_v162)) e j) M.c0) := by
  after_results
  exact relu_eq _

theorem ops5_2_v171 (V : Valuation τ sig (Elt Ideal)) :
    (StableHlo.after hostOps5_2 V (Proc.devRef .tc main_v171) : S320000x2.Idx → EReal)
      = M.mk2 (fun e c => (∑ j : Fin 128, M.at2 (V (Proc.devRef .tc main_v163)) e j * M.at3 (V (Proc.devRef .tc main_arg16)) (1 : Fin 5) j c)
          + M.at2 (V (Proc.devRef .tc main_arg17)) (1 : Fin 5) c) := by
  after_results
  exact score_eq _ _ _ _ _ _ _ (1 : Fin 5) rfl rfl rfl rfl rfl

theorem ops5_2_v172 (V : Valuation τ sig (Elt Ideal)) :
    (StableHlo.after hostOps5_2 V (Proc.devRef .tc main_v172) : S320000x2.Idx → EReal)
      = M.mk2 (fun e c => M.at2 (V (Proc.devRef .tc main_v41)) e c
          + ((∑ j : Fin 128, M.at2 (V (Proc.devRef .tc main_v163)) e j * M.at3 (V (Proc.devRef .tc main_arg16)) (1 : Fin 5) j c)
            + M.at2 (V (Proc.devRef .tc main_arg17)) (1 : Fin 5) c)) := by
  after_results_simp
  exact scoreAcc_eq _ _ _ _ _ _ _ _ (1 : Fin 5) rfl rfl rfl rfl rfl

/-- This head's score added to the running score, across its three stretches, from the contents before them. -/
theorem head5_v172 (V : Valuation τ sig (Elt Ideal)) :
    (StableHlo.after hostOps5_2 (StableHlo.after hostOps5_1 (StableHlo.after hostOps5 V)) (Proc.devRef .tc main_v172) : S320000x2.Idx → EReal)
      = M.mk2 (fun e c => M.at2 (V (Proc.devRef .tc main_v41)) e c
          + M.headK (M.at2 (gath .bf16 (V (Proc.devRef .tc main_v140_1)) (V (Proc.devRef .tc main_arg18))))
              (M.at2 (gath .bf16 (V (Proc.devRef .tc main_v140_2)) (V (Proc.devRef .tc main_arg19))))
              (fun j => M.at2 (V (Proc.devRef .tc main_arg15)) (1 : Fin 5) j) (fun j c => M.at3 (V (Proc.devRef .tc main_arg16)) (1 : Fin 5) j c)
              (fun c => M.at2 (V (Proc.devRef .tc main_arg17)) (1 : Fin 5) c) e c) := by
  have e16 : StableHlo.after hostOps5_1 (StableHlo.after hostOps5 V) (Proc.devRef .tc main_arg16) = V (Proc.devRef .tc main_arg16) := by
    after_results_simp
  have e17 : StableHlo.after hostOps5_1 (StableHlo.after hostOps5 V) (Proc.devRef .tc main_arg17) = V (Proc.devRef .tc main_arg17) := by
    after_results_simp
  have e41 : StableHlo.after hostOps5_1 (StableHlo.after hostOps5 V) (Proc.devRef .tc main_v41) = V (Proc.devRef .tc main_v41) := by
    after_results_simp
  rw [ops5_2_v172, ops5_1_v163, ops5_v162, e16, e17, e41]
  rfl

/-! ### The second layer's neighbour sums and parameters -/

theorem ops5_2_v179 (V : Valuation τ sig (Elt Ideal)) :
    (StableHlo.after hostOps5_2 V (Proc.devRef .tc main_v179) : S320000x128.Idx → EReal)
      = gath .f32 (V (Proc.devRef .tc main_v140_0)) (V (Proc.devRef .tc main_arg18)) := by
  after_results_simp

theorem ops5_2_v182 (V : Valuation τ sig (Elt Ideal)) :
    (StableHlo.after hostOps5_2 V (Proc.devRef .tc main_v182) : S20000x128.Idx → EReal)
      = scat (V (Proc.devRef .tc main_arg19)) (gath .f32 (V (Proc.devRef .tc main_v140_0)) (V (Proc.devRef .tc main_arg18))) := by
  after_results_simp

theorem ops5_2_v185 (V : Valuation τ sig (Elt Ideal)) :
    (StableHlo.after hostOps5_2 V (Proc.devRef .tc main_v185) : S1x1.Idx → EReal)
      = M.mk2 (fun (_ : Fin 1) (_ : Fin 1) => M.at1 (V (Proc.devRef .tc main_arg3)) (1 : Fin 4)) := by
  after_results
  exact eps_eq _ _ _ (1 : Fin 4) rfl

theorem ops5_2_v187 (V : Valuation τ sig (Elt Ideal)) :
    (StableHlo.after hostOps5_2 V (Proc.devRef .tc main_v187) : S128x128.Idx → EReal)
      = M.mk2 (fun k j => M.at3 (V (Proc.devRef .tc main_arg4)) (1 : Fin 4) k j) := by
  after_results
  exact w1_eq _ _ _ (1 : Fin 4) rfl rfl rfl

theorem ops5_2_v190 (V : Valuation τ sig (Elt Ideal)) :
    (StableHlo.after hostOps5_2 V (Proc.devRef .tc main_v190) : S1x128.Idx → EReal)
      = M.mk2 (fun (_ : Fin 1) j => M.at2 (V (Proc.devRef .tc main_arg5)) (1 : Fin 4) j) := by
  after_results
  exact b1row_eq _ _ _ (1 : Fin 4) rfl rfl

end Cert.KStageHead

end
-- ==== Proof.GatherRows.lean ====
/-
  The edges' row gather and scatter-add, read at an index.

  Both programs fetch node rows with a `stablehlo.gather` along the row axis of a `[20000, 128]` array at a column
  `[320000, 1]` of start indices, the index words first wrapped (a negative word has the node count added), and
  accumulate with a `stablehlo.scatter` whose body adds, into an array of zeros. Read at an index:
  the gather's entry `(e, j)` is the operand's entry `(gRow (idx e), j)` (start index read signed, clamped into
  `[0, 19999]`); the scatter's entry `(r, j)` is the zero word plus the sum over the edges `e` whose target word,
  read signed and not clamped, is the node `r`, of the update's entry `(e, j)` (an update landing outside is dropped).
  The statements are over the dimension numbers as a record `rowDims wf` / `rowScat wf` for any evidence `wf` of
  their conditions; a program's own record is one of these by unfolding.
-/
import Idealize.ShloMosaic.PureOps.Ideal
import Idealize.ShloMosaic.PureOps.Ideal.Laws
import Idealize.ShloMosaic.Lib.ValueIdx
import Idealize.ShloMosaic.Lib.IdealHost
import Idealize.ShloMosaic.Lib.ValueLayout
import proofs.«416875_j80633716015165_3_alg».proof.Proof.Spec

noncomputable section

open Idealize.ShloMosaic Idealize.ShloMosaic.ValueIdx
open scoped BigOperators

namespace Cert.GatherRows

/-! ## The row gather -/

/-- The dimension numbers of the row gather: operand `[20000, 128]`, start indices `[320000, 1]`, result
    `[320000, 128]`; the row axis collapsed and start-indexed, the column axis the one offset axis, whole. -/
abbrev rowDims (wf : GatherDims.WF ⟨2, ![20000, 128]⟩ ⟨2, ![320000, 1]⟩ ⟨2, ![320000, 128]⟩ [1] [0] [] [0] [] 1 ![1, 128]) :
    GatherDims ⟨2, ![20000, 128]⟩ ⟨2, ![320000, 1]⟩ ⟨2, ![320000, 128]⟩ where
  offsetDims := [1]
  collapsedSliceDims := [0]
  operandBatchingDims := []
  startIndicesBatchingDims := []
  startIndexMap := [0]
  indexVectorDim := 1
  sliceSizes := ![1, 128]
  wf := wf

/-- A start index word read signed and clamped into the rows `[0, 19999]`. -/
def clampRow {w : Nat} (v : BitVec w) : Fin 20000 := ⟨min v.toInt.toNat 19999, by omega⟩

/-- The gather at `(e, j)`: column `j` of the operand's row at start index `e`, read signed and clamped into
    `[0, 19999]`. -/
theorem gather_at {α : Type} {w : Nat}
    (wf : GatherDims.WF ⟨2, ![20000, 128]⟩ ⟨2, ![320000, 1]⟩ ⟨2, ![320000, 128]⟩ [1] [0] [] [0] [] 1 ![1, 128])
    (x : (⟨2, ![20000, 128]⟩ : Shape).Idx → α) (idx : IVec ⟨2, ![320000, 1]⟩ w) (e : Fin 320000) (j : Fin 128) :
    Host.gather (rowDims wf) x idx (ix2 e j)
      = x (ix2 (clampRow (idx (ix2 e (0 : Fin 1)))) j) := by
  unfold Host.gather
  congr 1
  funext a
  refine Fin.ext ?_
  have hsi : (rowDims wf).siIdx (ix2 e j) ⟨List.idxOf (0 : Fin 2) (rowDims wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  match a with
  | ⟨0, _⟩ =>
    show (rowDims wf).start (ix2 e j) idx 0 + (rowDims wf).batchCoord (ix2 e j) 0 + (rowDims wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims wf).startIndexMap from List.mem_singleton.mpr rfl), hsi]
    rfl
  | ⟨1, _⟩ =>
    show (rowDims wf).start (ix2 e j) idx 1 + (rowDims wf).batchCoord (ix2 e j) 1 + (rowDims wf).offCoord (ix2 e j) 1 = j.val
    rw [GatherDims.batchCoord_eq_zero _ _ _ List.not_mem_nil]
    have hm : (1 : Fin 2) ∉ (rowDims wf).startIndexMap := by
      show (1 : Fin 2) ∉ ([0] : List (Fin 2))
      decide
    have hk : (1 : Fin 2) ∈ (rowDims wf).sKept :=
      (GatherDims.mem_sKept _ _).mpr ⟨by show (1 : Fin 2) ∉ ([0] : List (Fin 2)); decide, List.not_mem_nil⟩
    unfold GatherDims.start
    rw [dif_neg hm]
    unfold GatherDims.offCoord
    rw [dif_pos hk]
    simp only [Nat.zero_add, Nat.add_zero]
    rfl

/-- The index wrap read at an edge: a negative word has the node count added. -/
theorem wrap_apply (hb0 : (⟨0, ![]⟩ : Shape).BroadcastsInDim ⟨1, ![320000]⟩ ![])
    (idx : IVec ⟨1, ![320000]⟩ 32) (i : (⟨1, ![320000]⟩ : Shape).Idx) :
    select (cmpi .slt idx (broadcastInDim ⟨1, ![320000]⟩ ![] hb0 (constantI ⟨0, ![]⟩ 32 0#32)))
        (addi idx (broadcastInDim ⟨1, ![320000]⟩ ![] hb0 (constantI ⟨0, ![]⟩ 32 20000#32))) idx i
      = if (idx i).toInt < 0 then idx i + 20000#32 else idx i := by
  rw [select_apply]
  show Scalar.select (IntOp.cmpi .slt (idx i) (broadcastInDim ⟨1, ![320000]⟩ ![] hb0 (constantI ⟨0, ![]⟩ 32 0#32) i))
      (IntOp.addi (idx i) (broadcastInDim ⟨1, ![320000]⟩ ![] hb0 (constantI ⟨0, ![]⟩ 32 20000#32) i)) (idx i) = _
  rw [broadcastInDim_scalar_apply, broadcastInDim_scalar_apply, constantI_apply, constantI_apply]
  unfold Scalar.select IntOp.cmpi IntOp.addi
  by_cases h : (idx i).toInt < 0
  · have hs : (idx i).slt 0#32 = true := by rw [BitVec.slt]; simpa using h
    rw [if_pos h, hs]; rfl
  · have hs : (idx i).slt 0#32 = false := by rw [BitVec.slt]; simpa using h
    rw [if_neg h, hs]; rfl

/-- A column of start indices made from a vector reads the vector at the row. -/
theorem col_apply {α : Type} (hb1 : (⟨1, ![320000]⟩ : Shape).BroadcastsInDim ⟨2, ![320000, 1]⟩ ![0])
    (v : (⟨1, ![320000]⟩ : Shape).Idx → α) (e : Fin 320000) :
    broadcastInDim ⟨2, ![320000, 1]⟩ ![0] hb1 v (ix2 e (0 : Fin 1)) = v (ix1 e) := by
  unfold broadcastInDim
  congr 1
  funext a
  obtain rfl : a = 0 := Subsingleton.elim _ _
  refine Fin.ext ?_
  split
  · next h1 => exact absurd h1 (by decide)
  · rfl

/-- THE ROW GATHER AT AN INDEX: column `y 1` of the operand's row `M.gRow` of the edge's index word. -/
theorem gather_rows_apply {α : Type}
    (wf : GatherDims.WF ⟨2, ![20000, 128]⟩ ⟨2, ![320000, 1]⟩ ⟨2, ![320000, 128]⟩ [1] [0] [] [0] [] 1 ![1, 128])
    (hb1 : (⟨1, ![320000]⟩ : Shape).BroadcastsInDim ⟨2, ![320000, 1]⟩ ![0])
    (hb0 : (⟨0, ![]⟩ : Shape).BroadcastsInDim ⟨1, ![320000]⟩ ![])
    (x : (⟨2, ![20000, 128]⟩ : Shape).Idx → α) (idx : IVec ⟨1, ![320000]⟩ 32) (y : (⟨2, ![320000, 128]⟩ : Shape).Idx) :
    Host.gather (rowDims wf) x
        (broadcastInDim ⟨2, ![320000, 1]⟩ ![0] hb1
          (select (cmpi .slt idx (broadcastInDim ⟨1, ![320000]⟩ ![] hb0 (constantI ⟨0, ![]⟩ 32 0#32)))
            (addi idx (broadcastInDim ⟨1, ![320000]⟩ ![] hb0 (constantI ⟨0, ![]⟩ 32 20000#32))) idx)) y
      = x (ix2 (M.gRow (idx (ix1 (y 0)))) (y 1)) := by
  obtain ⟨e, j, rfl⟩ : ∃ e j, y = ix2 e j := ⟨y 0, y 1, eq_ix2 y⟩
  rw [gather_at, col_apply, wrap_apply]
  rfl

/-- The row gather of a real array, as an array: the rows of the operand at the edges' index words. -/
theorem gather_rows
    (wf : GatherDims.WF ⟨2, ![20000, 128]⟩ ⟨2, ![320000, 1]⟩ ⟨2, ![320000, 128]⟩ [1] [0] [] [0] [] 1 ![1, 128])
    (hb1 : (⟨1, ![320000]⟩ : Shape).BroadcastsInDim ⟨2, ![320000, 1]⟩ ![0])
    (hb0 : (⟨0, ![]⟩ : Shape).BroadcastsInDim ⟨1, ![320000]⟩ ![])
    (x : (⟨2, ![20000, 128]⟩ : Shape).Idx → EReal) (idx : IVec ⟨1, ![320000]⟩ 32) :
    Host.gather (rowDims wf) x
        (broadcastInDim ⟨2, ![320000, 1]⟩ ![0] hb1
          (select (cmpi .slt idx (broadcastInDim ⟨1, ![320000]⟩ ![] hb0 (constantI ⟨0, ![]⟩ 32 0#32)))
            (addi idx (broadcastInDim ⟨1, ![320000]⟩ ![] hb0 (constantI ⟨0, ![]⟩ 32 20000#32))) idx))
      = M.mk2 (M.rows (M.at2 x) (fun e => idx (ix1 e))) := by
  funext y
  rw [gather_rows_apply]
  rfl

/-! ## The scatter-add -/

/-- The dimension numbers of the row scatter: operand `[20000, 128]`, scatter indices `[320000, 1]`, updates
    `[320000, 128]`; the row axis inserted and scatter-indexed, the column axis the one window axis. -/
abbrev rowScat (wf : ScatterDims.WF ⟨2, ![20000, 128]⟩ ⟨2, ![320000, 1]⟩ ⟨2, ![320000, 128]⟩ [1] [0] [0] 1) :
    ScatterDims ⟨2, ![20000, 128]⟩ ⟨2, ![320000, 1]⟩ ⟨2, ![320000, 128]⟩ where
  updateWindowDims := [1]
  insertedWindowDims := [0]
  scatterDimsToOperandDims := [0]
  indexVectorDim := 1
  wf := wf

/-- The node a scatter index word names: the word read signed, when it is a node; none otherwise. -/
def landRow {w : Nat} (v : BitVec w) : Option (Fin 20000) :=
  if h : 0 ≤ v.toInt ∧ v.toInt < 20000 then some ⟨v.toInt.toNat, by omega⟩ else none

/-- Where update `(e, k)` lands: row = the edge's index word read signed when it is a node, column `k`; nowhere
    otherwise. -/
theorem resultIdx_at {w : Nat}
    (wf : ScatterDims.WF ⟨2, ![20000, 128]⟩ ⟨2, ![320000, 1]⟩ ⟨2, ![320000, 128]⟩ [1] [0] [0] 1)
    (idx : IVec ⟨2, ![320000, 1]⟩ w) (e : Fin 320000) (k : Fin 128) :
    (rowScat wf).resultIdx? (ix2 e k) idx
      = (landRow (idx (ix2 e (0 : Fin 1)))).map fun r => ix2 r k := by
  unfold landRow
  have hsi : (rowScat wf).siIdx (ix2 e k) ⟨List.idxOf (0 : Fin 2) (rowScat wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have hs0 : (rowScat wf).start (ix2 e k) idx 0 = (idx (ix2 e (0 : Fin 1))).toInt := by
    unfold ScatterDims.start
    rw [dif_pos (show (0 : Fin 2) ∈ (rowScat wf).scatterDimsToOperandDims from List.mem_singleton.mpr rfl), hsi]
  have hs1 : (rowScat wf).start (ix2 e k) idx 1 = 0 := by
    unfold ScatterDims.start
    rw [dif_neg (show (1 : Fin 2) ∉ (rowScat wf).scatterDimsToOperandDims from by
      show (1 : Fin 2) ∉ ([0] : List (Fin 2)); decide)]
  have hw0 : (rowScat wf).window (ix2 e k) 0 = 0 := by
    unfold ScatterDims.window
    rw [dif_neg (show (0 : Fin 2) ∉ (rowScat wf).sKept from by
      show (0 : Fin 2) ∉ Shape.kept (s := ⟨2, ![20000, 128]⟩) [0]; decide)]
  have hw1 : (rowScat wf).window (ix2 e k) 1 = k.val := by
    unfold ScatterDims.window
    rw [dif_pos (show (1 : Fin 2) ∈ (rowScat wf).sKept from by
      show (1 : Fin 2) ∈ Shape.kept (s := ⟨2, ![20000, 128]⟩) [0]; decide)]
    rfl
  have hk := k.isLt
  unfold ScatterDims.resultIdx?
  by_cases h : 0 ≤ (idx (ix2 e (0 : Fin 1))).toInt ∧ (idx (ix2 e (0 : Fin 1))).toInt < 20000
  · have hall : ∀ a : Fin 2, 0 ≤ (rowScat wf).start (ix2 e k) idx a + ((rowScat wf).window (ix2 e k) a : Int) ∧
        (rowScat wf).start (ix2 e k) idx a + ((rowScat wf).window (ix2 e k) a : Int)
          < ((⟨2, ![20000, 128]⟩ : Shape).size a : Int) := by
      intro a
      match a with
      | ⟨0, _⟩ =>
        show 0 ≤ (rowScat wf).start (ix2 e k) idx 0 + ((rowScat wf).window (ix2 e k) 0 : Int) ∧
          (rowScat wf).start (ix2 e k) idx 0 + ((rowScat wf).window (ix2 e k) 0 : Int) < ((20000 : Nat) : Int)
        rw [hs0, hw0]; omega
      | ⟨1, _⟩ =>
        show 0 ≤ (rowScat wf).start (ix2 e k) idx 1 + ((rowScat wf).window (ix2 e k) 1 : Int) ∧
          (rowScat wf).start (ix2 e k) idx 1 + ((rowScat wf).window (ix2 e k) 1 : Int) < ((128 : Nat) : Int)
        rw [hs1, hw1]; omega
    rw [dif_pos hall, dif_pos h]
    show some _ = some _
    refine congrArg some ?_
    funext a
    refine Fin.ext ?_
    match a with
    | ⟨0, _⟩ =>
      show ((rowScat wf).start (ix2 e k) idx 0 + ((rowScat wf).window (ix2 e k) 0 : Int)).toNat = _
      rw [hs0, hw0]; simp
    | ⟨1, _⟩ =>
      show ((rowScat wf).start (ix2 e k) idx 1 + ((rowScat wf).window (ix2 e k) 1 : Int)).toNat = k.val
      rw [hs1, hw1]; simp
  · rw [dif_neg h, dif_neg]
    · rfl
    intro hall
    apply h
    have h0 := hall 0
    rw [hs0, hw0] at h0
    have : ((⟨2, ![20000, 128]⟩ : Shape).size 0 : Int) = 20000 := rfl
    omega

/-- Update `(e, k)` lands at `(r, c)` exactly when the edge's target word scatters to `r` and `k = c`. -/
theorem lands_iff
    (wf : ScatterDims.WF ⟨2, ![20000, 128]⟩ ⟨2, ![320000, 1]⟩ ⟨2, ![320000, 128]⟩ [1] [0] [0] 1)
    (hb1 : (⟨1, ![320000]⟩ : Shape).BroadcastsInDim ⟨2, ![320000, 1]⟩ ![0])
    (dst : IVec ⟨1, ![320000]⟩ 32) (e : Fin 320000) (k : Fin 128) (r : Fin 20000) (c : Fin 128) :
    (rowScat wf).resultIdx? (ix2 e k) (broadcastInDim ⟨2, ![320000, 1]⟩ ![0] hb1 dst) = some (ix2 r c)
      ↔ M.sRow (dst (ix1 e)) = some r ∧ k = c := by
  rw [resultIdx_at, col_apply]
  show (M.sRow (dst (ix1 e))).map (fun r => ix2 r k) = some (ix2 r c) ↔ _
  cases hrow : M.sRow (dst (ix1 e)) with
  | none =>
    constructor
    · intro hh; exact absurd hh (by simp)
    · rintro ⟨hh, _⟩; exact absurd hh (by simp)
  | some r' =>
    show some (ix2 r' k) = some (ix2 r c) ↔ _
    constructor
    · intro hh
      have hh' := Option.some.inj hh
      have e0 : r' = r := congrFun hh' 0
      have e1 : k = c := congrFun hh' 1
      exact ⟨congrArg some e0, e1⟩
    · rintro ⟨h1, rfl⟩
      rw [Option.some.inj h1]

/-- THE SCATTER-ADD INTO ZEROS, as an array: at node `r`, column `j`, the zero word plus the sum over the edges
    whose target word scatters to `r` of the update's entry `(e, j)`. -/
theorem scatter_neigh
    (wf : ScatterDims.WF ⟨2, ![20000, 128]⟩ ⟨2, ![320000, 1]⟩ ⟨2, ![320000, 128]⟩ [1] [0] [0] 1)
    (hbz : (⟨0, ![]⟩ : Shape).BroadcastsInDim ⟨2, ![20000, 128]⟩ ![])
    (hb1 : (⟨1, ![320000]⟩ : Shape).BroadcastsInDim ⟨2, ![320000, 1]⟩ ![0])
    (dst : IVec ⟨1, ![320000]⟩ 32) (upd : FVec Ideal ⟨2, ![320000, 128]⟩ .f32) :
    Host.scatterAdd (F := Ideal) (φ := .f32) (rowScat wf)
        (broadcastInDim ⟨2, ![20000, 128]⟩ ![] hbz (constant (F := Ideal) ⟨0, ![]⟩ .f32 0x00000000#32))
        (broadcastInDim ⟨2, ![320000, 1]⟩ ![0] hb1 dst) upd
      = M.mk2 (fun r j => M.c0 + ∑ e ∈ Finset.univ.filter (fun e : Fin 320000 => M.sRow (dst (ix1 e)) = some r),
          upd (ix2 e j)) := by
  funext i
  obtain ⟨r, c, rfl⟩ : ∃ r c, i = ix2 r c := ⟨i 0, i 1, eq_ix2 i⟩
  rw [M.mk2_apply]
  show Ideal.hostScatterAdd (rowScat wf) _ _ upd (ix2 r c) = _
  unfold Ideal.hostScatterAdd
  rw [broadcastInDim_scalar_apply, constant_apply]
  refine congrArg (fun t => M.c0 + t) ?_
  refine Finset.sum_nbij' (fun a => a 0) (fun e => ix2 e c) ?_ ?_ ?_ ?_ ?_
  · intro a ha
    have h := (Finset.mem_filter.mp ha).2
    rw [eq_ix2 a] at h
    exact Finset.mem_filter.mpr ⟨Finset.mem_univ _, ((lands_iff wf hb1 dst _ _ r c).mp h).1⟩
  · intro e he
    exact Finset.mem_filter.mpr ⟨Finset.mem_univ _, (lands_iff wf hb1 dst e c r c).mpr ⟨(Finset.mem_filter.mp he).2, rfl⟩⟩
  · intro a ha
    have h := (Finset.mem_filter.mp ha).2
    rw [eq_ix2 a] at h
    have hc := ((lands_iff wf hb1 dst _ _ r c).mp h).2
    rw [← hc]
    exact (eq_ix2 a).symm
  · intro e _
    rfl
  · intro a ha
    have h := (Finset.mem_filter.mp ha).2
    rw [eq_ix2 a] at h
    have hc := ((lands_iff wf hb1 dst _ _ r c).mp h).2
    show upd a = upd (ix2 (a 0) c)
    rw [← hc]
    exact congrArg upd (eq_ix2 a)

/-- THE NEIGHBOUR SUMS: the scatter-add into zeros, at the target words, of the rows gathered at the source words. -/
theorem neigh_eq
    (wfg : GatherDims.WF ⟨2, ![20000, 128]⟩ ⟨2, ![320000, 1]⟩ ⟨2, ![320000, 128]⟩ [1] [0] [] [0] [] 1 ![1, 128])
    (wfs : ScatterDims.WF ⟨2, ![20000, 128]⟩ ⟨2, ![320000, 1]⟩ ⟨2, ![320000, 128]⟩ [1] [0] [0] 1)
    (hbz : (⟨0, ![]⟩ : Shape).BroadcastsInDim ⟨2, ![20000, 128]⟩ ![])
    (hb1 : (⟨1, ![320000]⟩ : Shape).BroadcastsInDim ⟨2, ![320000, 1]⟩ ![0])
    (hb0 : (⟨0, ![]⟩ : Shape).BroadcastsInDim ⟨1, ![320000]⟩ ![])
    (x : FVec Ideal ⟨2, ![20000, 128]⟩ .f32) (src dst : IVec ⟨1, ![320000]⟩ 32) :
    Host.scatterAdd (F := Ideal) (φ := .f32) (rowScat wfs)
        (broadcastInDim ⟨2, ![20000, 128]⟩ ![] hbz (constant (F := Ideal) ⟨0, ![]⟩ .f32 0x00000000#32))
        (broadcastInDim ⟨2, ![320000, 1]⟩ ![0] hb1 dst)
        (Host.gather (rowDims wfg) x
          (broadcastInDim ⟨2, ![320000, 1]⟩ ![0] hb1
            (select (cmpi .slt src (broadcastInDim ⟨1, ![320000]⟩ ![] hb0 (constantI ⟨0, ![]⟩ 32 0#32)))
              (addi src (broadcastInDim ⟨1, ![320000]⟩ ![] hb0 (constantI ⟨0, ![]⟩ 32 20000#32))) src)))
      = M.mk2 (M.neigh (M.at2 x) (fun e => src (ix1 e)) (fun e => dst (ix1 e))) := by
  rw [scatter_neigh]
  refine congrArg M.mk2 ?_
  funext r j
  unfold M.neigh
  refine congrArg (fun t => M.c0 + t) ?_
  refine Finset.sum_congr rfl fun e _ => ?_
  rw [gather_rows_apply]
  rfl

/-! ## The same, for any record with these dimension numbers

Both programs' records are `rowDims _` and `rowScat _` by unfolding: `hd`, `hs` are `rfl` there. -/

theorem gather_rows_apply_of {α : Type}
    (d : GatherDims ⟨2, ![20000, 128]⟩ ⟨2, ![320000, 1]⟩ ⟨2, ![320000, 128]⟩)
    (wf : GatherDims.WF ⟨2, ![20000, 128]⟩ ⟨2, ![320000, 1]⟩ ⟨2, ![320000, 128]⟩ [1] [0] [] [0] [] 1 ![1, 128])
    (hd : d = rowDims wf)
    (hb1 : (⟨1, ![320000]⟩ : Shape).BroadcastsInDim ⟨2, ![320000, 1]⟩ ![0])
    (hb0 : (⟨0, ![]⟩ : Shape).BroadcastsInDim ⟨1, ![320000]⟩ ![])
    (x : (⟨2, ![20000, 128]⟩ : Shape).Idx → α) (idx : IVec ⟨1, ![320000]⟩ 32) (y : (⟨2, ![320000, 128]⟩ : Shape).Idx) :
    Host.gather d x
        (broadcastInDim ⟨2, ![320000, 1]⟩ ![0] hb1
          (select (cmpi .slt idx (broadcastInDim ⟨1, ![320000]⟩ ![] hb0 (constantI ⟨0, ![]⟩ 32 0#32)))
            (addi idx (broadcastInDim ⟨1, ![320000]⟩ ![] hb0 (constantI ⟨0, ![]⟩ 32 20000#32))) idx)) y
      = x (ix2 (M.gRow (idx (ix1 (y 0)))) (y 1)) := by
  subst hd
  exact gather_rows_apply wf hb1 hb0 x idx y

theorem gather_rows_of
    (d : GatherDims ⟨2, ![20000, 128]⟩ ⟨2, ![320000, 1]⟩ ⟨2, ![320000, 128]⟩)
    (wf : GatherDims.WF ⟨2, ![20000, 128]⟩ ⟨2, ![320000, 1]⟩ ⟨2, ![320000, 128]⟩ [1] [0] [] [0] [] 1 ![1, 128])
    (hd : d = rowDims wf)
    (hb1 : (⟨1, ![320000]⟩ : Shape).BroadcastsInDim ⟨2, ![320000, 1]⟩ ![0])
    (hb0 : (⟨0, ![]⟩ : Shape).BroadcastsInDim ⟨1, ![320000]⟩ ![])
    (x : (⟨2, ![20000, 128]⟩ : Shape).Idx → EReal) (idx : IVec ⟨1, ![320000]⟩ 32) :
    Host.gather d x
        (broadcastInDim ⟨2, ![320000, 1]⟩ ![0] hb1
          (select (cmpi .slt idx (broadcastInDim ⟨1, ![320000]⟩ ![] hb0 (constantI ⟨0, ![]⟩ 32 0#32)))
            (addi idx (broadcastInDim ⟨1, ![320000]⟩ ![] hb0 (constantI ⟨0, ![]⟩ 32 20000#32))) idx))
      = M.mk2 (M.rows (M.at2 x) (fun e => idx (ix1 e))) := by
  subst hd
  exact gather_rows wf hb1 hb0 x idx

theorem scatter_neigh_of
    (s : ScatterDims ⟨2, ![20000, 128]⟩ ⟨2, ![320000, 1]⟩ ⟨2, ![320000, 128]⟩)
    (wf : ScatterDims.WF ⟨2, ![20000, 128]⟩ ⟨2, ![320000, 1]⟩ ⟨2, ![320000, 128]⟩ [1] [0] [0] 1)
    (hs : s = rowScat wf)
    (hbz : (⟨0, ![]⟩ : Shape).BroadcastsInDim ⟨2, ![20000, 128]⟩ ![])
    (hb1 : (⟨1, ![320000]⟩ : Shape).BroadcastsInDim ⟨2, ![320000, 1]⟩ ![0])
    (dst : IVec ⟨1, ![320000]⟩ 32) (upd : FVec Ideal ⟨2, ![320000, 128]⟩ .f32) :
    Host.scatterAdd (F := Ideal) (φ := .f32) s
        (broadcastInDim ⟨2, ![20000, 128]⟩ ![] hbz (constant (F := Ideal) ⟨0, ![]⟩ .f32 0x00000000#32))
        (broadcastInDim ⟨2, ![320000, 1]⟩ ![0] hb1 dst) upd
      = M.mk2 (fun r j => M.c0 + ∑ e ∈ Finset.univ.filter (fun e : Fin 320000 => M.sRow (dst (ix1 e)) = some r),
          upd (ix2 e j)) := by
  subst hs
  exact scatter_neigh wf hbz hb1 dst upd

theorem neigh_eq_of
    (d : GatherDims ⟨2, ![20000, 128]⟩ ⟨2, ![320000, 1]⟩ ⟨2, ![320000, 128]⟩)
    (wfg : GatherDims.WF ⟨2, ![20000, 128]⟩ ⟨2, ![320000, 1]⟩ ⟨2, ![320000, 128]⟩ [1] [0] [] [0] [] 1 ![1, 128])
    (hd : d = rowDims wfg)
    (s : ScatterDims ⟨2, ![20000, 128]⟩ ⟨2, ![320000, 1]⟩ ⟨2, ![320000, 128]⟩)
    (wfs : ScatterDims.WF ⟨2, ![20000, 128]⟩ ⟨2, ![320000, 1]⟩ ⟨2, ![320000, 128]⟩ [1] [0] [0] 1)
    (hs : s = rowScat wfs)
    (hbz : (⟨0, ![]⟩ : Shape).BroadcastsInDim ⟨2, ![20000, 128]⟩ ![])
    (hb1 : (⟨1, ![320000]⟩ : Shape).BroadcastsInDim ⟨2, ![320000, 1]⟩ ![0])
    (hb0 : (⟨0, ![]⟩ : Shape).BroadcastsInDim ⟨1, ![320000]⟩ ![])
    (x : FVec Ideal ⟨2, ![20000, 128]⟩ .f32) (src dst : IVec ⟨1, ![320000]⟩ 32) :
    Host.scatterAdd (F := Ideal) (φ := .f32) s
        (broadcastInDim ⟨2, ![20000, 128]⟩ ![] hbz (constant (F := Ideal) ⟨0, ![]⟩ .f32 0x00000000#32))
        (broadcastInDim ⟨2, ![320000, 1]⟩ ![0] hb1 dst)
        (Host.gather d x
          (broadcastInDim ⟨2, ![320000, 1]⟩ ![0] hb1
            (select (cmpi .slt src (broadcastInDim ⟨1, ![320000]⟩ ![] hb0 (constantI ⟨0, ![]⟩ 32 0#32)))
              (addi src (broadcastInDim ⟨1, ![320000]⟩ ![] hb0 (constantI ⟨0, ![]⟩ 32 20000#32))) src)))
      = M.mk2 (M.neigh (M.at2 x) (fun e => src (ix1 e)) (fun e => dst (ix1 e))) := by
  subst hd; subst hs
  exact neigh_eq wfg wfs hbz hb1 hb0 x src dst

end Cert.GatherRows

end
-- ==== Proof.RegNP.lean ====
/-
  The node projection region's values: each of its two output arrays after the region is the whole node array times
  one whole weight, `(x · W)[r, j] = ∑ₖ x[r, k] · W[k, j]`. The region works on row blocks of 4000; a block product read
  at an index is the sum over the contracted coordinate, block `t` of the node array is rows `4000 t …` of it, and the
  five blocks cover the rows.
-/
import proofs.«416875_j80633716015165_3_alg».proof.Proof.Spec
import proofs.«416875_j80633716015165_3_alg».proof.Proof.FrameKI
import Idealize.ShloMosaic.Lib.Pipeline.Value
import Idealize.ShloMosaic.PureOps.Ideal.Laws
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

open Cert

namespace Cert.RegNP

open Cert.KernelIdeal Cert.KernelIdeal.Gen

variable (V : (c : Dev nD) → (b : Ref sig .tc) → Buf (Elt Ideal) ((c : Thread nD τ).loc b))

/-! ## The block product at an index -/

/-- The product's left operand index at output index `i` and contraction position `q`: the output's row … -/
theorem lhs_mm_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- … and the contraction position; -/
theorem lhs_mm_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- the right operand index: the contraction position … -/
theorem rhs_mm_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- … and the output's column. -/
theorem rhs_mm_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A 4000×128 by 128×128 block product into the zero splat, at row `p` and column `q`: the sum over the
    contracted coordinate of the operands' products. -/
theorem mm_apply (x : FVec Ideal S4000x128 .bf16) (w : FVec Ideal S128x128 .bf16) (p : Fin 4000) (q : Fin 128) :
    matmul dot_S4000x128_S128x128_S4000x128_1_0_0_1_n_n none x w (constant (F := Ideal) S4000x128 .f32 0x00000000#32) (ix2 p q)
      = ∑ t : Fin 128, x (ix2 p t) * w (ix2 t q) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]

/-! ## The layer's output, as the layers' last regions compute it -/

/-- A layer's output from the arrays its last region reads: the layer's input plus the normalised, rectified
    third stage, the statistics and the scale and shift each one row. -/
abbrev xnew (z : S20000x128.Idx → EReal) (mean var g b : S1x128.Idx → EReal) (h : S20000x128.Idx → EReal) :
    Fin 20000 → Fin 128 → EReal :=
  fun r j => M.at2 h r j + M.bnrelu (M.at2 z) (fun j => M.at2 mean 0 j) (fun j => M.at2 var 0 j) (fun j => M.at2 g 0 j) (fun j => M.at2 b 0 j) r j

/-! ## The payloads at an index -/

/-- The first output's payload at row `p`, column `q`: row `p` of the node block against column `q` of the weight. -/
theorem pay2_apply (x : Vec Ideal S4000x128 .f32) (w : Vec Ideal S128x128 .bf16) (p : Fin 4000) (q : Fin 128) :
    k0_pay2 x w (ix2 p q) = ∑ t : Fin 128, x (ix2 p t) * w (ix2 t q) := by
  unfold k0_pay2 k0_pay1
  simp only [shapeCast_self]
  exact mm_apply _ _ p q

/-- The second output's payload at row `p`, column `q`, likewise. -/
theorem pay3_apply (x : Vec Ideal S4000x128 .f32) (w : Vec Ideal S128x128 .bf16) (p : Fin 4000) (q : Fin 128) :
    k0_pay3 x w (ix2 p q) = ∑ t : Fin 128, x (ix2 p t) * w (ix2 t q) := by
  unfold k0_pay3 k0_pay1
  simp only [shapeCast_self]
  exact mm_apply _ _ p q

/-! ## From blocks to the arrays -/

theorem hz : (![0, 0] : Fin 2 → Nat) = fun _ => 0 := funext fun a => by fin_cases a <;> rfl

/-- The index maps over the grid, window by window: a row-blocked window's block is row block `t`, -/
theorem idx_0 : ∀ t : Fin cfg0.N, win0_0.index t (0 : Fin 2) = t.val ∧ win0_0.index t (1 : Fin 2) = 0 :=
  (by decide +kernel : ∀ t : Fin grid0.N, _)
theorem idx_3 : ∀ t : Fin cfg0.N, win0_3.index t (0 : Fin 2) = t.val ∧ win0_3.index t (1 : Fin 2) = 0 :=
  (by decide +kernel : ∀ t : Fin grid0.N, _)
theorem idx_4 : ∀ t : Fin cfg0.N, win0_4.index t (0 : Fin 2) = t.val ∧ win0_4.index t (1 : Fin 2) = 0 :=
  (by decide +kernel : ∀ t : Fin grid0.N, _)
/-- a whole window's block is the array. -/
theorem idx_1 : ∀ t : Fin cfg0.N, win0_1.index t (0 : Fin 2) = 0 ∧ win0_1.index t (1 : Fin 2) = 0 :=
  (by decide +kernel : ∀ t : Fin grid0.N, _)
theorem idx_2 : ∀ t : Fin cfg0.N, win0_2.index t (0 : Fin 2) = 0 ∧ win0_2.index t (1 : Fin 2) = 0 :=
  (by decide +kernel : ∀ t : Fin grid0.N, _)

/-- The node array as the region finds it, -/
abbrev xArr (c : Dev nD) : S20000x128.Idx → EReal := V c (Pipeline.arrRef spec0 0)
/-- the first weight, -/
abbrev wtArr (c : Dev nD) : S128x128.Idx → EReal := V c (Pipeline.arrRef spec0 1)
/-- and the second. -/
abbrev wbArr (c : Dev nD) : S128x128.Idx → EReal := V c (Pipeline.arrRef spec0 2)

/-- Row block `t` of the node array: entry `(p, q)` is the array's at row `4000 t + p`. -/
theorem xblk_apply (c : Dev nD) (t : Fin cfg0.N) (p : Fin 4000) (q : Fin 128) (r : Fin 20000)
    (hr : r.val = t.val * 4000 + p.val) :
    (iblk0 V c 0 t : Vec Ideal S4000x128 .f32) (ix2 p q) = xArr V c (ix2 r q) := by
  have e := idx_0 t
  show V c (Pipeline.arrRef spec0 0) (((cfg0.win 0).blk t).view.emb (ix2 p q)) = V c (Pipeline.arrRef spec0 0) (ix2 r q)
  refine congrArg _ (funext fun a => Fin.ext ?_)
  match a with
  | ⟨0, _⟩ => show win0_0.index t (0 : Fin 2) * 4000 + 1 * p.val = r.val; omega
  | ⟨1, _⟩ => show win0_0.index t (1 : Fin 2) * 128 + 1 * q.val = q.val; omega

/-- The first weight's block is the weight, -/
theorem wtblk_apply (c : Dev nD) (t : Fin cfg0.N) (k q : Fin 128) :
    (iblk0 V c 1 t : Vec Ideal S128x128 .bf16) (ix2 k q) = wtArr V c (ix2 k q) := by
  have e := idx_1 t
  show V c (Pipeline.arrRef spec0 1) (((cfg0.win 1).blk t).view.emb (ix2 k q)) = V c (Pipeline.arrRef spec0 1) (ix2 k q)
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- and the second's. -/
theorem wbblk_apply (c : Dev nD) (t : Fin cfg0.N) (k q : Fin 128) :
    (iblk0 V c 2 t : Vec Ideal S128x128 .bf16) (ix2 k q) = wbArr V c (ix2 k q) := by
  have e := idx_2 t
  show V c (Pipeline.arrRef spec0 2) (((cfg0.win 2).blk t).view.emb (ix2 k q)) = V c (Pipeline.arrRef spec0 2) (ix2 k q)
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- The body's result for the first output window on the blocks at point `t`, read through the window's block, is block `t` of the whole node array times the whole first weight. -/
theorem out3_eq (c : Dev nD) (t : Fin cfg0.N) :
    (cfg0.win 3).cut (grid0.coords t) (out0_3 (iblk0 V c 0 t) (iblk0 V c 1 t) (iblk0 V c 2 t))
      = ((cfg0.win 3).blk t).view.read (Elt Ideal) (M.mk2 (M.mm (M.at2 (xArr V c)) (M.at2 (wtArr V c)))) := by
  unfold out0_3
  rw [View.canon_unit_zero hz]
  simp only [View.ld_unit_zero (S := S4000x128) hz, View.ld_unit_zero (S := S128x128) hz]
  have e := idx_3 t
  funext j
  obtain ⟨p, q, rfl⟩ : ∃ (p : Fin 4000) (q : Fin 128), j = ix2 p q := ⟨j 0, j 1, eq_ix2 j⟩
  show k0_pay2 (iblk0 V c 0 t) (iblk0 V c 1 t) (ix2 p q) = (M.mk2 (M.mm (M.at2 (xArr V c)) (M.at2 (wtArr V c)))) (((cfg0.win 3).blk t).view.emb (ix2 p q))
  obtain ⟨i, hi⟩ : ∃ i : S20000x128.Idx, i = ((cfg0.win 3).blk t).view.emb (ix2 p q) := ⟨_, rfl⟩
  rw [← hi]
  have hi0 : (i 0).val = t.val * 4000 + p.val := by
    rw [hi]; show win0_3.index t (0 : Fin 2) * 4000 + 1 * p.val = _; omega
  have hi1 : i 1 = q := Fin.ext (by rw [hi]; show win0_3.index t (1 : Fin 2) * 128 + 1 * q.val = _; omega)
  refine (pay2_apply (iblk0 V c 0 t) (iblk0 V c 1 t) p q).trans ?_
  show _ = ∑ k : Fin 128, xArr V c (ix2 (i 0) k) * wtArr V c (ix2 k (i 1))
  rw [hi1]
  refine Finset.sum_congr rfl fun k _ => ?_
  rw [xblk_apply V c t p k (i 0) hi0, wtblk_apply V c t k q]

/-- For the second output window: the whole node array times the whole second weight. -/
theorem out4_eq (c : Dev nD) (t : Fin cfg0.N) :
    (cfg0.win 4).cut (grid0.coords t) (out0_4 (iblk0 V c 0 t) (iblk0 V c 1 t) (iblk0 V c 2 t))
      = ((cfg0.win 4).blk t).view.read (Elt Ideal) (M.mk2 (M.mm (M.at2 (xArr V c)) (M.at2 (wbArr V c)))) := by
  unfold out0_4
  rw [View.canon_unit_zero hz]
  simp only [View.ld_unit_zero (S := S4000x128) hz, View.ld_unit_zero (S := S128x128) hz]
  have e := idx_4 t
  funext j
  obtain ⟨p, q, rfl⟩ : ∃ (p : Fin 4000) (q : Fin 128), j = ix2 p q := ⟨j 0, j 1, eq_ix2 j⟩
  show k0_pay3 (iblk0 V c 0 t) (iblk0 V c 2 t) (ix2 p q) = (M.mk2 (M.mm (M.at2 (xArr V c)) (M.at2 (wbArr V c)))) (((cfg0.win 4).blk t).view.emb (ix2 p q))
  obtain ⟨i, hi⟩ : ∃ i : S20000x128.Idx, i = ((cfg0.win 4).blk t).view.emb (ix2 p q) := ⟨_, rfl⟩
  rw [← hi]
  have hi0 : (i 0).val = t.val * 4000 + p.val := by
    rw [hi]; show win0_4.index t (0 : Fin 2) * 4000 + 1 * p.val = _; omega
  have hi1 : i 1 = q := Fin.ext (by rw [hi]; show win0_4.index t (1 : Fin 2) * 128 + 1 * q.val = _; omega)
  refine (pay3_apply (iblk0 V c 0 t) (iblk0 V c 2 t) p q).trans ?_
  show _ = ∑ k : Fin 128, xArr V c (ix2 (i 0) k) * wbArr V c (ix2 k (i 1))
  rw [hi1]
  refine Finset.sum_congr rfl fun k _ => ?_
  rw [xblk_apply V c t p k (i 0) hi0, wbblk_apply V c t k q]

/-- An index of the array is in point `t`'s block of output window 3 iff each coordinate is in the block's range on its axis. -/
theorem mem_blk3 (t : Fin cfg0.N) (i : S20000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v10_0).slice (win0_3.rect t)).set ↔ _
  rw [View.set_slice_whole, Rect.mem_set_unit]
  exact Iff.rfl

/-- Row `r` of the array is in the block of point `r / 4000`. -/
theorem cover3 (i : S20000x128.Idx) : ∃ t : Fin cfg0.N, (cfg0.win 3).flush t = true ∧ i ∈ ((cfg0.win 3).blk t).view.set := by
  have hi0 : (i 0).val < 20000 := (i 0).isLt
  have hi1 : (i 1).val < 128 := (i 1).isLt
  have hN : cfg0.N = 5 := N_0
  obtain ⟨t, ht⟩ : ∃ t : Fin cfg0.N, t.val = (i 0).val / 4000 := ⟨⟨(i 0).val / 4000, by rw [hN]; omega⟩, rfl⟩
  have e := idx_3 t
  refine ⟨t, flush0_3 t, ?_⟩
  rw [mem_blk3]
  intro a
  match a with
  | ⟨0, _⟩ =>
    show win0_3.index t (0 : Fin 2) * 4000 ≤ (i 0).val ∧ (i 0).val < win0_3.index t (0 : Fin 2) * 4000 + 4000
    omega
  | ⟨1, _⟩ =>
    show win0_3.index t (1 : Fin 2) * 128 ≤ (i 1).val ∧ (i 1).val < win0_3.index t (1 : Fin 2) * 128 + 128
    omega

/-- An index of the array is in point `t`'s block of output window 4 iff each coordinate is in the block's range on its axis. -/
theorem mem_blk4 (t : Fin cfg0.N) (i : S20000x128.Idx) :
    i ∈ ((cfg0.win 4).blk t).view.set ↔ ∀ a : Fin 2, win0_4.index t a * S4000x128.size a ≤ (i a).val ∧ (i a).val < win0_4.index t a * S4000x128.size a + S4000x128.size a := by
  show i ∈ ((View.whole main_v10_1).slice (win0_4.rect t)).set ↔ _
  rw [View.set_slice_whole, Rect.mem_set_unit]
  exact Iff.rfl

/-- Row `r` of the array is in the block of point `r / 4000`. -/
theorem cover4 (i : S20000x128.Idx) : ∃ t : Fin cfg0.N, (cfg0.win 4).flush t = true ∧ i ∈ ((cfg0.win 4).blk t).view.set := by
  have hi0 : (i 0).val < 20000 := (i 0).isLt
  have hi1 : (i 1).val < 128 := (i 1).isLt
  have hN : cfg0.N = 5 := N_0
  obtain ⟨t, ht⟩ : ∃ t : Fin cfg0.N, t.val = (i 0).val / 4000 := ⟨⟨(i 0).val / 4000, by rw [hN]; omega⟩, rfl⟩
  have e := idx_4 t
  refine ⟨t, flush0_4 t, ?_⟩
  rw [mem_blk4]
  intro a
  match a with
  | ⟨0, _⟩ =>
    show win0_4.index t (0 : Fin 2) * 4000 ≤ (i 0).val ∧ (i 0).val < win0_4.index t (0 : Fin 2) * 4000 + 4000
    omega
  | ⟨1, _⟩ =>
    show win0_4.index t (1 : Fin 2) * 128 ≤ (i 1).val ∧ (i 1).val < win0_4.index t (1 : Fin 2) * 128 + 128
    omega

/-- What point `t` writes back to output window 3. -/
theorem flushed3_eq (c : Dev nD) (t : Fin cfg0.N) :
    (dat0 V c).flushed 3 t = ((cfg0.win 3).blk t).view.read (Elt Ideal) (M.mk2 (M.mm (M.at2 (xArr V c)) (M.at2 (wtArr V c)))) := by
  show (cfg0.win 3).cut (grid0.coords t) ((dat0 V c).after 3 t) = _
  rw [after0_3]
  exact out3_eq V c t

/-- What point `t` writes back to output window 4. -/
theorem flushed4_eq (c : Dev nD) (t : Fin cfg0.N) :
    (dat0 V c).flushed 4 t = ((cfg0.win 4).blk t).view.read (Elt Ideal) (M.mk2 (M.mm (M.at2 (xArr V c)) (M.at2 (wbArr V c)))) := by
  show (cfg0.win 4).cut (grid0.coords t) ((dat0 V c).after 4 t) = _
  rw [after0_4]
  exact out4_eq V c t

/-! ## The region's values -/

/-- The first output array after the region: the node array times the first weight. -/
theorem arr0_3 (c : Dev nD) : (Cert.KernelIdeal.Gen.dat0 (F := Ideal) V c).arrAt 3 Cert.KernelIdeal.cfg0.N
    = M.mk2 (M.mm (M.at2 (a := 20000) (b := 128) (V c (Pipeline.arrRef Cert.KernelIdeal.spec0 0))) (M.at2 (a := 128) (b := 128) (V c (Pipeline.arrRef Cert.KernelIdeal.spec0 1)))) :=
  (dat0 V c).arrAt_eq_of_cover 3 _ (fun t _ => flushed3_eq V c t) cover3

/-- The second output array after the region: the node array times the second weight. -/
theorem arr0_4 (c : Dev nD) : (Cert.KernelIdeal.Gen.dat0 (F := Ideal) V c).arrAt 4 Cert.KernelIdeal.cfg0.N
    = M.mk2 (M.mm (M.at2 (a := 20000) (b := 128) (V c (Pipeline.arrRef Cert.KernelIdeal.spec0 0))) (M.at2 (a := 128) (b := 128) (V c (Pipeline.arrRef Cert.KernelIdeal.spec0 2)))) :=
  (dat0 V c).arrAt_eq_of_cover 4 _ (fun t _ => flushed4_eq V c t) cover4

end Cert.RegNP

end
-- ==== Proof.KChainFirst.lean ====
/-
  The kernel's run from the launch to where layer 0's first region is entered, read as mathematics.

  The first host stretch forms the embedding `x₀ = h · emb_w + emb_b` and the two halves of head 0's first weight.
  Region 0 multiplies `x₀` by each half. The next three stretches gather the two products at the edges' source and
  target nodes, add them and the first bias, rectify, multiply by the second weight and add the second bias: head 0's
  score computed from per-node products, which is the head on the gathered rows of `x₀` itself because a gathered
  row of a product is the product of the gathered row, and a contraction over a concatenated row pair is the sum of
  the contractions over its halves. The same stretches gather `x₀` at the source nodes and add the rows into the
  target nodes (the neighbour sums), and slice out layer 0's scale, first weight and first bias. No stretch and no
  region writes an argument buffer, so each argument holds its launch contents throughout.
-/
import proofs.«416875_j80633716015165_3_alg».proof.Proof.KChainBase
import proofs.«416875_j80633716015165_3_alg».proof.Proof.KStageHead
import proofs.«416875_j80633716015165_3_alg».proof.Proof.GatherRows
import proofs.«416875_j80633716015165_3_alg».proof.Proof.RegNP

set_option maxRecDepth 16384

noncomputable section

open Idealize.ShloMosaic Idealize.ShloMosaic.TcCoe Idealize.ShloMosaic.ValueIdx
open Cert.KernelIdeal Cert.KernelIdeal.Gen

namespace Cert.KChain

variable (m : (ℓ : Loc nD τ sig) → Buf (Elt Ideal) ℓ) (ρ : Dev nD → PrngReg) (c : Dev nD)

/-- A listed argument is among the arguments. -/
local macro "arg_mem" : tactic =>
  `(tactic| simp only [argRefs, List.mem_cons, eq_self, true_or, or_true])

/-! ## The arguments hold their launch contents -/

/-- After region 0 an argument's buffer holds the launch contents, -/
theorem arg_W2 (r : Ref sig .tc) (hr : r ∈ argRefs) :
    W2 (F := Ideal) m ρ c (Proc.devRef .tc r) = m ((c : Thread nD τ).loc r) := W2_args m ρ c r hr
/-- and after the next two stretches as well. -/
theorem arg_W4 (r : Ref sig .tc) (hr : r ∈ argRefs) :
    W4 (F := Ideal) m ρ c (Proc.devRef .tc r) = m ((c : Thread nD τ).loc r) := W4_args m ρ c r hr

/-! ## The embedding and the first head's weight halves -/

/-- After the first stretch the node buffer holds the embedding. -/
theorem x_W1 : (W1 (F := Ideal) m ρ c (Proc.devRef .tc main_v3) : S20000x128.Idx → EReal) = M.mk2 (M.x0 (inputsK m c)) := by
  have h := KStageHead.ops0_v3 (W0 (F := Ideal) m ρ c)
  rw [W0_args m ρ c main_arg0 (by arg_mem), W0_args m ρ c main_arg1 (by arg_mem), W0_args m ρ c main_arg2 (by arg_mem)] at h
  exact h

/-- The top half of head 0's first weight. -/
theorem wtop_W1 : (W1 (F := Ideal) m ρ c (Proc.devRef .tc main_v7) : S128x128.Idx → EReal) = M.mk2 (M.top ((inputsK m c).pred_w1 0)) := by
  have h := KStageHead.ops0_v7 (W0 (F := Ideal) m ρ c)
  rw [W0_args m ρ c main_arg14 (by arg_mem)] at h
  exact h

/-- The bottom half of head 0's first weight. -/
theorem wbot_W1 : (W1 (F := Ideal) m ρ c (Proc.devRef .tc main_v9) : S128x128.Idx → EReal) = M.mk2 (M.bot ((inputsK m c).pred_w1 0)) := by
  have h := KStageHead.ops0_v9 (W0 (F := Ideal) m ρ c)
  rw [W0_args m ρ c main_arg14 (by arg_mem)] at h
  exact h

/-- The node buffer is an input of region 0 and is written by none of the next three stretches. -/
theorem x_W4 : (W4 (F := Ideal) m ρ c (Proc.devRef .tc main_v3) : S20000x128.Idx → EReal) = M.mk2 (M.x0 (inputsK m c)) :=
  (keepW4 m ρ c main_v3 (nm (by decide))).trans ((keepW3 m ρ c main_v3 (nm (by decide))).trans
    ((keepW2 m ρ c main_v3 (nm (by decide))).trans (x_W1 m ρ c)))

theorem x_W5 : (W5 (F := Ideal) m ρ c (Proc.devRef .tc main_v3) : S20000x128.Idx → EReal) = M.mk2 (M.x0 (inputsK m c)) :=
  (keepW5 m ρ c main_v3 (nm (by decide))).trans (x_W4 m ρ c)

/-! ## Region 0: the two per-node products -/

/-- Region 0's first output: the embedding times the top half. -/
theorem p_W2 : (W2 (F := Ideal) m ρ c (Proc.devRef .tc main_v10_0) : S20000x128.Idx → EReal)
    = M.mk2 (M.mm (M.x0 (inputsK m c)) (M.top ((inputsK m c).pred_w1 0))) := by
  refine (W2_arr (F := Ideal) m ρ c 3).trans ((RegNP.arr0_3 (V1 (F := Ideal) m ρ) c).trans ?_)
  first
    | exact congrArg₂ (fun (a : S20000x128.Idx → EReal) (b : S128x128.Idx → EReal) => M.mk2 (M.mm (M.at2 a) (M.at2 b)))
        (x_W1 m ρ c) (wtop_W1 m ρ c)
    | (rw [show V1 (F := Ideal) m ρ c (Pipeline.arrRef spec0 0) = M.mk2 (M.x0 (inputsK m c)) from x_W1 m ρ c,
          show V1 (F := Ideal) m ρ c (Pipeline.arrRef spec0 1) = M.mk2 (M.top ((inputsK m c).pred_w1 0)) from wtop_W1 m ρ c]
       try rfl)

/-- Region 0's second output: the embedding times the bottom half. -/
theorem q_W2 : (W2 (F := Ideal) m ρ c (Proc.devRef .tc main_v10_1) : S20000x128.Idx → EReal)
    = M.mk2 (M.mm (M.x0 (inputsK m c)) (M.bot ((inputsK m c).pred_w1 0))) := by
  refine (W2_arr (F := Ideal) m ρ c 4).trans ((RegNP.arr0_4 (V1 (F := Ideal) m ρ) c).trans ?_)
  first
    | exact congrArg₂ (fun (a : S20000x128.Idx → EReal) (b : S128x128.Idx → EReal) => M.mk2 (M.mm (M.at2 a) (M.at2 b)))
        (x_W1 m ρ c) (wbot_W1 m ρ c)
    | (rw [show V1 (F := Ideal) m ρ c (Pipeline.arrRef spec0 0) = M.mk2 (M.x0 (inputsK m c)) from x_W1 m ρ c,
          show V1 (F := Ideal) m ρ c (Pipeline.arrRef spec0 2) = M.mk2 (M.bot ((inputsK m c).pred_w1 0)) from wbot_W1 m ρ c]
       try rfl)

/-! ## Head 0's score -/

/-- The first product gathered at the edges' source nodes: the source rows of the embedding times the top half. -/
theorem gs_W2 : KStageHead.gath .bf16 (W2 (F := Ideal) m ρ c (Proc.devRef .tc main_v10_0))
      (W2 (F := Ideal) m ρ c (Proc.devRef .tc main_arg18))
    = M.mk2 (M.rows (M.mm (M.x0 (inputsK m c)) (M.top ((inputsK m c).pred_w1 0))) (inputsK m c).src) := by
  rw [p_W2 m ρ c, arg_W2 m ρ c main_arg18 (by arg_mem)]
  exact GatherRows.gather_rows_of gather_S20000x128_S320000x1_S320000x128_1_0_n_n_0_1_1128 _ rfl
    bcast_S320000_S320000x1_0 bcast_S_S320000 _ _

/-- The second product gathered at the edges' target nodes. -/
theorem gd_W2 : KStageHead.gath .bf16 (W2 (F := Ideal) m ρ c (Proc.devRef .tc main_v10_1))
      (W2 (F := Ideal) m ρ c (Proc.devRef .tc main_arg19))
    = M.mk2 (M.rows (M.mm (M.x0 (inputsK m c)) (M.bot ((inputsK m c).pred_w1 0))) (inputsK m c).dst) := by
  rw [q_W2 m ρ c, arg_W2 m ρ c main_arg19 (by arg_mem)]
  exact GatherRows.gather_rows_of gather_S20000x128_S320000x1_S320000x128_1_0_n_n_0_1_1128 _ rfl
    bcast_S320000_S320000x1_0 bcast_S_S320000 _ _

/-- The score buffer holds head 0 on the embedding. -/
theorem score_W5 : (W5 (F := Ideal) m ρ c (Proc.devRef .tc main_v41) : S320000x2.Idx → EReal) = M.mk2 (s0 (inputsK m c)) := by
  have hh : (W5 (F := Ideal) m ρ c (Proc.devRef .tc main_v41) : S320000x2.Idx → EReal)
      = M.mk2 (M.headK
          (M.at2 (KStageHead.gath .bf16 (W2 (F := Ideal) m ρ c (Proc.devRef .tc main_v10_0)) (W2 (F := Ideal) m ρ c (Proc.devRef .tc main_arg18))))
          (M.at2 (KStageHead.gath .bf16 (W2 (F := Ideal) m ρ c (Proc.devRef .tc main_v10_1)) (W2 (F := Ideal) m ρ c (Proc.devRef .tc main_arg19))))
          (fun j => M.at2 (W2 (F := Ideal) m ρ c (Proc.devRef .tc main_arg15)) 0 j)
          (fun j k => M.at3 (W2 (F := Ideal) m ρ c (Proc.devRef .tc main_arg16)) 0 j k)
          (fun k => M.at2 (W2 (F := Ideal) m ρ c (Proc.devRef .tc main_arg17)) 0 k)) :=
    KStageHead.head0_v41 (W2 (F := Ideal) m ρ c)
  rw [hh, gs_W2 m ρ c, gd_W2 m ρ c, arg_W2 m ρ c main_arg15 (by arg_mem), arg_W2 m ρ c main_arg16 (by arg_mem),
    arg_W2 m ρ c main_arg17 (by arg_mem)]
  exact congrArg M.mk2 (headI_K (inputsK m c) 0 (M.x0 (inputsK m c)))

/-! ## The neighbour sums and layer 0's parameter slices -/

/-- The embedding's rows gathered at the source nodes and added into the target nodes. -/
theorem neigh_W5 : (W5 (F := Ideal) m ρ c (Proc.devRef .tc main_v51) : S20000x128.Idx → EReal)
    = M.mk2 (M.neigh (M.x0 (inputsK m c)) (inputsK m c).src (inputsK m c).dst) := by
  have h : (W5 (F := Ideal) m ρ c (Proc.devRef .tc main_v51) : S20000x128.Idx → EReal)
      = KStageHead.scat (W4 (F := Ideal) m ρ c (Proc.devRef .tc main_arg19))
          (KStageHead.gath .f32 (W4 (F := Ideal) m ρ c (Proc.devRef .tc main_v3)) (W4 (F := Ideal) m ρ c (Proc.devRef .tc main_arg18))) :=
    KStageHead.ops1_2_v51 (W4 (F := Ideal) m ρ c)
  rw [h, x_W4 m ρ c, arg_W4 m ρ c main_arg18 (by arg_mem), arg_W4 m ρ c main_arg19 (by arg_mem)]
  exact GatherRows.neigh_eq_of gather_S20000x128_S320000x1_S320000x128_1_0_n_n_0_1_1128 _ rfl
    scatter_S20000x128_S320000x1_S320000x128_1_0_0_1 _ rfl bcast_S_S20000x128 bcast_S320000_S320000x1_0 bcast_S_S320000 _ _ _

/-- Layer 0's scale as the one-entry array the region takes. -/
theorem eps_W5 : (W5 (F := Ideal) m ρ c (Proc.devRef .tc main_v54) : S1x1.Idx → EReal)
    = M.mk2 (fun (_ : Fin 1) (_ : Fin 1) => (inputsK m c).eps 0) := by
  have h : (W5 (F := Ideal) m ρ c (Proc.devRef .tc main_v54) : S1x1.Idx → EReal)
      = M.mk2 (fun (_ : Fin 1) (_ : Fin 1) => M.at1 (W4 (F := Ideal) m ρ c (Proc.devRef .tc main_arg3)) 0) :=
    KStageHead.ops1_2_v54 (W4 (F := Ideal) m ρ c)
  rw [h, arg_W4 m ρ c main_arg3 (by arg_mem)]
  rfl

/-- Layer 0's first weight. -/
theorem w1_W5 : (W5 (F := Ideal) m ρ c (Proc.devRef .tc main_v56) : S128x128.Idx → EReal) = M.mk2 ((inputsK m c).mlp_w1 0) := by
  have h : (W5 (F := Ideal) m ρ c (Proc.devRef .tc main_v56) : S128x128.Idx → EReal)
      = M.mk2 (fun k j => M.at3 (W4 (F := Ideal) m ρ c (Proc.devRef .tc main_arg4)) 0 k j) :=
    KStageHead.ops1_2_v56 (W4 (F := Ideal) m ρ c)
  rw [h, arg_W4 m ρ c main_arg4 (by arg_mem)]
  rfl

/-- Layer 0's first bias as the one-row array the region takes. -/
theorem b1_W5 : (W5 (F := Ideal) m ρ c (Proc.devRef .tc main_v59) : S1x128.Idx → EReal)
    = M.mk2 (fun (_ : Fin 1) (j : Fin 128) => (inputsK m c).mlp_b1 0 j) := by
  have h : (W5 (F := Ideal) m ρ c (Proc.devRef .tc main_v59) : S1x128.Idx → EReal)
      = M.mk2 (fun (_ : Fin 1) j => M.at2 (W4 (F := Ideal) m ρ c (Proc.devRef .tc main_arg5)) 0 j) :=
    KStageHead.ops1_2_v59 (W4 (F := Ideal) m ρ c)
  rw [h, arg_W4 m ρ c main_arg5 (by arg_mem)]
  rfl

/-! ## The record at layer 0's entry -/

/-- Where layer 0's first region is entered the buffers hold the embedding, head 0's score, the neighbour sums, the
    layer's scale, first weight and first bias, and the arguments as launched. -/
theorem entry0 (hfin : (inputsK m c).Finite) : Entry0 m c (Gen.W5 (F := Ideal) m ρ c) where
  x := x_W5 m ρ c
  score := score_W5 m ρ c
  neigh := neigh_W5 m ρ c
  eps := eps_W5 m ρ c
  w1 := w1_W5 m ρ c
  b1 := b1_W5 m ρ c
  args := W5_args m ρ c

end Cert.KChain

end
-- ==== Proof.RegA.lean ====
/-
  The value of region 1 (the first kernel of layer 0): what its three output arrays hold after the region, as functions
  of the five input arrays as the region finds them.

  The body forms, on each tile of 4000 rows, the block a = ((1 + ε) · x + neigh) · w₁ + b₁ of the layer's first linear map
  (the contraction over the 128 columns of the left factor; the narrowing of the factors is the identity on the extended
  reals), stores it, and stores beside it the tile's column sums of a and of a², each repeated over eight rows. Read at an
  index, the body's value at row p of tile t is the first linear map of the whole arrays at row 4000 t + p; the blocks the
  points write back tile each output array, so the arrays end holding the first linear map, its tiled column sums and
  the tiled column sums of its squares.
-/
import proofs.«416875_j80633716015165_3_alg».proof.Proof.Spec
import proofs.«416875_j80633716015165_3_alg».proof.Proof.FrameKI
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

open Idealize.ShloMosaic Idealize.ShloMosaic.ValueIdx

namespace Cert.RegA

open Cert.KernelIdeal Cert.KernelIdeal.Gen
open Idealize.ShloMosaic.TcCoe
open Idealize.ShloMosaic.Pipeline (Dat)

/-! ## The block product at an index -/

theorem lhs_dot_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl

theorem lhs_dot_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q

theorem rhs_dot_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q

theorem rhs_dot_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-- The product of a 4000×128 block with a 128×128 block into the zero splat, at (p, q): the sum over the contracted
    coordinate of row p of the left times column q of the right. -/
theorem mm_apply (a : FVec Ideal S4000x128 .bf16) (b : FVec Ideal S128x128 .bf16) (p : Fin 4000) (q : Fin 128) :
    matmul dot_S4000x128_S128x128_S4000x128_1_0_0_1_n_n none a b (constant (F := Ideal) S4000x128 .f32 0x00000000#32) (ix2 p q)
      = ∑ k : Fin 128, a (ix2 p k) * b (ix2 k q) := by
  refine (Ideal.matmul_constant_zero_apply dot_S4000x128_S128x128_S4000x128_1_0_0_1_n_n none a b (ix2 p q)).trans ?_
  rw [← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k :=
    funext fun a => Fin.ext (by
      match a with
      | ⟨0, _⟩ => exact lhs_dot_0 _ _
      | ⟨1, _⟩ => exact (lhs_dot_1 _ _).trans hk)
  have er : dot_S4000x128_S128x128_S4000x128_1_0_0_1_n_n.rhsIdx (ix2 p q) ((contrEquiv1 dot_S4000x128_S128x128_S4000x128_1_0_0_1_n_n 128 rfl rfl).symm k) = ix2 k q :=
    funext fun a => Fin.ext (by
      match a with
      | ⟨0, _⟩ => exact (rhs_dot_0 _ _).trans hk
      | ⟨1, _⟩ => exact rhs_dot_1 _ _)
  rw [el, er]

/-! ## The layout operations of the body at an index -/

/-- A 1×1 array broadcast over the block reads its one entry everywhere. -/
theorem bcast11_apply {α : Type} (v : S1x1.Idx → α) (h : S1x1.Broadcasts S4000x128) (p : Fin 4000) (q : Fin 128) :
    broadcastTo S4000x128 v h (ix2 p q) = v (ix2 0 0) :=
  broadcastTo_apply v h (ix2 p q) (ix2 0 0) fun a => by
    match a with
    | ⟨0, _⟩ => rfl
    | ⟨1, _⟩ => rfl

/-- A column sum's row vector, viewed 1×1×128 and repeated over eight rows, reads at (u, s, j) the vector at j. -/
theorem rep8_apply {α : Type} (v : S128.Idx → α) (h1 : S128.ShapeCasts S1x128) (h2 : S1x128.ShapeCasts S1x1x128)
    (h3 : S1x1x128.ShapeCasts S1x1x128) (h4 : S1x1x128.Broadcasts S1x8x128) (u : Fin 1) (s : Fin 8) (j : Fin 128) :
    broadcastTo S1x8x128 (shapeCast S1x1x128 (shapeCast S1x1x128 (shapeCast S1x128 v h1) h2) h3) h4 (ix3 u s j) = v (ix1 j) := by
  refine (broadcastTo_apply _ h4 (ix3 u s j) (ix3 (0 : Fin 1) (0 : Fin 1) j) fun a => ?_).trans ?_
  · match a with
    | ⟨0, _⟩ => rfl
    | ⟨1, _⟩ => rfl
    | ⟨2, _⟩ => rfl
  rw [shapeCast_self]
  refine (shapeCast_ab_1ab_apply _ h2 (0 : Fin 1) (0 : Fin 1) j).trans ?_
  exact shapeCast_a_1a_apply v h1 (0 : Fin 1) j

/-- The reduced index with the summed coordinate put back is (r, j). -/
theorem lift_red (h : S4000x128.Reduces [0] S128) (j : Fin 128) (r : Fin 4000) : h.lift (ix1 j) r = ix2 r j := by
  funext a; apply Fin.ext
  match a with
  | ⟨0, _⟩ => rfl
  | ⟨1, _⟩ => rfl

/-- The column sum of a block at j: the sum over its 4000 rows. -/
theorem colsum_apply (v : FVec Ideal S4000x128 .f32) (h : S4000x128.Reduces [0] S128) (hφ : FKind.Formats .f32)
    (hacc : (0x00000000#32 : BitVec 32) = FKind.add.neutral .f32 hφ) (j : Fin 128) :
    multiReduction .add [0] S128 v 0x00000000#32 h hφ hacc (ix1 j) = ∑ r : Fin 4000, v (ix2 r j) := by
  refine (Ideal.multiReduction_add_single v 0x00000000#32 h hφ hacc (ix1 j)).trans ?_
  exact Finset.sum_congr rfl fun r _ => congrArg v (lift_red h j r)

/-! ## The body's payloads at an index -/

/-- The value the body forms, at row p and column q of its block: the block of the first linear map. -/
theorem pay1_apply (e : FVec Ideal S1x1 .f32) (x ng : FVec Ideal S4000x128 .f32) (w : FVec Ideal S128x128 .f32)
    (b : FVec Ideal S1x128 .f32) (p : Fin 4000) (q : Fin 128) :
    k1_pay1 (F := Ideal) e x ng w b (ix2 p q)
      = (∑ k : Fin 128, ((Ideal.ofBits .f32 0x3F800000#32 + e (ix2 0 0)) * x (ix2 p k) + ng (ix2 p k)) * w (ix2 k q))
        + b (ix2 0 q) := by
  unfold k1_pay1
  simp only [addf_apply, mulf_apply, truncf_apply, broadcast_apply, shapeCast_self, mm_apply, bcast11_apply,
    broadcastTo_1b_ab_apply]
  rfl

/-- The first output's payload: the same value (the narrowing is the identity on the extended reals). -/
theorem pay2_apply (e : FVec Ideal S1x1 .f32) (x ng : FVec Ideal S4000x128 .f32) (w : FVec Ideal S128x128 .f32)
    (b : FVec Ideal S1x128 .f32) (p : Fin 4000) (q : Fin 128) :
    (k1_pay2 (F := Ideal) e x ng w b (ix2 p q) : EReal) = k1_pay1 (F := Ideal) e x ng w b (ix2 p q) := rfl

/-- The second output's payload at (u, s, j): the block's column sum at j, whatever the row s. -/
theorem pay3_apply (e : FVec Ideal S1x1 .f32) (x ng : FVec Ideal S4000x128 .f32) (w : FVec Ideal S128x128 .f32)
    (b : FVec Ideal S1x128 .f32) (u : Fin 1) (s : Fin 8) (j : Fin 128) :
    k1_pay3 (F := Ideal) e x ng w b (ix3 u s j) = ∑ r : Fin 4000, k1_pay1 (F := Ideal) e x ng w b (ix2 r j) := by
  unfold k1_pay3
  refine (rep8_apply _ _ _ _ _ u s j).trans ?_
  exact colsum_apply _ _ _ _ j

/-- The third output's payload at (u, s, j): the column sum of the block's squares at j. -/
theorem pay4_apply (e : FVec Ideal S1x1 .f32) (x ng : FVec Ideal S4000x128 .f32) (w : FVec Ideal S128x128 .f32)
    (b : FVec Ideal S1x128 .f32) (u : Fin 1) (s : Fin 8) (j : Fin 128) :
    k1_pay4 (F := Ideal) e x ng w b (ix3 u s j)
      = ∑ r : Fin 4000, k1_pay1 (F := Ideal) e x ng w b (ix2 r j) * k1_pay1 (F := Ideal) e x ng w b (ix2 r j) := by
  unfold k1_pay4
  refine (rep8_apply _ _ _ _ _ u s j).trans ?_
  exact colsum_apply _ _ _ _ j

/-! ## From the blocks to the arrays -/

variable (V : (c : Dev nD) → (b : Ref sig .tc) → Buf (Elt Ideal) ((c : Thread nD τ).loc b))

theorem hz2 : (![0, 0] : Fin 2 → Nat) = fun _ => 0 := funext fun a => by
  match a with
  | ⟨0, _⟩ => rfl
  | ⟨1, _⟩ => rfl

theorem hz3 : (![0, 0, 0] : Fin 3 → Nat) = fun _ => 0 := funext fun a => by
  match a with
  | ⟨0, _⟩ => rfl
  | ⟨1, _⟩ => rfl
  | ⟨2, _⟩ => rfl

/-- A grid point as the number of its tile of 4000 rows. -/
def tile (t : Fin cfg1.N) : Fin 5 := ⟨t.val, by have h := t.isLt; have e : cfg1.N = 5 := N_1; omega⟩

/-- The first linear map of the region's input arrays: ((1 + ε) · x + neigh) · w₁ + b₁, rows by columns. -/
abbrev linA (c : Dev nD) : Fin 20000 → Fin 128 → EReal :=
  M.lin (M.at2 (a := 20000) (b := 128) (V c (Pipeline.arrRef spec1 0)))
    (M.at2 (a := 20000) (b := 128) (V c (Pipeline.arrRef spec1 1)))
    (M.at2 (a := 1) (b := 1) (V c (Pipeline.arrRef spec1 2)) 0 0)
    (M.at2 (a := 128) (b := 128) (V c (Pipeline.arrRef spec1 3)))
    (fun j => M.at2 (a := 1) (b := 128) (V c (Pipeline.arrRef spec1 4)) 0 j)

/-- The index maps, decided over the grid: the row-block windows sit at block (t, 0), the parameter windows at
    block (0, 0), the partial-sum windows at block (t, 0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 3) = t.val ∧ win1_6.index t (1 : Fin 3) = 0 ∧ win1_6.index t (2 : Fin 3) = 0
    ∧ win1_7.index t (0 : Fin 3) = t.val ∧ win1_7.index t (1 : Fin 3) = 0 ∧ win1_7.index t (2 : Fin 3) = 0 :=
  (by decide +kernel : ∀ t : Fin grid1.N, _)

/-- The node block at point t is rows 4000 t … 4000 t + 3999 of the node array. -/
theorem blk_x (c : Dev nD) (t : Fin cfg1.N) (p : Fin 4000) (k : Fin 128) :
    (iblk1 V c 0 t : S4000x128.Idx → EReal) (ix2 p k)
      = M.at2 (a := 20000) (b := 128) (V c (Pipeline.arrRef spec1 0)) (M.tileRow (tile t) p) k := by
  obtain ⟨e0, e1, -⟩ := idx_facts t
  unfold iblk1
  rw [View.read_apply]
  show (V c (Pipeline.arrRef spec1 0) : S20000x128.Idx → EReal) _ = (V c (Pipeline.arrRef spec1 0) : S20000x128.Idx → EReal) _
  congr 1
  funext a
  apply Fin.ext
  match a with
  | ⟨0, _⟩ => show win1_0.index t (0 : Fin 2) * 4000 + 1 * p.val = 4000 * t.val + p.val; rw [e0]; omega
  | ⟨1, _⟩ => show win1_0.index t (1 : Fin 2) * 128 + 1 * k.val = k.val; rw [e1]; omega

/-- The neighbour-sum block at point t is the same rows of the neighbour-sum array. -/
theorem blk_ng (c : Dev nD) (t : Fin cfg1.N) (p : Fin 4000) (k : Fin 128) :
    (iblk1 V c 1 t : S4000x128.Idx → EReal) (ix2 p k)
      = M.at2 (a := 20000) (b := 128) (V c (Pipeline.arrRef spec1 1)) (M.tileRow (tile t) p) k := by
  obtain ⟨-, -, e0, e1, -⟩ := idx_facts t
  unfold iblk1
  rw [View.read_apply]
  show (V c (Pipeline.arrRef spec1 1) : S20000x128.Idx → EReal) _ = (V c (Pipeline.arrRef spec1 1) : S20000x128.Idx → EReal) _
  congr 1
  funext a
  apply Fin.ext
  match a with
  | ⟨0, _⟩ => show win1_1.index t (0 : Fin 2) * 4000 + 1 * p.val = 4000 * t.val + p.val; rw [e0]; omega
  | ⟨1, _⟩ => show win1_1.index t (1 : Fin 2) * 128 + 1 * k.val = k.val; rw [e1]; omega

/-- The ε block at every point is the whole 1×1 array. -/
theorem blk_e (c : Dev nD) (t : Fin cfg1.N) :
    (iblk1 V c 2 t : S1x1.Idx → EReal) (ix2 0 0) = M.at2 (a := 1) (b := 1) (V c (Pipeline.arrRef spec1 2)) 0 0 := by
  obtain ⟨-, -, -, -, e0, e1, -⟩ := idx_facts t
  unfold iblk1
  rw [View.read_apply]
  show (V c (Pipeline.arrRef spec1 2) : S1x1.Idx → EReal) _ = (V c (Pipeline.arrRef spec1 2) : S1x1.Idx → EReal) _
  congr 1
  funext a
  apply Fin.ext
  match a with
  | ⟨0, _⟩ => show win1_2.index t (0 : Fin 2) * 1 + 1 * 0 = 0; rw [e0]
  | ⟨1, _⟩ => show win1_2.index t (1 : Fin 2) * 1 + 1 * 0 = 0; rw [e1]

/-- The weight block at every point is the whole weight array. -/
theorem blk_w (c : Dev nD) (t : Fin cfg1.N) (k q : Fin 128) :
    (iblk1 V c 3 t : S128x128.Idx → EReal) (ix2 k q) = M.at2 (a := 128) (b := 128) (V c (Pipeline.arrRef spec1 3)) k q := by
  obtain ⟨-, -, -, -, -, -, e0, e1, -⟩ := idx_facts t
  unfold iblk1
  rw [View.read_apply]
  show (V c (Pipeline.arrRef spec1 3) : S128x128.Idx → EReal) _ = (V c (Pipeline.arrRef spec1 3) : S128x128.Idx → EReal) _
  congr 1
  funext a
  apply Fin.ext
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-- The bias block at every point is the whole 1×128 bias array. -/
theorem blk_b (c : Dev nD) (t : Fin cfg1.N) (q : Fin 128) :
    (iblk1 V c 4 t : S1x128.Idx → EReal) (ix2 0 q) = M.at2 (a := 1) (b := 128) (V c (Pipeline.arrRef spec1 4)) 0 q := by
  obtain ⟨-, -, -, -, -, -, -, -, e0, e1, -⟩ := idx_facts t
  unfold iblk1
  rw [View.read_apply]
  show (V c (Pipeline.arrRef spec1 4) : S1x128.Idx → EReal) _ = (V c (Pipeline.arrRef spec1 4) : S1x128.Idx → EReal) _
  congr 1
  funext a
  apply Fin.ext
  match a with
  | ⟨0, _⟩ => show win1_4.index t (0 : Fin 2) * 1 + 1 * 0 = 0; rw [e0]
  | ⟨1, _⟩ => show win1_4.index t (1 : Fin 2) * 128 + 1 * q.val = q.val; rw [e1]; omega

/-- The body's value on the blocks of point t, at (p, q), is the first linear map of the arrays at row 4000 t + p. -/
theorem pay1_blk (c : Dev nD) (t : Fin cfg1.N) (p : Fin 4000) (q : Fin 128) :
    k1_pay1 (F := Ideal) (iblk1 V c 2 t) (iblk1 V c 0 t) (iblk1 V c 1 t) (iblk1 V c 3 t) (iblk1 V c 4 t) (ix2 p q)
      = linA V c (M.tileRow (tile t) p) q := by
  refine (pay1_apply (iblk1 V c 2 t) (iblk1 V c 0 t) (iblk1 V c 1 t) (iblk1 V c 3 t) (iblk1 V c 4 t) p q).trans ?_
  unfold linA M.lin M.affine M.mm
  refine congrArg₂ (fun a b : EReal => a + b) (Finset.sum_congr rfl fun k _ => ?_) (blk_b V c t q)
  refine congrArg₂ (fun a b : EReal => a * b) ?_ (blk_w V c t k q)
  refine congrArg₂ (fun a b : EReal => a + b) ?_ (blk_ng V c t p k)
  refine congrArg₂ (fun a b : EReal => a * b) ?_ (blk_x V c t p k)
  exact congrArg (fun a : EReal => M.c1 + a) (blk_e V c t)

/-! ### Output window 5: the first linear map -/

/-- What point t writes back is block t of the first linear map of the input arrays. -/
theorem flushed5 (c : Dev nD) (t : Fin cfg1.N) :
    (dat1 (F := Ideal) V c).flushed 5 t = ((cfg1.win 5).blk t).view.read (Elt Ideal) (M.mk2 (linA V c)) := by
  show (cfg1.win 5).cut (grid1.coords t) ((dat1 V c).after 5 t) = _
  rw [after1_5]
  unfold out1_5
  rw [View.canon_unit_zero hz2]
  simp only [View.ld_unit_zero (S := S1x1) hz2, View.ld_unit_zero (S := S4000x128) hz2,
    View.ld_unit_zero (S := S128x128) hz2, View.ld_unit_zero (S := S1x128) hz2]
  obtain ⟨-, -, -, -, -, -, -, -, -, -, e0, e1, -⟩ := idx_facts t
  funext j
  obtain ⟨p, q, rfl⟩ : ∃ (p : Fin 4000) (q : Fin 128), j = ix2 p q := ⟨j 0, j 1, eq_ix2 j⟩
  rw [View.read_apply]
  show k1_pay1 (F := Ideal) (iblk1 V c 2 t) (iblk1 V c 0 t) (iblk1 V c 1 t) (iblk1 V c 3 t) (iblk1 V c 4 t) (ix2 p q)
    = linA V c ((((cfg1.win 5).blk t).view.emb (ix2 p q)) 0) ((((cfg1.win 5).blk t).view.emb (ix2 p q)) 1)
  refine (pay1_blk V c t p q).trans ?_
  refine congrArg₂ (linA V c) (Fin.ext ?_) (Fin.ext ?_)
  · show 4000 * t.val + p.val = win1_5.index t (0 : Fin 2) * 4000 + 1 * p.val; rw [e0]; omega
  · show q.val = win1_5.index t (1 : Fin 2) * 128 + 1 * q.val; rw [e1]; omega

/-- An index of the array is in point t's block iff each coordinate is in the block's range on its axis. -/
theorem mem_blk5 (t : Fin cfg1.N) (i : S20000x128.Idx) :
    i ∈ ((cfg1.win 5).blk t).view.set ↔ ∀ a : Fin 2, win1_5.index t a * S4000x128.size a ≤ (i a).val
      ∧ (i a).val < win1_5.index t a * S4000x128.size a + S4000x128.size a := by
  show i ∈ ((View.whole main_v60_0).slice (win1_5.rect t)).set ↔ _
  rw [View.set_slice_whole, Rect.mem_set_unit]
  exact Iff.rfl

/-- Row r is in the block of point r / 4000. -/
theorem cover5 (i : S20000x128.Idx) :
    ∃ t : Fin cfg1.N, (cfg1.win 5).flush t = true ∧ i ∈ ((cfg1.win 5).blk t).view.set := by
  have hi0 : (i 0).val < 20000 := (i 0).isLt
  have hi1 : (i 1).val < 128 := (i 1).isLt
  obtain ⟨t, ht⟩ : ∃ t : Fin cfg1.N, t.val = (i 0).val / 4000 :=
    ⟨⟨(i 0).val / 4000, by rw [show cfg1.N = 5 from N_1]; omega⟩, rfl⟩
  obtain ⟨-, -, -, -, -, -, -, -, -, -, e0, e1, -⟩ := idx_facts t
  refine ⟨t, flush1_5 t, ?_⟩
  rw [mem_blk5]
  intro a
  match a with
  | ⟨0, _⟩ =>
    show win1_5.index t (0 : Fin 2) * 4000 ≤ (i 0).val ∧ (i 0).val < win1_5.index t (0 : Fin 2) * 4000 + 4000
    rw [e0, ht]; omega
  | ⟨1, _⟩ =>
    show win1_5.index t (1 : Fin 2) * 128 ≤ (i 1).val ∧ (i 1).val < win1_5.index t (1 : Fin 2) * 128 + 128
    rw [e1]; omega

/-- THE FIRST OUTPUT ARRAY after the region: the first linear map of the input arrays. -/
theorem arr1_5 (c : Dev nD) :
    (dat1 (F := Ideal) V c).arrAt 5 cfg1.N = M.mk2 (linA V c) :=
  (dat1 (F := Ideal) V c).arrAt_eq_of_cover 5 (M.mk2 (linA V c)) (fun t _ => flushed5 V c t) cover5

/-! ### Output windows 6 and 7: the tiles' column sums, of the values and of their squares -/

/-- An index of a partial-sum array is in point t's block iff each coordinate is in the block's range on its axis. -/
theorem mem_blk6 (t : Fin cfg1.N) (i : S5x8x128.Idx) :
    i ∈ ((cfg1.win 6).blk t).view.set ↔ ∀ a : Fin 3, win1_6.index t a * S1x8x128.size a ≤ (i a).val
      ∧ (i a).val < win1_6.index t a * S1x8x128.size a + S1x8x128.size a := by
  show i ∈ ((View.whole main_v60_1).slice (win1_6.rect t)).set ↔ _
  rw [View.set_slice_whole, Rect.mem_set_unit]
  exact Iff.rfl

theorem mem_blk7 (t : Fin cfg1.N) (i : S5x8x128.Idx) :
    i ∈ ((cfg1.win 7).blk t).view.set ↔ ∀ a : Fin 3, win1_7.index t a * S1x8x128.size a ≤ (i a).val
      ∧ (i a).val < win1_7.index t a * S1x8x128.size a + S1x8x128.size a := by
  show i ∈ ((View.whole main_v60_2).slice (win1_7.rect t)).set ↔ _
  rw [View.set_slice_whole, Rect.mem_set_unit]
  exact Iff.rfl

/-- Tile u's eight rows are the block of point u. -/
theorem cover6 (i : S5x8x128.Idx) :
    ∃ t : Fin cfg1.N, (cfg1.win 6).flush t = true ∧ i ∈ ((cfg1.win 6).blk t).view.set := by
  have hi0 : (i 0).val < 5 := (i 0).isLt
  have hi1 : (i 1).val < 8 := (i 1).isLt
  have hi2 : (i 2).val < 128 := (i 2).isLt
  obtain ⟨t, ht⟩ : ∃ t : Fin cfg1.N, t.val = (i 0).val :=
    ⟨⟨(i 0).val, by rw [show cfg1.N = 5 from N_1]; omega⟩, rfl⟩
  obtain ⟨-, -, -, -, -, -, -, -, -, -, -, -, e0, e1, e2, -⟩ := idx_facts t
  refine ⟨t, flush1_6 t, ?_⟩
  rw [mem_blk6]
  intro a
  match a with
  | ⟨0, _⟩ =>
    show win1_6.index t (0 : Fin 3) * 1 ≤ (i 0).val ∧ (i 0).val < win1_6.index t (0 : Fin 3) * 1 + 1
    rw [e0, ht]; omega
  | ⟨1, _⟩ =>
    show win1_6.index t (1 : Fin 3) * 8 ≤ (i 1).val ∧ (i 1).val < win1_6.index t (1 : Fin 3) * 8 + 8
    rw [e1]; omega
  | ⟨2, _⟩ =>
    show win1_6.index t (2 : Fin 3) * 128 ≤ (i 2).val ∧ (i 2).val < win1_6.index t (2 : Fin 3) * 128 + 128
    rw [e2]; omega

theorem cover7 (i : S5x8x128.Idx) :
    ∃ t : Fin cfg1.N, (cfg1.win 7).flush t = true ∧ i ∈ ((cfg1.win 7).blk t).view.set := by
  have hi0 : (i 0).val < 5 := (i 0).isLt
  have hi1 : (i 1).val < 8 := (i 1).isLt
  have hi2 : (i 2).val < 128 := (i 2).isLt
  obtain ⟨t, ht⟩ : ∃ t : Fin cfg1.N, t.val = (i 0).val :=
    ⟨⟨(i 0).val, by rw [show cfg1.N = 5 from N_1]; omega⟩, rfl⟩
  obtain ⟨-, -, -, -, -, -, -, -, -, -, -, -, -, -, -, e0, e1, e2⟩ := idx_facts t
  refine ⟨t, flush1_7 t, ?_⟩
  rw [mem_blk7]
  intro a
  match a with
  | ⟨0, _⟩ =>
    show win1_7.index t (0 : Fin 3) * 1 ≤ (i 0).val ∧ (i 0).val < win1_7.index t (0 : Fin 3) * 1 + 1
    rw [e0, ht]; omega
  | ⟨1, _⟩ =>
    show win1_7.index t (1 : Fin 3) * 8 ≤ (i 1).val ∧ (i 1).val < win1_7.index t (1 : Fin 3) * 8 + 8
    rw [e1]; omega
  | ⟨2, _⟩ =>
    show win1_7.index t (2 : Fin 3) * 128 ≤ (i 2).val ∧ (i 2).val < win1_7.index t (2 : Fin 3) * 128 + 128
    rw [e2]; omega

/-- What point t writes back to the second output is block t of the tiles' column sums. -/
theorem flushed6 (c : Dev nD) (t : Fin cfg1.N) :
    (dat1 (F := Ideal) V c).flushed 6 t = ((cfg1.win 6).blk t).view.read (Elt Ideal) (M.mk3 (M.sumT (linA V c))) := by
  show (cfg1.win 6).cut (grid1.coords t) ((dat1 V c).after 6 t) = _
  rw [after1_6]
  unfold out1_6
  rw [View.canon_unit_zero hz3]
  simp only [View.ld_unit_zero (S := S1x1) hz2, View.ld_unit_zero (S := S4000x128) hz2,
    View.ld_unit_zero (S := S128x128) hz2, View.ld_unit_zero (S := S1x128) hz2]
  obtain ⟨-, -, -, -, -, -, -, -, -, -, -, -, e0, e1, e2, -⟩ := idx_facts t
  funext j
  obtain ⟨u, s, q, rfl⟩ : ∃ (u : Fin 1) (s : Fin 8) (q : Fin 128), j = ix3 u s q := ⟨j 0, j 1, j 2, eq_ix3 j⟩
  rw [View.read_apply]
  show k1_pay3 (F := Ideal) (iblk1 V c 2 t) (iblk1 V c 0 t) (iblk1 V c 1 t) (iblk1 V c 3 t) (iblk1 V c 4 t) (ix3 u s q)
    = ∑ r : Fin 4000, linA V c (M.tileRow ((((cfg1.win 6).blk t).view.emb (ix3 u s q)) 0) r) ((((cfg1.win 6).blk t).view.emb (ix3 u s q)) 2)
  refine (pay3_apply (iblk1 V c 2 t) (iblk1 V c 0 t) (iblk1 V c 1 t) (iblk1 V c 3 t) (iblk1 V c 4 t) u s q).trans ?_
  refine Finset.sum_congr rfl fun r _ => (pay1_blk V c t r q).trans ?_
  have hu : u.val = 0 := by omega
  refine congrArg₂ (linA V c) (congrArg (fun z : Fin 5 => M.tileRow z r) (Fin.ext ?_)) (Fin.ext ?_)
  · show t.val = win1_6.index t (0 : Fin 3) * 1 + 1 * u.val; rw [e0, hu]; omega
  · show q.val = win1_6.index t (2 : Fin 3) * 128 + 1 * q.val; rw [e2]; omega

/-- What point t writes back to the third output is block t of the tiles' column sums of squares. -/
theorem flushed7 (c : Dev nD) (t : Fin cfg1.N) :
    (dat1 (F := Ideal) V c).flushed 7 t = ((cfg1.win 7).blk t).view.read (Elt Ideal) (M.mk3 (M.sumsqT (linA V c))) := by
  show (cfg1.win 7).cut (grid1.coords t) ((dat1 V c).after 7 t) = _
  rw [after1_7]
  unfold out1_7
  rw [View.canon_unit_zero hz3]
  simp only [View.ld_unit_zero (S := S1x1) hz2, View.ld_unit_zero (S := S4000x128) hz2,
    View.ld_unit_zero (S := S128x128) hz2, View.ld_unit_zero (S := S1x128) hz2]
  obtain ⟨-, -, -, -, -, -, -, -, -, -, -, -, -, -, -, e0, e1, e2⟩ := idx_facts t
  funext j
  obtain ⟨u, s, q, rfl⟩ : ∃ (u : Fin 1) (s : Fin 8) (q : Fin 128), j = ix3 u s q := ⟨j 0, j 1, j 2, eq_ix3 j⟩
  rw [View.read_apply]
  show k1_pay4 (F := Ideal) (iblk1 V c 2 t) (iblk1 V c 0 t) (iblk1 V c 1 t) (iblk1 V c 3 t) (iblk1 V c 4 t) (ix3 u s q)
    = ∑ r : Fin 4000, linA V c (M.tileRow ((((cfg1.win 7).blk t).view.emb (ix3 u s q)) 0) r) ((((cfg1.win 7).blk t).view.emb (ix3 u s q)) 2)
        * linA V c (M.tileRow ((((cfg1.win 7).blk t).view.emb (ix3 u s q)) 0) r) ((((cfg1.win 7).blk t).view.emb (ix3 u s q)) 2)
  refine (pay4_apply (iblk1 V c 2 t) (iblk1 V c 0 t) (iblk1 V c 1 t) (iblk1 V c 3 t) (iblk1 V c 4 t) u s q).trans ?_
  have hu : u.val = 0 := by omega
  have h0 : tile t = (((cfg1.win 7).blk t).view.emb (ix3 u s q)) 0 :=
    Fin.ext (by show t.val = win1_7.index t (0 : Fin 3) * 1 + 1 * u.val; rw [e0, hu]; omega)
  have h2 : q = (((cfg1.win 7).blk t).view.emb (ix3 u s q)) 2 :=
    Fin.ext (by show q.val = win1_7.index t (2 : Fin 3) * 128 + 1 * q.val; rw [e2]; omega)
  refine Finset.sum_congr rfl fun r _ => ?_
  have hr := (pay1_blk V c t r q).trans
    (congrArg₂ (linA V c) (congrArg (fun z : Fin 5 => M.tileRow z r) h0) h2)
  exact congrArg₂ (fun a b : EReal => a * b) hr hr

/-- THE SECOND OUTPUT ARRAY after the region: each tile's column sums of the first linear map, in each of eight rows. -/
theorem arr1_6 (c : Dev nD) :
    (dat1 (F := Ideal) V c).arrAt 6 cfg1.N = M.mk3 (M.sumT (linA V c)) :=
  (dat1 (F := Ideal) V c).arrAt_eq_of_cover 6 (M.mk3 (M.sumT (linA V c))) (fun t _ => flushed6 V c t) cover6

/-- THE THIRD OUTPUT ARRAY after the region: each tile's column sums of its squares, in each of eight rows. -/
theorem arr1_7 (c : Dev nD) :
    (dat1 (F := Ideal) V c).arrAt 7 cfg1.N = M.mk3 (M.sumsqT (linA V c)) :=
  (dat1 (F := Ideal) V c).arrAt_eq_of_cover 7 (M.mk3 (M.sumsqT (linA V c))) (fun t _ => flushed7 V c t) cover7

end Cert.RegA

end
-- ==== Proof.RegB.lean ====
/-
  Region 2, the second linear map of layer 0: what each of its three output arrays holds when the region ends, as a
  function of the seven arrays the region finds on entry.

  The body normalises and rectifies a block of 4000 rows of the first linear map's value with the given column
  statistics, scale and shift, multiplies by the weight, adds the bias, and stores the block; it also stores the
  block's column sums and column sums of squares, each copied into eight rows. The grid's five points tile the
  20000 rows, so the first output is the whole second linear map, and the other two are its per-tile sums.

  First the body's operations are read at an index; then a block's value is stated over the whole arrays; then each
  point's write-back is a block of one whole-array function, and the blocks cover the array.
-/
import proofs.«416875_j80633716015165_3_alg».proof.Proof.Spec
import proofs.«416875_j80633716015165_3_alg».proof.Proof.FrameKI
import Idealize.ShloMosaic.PureOps.Ideal.Laws
import Idealize.ShloMosaic.Lib.ValueIdx
import Idealize.ShloMosaic.Lib.Pipeline.Value

set_option maxRecDepth 16384

noncomputable section

open Idealize.ShloMosaic Idealize.ShloMosaic.ValueIdx Idealize.ShloMosaic.TcCoe Idealize.SL.Sem
open Idealize.ShloMosaic.Pipeline (Dat)

namespace Cert.RegB

open Cert.KernelIdeal Cert.KernelIdeal.Gen

/-! ## The body's layout operations, read at an index -/

/-- A row vector broadcast over the block's rows reads its column. -/
theorem bcastRow_apply {α : Type} (x : S1x128.Idx → α) (h : S1x128.Broadcasts S4000x128) (r : Fin 4000) (j : Fin 128) :
    broadcastTo S4000x128 x h (ix2 r j) = x (ix2 0 j) :=
  broadcastTo_apply x h (ix2 r j) (ix2 0 j) fun a => by
    match a with
    | ⟨0, _⟩ => rfl
    | ⟨1, _⟩ => rfl

/-- A [1,1,128] block broadcast over eight rows reads its column. -/
theorem bcastEight_apply {α : Type} (x : S1x1x128.Idx → α) (h : S1x1x128.Broadcasts S1x8x128) (p : Fin 1) (q : Fin 8)
    (j : Fin 128) : broadcastTo S1x8x128 x h (ix3 p q j) = x (ix3 0 0 j) :=
  broadcastTo_apply x h (ix3 p q j) (ix3 0 0 j) fun a => by
    match a with
    | ⟨0, _⟩ => rfl
    | ⟨1, _⟩ => rfl
    | ⟨2, _⟩ => rfl

/-- A [128] vector viewed as one row reads its column. -/
theorem castRow_apply {α : Type} (x : S128.Idx → α) (h : S128.ShapeCasts S1x128) (j : Fin 128) :
    shapeCast S1x128 x h (ix2 0 j) = x (ix1 j) :=
  shapeCast_apply x h (ix2 0 j) (ix1 j) (by
    rw [Shape.rowMajor_val_one, Shape.rowMajor_val_two]
    show j.val = 0 * 128 + j.val
    omega)

/-- One row viewed as a [1,1,128] block reads its column. -/
theorem castBlk_apply {α : Type} (x : S1x128.Idx → α) (h : S1x128.ShapeCasts S1x1x128) (j : Fin 128) :
    shapeCast S1x1x128 x h (ix3 0 0 j) = x (ix2 0 j) :=
  shapeCast_apply x h (ix3 0 0 j) (ix2 0 j) (by
    rw [Shape.rowMajor_val_two, Shape.rowMajor_val_three]
    show 0 * 128 + j.val = (0 * 1 + 0) * 128 + j.val
    omega)

/-- The body's `rsqrt` at an index. -/
theorem rsqrt_apply {s : Shape} {φ : FTy} (a : FVec Ideal s φ) (i : s.Idx) : rsqrt a i = Ideal.rsqrt (a i) := rfl

/-! ## The column sum over a block's rows -/

/-- The sum over axis 0 of a [4000,128] block at column `j` is the sum of that column's 4000 entries. -/
theorem colSum_apply (src : FVec Ideal S4000x128 .f32) (h : S4000x128.Reduces [0] S128) (hφ : FKind.Formats FTy.f32)
    (hacc : (0x00000000#32 : BitVec 32) = 0x00000000#32) (j : Fin 128) :
    multiReduction (F := Ideal) .add [0] S128 src 0x00000000#32 h hφ hacc (ix1 j) = ∑ r : Fin 4000, src (ix2 r j) := by
  refine (Ideal.multiReduction_add_single src 0x00000000#32 h hφ hacc (ix1 j)).trans ?_
  show ∑ k : Fin 4000, src (h.lift (ix1 j) k) = _
  refine Finset.sum_congr rfl fun k _ => congrArg src ?_
  funext a
  apply Fin.ext
  match a with
  | ⟨0, _⟩ => rfl
  | ⟨1, _⟩ => rfl

/-! ## The matrix product of a block with the weight -/

theorem lhs_mm_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl
theorem lhs_mm_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_mm_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_mm_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-- The product into the zero accumulator at `(r, j)` is the sum over the 128 contracted coordinates. -/
theorem mm_apply (x : FVec Ideal S4000x128 .bf16) (w : FVec Ideal S128x128 .bf16) (r : Fin 4000) (j : Fin 128) :
    (matmul (F := Ideal) dot_S4000x128_S128x128_S4000x128_1_0_0_1_n_n none x w (constant (F := Ideal) S4000x128 .f32 0x00000000#32) (ix2 r j) : EReal)
      = ∑ t : Fin 128, (x (ix2 r t) : EReal) * (w (ix2 t j) : EReal) := by
  refine (Ideal.matmul_constant_zero_apply dot_S4000x128_S128x128_S4000x128_1_0_0_1_n_n none x w (ix2 r j)).trans ?_
  rw [← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 r j) ((contrEquiv1 dot_S4000x128_S128x128_S4000x128_1_0_0_1_n_n 128 rfl rfl).symm k) = ix2 r k :=
    funext fun a => Fin.ext (by
      match a with
      | ⟨0, _⟩ => exact lhs_mm_0 _ _
      | ⟨1, _⟩ => exact (lhs_mm_1 _ _).trans hk)
  have er : dot_S4000x128_S128x128_S4000x128_1_0_0_1_n_n.rhsIdx (ix2 r j) ((contrEquiv1 dot_S4000x128_S128x128_S4000x128_1_0_0_1_n_n 128 rfl rfl).symm k) = ix2 k j :=
    funext fun a => Fin.ext (by
      match a with
      | ⟨0, _⟩ => exact (rhs_mm_0 _ _).trans hk
      | ⟨1, _⟩ => exact rhs_mm_1 _ _)
  rw [el, er]

/-! ## The body's value at an index -/

/-- The second linear map on the normalised, rectified block, entry `(r, j)`: the payload's arguments in the order the
    body loads them (the block, the variance row, the mean row, scale, shift, weight, bias). -/
theorem pay3_apply (x0 : FVec Ideal S4000x128 .bf16) (xv xm xg xb : FVec Ideal S1x128 .f32) (xw : FVec Ideal S128x128 .f32)
    (xc : FVec Ideal S1x128 .f32) (r : Fin 4000) (j : Fin 128) :
    (Gen.k2_pay3 (F := Ideal) x0 xv xm xg xb xw xc (ix2 r j) : EReal)
      = (∑ t : Fin 128, max (((x0 (ix2 r t) : EReal) - (xm (ix2 0 t) : EReal))
              * Ideal.rsqrt ((xv (ix2 0 t) : EReal) + Ideal.ofBits .f32 0x3727C5AC#32)
            * (xg (ix2 0 t) : EReal) + (xb (ix2 0 t) : EReal)) (Ideal.ofBits .f32 0x00000000#32) * (xw (ix2 t j) : EReal))
        + (xc (ix2 0 j) : EReal) := by
  unfold Gen.k2_pay3
  simp only [shapeCast_self]
  rw [addf_apply, bcastRow_apply, mm_apply]
  simp only [truncf_apply, maximumf_apply, addf_apply, mulf_apply, subf_apply, extf_apply, bcastRow_apply, broadcast_apply,
    rsqrt_apply]
  rfl

/-! ## A block's value over the whole arrays -/

/-- The second linear map on the normalised, rectified rows: the block of tile `p`, when the loaded blocks are the rows of
    tile `p` of `A1` and the whole parameter arrays. -/
theorem pay3_blk (x0 : FVec Ideal S4000x128 .bf16) (xv xm xg xb : FVec Ideal S1x128 .f32) (xw : FVec Ideal S128x128 .f32)
    (xc : FVec Ideal S1x128 .f32) (A1 : Fin 20000 → Fin 128 → EReal) (mean var g b : Fin 128 → EReal)
    (w2 : Fin 128 → Fin 128 → EReal) (b2 : Fin 128 → EReal) (p : Fin 5)
    (h0 : ∀ r t, (x0 (ix2 r t) : EReal) = A1 (M.tileRow p r) t) (hv : ∀ t, (xv (ix2 0 t) : EReal) = var t)
    (hm : ∀ t, (xm (ix2 0 t) : EReal) = mean t) (hg : ∀ t, (xg (ix2 0 t) : EReal) = g t)
    (hb : ∀ t, (xb (ix2 0 t) : EReal) = b t) (hw : ∀ t j, (xw (ix2 t j) : EReal) = w2 t j)
    (hc : ∀ j, (xc (ix2 0 j) : EReal) = b2 j) (r : Fin 4000) (j : Fin 128) :
    (Gen.k2_pay3 (F := Ideal) x0 xv xm xg xb xw xc (ix2 r j) : EReal) = M.affine (M.bnrelu A1 mean var g b) w2 b2 (M.tileRow p r) j := by
  rw [pay3_apply]
  simp only [h0, hv, hm, hg, hb, hw, hc]
  rfl

/-- The stored block (the same value, narrowed). -/
theorem pay4_blk (x0 : FVec Ideal S4000x128 .bf16) (xv xm xg xb : FVec Ideal S1x128 .f32) (xw : FVec Ideal S128x128 .f32)
    (xc : FVec Ideal S1x128 .f32) (A1 : Fin 20000 → Fin 128 → EReal) (mean var g b : Fin 128 → EReal)
    (w2 : Fin 128 → Fin 128 → EReal) (b2 : Fin 128 → EReal) (p : Fin 5)
    (h0 : ∀ r t, (x0 (ix2 r t) : EReal) = A1 (M.tileRow p r) t) (hv : ∀ t, (xv (ix2 0 t) : EReal) = var t)
    (hm : ∀ t, (xm (ix2 0 t) : EReal) = mean t) (hg : ∀ t, (xg (ix2 0 t) : EReal) = g t)
    (hb : ∀ t, (xb (ix2 0 t) : EReal) = b t) (hw : ∀ t j, (xw (ix2 t j) : EReal) = w2 t j)
    (hc : ∀ j, (xc (ix2 0 j) : EReal) = b2 j) (y : S4000x128.Idx) :
    (Gen.k2_pay4 (F := Ideal) x0 xv xm xg xb xw xc y : EReal) = M.affine (M.bnrelu A1 mean var g b) w2 b2 (M.tileRow p (y 0)) (y 1) := by
  obtain ⟨r, j, rfl⟩ : ∃ (r : Fin 4000) (j : Fin 128), y = ix2 r j := ⟨y 0, y 1, eq_ix2 y⟩
  unfold Gen.k2_pay4
  rw [truncf_apply]
  exact pay3_blk x0 xv xm xg xb xw xc A1 mean var g b w2 b2 p h0 hv hm hg hb hw hc r j

/-- The stored column sums of the block, copied into eight rows. -/
theorem pay1_blk (x0 : FVec Ideal S4000x128 .bf16) (xv xm xg xb : FVec Ideal S1x128 .f32) (xw : FVec Ideal S128x128 .f32)
    (xc : FVec Ideal S1x128 .f32) (A1 : Fin 20000 → Fin 128 → EReal) (mean var g b : Fin 128 → EReal)
    (w2 : Fin 128 → Fin 128 → EReal) (b2 : Fin 128 → EReal) (p : Fin 5)
    (h0 : ∀ r t, (x0 (ix2 r t) : EReal) = A1 (M.tileRow p r) t) (hv : ∀ t, (xv (ix2 0 t) : EReal) = var t)
    (hm : ∀ t, (xm (ix2 0 t) : EReal) = mean t) (hg : ∀ t, (xg (ix2 0 t) : EReal) = g t)
    (hb : ∀ t, (xb (ix2 0 t) : EReal) = b t) (hw : ∀ t j, (xw (ix2 t j) : EReal) = w2 t j)
    (hc : ∀ j, (xc (ix2 0 j) : EReal) = b2 j) (y : S1x8x128.Idx) :
    (Gen.k2_pay1 (F := Ideal) (Gen.k2_pay5 (F := Ideal) x0 xv xm xg xb xw xc) y : EReal)
      = M.sumT (M.affine (M.bnrelu A1 mean var g b) w2 b2) p (y 1) (y 2) := by
  obtain ⟨u, q, j, rfl⟩ : ∃ (u : Fin 1) (q : Fin 8) (j : Fin 128), y = ix3 u q j := ⟨y 0, y 1, y 2, eq_ix3 y⟩
  unfold M.sumT Gen.k2_pay1 Gen.k2_pay5
  simp only [shapeCast_self]
  rw [bcastEight_apply, castBlk_apply, castRow_apply, colSum_apply]
  exact Finset.sum_congr rfl fun r _ => pay3_blk x0 xv xm xg xb xw xc A1 mean var g b w2 b2 p h0 hv hm hg hb hw hc r j

/-- The stored column sums of squares of the block, copied into eight rows. -/
theorem pay2_blk (x0 : FVec Ideal S4000x128 .bf16) (xv xm xg xb : FVec Ideal S1x128 .f32) (xw : FVec Ideal S128x128 .f32)
    (xc : FVec Ideal S1x128 .f32) (A1 : Fin 20000 → Fin 128 → EReal) (mean var g b : Fin 128 → EReal)
    (w2 : Fin 128 → Fin 128 → EReal) (b2 : Fin 128 → EReal) (p : Fin 5)
    (h0 : ∀ r t, (x0 (ix2 r t) : EReal) = A1 (M.tileRow p r) t) (hv : ∀ t, (xv (ix2 0 t) : EReal) = var t)
    (hm : ∀ t, (xm (ix2 0 t) : EReal) = mean t) (hg : ∀ t, (xg (ix2 0 t) : EReal) = g t)
    (hb : ∀ t, (xb (ix2 0 t) : EReal) = b t) (hw : ∀ t j, (xw (ix2 t j) : EReal) = w2 t j)
    (hc : ∀ j, (xc (ix2 0 j) : EReal) = b2 j) (y : S1x8x128.Idx) :
    (Gen.k2_pay2 (F := Ideal) (Gen.k2_pay3 (F := Ideal) x0 xv xm xg xb xw xc) y : EReal)
      = M.sumsqT (M.affine (M.bnrelu A1 mean var g b) w2 b2) p (y 1) (y 2) := by
  obtain ⟨u, q, j, rfl⟩ : ∃ (u : Fin 1) (q : Fin 8) (j : Fin 128), y = ix3 u q j := ⟨y 0, y 1, y 2, eq_ix3 y⟩
  unfold M.sumsqT M.sumT Gen.k2_pay2
  simp only [shapeCast_self]
  rw [bcastEight_apply, castBlk_apply, castRow_apply, colSum_apply]
  refine Finset.sum_congr rfl fun r _ => ?_
  rw [mulf_apply, pay3_blk x0 xv xm xg xb xw xc A1 mean var g b w2 b2 p h0 hv hm hg hb hw hc r j]

/-! ## The region's arrays on entry, and its value -/

variable (V : (c : Dev nD) → (b : Ref sig .tc) → Buf (Elt Ideal) ((c : Thread nD τ).loc b))

/-- The second linear map on the normalised, rectified first linear map's value, from the region's seven input arrays
    (the value, its column means and variances, the scale and shift, the weight, the bias). -/
abbrev val (c : Dev nD) : Fin 20000 → Fin 128 → EReal :=
  M.affine (M.bnrelu (M.at2 (V c (Pipeline.arrRef spec2 0)))
      (fun j => M.at2 (V c (Pipeline.arrRef spec2 1)) 0 j)
      (fun j => M.at2 (V c (Pipeline.arrRef spec2 2)) 0 j)
      (fun j => M.at2 (V c (Pipeline.arrRef spec2 3)) 0 j)
      (fun j => M.at2 (V c (Pipeline.arrRef spec2 4)) 0 j))
    (M.at2 (V c (Pipeline.arrRef spec2 5)))
    (fun j => M.at2 (V c (Pipeline.arrRef spec2 6)) 0 j)

theorem hz2 : (![0, 0] : Fin 2 → Nat) = fun _ => 0 := funext fun a => by
  match a with
  | ⟨0, _⟩ => rfl
  | ⟨1, _⟩ => rfl
theorem hz3 : (![0, 0, 0] : Fin 3 → Nat) = fun _ => 0 := funext fun a => by
  match a with
  | ⟨0, _⟩ => rfl
  | ⟨1, _⟩ => rfl
  | ⟨2, _⟩ => rfl

/-- A function of three coordinates at equal coordinates. -/
theorem congr3 {α β γ δ : Type} (f : α → β → γ → δ) {a a' : α} {b b' : β} {c c' : γ} (ha : a = a') (hb : b = b')
    (hc : c = c') : f a b c = f a' b' c' := by
  subst ha; subst hb; subst hc; rfl

/-! ## The printed index maps, decided over the grid's five points

The row-block windows sit at the point's own block, the parameter windows at block zero. -/

theorem idx_0 : ∀ t : Fin cfg2.N, win2_0.index t (0 : Fin 2) = t.val ∧ win2_0.index t (1 : Fin 2) = 0 :=
  (by decide +kernel : ∀ t : Fin grid2.N, _)
theorem idx_1 : ∀ t : Fin cfg2.N, win2_1.index t (0 : Fin 2) = 0 ∧ win2_1.index t (1 : Fin 2) = 0 :=
  (by decide +kernel : ∀ t : Fin grid2.N, _)
theorem idx_2 : ∀ t : Fin cfg2.N, win2_2.index t (0 : Fin 2) = 0 ∧ win2_2.index t (1 : Fin 2) = 0 :=
  (by decide +kernel : ∀ t : Fin grid2.N, _)
theorem idx_3 : ∀ t : Fin cfg2.N, win2_3.index t (0 : Fin 2) = 0 ∧ win2_3.index t (1 : Fin 2) = 0 :=
  (by decide +kernel : ∀ t : Fin grid2.N, _)
theorem idx_4 : ∀ t : Fin cfg2.N, win2_4.index t (0 : Fin 2) = 0 ∧ win2_4.index t (1 : Fin 2) = 0 :=
  (by decide +kernel : ∀ t : Fin grid2.N, _)
theorem idx_5 : ∀ t : Fin cfg2.N, win2_5.index t (0 : Fin 2) = 0 ∧ win2_5.index t (1 : Fin 2) = 0 :=
  (by decide +kernel : ∀ t : Fin grid2.N, _)
theorem idx_6 : ∀ t : Fin cfg2.N, win2_6.index t (0 : Fin 2) = 0 ∧ win2_6.index t (1 : Fin 2) = 0 :=
  (by decide +kernel : ∀ t : Fin grid2.N, _)
theorem idx_7 : ∀ t : Fin cfg2.N, win2_7.index t (0 : Fin 2) = t.val ∧ win2_7.index t (1 : Fin 2) = 0 :=
  (by decide +kernel : ∀ t : Fin grid2.N, _)
theorem idx_8 : ∀ t : Fin cfg2.N,
    win2_8.index t (0 : Fin 3) = t.val ∧ win2_8.index t (1 : Fin 3) = 0 ∧ win2_8.index t (2 : Fin 3) = 0 :=
  (by decide +kernel : ∀ t : Fin grid2.N, _)
theorem idx_9 : ∀ t : Fin cfg2.N,
    win2_9.index t (0 : Fin 3) = t.val ∧ win2_9.index t (1 : Fin 3) = 0 ∧ win2_9.index t (2 : Fin 3) = 0 :=
  (by decide +kernel : ∀ t : Fin grid2.N, _)

/-- A grid point as a tile number. -/
abbrev tile (t : Fin cfg2.N) : Fin 5 := Fin.cast N_2 t
/-- A tile number as a grid point. -/
abbrev pt (n : Nat) (h : n < 5) : Fin cfg2.N := ⟨n, by rw [show cfg2.N = 5 from N_2]; exact h⟩

/-! ## The input windows' blocks, read off the whole arrays -/

/-- The row-block window at point `t` holds the rows of tile `t`. -/
theorem iblk_0_apply (c : Dev nD) (t : Fin cfg2.N) (r : Fin 4000) (j : Fin 128) :
    ((iblk2 (F := Ideal) V c 0 t : FVec Ideal S4000x128 .bf16) (ix2 r j) : EReal)
      = M.at2 (V c (Pipeline.arrRef spec2 0)) (M.tileRow (tile t) r) j := by
  obtain ⟨e0, e1⟩ := idx_0 t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 4000 + 1 * r.val = 4000 * t.val + r.val; omega
  | ⟨1, _⟩ => show win2_0.index t (1 : Fin 2) * 128 + 1 * j.val = j.val; omega

/-- The column means' window holds the whole row at every point. -/
theorem iblk_1_apply (c : Dev nD) (t : Fin cfg2.N) (j : Fin 128) :
    ((iblk2 (F := Ideal) V c 1 t : FVec Ideal S1x128 .f32) (ix2 0 j) : EReal) = M.at2 (V c (Pipeline.arrRef spec2 1)) 0 j := by
  obtain ⟨e0, e1⟩ := idx_1 t
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 1 + 1 * 0 = 0; omega
  | ⟨1, _⟩ => show win2_1.index t (1 : Fin 2) * 128 + 1 * j.val = j.val; omega

/-- The column variances' window holds the whole row at every point. -/
theorem iblk_2_apply (c : Dev nD) (t : Fin cfg2.N) (j : Fin 128) :
    ((iblk2 (F := Ideal) V c 2 t : FVec Ideal S1x128 .f32) (ix2 0 j) : EReal) = M.at2 (V c (Pipeline.arrRef spec2 2)) 0 j := by
  obtain ⟨e0, e1⟩ := idx_2 t
  unfold iblk2
  rw [View.read_apply]
  show V c (Pipeline.arrRef spec2 2) _ = V c (Pipeline.arrRef spec2 2) _
  congr 1
  funext a
  apply Fin.ext
  match a with
  | ⟨0, _⟩ => show win2_2.index t (0 : Fin 2) * 1 + 1 * 0 = 0; omega
  | ⟨1, _⟩ => show win2_2.index t (1 : Fin 2) * 128 + 1 * j.val = j.val; omega

/-- The scale's window holds the whole row at every point. -/
theorem iblk_3_apply (c : Dev nD) (t : Fin cfg2.N) (j : Fin 128) :
    ((iblk2 (F := Ideal) V c 3 t : FVec Ideal S1x128 .f32) (ix2 0 j) : EReal) = M.at2 (V c (Pipeline.arrRef spec2 3)) 0 j := by
  obtain ⟨e0, e1⟩ := idx_3 t
  unfold iblk2
  rw [View.read_apply]
  show V c (Pipeline.arrRef spec2 3) _ = V c (Pipeline.arrRef spec2 3) _
  congr 1
  funext a
  apply Fin.ext
  match a with
  | ⟨0, _⟩ => show win2_3.index t (0 : Fin 2) * 1 + 1 * 0 = 0; omega
  | ⟨1, _⟩ => show win2_3.index t (1 : Fin 2) * 128 + 1 * j.val = j.val; omega

/-- The shift's window holds the whole row at every point. -/
theorem iblk_4_apply (c : Dev nD) (t : Fin cfg2.N) (j : Fin 128) :
    ((iblk2 (F := Ideal) V c 4 t : FVec Ideal S1x128 .f32) (ix2 0 j) : EReal) = M.at2 (V c (Pipeline.arrRef spec2 4)) 0 j := by
  obtain ⟨e0, e1⟩ := idx_4 t
  unfold iblk2
  rw [View.read_apply]
  show V c (Pipeline.arrRef spec2 4) _ = V c (Pipeline.arrRef spec2 4) _
  congr 1
  funext a
  apply Fin.ext
  match a with
  | ⟨0, _⟩ => show win2_4.index t (0 : Fin 2) * 1 + 1 * 0 = 0; omega
  | ⟨1, _⟩ => show win2_4.index t (1 : Fin 2) * 128 + 1 * j.val = j.val; omega

/-- The weight's window holds the whole weight at every point. -/
theorem iblk_5_apply (c : Dev nD) (t : Fin cfg2.N) (k j : Fin 128) :
    ((iblk2 (F := Ideal) V c 5 t : FVec Ideal S128x128 .f32) (ix2 k j) : EReal) = M.at2 (V c (Pipeline.arrRef spec2 5)) k j := by
  obtain ⟨e0, e1⟩ := idx_5 t
  unfold iblk2
  rw [View.read_apply]
  show V c (Pipeline.arrRef spec2 5) _ = V c (Pipeline.arrRef spec2 5) _
  congr 1
  funext a
  apply Fin.ext
  match a with
  | ⟨0, _⟩ => show win2_5.index t (0 : Fin 2) * 128 + 1 * k.val = k.val; omega
  | ⟨1, _⟩ => show win2_5.index t (1 : Fin 2) * 128 + 1 * j.val = j.val; omega

/-- The bias's window holds the whole row at every point. -/
theorem iblk_6_apply (c : Dev nD) (t : Fin cfg2.N) (j : Fin 128) :
    ((iblk2 (F := Ideal) V c 6 t : FVec Ideal S1x128 .f32) (ix2 0 j) : EReal) = M.at2 (V c (Pipeline.arrRef spec2 6)) 0 j := by
  obtain ⟨e0, e1⟩ := idx_6 t
  unfold iblk2
  rw [View.read_apply]
  show V c (Pipeline.arrRef spec2 6) _ = V c (Pipeline.arrRef spec2 6) _
  congr 1
  funext a
  apply Fin.ext
  match a with
  | ⟨0, _⟩ => show win2_6.index t (0 : Fin 2) * 1 + 1 * 0 = 0; omega
  | ⟨1, _⟩ => show win2_6.index t (1 : Fin 2) * 128 + 1 * j.val = j.val; omega

/-! ## The first output: the stored blocks tile the whole second linear map -/

/-- What point `t` writes back to the first output is block `t` of the whole value. -/
theorem flushed_7_eq (c : Dev nD) (t : Fin cfg2.N) :
    (dat2 (F := Ideal) V c).flushed 7 t = ((cfg2.win 7).blk t).view.read (Elt Ideal) (M.mk2 (val V c)) := by
  show (cfg2.win 7).cut (grid2.coords t) ((dat2 (F := Ideal) V c).after 7 t) = _
  rw [after2_7]
  unfold out2_7
  rw [View.canon_unit_zero hz2]
  simp only [View.ld_unit_zero (S := S4000x128) hz2, View.ld_unit_zero (S := S1x128) hz2,
    View.ld_unit_zero (S := S128x128) hz2]
  obtain ⟨e0, e1⟩ := idx_7 t
  funext y
  show (Gen.k2_pay4 (F := Ideal) (iblk2 V c 0 t) (iblk2 V c 2 t) (iblk2 V c 1 t) (iblk2 V c 3 t) (iblk2 V c 4 t) (iblk2 V c 5 t) (iblk2 V c 6 t) y : EReal)
      = M.mk2 (val V c) (((cfg2.win 7).blk t).view.emb y)
  refine (pay4_blk _ _ _ _ _ _ _ (M.at2 (V c (Pipeline.arrRef spec2 0)))
      (fun j => M.at2 (V c (Pipeline.arrRef spec2 1)) 0 j) (fun j => M.at2 (V c (Pipeline.arrRef spec2 2)) 0 j)
      (fun j => M.at2 (V c (Pipeline.arrRef spec2 3)) 0 j) (fun j => M.at2 (V c (Pipeline.arrRef spec2 4)) 0 j)
      (M.at2 (V c (Pipeline.arrRef spec2 5))) (fun j => M.at2 (V c (Pipeline.arrRef spec2 6)) 0 j) (tile t)
      (iblk_0_apply V c t) (iblk_2_apply V c t) (iblk_1_apply V c t) (iblk_3_apply V c t) (iblk_4_apply V c t)
      (iblk_5_apply V c t) (iblk_6_apply V c t) y).trans ?_
  show val V c (M.tileRow (tile t) (y 0)) (y 1)
      = val V c ((((cfg2.win 7).blk t).view.emb y) 0) ((((cfg2.win 7).blk t).view.emb y) 1)
  refine congrArg₂ (val V c) (Fin.ext ?_) (Fin.ext ?_)
  · show 4000 * t.val + (y 0).val = win2_7.index t (0 : Fin 2) * 4000 + 1 * (y 0).val; omega
  · show (y 1).val = win2_7.index t (1 : Fin 2) * 128 + 1 * (y 1).val; omega

/-- An index of the array is in point `t`'s block iff each coordinate is in the block's range on its axis. -/
theorem mem_blk_7 (t : Fin cfg2.N) (i : S20000x128.Idx) :
    i ∈ ((cfg2.win 7).blk t).view.set ↔ ∀ a : Fin 2, win2_7.index t a * S4000x128.size a ≤ (i a).val
      ∧ (i a).val < win2_7.index t a * S4000x128.size a + S4000x128.size a := by
  show i ∈ ((View.whole (Pipeline.arrRef spec2 7)).slice (win2_7.rect t)).set ↔ _
  rw [View.set_slice_whole, Rect.mem_set_unit]
  exact Iff.rfl

/-- Row `r` is covered by point `r / 4000`. -/
theorem cover_7 (i : S20000x128.Idx) :
    ∃ t : Fin cfg2.N, (cfg2.win 7).flush t = true ∧ i ∈ ((cfg2.win 7).blk t).view.set := by
  have hi0 : (i 0).val < 20000 := (i 0).isLt
  have hi1 : (i 1).val < 128 := (i 1).isLt
  have hq : (i 0).val / 4000 < 5 := by omega
  refine ⟨pt ((i 0).val / 4000) hq, flush2_7 _, ?_⟩
  obtain ⟨e0, e1⟩ := idx_7 (pt ((i 0).val / 4000) hq)
  have e0' : win2_7.index (pt ((i 0).val / 4000) hq) (0 : Fin 2) = (i 0).val / 4000 := e0
  rw [mem_blk_7]
  intro a
  match a with
  | ⟨0, _⟩ =>
    show win2_7.index (pt ((i 0).val / 4000) hq) (0 : Fin 2) * 4000 ≤ (i 0).val
      ∧ (i 0).val < win2_7.index (pt ((i 0).val / 4000) hq) (0 : Fin 2) * 4000 + 4000
    omega
  | ⟨1, _⟩ =>
    show win2_7.index (pt ((i 0).val / 4000) hq) (1 : Fin 2) * 128 ≤ (i 1).val
      ∧ (i 1).val < win2_7.index (pt ((i 0).val / 4000) hq) (1 : Fin 2) * 128 + 128
    omega

/-! ## The second and third outputs: the stored blocks tile the per-tile sums -/

/-- What point `t` writes back to the column sums output is block `t` of the per-tile column sums. -/
theorem flushed_8_eq (c : Dev nD) (t : Fin cfg2.N) :
    (dat2 (F := Ideal) V c).flushed 8 t = ((cfg2.win 8).blk t).view.read (Elt Ideal) (M.mk3 (M.sumT (val V c))) := by
  show (cfg2.win 8).cut (grid2.coords t) ((dat2 (F := Ideal) V c).after 8 t) = _
  rw [after2_8]
  unfold out2_8
  rw [View.canon_unit_zero hz3]
  simp only [View.ld_unit_zero (S := S4000x128) hz2, View.ld_unit_zero (S := S1x128) hz2,
    View.ld_unit_zero (S := S128x128) hz2]
  obtain ⟨e0, e1, e2⟩ := idx_8 t
  funext y
  have hy0 : (y 0).val < 1 := (y 0).isLt
  show (Gen.k2_pay1 (F := Ideal) (Gen.k2_pay5 (F := Ideal) (iblk2 V c 0 t) (iblk2 V c 2 t) (iblk2 V c 1 t) (iblk2 V c 3 t) (iblk2 V c 4 t) (iblk2 V c 5 t) (iblk2 V c 6 t)) y : EReal)
      = M.mk3 (M.sumT (val V c)) (((cfg2.win 8).blk t).view.emb y)
  refine (pay1_blk _ _ _ _ _ _ _ (M.at2 (V c (Pipeline.arrRef spec2 0)))
      (fun j => M.at2 (V c (Pipeline.arrRef spec2 1)) 0 j) (fun j => M.at2 (V c (Pipeline.arrRef spec2 2)) 0 j)
      (fun j => M.at2 (V c (Pipeline.arrRef spec2 3)) 0 j) (fun j => M.at2 (V c (Pipeline.arrRef spec2 4)) 0 j)
      (M.at2 (V c (Pipeline.arrRef spec2 5))) (fun j => M.at2 (V c (Pipeline.arrRef spec2 6)) 0 j) (tile t)
      (iblk_0_apply V c t) (iblk_2_apply V c t) (iblk_1_apply V c t) (iblk_3_apply V c t) (iblk_4_apply V c t)
      (iblk_5_apply V c t) (iblk_6_apply V c t) y).trans ?_
  show M.sumT (val V c) (tile t) (y 1) (y 2)
      = M.sumT (val V c) ((((cfg2.win 8).blk t).view.emb y) 0) ((((cfg2.win 8).blk t).view.emb y) 1)
          ((((cfg2.win 8).blk t).view.emb y) 2)
  refine congr3 (M.sumT (val V c)) (Fin.ext ?_) (Fin.ext ?_) (Fin.ext ?_)
  · show t.val = win2_8.index t (0 : Fin 3) * 1 + 1 * (y 0).val; omega
  · show (y 1).val = win2_8.index t (1 : Fin 3) * 8 + 1 * (y 1).val; omega
  · show (y 2).val = win2_8.index t (2 : Fin 3) * 128 + 1 * (y 2).val; omega

/-- An index of the array is in point `t`'s block iff each coordinate is in the block's range on its axis. -/
theorem mem_blk_8 (t : Fin cfg2.N) (i : S5x8x128.Idx) :
    i ∈ ((cfg2.win 8).blk t).view.set ↔ ∀ a : Fin 3, win2_8.index t a * S1x8x128.size a ≤ (i a).val
      ∧ (i a).val < win2_8.index t a * S1x8x128.size a + S1x8x128.size a := by
  show i ∈ ((View.whole (Pipeline.arrRef spec2 8)).slice (win2_8.rect t)).set ↔ _
  rw [View.set_slice_whole, Rect.mem_set_unit]
  exact Iff.rfl

/-- Tile `p`'s eight rows are covered by point `p`. -/
theorem cover_8 (i : S5x8x128.Idx) :
    ∃ t : Fin cfg2.N, (cfg2.win 8).flush t = true ∧ i ∈ ((cfg2.win 8).blk t).view.set := by
  have hi0 : (i 0).val < 5 := (i 0).isLt
  have hi1 : (i 1).val < 8 := (i 1).isLt
  have hi2 : (i 2).val < 128 := (i 2).isLt
  refine ⟨pt (i 0).val hi0, flush2_8 _, ?_⟩
  obtain ⟨e0, e1, e2⟩ := idx_8 (pt (i 0).val hi0)
  have e0' : win2_8.index (pt (i 0).val hi0) (0 : Fin 3) = (i 0).val := e0
  rw [mem_blk_8]
  intro a
  match a with
  | ⟨0, _⟩ =>
    show win2_8.index (pt (i 0).val hi0) (0 : Fin 3) * 1 ≤ (i 0).val
      ∧ (i 0).val < win2_8.index (pt (i 0).val hi0) (0 : Fin 3) * 1 + 1
    omega
  | ⟨1, _⟩ =>
    show win2_8.index (pt (i 0).val hi0) (1 : Fin 3) * 8 ≤ (i 1).val
      ∧ (i 1).val < win2_8.index (pt (i 0).val hi0) (1 : Fin 3) * 8 + 8
    omega
  | ⟨2, _⟩ =>
    show win2_8.index (pt (i 0).val hi0) (2 : Fin 3) * 128 ≤ (i 2).val
      ∧ (i 2).val < win2_8.index (pt (i 0).val hi0) (2 : Fin 3) * 128 + 128
    omega

/-- What point `t` writes back to the column sums of squares output is block `t` of the per-tile column sums of squares. -/
theorem flushed_9_eq (c : Dev nD) (t : Fin cfg2.N) :
    (dat2 (F := Ideal) V c).flushed 9 t = ((cfg2.win 9).blk t).view.read (Elt Ideal) (M.mk3 (M.sumsqT (val V c))) := by
  show (cfg2.win 9).cut (grid2.coords t) ((dat2 (F := Ideal) V c).after 9 t) = _
  rw [after2_9]
  unfold out2_9
  rw [View.canon_unit_zero hz3]
  simp only [View.ld_unit_zero (S := S4000x128) hz2, View.ld_unit_zero (S := S1x128) hz2,
    View.ld_unit_zero (S := S128x128) hz2]
  obtain ⟨e0, e1, e2⟩ := idx_9 t
  funext y
  have hy0 : (y 0).val < 1 := (y 0).isLt
  show (Gen.k2_pay2 (F := Ideal) (Gen.k2_pay3 (F := Ideal) (iblk2 V c 0 t) (iblk2 V c 2 t) (iblk2 V c 1 t) (iblk2 V c 3 t) (iblk2 V c 4 t) (iblk2 V c 5 t) (iblk2 V c 6 t)) y : EReal)
      = M.mk3 (M.sumsqT (val V c)) (((cfg2.win 9).blk t).view.emb y)
  refine (pay2_blk _ _ _ _ _ _ _ (M.at2 (V c (Pipeline.arrRef spec2 0)))
      (fun j => M.at2 (V c (Pipeline.arrRef spec2 1)) 0 j) (fun j => M.at2 (V c (Pipeline.arrRef spec2 2)) 0 j)
      (fun j => M.at2 (V c (Pipeline.arrRef spec2 3)) 0 j) (fun j => M.at2 (V c (Pipeline.arrRef spec2 4)) 0 j)
      (M.at2 (V c (Pipeline.arrRef spec2 5))) (fun j => M.at2 (V c (Pipeline.arrRef spec2 6)) 0 j) (tile t)
      (iblk_0_apply V c t) (iblk_2_apply V c t) (iblk_1_apply V c t) (iblk_3_apply V c t) (iblk_4_apply V c t)
      (iblk_5_apply V c t) (iblk_6_apply V c t) y).trans ?_
  show M.sumsqT (val V c) (tile t) (y 1) (y 2)
      = M.sumsqT (val V c) ((((cfg2.win 9).blk t).view.emb y) 0) ((((cfg2.win 9).blk t).view.emb y) 1)
          ((((cfg2.win 9).blk t).view.emb y) 2)
  refine congr3 (M.sumsqT (val V c)) (Fin.ext ?_) (Fin.ext ?_) (Fin.ext ?_)
  · show t.val = win2_9.index t (0 : Fin 3) * 1 + 1 * (y 0).val; omega
  · show (y 1).val = win2_9.index t (1 : Fin 3) * 8 + 1 * (y 1).val; omega
  · show (y 2).val = win2_9.index t (2 : Fin 3) * 128 + 1 * (y 2).val; omega

/-- An index of the array is in point `t`'s block iff each coordinate is in the block's range on its axis. -/
theorem mem_blk_9 (t : Fin cfg2.N) (i : S5x8x128.Idx) :
    i ∈ ((cfg2.win 9).blk t).view.set ↔ ∀ a : Fin 3, win2_9.index t a * S1x8x128.size a ≤ (i a).val
      ∧ (i a).val < win2_9.index t a * S1x8x128.size a + S1x8x128.size a := by
  show i ∈ ((View.whole (Pipeline.arrRef spec2 9)).slice (win2_9.rect t)).set ↔ _
  rw [View.set_slice_whole, Rect.mem_set_unit]
  exact Iff.rfl

/-- Tile `p`'s eight rows are covered by point `p`. -/
theorem cover_9 (i : S5x8x128.Idx) :
    ∃ t : Fin cfg2.N, (cfg2.win 9).flush t = true ∧ i ∈ ((cfg2.win 9).blk t).view.set := by
  have hi0 : (i 0).val < 5 := (i 0).isLt
  have hi1 : (i 1).val < 8 := (i 1).isLt
  have hi2 : (i 2).val < 128 := (i 2).isLt
  refine ⟨pt (i 0).val hi0, flush2_9 _, ?_⟩
  obtain ⟨e0, e1, e2⟩ := idx_9 (pt (i 0).val hi0)
  have e0' : win2_9.index (pt (i 0).val hi0) (0 : Fin 3) = (i 0).val := e0
  rw [mem_blk_9]
  intro a
  match a with
  | ⟨0, _⟩ =>
    show win2_9.index (pt (i 0).val hi0) (0 : Fin 3) * 1 ≤ (i 0).val
      ∧ (i 0).val < win2_9.index (pt (i 0).val hi0) (0 : Fin 3) * 1 + 1
    omega
  | ⟨1, _⟩ =>
    show win2_9.index (pt (i 0).val hi0) (1 : Fin 3) * 8 ≤ (i 1).val
      ∧ (i 1).val < win2_9.index (pt (i 0).val hi0) (1 : Fin 3) * 8 + 8
    omega
  | ⟨2, _⟩ =>
    show win2_9.index (pt (i 0).val hi0) (2 : Fin 3) * 128 ≤ (i 2).val
      ∧ (i 2).val < win2_9.index (pt (i 0).val hi0) (2 : Fin 3) * 128 + 128
    omega

/-! ## The three output arrays when the region ends -/

/-- The first output is the whole second linear map. -/
theorem arr2_7 (c : Dev nD) : (dat2 (F := Ideal) V c).arrAt 7 cfg2.N = M.mk2 (val V c) :=
  (dat2 (F := Ideal) V c).arrAt_eq_of_cover 7 (M.mk2 (val V c)) (fun t _ => flushed_7_eq V c t) cover_7

/-- The second output is its per-tile column sums, one copy in each of eight rows. -/
theorem arr2_8 (c : Dev nD) : (dat2 (F := Ideal) V c).arrAt 8 cfg2.N = M.mk3 (M.sumT (val V c)) :=
  (dat2 (F := Ideal) V c).arrAt_eq_of_cover 8 (M.mk3 (M.sumT (val V c))) (fun t _ => flushed_8_eq V c t) cover_8

/-- The third output is its per-tile column sums of squares, one copy in each of eight rows. -/
theorem arr2_9 (c : Dev nD) : (dat2 (F := Ideal) V c).arrAt 9 cfg2.N = M.mk3 (M.sumsqT (val V c)) :=
  (dat2 (F := Ideal) V c).arrAt_eq_of_cover 9 (M.mk3 (M.sumsqT (val V c))) (fun t _ => flushed_9_eq V c t) cover_9

end Cert.RegB

end
-- ==== Proof.RegC.lean ====
/-
  Region 3 (layer 0's normalise-and-rectify kernel with the tile sums of its result), read as values.

  On a block of 4000 rows of its input array and the four parameter rows (mean, variance, scale, shift) the body stores
  `max ((a − mean) · rsqrt (var + ε) · g + b) 0` and, each replicated over eight rows, that block's column sums and
  column sums of squares. So after the region its three output arrays are `M.bnrelu` of the input arrays, and the
  tiled sums `M.sumT` and `M.sumsqT` of that.
-/
import proofs.«416875_j80633716015165_3_alg».proof.Proof.FrameKI
import proofs.«416875_j80633716015165_3_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.TcCoe Idealize.ShloMosaic.ValueIdx Idealize.SL.Sem
open Idealize.ShloMosaic.Pipeline (Dat)
open Cert.KernelIdeal Cert.KernelIdeal.Gen

namespace Cert.RegC

/-! ## The payloads at an index -/

/-- One entry normalised and rectified. -/
abbrev nrm (a mean var g b : EReal) : EReal := max ((a - mean) * Ideal.rsqrt (var + M.cEps) * g + b) M.c0

theorem nrm_congr {a a' m m' v v' g g' b b' : EReal} (ha : a = a') (hm : m = m') (hv : v = v') (hg : g = g') (hb : b = b') :
    nrm a m v g b = nrm a' m' v' g' b' := by rw [ha, hm, hv, hg, hb]

/-- The normalised and rectified value at row `p`, column `q` of a block: the block's entry minus the mean's, times the
    inverse root of the variance's plus the small constant, times the scale's, plus the shift's, cut below at zero. -/
theorem pay1_apply (v0 : Vec Ideal S4000x128 .bf16) (v3 v8 v14 v18 : Vec Ideal S1x128 .f32) (p : Fin 4000) (q : Fin 128) :
    k3_pay1 (F := Ideal) v0 v3 v8 v14 v18 (ix2 p q)
      = nrm (v0 (ix2 p q)) (v8 (ix2 (0 : Fin 1) q)) (v3 (ix2 (0 : Fin 1) q)) (v14 (ix2 (0 : Fin 1) q)) (v18 (ix2 (0 : Fin 1) q)) := by
  unfold k3_pay1
  simp only [shapeCast_self, maximumf_apply, addf_apply, mulf_apply, subf_apply, broadcastTo_1b_ab_apply, extf_apply]
  rfl

/-- The stored block is that value (the narrowing is the identity on ideal values). -/
theorem pay2_apply (v0 : Vec Ideal S4000x128 .bf16) (v3 v8 v14 v18 : Vec Ideal S1x128 .f32) (p : Fin 4000) (q : Fin 128) :
    k3_pay2 (F := Ideal) v0 v3 v8 v14 v18 (ix2 p q) = k3_pay1 (F := Ideal) v0 v3 v8 v14 v18 (ix2 p q) := by
  unfold k3_pay2
  rfl

/-- A `[1, 1, b]` array broadcast to `[1, a, b]` reads, at `(u, s, q)`, the operand's one row at `q`. -/
theorem broadcastTo_11b_1ab_apply {α : Type} {a b : ℕ} (v : (⟨3, ![1, 1, b]⟩ : Shape).Idx → α)
    (h : (⟨3, ![1, 1, b]⟩ : Shape).Broadcasts ⟨3, ![1, a, b]⟩) (u : Fin 1) (s : Fin a) (q : Fin b) :
    broadcastTo ⟨3, ![1, a, b]⟩ v h (ix3 u s q) = v (ix3 (0 : Fin 1) (0 : Fin 1) q) := by
  refine broadcastTo_apply v h (ix3 u s q) (ix3 (0 : Fin 1) (0 : Fin 1) q) fun ax => ?_
  match ax with
  | ⟨0, _⟩ => rfl
  | ⟨1, _⟩ => rfl
  | ⟨2, _⟩ =>
    show q.val = if b = 1 then 0 else q.val
    split
    · have := q.isLt; omega
    · rfl

/-- The sum over the rows of a `[4000, 128]` block, read at column `q`. -/
theorem colSum_apply (src : FVec Ideal S4000x128 .f32) (h : S4000x128.Reduces [0] S128) (hφ : FKind.Formats .f32)
    (hacc : (0x00000000#32 : BitVec 32) = FKind.add.neutral .f32 hφ) (q : Fin 128) :
    multiReduction .add [0] S128 src 0x00000000#32 h hφ hacc (ix1 q) = ∑ r : Fin 4000, src (ix2 r q) := by
  refine (Ideal.multiReduction_add_single src 0x00000000#32 h hφ hacc (ix1 q)).trans ?_
  refine Finset.sum_congr rfl fun r _ => congrArg src ?_
  funext a
  apply Fin.ext
  match a with
  | ⟨0, _⟩ => rfl
  | ⟨1, _⟩ => rfl

/-- The column sums' block: every one of its eight rows holds, at column `q`, the sum over the block's rows. -/
theorem pay3_apply (v0 : Vec Ideal S4000x128 .bf16) (v3 v8 v14 v18 : Vec Ideal S1x128 .f32) (u : Fin 1) (s : Fin 8) (q : Fin 128) :
    k3_pay3 (F := Ideal) v0 v3 v8 v14 v18 (ix3 u s q) = ∑ r : Fin 4000, k3_pay1 (F := Ideal) v0 v3 v8 v14 v18 (ix2 r q) := by
  unfold k3_pay3
  simp only [shapeCast_self]
  refine (broadcastTo_11b_1ab_apply _ _ u s q).trans ?_
  refine (shapeCast_ab_1ab_apply _ _ (0 : Fin 1) (0 : Fin 1) q).trans ?_
  refine (shapeCast_a_1a_apply _ _ (0 : Fin 1) q).trans ?_
  exact colSum_apply _ _ _ _ q

/-- The column sums of squares' block, likewise. -/
theorem pay4_apply (v0 : Vec Ideal S4000x128 .bf16) (v3 v8 v14 v18 : Vec Ideal S1x128 .f32) (u : Fin 1) (s : Fin 8) (q : Fin 128) :
    k3_pay4 (F := Ideal) v0 v3 v8 v14 v18 (ix3 u s q)
      = ∑ r : Fin 4000, k3_pay1 (F := Ideal) v0 v3 v8 v14 v18 (ix2 r q) * k3_pay1 (F := Ideal) v0 v3 v8 v14 v18 (ix2 r q) := by
  unfold k3_pay4
  simp only [shapeCast_self]
  refine (broadcastTo_11b_1ab_apply _ _ u s q).trans ?_
  refine (shapeCast_ab_1ab_apply _ _ (0 : Fin 1) (0 : Fin 1) q).trans ?_
  refine (shapeCast_a_1a_apply _ _ (0 : Fin 1) q).trans ?_
  exact colSum_apply _ _ _ _ q

/-! ## Each output window's staging buffer after the body, at an index -/

theorem hzero2 : (![0, 0] : Fin 2 → Nat) = fun _ => 0 := funext fun a => by fin_cases a <;> rfl
theorem hzero3 : (![0, 0, 0] : Fin 3 → Nat) = fun _ => 0 := funext fun a => by fin_cases a <;> rfl

/-- A block's normalised and rectified value at row `r`, column `q`, from the input block and the four parameter rows. -/
abbrev blkZ (x0 : Vec Ideal S4000x128 .bf16) (x1 x2 x3 x4 : Vec Ideal S1x128 .f32) (r : Fin 4000) (q : Fin 128) : EReal :=
  nrm (x0 (ix2 r q)) (x1 (ix2 (0 : Fin 1) q)) (x2 (ix2 (0 : Fin 1) q)) (x3 (ix2 (0 : Fin 1) q)) (x4 (ix2 (0 : Fin 1) q))

/-- The first output's buffer holds the block's normalised and rectified values. -/
theorem outZ_apply (x0 : Vec Ideal S4000x128 .bf16) (x1 x2 x3 x4 : Vec Ideal S1x128 .f32) (p : Fin 4000) (q : Fin 128) :
    out3_5 (F := Ideal) x0 x1 x2 x3 x4 (ix2 p q) = blkZ x0 x1 x2 x3 x4 p q := by
  unfold out3_5
  rw [View.canon_unit_zero hzero2]
  simp only [View.ld_unit_zero (S := S4000x128) hzero2, View.ld_unit_zero (S := S1x128) hzero2]
  exact (pay2_apply _ _ _ _ _ p q).trans (pay1_apply _ _ _ _ _ p q)

/-- The second output's buffer holds, in each of its eight rows, the column sums of those values. -/
theorem outSum_apply (x0 : Vec Ideal S4000x128 .bf16) (x1 x2 x3 x4 : Vec Ideal S1x128 .f32) (u : Fin 1) (s : Fin 8) (q : Fin 128) :
    out3_6 (F := Ideal) x0 x1 x2 x3 x4 (ix3 u s q) = ∑ r : Fin 4000, blkZ x0 x1 x2 x3 x4 r q := by
  unfold out3_6
  rw [View.canon_unit_zero hzero3]
  simp only [View.ld_unit_zero (S := S4000x128) hzero2, View.ld_unit_zero (S := S1x128) hzero2]
  refine (pay3_apply _ _ _ _ _ u s q).trans ?_
  exact Finset.sum_congr rfl fun r _ => pay1_apply _ _ _ _ _ r q

/-- The third output's buffer holds, in each of its eight rows, the column sums of their squares. -/
theorem outSq_apply (x0 : Vec Ideal S4000x128 .bf16) (x1 x2 x3 x4 : Vec Ideal S1x128 .f32) (u : Fin 1) (s : Fin 8) (q : Fin 128) :
    out3_7 (F := Ideal) x0 x1 x2 x3 x4 (ix3 u s q) = ∑ r : Fin 4000, blkZ x0 x1 x2 x3 x4 r q * blkZ x0 x1 x2 x3 x4 r q := by
  unfold out3_7
  rw [View.canon_unit_zero hzero3]
  simp only [View.ld_unit_zero (S := S4000x128) hzero2, View.ld_unit_zero (S := S1x128) hzero2]
  refine (pay4_apply _ _ _ _ _ u s q).trans ?_
  exact Finset.sum_congr rfl fun r _ => by rw [pay1_apply]

/-! ## The index maps, decided once over the grid -/

theorem idxIn : ∀ t : Fin cfg3.N, win3_0.index t (0 : Fin 2) = t.val ∧ win3_0.index t (1 : Fin 2) = 0 :=
  (by decide +kernel : ∀ t : Fin grid3.N, _)
theorem idxMean : ∀ t : Fin cfg3.N, win3_1.index t (0 : Fin 2) = 0 ∧ win3_1.index t (1 : Fin 2) = 0 :=
  (by decide +kernel : ∀ t : Fin grid3.N, _)
theorem idxVar : ∀ t : Fin cfg3.N, win3_2.index t (0 : Fin 2) = 0 ∧ win3_2.index t (1 : Fin 2) = 0 :=
  (by decide +kernel : ∀ t : Fin grid3.N, _)
theorem idxScale : ∀ t : Fin cfg3.N, win3_3.index t (0 : Fin 2) = 0 ∧ win3_3.index t (1 : Fin 2) = 0 :=
  (by decide +kernel : ∀ t : Fin grid3.N, _)
theorem idxShift : ∀ t : Fin cfg3.N, win3_4.index t (0 : Fin 2) = 0 ∧ win3_4.index t (1 : Fin 2) = 0 :=
  (by decide +kernel : ∀ t : Fin grid3.N, _)
theorem idxZ : ∀ t : Fin cfg3.N, win3_5.index t (0 : Fin 2) = t.val ∧ win3_5.index t (1 : Fin 2) = 0 :=
  (by decide +kernel : ∀ t : Fin grid3.N, _)
theorem idxSum : ∀ t : Fin cfg3.N, win3_6.index t (0 : Fin 3) = t.val ∧ win3_6.index t (1 : Fin 3) = 0 ∧ win3_6.index t (2 : Fin 3) = 0 :=
  (by decide +kernel : ∀ t : Fin grid3.N, _)
theorem idxSq : ∀ t : Fin cfg3.N, win3_7.index t (0 : Fin 3) = t.val ∧ win3_7.index t (1 : Fin 3) = 0 ∧ win3_7.index t (2 : Fin 3) = 0 :=
  (by decide +kernel : ∀ t : Fin grid3.N, _)

theorem lt_five (t : Fin cfg3.N) : t.val < 5 := Nat.lt_of_lt_of_eq t.isLt N_3

/-! ## Where each window's block sits in its array -/

/-- Row `r`, column `q` of the input's block at point `t` is row `4000 t + r`, column `q` of the array. -/
theorem embIn (t : Fin cfg3.N) (r : Fin 4000) (q : Fin 128) :
    ((cfg3.win 0).blk t).view.emb (ix2 r q) = ix2 (M.tileRow ⟨t.val, lt_five t⟩ r) q := by
  obtain ⟨e0, e1⟩ := idxIn t
  funext a
  apply Fin.ext
  match a with
  | ⟨0, _⟩ => show win3_0.index t (0 : Fin 2) * 4000 + 1 * r.val = 4000 * t.val + r.val; rw [e0]; omega
  | ⟨1, _⟩ => show win3_0.index t (1 : Fin 2) * 128 + 1 * q.val = q.val; rw [e1]; omega

theorem embMean (t : Fin cfg3.N) (q : Fin 128) : ((cfg3.win 1).blk t).view.emb (ix2 (0 : Fin 1) q) = ix2 (0 : Fin 1) q := by
  obtain ⟨e0, e1⟩ := idxMean t
  funext a
  apply Fin.ext
  match a with
  | ⟨0, _⟩ => show win3_1.index t (0 : Fin 2) * 1 + 1 * 0 = 0; rw [e0]
  | ⟨1, _⟩ => show win3_1.index t (1 : Fin 2) * 128 + 1 * q.val = q.val; rw [e1]; omega

theorem embVar (t : Fin cfg3.N) (q : Fin 128) : ((cfg3.win 2).blk t).view.emb (ix2 (0 : Fin 1) q) = ix2 (0 : Fin 1) q := by
  obtain ⟨e0, e1⟩ := idxVar t
  funext a
  apply Fin.ext
  match a with
  | ⟨0, _⟩ => show win3_2.index t (0 : Fin 2) * 1 + 1 * 0 = 0; rw [e0]
  | ⟨1, _⟩ => show win3_2.index t (1 : Fin 2) * 128 + 1 * q.val = q.val; rw [e1]; omega

theorem embScale (t : Fin cfg3.N) (q : Fin 128) : ((cfg3.win 3).blk t).view.emb (ix2 (0 : Fin 1) q) = ix2 (0 : Fin 1) q := by
  obtain ⟨e0, e1⟩ := idxScale t
  funext a
  apply Fin.ext
  match a with
  | ⟨0, _⟩ => show win3_3.index t (0 : Fin 2) * 1 + 1 * 0 = 0; rw [e0]
  | ⟨1, _⟩ => show win3_3.index t (1 : Fin 2) * 128 + 1 * q.val = q.val; rw [e1]; omega

theorem embShift (t : Fin cfg3.N) (q : Fin 128) : ((cfg3.win 4).blk t).view.emb (ix2 (0 : Fin 1) q) = ix2 (0 : Fin 1) q := by
  obtain ⟨e0, e1⟩ := idxShift t
  funext a
  apply Fin.ext
  match a with
  | ⟨0, _⟩ => show win3_4.index t (0 : Fin 2) * 1 + 1 * 0 = 0; rw [e0]
  | ⟨1, _⟩ => show win3_4.index t (1 : Fin 2) * 128 + 1 * q.val = q.val; rw [e1]; omega

/-- Likewise the first output's block. -/
theorem embZ (t : Fin cfg3.N) (r : Fin 4000) (q : Fin 128) :
    ((cfg3.win 5).blk t).view.emb (ix2 r q) = ix2 (M.tileRow ⟨t.val, lt_five t⟩ r) q := by
  obtain ⟨e0, e1⟩ := idxZ t
  funext a
  apply Fin.ext
  match a with
  | ⟨0, _⟩ => show win3_5.index t (0 : Fin 2) * 4000 + 1 * r.val = 4000 * t.val + r.val; rw [e0]; omega
  | ⟨1, _⟩ => show win3_5.index t (1 : Fin 2) * 128 + 1 * q.val = q.val; rw [e1]; omega

/-- The sums' block at point `t` is tile `t` of the `[5, 8, 128]` array. -/
theorem embSum (t : Fin cfg3.N) (u : Fin 1) (s : Fin 8) (q : Fin 128) :
    ((cfg3.win 6).blk t).view.emb (ix3 u s q) = ix3 (⟨t.val, lt_five t⟩ : Fin 5) s q := by
  obtain ⟨e0, e1, e2⟩ := idxSum t
  have hu : u.val = 0 := by omega
  funext a
  apply Fin.ext
  match a with
  | ⟨0, _⟩ => show win3_6.index t (0 : Fin 3) * 1 + 1 * u.val = t.val; rw [e0, hu]; omega
  | ⟨1, _⟩ => show win3_6.index t (1 : Fin 3) * 8 + 1 * s.val = s.val; rw [e1]; omega
  | ⟨2, _⟩ => show win3_6.index t (2 : Fin 3) * 128 + 1 * q.val = q.val; rw [e2]; omega

theorem embSq (t : Fin cfg3.N) (u : Fin 1) (s : Fin 8) (q : Fin 128) :
    ((cfg3.win 7).blk t).view.emb (ix3 u s q) = ix3 (⟨t.val, lt_five t⟩ : Fin 5) s q := by
  obtain ⟨e0, e1, e2⟩ := idxSq t
  have hu : u.val = 0 := by omega
  funext a
  apply Fin.ext
  match a with
  | ⟨0, _⟩ => show win3_7.index t (0 : Fin 3) * 1 + 1 * u.val = t.val; rw [e0, hu]; omega
  | ⟨1, _⟩ => show win3_7.index t (1 : Fin 3) * 8 + 1 * s.val = s.val; rw [e1]; omega
  | ⟨2, _⟩ => show win3_7.index t (2 : Fin 3) * 128 + 1 * q.val = q.val; rw [e2]; omega

/-! ## The region's arrays -/

variable (V : (c : Dev nD) → (b : Ref sig .tc) → Buf (Elt Ideal) ((c : Thread nD τ).loc b))

/-- The normalised and rectified array, as a function of coordinates, of the arrays as the region finds them. -/
abbrev z (c : Dev nD) : Fin 20000 → Fin 128 → EReal :=
  M.bnrelu (M.at2 (V c (Pipeline.arrRef spec3 0))) (fun j => M.at2 (V c (Pipeline.arrRef spec3 1)) 0 j)
    (fun j => M.at2 (V c (Pipeline.arrRef spec3 2)) 0 j) (fun j => M.at2 (V c (Pipeline.arrRef spec3 3)) 0 j)
    (fun j => M.at2 (V c (Pipeline.arrRef spec3 4)) 0 j)

/-- The input windows' blocks at point `t` give, at row `r` and column `q`, the array's value at row `4000 t + r`. -/
theorem blkZ_iblk (c : Dev nD) (t : Fin cfg3.N) (r : Fin 4000) (q : Fin 128) :
    blkZ (iblk3 V c 0 t) (iblk3 V c 1 t) (iblk3 V c 2 t) (iblk3 V c 3 t) (iblk3 V c 4 t) r q
      = z V c (M.tileRow ⟨t.val, lt_five t⟩ r) q :=
  nrm_congr (congrArg (V c (Pipeline.arrRef spec3 0)) (embIn t r q))
    (congrArg (V c (Pipeline.arrRef spec3 1)) (embMean t q))
    (congrArg (V c (Pipeline.arrRef spec3 2)) (embVar t q))
    (congrArg (V c (Pipeline.arrRef spec3 3)) (embScale t q))
    (congrArg (V c (Pipeline.arrRef spec3 4)) (embShift t q))

/-! ## What each point writes back is its block of the whole-array function -/

theorem flushedZ_eq (c : Dev nD) (t : Fin cfg3.N) :
    (dat3 (F := Ideal) V c).flushed 5 t = ((cfg3.win 5).blk t).view.read (Elt Ideal) (M.mk2 (z V c)) := by
  show (cfg3.win 5).cut (grid3.coords t) ((dat3 V c).after 5 t) = _
  rw [after3_5]
  funext j
  obtain ⟨p, q, rfl⟩ : ∃ (p : Fin 4000) (q : Fin 128), j = ix2 p q := ⟨j 0, j 1, eq_ix2 j⟩
  show out3_5 (iblk3 V c 0 t) (iblk3 V c 1 t) (iblk3 V c 2 t) (iblk3 V c 3 t) (iblk3 V c 4 t) (ix2 p q)
    = M.mk2 (z V c) (((cfg3.win 5).blk t).view.emb (ix2 p q))
  refine (outZ_apply _ _ _ _ _ p q).trans ?_
  refine (blkZ_iblk V c t p q).trans ?_
  exact (congrArg (M.mk2 (z V c)) (embZ t p q)).symm

theorem flushedSum_eq (c : Dev nD) (t : Fin cfg3.N) :
    (dat3 (F := Ideal) V c).flushed 6 t = ((cfg3.win 6).blk t).view.read (Elt Ideal) (M.mk3 (M.sumT (z V c))) := by
  show (cfg3.win 6).cut (grid3.coords t) ((dat3 V c).after 6 t) = _
  rw [after3_6]
  funext j
  obtain ⟨u, s, q, rfl⟩ : ∃ (u : Fin 1) (s : Fin 8) (q : Fin 128), j = ix3 u s q := ⟨j 0, j 1, j 2, eq_ix3 j⟩
  show out3_6 (iblk3 V c 0 t) (iblk3 V c 1 t) (iblk3 V c 2 t) (iblk3 V c 3 t) (iblk3 V c 4 t) (ix3 u s q)
    = M.mk3 (M.sumT (z V c)) (((cfg3.win 6).blk t).view.emb (ix3 u s q))
  refine (outSum_apply _ _ _ _ _ u s q).trans ?_
  refine Eq.trans ?_ (congrArg (M.mk3 (M.sumT (z V c))) (embSum t u s q)).symm
  show _ = ∑ r : Fin 4000, z V c (M.tileRow ⟨t.val, lt_five t⟩ r) q
  exact Finset.sum_congr rfl fun r _ => blkZ_iblk V c t r q

theorem flushedSq_eq (c : Dev nD) (t : Fin cfg3.N) :
    (dat3 (F := Ideal) V c).flushed 7 t = ((cfg3.win 7).blk t).view.read (Elt Ideal) (M.mk3 (M.sumsqT (z V c))) := by
  show (cfg3.win 7).cut (grid3.coords t) ((dat3 V c).after 7 t) = _
  rw [after3_7]
  funext j
  obtain ⟨u, s, q, rfl⟩ : ∃ (u : Fin 1) (s : Fin 8) (q : Fin 128), j = ix3 u s q := ⟨j 0, j 1, j 2, eq_ix3 j⟩
  show out3_7 (iblk3 V c 0 t) (iblk3 V c 1 t) (iblk3 V c 2 t) (iblk3 V c 3 t) (iblk3 V c 4 t) (ix3 u s q)
    = M.mk3 (M.sumsqT (z V c)) (((cfg3.win 7).blk t).view.emb (ix3 u s q))
  refine (outSq_apply _ _ _ _ _ u s q).trans ?_
  refine Eq.trans ?_ (congrArg (M.mk3 (M.sumsqT (z V c))) (embSq t u s q)).symm
  show _ = ∑ r : Fin 4000, z V c (M.tileRow ⟨t.val, lt_five t⟩ r) q * z V c (M.tileRow ⟨t.val, lt_five t⟩ r) q
  exact Finset.sum_congr rfl fun r _ => by rw [blkZ_iblk V c t r q]

/-! ## The blocks cover the arrays -/

/-- Row `r` of the first output is row `r % 4000` of the block of point `r / 4000`. -/
theorem coverZ (i : S20000x128.Idx) : ∃ t : Fin cfg3.N, (cfg3.win 5).flush t = true ∧ i ∈ ((cfg3.win 5).blk t).view.set := by
  have hi0 : (i 0).val < 20000 := (i 0).isLt
  obtain ⟨t, ht⟩ : ∃ t : Fin cfg3.N, t.val = (i 0).val / 4000 :=
    ⟨⟨(i 0).val / 4000, by rw [show cfg3.N = 5 from N_3]; omega⟩, rfl⟩
  have h : ((cfg3.win 5).blk t).view.emb (ix2 (⟨(i 0).val % 4000, Nat.mod_lt _ (by omega)⟩ : Fin 4000) (i 1)) = i := by
    refine (embZ t _ _).trans ?_
    funext a
    apply Fin.ext
    match a with
    | ⟨0, _⟩ => show 4000 * t.val + (i 0).val % 4000 = (i 0).val; rw [ht]; omega
    | ⟨1, _⟩ => rfl
  exact ⟨t, flush3_5 t, by rw [← h]; exact ((cfg3.win 5).blk t).view.emb_mem_set _⟩

/-- Tile `p` of the sums array is the block of point `p`. -/
theorem coverSum (i : S5x8x128.Idx) : ∃ t : Fin cfg3.N, (cfg3.win 6).flush t = true ∧ i ∈ ((cfg3.win 6).blk t).view.set := by
  have hi0 : (i 0).val < 5 := (i 0).isLt
  obtain ⟨t, ht⟩ : ∃ t : Fin cfg3.N, t.val = (i 0).val :=
    ⟨⟨(i 0).val, by rw [show cfg3.N = 5 from N_3]; omega⟩, rfl⟩
  have h : ((cfg3.win 6).blk t).view.emb (ix3 (0 : Fin 1) (i 1) (i 2)) = i := by
    refine (embSum t _ _ _).trans ?_
    funext a
    apply Fin.ext
    match a with
    | ⟨0, _⟩ => exact ht
    | ⟨1, _⟩ => rfl
    | ⟨2, _⟩ => rfl
  exact ⟨t, flush3_6 t, by rw [← h]; exact ((cfg3.win 6).blk t).view.emb_mem_set _⟩

/-- Likewise the sums of squares array. -/
theorem coverSq (i : S5x8x128.Idx) : ∃ t : Fin cfg3.N, (cfg3.win 7).flush t = true ∧ i ∈ ((cfg3.win 7).blk t).view.set := by
  have hi0 : (i 0).val < 5 := (i 0).isLt
  obtain ⟨t, ht⟩ : ∃ t : Fin cfg3.N, t.val = (i 0).val :=
    ⟨⟨(i 0).val, by rw [show cfg3.N = 5 from N_3]; omega⟩, rfl⟩
  have h : ((cfg3.win 7).blk t).view.emb (ix3 (0 : Fin 1) (i 1) (i 2)) = i := by
    refine (embSq t _ _ _).trans ?_
    funext a
    apply Fin.ext
    match a with
    | ⟨0, _⟩ => exact ht
    | ⟨1, _⟩ => rfl
    | ⟨2, _⟩ => rfl
  exact ⟨t, flush3_7 t, by rw [← h]; exact ((cfg3.win 7).blk t).view.emb_mem_set _⟩

/-! ## The three output arrays after the region -/

/-- The first output array: the input array normalised with the given statistics, scaled, shifted and rectified. -/
theorem arr3_5 (c : Dev nD) :
    (dat3 (F := Ideal) V c).arrAt 5 cfg3.N
      = M.mk2 (M.bnrelu (M.at2 (V c (Pipeline.arrRef spec3 0))) (fun j => M.at2 (V c (Pipeline.arrRef spec3 1)) 0 j)
          (fun j => M.at2 (V c (Pipeline.arrRef spec3 2)) 0 j) (fun j => M.at2 (V c (Pipeline.arrRef spec3 3)) 0 j)
          (fun j => M.at2 (V c (Pipeline.arrRef spec3 4)) 0 j)) :=
  (dat3 V c).arrAt_eq_of_cover 5 (M.mk2 (z V c)) (fun t _ => flushedZ_eq V c t) coverZ

/-- The second output array: that array's column sums tile by tile, each in eight rows. -/
theorem arr3_6 (c : Dev nD) :
    (dat3 (F := Ideal) V c).arrAt 6 cfg3.N
      = M.mk3 (M.sumT (M.bnrelu (M.at2 (V c (Pipeline.arrRef spec3 0))) (fun j => M.at2 (V c (Pipeline.arrRef spec3 1)) 0 j)
          (fun j => M.at2 (V c (Pipeline.arrRef spec3 2)) 0 j) (fun j => M.at2 (V c (Pipeline.arrRef spec3 3)) 0 j)
          (fun j => M.at2 (V c (Pipeline.arrRef spec3 4)) 0 j))) :=
  (dat3 V c).arrAt_eq_of_cover 6 (M.mk3 (M.sumT (z V c))) (fun t _ => flushedSum_eq V c t) coverSum

/-- The third output array: that array's column sums of squares tile by tile, each in eight rows. -/
theorem arr3_7 (c : Dev nD) :
    (dat3 (F := Ideal) V c).arrAt 7 cfg3.N
      = M.mk3 (M.sumsqT (M.bnrelu (M.at2 (V c (Pipeline.arrRef spec3 0))) (fun j => M.at2 (V c (Pipeline.arrRef spec3 1)) 0 j)
          (fun j => M.at2 (V c (Pipeline.arrRef spec3 2)) 0 j) (fun j => M.at2 (V c (Pipeline.arrRef spec3 3)) 0 j)
          (fun j => M.at2 (V c (Pipeline.arrRef spec3 4)) 0 j))) :=
  (dat3 V c).arrAt_eq_of_cover 7 (M.mk3 (M.sumsqT (z V c))) (fun t _ => flushedSq_eq V c t) coverSq

end Cert.RegC

end
-- ==== Proof.RegD.lean ====
/-
  The values of a layer's last region: its first output array after the region is the layer's output
  `h + max ((z − mean) · rsqrt (var + ε) · g + b) 0`, the other two that output times one whole weight each. The region
  works on row blocks of 4000; the statistics, scale and shift are one row each, broadcast over the block's rows.
-/
import proofs.«416875_j80633716015165_3_alg».proof.Proof.RegNP
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

open Cert

namespace Cert.RegD

open Cert.KernelIdeal Cert.KernelIdeal.Gen

variable (V : (c : Dev nD) → (b : Ref sig .tc) → Buf (Elt Ideal) ((c : Thread nD τ).loc b))

/-! ## The payloads at an index -/

/-- The first output's payload at row `p`, column `q`: the input block there plus the normalised, rectified third
    stage, the statistics, scale and shift read from their one row. -/
theorem pay2_apply (z : Vec Ideal S4000x128 .bf16) (vr mn g b : Vec Ideal S1x128 .f32) (h : Vec Ideal S4000x128 .f32)
    (p : Fin 4000) (q : Fin 128) :
    k4_pay2 z vr mn g b h (ix2 p q)
      = h (ix2 p q) + max ((z (ix2 p q) - mn (ix2 0 q)) * Ideal.rsqrt (vr (ix2 0 q) + M.cEps) * g (ix2 0 q) + b (ix2 0 q)) M.c0 := by
  unfold k4_pay2
  simp only [shapeCast_self]
  first
  | (refine Eq.trans (b := h (ix2 p q) + max ((z (ix2 p q) - broadcastTo S4000x128 mn broadcasts_S1x128_S4000x128 (ix2 p q))
        * broadcastTo S4000x128 (fun i => Ideal.rsqrt (vr i + M.cEps)) broadcasts_S1x128_S4000x128 (ix2 p q)
        * broadcastTo S4000x128 g broadcasts_S1x128_S4000x128 (ix2 p q)
        + broadcastTo S4000x128 b broadcasts_S1x128_S4000x128 (ix2 p q)) M.c0) rfl ?_
     rw [broadcastTo_1b_ab_apply, broadcastTo_1b_ab_apply, broadcastTo_1b_ab_apply, broadcastTo_1b_ab_apply] <;> rfl)
  | (simp only [addf_apply, maximumf_apply, mulf_apply, subf_apply, extf_apply, broadcast_apply,
      broadcastTo_1b_ab_apply]
     rfl)

/-- The second output's payload at row `p`, column `q`: row `p` of the first output's block against column `q` of
    the weight. -/
theorem pay5_apply (z : Vec Ideal S4000x128 .bf16) (vr mn g b : Vec Ideal S1x128 .f32) (h : Vec Ideal S4000x128 .f32)
    (w : Vec Ideal S128x128 .bf16) (p : Fin 4000) (q : Fin 128) :
    k4_pay5 z vr mn g b h w (ix2 p q) = ∑ t : Fin 128, k4_pay2 z vr mn g b h (ix2 p t) * w (ix2 t q) := by
  unfold k4_pay5 k4_pay3
  simp only [shapeCast_self]
  exact RegNP.mm_apply _ _ p q

/-- The third output's payload at row `p`, column `q`, likewise. -/
theorem pay14_apply (z : Vec Ideal S4000x128 .bf16) (vr mn g b : Vec Ideal S1x128 .f32) (h : Vec Ideal S4000x128 .f32)
    (w : Vec Ideal S128x128 .bf16) (p : Fin 4000) (q : Fin 128) :
    k4_pay1 (k4_pay4 z vr mn g b h w) (ix2 p q) = ∑ t : Fin 128, k4_pay2 z vr mn g b h (ix2 p t) * w (ix2 t q) := by
  unfold k4_pay1 k4_pay4 k4_pay3
  simp only [shapeCast_self]
  exact RegNP.mm_apply _ _ p q

/-! ## From blocks to the arrays -/

theorem hz : (![0, 0] : Fin 2 → Nat) = fun _ => 0 := funext fun a => by fin_cases a <;> rfl

/-- The index maps over the grid, window by window: a row-blocked window's block is row block `t`, -/
theorem idx_0 : ∀ t : Fin cfg4.N, win4_0.index t (0 : Fin 2) = t.val ∧ win4_0.index t (1 : Fin 2) = 0 :=
  (by decide +kernel : ∀ t : Fin grid4.N, _)
theorem idx_5 : ∀ t : Fin cfg4.N, win4_5.index t (0 : Fin 2) = t.val ∧ win4_5.index t (1 : Fin 2) = 0 :=
  (by decide +kernel : ∀ t : Fin grid4.N, _)
theorem idx_8 : ∀ t : Fin cfg4.N, win4_8.index t (0 : Fin 2) = t.val ∧ win4_8.index t (1 : Fin 2) = 0 :=
  (by decide +kernel : ∀ t : Fin grid4.N, _)
theorem idx_9 : ∀ t : Fin cfg4.N, win4_9.index t (0 : Fin 2) = t.val ∧ win4_9.index t (1 : Fin 2) = 0 :=
  (by decide +kernel : ∀ t : Fin grid4.N, _)
theorem idx_10 : ∀ t : Fin cfg4.N, win4_10.index t (0 : Fin 2) = t.val ∧ win4_10.index t (1 : Fin 2) = 0 :=
  (by decide +kernel : ∀ t : Fin grid4.N, _)
/-- a whole window's block is the array. -/
theorem idx_1 : ∀ t : Fin cfg4.N, win4_1.index t (0 : Fin 2) = 0 ∧ win4_1.index t (1 : Fin 2) = 0 :=
  (by decide +kernel : ∀ t : Fin grid4.N, _)
theorem idx_2 : ∀ t : Fin cfg4.N, win4_2.index t (0 : Fin 2) = 0 ∧ win4_2.index t (1 : Fin 2) = 0 :=
  (by decide +kernel : ∀ t : Fin grid4.N, _)
theorem idx_3 : ∀ t : Fin cfg4.N, win4_3.index t (0 : Fin 2) = 0 ∧ win4_3.index t (1 : Fin 2) = 0 :=
  (by decide +kernel : ∀ t : Fin grid4.N, _)
theorem idx_4 : ∀ t : Fin cfg4.N, win4_4.index t (0 : Fin 2) = 0 ∧ win4_4.index t (1 : Fin 2) = 0 :=
  (by decide +kernel : ∀ t : Fin grid4.N, _)
theorem idx_6 : ∀ t : Fin cfg4.N, win4_6.index t (0 : Fin 2) = 0 ∧ win4_6.index t (1 : Fin 2) = 0 :=
  (by decide +kernel : ∀ t : Fin grid4.N, _)
theorem idx_7 : ∀ t : Fin cfg4.N, win4_7.index t (0 : Fin 2) = 0 ∧ win4_7.index t (1 : Fin 2) = 0 :=
  (by decide +kernel : ∀ t : Fin grid4.N, _)

/-- The arrays as the region finds them: the third stage, -/
abbrev zArr (c : Dev nD) : S20000x128.Idx → EReal := V c (Pipeline.arrRef spec4 0)
/-- its columns' means, -/
abbrev mnArr (c : Dev nD) : S1x128.Idx → EReal := V c (Pipeline.arrRef spec4 1)
/-- its columns' variances, -/
abbrev vrArr (c : Dev nD) : S1x128.Idx → EReal := V c (Pipeline.arrRef spec4 2)
/-- the scale, -/
abbrev gArr (c : Dev nD) : S1x128.Idx → EReal := V c (Pipeline.arrRef spec4 3)
/-- the shift, -/
abbrev bArr (c : Dev nD) : S1x128.Idx → EReal := V c (Pipeline.arrRef spec4 4)
/-- the layer's input, -/
abbrev hArr (c : Dev nD) : S20000x128.Idx → EReal := V c (Pipeline.arrRef spec4 5)
/-- the first weight, -/
abbrev wtArr (c : Dev nD) : S128x128.Idx → EReal := V c (Pipeline.arrRef spec4 6)
/-- and the second. -/
abbrev wbArr (c : Dev nD) : S128x128.Idx → EReal := V c (Pipeline.arrRef spec4 7)
/-- The layer's output from them. -/
abbrev XN (c : Dev nD) : Fin 20000 → Fin 128 → EReal :=
  RegNP.xnew (zArr V c) (mnArr V c) (vrArr V c) (gArr V c) (bArr V c) (hArr V c)

/-- Row block `t` of the third stage: entry `(p, q)` is the array's at row `4000 t + p`. -/
theorem zblk_apply (c : Dev nD) (t : Fin cfg4.N) (p : Fin 4000) (q : Fin 128) (r : Fin 20000)
    (hr : r.val = t.val * 4000 + p.val) :
    (iblk4 V c 0 t : Vec Ideal S4000x128 .bf16) (ix2 p q) = zArr V c (ix2 r q) := by
  have e := idx_0 t
  show V c (Pipeline.arrRef spec4 0) (((cfg4.win 0).blk t).view.emb (ix2 p q)) = V c (Pipeline.arrRef spec4 0) (ix2 r q)
  refine congrArg _ (funext fun a => Fin.ext ?_)
  match a with
  | ⟨0, _⟩ => show win4_0.index t (0 : Fin 2) * 4000 + 1 * p.val = r.val; omega
  | ⟨1, _⟩ => show win4_0.index t (1 : Fin 2) * 128 + 1 * q.val = q.val; omega

/-- Row block `t` of the layer's input likewise. -/
theorem hblk_apply (c : Dev nD) (t : Fin cfg4.N) (p : Fin 4000) (q : Fin 128) (r : Fin 20000)
    (hr : r.val = t.val * 4000 + p.val) :
    (iblk4 V c 5 t : Vec Ideal S4000x128 .f32) (ix2 p q) = hArr V c (ix2 r q) := by
  have e := idx_5 t
  show V c (Pipeline.arrRef spec4 5) (((cfg4.win 5).blk t).view.emb (ix2 p q)) = V c (Pipeline.arrRef spec4 5) (ix2 r q)
  refine congrArg _ (funext fun a => Fin.ext ?_)
  match a with
  | ⟨0, _⟩ => show win4_5.index t (0 : Fin 2) * 4000 + 1 * p.val = r.val; omega
  | ⟨1, _⟩ => show win4_5.index t (1 : Fin 2) * 128 + 1 * q.val = q.val; omega

/-- The means' block is their one row, -/
theorem mnblk_apply (c : Dev nD) (t : Fin cfg4.N) (q : Fin 128) :
    (iblk4 V c 1 t : Vec Ideal S1x128 .f32) (ix2 0 q) = mnArr V c (ix2 0 q) := by
  have e := idx_1 t
  show V c (Pipeline.arrRef spec4 1) (((cfg4.win 1).blk t).view.emb (ix2 0 q)) = V c (Pipeline.arrRef spec4 1) (ix2 0 q)
  refine congrArg _ (funext fun a => Fin.ext ?_)
  match a with
  | ⟨0, _⟩ => show win4_1.index t (0 : Fin 2) * 1 + 1 * 0 = 0; omega
  | ⟨1, _⟩ => show win4_1.index t (1 : Fin 2) * 128 + 1 * q.val = q.val; omega

/-- the variances' likewise, -/
theorem vrblk_apply (c : Dev nD) (t : Fin cfg4.N) (q : Fin 128) :
    (iblk4 V c 2 t : Vec Ideal S1x128 .f32) (ix2 0 q) = vrArr V c (ix2 0 q) := by
  have e := idx_2 t
  show V c (Pipeline.arrRef spec4 2) (((cfg4.win 2).blk t).view.emb (ix2 0 q)) = V c (Pipeline.arrRef spec4 2) (ix2 0 q)
  refine congrArg _ (funext fun a => Fin.ext ?_)
  match a with
  | ⟨0, _⟩ => show win4_2.index t (0 : Fin 2) * 1 + 1 * 0 = 0; omega
  | ⟨1, _⟩ => show win4_2.index t (1 : Fin 2) * 128 + 1 * q.val = q.val; omega

/-- the scale's, -/
theorem gblk_apply (c : Dev nD) (t : Fin cfg4.N) (q : Fin 128) :
    (iblk4 V c 3 t : Vec Ideal S1x128 .f32) (ix2 0 q) = gArr V c (ix2 0 q) := by
  have e := idx_3 t
  show V c (Pipeline.arrRef spec4 3) (((cfg4.win 3).blk t).view.emb (ix2 0 q)) = V c (Pipeline.arrRef spec4 3) (ix2 0 q)
  refine congrArg _ (funext fun a => Fin.ext ?_)
  match a with
  | ⟨0, _⟩ => show win4_3.index t (0 : Fin 2) * 1 + 1 * 0 = 0; omega
  | ⟨1, _⟩ => show win4_3.index t (1 : Fin 2) * 128 + 1 * q.val = q.val; omega

/-- and the shift's. -/
theorem bblk_apply (c : Dev nD) (t : Fin cfg4.N) (q : Fin 128) :
    (iblk4 V c 4 t : Vec Ideal S1x128 .f32) (ix2 0 q) = bArr V c (ix2 0 q) := by
  have e := idx_4 t
  show V c (Pipeline.arrRef spec4 4) (((cfg4.win 4).blk t).view.emb (ix2 0 q)) = V c (Pipeline.arrRef spec4 4) (ix2 0 q)
  refine congrArg _ (funext fun a => Fin.ext ?_)
  match a with
  | ⟨0, _⟩ => show win4_4.index t (0 : Fin 2) * 1 + 1 * 0 = 0; omega
  | ⟨1, _⟩ => show win4_4.index t (1 : Fin 2) * 128 + 1 * q.val = q.val; omega

/-- The first weight's block is the weight, -/
theorem wtblk_apply (c : Dev nD) (t : Fin cfg4.N) (k q : Fin 128) :
    (iblk4 V c 6 t : Vec Ideal S128x128 .bf16) (ix2 k q) = wtArr V c (ix2 k q) := by
  have e := idx_6 t
  show V c (Pipeline.arrRef spec4 6) (((cfg4.win 6).blk t).view.emb (ix2 k q)) = V c (Pipeline.arrRef spec4 6) (ix2 k q)
  refine congrArg _ (funext fun a => Fin.ext ?_)
  match a with
  | ⟨0, _⟩ => show win4_6.index t (0 : Fin 2) * 128 + 1 * k.val = k.val; omega
  | ⟨1, _⟩ => show win4_6.index t (1 : Fin 2) * 128 + 1 * q.val = q.val; omega

/-- and the second's. -/
theorem wbblk_apply (c : Dev nD) (t : Fin cfg4.N) (k q : Fin 128) :
    (iblk4 V c 7 t : Vec Ideal S128x128 .bf16) (ix2 k q) = wbArr V c (ix2 k q) := by
  have e := idx_7 t
  show V c (Pipeline.arrRef spec4 7) (((cfg4.win 7).blk t).view.emb (ix2 k q)) = V c (Pipeline.arrRef spec4 7) (ix2 k q)
  refine congrArg _ (funext fun a => Fin.ext ?_)
  match a with
  | ⟨0, _⟩ => show win4_7.index t (0 : Fin 2) * 128 + 1 * k.val = k.val; omega
  | ⟨1, _⟩ => show win4_7.index t (1 : Fin 2) * 128 + 1 * q.val = q.val; omega

/-- The first payload on the blocks at point `t` is the layer's output on row block `t`. -/
theorem xn_blk (c : Dev nD) (t : Fin cfg4.N) (p : Fin 4000) (q : Fin 128) (r : Fin 20000)
    (hr : r.val = t.val * 4000 + p.val) :
    k4_pay2 (iblk4 V c 0 t) (iblk4 V c 2 t) (iblk4 V c 1 t) (iblk4 V c 3 t) (iblk4 V c 4 t) (iblk4 V c 5 t) (ix2 p q) = XN V c r q := by
  refine (pay2_apply (iblk4 V c 0 t) (iblk4 V c 2 t) (iblk4 V c 1 t) (iblk4 V c 3 t) (iblk4 V c 4 t) (iblk4 V c 5 t) p q).trans ?_
  rw [zblk_apply V c t p q r hr, hblk_apply V c t p q r hr, mnblk_apply V c t q, vrblk_apply V c t q,
    gblk_apply V c t q, bblk_apply V c t q]
  rfl

/-- The body's result for the first output window on the blocks at point `t`, read through the window's block, is block `t` of the layer's output. -/
theorem out8_eq (c : Dev nD) (t : Fin cfg4.N) :
    (cfg4.win 8).cut (grid4.coords t) (out4_8 (iblk4 V c 0 t) (iblk4 V c 1 t) (iblk4 V c 2 t) (iblk4 V c 3 t) (iblk4 V c 4 t) (iblk4 V c 5 t) (iblk4 V c 6 t) (iblk4 V c 7 t))
      = ((cfg4.win 8).blk t).view.read (Elt Ideal) (M.mk2 (XN V c)) := by
  unfold out4_8
  rw [View.canon_unit_zero hz]
  simp only [View.ld_unit_zero (S := S4000x128) hz, View.ld_unit_zero (S := S1x128) hz]
  have e := idx_8 t
  funext j
  obtain ⟨p, q, rfl⟩ : ∃ (p : Fin 4000) (q : Fin 128), j = ix2 p q := ⟨j 0, j 1, eq_ix2 j⟩
  show k4_pay2 (iblk4 V c 0 t) (iblk4 V c 2 t) (iblk4 V c 1 t) (iblk4 V c 3 t) (iblk4 V c 4 t) (iblk4 V c 5 t) (ix2 p q) = (M.mk2 (XN V c)) (((cfg4.win 8).blk t).view.emb (ix2 p q))
  obtain ⟨i, hi⟩ : ∃ i : S20000x128.Idx, i = ((cfg4.win 8).blk t).view.emb (ix2 p q) := ⟨_, rfl⟩
  rw [← hi]
  have hi0 : (i 0).val = t.val * 4000 + p.val := by
    rw [hi]; show win4_8.index t (0 : Fin 2) * 4000 + 1 * p.val = _; omega
  have hi1 : i 1 = q := Fin.ext (by rw [hi]; show win4_8.index t (1 : Fin 2) * 128 + 1 * q.val = _; omega)
  show _ = XN V c (i 0) (i 1)
  rw [hi1]
  exact xn_blk V c t p q (i 0) hi0

/-- For the second output window: block `t` of the layer's output times the first weight. -/
theorem out9_eq (c : Dev nD) (t : Fin cfg4.N) :
    (cfg4.win 9).cut (grid4.coords t) (out4_9 (iblk4 V c 0 t) (iblk4 V c 1 t) (iblk4 V c 2 t) (iblk4 V c 3 t) (iblk4 V c 4 t) (iblk4 V c 5 t) (iblk4 V c 6 t) (iblk4 V c 7 t))
      = ((cfg4.win 9).blk t).view.read (Elt Ideal) (M.mk2 (M.mm (XN V c) (M.at2 (wtArr V c)))) := by
  unfold out4_9
  rw [View.canon_unit_zero hz]
  simp only [View.ld_unit_zero (S := S4000x128) hz, View.ld_unit_zero (S := S1x128) hz, View.ld_unit_zero (S := S128x128) hz]
  have e := idx_9 t
  funext j
  obtain ⟨p, q, rfl⟩ : ∃ (p : Fin 4000) (q : Fin 128), j = ix2 p q := ⟨j 0, j 1, eq_ix2 j⟩
  show k4_pay5 (iblk4 V c 0 t) (iblk4 V c 2 t) (iblk4 V c 1 t) (iblk4 V c 3 t) (iblk4 V c 4 t) (iblk4 V c 5 t) (iblk4 V c 6 t) (ix2 p q) = (M.mk2 (M.mm (XN V c) (M.at2 (wtArr V c)))) (((cfg4.win 9).blk t).view.emb (ix2 p q))
  obtain ⟨i, hi⟩ : ∃ i : S20000x128.Idx, i = ((cfg4.win 9).blk t).view.emb (ix2 p q) := ⟨_, rfl⟩
  rw [← hi]
  have hi0 : (i 0).val = t.val * 4000 + p.val := by
    rw [hi]; show win4_9.index t (0 : Fin 2) * 4000 + 1 * p.val = _; omega
  have hi1 : i 1 = q := Fin.ext (by rw [hi]; show win4_9.index t (1 : Fin 2) * 128 + 1 * q.val = _; omega)
  refine (pay5_apply (iblk4 V c 0 t) (iblk4 V c 2 t) (iblk4 V c 1 t) (iblk4 V c 3 t) (iblk4 V c 4 t) (iblk4 V c 5 t) (iblk4 V c 6 t) p q).trans ?_
  show _ = ∑ k : Fin 128, XN V c (i 0) k * wtArr V c (ix2 k (i 1))
  rw [hi1]
  refine Finset.sum_congr rfl fun k _ => ?_
  rw [xn_blk V c t p k (i 0) hi0, wtblk_apply V c t k q]

/-- For the third output window: block `t` of the layer's output times the second weight. -/
theorem out10_eq (c : Dev nD) (t : Fin cfg4.N) :
    (cfg4.win 10).cut (grid4.coords t) (out4_10 (iblk4 V c 0 t) (iblk4 V c 1 t) (iblk4 V c 2 t) (iblk4 V c 3 t) (iblk4 V c 4 t) (iblk4 V c 5 t) (iblk4 V c 6 t) (iblk4 V c 7 t))
      = ((cfg4.win 10).blk t).view.read (Elt Ideal) (M.mk2 (M.mm (XN V c) (M.at2 (wbArr V c)))) := by
  unfold out4_10
  rw [View.canon_unit_zero hz]
  simp only [View.ld_unit_zero (S := S4000x128) hz, View.ld_unit_zero (S := S1x128) hz, View.ld_unit_zero (S := S128x128) hz]
  have e := idx_10 t
  funext j
  obtain ⟨p, q, rfl⟩ : ∃ (p : Fin 4000) (q : Fin 128), j = ix2 p q := ⟨j 0, j 1, eq_ix2 j⟩
  show k4_pay1 (k4_pay4 (iblk4 V c 0 t) (iblk4 V c 2 t) (iblk4 V c 1 t) (iblk4 V c 3 t) (iblk4 V c 4 t) (iblk4 V c 5 t) (iblk4 V c 7 t)) (ix2 p q) = (M.mk2 (M.mm (XN V c) (M.at2 (wbArr V c)))) (((cfg4.win 10).blk t).view.emb (ix2 p q))
  obtain ⟨i, hi⟩ : ∃ i : S20000x128.Idx, i = ((cfg4.win 10).blk t).view.emb (ix2 p q) := ⟨_, rfl⟩
  rw [← hi]
  have hi0 : (i 0).val = t.val * 4000 + p.val := by
    rw [hi]; show win4_10.index t (0 : Fin 2) * 4000 + 1 * p.val = _; omega
  have hi1 : i 1 = q := Fin.ext (by rw [hi]; show win4_10.index t (1 : Fin 2) * 128 + 1 * q.val = _; omega)
  refine (pay14_apply (iblk4 V c 0 t) (iblk4 V c 2 t) (iblk4 V c 1 t) (iblk4 V c 3 t) (iblk4 V c 4 t) (iblk4 V c 5 t) (iblk4 V c 7 t) p q).trans ?_
  show _ = ∑ k : Fin 128, XN V c (i 0) k * wbArr V c (ix2 k (i 1))
  rw [hi1]
  refine Finset.sum_congr rfl fun k _ => ?_
  rw [xn_blk V c t p k (i 0) hi0, wbblk_apply V c t k q]

/-- An index of the array is in point `t`'s block of output window 8 iff each coordinate is in the block's range on its axis. -/
theorem mem_blk8 (t : Fin cfg4.N) (i : S20000x128.Idx) :
    i ∈ ((cfg4.win 8).blk t).view.set ↔ ∀ a : Fin 2, win4_8.index t a * S4000x128.size a ≤ (i a).val ∧ (i a).val < win4_8.index t a * S4000x128.size a + S4000x128.size a := by
  show i ∈ ((View.whole main_v140_0).slice (win4_8.rect t)).set ↔ _
  rw [View.set_slice_whole, Rect.mem_set_unit]
  exact Iff.rfl

/-- Row `r` of the array is in the block of point `r / 4000`. -/
theorem cover8 (i : S20000x128.Idx) : ∃ t : Fin cfg4.N, (cfg4.win 8).flush t = true ∧ i ∈ ((cfg4.win 8).blk t).view.set := by
  have hi0 : (i 0).val < 20000 := (i 0).isLt
  have hi1 : (i 1).val < 128 := (i 1).isLt
  have hN : cfg4.N = 5 := N_4
  obtain ⟨t, ht⟩ : ∃ t : Fin cfg4.N, t.val = (i 0).val / 4000 := ⟨⟨(i 0).val / 4000, by rw [hN]; omega⟩, rfl⟩
  have e := idx_8 t
  refine ⟨t, flush4_8 t, ?_⟩
  rw [mem_blk8]
  intro a
  match a with
  | ⟨0, _⟩ =>
    show win4_8.index t (0 : Fin 2) * 4000 ≤ (i 0).val ∧ (i 0).val < win4_8.index t (0 : Fin 2) * 4000 + 4000
    omega
  | ⟨1, _⟩ =>
    show win4_8.index t (1 : Fin 2) * 128 ≤ (i 1).val ∧ (i 1).val < win4_8.index t (1 : Fin 2) * 128 + 128
    omega

/-- An index of the array is in point `t`'s block of output window 9 iff each coordinate is in the block's range on its axis. -/
theorem mem_blk9 (t : Fin cfg4.N) (i : S20000x128.Idx) :
    i ∈ ((cfg4.win 9).blk t).view.set ↔ ∀ a : Fin 2, win4_9.index t a * S4000x128.size a ≤ (i a).val ∧ (i a).val < win4_9.index t a * S4000x128.size a + S4000x128.size a := by
  show i ∈ ((View.whole main_v140_1).slice (win4_9.rect t)).set ↔ _
  rw [View.set_slice_whole, Rect.mem_set_unit]
  exact Iff.rfl

/-- Row `r` of the array is in the block of point `r / 4000`. -/
theorem cover9 (i : S20000x128.Idx) : ∃ t : Fin cfg4.N, (cfg4.win 9).flush t = true ∧ i ∈ ((cfg4.win 9).blk t).view.set := by
  have hi0 : (i 0).val < 20000 := (i 0).isLt
  have hi1 : (i 1).val < 128 := (i 1).isLt
  have hN : cfg4.N = 5 := N_4
  obtain ⟨t, ht⟩ : ∃ t : Fin cfg4.N, t.val = (i 0).val / 4000 := ⟨⟨(i 0).val / 4000, by rw [hN]; omega⟩, rfl⟩
  have e := idx_9 t
  refine ⟨t, flush4_9 t, ?_⟩
  rw [mem_blk9]
  intro a
  match a with
  | ⟨0, _⟩ =>
    show win4_9.index t (0 : Fin 2) * 4000 ≤ (i 0).val ∧ (i 0).val < win4_9.index t (0 : Fin 2) * 4000 + 4000
    omega
  | ⟨1, _⟩ =>
    show win4_9.index t (1 : Fin 2) * 128 ≤ (i 1).val ∧ (i 1).val < win4_9.index t (1 : Fin 2) * 128 + 128
    omega

/-- An index of the array is in point `t`'s block of output window 10 iff each coordinate is in the block's range on its axis. -/
theorem mem_blk10 (t : Fin cfg4.N) (i : S20000x128.Idx) :
    i ∈ ((cfg4.win 10).blk t).view.set ↔ ∀ a : Fin 2, win4_10.index t a * S4000x128.size a ≤ (i a).val ∧ (i a).val < win4_10.index t a * S4000x128.size a + S4000x128.size a := by
  show i ∈ ((View.whole main_v140_2).slice (win4_10.rect t)).set ↔ _
  rw [View.set_slice_whole, Rect.mem_set_unit]
  exact Iff.rfl

/-- Row `r` of the array is in the block of point `r / 4000`. -/
theorem cover10 (i : S20000x128.Idx) : ∃ t : Fin cfg4.N, (cfg4.win 10).flush t = true ∧ i ∈ ((cfg4.win 10).blk t).view.set := by
  have hi0 : (i 0).val < 20000 := (i 0).isLt
  have hi1 : (i 1).val < 128 := (i 1).isLt
  have hN : cfg4.N = 5 := N_4
  obtain ⟨t, ht⟩ : ∃ t : Fin cfg4.N, t.val = (i 0).val / 4000 := ⟨⟨(i 0).val / 4000, by rw [hN]; omega⟩, rfl⟩
  have e := idx_10 t
  refine ⟨t, flush4_10 t, ?_⟩
  rw [mem_blk10]
  intro a
  match a with
  | ⟨0, _⟩ =>
    show win4_10.index t (0 : Fin 2) * 4000 ≤ (i 0).val ∧ (i 0).val < win4_10.index t (0 : Fin 2) * 4000 + 4000
    omega
  | ⟨1, _⟩ =>
    show win4_10.index t (1 : Fin 2) * 128 ≤ (i 1).val ∧ (i 1).val < win4_10.index t (1 : Fin 2) * 128 + 128
    omega

/-- What point `t` writes back to output window 8. -/
theorem flushed8_eq (c : Dev nD) (t : Fin cfg4.N) :
    (dat4 V c).flushed 8 t = ((cfg4.win 8).blk t).view.read (Elt Ideal) (M.mk2 (XN V c)) := by
  show (cfg4.win 8).cut (grid4.coords t) ((dat4 V c).after 8 t) = _
  rw [after4_8]
  exact out8_eq V c t

/-- What point `t` writes back to output window 9. -/
theorem flushed9_eq (c : Dev nD) (t : Fin cfg4.N) :
    (dat4 V c).flushed 9 t = ((cfg4.win 9).blk t).view.read (Elt Ideal) (M.mk2 (M.mm (XN V c) (M.at2 (wtArr V c)))) := by
  show (cfg4.win 9).cut (grid4.coords t) ((dat4 V c).after 9 t) = _
  rw [after4_9]
  exact out9_eq V c t

/-- What point `t` writes back to output window 10. -/
theorem flushed10_eq (c : Dev nD) (t : Fin cfg4.N) :
    (dat4 V c).flushed 10 t = ((cfg4.win 10).blk t).view.read (Elt Ideal) (M.mk2 (M.mm (XN V c) (M.at2 (wbArr V c)))) := by
  show (cfg4.win 10).cut (grid4.coords t) ((dat4 V c).after 10 t) = _
  rw [after4_10]
  exact out10_eq V c t

/-! ## The region's values -/

/-- The layer's output array after the region. -/
theorem arr4_8 (c : Dev nD) : (Cert.KernelIdeal.Gen.dat4 (F := Ideal) V c).arrAt 8 Cert.KernelIdeal.cfg4.N
    = M.mk2 (RegNP.xnew (V c (Pipeline.arrRef Cert.KernelIdeal.spec4 0)) (V c (Pipeline.arrRef Cert.KernelIdeal.spec4 1)) (V c (Pipeline.arrRef Cert.KernelIdeal.spec4 2)) (V c (Pipeline.arrRef Cert.KernelIdeal.spec4 3)) (V c (Pipeline.arrRef Cert.KernelIdeal.spec4 4)) (V c (Pipeline.arrRef Cert.KernelIdeal.spec4 5))) :=
  (dat4 V c).arrAt_eq_of_cover 8 _ (fun t _ => flushed8_eq V c t) cover8

/-- The layer's output times the first weight. -/
theorem arr4_9 (c : Dev nD) : (Cert.KernelIdeal.Gen.dat4 (F := Ideal) V c).arrAt 9 Cert.KernelIdeal.cfg4.N
    = M.mk2 (M.mm (RegNP.xnew (V c (Pipeline.arrRef Cert.KernelIdeal.spec4 0)) (V c (Pipeline.arrRef Cert.KernelIdeal.spec4 1)) (V c (Pipeline.arrRef Cert.KernelIdeal.spec4 2)) (V c (Pipeline.arrRef Cert.KernelIdeal.spec4 3)) (V c (Pipeline.arrRef Cert.KernelIdeal.spec4 4)) (V c (Pipeline.arrRef Cert.KernelIdeal.spec4 5))) (M.at2 (a := 128) (b := 128) (V c (Pipeline.arrRef Cert.KernelIdeal.spec4 6)))) :=
  (dat4 V c).arrAt_eq_of_cover 9 _ (fun t _ => flushed9_eq V c t) cover9

/-- The layer's output times the second weight. -/
theorem arr4_10 (c : Dev nD) : (Cert.KernelIdeal.Gen.dat4 (F := Ideal) V c).arrAt 10 Cert.KernelIdeal.cfg4.N
    = M.mk2 (M.mm (RegNP.xnew (V c (Pipeline.arrRef Cert.KernelIdeal.spec4 0)) (V c (Pipeline.arrRef Cert.KernelIdeal.spec4 1)) (V c (Pipeline.arrRef Cert.KernelIdeal.spec4 2)) (V c (Pipeline.arrRef Cert.KernelIdeal.spec4 3)) (V c (Pipeline.arrRef Cert.KernelIdeal.spec4 4)) (V c (Pipeline.arrRef Cert.KernelIdeal.spec4 5))) (M.at2 (a := 128) (b := 128) (V c (Pipeline.arrRef Cert.KernelIdeal.spec4 7)))) :=
  (dat4 V c).arrAt_eq_of_cover 10 _ (fun t _ => flushed10_eq V c t) cover10

end Cert.RegD

end
-- ==== Proof.KStageFin.lean ====
/-
  The statistics stretches of the kernel program's host code, read into the common mathematical form.

  Each batch normalisation's statistics are computed on the host from two (5,8,128) arrays of per-tile partial
  sums (of the values and of their squares, each tile's sum copied into eight rows): the sum over the two leading
  axes from the zero word, divided by the 8 word and by the 20000 word, gives the mean; the mean of squares minus
  the squared mean, cut at zero, gives the variance; both are laid out as one row of 128. The same stretches cut
  the layer's parameters out of their stacked arrays.

  First, on arbitrary arrays: the two-axis sum as a sum over the forty rows, the mean and variance terms as the
  tiled statistics, and each slice read at an index. Then, for the first layer's three stretches and an arbitrary
  valuation of the references: what each reference the next region reads holds after the stretch, and that a
  reference the stretch does not write keeps its contents.
-/
import proofs.«416875_j80633716015165_3_alg».proof.KernelIdeal
import proofs.«416875_j80633716015165_3_alg».proof.Proof.Gen.KernelIdeal
import proofs.«416875_j80633716015165_3_alg».proof.Proof.Gen.KernelIdeal.Launch
import proofs.«416875_j80633716015165_3_alg».proof.Proof.Spec
import Idealize.ShloMosaic.Lib.StableHlo.Run
import Idealize.ShloMosaic.Lib.IdealHost
import Idealize.ShloMosaic.Lib.Pipeline.Value

noncomputable section

open Idealize.ShloMosaic Idealize.ShloMosaic.ValueIdx
open Cert.KernelIdeal Cert.KernelIdeal.Gen

namespace Cert.KStageFin

/-! ## The sum over the two leading axes -/

/-- An index of the (5,8,128) array drops to column `j` exactly when its last coordinate is `j`. -/
theorem drop01_iff (h : S5x8x128.ReducesTo [0, 1] S128) (i : S5x8x128.Idx) (j : Fin 128) :
    h.drop i = ix1 j ↔ i 2 = j := by
  constructor
  · intro e
    have e0 : ((h.drop i 0 : Fin _) : Nat) = ((ix1 j : S128.Idx) 0 : Nat) := by rw [e]
    rw [h.drop_apply_val_of_eq i 0 2] at e0
    exact Fin.ext e0
  · intro e
    funext b
    match b with
    | ⟨0, _⟩ =>
      refine Fin.ext ?_
      show ((h.drop i 0 : Fin _) : Nat) = (j : Nat)
      rw [h.drop_apply_val_of_eq i 0 2, e]

/-- The host's sum over the two leading axes, at column `j`: the initial value plus the sum over all forty rows. -/
theorem reduce01_apply (h : S5x8x128.ReducesTo [0, 1] S128) (hu : 0 < S_.numel)
    (S : FVec Ideal S5x8x128 .f32) (init : FVec Ideal S_ .f32) (j : Fin 128) :
    Host.reduceAdd S init h hu (ix1 j) = init ix0 + ∑ p : Fin 5 × Fin 8, S (ix3 p.1 p.2 j) := by
  rw [hostReduceAdd_apply]
  unfold Ideal.hostReduceAdd
  congr 1
  · exact congrArg init (funext fun a => a.elim0)
  · refine Finset.sum_nbij' (fun i => (i 0, i 1)) (fun p => ix3 p.1 p.2 j) ?_ ?_ ?_ ?_ ?_
    · intro i _; exact Finset.mem_univ _
    · intro p _
      rw [Finset.mem_filter]
      exact ⟨Finset.mem_univ _, (drop01_iff h _ j).2 rfl⟩
    · intro i hi
      rw [Finset.mem_filter] at hi
      have e := (drop01_iff h i j).1 hi.2
      show ix3 (i 0) (i 1) j = i
      rw [← e]; exact (eq_ix3 i).symm
    · intro p _; rfl
    · intro i hi
      rw [Finset.mem_filter] at hi
      have e := (drop01_iff h i j).1 hi.2
      show S i = S (ix3 (i 0) (i 1) j)
      rw [← e]; exact congrArg S (eq_ix3 i)

/-! ## Reshapes read at an index -/

/-- A 128-vector reshaped to one row, read at an index: the vector at the column. -/
theorem row_apply {α : Type} (x : S128.Idx → α) (hc : S128.ShapeCasts S1x128) (p : Fin 1) (q : Fin 128) :
    shapeCast S1x128 x hc (ix2 p q) = x (ix1 q) := by
  refine shapeCast_apply x hc _ _ ?_
  rw [Shape.rowMajor_val_one, Shape.rowMajor_val_two]
  have h0 : p.val < 1 := p.isLt
  show q.val = p.val * 128 + q.val
  omega

/-- One row reshaped to a 128-vector, read at an index: the row at the column. -/
theorem unrow_apply {α : Type} (x : S1x128.Idx → α) (hc : S1x128.ShapeCasts S128) (j : Fin 128) :
    shapeCast S128 x hc (ix1 j) = x (ix2 0 j) := by
  refine shapeCast_apply x hc _ _ ?_
  rw [Shape.rowMajor_val_one, Shape.rowMajor_val_two]
  show (0 : Nat) * 128 + j.val = j.val
  omega

/-! ## The statistics -/

/-- The printed mean: the two-axis sum from the zero word, over the 8 word, over the 20000 word. -/
abbrev meanT (h : S5x8x128.ReducesTo [0, 1] S128) (hu : 0 < S_.numel)
    (hb : S_.BroadcastsInDim S128 (![] : Fin 0 → Fin S128.rank)) (S : FVec Ideal S5x8x128 .f32) : FVec Ideal S128 .f32 :=
  Host.divf
    (Host.divf (Host.reduceAdd S (constant S_ .f32 0x00000000#32) h hu)
      (broadcastInDim S128 ![] hb (constant S_ .f32 0x41000000#32)))
    (broadcastInDim S128 ![] hb (constant S_ .f32 0x469C4000#32))

theorem meanT_apply (h : S5x8x128.ReducesTo [0, 1] S128) (hu : 0 < S_.numel)
    (hb : S_.BroadcastsInDim S128 (![] : Fin 0 → Fin S128.rank)) (S : FVec Ideal S5x8x128 .f32) (j : Fin 128) :
    meanT h hu hb S (ix1 j) = M.meanK (M.at3 S) j := by
  show Host.divf (Host.divf _ _) _ (ix1 j) = _
  rw [hostDivf_apply, hostDivf_apply, reduce01_apply, broadcastInDim_scalar_apply, broadcastInDim_scalar_apply]
  rfl

/-- The mean term of a statistics stretch is the tiled mean of the partial sums. -/
theorem mean_eq (h : S5x8x128.ReducesTo [0, 1] S128) (hu : 0 < S_.numel)
    (hb : S_.BroadcastsInDim S128 (![] : Fin 0 → Fin S128.rank)) (hc : S128.ShapeCasts S1x128)
    (S : FVec Ideal S5x8x128 .f32) :
    shapeCast S1x128 (meanT h hu hb S) hc = M.mk2 (fun _ j => M.meanK (M.at3 S) j) := by
  funext i
  obtain ⟨p, q, rfl⟩ : ∃ p q, i = ix2 p q := ⟨i 0, i 1, eq_ix2 i⟩
  rw [row_apply, meanT_apply]
  rfl

/-- The variance term of a statistics stretch is the tiled variance of the partial sums and sums of squares. -/
theorem var_eq (h : S5x8x128.ReducesTo [0, 1] S128) (hu : 0 < S_.numel)
    (hb : S_.BroadcastsInDim S128 (![] : Fin 0 → Fin S128.rank)) (hc : S128.ShapeCasts S1x128)
    (S SQ : FVec Ideal S5x8x128 .f32) :
    shapeCast S1x128
        (maximumf (subf (meanT h hu hb SQ) (mulf (meanT h hu hb S) (meanT h hu hb S)))
          (broadcastInDim S128 ![] hb (constant S_ .f32 0x00000000#32))) hc
      = M.mk2 (fun _ j => M.varK (M.at3 S) (M.at3 SQ) j) := by
  funext i
  obtain ⟨p, q, rfl⟩ : ∃ p q, i = ix2 p q := ⟨i 0, i 1, eq_ix2 i⟩
  rw [row_apply, maximumf_apply, subf_apply, mulf_apply, meanT_apply, meanT_apply, broadcastInDim_scalar_apply]
  rfl

/-! ## The parameter slices -/

/-- Row `o` of a stacked (n,128) parameter, cut out, flattened and laid out as one row. -/
theorem rowSlice_eq {n : Nat} (o : Nat) (ho : o < n) (G : FVec Ideal ⟨2, ![n, 128]⟩ .f32)
    (hs : (⟨2, ![n, 128]⟩ : Shape).Slices ![o, 0] S1x128) (hc1 : S1x128.ShapeCasts S128) (hc2 : S128.ShapeCasts S1x128) :
    shapeCast S1x128 (shapeCast S128 (extractStridedSlice S1x128 ![o, 0] G hs) hc1) hc2
      = M.mk2 (fun _ j => M.at2 G ⟨o, ho⟩ j) := by
  funext i
  obtain ⟨p, q, rfl⟩ : ∃ p q, i = ix2 p q := ⟨i 0, i 1, eq_ix2 i⟩
  rw [row_apply, unrow_apply]
  refine extractStridedSlice_apply _ G hs _ (ix2 ⟨o, ho⟩ q) ?_
  intro a
  match a with
  | ⟨0, _⟩ => rfl
  | ⟨1, _⟩ => show q.val = 0 + q.val; omega

/-- Matrix `o` of a stacked (n,128,128) parameter, cut out and laid out as a matrix. -/
theorem matSlice_eq {n : Nat} (o : Nat) (ho : o < n) (W : FVec Ideal ⟨3, ![n, 128, 128]⟩ .f32)
    (hs : (⟨3, ![n, 128, 128]⟩ : Shape).Slices ![o, 0, 0] S1x128x128) (hc : S1x128x128.ShapeCasts S128x128) :
    shapeCast S128x128 (extractStridedSlice S1x128x128 ![o, 0, 0] W hs) hc
      = M.mk2 (fun k j => M.at3 W ⟨o, ho⟩ k j) := by
  funext i
  obtain ⟨p, q, rfl⟩ : ∃ p q, i = ix2 p q := ⟨i 0, i 1, eq_ix2 i⟩
  rw [shapeCast_apply _ hc (ix2 p q) (ix3 0 p q) (by
    rw [Shape.rowMajor_val_three, Shape.rowMajor_val_two]
    show ((0 : Nat) * 128 + p.val) * 128 + q.val = p.val * 128 + q.val
    omega)]
  refine extractStridedSlice_apply _ W hs _ (ix3 ⟨o, ho⟩ p q) ?_
  intro a
  match a with
  | ⟨0, _⟩ => rfl
  | ⟨1, _⟩ => show p.val = 0 + p.val; omega
  | ⟨2, _⟩ => show q.val = 0 + q.val; omega

/-- Matrix `o` of the stacked (5,256,128) head weight, as a (256,128) matrix, read at an index. -/
theorem headSlice_apply (o : Nat) (ho : o < 5) (W : FVec Ideal S5x256x128 .f32)
    (hs : S5x256x128.Slices ![o, 0, 0] S1x256x128) (hc : S1x256x128.ShapeCasts S256x128) (k : Fin 256) (j : Fin 128) :
    shapeCast S256x128 (extractStridedSlice S1x256x128 ![o, 0, 0] W hs) hc (ix2 k j) = M.at3 W ⟨o, ho⟩ k j := by
  rw [shapeCast_apply _ hc (ix2 k j) (ix3 0 k j) (by
    rw [Shape.rowMajor_val_three, Shape.rowMajor_val_two]
    show ((0 : Nat) * 256 + k.val) * 128 + j.val = k.val * 128 + j.val
    omega)]
  refine extractStridedSlice_apply _ W hs _ (ix3 ⟨o, ho⟩ k j) ?_
  intro a
  match a with
  | ⟨0, _⟩ => rfl
  | ⟨1, _⟩ => show k.val = 0 + k.val; omega
  | ⟨2, _⟩ => show j.val = 0 + j.val; omega

/-- The top 128 rows of head weight `o`, in bf16. -/
theorem topHalf_eq (o : Nat) (ho : o < 5) (W : FVec Ideal S5x256x128 .f32)
    (hs : S5x256x128.Slices ![o, 0, 0] S1x256x128) (hc : S1x256x128.ShapeCasts S256x128)
    (hs2 : S256x128.Slices ![0, 0] S128x128) (hb : FTy.bits .bf16 < FTy.bits .f32) :
    (truncf .bf16 (extractStridedSlice S128x128 ![0, 0]
        (shapeCast S256x128 (extractStridedSlice S1x256x128 ![o, 0, 0] W hs) hc) hs2) hb : FVec Ideal S128x128 .bf16)
      = M.mk2 (M.top (M.at3 W ⟨o, ho⟩)) := by
  funext i
  obtain ⟨p, q, rfl⟩ : ∃ p q, i = ix2 p q := ⟨i 0, i 1, eq_ix2 i⟩
  have hp : p.val < 256 := by have := p.isLt; omega
  rw [truncf_apply]
  rw [extractStridedSlice_apply _ _ hs2 (ix2 p q) (ix2 ⟨p.val, hp⟩ q) (by
    intro a
    match a with
    | ⟨0, _⟩ => show p.val = 0 + p.val; omega
    | ⟨1, _⟩ => show q.val = 0 + q.val; omega)]
  rw [headSlice_apply o ho W hs hc]
  rfl

/-- The bottom 128 rows of head weight `o`, in bf16. -/
theorem botHalf_eq (o : Nat) (ho : o < 5) (W : FVec Ideal S5x256x128 .f32)
    (hs : S5x256x128.Slices ![o, 0, 0] S1x256x128) (hc : S1x256x128.ShapeCasts S256x128)
    (hs2 : S256x128.Slices ![128, 0] S128x128) (hb : FTy.bits .bf16 < FTy.bits .f32) :
    (truncf .bf16 (extractStridedSlice S128x128 ![128, 0]
        (shapeCast S256x128 (extractStridedSlice S1x256x128 ![o, 0, 0] W hs) hc) hs2) hb : FVec Ideal S128x128 .bf16)
      = M.mk2 (M.bot (M.at3 W ⟨o, ho⟩)) := by
  funext i
  obtain ⟨p, q, rfl⟩ : ∃ p q, i = ix2 p q := ⟨i 0, i 1, eq_ix2 i⟩
  have hp : 128 + p.val < 256 := by have := p.isLt; omega
  rw [truncf_apply]
  rw [extractStridedSlice_apply _ _ hs2 (ix2 p q) (ix2 ⟨128 + p.val, hp⟩ q) (by
    intro a
    match a with
    | ⟨0, _⟩ => rfl
    | ⟨1, _⟩ => show q.val = 0 + q.val; omega)]
  rw [headSlice_apply o ho W hs hc]
  rfl

/-! ## References a stretch leaves alone -/

/-- An operation writing one listed reference writes inside the list. -/
theorem writes_sub {y : Ref sig .tc} {W : List (Ref sig .tc)} (h : y ∈ W) :
    ({Proc.devRef (τ := τ) .tc y} : Finset (DevRef τ sig)) ⊆ (W.map (Proc.devRef (τ := τ) .tc)).toFinset := by
  rw [Finset.singleton_subset_iff, List.mem_toFinset]
  exact List.mem_map_of_mem h

/-! ## The stretch `hostOps2` -/

/-- The references `hostOps2` writes. -/
abbrev wr2 : List (Ref sig .tc) :=
  [main_cst_5, main_v61, main_cst_6, main_v62, main_v63, main_cst_7, main_v64, main_cst_8, main_v65, main_v66, main_cst_9, main_v67, main_v68, main_cst_10, main_v69, main_v70, main_v71, main_v72, main_cst_11, main_v73, main_v74, main_v75, main_v76, main_v77, main_v78, main_v79, main_v80, main_v81, main_v82, main_v83, main_v84, main_v85, main_v86, main_v87]

theorem hostOps2_writes : (hostOps2 : List (HloOp τ sig (Elt Ideal))).Forall fun op =>
    op.writes ⊆ (wr2.map (Proc.devRef (τ := τ) .tc)).toFinset :=
  ⟨writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide)⟩

/-- A reference the stretch does not write keeps its contents. -/
theorem hostOps2_keep (V : Valuation τ sig (Elt Ideal)) {r : Ref sig .tc} (hr : r ∉ wr2) :
    StableHlo.after hostOps2 V (Proc.devRef .tc r) = V (Proc.devRef .tc r) :=
  StableHlo.after_of_writes_sub _ V hostOps2_writes hr

/-- The mean. -/
theorem hostOps2_main_v75 (V : Valuation τ sig (Elt Ideal)) :
    (StableHlo.after hostOps2 V (Proc.devRef .tc main_v75) : S1x128.Idx → EReal)
      = M.mk2 (fun _ j => M.meanK (M.at3 (V (Proc.devRef .tc main_v60_1) : S5x8x128.Idx → EReal)) j) := by
  after_results
  exact mean_eq _ _ _ _ _

/-- The variance. -/
theorem hostOps2_main_v76 (V : Valuation τ sig (Elt Ideal)) :
    (StableHlo.after hostOps2 V (Proc.devRef .tc main_v76) : S1x128.Idx → EReal)
      = M.mk2 (fun _ j => M.varK (M.at3 (V (Proc.devRef .tc main_v60_1) : S5x8x128.Idx → EReal))
          (M.at3 (V (Proc.devRef .tc main_v60_2) : S5x8x128.Idx → EReal)) j) := by
  after_results
  exact var_eq _ _ _ _ _ _

/-- Row 0 of `main_arg6`. -/
theorem hostOps2_main_v79 (V : Valuation τ sig (Elt Ideal)) :
    (StableHlo.after hostOps2 V (Proc.devRef .tc main_v79) : S1x128.Idx → EReal)
      = M.mk2 (fun _ j => M.at2 (V (Proc.devRef .tc main_arg6) : S4x128.Idx → EReal) (0 : Fin 4) j) := by
  after_results
  exact rowSlice_eq 0 (by decide) _ _ _ _

/-- Row 0 of `main_arg7`. -/
theorem hostOps2_main_v82 (V : Valuation τ sig (Elt Ideal)) :
    (StableHlo.after hostOps2 V (Proc.devRef .tc main_v82) : S1x128.Idx → EReal)
      = M.mk2 (fun _ j => M.at2 (V (Proc.devRef .tc main_arg7) : S4x128.Idx → EReal) (0 : Fin 4) j) := by
  after_results
  exact rowSlice_eq 0 (by decide) _ _ _ _

/-- Matrix 0 of `main_arg8`. -/
theorem hostOps2_main_v84 (V : Valuation τ sig (Elt Ideal)) :
    (StableHlo.after hostOps2 V (Proc.devRef .tc main_v84) : S128x128.Idx → EReal)
      = M.mk2 (fun k j => M.at3 (V (Proc.devRef .tc main_arg8) : S4x128x128.Idx → EReal) (0 : Fin 4) k j) := by
  after_results
  exact matSlice_eq 0 (by decide) _ _ _

/-- Row 0 of `main_arg9`. -/
theorem hostOps2_main_v87 (V : Valuation τ sig (Elt Ideal)) :
    (StableHlo.after hostOps2 V (Proc.devRef .tc main_v87) : S1x128.Idx → EReal)
      = M.mk2 (fun _ j => M.at2 (V (Proc.devRef .tc main_arg9) : S4x128.Idx → EReal) (0 : Fin 4) j) := by
  after_results
  exact rowSlice_eq 0 (by decide) _ _ _ _

/-! ## The stretch `hostOps3` -/

/-- The references `hostOps3` writes. -/
abbrev wr3 : List (Ref sig .tc) :=
  [main_cst_12, main_v89, main_cst_13, main_v90, main_v91, main_cst_14, main_v92, main_cst_15, main_v93, main_v94, main_cst_16, main_v95, main_v96, main_cst_17, main_v97, main_v98, main_v99, main_v100, main_cst_18, main_v101, main_v102, main_v103, main_v104, main_v105, main_v106, main_v107, main_v108, main_v109, main_v110]

theorem hostOps3_writes : (hostOps3 : List (HloOp τ sig (Elt Ideal))).Forall fun op =>
    op.writes ⊆ (wr3.map (Proc.devRef (τ := τ) .tc)).toFinset :=
  ⟨writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide)⟩

/-- A reference the stretch does not write keeps its contents. -/
theorem hostOps3_keep (V : Valuation τ sig (Elt Ideal)) {r : Ref sig .tc} (hr : r ∉ wr3) :
    StableHlo.after hostOps3 V (Proc.devRef .tc r) = V (Proc.devRef .tc r) :=
  StableHlo.after_of_writes_sub _ V hostOps3_writes hr

/-- The mean. -/
theorem hostOps3_main_v103 (V : Valuation τ sig (Elt Ideal)) :
    (StableHlo.after hostOps3 V (Proc.devRef .tc main_v103) : S1x128.Idx → EReal)
      = M.mk2 (fun _ j => M.meanK (M.at3 (V (Proc.devRef .tc main_v88_1) : S5x8x128.Idx → EReal)) j) := by
  after_results
  exact mean_eq _ _ _ _ _

/-- The variance. -/
theorem hostOps3_main_v104 (V : Valuation τ sig (Elt Ideal)) :
    (StableHlo.after hostOps3 V (Proc.devRef .tc main_v104) : S1x128.Idx → EReal)
      = M.mk2 (fun _ j => M.varK (M.at3 (V (Proc.devRef .tc main_v88_1) : S5x8x128.Idx → EReal))
          (M.at3 (V (Proc.devRef .tc main_v88_2) : S5x8x128.Idx → EReal)) j) := by
  after_results
  exact var_eq _ _ _ _ _ _

/-- Row 0 of `main_arg10`. -/
theorem hostOps3_main_v107 (V : Valuation τ sig (Elt Ideal)) :
    (StableHlo.after hostOps3 V (Proc.devRef .tc main_v107) : S1x128.Idx → EReal)
      = M.mk2 (fun _ j => M.at2 (V (Proc.devRef .tc main_arg10) : S4x128.Idx → EReal) (0 : Fin 4) j) := by
  after_results
  exact rowSlice_eq 0 (by decide) _ _ _ _

/-- Row 0 of `main_arg11`. -/
theorem hostOps3_main_v110 (V : Valuation τ sig (Elt Ideal)) :
    (StableHlo.after hostOps3 V (Proc.devRef .tc main_v110) : S1x128.Idx → EReal)
      = M.mk2 (fun _ j => M.at2 (V (Proc.devRef .tc main_arg11) : S4x128.Idx → EReal) (0 : Fin 4) j) := by
  after_results
  exact rowSlice_eq 0 (by decide) _ _ _ _

/-! ## The stretch `hostOps4` -/

/-- The references `hostOps4` writes. -/
abbrev wr4 : List (Ref sig .tc) :=
  [main_cst_19, main_v112, main_cst_20, main_v113, main_v114, main_cst_21, main_v115, main_cst_22, main_v116, main_v117, main_cst_23, main_v118, main_v119, main_cst_24, main_v120, main_v121, main_v122, main_v123, main_cst_25, main_v124, main_v125, main_v126, main_v127, main_v128, main_v129, main_v130, main_v131, main_v132, main_v133, main_v134, main_v135, main_v136, main_v137, main_v138, main_v139]

theorem hostOps4_writes : (hostOps4 : List (HloOp τ sig (Elt Ideal))).Forall fun op =>
    op.writes ⊆ (wr4.map (Proc.devRef (τ := τ) .tc)).toFinset :=
  ⟨writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide)⟩

/-- A reference the stretch does not write keeps its contents. -/
theorem hostOps4_keep (V : Valuation τ sig (Elt Ideal)) {r : Ref sig .tc} (hr : r ∉ wr4) :
    StableHlo.after hostOps4 V (Proc.devRef .tc r) = V (Proc.devRef .tc r) :=
  StableHlo.after_of_writes_sub _ V hostOps4_writes hr

/-- The mean. -/
theorem hostOps4_main_v126 (V : Valuation τ sig (Elt Ideal)) :
    (StableHlo.after hostOps4 V (Proc.devRef .tc main_v126) : S1x128.Idx → EReal)
      = M.mk2 (fun _ j => M.meanK (M.at3 (V (Proc.devRef .tc main_v111_1) : S5x8x128.Idx → EReal)) j) := by
  after_results
  exact mean_eq _ _ _ _ _

/-- The variance. -/
theorem hostOps4_main_v127 (V : Valuation τ sig (Elt Ideal)) :
    (StableHlo.after hostOps4 V (Proc.devRef .tc main_v127) : S1x128.Idx → EReal)
      = M.mk2 (fun _ j => M.varK (M.at3 (V (Proc.devRef .tc main_v111_1) : S5x8x128.Idx → EReal))
          (M.at3 (V (Proc.devRef .tc main_v111_2) : S5x8x128.Idx → EReal)) j) := by
  after_results
  exact var_eq _ _ _ _ _ _

/-- Row 0 of `main_arg12`. -/
theorem hostOps4_main_v130 (V : Valuation τ sig (Elt Ideal)) :
    (StableHlo.after hostOps4 V (Proc.devRef .tc main_v130) : S1x128.Idx → EReal)
      = M.mk2 (fun _ j => M.at2 (V (Proc.devRef .tc main_arg12) : S4x128.Idx → EReal) (0 : Fin 4) j) := by
  after_results
  exact rowSlice_eq 0 (by decide) _ _ _ _

/-- Row 0 of `main_arg13`. -/
theorem hostOps4_main_v133 (V : Valuation τ sig (Elt Ideal)) :
    (StableHlo.after hostOps4 V (Proc.devRef .tc main_v133) : S1x128.Idx → EReal)
      = M.mk2 (fun _ j => M.at2 (V (Proc.devRef .tc main_arg13) : S4x128.Idx → EReal) (0 : Fin 4) j) := by
  after_results
  exact rowSlice_eq 0 (by decide) _ _ _ _

/-- The top half of matrix 1 of `main_arg14`, in bf16. -/
theorem hostOps4_main_v137 (V : Valuation τ sig (Elt Ideal)) :
    (StableHlo.after hostOps4 V (Proc.devRef .tc main_v137) : S128x128.Idx → EReal)
      = M.mk2 (M.top (M.at3 (V (Proc.devRef .tc main_arg14) : S5x256x128.Idx → EReal) (1 : Fin 5))) := by
  after_results
  exact topHalf_eq 1 (by decide) _ _ _ _ _

/-- The bottom half of matrix 1 of `main_arg14`, in bf16. -/
theorem hostOps4_main_v139 (V : Valuation τ sig (Elt Ideal)) :
    (StableHlo.after hostOps4 V (Proc.devRef .tc main_v139) : S128x128.Idx → EReal)
      = M.mk2 (M.bot (M.at3 (V (Proc.devRef .tc main_arg14) : S5x256x128.Idx → EReal) (1 : Fin 5))) := by
  after_results
  exact botHalf_eq 1 (by decide) _ _ _ _ _

end Cert.KStageFin
-- ==== Proof.KChainLa0.lean ====
/-
  Layer 0's four regions and the three stretches of host operations between them: from what the buffers hold where the
  layer's first region is entered to what they hold where its last region is left.
-/
import proofs.«416875_j80633716015165_3_alg».proof.Proof.KChainBase
import proofs.«416875_j80633716015165_3_alg».proof.Proof.KChainKeep
import proofs.«416875_j80633716015165_3_alg».proof.Proof.KChainArgs
import proofs.«416875_j80633716015165_3_alg».proof.Proof.RegA
import proofs.«416875_j80633716015165_3_alg».proof.Proof.RegB
import proofs.«416875_j80633716015165_3_alg».proof.Proof.RegC
import proofs.«416875_j80633716015165_3_alg».proof.Proof.RegD
import proofs.«416875_j80633716015165_3_alg».proof.Proof.KStageFin

set_option maxRecDepth 16384
-- reading a region's window array back to its buffer name is an evaluation of the window record
set_option maxHeartbeats 1000000
-- one declaration at a time: each reading of a region's window array is evaluated on its own
set_option Elab.async false

noncomputable section

open Idealize.ShloMosaic Idealize.ShloMosaic.TcCoe Idealize.ShloMosaic.ValueIdx
open Cert.KernelIdeal Cert.KernelIdeal.Gen

namespace Cert.KChain.La0

variable (m : (ℓ : Loc nD τ sig) → Buf (Elt Ideal) ℓ) (ρ : Dev nD → PrngReg) (c : Dev nD)

/-! ## The arguments, the node array and the running score are kept -/

theorem args6 (hfin : (inputsK m c).Finite) (h : Entry0 m c (W5 (F := Ideal) m ρ c)) : ArgsKept m c (W6 (F := Ideal) m ρ c) := argsW6 m ρ c h.args
theorem args7 (hfin : (inputsK m c).Finite) (h : Entry0 m c (W5 (F := Ideal) m ρ c)) : ArgsKept m c (W7 (F := Ideal) m ρ c) := argsW7 m ρ c (args6 m ρ c hfin h)
theorem args8 (hfin : (inputsK m c).Finite) (h : Entry0 m c (W5 (F := Ideal) m ρ c)) : ArgsKept m c (W8 (F := Ideal) m ρ c) := argsW8 m ρ c (args7 m ρ c hfin h)
theorem args9 (hfin : (inputsK m c).Finite) (h : Entry0 m c (W5 (F := Ideal) m ρ c)) : ArgsKept m c (W9 (F := Ideal) m ρ c) := argsW9 m ρ c (args8 m ρ c hfin h)
theorem args10 (hfin : (inputsK m c).Finite) (h : Entry0 m c (W5 (F := Ideal) m ρ c)) : ArgsKept m c (W10 (F := Ideal) m ρ c) := argsW10 m ρ c (args9 m ρ c hfin h)
theorem args11 (hfin : (inputsK m c).Finite) (h : Entry0 m c (W5 (F := Ideal) m ρ c)) : ArgsKept m c (W11 (F := Ideal) m ρ c) := argsW11 m ρ c (args10 m ρ c hfin h)
theorem args12 (hfin : (inputsK m c).Finite) (h : Entry0 m c (W5 (F := Ideal) m ρ c)) : ArgsKept m c (W12 (F := Ideal) m ρ c) := argsW12 m ρ c (args11 m ρ c hfin h)

theorem x6 (hfin : (inputsK m c).Finite) (h : Entry0 m c (W5 (F := Ideal) m ρ c)) :
    W6 (F := Ideal) m ρ c (Proc.devRef .tc main_v3) = M.mk2 (M.x0 (inputsK m c)) :=
  (keepW6 m ρ c main_v3 (nm (by decide))).trans (h.x)
theorem x7 (hfin : (inputsK m c).Finite) (h : Entry0 m c (W5 (F := Ideal) m ρ c)) :
    W7 (F := Ideal) m ρ c (Proc.devRef .tc main_v3) = M.mk2 (M.x0 (inputsK m c)) :=
  (keepW7 m ρ c main_v3 (nm (by decide))).trans (x6 m ρ c hfin h)
theorem x8 (hfin : (inputsK m c).Finite) (h : Entry0 m c (W5 (F := Ideal) m ρ c)) :
    W8 (F := Ideal) m ρ c (Proc.devRef .tc main_v3) = M.mk2 (M.x0 (inputsK m c)) :=
  (keepW8 m ρ c main_v3 (nm (by decide))).trans (x7 m ρ c hfin h)
theorem x9 (hfin : (inputsK m c).Finite) (h : Entry0 m c (W5 (F := Ideal) m ρ c)) :
    W9 (F := Ideal) m ρ c (Proc.devRef .tc main_v3) = M.mk2 (M.x0 (inputsK m c)) :=
  (keepW9 m ρ c main_v3 (nm (by decide))).trans (x8 m ρ c hfin h)
theorem x10 (hfin : (inputsK m c).Finite) (h : Entry0 m c (W5 (F := Ideal) m ρ c)) :
    W10 (F := Ideal) m ρ c (Proc.devRef .tc main_v3) = M.mk2 (M.x0 (inputsK m c)) :=
  (keepW10 m ρ c main_v3 (nm (by decide))).trans (x9 m ρ c hfin h)
theorem x11 (hfin : (inputsK m c).Finite) (h : Entry0 m c (W5 (F := Ideal) m ρ c)) :
    W11 (F := Ideal) m ρ c (Proc.devRef .tc main_v3) = M.mk2 (M.x0 (inputsK m c)) :=
  (keepW11 m ρ c main_v3 (nm (by decide))).trans (x10 m ρ c hfin h)

theorem sc6 (hfin : (inputsK m c).Finite) (h : Entry0 m c (W5 (F := Ideal) m ρ c)) :
    W6 (F := Ideal) m ρ c (Proc.devRef .tc main_v41) = M.mk2 (s0 (inputsK m c)) :=
  (keepW6 m ρ c main_v41 (nm (by decide))).trans (h.score)
theorem sc7 (hfin : (inputsK m c).Finite) (h : Entry0 m c (W5 (F := Ideal) m ρ c)) :
    W7 (F := Ideal) m ρ c (Proc.devRef .tc main_v41) = M.mk2 (s0 (inputsK m c)) :=
  (keepW7 m ρ c main_v41 (nm (by decide))).trans (sc6 m ρ c hfin h)
theorem sc8 (hfin : (inputsK m c).Finite) (h : Entry0 m c (W5 (F := Ideal) m ρ c)) :
    W8 (F := Ideal) m ρ c (Proc.devRef .tc main_v41) = M.mk2 (s0 (inputsK m c)) :=
  (keepW8 m ρ c main_v41 (nm (by decide))).trans (sc7 m ρ c hfin h)
theorem sc9 (hfin : (inputsK m c).Finite) (h : Entry0 m c (W5 (F := Ideal) m ρ c)) :
    W9 (F := Ideal) m ρ c (Proc.devRef .tc main_v41) = M.mk2 (s0 (inputsK m c)) :=
  (keepW9 m ρ c main_v41 (nm (by decide))).trans (sc8 m ρ c hfin h)
theorem sc10 (hfin : (inputsK m c).Finite) (h : Entry0 m c (W5 (F := Ideal) m ρ c)) :
    W10 (F := Ideal) m ρ c (Proc.devRef .tc main_v41) = M.mk2 (s0 (inputsK m c)) :=
  (keepW10 m ρ c main_v41 (nm (by decide))).trans (sc9 m ρ c hfin h)
theorem sc11 (hfin : (inputsK m c).Finite) (h : Entry0 m c (W5 (F := Ideal) m ρ c)) :
    W11 (F := Ideal) m ρ c (Proc.devRef .tc main_v41) = M.mk2 (s0 (inputsK m c)) :=
  (keepW11 m ρ c main_v41 (nm (by decide))).trans (sc10 m ρ c hfin h)
theorem sc12 (hfin : (inputsK m c).Finite) (h : Entry0 m c (W5 (F := Ideal) m ρ c)) :
    W12 (F := Ideal) m ρ c (Proc.devRef .tc main_v41) = M.mk2 (s0 (inputsK m c)) :=
  (keepW12 m ρ c main_v41 (nm (by decide))).trans (sc11 m ρ c hfin h)

/-! ## The first region: the first linear map and its tile sums -/

theorem valA (hfin : (inputsK m c).Finite) (h : Entry0 m c (W5 (F := Ideal) m ρ c)) : RegA.linA (V5 (F := Ideal) m ρ) c = (a1I (inputsK m c) (0 : Fin 4) (M.x0 (inputsK m c))) := by
  have e0 : V5 (F := Ideal) m ρ c (Pipeline.arrRef spec1 0) = M.mk2 (M.x0 (inputsK m c)) := h.x
  have e1 : V5 (F := Ideal) m ρ c (Pipeline.arrRef spec1 1) = M.mk2 (M.neigh (M.x0 (inputsK m c)) (inputsK m c).src (inputsK m c).dst) := h.neigh
  have e2 : V5 (F := Ideal) m ρ c (Pipeline.arrRef spec1 2) = M.mk2 (fun (_ : Fin 1) (_ : Fin 1) => (inputsK m c).eps (0 : Fin 4)) := h.eps
  have e3 : V5 (F := Ideal) m ρ c (Pipeline.arrRef spec1 3) = M.mk2 ((inputsK m c).mlp_w1 (0 : Fin 4)) := h.w1
  have e4 : V5 (F := Ideal) m ρ c (Pipeline.arrRef spec1 4) = M.mk2 (fun (_ : Fin 1) (j : Fin 128) => (inputsK m c).mlp_b1 (0 : Fin 4) j) := h.b1
  exact shapeA e0 e1 e2 e3 e4

theorem a1_6 (hfin : (inputsK m c).Finite) (h : Entry0 m c (W5 (F := Ideal) m ρ c)) : W6 (F := Ideal) m ρ c (Proc.devRef .tc main_v60_0) = M.mk2 (a1I (inputsK m c) (0 : Fin 4) (M.x0 (inputsK m c))) :=
  (W6_arr m ρ c 5).trans ((RegA.arr1_5 (V5 (F := Ideal) m ρ) c).trans (congrArg M.mk2 (valA m ρ c hfin h)))
theorem S1_6 (hfin : (inputsK m c).Finite) (h : Entry0 m c (W5 (F := Ideal) m ρ c)) : W6 (F := Ideal) m ρ c (Proc.devRef .tc main_v60_1) = M.mk3 (M.sumT (a1I (inputsK m c) (0 : Fin 4) (M.x0 (inputsK m c)))) :=
  (W6_arr m ρ c 6).trans ((RegA.arr1_6 (V5 (F := Ideal) m ρ) c).trans (congrArg (fun v => M.mk3 (M.sumT v)) (valA m ρ c hfin h)))
theorem Q1_6 (hfin : (inputsK m c).Finite) (h : Entry0 m c (W5 (F := Ideal) m ρ c)) : W6 (F := Ideal) m ρ c (Proc.devRef .tc main_v60_2) = M.mk3 (M.sumsqT (a1I (inputsK m c) (0 : Fin 4) (M.x0 (inputsK m c)))) :=
  (W6_arr m ρ c 7).trans ((RegA.arr1_7 (V5 (F := Ideal) m ρ) c).trans (congrArg (fun v => M.mk3 (M.sumsqT v)) (valA m ρ c hfin h)))

/-! ## The first statistics stretch -/

theorem a1_7 (hfin : (inputsK m c).Finite) (h : Entry0 m c (W5 (F := Ideal) m ρ c)) : W7 (F := Ideal) m ρ c (Proc.devRef .tc main_v60_0) = M.mk2 (a1I (inputsK m c) (0 : Fin 4) (M.x0 (inputsK m c))) :=
  (keepW7 m ρ c main_v60_0 (nm (by decide))).trans (a1_6 m ρ c hfin h)
theorem mean1_7 (hfin : (inputsK m c).Finite) (h : Entry0 m c (W5 (F := Ideal) m ρ c)) : W7 (F := Ideal) m ρ c (Proc.devRef .tc main_v75) = M.mk2 (fun (_ : Fin 1) j => M.meanK (M.sumT (a1I (inputsK m c) (0 : Fin 4) (M.x0 (inputsK m c)))) j) := by
  have e := KStageFin.hostOps2_main_v75 (W6 (F := Ideal) m ρ c)
  rw [S1_6 m ρ c hfin h] at e
  exact e
theorem var1_7 (hfin : (inputsK m c).Finite) (h : Entry0 m c (W5 (F := Ideal) m ρ c)) : W7 (F := Ideal) m ρ c (Proc.devRef .tc main_v76) = M.mk2 (fun (_ : Fin 1) j => M.varK (M.sumT (a1I (inputsK m c) (0 : Fin 4) (M.x0 (inputsK m c)))) (M.sumsqT (a1I (inputsK m c) (0 : Fin 4) (M.x0 (inputsK m c)))) j) := by
  have e := KStageFin.hostOps2_main_v76 (W6 (F := Ideal) m ρ c)
  rw [S1_6 m ρ c hfin h, Q1_6 m ρ c hfin h] at e
  exact e
theorem g1_7 (hfin : (inputsK m c).Finite) (h : Entry0 m c (W5 (F := Ideal) m ρ c)) : W7 (F := Ideal) m ρ c (Proc.devRef .tc main_v79) = M.mk2 (fun (_ : Fin 1) j => (inputsK m c).mlp_bn_g (0 : Fin 4) j) := by
  have e := KStageFin.hostOps2_main_v79 (W6 (F := Ideal) m ρ c)
  rw [args6 m ρ c hfin h main_arg6 (by decide)] at e
  exact e
theorem c1_7 (hfin : (inputsK m c).Finite) (h : Entry0 m c (W5 (F := Ideal) m ρ c)) : W7 (F := Ideal) m ρ c (Proc.devRef .tc main_v82) = M.mk2 (fun (_ : Fin 1) j => (inputsK m c).mlp_bn_b (0 : Fin 4) j) := by
  have e := KStageFin.hostOps2_main_v82 (W6 (F := Ideal) m ρ c)
  rw [args6 m ρ c hfin h main_arg7 (by decide)] at e
  exact e
theorem w2_7 (hfin : (inputsK m c).Finite) (h : Entry0 m c (W5 (F := Ideal) m ρ c)) : W7 (F := Ideal) m ρ c (Proc.devRef .tc main_v84) = M.mk2 ((inputsK m c).mlp_w2 (0 : Fin 4)) := by
  have e := KStageFin.hostOps2_main_v84 (W6 (F := Ideal) m ρ c)
  rw [args6 m ρ c hfin h main_arg8 (by decide)] at e
  exact e
theorem b2_7 (hfin : (inputsK m c).Finite) (h : Entry0 m c (W5 (F := Ideal) m ρ c)) : W7 (F := Ideal) m ρ c (Proc.devRef .tc main_v87) = M.mk2 (fun (_ : Fin 1) j => (inputsK m c).mlp_b2 (0 : Fin 4) j) := by
  have e := KStageFin.hostOps2_main_v87 (W6 (F := Ideal) m ρ c)
  rw [args6 m ρ c hfin h main_arg9 (by decide)] at e
  exact e

/-! ## The second region: the second linear map and its tile sums -/

theorem valB (hfin : (inputsK m c).Finite) (h : Entry0 m c (W5 (F := Ideal) m ρ c)) : RegB.val (V7 (F := Ideal) m ρ) c = (a2I (inputsK m c) (0 : Fin 4) (M.x0 (inputsK m c))) := by
  have e0 : V7 (F := Ideal) m ρ c (Pipeline.arrRef spec2 0) = M.mk2 (a1I (inputsK m c) (0 : Fin 4) (M.x0 (inputsK m c))) := a1_7 m ρ c hfin h
  have e1 : V7 (F := Ideal) m ρ c (Pipeline.arrRef spec2 1) = M.mk2 (fun (_ : Fin 1) j => M.meanK (M.sumT (a1I (inputsK m c) (0 : Fin 4) (M.x0 (inputsK m c)))) j) := mean1_7 m ρ c hfin h
  have e2 : V7 (F := Ideal) m ρ c (Pipeline.arrRef spec2 2) = M.mk2 (fun (_ : Fin 1) j => M.varK (M.sumT (a1I (inputsK m c) (0 : Fin 4) (M.x0 (inputsK m c)))) (M.sumsqT (a1I (inputsK m c) (0 : Fin 4) (M.x0 (inputsK m c)))) j) := var1_7 m ρ c hfin h
  have e3 : V7 (F := Ideal) m ρ c (Pipeline.arrRef spec2 3) = M.mk2 (fun (_ : Fin 1) j => (inputsK m c).mlp_bn_g (0 : Fin 4) j) := g1_7 m ρ c hfin h
  have e4 : V7 (F := Ideal) m ρ c (Pipeline.arrRef spec2 4) = M.mk2 (fun (_ : Fin 1) j => (inputsK m c).mlp_bn_b (0 : Fin 4) j) := c1_7 m ρ c hfin h
  have e5 : V7 (F := Ideal) m ρ c (Pipeline.arrRef spec2 5) = M.mk2 ((inputsK m c).mlp_w2 (0 : Fin 4)) := w2_7 m ρ c hfin h
  have e6 : V7 (F := Ideal) m ρ c (Pipeline.arrRef spec2 6) = M.mk2 (fun (_ : Fin 1) j => (inputsK m c).mlp_b2 (0 : Fin 4) j) := b2_7 m ρ c hfin h
  exact shapeB (fin_a1I (inputsK m c) hfin (0 : Fin 4) (M.x0 (inputsK m c)) (MathStats.fin_x0 (inputsK m c) hfin)) e0 e1 e2 e3 e4 e5 e6

theorem a2_8 (hfin : (inputsK m c).Finite) (h : Entry0 m c (W5 (F := Ideal) m ρ c)) : W8 (F := Ideal) m ρ c (Proc.devRef .tc main_v88_0) = M.mk2 (a2I (inputsK m c) (0 : Fin 4) (M.x0 (inputsK m c))) :=
  (W8_arr m ρ c 7).trans ((RegB.arr2_7 (V7 (F := Ideal) m ρ) c).trans (congrArg M.mk2 (valB m ρ c hfin h)))
theorem S2_8 (hfin : (inputsK m c).Finite) (h : Entry0 m c (W5 (F := Ideal) m ρ c)) : W8 (F := Ideal) m ρ c (Proc.devRef .tc main_v88_1) = M.mk3 (M.sumT (a2I (inputsK m c) (0 : Fin 4) (M.x0 (inputsK m c)))) :=
  (W8_arr m ρ c 8).trans ((RegB.arr2_8 (V7 (F := Ideal) m ρ) c).trans (congrArg (fun v => M.mk3 (M.sumT v)) (valB m ρ c hfin h)))
theorem Q2_8 (hfin : (inputsK m c).Finite) (h : Entry0 m c (W5 (F := Ideal) m ρ c)) : W8 (F := Ideal) m ρ c (Proc.devRef .tc main_v88_2) = M.mk3 (M.sumsqT (a2I (inputsK m c) (0 : Fin 4) (M.x0 (inputsK m c)))) :=
  (W8_arr m ρ c 9).trans ((RegB.arr2_9 (V7 (F := Ideal) m ρ) c).trans (congrArg (fun v => M.mk3 (M.sumsqT v)) (valB m ρ c hfin h)))

/-! ## The second statistics stretch -/

theorem a2_9 (hfin : (inputsK m c).Finite) (h : Entry0 m c (W5 (F := Ideal) m ρ c)) : W9 (F := Ideal) m ρ c (Proc.devRef .tc main_v88_0) = M.mk2 (a2I (inputsK m c) (0 : Fin 4) (M.x0 (inputsK m c))) :=
  (keepW9 m ρ c main_v88_0 (nm (by decide))).trans (a2_8 m ρ c hfin h)
theorem mean2_9 (hfin : (inputsK m c).Finite) (h : Entry0 m c (W5 (F := Ideal) m ρ c)) : W9 (F := Ideal) m ρ c (Proc.devRef .tc main_v103) = M.mk2 (fun (_ : Fin 1) j => M.meanK (M.sumT (a2I (inputsK m c) (0 : Fin 4) (M.x0 (inputsK m c)))) j) := by
  have e := KStageFin.hostOps3_main_v103 (W8 (F := Ideal) m ρ c)
  rw [S2_8 m ρ c hfin h] at e
  exact e
theorem var2_9 (hfin : (inputsK m c).Finite) (h : Entry0 m c (W5 (F := Ideal) m ρ c)) : W9 (F := Ideal) m ρ c (Proc.devRef .tc main_v104) = M.mk2 (fun (_ : Fin 1) j => M.varK (M.sumT (a2I (inputsK m c) (0 : Fin 4) (M.x0 (inputsK m c)))) (M.sumsqT (a2I (inputsK m c) (0 : Fin 4) (M.x0 (inputsK m c)))) j) := by
  have e := KStageFin.hostOps3_main_v104 (W8 (F := Ideal) m ρ c)
  rw [S2_8 m ρ c hfin h, Q2_8 m ρ c hfin h] at e
  exact e
theorem ag_9 (hfin : (inputsK m c).Finite) (h : Entry0 m c (W5 (F := Ideal) m ρ c)) : W9 (F := Ideal) m ρ c (Proc.devRef .tc main_v107) = M.mk2 (fun (_ : Fin 1) j => (inputsK m c).app_bn_g (0 : Fin 4) j) := by
  have e := KStageFin.hostOps3_main_v107 (W8 (F := Ideal) m ρ c)
  rw [args8 m ρ c hfin h main_arg10 (by decide)] at e
  exact e
theorem ab_9 (hfin : (inputsK m c).Finite) (h : Entry0 m c (W5 (F := Ideal) m ρ c)) : W9 (F := Ideal) m ρ c (Proc.devRef .tc main_v110) = M.mk2 (fun (_ : Fin 1) j => (inputsK m c).app_bn_b (0 : Fin 4) j) := by
  have e := KStageFin.hostOps3_main_v110 (W8 (F := Ideal) m ρ c)
  rw [args8 m ρ c hfin h main_arg11 (by decide)] at e
  exact e

/-! ## The third region: the second normalisation and its tile sums -/

theorem valC (hfin : (inputsK m c).Finite) (h : Entry0 m c (W5 (F := Ideal) m ρ c)) :
    M.bnrelu (M.at2 (V9 (F := Ideal) m ρ c (Pipeline.arrRef spec3 0))) (fun j => M.at2 (V9 (F := Ideal) m ρ c (Pipeline.arrRef spec3 1)) 0 j)
      (fun j => M.at2 (V9 (F := Ideal) m ρ c (Pipeline.arrRef spec3 2)) 0 j) (fun j => M.at2 (V9 (F := Ideal) m ρ c (Pipeline.arrRef spec3 3)) 0 j)
      (fun j => M.at2 (V9 (F := Ideal) m ρ c (Pipeline.arrRef spec3 4)) 0 j) = (a3I (inputsK m c) (0 : Fin 4) (M.x0 (inputsK m c))) := by
  have e0 : V9 (F := Ideal) m ρ c (Pipeline.arrRef spec3 0) = M.mk2 (a2I (inputsK m c) (0 : Fin 4) (M.x0 (inputsK m c))) := a2_9 m ρ c hfin h
  have e1 : V9 (F := Ideal) m ρ c (Pipeline.arrRef spec3 1) = M.mk2 (fun (_ : Fin 1) j => M.meanK (M.sumT (a2I (inputsK m c) (0 : Fin 4) (M.x0 (inputsK m c)))) j) := mean2_9 m ρ c hfin h
  have e2 : V9 (F := Ideal) m ρ c (Pipeline.arrRef spec3 2) = M.mk2 (fun (_ : Fin 1) j => M.varK (M.sumT (a2I (inputsK m c) (0 : Fin 4) (M.x0 (inputsK m c)))) (M.sumsqT (a2I (inputsK m c) (0 : Fin 4) (M.x0 (inputsK m c)))) j) := var2_9 m ρ c hfin h
  have e3 : V9 (F := Ideal) m ρ c (Pipeline.arrRef spec3 3) = M.mk2 (fun (_ : Fin 1) j => (inputsK m c).app_bn_g (0 : Fin 4) j) := ag_9 m ρ c hfin h
  have e4 : V9 (F := Ideal) m ρ c (Pipeline.arrRef spec3 4) = M.mk2 (fun (_ : Fin 1) j => (inputsK m c).app_bn_b (0 : Fin 4) j) := ab_9 m ρ c hfin h
  exact shapeC (fin_a2I (inputsK m c) hfin (0 : Fin 4) (M.x0 (inputsK m c)) (MathStats.fin_x0 (inputsK m c) hfin)) e0 e1 e2 e3 e4

theorem a3_10 (hfin : (inputsK m c).Finite) (h : Entry0 m c (W5 (F := Ideal) m ρ c)) : W10 (F := Ideal) m ρ c (Proc.devRef .tc main_v111_0) = M.mk2 (a3I (inputsK m c) (0 : Fin 4) (M.x0 (inputsK m c))) :=
  (W10_arr m ρ c 5).trans ((RegC.arr3_5 (V9 (F := Ideal) m ρ) c).trans (congrArg M.mk2 (valC m ρ c hfin h)))
theorem S3_10 (hfin : (inputsK m c).Finite) (h : Entry0 m c (W5 (F := Ideal) m ρ c)) : W10 (F := Ideal) m ρ c (Proc.devRef .tc main_v111_1) = M.mk3 (M.sumT (a3I (inputsK m c) (0 : Fin 4) (M.x0 (inputsK m c)))) :=
  (W10_arr m ρ c 6).trans ((RegC.arr3_6 (V9 (F := Ideal) m ρ) c).trans (congrArg (fun v => M.mk3 (M.sumT v)) (valC m ρ c hfin h)))
theorem Q3_10 (hfin : (inputsK m c).Finite) (h : Entry0 m c (W5 (F := Ideal) m ρ c)) : W10 (F := Ideal) m ρ c (Proc.devRef .tc main_v111_2) = M.mk3 (M.sumsqT (a3I (inputsK m c) (0 : Fin 4) (M.x0 (inputsK m c)))) :=
  (W10_arr m ρ c 7).trans ((RegC.arr3_7 (V9 (F := Ideal) m ρ) c).trans (congrArg (fun v => M.mk3 (M.sumsqT v)) (valC m ρ c hfin h)))

/-! ## The third statistics stretch, with the next head's weight halves -/

theorem a3_11 (hfin : (inputsK m c).Finite) (h : Entry0 m c (W5 (F := Ideal) m ρ c)) : W11 (F := Ideal) m ρ c (Proc.devRef .tc main_v111_0) = M.mk2 (a3I (inputsK m c) (0 : Fin 4) (M.x0 (inputsK m c))) :=
  (keepW11 m ρ c main_v111_0 (nm (by decide))).trans (a3_10 m ρ c hfin h)
theorem mean3_11 (hfin : (inputsK m c).Finite) (h : Entry0 m c (W5 (F := Ideal) m ρ c)) : W11 (F := Ideal) m ρ c (Proc.devRef .tc main_v126) = M.mk2 (fun (_ : Fin 1) j => M.meanK (M.sumT (a3I (inputsK m c) (0 : Fin 4) (M.x0 (inputsK m c)))) j) := by
  have e := KStageFin.hostOps4_main_v126 (W10 (F := Ideal) m ρ c)
  rw [S3_10 m ρ c hfin h] at e
  exact e
theorem var3_11 (hfin : (inputsK m c).Finite) (h : Entry0 m c (W5 (F := Ideal) m ρ c)) : W11 (F := Ideal) m ρ c (Proc.devRef .tc main_v127) = M.mk2 (fun (_ : Fin 1) j => M.varK (M.sumT (a3I (inputsK m c) (0 : Fin 4) (M.x0 (inputsK m c)))) (M.sumsqT (a3I (inputsK m c) (0 : Fin 4) (M.x0 (inputsK m c)))) j) := by
  have e := KStageFin.hostOps4_main_v127 (W10 (F := Ideal) m ρ c)
  rw [S3_10 m ρ c hfin h, Q3_10 m ρ c hfin h] at e
  exact e
theorem gg_11 (hfin : (inputsK m c).Finite) (h : Entry0 m c (W5 (F := Ideal) m ρ c)) : W11 (F := Ideal) m ρ c (Proc.devRef .tc main_v130) = M.mk2 (fun (_ : Fin 1) j => (inputsK m c).gin_bn_g (0 : Fin 4) j) := by
  have e := KStageFin.hostOps4_main_v130 (W10 (F := Ideal) m ρ c)
  rw [args10 m ρ c hfin h main_arg12 (by decide)] at e
  exact e
theorem gb_11 (hfin : (inputsK m c).Finite) (h : Entry0 m c (W5 (F := Ideal) m ρ c)) : W11 (F := Ideal) m ρ c (Proc.devRef .tc main_v133) = M.mk2 (fun (_ : Fin 1) j => (inputsK m c).gin_bn_b (0 : Fin 4) j) := by
  have e := KStageFin.hostOps4_main_v133 (W10 (F := Ideal) m ρ c)
  rw [args10 m ρ c hfin h main_arg13 (by decide)] at e
  exact e
theorem wt_11 (hfin : (inputsK m c).Finite) (h : Entry0 m c (W5 (F := Ideal) m ρ c)) : W11 (F := Ideal) m ρ c (Proc.devRef .tc main_v137) = M.mk2 (M.top ((inputsK m c).pred_w1 (1 : Fin 5))) := by
  have e := KStageFin.hostOps4_main_v137 (W10 (F := Ideal) m ρ c)
  rw [args10 m ρ c hfin h main_arg14 (by decide)] at e
  exact e
theorem wb_11 (hfin : (inputsK m c).Finite) (h : Entry0 m c (W5 (F := Ideal) m ρ c)) : W11 (F := Ideal) m ρ c (Proc.devRef .tc main_v139) = M.mk2 (M.bot ((inputsK m c).pred_w1 (1 : Fin 5))) := by
  have e := KStageFin.hostOps4_main_v139 (W10 (F := Ideal) m ρ c)
  rw [args10 m ρ c hfin h main_arg14 (by decide)] at e
  exact e

/-! ## The fourth region: the layer's output and its two products with the next head's weight halves -/

theorem valD (hfin : (inputsK m c).Finite) (h : Entry0 m c (W5 (F := Ideal) m ρ c)) :
    RegNP.xnew (V11 (F := Ideal) m ρ c (Pipeline.arrRef spec4 0)) (V11 (F := Ideal) m ρ c (Pipeline.arrRef spec4 1)) (V11 (F := Ideal) m ρ c (Pipeline.arrRef spec4 2)) (V11 (F := Ideal) m ρ c (Pipeline.arrRef spec4 3))
      (V11 (F := Ideal) m ρ c (Pipeline.arrRef spec4 4)) (V11 (F := Ideal) m ρ c (Pipeline.arrRef spec4 5)) = M.x1 (inputsK m c) := by
  have e0 : V11 (F := Ideal) m ρ c (Pipeline.arrRef spec4 0) = M.mk2 (a3I (inputsK m c) (0 : Fin 4) (M.x0 (inputsK m c))) := a3_11 m ρ c hfin h
  have e1 : V11 (F := Ideal) m ρ c (Pipeline.arrRef spec4 1) = M.mk2 (fun (_ : Fin 1) j => M.meanK (M.sumT (a3I (inputsK m c) (0 : Fin 4) (M.x0 (inputsK m c)))) j) := mean3_11 m ρ c hfin h
  have e2 : V11 (F := Ideal) m ρ c (Pipeline.arrRef spec4 2) = M.mk2 (fun (_ : Fin 1) j => M.varK (M.sumT (a3I (inputsK m c) (0 : Fin 4) (M.x0 (inputsK m c)))) (M.sumsqT (a3I (inputsK m c) (0 : Fin 4) (M.x0 (inputsK m c)))) j) := var3_11 m ρ c hfin h
  have e3 : V11 (F := Ideal) m ρ c (Pipeline.arrRef spec4 3) = M.mk2 (fun (_ : Fin 1) j => (inputsK m c).gin_bn_g (0 : Fin 4) j) := gg_11 m ρ c hfin h
  have e4 : V11 (F := Ideal) m ρ c (Pipeline.arrRef spec4 4) = M.mk2 (fun (_ : Fin 1) j => (inputsK m c).gin_bn_b (0 : Fin 4) j) := gb_11 m ρ c hfin h
  have e5 : V11 (F := Ideal) m ρ c (Pipeline.arrRef spec4 5) = M.mk2 (M.x0 (inputsK m c)) := x11 m ρ c hfin h
  exact (shapeD (fin_a3I (inputsK m c) hfin (0 : Fin 4) (M.x0 (inputsK m c)) (MathStats.fin_x0 (inputsK m c) hfin)) e0 e1 e2 e3 e4 e5).trans
    (layerI_eq (inputsK m c) (0 : Fin 4) (M.x0 (inputsK m c))).symm

theorem x_12 (hfin : (inputsK m c).Finite) (h : Entry0 m c (W5 (F := Ideal) m ρ c)) : W12 (F := Ideal) m ρ c (Proc.devRef .tc main_v140_0) = M.mk2 (M.x1 (inputsK m c)) :=
  (W12_arr m ρ c 8).trans ((RegD.arr4_8 (V11 (F := Ideal) m ρ) c).trans (congrArg M.mk2 (valD m ρ c hfin h)))
theorem p_12 (hfin : (inputsK m c).Finite) (h : Entry0 m c (W5 (F := Ideal) m ρ c)) : W12 (F := Ideal) m ρ c (Proc.devRef .tc main_v140_1) = M.mk2 (M.mm (M.x1 (inputsK m c)) (M.top ((inputsK m c).pred_w1 (1 : Fin 5)))) :=
  (W12_arr m ρ c 9).trans ((RegD.arr4_9 (V11 (F := Ideal) m ρ) c).trans
    (congrArg M.mk2 (congrArg₂ M.mm (valD m ρ c hfin h) (congrArg (M.at2 (a := 128) (b := 128)) (wt_11 m ρ c hfin h)))))
theorem q_12 (hfin : (inputsK m c).Finite) (h : Entry0 m c (W5 (F := Ideal) m ρ c)) : W12 (F := Ideal) m ρ c (Proc.devRef .tc main_v140_2) = M.mk2 (M.mm (M.x1 (inputsK m c)) (M.bot ((inputsK m c).pred_w1 (1 : Fin 5)))) :=
  (W12_arr m ρ c 10).trans ((RegD.arr4_10 (V11 (F := Ideal) m ρ) c).trans
    (congrArg M.mk2 (congrArg₂ M.mm (valD m ρ c hfin h) (congrArg (M.at2 (a := 128) (b := 128)) (wb_11 m ρ c hfin h)))))

end Cert.KChain.La0

namespace Cert.KChain

/-- Layer 0's regions: from the layer's entry to its last region's exit. -/
theorem la0 (m : (ℓ : Loc nD τ sig) → Buf (Elt Ideal) ℓ) (ρ : Dev nD → PrngReg) (c : Dev nD)
    (hfin : (inputsK m c).Finite) (h : Entry0 m c (W5 (F := Ideal) m ρ c)) : Exit0 m c (W12 (F := Ideal) m ρ c) :=
  ⟨La0.x_12 m ρ c hfin h, La0.p_12 m ρ c hfin h, La0.q_12 m ρ c hfin h, La0.sc12 m ρ c hfin h, La0.args12 m ρ c hfin h⟩

end Cert.KChain

end
-- ==== Proof.KChainGather.lean ====
/-
  The gathers and the scatter-add of the head stretches, read as rows of a node array and as neighbour sums.
-/
import proofs.«416875_j80633716015165_3_alg».proof.Proof.Spec
import proofs.«416875_j80633716015165_3_alg».proof.Proof.GatherRows
import proofs.«416875_j80633716015165_3_alg».proof.Proof.KStageHead

noncomputable section

open Idealize.ShloMosaic Idealize.ShloMosaic.ValueIdx
open Cert.KernelIdeal Cert.KernelIdeal.Gen

namespace Cert.KChain

/-- The wrapped gather reads, at every edge, the table's row at the edge's index word. -/
theorem gath_eq (φ : FTy) (x : FVec Ideal S20000x128 φ) (idx : IVec S320000 32) :
    KStageHead.gath φ x idx = M.mk2 (M.rows (M.at2 x) (fun e => idx (ix1 e))) :=
  GatherRows.gather_rows_of gather_S20000x128_S320000x1_S320000x128_1_0_n_n_0_1_1128 _ rfl
    bcast_S320000_S320000x1_0 bcast_S_S320000 x idx

/-- Scattering the gathered source rows to the target words gives the neighbour sums. -/
theorem scat_gath_eq (x : FVec Ideal S20000x128 .f32) (src dst : IVec S320000 32) :
    KStageHead.scat dst (KStageHead.gath .f32 x src)
      = M.mk2 (M.neigh (M.at2 x) (fun e => src (ix1 e)) (fun e => dst (ix1 e))) :=
  GatherRows.neigh_eq_of gather_S20000x128_S320000x1_S320000x128_1_0_n_n_0_1_1128 _ rfl
    scatter_S20000x128_S320000x1_S320000x128_1_0_0_1 _ rfl bcast_S_S20000x128 bcast_S320000_S320000x1_0
    bcast_S_S320000 x src dst

end Cert.KChain

end
-- ==== Proof.KChainLh0.lean ====
/-
  Layer 0's head stretches: from what the buffers hold where the layer's last region is left (the next node array and
  its two per-node products) to what they hold where the next layer's first region is entered (the next head's score
  added to the running score, the neighbour sums, the next layer's parameter slices).
-/
import proofs.«416875_j80633716015165_3_alg».proof.Proof.KChainBase
import proofs.«416875_j80633716015165_3_alg».proof.Proof.KChainKeep
import proofs.«416875_j80633716015165_3_alg».proof.Proof.KChainArgs
import proofs.«416875_j80633716015165_3_alg».proof.Proof.KChainGather
import proofs.«416875_j80633716015165_3_alg».proof.Proof.KStageHead

set_option maxRecDepth 16384
-- one declaration at a time: each reading of a region's window array is evaluated on its own
set_option Elab.async false

noncomputable section

open Idealize.ShloMosaic Idealize.ShloMosaic.TcCoe Idealize.ShloMosaic.ValueIdx
open Cert.KernelIdeal Cert.KernelIdeal.Gen

namespace Cert.KChain.Lh0

variable (m : (ℓ : Loc nD τ sig) → Buf (Elt Ideal) ℓ) (ρ : Dev nD → PrngReg) (c : Dev nD)

/-! ## The arguments, the node array and the running score are kept -/

theorem args13 (hfin : (inputsK m c).Finite) (h : Exit0 m c (W12 (F := Ideal) m ρ c)) :
    ArgsKept m c (W13 (F := Ideal) m ρ c) := argsW13 m ρ c h.args
theorem args14 (hfin : (inputsK m c).Finite) (h : Exit0 m c (W12 (F := Ideal) m ρ c)) :
    ArgsKept m c (W14 (F := Ideal) m ρ c) := argsW14 m ρ c (args13 m ρ c hfin h)
theorem args15 (hfin : (inputsK m c).Finite) (h : Exit0 m c (W12 (F := Ideal) m ρ c)) :
    ArgsKept m c (W15 (F := Ideal) m ρ c) := argsW15 m ρ c (args14 m ρ c hfin h)

theorem x13 (hfin : (inputsK m c).Finite) (h : Exit0 m c (W12 (F := Ideal) m ρ c)) :
    W13 (F := Ideal) m ρ c (Proc.devRef .tc main_v140_0) = M.mk2 (M.x1 (inputsK m c)) :=
  (keepW13 m ρ c main_v140_0 (nm (by decide))).trans h.x
theorem x14 (hfin : (inputsK m c).Finite) (h : Exit0 m c (W12 (F := Ideal) m ρ c)) :
    W14 (F := Ideal) m ρ c (Proc.devRef .tc main_v140_0) = M.mk2 (M.x1 (inputsK m c)) :=
  (keepW14 m ρ c main_v140_0 (nm (by decide))).trans (x13 m ρ c hfin h)
theorem x15 (hfin : (inputsK m c).Finite) (h : Exit0 m c (W12 (F := Ideal) m ρ c)) :
    W15 (F := Ideal) m ρ c (Proc.devRef .tc main_v140_0) = M.mk2 (M.x1 (inputsK m c)) :=
  (keepW15 m ρ c main_v140_0 (nm (by decide))).trans (x14 m ρ c hfin h)

theorem sc13 (hfin : (inputsK m c).Finite) (h : Exit0 m c (W12 (F := Ideal) m ρ c)) :
    W13 (F := Ideal) m ρ c (Proc.devRef .tc main_v41) = M.mk2 (s0 (inputsK m c)) :=
  (keepW13 m ρ c main_v41 (nm (by decide))).trans h.score
theorem sc14 (hfin : (inputsK m c).Finite) (h : Exit0 m c (W12 (F := Ideal) m ρ c)) :
    W14 (F := Ideal) m ρ c (Proc.devRef .tc main_v41) = M.mk2 (s0 (inputsK m c)) :=
  (keepW14 m ρ c main_v41 (nm (by decide))).trans (sc13 m ρ c hfin h)

/-! ## The head: gathered products, bias, rectifier, second map, added to the running score -/

/-- The head's pre-activation: the source product's row plus the target product's row plus the first bias. -/
theorem pre13 (hfin : (inputsK m c).Finite) (h : Exit0 m c (W12 (F := Ideal) m ρ c)) :
    W13 (F := Ideal) m ρ c (Proc.devRef .tc main_v162)
      = M.mk2 (fun e j =>
          (M.rows (M.mm (M.x1 (inputsK m c)) (M.top ((inputsK m c).pred_w1 (1 : Fin 5)))) (inputsK m c).src e j
            + M.rows (M.mm (M.x1 (inputsK m c)) (M.bot ((inputsK m c).pred_w1 (1 : Fin 5)))) (inputsK m c).dst e j)
          + (inputsK m c).pred_b1 (1 : Fin 5) j) := by
  have e := KStageHead.ops5_v162 (W12 (F := Ideal) m ρ c)
  rw [h.p, h.q, h.args main_arg18 (by decide), h.args main_arg19 (by decide), h.args main_arg15 (by decide),
    gath_eq, gath_eq] at e
  exact e

/-- The rectified pre-activation. -/
theorem act14 (hfin : (inputsK m c).Finite) (h : Exit0 m c (W12 (F := Ideal) m ρ c)) :
    W14 (F := Ideal) m ρ c (Proc.devRef .tc main_v163)
      = M.mk2 (fun e j => max
          ((M.rows (M.mm (M.x1 (inputsK m c)) (M.top ((inputsK m c).pred_w1 (1 : Fin 5)))) (inputsK m c).src e j
            + M.rows (M.mm (M.x1 (inputsK m c)) (M.bot ((inputsK m c).pred_w1 (1 : Fin 5)))) (inputsK m c).dst e j)
          + (inputsK m c).pred_b1 (1 : Fin 5) j) M.c0) := by
  have e := KStageHead.ops5_1_v163 (W13 (F := Ideal) m ρ c)
  rw [pre13 m ρ c hfin h] at e
  exact e

/-- The running score with this head's score added. -/
theorem sc15 (hfin : (inputsK m c).Finite) (h : Exit0 m c (W12 (F := Ideal) m ρ c)) :
    W15 (F := Ideal) m ρ c (Proc.devRef .tc main_v172) = M.mk2 (s1 (inputsK m c)) := by
  have e := KStageHead.ops5_2_v172 (W14 (F := Ideal) m ρ c)
  rw [sc14 m ρ c hfin h, act14 m ρ c hfin h, args14 m ρ c hfin h main_arg16 (by decide),
    args14 m ρ c hfin h main_arg17 (by decide)] at e
  refine e.trans (congrArg M.mk2 ?_)
  funext ed k
  show s0 (inputsK m c) ed k
      + M.headK (M.rows (M.mm (M.x1 (inputsK m c)) (M.top ((inputsK m c).pred_w1 (1 : Fin 5)))) (inputsK m c).src)
          (M.rows (M.mm (M.x1 (inputsK m c)) (M.bot ((inputsK m c).pred_w1 (1 : Fin 5)))) (inputsK m c).dst)
          ((inputsK m c).pred_b1 (1 : Fin 5)) ((inputsK m c).pred_w2 (1 : Fin 5)) ((inputsK m c).pred_b2 (1 : Fin 5)) ed k
      = s1 (inputsK m c) ed k
  rw [headI_K (inputsK m c) (1 : Fin 5) (M.x1 (inputsK m c))]
  rfl

/-! ## The neighbour sums and the next layer's parameter slices -/

theorem neigh15 (hfin : (inputsK m c).Finite) (h : Exit0 m c (W12 (F := Ideal) m ρ c)) :
    W15 (F := Ideal) m ρ c (Proc.devRef .tc main_v182)
      = M.mk2 (M.neigh (M.x1 (inputsK m c)) (inputsK m c).src (inputsK m c).dst) := by
  have e := KStageHead.ops5_2_v182 (W14 (F := Ideal) m ρ c)
  rw [x14 m ρ c hfin h, args14 m ρ c hfin h main_arg18 (by decide), args14 m ρ c hfin h main_arg19 (by decide),
    scat_gath_eq] at e
  exact e
theorem eps15 (hfin : (inputsK m c).Finite) (h : Exit0 m c (W12 (F := Ideal) m ρ c)) :
    W15 (F := Ideal) m ρ c (Proc.devRef .tc main_v185)
      = M.mk2 (fun (_ : Fin 1) (_ : Fin 1) => (inputsK m c).eps (1 : Fin 4)) := by
  have e := KStageHead.ops5_2_v185 (W14 (F := Ideal) m ρ c)
  rw [args14 m ρ c hfin h main_arg3 (by decide)] at e
  exact e
theorem w1_15 (hfin : (inputsK m c).Finite) (h : Exit0 m c (W12 (F := Ideal) m ρ c)) :
    W15 (F := Ideal) m ρ c (Proc.devRef .tc main_v187) = M.mk2 ((inputsK m c).mlp_w1 (1 : Fin 4)) := by
  have e := KStageHead.ops5_2_v187 (W14 (F := Ideal) m ρ c)
  rw [args14 m ρ c hfin h main_arg4 (by decide)] at e
  exact e
theorem b1_15 (hfin : (inputsK m c).Finite) (h : Exit0 m c (W12 (F := Ideal) m ρ c)) :
    W15 (F := Ideal) m ρ c (Proc.devRef .tc main_v190)
      = M.mk2 (fun (_ : Fin 1) (j : Fin 128) => (inputsK m c).mlp_b1 (1 : Fin 4) j) := by
  have e := KStageHead.ops5_2_v190 (W14 (F := Ideal) m ρ c)
  rw [args14 m ρ c hfin h main_arg5 (by decide)] at e
  exact e

end Cert.KChain.Lh0

namespace Cert.KChain

/-- Layer 0's head stretches: from the layer's last region's exit to the next layer's entry. -/
theorem lh0 (m : (ℓ : Loc nD τ sig) → Buf (Elt Ideal) ℓ) (ρ : Dev nD → PrngReg) (c : Dev nD)
    (hfin : (inputsK m c).Finite) (h : Exit0 m c (W12 (F := Ideal) m ρ c)) : Entry1 m c (W15 (F := Ideal) m ρ c) :=
  ⟨Lh0.x15 m ρ c hfin h, Lh0.sc15 m ρ c hfin h, Lh0.neigh15 m ρ c hfin h, Lh0.eps15 m ρ c hfin h,
    Lh0.w1_15 m ρ c hfin h, Lh0.b1_15 m ρ c hfin h, Lh0.args15 m ρ c hfin h⟩

end Cert.KChain

end
-- ==== Proof.RegA5.lean ====
/-
  The value of region 5 (the first kernel of layer 1): what its three output arrays hold after the region, as functions
  of the five input arrays as the region finds them.

  The body forms, on each tile of 4000 rows, the block a = ((1 + ε) · x + neigh) · w₁ + b₁ of the layer's first linear map
  (the contraction over the 128 columns of the left factor; the narrowing of the factors is the identity on the extended
  reals), stores it, and stores beside it the tile's column sums of a and of a², each repeated over eight rows. Read at an
  index, the body's value at row p of tile t is the first linear map of the whole arrays at row 4000 t + p; the blocks the
  points write back tile each output array, so the arrays end holding the first linear map, its tiled column sums and
  the tiled column sums of its squares.
-/
import proofs.«416875_j80633716015165_3_alg».proof.Proof.Spec
import proofs.«416875_j80633716015165_3_alg».proof.Proof.FrameKI
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

open Idealize.ShloMosaic Idealize.ShloMosaic.ValueIdx

namespace Cert.RegA5

open Cert.KernelIdeal Cert.KernelIdeal.Gen
open Idealize.ShloMosaic.TcCoe
open Idealize.ShloMosaic.Pipeline (Dat)

/-! ## The block product at an index -/

theorem lhs_dot_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl

theorem lhs_dot_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q

theorem rhs_dot_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q

theorem rhs_dot_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-- The product of a 4000×128 block with a 128×128 block into the zero splat, at (p, q): the sum over the contracted
    coordinate of row p of the left times column q of the right. -/
theorem mm_apply (a : FVec Ideal S4000x128 .bf16) (b : FVec Ideal S128x128 .bf16) (p : Fin 4000) (q : Fin 128) :
    matmul dot_S4000x128_S128x128_S4000x128_1_0_0_1_n_n none a b (constant (F := Ideal) S4000x128 .f32 0x00000000#32) (ix2 p q)
      = ∑ k : Fin 128, a (ix2 p k) * b (ix2 k q) := by
  refine (Ideal.matmul_constant_zero_apply dot_S4000x128_S128x128_S4000x128_1_0_0_1_n_n none a b (ix2 p q)).trans ?_
  rw [← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k :=
    funext fun a => Fin.ext (by
      match a with
      | ⟨0, _⟩ => exact lhs_dot_0 _ _
      | ⟨1, _⟩ => exact (lhs_dot_1 _ _).trans hk)
  have er : dot_S4000x128_S128x128_S4000x128_1_0_0_1_n_n.rhsIdx (ix2 p q) ((contrEquiv1 dot_S4000x128_S128x128_S4000x128_1_0_0_1_n_n 128 rfl rfl).symm k) = ix2 k q :=
    funext fun a => Fin.ext (by
      match a with
      | ⟨0, _⟩ => exact (rhs_dot_0 _ _).trans hk
      | ⟨1, _⟩ => exact rhs_dot_1 _ _)
  rw [el, er]

/-! ## The layout operations of the body at an index -/

/-- A 1×1 array broadcast over the block reads its one entry everywhere. -/
theorem bcast11_apply {α : Type} (v : S1x1.Idx → α) (h : S1x1.Broadcasts S4000x128) (p : Fin 4000) (q : Fin 128) :
    broadcastTo S4000x128 v h (ix2 p q) = v (ix2 0 0) :=
  broadcastTo_apply v h (ix2 p q) (ix2 0 0) fun a => by
    match a with
    | ⟨0, _⟩ => rfl
    | ⟨1, _⟩ => rfl

/-- A column sum's row vector, viewed 1×1×128 and repeated over eight rows, reads at (u, s, j) the vector at j. -/
theorem rep8_apply {α : Type} (v : S128.Idx → α) (h1 : S128.ShapeCasts S1x128) (h2 : S1x128.ShapeCasts S1x1x128)
    (h3 : S1x1x128.ShapeCasts S1x1x128) (h4 : S1x1x128.Broadcasts S1x8x128) (u : Fin 1) (s : Fin 8) (j : Fin 128) :
    broadcastTo S1x8x128 (shapeCast S1x1x128 (shapeCast S1x1x128 (shapeCast S1x128 v h1) h2) h3) h4 (ix3 u s j) = v (ix1 j) := by
  refine (broadcastTo_apply _ h4 (ix3 u s j) (ix3 (0 : Fin 1) (0 : Fin 1) j) fun a => ?_).trans ?_
  · match a with
    | ⟨0, _⟩ => rfl
    | ⟨1, _⟩ => rfl
    | ⟨2, _⟩ => rfl
  rw [shapeCast_self]
  refine (shapeCast_ab_1ab_apply _ h2 (0 : Fin 1) (0 : Fin 1) j).trans ?_
  exact shapeCast_a_1a_apply v h1 (0 : Fin 1) j

/-- The reduced index with the summed coordinate put back is (r, j). -/
theorem lift_red (h : S4000x128.Reduces [0] S128) (j : Fin 128) (r : Fin 4000) : h.lift (ix1 j) r = ix2 r j := by
  funext a; apply Fin.ext
  match a with
  | ⟨0, _⟩ => rfl
  | ⟨1, _⟩ => rfl

/-- The column sum of a block at j: the sum over its 4000 rows. -/
theorem colsum_apply (v : FVec Ideal S4000x128 .f32) (h : S4000x128.Reduces [0] S128) (hφ : FKind.Formats .f32)
    (hacc : (0x00000000#32 : BitVec 32) = FKind.add.neutral .f32 hφ) (j : Fin 128) :
    multiReduction .add [0] S128 v 0x00000000#32 h hφ hacc (ix1 j) = ∑ r : Fin 4000, v (ix2 r j) := by
  refine (Ideal.multiReduction_add_single v 0x00000000#32 h hφ hacc (ix1 j)).trans ?_
  exact Finset.sum_congr rfl fun r _ => congrArg v (lift_red h j r)

/-! ## The body's payloads at an index -/

/-- The value the body forms, at row p and column q of its block: the block of the first linear map. -/
theorem pay1_apply (e : FVec Ideal S1x1 .f32) (x ng : FVec Ideal S4000x128 .f32) (w : FVec Ideal S128x128 .f32)
    (b : FVec Ideal S1x128 .f32) (p : Fin 4000) (q : Fin 128) :
    k5_pay1 (F := Ideal) e x ng w b (ix2 p q)
      = (∑ k : Fin 128, ((Ideal.ofBits .f32 0x3F800000#32 + e (ix2 0 0)) * x (ix2 p k) + ng (ix2 p k)) * w (ix2 k q))
        + b (ix2 0 q) := by
  unfold k5_pay1
  simp only [addf_apply, mulf_apply, truncf_apply, broadcast_apply, shapeCast_self, mm_apply, bcast11_apply,
    broadcastTo_1b_ab_apply]
  rfl

/-- The first output's payload: the same value (the narrowing is the identity on the extended reals). -/
theorem pay2_apply (e : FVec Ideal S1x1 .f32) (x ng : FVec Ideal S4000x128 .f32) (w : FVec Ideal S128x128 .f32)
    (b : FVec Ideal S1x128 .f32) (p : Fin 4000) (q : Fin 128) :
    (k5_pay2 (F := Ideal) e x ng w b (ix2 p q) : EReal) = k5_pay1 (F := Ideal) e x ng w b (ix2 p q) := rfl

/-- The second output's payload at (u, s, j): the block's column sum at j, whatever the row s. -/
theorem pay3_apply (e : FVec Ideal S1x1 .f32) (x ng : FVec Ideal S4000x128 .f32) (w : FVec Ideal S128x128 .f32)
    (b : FVec Ideal S1x128 .f32) (u : Fin 1) (s : Fin 8) (j : Fin 128) :
    k5_pay3 (F := Ideal) e x ng w b (ix3 u s j) = ∑ r : Fin 4000, k5_pay1 (F := Ideal) e x ng w b (ix2 r j) := by
  unfold k5_pay3
  refine (rep8_apply _ _ _ _ _ u s j).trans ?_
  exact colsum_apply _ _ _ _ j

/-- The third output's payload at (u, s, j): the column sum of the block's squares at j. -/
theorem pay4_apply (e : FVec Ideal S1x1 .f32) (x ng : FVec Ideal S4000x128 .f32) (w : FVec Ideal S128x128 .f32)
    (b : FVec Ideal S1x128 .f32) (u : Fin 1) (s : Fin 8) (j : Fin 128) :
    k5_pay4 (F := Ideal) e x ng w b (ix3 u s j)
      = ∑ r : Fin 4000, k5_pay1 (F := Ideal) e x ng w b (ix2 r j) * k5_pay1 (F := Ideal) e x ng w b (ix2 r j) := by
  unfold k5_pay4
  refine (rep8_apply _ _ _ _ _ u s j).trans ?_
  exact colsum_apply _ _ _ _ j

/-! ## From the blocks to the arrays -/

variable (V : (c : Dev nD) → (b : Ref sig .tc) → Buf (Elt Ideal) ((c : Thread nD τ).loc b))

theorem hz2 : (![0, 0] : Fin 2 → Nat) = fun _ => 0 := funext fun a => by
  match a with
  | ⟨0, _⟩ => rfl
  | ⟨1, _⟩ => rfl

theorem hz3 : (![0, 0, 0] : Fin 3 → Nat) = fun _ => 0 := funext fun a => by
  match a with
  | ⟨0, _⟩ => rfl
  | ⟨1, _⟩ => rfl
  | ⟨2, _⟩ => rfl

/-- A grid point as the number of its tile of 4000 rows. -/
def tile (t : Fin cfg5.N) : Fin 5 := ⟨t.val, by have h := t.isLt; have e : cfg5.N = 5 := N_5; omega⟩

/-- The first linear map of the region's input arrays: ((1 + ε) · x + neigh) · w₁ + b₁, rows by columns. -/
abbrev linA (c : Dev nD) : Fin 20000 → Fin 128 → EReal :=
  M.lin (M.at2 (a := 20000) (b := 128) (V c (Pipeline.arrRef spec5 0)))
    (M.at2 (a := 20000) (b := 128) (V c (Pipeline.arrRef spec5 1)))
    (M.at2 (a := 1) (b := 1) (V c (Pipeline.arrRef spec5 2)) 0 0)
    (M.at2 (a := 128) (b := 128) (V c (Pipeline.arrRef spec5 3)))
    (fun j => M.at2 (a := 1) (b := 128) (V c (Pipeline.arrRef spec5 4)) 0 j)

/-- The index maps, decided over the grid: the row-block windows sit at block (t, 0), the parameter windows at
    block (0, 0), the partial-sum windows at block (t, 0, 0). -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0
    ∧ win5_6.index t (0 : Fin 3) = t.val ∧ win5_6.index t (1 : Fin 3) = 0 ∧ win5_6.index t (2 : Fin 3) = 0
    ∧ win5_7.index t (0 : Fin 3) = t.val ∧ win5_7.index t (1 : Fin 3) = 0 ∧ win5_7.index t (2 : Fin 3) = 0 :=
  (by decide +kernel : ∀ t : Fin grid5.N, _)

/-- The node block at point t is rows 4000 t … 4000 t + 3999 of the node array. -/
theorem blk_x (c : Dev nD) (t : Fin cfg5.N) (p : Fin 4000) (k : Fin 128) :
    (iblk5 V c 0 t : S4000x128.Idx → EReal) (ix2 p k)
      = M.at2 (a := 20000) (b := 128) (V c (Pipeline.arrRef spec5 0)) (M.tileRow (tile t) p) k := by
  obtain ⟨e0, e1, -⟩ := idx_facts t
  unfold iblk5
  rw [View.read_apply]
  show (V c (Pipeline.arrRef spec5 0) : S20000x128.Idx → EReal) _ = (V c (Pipeline.arrRef spec5 0) : S20000x128.Idx → EReal) _
  congr 1
  funext a
  apply Fin.ext
  match a with
  | ⟨0, _⟩ => show win5_0.index t (0 : Fin 2) * 4000 + 1 * p.val = 4000 * t.val + p.val; rw [e0]; omega
  | ⟨1, _⟩ => show win5_0.index t (1 : Fin 2) * 128 + 1 * k.val = k.val; rw [e1]; omega

/-- The neighbour-sum block at point t is the same rows of the neighbour-sum array. -/
theorem blk_ng (c : Dev nD) (t : Fin cfg5.N) (p : Fin 4000) (k : Fin 128) :
    (iblk5 V c 1 t : S4000x128.Idx → EReal) (ix2 p k)
      = M.at2 (a := 20000) (b := 128) (V c (Pipeline.arrRef spec5 1)) (M.tileRow (tile t) p) k := by
  obtain ⟨-, -, e0, e1, -⟩ := idx_facts t
  unfold iblk5
  rw [View.read_apply]
  show (V c (Pipeline.arrRef spec5 1) : S20000x128.Idx → EReal) _ = (V c (Pipeline.arrRef spec5 1) : S20000x128.Idx → EReal) _
  congr 1
  funext a
  apply Fin.ext
  match a with
  | ⟨0, _⟩ => show win5_1.index t (0 : Fin 2) * 4000 + 1 * p.val = 4000 * t.val + p.val; rw [e0]; omega
  | ⟨1, _⟩ => show win5_1.index t (1 : Fin 2) * 128 + 1 * k.val = k.val; rw [e1]; omega

/-- The ε block at every point is the whole 1×1 array. -/
theorem blk_e (c : Dev nD) (t : Fin cfg5.N) :
    (iblk5 V c 2 t : S1x1.Idx → EReal) (ix2 0 0) = M.at2 (a := 1) (b := 1) (V c (Pipeline.arrRef spec5 2)) 0 0 := by
  obtain ⟨-, -, -, -, e0, e1, -⟩ := idx_facts t
  unfold iblk5
  rw [View.read_apply]
  show (V c (Pipeline.arrRef spec5 2) : S1x1.Idx → EReal) _ = (V c (Pipeline.arrRef spec5 2) : S1x1.Idx → EReal) _
  congr 1
  funext a
  apply Fin.ext
  match a with
  | ⟨0, _⟩ => show win5_2.index t (0 : Fin 2) * 1 + 1 * 0 = 0; rw [e0]
  | ⟨1, _⟩ => show win5_2.index t (1 : Fin 2) * 1 + 1 * 0 = 0; rw [e1]

/-- The weight block at every point is the whole weight array. -/
theorem blk_w (c : Dev nD) (t : Fin cfg5.N) (k q : Fin 128) :
    (iblk5 V c 3 t : S128x128.Idx → EReal) (ix2 k q) = M.at2 (a := 128) (b := 128) (V c (Pipeline.arrRef spec5 3)) k q := by
  obtain ⟨-, -, -, -, -, -, e0, e1, -⟩ := idx_facts t
  unfold iblk5
  rw [View.read_apply]
  show (V c (Pipeline.arrRef spec5 3) : S128x128.Idx → EReal) _ = (V c (Pipeline.arrRef spec5 3) : S128x128.Idx → EReal) _
  congr 1
  funext a
  apply Fin.ext
  match a with
  | ⟨0, _⟩ => show win5_3.index t (0 : Fin 2) * 128 + 1 * k.val = k.val; rw [e0]; omega
  | ⟨1, _⟩ => show win5_3.index t (1 : Fin 2) * 128 + 1 * q.val = q.val; rw [e1]; omega

/-- The bias block at every point is the whole 1×128 bias array. -/
theorem blk_b (c : Dev nD) (t : Fin cfg5.N) (q : Fin 128) :
    (iblk5 V c 4 t : S1x128.Idx → EReal) (ix2 0 q) = M.at2 (a := 1) (b := 128) (V c (Pipeline.arrRef spec5 4)) 0 q := by
  obtain ⟨-, -, -, -, -, -, -, -, e0, e1, -⟩ := idx_facts t
  unfold iblk5
  rw [View.read_apply]
  show (V c (Pipeline.arrRef spec5 4) : S1x128.Idx → EReal) _ = (V c (Pipeline.arrRef spec5 4) : S1x128.Idx → EReal) _
  congr 1
  funext a
  apply Fin.ext
  match a with
  | ⟨0, _⟩ => show win5_4.index t (0 : Fin 2) * 1 + 1 * 0 = 0; rw [e0]
  | ⟨1, _⟩ => show win5_4.index t (1 : Fin 2) * 128 + 1 * q.val = q.val; rw [e1]; omega

/-- The body's value on the blocks of point t, at (p, q), is the first linear map of the arrays at row 4000 t + p. -/
theorem pay1_blk (c : Dev nD) (t : Fin cfg5.N) (p : Fin 4000) (q : Fin 128) :
    k5_pay1 (F := Ideal) (iblk5 V c 2 t) (iblk5 V c 0 t) (iblk5 V c 1 t) (iblk5 V c 3 t) (iblk5 V c 4 t) (ix2 p q)
      = linA V c (M.tileRow (tile t) p) q := by
  refine (pay1_apply (iblk5 V c 2 t) (iblk5 V c 0 t) (iblk5 V c 1 t) (iblk5 V c 3 t) (iblk5 V c 4 t) p q).trans ?_
  unfold linA M.lin M.affine M.mm
  refine congrArg₂ (fun a b : EReal => a + b) (Finset.sum_congr rfl fun k _ => ?_) (blk_b V c t q)
  refine congrArg₂ (fun a b : EReal => a * b) ?_ (blk_w V c t k q)
  refine congrArg₂ (fun a b : EReal => a + b) ?_ (blk_ng V c t p k)
  refine congrArg₂ (fun a b : EReal => a * b) ?_ (blk_x V c t p k)
  exact congrArg (fun a : EReal => M.c1 + a) (blk_e V c t)

/-! ### Output window 5: the first linear map -/

/-- What point t writes back is block t of the first linear map of the input arrays. -/
theorem flushed5 (c : Dev nD) (t : Fin cfg5.N) :
    (dat5 (F := Ideal) V c).flushed 5 t = ((cfg5.win 5).blk t).view.read (Elt Ideal) (M.mk2 (linA V c)) := by
  show (cfg5.win 5).cut (grid5.coords t) ((dat5 V c).after 5 t) = _
  rw [after5_5]
  unfold out5_5
  rw [View.canon_unit_zero hz2]
  simp only [View.ld_unit_zero (S := S1x1) hz2, View.ld_unit_zero (S := S4000x128) hz2,
    View.ld_unit_zero (S := S128x128) hz2, View.ld_unit_zero (S := S1x128) hz2]
  obtain ⟨-, -, -, -, -, -, -, -, -, -, e0, e1, -⟩ := idx_facts t
  funext j
  obtain ⟨p, q, rfl⟩ : ∃ (p : Fin 4000) (q : Fin 128), j = ix2 p q := ⟨j 0, j 1, eq_ix2 j⟩
  rw [View.read_apply]
  show k5_pay1 (F := Ideal) (iblk5 V c 2 t) (iblk5 V c 0 t) (iblk5 V c 1 t) (iblk5 V c 3 t) (iblk5 V c 4 t) (ix2 p q)
    = linA V c ((((cfg5.win 5).blk t).view.emb (ix2 p q)) 0) ((((cfg5.win 5).blk t).view.emb (ix2 p q)) 1)
  refine (pay1_blk V c t p q).trans ?_
  refine congrArg₂ (linA V c) (Fin.ext ?_) (Fin.ext ?_)
  · show 4000 * t.val + p.val = win5_5.index t (0 : Fin 2) * 4000 + 1 * p.val; rw [e0]; omega
  · show q.val = win5_5.index t (1 : Fin 2) * 128 + 1 * q.val; rw [e1]; omega

/-- An index of the array is in point t's block iff each coordinate is in the block's range on its axis. -/
theorem mem_blk5 (t : Fin cfg5.N) (i : S20000x128.Idx) :
    i ∈ ((cfg5.win 5).blk t).view.set ↔ ∀ a : Fin 2, win5_5.index t a * S4000x128.size a ≤ (i a).val
      ∧ (i a).val < win5_5.index t a * S4000x128.size a + S4000x128.size a := by
  show i ∈ ((View.whole main_v191_0).slice (win5_5.rect t)).set ↔ _
  rw [View.set_slice_whole, Rect.mem_set_unit]
  exact Iff.rfl

/-- Row r is in the block of point r / 4000. -/
theorem cover5 (i : S20000x128.Idx) :
    ∃ t : Fin cfg5.N, (cfg5.win 5).flush t = true ∧ i ∈ ((cfg5.win 5).blk t).view.set := by
  have hi0 : (i 0).val < 20000 := (i 0).isLt
  have hi1 : (i 1).val < 128 := (i 1).isLt
  obtain ⟨t, ht⟩ : ∃ t : Fin cfg5.N, t.val = (i 0).val / 4000 :=
    ⟨⟨(i 0).val / 4000, by rw [show cfg5.N = 5 from N_5]; omega⟩, rfl⟩
  obtain ⟨-, -, -, -, -, -, -, -, -, -, e0, e1, -⟩ := idx_facts t
  refine ⟨t, flush5_5 t, ?_⟩
  rw [mem_blk5]
  intro a
  match a with
  | ⟨0, _⟩ =>
    show win5_5.index t (0 : Fin 2) * 4000 ≤ (i 0).val ∧ (i 0).val < win5_5.index t (0 : Fin 2) * 4000 + 4000
    rw [e0, ht]; omega
  | ⟨1, _⟩ =>
    show win5_5.index t (1 : Fin 2) * 128 ≤ (i 1).val ∧ (i 1).val < win5_5.index t (1 : Fin 2) * 128 + 128
    rw [e1]; omega

/-- THE FIRST OUTPUT ARRAY after the region: the first linear map of the input arrays. -/
theorem arr5_5 (c : Dev nD) :
    (dat5 (F := Ideal) V c).arrAt 5 cfg5.N = M.mk2 (linA V c) :=
  (dat5 (F := Ideal) V c).arrAt_eq_of_cover 5 (M.mk2 (linA V c)) (fun t _ => flushed5 V c t) cover5

/-! ### Output windows 6 and 7: the tiles' column sums, of the values and of their squares -/

/-- An index of a partial-sum array is in point t's block iff each coordinate is in the block's range on its axis. -/
theorem mem_blk6 (t : Fin cfg5.N) (i : S5x8x128.Idx) :
    i ∈ ((cfg5.win 6).blk t).view.set ↔ ∀ a : Fin 3, win5_6.index t a * S1x8x128.size a ≤ (i a).val
      ∧ (i a).val < win5_6.index t a * S1x8x128.size a + S1x8x128.size a := by
  show i ∈ ((View.whole main_v191_1).slice (win5_6.rect t)).set ↔ _
  rw [View.set_slice_whole, Rect.mem_set_unit]
  exact Iff.rfl

theorem mem_blk7 (t : Fin cfg5.N) (i : S5x8x128.Idx) :
    i ∈ ((cfg5.win 7).blk t).view.set ↔ ∀ a : Fin 3, win5_7.index t a * S1x8x128.size a ≤ (i a).val
      ∧ (i a).val < win5_7.index t a * S1x8x128.size a + S1x8x128.size a := by
  show i ∈ ((View.whole main_v191_2).slice (win5_7.rect t)).set ↔ _
  rw [View.set_slice_whole, Rect.mem_set_unit]
  exact Iff.rfl

/-- Tile u's eight rows are the block of point u. -/
theorem cover6 (i : S5x8x128.Idx) :
    ∃ t : Fin cfg5.N, (cfg5.win 6).flush t = true ∧ i ∈ ((cfg5.win 6).blk t).view.set := by
  have hi0 : (i 0).val < 5 := (i 0).isLt
  have hi1 : (i 1).val < 8 := (i 1).isLt
  have hi2 : (i 2).val < 128 := (i 2).isLt
  obtain ⟨t, ht⟩ : ∃ t : Fin cfg5.N, t.val = (i 0).val :=
    ⟨⟨(i 0).val, by rw [show cfg5.N = 5 from N_5]; omega⟩, rfl⟩
  obtain ⟨-, -, -, -, -, -, -, -, -, -, -, -, e0, e1, e2, -⟩ := idx_facts t
  refine ⟨t, flush5_6 t, ?_⟩
  rw [mem_blk6]
  intro a
  match a with
  | ⟨0, _⟩ =>
    show win5_6.index t (0 : Fin 3) * 1 ≤ (i 0).val ∧ (i 0).val < win5_6.index t (0 : Fin 3) * 1 + 1
    rw [e0, ht]; omega
  | ⟨1, _⟩ =>
    show win5_6.index t (1 : Fin 3) * 8 ≤ (i 1).val ∧ (i 1).val < win5_6.index t (1 : Fin 3) * 8 + 8
    rw [e1]; omega
  | ⟨2, _⟩ =>
    show win5_6.index t (2 : Fin 3) * 128 ≤ (i 2).val ∧ (i 2).val < win5_6.index t (2 : Fin 3) * 128 + 128
    rw [e2]; omega

theorem cover7 (i : S5x8x128.Idx) :
    ∃ t : Fin cfg5.N, (cfg5.win 7).flush t = true ∧ i ∈ ((cfg5.win 7).blk t).view.set := by
  have hi0 : (i 0).val < 5 := (i 0).isLt
  have hi1 : (i 1).val < 8 := (i 1).isLt
  have hi2 : (i 2).val < 128 := (i 2).isLt
  obtain ⟨t, ht⟩ : ∃ t : Fin cfg5.N, t.val = (i 0).val :=
    ⟨⟨(i 0).val, by rw [show cfg5.N = 5 from N_5]; omega⟩, rfl⟩
  obtain ⟨-, -, -, -, -, -, -, -, -, -, -, -, -, -, -, e0, e1, e2⟩ := idx_facts t
  refine ⟨t, flush5_7 t, ?_⟩
  rw [mem_blk7]
  intro a
  match a with
  | ⟨0, _⟩ =>
    show win5_7.index t (0 : Fin 3) * 1 ≤ (i 0).val ∧ (i 0).val < win5_7.index t (0 : Fin 3) * 1 + 1
    rw [e0, ht]; omega
  | ⟨1, _⟩ =>
    show win5_7.index t (1 : Fin 3) * 8 ≤ (i 1).val ∧ (i 1).val < win5_7.index t (1 : Fin 3) * 8 + 8
    rw [e1]; omega
  | ⟨2, _⟩ =>
    show win5_7.index t (2 : Fin 3) * 128 ≤ (i 2).val ∧ (i 2).val < win5_7.index t (2 : Fin 3) * 128 + 128
    rw [e2]; omega

/-- What point t writes back to the second output is block t of the tiles' column sums. -/
theorem flushed6 (c : Dev nD) (t : Fin cfg5.N) :
    (dat5 (F := Ideal) V c).flushed 6 t = ((cfg5.win 6).blk t).view.read (Elt Ideal) (M.mk3 (M.sumT (linA V c))) := by
  show (cfg5.win 6).cut (grid5.coords t) ((dat5 V c).after 6 t) = _
  rw [after5_6]
  unfold out5_6
  rw [View.canon_unit_zero hz3]
  simp only [View.ld_unit_zero (S := S1x1) hz2, View.ld_unit_zero (S := S4000x128) hz2,
    View.ld_unit_zero (S := S128x128) hz2, View.ld_unit_zero (S := S1x128) hz2]
  obtain ⟨-, -, -, -, -, -, -, -, -, -, -, -, e0, e1, e2, -⟩ := idx_facts t
  funext j
  obtain ⟨u, s, q, rfl⟩ : ∃ (u : Fin 1) (s : Fin 8) (q : Fin 128), j = ix3 u s q := ⟨j 0, j 1, j 2, eq_ix3 j⟩
  rw [View.read_apply]
  show k5_pay3 (F := Ideal) (iblk5 V c 2 t) (iblk5 V c 0 t) (iblk5 V c 1 t) (iblk5 V c 3 t) (iblk5 V c 4 t) (ix3 u s q)
    = ∑ r : Fin 4000, linA V c (M.tileRow ((((cfg5.win 6).blk t).view.emb (ix3 u s q)) 0) r) ((((cfg5.win 6).blk t).view.emb (ix3 u s q)) 2)
  refine (pay3_apply (iblk5 V c 2 t) (iblk5 V c 0 t) (iblk5 V c 1 t) (iblk5 V c 3 t) (iblk5 V c 4 t) u s q).trans ?_
  refine Finset.sum_congr rfl fun r _ => (pay1_blk V c t r q).trans ?_
  have hu : u.val = 0 := by omega
  refine congrArg₂ (linA V c) (congrArg (fun z : Fin 5 => M.tileRow z r) (Fin.ext ?_)) (Fin.ext ?_)
  · show t.val = win5_6.index t (0 : Fin 3) * 1 + 1 * u.val; rw [e0, hu]; omega
  · show q.val = win5_6.index t (2 : Fin 3) * 128 + 1 * q.val; rw [e2]; omega

/-- What point t writes back to the third output is block t of the tiles' column sums of squares. -/
theorem flushed7 (c : Dev nD) (t : Fin cfg5.N) :
    (dat5 (F := Ideal) V c).flushed 7 t = ((cfg5.win 7).blk t).view.read (Elt Ideal) (M.mk3 (M.sumsqT (linA V c))) := by
  show (cfg5.win 7).cut (grid5.coords t) ((dat5 V c).after 7 t) = _
  rw [after5_7]
  unfold out5_7
  rw [View.canon_unit_zero hz3]
  simp only [View.ld_unit_zero (S := S1x1) hz2, View.ld_unit_zero (S := S4000x128) hz2,
    View.ld_unit_zero (S := S128x128) hz2, View.ld_unit_zero (S := S1x128) hz2]
  obtain ⟨-, -, -, -, -, -, -, -, -, -, -, -, -, -, -, e0, e1, e2⟩ := idx_facts t
  funext j
  obtain ⟨u, s, q, rfl⟩ : ∃ (u : Fin 1) (s : Fin 8) (q : Fin 128), j = ix3 u s q := ⟨j 0, j 1, j 2, eq_ix3 j⟩
  rw [View.read_apply]
  show k5_pay4 (F := Ideal) (iblk5 V c 2 t) (iblk5 V c 0 t) (iblk5 V c 1 t) (iblk5 V c 3 t) (iblk5 V c 4 t) (ix3 u s q)
    = ∑ r : Fin 4000, linA V c (M.tileRow ((((cfg5.win 7).blk t).view.emb (ix3 u s q)) 0) r) ((((cfg5.win 7).blk t).view.emb (ix3 u s q)) 2)
        * linA V c (M.tileRow ((((cfg5.win 7).blk t).view.emb (ix3 u s q)) 0) r) ((((cfg5.win 7).blk t).view.emb (ix3 u s q)) 2)
  refine (pay4_apply (iblk5 V c 2 t) (iblk5 V c 0 t) (iblk5 V c 1 t) (iblk5 V c 3 t) (iblk5 V c 4 t) u s q).trans ?_
  have hu : u.val = 0 := by omega
  have h0 : tile t = (((cfg5.win 7).blk t).view.emb (ix3 u s q)) 0 :=
    Fin.ext (by show t.val = win5_7.index t (0 : Fin 3) * 1 + 1 * u.val; rw [e0, hu]; omega)
  have h2 : q = (((cfg5.win 7).blk t).view.emb (ix3 u s q)) 2 :=
    Fin.ext (by show q.val = win5_7.index t (2 : Fin 3) * 128 + 1 * q.val; rw [e2]; omega)
  refine Finset.sum_congr rfl fun r _ => ?_
  have hr := (pay1_blk V c t r q).trans
    (congrArg₂ (linA V c) (congrArg (fun z : Fin 5 => M.tileRow z r) h0) h2)
  exact congrArg₂ (fun a b : EReal => a * b) hr hr

/-- THE SECOND OUTPUT ARRAY after the region: each tile's column sums of the first linear map, in each of eight rows. -/
theorem arr5_6 (c : Dev nD) :
    (dat5 (F := Ideal) V c).arrAt 6 cfg5.N = M.mk3 (M.sumT (linA V c)) :=
  (dat5 (F := Ideal) V c).arrAt_eq_of_cover 6 (M.mk3 (M.sumT (linA V c))) (fun t _ => flushed6 V c t) cover6

/-- THE THIRD OUTPUT ARRAY after the region: each tile's column sums of its squares, in each of eight rows. -/
theorem arr5_7 (c : Dev nD) :
    (dat5 (F := Ideal) V c).arrAt 7 cfg5.N = M.mk3 (M.sumsqT (linA V c)) :=
  (dat5 (F := Ideal) V c).arrAt_eq_of_cover 7 (M.mk3 (M.sumsqT (linA V c))) (fun t _ => flushed7 V c t) cover7

end Cert.RegA5

end
-- ==== Proof.RegB6.lean ====
/-
  Region 6, the second linear map of layer 1: what each of its three output arrays holds when the region ends, as a
  function of the seven arrays the region finds on entry.

  The body normalises and rectifies a block of 4000 rows of the first linear map's value with the given column
  statistics, scale and shift, multiplies by the weight, adds the bias, and stores the block; it also stores the
  block's column sums and column sums of squares, each copied into eight rows. The grid's five points tile the
  20000 rows, so the first output is the whole second linear map, and the other two are its per-tile sums.

  First the body's operations are read at an index; then a block's value is stated over the whole arrays; then each
  point's write-back is a block of one whole-array function, and the blocks cover the array.
-/
import proofs.«416875_j80633716015165_3_alg».proof.Proof.Spec
import proofs.«416875_j80633716015165_3_alg».proof.Proof.FrameKI
import Idealize.ShloMosaic.PureOps.Ideal.Laws
import Idealize.ShloMosaic.Lib.ValueIdx
import Idealize.ShloMosaic.Lib.Pipeline.Value

set_option maxRecDepth 16384

noncomputable section

open Idealize.ShloMosaic Idealize.ShloMosaic.ValueIdx Idealize.ShloMosaic.TcCoe Idealize.SL.Sem
open Idealize.ShloMosaic.Pipeline (Dat)

namespace Cert.RegB6

open Cert.KernelIdeal Cert.KernelIdeal.Gen

/-! ## The body's layout operations, read at an index -/

/-- A row vector broadcast over the block's rows reads its column. -/
theorem bcastRow_apply {α : Type} (x : S1x128.Idx → α) (h : S1x128.Broadcasts S4000x128) (r : Fin 4000) (j : Fin 128) :
    broadcastTo S4000x128 x h (ix2 r j) = x (ix2 0 j) :=
  broadcastTo_apply x h (ix2 r j) (ix2 0 j) fun a => by
    match a with
    | ⟨0, _⟩ => rfl
    | ⟨1, _⟩ => rfl

/-- A [1,1,128] block broadcast over eight rows reads its column. -/
theorem bcastEight_apply {α : Type} (x : S1x1x128.Idx → α) (h : S1x1x128.Broadcasts S1x8x128) (p : Fin 1) (q : Fin 8)
    (j : Fin 128) : broadcastTo S1x8x128 x h (ix3 p q j) = x (ix3 0 0 j) :=
  broadcastTo_apply x h (ix3 p q j) (ix3 0 0 j) fun a => by
    match a with
    | ⟨0, _⟩ => rfl
    | ⟨1, _⟩ => rfl
    | ⟨2, _⟩ => rfl

/-- A [128] vector viewed as one row reads its column. -/
theorem castRow_apply {α : Type} (x : S128.Idx → α) (h : S128.ShapeCasts S1x128) (j : Fin 128) :
    shapeCast S1x128 x h (ix2 0 j) = x (ix1 j) :=
  shapeCast_apply x h (ix2 0 j) (ix1 j) (by
    rw [Shape.rowMajor_val_one, Shape.rowMajor_val_two]
    show j.val = 0 * 128 + j.val
    omega)

/-- One row viewed as a [1,1,128] block reads its column. -/
theorem castBlk_apply {α : Type} (x : S1x128.Idx → α) (h : S1x128.ShapeCasts S1x1x128) (j : Fin 128) :
    shapeCast S1x1x128 x h (ix3 0 0 j) = x (ix2 0 j) :=
  shapeCast_apply x h (ix3 0 0 j) (ix2 0 j) (by
    rw [Shape.rowMajor_val_two, Shape.rowMajor_val_three]
    show 0 * 128 + j.val = (0 * 1 + 0) * 128 + j.val
    omega)

/-- The body's `rsqrt` at an index. -/
theorem rsqrt_apply {s : Shape} {φ : FTy} (a : FVec Ideal s φ) (i : s.Idx) : rsqrt a i = Ideal.rsqrt (a i) := rfl

/-! ## The column sum over a block's rows -/

/-- The sum over axis 0 of a [4000,128] block at column `j` is the sum of that column's 4000 entries. -/
theorem colSum_apply (src : FVec Ideal S4000x128 .f32) (h : S4000x128.Reduces [0] S128) (hφ : FKind.Formats FTy.f32)
    (hacc : (0x00000000#32 : BitVec 32) = 0x00000000#32) (j : Fin 128) :
    multiReduction (F := Ideal) .add [0] S128 src 0x00000000#32 h hφ hacc (ix1 j) = ∑ r : Fin 4000, src (ix2 r j) := by
  refine (Ideal.multiReduction_add_single src 0x00000000#32 h hφ hacc (ix1 j)).trans ?_
  show ∑ k : Fin 4000, src (h.lift (ix1 j) k) = _
  refine Finset.sum_congr rfl fun k _ => congrArg src ?_
  funext a
  apply Fin.ext
  match a with
  | ⟨0, _⟩ => rfl
  | ⟨1, _⟩ => rfl

/-! ## The matrix product of a block with the weight -/

theorem lhs_mm_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl
theorem lhs_mm_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_mm_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_mm_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-- The product into the zero accumulator at `(r, j)` is the sum over the 128 contracted coordinates. -/
theorem mm_apply (x : FVec Ideal S4000x128 .bf16) (w : FVec Ideal S128x128 .bf16) (r : Fin 4000) (j : Fin 128) :
    (matmul (F := Ideal) dot_S4000x128_S128x128_S4000x128_1_0_0_1_n_n none x w (constant (F := Ideal) S4000x128 .f32 0x00000000#32) (ix2 r j) : EReal)
      = ∑ t : Fin 128, (x (ix2 r t) : EReal) * (w (ix2 t j) : EReal) := by
  refine (Ideal.matmul_constant_zero_apply dot_S4000x128_S128x128_S4000x128_1_0_0_1_n_n none x w (ix2 r j)).trans ?_
  rw [← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 r j) ((contrEquiv1 dot_S4000x128_S128x128_S4000x128_1_0_0_1_n_n 128 rfl rfl).symm k) = ix2 r k :=
    funext fun a => Fin.ext (by
      match a with
      | ⟨0, _⟩ => exact lhs_mm_0 _ _
      | ⟨1, _⟩ => exact (lhs_mm_1 _ _).trans hk)
  have er : dot_S4000x128_S128x128_S4000x128_1_0_0_1_n_n.rhsIdx (ix2 r j) ((contrEquiv1 dot_S4000x128_S128x128_S4000x128_1_0_0_1_n_n 128 rfl rfl).symm k) = ix2 k j :=
    funext fun a => Fin.ext (by
      match a with
      | ⟨0, _⟩ => exact (rhs_mm_0 _ _).trans hk
      | ⟨1, _⟩ => exact rhs_mm_1 _ _)
  rw [el, er]

/-! ## The body's value at an index -/

/-- The second linear map on the normalised, rectified block, entry `(r, j)`: the payload's arguments in the order the
    body loads them (the block, the variance row, the mean row, scale, shift, weight, bias). -/
theorem pay3_apply (x0 : FVec Ideal S4000x128 .bf16) (xv xm xg xb : FVec Ideal S1x128 .f32) (xw : FVec Ideal S128x128 .f32)
    (xc : FVec Ideal S1x128 .f32) (r : Fin 4000) (j : Fin 128) :
    (Gen.k6_pay3 (F := Ideal) x0 xv xm xg xb xw xc (ix2 r j) : EReal)
      = (∑ t : Fin 128, max (((x0 (ix2 r t) : EReal) - (xm (ix2 0 t) : EReal))
              * Ideal.rsqrt ((xv (ix2 0 t) : EReal) + Ideal.ofBits .f32 0x3727C5AC#32)
            * (xg (ix2 0 t) : EReal) + (xb (ix2 0 t) : EReal)) (Ideal.ofBits .f32 0x00000000#32) * (xw (ix2 t j) : EReal))
        + (xc (ix2 0 j) : EReal) := by
  unfold Gen.k6_pay3
  simp only [shapeCast_self]
  rw [addf_apply, bcastRow_apply, mm_apply]
  simp only [truncf_apply, maximumf_apply, addf_apply, mulf_apply, subf_apply, extf_apply, bcastRow_apply, broadcast_apply,
    rsqrt_apply]
  rfl

/-! ## A block's value over the whole arrays -/

/-- The second linear map on the normalised, rectified rows: the block of tile `p`, when the loaded blocks are the rows of
    tile `p` of `A1` and the whole parameter arrays. -/
theorem pay3_blk (x0 : FVec Ideal S4000x128 .bf16) (xv xm xg xb : FVec Ideal S1x128 .f32) (xw : FVec Ideal S128x128 .f32)
    (xc : FVec Ideal S1x128 .f32) (A1 : Fin 20000 → Fin 128 → EReal) (mean var g b : Fin 128 → EReal)
    (w2 : Fin 128 → Fin 128 → EReal) (b2 : Fin 128 → EReal) (p : Fin 5)
    (h0 : ∀ r t, (x0 (ix2 r t) : EReal) = A1 (M.tileRow p r) t) (hv : ∀ t, (xv (ix2 0 t) : EReal) = var t)
    (hm : ∀ t, (xm (ix2 0 t) : EReal) = mean t) (hg : ∀ t, (xg (ix2 0 t) : EReal) = g t)
    (hb : ∀ t, (xb (ix2 0 t) : EReal) = b t) (hw : ∀ t j, (xw (ix2 t j) : EReal) = w2 t j)
    (hc : ∀ j, (xc (ix2 0 j) : EReal) = b2 j) (r : Fin 4000) (j : Fin 128) :
    (Gen.k6_pay3 (F := Ideal) x0 xv xm xg xb xw xc (ix2 r j) : EReal) = M.affine (M.bnrelu A1 mean var g b) w2 b2 (M.tileRow p r) j := by
  rw [pay3_apply]
  simp only [h0, hv, hm, hg, hb, hw, hc]
  rfl

/-- The stored block (the same value, narrowed). -/
theorem pay4_blk (x0 : FVec Ideal S4000x128 .bf16) (xv xm xg xb : FVec Ideal S1x128 .f32) (xw : FVec Ideal S128x128 .f32)
    (xc : FVec Ideal S1x128 .f32) (A1 : Fin 20000 → Fin 128 → EReal) (mean var g b : Fin 128 → EReal)
    (w2 : Fin 128 → Fin 128 → EReal) (b2 : Fin 128 → EReal) (p : Fin 5)
    (h0 : ∀ r t, (x0 (ix2 r t) : EReal) = A1 (M.tileRow p r) t) (hv : ∀ t, (xv (ix2 0 t) : EReal) = var t)
    (hm : ∀ t, (xm (ix2 0 t) : EReal) = mean t) (hg : ∀ t, (xg (ix2 0 t) : EReal) = g t)
    (hb : ∀ t, (xb (ix2 0 t) : EReal) = b t) (hw : ∀ t j, (xw (ix2 t j) : EReal) = w2 t j)
    (hc : ∀ j, (xc (ix2 0 j) : EReal) = b2 j) (y : S4000x128.Idx) :
    (Gen.k6_pay4 (F := Ideal) x0 xv xm xg xb xw xc y : EReal) = M.affine (M.bnrelu A1 mean var g b) w2 b2 (M.tileRow p (y 0)) (y 1) := by
  obtain ⟨r, j, rfl⟩ : ∃ (r : Fin 4000) (j : Fin 128), y = ix2 r j := ⟨y 0, y 1, eq_ix2 y⟩
  unfold Gen.k6_pay4
  rw [truncf_apply]
  exact pay3_blk x0 xv xm xg xb xw xc A1 mean var g b w2 b2 p h0 hv hm hg hb hw hc r j

/-- The stored column sums of the block, copied into eight rows. -/
theorem pay1_blk (x0 : FVec Ideal S4000x128 .bf16) (xv xm xg xb : FVec Ideal S1x128 .f32) (xw : FVec Ideal S128x128 .f32)
    (xc : FVec Ideal S1x128 .f32) (A1 : Fin 20000 → Fin 128 → EReal) (mean var g b : Fin 128 → EReal)
    (w2 : Fin 128 → Fin 128 → EReal) (b2 : Fin 128 → EReal) (p : Fin 5)
    (h0 : ∀ r t, (x0 (ix2 r t) : EReal) = A1 (M.tileRow p r) t) (hv : ∀ t, (xv (ix2 0 t) : EReal) = var t)
    (hm : ∀ t, (xm (ix2 0 t) : EReal) = mean t) (hg : ∀ t, (xg (ix2 0 t) : EReal) = g t)
    (hb : ∀ t, (xb (ix2 0 t) : EReal) = b t) (hw : ∀ t j, (xw (ix2 t j) : EReal) = w2 t j)
    (hc : ∀ j, (xc (ix2 0 j) : EReal) = b2 j) (y : S1x8x128.Idx) :
    (Gen.k6_pay1 (F := Ideal) (Gen.k6_pay5 (F := Ideal) x0 xv xm xg xb xw xc) y : EReal)
      = M.sumT (M.affine (M.bnrelu A1 mean var g b) w2 b2) p (y 1) (y 2) := by
  obtain ⟨u, q, j, rfl⟩ : ∃ (u : Fin 1) (q : Fin 8) (j : Fin 128), y = ix3 u q j := ⟨y 0, y 1, y 2, eq_ix3 y⟩
  unfold M.sumT Gen.k6_pay1 Gen.k6_pay5
  simp only [shapeCast_self]
  rw [bcastEight_apply, castBlk_apply, castRow_apply, colSum_apply]
  exact Finset.sum_congr rfl fun r _ => pay3_blk x0 xv xm xg xb xw xc A1 mean var g b w2 b2 p h0 hv hm hg hb hw hc r j

/-- The stored column sums of squares of the block, copied into eight rows. -/
theorem pay2_blk (x0 : FVec Ideal S4000x128 .bf16) (xv xm xg xb : FVec Ideal S1x128 .f32) (xw : FVec Ideal S128x128 .f32)
    (xc : FVec Ideal S1x128 .f32) (A1 : Fin 20000 → Fin 128 → EReal) (mean var g b : Fin 128 → EReal)
    (w2 : Fin 128 → Fin 128 → EReal) (b2 : Fin 128 → EReal) (p : Fin 5)
    (h0 : ∀ r t, (x0 (ix2 r t) : EReal) = A1 (M.tileRow p r) t) (hv : ∀ t, (xv (ix2 0 t) : EReal) = var t)
    (hm : ∀ t, (xm (ix2 0 t) : EReal) = mean t) (hg : ∀ t, (xg (ix2 0 t) : EReal) = g t)
    (hb : ∀ t, (xb (ix2 0 t) : EReal) = b t) (hw : ∀ t j, (xw (ix2 t j) : EReal) = w2 t j)
    (hc : ∀ j, (xc (ix2 0 j) : EReal) = b2 j) (y : S1x8x128.Idx) :
    (Gen.k6_pay2 (F := Ideal) (Gen.k6_pay3 (F := Ideal) x0 xv xm xg xb xw xc) y : EReal)
      = M.sumsqT (M.affine (M.bnrelu A1 mean var g b) w2 b2) p (y 1) (y 2) := by
  obtain ⟨u, q, j, rfl⟩ : ∃ (u : Fin 1) (q : Fin 8) (j : Fin 128), y = ix3 u q j := ⟨y 0, y 1, y 2, eq_ix3 y⟩
  unfold M.sumsqT M.sumT Gen.k6_pay2
  simp only [shapeCast_self]
  rw [bcastEight_apply, castBlk_apply, castRow_apply, colSum_apply]
  refine Finset.sum_congr rfl fun r _ => ?_
  rw [mulf_apply, pay3_blk x0 xv xm xg xb xw xc A1 mean var g b w2 b2 p h0 hv hm hg hb hw hc r j]

/-! ## The region's arrays on entry, and its value -/

variable (V : (c : Dev nD) → (b : Ref sig .tc) → Buf (Elt Ideal) ((c : Thread nD τ).loc b))

/-- The second linear map on the normalised, rectified first linear map's value, from the region's seven input arrays
    (the value, its column means and variances, the scale and shift, the weight, the bias). -/
abbrev val (c : Dev nD) : Fin 20000 → Fin 128 → EReal :=
  M.affine (M.bnrelu (M.at2 (V c (Pipeline.arrRef spec6 0)))
      (fun j => M.at2 (V c (Pipeline.arrRef spec6 1)) 0 j)
      (fun j => M.at2 (V c (Pipeline.arrRef spec6 2)) 0 j)
      (fun j => M.at2 (V c (Pipeline.arrRef spec6 3)) 0 j)
      (fun j => M.at2 (V c (Pipeline.arrRef spec6 4)) 0 j))
    (M.at2 (V c (Pipeline.arrRef spec6 5)))
    (fun j => M.at2 (V c (Pipeline.arrRef spec6 6)) 0 j)

theorem hz2 : (![0, 0] : Fin 2 → Nat) = fun _ => 0 := funext fun a => by
  match a with
  | ⟨0, _⟩ => rfl
  | ⟨1, _⟩ => rfl
theorem hz3 : (![0, 0, 0] : Fin 3 → Nat) = fun _ => 0 := funext fun a => by
  match a with
  | ⟨0, _⟩ => rfl
  | ⟨1, _⟩ => rfl
  | ⟨2, _⟩ => rfl

/-- A function of three coordinates at equal coordinates. -/
theorem congr3 {α β γ δ : Type} (f : α → β → γ → δ) {a a' : α} {b b' : β} {c c' : γ} (ha : a = a') (hb : b = b')
    (hc : c = c') : f a b c = f a' b' c' := by
  subst ha; subst hb; subst hc; rfl

/-! ## The printed index maps, decided over the grid's five points

The row-block windows sit at the point's own block, the parameter windows at block zero. -/

theorem idx_0 : ∀ t : Fin cfg6.N, win6_0.index t (0 : Fin 2) = t.val ∧ win6_0.index t (1 : Fin 2) = 0 :=
  (by decide +kernel : ∀ t : Fin grid6.N, _)
theorem idx_1 : ∀ t : Fin cfg6.N, win6_1.index t (0 : Fin 2) = 0 ∧ win6_1.index t (1 : Fin 2) = 0 :=
  (by decide +kernel : ∀ t : Fin grid6.N, _)
theorem idx_2 : ∀ t : Fin cfg6.N, win6_2.index t (0 : Fin 2) = 0 ∧ win6_2.index t (1 : Fin 2) = 0 :=
  (by decide +kernel : ∀ t : Fin grid6.N, _)
theorem idx_3 : ∀ t : Fin cfg6.N, win6_3.index t (0 : Fin 2) = 0 ∧ win6_3.index t (1 : Fin 2) = 0 :=
  (by decide +kernel : ∀ t : Fin grid6.N, _)
theorem idx_4 : ∀ t : Fin cfg6.N, win6_4.index t (0 : Fin 2) = 0 ∧ win6_4.index t (1 : Fin 2) = 0 :=
  (by decide +kernel : ∀ t : Fin grid6.N, _)
theorem idx_5 : ∀ t : Fin cfg6.N, win6_5.index t (0 : Fin 2) = 0 ∧ win6_5.index t (1 : Fin 2) = 0 :=
  (by decide +kernel : ∀ t : Fin grid6.N, _)
theorem idx_6 : ∀ t : Fin cfg6.N, win6_6.index t (0 : Fin 2) = 0 ∧ win6_6.index t (1 : Fin 2) = 0 :=
  (by decide +kernel : ∀ t : Fin grid6.N, _)
theorem idx_7 : ∀ t : Fin cfg6.N, win6_7.index t (0 : Fin 2) = t.val ∧ win6_7.index t (1 : Fin 2) = 0 :=
  (by decide +kernel : ∀ t : Fin grid6.N, _)
theorem idx_8 : ∀ t : Fin cfg6.N,
    win6_8.index t (0 : Fin 3) = t.val ∧ win6_8.index t (1 : Fin 3) = 0 ∧ win6_8.index t (2 : Fin 3) = 0 :=
  (by decide +kernel : ∀ t : Fin grid6.N, _)
theorem idx_9 : ∀ t : Fin cfg6.N,
    win6_9.index t (0 : Fin 3) = t.val ∧ win6_9.index t (1 : Fin 3) = 0 ∧ win6_9.index t (2 : Fin 3) = 0 :=
  (by decide +kernel : ∀ t : Fin grid6.N, _)

/-- A grid point as a tile number. -/
abbrev tile (t : Fin cfg6.N) : Fin 5 := Fin.cast N_6 t
/-- A tile number as a grid point. -/
abbrev pt (n : Nat) (h : n < 5) : Fin cfg6.N := ⟨n, by rw [show cfg6.N = 5 from N_6]; exact h⟩

/-! ## The input windows' blocks, read off the whole arrays -/

/-- The row-block window at point `t` holds the rows of tile `t`. -/
theorem iblk_0_apply (c : Dev nD) (t : Fin cfg6.N) (r : Fin 4000) (j : Fin 128) :
    ((iblk6 (F := Ideal) V c 0 t : FVec Ideal S4000x128 .bf16) (ix2 r j) : EReal)
      = M.at2 (V c (Pipeline.arrRef spec6 0)) (M.tileRow (tile t) r) j := by
  obtain ⟨e0, e1⟩ := idx_0 t
  unfold iblk6
  rw [View.read_apply]
  show V c (Pipeline.arrRef spec6 0) _ = V c (Pipeline.arrRef spec6 0) _
  congr 1
  funext a
  apply Fin.ext
  match a with
  | ⟨0, _⟩ => show win6_0.index t (0 : Fin 2) * 4000 + 1 * r.val = 4000 * t.val + r.val; omega
  | ⟨1, _⟩ => show win6_0.index t (1 : Fin 2) * 128 + 1 * j.val = j.val; omega

/-- The column means' window holds the whole row at every point. -/
theorem iblk_1_apply (c : Dev nD) (t : Fin cfg6.N) (j : Fin 128) :
    ((iblk6 (F := Ideal) V c 1 t : FVec Ideal S1x128 .f32) (ix2 0 j) : EReal) = M.at2 (V c (Pipeline.arrRef spec6 1)) 0 j := by
  obtain ⟨e0, e1⟩ := idx_1 t
  unfold iblk6
  rw [View.read_apply]
  show V c (Pipeline.arrRef spec6 1) _ = V c (Pipeline.arrRef spec6 1) _
  congr 1
  funext a
  apply Fin.ext
  match a with
  | ⟨0, _⟩ => show win6_1.index t (0 : Fin 2) * 1 + 1 * 0 = 0; omega
  | ⟨1, _⟩ => show win6_1.index t (1 : Fin 2) * 128 + 1 * j.val = j.val; omega

/-- The column variances' window holds the whole row at every point. -/
theorem iblk_2_apply (c : Dev nD) (t : Fin cfg6.N) (j : Fin 128) :
    ((iblk6 (F := Ideal) V c 2 t : FVec Ideal S1x128 .f32) (ix2 0 j) : EReal) = M.at2 (V c (Pipeline.arrRef spec6 2)) 0 j := by
  obtain ⟨e0, e1⟩ := idx_2 t
  unfold iblk6
  rw [View.read_apply]
  show V c (Pipeline.arrRef spec6 2) _ = V c (Pipeline.arrRef spec6 2) _
  congr 1
  funext a
  apply Fin.ext
  match a with
  | ⟨0, _⟩ => show win6_2.index t (0 : Fin 2) * 1 + 1 * 0 = 0; omega
  | ⟨1, _⟩ => show win6_2.index t (1 : Fin 2) * 128 + 1 * j.val = j.val; omega

/-- The scale's window holds the whole row at every point. -/
theorem iblk_3_apply (c : Dev nD) (t : Fin cfg6.N) (j : Fin 128) :
    ((iblk6 (F := Ideal) V c 3 t : FVec Ideal S1x128 .f32) (ix2 0 j) : EReal) = M.at2 (V c (Pipeline.arrRef spec6 3)) 0 j := by
  obtain ⟨e0, e1⟩ := idx_3 t
  unfold iblk6
  rw [View.read_apply]
  show V c (Pipeline.arrRef spec6 3) _ = V c (Pipeline.arrRef spec6 3) _
  congr 1
  funext a
  apply Fin.ext
  match a with
  | ⟨0, _⟩ => show win6_3.index t (0 : Fin 2) * 1 + 1 * 0 = 0; omega
  | ⟨1, _⟩ => show win6_3.index t (1 : Fin 2) * 128 + 1 * j.val = j.val; omega

/-- The shift's window holds the whole row at every point. -/
theorem iblk_4_apply (c : Dev nD) (t : Fin cfg6.N) (j : Fin 128) :
    ((iblk6 (F := Ideal) V c 4 t : FVec Ideal S1x128 .f32) (ix2 0 j) : EReal) = M.at2 (V c (Pipeline.arrRef spec6 4)) 0 j := by
  obtain ⟨e0, e1⟩ := idx_4 t
  unfold iblk6
  rw [View.read_apply]
  show V c (Pipeline.arrRef spec6 4) _ = V c (Pipeline.arrRef spec6 4) _
  congr 1
  funext a
  apply Fin.ext
  match a with
  | ⟨0, _⟩ => show win6_4.index t (0 : Fin 2) * 1 + 1 * 0 = 0; omega
  | ⟨1, _⟩ => show win6_4.index t (1 : Fin 2) * 128 + 1 * j.val = j.val; omega

/-- The weight's window holds the whole weight at every point. -/
theorem iblk_5_apply (c : Dev nD) (t : Fin cfg6.N) (k j : Fin 128) :
    ((iblk6 (F := Ideal) V c 5 t : FVec Ideal S128x128 .f32) (ix2 k j) : EReal) = M.at2 (V c (Pipeline.arrRef spec6 5)) k j := by
  obtain ⟨e0, e1⟩ := idx_5 t
  unfold iblk6
  rw [View.read_apply]
  show V c (Pipeline.arrRef spec6 5) _ = V c (Pipeline.arrRef spec6 5) _
  congr 1
  funext a
  apply Fin.ext
  match a with
  | ⟨0, _⟩ => show win6_5.index t (0 : Fin 2) * 128 + 1 * k.val = k.val; omega
  | ⟨1, _⟩ => show win6_5.index t (1 : Fin 2) * 128 + 1 * j.val = j.val; omega

/-- The bias's window holds the whole row at every point. -/
theorem iblk_6_apply (c : Dev nD) (t : Fin cfg6.N) (j : Fin 128) :
    ((iblk6 (F := Ideal) V c 6 t : FVec Ideal S1x128 .f32) (ix2 0 j) : EReal) = M.at2 (V c (Pipeline.arrRef spec6 6)) 0 j := by
  obtain ⟨e0, e1⟩ := idx_6 t
  unfold iblk6
  rw [View.read_apply]
  show V c (Pipeline.arrRef spec6 6) _ = V c (Pipeline.arrRef spec6 6) _
  congr 1
  funext a
  apply Fin.ext
  match a with
  | ⟨0, _⟩ => show win6_6.index t (0 : Fin 2) * 1 + 1 * 0 = 0; omega
  | ⟨1, _⟩ => show win6_6.index t (1 : Fin 2) * 128 + 1 * j.val = j.val; omega

/-! ## The first output: the stored blocks tile the whole second linear map -/

/-- What point `t` writes back to the first output is block `t` of the whole value. -/
theorem flushed_7_eq (c : Dev nD) (t : Fin cfg6.N) :
    (dat6 (F := Ideal) V c).flushed 7 t = ((cfg6.win 7).blk t).view.read (Elt Ideal) (M.mk2 (val V c)) := by
  show (cfg6.win 7).cut (grid6.coords t) ((dat6 (F := Ideal) V c).after 7 t) = _
  rw [after6_7]
  unfold out6_7
  rw [View.canon_unit_zero hz2]
  simp only [View.ld_unit_zero (S := S4000x128) hz2, View.ld_unit_zero (S := S1x128) hz2,
    View.ld_unit_zero (S := S128x128) hz2]
  obtain ⟨e0, e1⟩ := idx_7 t
  funext y
  show (Gen.k6_pay4 (F := Ideal) (iblk6 V c 0 t) (iblk6 V c 2 t) (iblk6 V c 1 t) (iblk6 V c 3 t) (iblk6 V c 4 t) (iblk6 V c 5 t) (iblk6 V c 6 t) y : EReal)
      = M.mk2 (val V c) (((cfg6.win 7).blk t).view.emb y)
  refine (pay4_blk _ _ _ _ _ _ _ (M.at2 (V c (Pipeline.arrRef spec6 0)))
      (fun j => M.at2 (V c (Pipeline.arrRef spec6 1)) 0 j) (fun j => M.at2 (V c (Pipeline.arrRef spec6 2)) 0 j)
      (fun j => M.at2 (V c (Pipeline.arrRef spec6 3)) 0 j) (fun j => M.at2 (V c (Pipeline.arrRef spec6 4)) 0 j)
      (M.at2 (V c (Pipeline.arrRef spec6 5))) (fun j => M.at2 (V c (Pipeline.arrRef spec6 6)) 0 j) (tile t)
      (iblk_0_apply V c t) (iblk_2_apply V c t) (iblk_1_apply V c t) (iblk_3_apply V c t) (iblk_4_apply V c t)
      (iblk_5_apply V c t) (iblk_6_apply V c t) y).trans ?_
  show val V c (M.tileRow (tile t) (y 0)) (y 1)
      = val V c ((((cfg6.win 7).blk t).view.emb y) 0) ((((cfg6.win 7).blk t).view.emb y) 1)
  refine congrArg₂ (val V c) (Fin.ext ?_) (Fin.ext ?_)
  · show 4000 * t.val + (y 0).val = win6_7.index t (0 : Fin 2) * 4000 + 1 * (y 0).val; omega
  · show (y 1).val = win6_7.index t (1 : Fin 2) * 128 + 1 * (y 1).val; omega

/-- An index of the array is in point `t`'s block iff each coordinate is in the block's range on its axis. -/
theorem mem_blk_7 (t : Fin cfg6.N) (i : S20000x128.Idx) :
    i ∈ ((cfg6.win 7).blk t).view.set ↔ ∀ a : Fin 2, win6_7.index t a * S4000x128.size a ≤ (i a).val
      ∧ (i a).val < win6_7.index t a * S4000x128.size a + S4000x128.size a := by
  show i ∈ ((View.whole (Pipeline.arrRef spec6 7)).slice (win6_7.rect t)).set ↔ _
  rw [View.set_slice_whole, Rect.mem_set_unit]
  exact Iff.rfl

/-- Row `r` is covered by point `r / 4000`. -/
theorem cover_7 (i : S20000x128.Idx) :
    ∃ t : Fin cfg6.N, (cfg6.win 7).flush t = true ∧ i ∈ ((cfg6.win 7).blk t).view.set := by
  have hi0 : (i 0).val < 20000 := (i 0).isLt
  have hi1 : (i 1).val < 128 := (i 1).isLt
  have hq : (i 0).val / 4000 < 5 := by omega
  refine ⟨pt ((i 0).val / 4000) hq, flush6_7 _, ?_⟩
  obtain ⟨e0, e1⟩ := idx_7 (pt ((i 0).val / 4000) hq)
  have e0' : win6_7.index (pt ((i 0).val / 4000) hq) (0 : Fin 2) = (i 0).val / 4000 := e0
  rw [mem_blk_7]
  intro a
  match a with
  | ⟨0, _⟩ =>
    show win6_7.index (pt ((i 0).val / 4000) hq) (0 : Fin 2) * 4000 ≤ (i 0).val
      ∧ (i 0).val < win6_7.index (pt ((i 0).val / 4000) hq) (0 : Fin 2) * 4000 + 4000
    omega
  | ⟨1, _⟩ =>
    show win6_7.index (pt ((i 0).val / 4000) hq) (1 : Fin 2) * 128 ≤ (i 1).val
      ∧ (i 1).val < win6_7.index (pt ((i 0).val / 4000) hq) (1 : Fin 2) * 128 + 128
    omega

/-! ## The second and third outputs: the stored blocks tile the per-tile sums -/

/-- What point `t` writes back to the column sums output is block `t` of the per-tile column sums. -/
theorem flushed_8_eq (c : Dev nD) (t : Fin cfg6.N) :
    (dat6 (F := Ideal) V c).flushed 8 t = ((cfg6.win 8).blk t).view.read (Elt Ideal) (M.mk3 (M.sumT (val V c))) := by
  show (cfg6.win 8).cut (grid6.coords t) ((dat6 (F := Ideal) V c).after 8 t) = _
  rw [after6_8]
  unfold out6_8
  rw [View.canon_unit_zero hz3]
  simp only [View.ld_unit_zero (S := S4000x128) hz2, View.ld_unit_zero (S := S1x128) hz2,
    View.ld_unit_zero (S := S128x128) hz2]
  obtain ⟨e0, e1, e2⟩ := idx_8 t
  funext y
  have hy0 : (y 0).val < 1 := (y 0).isLt
  show (Gen.k6_pay1 (F := Ideal) (Gen.k6_pay5 (F := Ideal) (iblk6 V c 0 t) (iblk6 V c 2 t) (iblk6 V c 1 t) (iblk6 V c 3 t) (iblk6 V c 4 t) (iblk6 V c 5 t) (iblk6 V c 6 t)) y : EReal)
      = M.mk3 (M.sumT (val V c)) (((cfg6.win 8).blk t).view.emb y)
  refine (pay1_blk _ _ _ _ _ _ _ (M.at2 (V c (Pipeline.arrRef spec6 0)))
      (fun j => M.at2 (V c (Pipeline.arrRef spec6 1)) 0 j) (fun j => M.at2 (V c (Pipeline.arrRef spec6 2)) 0 j)
      (fun j => M.at2 (V c (Pipeline.arrRef spec6 3)) 0 j) (fun j => M.at2 (V c (Pipeline.arrRef spec6 4)) 0 j)
      (M.at2 (V c (Pipeline.arrRef spec6 5))) (fun j => M.at2 (V c (Pipeline.arrRef spec6 6)) 0 j) (tile t)
      (iblk_0_apply V c t) (iblk_2_apply V c t) (iblk_1_apply V c t) (iblk_3_apply V c t) (iblk_4_apply V c t)
      (iblk_5_apply V c t) (iblk_6_apply V c t) y).trans ?_
  show M.sumT (val V c) (tile t) (y 1) (y 2)
      = M.sumT (val V c) ((((cfg6.win 8).blk t).view.emb y) 0) ((((cfg6.win 8).blk t).view.emb y) 1)
          ((((cfg6.win 8).blk t).view.emb y) 2)
  refine congr3 (M.sumT (val V c)) (Fin.ext ?_) (Fin.ext ?_) (Fin.ext ?_)
  · show t.val = win6_8.index t (0 : Fin 3) * 1 + 1 * (y 0).val; omega
  · show (y 1).val = win6_8.index t (1 : Fin 3) * 8 + 1 * (y 1).val; omega
  · show (y 2).val = win6_8.index t (2 : Fin 3) * 128 + 1 * (y 2).val; omega

/-- An index of the array is in point `t`'s block iff each coordinate is in the block's range on its axis. -/
theorem mem_blk_8 (t : Fin cfg6.N) (i : S5x8x128.Idx) :
    i ∈ ((cfg6.win 8).blk t).view.set ↔ ∀ a : Fin 3, win6_8.index t a * S1x8x128.size a ≤ (i a).val
      ∧ (i a).val < win6_8.index t a * S1x8x128.size a + S1x8x128.size a := by
  show i ∈ ((View.whole (Pipeline.arrRef spec6 8)).slice (win6_8.rect t)).set ↔ _
  rw [View.set_slice_whole, Rect.mem_set_unit]
  exact Iff.rfl

/-- Tile `p`'s eight rows are covered by point `p`. -/
theorem cover_8 (i : S5x8x128.Idx) :
    ∃ t : Fin cfg6.N, (cfg6.win 8).flush t = true ∧ i ∈ ((cfg6.win 8).blk t).view.set := by
  have hi0 : (i 0).val < 5 := (i 0).isLt
  have hi1 : (i 1).val < 8 := (i 1).isLt
  have hi2 : (i 2).val < 128 := (i 2).isLt
  refine ⟨pt (i 0).val hi0, flush6_8 _, ?_⟩
  obtain ⟨e0, e1, e2⟩ := idx_8 (pt (i 0).val hi0)
  have e0' : win6_8.index (pt (i 0).val hi0) (0 : Fin 3) = (i 0).val := e0
  rw [mem_blk_8]
  intro a
  match a with
  | ⟨0, _⟩ =>
    show win6_8.index (pt (i 0).val hi0) (0 : Fin 3) * 1 ≤ (i 0).val
      ∧ (i 0).val < win6_8.index (pt (i 0).val hi0) (0 : Fin 3) * 1 + 1
    omega
  | ⟨1, _⟩ =>
    show win6_8.index (pt (i 0).val hi0) (1 : Fin 3) * 8 ≤ (i 1).val
      ∧ (i 1).val < win6_8.index (pt (i 0).val hi0) (1 : Fin 3) * 8 + 8
    omega
  | ⟨2, _⟩ =>
    show win6_8.index (pt (i 0).val hi0) (2 : Fin 3) * 128 ≤ (i 2).val
      ∧ (i 2).val < win6_8.index (pt (i 0).val hi0) (2 : Fin 3) * 128 + 128
    omega

/-- What point `t` writes back to the column sums of squares output is block `t` of the per-tile column sums of squares. -/
theorem flushed_9_eq (c : Dev nD) (t : Fin cfg6.N) :
    (dat6 (F := Ideal) V c).flushed 9 t = ((cfg6.win 9).blk t).view.read (Elt Ideal) (M.mk3 (M.sumsqT (val V c))) := by
  show (cfg6.win 9).cut (grid6.coords t) ((dat6 (F := Ideal) V c).after 9 t) = _
  rw [after6_9]
  unfold out6_9
  rw [View.canon_unit_zero hz3]
  simp only [View.ld_unit_zero (S := S4000x128) hz2, View.ld_unit_zero (S := S1x128) hz2,
    View.ld_unit_zero (S := S128x128) hz2]
  obtain ⟨e0, e1, e2⟩ := idx_9 t
  funext y
  have hy0 : (y 0).val < 1 := (y 0).isLt
  show (Gen.k6_pay2 (F := Ideal) (Gen.k6_pay3 (F := Ideal) (iblk6 V c 0 t) (iblk6 V c 2 t) (iblk6 V c 1 t) (iblk6 V c 3 t) (iblk6 V c 4 t) (iblk6 V c 5 t) (iblk6 V c 6 t)) y : EReal)
      = M.mk3 (M.sumsqT (val V c)) (((cfg6.win 9).blk t).view.emb y)
  refine (pay2_blk _ _ _ _ _ _ _ (M.at2 (V c (Pipeline.arrRef spec6 0)))
      (fun j => M.at2 (V c (Pipeline.arrRef spec6 1)) 0 j) (fun j => M.at2 (V c (Pipeline.arrRef spec6 2)) 0 j)
      (fun j => M.at2 (V c (Pipeline.arrRef spec6 3)) 0 j) (fun j => M.at2 (V c (Pipeline.arrRef spec6 4)) 0 j)
      (M.at2 (V c (Pipeline.arrRef spec6 5))) (fun j => M.at2 (V c (Pipeline.arrRef spec6 6)) 0 j) (tile t)
      (iblk_0_apply V c t) (iblk_2_apply V c t) (iblk_1_apply V c t) (iblk_3_apply V c t) (iblk_4_apply V c t)
      (iblk_5_apply V c t) (iblk_6_apply V c t) y).trans ?_
  show M.sumsqT (val V c) (tile t) (y 1) (y 2)
      = M.sumsqT (val V c) ((((cfg6.win 9).blk t).view.emb y) 0) ((((cfg6.win 9).blk t).view.emb y) 1)
          ((((cfg6.win 9).blk t).view.emb y) 2)
  refine congr3 (M.sumsqT (val V c)) (Fin.ext ?_) (Fin.ext ?_) (Fin.ext ?_)
  · show t.val = win6_9.index t (0 : Fin 3) * 1 + 1 * (y 0).val; omega
  · show (y 1).val = win6_9.index t (1 : Fin 3) * 8 + 1 * (y 1).val; omega
  · show (y 2).val = win6_9.index t (2 : Fin 3) * 128 + 1 * (y 2).val; omega

/-- An index of the array is in point `t`'s block iff each coordinate is in the block's range on its axis. -/
theorem mem_blk_9 (t : Fin cfg6.N) (i : S5x8x128.Idx) :
    i ∈ ((cfg6.win 9).blk t).view.set ↔ ∀ a : Fin 3, win6_9.index t a * S1x8x128.size a ≤ (i a).val
      ∧ (i a).val < win6_9.index t a * S1x8x128.size a + S1x8x128.size a := by
  show i ∈ ((View.whole (Pipeline.arrRef spec6 9)).slice (win6_9.rect t)).set ↔ _
  rw [View.set_slice_whole, Rect.mem_set_unit]
  exact Iff.rfl

/-- Tile `p`'s eight rows are covered by point `p`. -/
theorem cover_9 (i : S5x8x128.Idx) :
    ∃ t : Fin cfg6.N, (cfg6.win 9).flush t = true ∧ i ∈ ((cfg6.win 9).blk t).view.set := by
  have hi0 : (i 0).val < 5 := (i 0).isLt
  have hi1 : (i 1).val < 8 := (i 1).isLt
  have hi2 : (i 2).val < 128 := (i 2).isLt
  refine ⟨pt (i 0).val hi0, flush6_9 _, ?_⟩
  obtain ⟨e0, e1, e2⟩ := idx_9 (pt (i 0).val hi0)
  have e0' : win6_9.index (pt (i 0).val hi0) (0 : Fin 3) = (i 0).val := e0
  rw [mem_blk_9]
  intro a
  match a with
  | ⟨0, _⟩ =>
    show win6_9.index (pt (i 0).val hi0) (0 : Fin 3) * 1 ≤ (i 0).val
      ∧ (i 0).val < win6_9.index (pt (i 0).val hi0) (0 : Fin 3) * 1 + 1
    omega
  | ⟨1, _⟩ =>
    show win6_9.index (pt (i 0).val hi0) (1 : Fin 3) * 8 ≤ (i 1).val
      ∧ (i 1).val < win6_9.index (pt (i 0).val hi0) (1 : Fin 3) * 8 + 8
    omega
  | ⟨2, _⟩ =>
    show win6_9.index (pt (i 0).val hi0) (2 : Fin 3) * 128 ≤ (i 2).val
      ∧ (i 2).val < win6_9.index (pt (i 0).val hi0) (2 : Fin 3) * 128 + 128
    omega

/-! ## The three output arrays when the region ends -/

/-- The first output is the whole second linear map. -/
theorem arr6_7 (c : Dev nD) : (dat6 (F := Ideal) V c).arrAt 7 cfg6.N = M.mk2 (val V c) :=
  (dat6 (F := Ideal) V c).arrAt_eq_of_cover 7 (M.mk2 (val V c)) (fun t _ => flushed_7_eq V c t) cover_7

/-- The second output is its per-tile column sums, one copy in each of eight rows. -/
theorem arr6_8 (c : Dev nD) : (dat6 (F := Ideal) V c).arrAt 8 cfg6.N = M.mk3 (M.sumT (val V c)) :=
  (dat6 (F := Ideal) V c).arrAt_eq_of_cover 8 (M.mk3 (M.sumT (val V c))) (fun t _ => flushed_8_eq V c t) cover_8

/-- The third output is its per-tile column sums of squares, one copy in each of eight rows. -/
theorem arr6_9 (c : Dev nD) : (dat6 (F := Ideal) V c).arrAt 9 cfg6.N = M.mk3 (M.sumsqT (val V c)) :=
  (dat6 (F := Ideal) V c).arrAt_eq_of_cover 9 (M.mk3 (M.sumsqT (val V c))) (fun t _ => flushed_9_eq V c t) cover_9

end Cert.RegB6

end
-- ==== Proof.RegC7.lean ====
/-
  Region 7 (layer 1's normalise-and-rectify kernel with the tile sums of its result), read as values.

  On a block of 4000 rows of its input array and the four parameter rows (mean, variance, scale, shift) the body stores
  `max ((a − mean) · rsqrt (var + ε) · g + b) 0` and, each replicated over eight rows, that block's column sums and
  column sums of squares. So after the region its three output arrays are `M.bnrelu` of the input arrays, and the
  tiled sums `M.sumT` and `M.sumsqT` of that.
-/
import proofs.«416875_j80633716015165_3_alg».proof.Proof.FrameKI
import proofs.«416875_j80633716015165_3_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.TcCoe Idealize.ShloMosaic.ValueIdx Idealize.SL.Sem
open Idealize.ShloMosaic.Pipeline (Dat)
open Cert.KernelIdeal Cert.KernelIdeal.Gen

namespace Cert.RegC7

/-! ## The payloads at an index -/

/-- One entry normalised and rectified. -/
abbrev nrm (a mean var g b : EReal) : EReal := max ((a - mean) * Ideal.rsqrt (var + M.cEps) * g + b) M.c0

theorem nrm_congr {a a' m m' v v' g g' b b' : EReal} (ha : a = a') (hm : m = m') (hv : v = v') (hg : g = g') (hb : b = b') :
    nrm a m v g b = nrm a' m' v' g' b' := by rw [ha, hm, hv, hg, hb]

/-- The normalised and rectified value at row `p`, column `q` of a block: the block's entry minus the mean's, times the
    inverse root of the variance's plus the small constant, times the scale's, plus the shift's, cut below at zero. -/
theorem pay1_apply (v0 : Vec Ideal S4000x128 .bf16) (v3 v8 v14 v18 : Vec Ideal S1x128 .f32) (p : Fin 4000) (q : Fin 128) :
    k7_pay1 (F := Ideal) v0 v3 v8 v14 v18 (ix2 p q)
      = nrm (v0 (ix2 p q)) (v8 (ix2 (0 : Fin 1) q)) (v3 (ix2 (0 : Fin 1) q)) (v14 (ix2 (0 : Fin 1) q)) (v18 (ix2 (0 : Fin 1) q)) := by
  unfold k7_pay1
  simp only [shapeCast_self, maximumf_apply, addf_apply, mulf_apply, subf_apply, broadcastTo_1b_ab_apply, extf_apply]
  rfl

/-- The stored block is that value (the narrowing is the identity on ideal values). -/
theorem pay2_apply (v0 : Vec Ideal S4000x128 .bf16) (v3 v8 v14 v18 : Vec Ideal S1x128 .f32) (p : Fin 4000) (q : Fin 128) :
    k7_pay2 (F := Ideal) v0 v3 v8 v14 v18 (ix2 p q) = k7_pay1 (F := Ideal) v0 v3 v8 v14 v18 (ix2 p q) := by
  unfold k7_pay2
  rfl

/-- A `[1, 1, b]` array broadcast to `[1, a, b]` reads, at `(u, s, q)`, the operand's one row at `q`. -/
theorem broadcastTo_11b_1ab_apply {α : Type} {a b : ℕ} (v : (⟨3, ![1, 1, b]⟩ : Shape).Idx → α)
    (h : (⟨3, ![1, 1, b]⟩ : Shape).Broadcasts ⟨3, ![1, a, b]⟩) (u : Fin 1) (s : Fin a) (q : Fin b) :
    broadcastTo ⟨3, ![1, a, b]⟩ v h (ix3 u s q) = v (ix3 (0 : Fin 1) (0 : Fin 1) q) := by
  refine broadcastTo_apply v h (ix3 u s q) (ix3 (0 : Fin 1) (0 : Fin 1) q) fun ax => ?_
  match ax with
  | ⟨0, _⟩ => rfl
  | ⟨1, _⟩ => rfl
  | ⟨2, _⟩ =>
    show q.val = if b = 1 then 0 else q.val
    split
    · have := q.isLt; omega
    · rfl

/-- The sum over the rows of a `[4000, 128]` block, read at column `q`. -/
theorem colSum_apply (src : FVec Ideal S4000x128 .f32) (h : S4000x128.Reduces [0] S128) (hφ : FKind.Formats .f32)
    (hacc : (0x00000000#32 : BitVec 32) = FKind.add.neutral .f32 hφ) (q : Fin 128) :
    multiReduction .add [0] S128 src 0x00000000#32 h hφ hacc (ix1 q) = ∑ r : Fin 4000, src (ix2 r q) := by
  refine (Ideal.multiReduction_add_single src 0x00000000#32 h hφ hacc (ix1 q)).trans ?_
  refine Finset.sum_congr rfl fun r _ => congrArg src ?_
  funext a
  apply Fin.ext
  match a with
  | ⟨0, _⟩ => rfl
  | ⟨1, _⟩ => rfl

/-- The column sums' block: every one of its eight rows holds, at column `q`, the sum over the block's rows. -/
theorem pay3_apply (v0 : Vec Ideal S4000x128 .bf16) (v3 v8 v14 v18 : Vec Ideal S1x128 .f32) (u : Fin 1) (s : Fin 8) (q : Fin 128) :
    k7_pay3 (F := Ideal) v0 v3 v8 v14 v18 (ix3 u s q) = ∑ r : Fin 4000, k7_pay1 (F := Ideal) v0 v3 v8 v14 v18 (ix2 r q) := by
  unfold k7_pay3
  simp only [shapeCast_self]
  refine (broadcastTo_11b_1ab_apply _ _ u s q).trans ?_
  refine (shapeCast_ab_1ab_apply _ _ (0 : Fin 1) (0 : Fin 1) q).trans ?_
  refine (shapeCast_a_1a_apply _ _ (0 : Fin 1) q).trans ?_
  exact colSum_apply _ _ _ _ q

/-- The column sums of squares' block, likewise. -/
theorem pay4_apply (v0 : Vec Ideal S4000x128 .bf16) (v3 v8 v14 v18 : Vec Ideal S1x128 .f32) (u : Fin 1) (s : Fin 8) (q : Fin 128) :
    k7_pay4 (F := Ideal) v0 v3 v8 v14 v18 (ix3 u s q)
      = ∑ r : Fin 4000, k7_pay1 (F := Ideal) v0 v3 v8 v14 v18 (ix2 r q) * k7_pay1 (F := Ideal) v0 v3 v8 v14 v18 (ix2 r q) := by
  unfold k7_pay4
  simp only [shapeCast_self]
  refine (broadcastTo_11b_1ab_apply _ _ u s q).trans ?_
  refine (shapeCast_ab_1ab_apply _ _ (0 : Fin 1) (0 : Fin 1) q).trans ?_
  refine (shapeCast_a_1a_apply _ _ (0 : Fin 1) q).trans ?_
  exact colSum_apply _ _ _ _ q

/-! ## Each output window's staging buffer after the body, at an index -/

theorem hzero2 : (![0, 0] : Fin 2 → Nat) = fun _ => 0 := funext fun a => by fin_cases a <;> rfl
theorem hzero3 : (![0, 0, 0] : Fin 3 → Nat) = fun _ => 0 := funext fun a => by fin_cases a <;> rfl

/-- A block's normalised and rectified value at row `r`, column `q`, from the input block and the four parameter rows. -/
abbrev blkZ (x0 : Vec Ideal S4000x128 .bf16) (x1 x2 x3 x4 : Vec Ideal S1x128 .f32) (r : Fin 4000) (q : Fin 128) : EReal :=
  nrm (x0 (ix2 r q)) (x1 (ix2 (0 : Fin 1) q)) (x2 (ix2 (0 : Fin 1) q)) (x3 (ix2 (0 : Fin 1) q)) (x4 (ix2 (0 : Fin 1) q))

/-- The first output's buffer holds the block's normalised and rectified values. -/
theorem outZ_apply (x0 : Vec Ideal S4000x128 .bf16) (x1 x2 x3 x4 : Vec Ideal S1x128 .f32) (p : Fin 4000) (q : Fin 128) :
    out7_5 (F := Ideal) x0 x1 x2 x3 x4 (ix2 p q) = blkZ x0 x1 x2 x3 x4 p q := by
  unfold out7_5
  rw [View.canon_unit_zero hzero2]
  simp only [View.ld_unit_zero (S := S4000x128) hzero2, View.ld_unit_zero (S := S1x128) hzero2]
  exact (pay2_apply _ _ _ _ _ p q).trans (pay1_apply _ _ _ _ _ p q)

/-- The second output's buffer holds, in each of its eight rows, the column sums of those values. -/
theorem outSum_apply (x0 : Vec Ideal S4000x128 .bf16) (x1 x2 x3 x4 : Vec Ideal S1x128 .f32) (u : Fin 1) (s : Fin 8) (q : Fin 128) :
    out7_6 (F := Ideal) x0 x1 x2 x3 x4 (ix3 u s q) = ∑ r : Fin 4000, blkZ x0 x1 x2 x3 x4 r q := by
  unfold out7_6
  rw [View.canon_unit_zero hzero3]
  simp only [View.ld_unit_zero (S := S4000x128) hzero2, View.ld_unit_zero (S := S1x128) hzero2]
  refine (pay3_apply _ _ _ _ _ u s q).trans ?_
  exact Finset.sum_congr rfl fun r _ => pay1_apply _ _ _ _ _ r q

/-- The third output's buffer holds, in each of its eight rows, the column sums of their squares. -/
theorem outSq_apply (x0 : Vec Ideal S4000x128 .bf16) (x1 x2 x3 x4 : Vec Ideal S1x128 .f32) (u : Fin 1) (s : Fin 8) (q : Fin 128) :
    out7_7 (F := Ideal) x0 x1 x2 x3 x4 (ix3 u s q) = ∑ r : Fin 4000, blkZ x0 x1 x2 x3 x4 r q * blkZ x0 x1 x2 x3 x4 r q := by
  unfold out7_7
  rw [View.canon_unit_zero hzero3]
  simp only [View.ld_unit_zero (S := S4000x128) hzero2, View.ld_unit_zero (S := S1x128) hzero2]
  refine (pay4_apply _ _ _ _ _ u s q).trans ?_
  exact Finset.sum_congr rfl fun r _ => by rw [pay1_apply]

/-! ## The index maps, decided once over the grid -/

theorem idxIn : ∀ t : Fin cfg7.N, win7_0.index t (0 : Fin 2) = t.val ∧ win7_0.index t (1 : Fin 2) = 0 :=
  (by decide +kernel : ∀ t : Fin grid7.N, _)
theorem idxMean : ∀ t : Fin cfg7.N, win7_1.index t (0 : Fin 2) = 0 ∧ win7_1.index t (1 : Fin 2) = 0 :=
  (by decide +kernel : ∀ t : Fin grid7.N, _)
theorem idxVar : ∀ t : Fin cfg7.N, win7_2.index t (0 : Fin 2) = 0 ∧ win7_2.index t (1 : Fin 2) = 0 :=
  (by decide +kernel : ∀ t : Fin grid7.N, _)
theorem idxScale : ∀ t : Fin cfg7.N, win7_3.index t (0 : Fin 2) = 0 ∧ win7_3.index t (1 : Fin 2) = 0 :=
  (by decide +kernel : ∀ t : Fin grid7.N, _)
theorem idxShift : ∀ t : Fin cfg7.N, win7_4.index t (0 : Fin 2) = 0 ∧ win7_4.index t (1 : Fin 2) = 0 :=
  (by decide +kernel : ∀ t : Fin grid7.N, _)
theorem idxZ : ∀ t : Fin cfg7.N, win7_5.index t (0 : Fin 2) = t.val ∧ win7_5.index t (1 : Fin 2) = 0 :=
  (by decide +kernel : ∀ t : Fin grid7.N, _)
theorem idxSum : ∀ t : Fin cfg7.N, win7_6.index t (0 : Fin 3) = t.val ∧ win7_6.index t (1 : Fin 3) = 0 ∧ win7_6.index t (2 : Fin 3) = 0 :=
  (by decide +kernel : ∀ t : Fin grid7.N, _)
theorem idxSq : ∀ t : Fin cfg7.N, win7_7.index t (0 : Fin 3) = t.val ∧ win7_7.index t (1 : Fin 3) = 0 ∧ win7_7.index t (2 : Fin 3) = 0 :=
  (by decide +kernel : ∀ t : Fin grid7.N, _)

theorem lt_five (t : Fin cfg7.N) : t.val < 5 := Nat.lt_of_lt_of_eq t.isLt N_7

/-! ## Where each window's block sits in its array -/

/-- Row `r`, column `q` of the input's block at point `t` is row `4000 t + r`, column `q` of the array. -/
theorem embIn (t : Fin cfg7.N) (r : Fin 4000) (q : Fin 128) :
    ((cfg7.win 0).blk t).view.emb (ix2 r q) = ix2 (M.tileRow ⟨t.val, lt_five t⟩ r) q := by
  obtain ⟨e0, e1⟩ := idxIn t
  funext a
  apply Fin.ext
  match a with
  | ⟨0, _⟩ => show win7_0.index t (0 : Fin 2) * 4000 + 1 * r.val = 4000 * t.val + r.val; rw [e0]; omega
  | ⟨1, _⟩ => show win7_0.index t (1 : Fin 2) * 128 + 1 * q.val = q.val; rw [e1]; omega

theorem embMean (t : Fin cfg7.N) (q : Fin 128) : ((cfg7.win 1).blk t).view.emb (ix2 (0 : Fin 1) q) = ix2 (0 : Fin 1) q := by
  obtain ⟨e0, e1⟩ := idxMean t
  funext a
  apply Fin.ext
  match a with
  | ⟨0, _⟩ => show win7_1.index t (0 : Fin 2) * 1 + 1 * 0 = 0; rw [e0]
  | ⟨1, _⟩ => show win7_1.index t (1 : Fin 2) * 128 + 1 * q.val = q.val; rw [e1]; omega

theorem embVar (t : Fin cfg7.N) (q : Fin 128) : ((cfg7.win 2).blk t).view.emb (ix2 (0 : Fin 1) q) = ix2 (0 : Fin 1) q := by
  obtain ⟨e0, e1⟩ := idxVar t
  funext a
  apply Fin.ext
  match a with
  | ⟨0, _⟩ => show win7_2.index t (0 : Fin 2) * 1 + 1 * 0 = 0; rw [e0]
  | ⟨1, _⟩ => show win7_2.index t (1 : Fin 2) * 128 + 1 * q.val = q.val; rw [e1]; omega

theorem embScale (t : Fin cfg7.N) (q : Fin 128) : ((cfg7.win 3).blk t).view.emb (ix2 (0 : Fin 1) q) = ix2 (0 : Fin 1) q := by
  obtain ⟨e0, e1⟩ := idxScale t
  funext a
  apply Fin.ext
  match a with
  | ⟨0, _⟩ => show win7_3.index t (0 : Fin 2) * 1 + 1 * 0 = 0; rw [e0]
  | ⟨1, _⟩ => show win7_3.index t (1 : Fin 2) * 128 + 1 * q.val = q.val; rw [e1]; omega

theorem embShift (t : Fin cfg7.N) (q : Fin 128) : ((cfg7.win 4).blk t).view.emb (ix2 (0 : Fin 1) q) = ix2 (0 : Fin 1) q := by
  obtain ⟨e0, e1⟩ := idxShift t
  funext a
  apply Fin.ext
  match a with
  | ⟨0, _⟩ => show win7_4.index t (0 : Fin 2) * 1 + 1 * 0 = 0; rw [e0]
  | ⟨1, _⟩ => show win7_4.index t (1 : Fin 2) * 128 + 1 * q.val = q.val; rw [e1]; omega

/-- Likewise the first output's block. -/
theorem embZ (t : Fin cfg7.N) (r : Fin 4000) (q : Fin 128) :
    ((cfg7.win 5).blk t).view.emb (ix2 r q) = ix2 (M.tileRow ⟨t.val, lt_five t⟩ r) q := by
  obtain ⟨e0, e1⟩ := idxZ t
  funext a
  apply Fin.ext
  match a with
  | ⟨0, _⟩ => show win7_5.index t (0 : Fin 2) * 4000 + 1 * r.val = 4000 * t.val + r.val; rw [e0]; omega
  | ⟨1, _⟩ => show win7_5.index t (1 : Fin 2) * 128 + 1 * q.val = q.val; rw [e1]; omega

/-- The sums' block at point `t` is tile `t` of the `[5, 8, 128]` array. -/
theorem embSum (t : Fin cfg7.N) (u : Fin 1) (s : Fin 8) (q : Fin 128) :
    ((cfg7.win 6).blk t).view.emb (ix3 u s q) = ix3 (⟨t.val, lt_five t⟩ : Fin 5) s q := by
  obtain ⟨e0, e1, e2⟩ := idxSum t
  have hu : u.val = 0 := by omega
  funext a
  apply Fin.ext
  match a with
  | ⟨0, _⟩ => show win7_6.index t (0 : Fin 3) * 1 + 1 * u.val = t.val; rw [e0, hu]; omega
  | ⟨1, _⟩ => show win7_6.index t (1 : Fin 3) * 8 + 1 * s.val = s.val; rw [e1]; omega
  | ⟨2, _⟩ => show win7_6.index t (2 : Fin 3) * 128 + 1 * q.val = q.val; rw [e2]; omega

theorem embSq (t : Fin cfg7.N) (u : Fin 1) (s : Fin 8) (q : Fin 128) :
    ((cfg7.win 7).blk t).view.emb (ix3 u s q) = ix3 (⟨t.val, lt_five t⟩ : Fin 5) s q := by
  obtain ⟨e0, e1, e2⟩ := idxSq t
  have hu : u.val = 0 := by omega
  funext a
  apply Fin.ext
  match a with
  | ⟨0, _⟩ => show win7_7.index t (0 : Fin 3) * 1 + 1 * u.val = t.val; rw [e0, hu]; omega
  | ⟨1, _⟩ => show win7_7.index t (1 : Fin 3) * 8 + 1 * s.val = s.val; rw [e1]; omega
  | ⟨2, _⟩ => show win7_7.index t (2 : Fin 3) * 128 + 1 * q.val = q.val; rw [e2]; omega

/-! ## The region's arrays -/

variable (V : (c : Dev nD) → (b : Ref sig .tc) → Buf (Elt Ideal) ((c : Thread nD τ).loc b))

/-- The normalised and rectified array, as a function of coordinates, of the arrays as the region finds them. -/
abbrev z (c : Dev nD) : Fin 20000 → Fin 128 → EReal :=
  M.bnrelu (M.at2 (V c (Pipeline.arrRef spec7 0))) (fun j => M.at2 (V c (Pipeline.arrRef spec7 1)) 0 j)
    (fun j => M.at2 (V c (Pipeline.arrRef spec7 2)) 0 j) (fun j => M.at2 (V c (Pipeline.arrRef spec7 3)) 0 j)
    (fun j => M.at2 (V c (Pipeline.arrRef spec7 4)) 0 j)

/-- The input windows' blocks at point `t` give, at row `r` and column `q`, the array's value at row `4000 t + r`. -/
theorem blkZ_iblk (c : Dev nD) (t : Fin cfg7.N) (r : Fin 4000) (q : Fin 128) :
    blkZ (iblk7 V c 0 t) (iblk7 V c 1 t) (iblk7 V c 2 t) (iblk7 V c 3 t) (iblk7 V c 4 t) r q
      = z V c (M.tileRow ⟨t.val, lt_five t⟩ r) q :=
  nrm_congr (congrArg (V c (Pipeline.arrRef spec7 0)) (embIn t r q))
    (congrArg (V c (Pipeline.arrRef spec7 1)) (embMean t q))
    (congrArg (V c (Pipeline.arrRef spec7 2)) (embVar t q))
    (congrArg (V c (Pipeline.arrRef spec7 3)) (embScale t q))
    (congrArg (V c (Pipeline.arrRef spec7 4)) (embShift t q))

/-! ## What each point writes back is its block of the whole-array function -/

theorem flushedZ_eq (c : Dev nD) (t : Fin cfg7.N) :
    (dat7 (F := Ideal) V c).flushed 5 t = ((cfg7.win 5).blk t).view.read (Elt Ideal) (M.mk2 (z V c)) := by
  show (cfg7.win 5).cut (grid7.coords t) ((dat7 V c).after 5 t) = _
  rw [after7_5]
  funext j
  obtain ⟨p, q, rfl⟩ : ∃ (p : Fin 4000) (q : Fin 128), j = ix2 p q := ⟨j 0, j 1, eq_ix2 j⟩
  show out7_5 (iblk7 V c 0 t) (iblk7 V c 1 t) (iblk7 V c 2 t) (iblk7 V c 3 t) (iblk7 V c 4 t) (ix2 p q)
    = M.mk2 (z V c) (((cfg7.win 5).blk t).view.emb (ix2 p q))
  refine (outZ_apply _ _ _ _ _ p q).trans ?_
  refine (blkZ_iblk V c t p q).trans ?_
  exact (congrArg (M.mk2 (z V c)) (embZ t p q)).symm

theorem flushedSum_eq (c : Dev nD) (t : Fin cfg7.N) :
    (dat7 (F := Ideal) V c).flushed 6 t = ((cfg7.win 6).blk t).view.read (Elt Ideal) (M.mk3 (M.sumT (z V c))) := by
  show (cfg7.win 6).cut (grid7.coords t) ((dat7 V c).after 6 t) = _
  rw [after7_6]
  funext j
  obtain ⟨u, s, q, rfl⟩ : ∃ (u : Fin 1) (s : Fin 8) (q : Fin 128), j = ix3 u s q := ⟨j 0, j 1, j 2, eq_ix3 j⟩
  show out7_6 (iblk7 V c 0 t) (iblk7 V c 1 t) (iblk7 V c 2 t) (iblk7 V c 3 t) (iblk7 V c 4 t) (ix3 u s q)
    = M.mk3 (M.sumT (z V c)) (((cfg7.win 6).blk t).view.emb (ix3 u s q))
  refine (outSum_apply _ _ _ _ _ u s q).trans ?_
  refine Eq.trans ?_ (congrArg (M.mk3 (M.sumT (z V c))) (embSum t u s q)).symm
  show _ = ∑ r : Fin 4000, z V c (M.tileRow ⟨t.val, lt_five t⟩ r) q
  exact Finset.sum_congr rfl fun r _ => blkZ_iblk V c t r q

theorem flushedSq_eq (c : Dev nD) (t : Fin cfg7.N) :
    (dat7 (F := Ideal) V c).flushed 7 t = ((cfg7.win 7).blk t).view.read (Elt Ideal) (M.mk3 (M.sumsqT (z V c))) := by
  show (cfg7.win 7).cut (grid7.coords t) ((dat7 V c).after 7 t) = _
  rw [after7_7]
  funext j
  obtain ⟨u, s, q, rfl⟩ : ∃ (u : Fin 1) (s : Fin 8) (q : Fin 128), j = ix3 u s q := ⟨j 0, j 1, j 2, eq_ix3 j⟩
  show out7_7 (iblk7 V c 0 t) (iblk7 V c 1 t) (iblk7 V c 2 t) (iblk7 V c 3 t) (iblk7 V c 4 t) (ix3 u s q)
    = M.mk3 (M.sumsqT (z V c)) (((cfg7.win 7).blk t).view.emb (ix3 u s q))
  refine (outSq_apply _ _ _ _ _ u s q).trans ?_
  refine Eq.trans ?_ (congrArg (M.mk3 (M.sumsqT (z V c))) (embSq t u s q)).symm
  show _ = ∑ r : Fin 4000, z V c (M.tileRow ⟨t.val, lt_five t⟩ r) q * z V c (M.tileRow ⟨t.val, lt_five t⟩ r) q
  exact Finset.sum_congr rfl fun r _ => by rw [blkZ_iblk V c t r q]

/-! ## The blocks cover the arrays -/

/-- Row `r` of the first output is row `r % 4000` of the block of point `r / 4000`. -/
theorem coverZ (i : S20000x128.Idx) : ∃ t : Fin cfg7.N, (cfg7.win 5).flush t = true ∧ i ∈ ((cfg7.win 5).blk t).view.set := by
  have hi0 : (i 0).val < 20000 := (i 0).isLt
  obtain ⟨t, ht⟩ : ∃ t : Fin cfg7.N, t.val = (i 0).val / 4000 :=
    ⟨⟨(i 0).val / 4000, by rw [show cfg7.N = 5 from N_7]; omega⟩, rfl⟩
  have h : ((cfg7.win 5).blk t).view.emb (ix2 (⟨(i 0).val % 4000, Nat.mod_lt _ (by omega)⟩ : Fin 4000) (i 1)) = i := by
    refine (embZ t _ _).trans ?_
    funext a
    apply Fin.ext
    match a with
    | ⟨0, _⟩ => show 4000 * t.val + (i 0).val % 4000 = (i 0).val; rw [ht]; omega
    | ⟨1, _⟩ => rfl
  exact ⟨t, flush7_5 t, by rw [← h]; exact ((cfg7.win 5).blk t).view.emb_mem_set _⟩

/-- Tile `p` of the sums array is the block of point `p`. -/
theorem coverSum (i : S5x8x128.Idx) : ∃ t : Fin cfg7.N, (cfg7.win 6).flush t = true ∧ i ∈ ((cfg7.win 6).blk t).view.set := by
  have hi0 : (i 0).val < 5 := (i 0).isLt
  obtain ⟨t, ht⟩ : ∃ t : Fin cfg7.N, t.val = (i 0).val :=
    ⟨⟨(i 0).val, by rw [show cfg7.N = 5 from N_7]; omega⟩, rfl⟩
  have h : ((cfg7.win 6).blk t).view.emb (ix3 (0 : Fin 1) (i 1) (i 2)) = i := by
    refine (embSum t _ _ _).trans ?_
    funext a
    apply Fin.ext
    match a with
    | ⟨0, _⟩ => exact ht
    | ⟨1, _⟩ => rfl
    | ⟨2, _⟩ => rfl
  exact ⟨t, flush7_6 t, by rw [← h]; exact ((cfg7.win 6).blk t).view.emb_mem_set _⟩

/-- Likewise the sums of squares array. -/
theorem coverSq (i : S5x8x128.Idx) : ∃ t : Fin cfg7.N, (cfg7.win 7).flush t = true ∧ i ∈ ((cfg7.win 7).blk t).view.set := by
  have hi0 : (i 0).val < 5 := (i 0).isLt
  obtain ⟨t, ht⟩ : ∃ t : Fin cfg7.N, t.val = (i 0).val :=
    ⟨⟨(i 0).val, by rw [show cfg7.N = 5 from N_7]; omega⟩, rfl⟩
  have h : ((cfg7.win 7).blk t).view.emb (ix3 (0 : Fin 1) (i 1) (i 2)) = i := by
    refine (embSq t _ _ _).trans ?_
    funext a
    apply Fin.ext
    match a with
    | ⟨0, _⟩ => exact ht
    | ⟨1, _⟩ => rfl
    | ⟨2, _⟩ => rfl
  exact ⟨t, flush7_7 t, by rw [← h]; exact ((cfg7.win 7).blk t).view.emb_mem_set _⟩

/-! ## The three output arrays after the region -/

/-- The first output array: the input array normalised with the given statistics, scaled, shifted and rectified. -/
theorem arr7_5 (c : Dev nD) :
    (dat7 (F := Ideal) V c).arrAt 5 cfg7.N
      = M.mk2 (M.bnrelu (M.at2 (V c (Pipeline.arrRef spec7 0))) (fun j => M.at2 (V c (Pipeline.arrRef spec7 1)) 0 j)
          (fun j => M.at2 (V c (Pipeline.arrRef spec7 2)) 0 j) (fun j => M.at2 (V c (Pipeline.arrRef spec7 3)) 0 j)
          (fun j => M.at2 (V c (Pipeline.arrRef spec7 4)) 0 j)) :=
  (dat7 V c).arrAt_eq_of_cover 5 (M.mk2 (z V c)) (fun t _ => flushedZ_eq V c t) coverZ

/-- The second output array: that array's column sums tile by tile, each in eight rows. -/
theorem arr7_6 (c : Dev nD) :
    (dat7 (F := Ideal) V c).arrAt 6 cfg7.N
      = M.mk3 (M.sumT (M.bnrelu (M.at2 (V c (Pipeline.arrRef spec7 0))) (fun j => M.at2 (V c (Pipeline.arrRef spec7 1)) 0 j)
          (fun j => M.at2 (V c (Pipeline.arrRef spec7 2)) 0 j) (fun j => M.at2 (V c (Pipeline.arrRef spec7 3)) 0 j)
          (fun j => M.at2 (V c (Pipeline.arrRef spec7 4)) 0 j))) :=
  (dat7 V c).arrAt_eq_of_cover 6 (M.mk3 (M.sumT (z V c))) (fun t _ => flushedSum_eq V c t) coverSum

/-- The third output array: that array's column sums of squares tile by tile, each in eight rows. -/
theorem arr7_7 (c : Dev nD) :
    (dat7 (F := Ideal) V c).arrAt 7 cfg7.N
      = M.mk3 (M.sumsqT (M.bnrelu (M.at2 (V c (Pipeline.arrRef spec7 0))) (fun j => M.at2 (V c (Pipeline.arrRef spec7 1)) 0 j)
          (fun j => M.at2 (V c (Pipeline.arrRef spec7 2)) 0 j) (fun j => M.at2 (V c (Pipeline.arrRef spec7 3)) 0 j)
          (fun j => M.at2 (V c (Pipeline.arrRef spec7 4)) 0 j))) :=
  (dat7 V c).arrAt_eq_of_cover 7 (M.mk3 (M.sumsqT (z V c))) (fun t _ => flushedSq_eq V c t) coverSq

end Cert.RegC7

end
-- ==== Proof.RegD8.lean ====
/-
  The values of a layer's last region: its first output array after the region is the layer's output
  `h + max ((z − mean) · rsqrt (var + ε) · g + b) 0`, the other two that output times one whole weight each. The region
  works on row blocks of 4000; the statistics, scale and shift are one row each, broadcast over the block's rows.
-/
import proofs.«416875_j80633716015165_3_alg».proof.Proof.RegNP
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

open Cert

namespace Cert.RegD8

open Cert.KernelIdeal Cert.KernelIdeal.Gen

variable (V : (c : Dev nD) → (b : Ref sig .tc) → Buf (Elt Ideal) ((c : Thread nD τ).loc b))

/-! ## The payloads at an index -/

/-- The first output's payload at row `p`, column `q`: the input block there plus the normalised, rectified third
    stage, the statistics, scale and shift read from their one row. -/
theorem pay2_apply (z : Vec Ideal S4000x128 .bf16) (vr mn g b : Vec Ideal S1x128 .f32) (h : Vec Ideal S4000x128 .f32)
    (p : Fin 4000) (q : Fin 128) :
    k8_pay2 z vr mn g b h (ix2 p q)
      = h (ix2 p q) + max ((z (ix2 p q) - mn (ix2 0 q)) * Ideal.rsqrt (vr (ix2 0 q) + M.cEps) * g (ix2 0 q) + b (ix2 0 q)) M.c0 := by
  unfold k8_pay2
  simp only [shapeCast_self]
  first
  | (refine Eq.trans (b := h (ix2 p q) + max ((z (ix2 p q) - broadcastTo S4000x128 mn broadcasts_S1x128_S4000x128 (ix2 p q))
        * broadcastTo S4000x128 (fun i => Ideal.rsqrt (vr i + M.cEps)) broadcasts_S1x128_S4000x128 (ix2 p q)
        * broadcastTo S4000x128 g broadcasts_S1x128_S4000x128 (ix2 p q)
        + broadcastTo S4000x128 b broadcasts_S1x128_S4000x128 (ix2 p q)) M.c0) rfl ?_
     rw [broadcastTo_1b_ab_apply, broadcastTo_1b_ab_apply, broadcastTo_1b_ab_apply, broadcastTo_1b_ab_apply] <;> rfl)
  | (simp only [addf_apply, maximumf_apply, mulf_apply, subf_apply, extf_apply, broadcast_apply,
      broadcastTo_1b_ab_apply]
     rfl)

/-- The second output's payload at row `p`, column `q`: row `p` of the first output's block against column `q` of
    the weight. -/
theorem pay5_apply (z : Vec Ideal S4000x128 .bf16) (vr mn g b : Vec Ideal S1x128 .f32) (h : Vec Ideal S4000x128 .f32)
    (w : Vec Ideal S128x128 .bf16) (p : Fin 4000) (q : Fin 128) :
    k8_pay5 z vr mn g b h w (ix2 p q) = ∑ t : Fin 128, k8_pay2 z vr mn g b h (ix2 p t) * w (ix2 t q) := by
  unfold k8_pay5 k8_pay3
  simp only [shapeCast_self]
  exact RegNP.mm_apply _ _ p q

/-- The third output's payload at row `p`, column `q`, likewise. -/
theorem pay14_apply (z : Vec Ideal S4000x128 .bf16) (vr mn g b : Vec Ideal S1x128 .f32) (h : Vec Ideal S4000x128 .f32)
    (w : Vec Ideal S128x128 .bf16) (p : Fin 4000) (q : Fin 128) :
    k8_pay1 (k8_pay4 z vr mn g b h w) (ix2 p q) = ∑ t : Fin 128, k8_pay2 z vr mn g b h (ix2 p t) * w (ix2 t q) := by
  unfold k8_pay1 k8_pay4 k8_pay3
  simp only [shapeCast_self]
  exact RegNP.mm_apply _ _ p q

/-! ## From blocks to the arrays -/

theorem hz : (![0, 0] : Fin 2 → Nat) = fun _ => 0 := funext fun a => by fin_cases a <;> rfl

/-- The index maps over the grid, window by window: a row-blocked window's block is row block `t`, -/
theorem idx_0 : ∀ t : Fin cfg8.N, win8_0.index t (0 : Fin 2) = t.val ∧ win8_0.index t (1 : Fin 2) = 0 :=
  (by decide +kernel : ∀ t : Fin grid8.N, _)
theorem idx_5 : ∀ t : Fin cfg8.N, win8_5.index t (0 : Fin 2) = t.val ∧ win8_5.index t (1 : Fin 2) = 0 :=
  (by decide +kernel : ∀ t : Fin grid8.N, _)
theorem idx_8 : ∀ t : Fin cfg8.N, win8_8.index t (0 : Fin 2) = t.val ∧ win8_8.index t (1 : Fin 2) = 0 :=
  (by decide +kernel : ∀ t : Fin grid8.N, _)
theorem idx_9 : ∀ t : Fin cfg8.N, win8_9.index t (0 : Fin 2) = t.val ∧ win8_9.index t (1 : Fin 2) = 0 :=
  (by decide +kernel : ∀ t : Fin grid8.N, _)
theorem idx_10 : ∀ t : Fin cfg8.N, win8_10.index t (0 : Fin 2) = t.val ∧ win8_10.index t (1 : Fin 2) = 0 :=
  (by decide +kernel : ∀ t : Fin grid8.N, _)
/-- a whole window's block is the array. -/
theorem idx_1 : ∀ t : Fin cfg8.N, win8_1.index t (0 : Fin 2) = 0 ∧ win8_1.index t (1 : Fin 2) = 0 :=
  (by decide +kernel : ∀ t : Fin grid8.N, _)
theorem idx_2 : ∀ t : Fin cfg8.N, win8_2.index t (0 : Fin 2) = 0 ∧ win8_2.index t (1 : Fin 2) = 0 :=
  (by decide +kernel : ∀ t : Fin grid8.N, _)
theorem idx_3 : ∀ t : Fin cfg8.N, win8_3.index t (0 : Fin 2) = 0 ∧ win8_3.index t (1 : Fin 2) = 0 :=
  (by decide +kernel : ∀ t : Fin grid8.N, _)
theorem idx_4 : ∀ t : Fin cfg8.N, win8_4.index t (0 : Fin 2) = 0 ∧ win8_4.index t (1 : Fin 2) = 0 :=
  (by decide +kernel : ∀ t : Fin grid8.N, _)
theorem idx_6 : ∀ t : Fin cfg8.N, win8_6.index t (0 : Fin 2) = 0 ∧ win8_6.index t (1 : Fin 2) = 0 :=
  (by decide +kernel : ∀ t : Fin grid8.N, _)
theorem idx_7 : ∀ t : Fin cfg8.N, win8_7.index t (0 : Fin 2) = 0 ∧ win8_7.index t (1 : Fin 2) = 0 :=
  (by decide +kernel : ∀ t : Fin grid8.N, _)

/-- The arrays as the region finds them: the third stage, -/
abbrev zArr (c : Dev nD) : S20000x128.Idx → EReal := V c (Pipeline.arrRef spec8 0)
/-- its columns' means, -/
abbrev mnArr (c : Dev nD) : S1x128.Idx → EReal := V c (Pipeline.arrRef spec8 1)
/-- its columns' variances, -/
abbrev vrArr (c : Dev nD) : S1x128.Idx → EReal := V c (Pipeline.arrRef spec8 2)
/-- the scale, -/
abbrev gArr (c : Dev nD) : S1x128.Idx → EReal := V c (Pipeline.arrRef spec8 3)
/-- the shift, -/
abbrev bArr (c : Dev nD) : S1x128.Idx → EReal := V c (Pipeline.arrRef spec8 4)
/-- the layer's input, -/
abbrev hArr (c : Dev nD) : S20000x128.Idx → EReal := V c (Pipeline.arrRef spec8 5)
/-- the first weight, -/
abbrev wtArr (c : Dev nD) : S128x128.Idx → EReal := V c (Pipeline.arrRef spec8 6)
/-- and the second. -/
abbrev wbArr (c : Dev nD) : S128x128.Idx → EReal := V c (Pipeline.arrRef spec8 7)
/-- The layer's output from them. -/
abbrev XN (c : Dev nD) : Fin 20000 → Fin 128 → EReal :=
  RegNP.xnew (zArr V c) (mnArr V c) (vrArr V c) (gArr V c) (bArr V c) (hArr V c)

/-- Row block `t` of the third stage: entry `(p, q)` is the array's at row `4000 t + p`. -/
theorem zblk_apply (c : Dev nD) (t : Fin cfg8.N) (p : Fin 4000) (q : Fin 128) (r : Fin 20000)
    (hr : r.val = t.val * 4000 + p.val) :
    (iblk8 V c 0 t : Vec Ideal S4000x128 .bf16) (ix2 p q) = zArr V c (ix2 r q) := by
  have e := idx_0 t
  show V c (Pipeline.arrRef spec8 0) (((cfg8.win 0).blk t).view.emb (ix2 p q)) = V c (Pipeline.arrRef spec8 0) (ix2 r q)
  refine congrArg _ (funext fun a => Fin.ext ?_)
  match a with
  | ⟨0, _⟩ => show win8_0.index t (0 : Fin 2) * 4000 + 1 * p.val = r.val; omega
  | ⟨1, _⟩ => show win8_0.index t (1 : Fin 2) * 128 + 1 * q.val = q.val; omega

/-- Row block `t` of the layer's input likewise. -/
theorem hblk_apply (c : Dev nD) (t : Fin cfg8.N) (p : Fin 4000) (q : Fin 128) (r : Fin 20000)
    (hr : r.val = t.val * 4000 + p.val) :
    (iblk8 V c 5 t : Vec Ideal S4000x128 .f32) (ix2 p q) = hArr V c (ix2 r q) := by
  have e := idx_5 t
  show V c (Pipeline.arrRef spec8 5) (((cfg8.win 5).blk t).view.emb (ix2 p q)) = V c (Pipeline.arrRef spec8 5) (ix2 r q)
  refine congrArg _ (funext fun a => Fin.ext ?_)
  match a with
  | ⟨0, _⟩ => show win8_5.index t (0 : Fin 2) * 4000 + 1 * p.val = r.val; omega
  | ⟨1, _⟩ => show win8_5.index t (1 : Fin 2) * 128 + 1 * q.val = q.val; omega

/-- The means' block is their one row, -/
theorem mnblk_apply (c : Dev nD) (t : Fin cfg8.N) (q : Fin 128) :
    (iblk8 V c 1 t : Vec Ideal S1x128 .f32) (ix2 0 q) = mnArr V c (ix2 0 q) := by
  have e := idx_1 t
  show V c (Pipeline.arrRef spec8 1) (((cfg8.win 1).blk t).view.emb (ix2 0 q)) = V c (Pipeline.arrRef spec8 1) (ix2 0 q)
  refine congrArg _ (funext fun a => Fin.ext ?_)
  match a with
  | ⟨0, _⟩ => show win8_1.index t (0 : Fin 2) * 1 + 1 * 0 = 0; omega
  | ⟨1, _⟩ => show win8_1.index t (1 : Fin 2) * 128 + 1 * q.val = q.val; omega

/-- the variances' likewise, -/
theorem vrblk_apply (c : Dev nD) (t : Fin cfg8.N) (q : Fin 128) :
    (iblk8 V c 2 t : Vec Ideal S1x128 .f32) (ix2 0 q) = vrArr V c (ix2 0 q) := by
  have e := idx_2 t
  show V c (Pipeline.arrRef spec8 2) (((cfg8.win 2).blk t).view.emb (ix2 0 q)) = V c (Pipeline.arrRef spec8 2) (ix2 0 q)
  refine congrArg _ (funext fun a => Fin.ext ?_)
  match a with
  | ⟨0, _⟩ => show win8_2.index t (0 : Fin 2) * 1 + 1 * 0 = 0; omega
  | ⟨1, _⟩ => show win8_2.index t (1 : Fin 2) * 128 + 1 * q.val = q.val; omega

/-- the scale's, -/
theorem gblk_apply (c : Dev nD) (t : Fin cfg8.N) (q : Fin 128) :
    (iblk8 V c 3 t : Vec Ideal S1x128 .f32) (ix2 0 q) = gArr V c (ix2 0 q) := by
  have e := idx_3 t
  show V c (Pipeline.arrRef spec8 3) (((cfg8.win 3).blk t).view.emb (ix2 0 q)) = V c (Pipeline.arrRef spec8 3) (ix2 0 q)
  refine congrArg _ (funext fun a => Fin.ext ?_)
  match a with
  | ⟨0, _⟩ => show win8_3.index t (0 : Fin 2) * 1 + 1 * 0 = 0; omega
  | ⟨1, _⟩ => show win8_3.index t (1 : Fin 2) * 128 + 1 * q.val = q.val; omega

/-- and the shift's. -/
theorem bblk_apply (c : Dev nD) (t : Fin cfg8.N) (q : Fin 128) :
    (iblk8 V c 4 t : Vec Ideal S1x128 .f32) (ix2 0 q) = bArr V c (ix2 0 q) := by
  have e := idx_4 t
  show V c (Pipeline.arrRef spec8 4) (((cfg8.win 4).blk t).view.emb (ix2 0 q)) = V c (Pipeline.arrRef spec8 4) (ix2 0 q)
  refine congrArg _ (funext fun a => Fin.ext ?_)
  match a with
  | ⟨0, _⟩ => show win8_4.index t (0 : Fin 2) * 1 + 1 * 0 = 0; omega
  | ⟨1, _⟩ => show win8_4.index t (1 : Fin 2) * 128 + 1 * q.val = q.val; omega

/-- The first weight's block is the weight, -/
theorem wtblk_apply (c : Dev nD) (t : Fin cfg8.N) (k q : Fin 128) :
    (iblk8 V c 6 t : Vec Ideal S128x128 .bf16) (ix2 k q) = wtArr V c (ix2 k q) := by
  have e := idx_6 t
  show V c (Pipeline.arrRef spec8 6) (((cfg8.win 6).blk t).view.emb (ix2 k q)) = V c (Pipeline.arrRef spec8 6) (ix2 k q)
  refine congrArg _ (funext fun a => Fin.ext ?_)
  match a with
  | ⟨0, _⟩ => show win8_6.index t (0 : Fin 2) * 128 + 1 * k.val = k.val; omega
  | ⟨1, _⟩ => show win8_6.index t (1 : Fin 2) * 128 + 1 * q.val = q.val; omega

/-- and the second's. -/
theorem wbblk_apply (c : Dev nD) (t : Fin cfg8.N) (k q : Fin 128) :
    (iblk8 V c 7 t : Vec Ideal S128x128 .bf16) (ix2 k q) = wbArr V c (ix2 k q) := by
  have e := idx_7 t
  show V c (Pipeline.arrRef spec8 7) (((cfg8.win 7).blk t).view.emb (ix2 k q)) = V c (Pipeline.arrRef spec8 7) (ix2 k q)
  refine congrArg _ (funext fun a => Fin.ext ?_)
  match a with
  | ⟨0, _⟩ => show win8_7.index t (0 : Fin 2) * 128 + 1 * k.val = k.val; omega
  | ⟨1, _⟩ => show win8_7.index t (1 : Fin 2) * 128 + 1 * q.val = q.val; omega

/-- The first payload on the blocks at point `t` is the layer's output on row block `t`. -/
theorem xn_blk (c : Dev nD) (t : Fin cfg8.N) (p : Fin 4000) (q : Fin 128) (r : Fin 20000)
    (hr : r.val = t.val * 4000 + p.val) :
    k8_pay2 (iblk8 V c 0 t) (iblk8 V c 2 t) (iblk8 V c 1 t) (iblk8 V c 3 t) (iblk8 V c 4 t) (iblk8 V c 5 t) (ix2 p q) = XN V c r q := by
  refine (pay2_apply (iblk8 V c 0 t) (iblk8 V c 2 t) (iblk8 V c 1 t) (iblk8 V c 3 t) (iblk8 V c 4 t) (iblk8 V c 5 t) p q).trans ?_
  rw [zblk_apply V c t p q r hr, hblk_apply V c t p q r hr, mnblk_apply V c t q, vrblk_apply V c t q,
    gblk_apply V c t q, bblk_apply V c t q]
  rfl

/-- The body's result for the first output window on the blocks at point `t`, read through the window's block, is block `t` of the layer's output. -/
theorem out8_eq (c : Dev nD) (t : Fin cfg8.N) :
    (cfg8.win 8).cut (grid8.coords t) (out8_8 (iblk8 V c 0 t) (iblk8 V c 1 t) (iblk8 V c 2 t) (iblk8 V c 3 t) (iblk8 V c 4 t) (iblk8 V c 5 t) (iblk8 V c 6 t) (iblk8 V c 7 t))
      = ((cfg8.win 8).blk t).view.read (Elt Ideal) (M.mk2 (XN V c)) := by
  unfold out8_8
  rw [View.canon_unit_zero hz]
  simp only [View.ld_unit_zero (S := S4000x128) hz, View.ld_unit_zero (S := S1x128) hz]
  have e := idx_8 t
  funext j
  obtain ⟨p, q, rfl⟩ : ∃ (p : Fin 4000) (q : Fin 128), j = ix2 p q := ⟨j 0, j 1, eq_ix2 j⟩
  show k8_pay2 (iblk8 V c 0 t) (iblk8 V c 2 t) (iblk8 V c 1 t) (iblk8 V c 3 t) (iblk8 V c 4 t) (iblk8 V c 5 t) (ix2 p q) = (M.mk2 (XN V c)) (((cfg8.win 8).blk t).view.emb (ix2 p q))
  obtain ⟨i, hi⟩ : ∃ i : S20000x128.Idx, i = ((cfg8.win 8).blk t).view.emb (ix2 p q) := ⟨_, rfl⟩
  rw [← hi]
  have hi0 : (i 0).val = t.val * 4000 + p.val := by
    rw [hi]; show win8_8.index t (0 : Fin 2) * 4000 + 1 * p.val = _; omega
  have hi1 : i 1 = q := Fin.ext (by rw [hi]; show win8_8.index t (1 : Fin 2) * 128 + 1 * q.val = _; omega)
  show _ = XN V c (i 0) (i 1)
  rw [hi1]
  exact xn_blk V c t p q (i 0) hi0

/-- For the second output window: block `t` of the layer's output times the first weight. -/
theorem out9_eq (c : Dev nD) (t : Fin cfg8.N) :
    (cfg8.win 9).cut (grid8.coords t) (out8_9 (iblk8 V c 0 t) (iblk8 V c 1 t) (iblk8 V c 2 t) (iblk8 V c 3 t) (iblk8 V c 4 t) (iblk8 V c 5 t) (iblk8 V c 6 t) (iblk8 V c 7 t))
      = ((cfg8.win 9).blk t).view.read (Elt Ideal) (M.mk2 (M.mm (XN V c) (M.at2 (wtArr V c)))) := by
  unfold out8_9
  rw [View.canon_unit_zero hz]
  simp only [View.ld_unit_zero (S := S4000x128) hz, View.ld_unit_zero (S := S1x128) hz, View.ld_unit_zero (S := S128x128) hz]
  have e := idx_9 t
  funext j
  obtain ⟨p, q, rfl⟩ : ∃ (p : Fin 4000) (q : Fin 128), j = ix2 p q := ⟨j 0, j 1, eq_ix2 j⟩
  show k8_pay5 (iblk8 V c 0 t) (iblk8 V c 2 t) (iblk8 V c 1 t) (iblk8 V c 3 t) (iblk8 V c 4 t) (iblk8 V c 5 t) (iblk8 V c 6 t) (ix2 p q) = (M.mk2 (M.mm (XN V c) (M.at2 (wtArr V c)))) (((cfg8.win 9).blk t).view.emb (ix2 p q))
  obtain ⟨i, hi⟩ : ∃ i : S20000x128.Idx, i = ((cfg8.win 9).blk t).view.emb (ix2 p q) := ⟨_, rfl⟩
  rw [← hi]
  have hi0 : (i 0).val = t.val * 4000 + p.val := by
    rw [hi]; show win8_9.index t (0 : Fin 2) * 4000 + 1 * p.val = _; omega
  have hi1 : i 1 = q := Fin.ext (by rw [hi]; show win8_9.index t (1 : Fin 2) * 128 + 1 * q.val = _; omega)
  refine (pay5_apply (iblk8 V c 0 t) (iblk8 V c 2 t) (iblk8 V c 1 t) (iblk8 V c 3 t) (iblk8 V c 4 t) (iblk8 V c 5 t) (iblk8 V c 6 t) p q).trans ?_
  show _ = ∑ k : Fin 128, XN V c (i 0) k * wtArr V c (ix2 k (i 1))
  rw [hi1]
  refine Finset.sum_congr rfl fun k _ => ?_
  rw [xn_blk V c t p k (i 0) hi0, wtblk_apply V c t k q]

/-- For the third output window: block `t` of the layer's output times the second weight. -/
theorem out10_eq (c : Dev nD) (t : Fin cfg8.N) :
    (cfg8.win 10).cut (grid8.coords t) (out8_10 (iblk8 V c 0 t) (iblk8 V c 1 t) (iblk8 V c 2 t) (iblk8 V c 3 t) (iblk8 V c 4 t) (iblk8 V c 5 t) (iblk8 V c 6 t) (iblk8 V c 7 t))
      = ((cfg8.win 10).blk t).view.read (Elt Ideal) (M.mk2 (M.mm (XN V c) (M.at2 (wbArr V c)))) := by
  unfold out8_10
  rw [View.canon_unit_zero hz]
  simp only [View.ld_unit_zero (S := S4000x128) hz, View.ld_unit_zero (S := S1x128) hz, View.ld_unit_zero (S := S128x128) hz]
  have e := idx_10 t
  funext j
  obtain ⟨p, q, rfl⟩ : ∃ (p : Fin 4000) (q : Fin 128), j = ix2 p q := ⟨j 0, j 1, eq_ix2 j⟩
  show k8_pay1 (k8_pay4 (iblk8 V c 0 t) (iblk8 V c 2 t) (iblk8 V c 1 t) (iblk8 V c 3 t) (iblk8 V c 4 t) (iblk8 V c 5 t) (iblk8 V c 7 t)) (ix2 p q) = (M.mk2 (M.mm (XN V c) (M.at2 (wbArr V c)))) (((cfg8.win 10).blk t).view.emb (ix2 p q))
  obtain ⟨i, hi⟩ : ∃ i : S20000x128.Idx, i = ((cfg8.win 10).blk t).view.emb (ix2 p q) := ⟨_, rfl⟩
  rw [← hi]
  have hi0 : (i 0).val = t.val * 4000 + p.val := by
    rw [hi]; show win8_10.index t (0 : Fin 2) * 4000 + 1 * p.val = _; omega
  have hi1 : i 1 = q := Fin.ext (by rw [hi]; show win8_10.index t (1 : Fin 2) * 128 + 1 * q.val = _; omega)
  refine (pay14_apply (iblk8 V c 0 t) (iblk8 V c 2 t) (iblk8 V c 1 t) (iblk8 V c 3 t) (iblk8 V c 4 t) (iblk8 V c 5 t) (iblk8 V c 7 t) p q).trans ?_
  show _ = ∑ k : Fin 128, XN V c (i 0) k * wbArr V c (ix2 k (i 1))
  rw [hi1]
  refine Finset.sum_congr rfl fun k _ => ?_
  rw [xn_blk V c t p k (i 0) hi0, wbblk_apply V c t k q]

/-- An index of the array is in point `t`'s block of output window 8 iff each coordinate is in the block's range on its axis. -/
theorem mem_blk8 (t : Fin cfg8.N) (i : S20000x128.Idx) :
    i ∈ ((cfg8.win 8).blk t).view.set ↔ ∀ a : Fin 2, win8_8.index t a * S4000x128.size a ≤ (i a).val ∧ (i a).val < win8_8.index t a * S4000x128.size a + S4000x128.size a := by
  show i ∈ ((View.whole main_v271_0).slice (win8_8.rect t)).set ↔ _
  rw [View.set_slice_whole, Rect.mem_set_unit]
  exact Iff.rfl

/-- Row `r` of the array is in the block of point `r / 4000`. -/
theorem cover8 (i : S20000x128.Idx) : ∃ t : Fin cfg8.N, (cfg8.win 8).flush t = true ∧ i ∈ ((cfg8.win 8).blk t).view.set := by
  have hi0 : (i 0).val < 20000 := (i 0).isLt
  have hi1 : (i 1).val < 128 := (i 1).isLt
  have hN : cfg8.N = 5 := N_8
  obtain ⟨t, ht⟩ : ∃ t : Fin cfg8.N, t.val = (i 0).val / 4000 := ⟨⟨(i 0).val / 4000, by rw [hN]; omega⟩, rfl⟩
  have e := idx_8 t
  refine ⟨t, flush8_8 t, ?_⟩
  rw [mem_blk8]
  intro a
  match a with
  | ⟨0, _⟩ =>
    show win8_8.index t (0 : Fin 2) * 4000 ≤ (i 0).val ∧ (i 0).val < win8_8.index t (0 : Fin 2) * 4000 + 4000
    omega
  | ⟨1, _⟩ =>
    show win8_8.index t (1 : Fin 2) * 128 ≤ (i 1).val ∧ (i 1).val < win8_8.index t (1 : Fin 2) * 128 + 128
    omega

/-- An index of the array is in point `t`'s block of output window 9 iff each coordinate is in the block's range on its axis. -/
theorem mem_blk9 (t : Fin cfg8.N) (i : S20000x128.Idx) :
    i ∈ ((cfg8.win 9).blk t).view.set ↔ ∀ a : Fin 2, win8_9.index t a * S4000x128.size a ≤ (i a).val ∧ (i a).val < win8_9.index t a * S4000x128.size a + S4000x128.size a := by
  show i ∈ ((View.whole main_v271_1).slice (win8_9.rect t)).set ↔ _
  rw [View.set_slice_whole, Rect.mem_set_unit]
  exact Iff.rfl

/-- Row `r` of the array is in the block of point `r / 4000`. -/
theorem cover9 (i : S20000x128.Idx) : ∃ t : Fin cfg8.N, (cfg8.win 9).flush t = true ∧ i ∈ ((cfg8.win 9).blk t).view.set := by
  have hi0 : (i 0).val < 20000 := (i 0).isLt
  have hi1 : (i 1).val < 128 := (i 1).isLt
  have hN : cfg8.N = 5 := N_8
  obtain ⟨t, ht⟩ : ∃ t : Fin cfg8.N, t.val = (i 0).val / 4000 := ⟨⟨(i 0).val / 4000, by rw [hN]; omega⟩, rfl⟩
  have e := idx_9 t
  refine ⟨t, flush8_9 t, ?_⟩
  rw [mem_blk9]
  intro a
  match a with
  | ⟨0, _⟩ =>
    show win8_9.index t (0 : Fin 2) * 4000 ≤ (i 0).val ∧ (i 0).val < win8_9.index t (0 : Fin 2) * 4000 + 4000
    omega
  | ⟨1, _⟩ =>
    show win8_9.index t (1 : Fin 2) * 128 ≤ (i 1).val ∧ (i 1).val < win8_9.index t (1 : Fin 2) * 128 + 128
    omega

/-- An index of the array is in point `t`'s block of output window 10 iff each coordinate is in the block's range on its axis. -/
theorem mem_blk10 (t : Fin cfg8.N) (i : S20000x128.Idx) :
    i ∈ ((cfg8.win 10).blk t).view.set ↔ ∀ a : Fin 2, win8_10.index t a * S4000x128.size a ≤ (i a).val ∧ (i a).val < win8_10.index t a * S4000x128.size a + S4000x128.size a := by
  show i ∈ ((View.whole main_v271_2).slice (win8_10.rect t)).set ↔ _
  rw [View.set_slice_whole, Rect.mem_set_unit]
  exact Iff.rfl

/-- Row `r` of the array is in the block of point `r / 4000`. -/
theorem cover10 (i : S20000x128.Idx) : ∃ t : Fin cfg8.N, (cfg8.win 10).flush t = true ∧ i ∈ ((cfg8.win 10).blk t).view.set := by
  have hi0 : (i 0).val < 20000 := (i 0).isLt
  have hi1 : (i 1).val < 128 := (i 1).isLt
  have hN : cfg8.N = 5 := N_8
  obtain ⟨t, ht⟩ : ∃ t : Fin cfg8.N, t.val = (i 0).val / 4000 := ⟨⟨(i 0).val / 4000, by rw [hN]; omega⟩, rfl⟩
  have e := idx_10 t
  refine ⟨t, flush8_10 t, ?_⟩
  rw [mem_blk10]
  intro a
  match a with
  | ⟨0, _⟩ =>
    show win8_10.index t (0 : Fin 2) * 4000 ≤ (i 0).val ∧ (i 0).val < win8_10.index t (0 : Fin 2) * 4000 + 4000
    omega
  | ⟨1, _⟩ =>
    show win8_10.index t (1 : Fin 2) * 128 ≤ (i 1).val ∧ (i 1).val < win8_10.index t (1 : Fin 2) * 128 + 128
    omega

/-- What point `t` writes back to output window 8. -/
theorem flushed8_eq (c : Dev nD) (t : Fin cfg8.N) :
    (dat8 V c).flushed 8 t = ((cfg8.win 8).blk t).view.read (Elt Ideal) (M.mk2 (XN V c)) := by
  show (cfg8.win 8).cut (grid8.coords t) ((dat8 V c).after 8 t) = _
  rw [after8_8]
  exact out8_eq V c t

/-- What point `t` writes back to output window 9. -/
theorem flushed9_eq (c : Dev nD) (t : Fin cfg8.N) :
    (dat8 V c).flushed 9 t = ((cfg8.win 9).blk t).view.read (Elt Ideal) (M.mk2 (M.mm (XN V c) (M.at2 (wtArr V c)))) := by
  show (cfg8.win 9).cut (grid8.coords t) ((dat8 V c).after 9 t) = _
  rw [after8_9]
  exact out9_eq V c t

/-- What point `t` writes back to output window 10. -/
theorem flushed10_eq (c : Dev nD) (t : Fin cfg8.N) :
    (dat8 V c).flushed 10 t = ((cfg8.win 10).blk t).view.read (Elt Ideal) (M.mk2 (M.mm (XN V c) (M.at2 (wbArr V c)))) := by
  show (cfg8.win 10).cut (grid8.coords t) ((dat8 V c).after 10 t) = _
  rw [after8_10]
  exact out10_eq V c t

/-! ## The region's values -/

/-- The layer's output array after the region. -/
theorem arr8_8 (c : Dev nD) : (Cert.KernelIdeal.Gen.dat8 (F := Ideal) V c).arrAt 8 Cert.KernelIdeal.cfg8.N
    = M.mk2 (RegNP.xnew (V c (Pipeline.arrRef Cert.KernelIdeal.spec8 0)) (V c (Pipeline.arrRef Cert.KernelIdeal.spec8 1)) (V c (Pipeline.arrRef Cert.KernelIdeal.spec8 2)) (V c (Pipeline.arrRef Cert.KernelIdeal.spec8 3)) (V c (Pipeline.arrRef Cert.KernelIdeal.spec8 4)) (V c (Pipeline.arrRef Cert.KernelIdeal.spec8 5))) :=
  (dat8 V c).arrAt_eq_of_cover 8 _ (fun t _ => flushed8_eq V c t) cover8

/-- The layer's output times the first weight. -/
theorem arr8_9 (c : Dev nD) : (Cert.KernelIdeal.Gen.dat8 (F := Ideal) V c).arrAt 9 Cert.KernelIdeal.cfg8.N
    = M.mk2 (M.mm (RegNP.xnew (V c (Pipeline.arrRef Cert.KernelIdeal.spec8 0)) (V c (Pipeline.arrRef Cert.KernelIdeal.spec8 1)) (V c (Pipeline.arrRef Cert.KernelIdeal.spec8 2)) (V c (Pipeline.arrRef Cert.KernelIdeal.spec8 3)) (V c (Pipeline.arrRef Cert.KernelIdeal.spec8 4)) (V c (Pipeline.arrRef Cert.KernelIdeal.spec8 5))) (M.at2 (a := 128) (b := 128) (V c (Pipeline.arrRef Cert.KernelIdeal.spec8 6)))) :=
  (dat8 V c).arrAt_eq_of_cover 9 _ (fun t _ => flushed9_eq V c t) cover9

/-- The layer's output times the second weight. -/
theorem arr8_10 (c : Dev nD) : (Cert.KernelIdeal.Gen.dat8 (F := Ideal) V c).arrAt 10 Cert.KernelIdeal.cfg8.N
    = M.mk2 (M.mm (RegNP.xnew (V c (Pipeline.arrRef Cert.KernelIdeal.spec8 0)) (V c (Pipeline.arrRef Cert.KernelIdeal.spec8 1)) (V c (Pipeline.arrRef Cert.KernelIdeal.spec8 2)) (V c (Pipeline.arrRef Cert.KernelIdeal.spec8 3)) (V c (Pipeline.arrRef Cert.KernelIdeal.spec8 4)) (V c (Pipeline.arrRef Cert.KernelIdeal.spec8 5))) (M.at2 (a := 128) (b := 128) (V c (Pipeline.arrRef Cert.KernelIdeal.spec8 7)))) :=
  (dat8 V c).arrAt_eq_of_cover 10 _ (fun t _ => flushed10_eq V c t) cover10

end Cert.RegD8

end
-- ==== Proof.KStageFinL1.lean ====
/-
  The statistics stretches of layer 1 of the kernel program's host code, read into the common mathematical form:
  the same statements as the first layer's, over the later stretches' references and the layer's rows of the
  stacked parameters.
-/
import proofs.«416875_j80633716015165_3_alg».proof.Proof.KStageFin

-- a later layer's references sit deeper in the signature: reading their types off it takes more steps
set_option maxHeartbeats 1000000

noncomputable section

open Idealize.ShloMosaic Idealize.ShloMosaic.ValueIdx
open Cert.KernelIdeal Cert.KernelIdeal.Gen

namespace Cert.KStageFin

/-! ## The stretch `hostOps6` -/

/-- The references `hostOps6` writes. -/
abbrev wr6 : List (Ref sig .tc) :=
  [main_cst_33, main_v192, main_cst_34, main_v193, main_v194, main_cst_35, main_v195, main_cst_36, main_v196, main_v197, main_cst_37, main_v198, main_v199, main_cst_38, main_v200, main_v201, main_v202, main_v203, main_cst_39, main_v204, main_v205, main_v206, main_v207, main_v208, main_v209, main_v210, main_v211, main_v212, main_v213, main_v214, main_v215, main_v216, main_v217, main_v218]

theorem hostOps6_writes : (hostOps6 : List (HloOp τ sig (Elt Ideal))).Forall fun op =>
    op.writes ⊆ (wr6.map (Proc.devRef (τ := τ) .tc)).toFinset :=
  ⟨writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide)⟩

/-- A reference the stretch does not write keeps its contents. -/
theorem hostOps6_keep (V : Valuation τ sig (Elt Ideal)) {r : Ref sig .tc} (hr : r ∉ wr6) :
    StableHlo.after hostOps6 V (Proc.devRef .tc r) = V (Proc.devRef .tc r) :=
  StableHlo.after_of_writes_sub _ V hostOps6_writes hr

/-- The mean. -/
theorem hostOps6_main_v206 (V : Valuation τ sig (Elt Ideal)) :
    (StableHlo.after hostOps6 V (Proc.devRef .tc main_v206) : S1x128.Idx → EReal)
      = M.mk2 (fun _ j => M.meanK (M.at3 (V (Proc.devRef .tc main_v191_1) : S5x8x128.Idx → EReal)) j) := by
  after_results
  exact mean_eq _ _ _ _ _

/-- The variance. -/
theorem hostOps6_main_v207 (V : Valuation τ sig (Elt Ideal)) :
    (StableHlo.after hostOps6 V (Proc.devRef .tc main_v207) : S1x128.Idx → EReal)
      = M.mk2 (fun _ j => M.varK (M.at3 (V (Proc.devRef .tc main_v191_1) : S5x8x128.Idx → EReal))
          (M.at3 (V (Proc.devRef .tc main_v191_2) : S5x8x128.Idx → EReal)) j) := by
  after_results
  exact var_eq _ _ _ _ _ _

/-- Row 1 of `main_arg6`. -/
theorem hostOps6_main_v210 (V : Valuation τ sig (Elt Ideal)) :
    (StableHlo.after hostOps6 V (Proc.devRef .tc main_v210) : S1x128.Idx → EReal)
      = M.mk2 (fun _ j => M.at2 (V (Proc.devRef .tc main_arg6) : S4x128.Idx → EReal) (1 : Fin 4) j) := by
  after_results
  exact rowSlice_eq 1 (by decide) _ _ _ _

/-- Row 1 of `main_arg7`. -/
theorem hostOps6_main_v213 (V : Valuation τ sig (Elt Ideal)) :
    (StableHlo.after hostOps6 V (Proc.devRef .tc main_v213) : S1x128.Idx → EReal)
      = M.mk2 (fun _ j => M.at2 (V (Proc.devRef .tc main_arg7) : S4x128.Idx → EReal) (1 : Fin 4) j) := by
  after_results
  exact rowSlice_eq 1 (by decide) _ _ _ _

/-- Matrix 1 of `main_arg8`. -/
theorem hostOps6_main_v215 (V : Valuation τ sig (Elt Ideal)) :
    (StableHlo.after hostOps6 V (Proc.devRef .tc main_v215) : S128x128.Idx → EReal)
      = M.mk2 (fun k j => M.at3 (V (Proc.devRef .tc main_arg8) : S4x128x128.Idx → EReal) (1 : Fin 4) k j) := by
  after_results
  exact matSlice_eq 1 (by decide) _ _ _

/-- Row 1 of `main_arg9`. -/
theorem hostOps6_main_v218 (V : Valuation τ sig (Elt Ideal)) :
    (StableHlo.after hostOps6 V (Proc.devRef .tc main_v218) : S1x128.Idx → EReal)
      = M.mk2 (fun _ j => M.at2 (V (Proc.devRef .tc main_arg9) : S4x128.Idx → EReal) (1 : Fin 4) j) := by
  after_results
  exact rowSlice_eq 1 (by decide) _ _ _ _

/-! ## The stretch `hostOps7` -/

/-- The references `hostOps7` writes. -/
abbrev wr7 : List (Ref sig .tc) :=
  [main_cst_40, main_v220, main_cst_41, main_v221, main_v222, main_cst_42, main_v223, main_cst_43, main_v224, main_v225, main_cst_44, main_v226, main_v227, main_cst_45, main_v228, main_v229, main_v230, main_v231, main_cst_46, main_v232, main_v233, main_v234, main_v235, main_v236, main_v237, main_v238, main_v239, main_v240, main_v241]

theorem hostOps7_writes : (hostOps7 : List (HloOp τ sig (Elt Ideal))).Forall fun op =>
    op.writes ⊆ (wr7.map (Proc.devRef (τ := τ) .tc)).toFinset :=
  ⟨writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide)⟩

/-- A reference the stretch does not write keeps its contents. -/
theorem hostOps7_keep (V : Valuation τ sig (Elt Ideal)) {r : Ref sig .tc} (hr : r ∉ wr7) :
    StableHlo.after hostOps7 V (Proc.devRef .tc r) = V (Proc.devRef .tc r) :=
  StableHlo.after_of_writes_sub _ V hostOps7_writes hr

/-- The mean. -/
theorem hostOps7_main_v234 (V : Valuation τ sig (Elt Ideal)) :
    (StableHlo.after hostOps7 V (Proc.devRef .tc main_v234) : S1x128.Idx → EReal)
      = M.mk2 (fun _ j => M.meanK (M.at3 (V (Proc.devRef .tc main_v219_1) : S5x8x128.Idx → EReal)) j) := by
  after_results
  exact mean_eq _ _ _ _ _

/-- The variance. -/
theorem hostOps7_main_v235 (V : Valuation τ sig (Elt Ideal)) :
    (StableHlo.after hostOps7 V (Proc.devRef .tc main_v235) : S1x128.Idx → EReal)
      = M.mk2 (fun _ j => M.varK (M.at3 (V (Proc.devRef .tc main_v219_1) : S5x8x128.Idx → EReal))
          (M.at3 (V (Proc.devRef .tc main_v219_2) : S5x8x128.Idx → EReal)) j) := by
  after_results
  exact var_eq _ _ _ _ _ _

/-- Row 1 of `main_arg10`. -/
theorem hostOps7_main_v238 (V : Valuation τ sig (Elt Ideal)) :
    (StableHlo.after hostOps7 V (Proc.devRef .tc main_v238) : S1x128.Idx → EReal)
      = M.mk2 (fun _ j => M.at2 (V (Proc.devRef .tc main_arg10) : S4x128.Idx → EReal) (1 : Fin 4) j) := by
  after_results
  exact rowSlice_eq 1 (by decide) _ _ _ _

/-- Row 1 of `main_arg11`. -/
theorem hostOps7_main_v241 (V : Valuation τ sig (Elt Ideal)) :
    (StableHlo.after hostOps7 V (Proc.devRef .tc main_v241) : S1x128.Idx → EReal)
      = M.mk2 (fun _ j => M.at2 (V (Proc.devRef .tc main_arg11) : S4x128.Idx → EReal) (1 : Fin 4) j) := by
  after_results
  exact rowSlice_eq 1 (by decide) _ _ _ _

/-! ## The stretch `hostOps8` -/

/-- The references `hostOps8` writes. -/
abbrev wr8 : List (Ref sig .tc) :=
  [main_cst_47, main_v243, main_cst_48, main_v244, main_v245, main_cst_49, main_v246, main_cst_50, main_v247, main_v248, main_cst_51, main_v249, main_v250, main_cst_52, main_v251, main_v252, main_v253, main_v254, main_cst_53, main_v255, main_v256, main_v257, main_v258, main_v259, main_v260, main_v261, main_v262, main_v263, main_v264, main_v265, main_v266, main_v267, main_v268, main_v269, main_v270]

theorem hostOps8_writes : (hostOps8 : List (HloOp τ sig (Elt Ideal))).Forall fun op =>
    op.writes ⊆ (wr8.map (Proc.devRef (τ := τ) .tc)).toFinset :=
  ⟨writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide)⟩

/-- A reference the stretch does not write keeps its contents. -/
theorem hostOps8_keep (V : Valuation τ sig (Elt Ideal)) {r : Ref sig .tc} (hr : r ∉ wr8) :
    StableHlo.after hostOps8 V (Proc.devRef .tc r) = V (Proc.devRef .tc r) :=
  StableHlo.after_of_writes_sub _ V hostOps8_writes hr

/-- The mean. -/
theorem hostOps8_main_v257 (V : Valuation τ sig (Elt Ideal)) :
    (StableHlo.after hostOps8 V (Proc.devRef .tc main_v257) : S1x128.Idx → EReal)
      = M.mk2 (fun _ j => M.meanK (M.at3 (V (Proc.devRef .tc main_v242_1) : S5x8x128.Idx → EReal)) j) := by
  after_results
  exact mean_eq _ _ _ _ _

/-- The variance. -/
theorem hostOps8_main_v258 (V : Valuation τ sig (Elt Ideal)) :
    (StableHlo.after hostOps8 V (Proc.devRef .tc main_v258) : S1x128.Idx → EReal)
      = M.mk2 (fun _ j => M.varK (M.at3 (V (Proc.devRef .tc main_v242_1) : S5x8x128.Idx → EReal))
          (M.at3 (V (Proc.devRef .tc main_v242_2) : S5x8x128.Idx → EReal)) j) := by
  after_results
  exact var_eq _ _ _ _ _ _

/-- Row 1 of `main_arg12`. -/
theorem hostOps8_main_v261 (V : Valuation τ sig (Elt Ideal)) :
    (StableHlo.after hostOps8 V (Proc.devRef .tc main_v261) : S1x128.Idx → EReal)
      = M.mk2 (fun _ j => M.at2 (V (Proc.devRef .tc main_arg12) : S4x128.Idx → EReal) (1 : Fin 4) j) := by
  after_results
  exact rowSlice_eq 1 (by decide) _ _ _ _

/-- Row 1 of `main_arg13`. -/
theorem hostOps8_main_v264 (V : Valuation τ sig (Elt Ideal)) :
    (StableHlo.after hostOps8 V (Proc.devRef .tc main_v264) : S1x128.Idx → EReal)
      = M.mk2 (fun _ j => M.at2 (V (Proc.devRef .tc main_arg13) : S4x128.Idx → EReal) (1 : Fin 4) j) := by
  after_results
  exact rowSlice_eq 1 (by decide) _ _ _ _

/-- The top half of matrix 2 of `main_arg14`, in bf16. -/
theorem hostOps8_main_v268 (V : Valuation τ sig (Elt Ideal)) :
    (StableHlo.after hostOps8 V (Proc.devRef .tc main_v268) : S128x128.Idx → EReal)
      = M.mk2 (M.top (M.at3 (V (Proc.devRef .tc main_arg14) : S5x256x128.Idx → EReal) (2 : Fin 5))) := by
  after_results
  exact topHalf_eq 2 (by decide) _ _ _ _ _

/-- The bottom half of matrix 2 of `main_arg14`, in bf16. -/
theorem hostOps8_main_v270 (V : Valuation τ sig (Elt Ideal)) :
    (StableHlo.after hostOps8 V (Proc.devRef .tc main_v270) : S128x128.Idx → EReal)
      = M.mk2 (M.bot (M.at3 (V (Proc.devRef .tc main_arg14) : S5x256x128.Idx → EReal) (2 : Fin 5))) := by
  after_results
  exact botHalf_eq 2 (by decide) _ _ _ _ _

end Cert.KStageFin
-- ==== Proof.KChainLa1.lean ====
/-
  Layer 1's four regions and the three stretches of host operations between them: from what the buffers hold where the
  layer's first region is entered to what they hold where its last region is left.
-/
import proofs.«416875_j80633716015165_3_alg».proof.Proof.KChainBase
import proofs.«416875_j80633716015165_3_alg».proof.Proof.KChainKeep
import proofs.«416875_j80633716015165_3_alg».proof.Proof.KChainArgs
import proofs.«416875_j80633716015165_3_alg».proof.Proof.RegA5
import proofs.«416875_j80633716015165_3_alg».proof.Proof.RegB6
import proofs.«416875_j80633716015165_3_alg».proof.Proof.RegC7
import proofs.«416875_j80633716015165_3_alg».proof.Proof.RegD8
import proofs.«416875_j80633716015165_3_alg».proof.Proof.KStageFinL1

set_option maxRecDepth 16384
-- reading a region's window array back to its buffer name is an evaluation of the window record
set_option maxHeartbeats 1000000
-- one declaration at a time: each reading of a region's window array is evaluated on its own
set_option Elab.async false

noncomputable section

open Idealize.ShloMosaic Idealize.ShloMosaic.TcCoe Idealize.ShloMosaic.ValueIdx
open Cert.KernelIdeal Cert.KernelIdeal.Gen

namespace Cert.KChain.La1

variable (m : (ℓ : Loc nD τ sig) → Buf (Elt Ideal) ℓ) (ρ : Dev nD → PrngReg) (c : Dev nD)

/-! ## The arguments, the node array and the running score are kept -/

theorem args6 (hfin : (inputsK m c).Finite) (h : Entry1 m c (W15 (F := Ideal) m ρ c)) : ArgsKept m c (W16 (F := Ideal) m ρ c) := argsW16 m ρ c h.args
theorem args7 (hfin : (inputsK m c).Finite) (h : Entry1 m c (W15 (F := Ideal) m ρ c)) : ArgsKept m c (W17 (F := Ideal) m ρ c) := argsW17 m ρ c (args6 m ρ c hfin h)
theorem args8 (hfin : (inputsK m c).Finite) (h : Entry1 m c (W15 (F := Ideal) m ρ c)) : ArgsKept m c (W18 (F := Ideal) m ρ c) := argsW18 m ρ c (args7 m ρ c hfin h)
theorem args9 (hfin : (inputsK m c).Finite) (h : Entry1 m c (W15 (F := Ideal) m ρ c)) : ArgsKept m c (W19 (F := Ideal) m ρ c) := argsW19 m ρ c (args8 m ρ c hfin h)
theorem args10 (hfin : (inputsK m c).Finite) (h : Entry1 m c (W15 (F := Ideal) m ρ c)) : ArgsKept m c (W20 (F := Ideal) m ρ c) := argsW20 m ρ c (args9 m ρ c hfin h)
theorem args11 (hfin : (inputsK m c).Finite) (h : Entry1 m c (W15 (F := Ideal) m ρ c)) : ArgsKept m c (W21 (F := Ideal) m ρ c) := argsW21 m ρ c (args10 m ρ c hfin h)
theorem args12 (hfin : (inputsK m c).Finite) (h : Entry1 m c (W15 (F := Ideal) m ρ c)) : ArgsKept m c (W22 (F := Ideal) m ρ c) := argsW22 m ρ c (args11 m ρ c hfin h)

theorem x6 (hfin : (inputsK m c).Finite) (h : Entry1 m c (W15 (F := Ideal) m ρ c)) :
    W16 (F := Ideal) m ρ c (Proc.devRef .tc main_v140_0) = M.mk2 (M.x1 (inputsK m c)) :=
  (keepW16 m ρ c main_v140_0 (nm (by decide))).trans (h.x)
theorem x7 (hfin : (inputsK m c).Finite) (h : Entry1 m c (W15 (F := Ideal) m ρ c)) :
    W17 (F := Ideal) m ρ c (Proc.devRef .tc main_v140_0) = M.mk2 (M.x1 (inputsK m c)) :=
  (keepW17 m ρ c main_v140_0 (nm (by decide))).trans (x6 m ρ c hfin h)
theorem x8 (hfin : (inputsK m c).Finite) (h : Entry1 m c (W15 (F := Ideal) m ρ c)) :
    W18 (F := Ideal) m ρ c (Proc.devRef .tc main_v140_0) = M.mk2 (M.x1 (inputsK m c)) :=
  (keepW18 m ρ c main_v140_0 (nm (by decide))).trans (x7 m ρ c hfin h)
theorem x9 (hfin : (inputsK m c).Finite) (h : Entry1 m c (W15 (F := Ideal) m ρ c)) :
    W19 (F := Ideal) m ρ c (Proc.devRef .tc main_v140_0) = M.mk2 (M.x1 (inputsK m c)) :=
  (keepW19 m ρ c main_v140_0 (nm (by decide))).trans (x8 m ρ c hfin h)
theorem x10 (hfin : (inputsK m c).Finite) (h : Entry1 m c (W15 (F := Ideal) m ρ c)) :
    W20 (F := Ideal) m ρ c (Proc.devRef .tc main_v140_0) = M.mk2 (M.x1 (inputsK m c)) :=
  (keepW20 m ρ c main_v140_0 (nm (by decide))).trans (x9 m ρ c hfin h)
theorem x11 (hfin : (inputsK m c).Finite) (h : Entry1 m c (W15 (F := Ideal) m ρ c)) :
    W21 (F := Ideal) m ρ c (Proc.devRef .tc main_v140_0) = M.mk2 (M.x1 (inputsK m c)) :=
  (keepW21 m ρ c main_v140_0 (nm (by decide))).trans (x10 m ρ c hfin h)

theorem sc6 (hfin : (inputsK m c).Finite) (h : Entry1 m c (W15 (F := Ideal) m ρ c)) :
    W16 (F := Ideal) m ρ c (Proc.devRef .tc main_v172) = M.mk2 (s1 (inputsK m c)) :=
  (keepW16 m ρ c main_v172 (nm (by decide))).trans (h.score)
theorem sc7 (hfin : (inputsK m c).Finite) (h : Entry1 m c (W15 (F := Ideal) m ρ c)) :
    W17 (F := Ideal) m ρ c (Proc.devRef .tc main_v172) = M.mk2 (s1 (inputsK m c)) :=
  (keepW17 m ρ c main_v172 (nm (by decide))).trans (sc6 m ρ c hfin h)
theorem sc8 (hfin : (inputsK m c).Finite) (h : Entry1 m c (W15 (F := Ideal) m ρ c)) :
    W18 (F := Ideal) m ρ c (Proc.devRef .tc main_v172) = M.mk2 (s1 (inputsK m c)) :=
  (keepW18 m ρ c main_v172 (nm (by decide))).trans (sc7 m ρ c hfin h)
theorem sc9 (hfin : (inputsK m c).Finite) (h : Entry1 m c (W15 (F := Ideal) m ρ c)) :
    W19 (F := Ideal) m ρ c (Proc.devRef .tc main_v172) = M.mk2 (s1 (inputsK m c)) :=
  (keepW19 m ρ c main_v172 (nm (by decide))).trans (sc8 m ρ c hfin h)
theorem sc10 (hfin : (inputsK m c).Finite) (h : Entry1 m c (W15 (F := Ideal) m ρ c)) :
    W20 (F := Ideal) m ρ c (Proc.devRef .tc main_v172) = M.mk2 (s1 (inputsK m c)) :=
  (keepW20 m ρ c main_v172 (nm (by decide))).trans (sc9 m ρ c hfin h)
theorem sc11 (hfin : (inputsK m c).Finite) (h : Entry1 m c (W15 (F := Ideal) m ρ c)) :
    W21 (F := Ideal) m ρ c (Proc.devRef .tc main_v172) = M.mk2 (s1 (inputsK m c)) :=
  (keepW21 m ρ c main_v172 (nm (by decide))).trans (sc10 m ρ c hfin h)
theorem sc12 (hfin : (inputsK m c).Finite) (h : Entry1 m c (W15 (F := Ideal) m ρ c)) :
    W22 (F := Ideal) m ρ c (Proc.devRef .tc main_v172) = M.mk2 (s1 (inputsK m c)) :=
  (keepW22 m ρ c main_v172 (nm (by decide))).trans (sc11 m ρ c hfin h)

/-! ## The first region: the first linear map and its tile sums -/

theorem valA (hfin : (inputsK m c).Finite) (h : Entry1 m c (W15 (F := Ideal) m ρ c)) : RegA5.linA (V15 (F := Ideal) m ρ) c = (a1I (inputsK m c) (1 : Fin 4) (M.x1 (inputsK m c))) := by
  have e0 : V15 (F := Ideal) m ρ c (Pipeline.arrRef spec5 0) = M.mk2 (M.x1 (inputsK m c)) := h.x
  have e1 : V15 (F := Ideal) m ρ c (Pipeline.arrRef spec5 1) = M.mk2 (M.neigh (M.x1 (inputsK m c)) (inputsK m c).src (inputsK m c).dst) := h.neigh
  have e2 : V15 (F := Ideal) m ρ c (Pipeline.arrRef spec5 2) = M.mk2 (fun (_ : Fin 1) (_ : Fin 1) => (inputsK m c).eps (1 : Fin 4)) := h.eps
  have e3 : V15 (F := Ideal) m ρ c (Pipeline.arrRef spec5 3) = M.mk2 ((inputsK m c).mlp_w1 (1 : Fin 4)) := h.w1
  have e4 : V15 (F := Ideal) m ρ c (Pipeline.arrRef spec5 4) = M.mk2 (fun (_ : Fin 1) (j : Fin 128) => (inputsK m c).mlp_b1 (1 : Fin 4) j) := h.b1
  exact shapeA e0 e1 e2 e3 e4

theorem a1_6 (hfin : (inputsK m c).Finite) (h : Entry1 m c (W15 (F := Ideal) m ρ c)) : W16 (F := Ideal) m ρ c (Proc.devRef .tc main_v191_0) = M.mk2 (a1I (inputsK m c) (1 : Fin 4) (M.x1 (inputsK m c))) :=
  (W16_arr m ρ c 5).trans ((RegA5.arr5_5 (V15 (F := Ideal) m ρ) c).trans (congrArg M.mk2 (valA m ρ c hfin h)))
theorem S1_6 (hfin : (inputsK m c).Finite) (h : Entry1 m c (W15 (F := Ideal) m ρ c)) : W16 (F := Ideal) m ρ c (Proc.devRef .tc main_v191_1) = M.mk3 (M.sumT (a1I (inputsK m c) (1 : Fin 4) (M.x1 (inputsK m c)))) :=
  (W16_arr m ρ c 6).trans ((RegA5.arr5_6 (V15 (F := Ideal) m ρ) c).trans (congrArg (fun v => M.mk3 (M.sumT v)) (valA m ρ c hfin h)))
theorem Q1_6 (hfin : (inputsK m c).Finite) (h : Entry1 m c (W15 (F := Ideal) m ρ c)) : W16 (F := Ideal) m ρ c (Proc.devRef .tc main_v191_2) = M.mk3 (M.sumsqT (a1I (inputsK m c) (1 : Fin 4) (M.x1 (inputsK m c)))) :=
  (W16_arr m ρ c 7).trans ((RegA5.arr5_7 (V15 (F := Ideal) m ρ) c).trans (congrArg (fun v => M.mk3 (M.sumsqT v)) (valA m ρ c hfin h)))

/-! ## The first statistics stretch -/

theorem a1_7 (hfin : (inputsK m c).Finite) (h : Entry1 m c (W15 (F := Ideal) m ρ c)) : W17 (F := Ideal) m ρ c (Proc.devRef .tc main_v191_0) = M.mk2 (a1I (inputsK m c) (1 : Fin 4) (M.x1 (inputsK m c))) :=
  (keepW17 m ρ c main_v191_0 (nm (by decide))).trans (a1_6 m ρ c hfin h)
theorem mean1_7 (hfin : (inputsK m c).Finite) (h : Entry1 m c (W15 (F := Ideal) m ρ c)) : W17 (F := Ideal) m ρ c (Proc.devRef .tc main_v206) = M.mk2 (fun (_ : Fin 1) j => M.meanK (M.sumT (a1I (inputsK m c) (1 : Fin 4) (M.x1 (inputsK m c)))) j) := by
  have e := KStageFin.hostOps6_main_v206 (W16 (F := Ideal) m ρ c)
  rw [S1_6 m ρ c hfin h] at e
  exact e
theorem var1_7 (hfin : (inputsK m c).Finite) (h : Entry1 m c (W15 (F := Ideal) m ρ c)) : W17 (F := Ideal) m ρ c (Proc.devRef .tc main_v207) = M.mk2 (fun (_ : Fin 1) j => M.varK (M.sumT (a1I (inputsK m c) (1 : Fin 4) (M.x1 (inputsK m c)))) (M.sumsqT (a1I (inputsK m c) (1 : Fin 4) (M.x1 (inputsK m c)))) j) := by
  have e := KStageFin.hostOps6_main_v207 (W16 (F := Ideal) m ρ c)
  rw [S1_6 m ρ c hfin h, Q1_6 m ρ c hfin h] at e
  exact e
theorem g1_7 (hfin : (inputsK m c).Finite) (h : Entry1 m c (W15 (F := Ideal) m ρ c)) : W17 (F := Ideal) m ρ c (Proc.devRef .tc main_v210) = M.mk2 (fun (_ : Fin 1) j => (inputsK m c).mlp_bn_g (1 : Fin 4) j) := by
  have e := KStageFin.hostOps6_main_v210 (W16 (F := Ideal) m ρ c)
  rw [args6 m ρ c hfin h main_arg6 (by decide)] at e
  exact e
theorem c1_7 (hfin : (inputsK m c).Finite) (h : Entry1 m c (W15 (F := Ideal) m ρ c)) : W17 (F := Ideal) m ρ c (Proc.devRef .tc main_v213) = M.mk2 (fun (_ : Fin 1) j => (inputsK m c).mlp_bn_b (1 : Fin 4) j) := by
  have e := KStageFin.hostOps6_main_v213 (W16 (F := Ideal) m ρ c)
  rw [args6 m ρ c hfin h main_arg7 (by decide)] at e
  exact e
theorem w2_7 (hfin : (inputsK m c).Finite) (h : Entry1 m c (W15 (F := Ideal) m ρ c)) : W17 (F := Ideal) m ρ c (Proc.devRef .tc main_v215) = M.mk2 ((inputsK m c).mlp_w2 (1 : Fin 4)) := by
  have e := KStageFin.hostOps6_main_v215 (W16 (F := Ideal) m ρ c)
  rw [args6 m ρ c hfin h main_arg8 (by decide)] at e
  exact e
theorem b2_7 (hfin : (inputsK m c).Finite) (h : Entry1 m c (W15 (F := Ideal) m ρ c)) : W17 (F := Ideal) m ρ c (Proc.devRef .tc main_v218) = M.mk2 (fun (_ : Fin 1) j => (inputsK m c).mlp_b2 (1 : Fin 4) j) := by
  have e := KStageFin.hostOps6_main_v218 (W16 (F := Ideal) m ρ c)
  rw [args6 m ρ c hfin h main_arg9 (by decide)] at e
  exact e

/-! ## The second region: the second linear map and its tile sums -/

theorem valB (hfin : (inputsK m c).Finite) (h : Entry1 m c (W15 (F := Ideal) m ρ c)) : RegB6.val (V17 (F := Ideal) m ρ) c = (a2I (inputsK m c) (1 : Fin 4) (M.x1 (inputsK m c))) := by
  have e0 : V17 (F := Ideal) m ρ c (Pipeline.arrRef spec6 0) = M.mk2 (a1I (inputsK m c) (1 : Fin 4) (M.x1 (inputsK m c))) := a1_7 m ρ c hfin h
  have e1 : V17 (F := Ideal) m ρ c (Pipeline.arrRef spec6 1) = M.mk2 (fun (_ : Fin 1) j => M.meanK (M.sumT (a1I (inputsK m c) (1 : Fin 4) (M.x1 (inputsK m c)))) j) := mean1_7 m ρ c hfin h
  have e2 : V17 (F := Ideal) m ρ c (Pipeline.arrRef spec6 2) = M.mk2 (fun (_ : Fin 1) j => M.varK (M.sumT (a1I (inputsK m c) (1 : Fin 4) (M.x1 (inputsK m c)))) (M.sumsqT (a1I (inputsK m c) (1 : Fin 4) (M.x1 (inputsK m c)))) j) := var1_7 m ρ c hfin h
  have e3 : V17 (F := Ideal) m ρ c (Pipeline.arrRef spec6 3) = M.mk2 (fun (_ : Fin 1) j => (inputsK m c).mlp_bn_g (1 : Fin 4) j) := g1_7 m ρ c hfin h
  have e4 : V17 (F := Ideal) m ρ c (Pipeline.arrRef spec6 4) = M.mk2 (fun (_ : Fin 1) j => (inputsK m c).mlp_bn_b (1 : Fin 4) j) := c1_7 m ρ c hfin h
  have e5 : V17 (F := Ideal) m ρ c (Pipeline.arrRef spec6 5) = M.mk2 ((inputsK m c).mlp_w2 (1 : Fin 4)) := w2_7 m ρ c hfin h
  have e6 : V17 (F := Ideal) m ρ c (Pipeline.arrRef spec6 6) = M.mk2 (fun (_ : Fin 1) j => (inputsK m c).mlp_b2 (1 : Fin 4) j) := b2_7 m ρ c hfin h
  exact shapeB (fin_a1I (inputsK m c) hfin (1 : Fin 4) (M.x1 (inputsK m c)) (MathStats.fin_x1 (inputsK m c) hfin)) e0 e1 e2 e3 e4 e5 e6

theorem a2_8 (hfin : (inputsK m c).Finite) (h : Entry1 m c (W15 (F := Ideal) m ρ c)) : W18 (F := Ideal) m ρ c (Proc.devRef .tc main_v219_0) = M.mk2 (a2I (inputsK m c) (1 : Fin 4) (M.x1 (inputsK m c))) :=
  (W18_arr m ρ c 7).trans ((RegB6.arr6_7 (V17 (F := Ideal) m ρ) c).trans (congrArg M.mk2 (valB m ρ c hfin h)))
theorem S2_8 (hfin : (inputsK m c).Finite) (h : Entry1 m c (W15 (F := Ideal) m ρ c)) : W18 (F := Ideal) m ρ c (Proc.devRef .tc main_v219_1) = M.mk3 (M.sumT (a2I (inputsK m c) (1 : Fin 4) (M.x1 (inputsK m c)))) :=
  (W18_arr m ρ c 8).trans ((RegB6.arr6_8 (V17 (F := Ideal) m ρ) c).trans (congrArg (fun v => M.mk3 (M.sumT v)) (valB m ρ c hfin h)))
theorem Q2_8 (hfin : (inputsK m c).Finite) (h : Entry1 m c (W15 (F := Ideal) m ρ c)) : W18 (F := Ideal) m ρ c (Proc.devRef .tc main_v219_2) = M.mk3 (M.sumsqT (a2I (inputsK m c) (1 : Fin 4) (M.x1 (inputsK m c)))) :=
  (W18_arr m ρ c 9).trans ((RegB6.arr6_9 (V17 (F := Ideal) m ρ) c).trans (congrArg (fun v => M.mk3 (M.sumsqT v)) (valB m ρ c hfin h)))

/-! ## The second statistics stretch -/

theorem a2_9 (hfin : (inputsK m c).Finite) (h : Entry1 m c (W15 (F := Ideal) m ρ c)) : W19 (F := Ideal) m ρ c (Proc.devRef .tc main_v219_0) = M.mk2 (a2I (inputsK m c) (1 : Fin 4) (M.x1 (inputsK m c))) :=
  (keepW19 m ρ c main_v219_0 (nm (by decide))).trans (a2_8 m ρ c hfin h)
theorem mean2_9 (hfin : (inputsK m c).Finite) (h : Entry1 m c (W15 (F := Ideal) m ρ c)) : W19 (F := Ideal) m ρ c (Proc.devRef .tc main_v234) = M.mk2 (fun (_ : Fin 1) j => M.meanK (M.sumT (a2I (inputsK m c) (1 : Fin 4) (M.x1 (inputsK m c)))) j) := by
  have e := KStageFin.hostOps7_main_v234 (W18 (F := Ideal) m ρ c)
  rw [S2_8 m ρ c hfin h] at e
  exact e
theorem var2_9 (hfin : (inputsK m c).Finite) (h : Entry1 m c (W15 (F := Ideal) m ρ c)) : W19 (F := Ideal) m ρ c (Proc.devRef .tc main_v235) = M.mk2 (fun (_ : Fin 1) j => M.varK (M.sumT (a2I (inputsK m c) (1 : Fin 4) (M.x1 (inputsK m c)))) (M.sumsqT (a2I (inputsK m c) (1 : Fin 4) (M.x1 (inputsK m c)))) j) := by
  have e := KStageFin.hostOps7_main_v235 (W18 (F := Ideal) m ρ c)
  rw [S2_8 m ρ c hfin h, Q2_8 m ρ c hfin h] at e
  exact e
theorem ag_9 (hfin : (inputsK m c).Finite) (h : Entry1 m c (W15 (F := Ideal) m ρ c)) : W19 (F := Ideal) m ρ c (Proc.devRef .tc main_v238) = M.mk2 (fun (_ : Fin 1) j => (inputsK m c).app_bn_g (1 : Fin 4) j) := by
  have e := KStageFin.hostOps7_main_v238 (W18 (F := Ideal) m ρ c)
  rw [args8 m ρ c hfin h main_arg10 (by decide)] at e
  exact e
theorem ab_9 (hfin : (inputsK m c).Finite) (h : Entry1 m c (W15 (F := Ideal) m ρ c)) : W19 (F := Ideal) m ρ c (Proc.devRef .tc main_v241) = M.mk2 (fun (_ : Fin 1) j => (inputsK m c).app_bn_b (1 : Fin 4) j) := by
  have e := KStageFin.hostOps7_main_v241 (W18 (F := Ideal) m ρ c)
  rw [args8 m ρ c hfin h main_arg11 (by decide)] at e
  exact e

/-! ## The third region: the second normalisation and its tile sums -/

theorem valC (hfin : (inputsK m c).Finite) (h : Entry1 m c (W15 (F := Ideal) m ρ c)) :
    M.bnrelu (M.at2 (V19 (F := Ideal) m ρ c (Pipeline.arrRef spec7 0))) (fun j => M.at2 (V19 (F := Ideal) m ρ c (Pipeline.arrRef spec7 1)) 0 j)
      (fun j => M.at2 (V19 (F := Ideal) m ρ c (Pipeline.arrRef spec7 2)) 0 j) (fun j => M.at2 (V19 (F := Ideal) m ρ c (Pipeline.arrRef spec7 3)) 0 j)
      (fun j => M.at2 (V19 (F := Ideal) m ρ c (Pipeline.arrRef spec7 4)) 0 j) = (a3I (inputsK m c) (1 : Fin 4) (M.x1 (inputsK m c))) := by
  have e0 : V19 (F := Ideal) m ρ c (Pipeline.arrRef spec7 0) = M.mk2 (a2I (inputsK m c) (1 : Fin 4) (M.x1 (inputsK m c))) := a2_9 m ρ c hfin h
  have e1 : V19 (F := Ideal) m ρ c (Pipeline.arrRef spec7 1) = M.mk2 (fun (_ : Fin 1) j => M.meanK (M.sumT (a2I (inputsK m c) (1 : Fin 4) (M.x1 (inputsK m c)))) j) := mean2_9 m ρ c hfin h
  have e2 : V19 (F := Ideal) m ρ c (Pipeline.arrRef spec7 2) = M.mk2 (fun (_ : Fin 1) j => M.varK (M.sumT (a2I (inputsK m c) (1 : Fin 4) (M.x1 (inputsK m c)))) (M.sumsqT (a2I (inputsK m c) (1 : Fin 4) (M.x1 (inputsK m c)))) j) := var2_9 m ρ c hfin h
  have e3 : V19 (F := Ideal) m ρ c (Pipeline.arrRef spec7 3) = M.mk2 (fun (_ : Fin 1) j => (inputsK m c).app_bn_g (1 : Fin 4) j) := ag_9 m ρ c hfin h
  have e4 : V19 (F := Ideal) m ρ c (Pipeline.arrRef spec7 4) = M.mk2 (fun (_ : Fin 1) j => (inputsK m c).app_bn_b (1 : Fin 4) j) := ab_9 m ρ c hfin h
  exact shapeC (fin_a2I (inputsK m c) hfin (1 : Fin 4) (M.x1 (inputsK m c)) (MathStats.fin_x1 (inputsK m c) hfin)) e0 e1 e2 e3 e4

theorem a3_10 (hfin : (inputsK m c).Finite) (h : Entry1 m c (W15 (F := Ideal) m ρ c)) : W20 (F := Ideal) m ρ c (Proc.devRef .tc main_v242_0) = M.mk2 (a3I (inputsK m c) (1 : Fin 4) (M.x1 (inputsK m c))) :=
  (W20_arr m ρ c 5).trans ((RegC7.arr7_5 (V19 (F := Ideal) m ρ) c).trans (congrArg M.mk2 (valC m ρ c hfin h)))
theorem S3_10 (hfin : (inputsK m c).Finite) (h : Entry1 m c (W15 (F := Ideal) m ρ c)) : W20 (F := Ideal) m ρ c (Proc.devRef .tc main_v242_1) = M.mk3 (M.sumT (a3I (inputsK m c) (1 : Fin 4) (M.x1 (inputsK m c)))) :=
  (W20_arr m ρ c 6).trans ((RegC7.arr7_6 (V19 (F := Ideal) m ρ) c).trans (congrArg (fun v => M.mk3 (M.sumT v)) (valC m ρ c hfin h)))
theorem Q3_10 (hfin : (inputsK m c).Finite) (h : Entry1 m c (W15 (F := Ideal) m ρ c)) : W20 (F := Ideal) m ρ c (Proc.devRef .tc main_v242_2) = M.mk3 (M.sumsqT (a3I (inputsK m c) (1 : Fin 4) (M.x1 (inputsK m c)))) :=
  (W20_arr m ρ c 7).trans ((RegC7.arr7_7 (V19 (F := Ideal) m ρ) c).trans (congrArg (fun v => M.mk3 (M.sumsqT v)) (valC m ρ c hfin h)))

/-! ## The third statistics stretch, with the next head's weight halves -/

theorem a3_11 (hfin : (inputsK m c).Finite) (h : Entry1 m c (W15 (F := Ideal) m ρ c)) : W21 (F := Ideal) m ρ c (Proc.devRef .tc main_v242_0) = M.mk2 (a3I (inputsK m c) (1 : Fin 4) (M.x1 (inputsK m c))) :=
  (keepW21 m ρ c main_v242_0 (nm (by decide))).trans (a3_10 m ρ c hfin h)
theorem mean3_11 (hfin : (inputsK m c).Finite) (h : Entry1 m c (W15 (F := Ideal) m ρ c)) : W21 (F := Ideal) m ρ c (Proc.devRef .tc main_v257) = M.mk2 (fun (_ : Fin 1) j => M.meanK (M.sumT (a3I (inputsK m c) (1 : Fin 4) (M.x1 (inputsK m c)))) j) := by
  have e := KStageFin.hostOps8_main_v257 (W20 (F := Ideal) m ρ c)
  rw [S3_10 m ρ c hfin h] at e
  exact e
theorem var3_11 (hfin : (inputsK m c).Finite) (h : Entry1 m c (W15 (F := Ideal) m ρ c)) : W21 (F := Ideal) m ρ c (Proc.devRef .tc main_v258) = M.mk2 (fun (_ : Fin 1) j => M.varK (M.sumT (a3I (inputsK m c) (1 : Fin 4) (M.x1 (inputsK m c)))) (M.sumsqT (a3I (inputsK m c) (1 : Fin 4) (M.x1 (inputsK m c)))) j) := by
  have e := KStageFin.hostOps8_main_v258 (W20 (F := Ideal) m ρ c)
  rw [S3_10 m ρ c hfin h, Q3_10 m ρ c hfin h] at e
  exact e
theorem gg_11 (hfin : (inputsK m c).Finite) (h : Entry1 m c (W15 (F := Ideal) m ρ c)) : W21 (F := Ideal) m ρ c (Proc.devRef .tc main_v261) = M.mk2 (fun (_ : Fin 1) j => (inputsK m c).gin_bn_g (1 : Fin 4) j) := by
  have e := KStageFin.hostOps8_main_v261 (W20 (F := Ideal) m ρ c)
  rw [args10 m ρ c hfin h main_arg12 (by decide)] at e
  exact e
theorem gb_11 (hfin : (inputsK m c).Finite) (h : Entry1 m c (W15 (F := Ideal) m ρ c)) : W21 (F := Ideal) m ρ c (Proc.devRef .tc main_v264) = M.mk2 (fun (_ : Fin 1) j => (inputsK m c).gin_bn_b (1 : Fin 4) j) := by
  have e := KStageFin.hostOps8_main_v264 (W20 (F := Ideal) m ρ c)
  rw [args10 m ρ c hfin h main_arg13 (by decide)] at e
  exact e
theorem wt_11 (hfin : (inputsK m c).Finite) (h : Entry1 m c (W15 (F := Ideal) m ρ c)) : W21 (F := Ideal) m ρ c (Proc.devRef .tc main_v268) = M.mk2 (M.top ((inputsK m c).pred_w1 (2 : Fin 5))) := by
  have e := KStageFin.hostOps8_main_v268 (W20 (F := Ideal) m ρ c)
  rw [args10 m ρ c hfin h main_arg14 (by decide)] at e
  exact e
theorem wb_11 (hfin : (inputsK m c).Finite) (h : Entry1 m c (W15 (F := Ideal) m ρ c)) : W21 (F := Ideal) m ρ c (Proc.devRef .tc main_v270) = M.mk2 (M.bot ((inputsK m c).pred_w1 (2 : Fin 5))) := by
  have e := KStageFin.hostOps8_main_v270 (W20 (F := Ideal) m ρ c)
  rw [args10 m ρ c hfin h main_arg14 (by decide)] at e
  exact e

/-! ## The fourth region: the layer's output and its two products with the next head's weight halves -/

theorem valD (hfin : (inputsK m c).Finite) (h : Entry1 m c (W15 (F := Ideal) m ρ c)) :
    RegNP.xnew (V21 (F := Ideal) m ρ c (Pipeline.arrRef spec8 0)) (V21 (F := Ideal) m ρ c (Pipeline.arrRef spec8 1)) (V21 (F := Ideal) m ρ c (Pipeline.arrRef spec8 2)) (V21 (F := Ideal) m ρ c (Pipeline.arrRef spec8 3))
      (V21 (F := Ideal) m ρ c (Pipeline.arrRef spec8 4)) (V21 (F := Ideal) m ρ c (Pipeline.arrRef spec8 5)) = M.x2 (inputsK m c) := by
  have e0 : V21 (F := Ideal) m ρ c (Pipeline.arrRef spec8 0) = M.mk2 (a3I (inputsK m c) (1 : Fin 4) (M.x1 (inputsK m c))) := a3_11 m ρ c hfin h
  have e1 : V21 (F := Ideal) m ρ c (Pipeline.arrRef spec8 1) = M.mk2 (fun (_ : Fin 1) j => M.meanK (M.sumT (a3I (inputsK m c) (1 : Fin 4) (M.x1 (inputsK m c)))) j) := mean3_11 m ρ c hfin h
  have e2 : V21 (F := Ideal) m ρ c (Pipeline.arrRef spec8 2) = M.mk2 (fun (_ : Fin 1) j => M.varK (M.sumT (a3I (inputsK m c) (1 : Fin 4) (M.x1 (inputsK m c)))) (M.sumsqT (a3I (inputsK m c) (1 : Fin 4) (M.x1 (inputsK m c)))) j) := var3_11 m ρ c hfin h
  have e3 : V21 (F := Ideal) m ρ c (Pipeline.arrRef spec8 3) = M.mk2 (fun (_ : Fin 1) j => (inputsK m c).gin_bn_g (1 : Fin 4) j) := gg_11 m ρ c hfin h
  have e4 : V21 (F := Ideal) m ρ c (Pipeline.arrRef spec8 4) = M.mk2 (fun (_ : Fin 1) j => (inputsK m c).gin_bn_b (1 : Fin 4) j) := gb_11 m ρ c hfin h
  have e5 : V21 (F := Ideal) m ρ c (Pipeline.arrRef spec8 5) = M.mk2 (M.x1 (inputsK m c)) := x11 m ρ c hfin h
  exact (shapeD (fin_a3I (inputsK m c) hfin (1 : Fin 4) (M.x1 (inputsK m c)) (MathStats.fin_x1 (inputsK m c) hfin)) e0 e1 e2 e3 e4 e5).trans
    (layerI_eq (inputsK m c) (1 : Fin 4) (M.x1 (inputsK m c))).symm

theorem x_12 (hfin : (inputsK m c).Finite) (h : Entry1 m c (W15 (F := Ideal) m ρ c)) : W22 (F := Ideal) m ρ c (Proc.devRef .tc main_v271_0) = M.mk2 (M.x2 (inputsK m c)) :=
  (W22_arr m ρ c 8).trans ((RegD8.arr8_8 (V21 (F := Ideal) m ρ) c).trans (congrArg M.mk2 (valD m ρ c hfin h)))
theorem p_12 (hfin : (inputsK m c).Finite) (h : Entry1 m c (W15 (F := Ideal) m ρ c)) : W22 (F := Ideal) m ρ c (Proc.devRef .tc main_v271_1) = M.mk2 (M.mm (M.x2 (inputsK m c)) (M.top ((inputsK m c).pred_w1 (2 : Fin 5)))) :=
  (W22_arr m ρ c 9).trans ((RegD8.arr8_9 (V21 (F := Ideal) m ρ) c).trans
    (congrArg M.mk2 (congrArg₂ M.mm (valD m ρ c hfin h) (congrArg (M.at2 (a := 128) (b := 128)) (wt_11 m ρ c hfin h)))))
theorem q_12 (hfin : (inputsK m c).Finite) (h : Entry1 m c (W15 (F := Ideal) m ρ c)) : W22 (F := Ideal) m ρ c (Proc.devRef .tc main_v271_2) = M.mk2 (M.mm (M.x2 (inputsK m c)) (M.bot ((inputsK m c).pred_w1 (2 : Fin 5)))) :=
  (W22_arr m ρ c 10).trans ((RegD8.arr8_10 (V21 (F := Ideal) m ρ) c).trans
    (congrArg M.mk2 (congrArg₂ M.mm (valD m ρ c hfin h) (congrArg (M.at2 (a := 128) (b := 128)) (wb_11 m ρ c hfin h)))))

end Cert.KChain.La1

namespace Cert.KChain

/-- Layer 1's regions: from the layer's entry to its last region's exit. -/
theorem la1 (m : (ℓ : Loc nD τ sig) → Buf (Elt Ideal) ℓ) (ρ : Dev nD → PrngReg) (c : Dev nD)
    (hfin : (inputsK m c).Finite) (h : Entry1 m c (W15 (F := Ideal) m ρ c)) : Exit1 m c (W22 (F := Ideal) m ρ c) :=
  ⟨La1.x_12 m ρ c hfin h, La1.p_12 m ρ c hfin h, La1.q_12 m ρ c hfin h, La1.sc12 m ρ c hfin h, La1.args12 m ρ c hfin h⟩

end Cert.KChain

end
-- ==== Proof.KStageHeadSib.lean ====
/-
  The stretches of the third, fourth and fifth heads: the same readings as the second head's, at their own references
  and head index.
-/
import proofs.«416875_j80633716015165_3_alg».proof.Proof.KStageHead

noncomputable section

open Idealize.ShloMosaic Idealize.ShloMosaic.ValueIdx

namespace Cert.KStageHead

open Cert.KernelIdeal Cert.KernelIdeal.Gen

/-! ## The third head's stretches -/

theorem ops9_v278 (V : Valuation τ sig (Elt Ideal)) :
    (StableHlo.after hostOps9 V (Proc.devRef .tc main_v278) : S320000x128.Idx → EReal)
      = gath .bf16 (V (Proc.devRef .tc main_v271_1)) (V (Proc.devRef .tc main_arg18)) := by
  after_results

theorem ops9_v286 (V : Valuation τ sig (Elt Ideal)) :
    (StableHlo.after hostOps9 V (Proc.devRef .tc main_v286) : S320000x128.Idx → EReal)
      = gath .bf16 (V (Proc.devRef .tc main_v271_2)) (V (Proc.devRef .tc main_arg19)) := by
  after_results_simp

theorem ops9_v293 (V : Valuation τ sig (Elt Ideal)) :
    (StableHlo.after hostOps9 V (Proc.devRef .tc main_v293) : S320000x128.Idx → EReal)
      = M.mk2 (fun e j =>
          (M.at2 (gath .bf16 (V (Proc.devRef .tc main_v271_1)) (V (Proc.devRef .tc main_arg18))) e j
            + M.at2 (gath .bf16 (V (Proc.devRef .tc main_v271_2)) (V (Proc.devRef .tc main_arg19))) e j)
          + M.at2 (V (Proc.devRef .tc main_arg15)) (2 : Fin 5) j) := by
  after_results_simp
  exact preact_eq _ _ _ _ _ (2 : Fin 5) rfl rfl

theorem ops9_1_v294 (V : Valuation τ sig (Elt Ideal)) :
    (StableHlo.after hostOps9_1 V (Proc.devRef .tc main_v294) : S320000x128.Idx → EReal)
      = M.mk2 (fun e j => max (M.at2 (V (Proc.devRef .tc main_v293)) e j) M.c0) := by
  after_results
  exact relu_eq _

theorem ops9_2_v302 (V : Valuation τ sig (Elt Ideal)) :
    (StableHlo.after hostOps9_2 V (Proc.devRef .tc main_v302) : S320000x2.Idx → EReal)
      = M.mk2 (fun e c => (∑ j : Fin 128, M.at2 (V (Proc.devRef .tc main_v294)) e j * M.at3 (V (Proc.devRef .tc main_arg16)) (2 : Fin 5) j c)
          + M.at2 (V (Proc.devRef .tc main_arg17)) (2 : Fin 5) c) := by
  after_results
  exact score_eq _ _ _ _ _ _ _ (2 : Fin 5) rfl rfl rfl rfl rfl

theorem ops9_2_v303 (V : Valuation τ sig (Elt Ideal)) :
    (StableHlo.after hostOps9_2 V (Proc.devRef .tc main_v303) : S320000x2.Idx → EReal)
      = M.mk2 (fun e c => M.at2 (V (Proc.devRef .tc main_v172)) e c
          + ((∑ j : Fin 128, M.at2 (V (Proc.devRef .tc main_v294)) e j * M.at3 (V (Proc.devRef .tc main_arg16)) (2 : Fin 5) j c)
            + M.at2 (V (Proc.devRef .tc main_arg17)) (2 : Fin 5) c)) := by
  after_results_simp
  exact scoreAcc_eq _ _ _ _ _ _ _ _ (2 : Fin 5) rfl rfl rfl rfl rfl

/-- This head's score added to the running score, across its three stretches, from the contents before them. -/
theorem head9_v303 (V : Valuation τ sig (Elt Ideal)) :
    (StableHlo.after hostOps9_2 (StableHlo.after hostOps9_1 (StableHlo.after hostOps9 V)) (Proc.devRef .tc main_v303) : S320000x2.Idx → EReal)
      = M.mk2 (fun e c => M.at2 (V (Proc.devRef .tc main_v172)) e c
          + M.headK (M.at2 (gath .bf16 (V (Proc.devRef .tc main_v271_1)) (V (Proc.devRef .tc main_arg18))))
              (M.at2 (gath .bf16 (V (Proc.devRef .tc main_v271_2)) (V (Proc.devRef .tc main_arg19))))
              (fun j => M.at2 (V (Proc.devRef .tc main_arg15)) (2 : Fin 5) j) (fun j c => M.at3 (V (Proc.devRef .tc main_arg16)) (2 : Fin 5) j c)
              (fun c => M.at2 (V (Proc.devRef .tc main_arg17)) (2 : Fin 5) c) e c) := by
  have e16 : StableHlo.after hostOps9_1 (StableHlo.after hostOps9 V) (Proc.devRef .tc main_arg16) = V (Proc.devRef .tc main_arg16) := by
    after_results_simp
  have e17 : StableHlo.after hostOps9_1 (StableHlo.after hostOps9 V) (Proc.devRef .tc main_arg17) = V (Proc.devRef .tc main_arg17) := by
    after_results_simp
  have e41 : StableHlo.after hostOps9_1 (StableHlo.after hostOps9 V) (Proc.devRef .tc main_v172) = V (Proc.devRef .tc main_v172) := by
    after_results_simp
  rw [ops9_2_v303, ops9_1_v294, ops9_v293, e16, e17, e41]
  rfl

/-! ### The third layer's neighbour sums and parameters -/

theorem ops9_2_v310 (V : Valuation τ sig (Elt Ideal)) :
    (StableHlo.after hostOps9_2 V (Proc.devRef .tc main_v310) : S320000x128.Idx → EReal)
      = gath .f32 (V (Proc.devRef .tc main_v271_0)) (V (Proc.devRef .tc main_arg18)) := by
  after_results_simp

theorem ops9_2_v313 (V : Valuation τ sig (Elt Ideal)) :
    (StableHlo.after hostOps9_2 V (Proc.devRef .tc main_v313) : S20000x128.Idx → EReal)
      = scat (V (Proc.devRef .tc main_arg19)) (gath .f32 (V (Proc.devRef .tc main_v271_0)) (V (Proc.devRef .tc main_arg18))) := by
  after_results_simp

theorem ops9_2_v316 (V : Valuation τ sig (Elt Ideal)) :
    (StableHlo.after hostOps9_2 V (Proc.devRef .tc main_v316) : S1x1.Idx → EReal)
      = M.mk2 (fun (_ : Fin 1) (_ : Fin 1) => M.at1 (V (Proc.devRef .tc main_arg3)) (2 : Fin 4)) := by
  after_results
  exact eps_eq _ _ _ (2 : Fin 4) rfl

theorem ops9_2_v318 (V : Valuation τ sig (Elt Ideal)) :
    (StableHlo.after hostOps9_2 V (Proc.devRef .tc main_v318) : S128x128.Idx → EReal)
      = M.mk2 (fun k j => M.at3 (V (Proc.devRef .tc main_arg4)) (2 : Fin 4) k j) := by
  after_results
  exact w1_eq _ _ _ (2 : Fin 4) rfl rfl rfl

theorem ops9_2_v321 (V : Valuation τ sig (Elt Ideal)) :
    (StableHlo.after hostOps9_2 V (Proc.devRef .tc main_v321) : S1x128.Idx → EReal)
      = M.mk2 (fun (_ : Fin 1) j => M.at2 (V (Proc.devRef .tc main_arg5)) (2 : Fin 4) j) := by
  after_results
  exact b1row_eq _ _ _ (2 : Fin 4) rfl rfl

/-! ## The fourth head's stretches -/

theorem ops13_v409 (V : Valuation τ sig (Elt Ideal)) :
    (StableHlo.after hostOps13 V (Proc.devRef .tc main_v409) : S320000x128.Idx → EReal)
      = gath .bf16 (V (Proc.devRef .tc main_v402_1)) (V (Proc.devRef .tc main_arg18)) := by
  after_results

theorem ops13_v417 (V : Valuation τ sig (Elt Ideal)) :
    (StableHlo.after hostOps13 V (Proc.devRef .tc main_v417) : S320000x128.Idx → EReal)
      = gath .bf16 (V (Proc.devRef .tc main_v402_2)) (V (Proc.devRef .tc main_arg19)) := by
  after_results_simp

theorem ops13_v424 (V : Valuation τ sig (Elt Ideal)) :
    (StableHlo.after hostOps13 V (Proc.devRef .tc main_v424) : S320000x128.Idx → EReal)
      = M.mk2 (fun e j =>
          (M.at2 (gath .bf16 (V (Proc.devRef .tc main_v402_1)) (V (Proc.devRef .tc main_arg18))) e j
            + M.at2 (gath .bf16 (V (Proc.devRef .tc main_v402_2)) (V (Proc.devRef .tc main_arg19))) e j)
          + M.at2 (V (Proc.devRef .tc main_arg15)) (3 : Fin 5) j) := by
  after_results_simp
  exact preact_eq _ _ _ _ _ (3 : Fin 5) rfl rfl

theorem ops13_1_v425 (V : Valuation τ sig (Elt Ideal)) :
    (StableHlo.after hostOps13_1 V (Proc.devRef .tc main_v425) : S320000x128.Idx → EReal)
      = M.mk2 (fun e j => max (M.at2 (V (Proc.devRef .tc main_v424)) e j) M.c0) := by
  after_results
  exact relu_eq _

theorem ops13_2_v433 (V : Valuation τ sig (Elt Ideal)) :
    (StableHlo.after hostOps13_2 V (Proc.devRef .tc main_v433) : S320000x2.Idx → EReal)
      = M.mk2 (fun e c => (∑ j : Fin 128, M.at2 (V (Proc.devRef .tc main_v425)) e j * M.at3 (V (Proc.devRef .tc main_arg16)) (3 : Fin 5) j c)
          + M.at2 (V (Proc.devRef .tc main_arg17)) (3 : Fin 5) c) := by
  after_results
  exact score_eq _ _ _ _ _ _ _ (3 : Fin 5) rfl rfl rfl rfl rfl

theorem ops13_2_v434 (V : Valuation τ sig (Elt Ideal)) :
    (StableHlo.after hostOps13_2 V (Proc.devRef .tc main_v434) : S320000x2.Idx → EReal)
      = M.mk2 (fun e c => M.at2 (V (Proc.devRef .tc main_v303)) e c
          + ((∑ j : Fin 128, M.at2 (V (Proc.devRef .tc main_v425)) e j * M.at3 (V (Proc.devRef .tc main_arg16)) (3 : Fin 5) j c)
            + M.at2 (V (Proc.devRef .tc main_arg17)) (3 : Fin 5) c)) := by
  after_results_simp
  exact scoreAcc_eq _ _ _ _ _ _ _ _ (3 : Fin 5) rfl rfl rfl rfl rfl

/-- This head's score added to the running score, across its three stretches, from the contents before them. -/
theorem head13_v434 (V : Valuation τ sig (Elt Ideal)) :
    (StableHlo.after hostOps13_2 (StableHlo.after hostOps13_1 (StableHlo.after hostOps13 V)) (Proc.devRef .tc main_v434) : S320000x2.Idx → EReal)
      = M.mk2 (fun e c => M.at2 (V (Proc.devRef .tc main_v303)) e c
          + M.headK (M.at2 (gath .bf16 (V (Proc.devRef .tc main_v402_1)) (V (Proc.devRef .tc main_arg18))))
              (M.at2 (gath .bf16 (V (Proc.devRef .tc main_v402_2)) (V (Proc.devRef .tc main_arg19))))
              (fun j => M.at2 (V (Proc.devRef .tc main_arg15)) (3 : Fin 5) j) (fun j c => M.at3 (V (Proc.devRef .tc main_arg16)) (3 : Fin 5) j c)
              (fun c => M.at2 (V (Proc.devRef .tc main_arg17)) (3 : Fin 5) c) e c) := by
  have e16 : StableHlo.after hostOps13_1 (StableHlo.after hostOps13 V) (Proc.devRef .tc main_arg16) = V (Proc.devRef .tc main_arg16) := by
    after_results_simp
  have e17 : StableHlo.after hostOps13_1 (StableHlo.after hostOps13 V) (Proc.devRef .tc main_arg17) = V (Proc.devRef .tc main_arg17) := by
    after_results_simp
  have e41 : StableHlo.after hostOps13_1 (StableHlo.after hostOps13 V) (Proc.devRef .tc main_v303) = V (Proc.devRef .tc main_v303) := by
    after_results_simp
  rw [ops13_2_v434, ops13_1_v425, ops13_v424, e16, e17, e41]
  rfl

/-! ### The fourth layer's neighbour sums and parameters -/

theorem ops13_2_v441 (V : Valuation τ sig (Elt Ideal)) :
    (StableHlo.after hostOps13_2 V (Proc.devRef .tc main_v441) : S320000x128.Idx → EReal)
      = gath .f32 (V (Proc.devRef .tc main_v402_0)) (V (Proc.devRef .tc main_arg18)) := by
  after_results_simp

theorem ops13_2_v444 (V : Valuation τ sig (Elt Ideal)) :
    (StableHlo.after hostOps13_2 V (Proc.devRef .tc main_v444) : S20000x128.Idx → EReal)
      = scat (V (Proc.devRef .tc main_arg19)) (gath .f32 (V (Proc.devRef .tc main_v402_0)) (V (Proc.devRef .tc main_arg18))) := by
  after_results_simp

theorem ops13_2_v447 (V : Valuation τ sig (Elt Ideal)) :
    (StableHlo.after hostOps13_2 V (Proc.devRef .tc main_v447) : S1x1.Idx → EReal)
      = M.mk2 (fun (_ : Fin 1) (_ : Fin 1) => M.at1 (V (Proc.devRef .tc main_arg3)) (3 : Fin 4)) := by
  after_results
  exact eps_eq _ _ _ (3 : Fin 4) rfl

theorem ops13_2_v449 (V : Valuation τ sig (Elt Ideal)) :
    (StableHlo.after hostOps13_2 V (Proc.devRef .tc main_v449) : S128x128.Idx → EReal)
      = M.mk2 (fun k j => M.at3 (V (Proc.devRef .tc main_arg4)) (3 : Fin 4) k j) := by
  after_results
  exact w1_eq _ _ _ (3 : Fin 4) rfl rfl rfl

theorem ops13_2_v452 (V : Valuation τ sig (Elt Ideal)) :
    (StableHlo.after hostOps13_2 V (Proc.devRef .tc main_v452) : S1x128.Idx → EReal)
      = M.mk2 (fun (_ : Fin 1) j => M.at2 (V (Proc.devRef .tc main_arg5)) (3 : Fin 4) j) := by
  after_results
  exact b1row_eq _ _ _ (3 : Fin 4) rfl rfl

/-! ## The fifth head's stretches -/

theorem ops17_v540 (V : Valuation τ sig (Elt Ideal)) :
    (StableHlo.after hostOps17 V (Proc.devRef .tc main_v540) : S320000x128.Idx → EReal)
      = gath .bf16 (V (Proc.devRef .tc main_v533_1)) (V (Proc.devRef .tc main_arg18)) := by
  after_results

theorem ops17_v548 (V : Valuation τ sig (Elt Ideal)) :
    (StableHlo.after hostOps17 V (Proc.devRef .tc main_v548) : S320000x128.Idx → EReal)
      = gath .bf16 (V (Proc.devRef .tc main_v533_2)) (V (Proc.devRef .tc main_arg19)) := by
  after_results_simp

theorem ops17_v555 (V : Valuation τ sig (Elt Ideal)) :
    (StableHlo.after hostOps17 V (Proc.devRef .tc main_v555) : S320000x128.Idx → EReal)
      = M.mk2 (fun e j =>
          (M.at2 (gath .bf16 (V (Proc.devRef .tc main_v533_1)) (V (Proc.devRef .tc main_arg18))) e j
            + M.at2 (gath .bf16 (V (Proc.devRef .tc main_v533_2)) (V (Proc.devRef .tc main_arg19))) e j)
          + M.at2 (V (Proc.devRef .tc main_arg15)) (4 : Fin 5) j) := by
  after_results_simp
  exact preact_eq _ _ _ _ _ (4 : Fin 5) rfl rfl

theorem ops17_1_v556 (V : Valuation τ sig (Elt Ideal)) :
    (StableHlo.after hostOps17_1 V (Proc.devRef .tc main_v556) : S320000x128.Idx → EReal)
      = M.mk2 (fun e j => max (M.at2 (V (Proc.devRef .tc main_v555)) e j) M.c0) := by
  after_results
  exact relu_eq _

theorem ops17_2_v564 (V : Valuation τ sig (Elt Ideal)) :
    (StableHlo.after hostOps17_2 V (Proc.devRef .tc main_v564) : S320000x2.Idx → EReal)
      = M.mk2 (fun e c => (∑ j : Fin 128, M.at2 (V (Proc.devRef .tc main_v556)) e j * M.at3 (V (Proc.devRef .tc main_arg16)) (4 : Fin 5) j c)
          + M.at2 (V (Proc.devRef .tc main_arg17)) (4 : Fin 5) c) := by
  after_results
  exact score_eq _ _ _ _ _ _ _ (4 : Fin 5) rfl rfl rfl rfl rfl

theorem ops17_2_v565 (V : Valuation τ sig (Elt Ideal)) :
    (StableHlo.after hostOps17_2 V (Proc.devRef .tc main_v565) : S320000x2.Idx → EReal)
      = M.mk2 (fun e c => M.at2 (V (Proc.devRef .tc main_v434)) e c
          + ((∑ j : Fin 128, M.at2 (V (Proc.devRef .tc main_v556)) e j * M.at3 (V (Proc.devRef .tc main_arg16)) (4 : Fin 5) j c)
            + M.at2 (V (Proc.devRef .tc main_arg17)) (4 : Fin 5) c)) := by
  after_results_simp
  exact scoreAcc_eq _ _ _ _ _ _ _ _ (4 : Fin 5) rfl rfl rfl rfl rfl

/-- This head's score added to the running score, across its three stretches, from the contents before them. -/
theorem head17_v565 (V : Valuation τ sig (Elt Ideal)) :
    (StableHlo.after hostOps17_2 (StableHlo.after hostOps17_1 (StableHlo.after hostOps17 V)) (Proc.devRef .tc main_v565) : S320000x2.Idx → EReal)
      = M.mk2 (fun e c => M.at2 (V (Proc.devRef .tc main_v434)) e c
          + M.headK (M.at2 (gath .bf16 (V (Proc.devRef .tc main_v533_1)) (V (Proc.devRef .tc main_arg18))))
              (M.at2 (gath .bf16 (V (Proc.devRef .tc main_v533_2)) (V (Proc.devRef .tc main_arg19))))
              (fun j => M.at2 (V (Proc.devRef .tc main_arg15)) (4 : Fin 5) j) (fun j c => M.at3 (V (Proc.devRef .tc main_arg16)) (4 : Fin 5) j c)
              (fun c => M.at2 (V (Proc.devRef .tc main_arg17)) (4 : Fin 5) c) e c) := by
  have e16 : StableHlo.after hostOps17_1 (StableHlo.after hostOps17 V) (Proc.devRef .tc main_arg16) = V (Proc.devRef .tc main_arg16) := by
    after_results_simp
  have e17 : StableHlo.after hostOps17_1 (StableHlo.after hostOps17 V) (Proc.devRef .tc main_arg17) = V (Proc.devRef .tc main_arg17) := by
    after_results_simp
  have e41 : StableHlo.after hostOps17_1 (StableHlo.after hostOps17 V) (Proc.devRef .tc main_v434) = V (Proc.devRef .tc main_v434) := by
    after_results_simp
  rw [ops17_2_v565, ops17_1_v556, ops17_v555, e16, e17, e41]
  rfl

end Cert.KStageHead

end
-- ==== Proof.KChainLh1.lean ====
/-
  Layer 1's head stretches: from what the buffers hold where the layer's last region is left (the next node array and
  its two per-node products) to what they hold where the next layer's first region is entered (the next head's score
  added to the running score, the neighbour sums, the next layer's parameter slices).
-/
import proofs.«416875_j80633716015165_3_alg».proof.Proof.KChainBase
import proofs.«416875_j80633716015165_3_alg».proof.Proof.KChainKeep
import proofs.«416875_j80633716015165_3_alg».proof.Proof.KChainArgs
import proofs.«416875_j80633716015165_3_alg».proof.Proof.KChainGather
import proofs.«416875_j80633716015165_3_alg».proof.Proof.KStageHeadSib

set_option maxRecDepth 16384
-- one declaration at a time: each reading of a region's window array is evaluated on its own
set_option Elab.async false

noncomputable section

open Idealize.ShloMosaic Idealize.ShloMosaic.TcCoe Idealize.ShloMosaic.ValueIdx
open Cert.KernelIdeal Cert.KernelIdeal.Gen

namespace Cert.KChain.Lh1

variable (m : (ℓ : Loc nD τ sig) → Buf (Elt Ideal) ℓ) (ρ : Dev nD → PrngReg) (c : Dev nD)

/-! ## The arguments, the node array and the running score are kept -/

theorem args13 (hfin : (inputsK m c).Finite) (h : Exit1 m c (W22 (F := Ideal) m ρ c)) :
    ArgsKept m c (W23 (F := Ideal) m ρ c) := argsW23 m ρ c h.args
theorem args14 (hfin : (inputsK m c).Finite) (h : Exit1 m c (W22 (F := Ideal) m ρ c)) :
    ArgsKept m c (W24 (F := Ideal) m ρ c) := argsW24 m ρ c (args13 m ρ c hfin h)
theorem args15 (hfin : (inputsK m c).Finite) (h : Exit1 m c (W22 (F := Ideal) m ρ c)) :
    ArgsKept m c (W25 (F := Ideal) m ρ c) := argsW25 m ρ c (args14 m ρ c hfin h)

theorem x13 (hfin : (inputsK m c).Finite) (h : Exit1 m c (W22 (F := Ideal) m ρ c)) :
    W23 (F := Ideal) m ρ c (Proc.devRef .tc main_v271_0) = M.mk2 (M.x2 (inputsK m c)) :=
  (keepW23 m ρ c main_v271_0 (nm (by decide))).trans h.x
theorem x14 (hfin : (inputsK m c).Finite) (h : Exit1 m c (W22 (F := Ideal) m ρ c)) :
    W24 (F := Ideal) m ρ c (Proc.devRef .tc main_v271_0) = M.mk2 (M.x2 (inputsK m c)) :=
  (keepW24 m ρ c main_v271_0 (nm (by decide))).trans (x13 m ρ c hfin h)
theorem x15 (hfin : (inputsK m c).Finite) (h : Exit1 m c (W22 (F := Ideal) m ρ c)) :
    W25 (F := Ideal) m ρ c (Proc.devRef .tc main_v271_0) = M.mk2 (M.x2 (inputsK m c)) :=
  (keepW25 m ρ c main_v271_0 (nm (by decide))).trans (x14 m ρ c hfin h)

theorem sc13 (hfin : (inputsK m c).Finite) (h : Exit1 m c (W22 (F := Ideal) m ρ c)) :
    W23 (F := Ideal) m ρ c (Proc.devRef .tc main_v172) = M.mk2 (s1 (inputsK m c)) :=
  (keepW23 m ρ c main_v172 (nm (by decide))).trans h.score
theorem sc14 (hfin : (inputsK m c).Finite) (h : Exit1 m c (W22 (F := Ideal) m ρ c)) :
    W24 (F := Ideal) m ρ c (Proc.devRef .tc main_v172) = M.mk2 (s1 (inputsK m c)) :=
  (keepW24 m ρ c main_v172 (nm (by decide))).trans (sc13 m ρ c hfin h)

/-! ## The head: gathered products, bias, rectifier, second map, added to the running score -/

/-- The head's pre-activation: the source product's row plus the target product's row plus the first bias. -/
theorem pre13 (hfin : (inputsK m c).Finite) (h : Exit1 m c (W22 (F := Ideal) m ρ c)) :
    W23 (F := Ideal) m ρ c (Proc.devRef .tc main_v293)
      = M.mk2 (fun e j =>
          (M.rows (M.mm (M.x2 (inputsK m c)) (M.top ((inputsK m c).pred_w1 (2 : Fin 5)))) (inputsK m c).src e j
            + M.rows (M.mm (M.x2 (inputsK m c)) (M.bot ((inputsK m c).pred_w1 (2 : Fin 5)))) (inputsK m c).dst e j)
          + (inputsK m c).pred_b1 (2 : Fin 5) j) := by
  have e := KStageHead.ops9_v293 (W22 (F := Ideal) m ρ c)
  rw [h.p, h.q, h.args main_arg18 (by decide), h.args main_arg19 (by decide), h.args main_arg15 (by decide),
    gath_eq, gath_eq] at e
  exact e

/-- The rectified pre-activation. -/
theorem act14 (hfin : (inputsK m c).Finite) (h : Exit1 m c (W22 (F := Ideal) m ρ c)) :
    W24 (F := Ideal) m ρ c (Proc.devRef .tc main_v294)
      = M.mk2 (fun e j => max
          ((M.rows (M.mm (M.x2 (inputsK m c)) (M.top ((inputsK m c).pred_w1 (2 : Fin 5)))) (inputsK m c).src e j
            + M.rows (M.mm (M.x2 (inputsK m c)) (M.bot ((inputsK m c).pred_w1 (2 : Fin 5)))) (inputsK m c).dst e j)
          + (inputsK m c).pred_b1 (2 : Fin 5) j) M.c0) := by
  have e := KStageHead.ops9_1_v294 (W23 (F := Ideal) m ρ c)
  rw [pre13 m ρ c hfin h] at e
  exact e

/-- The running score with this head's score added. -/
theorem sc15 (hfin : (inputsK m c).Finite) (h : Exit1 m c (W22 (F := Ideal) m ρ c)) :
    W25 (F := Ideal) m ρ c (Proc.devRef .tc main_v303) = M.mk2 (s2 (inputsK m c)) := by
  have e := KStageHead.ops9_2_v303 (W24 (F := Ideal) m ρ c)
  rw [sc14 m ρ c hfin h, act14 m ρ c hfin h, args14 m ρ c hfin h main_arg16 (by decide),
    args14 m ρ c hfin h main_arg17 (by decide)] at e
  refine e.trans (congrArg M.mk2 ?_)
  funext ed k
  show s1 (inputsK m c) ed k
      + M.headK (M.rows (M.mm (M.x2 (inputsK m c)) (M.top ((inputsK m c).pred_w1 (2 : Fin 5)))) (inputsK m c).src)
          (M.rows (M.mm (M.x2 (inputsK m c)) (M.bot ((inputsK m c).pred_w1 (2 : Fin 5)))) (inputsK m c).dst)
          ((inputsK m c).pred_b1 (2 : Fin 5)) ((inputsK m c).pred_w2 (2 : Fin 5)) ((inputsK m c).pred_b2 (2 : Fin 5)) ed k
      = s2 (inputsK m c) ed k
  rw [headI_K (inputsK m c) (2 : Fin 5) (M.x2 (inputsK m c))]
  rfl

/-! ## The neighbour sums and the next layer's parameter slices -/

theorem neigh15 (hfin : (inputsK m c).Finite) (h : Exit1 m c (W22 (F := Ideal) m ρ c)) :
    W25 (F := Ideal) m ρ c (Proc.devRef .tc main_v313)
      = M.mk2 (M.neigh (M.x2 (inputsK m c)) (inputsK m c).src (inputsK m c).dst) := by
  have e := KStageHead.ops9_2_v313 (W24 (F := Ideal) m ρ c)
  rw [x14 m ρ c hfin h, args14 m ρ c hfin h main_arg18 (by decide), args14 m ρ c hfin h main_arg19 (by decide),
    scat_gath_eq] at e
  exact e
theorem eps15 (hfin : (inputsK m c).Finite) (h : Exit1 m c (W22 (F := Ideal) m ρ c)) :
    W25 (F := Ideal) m ρ c (Proc.devRef .tc main_v316)
      = M.mk2 (fun (_ : Fin 1) (_ : Fin 1) => (inputsK m c).eps (2 : Fin 4)) := by
  have e := KStageHead.ops9_2_v316 (W24 (F := Ideal) m ρ c)
  rw [args14 m ρ c hfin h main_arg3 (by decide)] at e
  exact e
theorem w1_15 (hfin : (inputsK m c).Finite) (h : Exit1 m c (W22 (F := Ideal) m ρ c)) :
    W25 (F := Ideal) m ρ c (Proc.devRef .tc main_v318) = M.mk2 ((inputsK m c).mlp_w1 (2 : Fin 4)) := by
  have e := KStageHead.ops9_2_v318 (W24 (F := Ideal) m ρ c)
  rw [args14 m ρ c hfin h main_arg4 (by decide)] at e
  exact e
theorem b1_15 (hfin : (inputsK m c).Finite) (h : Exit1 m c (W22 (F := Ideal) m ρ c)) :
    W25 (F := Ideal) m ρ c (Proc.devRef .tc main_v321)
      = M.mk2 (fun (_ : Fin 1) (j : Fin 128) => (inputsK m c).mlp_b1 (2 : Fin 4) j) := by
  have e := KStageHead.ops9_2_v321 (W24 (F := Ideal) m ρ c)
  rw [args14 m ρ c hfin h main_arg5 (by decide)] at e
  exact e

end Cert.KChain.Lh1

namespace Cert.KChain

/-- Layer 1's head stretches: from the layer's last region's exit to the next layer's entry. -/
theorem lh1 (m : (ℓ : Loc nD τ sig) → Buf (Elt Ideal) ℓ) (ρ : Dev nD → PrngReg) (c : Dev nD)
    (hfin : (inputsK m c).Finite) (h : Exit1 m c (W22 (F := Ideal) m ρ c)) : Entry2 m c (W25 (F := Ideal) m ρ c) :=
  ⟨Lh1.x15 m ρ c hfin h, Lh1.sc15 m ρ c hfin h, Lh1.neigh15 m ρ c hfin h, Lh1.eps15 m ρ c hfin h,
    Lh1.w1_15 m ρ c hfin h, Lh1.b1_15 m ρ c hfin h, Lh1.args15 m ρ c hfin h⟩

end Cert.KChain

end
-- ==== Proof.RegA9.lean ====
/-
  The value of region 9 (the first kernel of layer 2): what its three output arrays hold after the region, as functions
  of the five input arrays as the region finds them.

  The body forms, on each tile of 4000 rows, the block a = ((1 + ε) · x + neigh) · w₁ + b₁ of the layer's first linear map
  (the contraction over the 128 columns of the left factor; the narrowing of the factors is the identity on the extended
  reals), stores it, and stores beside it the tile's column sums of a and of a², each repeated over eight rows. Read at an
  index, the body's value at row p of tile t is the first linear map of the whole arrays at row 4000 t + p; the blocks the
  points write back tile each output array, so the arrays end holding the first linear map, its tiled column sums and
  the tiled column sums of its squares.
-/
import proofs.«416875_j80633716015165_3_alg».proof.Proof.Spec
import proofs.«416875_j80633716015165_3_alg».proof.Proof.FrameKI
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

open Idealize.ShloMosaic Idealize.ShloMosaic.ValueIdx

namespace Cert.RegA9

open Cert.KernelIdeal Cert.KernelIdeal.Gen
open Idealize.ShloMosaic.TcCoe
open Idealize.ShloMosaic.Pipeline (Dat)

/-! ## The block product at an index -/

theorem lhs_dot_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl

theorem lhs_dot_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q

theorem rhs_dot_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q

theorem rhs_dot_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-- The product of a 4000×128 block with a 128×128 block into the zero splat, at (p, q): the sum over the contracted
    coordinate of row p of the left times column q of the right. -/
theorem mm_apply (a : FVec Ideal S4000x128 .bf16) (b : FVec Ideal S128x128 .bf16) (p : Fin 4000) (q : Fin 128) :
    matmul dot_S4000x128_S128x128_S4000x128_1_0_0_1_n_n none a b (constant (F := Ideal) S4000x128 .f32 0x00000000#32) (ix2 p q)
      = ∑ k : Fin 128, a (ix2 p k) * b (ix2 k q) := by
  refine (Ideal.matmul_constant_zero_apply dot_S4000x128_S128x128_S4000x128_1_0_0_1_n_n none a b (ix2 p q)).trans ?_
  rw [← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k :=
    funext fun a => Fin.ext (by
      match a with
      | ⟨0, _⟩ => exact lhs_dot_0 _ _
      | ⟨1, _⟩ => exact (lhs_dot_1 _ _).trans hk)
  have er : dot_S4000x128_S128x128_S4000x128_1_0_0_1_n_n.rhsIdx (ix2 p q) ((contrEquiv1 dot_S4000x128_S128x128_S4000x128_1_0_0_1_n_n 128 rfl rfl).symm k) = ix2 k q :=
    funext fun a => Fin.ext (by
      match a with
      | ⟨0, _⟩ => exact (rhs_dot_0 _ _).trans hk
      | ⟨1, _⟩ => exact rhs_dot_1 _ _)
  rw [el, er]

/-! ## The layout operations of the body at an index -/

/-- A 1×1 array broadcast over the block reads its one entry everywhere. -/
theorem bcast11_apply {α : Type} (v : S1x1.Idx → α) (h : S1x1.Broadcasts S4000x128) (p : Fin 4000) (q : Fin 128) :
    broadcastTo S4000x128 v h (ix2 p q) = v (ix2 0 0) :=
  broadcastTo_apply v h (ix2 p q) (ix2 0 0) fun a => by
    match a with
    | ⟨0, _⟩ => rfl
    | ⟨1, _⟩ => rfl

/-- A column sum's row vector, viewed 1×1×128 and repeated over eight rows, reads at (u, s, j) the vector at j. -/
theorem rep8_apply {α : Type} (v : S128.Idx → α) (h1 : S128.ShapeCasts S1x128) (h2 : S1x128.ShapeCasts S1x1x128)
    (h3 : S1x1x128.ShapeCasts S1x1x128) (h4 : S1x1x128.Broadcasts S1x8x128) (u : Fin 1) (s : Fin 8) (j : Fin 128) :
    broadcastTo S1x8x128 (shapeCast S1x1x128 (shapeCast S1x1x128 (shapeCast S1x128 v h1) h2) h3) h4 (ix3 u s j) = v (ix1 j) := by
  refine (broadcastTo_apply _ h4 (ix3 u s j) (ix3 (0 : Fin 1) (0 : Fin 1) j) fun a => ?_).trans ?_
  · match a with
    | ⟨0, _⟩ => rfl
    | ⟨1, _⟩ => rfl
    | ⟨2, _⟩ => rfl
  rw [shapeCast_self]
  refine (shapeCast_ab_1ab_apply _ h2 (0 : Fin 1) (0 : Fin 1) j).trans ?_
  exact shapeCast_a_1a_apply v h1 (0 : Fin 1) j

/-- The reduced index with the summed coordinate put back is (r, j). -/
theorem lift_red (h : S4000x128.Reduces [0] S128) (j : Fin 128) (r : Fin 4000) : h.lift (ix1 j) r = ix2 r j := by
  funext a; apply Fin.ext
  match a with
  | ⟨0, _⟩ => rfl
  | ⟨1, _⟩ => rfl

/-- The column sum of a block at j: the sum over its 4000 rows. -/
theorem colsum_apply (v : FVec Ideal S4000x128 .f32) (h : S4000x128.Reduces [0] S128) (hφ : FKind.Formats .f32)
    (hacc : (0x00000000#32 : BitVec 32) = FKind.add.neutral .f32 hφ) (j : Fin 128) :
    multiReduction .add [0] S128 v 0x00000000#32 h hφ hacc (ix1 j) = ∑ r : Fin 4000, v (ix2 r j) := by
  refine (Ideal.multiReduction_add_single v 0x00000000#32 h hφ hacc (ix1 j)).trans ?_
  exact Finset.sum_congr rfl fun r _ => congrArg v (lift_red h j r)

/-! ## The body's payloads at an index -/

/-- The value the body forms, at row p and column q of its block: the block of the first linear map. -/
theorem pay1_apply (e : FVec Ideal S1x1 .f32) (x ng : FVec Ideal S4000x128 .f32) (w : FVec Ideal S128x128 .f32)
    (b : FVec Ideal S1x128 .f32) (p : Fin 4000) (q : Fin 128) :
    k9_pay1 (F := Ideal) e x ng w b (ix2 p q)
      = (∑ k : Fin 128, ((Ideal.ofBits .f32 0x3F800000#32 + e (ix2 0 0)) * x (ix2 p k) + ng (ix2 p k)) * w (ix2 k q))
        + b (ix2 0 q) := by
  unfold k9_pay1
  simp only [addf_apply, mulf_apply, truncf_apply, broadcast_apply, shapeCast_self, mm_apply, bcast11_apply,
    broadcastTo_1b_ab_apply]
  rfl

/-- The first output's payload: the same value (the narrowing is the identity on the extended reals). -/
theorem pay2_apply (e : FVec Ideal S1x1 .f32) (x ng : FVec Ideal S4000x128 .f32) (w : FVec Ideal S128x128 .f32)
    (b : FVec Ideal S1x128 .f32) (p : Fin 4000) (q : Fin 128) :
    (k9_pay2 (F := Ideal) e x ng w b (ix2 p q) : EReal) = k9_pay1 (F := Ideal) e x ng w b (ix2 p q) := rfl

/-- The second output's payload at (u, s, j): the block's column sum at j, whatever the row s. -/
theorem pay3_apply (e : FVec Ideal S1x1 .f32) (x ng : FVec Ideal S4000x128 .f32) (w : FVec Ideal S128x128 .f32)
    (b : FVec Ideal S1x128 .f32) (u : Fin 1) (s : Fin 8) (j : Fin 128) :
    k9_pay3 (F := Ideal) e x ng w b (ix3 u s j) = ∑ r : Fin 4000, k9_pay1 (F := Ideal) e x ng w b (ix2 r j) := by
  unfold k9_pay3
  refine (rep8_apply _ _ _ _ _ u s j).trans ?_
  exact colsum_apply _ _ _ _ j

/-- The third output's payload at (u, s, j): the column sum of the block's squares at j. -/
theorem pay4_apply (e : FVec Ideal S1x1 .f32) (x ng : FVec Ideal S4000x128 .f32) (w : FVec Ideal S128x128 .f32)
    (b : FVec Ideal S1x128 .f32) (u : Fin 1) (s : Fin 8) (j : Fin 128) :
    k9_pay4 (F := Ideal) e x ng w b (ix3 u s j)
      = ∑ r : Fin 4000, k9_pay1 (F := Ideal) e x ng w b (ix2 r j) * k9_pay1 (F := Ideal) e x ng w b (ix2 r j) := by
  unfold k9_pay4
  refine (rep8_apply _ _ _ _ _ u s j).trans ?_
  exact colsum_apply _ _ _ _ j

/-! ## From the blocks to the arrays -/

variable (V : (c : Dev nD) → (b : Ref sig .tc) → Buf (Elt Ideal) ((c : Thread nD τ).loc b))

theorem hz2 : (![0, 0] : Fin 2 → Nat) = fun _ => 0 := funext fun a => by
  match a with
  | ⟨0, _⟩ => rfl
  | ⟨1, _⟩ => rfl

theorem hz3 : (![0, 0, 0] : Fin 3 → Nat) = fun _ => 0 := funext fun a => by
  match a with
  | ⟨0, _⟩ => rfl
  | ⟨1, _⟩ => rfl
  | ⟨2, _⟩ => rfl

/-- A grid point as the number of its tile of 4000 rows. -/
def tile (t : Fin cfg9.N) : Fin 5 := ⟨t.val, by have h := t.isLt; have e : cfg9.N = 5 := N_9; omega⟩

/-- The first linear map of the region's input arrays: ((1 + ε) · x + neigh) · w₁ + b₁, rows by columns. -/
abbrev linA (c : Dev nD) : Fin 20000 → Fin 128 → EReal :=
  M.lin (M.at2 (a := 20000) (b := 128) (V c (Pipeline.arrRef spec9 0)))
    (M.at2 (a := 20000) (b := 128) (V c (Pipeline.arrRef spec9 1)))
    (M.at2 (a := 1) (b := 1) (V c (Pipeline.arrRef spec9 2)) 0 0)
    (M.at2 (a := 128) (b := 128) (V c (Pipeline.arrRef spec9 3)))
    (fun j => M.at2 (a := 1) (b := 128) (V c (Pipeline.arrRef spec9 4)) 0 j)

/-- The index maps, decided over the grid: the row-block windows sit at block (t, 0), the parameter windows at
    block (0, 0), the partial-sum windows at block (t, 0, 0). -/
theorem idx_facts : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = t.val ∧ win9_5.index t (1 : Fin 2) = 0
    ∧ win9_6.index t (0 : Fin 3) = t.val ∧ win9_6.index t (1 : Fin 3) = 0 ∧ win9_6.index t (2 : Fin 3) = 0
    ∧ win9_7.index t (0 : Fin 3) = t.val ∧ win9_7.index t (1 : Fin 3) = 0 ∧ win9_7.index t (2 : Fin 3) = 0 :=
  (by decide +kernel : ∀ t : Fin grid9.N, _)

/-- The node block at point t is rows 4000 t … 4000 t + 3999 of the node array. -/
theorem blk_x (c : Dev nD) (t : Fin cfg9.N) (p : Fin 4000) (k : Fin 128) :
    (iblk9 V c 0 t : S4000x128.Idx → EReal) (ix2 p k)
      = M.at2 (a := 20000) (b := 128) (V c (Pipeline.arrRef spec9 0)) (M.tileRow (tile t) p) k := by
  obtain ⟨e0, e1, -⟩ := idx_facts t
  unfold iblk9
  rw [View.read_apply]
  show (V c (Pipeline.arrRef spec9 0) : S20000x128.Idx → EReal) _ = (V c (Pipeline.arrRef spec9 0) : S20000x128.Idx → EReal) _
  congr 1
  funext a
  apply Fin.ext
  match a with
  | ⟨0, _⟩ => show win9_0.index t (0 : Fin 2) * 4000 + 1 * p.val = 4000 * t.val + p.val; rw [e0]; omega
  | ⟨1, _⟩ => show win9_0.index t (1 : Fin 2) * 128 + 1 * k.val = k.val; rw [e1]; omega

/-- The neighbour-sum block at point t is the same rows of the neighbour-sum array. -/
theorem blk_ng (c : Dev nD) (t : Fin cfg9.N) (p : Fin 4000) (k : Fin 128) :
    (iblk9 V c 1 t : S4000x128.Idx → EReal) (ix2 p k)
      = M.at2 (a := 20000) (b := 128) (V c (Pipeline.arrRef spec9 1)) (M.tileRow (tile t) p) k := by
  obtain ⟨-, -, e0, e1, -⟩ := idx_facts t
  unfold iblk9
  rw [View.read_apply]
  show (V c (Pipeline.arrRef spec9 1) : S20000x128.Idx → EReal) _ = (V c (Pipeline.arrRef spec9 1) : S20000x128.Idx → EReal) _
  congr 1
  funext a
  apply Fin.ext
  match a with
  | ⟨0, _⟩ => show win9_1.index t (0 : Fin 2) * 4000 + 1 * p.val = 4000 * t.val + p.val; rw [e0]; omega
  | ⟨1, _⟩ => show win9_1.index t (1 : Fin 2) * 128 + 1 * k.val = k.val; rw [e1]; omega

/-- The ε block at every point is the whole 1×1 array. -/
theorem blk_e (c : Dev nD) (t : Fin cfg9.N) :
    (iblk9 V c 2 t : S1x1.Idx → EReal) (ix2 0 0) = M.at2 (a := 1) (b := 1) (V c (Pipeline.arrRef spec9 2)) 0 0 := by
  obtain ⟨-, -, -, -, e0, e1, -⟩ := idx_facts t
  unfold iblk9
  rw [View.read_apply]
  show (V c (Pipeline.arrRef spec9 2) : S1x1.Idx → EReal) _ = (V c (Pipeline.arrRef spec9 2) : S1x1.Idx → EReal) _
  congr 1
  funext a
  apply Fin.ext
  match a with
  | ⟨0, _⟩ => show win9_2.index t (0 : Fin 2) * 1 + 1 * 0 = 0; rw [e0]
  | ⟨1, _⟩ => show win9_2.index t (1 : Fin 2) * 1 + 1 * 0 = 0; rw [e1]

/-- The weight block at every point is the whole weight array. -/
theorem blk_w (c : Dev nD) (t : Fin cfg9.N) (k q : Fin 128) :
    (iblk9 V c 3 t : S128x128.Idx → EReal) (ix2 k q) = M.at2 (a := 128) (b := 128) (V c (Pipeline.arrRef spec9 3)) k q := by
  obtain ⟨-, -, -, -, -, -, e0, e1, -⟩ := idx_facts t
  unfold iblk9
  rw [View.read_apply]
  show (V c (Pipeline.arrRef spec9 3) : S128x128.Idx → EReal) _ = (V c (Pipeline.arrRef spec9 3) : S128x128.Idx → EReal) _
  congr 1
  funext a
  apply Fin.ext
  match a with
  | ⟨0, _⟩ => show win9_3.index t (0 : Fin 2) * 128 + 1 * k.val = k.val; rw [e0]; omega
  | ⟨1, _⟩ => show win9_3.index t (1 : Fin 2) * 128 + 1 * q.val = q.val; rw [e1]; omega

/-- The bias block at every point is the whole 1×128 bias array. -/
theorem blk_b (c : Dev nD) (t : Fin cfg9.N) (q : Fin 128) :
    (iblk9 V c 4 t : S1x128.Idx → EReal) (ix2 0 q) = M.at2 (a := 1) (b := 128) (V c (Pipeline.arrRef spec9 4)) 0 q := by
  obtain ⟨-, -, -, -, -, -, -, -, e0, e1, -⟩ := idx_facts t
  unfold iblk9
  rw [View.read_apply]
  show (V c (Pipeline.arrRef spec9 4) : S1x128.Idx → EReal) _ = (V c (Pipeline.arrRef spec9 4) : S1x128.Idx → EReal) _
  congr 1
  funext a
  apply Fin.ext
  match a with
  | ⟨0, _⟩ => show win9_4.index t (0 : Fin 2) * 1 + 1 * 0 = 0; rw [e0]
  | ⟨1, _⟩ => show win9_4.index t (1 : Fin 2) * 128 + 1 * q.val = q.val; rw [e1]; omega

/-- The body's value on the blocks of point t, at (p, q), is the first linear map of the arrays at row 4000 t + p. -/
theorem pay1_blk (c : Dev nD) (t : Fin cfg9.N) (p : Fin 4000) (q : Fin 128) :
    k9_pay1 (F := Ideal) (iblk9 V c 2 t) (iblk9 V c 0 t) (iblk9 V c 1 t) (iblk9 V c 3 t) (iblk9 V c 4 t) (ix2 p q)
      = linA V c (M.tileRow (tile t) p) q := by
  refine (pay1_apply (iblk9 V c 2 t) (iblk9 V c 0 t) (iblk9 V c 1 t) (iblk9 V c 3 t) (iblk9 V c 4 t) p q).trans ?_
  unfold linA M.lin M.affine M.mm
  refine congrArg₂ (fun a b : EReal => a + b) (Finset.sum_congr rfl fun k _ => ?_) (blk_b V c t q)
  refine congrArg₂ (fun a b : EReal => a * b) ?_ (blk_w V c t k q)
  refine congrArg₂ (fun a b : EReal => a + b) ?_ (blk_ng V c t p k)
  refine congrArg₂ (fun a b : EReal => a * b) ?_ (blk_x V c t p k)
  exact congrArg (fun a : EReal => M.c1 + a) (blk_e V c t)

/-! ### Output window 5: the first linear map -/

/-- What point t writes back is block t of the first linear map of the input arrays. -/
theorem flushed5 (c : Dev nD) (t : Fin cfg9.N) :
    (dat9 (F := Ideal) V c).flushed 5 t = ((cfg9.win 5).blk t).view.read (Elt Ideal) (M.mk2 (linA V c)) := by
  show (cfg9.win 5).cut (grid9.coords t) ((dat9 V c).after 5 t) = _
  rw [after9_5]
  unfold out9_5
  rw [View.canon_unit_zero hz2]
  simp only [View.ld_unit_zero (S := S1x1) hz2, View.ld_unit_zero (S := S4000x128) hz2,
    View.ld_unit_zero (S := S128x128) hz2, View.ld_unit_zero (S := S1x128) hz2]
  obtain ⟨-, -, -, -, -, -, -, -, -, -, e0, e1, -⟩ := idx_facts t
  funext j
  obtain ⟨p, q, rfl⟩ : ∃ (p : Fin 4000) (q : Fin 128), j = ix2 p q := ⟨j 0, j 1, eq_ix2 j⟩
  rw [View.read_apply]
  show k9_pay1 (F := Ideal) (iblk9 V c 2 t) (iblk9 V c 0 t) (iblk9 V c 1 t) (iblk9 V c 3 t) (iblk9 V c 4 t) (ix2 p q)
    = linA V c ((((cfg9.win 5).blk t).view.emb (ix2 p q)) 0) ((((cfg9.win 5).blk t).view.emb (ix2 p q)) 1)
  refine (pay1_blk V c t p q).trans ?_
  refine congrArg₂ (linA V c) (Fin.ext ?_) (Fin.ext ?_)
  · show 4000 * t.val + p.val = win9_5.index t (0 : Fin 2) * 4000 + 1 * p.val; rw [e0]; omega
  · show q.val = win9_5.index t (1 : Fin 2) * 128 + 1 * q.val; rw [e1]; omega

/-- An index of the array is in point t's block iff each coordinate is in the block's range on its axis. -/
theorem mem_blk5 (t : Fin cfg9.N) (i : S20000x128.Idx) :
    i ∈ ((cfg9.win 5).blk t).view.set ↔ ∀ a : Fin 2, win9_5.index t a * S4000x128.size a ≤ (i a).val
      ∧ (i a).val < win9_5.index t a * S4000x128.size a + S4000x128.size a := by
  show i ∈ ((View.whole main_v322_0).slice (win9_5.rect t)).set ↔ _
  rw [View.set_slice_whole, Rect.mem_set_unit]
  exact Iff.rfl

/-- Row r is in the block of point r / 4000. -/
theorem cover5 (i : S20000x128.Idx) :
    ∃ t : Fin cfg9.N, (cfg9.win 5).flush t = true ∧ i ∈ ((cfg9.win 5).blk t).view.set := by
  have hi0 : (i 0).val < 20000 := (i 0).isLt
  have hi1 : (i 1).val < 128 := (i 1).isLt
  obtain ⟨t, ht⟩ : ∃ t : Fin cfg9.N, t.val = (i 0).val / 4000 :=
    ⟨⟨(i 0).val / 4000, by rw [show cfg9.N = 5 from N_9]; omega⟩, rfl⟩
  obtain ⟨-, -, -, -, -, -, -, -, -, -, e0, e1, -⟩ := idx_facts t
  refine ⟨t, flush9_5 t, ?_⟩
  rw [mem_blk5]
  intro a
  match a with
  | ⟨0, _⟩ =>
    show win9_5.index t (0 : Fin 2) * 4000 ≤ (i 0).val ∧ (i 0).val < win9_5.index t (0 : Fin 2) * 4000 + 4000
    rw [e0, ht]; omega
  | ⟨1, _⟩ =>
    show win9_5.index t (1 : Fin 2) * 128 ≤ (i 1).val ∧ (i 1).val < win9_5.index t (1 : Fin 2) * 128 + 128
    rw [e1]; omega

/-- THE FIRST OUTPUT ARRAY after the region: the first linear map of the input arrays. -/
theorem arr9_5 (c : Dev nD) :
    (dat9 (F := Ideal) V c).arrAt 5 cfg9.N = M.mk2 (linA V c) :=
  (dat9 (F := Ideal) V c).arrAt_eq_of_cover 5 (M.mk2 (linA V c)) (fun t _ => flushed5 V c t) cover5

/-! ### Output windows 6 and 7: the tiles' column sums, of the values and of their squares -/

/-- An index of a partial-sum array is in point t's block iff each coordinate is in the block's range on its axis. -/
theorem mem_blk6 (t : Fin cfg9.N) (i : S5x8x128.Idx) :
    i ∈ ((cfg9.win 6).blk t).view.set ↔ ∀ a : Fin 3, win9_6.index t a * S1x8x128.size a ≤ (i a).val
      ∧ (i a).val < win9_6.index t a * S1x8x128.size a + S1x8x128.size a := by
  show i ∈ ((View.whole main_v322_1).slice (win9_6.rect t)).set ↔ _
  rw [View.set_slice_whole, Rect.mem_set_unit]
  exact Iff.rfl

theorem mem_blk7 (t : Fin cfg9.N) (i : S5x8x128.Idx) :
    i ∈ ((cfg9.win 7).blk t).view.set ↔ ∀ a : Fin 3, win9_7.index t a * S1x8x128.size a ≤ (i a).val
      ∧ (i a).val < win9_7.index t a * S1x8x128.size a + S1x8x128.size a := by
  show i ∈ ((View.whole main_v322_2).slice (win9_7.rect t)).set ↔ _
  rw [View.set_slice_whole, Rect.mem_set_unit]
  exact Iff.rfl

/-- Tile u's eight rows are the block of point u. -/
theorem cover6 (i : S5x8x128.Idx) :
    ∃ t : Fin cfg9.N, (cfg9.win 6).flush t = true ∧ i ∈ ((cfg9.win 6).blk t).view.set := by
  have hi0 : (i 0).val < 5 := (i 0).isLt
  have hi1 : (i 1).val < 8 := (i 1).isLt
  have hi2 : (i 2).val < 128 := (i 2).isLt
  obtain ⟨t, ht⟩ : ∃ t : Fin cfg9.N, t.val = (i 0).val :=
    ⟨⟨(i 0).val, by rw [show cfg9.N = 5 from N_9]; omega⟩, rfl⟩
  obtain ⟨-, -, -, -, -, -, -, -, -, -, -, -, e0, e1, e2, -⟩ := idx_facts t
  refine ⟨t, flush9_6 t, ?_⟩
  rw [mem_blk6]
  intro a
  match a with
  | ⟨0, _⟩ =>
    show win9_6.index t (0 : Fin 3) * 1 ≤ (i 0).val ∧ (i 0).val < win9_6.index t (0 : Fin 3) * 1 + 1
    rw [e0, ht]; omega
  | ⟨1, _⟩ =>
    show win9_6.index t (1 : Fin 3) * 8 ≤ (i 1).val ∧ (i 1).val < win9_6.index t (1 : Fin 3) * 8 + 8
    rw [e1]; omega
  | ⟨2, _⟩ =>
    show win9_6.index t (2 : Fin 3) * 128 ≤ (i 2).val ∧ (i 2).val < win9_6.index t (2 : Fin 3) * 128 + 128
    rw [e2]; omega

theorem cover7 (i : S5x8x128.Idx) :
    ∃ t : Fin cfg9.N, (cfg9.win 7).flush t = true ∧ i ∈ ((cfg9.win 7).blk t).view.set := by
  have hi0 : (i 0).val < 5 := (i 0).isLt
  have hi1 : (i 1).val < 8 := (i 1).isLt
  have hi2 : (i 2).val < 128 := (i 2).isLt
  obtain ⟨t, ht⟩ : ∃ t : Fin cfg9.N, t.val = (i 0).val :=
    ⟨⟨(i 0).val, by rw [show cfg9.N = 5 from N_9]; omega⟩, rfl⟩
  obtain ⟨-, -, -, -, -, -, -, -, -, -, -, -, -, -, -, e0, e1, e2⟩ := idx_facts t
  refine ⟨t, flush9_7 t, ?_⟩
  rw [mem_blk7]
  intro a
  match a with
  | ⟨0, _⟩ =>
    show win9_7.index t (0 : Fin 3) * 1 ≤ (i 0).val ∧ (i 0).val < win9_7.index t (0 : Fin 3) * 1 + 1
    rw [e0, ht]; omega
  | ⟨1, _⟩ =>
    show win9_7.index t (1 : Fin 3) * 8 ≤ (i 1).val ∧ (i 1).val < win9_7.index t (1 : Fin 3) * 8 + 8
    rw [e1]; omega
  | ⟨2, _⟩ =>
    show win9_7.index t (2 : Fin 3) * 128 ≤ (i 2).val ∧ (i 2).val < win9_7.index t (2 : Fin 3) * 128 + 128
    rw [e2]; omega

/-- What point t writes back to the second output is block t of the tiles' column sums. -/
theorem flushed6 (c : Dev nD) (t : Fin cfg9.N) :
    (dat9 (F := Ideal) V c).flushed 6 t = ((cfg9.win 6).blk t).view.read (Elt Ideal) (M.mk3 (M.sumT (linA V c))) := by
  show (cfg9.win 6).cut (grid9.coords t) ((dat9 V c).after 6 t) = _
  rw [after9_6]
  unfold out9_6
  rw [View.canon_unit_zero hz3]
  simp only [View.ld_unit_zero (S := S1x1) hz2, View.ld_unit_zero (S := S4000x128) hz2,
    View.ld_unit_zero (S := S128x128) hz2, View.ld_unit_zero (S := S1x128) hz2]
  obtain ⟨-, -, -, -, -, -, -, -, -, -, -, -, e0, e1, e2, -⟩ := idx_facts t
  funext j
  obtain ⟨u, s, q, rfl⟩ : ∃ (u : Fin 1) (s : Fin 8) (q : Fin 128), j = ix3 u s q := ⟨j 0, j 1, j 2, eq_ix3 j⟩
  rw [View.read_apply]
  show k9_pay3 (F := Ideal) (iblk9 V c 2 t) (iblk9 V c 0 t) (iblk9 V c 1 t) (iblk9 V c 3 t) (iblk9 V c 4 t) (ix3 u s q)
    = ∑ r : Fin 4000, linA V c (M.tileRow ((((cfg9.win 6).blk t).view.emb (ix3 u s q)) 0) r) ((((cfg9.win 6).blk t).view.emb (ix3 u s q)) 2)
  refine (pay3_apply (iblk9 V c 2 t) (iblk9 V c 0 t) (iblk9 V c 1 t) (iblk9 V c 3 t) (iblk9 V c 4 t) u s q).trans ?_
  refine Finset.sum_congr rfl fun r _ => (pay1_blk V c t r q).trans ?_
  have hu : u.val = 0 := by omega
  refine congrArg₂ (linA V c) (congrArg (fun z : Fin 5 => M.tileRow z r) (Fin.ext ?_)) (Fin.ext ?_)
  · show t.val = win9_6.index t (0 : Fin 3) * 1 + 1 * u.val; rw [e0, hu]; omega
  · show q.val = win9_6.index t (2 : Fin 3) * 128 + 1 * q.val; rw [e2]; omega

/-- What point t writes back to the third output is block t of the tiles' column sums of squares. -/
theorem flushed7 (c : Dev nD) (t : Fin cfg9.N) :
    (dat9 (F := Ideal) V c).flushed 7 t = ((cfg9.win 7).blk t).view.read (Elt Ideal) (M.mk3 (M.sumsqT (linA V c))) := by
  show (cfg9.win 7).cut (grid9.coords t) ((dat9 V c).after 7 t) = _
  rw [after9_7]
  unfold out9_7
  rw [View.canon_unit_zero hz3]
  simp only [View.ld_unit_zero (S := S1x1) hz2, View.ld_unit_zero (S := S4000x128) hz2,
    View.ld_unit_zero (S := S128x128) hz2, View.ld_unit_zero (S := S1x128) hz2]
  obtain ⟨-, -, -, -, -, -, -, -, -, -, -, -, -, -, -, e0, e1, e2⟩ := idx_facts t
  funext j
  obtain ⟨u, s, q, rfl⟩ : ∃ (u : Fin 1) (s : Fin 8) (q : Fin 128), j = ix3 u s q := ⟨j 0, j 1, j 2, eq_ix3 j⟩
  rw [View.read_apply]
  show k9_pay4 (F := Ideal) (iblk9 V c 2 t) (iblk9 V c 0 t) (iblk9 V c 1 t) (iblk9 V c 3 t) (iblk9 V c 4 t) (ix3 u s q)
    = ∑ r : Fin 4000, linA V c (M.tileRow ((((cfg9.win 7).blk t).view.emb (ix3 u s q)) 0) r) ((((cfg9.win 7).blk t).view.emb (ix3 u s q)) 2)
        * linA V c (M.tileRow ((((cfg9.win 7).blk t).view.emb (ix3 u s q)) 0) r) ((((cfg9.win 7).blk t).view.emb (ix3 u s q)) 2)
  refine (pay4_apply (iblk9 V c 2 t) (iblk9 V c 0 t) (iblk9 V c 1 t) (iblk9 V c 3 t) (iblk9 V c 4 t) u s q).trans ?_
  have hu : u.val = 0 := by omega
  have h0 : tile t = (((cfg9.win 7).blk t).view.emb (ix3 u s q)) 0 :=
    Fin.ext (by show t.val = win9_7.index t (0 : Fin 3) * 1 + 1 * u.val; rw [e0, hu]; omega)
  have h2 : q = (((cfg9.win 7).blk t).view.emb (ix3 u s q)) 2 :=
    Fin.ext (by show q.val = win9_7.index t (2 : Fin 3) * 128 + 1 * q.val; rw [e2]; omega)
  refine Finset.sum_congr rfl fun r _ => ?_
  have hr := (pay1_blk V c t r q).trans
    (congrArg₂ (linA V c) (congrArg (fun z : Fin 5 => M.tileRow z r) h0) h2)
  exact congrArg₂ (fun a b : EReal => a * b) hr hr

/-- THE SECOND OUTPUT ARRAY after the region: each tile's column sums of the first linear map, in each of eight rows. -/
theorem arr9_6 (c : Dev nD) :
    (dat9 (F := Ideal) V c).arrAt 6 cfg9.N = M.mk3 (M.sumT (linA V c)) :=
  (dat9 (F := Ideal) V c).arrAt_eq_of_cover 6 (M.mk3 (M.sumT (linA V c))) (fun t _ => flushed6 V c t) cover6

/-- THE THIRD OUTPUT ARRAY after the region: each tile's column sums of its squares, in each of eight rows. -/
theorem arr9_7 (c : Dev nD) :
    (dat9 (F := Ideal) V c).arrAt 7 cfg9.N = M.mk3 (M.sumsqT (linA V c)) :=
  (dat9 (F := Ideal) V c).arrAt_eq_of_cover 7 (M.mk3 (M.sumsqT (linA V c))) (fun t _ => flushed7 V c t) cover7

end Cert.RegA9

end
-- ==== Proof.RegB10.lean ====
/-
  Region 10, the second linear map of layer 2: what each of its three output arrays holds when the region ends, as a
  function of the seven arrays the region finds on entry.

  The body normalises and rectifies a block of 4000 rows of the first linear map's value with the given column
  statistics, scale and shift, multiplies by the weight, adds the bias, and stores the block; it also stores the
  block's column sums and column sums of squares, each copied into eight rows. The grid's five points tile the
  20000 rows, so the first output is the whole second linear map, and the other two are its per-tile sums.

  First the body's operations are read at an index; then a block's value is stated over the whole arrays; then each
  point's write-back is a block of one whole-array function, and the blocks cover the array.
-/
import proofs.«416875_j80633716015165_3_alg».proof.Proof.Spec
import proofs.«416875_j80633716015165_3_alg».proof.Proof.FrameKI
import Idealize.ShloMosaic.PureOps.Ideal.Laws
import Idealize.ShloMosaic.Lib.ValueIdx
import Idealize.ShloMosaic.Lib.Pipeline.Value

set_option maxRecDepth 16384

noncomputable section

open Idealize.ShloMosaic Idealize.ShloMosaic.ValueIdx Idealize.ShloMosaic.TcCoe Idealize.SL.Sem
open Idealize.ShloMosaic.Pipeline (Dat)

namespace Cert.RegB10

open Cert.KernelIdeal Cert.KernelIdeal.Gen

/-! ## The body's layout operations, read at an index -/

/-- A row vector broadcast over the block's rows reads its column. -/
theorem bcastRow_apply {α : Type} (x : S1x128.Idx → α) (h : S1x128.Broadcasts S4000x128) (r : Fin 4000) (j : Fin 128) :
    broadcastTo S4000x128 x h (ix2 r j) = x (ix2 0 j) :=
  broadcastTo_apply x h (ix2 r j) (ix2 0 j) fun a => by
    match a with
    | ⟨0, _⟩ => rfl
    | ⟨1, _⟩ => rfl

/-- A [1,1,128] block broadcast over eight rows reads its column. -/
theorem bcastEight_apply {α : Type} (x : S1x1x128.Idx → α) (h : S1x1x128.Broadcasts S1x8x128) (p : Fin 1) (q : Fin 8)
    (j : Fin 128) : broadcastTo S1x8x128 x h (ix3 p q j) = x (ix3 0 0 j) :=
  broadcastTo_apply x h (ix3 p q j) (ix3 0 0 j) fun a => by
    match a with
    | ⟨0, _⟩ => rfl
    | ⟨1, _⟩ => rfl
    | ⟨2, _⟩ => rfl

/-- A [128] vector viewed as one row reads its column. -/
theorem castRow_apply {α : Type} (x : S128.Idx → α) (h : S128.ShapeCasts S1x128) (j : Fin 128) :
    shapeCast S1x128 x h (ix2 0 j) = x (ix1 j) :=
  shapeCast_apply x h (ix2 0 j) (ix1 j) (by
    rw [Shape.rowMajor_val_one, Shape.rowMajor_val_two]
    show j.val = 0 * 128 + j.val
    omega)

/-- One row viewed as a [1,1,128] block reads its column. -/
theorem castBlk_apply {α : Type} (x : S1x128.Idx → α) (h : S1x128.ShapeCasts S1x1x128) (j : Fin 128) :
    shapeCast S1x1x128 x h (ix3 0 0 j) = x (ix2 0 j) :=
  shapeCast_apply x h (ix3 0 0 j) (ix2 0 j) (by
    rw [Shape.rowMajor_val_two, Shape.rowMajor_val_three]
    show 0 * 128 + j.val = (0 * 1 + 0) * 128 + j.val
    omega)

/-- The body's `rsqrt` at an index. -/
theorem rsqrt_apply {s : Shape} {φ : FTy} (a : FVec Ideal s φ) (i : s.Idx) : rsqrt a i = Ideal.rsqrt (a i) := rfl

/-! ## The column sum over a block's rows -/

/-- The sum over axis 0 of a [4000,128] block at column `j` is the sum of that column's 4000 entries. -/
theorem colSum_apply (src : FVec Ideal S4000x128 .f32) (h : S4000x128.Reduces [0] S128) (hφ : FKind.Formats FTy.f32)
    (hacc : (0x00000000#32 : BitVec 32) = 0x00000000#32) (j : Fin 128) :
    multiReduction (F := Ideal) .add [0] S128 src 0x00000000#32 h hφ hacc (ix1 j) = ∑ r : Fin 4000, src (ix2 r j) := by
  refine (Ideal.multiReduction_add_single src 0x00000000#32 h hφ hacc (ix1 j)).trans ?_
  show ∑ k : Fin 4000, src (h.lift (ix1 j) k) = _
  refine Finset.sum_congr rfl fun k _ => congrArg src ?_
  funext a
  apply Fin.ext
  match a with
  | ⟨0, _⟩ => rfl
  | ⟨1, _⟩ => rfl

/-! ## The matrix product of a block with the weight -/

theorem lhs_mm_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl
theorem lhs_mm_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_mm_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_mm_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-- The product into the zero accumulator at `(r, j)` is the sum over the 128 contracted coordinates. -/
theorem mm_apply (x : FVec Ideal S4000x128 .bf16) (w : FVec Ideal S128x128 .bf16) (r : Fin 4000) (j : Fin 128) :
    (matmul (F := Ideal) dot_S4000x128_S128x128_S4000x128_1_0_0_1_n_n none x w (constant (F := Ideal) S4000x128 .f32 0x00000000#32) (ix2 r j) : EReal)
      = ∑ t : Fin 128, (x (ix2 r t) : EReal) * (w (ix2 t j) : EReal) := by
  refine (Ideal.matmul_constant_zero_apply dot_S4000x128_S128x128_S4000x128_1_0_0_1_n_n none x w (ix2 r j)).trans ?_
  rw [← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 r j) ((contrEquiv1 dot_S4000x128_S128x128_S4000x128_1_0_0_1_n_n 128 rfl rfl).symm k) = ix2 r k :=
    funext fun a => Fin.ext (by
      match a with
      | ⟨0, _⟩ => exact lhs_mm_0 _ _
      | ⟨1, _⟩ => exact (lhs_mm_1 _ _).trans hk)
  have er : dot_S4000x128_S128x128_S4000x128_1_0_0_1_n_n.rhsIdx (ix2 r j) ((contrEquiv1 dot_S4000x128_S128x128_S4000x128_1_0_0_1_n_n 128 rfl rfl).symm k) = ix2 k j :=
    funext fun a => Fin.ext (by
      match a with
      | ⟨0, _⟩ => exact (rhs_mm_0 _ _).trans hk
      | ⟨1, _⟩ => exact rhs_mm_1 _ _)
  rw [el, er]

/-! ## The body's value at an index -/

/-- The second linear map on the normalised, rectified block, entry `(r, j)`: the payload's arguments in the order the
    body loads them (the block, the variance row, the mean row, scale, shift, weight, bias). -/
theorem pay3_apply (x0 : FVec Ideal S4000x128 .bf16) (xv xm xg xb : FVec Ideal S1x128 .f32) (xw : FVec Ideal S128x128 .f32)
    (xc : FVec Ideal S1x128 .f32) (r : Fin 4000) (j : Fin 128) :
    (Gen.k10_pay3 (F := Ideal) x0 xv xm xg xb xw xc (ix2 r j) : EReal)
      = (∑ t : Fin 128, max (((x0 (ix2 r t) : EReal) - (xm (ix2 0 t) : EReal))
              * Ideal.rsqrt ((xv (ix2 0 t) : EReal) + Ideal.ofBits .f32 0x3727C5AC#32)
            * (xg (ix2 0 t) : EReal) + (xb (ix2 0 t) : EReal)) (Ideal.ofBits .f32 0x00000000#32) * (xw (ix2 t j) : EReal))
        + (xc (ix2 0 j) : EReal) := by
  unfold Gen.k10_pay3
  simp only [shapeCast_self]
  rw [addf_apply, bcastRow_apply, mm_apply]
  simp only [truncf_apply, maximumf_apply, addf_apply, mulf_apply, subf_apply, extf_apply, bcastRow_apply, broadcast_apply,
    rsqrt_apply]
  rfl

/-! ## A block's value over the whole arrays -/

/-- The second linear map on the normalised, rectified rows: the block of tile `p`, when the loaded blocks are the rows of
    tile `p` of `A1` and the whole parameter arrays. -/
theorem pay3_blk (x0 : FVec Ideal S4000x128 .bf16) (xv xm xg xb : FVec Ideal S1x128 .f32) (xw : FVec Ideal S128x128 .f32)
    (xc : FVec Ideal S1x128 .f32) (A1 : Fin 20000 → Fin 128 → EReal) (mean var g b : Fin 128 → EReal)
    (w2 : Fin 128 → Fin 128 → EReal) (b2 : Fin 128 → EReal) (p : Fin 5)
    (h0 : ∀ r t, (x0 (ix2 r t) : EReal) = A1 (M.tileRow p r) t) (hv : ∀ t, (xv (ix2 0 t) : EReal) = var t)
    (hm : ∀ t, (xm (ix2 0 t) : EReal) = mean t) (hg : ∀ t, (xg (ix2 0 t) : EReal) = g t)
    (hb : ∀ t, (xb (ix2 0 t) : EReal) = b t) (hw : ∀ t j, (xw (ix2 t j) : EReal) = w2 t j)
    (hc : ∀ j, (xc (ix2 0 j) : EReal) = b2 j) (r : Fin 4000) (j : Fin 128) :
    (Gen.k10_pay3 (F := Ideal) x0 xv xm xg xb xw xc (ix2 r j) : EReal) = M.affine (M.bnrelu A1 mean var g b) w2 b2 (M.tileRow p r) j := by
  rw [pay3_apply]
  simp only [h0, hv, hm, hg, hb, hw, hc]
  rfl

/-- The stored block (the same value, narrowed). -/
theorem pay4_blk (x0 : FVec Ideal S4000x128 .bf16) (xv xm xg xb : FVec Ideal S1x128 .f32) (xw : FVec Ideal S128x128 .f32)
    (xc : FVec Ideal S1x128 .f32) (A1 : Fin 20000 → Fin 128 → EReal) (mean var g b : Fin 128 → EReal)
    (w2 : Fin 128 → Fin 128 → EReal) (b2 : Fin 128 → EReal) (p : Fin 5)
    (h0 : ∀ r t, (x0 (ix2 r t) : EReal) = A1 (M.tileRow p r) t) (hv : ∀ t, (xv (ix2 0 t) : EReal) = var t)
    (hm : ∀ t, (xm (ix2 0 t) : EReal) = mean t) (hg : ∀ t, (xg (ix2 0 t) : EReal) = g t)
    (hb : ∀ t, (xb (ix2 0 t) : EReal) = b t) (hw : ∀ t j, (xw (ix2 t j) : EReal) = w2 t j)
    (hc : ∀ j, (xc (ix2 0 j) : EReal) = b2 j) (y : S4000x128.Idx) :
    (Gen.k10_pay4 (F := Ideal) x0 xv xm xg xb xw xc y : EReal) = M.affine (M.bnrelu A1 mean var g b) w2 b2 (M.tileRow p (y 0)) (y 1) := by
  obtain ⟨r, j, rfl⟩ : ∃ (r : Fin 4000) (j : Fin 128), y = ix2 r j := ⟨y 0, y 1, eq_ix2 y⟩
  unfold Gen.k10_pay4
  rw [truncf_apply]
  exact pay3_blk x0 xv xm xg xb xw xc A1 mean var g b w2 b2 p h0 hv hm hg hb hw hc r j

/-- The stored column sums of the block, copied into eight rows. -/
theorem pay1_blk (x0 : FVec Ideal S4000x128 .bf16) (xv xm xg xb : FVec Ideal S1x128 .f32) (xw : FVec Ideal S128x128 .f32)
    (xc : FVec Ideal S1x128 .f32) (A1 : Fin 20000 → Fin 128 → EReal) (mean var g b : Fin 128 → EReal)
    (w2 : Fin 128 → Fin 128 → EReal) (b2 : Fin 128 → EReal) (p : Fin 5)
    (h0 : ∀ r t, (x0 (ix2 r t) : EReal) = A1 (M.tileRow p r) t) (hv : ∀ t, (xv (ix2 0 t) : EReal) = var t)
    (hm : ∀ t, (xm (ix2 0 t) : EReal) = mean t) (hg : ∀ t, (xg (ix2 0 t) : EReal) = g t)
    (hb : ∀ t, (xb (ix2 0 t) : EReal) = b t) (hw : ∀ t j, (xw (ix2 t j) : EReal) = w2 t j)
    (hc : ∀ j, (xc (ix2 0 j) : EReal) = b2 j) (y : S1x8x128.Idx) :
    (Gen.k10_pay1 (F := Ideal) (Gen.k10_pay5 (F := Ideal) x0 xv xm xg xb xw xc) y : EReal)
      = M.sumT (M.affine (M.bnrelu A1 mean var g b) w2 b2) p (y 1) (y 2) := by
  obtain ⟨u, q, j, rfl⟩ : ∃ (u : Fin 1) (q : Fin 8) (j : Fin 128), y = ix3 u q j := ⟨y 0, y 1, y 2, eq_ix3 y⟩
  unfold M.sumT Gen.k10_pay1 Gen.k10_pay5
  simp only [shapeCast_self]
  rw [bcastEight_apply, castBlk_apply, castRow_apply, colSum_apply]
  exact Finset.sum_congr rfl fun r _ => pay3_blk x0 xv xm xg xb xw xc A1 mean var g b w2 b2 p h0 hv hm hg hb hw hc r j

/-- The stored column sums of squares of the block, copied into eight rows. -/
theorem pay2_blk (x0 : FVec Ideal S4000x128 .bf16) (xv xm xg xb : FVec Ideal S1x128 .f32) (xw : FVec Ideal S128x128 .f32)
    (xc : FVec Ideal S1x128 .f32) (A1 : Fin 20000 → Fin 128 → EReal) (mean var g b : Fin 128 → EReal)
    (w2 : Fin 128 → Fin 128 → EReal) (b2 : Fin 128 → EReal) (p : Fin 5)
    (h0 : ∀ r t, (x0 (ix2 r t) : EReal) = A1 (M.tileRow p r) t) (hv : ∀ t, (xv (ix2 0 t) : EReal) = var t)
    (hm : ∀ t, (xm (ix2 0 t) : EReal) = mean t) (hg : ∀ t, (xg (ix2 0 t) : EReal) = g t)
    (hb : ∀ t, (xb (ix2 0 t) : EReal) = b t) (hw : ∀ t j, (xw (ix2 t j) : EReal) = w2 t j)
    (hc : ∀ j, (xc (ix2 0 j) : EReal) = b2 j) (y : S1x8x128.Idx) :
    (Gen.k10_pay2 (F := Ideal) (Gen.k10_pay3 (F := Ideal) x0 xv xm xg xb xw xc) y : EReal)
      = M.sumsqT (M.affine (M.bnrelu A1 mean var g b) w2 b2) p (y 1) (y 2) := by
  obtain ⟨u, q, j, rfl⟩ : ∃ (u : Fin 1) (q : Fin 8) (j : Fin 128), y = ix3 u q j := ⟨y 0, y 1, y 2, eq_ix3 y⟩
  unfold M.sumsqT M.sumT Gen.k10_pay2
  simp only [shapeCast_self]
  rw [bcastEight_apply, castBlk_apply, castRow_apply, colSum_apply]
  refine Finset.sum_congr rfl fun r _ => ?_
  rw [mulf_apply, pay3_blk x0 xv xm xg xb xw xc A1 mean var g b w2 b2 p h0 hv hm hg hb hw hc r j]

/-! ## The region's arrays on entry, and its value -/

variable (V : (c : Dev nD) → (b : Ref sig .tc) → Buf (Elt Ideal) ((c : Thread nD τ).loc b))

/-- The second linear map on the normalised, rectified first linear map's value, from the region's seven input arrays
    (the value, its column means and variances, the scale and shift, the weight, the bias). -/
abbrev val (c : Dev nD) : Fin 20000 → Fin 128 → EReal :=
  M.affine (M.bnrelu (M.at2 (V c (Pipeline.arrRef spec10 0)))
      (fun j => M.at2 (V c (Pipeline.arrRef spec10 1)) 0 j)
      (fun j => M.at2 (V c (Pipeline.arrRef spec10 2)) 0 j)
      (fun j => M.at2 (V c (Pipeline.arrRef spec10 3)) 0 j)
      (fun j => M.at2 (V c (Pipeline.arrRef spec10 4)) 0 j))
    (M.at2 (V c (Pipeline.arrRef spec10 5)))
    (fun j => M.at2 (V c (Pipeline.arrRef spec10 6)) 0 j)

theorem hz2 : (![0, 0] : Fin 2 → Nat) = fun _ => 0 := funext fun a => by
  match a with
  | ⟨0, _⟩ => rfl
  | ⟨1, _⟩ => rfl
theorem hz3 : (![0, 0, 0] : Fin 3 → Nat) = fun _ => 0 := funext fun a => by
  match a with
  | ⟨0, _⟩ => rfl
  | ⟨1, _⟩ => rfl
  | ⟨2, _⟩ => rfl

/-- A function of three coordinates at equal coordinates. -/
theorem congr3 {α β γ δ : Type} (f : α → β → γ → δ) {a a' : α} {b b' : β} {c c' : γ} (ha : a = a') (hb : b = b')
    (hc : c = c') : f a b c = f a' b' c' := by
  subst ha; subst hb; subst hc; rfl

/-! ## The printed index maps, decided over the grid's five points

The row-block windows sit at the point's own block, the parameter windows at block zero. -/

theorem idx_0 : ∀ t : Fin cfg10.N, win10_0.index t (0 : Fin 2) = t.val ∧ win10_0.index t (1 : Fin 2) = 0 :=
  (by decide +kernel : ∀ t : Fin grid10.N, _)
theorem idx_1 : ∀ t : Fin cfg10.N, win10_1.index t (0 : Fin 2) = 0 ∧ win10_1.index t (1 : Fin 2) = 0 :=
  (by decide +kernel : ∀ t : Fin grid10.N, _)
theorem idx_2 : ∀ t : Fin cfg10.N, win10_2.index t (0 : Fin 2) = 0 ∧ win10_2.index t (1 : Fin 2) = 0 :=
  (by decide +kernel : ∀ t : Fin grid10.N, _)
theorem idx_3 : ∀ t : Fin cfg10.N, win10_3.index t (0 : Fin 2) = 0 ∧ win10_3.index t (1 : Fin 2) = 0 :=
  (by decide +kernel : ∀ t : Fin grid10.N, _)
theorem idx_4 : ∀ t : Fin cfg10.N, win10_4.index t (0 : Fin 2) = 0 ∧ win10_4.index t (1 : Fin 2) = 0 :=
  (by decide +kernel : ∀ t : Fin grid10.N, _)
theorem idx_5 : ∀ t : Fin cfg10.N, win10_5.index t (0 : Fin 2) = 0 ∧ win10_5.index t (1 : Fin 2) = 0 :=
  (by decide +kernel : ∀ t : Fin grid10.N, _)
theorem idx_6 : ∀ t : Fin cfg10.N, win10_6.index t (0 : Fin 2) = 0 ∧ win10_6.index t (1 : Fin 2) = 0 :=
  (by decide +kernel : ∀ t : Fin grid10.N, _)
theorem idx_7 : ∀ t : Fin cfg10.N, win10_7.index t (0 : Fin 2) = t.val ∧ win10_7.index t (1 : Fin 2) = 0 :=
  (by decide +kernel : ∀ t : Fin grid10.N, _)
theorem idx_8 : ∀ t : Fin cfg10.N,
    win10_8.index t (0 : Fin 3) = t.val ∧ win10_8.index t (1 : Fin 3) = 0 ∧ win10_8.index t (2 : Fin 3) = 0 :=
  (by decide +kernel : ∀ t : Fin grid10.N, _)
theorem idx_9 : ∀ t : Fin cfg10.N,
    win10_9.index t (0 : Fin 3) = t.val ∧ win10_9.index t (1 : Fin 3) = 0 ∧ win10_9.index t (2 : Fin 3) = 0 :=
  (by decide +kernel : ∀ t : Fin grid10.N, _)

/-- A grid point as a tile number. -/
abbrev tile (t : Fin cfg10.N) : Fin 5 := Fin.cast N_10 t
/-- A tile number as a grid point. -/
abbrev pt (n : Nat) (h : n < 5) : Fin cfg10.N := ⟨n, by rw [show cfg10.N = 5 from N_10]; exact h⟩

/-! ## The input windows' blocks, read off the whole arrays -/

/-- The row-block window at point `t` holds the rows of tile `t`. -/
theorem iblk_0_apply (c : Dev nD) (t : Fin cfg10.N) (r : Fin 4000) (j : Fin 128) :
    ((iblk10 (F := Ideal) V c 0 t : FVec Ideal S4000x128 .bf16) (ix2 r j) : EReal)
      = M.at2 (V c (Pipeline.arrRef spec10 0)) (M.tileRow (tile t) r) j := by
  obtain ⟨e0, e1⟩ := idx_0 t
  unfold iblk10
  rw [View.read_apply]
  show V c (Pipeline.arrRef spec10 0) _ = V c (Pipeline.arrRef spec10 0) _
  congr 1
  funext a
  apply Fin.ext
  match a with
  | ⟨0, _⟩ => show win10_0.index t (0 : Fin 2) * 4000 + 1 * r.val = 4000 * t.val + r.val; omega
  | ⟨1, _⟩ => show win10_0.index t (1 : Fin 2) * 128 + 1 * j.val = j.val; omega

/-- The column means' window holds the whole row at every point. -/
theorem iblk_1_apply (c : Dev nD) (t : Fin cfg10.N) (j : Fin 128) :
    ((iblk10 (F := Ideal) V c 1 t : FVec Ideal S1x128 .f32) (ix2 0 j) : EReal) = M.at2 (V c (Pipeline.arrRef spec10 1)) 0 j := by
  obtain ⟨e0, e1⟩ := idx_1 t
  unfold iblk10
  rw [View.read_apply]
  show V c (Pipeline.arrRef spec10 1) _ = V c (Pipeline.arrRef spec10 1) _
  congr 1
  funext a
  apply Fin.ext
  match a with
  | ⟨0, _⟩ => show win10_1.index t (0 : Fin 2) * 1 + 1 * 0 = 0; omega
  | ⟨1, _⟩ => show win10_1.index t (1 : Fin 2) * 128 + 1 * j.val = j.val; omega

/-- The column variances' window holds the whole row at every point. -/
theorem iblk_2_apply (c : Dev nD) (t : Fin cfg10.N) (j : Fin 128) :
    ((iblk10 (F := Ideal) V c 2 t : FVec Ideal S1x128 .f32) (ix2 0 j) : EReal) = M.at2 (V c (Pipeline.arrRef spec10 2)) 0 j := by
  obtain ⟨e0, e1⟩ := idx_2 t
  unfold iblk10
  rw [View.read_apply]
  show V c (Pipeline.arrRef spec10 2) _ = V c (Pipeline.arrRef spec10 2) _
  congr 1
  funext a
  apply Fin.ext
  match a with
  | ⟨0, _⟩ => show win10_2.index t (0 : Fin 2) * 1 + 1 * 0 = 0; omega
  | ⟨1, _⟩ => show win10_2.index t (1 : Fin 2) * 128 + 1 * j.val = j.val; omega

/-- The scale's window holds the whole row at every point. -/
theorem iblk_3_apply (c : Dev nD) (t : Fin cfg10.N) (j : Fin 128) :
    ((iblk10 (F := Ideal) V c 3 t : FVec Ideal S1x128 .f32) (ix2 0 j) : EReal) = M.at2 (V c (Pipeline.arrRef spec10 3)) 0 j := by
  obtain ⟨e0, e1⟩ := idx_3 t
  unfold iblk10
  rw [View.read_apply]
  show V c (Pipeline.arrRef spec10 3) _ = V c (Pipeline.arrRef spec10 3) _
  congr 1
  funext a
  apply Fin.ext
  match a with
  | ⟨0, _⟩ => show win10_3.index t (0 : Fin 2) * 1 + 1 * 0 = 0; omega
  | ⟨1, _⟩ => show win10_3.index t (1 : Fin 2) * 128 + 1 * j.val = j.val; omega

/-- The shift's window holds the whole row at every point. -/
theorem iblk_4_apply (c : Dev nD) (t : Fin cfg10.N) (j : Fin 128) :
    ((iblk10 (F := Ideal) V c 4 t : FVec Ideal S1x128 .f32) (ix2 0 j) : EReal) = M.at2 (V c (Pipeline.arrRef spec10 4)) 0 j := by
  obtain ⟨e0, e1⟩ := idx_4 t
  unfold iblk10
  rw [View.read_apply]
  show V c (Pipeline.arrRef spec10 4) _ = V c (Pipeline.arrRef spec10 4) _
  congr 1
  funext a
  apply Fin.ext
  match a with
  | ⟨0, _⟩ => show win10_4.index t (0 : Fin 2) * 1 + 1 * 0 = 0; omega
  | ⟨1, _⟩ => show win10_4.index t (1 : Fin 2) * 128 + 1 * j.val = j.val; omega

/-- The weight's window holds the whole weight at every point. -/
theorem iblk_5_apply (c : Dev nD) (t : Fin cfg10.N) (k j : Fin 128) :
    ((iblk10 (F := Ideal) V c 5 t : FVec Ideal S128x128 .f32) (ix2 k j) : EReal) = M.at2 (V c (Pipeline.arrRef spec10 5)) k j := by
  obtain ⟨e0, e1⟩ := idx_5 t
  unfold iblk10
  rw [View.read_apply]
  show V c (Pipeline.arrRef spec10 5) _ = V c (Pipeline.arrRef spec10 5) _
  congr 1
  funext a
  apply Fin.ext
  match a with
  | ⟨0, _⟩ => show win10_5.index t (0 : Fin 2) * 128 + 1 * k.val = k.val; omega
  | ⟨1, _⟩ => show win10_5.index t (1 : Fin 2) * 128 + 1 * j.val = j.val; omega

/-- The bias's window holds the whole row at every point. -/
theorem iblk_6_apply (c : Dev nD) (t : Fin cfg10.N) (j : Fin 128) :
    ((iblk10 (F := Ideal) V c 6 t : FVec Ideal S1x128 .f32) (ix2 0 j) : EReal) = M.at2 (V c (Pipeline.arrRef spec10 6)) 0 j := by
  obtain ⟨e0, e1⟩ := idx_6 t
  unfold iblk10
  rw [View.read_apply]
  show V c (Pipeline.arrRef spec10 6) _ = V c (Pipeline.arrRef spec10 6) _
  congr 1
  funext a
  apply Fin.ext
  match a with
  | ⟨0, _⟩ => show win10_6.index t (0 : Fin 2) * 1 + 1 * 0 = 0; omega
  | ⟨1, _⟩ => show win10_6.index t (1 : Fin 2) * 128 + 1 * j.val = j.val; omega

/-! ## The first output: the stored blocks tile the whole second linear map -/

/-- What point `t` writes back to the first output is block `t` of the whole value. -/
theorem flushed_7_eq (c : Dev nD) (t : Fin cfg10.N) :
    (dat10 (F := Ideal) V c).flushed 7 t = ((cfg10.win 7).blk t).view.read (Elt Ideal) (M.mk2 (val V c)) := by
  show (cfg10.win 7).cut (grid10.coords t) ((dat10 (F := Ideal) V c).after 7 t) = _
  rw [after10_7]
  unfold out10_7
  rw [View.canon_unit_zero hz2]
  simp only [View.ld_unit_zero (S := S4000x128) hz2, View.ld_unit_zero (S := S1x128) hz2,
    View.ld_unit_zero (S := S128x128) hz2]
  obtain ⟨e0, e1⟩ := idx_7 t
  funext y
  show (Gen.k10_pay4 (F := Ideal) (iblk10 V c 0 t) (iblk10 V c 2 t) (iblk10 V c 1 t) (iblk10 V c 3 t) (iblk10 V c 4 t) (iblk10 V c 5 t) (iblk10 V c 6 t) y : EReal)
      = M.mk2 (val V c) (((cfg10.win 7).blk t).view.emb y)
  refine (pay4_blk _ _ _ _ _ _ _ (M.at2 (V c (Pipeline.arrRef spec10 0)))
      (fun j => M.at2 (V c (Pipeline.arrRef spec10 1)) 0 j) (fun j => M.at2 (V c (Pipeline.arrRef spec10 2)) 0 j)
      (fun j => M.at2 (V c (Pipeline.arrRef spec10 3)) 0 j) (fun j => M.at2 (V c (Pipeline.arrRef spec10 4)) 0 j)
      (M.at2 (V c (Pipeline.arrRef spec10 5))) (fun j => M.at2 (V c (Pipeline.arrRef spec10 6)) 0 j) (tile t)
      (iblk_0_apply V c t) (iblk_2_apply V c t) (iblk_1_apply V c t) (iblk_3_apply V c t) (iblk_4_apply V c t)
      (iblk_5_apply V c t) (iblk_6_apply V c t) y).trans ?_
  show val V c (M.tileRow (tile t) (y 0)) (y 1)
      = val V c ((((cfg10.win 7).blk t).view.emb y) 0) ((((cfg10.win 7).blk t).view.emb y) 1)
  refine congrArg₂ (val V c) (Fin.ext ?_) (Fin.ext ?_)
  · show 4000 * t.val + (y 0).val = win10_7.index t (0 : Fin 2) * 4000 + 1 * (y 0).val; omega
  · show (y 1).val = win10_7.index t (1 : Fin 2) * 128 + 1 * (y 1).val; omega

/-- An index of the array is in point `t`'s block iff each coordinate is in the block's range on its axis. -/
theorem mem_blk_7 (t : Fin cfg10.N) (i : S20000x128.Idx) :
    i ∈ ((cfg10.win 7).blk t).view.set ↔ ∀ a : Fin 2, win10_7.index t a * S4000x128.size a ≤ (i a).val
      ∧ (i a).val < win10_7.index t a * S4000x128.size a + S4000x128.size a := by
  show i ∈ ((View.whole (Pipeline.arrRef spec10 7)).slice (win10_7.rect t)).set ↔ _
  rw [View.set_slice_whole, Rect.mem_set_unit]
  exact Iff.rfl

/-- Row `r` is covered by point `r / 4000`. -/
theorem cover_7 (i : S20000x128.Idx) :
    ∃ t : Fin cfg10.N, (cfg10.win 7).flush t = true ∧ i ∈ ((cfg10.win 7).blk t).view.set := by
  have hi0 : (i 0).val < 20000 := (i 0).isLt
  have hi1 : (i 1).val < 128 := (i 1).isLt
  have hq : (i 0).val / 4000 < 5 := by omega
  refine ⟨pt ((i 0).val / 4000) hq, flush10_7 _, ?_⟩
  obtain ⟨e0, e1⟩ := idx_7 (pt ((i 0).val / 4000) hq)
  have e0' : win10_7.index (pt ((i 0).val / 4000) hq) (0 : Fin 2) = (i 0).val / 4000 := e0
  rw [mem_blk_7]
  intro a
  match a with
  | ⟨0, _⟩ =>
    show win10_7.index (pt ((i 0).val / 4000) hq) (0 : Fin 2) * 4000 ≤ (i 0).val
      ∧ (i 0).val < win10_7.index (pt ((i 0).val / 4000) hq) (0 : Fin 2) * 4000 + 4000
    omega
  | ⟨1, _⟩ =>
    show win10_7.index (pt ((i 0).val / 4000) hq) (1 : Fin 2) * 128 ≤ (i 1).val
      ∧ (i 1).val < win10_7.index (pt ((i 0).val / 4000) hq) (1 : Fin 2) * 128 + 128
    omega

/-! ## The second and third outputs: the stored blocks tile the per-tile sums -/

/-- What point `t` writes back to the column sums output is block `t` of the per-tile column sums. -/
theorem flushed_8_eq (c : Dev nD) (t : Fin cfg10.N) :
    (dat10 (F := Ideal) V c).flushed 8 t = ((cfg10.win 8).blk t).view.read (Elt Ideal) (M.mk3 (M.sumT (val V c))) := by
  show (cfg10.win 8).cut (grid10.coords t) ((dat10 (F := Ideal) V c).after 8 t) = _
  rw [after10_8]
  unfold out10_8
  rw [View.canon_unit_zero hz3]
  simp only [View.ld_unit_zero (S := S4000x128) hz2, View.ld_unit_zero (S := S1x128) hz2,
    View.ld_unit_zero (S := S128x128) hz2]
  obtain ⟨e0, e1, e2⟩ := idx_8 t
  funext y
  have hy0 : (y 0).val < 1 := (y 0).isLt
  show (Gen.k10_pay1 (F := Ideal) (Gen.k10_pay5 (F := Ideal) (iblk10 V c 0 t) (iblk10 V c 2 t) (iblk10 V c 1 t) (iblk10 V c 3 t) (iblk10 V c 4 t) (iblk10 V c 5 t) (iblk10 V c 6 t)) y : EReal)
      = M.mk3 (M.sumT (val V c)) (((cfg10.win 8).blk t).view.emb y)
  refine (pay1_blk _ _ _ _ _ _ _ (M.at2 (V c (Pipeline.arrRef spec10 0)))
      (fun j => M.at2 (V c (Pipeline.arrRef spec10 1)) 0 j) (fun j => M.at2 (V c (Pipeline.arrRef spec10 2)) 0 j)
      (fun j => M.at2 (V c (Pipeline.arrRef spec10 3)) 0 j) (fun j => M.at2 (V c (Pipeline.arrRef spec10 4)) 0 j)
      (M.at2 (V c (Pipeline.arrRef spec10 5))) (fun j => M.at2 (V c (Pipeline.arrRef spec10 6)) 0 j) (tile t)
      (iblk_0_apply V c t) (iblk_2_apply V c t) (iblk_1_apply V c t) (iblk_3_apply V c t) (iblk_4_apply V c t)
      (iblk_5_apply V c t) (iblk_6_apply V c t) y).trans ?_
  show M.sumT (val V c) (tile t) (y 1) (y 2)
      = M.sumT (val V c) ((((cfg10.win 8).blk t).view.emb y) 0) ((((cfg10.win 8).blk t).view.emb y) 1)
          ((((cfg10.win 8).blk t).view.emb y) 2)
  refine congr3 (M.sumT (val V c)) (Fin.ext ?_) (Fin.ext ?_) (Fin.ext ?_)
  · show t.val = win10_8.index t (0 : Fin 3) * 1 + 1 * (y 0).val; omega
  · show (y 1).val = win10_8.index t (1 : Fin 3) * 8 + 1 * (y 1).val; omega
  · show (y 2).val = win10_8.index t (2 : Fin 3) * 128 + 1 * (y 2).val; omega

/-- An index of the array is in point `t`'s block iff each coordinate is in the block's range on its axis. -/
theorem mem_blk_8 (t : Fin cfg10.N) (i : S5x8x128.Idx) :
    i ∈ ((cfg10.win 8).blk t).view.set ↔ ∀ a : Fin 3, win10_8.index t a * S1x8x128.size a ≤ (i a).val
      ∧ (i a).val < win10_8.index t a * S1x8x128.size a + S1x8x128.size a := by
  show i ∈ ((View.whole (Pipeline.arrRef spec10 8)).slice (win10_8.rect t)).set ↔ _
  rw [View.set_slice_whole, Rect.mem_set_unit]
  exact Iff.rfl

/-- Tile `p`'s eight rows are covered by point `p`. -/
theorem cover_8 (i : S5x8x128.Idx) :
    ∃ t : Fin cfg10.N, (cfg10.win 8).flush t = true ∧ i ∈ ((cfg10.win 8).blk t).view.set := by
  have hi0 : (i 0).val < 5 := (i 0).isLt
  have hi1 : (i 1).val < 8 := (i 1).isLt
  have hi2 : (i 2).val < 128 := (i 2).isLt
  refine ⟨pt (i 0).val hi0, flush10_8 _, ?_⟩
  obtain ⟨e0, e1, e2⟩ := idx_8 (pt (i 0).val hi0)
  have e0' : win10_8.index (pt (i 0).val hi0) (0 : Fin 3) = (i 0).val := e0
  rw [mem_blk_8]
  intro a
  match a with
  | ⟨0, _⟩ =>
    show win10_8.index (pt (i 0).val hi0) (0 : Fin 3) * 1 ≤ (i 0).val
      ∧ (i 0).val < win10_8.index (pt (i 0).val hi0) (0 : Fin 3) * 1 + 1
    omega
  | ⟨1, _⟩ =>
    show win10_8.index (pt (i 0).val hi0) (1 : Fin 3) * 8 ≤ (i 1).val
      ∧ (i 1).val < win10_8.index (pt (i 0).val hi0) (1 : Fin 3) * 8 + 8
    omega
  | ⟨2, _⟩ =>
    show win10_8.index (pt (i 0).val hi0) (2 : Fin 3) * 128 ≤ (i 2).val
      ∧ (i 2).val < win10_8.index (pt (i 0).val hi0) (2 : Fin 3) * 128 + 128
    omega

/-- What point `t` writes back to the column sums of squares output is block `t` of the per-tile column sums of squares. -/
theorem flushed_9_eq (c : Dev nD) (t : Fin cfg10.N) :
    (dat10 (F := Ideal) V c).flushed 9 t = ((cfg10.win 9).blk t).view.read (Elt Ideal) (M.mk3 (M.sumsqT (val V c))) := by
  show (cfg10.win 9).cut (grid10.coords t) ((dat10 (F := Ideal) V c).after 9 t) = _
  rw [after10_9]
  unfold out10_9
  rw [View.canon_unit_zero hz3]
  simp only [View.ld_unit_zero (S := S4000x128) hz2, View.ld_unit_zero (S := S1x128) hz2,
    View.ld_unit_zero (S := S128x128) hz2]
  obtain ⟨e0, e1, e2⟩ := idx_9 t
  funext y
  have hy0 : (y 0).val < 1 := (y 0).isLt
  show (Gen.k10_pay2 (F := Ideal) (Gen.k10_pay3 (F := Ideal) (iblk10 V c 0 t) (iblk10 V c 2 t) (iblk10 V c 1 t) (iblk10 V c 3 t) (iblk10 V c 4 t) (iblk10 V c 5 t) (iblk10 V c 6 t)) y : EReal)
      = M.mk3 (M.sumsqT (val V c)) (((cfg10.win 9).blk t).view.emb y)
  refine (pay2_blk _ _ _ _ _ _ _ (M.at2 (V c (Pipeline.arrRef spec10 0)))
      (fun j => M.at2 (V c (Pipeline.arrRef spec10 1)) 0 j) (fun j => M.at2 (V c (Pipeline.arrRef spec10 2)) 0 j)
      (fun j => M.at2 (V c (Pipeline.arrRef spec10 3)) 0 j) (fun j => M.at2 (V c (Pipeline.arrRef spec10 4)) 0 j)
      (M.at2 (V c (Pipeline.arrRef spec10 5))) (fun j => M.at2 (V c (Pipeline.arrRef spec10 6)) 0 j) (tile t)
      (iblk_0_apply V c t) (iblk_2_apply V c t) (iblk_1_apply V c t) (iblk_3_apply V c t) (iblk_4_apply V c t)
      (iblk_5_apply V c t) (iblk_6_apply V c t) y).trans ?_
  show M.sumsqT (val V c) (tile t) (y 1) (y 2)
      = M.sumsqT (val V c) ((((cfg10.win 9).blk t).view.emb y) 0) ((((cfg10.win 9).blk t).view.emb y) 1)
          ((((cfg10.win 9).blk t).view.emb y) 2)
  refine congr3 (M.sumsqT (val V c)) (Fin.ext ?_) (Fin.ext ?_) (Fin.ext ?_)
  · show t.val = win10_9.index t (0 : Fin 3) * 1 + 1 * (y 0).val; omega
  · show (y 1).val = win10_9.index t (1 : Fin 3) * 8 + 1 * (y 1).val; omega
  · show (y 2).val = win10_9.index t (2 : Fin 3) * 128 + 1 * (y 2).val; omega

/-- An index of the array is in point `t`'s block iff each coordinate is in the block's range on its axis. -/
theorem mem_blk_9 (t : Fin cfg10.N) (i : S5x8x128.Idx) :
    i ∈ ((cfg10.win 9).blk t).view.set ↔ ∀ a : Fin 3, win10_9.index t a * S1x8x128.size a ≤ (i a).val
      ∧ (i a).val < win10_9.index t a * S1x8x128.size a + S1x8x128.size a := by
  show i ∈ ((View.whole (Pipeline.arrRef spec10 9)).slice (win10_9.rect t)).set ↔ _
  rw [View.set_slice_whole, Rect.mem_set_unit]
  exact Iff.rfl

/-- Tile `p`'s eight rows are covered by point `p`. -/
theorem cover_9 (i : S5x8x128.Idx) :
    ∃ t : Fin cfg10.N, (cfg10.win 9).flush t = true ∧ i ∈ ((cfg10.win 9).blk t).view.set := by
  have hi0 : (i 0).val < 5 := (i 0).isLt
  have hi1 : (i 1).val < 8 := (i 1).isLt
  have hi2 : (i 2).val < 128 := (i 2).isLt
  refine ⟨pt (i 0).val hi0, flush10_9 _, ?_⟩
  obtain ⟨e0, e1, e2⟩ := idx_9 (pt (i 0).val hi0)
  have e0' : win10_9.index (pt (i 0).val hi0) (0 : Fin 3) = (i 0).val := e0
  rw [mem_blk_9]
  intro a
  match a with
  | ⟨0, _⟩ =>
    show win10_9.index (pt (i 0).val hi0) (0 : Fin 3) * 1 ≤ (i 0).val
      ∧ (i 0).val < win10_9.index (pt (i 0).val hi0) (0 : Fin 3) * 1 + 1
    omega
  | ⟨1, _⟩ =>
    show win10_9.index (pt (i 0).val hi0) (1 : Fin 3) * 8 ≤ (i 1).val
      ∧ (i 1).val < win10_9.index (pt (i 0).val hi0) (1 : Fin 3) * 8 + 8
    omega
  | ⟨2, _⟩ =>
    show win10_9.index (pt (i 0).val hi0) (2 : Fin 3) * 128 ≤ (i 2).val
      ∧ (i 2).val < win10_9.index (pt (i 0).val hi0) (2 : Fin 3) * 128 + 128
    omega

/-! ## The three output arrays when the region ends -/

/-- The first output is the whole second linear map. -/
theorem arr10_7 (c : Dev nD) : (dat10 (F := Ideal) V c).arrAt 7 cfg10.N = M.mk2 (val V c) :=
  (dat10 (F := Ideal) V c).arrAt_eq_of_cover 7 (M.mk2 (val V c)) (fun t _ => flushed_7_eq V c t) cover_7

/-- The second output is its per-tile column sums, one copy in each of eight rows. -/
theorem arr10_8 (c : Dev nD) : (dat10 (F := Ideal) V c).arrAt 8 cfg10.N = M.mk3 (M.sumT (val V c)) :=
  (dat10 (F := Ideal) V c).arrAt_eq_of_cover 8 (M.mk3 (M.sumT (val V c))) (fun t _ => flushed_8_eq V c t) cover_8

/-- The third output is its per-tile column sums of squares, one copy in each of eight rows. -/
theorem arr10_9 (c : Dev nD) : (dat10 (F := Ideal) V c).arrAt 9 cfg10.N = M.mk3 (M.sumsqT (val V c)) :=
  (dat10 (F := Ideal) V c).arrAt_eq_of_cover 9 (M.mk3 (M.sumsqT (val V c))) (fun t _ => flushed_9_eq V c t) cover_9

end Cert.RegB10

end
-- ==== Proof.RegC11.lean ====
/-
  Region 11 (layer 2's normalise-and-rectify kernel with the tile sums of its result), read as values.

  On a block of 4000 rows of its input array and the four parameter rows (mean, variance, scale, shift) the body stores
  `max ((a − mean) · rsqrt (var + ε) · g + b) 0` and, each replicated over eight rows, that block's column sums and
  column sums of squares. So after the region its three output arrays are `M.bnrelu` of the input arrays, and the
  tiled sums `M.sumT` and `M.sumsqT` of that.
-/
import proofs.«416875_j80633716015165_3_alg».proof.Proof.FrameKI
import proofs.«416875_j80633716015165_3_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.TcCoe Idealize.ShloMosaic.ValueIdx Idealize.SL.Sem
open Idealize.ShloMosaic.Pipeline (Dat)
open Cert.KernelIdeal Cert.KernelIdeal.Gen

namespace Cert.RegC11

/-! ## The payloads at an index -/

/-- One entry normalised and rectified. -/
abbrev nrm (a mean var g b : EReal) : EReal := max ((a - mean) * Ideal.rsqrt (var + M.cEps) * g + b) M.c0

theorem nrm_congr {a a' m m' v v' g g' b b' : EReal} (ha : a = a') (hm : m = m') (hv : v = v') (hg : g = g') (hb : b = b') :
    nrm a m v g b = nrm a' m' v' g' b' := by rw [ha, hm, hv, hg, hb]

/-- The normalised and rectified value at row `p`, column `q` of a block: the block's entry minus the mean's, times the
    inverse root of the variance's plus the small constant, times the scale's, plus the shift's, cut below at zero. -/
theorem pay1_apply (v0 : Vec Ideal S4000x128 .bf16) (v3 v8 v14 v18 : Vec Ideal S1x128 .f32) (p : Fin 4000) (q : Fin 128) :
    k11_pay1 (F := Ideal) v0 v3 v8 v14 v18 (ix2 p q)
      = nrm (v0 (ix2 p q)) (v8 (ix2 (0 : Fin 1) q)) (v3 (ix2 (0 : Fin 1) q)) (v14 (ix2 (0 : Fin 1) q)) (v18 (ix2 (0 : Fin 1) q)) := by
  unfold k11_pay1
  simp only [shapeCast_self, maximumf_apply, addf_apply, mulf_apply, subf_apply, broadcastTo_1b_ab_apply, extf_apply]
  rfl

/-- The stored block is that value (the narrowing is the identity on ideal values). -/
theorem pay2_apply (v0 : Vec Ideal S4000x128 .bf16) (v3 v8 v14 v18 : Vec Ideal S1x128 .f32) (p : Fin 4000) (q : Fin 128) :
    k11_pay2 (F := Ideal) v0 v3 v8 v14 v18 (ix2 p q) = k11_pay1 (F := Ideal) v0 v3 v8 v14 v18 (ix2 p q) := by
  unfold k11_pay2
  rfl

/-- A `[1, 1, b]` array broadcast to `[1, a, b]` reads, at `(u, s, q)`, the operand's one row at `q`. -/
theorem broadcastTo_11b_1ab_apply {α : Type} {a b : ℕ} (v : (⟨3, ![1, 1, b]⟩ : Shape).Idx → α)
    (h : (⟨3, ![1, 1, b]⟩ : Shape).Broadcasts ⟨3, ![1, a, b]⟩) (u : Fin 1) (s : Fin a) (q : Fin b) :
    broadcastTo ⟨3, ![1, a, b]⟩ v h (ix3 u s q) = v (ix3 (0 : Fin 1) (0 : Fin 1) q) := by
  refine broadcastTo_apply v h (ix3 u s q) (ix3 (0 : Fin 1) (0 : Fin 1) q) fun ax => ?_
  match ax with
  | ⟨0, _⟩ => rfl
  | ⟨1, _⟩ => rfl
  | ⟨2, _⟩ =>
    show q.val = if b = 1 then 0 else q.val
    split
    · have := q.isLt; omega
    · rfl

/-- The sum over the rows of a `[4000, 128]` block, read at column `q`. -/
theorem colSum_apply (src : FVec Ideal S4000x128 .f32) (h : S4000x128.Reduces [0] S128) (hφ : FKind.Formats .f32)
    (hacc : (0x00000000#32 : BitVec 32) = FKind.add.neutral .f32 hφ) (q : Fin 128) :
    multiReduction .add [0] S128 src 0x00000000#32 h hφ hacc (ix1 q) = ∑ r : Fin 4000, src (ix2 r q) := by
  refine (Ideal.multiReduction_add_single src 0x00000000#32 h hφ hacc (ix1 q)).trans ?_
  refine Finset.sum_congr rfl fun r _ => congrArg src ?_
  funext a
  apply Fin.ext
  match a with
  | ⟨0, _⟩ => rfl
  | ⟨1, _⟩ => rfl

/-- The column sums' block: every one of its eight rows holds, at column `q`, the sum over the block's rows. -/
theorem pay3_apply (v0 : Vec Ideal S4000x128 .bf16) (v3 v8 v14 v18 : Vec Ideal S1x128 .f32) (u : Fin 1) (s : Fin 8) (q : Fin 128) :
    k11_pay3 (F := Ideal) v0 v3 v8 v14 v18 (ix3 u s q) = ∑ r : Fin 4000, k11_pay1 (F := Ideal) v0 v3 v8 v14 v18 (ix2 r q) := by
  unfold k11_pay3
  simp only [shapeCast_self]
  refine (broadcastTo_11b_1ab_apply _ _ u s q).trans ?_
  refine (shapeCast_ab_1ab_apply _ _ (0 : Fin 1) (0 : Fin 1) q).trans ?_
  refine (shapeCast_a_1a_apply _ _ (0 : Fin 1) q).trans ?_
  exact colSum_apply _ _ _ _ q

/-- The column sums of squares' block, likewise. -/
theorem pay4_apply (v0 : Vec Ideal S4000x128 .bf16) (v3 v8 v14 v18 : Vec Ideal S1x128 .f32) (u : Fin 1) (s : Fin 8) (q : Fin 128) :
    k11_pay4 (F := Ideal) v0 v3 v8 v14 v18 (ix3 u s q)
      = ∑ r : Fin 4000, k11_pay1 (F := Ideal) v0 v3 v8 v14 v18 (ix2 r q) * k11_pay1 (F := Ideal) v0 v3 v8 v14 v18 (ix2 r q) := by
  unfold k11_pay4
  simp only [shapeCast_self]
  refine (broadcastTo_11b_1ab_apply _ _ u s q).trans ?_
  refine (shapeCast_ab_1ab_apply _ _ (0 : Fin 1) (0 : Fin 1) q).trans ?_
  refine (shapeCast_a_1a_apply _ _ (0 : Fin 1) q).trans ?_
  exact colSum_apply _ _ _ _ q

/-! ## Each output window's staging buffer after the body, at an index -/

theorem hzero2 : (![0, 0] : Fin 2 → Nat) = fun _ => 0 := funext fun a => by fin_cases a <;> rfl
theorem hzero3 : (![0, 0, 0] : Fin 3 → Nat) = fun _ => 0 := funext fun a => by fin_cases a <;> rfl

/-- A block's normalised and rectified value at row `r`, column `q`, from the input block and the four parameter rows. -/
abbrev blkZ (x0 : Vec Ideal S4000x128 .bf16) (x1 x2 x3 x4 : Vec Ideal S1x128 .f32) (r : Fin 4000) (q : Fin 128) : EReal :=
  nrm (x0 (ix2 r q)) (x1 (ix2 (0 : Fin 1) q)) (x2 (ix2 (0 : Fin 1) q)) (x3 (ix2 (0 : Fin 1) q)) (x4 (ix2 (0 : Fin 1) q))

/-- The first output's buffer holds the block's normalised and rectified values. -/
theorem outZ_apply (x0 : Vec Ideal S4000x128 .bf16) (x1 x2 x3 x4 : Vec Ideal S1x128 .f32) (p : Fin 4000) (q : Fin 128) :
    out11_5 (F := Ideal) x0 x1 x2 x3 x4 (ix2 p q) = blkZ x0 x1 x2 x3 x4 p q := by
  unfold out11_5
  rw [View.canon_unit_zero hzero2]
  simp only [View.ld_unit_zero (S := S4000x128) hzero2, View.ld_unit_zero (S := S1x128) hzero2]
  exact (pay2_apply _ _ _ _ _ p q).trans (pay1_apply _ _ _ _ _ p q)

/-- The second output's buffer holds, in each of its eight rows, the column sums of those values. -/
theorem outSum_apply (x0 : Vec Ideal S4000x128 .bf16) (x1 x2 x3 x4 : Vec Ideal S1x128 .f32) (u : Fin 1) (s : Fin 8) (q : Fin 128) :
    out11_6 (F := Ideal) x0 x1 x2 x3 x4 (ix3 u s q) = ∑ r : Fin 4000, blkZ x0 x1 x2 x3 x4 r q := by
  unfold out11_6
  rw [View.canon_unit_zero hzero3]
  simp only [View.ld_unit_zero (S := S4000x128) hzero2, View.ld_unit_zero (S := S1x128) hzero2]
  refine (pay3_apply _ _ _ _ _ u s q).trans ?_
  exact Finset.sum_congr rfl fun r _ => pay1_apply _ _ _ _ _ r q

/-- The third output's buffer holds, in each of its eight rows, the column sums of their squares. -/
theorem outSq_apply (x0 : Vec Ideal S4000x128 .bf16) (x1 x2 x3 x4 : Vec Ideal S1x128 .f32) (u : Fin 1) (s : Fin 8) (q : Fin 128) :
    out11_7 (F := Ideal) x0 x1 x2 x3 x4 (ix3 u s q) = ∑ r : Fin 4000, blkZ x0 x1 x2 x3 x4 r q * blkZ x0 x1 x2 x3 x4 r q := by
  unfold out11_7
  rw [View.canon_unit_zero hzero3]
  simp only [View.ld_unit_zero (S := S4000x128) hzero2, View.ld_unit_zero (S := S1x128) hzero2]
  refine (pay4_apply _ _ _ _ _ u s q).trans ?_
  exact Finset.sum_congr rfl fun r _ => by rw [pay1_apply]

/-! ## The index maps, decided once over the grid -/

theorem idxIn : ∀ t : Fin cfg11.N, win11_0.index t (0 : Fin 2) = t.val ∧ win11_0.index t (1 : Fin 2) = 0 :=
  (by decide +kernel : ∀ t : Fin grid11.N, _)
theorem idxMean : ∀ t : Fin cfg11.N, win11_1.index t (0 : Fin 2) = 0 ∧ win11_1.index t (1 : Fin 2) = 0 :=
  (by decide +kernel : ∀ t : Fin grid11.N, _)
theorem idxVar : ∀ t : Fin cfg11.N, win11_2.index t (0 : Fin 2) = 0 ∧ win11_2.index t (1 : Fin 2) = 0 :=
  (by decide +kernel : ∀ t : Fin grid11.N, _)
theorem idxScale : ∀ t : Fin cfg11.N, win11_3.index t (0 : Fin 2) = 0 ∧ win11_3.index t (1 : Fin 2) = 0 :=
  (by decide +kernel : ∀ t : Fin grid11.N, _)
theorem idxShift : ∀ t : Fin cfg11.N, win11_4.index t (0 : Fin 2) = 0 ∧ win11_4.index t (1 : Fin 2) = 0 :=
  (by decide +kernel : ∀ t : Fin grid11.N, _)
theorem idxZ : ∀ t : Fin cfg11.N, win11_5.index t (0 : Fin 2) = t.val ∧ win11_5.index t (1 : Fin 2) = 0 :=
  (by decide +kernel : ∀ t : Fin grid11.N, _)
theorem idxSum : ∀ t : Fin cfg11.N, win11_6.index t (0 : Fin 3) = t.val ∧ win11_6.index t (1 : Fin 3) = 0 ∧ win11_6.index t (2 : Fin 3) = 0 :=
  (by decide +kernel : ∀ t : Fin grid11.N, _)
theorem idxSq : ∀ t : Fin cfg11.N, win11_7.index t (0 : Fin 3) = t.val ∧ win11_7.index t (1 : Fin 3) = 0 ∧ win11_7.index t (2 : Fin 3) = 0 :=
  (by decide +kernel : ∀ t : Fin grid11.N, _)

theorem lt_five (t : Fin cfg11.N) : t.val < 5 := Nat.lt_of_lt_of_eq t.isLt N_11

/-! ## Where each window's block sits in its array -/

/-- Row `r`, column `q` of the input's block at point `t` is row `4000 t + r`, column `q` of the array. -/
theorem embIn (t : Fin cfg11.N) (r : Fin 4000) (q : Fin 128) :
    ((cfg11.win 0).blk t).view.emb (ix2 r q) = ix2 (M.tileRow ⟨t.val, lt_five t⟩ r) q := by
  obtain ⟨e0, e1⟩ := idxIn t
  funext a
  apply Fin.ext
  match a with
  | ⟨0, _⟩ => show win11_0.index t (0 : Fin 2) * 4000 + 1 * r.val = 4000 * t.val + r.val; rw [e0]; omega
  | ⟨1, _⟩ => show win11_0.index t (1 : Fin 2) * 128 + 1 * q.val = q.val; rw [e1]; omega

theorem embMean (t : Fin cfg11.N) (q : Fin 128) : ((cfg11.win 1).blk t).view.emb (ix2 (0 : Fin 1) q) = ix2 (0 : Fin 1) q := by
  obtain ⟨e0, e1⟩ := idxMean t
  funext a
  apply Fin.ext
  match a with
  | ⟨0, _⟩ => show win11_1.index t (0 : Fin 2) * 1 + 1 * 0 = 0; rw [e0]
  | ⟨1, _⟩ => show win11_1.index t (1 : Fin 2) * 128 + 1 * q.val = q.val; rw [e1]; omega

theorem embVar (t : Fin cfg11.N) (q : Fin 128) : ((cfg11.win 2).blk t).view.emb (ix2 (0 : Fin 1) q) = ix2 (0 : Fin 1) q := by
  obtain ⟨e0, e1⟩ := idxVar t
  funext a
  apply Fin.ext
  match a with
  | ⟨0, _⟩ => show win11_2.index t (0 : Fin 2) * 1 + 1 * 0 = 0; rw [e0]
  | ⟨1, _⟩ => show win11_2.index t (1 : Fin 2) * 128 + 1 * q.val = q.val; rw [e1]; omega

theorem embScale (t : Fin cfg11.N) (q : Fin 128) : ((cfg11.win 3).blk t).view.emb (ix2 (0 : Fin 1) q) = ix2 (0 : Fin 1) q := by
  obtain ⟨e0, e1⟩ := idxScale t
  funext a
  apply Fin.ext
  match a with
  | ⟨0, _⟩ => show win11_3.index t (0 : Fin 2) * 1 + 1 * 0 = 0; rw [e0]
  | ⟨1, _⟩ => show win11_3.index t (1 : Fin 2) * 128 + 1 * q.val = q.val; rw [e1]; omega

theorem embShift (t : Fin cfg11.N) (q : Fin 128) : ((cfg11.win 4).blk t).view.emb (ix2 (0 : Fin 1) q) = ix2 (0 : Fin 1) q := by
  obtain ⟨e0, e1⟩ := idxShift t
  funext a
  apply Fin.ext
  match a with
  | ⟨0, _⟩ => show win11_4.index t (0 : Fin 2) * 1 + 1 * 0 = 0; rw [e0]
  | ⟨1, _⟩ => show win11_4.index t (1 : Fin 2) * 128 + 1 * q.val = q.val; rw [e1]; omega

/-- Likewise the first output's block. -/
theorem embZ (t : Fin cfg11.N) (r : Fin 4000) (q : Fin 128) :
    ((cfg11.win 5).blk t).view.emb (ix2 r q) = ix2 (M.tileRow ⟨t.val, lt_five t⟩ r) q := by
  obtain ⟨e0, e1⟩ := idxZ t
  funext a
  apply Fin.ext
  match a with
  | ⟨0, _⟩ => show win11_5.index t (0 : Fin 2) * 4000 + 1 * r.val = 4000 * t.val + r.val; rw [e0]; omega
  | ⟨1, _⟩ => show win11_5.index t (1 : Fin 2) * 128 + 1 * q.val = q.val; rw [e1]; omega

/-- The sums' block at point `t` is tile `t` of the `[5, 8, 128]` array. -/
theorem embSum (t : Fin cfg11.N) (u : Fin 1) (s : Fin 8) (q : Fin 128) :
    ((cfg11.win 6).blk t).view.emb (ix3 u s q) = ix3 (⟨t.val, lt_five t⟩ : Fin 5) s q := by
  obtain ⟨e0, e1, e2⟩ := idxSum t
  have hu : u.val = 0 := by omega
  funext a
  apply Fin.ext
  match a with
  | ⟨0, _⟩ => show win11_6.index t (0 : Fin 3) * 1 + 1 * u.val = t.val; rw [e0, hu]; omega
  | ⟨1, _⟩ => show win11_6.index t (1 : Fin 3) * 8 + 1 * s.val = s.val; rw [e1]; omega
  | ⟨2, _⟩ => show win11_6.index t (2 : Fin 3) * 128 + 1 * q.val = q.val; rw [e2]; omega

theorem embSq (t : Fin cfg11.N) (u : Fin 1) (s : Fin 8) (q : Fin 128) :
    ((cfg11.win 7).blk t).view.emb (ix3 u s q) = ix3 (⟨t.val, lt_five t⟩ : Fin 5) s q := by
  obtain ⟨e0, e1, e2⟩ := idxSq t
  have hu : u.val = 0 := by omega
  funext a
  apply Fin.ext
  match a with
  | ⟨0, _⟩ => show win11_7.index t (0 : Fin 3) * 1 + 1 * u.val = t.val; rw [e0, hu]; omega
  | ⟨1, _⟩ => show win11_7.index t (1 : Fin 3) * 8 + 1 * s.val = s.val; rw [e1]; omega
  | ⟨2, _⟩ => show win11_7.index t (2 : Fin 3) * 128 + 1 * q.val = q.val; rw [e2]; omega

/-! ## The region's arrays -/

variable (V : (c : Dev nD) → (b : Ref sig .tc) → Buf (Elt Ideal) ((c : Thread nD τ).loc b))

/-- The normalised and rectified array, as a function of coordinates, of the arrays as the region finds them. -/
abbrev z (c : Dev nD) : Fin 20000 → Fin 128 → EReal :=
  M.bnrelu (M.at2 (V c (Pipeline.arrRef spec11 0))) (fun j => M.at2 (V c (Pipeline.arrRef spec11 1)) 0 j)
    (fun j => M.at2 (V c (Pipeline.arrRef spec11 2)) 0 j) (fun j => M.at2 (V c (Pipeline.arrRef spec11 3)) 0 j)
    (fun j => M.at2 (V c (Pipeline.arrRef spec11 4)) 0 j)

/-- The input windows' blocks at point `t` give, at row `r` and column `q`, the array's value at row `4000 t + r`. -/
theorem blkZ_iblk (c : Dev nD) (t : Fin cfg11.N) (r : Fin 4000) (q : Fin 128) :
    blkZ (iblk11 V c 0 t) (iblk11 V c 1 t) (iblk11 V c 2 t) (iblk11 V c 3 t) (iblk11 V c 4 t) r q
      = z V c (M.tileRow ⟨t.val, lt_five t⟩ r) q :=
  nrm_congr (congrArg (V c (Pipeline.arrRef spec11 0)) (embIn t r q))
    (congrArg (V c (Pipeline.arrRef spec11 1)) (embMean t q))
    (congrArg (V c (Pipeline.arrRef spec11 2)) (embVar t q))
    (congrArg (V c (Pipeline.arrRef spec11 3)) (embScale t q))
    (congrArg (V c (Pipeline.arrRef spec11 4)) (embShift t q))

/-! ## What each point writes back is its block of the whole-array function -/

theorem flushedZ_eq (c : Dev nD) (t : Fin cfg11.N) :
    (dat11 (F := Ideal) V c).flushed 5 t = ((cfg11.win 5).blk t).view.read (Elt Ideal) (M.mk2 (z V c)) := by
  show (cfg11.win 5).cut (grid11.coords t) ((dat11 V c).after 5 t) = _
  rw [after11_5]
  funext j
  obtain ⟨p, q, rfl⟩ : ∃ (p : Fin 4000) (q : Fin 128), j = ix2 p q := ⟨j 0, j 1, eq_ix2 j⟩
  show out11_5 (iblk11 V c 0 t) (iblk11 V c 1 t) (iblk11 V c 2 t) (iblk11 V c 3 t) (iblk11 V c 4 t) (ix2 p q)
    = M.mk2 (z V c) (((cfg11.win 5).blk t).view.emb (ix2 p q))
  refine (outZ_apply _ _ _ _ _ p q).trans ?_
  refine (blkZ_iblk V c t p q).trans ?_
  exact (congrArg (M.mk2 (z V c)) (embZ t p q)).symm

theorem flushedSum_eq (c : Dev nD) (t : Fin cfg11.N) :
    (dat11 (F := Ideal) V c).flushed 6 t = ((cfg11.win 6).blk t).view.read (Elt Ideal) (M.mk3 (M.sumT (z V c))) := by
  show (cfg11.win 6).cut (grid11.coords t) ((dat11 V c).after 6 t) = _
  rw [after11_6]
  funext j
  obtain ⟨u, s, q, rfl⟩ : ∃ (u : Fin 1) (s : Fin 8) (q : Fin 128), j = ix3 u s q := ⟨j 0, j 1, j 2, eq_ix3 j⟩
  show out11_6 (iblk11 V c 0 t) (iblk11 V c 1 t) (iblk11 V c 2 t) (iblk11 V c 3 t) (iblk11 V c 4 t) (ix3 u s q)
    = M.mk3 (M.sumT (z V c)) (((cfg11.win 6).blk t).view.emb (ix3 u s q))
  refine (outSum_apply _ _ _ _ _ u s q).trans ?_
  refine Eq.trans ?_ (congrArg (M.mk3 (M.sumT (z V c))) (embSum t u s q)).symm
  show _ = ∑ r : Fin 4000, z V c (M.tileRow ⟨t.val, lt_five t⟩ r) q
  exact Finset.sum_congr rfl fun r _ => blkZ_iblk V c t r q

theorem flushedSq_eq (c : Dev nD) (t : Fin cfg11.N) :
    (dat11 (F := Ideal) V c).flushed 7 t = ((cfg11.win 7).blk t).view.read (Elt Ideal) (M.mk3 (M.sumsqT (z V c))) := by
  show (cfg11.win 7).cut (grid11.coords t) ((dat11 V c).after 7 t) = _
  rw [after11_7]
  funext j
  obtain ⟨u, s, q, rfl⟩ : ∃ (u : Fin 1) (s : Fin 8) (q : Fin 128), j = ix3 u s q := ⟨j 0, j 1, j 2, eq_ix3 j⟩
  show out11_7 (iblk11 V c 0 t) (iblk11 V c 1 t) (iblk11 V c 2 t) (iblk11 V c 3 t) (iblk11 V c 4 t) (ix3 u s q)
    = M.mk3 (M.sumsqT (z V c)) (((cfg11.win 7).blk t).view.emb (ix3 u s q))
  refine (outSq_apply _ _ _ _ _ u s q).trans ?_
  refine Eq.trans ?_ (congrArg (M.mk3 (M.sumsqT (z V c))) (embSq t u s q)).symm
  show _ = ∑ r : Fin 4000, z V c (M.tileRow ⟨t.val, lt_five t⟩ r) q * z V c (M.tileRow ⟨t.val, lt_five t⟩ r) q
  exact Finset.sum_congr rfl fun r _ => by rw [blkZ_iblk V c t r q]

/-! ## The blocks cover the arrays -/

/-- Row `r` of the first output is row `r % 4000` of the block of point `r / 4000`. -/
theorem coverZ (i : S20000x128.Idx) : ∃ t : Fin cfg11.N, (cfg11.win 5).flush t = true ∧ i ∈ ((cfg11.win 5).blk t).view.set := by
  have hi0 : (i 0).val < 20000 := (i 0).isLt
  obtain ⟨t, ht⟩ : ∃ t : Fin cfg11.N, t.val = (i 0).val / 4000 :=
    ⟨⟨(i 0).val / 4000, by rw [show cfg11.N = 5 from N_11]; omega⟩, rfl⟩
  have h : ((cfg11.win 5).blk t).view.emb (ix2 (⟨(i 0).val % 4000, Nat.mod_lt _ (by omega)⟩ : Fin 4000) (i 1)) = i := by
    refine (embZ t _ _).trans ?_
    funext a
    apply Fin.ext
    match a with
    | ⟨0, _⟩ => show 4000 * t.val + (i 0).val % 4000 = (i 0).val; rw [ht]; omega
    | ⟨1, _⟩ => rfl
  exact ⟨t, flush11_5 t, by rw [← h]; exact ((cfg11.win 5).blk t).view.emb_mem_set _⟩

/-- Tile `p` of the sums array is the block of point `p`. -/
theorem coverSum (i : S5x8x128.Idx) : ∃ t : Fin cfg11.N, (cfg11.win 6).flush t = true ∧ i ∈ ((cfg11.win 6).blk t).view.set := by
  have hi0 : (i 0).val < 5 := (i 0).isLt
  obtain ⟨t, ht⟩ : ∃ t : Fin cfg11.N, t.val = (i 0).val :=
    ⟨⟨(i 0).val, by rw [show cfg11.N = 5 from N_11]; omega⟩, rfl⟩
  have h : ((cfg11.win 6).blk t).view.emb (ix3 (0 : Fin 1) (i 1) (i 2)) = i := by
    refine (embSum t _ _ _).trans ?_
    funext a
    apply Fin.ext
    match a with
    | ⟨0, _⟩ => exact ht
    | ⟨1, _⟩ => rfl
    | ⟨2, _⟩ => rfl
  exact ⟨t, flush11_6 t, by rw [← h]; exact ((cfg11.win 6).blk t).view.emb_mem_set _⟩

/-- Likewise the sums of squares array. -/
theorem coverSq (i : S5x8x128.Idx) : ∃ t : Fin cfg11.N, (cfg11.win 7).flush t = true ∧ i ∈ ((cfg11.win 7).blk t).view.set := by
  have hi0 : (i 0).val < 5 := (i 0).isLt
  obtain ⟨t, ht⟩ : ∃ t : Fin cfg11.N, t.val = (i 0).val :=
    ⟨⟨(i 0).val, by rw [show cfg11.N = 5 from N_11]; omega⟩, rfl⟩
  have h : ((cfg11.win 7).blk t).view.emb (ix3 (0 : Fin 1) (i 1) (i 2)) = i := by
    refine (embSq t _ _ _).trans ?_
    funext a
    apply Fin.ext
    match a with
    | ⟨0, _⟩ => exact ht
    | ⟨1, _⟩ => rfl
    | ⟨2, _⟩ => rfl
  exact ⟨t, flush11_7 t, by rw [← h]; exact ((cfg11.win 7).blk t).view.emb_mem_set _⟩

/-! ## The three output arrays after the region -/

/-- The first output array: the input array normalised with the given statistics, scaled, shifted and rectified. -/
theorem arr11_5 (c : Dev nD) :
    (dat11 (F := Ideal) V c).arrAt 5 cfg11.N
      = M.mk2 (M.bnrelu (M.at2 (V c (Pipeline.arrRef spec11 0))) (fun j => M.at2 (V c (Pipeline.arrRef spec11 1)) 0 j)
          (fun j => M.at2 (V c (Pipeline.arrRef spec11 2)) 0 j) (fun j => M.at2 (V c (Pipeline.arrRef spec11 3)) 0 j)
          (fun j => M.at2 (V c (Pipeline.arrRef spec11 4)) 0 j)) :=
  (dat11 V c).arrAt_eq_of_cover 5 (M.mk2 (z V c)) (fun t _ => flushedZ_eq V c t) coverZ

/-- The second output array: that array's column sums tile by tile, each in eight rows. -/
theorem arr11_6 (c : Dev nD) :
    (dat11 (F := Ideal) V c).arrAt 6 cfg11.N
      = M.mk3 (M.sumT (M.bnrelu (M.at2 (V c (Pipeline.arrRef spec11 0))) (fun j => M.at2 (V c (Pipeline.arrRef spec11 1)) 0 j)
          (fun j => M.at2 (V c (Pipeline.arrRef spec11 2)) 0 j) (fun j => M.at2 (V c (Pipeline.arrRef spec11 3)) 0 j)
          (fun j => M.at2 (V c (Pipeline.arrRef spec11 4)) 0 j))) :=
  (dat11 V c).arrAt_eq_of_cover 6 (M.mk3 (M.sumT (z V c))) (fun t _ => flushedSum_eq V c t) coverSum

/-- The third output array: that array's column sums of squares tile by tile, each in eight rows. -/
theorem arr11_7 (c : Dev nD) :
    (dat11 (F := Ideal) V c).arrAt 7 cfg11.N
      = M.mk3 (M.sumsqT (M.bnrelu (M.at2 (V c (Pipeline.arrRef spec11 0))) (fun j => M.at2 (V c (Pipeline.arrRef spec11 1)) 0 j)
          (fun j => M.at2 (V c (Pipeline.arrRef spec11 2)) 0 j) (fun j => M.at2 (V c (Pipeline.arrRef spec11 3)) 0 j)
          (fun j => M.at2 (V c (Pipeline.arrRef spec11 4)) 0 j))) :=
  (dat11 V c).arrAt_eq_of_cover 7 (M.mk3 (M.sumsqT (z V c))) (fun t _ => flushedSq_eq V c t) coverSq

end Cert.RegC11

end
-- ==== Proof.RegD12.lean ====
/-
  The values of a layer's last region: its first output array after the region is the layer's output
  `h + max ((z − mean) · rsqrt (var + ε) · g + b) 0`, the other two that output times one whole weight each. The region
  works on row blocks of 4000; the statistics, scale and shift are one row each, broadcast over the block's rows.
-/
import proofs.«416875_j80633716015165_3_alg».proof.Proof.RegNP
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

open Cert

namespace Cert.RegD12

open Cert.KernelIdeal Cert.KernelIdeal.Gen

variable (V : (c : Dev nD) → (b : Ref sig .tc) → Buf (Elt Ideal) ((c : Thread nD τ).loc b))

/-! ## The payloads at an index -/

/-- The first output's payload at row `p`, column `q`: the input block there plus the normalised, rectified third
    stage, the statistics, scale and shift read from their one row. -/
theorem pay2_apply (z : Vec Ideal S4000x128 .bf16) (vr mn g b : Vec Ideal S1x128 .f32) (h : Vec Ideal S4000x128 .f32)
    (p : Fin 4000) (q : Fin 128) :
    k12_pay2 z vr mn g b h (ix2 p q)
      = h (ix2 p q) + max ((z (ix2 p q) - mn (ix2 0 q)) * Ideal.rsqrt (vr (ix2 0 q) + M.cEps) * g (ix2 0 q) + b (ix2 0 q)) M.c0 := by
  unfold k12_pay2
  simp only [shapeCast_self]
  first
  | (refine Eq.trans (b := h (ix2 p q) + max ((z (ix2 p q) - broadcastTo S4000x128 mn broadcasts_S1x128_S4000x128 (ix2 p q))
        * broadcastTo S4000x128 (fun i => Ideal.rsqrt (vr i + M.cEps)) broadcasts_S1x128_S4000x128 (ix2 p q)
        * broadcastTo S4000x128 g broadcasts_S1x128_S4000x128 (ix2 p q)
        + broadcastTo S4000x128 b broadcasts_S1x128_S4000x128 (ix2 p q)) M.c0) rfl ?_
     rw [broadcastTo_1b_ab_apply, broadcastTo_1b_ab_apply, broadcastTo_1b_ab_apply, broadcastTo_1b_ab_apply] <;> rfl)
  | (simp only [addf_apply, maximumf_apply, mulf_apply, subf_apply, extf_apply, broadcast_apply,
      broadcastTo_1b_ab_apply]
     rfl)

/-- The second output's payload at row `p`, column `q`: row `p` of the first output's block against column `q` of
    the weight. -/
theorem pay5_apply (z : Vec Ideal S4000x128 .bf16) (vr mn g b : Vec Ideal S1x128 .f32) (h : Vec Ideal S4000x128 .f32)
    (w : Vec Ideal S128x128 .bf16) (p : Fin 4000) (q : Fin 128) :
    k12_pay5 z vr mn g b h w (ix2 p q) = ∑ t : Fin 128, k12_pay2 z vr mn g b h (ix2 p t) * w (ix2 t q) := by
  unfold k12_pay5 k12_pay3
  simp only [shapeCast_self]
  exact RegNP.mm_apply _ _ p q

/-- The third output's payload at row `p`, column `q`, likewise. -/
theorem pay14_apply (z : Vec Ideal S4000x128 .bf16) (vr mn g b : Vec Ideal S1x128 .f32) (h : Vec Ideal S4000x128 .f32)
    (w : Vec Ideal S128x128 .bf16) (p : Fin 4000) (q : Fin 128) :
    k12_pay1 (k12_pay4 z vr mn g b h w) (ix2 p q) = ∑ t : Fin 128, k12_pay2 z vr mn g b h (ix2 p t) * w (ix2 t q) := by
  unfold k12_pay1 k12_pay4 k12_pay3
  simp only [shapeCast_self]
  exact RegNP.mm_apply _ _ p q

/-! ## From blocks to the arrays -/

theorem hz : (![0, 0] : Fin 2 → Nat) = fun _ => 0 := funext fun a => by fin_cases a <;> rfl

/-- The index maps over the grid, window by window: a row-blocked window's block is row block `t`, -/
theorem idx_0 : ∀ t : Fin cfg12.N, win12_0.index t (0 : Fin 2) = t.val ∧ win12_0.index t (1 : Fin 2) = 0 :=
  (by decide +kernel : ∀ t : Fin grid12.N, _)
theorem idx_5 : ∀ t : Fin cfg12.N, win12_5.index t (0 : Fin 2) = t.val ∧ win12_5.index t (1 : Fin 2) = 0 :=
  (by decide +kernel : ∀ t : Fin grid12.N, _)
theorem idx_8 : ∀ t : Fin cfg12.N, win12_8.index t (0 : Fin 2) = t.val ∧ win12_8.index t (1 : Fin 2) = 0 :=
  (by decide +kernel : ∀ t : Fin grid12.N, _)
theorem idx_9 : ∀ t : Fin cfg12.N, win12_9.index t (0 : Fin 2) = t.val ∧ win12_9.index t (1 : Fin 2) = 0 :=
  (by decide +kernel : ∀ t : Fin grid12.N, _)
theorem idx_10 : ∀ t : Fin cfg12.N, win12_10.index t (0 : Fin 2) = t.val ∧ win12_10.index t (1 : Fin 2) = 0 :=
  (by decide +kernel : ∀ t : Fin grid12.N, _)
/-- a whole window's block is the array. -/
theorem idx_1 : ∀ t : Fin cfg12.N, win12_1.index t (0 : Fin 2) = 0 ∧ win12_1.index t (1 : Fin 2) = 0 :=
  (by decide +kernel : ∀ t : Fin grid12.N, _)
theorem idx_2 : ∀ t : Fin cfg12.N, win12_2.index t (0 : Fin 2) = 0 ∧ win12_2.index t (1 : Fin 2) = 0 :=
  (by decide +kernel : ∀ t : Fin grid12.N, _)
theorem idx_3 : ∀ t : Fin cfg12.N, win12_3.index t (0 : Fin 2) = 0 ∧ win12_3.index t (1 : Fin 2) = 0 :=
  (by decide +kernel : ∀ t : Fin grid12.N, _)
theorem idx_4 : ∀ t : Fin cfg12.N, win12_4.index t (0 : Fin 2) = 0 ∧ win12_4.index t (1 : Fin 2) = 0 :=
  (by decide +kernel : ∀ t : Fin grid12.N, _)
theorem idx_6 : ∀ t : Fin cfg12.N, win12_6.index t (0 : Fin 2) = 0 ∧ win12_6.index t (1 : Fin 2) = 0 :=
  (by decide +kernel : ∀ t : Fin grid12.N, _)
theorem idx_7 : ∀ t : Fin cfg12.N, win12_7.index t (0 : Fin 2) = 0 ∧ win12_7.index t (1 : Fin 2) = 0 :=
  (by decide +kernel : ∀ t : Fin grid12.N, _)

/-- The arrays as the region finds them: the third stage, -/
abbrev zArr (c : Dev nD) : S20000x128.Idx → EReal := V c (Pipeline.arrRef spec12 0)
/-- its columns' means, -/
abbrev mnArr (c : Dev nD) : S1x128.Idx → EReal := V c (Pipeline.arrRef spec12 1)
/-- its columns' variances, -/
abbrev vrArr (c : Dev nD) : S1x128.Idx → EReal := V c (Pipeline.arrRef spec12 2)
/-- the scale, -/
abbrev gArr (c : Dev nD) : S1x128.Idx → EReal := V c (Pipeline.arrRef spec12 3)
/-- the shift, -/
abbrev bArr (c : Dev nD) : S1x128.Idx → EReal := V c (Pipeline.arrRef spec12 4)
/-- the layer's input, -/
abbrev hArr (c : Dev nD) : S20000x128.Idx → EReal := V c (Pipeline.arrRef spec12 5)
/-- the first weight, -/
abbrev wtArr (c : Dev nD) : S128x128.Idx → EReal := V c (Pipeline.arrRef spec12 6)
/-- and the second. -/
abbrev wbArr (c : Dev nD) : S128x128.Idx → EReal := V c (Pipeline.arrRef spec12 7)
/-- The layer's output from them. -/
abbrev XN (c : Dev nD) : Fin 20000 → Fin 128 → EReal :=
  RegNP.xnew (zArr V c) (mnArr V c) (vrArr V c) (gArr V c) (bArr V c) (hArr V c)

/-- Row block `t` of the third stage: entry `(p, q)` is the array's at row `4000 t + p`. -/
theorem zblk_apply (c : Dev nD) (t : Fin cfg12.N) (p : Fin 4000) (q : Fin 128) (r : Fin 20000)
    (hr : r.val = t.val * 4000 + p.val) :
    (iblk12 V c 0 t : Vec Ideal S4000x128 .bf16) (ix2 p q) = zArr V c (ix2 r q) := by
  have e := idx_0 t
  show V c (Pipeline.arrRef spec12 0) (((cfg12.win 0).blk t).view.emb (ix2 p q)) = V c (Pipeline.arrRef spec12 0) (ix2 r q)
  refine congrArg _ (funext fun a => Fin.ext ?_)
  match a with
  | ⟨0, _⟩ => show win12_0.index t (0 : Fin 2) * 4000 + 1 * p.val = r.val; omega
  | ⟨1, _⟩ => show win12_0.index t (1 : Fin 2) * 128 + 1 * q.val = q.val; omega

/-- Row block `t` of the layer's input likewise. -/
theorem hblk_apply (c : Dev nD) (t : Fin cfg12.N) (p : Fin 4000) (q : Fin 128) (r : Fin 20000)
    (hr : r.val = t.val * 4000 + p.val) :
    (iblk12 V c 5 t : Vec Ideal S4000x128 .f32) (ix2 p q) = hArr V c (ix2 r q) := by
  have e := idx_5 t
  show V c (Pipeline.arrRef spec12 5) (((cfg12.win 5).blk t).view.emb (ix2 p q)) = V c (Pipeline.arrRef spec12 5) (ix2 r q)
  refine congrArg _ (funext fun a => Fin.ext ?_)
  match a with
  | ⟨0, _⟩ => show win12_5.index t (0 : Fin 2) * 4000 + 1 * p.val = r.val; omega
  | ⟨1, _⟩ => show win12_5.index t (1 : Fin 2) * 128 + 1 * q.val = q.val; omega

/-- The means' block is their one row, -/
theorem mnblk_apply (c : Dev nD) (t : Fin cfg12.N) (q : Fin 128) :
    (iblk12 V c 1 t : Vec Ideal S1x128 .f32) (ix2 0 q) = mnArr V c (ix2 0 q) := by
  have e := idx_1 t
  show V c (Pipeline.arrRef spec12 1) (((cfg12.win 1).blk t).view.emb (ix2 0 q)) = V c (Pipeline.arrRef spec12 1) (ix2 0 q)
  refine congrArg _ (funext fun a => Fin.ext ?_)
  match a with
  | ⟨0, _⟩ => show win12_1.index t (0 : Fin 2) * 1 + 1 * 0 = 0; omega
  | ⟨1, _⟩ => show win12_1.index t (1 : Fin 2) * 128 + 1 * q.val = q.val; omega

/-- the variances' likewise, -/
theorem vrblk_apply (c : Dev nD) (t : Fin cfg12.N) (q : Fin 128) :
    (iblk12 V c 2 t : Vec Ideal S1x128 .f32) (ix2 0 q) = vrArr V c (ix2 0 q) := by
  have e := idx_2 t
  show V c (Pipeline.arrRef spec12 2) (((cfg12.win 2).blk t).view.emb (ix2 0 q)) = V c (Pipeline.arrRef spec12 2) (ix2 0 q)
  refine congrArg _ (funext fun a => Fin.ext ?_)
  match a with
  | ⟨0, _⟩ => show win12_2.index t (0 : Fin 2) * 1 + 1 * 0 = 0; omega
  | ⟨1, _⟩ => show win12_2.index t (1 : Fin 2) * 128 + 1 * q.val = q.val; omega

/-- the scale's, -/
theorem gblk_apply (c : Dev nD) (t : Fin cfg12.N) (q : Fin 128) :
    (iblk12 V c 3 t : Vec Ideal S1x128 .f32) (ix2 0 q) = gArr V c (ix2 0 q) := by
  have e := idx_3 t
  show V c (Pipeline.arrRef spec12 3) (((cfg12.win 3).blk t).view.emb (ix2 0 q)) = V c (Pipeline.arrRef spec12 3) (ix2 0 q)
  refine congrArg _ (funext fun a => Fin.ext ?_)
  match a with
  | ⟨0, _⟩ => show win12_3.index t (0 : Fin 2) * 1 + 1 * 0 = 0; omega
  | ⟨1, _⟩ => show win12_3.index t (1 : Fin 2) * 128 + 1 * q.val = q.val; omega

/-- and the shift's. -/
theorem bblk_apply (c : Dev nD) (t : Fin cfg12.N) (q : Fin 128) :
    (iblk12 V c 4 t : Vec Ideal S1x128 .f32) (ix2 0 q) = bArr V c (ix2 0 q) := by
  have e := idx_4 t
  show V c (Pipeline.arrRef spec12 4) (((cfg12.win 4).blk t).view.emb (ix2 0 q)) = V c (Pipeline.arrRef spec12 4) (ix2 0 q)
  refine congrArg _ (funext fun a => Fin.ext ?_)
  match a with
  | ⟨0, _⟩ => show win12_4.index t (0 : Fin 2) * 1 + 1 * 0 = 0; omega
  | ⟨1, _⟩ => show win12_4.index t (1 : Fin 2) * 128 + 1 * q.val = q.val; omega

/-- The first weight's block is the weight, -/
theorem wtblk_apply (c : Dev nD) (t : Fin cfg12.N) (k q : Fin 128) :
    (iblk12 V c 6 t : Vec Ideal S128x128 .bf16) (ix2 k q) = wtArr V c (ix2 k q) := by
  have e := idx_6 t
  show V c (Pipeline.arrRef spec12 6) (((cfg12.win 6).blk t).view.emb (ix2 k q)) = V c (Pipeline.arrRef spec12 6) (ix2 k q)
  refine congrArg _ (funext fun a => Fin.ext ?_)
  match a with
  | ⟨0, _⟩ => show win12_6.index t (0 : Fin 2) * 128 + 1 * k.val = k.val; omega
  | ⟨1, _⟩ => show win12_6.index t (1 : Fin 2) * 128 + 1 * q.val = q.val; omega

/-- and the second's. -/
theorem wbblk_apply (c : Dev nD) (t : Fin cfg12.N) (k q : Fin 128) :
    (iblk12 V c 7 t : Vec Ideal S128x128 .bf16) (ix2 k q) = wbArr V c (ix2 k q) := by
  have e := idx_7 t
  show V c (Pipeline.arrRef spec12 7) (((cfg12.win 7).blk t).view.emb (ix2 k q)) = V c (Pipeline.arrRef spec12 7) (ix2 k q)
  refine congrArg _ (funext fun a => Fin.ext ?_)
  match a with
  | ⟨0, _⟩ => show win12_7.index t (0 : Fin 2) * 128 + 1 * k.val = k.val; omega
  | ⟨1, _⟩ => show win12_7.index t (1 : Fin 2) * 128 + 1 * q.val = q.val; omega

/-- The first payload on the blocks at point `t` is the layer's output on row block `t`. -/
theorem xn_blk (c : Dev nD) (t : Fin cfg12.N) (p : Fin 4000) (q : Fin 128) (r : Fin 20000)
    (hr : r.val = t.val * 4000 + p.val) :
    k12_pay2 (iblk12 V c 0 t) (iblk12 V c 2 t) (iblk12 V c 1 t) (iblk12 V c 3 t) (iblk12 V c 4 t) (iblk12 V c 5 t) (ix2 p q) = XN V c r q := by
  refine (pay2_apply (iblk12 V c 0 t) (iblk12 V c 2 t) (iblk12 V c 1 t) (iblk12 V c 3 t) (iblk12 V c 4 t) (iblk12 V c 5 t) p q).trans ?_
  rw [zblk_apply V c t p q r hr, hblk_apply V c t p q r hr, mnblk_apply V c t q, vrblk_apply V c t q,
    gblk_apply V c t q, bblk_apply V c t q]
  rfl

/-- The body's result for the first output window on the blocks at point `t`, read through the window's block, is block `t` of the layer's output. -/
theorem out8_eq (c : Dev nD) (t : Fin cfg12.N) :
    (cfg12.win 8).cut (grid12.coords t) (out12_8 (iblk12 V c 0 t) (iblk12 V c 1 t) (iblk12 V c 2 t) (iblk12 V c 3 t) (iblk12 V c 4 t) (iblk12 V c 5 t) (iblk12 V c 6 t) (iblk12 V c 7 t))
      = ((cfg12.win 8).blk t).view.read (Elt Ideal) (M.mk2 (XN V c)) := by
  unfold out12_8
  rw [View.canon_unit_zero hz]
  simp only [View.ld_unit_zero (S := S4000x128) hz, View.ld_unit_zero (S := S1x128) hz]
  have e := idx_8 t
  funext j
  obtain ⟨p, q, rfl⟩ : ∃ (p : Fin 4000) (q : Fin 128), j = ix2 p q := ⟨j 0, j 1, eq_ix2 j⟩
  show k12_pay2 (iblk12 V c 0 t) (iblk12 V c 2 t) (iblk12 V c 1 t) (iblk12 V c 3 t) (iblk12 V c 4 t) (iblk12 V c 5 t) (ix2 p q) = (M.mk2 (XN V c)) (((cfg12.win 8).blk t).view.emb (ix2 p q))
  obtain ⟨i, hi⟩ : ∃ i : S20000x128.Idx, i = ((cfg12.win 8).blk t).view.emb (ix2 p q) := ⟨_, rfl⟩
  rw [← hi]
  have hi0 : (i 0).val = t.val * 4000 + p.val := by
    rw [hi]; show win12_8.index t (0 : Fin 2) * 4000 + 1 * p.val = _; omega
  have hi1 : i 1 = q := Fin.ext (by rw [hi]; show win12_8.index t (1 : Fin 2) * 128 + 1 * q.val = _; omega)
  show _ = XN V c (i 0) (i 1)
  rw [hi1]
  exact xn_blk V c t p q (i 0) hi0

/-- For the second output window: block `t` of the layer's output times the first weight. -/
theorem out9_eq (c : Dev nD) (t : Fin cfg12.N) :
    (cfg12.win 9).cut (grid12.coords t) (out12_9 (iblk12 V c 0 t) (iblk12 V c 1 t) (iblk12 V c 2 t) (iblk12 V c 3 t) (iblk12 V c 4 t) (iblk12 V c 5 t) (iblk12 V c 6 t) (iblk12 V c 7 t))
      = ((cfg12.win 9).blk t).view.read (Elt Ideal) (M.mk2 (M.mm (XN V c) (M.at2 (wtArr V c)))) := by
  unfold out12_9
  rw [View.canon_unit_zero hz]
  simp only [View.ld_unit_zero (S := S4000x128) hz, View.ld_unit_zero (S := S1x128) hz, View.ld_unit_zero (S := S128x128) hz]
  have e := idx_9 t
  funext j
  obtain ⟨p, q, rfl⟩ : ∃ (p : Fin 4000) (q : Fin 128), j = ix2 p q := ⟨j 0, j 1, eq_ix2 j⟩
  show k12_pay5 (iblk12 V c 0 t) (iblk12 V c 2 t) (iblk12 V c 1 t) (iblk12 V c 3 t) (iblk12 V c 4 t) (iblk12 V c 5 t) (iblk12 V c 6 t) (ix2 p q) = (M.mk2 (M.mm (XN V c) (M.at2 (wtArr V c)))) (((cfg12.win 9).blk t).view.emb (ix2 p q))
  obtain ⟨i, hi⟩ : ∃ i : S20000x128.Idx, i = ((cfg12.win 9).blk t).view.emb (ix2 p q) := ⟨_, rfl⟩
  rw [← hi]
  have hi0 : (i 0).val = t.val * 4000 + p.val := by
    rw [hi]; show win12_9.index t (0 : Fin 2) * 4000 + 1 * p.val = _; omega
  have hi1 : i 1 = q := Fin.ext (by rw [hi]; show win12_9.index t (1 : Fin 2) * 128 + 1 * q.val = _; omega)
  refine (pay5_apply (iblk12 V c 0 t) (iblk12 V c 2 t) (iblk12 V c 1 t) (iblk12 V c 3 t) (iblk12 V c 4 t) (iblk12 V c 5 t) (iblk12 V c 6 t) p q).trans ?_
  show _ = ∑ k : Fin 128, XN V c (i 0) k * wtArr V c (ix2 k (i 1))
  rw [hi1]
  refine Finset.sum_congr rfl fun k _ => ?_
  rw [xn_blk V c t p k (i 0) hi0, wtblk_apply V c t k q]

/-- For the third output window: block `t` of the layer's output times the second weight. -/
theorem out10_eq (c : Dev nD) (t : Fin cfg12.N) :
    (cfg12.win 10).cut (grid12.coords t) (out12_10 (iblk12 V c 0 t) (iblk12 V c 1 t) (iblk12 V c 2 t) (iblk12 V c 3 t) (iblk12 V c 4 t) (iblk12 V c 5 t) (iblk12 V c 6 t) (iblk12 V c 7 t))
      = ((cfg12.win 10).blk t).view.read (Elt Ideal) (M.mk2 (M.mm (XN V c) (M.at2 (wbArr V c)))) := by
  unfold out12_10
  rw [View.canon_unit_zero hz]
  simp only [View.ld_unit_zero (S := S4000x128) hz, View.ld_unit_zero (S := S1x128) hz, View.ld_unit_zero (S := S128x128) hz]
  have e := idx_10 t
  funext j
  obtain ⟨p, q, rfl⟩ : ∃ (p : Fin 4000) (q : Fin 128), j = ix2 p q := ⟨j 0, j 1, eq_ix2 j⟩
  show k12_pay1 (k12_pay4 (iblk12 V c 0 t) (iblk12 V c 2 t) (iblk12 V c 1 t) (iblk12 V c 3 t) (iblk12 V c 4 t) (iblk12 V c 5 t) (iblk12 V c 7 t)) (ix2 p q) = (M.mk2 (M.mm (XN V c) (M.at2 (wbArr V c)))) (((cfg12.win 10).blk t).view.emb (ix2 p q))
  obtain ⟨i, hi⟩ : ∃ i : S20000x128.Idx, i = ((cfg12.win 10).blk t).view.emb (ix2 p q) := ⟨_, rfl⟩
  rw [← hi]
  have hi0 : (i 0).val = t.val * 4000 + p.val := by
    rw [hi]; show win12_10.index t (0 : Fin 2) * 4000 + 1 * p.val = _; omega
  have hi1 : i 1 = q := Fin.ext (by rw [hi]; show win12_10.index t (1 : Fin 2) * 128 + 1 * q.val = _; omega)
  refine (pay14_apply (iblk12 V c 0 t) (iblk12 V c 2 t) (iblk12 V c 1 t) (iblk12 V c 3 t) (iblk12 V c 4 t) (iblk12 V c 5 t) (iblk12 V c 7 t) p q).trans ?_
  show _ = ∑ k : Fin 128, XN V c (i 0) k * wbArr V c (ix2 k (i 1))
  rw [hi1]
  refine Finset.sum_congr rfl fun k _ => ?_
  rw [xn_blk V c t p k (i 0) hi0, wbblk_apply V c t k q]

/-- An index of the array is in point `t`'s block of output window 8 iff each coordinate is in the block's range on its axis. -/
theorem mem_blk8 (t : Fin cfg12.N) (i : S20000x128.Idx) :
    i ∈ ((cfg12.win 8).blk t).view.set ↔ ∀ a : Fin 2, win12_8.index t a * S4000x128.size a ≤ (i a).val ∧ (i a).val < win12_8.index t a * S4000x128.size a + S4000x128.size a := by
  show i ∈ ((View.whole main_v402_0).slice (win12_8.rect t)).set ↔ _
  rw [View.set_slice_whole, Rect.mem_set_unit]
  exact Iff.rfl

/-- Row `r` of the array is in the block of point `r / 4000`. -/
theorem cover8 (i : S20000x128.Idx) : ∃ t : Fin cfg12.N, (cfg12.win 8).flush t = true ∧ i ∈ ((cfg12.win 8).blk t).view.set := by
  have hi0 : (i 0).val < 20000 := (i 0).isLt
  have hi1 : (i 1).val < 128 := (i 1).isLt
  have hN : cfg12.N = 5 := N_12
  obtain ⟨t, ht⟩ : ∃ t : Fin cfg12.N, t.val = (i 0).val / 4000 := ⟨⟨(i 0).val / 4000, by rw [hN]; omega⟩, rfl⟩
  have e := idx_8 t
  refine ⟨t, flush12_8 t, ?_⟩
  rw [mem_blk8]
  intro a
  match a with
  | ⟨0, _⟩ =>
    show win12_8.index t (0 : Fin 2) * 4000 ≤ (i 0).val ∧ (i 0).val < win12_8.index t (0 : Fin 2) * 4000 + 4000
    omega
  | ⟨1, _⟩ =>
    show win12_8.index t (1 : Fin 2) * 128 ≤ (i 1).val ∧ (i 1).val < win12_8.index t (1 : Fin 2) * 128 + 128
    omega

/-- An index of the array is in point `t`'s block of output window 9 iff each coordinate is in the block's range on its axis. -/
theorem mem_blk9 (t : Fin cfg12.N) (i : S20000x128.Idx) :
    i ∈ ((cfg12.win 9).blk t).view.set ↔ ∀ a : Fin 2, win12_9.index t a * S4000x128.size a ≤ (i a).val ∧ (i a).val < win12_9.index t a * S4000x128.size a + S4000x128.size a := by
  show i ∈ ((View.whole main_v402_1).slice (win12_9.rect t)).set ↔ _
  rw [View.set_slice_whole, Rect.mem_set_unit]
  exact Iff.rfl

/-- Row `r` of the array is in the block of point `r / 4000`. -/
theorem cover9 (i : S20000x128.Idx) : ∃ t : Fin cfg12.N, (cfg12.win 9).flush t = true ∧ i ∈ ((cfg12.win 9).blk t).view.set := by
  have hi0 : (i 0).val < 20000 := (i 0).isLt
  have hi1 : (i 1).val < 128 := (i 1).isLt
  have hN : cfg12.N = 5 := N_12
  obtain ⟨t, ht⟩ : ∃ t : Fin cfg12.N, t.val = (i 0).val / 4000 := ⟨⟨(i 0).val / 4000, by rw [hN]; omega⟩, rfl⟩
  have e := idx_9 t
  refine ⟨t, flush12_9 t, ?_⟩
  rw [mem_blk9]
  intro a
  match a with
  | ⟨0, _⟩ =>
    show win12_9.index t (0 : Fin 2) * 4000 ≤ (i 0).val ∧ (i 0).val < win12_9.index t (0 : Fin 2) * 4000 + 4000
    omega
  | ⟨1, _⟩ =>
    show win12_9.index t (1 : Fin 2) * 128 ≤ (i 1).val ∧ (i 1).val < win12_9.index t (1 : Fin 2) * 128 + 128
    omega

/-- An index of the array is in point `t`'s block of output window 10 iff each coordinate is in the block's range on its axis. -/
theorem mem_blk10 (t : Fin cfg12.N) (i : S20000x128.Idx) :
    i ∈ ((cfg12.win 10).blk t).view.set ↔ ∀ a : Fin 2, win12_10.index t a * S4000x128.size a ≤ (i a).val ∧ (i a).val < win12_10.index t a * S4000x128.size a + S4000x128.size a := by
  show i ∈ ((View.whole main_v402_2).slice (win12_10.rect t)).set ↔ _
  rw [View.set_slice_whole, Rect.mem_set_unit]
  exact Iff.rfl

/-- Row `r` of the array is in the block of point `r / 4000`. -/
theorem cover10 (i : S20000x128.Idx) : ∃ t : Fin cfg12.N, (cfg12.win 10).flush t = true ∧ i ∈ ((cfg12.win 10).blk t).view.set := by
  have hi0 : (i 0).val < 20000 := (i 0).isLt
  have hi1 : (i 1).val < 128 := (i 1).isLt
  have hN : cfg12.N = 5 := N_12
  obtain ⟨t, ht⟩ : ∃ t : Fin cfg12.N, t.val = (i 0).val / 4000 := ⟨⟨(i 0).val / 4000, by rw [hN]; omega⟩, rfl⟩
  have e := idx_10 t
  refine ⟨t, flush12_10 t, ?_⟩
  rw [mem_blk10]
  intro a
  match a with
  | ⟨0, _⟩ =>
    show win12_10.index t (0 : Fin 2) * 4000 ≤ (i 0).val ∧ (i 0).val < win12_10.index t (0 : Fin 2) * 4000 + 4000
    omega
  | ⟨1, _⟩ =>
    show win12_10.index t (1 : Fin 2) * 128 ≤ (i 1).val ∧ (i 1).val < win12_10.index t (1 : Fin 2) * 128 + 128
    omega

/-- What point `t` writes back to output window 8. -/
theorem flushed8_eq (c : Dev nD) (t : Fin cfg12.N) :
    (dat12 V c).flushed 8 t = ((cfg12.win 8).blk t).view.read (Elt Ideal) (M.mk2 (XN V c)) := by
  show (cfg12.win 8).cut (grid12.coords t) ((dat12 V c).after 8 t) = _
  rw [after12_8]
  exact out8_eq V c t

/-- What point `t` writes back to output window 9. -/
theorem flushed9_eq (c : Dev nD) (t : Fin cfg12.N) :
    (dat12 V c).flushed 9 t = ((cfg12.win 9).blk t).view.read (Elt Ideal) (M.mk2 (M.mm (XN V c) (M.at2 (wtArr V c)))) := by
  show (cfg12.win 9).cut (grid12.coords t) ((dat12 V c).after 9 t) = _
  rw [after12_9]
  exact out9_eq V c t

/-- What point `t` writes back to output window 10. -/
theorem flushed10_eq (c : Dev nD) (t : Fin cfg12.N) :
    (dat12 V c).flushed 10 t = ((cfg12.win 10).blk t).view.read (Elt Ideal) (M.mk2 (M.mm (XN V c) (M.at2 (wbArr V c)))) := by
  show (cfg12.win 10).cut (grid12.coords t) ((dat12 V c).after 10 t) = _
  rw [after12_10]
  exact out10_eq V c t

/-! ## The region's values -/

/-- The layer's output array after the region. -/
theorem arr12_8 (c : Dev nD) : (Cert.KernelIdeal.Gen.dat12 (F := Ideal) V c).arrAt 8 Cert.KernelIdeal.cfg12.N
    = M.mk2 (RegNP.xnew (V c (Pipeline.arrRef Cert.KernelIdeal.spec12 0)) (V c (Pipeline.arrRef Cert.KernelIdeal.spec12 1)) (V c (Pipeline.arrRef Cert.KernelIdeal.spec12 2)) (V c (Pipeline.arrRef Cert.KernelIdeal.spec12 3)) (V c (Pipeline.arrRef Cert.KernelIdeal.spec12 4)) (V c (Pipeline.arrRef Cert.KernelIdeal.spec12 5))) :=
  (dat12 V c).arrAt_eq_of_cover 8 _ (fun t _ => flushed8_eq V c t) cover8

/-- The layer's output times the first weight. -/
theorem arr12_9 (c : Dev nD) : (Cert.KernelIdeal.Gen.dat12 (F := Ideal) V c).arrAt 9 Cert.KernelIdeal.cfg12.N
    = M.mk2 (M.mm (RegNP.xnew (V c (Pipeline.arrRef Cert.KernelIdeal.spec12 0)) (V c (Pipeline.arrRef Cert.KernelIdeal.spec12 1)) (V c (Pipeline.arrRef Cert.KernelIdeal.spec12 2)) (V c (Pipeline.arrRef Cert.KernelIdeal.spec12 3)) (V c (Pipeline.arrRef Cert.KernelIdeal.spec12 4)) (V c (Pipeline.arrRef Cert.KernelIdeal.spec12 5))) (M.at2 (a := 128) (b := 128) (V c (Pipeline.arrRef Cert.KernelIdeal.spec12 6)))) :=
  (dat12 V c).arrAt_eq_of_cover 9 _ (fun t _ => flushed9_eq V c t) cover9

/-- The layer's output times the second weight. -/
theorem arr12_10 (c : Dev nD) : (Cert.KernelIdeal.Gen.dat12 (F := Ideal) V c).arrAt 10 Cert.KernelIdeal.cfg12.N
    = M.mk2 (M.mm (RegNP.xnew (V c (Pipeline.arrRef Cert.KernelIdeal.spec12 0)) (V c (Pipeline.arrRef Cert.KernelIdeal.spec12 1)) (V c (Pipeline.arrRef Cert.KernelIdeal.spec12 2)) (V c (Pipeline.arrRef Cert.KernelIdeal.spec12 3)) (V c (Pipeline.arrRef Cert.KernelIdeal.spec12 4)) (V c (Pipeline.arrRef Cert.KernelIdeal.spec12 5))) (M.at2 (a := 128) (b := 128) (V c (Pipeline.arrRef Cert.KernelIdeal.spec12 7)))) :=
  (dat12 V c).arrAt_eq_of_cover 10 _ (fun t _ => flushed10_eq V c t) cover10

end Cert.RegD12

end
-- ==== Proof.KStageFinL2.lean ====
/-
  The statistics stretches of layer 2 of the kernel program's host code, read into the common mathematical form:
  the same statements as the first layer's, over the later stretches' references and the layer's rows of the
  stacked parameters.
-/
import proofs.«416875_j80633716015165_3_alg».proof.Proof.KStageFin

-- a later layer's references sit deeper in the signature: reading their types off it takes more steps
set_option maxHeartbeats 1000000

noncomputable section

open Idealize.ShloMosaic Idealize.ShloMosaic.ValueIdx
open Cert.KernelIdeal Cert.KernelIdeal.Gen

namespace Cert.KStageFin

/-! ## The stretch `hostOps10` -/

/-- The references `hostOps10` writes. -/
abbrev wr10 : List (Ref sig .tc) :=
  [main_cst_61, main_v323, main_cst_62, main_v324, main_v325, main_cst_63, main_v326, main_cst_64, main_v327, main_v328, main_cst_65, main_v329, main_v330, main_cst_66, main_v331, main_v332, main_v333, main_v334, main_cst_67, main_v335, main_v336, main_v337, main_v338, main_v339, main_v340, main_v341, main_v342, main_v343, main_v344, main_v345, main_v346, main_v347, main_v348, main_v349]

theorem hostOps10_writes : (hostOps10 : List (HloOp τ sig (Elt Ideal))).Forall fun op =>
    op.writes ⊆ (wr10.map (Proc.devRef (τ := τ) .tc)).toFinset :=
  ⟨writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide)⟩

/-- A reference the stretch does not write keeps its contents. -/
theorem hostOps10_keep (V : Valuation τ sig (Elt Ideal)) {r : Ref sig .tc} (hr : r ∉ wr10) :
    StableHlo.after hostOps10 V (Proc.devRef .tc r) = V (Proc.devRef .tc r) :=
  StableHlo.after_of_writes_sub _ V hostOps10_writes hr

/-- The mean. -/
theorem hostOps10_main_v337 (V : Valuation τ sig (Elt Ideal)) :
    (StableHlo.after hostOps10 V (Proc.devRef .tc main_v337) : S1x128.Idx → EReal)
      = M.mk2 (fun _ j => M.meanK (M.at3 (V (Proc.devRef .tc main_v322_1) : S5x8x128.Idx → EReal)) j) := by
  after_results
  exact mean_eq _ _ _ _ _

/-- The variance. -/
theorem hostOps10_main_v338 (V : Valuation τ sig (Elt Ideal)) :
    (StableHlo.after hostOps10 V (Proc.devRef .tc main_v338) : S1x128.Idx → EReal)
      = M.mk2 (fun _ j => M.varK (M.at3 (V (Proc.devRef .tc main_v322_1) : S5x8x128.Idx → EReal))
          (M.at3 (V (Proc.devRef .tc main_v322_2) : S5x8x128.Idx → EReal)) j) := by
  after_results
  exact var_eq _ _ _ _ _ _

/-- Row 2 of `main_arg6`. -/
theorem hostOps10_main_v341 (V : Valuation τ sig (Elt Ideal)) :
    (StableHlo.after hostOps10 V (Proc.devRef .tc main_v341) : S1x128.Idx → EReal)
      = M.mk2 (fun _ j => M.at2 (V (Proc.devRef .tc main_arg6) : S4x128.Idx → EReal) (2 : Fin 4) j) := by
  after_results
  exact rowSlice_eq 2 (by decide) _ _ _ _

/-- Row 2 of `main_arg7`. -/
theorem hostOps10_main_v344 (V : Valuation τ sig (Elt Ideal)) :
    (StableHlo.after hostOps10 V (Proc.devRef .tc main_v344) : S1x128.Idx → EReal)
      = M.mk2 (fun _ j => M.at2 (V (Proc.devRef .tc main_arg7) : S4x128.Idx → EReal) (2 : Fin 4) j) := by
  after_results
  exact rowSlice_eq 2 (by decide) _ _ _ _

/-- Matrix 2 of `main_arg8`. -/
theorem hostOps10_main_v346 (V : Valuation τ sig (Elt Ideal)) :
    (StableHlo.after hostOps10 V (Proc.devRef .tc main_v346) : S128x128.Idx → EReal)
      = M.mk2 (fun k j => M.at3 (V (Proc.devRef .tc main_arg8) : S4x128x128.Idx → EReal) (2 : Fin 4) k j) := by
  after_results
  exact matSlice_eq 2 (by decide) _ _ _

/-- Row 2 of `main_arg9`. -/
theorem hostOps10_main_v349 (V : Valuation τ sig (Elt Ideal)) :
    (StableHlo.after hostOps10 V (Proc.devRef .tc main_v349) : S1x128.Idx → EReal)
      = M.mk2 (fun _ j => M.at2 (V (Proc.devRef .tc main_arg9) : S4x128.Idx → EReal) (2 : Fin 4) j) := by
  after_results
  exact rowSlice_eq 2 (by decide) _ _ _ _

/-! ## The stretch `hostOps11` -/

/-- The references `hostOps11` writes. -/
abbrev wr11 : List (Ref sig .tc) :=
  [main_cst_68, main_v351, main_cst_69, main_v352, main_v353, main_cst_70, main_v354, main_cst_71, main_v355, main_v356, main_cst_72, main_v357, main_v358, main_cst_73, main_v359, main_v360, main_v361, main_v362, main_cst_74, main_v363, main_v364, main_v365, main_v366, main_v367, main_v368, main_v369, main_v370, main_v371, main_v372]

theorem hostOps11_writes : (hostOps11 : List (HloOp τ sig (Elt Ideal))).Forall fun op =>
    op.writes ⊆ (wr11.map (Proc.devRef (τ := τ) .tc)).toFinset :=
  ⟨writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide)⟩

/-- A reference the stretch does not write keeps its contents. -/
theorem hostOps11_keep (V : Valuation τ sig (Elt Ideal)) {r : Ref sig .tc} (hr : r ∉ wr11) :
    StableHlo.after hostOps11 V (Proc.devRef .tc r) = V (Proc.devRef .tc r) :=
  StableHlo.after_of_writes_sub _ V hostOps11_writes hr

/-- The mean. -/
theorem hostOps11_main_v365 (V : Valuation τ sig (Elt Ideal)) :
    (StableHlo.after hostOps11 V (Proc.devRef .tc main_v365) : S1x128.Idx → EReal)
      = M.mk2 (fun _ j => M.meanK (M.at3 (V (Proc.devRef .tc main_v350_1) : S5x8x128.Idx → EReal)) j) := by
  after_results
  exact mean_eq _ _ _ _ _

/-- The variance. -/
theorem hostOps11_main_v366 (V : Valuation τ sig (Elt Ideal)) :
    (StableHlo.after hostOps11 V (Proc.devRef .tc main_v366) : S1x128.Idx → EReal)
      = M.mk2 (fun _ j => M.varK (M.at3 (V (Proc.devRef .tc main_v350_1) : S5x8x128.Idx → EReal))
          (M.at3 (V (Proc.devRef .tc main_v350_2) : S5x8x128.Idx → EReal)) j) := by
  after_results
  exact var_eq _ _ _ _ _ _

/-- Row 2 of `main_arg10`. -/
theorem hostOps11_main_v369 (V : Valuation τ sig (Elt Ideal)) :
    (StableHlo.after hostOps11 V (Proc.devRef .tc main_v369) : S1x128.Idx → EReal)
      = M.mk2 (fun _ j => M.at2 (V (Proc.devRef .tc main_arg10) : S4x128.Idx → EReal) (2 : Fin 4) j) := by
  after_results
  exact rowSlice_eq 2 (by decide) _ _ _ _

/-- Row 2 of `main_arg11`. -/
theorem hostOps11_main_v372 (V : Valuation τ sig (Elt Ideal)) :
    (StableHlo.after hostOps11 V (Proc.devRef .tc main_v372) : S1x128.Idx → EReal)
      = M.mk2 (fun _ j => M.at2 (V (Proc.devRef .tc main_arg11) : S4x128.Idx → EReal) (2 : Fin 4) j) := by
  after_results
  exact rowSlice_eq 2 (by decide) _ _ _ _

/-! ## The stretch `hostOps12` -/

/-- The references `hostOps12` writes. -/
abbrev wr12 : List (Ref sig .tc) :=
  [main_cst_75, main_v374, main_cst_76, main_v375, main_v376, main_cst_77, main_v377, main_cst_78, main_v378, main_v379, main_cst_79, main_v380, main_v381, main_cst_80, main_v382, main_v383, main_v384, main_v385, main_cst_81, main_v386, main_v387, main_v388, main_v389, main_v390, main_v391, main_v392, main_v393, main_v394, main_v395, main_v396, main_v397, main_v398, main_v399, main_v400, main_v401]

theorem hostOps12_writes : (hostOps12 : List (HloOp τ sig (Elt Ideal))).Forall fun op =>
    op.writes ⊆ (wr12.map (Proc.devRef (τ := τ) .tc)).toFinset :=
  ⟨writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide)⟩

/-- A reference the stretch does not write keeps its contents. -/
theorem hostOps12_keep (V : Valuation τ sig (Elt Ideal)) {r : Ref sig .tc} (hr : r ∉ wr12) :
    StableHlo.after hostOps12 V (Proc.devRef .tc r) = V (Proc.devRef .tc r) :=
  StableHlo.after_of_writes_sub _ V hostOps12_writes hr

/-- The mean. -/
theorem hostOps12_main_v388 (V : Valuation τ sig (Elt Ideal)) :
    (StableHlo.after hostOps12 V (Proc.devRef .tc main_v388) : S1x128.Idx → EReal)
      = M.mk2 (fun _ j => M.meanK (M.at3 (V (Proc.devRef .tc main_v373_1) : S5x8x128.Idx → EReal)) j) := by
  after_results
  exact mean_eq _ _ _ _ _

/-- The variance. -/
theorem hostOps12_main_v389 (V : Valuation τ sig (Elt Ideal)) :
    (StableHlo.after hostOps12 V (Proc.devRef .tc main_v389) : S1x128.Idx → EReal)
      = M.mk2 (fun _ j => M.varK (M.at3 (V (Proc.devRef .tc main_v373_1) : S5x8x128.Idx → EReal))
          (M.at3 (V (Proc.devRef .tc main_v373_2) : S5x8x128.Idx → EReal)) j) := by
  after_results
  exact var_eq _ _ _ _ _ _

/-- Row 2 of `main_arg12`. -/
theorem hostOps12_main_v392 (V : Valuation τ sig (Elt Ideal)) :
    (StableHlo.after hostOps12 V (Proc.devRef .tc main_v392) : S1x128.Idx → EReal)
      = M.mk2 (fun _ j => M.at2 (V (Proc.devRef .tc main_arg12) : S4x128.Idx → EReal) (2 : Fin 4) j) := by
  after_results
  exact rowSlice_eq 2 (by decide) _ _ _ _

/-- Row 2 of `main_arg13`. -/
theorem hostOps12_main_v395 (V : Valuation τ sig (Elt Ideal)) :
    (StableHlo.after hostOps12 V (Proc.devRef .tc main_v395) : S1x128.Idx → EReal)
      = M.mk2 (fun _ j => M.at2 (V (Proc.devRef .tc main_arg13) : S4x128.Idx → EReal) (2 : Fin 4) j) := by
  after_results
  exact rowSlice_eq 2 (by decide) _ _ _ _

/-- The top half of matrix 3 of `main_arg14`, in bf16. -/
theorem hostOps12_main_v399 (V : Valuation τ sig (Elt Ideal)) :
    (StableHlo.after hostOps12 V (Proc.devRef .tc main_v399) : S128x128.Idx → EReal)
      = M.mk2 (M.top (M.at3 (V (Proc.devRef .tc main_arg14) : S5x256x128.Idx → EReal) (3 : Fin 5))) := by
  after_results
  exact topHalf_eq 3 (by decide) _ _ _ _ _

/-- The bottom half of matrix 3 of `main_arg14`, in bf16. -/
theorem hostOps12_main_v401 (V : Valuation τ sig (Elt Ideal)) :
    (StableHlo.after hostOps12 V (Proc.devRef .tc main_v401) : S128x128.Idx → EReal)
      = M.mk2 (M.bot (M.at3 (V (Proc.devRef .tc main_arg14) : S5x256x128.Idx → EReal) (3 : Fin 5))) := by
  after_results
  exact botHalf_eq 3 (by decide) _ _ _ _ _

end Cert.KStageFin
-- ==== Proof.KChainLa2.lean ====
/-
  Layer 2's four regions and the three stretches of host operations between them: from what the buffers hold where the
  layer's first region is entered to what they hold where its last region is left.
-/
import proofs.«416875_j80633716015165_3_alg».proof.Proof.KChainBase
import proofs.«416875_j80633716015165_3_alg».proof.Proof.KChainKeep
import proofs.«416875_j80633716015165_3_alg».proof.Proof.KChainArgs
import proofs.«416875_j80633716015165_3_alg».proof.Proof.RegA9
import proofs.«416875_j80633716015165_3_alg».proof.Proof.RegB10
import proofs.«416875_j80633716015165_3_alg».proof.Proof.RegC11
import proofs.«416875_j80633716015165_3_alg».proof.Proof.RegD12
import proofs.«416875_j80633716015165_3_alg».proof.Proof.KStageFinL2

set_option maxRecDepth 16384
-- reading a region's window array back to its buffer name is an evaluation of the window record
set_option maxHeartbeats 1000000
-- one declaration at a time: each reading of a region's window array is evaluated on its own
set_option Elab.async false

noncomputable section

open Idealize.ShloMosaic Idealize.ShloMosaic.TcCoe Idealize.ShloMosaic.ValueIdx
open Cert.KernelIdeal Cert.KernelIdeal.Gen

namespace Cert.KChain.La2

variable (m : (ℓ : Loc nD τ sig) → Buf (Elt Ideal) ℓ) (ρ : Dev nD → PrngReg) (c : Dev nD)

/-! ## The arguments, the node array and the running score are kept -/

theorem args6 (hfin : (inputsK m c).Finite) (h : Entry2 m c (W25 (F := Ideal) m ρ c)) : ArgsKept m c (W26 (F := Ideal) m ρ c) := argsW26 m ρ c h.args
theorem args7 (hfin : (inputsK m c).Finite) (h : Entry2 m c (W25 (F := Ideal) m ρ c)) : ArgsKept m c (W27 (F := Ideal) m ρ c) := argsW27 m ρ c (args6 m ρ c hfin h)
theorem args8 (hfin : (inputsK m c).Finite) (h : Entry2 m c (W25 (F := Ideal) m ρ c)) : ArgsKept m c (W28 (F := Ideal) m ρ c) := argsW28 m ρ c (args7 m ρ c hfin h)
theorem args9 (hfin : (inputsK m c).Finite) (h : Entry2 m c (W25 (F := Ideal) m ρ c)) : ArgsKept m c (W29 (F := Ideal) m ρ c) := argsW29 m ρ c (args8 m ρ c hfin h)
theorem args10 (hfin : (inputsK m c).Finite) (h : Entry2 m c (W25 (F := Ideal) m ρ c)) : ArgsKept m c (W30 (F := Ideal) m ρ c) := argsW30 m ρ c (args9 m ρ c hfin h)
theorem args11 (hfin : (inputsK m c).Finite) (h : Entry2 m c (W25 (F := Ideal) m ρ c)) : ArgsKept m c (W31 (F := Ideal) m ρ c) := argsW31 m ρ c (args10 m ρ c hfin h)
theorem args12 (hfin : (inputsK m c).Finite) (h : Entry2 m c (W25 (F := Ideal) m ρ c)) : ArgsKept m c (W32 (F := Ideal) m ρ c) := argsW32 m ρ c (args11 m ρ c hfin h)

theorem x6 (hfin : (inputsK m c).Finite) (h : Entry2 m c (W25 (F := Ideal) m ρ c)) :
    W26 (F := Ideal) m ρ c (Proc.devRef .tc main_v271_0) = M.mk2 (M.x2 (inputsK m c)) :=
  (keepW26 m ρ c main_v271_0 (nm (by decide))).trans (h.x)
theorem x7 (hfin : (inputsK m c).Finite) (h : Entry2 m c (W25 (F := Ideal) m ρ c)) :
    W27 (F := Ideal) m ρ c (Proc.devRef .tc main_v271_0) = M.mk2 (M.x2 (inputsK m c)) :=
  (keepW27 m ρ c main_v271_0 (nm (by decide))).trans (x6 m ρ c hfin h)
theorem x8 (hfin : (inputsK m c).Finite) (h : Entry2 m c (W25 (F := Ideal) m ρ c)) :
    W28 (F := Ideal) m ρ c (Proc.devRef .tc main_v271_0) = M.mk2 (M.x2 (inputsK m c)) :=
  (keepW28 m ρ c main_v271_0 (nm (by decide))).trans (x7 m ρ c hfin h)
theorem x9 (hfin : (inputsK m c).Finite) (h : Entry2 m c (W25 (F := Ideal) m ρ c)) :
    W29 (F := Ideal) m ρ c (Proc.devRef .tc main_v271_0) = M.mk2 (M.x2 (inputsK m c)) :=
  (keepW29 m ρ c main_v271_0 (nm (by decide))).trans (x8 m ρ c hfin h)
theorem x10 (hfin : (inputsK m c).Finite) (h : Entry2 m c (W25 (F := Ideal) m ρ c)) :
    W30 (F := Ideal) m ρ c (Proc.devRef .tc main_v271_0) = M.mk2 (M.x2 (inputsK m c)) :=
  (keepW30 m ρ c main_v271_0 (nm (by decide))).trans (x9 m ρ c hfin h)
theorem x11 (hfin : (inputsK m c).Finite) (h : Entry2 m c (W25 (F := Ideal) m ρ c)) :
    W31 (F := Ideal) m ρ c (Proc.devRef .tc main_v271_0) = M.mk2 (M.x2 (inputsK m c)) :=
  (keepW31 m ρ c main_v271_0 (nm (by decide))).trans (x10 m ρ c hfin h)

theorem sc6 (hfin : (inputsK m c).Finite) (h : Entry2 m c (W25 (F := Ideal) m ρ c)) :
    W26 (F := Ideal) m ρ c (Proc.devRef .tc main_v303) = M.mk2 (s2 (inputsK m c)) :=
  (keepW26 m ρ c main_v303 (nm (by decide))).trans (h.score)
theorem sc7 (hfin : (inputsK m c).Finite) (h : Entry2 m c (W25 (F := Ideal) m ρ c)) :
    W27 (F := Ideal) m ρ c (Proc.devRef .tc main_v303) = M.mk2 (s2 (inputsK m c)) :=
  (keepW27 m ρ c main_v303 (nm (by decide))).trans (sc6 m ρ c hfin h)
theorem sc8 (hfin : (inputsK m c).Finite) (h : Entry2 m c (W25 (F := Ideal) m ρ c)) :
    W28 (F := Ideal) m ρ c (Proc.devRef .tc main_v303) = M.mk2 (s2 (inputsK m c)) :=
  (keepW28 m ρ c main_v303 (nm (by decide))).trans (sc7 m ρ c hfin h)
theorem sc9 (hfin : (inputsK m c).Finite) (h : Entry2 m c (W25 (F := Ideal) m ρ c)) :
    W29 (F := Ideal) m ρ c (Proc.devRef .tc main_v303) = M.mk2 (s2 (inputsK m c)) :=
  (keepW29 m ρ c main_v303 (nm (by decide))).trans (sc8 m ρ c hfin h)
theorem sc10 (hfin : (inputsK m c).Finite) (h : Entry2 m c (W25 (F := Ideal) m ρ c)) :
    W30 (F := Ideal) m ρ c (Proc.devRef .tc main_v303) = M.mk2 (s2 (inputsK m c)) :=
  (keepW30 m ρ c main_v303 (nm (by decide))).trans (sc9 m ρ c hfin h)
theorem sc11 (hfin : (inputsK m c).Finite) (h : Entry2 m c (W25 (F := Ideal) m ρ c)) :
    W31 (F := Ideal) m ρ c (Proc.devRef .tc main_v303) = M.mk2 (s2 (inputsK m c)) :=
  (keepW31 m ρ c main_v303 (nm (by decide))).trans (sc10 m ρ c hfin h)
theorem sc12 (hfin : (inputsK m c).Finite) (h : Entry2 m c (W25 (F := Ideal) m ρ c)) :
    W32 (F := Ideal) m ρ c (Proc.devRef .tc main_v303) = M.mk2 (s2 (inputsK m c)) :=
  (keepW32 m ρ c main_v303 (nm (by decide))).trans (sc11 m ρ c hfin h)

/-! ## The first region: the first linear map and its tile sums -/

theorem valA (hfin : (inputsK m c).Finite) (h : Entry2 m c (W25 (F := Ideal) m ρ c)) : RegA9.linA (V25 (F := Ideal) m ρ) c = (a1I (inputsK m c) (2 : Fin 4) (M.x2 (inputsK m c))) := by
  have e0 : V25 (F := Ideal) m ρ c (Pipeline.arrRef spec9 0) = M.mk2 (M.x2 (inputsK m c)) := h.x
  have e1 : V25 (F := Ideal) m ρ c (Pipeline.arrRef spec9 1) = M.mk2 (M.neigh (M.x2 (inputsK m c)) (inputsK m c).src (inputsK m c).dst) := h.neigh
  have e2 : V25 (F := Ideal) m ρ c (Pipeline.arrRef spec9 2) = M.mk2 (fun (_ : Fin 1) (_ : Fin 1) => (inputsK m c).eps (2 : Fin 4)) := h.eps
  have e3 : V25 (F := Ideal) m ρ c (Pipeline.arrRef spec9 3) = M.mk2 ((inputsK m c).mlp_w1 (2 : Fin 4)) := h.w1
  have e4 : V25 (F := Ideal) m ρ c (Pipeline.arrRef spec9 4) = M.mk2 (fun (_ : Fin 1) (j : Fin 128) => (inputsK m c).mlp_b1 (2 : Fin 4) j) := h.b1
  exact shapeA e0 e1 e2 e3 e4

theorem a1_6 (hfin : (inputsK m c).Finite) (h : Entry2 m c (W25 (F := Ideal) m ρ c)) : W26 (F := Ideal) m ρ c (Proc.devRef .tc main_v322_0) = M.mk2 (a1I (inputsK m c) (2 : Fin 4) (M.x2 (inputsK m c))) :=
  (W26_arr m ρ c 5).trans ((RegA9.arr9_5 (V25 (F := Ideal) m ρ) c).trans (congrArg M.mk2 (valA m ρ c hfin h)))
theorem S1_6 (hfin : (inputsK m c).Finite) (h : Entry2 m c (W25 (F := Ideal) m ρ c)) : W26 (F := Ideal) m ρ c (Proc.devRef .tc main_v322_1) = M.mk3 (M.sumT (a1I (inputsK m c) (2 : Fin 4) (M.x2 (inputsK m c)))) :=
  (W26_arr m ρ c 6).trans ((RegA9.arr9_6 (V25 (F := Ideal) m ρ) c).trans (congrArg (fun v => M.mk3 (M.sumT v)) (valA m ρ c hfin h)))
theorem Q1_6 (hfin : (inputsK m c).Finite) (h : Entry2 m c (W25 (F := Ideal) m ρ c)) : W26 (F := Ideal) m ρ c (Proc.devRef .tc main_v322_2) = M.mk3 (M.sumsqT (a1I (inputsK m c) (2 : Fin 4) (M.x2 (inputsK m c)))) :=
  (W26_arr m ρ c 7).trans ((RegA9.arr9_7 (V25 (F := Ideal) m ρ) c).trans (congrArg (fun v => M.mk3 (M.sumsqT v)) (valA m ρ c hfin h)))

/-! ## The first statistics stretch -/

theorem a1_7 (hfin : (inputsK m c).Finite) (h : Entry2 m c (W25 (F := Ideal) m ρ c)) : W27 (F := Ideal) m ρ c (Proc.devRef .tc main_v322_0) = M.mk2 (a1I (inputsK m c) (2 : Fin 4) (M.x2 (inputsK m c))) :=
  (keepW27 m ρ c main_v322_0 (nm (by decide))).trans (a1_6 m ρ c hfin h)
theorem mean1_7 (hfin : (inputsK m c).Finite) (h : Entry2 m c (W25 (F := Ideal) m ρ c)) : W27 (F := Ideal) m ρ c (Proc.devRef .tc main_v337) = M.mk2 (fun (_ : Fin 1) j => M.meanK (M.sumT (a1I (inputsK m c) (2 : Fin 4) (M.x2 (inputsK m c)))) j) := by
  have e := KStageFin.hostOps10_main_v337 (W26 (F := Ideal) m ρ c)
  rw [S1_6 m ρ c hfin h] at e
  exact e
theorem var1_7 (hfin : (inputsK m c).Finite) (h : Entry2 m c (W25 (F := Ideal) m ρ c)) : W27 (F := Ideal) m ρ c (Proc.devRef .tc main_v338) = M.mk2 (fun (_ : Fin 1) j => M.varK (M.sumT (a1I (inputsK m c) (2 : Fin 4) (M.x2 (inputsK m c)))) (M.sumsqT (a1I (inputsK m c) (2 : Fin 4) (M.x2 (inputsK m c)))) j) := by
  have e := KStageFin.hostOps10_main_v338 (W26 (F := Ideal) m ρ c)
  rw [S1_6 m ρ c hfin h, Q1_6 m ρ c hfin h] at e
  exact e
theorem g1_7 (hfin : (inputsK m c).Finite) (h : Entry2 m c (W25 (F := Ideal) m ρ c)) : W27 (F := Ideal) m ρ c (Proc.devRef .tc main_v341) = M.mk2 (fun (_ : Fin 1) j => (inputsK m c).mlp_bn_g (2 : Fin 4) j) := by
  have e := KStageFin.hostOps10_main_v341 (W26 (F := Ideal) m ρ c)
  rw [args6 m ρ c hfin h main_arg6 (by decide)] at e
  exact e
theorem c1_7 (hfin : (inputsK m c).Finite) (h : Entry2 m c (W25 (F := Ideal) m ρ c)) : W27 (F := Ideal) m ρ c (Proc.devRef .tc main_v344) = M.mk2 (fun (_ : Fin 1) j => (inputsK m c).mlp_bn_b (2 : Fin 4) j) := by
  have e := KStageFin.hostOps10_main_v344 (W26 (F := Ideal) m ρ c)
  rw [args6 m ρ c hfin h main_arg7 (by decide)] at e
  exact e
theorem w2_7 (hfin : (inputsK m c).Finite) (h : Entry2 m c (W25 (F := Ideal) m ρ c)) : W27 (F := Ideal) m ρ c (Proc.devRef .tc main_v346) = M.mk2 ((inputsK m c).mlp_w2 (2 : Fin 4)) := by
  have e := KStageFin.hostOps10_main_v346 (W26 (F := Ideal) m ρ c)
  rw [args6 m ρ c hfin h main_arg8 (by decide)] at e
  exact e
theorem b2_7 (hfin : (inputsK m c).Finite) (h : Entry2 m c (W25 (F := Ideal) m ρ c)) : W27 (F := Ideal) m ρ c (Proc.devRef .tc main_v349) = M.mk2 (fun (_ : Fin 1) j => (inputsK m c).mlp_b2 (2 : Fin 4) j) := by
  have e := KStageFin.hostOps10_main_v349 (W26 (F := Ideal) m ρ c)
  rw [args6 m ρ c hfin h main_arg9 (by decide)] at e
  exact e

/-! ## The second region: the second linear map and its tile sums -/

theorem valB (hfin : (inputsK m c).Finite) (h : Entry2 m c (W25 (F := Ideal) m ρ c)) : RegB10.val (V27 (F := Ideal) m ρ) c = (a2I (inputsK m c) (2 : Fin 4) (M.x2 (inputsK m c))) := by
  have e0 : V27 (F := Ideal) m ρ c (Pipeline.arrRef spec10 0) = M.mk2 (a1I (inputsK m c) (2 : Fin 4) (M.x2 (inputsK m c))) := a1_7 m ρ c hfin h
  have e1 : V27 (F := Ideal) m ρ c (Pipeline.arrRef spec10 1) = M.mk2 (fun (_ : Fin 1) j => M.meanK (M.sumT (a1I (inputsK m c) (2 : Fin 4) (M.x2 (inputsK m c)))) j) := mean1_7 m ρ c hfin h
  have e2 : V27 (F := Ideal) m ρ c (Pipeline.arrRef spec10 2) = M.mk2 (fun (_ : Fin 1) j => M.varK (M.sumT (a1I (inputsK m c) (2 : Fin 4) (M.x2 (inputsK m c)))) (M.sumsqT (a1I (inputsK m c) (2 : Fin 4) (M.x2 (inputsK m c)))) j) := var1_7 m ρ c hfin h
  have e3 : V27 (F := Ideal) m ρ c (Pipeline.arrRef spec10 3) = M.mk2 (fun (_ : Fin 1) j => (inputsK m c).mlp_bn_g (2 : Fin 4) j) := g1_7 m ρ c hfin h
  have e4 : V27 (F := Ideal) m ρ c (Pipeline.arrRef spec10 4) = M.mk2 (fun (_ : Fin 1) j => (inputsK m c).mlp_bn_b (2 : Fin 4) j) := c1_7 m ρ c hfin h
  have e5 : V27 (F := Ideal) m ρ c (Pipeline.arrRef spec10 5) = M.mk2 ((inputsK m c).mlp_w2 (2 : Fin 4)) := w2_7 m ρ c hfin h
  have e6 : V27 (F := Ideal) m ρ c (Pipeline.arrRef spec10 6) = M.mk2 (fun (_ : Fin 1) j => (inputsK m c).mlp_b2 (2 : Fin 4) j) := b2_7 m ρ c hfin h
  exact shapeB (fin_a1I (inputsK m c) hfin (2 : Fin 4) (M.x2 (inputsK m c)) (MathStats.fin_x2 (inputsK m c) hfin)) e0 e1 e2 e3 e4 e5 e6

theorem a2_8 (hfin : (inputsK m c).Finite) (h : Entry2 m c (W25 (F := Ideal) m ρ c)) : W28 (F := Ideal) m ρ c (Proc.devRef .tc main_v350_0) = M.mk2 (a2I (inputsK m c) (2 : Fin 4) (M.x2 (inputsK m c))) :=
  (W28_arr m ρ c 7).trans ((RegB10.arr10_7 (V27 (F := Ideal) m ρ) c).trans (congrArg M.mk2 (valB m ρ c hfin h)))
theorem S2_8 (hfin : (inputsK m c).Finite) (h : Entry2 m c (W25 (F := Ideal) m ρ c)) : W28 (F := Ideal) m ρ c (Proc.devRef .tc main_v350_1) = M.mk3 (M.sumT (a2I (inputsK m c) (2 : Fin 4) (M.x2 (inputsK m c)))) :=
  (W28_arr m ρ c 8).trans ((RegB10.arr10_8 (V27 (F := Ideal) m ρ) c).trans (congrArg (fun v => M.mk3 (M.sumT v)) (valB m ρ c hfin h)))
theorem Q2_8 (hfin : (inputsK m c).Finite) (h : Entry2 m c (W25 (F := Ideal) m ρ c)) : W28 (F := Ideal) m ρ c (Proc.devRef .tc main_v350_2) = M.mk3 (M.sumsqT (a2I (inputsK m c) (2 : Fin 4) (M.x2 (inputsK m c)))) :=
  (W28_arr m ρ c 9).trans ((RegB10.arr10_9 (V27 (F := Ideal) m ρ) c).trans (congrArg (fun v => M.mk3 (M.sumsqT v)) (valB m ρ c hfin h)))

/-! ## The second statistics stretch -/

theorem a2_9 (hfin : (inputsK m c).Finite) (h : Entry2 m c (W25 (F := Ideal) m ρ c)) : W29 (F := Ideal) m ρ c (Proc.devRef .tc main_v350_0) = M.mk2 (a2I (inputsK m c) (2 : Fin 4) (M.x2 (inputsK m c))) :=
  (keepW29 m ρ c main_v350_0 (nm (by decide))).trans (a2_8 m ρ c hfin h)
theorem mean2_9 (hfin : (inputsK m c).Finite) (h : Entry2 m c (W25 (F := Ideal) m ρ c)) : W29 (F := Ideal) m ρ c (Proc.devRef .tc main_v365) = M.mk2 (fun (_ : Fin 1) j => M.meanK (M.sumT (a2I (inputsK m c) (2 : Fin 4) (M.x2 (inputsK m c)))) j) := by
  have e := KStageFin.hostOps11_main_v365 (W28 (F := Ideal) m ρ c)
  rw [S2_8 m ρ c hfin h] at e
  exact e
theorem var2_9 (hfin : (inputsK m c).Finite) (h : Entry2 m c (W25 (F := Ideal) m ρ c)) : W29 (F := Ideal) m ρ c (Proc.devRef .tc main_v366) = M.mk2 (fun (_ : Fin 1) j => M.varK (M.sumT (a2I (inputsK m c) (2 : Fin 4) (M.x2 (inputsK m c)))) (M.sumsqT (a2I (inputsK m c) (2 : Fin 4) (M.x2 (inputsK m c)))) j) := by
  have e := KStageFin.hostOps11_main_v366 (W28 (F := Ideal) m ρ c)
  rw [S2_8 m ρ c hfin h, Q2_8 m ρ c hfin h] at e
  exact e
theorem ag_9 (hfin : (inputsK m c).Finite) (h : Entry2 m c (W25 (F := Ideal) m ρ c)) : W29 (F := Ideal) m ρ c (Proc.devRef .tc main_v369) = M.mk2 (fun (_ : Fin 1) j => (inputsK m c).app_bn_g (2 : Fin 4) j) := by
  have e := KStageFin.hostOps11_main_v369 (W28 (F := Ideal) m ρ c)
  rw [args8 m ρ c hfin h main_arg10 (by decide)] at e
  exact e
theorem ab_9 (hfin : (inputsK m c).Finite) (h : Entry2 m c (W25 (F := Ideal) m ρ c)) : W29 (F := Ideal) m ρ c (Proc.devRef .tc main_v372) = M.mk2 (fun (_ : Fin 1) j => (inputsK m c).app_bn_b (2 : Fin 4) j) := by
  have e := KStageFin.hostOps11_main_v372 (W28 (F := Ideal) m ρ c)
  rw [args8 m ρ c hfin h main_arg11 (by decide)] at e
  exact e

/-! ## The third region: the second normalisation and its tile sums -/

theorem valC (hfin : (inputsK m c).Finite) (h : Entry2 m c (W25 (F := Ideal) m ρ c)) :
    M.bnrelu (M.at2 (V29 (F := Ideal) m ρ c (Pipeline.arrRef spec11 0))) (fun j => M.at2 (V29 (F := Ideal) m ρ c (Pipeline.arrRef spec11 1)) 0 j)
      (fun j => M.at2 (V29 (F := Ideal) m ρ c (Pipeline.arrRef spec11 2)) 0 j) (fun j => M.at2 (V29 (F := Ideal) m ρ c (Pipeline.arrRef spec11 3)) 0 j)
      (fun j => M.at2 (V29 (F := Ideal) m ρ c (Pipeline.arrRef spec11 4)) 0 j) = (a3I (inputsK m c) (2 : Fin 4) (M.x2 (inputsK m c))) := by
  have e0 : V29 (F := Ideal) m ρ c (Pipeline.arrRef spec11 0) = M.mk2 (a2I (inputsK m c) (2 : Fin 4) (M.x2 (inputsK m c))) := a2_9 m ρ c hfin h
  have e1 : V29 (F := Ideal) m ρ c (Pipeline.arrRef spec11 1) = M.mk2 (fun (_ : Fin 1) j => M.meanK (M.sumT (a2I (inputsK m c) (2 : Fin 4) (M.x2 (inputsK m c)))) j) := mean2_9 m ρ c hfin h
  have e2 : V29 (F := Ideal) m ρ c (Pipeline.arrRef spec11 2) = M.mk2 (fun (_ : Fin 1) j => M.varK (M.sumT (a2I (inputsK m c) (2 : Fin 4) (M.x2 (inputsK m c)))) (M.sumsqT (a2I (inputsK m c) (2 : Fin 4) (M.x2 (inputsK m c)))) j) := var2_9 m ρ c hfin h
  have e3 : V29 (F := Ideal) m ρ c (Pipeline.arrRef spec11 3) = M.mk2 (fun (_ : Fin 1) j => (inputsK m c).app_bn_g (2 : Fin 4) j) := ag_9 m ρ c hfin h
  have e4 : V29 (F := Ideal) m ρ c (Pipeline.arrRef spec11 4) = M.mk2 (fun (_ : Fin 1) j => (inputsK m c).app_bn_b (2 : Fin 4) j) := ab_9 m ρ c hfin h
  exact shapeC (fin_a2I (inputsK m c) hfin (2 : Fin 4) (M.x2 (inputsK m c)) (MathStats.fin_x2 (inputsK m c) hfin)) e0 e1 e2 e3 e4

theorem a3_10 (hfin : (inputsK m c).Finite) (h : Entry2 m c (W25 (F := Ideal) m ρ c)) : W30 (F := Ideal) m ρ c (Proc.devRef .tc main_v373_0) = M.mk2 (a3I (inputsK m c) (2 : Fin 4) (M.x2 (inputsK m c))) :=
  (W30_arr m ρ c 5).trans ((RegC11.arr11_5 (V29 (F := Ideal) m ρ) c).trans (congrArg M.mk2 (valC m ρ c hfin h)))
theorem S3_10 (hfin : (inputsK m c).Finite) (h : Entry2 m c (W25 (F := Ideal) m ρ c)) : W30 (F := Ideal) m ρ c (Proc.devRef .tc main_v373_1) = M.mk3 (M.sumT (a3I (inputsK m c) (2 : Fin 4) (M.x2 (inputsK m c)))) :=
  (W30_arr m ρ c 6).trans ((RegC11.arr11_6 (V29 (F := Ideal) m ρ) c).trans (congrArg (fun v => M.mk3 (M.sumT v)) (valC m ρ c hfin h)))
theorem Q3_10 (hfin : (inputsK m c).Finite) (h : Entry2 m c (W25 (F := Ideal) m ρ c)) : W30 (F := Ideal) m ρ c (Proc.devRef .tc main_v373_2) = M.mk3 (M.sumsqT (a3I (inputsK m c) (2 : Fin 4) (M.x2 (inputsK m c)))) :=
  (W30_arr m ρ c 7).trans ((RegC11.arr11_7 (V29 (F := Ideal) m ρ) c).trans (congrArg (fun v => M.mk3 (M.sumsqT v)) (valC m ρ c hfin h)))

/-! ## The third statistics stretch, with the next head's weight halves -/

theorem a3_11 (hfin : (inputsK m c).Finite) (h : Entry2 m c (W25 (F := Ideal) m ρ c)) : W31 (F := Ideal) m ρ c (Proc.devRef .tc main_v373_0) = M.mk2 (a3I (inputsK m c) (2 : Fin 4) (M.x2 (inputsK m c))) :=
  (keepW31 m ρ c main_v373_0 (nm (by decide))).trans (a3_10 m ρ c hfin h)
theorem mean3_11 (hfin : (inputsK m c).Finite) (h : Entry2 m c (W25 (F := Ideal) m ρ c)) : W31 (F := Ideal) m ρ c (Proc.devRef .tc main_v388) = M.mk2 (fun (_ : Fin 1) j => M.meanK (M.sumT (a3I (inputsK m c) (2 : Fin 4) (M.x2 (inputsK m c)))) j) := by
  have e := KStageFin.hostOps12_main_v388 (W30 (F := Ideal) m ρ c)
  rw [S3_10 m ρ c hfin h] at e
  exact e
theorem var3_11 (hfin : (inputsK m c).Finite) (h : Entry2 m c (W25 (F := Ideal) m ρ c)) : W31 (F := Ideal) m ρ c (Proc.devRef .tc main_v389) = M.mk2 (fun (_ : Fin 1) j => M.varK (M.sumT (a3I (inputsK m c) (2 : Fin 4) (M.x2 (inputsK m c)))) (M.sumsqT (a3I (inputsK m c) (2 : Fin 4) (M.x2 (inputsK m c)))) j) := by
  have e := KStageFin.hostOps12_main_v389 (W30 (F := Ideal) m ρ c)
  rw [S3_10 m ρ c hfin h, Q3_10 m ρ c hfin h] at e
  exact e
theorem gg_11 (hfin : (inputsK m c).Finite) (h : Entry2 m c (W25 (F := Ideal) m ρ c)) : W31 (F := Ideal) m ρ c (Proc.devRef .tc main_v392) = M.mk2 (fun (_ : Fin 1) j => (inputsK m c).gin_bn_g (2 : Fin 4) j) := by
  have e := KStageFin.hostOps12_main_v392 (W30 (F := Ideal) m ρ c)
  rw [args10 m ρ c hfin h main_arg12 (by decide)] at e
  exact e
theorem gb_11 (hfin : (inputsK m c).Finite) (h : Entry2 m c (W25 (F := Ideal) m ρ c)) : W31 (F := Ideal) m ρ c (Proc.devRef .tc main_v395) = M.mk2 (fun (_ : Fin 1) j => (inputsK m c).gin_bn_b (2 : Fin 4) j) := by
  have e := KStageFin.hostOps12_main_v395 (W30 (F := Ideal) m ρ c)
  rw [args10 m ρ c hfin h main_arg13 (by decide)] at e
  exact e
theorem wt_11 (hfin : (inputsK m c).Finite) (h : Entry2 m c (W25 (F := Ideal) m ρ c)) : W31 (F := Ideal) m ρ c (Proc.devRef .tc main_v399) = M.mk2 (M.top ((inputsK m c).pred_w1 (3 : Fin 5))) := by
  have e := KStageFin.hostOps12_main_v399 (W30 (F := Ideal) m ρ c)
  rw [args10 m ρ c hfin h main_arg14 (by decide)] at e
  exact e
theorem wb_11 (hfin : (inputsK m c).Finite) (h : Entry2 m c (W25 (F := Ideal) m ρ c)) : W31 (F := Ideal) m ρ c (Proc.devRef .tc main_v401) = M.mk2 (M.bot ((inputsK m c).pred_w1 (3 : Fin 5))) := by
  have e := KStageFin.hostOps12_main_v401 (W30 (F := Ideal) m ρ c)
  rw [args10 m ρ c hfin h main_arg14 (by decide)] at e
  exact e

/-! ## The fourth region: the layer's output and its two products with the next head's weight halves -/

theorem valD (hfin : (inputsK m c).Finite) (h : Entry2 m c (W25 (F := Ideal) m ρ c)) :
    RegNP.xnew (V31 (F := Ideal) m ρ c (Pipeline.arrRef spec12 0)) (V31 (F := Ideal) m ρ c (Pipeline.arrRef spec12 1)) (V31 (F := Ideal) m ρ c (Pipeline.arrRef spec12 2)) (V31 (F := Ideal) m ρ c (Pipeline.arrRef spec12 3))
      (V31 (F := Ideal) m ρ c (Pipeline.arrRef spec12 4)) (V31 (F := Ideal) m ρ c (Pipeline.arrRef spec12 5)) = M.x3 (inputsK m c) := by
  have e0 : V31 (F := Ideal) m ρ c (Pipeline.arrRef spec12 0) = M.mk2 (a3I (inputsK m c) (2 : Fin 4) (M.x2 (inputsK m c))) := a3_11 m ρ c hfin h
  have e1 : V31 (F := Ideal) m ρ c (Pipeline.arrRef spec12 1) = M.mk2 (fun (_ : Fin 1) j => M.meanK (M.sumT (a3I (inputsK m c) (2 : Fin 4) (M.x2 (inputsK m c)))) j) := mean3_11 m ρ c hfin h
  have e2 : V31 (F := Ideal) m ρ c (Pipeline.arrRef spec12 2) = M.mk2 (fun (_ : Fin 1) j => M.varK (M.sumT (a3I (inputsK m c) (2 : Fin 4) (M.x2 (inputsK m c)))) (M.sumsqT (a3I (inputsK m c) (2 : Fin 4) (M.x2 (inputsK m c)))) j) := var3_11 m ρ c hfin h
  have e3 : V31 (F := Ideal) m ρ c (Pipeline.arrRef spec12 3) = M.mk2 (fun (_ : Fin 1) j => (inputsK m c).gin_bn_g (2 : Fin 4) j) := gg_11 m ρ c hfin h
  have e4 : V31 (F := Ideal) m ρ c (Pipeline.arrRef spec12 4) = M.mk2 (fun (_ : Fin 1) j => (inputsK m c).gin_bn_b (2 : Fin 4) j) := gb_11 m ρ c hfin h
  have e5 : V31 (F := Ideal) m ρ c (Pipeline.arrRef spec12 5) = M.mk2 (M.x2 (inputsK m c)) := x11 m ρ c hfin h
  exact (shapeD (fin_a3I (inputsK m c) hfin (2 : Fin 4) (M.x2 (inputsK m c)) (MathStats.fin_x2 (inputsK m c) hfin)) e0 e1 e2 e3 e4 e5).trans
    (layerI_eq (inputsK m c) (2 : Fin 4) (M.x2 (inputsK m c))).symm

theorem x_12 (hfin : (inputsK m c).Finite) (h : Entry2 m c (W25 (F := Ideal) m ρ c)) : W32 (F := Ideal) m ρ c (Proc.devRef .tc main_v402_0) = M.mk2 (M.x3 (inputsK m c)) :=
  (W32_arr m ρ c 8).trans ((RegD12.arr12_8 (V31 (F := Ideal) m ρ) c).trans (congrArg M.mk2 (valD m ρ c hfin h)))
theorem p_12 (hfin : (inputsK m c).Finite) (h : Entry2 m c (W25 (F := Ideal) m ρ c)) : W32 (F := Ideal) m ρ c (Proc.devRef .tc main_v402_1) = M.mk2 (M.mm (M.x3 (inputsK m c)) (M.top ((inputsK m c).pred_w1 (3 : Fin 5)))) :=
  (W32_arr m ρ c 9).trans ((RegD12.arr12_9 (V31 (F := Ideal) m ρ) c).trans
    (congrArg M.mk2 (congrArg₂ M.mm (valD m ρ c hfin h) (congrArg (M.at2 (a := 128) (b := 128)) (wt_11 m ρ c hfin h)))))
theorem q_12 (hfin : (inputsK m c).Finite) (h : Entry2 m c (W25 (F := Ideal) m ρ c)) : W32 (F := Ideal) m ρ c (Proc.devRef .tc main_v402_2) = M.mk2 (M.mm (M.x3 (inputsK m c)) (M.bot ((inputsK m c).pred_w1 (3 : Fin 5)))) :=
  (W32_arr m ρ c 10).trans ((RegD12.arr12_10 (V31 (F := Ideal) m ρ) c).trans
    (congrArg M.mk2 (congrArg₂ M.mm (valD m ρ c hfin h) (congrArg (M.at2 (a := 128) (b := 128)) (wb_11 m ρ c hfin h)))))

end Cert.KChain.La2

namespace Cert.KChain

/-- Layer 2's regions: from the layer's entry to its last region's exit. -/
theorem la2 (m : (ℓ : Loc nD τ sig) → Buf (Elt Ideal) ℓ) (ρ : Dev nD → PrngReg) (c : Dev nD)
    (hfin : (inputsK m c).Finite) (h : Entry2 m c (W25 (F := Ideal) m ρ c)) : Exit2 m c (W32 (F := Ideal) m ρ c) :=
  ⟨La2.x_12 m ρ c hfin h, La2.p_12 m ρ c hfin h, La2.q_12 m ρ c hfin h, La2.sc12 m ρ c hfin h, La2.args12 m ρ c hfin h⟩

end Cert.KChain

end
-- ==== Proof.KChainLh2.lean ====
/-
  Layer 2's head stretches: from what the buffers hold where the layer's last region is left (the next node array and
  its two per-node products) to what they hold where the next layer's first region is entered (the next head's score
  added to the running score, the neighbour sums, the next layer's parameter slices).
-/
import proofs.«416875_j80633716015165_3_alg».proof.Proof.KChainBase
import proofs.«416875_j80633716015165_3_alg».proof.Proof.KChainKeep
import proofs.«416875_j80633716015165_3_alg».proof.Proof.KChainArgs
import proofs.«416875_j80633716015165_3_alg».proof.Proof.KChainGather
import proofs.«416875_j80633716015165_3_alg».proof.Proof.KStageHeadSib

set_option maxRecDepth 16384
-- one declaration at a time: each reading of a region's window array is evaluated on its own
set_option Elab.async false

noncomputable section

open Idealize.ShloMosaic Idealize.ShloMosaic.TcCoe Idealize.ShloMosaic.ValueIdx
open Cert.KernelIdeal Cert.KernelIdeal.Gen

namespace Cert.KChain.Lh2

variable (m : (ℓ : Loc nD τ sig) → Buf (Elt Ideal) ℓ) (ρ : Dev nD → PrngReg) (c : Dev nD)

/-! ## The arguments, the node array and the running score are kept -/

theorem args13 (hfin : (inputsK m c).Finite) (h : Exit2 m c (W32 (F := Ideal) m ρ c)) :
    ArgsKept m c (W33 (F := Ideal) m ρ c) := argsW33 m ρ c h.args
theorem args14 (hfin : (inputsK m c).Finite) (h : Exit2 m c (W32 (F := Ideal) m ρ c)) :
    ArgsKept m c (W34 (F := Ideal) m ρ c) := argsW34 m ρ c (args13 m ρ c hfin h)
theorem args15 (hfin : (inputsK m c).Finite) (h : Exit2 m c (W32 (F := Ideal) m ρ c)) :
    ArgsKept m c (W35 (F := Ideal) m ρ c) := argsW35 m ρ c (args14 m ρ c hfin h)

theorem x13 (hfin : (inputsK m c).Finite) (h : Exit2 m c (W32 (F := Ideal) m ρ c)) :
    W33 (F := Ideal) m ρ c (Proc.devRef .tc main_v402_0) = M.mk2 (M.x3 (inputsK m c)) :=
  (keepW33 m ρ c main_v402_0 (nm (by decide))).trans h.x
theorem x14 (hfin : (inputsK m c).Finite) (h : Exit2 m c (W32 (F := Ideal) m ρ c)) :
    W34 (F := Ideal) m ρ c (Proc.devRef .tc main_v402_0) = M.mk2 (M.x3 (inputsK m c)) :=
  (keepW34 m ρ c main_v402_0 (nm (by decide))).trans (x13 m ρ c hfin h)
theorem x15 (hfin : (inputsK m c).Finite) (h : Exit2 m c (W32 (F := Ideal) m ρ c)) :
    W35 (F := Ideal) m ρ c (Proc.devRef .tc main_v402_0) = M.mk2 (M.x3 (inputsK m c)) :=
  (keepW35 m ρ c main_v402_0 (nm (by decide))).trans (x14 m ρ c hfin h)

theorem sc13 (hfin : (inputsK m c).Finite) (h : Exit2 m c (W32 (F := Ideal) m ρ c)) :
    W33 (F := Ideal) m ρ c (Proc.devRef .tc main_v303) = M.mk2 (s2 (inputsK m c)) :=
  (keepW33 m ρ c main_v303 (nm (by decide))).trans h.score
theorem sc14 (hfin : (inputsK m c).Finite) (h : Exit2 m c (W32 (F := Ideal) m ρ c)) :
    W34 (F := Ideal) m ρ c (Proc.devRef .tc main_v303) = M.mk2 (s2 (inputsK m c)) :=
  (keepW34 m ρ c main_v303 (nm (by decide))).trans (sc13 m ρ c hfin h)

/-! ## The head: gathered products, bias, rectifier, second map, added to the running score -/

/-- The head's pre-activation: the source product's row plus the target product's row plus the first bias. -/
theorem pre13 (hfin : (inputsK m c).Finite) (h : Exit2 m c (W32 (F := Ideal) m ρ c)) :
    W33 (F := Ideal) m ρ c (Proc.devRef .tc main_v424)
      = M.mk2 (fun e j =>
          (M.rows (M.mm (M.x3 (inputsK m c)) (M.top ((inputsK m c).pred_w1 (3 : Fin 5)))) (inputsK m c).src e j
            + M.rows (M.mm (M.x3 (inputsK m c)) (M.bot ((inputsK m c).pred_w1 (3 : Fin 5)))) (inputsK m c).dst e j)
          + (inputsK m c).pred_b1 (3 : Fin 5) j) := by
  have e := KStageHead.ops13_v424 (W32 (F := Ideal) m ρ c)
  rw [h.p, h.q, h.args main_arg18 (by decide), h.args main_arg19 (by decide), h.args main_arg15 (by decide),
    gath_eq, gath_eq] at e
  exact e

/-- The rectified pre-activation. -/
theorem act14 (hfin : (inputsK m c).Finite) (h : Exit2 m c (W32 (F := Ideal) m ρ c)) :
    W34 (F := Ideal) m ρ c (Proc.devRef .tc main_v425)
      = M.mk2 (fun e j => max
          ((M.rows (M.mm (M.x3 (inputsK m c)) (M.top ((inputsK m c).pred_w1 (3 : Fin 5)))) (inputsK m c).src e j
            + M.rows (M.mm (M.x3 (inputsK m c)) (M.bot ((inputsK m c).pred_w1 (3 : Fin 5)))) (inputsK m c).dst e j)
          + (inputsK m c).pred_b1 (3 : Fin 5) j) M.c0) := by
  have e := KStageHead.ops13_1_v425 (W33 (F := Ideal) m ρ c)
  rw [pre13 m ρ c hfin h] at e
  exact e

/-- The running score with this head's score added. -/
theorem sc15 (hfin : (inputsK m c).Finite) (h : Exit2 m c (W32 (F := Ideal) m ρ c)) :
    W35 (F := Ideal) m ρ c (Proc.devRef .tc main_v434) = M.mk2 (s3 (inputsK m c)) := by
  have e := KStageHead.ops13_2_v434 (W34 (F := Ideal) m ρ c)
  rw [sc14 m ρ c hfin h, act14 m ρ c hfin h, args14 m ρ c hfin h main_arg16 (by decide),
    args14 m ρ c hfin h main_arg17 (by decide)] at e
  refine e.trans (congrArg M.mk2 ?_)
  funext ed k
  show s2 (inputsK m c) ed k
      + M.headK (M.rows (M.mm (M.x3 (inputsK m c)) (M.top ((inputsK m c).pred_w1 (3 : Fin 5)))) (inputsK m c).src)
          (M.rows (M.mm (M.x3 (inputsK m c)) (M.bot ((inputsK m c).pred_w1 (3 : Fin 5)))) (inputsK m c).dst)
          ((inputsK m c).pred_b1 (3 : Fin 5)) ((inputsK m c).pred_w2 (3 : Fin 5)) ((inputsK m c).pred_b2 (3 : Fin 5)) ed k
      = s3 (inputsK m c) ed k
  rw [headI_K (inputsK m c) (3 : Fin 5) (M.x3 (inputsK m c))]
  rfl

/-! ## The neighbour sums and the next layer's parameter slices -/

theorem neigh15 (hfin : (inputsK m c).Finite) (h : Exit2 m c (W32 (F := Ideal) m ρ c)) :
    W35 (F := Ideal) m ρ c (Proc.devRef .tc main_v444)
      = M.mk2 (M.neigh (M.x3 (inputsK m c)) (inputsK m c).src (inputsK m c).dst) := by
  have e := KStageHead.ops13_2_v444 (W34 (F := Ideal) m ρ c)
  rw [x14 m ρ c hfin h, args14 m ρ c hfin h main_arg18 (by decide), args14 m ρ c hfin h main_arg19 (by decide),
    scat_gath_eq] at e
  exact e
theorem eps15 (hfin : (inputsK m c).Finite) (h : Exit2 m c (W32 (F := Ideal) m ρ c)) :
    W35 (F := Ideal) m ρ c (Proc.devRef .tc main_v447)
      = M.mk2 (fun (_ : Fin 1) (_ : Fin 1) => (inputsK m c).eps (3 : Fin 4)) := by
  have e := KStageHead.ops13_2_v447 (W34 (F := Ideal) m ρ c)
  rw [args14 m ρ c hfin h main_arg3 (by decide)] at e
  exact e
theorem w1_15 (hfin : (inputsK m c).Finite) (h : Exit2 m c (W32 (F := Ideal) m ρ c)) :
    W35 (F := Ideal) m ρ c (Proc.devRef .tc main_v449) = M.mk2 ((inputsK m c).mlp_w1 (3 : Fin 4)) := by
  have e := KStageHead.ops13_2_v449 (W34 (F := Ideal) m ρ c)
  rw [args14 m ρ c hfin h main_arg4 (by decide)] at e
  exact e
theorem b1_15 (hfin : (inputsK m c).Finite) (h : Exit2 m c (W32 (F := Ideal) m ρ c)) :
    W35 (F := Ideal) m ρ c (Proc.devRef .tc main_v452)
      = M.mk2 (fun (_ : Fin 1) (j : Fin 128) => (inputsK m c).mlp_b1 (3 : Fin 4) j) := by
  have e := KStageHead.ops13_2_v452 (W34 (F := Ideal) m ρ c)
  rw [args14 m ρ c hfin h main_arg5 (by decide)] at e
  exact e

end Cert.KChain.Lh2

namespace Cert.KChain

/-- Layer 2's head stretches: from the layer's last region's exit to the next layer's entry. -/
theorem lh2 (m : (ℓ : Loc nD τ sig) → Buf (Elt Ideal) ℓ) (ρ : Dev nD → PrngReg) (c : Dev nD)
    (hfin : (inputsK m c).Finite) (h : Exit2 m c (W32 (F := Ideal) m ρ c)) : Entry3 m c (W35 (F := Ideal) m ρ c) :=
  ⟨Lh2.x15 m ρ c hfin h, Lh2.sc15 m ρ c hfin h, Lh2.neigh15 m ρ c hfin h, Lh2.eps15 m ρ c hfin h,
    Lh2.w1_15 m ρ c hfin h, Lh2.b1_15 m ρ c hfin h, Lh2.args15 m ρ c hfin h⟩

end Cert.KChain

end
-- ==== Proof.RegA13.lean ====
/-
  The value of region 13 (the first kernel of layer 3): what its three output arrays hold after the region, as functions
  of the five input arrays as the region finds them.

  The body forms, on each tile of 4000 rows, the block a = ((1 + ε) · x + neigh) · w₁ + b₁ of the layer's first linear map
  (the contraction over the 128 columns of the left factor; the narrowing of the factors is the identity on the extended
  reals), stores it, and stores beside it the tile's column sums of a and of a², each repeated over eight rows. Read at an
  index, the body's value at row p of tile t is the first linear map of the whole arrays at row 4000 t + p; the blocks the
  points write back tile each output array, so the arrays end holding the first linear map, its tiled column sums and
  the tiled column sums of its squares.
-/
import proofs.«416875_j80633716015165_3_alg».proof.Proof.Spec
import proofs.«416875_j80633716015165_3_alg».proof.Proof.FrameKI
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

open Idealize.ShloMosaic Idealize.ShloMosaic.ValueIdx

namespace Cert.RegA13

open Cert.KernelIdeal Cert.KernelIdeal.Gen
open Idealize.ShloMosaic.TcCoe
open Idealize.ShloMosaic.Pipeline (Dat)

/-! ## The block product at an index -/

theorem lhs_dot_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl

theorem lhs_dot_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q

theorem rhs_dot_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q

theorem rhs_dot_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-- The product of a 4000×128 block with a 128×128 block into the zero splat, at (p, q): the sum over the contracted
    coordinate of row p of the left times column q of the right. -/
theorem mm_apply (a : FVec Ideal S4000x128 .bf16) (b : FVec Ideal S128x128 .bf16) (p : Fin 4000) (q : Fin 128) :
    matmul dot_S4000x128_S128x128_S4000x128_1_0_0_1_n_n none a b (constant (F := Ideal) S4000x128 .f32 0x00000000#32) (ix2 p q)
      = ∑ k : Fin 128, a (ix2 p k) * b (ix2 k q) := by
  refine (Ideal.matmul_constant_zero_apply dot_S4000x128_S128x128_S4000x128_1_0_0_1_n_n none a b (ix2 p q)).trans ?_
  rw [← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k :=
    funext fun a => Fin.ext (by
      match a with
      | ⟨0, _⟩ => exact lhs_dot_0 _ _
      | ⟨1, _⟩ => exact (lhs_dot_1 _ _).trans hk)
  have er : dot_S4000x128_S128x128_S4000x128_1_0_0_1_n_n.rhsIdx (ix2 p q) ((contrEquiv1 dot_S4000x128_S128x128_S4000x128_1_0_0_1_n_n 128 rfl rfl).symm k) = ix2 k q :=
    funext fun a => Fin.ext (by
      match a with
      | ⟨0, _⟩ => exact (rhs_dot_0 _ _).trans hk
      | ⟨1, _⟩ => exact rhs_dot_1 _ _)
  rw [el, er]

/-! ## The layout operations of the body at an index -/

/-- A 1×1 array broadcast over the block reads its one entry everywhere. -/
theorem bcast11_apply {α : Type} (v : S1x1.Idx → α) (h : S1x1.Broadcasts S4000x128) (p : Fin 4000) (q : Fin 128) :
    broadcastTo S4000x128 v h (ix2 p q) = v (ix2 0 0) :=
  broadcastTo_apply v h (ix2 p q) (ix2 0 0) fun a => by
    match a with
    | ⟨0, _⟩ => rfl
    | ⟨1, _⟩ => rfl

/-- A column sum's row vector, viewed 1×1×128 and repeated over eight rows, reads at (u, s, j) the vector at j. -/
theorem rep8_apply {α : Type} (v : S128.Idx → α) (h1 : S128.ShapeCasts S1x128) (h2 : S1x128.ShapeCasts S1x1x128)
    (h3 : S1x1x128.ShapeCasts S1x1x128) (h4 : S1x1x128.Broadcasts S1x8x128) (u : Fin 1) (s : Fin 8) (j : Fin 128) :
    broadcastTo S1x8x128 (shapeCast S1x1x128 (shapeCast S1x1x128 (shapeCast S1x128 v h1) h2) h3) h4 (ix3 u s j) = v (ix1 j) := by
  refine (broadcastTo_apply _ h4 (ix3 u s j) (ix3 (0 : Fin 1) (0 : Fin 1) j) fun a => ?_).trans ?_
  · match a with
    | ⟨0, _⟩ => rfl
    | ⟨1, _⟩ => rfl
    | ⟨2, _⟩ => rfl
  rw [shapeCast_self]
  refine (shapeCast_ab_1ab_apply _ h2 (0 : Fin 1) (0 : Fin 1) j).trans ?_
  exact shapeCast_a_1a_apply v h1 (0 : Fin 1) j

/-- The reduced index with the summed coordinate put back is (r, j). -/
theorem lift_red (h : S4000x128.Reduces [0] S128) (j : Fin 128) (r : Fin 4000) : h.lift (ix1 j) r = ix2 r j := by
  funext a; apply Fin.ext
  match a with
  | ⟨0, _⟩ => rfl
  | ⟨1, _⟩ => rfl

/-- The column sum of a block at j: the sum over its 4000 rows. -/
theorem colsum_apply (v : FVec Ideal S4000x128 .f32) (h : S4000x128.Reduces [0] S128) (hφ : FKind.Formats .f32)
    (hacc : (0x00000000#32 : BitVec 32) = FKind.add.neutral .f32 hφ) (j : Fin 128) :
    multiReduction .add [0] S128 v 0x00000000#32 h hφ hacc (ix1 j) = ∑ r : Fin 4000, v (ix2 r j) := by
  refine (Ideal.multiReduction_add_single v 0x00000000#32 h hφ hacc (ix1 j)).trans ?_
  exact Finset.sum_congr rfl fun r _ => congrArg v (lift_red h j r)

/-! ## The body's payloads at an index -/

/-- The value the body forms, at row p and column q of its block: the block of the first linear map. -/
theorem pay1_apply (e : FVec Ideal S1x1 .f32) (x ng : FVec Ideal S4000x128 .f32) (w : FVec Ideal S128x128 .f32)
    (b : FVec Ideal S1x128 .f32) (p : Fin 4000) (q : Fin 128) :
    k13_pay1 (F := Ideal) e x ng w b (ix2 p q)
      = (∑ k : Fin 128, ((Ideal.ofBits .f32 0x3F800000#32 + e (ix2 0 0)) * x (ix2 p k) + ng (ix2 p k)) * w (ix2 k q))
        + b (ix2 0 q) := by
  unfold k13_pay1
  simp only [addf_apply, mulf_apply, truncf_apply, broadcast_apply, shapeCast_self, mm_apply, bcast11_apply,
    broadcastTo_1b_ab_apply]
  rfl

/-- The first output's payload: the same value (the narrowing is the identity on the extended reals). -/
theorem pay2_apply (e : FVec Ideal S1x1 .f32) (x ng : FVec Ideal S4000x128 .f32) (w : FVec Ideal S128x128 .f32)
    (b : FVec Ideal S1x128 .f32) (p : Fin 4000) (q : Fin 128) :
    (k13_pay2 (F := Ideal) e x ng w b (ix2 p q) : EReal) = k13_pay1 (F := Ideal) e x ng w b (ix2 p q) := rfl

/-- The second output's payload at (u, s, j): the block's column sum at j, whatever the row s. -/
theorem pay3_apply (e : FVec Ideal S1x1 .f32) (x ng : FVec Ideal S4000x128 .f32) (w : FVec Ideal S128x128 .f32)
    (b : FVec Ideal S1x128 .f32) (u : Fin 1) (s : Fin 8) (j : Fin 128) :
    k13_pay3 (F := Ideal) e x ng w b (ix3 u s j) = ∑ r : Fin 4000, k13_pay1 (F := Ideal) e x ng w b (ix2 r j) := by
  unfold k13_pay3
  refine (rep8_apply _ _ _ _ _ u s j).trans ?_
  exact colsum_apply _ _ _ _ j

/-- The third output's payload at (u, s, j): the column sum of the block's squares at j. -/
theorem pay4_apply (e : FVec Ideal S1x1 .f32) (x ng : FVec Ideal S4000x128 .f32) (w : FVec Ideal S128x128 .f32)
    (b : FVec Ideal S1x128 .f32) (u : Fin 1) (s : Fin 8) (j : Fin 128) :
    k13_pay4 (F := Ideal) e x ng w b (ix3 u s j)
      = ∑ r : Fin 4000, k13_pay1 (F := Ideal) e x ng w b (ix2 r j) * k13_pay1 (F := Ideal) e x ng w b (ix2 r j) := by
  unfold k13_pay4
  refine (rep8_apply _ _ _ _ _ u s j).trans ?_
  exact colsum_apply _ _ _ _ j

/-! ## From the blocks to the arrays -/

variable (V : (c : Dev nD) → (b : Ref sig .tc) → Buf (Elt Ideal) ((c : Thread nD τ).loc b))

theorem hz2 : (![0, 0] : Fin 2 → Nat) = fun _ => 0 := funext fun a => by
  match a with
  | ⟨0, _⟩ => rfl
  | ⟨1, _⟩ => rfl

theorem hz3 : (![0, 0, 0] : Fin 3 → Nat) = fun _ => 0 := funext fun a => by
  match a with
  | ⟨0, _⟩ => rfl
  | ⟨1, _⟩ => rfl
  | ⟨2, _⟩ => rfl

/-- A grid point as the number of its tile of 4000 rows. -/
def tile (t : Fin cfg13.N) : Fin 5 := ⟨t.val, by have h := t.isLt; have e : cfg13.N = 5 := N_13; omega⟩

/-- The first linear map of the region's input arrays: ((1 + ε) · x + neigh) · w₁ + b₁, rows by columns. -/
abbrev linA (c : Dev nD) : Fin 20000 → Fin 128 → EReal :=
  M.lin (M.at2 (a := 20000) (b := 128) (V c (Pipeline.arrRef spec13 0)))
    (M.at2 (a := 20000) (b := 128) (V c (Pipeline.arrRef spec13 1)))
    (M.at2 (a := 1) (b := 1) (V c (Pipeline.arrRef spec13 2)) 0 0)
    (M.at2 (a := 128) (b := 128) (V c (Pipeline.arrRef spec13 3)))
    (fun j => M.at2 (a := 1) (b := 128) (V c (Pipeline.arrRef spec13 4)) 0 j)

/-- The index maps, decided over the grid: the row-block windows sit at block (t, 0), the parameter windows at
    block (0, 0), the partial-sum windows at block (t, 0, 0). -/
theorem idx_facts : ∀ t : Fin cfg13.N,
    win13_0.index t (0 : Fin 2) = t.val ∧ win13_0.index t (1 : Fin 2) = 0
    ∧ win13_1.index t (0 : Fin 2) = t.val ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = 0 ∧ win13_4.index t (1 : Fin 2) = 0
    ∧ win13_5.index t (0 : Fin 2) = t.val ∧ win13_5.index t (1 : Fin 2) = 0
    ∧ win13_6.index t (0 : Fin 3) = t.val ∧ win13_6.index t (1 : Fin 3) = 0 ∧ win13_6.index t (2 : Fin 3) = 0
    ∧ win13_7.index t (0 : Fin 3) = t.val ∧ win13_7.index t (1 : Fin 3) = 0 ∧ win13_7.index t (2 : Fin 3) = 0 :=
  (by decide +kernel : ∀ t : Fin grid13.N, _)

/-- The node block at point t is rows 4000 t … 4000 t + 3999 of the node array. -/
theorem blk_x (c : Dev nD) (t : Fin cfg13.N) (p : Fin 4000) (k : Fin 128) :
    (iblk13 V c 0 t : S4000x128.Idx → EReal) (ix2 p k)
      = M.at2 (a := 20000) (b := 128) (V c (Pipeline.arrRef spec13 0)) (M.tileRow (tile t) p) k := by
  obtain ⟨e0, e1, -⟩ := idx_facts t
  unfold iblk13
  rw [View.read_apply]
  show (V c (Pipeline.arrRef spec13 0) : S20000x128.Idx → EReal) _ = (V c (Pipeline.arrRef spec13 0) : S20000x128.Idx → EReal) _
  congr 1
  funext a
  apply Fin.ext
  match a with
  | ⟨0, _⟩ => show win13_0.index t (0 : Fin 2) * 4000 + 1 * p.val = 4000 * t.val + p.val; rw [e0]; omega
  | ⟨1, _⟩ => show win13_0.index t (1 : Fin 2) * 128 + 1 * k.val = k.val; rw [e1]; omega

/-- The neighbour-sum block at point t is the same rows of the neighbour-sum array. -/
theorem blk_ng (c : Dev nD) (t : Fin cfg13.N) (p : Fin 4000) (k : Fin 128) :
    (iblk13 V c 1 t : S4000x128.Idx → EReal) (ix2 p k)
      = M.at2 (a := 20000) (b := 128) (V c (Pipeline.arrRef spec13 1)) (M.tileRow (tile t) p) k := by
  obtain ⟨-, -, e0, e1, -⟩ := idx_facts t
  unfold iblk13
  rw [View.read_apply]
  show (V c (Pipeline.arrRef spec13 1) : S20000x128.Idx → EReal) _ = (V c (Pipeline.arrRef spec13 1) : S20000x128.Idx → EReal) _
  congr 1
  funext a
  apply Fin.ext
  match a with
  | ⟨0, _⟩ => show win13_1.index t (0 : Fin 2) * 4000 + 1 * p.val = 4000 * t.val + p.val; rw [e0]; omega
  | ⟨1, _⟩ => show win13_1.index t (1 : Fin 2) * 128 + 1 * k.val = k.val; rw [e1]; omega

/-- The ε block at every point is the whole 1×1 array. -/
theorem blk_e (c : Dev nD) (t : Fin cfg13.N) :
    (iblk13 V c 2 t : S1x1.Idx → EReal) (ix2 0 0) = M.at2 (a := 1) (b := 1) (V c (Pipeline.arrRef spec13 2)) 0 0 := by
  obtain ⟨-, -, -, -, e0, e1, -⟩ := idx_facts t
  unfold iblk13
  rw [View.read_apply]
  show (V c (Pipeline.arrRef spec13 2) : S1x1.Idx → EReal) _ = (V c (Pipeline.arrRef spec13 2) : S1x1.Idx → EReal) _
  congr 1
  funext a
  apply Fin.ext
  match a with
  | ⟨0, _⟩ => show win13_2.index t (0 : Fin 2) * 1 + 1 * 0 = 0; rw [e0]
  | ⟨1, _⟩ => show win13_2.index t (1 : Fin 2) * 1 + 1 * 0 = 0; rw [e1]

/-- The weight block at every point is the whole weight array. -/
theorem blk_w (c : Dev nD) (t : Fin cfg13.N) (k q : Fin 128) :
    (iblk13 V c 3 t : S128x128.Idx → EReal) (ix2 k q) = M.at2 (a := 128) (b := 128) (V c (Pipeline.arrRef spec13 3)) k q := by
  obtain ⟨-, -, -, -, -, -, e0, e1, -⟩ := idx_facts t
  unfold iblk13
  rw [View.read_apply]
  show (V c (Pipeline.arrRef spec13 3) : S128x128.Idx → EReal) _ = (V c (Pipeline.arrRef spec13 3) : S128x128.Idx → EReal) _
  congr 1
  funext a
  apply Fin.ext
  match a with
  | ⟨0, _⟩ => show win13_3.index t (0 : Fin 2) * 128 + 1 * k.val = k.val; rw [e0]; omega
  | ⟨1, _⟩ => show win13_3.index t (1 : Fin 2) * 128 + 1 * q.val = q.val; rw [e1]; omega

/-- The bias block at every point is the whole 1×128 bias array. -/
theorem blk_b (c : Dev nD) (t : Fin cfg13.N) (q : Fin 128) :
    (iblk13 V c 4 t : S1x128.Idx → EReal) (ix2 0 q) = M.at2 (a := 1) (b := 128) (V c (Pipeline.arrRef spec13 4)) 0 q := by
  obtain ⟨-, -, -, -, -, -, -, -, e0, e1, -⟩ := idx_facts t
  unfold iblk13
  rw [View.read_apply]
  show (V c (Pipeline.arrRef spec13 4) : S1x128.Idx → EReal) _ = (V c (Pipeline.arrRef spec13 4) : S1x128.Idx → EReal) _
  congr 1
  funext a
  apply Fin.ext
  match a with
  | ⟨0, _⟩ => show win13_4.index t (0 : Fin 2) * 1 + 1 * 0 = 0; rw [e0]
  | ⟨1, _⟩ => show win13_4.index t (1 : Fin 2) * 128 + 1 * q.val = q.val; rw [e1]; omega

/-- The body's value on the blocks of point t, at (p, q), is the first linear map of the arrays at row 4000 t + p. -/
theorem pay1_blk (c : Dev nD) (t : Fin cfg13.N) (p : Fin 4000) (q : Fin 128) :
    k13_pay1 (F := Ideal) (iblk13 V c 2 t) (iblk13 V c 0 t) (iblk13 V c 1 t) (iblk13 V c 3 t) (iblk13 V c 4 t) (ix2 p q)
      = linA V c (M.tileRow (tile t) p) q := by
  refine (pay1_apply (iblk13 V c 2 t) (iblk13 V c 0 t) (iblk13 V c 1 t) (iblk13 V c 3 t) (iblk13 V c 4 t) p q).trans ?_
  unfold linA M.lin M.affine M.mm
  refine congrArg₂ (fun a b : EReal => a + b) (Finset.sum_congr rfl fun k _ => ?_) (blk_b V c t q)
  refine congrArg₂ (fun a b : EReal => a * b) ?_ (blk_w V c t k q)
  refine congrArg₂ (fun a b : EReal => a + b) ?_ (blk_ng V c t p k)
  refine congrArg₂ (fun a b : EReal => a * b) ?_ (blk_x V c t p k)
  exact congrArg (fun a : EReal => M.c1 + a) (blk_e V c t)

/-! ### Output window 5: the first linear map -/

/-- What point t writes back is block t of the first linear map of the input arrays. -/
theorem flushed5 (c : Dev nD) (t : Fin cfg13.N) :
    (dat13 (F := Ideal) V c).flushed 5 t = ((cfg13.win 5).blk t).view.read (Elt Ideal) (M.mk2 (linA V c)) := by
  show (cfg13.win 5).cut (grid13.coords t) ((dat13 V c).after 5 t) = _
  rw [after13_5]
  unfold out13_5
  rw [View.canon_unit_zero hz2]
  simp only [View.ld_unit_zero (S := S1x1) hz2, View.ld_unit_zero (S := S4000x128) hz2,
    View.ld_unit_zero (S := S128x128) hz2, View.ld_unit_zero (S := S1x128) hz2]
  obtain ⟨-, -, -, -, -, -, -, -, -, -, e0, e1, -⟩ := idx_facts t
  funext j
  obtain ⟨p, q, rfl⟩ : ∃ (p : Fin 4000) (q : Fin 128), j = ix2 p q := ⟨j 0, j 1, eq_ix2 j⟩
  rw [View.read_apply]
  show k13_pay1 (F := Ideal) (iblk13 V c 2 t) (iblk13 V c 0 t) (iblk13 V c 1 t) (iblk13 V c 3 t) (iblk13 V c 4 t) (ix2 p q)
    = linA V c ((((cfg13.win 5).blk t).view.emb (ix2 p q)) 0) ((((cfg13.win 5).blk t).view.emb (ix2 p q)) 1)
  refine (pay1_blk V c t p q).trans ?_
  refine congrArg₂ (linA V c) (Fin.ext ?_) (Fin.ext ?_)
  · show 4000 * t.val + p.val = win13_5.index t (0 : Fin 2) * 4000 + 1 * p.val; rw [e0]; omega
  · show q.val = win13_5.index t (1 : Fin 2) * 128 + 1 * q.val; rw [e1]; omega

/-- An index of the array is in point t's block iff each coordinate is in the block's range on its axis. -/
theorem mem_blk5 (t : Fin cfg13.N) (i : S20000x128.Idx) :
    i ∈ ((cfg13.win 5).blk t).view.set ↔ ∀ a : Fin 2, win13_5.index t a * S4000x128.size a ≤ (i a).val
      ∧ (i a).val < win13_5.index t a * S4000x128.size a + S4000x128.size a := by
  show i ∈ ((View.whole main_v453_0).slice (win13_5.rect t)).set ↔ _
  rw [View.set_slice_whole, Rect.mem_set_unit]
  exact Iff.rfl

/-- Row r is in the block of point r / 4000. -/
theorem cover5 (i : S20000x128.Idx) :
    ∃ t : Fin cfg13.N, (cfg13.win 5).flush t = true ∧ i ∈ ((cfg13.win 5).blk t).view.set := by
  have hi0 : (i 0).val < 20000 := (i 0).isLt
  have hi1 : (i 1).val < 128 := (i 1).isLt
  obtain ⟨t, ht⟩ : ∃ t : Fin cfg13.N, t.val = (i 0).val / 4000 :=
    ⟨⟨(i 0).val / 4000, by rw [show cfg13.N = 5 from N_13]; omega⟩, rfl⟩
  obtain ⟨-, -, -, -, -, -, -, -, -, -, e0, e1, -⟩ := idx_facts t
  refine ⟨t, flush13_5 t, ?_⟩
  rw [mem_blk5]
  intro a
  match a with
  | ⟨0, _⟩ =>
    show win13_5.index t (0 : Fin 2) * 4000 ≤ (i 0).val ∧ (i 0).val < win13_5.index t (0 : Fin 2) * 4000 + 4000
    rw [e0, ht]; omega
  | ⟨1, _⟩ =>
    show win13_5.index t (1 : Fin 2) * 128 ≤ (i 1).val ∧ (i 1).val < win13_5.index t (1 : Fin 2) * 128 + 128
    rw [e1]; omega

/-- THE FIRST OUTPUT ARRAY after the region: the first linear map of the input arrays. -/
theorem arr13_5 (c : Dev nD) :
    (dat13 (F := Ideal) V c).arrAt 5 cfg13.N = M.mk2 (linA V c) :=
  (dat13 (F := Ideal) V c).arrAt_eq_of_cover 5 (M.mk2 (linA V c)) (fun t _ => flushed5 V c t) cover5

/-! ### Output windows 6 and 7: the tiles' column sums, of the values and of their squares -/

/-- An index of a partial-sum array is in point t's block iff each coordinate is in the block's range on its axis. -/
theorem mem_blk6 (t : Fin cfg13.N) (i : S5x8x128.Idx) :
    i ∈ ((cfg13.win 6).blk t).view.set ↔ ∀ a : Fin 3, win13_6.index t a * S1x8x128.size a ≤ (i a).val
      ∧ (i a).val < win13_6.index t a * S1x8x128.size a + S1x8x128.size a := by
  show i ∈ ((View.whole main_v453_1).slice (win13_6.rect t)).set ↔ _
  rw [View.set_slice_whole, Rect.mem_set_unit]
  exact Iff.rfl

theorem mem_blk7 (t : Fin cfg13.N) (i : S5x8x128.Idx) :
    i ∈ ((cfg13.win 7).blk t).view.set ↔ ∀ a : Fin 3, win13_7.index t a * S1x8x128.size a ≤ (i a).val
      ∧ (i a).val < win13_7.index t a * S1x8x128.size a + S1x8x128.size a := by
  show i ∈ ((View.whole main_v453_2).slice (win13_7.rect t)).set ↔ _
  rw [View.set_slice_whole, Rect.mem_set_unit]
  exact Iff.rfl

/-- Tile u's eight rows are the block of point u. -/
theorem cover6 (i : S5x8x128.Idx) :
    ∃ t : Fin cfg13.N, (cfg13.win 6).flush t = true ∧ i ∈ ((cfg13.win 6).blk t).view.set := by
  have hi0 : (i 0).val < 5 := (i 0).isLt
  have hi1 : (i 1).val < 8 := (i 1).isLt
  have hi2 : (i 2).val < 128 := (i 2).isLt
  obtain ⟨t, ht⟩ : ∃ t : Fin cfg13.N, t.val = (i 0).val :=
    ⟨⟨(i 0).val, by rw [show cfg13.N = 5 from N_13]; omega⟩, rfl⟩
  obtain ⟨-, -, -, -, -, -, -, -, -, -, -, -, e0, e1, e2, -⟩ := idx_facts t
  refine ⟨t, flush13_6 t, ?_⟩
  rw [mem_blk6]
  intro a
  match a with
  | ⟨0, _⟩ =>
    show win13_6.index t (0 : Fin 3) * 1 ≤ (i 0).val ∧ (i 0).val < win13_6.index t (0 : Fin 3) * 1 + 1
    rw [e0, ht]; omega
  | ⟨1, _⟩ =>
    show win13_6.index t (1 : Fin 3) * 8 ≤ (i 1).val ∧ (i 1).val < win13_6.index t (1 : Fin 3) * 8 + 8
    rw [e1]; omega
  | ⟨2, _⟩ =>
    show win13_6.index t (2 : Fin 3) * 128 ≤ (i 2).val ∧ (i 2).val < win13_6.index t (2 : Fin 3) * 128 + 128
    rw [e2]; omega

theorem cover7 (i : S5x8x128.Idx) :
    ∃ t : Fin cfg13.N, (cfg13.win 7).flush t = true ∧ i ∈ ((cfg13.win 7).blk t).view.set := by
  have hi0 : (i 0).val < 5 := (i 0).isLt
  have hi1 : (i 1).val < 8 := (i 1).isLt
  have hi2 : (i 2).val < 128 := (i 2).isLt
  obtain ⟨t, ht⟩ : ∃ t : Fin cfg13.N, t.val = (i 0).val :=
    ⟨⟨(i 0).val, by rw [show cfg13.N = 5 from N_13]; omega⟩, rfl⟩
  obtain ⟨-, -, -, -, -, -, -, -, -, -, -, -, -, -, -, e0, e1, e2⟩ := idx_facts t
  refine ⟨t, flush13_7 t, ?_⟩
  rw [mem_blk7]
  intro a
  match a with
  | ⟨0, _⟩ =>
    show win13_7.index t (0 : Fin 3) * 1 ≤ (i 0).val ∧ (i 0).val < win13_7.index t (0 : Fin 3) * 1 + 1
    rw [e0, ht]; omega
  | ⟨1, _⟩ =>
    show win13_7.index t (1 : Fin 3) * 8 ≤ (i 1).val ∧ (i 1).val < win13_7.index t (1 : Fin 3) * 8 + 8
    rw [e1]; omega
  | ⟨2, _⟩ =>
    show win13_7.index t (2 : Fin 3) * 128 ≤ (i 2).val ∧ (i 2).val < win13_7.index t (2 : Fin 3) * 128 + 128
    rw [e2]; omega

/-- What point t writes back to the second output is block t of the tiles' column sums. -/
theorem flushed6 (c : Dev nD) (t : Fin cfg13.N) :
    (dat13 (F := Ideal) V c).flushed 6 t = ((cfg13.win 6).blk t).view.read (Elt Ideal) (M.mk3 (M.sumT (linA V c))) := by
  show (cfg13.win 6).cut (grid13.coords t) ((dat13 V c).after 6 t) = _
  rw [after13_6]
  unfold out13_6
  rw [View.canon_unit_zero hz3]
  simp only [View.ld_unit_zero (S := S1x1) hz2, View.ld_unit_zero (S := S4000x128) hz2,
    View.ld_unit_zero (S := S128x128) hz2, View.ld_unit_zero (S := S1x128) hz2]
  obtain ⟨-, -, -, -, -, -, -, -, -, -, -, -, e0, e1, e2, -⟩ := idx_facts t
  funext j
  obtain ⟨u, s, q, rfl⟩ : ∃ (u : Fin 1) (s : Fin 8) (q : Fin 128), j = ix3 u s q := ⟨j 0, j 1, j 2, eq_ix3 j⟩
  rw [View.read_apply]
  show k13_pay3 (F := Ideal) (iblk13 V c 2 t) (iblk13 V c 0 t) (iblk13 V c 1 t) (iblk13 V c 3 t) (iblk13 V c 4 t) (ix3 u s q)
    = ∑ r : Fin 4000, linA V c (M.tileRow ((((cfg13.win 6).blk t).view.emb (ix3 u s q)) 0) r) ((((cfg13.win 6).blk t).view.emb (ix3 u s q)) 2)
  refine (pay3_apply (iblk13 V c 2 t) (iblk13 V c 0 t) (iblk13 V c 1 t) (iblk13 V c 3 t) (iblk13 V c 4 t) u s q).trans ?_
  refine Finset.sum_congr rfl fun r _ => (pay1_blk V c t r q).trans ?_
  have hu : u.val = 0 := by omega
  refine congrArg₂ (linA V c) (congrArg (fun z : Fin 5 => M.tileRow z r) (Fin.ext ?_)) (Fin.ext ?_)
  · show t.val = win13_6.index t (0 : Fin 3) * 1 + 1 * u.val; rw [e0, hu]; omega
  · show q.val = win13_6.index t (2 : Fin 3) * 128 + 1 * q.val; rw [e2]; omega

/-- What point t writes back to the third output is block t of the tiles' column sums of squares. -/
theorem flushed7 (c : Dev nD) (t : Fin cfg13.N) :
    (dat13 (F := Ideal) V c).flushed 7 t = ((cfg13.win 7).blk t).view.read (Elt Ideal) (M.mk3 (M.sumsqT (linA V c))) := by
  show (cfg13.win 7).cut (grid13.coords t) ((dat13 V c).after 7 t) = _
  rw [after13_7]
  unfold out13_7
  rw [View.canon_unit_zero hz3]
  simp only [View.ld_unit_zero (S := S1x1) hz2, View.ld_unit_zero (S := S4000x128) hz2,
    View.ld_unit_zero (S := S128x128) hz2, View.ld_unit_zero (S := S1x128) hz2]
  obtain ⟨-, -, -, -, -, -, -, -, -, -, -, -, -, -, -, e0, e1, e2⟩ := idx_facts t
  funext j
  obtain ⟨u, s, q, rfl⟩ : ∃ (u : Fin 1) (s : Fin 8) (q : Fin 128), j = ix3 u s q := ⟨j 0, j 1, j 2, eq_ix3 j⟩
  rw [View.read_apply]
  show k13_pay4 (F := Ideal) (iblk13 V c 2 t) (iblk13 V c 0 t) (iblk13 V c 1 t) (iblk13 V c 3 t) (iblk13 V c 4 t) (ix3 u s q)
    = ∑ r : Fin 4000, linA V c (M.tileRow ((((cfg13.win 7).blk t).view.emb (ix3 u s q)) 0) r) ((((cfg13.win 7).blk t).view.emb (ix3 u s q)) 2)
        * linA V c (M.tileRow ((((cfg13.win 7).blk t).view.emb (ix3 u s q)) 0) r) ((((cfg13.win 7).blk t).view.emb (ix3 u s q)) 2)
  refine (pay4_apply (iblk13 V c 2 t) (iblk13 V c 0 t) (iblk13 V c 1 t) (iblk13 V c 3 t) (iblk13 V c 4 t) u s q).trans ?_
  have hu : u.val = 0 := by omega
  have h0 : tile t = (((cfg13.win 7).blk t).view.emb (ix3 u s q)) 0 :=
    Fin.ext (by show t.val = win13_7.index t (0 : Fin 3) * 1 + 1 * u.val; rw [e0, hu]; omega)
  have h2 : q = (((cfg13.win 7).blk t).view.emb (ix3 u s q)) 2 :=
    Fin.ext (by show q.val = win13_7.index t (2 : Fin 3) * 128 + 1 * q.val; rw [e2]; omega)
  refine Finset.sum_congr rfl fun r _ => ?_
  have hr := (pay1_blk V c t r q).trans
    (congrArg₂ (linA V c) (congrArg (fun z : Fin 5 => M.tileRow z r) h0) h2)
  exact congrArg₂ (fun a b : EReal => a * b) hr hr

/-- THE SECOND OUTPUT ARRAY after the region: each tile's column sums of the first linear map, in each of eight rows. -/
theorem arr13_6 (c : Dev nD) :
    (dat13 (F := Ideal) V c).arrAt 6 cfg13.N = M.mk3 (M.sumT (linA V c)) :=
  (dat13 (F := Ideal) V c).arrAt_eq_of_cover 6 (M.mk3 (M.sumT (linA V c))) (fun t _ => flushed6 V c t) cover6

/-- THE THIRD OUTPUT ARRAY after the region: each tile's column sums of its squares, in each of eight rows. -/
theorem arr13_7 (c : Dev nD) :
    (dat13 (F := Ideal) V c).arrAt 7 cfg13.N = M.mk3 (M.sumsqT (linA V c)) :=
  (dat13 (F := Ideal) V c).arrAt_eq_of_cover 7 (M.mk3 (M.sumsqT (linA V c))) (fun t _ => flushed7 V c t) cover7

end Cert.RegA13

end
-- ==== Proof.RegB14.lean ====
/-
  Region 14, the second linear map of layer 3: what each of its three output arrays holds when the region ends, as a
  function of the seven arrays the region finds on entry.

  The body normalises and rectifies a block of 4000 rows of the first linear map's value with the given column
  statistics, scale and shift, multiplies by the weight, adds the bias, and stores the block; it also stores the
  block's column sums and column sums of squares, each copied into eight rows. The grid's five points tile the
  20000 rows, so the first output is the whole second linear map, and the other two are its per-tile sums.

  First the body's operations are read at an index; then a block's value is stated over the whole arrays; then each
  point's write-back is a block of one whole-array function, and the blocks cover the array.
-/
import proofs.«416875_j80633716015165_3_alg».proof.Proof.Spec
import proofs.«416875_j80633716015165_3_alg».proof.Proof.FrameKI
import Idealize.ShloMosaic.PureOps.Ideal.Laws
import Idealize.ShloMosaic.Lib.ValueIdx
import Idealize.ShloMosaic.Lib.Pipeline.Value

set_option maxRecDepth 16384

noncomputable section

open Idealize.ShloMosaic Idealize.ShloMosaic.ValueIdx Idealize.ShloMosaic.TcCoe Idealize.SL.Sem
open Idealize.ShloMosaic.Pipeline (Dat)

namespace Cert.RegB14

open Cert.KernelIdeal Cert.KernelIdeal.Gen

/-! ## The body's layout operations, read at an index -/

/-- A row vector broadcast over the block's rows reads its column. -/
theorem bcastRow_apply {α : Type} (x : S1x128.Idx → α) (h : S1x128.Broadcasts S4000x128) (r : Fin 4000) (j : Fin 128) :
    broadcastTo S4000x128 x h (ix2 r j) = x (ix2 0 j) :=
  broadcastTo_apply x h (ix2 r j) (ix2 0 j) fun a => by
    match a with
    | ⟨0, _⟩ => rfl
    | ⟨1, _⟩ => rfl

/-- A [1,1,128] block broadcast over eight rows reads its column. -/
theorem bcastEight_apply {α : Type} (x : S1x1x128.Idx → α) (h : S1x1x128.Broadcasts S1x8x128) (p : Fin 1) (q : Fin 8)
    (j : Fin 128) : broadcastTo S1x8x128 x h (ix3 p q j) = x (ix3 0 0 j) :=
  broadcastTo_apply x h (ix3 p q j) (ix3 0 0 j) fun a => by
    match a with
    | ⟨0, _⟩ => rfl
    | ⟨1, _⟩ => rfl
    | ⟨2, _⟩ => rfl

/-- A [128] vector viewed as one row reads its column. -/
theorem castRow_apply {α : Type} (x : S128.Idx → α) (h : S128.ShapeCasts S1x128) (j : Fin 128) :
    shapeCast S1x128 x h (ix2 0 j) = x (ix1 j) :=
  shapeCast_apply x h (ix2 0 j) (ix1 j) (by
    rw [Shape.rowMajor_val_one, Shape.rowMajor_val_two]
    show j.val = 0 * 128 + j.val
    omega)

/-- One row viewed as a [1,1,128] block reads its column. -/
theorem castBlk_apply {α : Type} (x : S1x128.Idx → α) (h : S1x128.ShapeCasts S1x1x128) (j : Fin 128) :
    shapeCast S1x1x128 x h (ix3 0 0 j) = x (ix2 0 j) :=
  shapeCast_apply x h (ix3 0 0 j) (ix2 0 j) (by
    rw [Shape.rowMajor_val_two, Shape.rowMajor_val_three]
    show 0 * 128 + j.val = (0 * 1 + 0) * 128 + j.val
    omega)

/-- The body's `rsqrt` at an index. -/
theorem rsqrt_apply {s : Shape} {φ : FTy} (a : FVec Ideal s φ) (i : s.Idx) : rsqrt a i = Ideal.rsqrt (a i) := rfl

/-! ## The column sum over a block's rows -/

/-- The sum over axis 0 of a [4000,128] block at column `j` is the sum of that column's 4000 entries. -/
theorem colSum_apply (src : FVec Ideal S4000x128 .f32) (h : S4000x128.Reduces [0] S128) (hφ : FKind.Formats FTy.f32)
    (hacc : (0x00000000#32 : BitVec 32) = 0x00000000#32) (j : Fin 128) :
    multiReduction (F := Ideal) .add [0] S128 src 0x00000000#32 h hφ hacc (ix1 j) = ∑ r : Fin 4000, src (ix2 r j) := by
  refine (Ideal.multiReduction_add_single src 0x00000000#32 h hφ hacc (ix1 j)).trans ?_
  show ∑ k : Fin 4000, src (h.lift (ix1 j) k) = _
  refine Finset.sum_congr rfl fun k _ => congrArg src ?_
  funext a
  apply Fin.ext
  match a with
  | ⟨0, _⟩ => rfl
  | ⟨1, _⟩ => rfl

/-! ## The matrix product of a block with the weight -/

theorem lhs_mm_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl
theorem lhs_mm_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_mm_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_mm_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-- The product into the zero accumulator at `(r, j)` is the sum over the 128 contracted coordinates. -/
theorem mm_apply (x : FVec Ideal S4000x128 .bf16) (w : FVec Ideal S128x128 .bf16) (r : Fin 4000) (j : Fin 128) :
    (matmul (F := Ideal) dot_S4000x128_S128x128_S4000x128_1_0_0_1_n_n none x w (constant (F := Ideal) S4000x128 .f32 0x00000000#32) (ix2 r j) : EReal)
      = ∑ t : Fin 128, (x (ix2 r t) : EReal) * (w (ix2 t j) : EReal) := by
  refine (Ideal.matmul_constant_zero_apply dot_S4000x128_S128x128_S4000x128_1_0_0_1_n_n none x w (ix2 r j)).trans ?_
  rw [← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 r j) ((contrEquiv1 dot_S4000x128_S128x128_S4000x128_1_0_0_1_n_n 128 rfl rfl).symm k) = ix2 r k :=
    funext fun a => Fin.ext (by
      match a with
      | ⟨0, _⟩ => exact lhs_mm_0 _ _
      | ⟨1, _⟩ => exact (lhs_mm_1 _ _).trans hk)
  have er : dot_S4000x128_S128x128_S4000x128_1_0_0_1_n_n.rhsIdx (ix2 r j) ((contrEquiv1 dot_S4000x128_S128x128_S4000x128_1_0_0_1_n_n 128 rfl rfl).symm k) = ix2 k j :=
    funext fun a => Fin.ext (by
      match a with
      | ⟨0, _⟩ => exact (rhs_mm_0 _ _).trans hk
      | ⟨1, _⟩ => exact rhs_mm_1 _ _)
  rw [el, er]

/-! ## The body's value at an index -/

/-- The second linear map on the normalised, rectified block, entry `(r, j)`: the payload's arguments in the order the
    body loads them (the block, the variance row, the mean row, scale, shift, weight, bias). -/
theorem pay3_apply (x0 : FVec Ideal S4000x128 .bf16) (xv xm xg xb : FVec Ideal S1x128 .f32) (xw : FVec Ideal S128x128 .f32)
    (xc : FVec Ideal S1x128 .f32) (r : Fin 4000) (j : Fin 128) :
    (Gen.k14_pay3 (F := Ideal) x0 xv xm xg xb xw xc (ix2 r j) : EReal)
      = (∑ t : Fin 128, max (((x0 (ix2 r t) : EReal) - (xm (ix2 0 t) : EReal))
              * Ideal.rsqrt ((xv (ix2 0 t) : EReal) + Ideal.ofBits .f32 0x3727C5AC#32)
            * (xg (ix2 0 t) : EReal) + (xb (ix2 0 t) : EReal)) (Ideal.ofBits .f32 0x00000000#32) * (xw (ix2 t j) : EReal))
        + (xc (ix2 0 j) : EReal) := by
  unfold Gen.k14_pay3
  simp only [shapeCast_self]
  rw [addf_apply, bcastRow_apply, mm_apply]
  simp only [truncf_apply, maximumf_apply, addf_apply, mulf_apply, subf_apply, extf_apply, bcastRow_apply, broadcast_apply,
    rsqrt_apply]
  rfl

/-! ## A block's value over the whole arrays -/

/-- The second linear map on the normalised, rectified rows: the block of tile `p`, when the loaded blocks are the rows of
    tile `p` of `A1` and the whole parameter arrays. -/
theorem pay3_blk (x0 : FVec Ideal S4000x128 .bf16) (xv xm xg xb : FVec Ideal S1x128 .f32) (xw : FVec Ideal S128x128 .f32)
    (xc : FVec Ideal S1x128 .f32) (A1 : Fin 20000 → Fin 128 → EReal) (mean var g b : Fin 128 → EReal)
    (w2 : Fin 128 → Fin 128 → EReal) (b2 : Fin 128 → EReal) (p : Fin 5)
    (h0 : ∀ r t, (x0 (ix2 r t) : EReal) = A1 (M.tileRow p r) t) (hv : ∀ t, (xv (ix2 0 t) : EReal) = var t)
    (hm : ∀ t, (xm (ix2 0 t) : EReal) = mean t) (hg : ∀ t, (xg (ix2 0 t) : EReal) = g t)
    (hb : ∀ t, (xb (ix2 0 t) : EReal) = b t) (hw : ∀ t j, (xw (ix2 t j) : EReal) = w2 t j)
    (hc : ∀ j, (xc (ix2 0 j) : EReal) = b2 j) (r : Fin 4000) (j : Fin 128) :
    (Gen.k14_pay3 (F := Ideal) x0 xv xm xg xb xw xc (ix2 r j) : EReal) = M.affine (M.bnrelu A1 mean var g b) w2 b2 (M.tileRow p r) j := by
  rw [pay3_apply]
  simp only [h0, hv, hm, hg, hb, hw, hc]
  rfl

/-- The stored block (the same value, narrowed). -/
theorem pay4_blk (x0 : FVec Ideal S4000x128 .bf16) (xv xm xg xb : FVec Ideal S1x128 .f32) (xw : FVec Ideal S128x128 .f32)
    (xc : FVec Ideal S1x128 .f32) (A1 : Fin 20000 → Fin 128 → EReal) (mean var g b : Fin 128 → EReal)
    (w2 : Fin 128 → Fin 128 → EReal) (b2 : Fin 128 → EReal) (p : Fin 5)
    (h0 : ∀ r t, (x0 (ix2 r t) : EReal) = A1 (M.tileRow p r) t) (hv : ∀ t, (xv (ix2 0 t) : EReal) = var t)
    (hm : ∀ t, (xm (ix2 0 t) : EReal) = mean t) (hg : ∀ t, (xg (ix2 0 t) : EReal) = g t)
    (hb : ∀ t, (xb (ix2 0 t) : EReal) = b t) (hw : ∀ t j, (xw (ix2 t j) : EReal) = w2 t j)
    (hc : ∀ j, (xc (ix2 0 j) : EReal) = b2 j) (y : S4000x128.Idx) :
    (Gen.k14_pay4 (F := Ideal) x0 xv xm xg xb xw xc y : EReal) = M.affine (M.bnrelu A1 mean var g b) w2 b2 (M.tileRow p (y 0)) (y 1) := by
  obtain ⟨r, j, rfl⟩ : ∃ (r : Fin 4000) (j : Fin 128), y = ix2 r j := ⟨y 0, y 1, eq_ix2 y⟩
  unfold Gen.k14_pay4
  rw [truncf_apply]
  exact pay3_blk x0 xv xm xg xb xw xc A1 mean var g b w2 b2 p h0 hv hm hg hb hw hc r j

/-- The stored column sums of the block, copied into eight rows. -/
theorem pay1_blk (x0 : FVec Ideal S4000x128 .bf16) (xv xm xg xb : FVec Ideal S1x128 .f32) (xw : FVec Ideal S128x128 .f32)
    (xc : FVec Ideal S1x128 .f32) (A1 : Fin 20000 → Fin 128 → EReal) (mean var g b : Fin 128 → EReal)
    (w2 : Fin 128 → Fin 128 → EReal) (b2 : Fin 128 → EReal) (p : Fin 5)
    (h0 : ∀ r t, (x0 (ix2 r t) : EReal) = A1 (M.tileRow p r) t) (hv : ∀ t, (xv (ix2 0 t) : EReal) = var t)
    (hm : ∀ t, (xm (ix2 0 t) : EReal) = mean t) (hg : ∀ t, (xg (ix2 0 t) : EReal) = g t)
    (hb : ∀ t, (xb (ix2 0 t) : EReal) = b t) (hw : ∀ t j, (xw (ix2 t j) : EReal) = w2 t j)
    (hc : ∀ j, (xc (ix2 0 j) : EReal) = b2 j) (y : S1x8x128.Idx) :
    (Gen.k14_pay1 (F := Ideal) (Gen.k14_pay5 (F := Ideal) x0 xv xm xg xb xw xc) y : EReal)
      = M.sumT (M.affine (M.bnrelu A1 mean var g b) w2 b2) p (y 1) (y 2) := by
  obtain ⟨u, q, j, rfl⟩ : ∃ (u : Fin 1) (q : Fin 8) (j : Fin 128), y = ix3 u q j := ⟨y 0, y 1, y 2, eq_ix3 y⟩
  unfold M.sumT Gen.k14_pay1 Gen.k14_pay5
  simp only [shapeCast_self]
  rw [bcastEight_apply, castBlk_apply, castRow_apply, colSum_apply]
  exact Finset.sum_congr rfl fun r _ => pay3_blk x0 xv xm xg xb xw xc A1 mean var g b w2 b2 p h0 hv hm hg hb hw hc r j

/-- The stored column sums of squares of the block, copied into eight rows. -/
theorem pay2_blk (x0 : FVec Ideal S4000x128 .bf16) (xv xm xg xb : FVec Ideal S1x128 .f32) (xw : FVec Ideal S128x128 .f32)
    (xc : FVec Ideal S1x128 .f32) (A1 : Fin 20000 → Fin 128 → EReal) (mean var g b : Fin 128 → EReal)
    (w2 : Fin 128 → Fin 128 → EReal) (b2 : Fin 128 → EReal) (p : Fin 5)
    (h0 : ∀ r t, (x0 (ix2 r t) : EReal) = A1 (M.tileRow p r) t) (hv : ∀ t, (xv (ix2 0 t) : EReal) = var t)
    (hm : ∀ t, (xm (ix2 0 t) : EReal) = mean t) (hg : ∀ t, (xg (ix2 0 t) : EReal) = g t)
    (hb : ∀ t, (xb (ix2 0 t) : EReal) = b t) (hw : ∀ t j, (xw (ix2 t j) : EReal) = w2 t j)
    (hc : ∀ j, (xc (ix2 0 j) : EReal) = b2 j) (y : S1x8x128.Idx) :
    (Gen.k14_pay2 (F := Ideal) (Gen.k14_pay3 (F := Ideal) x0 xv xm xg xb xw xc) y : EReal)
      = M.sumsqT (M.affine (M.bnrelu A1 mean var g b) w2 b2) p (y 1) (y 2) := by
  obtain ⟨u, q, j, rfl⟩ : ∃ (u : Fin 1) (q : Fin 8) (j : Fin 128), y = ix3 u q j := ⟨y 0, y 1, y 2, eq_ix3 y⟩
  unfold M.sumsqT M.sumT Gen.k14_pay2
  simp only [shapeCast_self]
  rw [bcastEight_apply, castBlk_apply, castRow_apply, colSum_apply]
  refine Finset.sum_congr rfl fun r _ => ?_
  rw [mulf_apply, pay3_blk x0 xv xm xg xb xw xc A1 mean var g b w2 b2 p h0 hv hm hg hb hw hc r j]

/-! ## The region's arrays on entry, and its value -/

variable (V : (c : Dev nD) → (b : Ref sig .tc) → Buf (Elt Ideal) ((c : Thread nD τ).loc b))

/-- The second linear map on the normalised, rectified first linear map's value, from the region's seven input arrays
    (the value, its column means and variances, the scale and shift, the weight, the bias). -/
abbrev val (c : Dev nD) : Fin 20000 → Fin 128 → EReal :=
  M.affine (M.bnrelu (M.at2 (V c (Pipeline.arrRef spec14 0)))
      (fun j => M.at2 (V c (Pipeline.arrRef spec14 1)) 0 j)
      (fun j => M.at2 (V c (Pipeline.arrRef spec14 2)) 0 j)
      (fun j => M.at2 (V c (Pipeline.arrRef spec14 3)) 0 j)
      (fun j => M.at2 (V c (Pipeline.arrRef spec14 4)) 0 j))
    (M.at2 (V c (Pipeline.arrRef spec14 5)))
    (fun j => M.at2 (V c (Pipeline.arrRef spec14 6)) 0 j)

theorem hz2 : (![0, 0] : Fin 2 → Nat) = fun _ => 0 := funext fun a => by
  match a with
  | ⟨0, _⟩ => rfl
  | ⟨1, _⟩ => rfl
theorem hz3 : (![0, 0, 0] : Fin 3 → Nat) = fun _ => 0 := funext fun a => by
  match a with
  | ⟨0, _⟩ => rfl
  | ⟨1, _⟩ => rfl
  | ⟨2, _⟩ => rfl

/-- A function of three coordinates at equal coordinates. -/
theorem congr3 {α β γ δ : Type} (f : α → β → γ → δ) {a a' : α} {b b' : β} {c c' : γ} (ha : a = a') (hb : b = b')
    (hc : c = c') : f a b c = f a' b' c' := by
  subst ha; subst hb; subst hc; rfl

/-! ## The printed index maps, decided over the grid's five points

The row-block windows sit at the point's own block, the parameter windows at block zero. -/

theorem idx_0 : ∀ t : Fin cfg14.N, win14_0.index t (0 : Fin 2) = t.val ∧ win14_0.index t (1 : Fin 2) = 0 :=
  (by decide +kernel : ∀ t : Fin grid14.N, _)
theorem idx_1 : ∀ t : Fin cfg14.N, win14_1.index t (0 : Fin 2) = 0 ∧ win14_1.index t (1 : Fin 2) = 0 :=
  (by decide +kernel : ∀ t : Fin grid14.N, _)
theorem idx_2 : ∀ t : Fin cfg14.N, win14_2.index t (0 : Fin 2) = 0 ∧ win14_2.index t (1 : Fin 2) = 0 :=
  (by decide +kernel : ∀ t : Fin grid14.N, _)
theorem idx_3 : ∀ t : Fin cfg14.N, win14_3.index t (0 : Fin 2) = 0 ∧ win14_3.index t (1 : Fin 2) = 0 :=
  (by decide +kernel : ∀ t : Fin grid14.N, _)
theorem idx_4 : ∀ t : Fin cfg14.N, win14_4.index t (0 : Fin 2) = 0 ∧ win14_4.index t (1 : Fin 2) = 0 :=
  (by decide +kernel : ∀ t : Fin grid14.N, _)
theorem idx_5 : ∀ t : Fin cfg14.N, win14_5.index t (0 : Fin 2) = 0 ∧ win14_5.index t (1 : Fin 2) = 0 :=
  (by decide +kernel : ∀ t : Fin grid14.N, _)
theorem idx_6 : ∀ t : Fin cfg14.N, win14_6.index t (0 : Fin 2) = 0 ∧ win14_6.index t (1 : Fin 2) = 0 :=
  (by decide +kernel : ∀ t : Fin grid14.N, _)
theorem idx_7 : ∀ t : Fin cfg14.N, win14_7.index t (0 : Fin 2) = t.val ∧ win14_7.index t (1 : Fin 2) = 0 :=
  (by decide +kernel : ∀ t : Fin grid14.N, _)
theorem idx_8 : ∀ t : Fin cfg14.N,
    win14_8.index t (0 : Fin 3) = t.val ∧ win14_8.index t (1 : Fin 3) = 0 ∧ win14_8.index t (2 : Fin 3) = 0 :=
  (by decide +kernel : ∀ t : Fin grid14.N, _)
theorem idx_9 : ∀ t : Fin cfg14.N,
    win14_9.index t (0 : Fin 3) = t.val ∧ win14_9.index t (1 : Fin 3) = 0 ∧ win14_9.index t (2 : Fin 3) = 0 :=
  (by decide +kernel : ∀ t : Fin grid14.N, _)

/-- A grid point as a tile number. -/
abbrev tile (t : Fin cfg14.N) : Fin 5 := Fin.cast N_14 t
/-- A tile number as a grid point. -/
abbrev pt (n : Nat) (h : n < 5) : Fin cfg14.N := ⟨n, by rw [show cfg14.N = 5 from N_14]; exact h⟩

/-! ## The input windows' blocks, read off the whole arrays -/

/-- The row-block window at point `t` holds the rows of tile `t`. -/
theorem iblk_0_apply (c : Dev nD) (t : Fin cfg14.N) (r : Fin 4000) (j : Fin 128) :
    ((iblk14 (F := Ideal) V c 0 t : FVec Ideal S4000x128 .bf16) (ix2 r j) : EReal)
      = M.at2 (V c (Pipeline.arrRef spec14 0)) (M.tileRow (tile t) r) j := by
  obtain ⟨e0, e1⟩ := idx_0 t
  unfold iblk14
  rw [View.read_apply]
  show V c (Pipeline.arrRef spec14 0) _ = V c (Pipeline.arrRef spec14 0) _
  congr 1
  funext a
  apply Fin.ext
  match a with
  | ⟨0, _⟩ => show win14_0.index t (0 : Fin 2) * 4000 + 1 * r.val = 4000 * t.val + r.val; omega
  | ⟨1, _⟩ => show win14_0.index t (1 : Fin 2) * 128 + 1 * j.val = j.val; omega

/-- The column means' window holds the whole row at every point. -/
theorem iblk_1_apply (c : Dev nD) (t : Fin cfg14.N) (j : Fin 128) :
    ((iblk14 (F := Ideal) V c 1 t : FVec Ideal S1x128 .f32) (ix2 0 j) : EReal) = M.at2 (V c (Pipeline.arrRef spec14 1)) 0 j := by
  obtain ⟨e0, e1⟩ := idx_1 t
  unfold iblk14
  rw [View.read_apply]
  show V c (Pipeline.arrRef spec14 1) _ = V c (Pipeline.arrRef spec14 1) _
  congr 1
  funext a
  apply Fin.ext
  match a with
  | ⟨0, _⟩ => show win14_1.index t (0 : Fin 2) * 1 + 1 * 0 = 0; omega
  | ⟨1, _⟩ => show win14_1.index t (1 : Fin 2) * 128 + 1 * j.val = j.val; omega

/-- The column variances' window holds the whole row at every point. -/
theorem iblk_2_apply (c : Dev nD) (t : Fin cfg14.N) (j : Fin 128) :
    ((iblk14 (F := Ideal) V c 2 t : FVec Ideal S1x128 .f32) (ix2 0 j) : EReal) = M.at2 (V c (Pipeline.arrRef spec14 2)) 0 j := by
  obtain ⟨e0, e1⟩ := idx_2 t
  unfold iblk14
  rw [View.read_apply]
  show V c (Pipeline.arrRef spec14 2) _ = V c (Pipeline.arrRef spec14 2) _
  congr 1
  funext a
  apply Fin.ext
  match a with
  | ⟨0, _⟩ => show win14_2.index t (0 : Fin 2) * 1 + 1 * 0 = 0; omega
  | ⟨1, _⟩ => show win14_2.index t (1 : Fin 2) * 128 + 1 * j.val = j.val; omega

/-- The scale's window holds the whole row at every point. -/
theorem iblk_3_apply (c : Dev nD) (t : Fin cfg14.N) (j : Fin 128) :
    ((iblk14 (F := Ideal) V c 3 t : FVec Ideal S1x128 .f32) (ix2 0 j) : EReal) = M.at2 (V c (Pipeline.arrRef spec14 3)) 0 j := by
  obtain ⟨e0, e1⟩ := idx_3 t
  unfold iblk14
  rw [View.read_apply]
  show V c (Pipeline.arrRef spec14 3) _ = V c (Pipeline.arrRef spec14 3) _
  congr 1
  funext a
  apply Fin.ext
  match a with
  | ⟨0, _⟩ => show win14_3.index t (0 : Fin 2) * 1 + 1 * 0 = 0; omega
  | ⟨1, _⟩ => show win14_3.index t (1 : Fin 2) * 128 + 1 * j.val = j.val; omega

/-- The shift's window holds the whole row at every point. -/
theorem iblk_4_apply (c : Dev nD) (t : Fin cfg14.N) (j : Fin 128) :
    ((iblk14 (F := Ideal) V c 4 t : FVec Ideal S1x128 .f32) (ix2 0 j) : EReal) = M.at2 (V c (Pipeline.arrRef spec14 4)) 0 j := by
  obtain ⟨e0, e1⟩ := idx_4 t
  unfold iblk14
  rw [View.read_apply]
  show V c (Pipeline.arrRef spec14 4) _ = V c (Pipeline.arrRef spec14 4) _
  congr 1
  funext a
  apply Fin.ext
  match a with
  | ⟨0, _⟩ => show win14_4.index t (0 : Fin 2) * 1 + 1 * 0 = 0; omega
  | ⟨1, _⟩ => show win14_4.index t (1 : Fin 2) * 128 + 1 * j.val = j.val; omega

/-- The weight's window holds the whole weight at every point. -/
theorem iblk_5_apply (c : Dev nD) (t : Fin cfg14.N) (k j : Fin 128) :
    ((iblk14 (F := Ideal) V c 5 t : FVec Ideal S128x128 .f32) (ix2 k j) : EReal) = M.at2 (V c (Pipeline.arrRef spec14 5)) k j := by
  obtain ⟨e0, e1⟩ := idx_5 t
  unfold iblk14
  rw [View.read_apply]
  show V c (Pipeline.arrRef spec14 5) _ = V c (Pipeline.arrRef spec14 5) _
  congr 1
  funext a
  apply Fin.ext
  match a with
  | ⟨0, _⟩ => show win14_5.index t (0 : Fin 2) * 128 + 1 * k.val = k.val; omega
  | ⟨1, _⟩ => show win14_5.index t (1 : Fin 2) * 128 + 1 * j.val = j.val; omega

/-- The bias's window holds the whole row at every point. -/
theorem iblk_6_apply (c : Dev nD) (t : Fin cfg14.N) (j : Fin 128) :
    ((iblk14 (F := Ideal) V c 6 t : FVec Ideal S1x128 .f32) (ix2 0 j) : EReal) = M.at2 (V c (Pipeline.arrRef spec14 6)) 0 j := by
  obtain ⟨e0, e1⟩ := idx_6 t
  unfold iblk14
  rw [View.read_apply]
  show V c (Pipeline.arrRef spec14 6) _ = V c (Pipeline.arrRef spec14 6) _
  congr 1
  funext a
  apply Fin.ext
  match a with
  | ⟨0, _⟩ => show win14_6.index t (0 : Fin 2) * 1 + 1 * 0 = 0; omega
  | ⟨1, _⟩ => show win14_6.index t (1 : Fin 2) * 128 + 1 * j.val = j.val; omega

/-! ## The first output: the stored blocks tile the whole second linear map -/

/-- What point `t` writes back to the first output is block `t` of the whole value. -/
theorem flushed_7_eq (c : Dev nD) (t : Fin cfg14.N) :
    (dat14 (F := Ideal) V c).flushed 7 t = ((cfg14.win 7).blk t).view.read (Elt Ideal) (M.mk2 (val V c)) := by
  show (cfg14.win 7).cut (grid14.coords t) ((dat14 (F := Ideal) V c).after 7 t) = _
  rw [after14_7]
  unfold out14_7
  rw [View.canon_unit_zero hz2]
  simp only [View.ld_unit_zero (S := S4000x128) hz2, View.ld_unit_zero (S := S1x128) hz2,
    View.ld_unit_zero (S := S128x128) hz2]
  obtain ⟨e0, e1⟩ := idx_7 t
  funext y
  show (Gen.k14_pay4 (F := Ideal) (iblk14 V c 0 t) (iblk14 V c 2 t) (iblk14 V c 1 t) (iblk14 V c 3 t) (iblk14 V c 4 t) (iblk14 V c 5 t) (iblk14 V c 6 t) y : EReal)
      = M.mk2 (val V c) (((cfg14.win 7).blk t).view.emb y)
  refine (pay4_blk _ _ _ _ _ _ _ (M.at2 (V c (Pipeline.arrRef spec14 0)))
      (fun j => M.at2 (V c (Pipeline.arrRef spec14 1)) 0 j) (fun j => M.at2 (V c (Pipeline.arrRef spec14 2)) 0 j)
      (fun j => M.at2 (V c (Pipeline.arrRef spec14 3)) 0 j) (fun j => M.at2 (V c (Pipeline.arrRef spec14 4)) 0 j)
      (M.at2 (V c (Pipeline.arrRef spec14 5))) (fun j => M.at2 (V c (Pipeline.arrRef spec14 6)) 0 j) (tile t)
      (iblk_0_apply V c t) (iblk_2_apply V c t) (iblk_1_apply V c t) (iblk_3_apply V c t) (iblk_4_apply V c t)
      (iblk_5_apply V c t) (iblk_6_apply V c t) y).trans ?_
  show val V c (M.tileRow (tile t) (y 0)) (y 1)
      = val V c ((((cfg14.win 7).blk t).view.emb y) 0) ((((cfg14.win 7).blk t).view.emb y) 1)
  refine congrArg₂ (val V c) (Fin.ext ?_) (Fin.ext ?_)
  · show 4000 * t.val + (y 0).val = win14_7.index t (0 : Fin 2) * 4000 + 1 * (y 0).val; omega
  · show (y 1).val = win14_7.index t (1 : Fin 2) * 128 + 1 * (y 1).val; omega

/-- An index of the array is in point `t`'s block iff each coordinate is in the block's range on its axis. -/
theorem mem_blk_7 (t : Fin cfg14.N) (i : S20000x128.Idx) :
    i ∈ ((cfg14.win 7).blk t).view.set ↔ ∀ a : Fin 2, win14_7.index t a * S4000x128.size a ≤ (i a).val
      ∧ (i a).val < win14_7.index t a * S4000x128.size a + S4000x128.size a := by
  show i ∈ ((View.whole (Pipeline.arrRef spec14 7)).slice (win14_7.rect t)).set ↔ _
  rw [View.set_slice_whole, Rect.mem_set_unit]
  exact Iff.rfl

/-- Row `r` is covered by point `r / 4000`. -/
theorem cover_7 (i : S20000x128.Idx) :
    ∃ t : Fin cfg14.N, (cfg14.win 7).flush t = true ∧ i ∈ ((cfg14.win 7).blk t).view.set := by
  have hi0 : (i 0).val < 20000 := (i 0).isLt
  have hi1 : (i 1).val < 128 := (i 1).isLt
  have hq : (i 0).val / 4000 < 5 := by omega
  refine ⟨pt ((i 0).val / 4000) hq, flush14_7 _, ?_⟩
  obtain ⟨e0, e1⟩ := idx_7 (pt ((i 0).val / 4000) hq)
  have e0' : win14_7.index (pt ((i 0).val / 4000) hq) (0 : Fin 2) = (i 0).val / 4000 := e0
  rw [mem_blk_7]
  intro a
  match a with
  | ⟨0, _⟩ =>
    show win14_7.index (pt ((i 0).val / 4000) hq) (0 : Fin 2) * 4000 ≤ (i 0).val
      ∧ (i 0).val < win14_7.index (pt ((i 0).val / 4000) hq) (0 : Fin 2) * 4000 + 4000
    omega
  | ⟨1, _⟩ =>
    show win14_7.index (pt ((i 0).val / 4000) hq) (1 : Fin 2) * 128 ≤ (i 1).val
      ∧ (i 1).val < win14_7.index (pt ((i 0).val / 4000) hq) (1 : Fin 2) * 128 + 128
    omega

/-! ## The second and third outputs: the stored blocks tile the per-tile sums -/

/-- What point `t` writes back to the column sums output is block `t` of the per-tile column sums. -/
theorem flushed_8_eq (c : Dev nD) (t : Fin cfg14.N) :
    (dat14 (F := Ideal) V c).flushed 8 t = ((cfg14.win 8).blk t).view.read (Elt Ideal) (M.mk3 (M.sumT (val V c))) := by
  show (cfg14.win 8).cut (grid14.coords t) ((dat14 (F := Ideal) V c).after 8 t) = _
  rw [after14_8]
  unfold out14_8
  rw [View.canon_unit_zero hz3]
  simp only [View.ld_unit_zero (S := S4000x128) hz2, View.ld_unit_zero (S := S1x128) hz2,
    View.ld_unit_zero (S := S128x128) hz2]
  obtain ⟨e0, e1, e2⟩ := idx_8 t
  funext y
  have hy0 : (y 0).val < 1 := (y 0).isLt
  show (Gen.k14_pay1 (F := Ideal) (Gen.k14_pay5 (F := Ideal) (iblk14 V c 0 t) (iblk14 V c 2 t) (iblk14 V c 1 t) (iblk14 V c 3 t) (iblk14 V c 4 t) (iblk14 V c 5 t) (iblk14 V c 6 t)) y : EReal)
      = M.mk3 (M.sumT (val V c)) (((cfg14.win 8).blk t).view.emb y)
  refine (pay1_blk _ _ _ _ _ _ _ (M.at2 (V c (Pipeline.arrRef spec14 0)))
      (fun j => M.at2 (V c (Pipeline.arrRef spec14 1)) 0 j) (fun j => M.at2 (V c (Pipeline.arrRef spec14 2)) 0 j)
      (fun j => M.at2 (V c (Pipeline.arrRef spec14 3)) 0 j) (fun j => M.at2 (V c (Pipeline.arrRef spec14 4)) 0 j)
      (M.at2 (V c (Pipeline.arrRef spec14 5))) (fun j => M.at2 (V c (Pipeline.arrRef spec14 6)) 0 j) (tile t)
      (iblk_0_apply V c t) (iblk_2_apply V c t) (iblk_1_apply V c t) (iblk_3_apply V c t) (iblk_4_apply V c t)
      (iblk_5_apply V c t) (iblk_6_apply V c t) y).trans ?_
  show M.sumT (val V c) (tile t) (y 1) (y 2)
      = M.sumT (val V c) ((((cfg14.win 8).blk t).view.emb y) 0) ((((cfg14.win 8).blk t).view.emb y) 1)
          ((((cfg14.win 8).blk t).view.emb y) 2)
  refine congr3 (M.sumT (val V c)) (Fin.ext ?_) (Fin.ext ?_) (Fin.ext ?_)
  · show t.val = win14_8.index t (0 : Fin 3) * 1 + 1 * (y 0).val; omega
  · show (y 1).val = win14_8.index t (1 : Fin 3) * 8 + 1 * (y 1).val; omega
  · show (y 2).val = win14_8.index t (2 : Fin 3) * 128 + 1 * (y 2).val; omega

/-- An index of the array is in point `t`'s block iff each coordinate is in the block's range on its axis. -/
theorem mem_blk_8 (t : Fin cfg14.N) (i : S5x8x128.Idx) :
    i ∈ ((cfg14.win 8).blk t).view.set ↔ ∀ a : Fin 3, win14_8.index t a * S1x8x128.size a ≤ (i a).val
      ∧ (i a).val < win14_8.index t a * S1x8x128.size a + S1x8x128.size a := by
  show i ∈ ((View.whole (Pipeline.arrRef spec14 8)).slice (win14_8.rect t)).set ↔ _
  rw [View.set_slice_whole, Rect.mem_set_unit]
  exact Iff.rfl

/-- Tile `p`'s eight rows are covered by point `p`. -/
theorem cover_8 (i : S5x8x128.Idx) :
    ∃ t : Fin cfg14.N, (cfg14.win 8).flush t = true ∧ i ∈ ((cfg14.win 8).blk t).view.set := by
  have hi0 : (i 0).val < 5 := (i 0).isLt
  have hi1 : (i 1).val < 8 := (i 1).isLt
  have hi2 : (i 2).val < 128 := (i 2).isLt
  refine ⟨pt (i 0).val hi0, flush14_8 _, ?_⟩
  obtain ⟨e0, e1, e2⟩ := idx_8 (pt (i 0).val hi0)
  have e0' : win14_8.index (pt (i 0).val hi0) (0 : Fin 3) = (i 0).val := e0
  rw [mem_blk_8]
  intro a
  match a with
  | ⟨0, _⟩ =>
    show win14_8.index (pt (i 0).val hi0) (0 : Fin 3) * 1 ≤ (i 0).val
      ∧ (i 0).val < win14_8.index (pt (i 0).val hi0) (0 : Fin 3) * 1 + 1
    omega
  | ⟨1, _⟩ =>
    show win14_8.index (pt (i 0).val hi0) (1 : Fin 3) * 8 ≤ (i 1).val
      ∧ (i 1).val < win14_8.index (pt (i 0).val hi0) (1 : Fin 3) * 8 + 8
    omega
  | ⟨2, _⟩ =>
    show win14_8.index (pt (i 0).val hi0) (2 : Fin 3) * 128 ≤ (i 2).val
      ∧ (i 2).val < win14_8.index (pt (i 0).val hi0) (2 : Fin 3) * 128 + 128
    omega

/-- What point `t` writes back to the column sums of squares output is block `t` of the per-tile column sums of squares. -/
theorem flushed_9_eq (c : Dev nD) (t : Fin cfg14.N) :
    (dat14 (F := Ideal) V c).flushed 9 t = ((cfg14.win 9).blk t).view.read (Elt Ideal) (M.mk3 (M.sumsqT (val V c))) := by
  show (cfg14.win 9).cut (grid14.coords t) ((dat14 (F := Ideal) V c).after 9 t) = _
  rw [after14_9]
  unfold out14_9
  rw [View.canon_unit_zero hz3]
  simp only [View.ld_unit_zero (S := S4000x128) hz2, View.ld_unit_zero (S := S1x128) hz2,
    View.ld_unit_zero (S := S128x128) hz2]
  obtain ⟨e0, e1, e2⟩ := idx_9 t
  funext y
  have hy0 : (y 0).val < 1 := (y 0).isLt
  show (Gen.k14_pay2 (F := Ideal) (Gen.k14_pay3 (F := Ideal) (iblk14 V c 0 t) (iblk14 V c 2 t) (iblk14 V c 1 t) (iblk14 V c 3 t) (iblk14 V c 4 t) (iblk14 V c 5 t) (iblk14 V c 6 t)) y : EReal)
      = M.mk3 (M.sumsqT (val V c)) (((cfg14.win 9).blk t).view.emb y)
  refine (pay2_blk _ _ _ _ _ _ _ (M.at2 (V c (Pipeline.arrRef spec14 0)))
      (fun j => M.at2 (V c (Pipeline.arrRef spec14 1)) 0 j) (fun j => M.at2 (V c (Pipeline.arrRef spec14 2)) 0 j)
      (fun j => M.at2 (V c (Pipeline.arrRef spec14 3)) 0 j) (fun j => M.at2 (V c (Pipeline.arrRef spec14 4)) 0 j)
      (M.at2 (V c (Pipeline.arrRef spec14 5))) (fun j => M.at2 (V c (Pipeline.arrRef spec14 6)) 0 j) (tile t)
      (iblk_0_apply V c t) (iblk_2_apply V c t) (iblk_1_apply V c t) (iblk_3_apply V c t) (iblk_4_apply V c t)
      (iblk_5_apply V c t) (iblk_6_apply V c t) y).trans ?_
  show M.sumsqT (val V c) (tile t) (y 1) (y 2)
      = M.sumsqT (val V c) ((((cfg14.win 9).blk t).view.emb y) 0) ((((cfg14.win 9).blk t).view.emb y) 1)
          ((((cfg14.win 9).blk t).view.emb y) 2)
  refine congr3 (M.sumsqT (val V c)) (Fin.ext ?_) (Fin.ext ?_) (Fin.ext ?_)
  · show t.val = win14_9.index t (0 : Fin 3) * 1 + 1 * (y 0).val; omega
  · show (y 1).val = win14_9.index t (1 : Fin 3) * 8 + 1 * (y 1).val; omega
  · show (y 2).val = win14_9.index t (2 : Fin 3) * 128 + 1 * (y 2).val; omega

/-- An index of the array is in point `t`'s block iff each coordinate is in the block's range on its axis. -/
theorem mem_blk_9 (t : Fin cfg14.N) (i : S5x8x128.Idx) :
    i ∈ ((cfg14.win 9).blk t).view.set ↔ ∀ a : Fin 3, win14_9.index t a * S1x8x128.size a ≤ (i a).val
      ∧ (i a).val < win14_9.index t a * S1x8x128.size a + S1x8x128.size a := by
  show i ∈ ((View.whole (Pipeline.arrRef spec14 9)).slice (win14_9.rect t)).set ↔ _
  rw [View.set_slice_whole, Rect.mem_set_unit]
  exact Iff.rfl

/-- Tile `p`'s eight rows are covered by point `p`. -/
theorem cover_9 (i : S5x8x128.Idx) :
    ∃ t : Fin cfg14.N, (cfg14.win 9).flush t = true ∧ i ∈ ((cfg14.win 9).blk t).view.set := by
  have hi0 : (i 0).val < 5 := (i 0).isLt
  have hi1 : (i 1).val < 8 := (i 1).isLt
  have hi2 : (i 2).val < 128 := (i 2).isLt
  refine ⟨pt (i 0).val hi0, flush14_9 _, ?_⟩
  obtain ⟨e0, e1, e2⟩ := idx_9 (pt (i 0).val hi0)
  have e0' : win14_9.index (pt (i 0).val hi0) (0 : Fin 3) = (i 0).val := e0
  rw [mem_blk_9]
  intro a
  match a with
  | ⟨0, _⟩ =>
    show win14_9.index (pt (i 0).val hi0) (0 : Fin 3) * 1 ≤ (i 0).val
      ∧ (i 0).val < win14_9.index (pt (i 0).val hi0) (0 : Fin 3) * 1 + 1
    omega
  | ⟨1, _⟩ =>
    show win14_9.index (pt (i 0).val hi0) (1 : Fin 3) * 8 ≤ (i 1).val
      ∧ (i 1).val < win14_9.index (pt (i 0).val hi0) (1 : Fin 3) * 8 + 8
    omega
  | ⟨2, _⟩ =>
    show win14_9.index (pt (i 0).val hi0) (2 : Fin 3) * 128 ≤ (i 2).val
      ∧ (i 2).val < win14_9.index (pt (i 0).val hi0) (2 : Fin 3) * 128 + 128
    omega

/-! ## The three output arrays when the region ends -/

/-- The first output is the whole second linear map. -/
theorem arr14_7 (c : Dev nD) : (dat14 (F := Ideal) V c).arrAt 7 cfg14.N = M.mk2 (val V c) :=
  (dat14 (F := Ideal) V c).arrAt_eq_of_cover 7 (M.mk2 (val V c)) (fun t _ => flushed_7_eq V c t) cover_7

/-- The second output is its per-tile column sums, one copy in each of eight rows. -/
theorem arr14_8 (c : Dev nD) : (dat14 (F := Ideal) V c).arrAt 8 cfg14.N = M.mk3 (M.sumT (val V c)) :=
  (dat14 (F := Ideal) V c).arrAt_eq_of_cover 8 (M.mk3 (M.sumT (val V c))) (fun t _ => flushed_8_eq V c t) cover_8

/-- The third output is its per-tile column sums of squares, one copy in each of eight rows. -/
theorem arr14_9 (c : Dev nD) : (dat14 (F := Ideal) V c).arrAt 9 cfg14.N = M.mk3 (M.sumsqT (val V c)) :=
  (dat14 (F := Ideal) V c).arrAt_eq_of_cover 9 (M.mk3 (M.sumsqT (val V c))) (fun t _ => flushed_9_eq V c t) cover_9

end Cert.RegB14

end
-- ==== Proof.RegC15.lean ====
/-
  Region 15 (layer 3's normalise-and-rectify kernel with the tile sums of its result), read as values.

  On a block of 4000 rows of its input array and the four parameter rows (mean, variance, scale, shift) the body stores
  `max ((a − mean) · rsqrt (var + ε) · g + b) 0` and, each replicated over eight rows, that block's column sums and
  column sums of squares. So after the region its three output arrays are `M.bnrelu` of the input arrays, and the
  tiled sums `M.sumT` and `M.sumsqT` of that.
-/
import proofs.«416875_j80633716015165_3_alg».proof.Proof.FrameKI
import proofs.«416875_j80633716015165_3_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.TcCoe Idealize.ShloMosaic.ValueIdx Idealize.SL.Sem
open Idealize.ShloMosaic.Pipeline (Dat)
open Cert.KernelIdeal Cert.KernelIdeal.Gen

namespace Cert.RegC15

/-! ## The payloads at an index -/

/-- One entry normalised and rectified. -/
abbrev nrm (a mean var g b : EReal) : EReal := max ((a - mean) * Ideal.rsqrt (var + M.cEps) * g + b) M.c0

theorem nrm_congr {a a' m m' v v' g g' b b' : EReal} (ha : a = a') (hm : m = m') (hv : v = v') (hg : g = g') (hb : b = b') :
    nrm a m v g b = nrm a' m' v' g' b' := by rw [ha, hm, hv, hg, hb]

/-- The normalised and rectified value at row `p`, column `q` of a block: the block's entry minus the mean's, times the
    inverse root of the variance's plus the small constant, times the scale's, plus the shift's, cut below at zero. -/
theorem pay1_apply (v0 : Vec Ideal S4000x128 .bf16) (v3 v8 v14 v18 : Vec Ideal S1x128 .f32) (p : Fin 4000) (q : Fin 128) :
    k15_pay1 (F := Ideal) v0 v3 v8 v14 v18 (ix2 p q)
      = nrm (v0 (ix2 p q)) (v8 (ix2 (0 : Fin 1) q)) (v3 (ix2 (0 : Fin 1) q)) (v14 (ix2 (0 : Fin 1) q)) (v18 (ix2 (0 : Fin 1) q)) := by
  unfold k15_pay1
  simp only [shapeCast_self, maximumf_apply, addf_apply, mulf_apply, subf_apply, broadcastTo_1b_ab_apply, extf_apply]
  rfl

/-- The stored block is that value (the narrowing is the identity on ideal values). -/
theorem pay2_apply (v0 : Vec Ideal S4000x128 .bf16) (v3 v8 v14 v18 : Vec Ideal S1x128 .f32) (p : Fin 4000) (q : Fin 128) :
    k15_pay2 (F := Ideal) v0 v3 v8 v14 v18 (ix2 p q) = k15_pay1 (F := Ideal) v0 v3 v8 v14 v18 (ix2 p q) := by
  unfold k15_pay2
  rfl

/-- A `[1, 1, b]` array broadcast to `[1, a, b]` reads, at `(u, s, q)`, the operand's one row at `q`. -/
theorem broadcastTo_11b_1ab_apply {α : Type} {a b : ℕ} (v : (⟨3, ![1, 1, b]⟩ : Shape).Idx → α)
    (h : (⟨3, ![1, 1, b]⟩ : Shape).Broadcasts ⟨3, ![1, a, b]⟩) (u : Fin 1) (s : Fin a) (q : Fin b) :
    broadcastTo ⟨3, ![1, a, b]⟩ v h (ix3 u s q) = v (ix3 (0 : Fin 1) (0 : Fin 1) q) := by
  refine broadcastTo_apply v h (ix3 u s q) (ix3 (0 : Fin 1) (0 : Fin 1) q) fun ax => ?_
  match ax with
  | ⟨0, _⟩ => rfl
  | ⟨1, _⟩ => rfl
  | ⟨2, _⟩ =>
    show q.val = if b = 1 then 0 else q.val
    split
    · have := q.isLt; omega
    · rfl

/-- The sum over the rows of a `[4000, 128]` block, read at column `q`. -/
theorem colSum_apply (src : FVec Ideal S4000x128 .f32) (h : S4000x128.Reduces [0] S128) (hφ : FKind.Formats .f32)
    (hacc : (0x00000000#32 : BitVec 32) = FKind.add.neutral .f32 hφ) (q : Fin 128) :
    multiReduction .add [0] S128 src 0x00000000#32 h hφ hacc (ix1 q) = ∑ r : Fin 4000, src (ix2 r q) := by
  refine (Ideal.multiReduction_add_single src 0x00000000#32 h hφ hacc (ix1 q)).trans ?_
  refine Finset.sum_congr rfl fun r _ => congrArg src ?_
  funext a
  apply Fin.ext
  match a with
  | ⟨0, _⟩ => rfl
  | ⟨1, _⟩ => rfl

/-- The column sums' block: every one of its eight rows holds, at column `q`, the sum over the block's rows. -/
theorem pay3_apply (v0 : Vec Ideal S4000x128 .bf16) (v3 v8 v14 v18 : Vec Ideal S1x128 .f32) (u : Fin 1) (s : Fin 8) (q : Fin 128) :
    k15_pay3 (F := Ideal) v0 v3 v8 v14 v18 (ix3 u s q) = ∑ r : Fin 4000, k15_pay1 (F := Ideal) v0 v3 v8 v14 v18 (ix2 r q) := by
  unfold k15_pay3
  simp only [shapeCast_self]
  refine (broadcastTo_11b_1ab_apply _ _ u s q).trans ?_
  refine (shapeCast_ab_1ab_apply _ _ (0 : Fin 1) (0 : Fin 1) q).trans ?_
  refine (shapeCast_a_1a_apply _ _ (0 : Fin 1) q).trans ?_
  exact colSum_apply _ _ _ _ q

/-- The column sums of squares' block, likewise. -/
theorem pay4_apply (v0 : Vec Ideal S4000x128 .bf16) (v3 v8 v14 v18 : Vec Ideal S1x128 .f32) (u : Fin 1) (s : Fin 8) (q : Fin 128) :
    k15_pay4 (F := Ideal) v0 v3 v8 v14 v18 (ix3 u s q)
      = ∑ r : Fin 4000, k15_pay1 (F := Ideal) v0 v3 v8 v14 v18 (ix2 r q) * k15_pay1 (F := Ideal) v0 v3 v8 v14 v18 (ix2 r q) := by
  unfold k15_pay4
  simp only [shapeCast_self]
  refine (broadcastTo_11b_1ab_apply _ _ u s q).trans ?_
  refine (shapeCast_ab_1ab_apply _ _ (0 : Fin 1) (0 : Fin 1) q).trans ?_
  refine (shapeCast_a_1a_apply _ _ (0 : Fin 1) q).trans ?_
  exact colSum_apply _ _ _ _ q

/-! ## Each output window's staging buffer after the body, at an index -/

theorem hzero2 : (![0, 0] : Fin 2 → Nat) = fun _ => 0 := funext fun a => by fin_cases a <;> rfl
theorem hzero3 : (![0, 0, 0] : Fin 3 → Nat) = fun _ => 0 := funext fun a => by fin_cases a <;> rfl

/-- A block's normalised and rectified value at row `r`, column `q`, from the input block and the four parameter rows. -/
abbrev blkZ (x0 : Vec Ideal S4000x128 .bf16) (x1 x2 x3 x4 : Vec Ideal S1x128 .f32) (r : Fin 4000) (q : Fin 128) : EReal :=
  nrm (x0 (ix2 r q)) (x1 (ix2 (0 : Fin 1) q)) (x2 (ix2 (0 : Fin 1) q)) (x3 (ix2 (0 : Fin 1) q)) (x4 (ix2 (0 : Fin 1) q))

/-- The first output's buffer holds the block's normalised and rectified values. -/
theorem outZ_apply (x0 : Vec Ideal S4000x128 .bf16) (x1 x2 x3 x4 : Vec Ideal S1x128 .f32) (p : Fin 4000) (q : Fin 128) :
    out15_5 (F := Ideal) x0 x1 x2 x3 x4 (ix2 p q) = blkZ x0 x1 x2 x3 x4 p q := by
  unfold out15_5
  rw [View.canon_unit_zero hzero2]
  simp only [View.ld_unit_zero (S := S4000x128) hzero2, View.ld_unit_zero (S := S1x128) hzero2]
  exact (pay2_apply _ _ _ _ _ p q).trans (pay1_apply _ _ _ _ _ p q)

/-- The second output's buffer holds, in each of its eight rows, the column sums of those values. -/
theorem outSum_apply (x0 : Vec Ideal S4000x128 .bf16) (x1 x2 x3 x4 : Vec Ideal S1x128 .f32) (u : Fin 1) (s : Fin 8) (q : Fin 128) :
    out15_6 (F := Ideal) x0 x1 x2 x3 x4 (ix3 u s q) = ∑ r : Fin 4000, blkZ x0 x1 x2 x3 x4 r q := by
  unfold out15_6
  rw [View.canon_unit_zero hzero3]
  simp only [View.ld_unit_zero (S := S4000x128) hzero2, View.ld_unit_zero (S := S1x128) hzero2]
  refine (pay3_apply _ _ _ _ _ u s q).trans ?_
  exact Finset.sum_congr rfl fun r _ => pay1_apply _ _ _ _ _ r q

/-- The third output's buffer holds, in each of its eight rows, the column sums of their squares. -/
theorem outSq_apply (x0 : Vec Ideal S4000x128 .bf16) (x1 x2 x3 x4 : Vec Ideal S1x128 .f32) (u : Fin 1) (s : Fin 8) (q : Fin 128) :
    out15_7 (F := Ideal) x0 x1 x2 x3 x4 (ix3 u s q) = ∑ r : Fin 4000, blkZ x0 x1 x2 x3 x4 r q * blkZ x0 x1 x2 x3 x4 r q := by
  unfold out15_7
  rw [View.canon_unit_zero hzero3]
  simp only [View.ld_unit_zero (S := S4000x128) hzero2, View.ld_unit_zero (S := S1x128) hzero2]
  refine (pay4_apply _ _ _ _ _ u s q).trans ?_
  exact Finset.sum_congr rfl fun r _ => by rw [pay1_apply]

/-! ## The index maps, decided once over the grid -/

theorem idxIn : ∀ t : Fin cfg15.N, win15_0.index t (0 : Fin 2) = t.val ∧ win15_0.index t (1 : Fin 2) = 0 :=
  (by decide +kernel : ∀ t : Fin grid15.N, _)
theorem idxMean : ∀ t : Fin cfg15.N, win15_1.index t (0 : Fin 2) = 0 ∧ win15_1.index t (1 : Fin 2) = 0 :=
  (by decide +kernel : ∀ t : Fin grid15.N, _)
theorem idxVar : ∀ t : Fin cfg15.N, win15_2.index t (0 : Fin 2) = 0 ∧ win15_2.index t (1 : Fin 2) = 0 :=
  (by decide +kernel : ∀ t : Fin grid15.N, _)
theorem idxScale : ∀ t : Fin cfg15.N, win15_3.index t (0 : Fin 2) = 0 ∧ win15_3.index t (1 : Fin 2) = 0 :=
  (by decide +kernel : ∀ t : Fin grid15.N, _)
theorem idxShift : ∀ t : Fin cfg15.N, win15_4.index t (0 : Fin 2) = 0 ∧ win15_4.index t (1 : Fin 2) = 0 :=
  (by decide +kernel : ∀ t : Fin grid15.N, _)
theorem idxZ : ∀ t : Fin cfg15.N, win15_5.index t (0 : Fin 2) = t.val ∧ win15_5.index t (1 : Fin 2) = 0 :=
  (by decide +kernel : ∀ t : Fin grid15.N, _)
theorem idxSum : ∀ t : Fin cfg15.N, win15_6.index t (0 : Fin 3) = t.val ∧ win15_6.index t (1 : Fin 3) = 0 ∧ win15_6.index t (2 : Fin 3) = 0 :=
  (by decide +kernel : ∀ t : Fin grid15.N, _)
theorem idxSq : ∀ t : Fin cfg15.N, win15_7.index t (0 : Fin 3) = t.val ∧ win15_7.index t (1 : Fin 3) = 0 ∧ win15_7.index t (2 : Fin 3) = 0 :=
  (by decide +kernel : ∀ t : Fin grid15.N, _)

theorem lt_five (t : Fin cfg15.N) : t.val < 5 := Nat.lt_of_lt_of_eq t.isLt N_15

/-! ## Where each window's block sits in its array -/

/-- Row `r`, column `q` of the input's block at point `t` is row `4000 t + r`, column `q` of the array. -/
theorem embIn (t : Fin cfg15.N) (r : Fin 4000) (q : Fin 128) :
    ((cfg15.win 0).blk t).view.emb (ix2 r q) = ix2 (M.tileRow ⟨t.val, lt_five t⟩ r) q := by
  obtain ⟨e0, e1⟩ := idxIn t
  funext a
  apply Fin.ext
  match a with
  | ⟨0, _⟩ => show win15_0.index t (0 : Fin 2) * 4000 + 1 * r.val = 4000 * t.val + r.val; rw [e0]; omega
  | ⟨1, _⟩ => show win15_0.index t (1 : Fin 2) * 128 + 1 * q.val = q.val; rw [e1]; omega

theorem embMean (t : Fin cfg15.N) (q : Fin 128) : ((cfg15.win 1).blk t).view.emb (ix2 (0 : Fin 1) q) = ix2 (0 : Fin 1) q := by
  obtain ⟨e0, e1⟩ := idxMean t
  funext a
  apply Fin.ext
  match a with
  | ⟨0, _⟩ => show win15_1.index t (0 : Fin 2) * 1 + 1 * 0 = 0; rw [e0]
  | ⟨1, _⟩ => show win15_1.index t (1 : Fin 2) * 128 + 1 * q.val = q.val; rw [e1]; omega

theorem embVar (t : Fin cfg15.N) (q : Fin 128) : ((cfg15.win 2).blk t).view.emb (ix2 (0 : Fin 1) q) = ix2 (0 : Fin 1) q := by
  obtain ⟨e0, e1⟩ := idxVar t
  funext a
  apply Fin.ext
  match a with
  | ⟨0, _⟩ => show win15_2.index t (0 : Fin 2) * 1 + 1 * 0 = 0; rw [e0]
  | ⟨1, _⟩ => show win15_2.index t (1 : Fin 2) * 128 + 1 * q.val = q.val; rw [e1]; omega

theorem embScale (t : Fin cfg15.N) (q : Fin 128) : ((cfg15.win 3).blk t).view.emb (ix2 (0 : Fin 1) q) = ix2 (0 : Fin 1) q := by
  obtain ⟨e0, e1⟩ := idxScale t
  funext a
  apply Fin.ext
  match a with
  | ⟨0, _⟩ => show win15_3.index t (0 : Fin 2) * 1 + 1 * 0 = 0; rw [e0]
  | ⟨1, _⟩ => show win15_3.index t (1 : Fin 2) * 128 + 1 * q.val = q.val; rw [e1]; omega

theorem embShift (t : Fin cfg15.N) (q : Fin 128) : ((cfg15.win 4).blk t).view.emb (ix2 (0 : Fin 1) q) = ix2 (0 : Fin 1) q := by
  obtain ⟨e0, e1⟩ := idxShift t
  funext a
  apply Fin.ext
  match a with
  | ⟨0, _⟩ => show win15_4.index t (0 : Fin 2) * 1 + 1 * 0 = 0; rw [e0]
  | ⟨1, _⟩ => show win15_4.index t (1 : Fin 2) * 128 + 1 * q.val = q.val; rw [e1]; omega

/-- Likewise the first output's block. -/
theorem embZ (t : Fin cfg15.N) (r : Fin 4000) (q : Fin 128) :
    ((cfg15.win 5).blk t).view.emb (ix2 r q) = ix2 (M.tileRow ⟨t.val, lt_five t⟩ r) q := by
  obtain ⟨e0, e1⟩ := idxZ t
  funext a
  apply Fin.ext
  match a with
  | ⟨0, _⟩ => show win15_5.index t (0 : Fin 2) * 4000 + 1 * r.val = 4000 * t.val + r.val; rw [e0]; omega
  | ⟨1, _⟩ => show win15_5.index t (1 : Fin 2) * 128 + 1 * q.val = q.val; rw [e1]; omega

/-- The sums' block at point `t` is tile `t` of the `[5, 8, 128]` array. -/
theorem embSum (t : Fin cfg15.N) (u : Fin 1) (s : Fin 8) (q : Fin 128) :
    ((cfg15.win 6).blk t).view.emb (ix3 u s q) = ix3 (⟨t.val, lt_five t⟩ : Fin 5) s q := by
  obtain ⟨e0, e1, e2⟩ := idxSum t
  have hu : u.val = 0 := by omega
  funext a
  apply Fin.ext
  match a with
  | ⟨0, _⟩ => show win15_6.index t (0 : Fin 3) * 1 + 1 * u.val = t.val; rw [e0, hu]; omega
  | ⟨1, _⟩ => show win15_6.index t (1 : Fin 3) * 8 + 1 * s.val = s.val; rw [e1]; omega
  | ⟨2, _⟩ => show win15_6.index t (2 : Fin 3) * 128 + 1 * q.val = q.val; rw [e2]; omega

theorem embSq (t : Fin cfg15.N) (u : Fin 1) (s : Fin 8) (q : Fin 128) :
    ((cfg15.win 7).blk t).view.emb (ix3 u s q) = ix3 (⟨t.val, lt_five t⟩ : Fin 5) s q := by
  obtain ⟨e0, e1, e2⟩ := idxSq t
  have hu : u.val = 0 := by omega
  funext a
  apply Fin.ext
  match a with
  | ⟨0, _⟩ => show win15_7.index t (0 : Fin 3) * 1 + 1 * u.val = t.val; rw [e0, hu]; omega
  | ⟨1, _⟩ => show win15_7.index t (1 : Fin 3) * 8 + 1 * s.val = s.val; rw [e1]; omega
  | ⟨2, _⟩ => show win15_7.index t (2 : Fin 3) * 128 + 1 * q.val = q.val; rw [e2]; omega

/-! ## The region's arrays -/

variable (V : (c : Dev nD) → (b : Ref sig .tc) → Buf (Elt Ideal) ((c : Thread nD τ).loc b))

/-- The normalised and rectified array, as a function of coordinates, of the arrays as the region finds them. -/
abbrev z (c : Dev nD) : Fin 20000 → Fin 128 → EReal :=
  M.bnrelu (M.at2 (V c (Pipeline.arrRef spec15 0))) (fun j => M.at2 (V c (Pipeline.arrRef spec15 1)) 0 j)
    (fun j => M.at2 (V c (Pipeline.arrRef spec15 2)) 0 j) (fun j => M.at2 (V c (Pipeline.arrRef spec15 3)) 0 j)
    (fun j => M.at2 (V c (Pipeline.arrRef spec15 4)) 0 j)

/-- The input windows' blocks at point `t` give, at row `r` and column `q`, the array's value at row `4000 t + r`. -/
theorem blkZ_iblk (c : Dev nD) (t : Fin cfg15.N) (r : Fin 4000) (q : Fin 128) :
    blkZ (iblk15 V c 0 t) (iblk15 V c 1 t) (iblk15 V c 2 t) (iblk15 V c 3 t) (iblk15 V c 4 t) r q
      = z V c (M.tileRow ⟨t.val, lt_five t⟩ r) q :=
  nrm_congr (congrArg (V c (Pipeline.arrRef spec15 0)) (embIn t r q))
    (congrArg (V c (Pipeline.arrRef spec15 1)) (embMean t q))
    (congrArg (V c (Pipeline.arrRef spec15 2)) (embVar t q))
    (congrArg (V c (Pipeline.arrRef spec15 3)) (embScale t q))
    (congrArg (V c (Pipeline.arrRef spec15 4)) (embShift t q))

/-! ## What each point writes back is its block of the whole-array function -/

theorem flushedZ_eq (c : Dev nD) (t : Fin cfg15.N) :
    (dat15 (F := Ideal) V c).flushed 5 t = ((cfg15.win 5).blk t).view.read (Elt Ideal) (M.mk2 (z V c)) := by
  show (cfg15.win 5).cut (grid15.coords t) ((dat15 V c).after 5 t) = _
  rw [after15_5]
  funext j
  obtain ⟨p, q, rfl⟩ : ∃ (p : Fin 4000) (q : Fin 128), j = ix2 p q := ⟨j 0, j 1, eq_ix2 j⟩
  show out15_5 (iblk15 V c 0 t) (iblk15 V c 1 t) (iblk15 V c 2 t) (iblk15 V c 3 t) (iblk15 V c 4 t) (ix2 p q)
    = M.mk2 (z V c) (((cfg15.win 5).blk t).view.emb (ix2 p q))
  refine (outZ_apply _ _ _ _ _ p q).trans ?_
  refine (blkZ_iblk V c t p q).trans ?_
  exact (congrArg (M.mk2 (z V c)) (embZ t p q)).symm

theorem flushedSum_eq (c : Dev nD) (t : Fin cfg15.N) :
    (dat15 (F := Ideal) V c).flushed 6 t = ((cfg15.win 6).blk t).view.read (Elt Ideal) (M.mk3 (M.sumT (z V c))) := by
  show (cfg15.win 6).cut (grid15.coords t) ((dat15 V c).after 6 t) = _
  rw [after15_6]
  funext j
  obtain ⟨u, s, q, rfl⟩ : ∃ (u : Fin 1) (s : Fin 8) (q : Fin 128), j = ix3 u s q := ⟨j 0, j 1, j 2, eq_ix3 j⟩
  show out15_6 (iblk15 V c 0 t) (iblk15 V c 1 t) (iblk15 V c 2 t) (iblk15 V c 3 t) (iblk15 V c 4 t) (ix3 u s q)
    = M.mk3 (M.sumT (z V c)) (((cfg15.win 6).blk t).view.emb (ix3 u s q))
  refine (outSum_apply _ _ _ _ _ u s q).trans ?_
  refine Eq.trans ?_ (congrArg (M.mk3 (M.sumT (z V c))) (embSum t u s q)).symm
  show _ = ∑ r : Fin 4000, z V c (M.tileRow ⟨t.val, lt_five t⟩ r) q
  exact Finset.sum_congr rfl fun r _ => blkZ_iblk V c t r q

theorem flushedSq_eq (c : Dev nD) (t : Fin cfg15.N) :
    (dat15 (F := Ideal) V c).flushed 7 t = ((cfg15.win 7).blk t).view.read (Elt Ideal) (M.mk3 (M.sumsqT (z V c))) := by
  show (cfg15.win 7).cut (grid15.coords t) ((dat15 V c).after 7 t) = _
  rw [after15_7]
  funext j
  obtain ⟨u, s, q, rfl⟩ : ∃ (u : Fin 1) (s : Fin 8) (q : Fin 128), j = ix3 u s q := ⟨j 0, j 1, j 2, eq_ix3 j⟩
  show out15_7 (iblk15 V c 0 t) (iblk15 V c 1 t) (iblk15 V c 2 t) (iblk15 V c 3 t) (iblk15 V c 4 t) (ix3 u s q)
    = M.mk3 (M.sumsqT (z V c)) (((cfg15.win 7).blk t).view.emb (ix3 u s q))
  refine (outSq_apply _ _ _ _ _ u s q).trans ?_
  refine Eq.trans ?_ (congrArg (M.mk3 (M.sumsqT (z V c))) (embSq t u s q)).symm
  show _ = ∑ r : Fin 4000, z V c (M.tileRow ⟨t.val, lt_five t⟩ r) q * z V c (M.tileRow ⟨t.val, lt_five t⟩ r) q
  exact Finset.sum_congr rfl fun r _ => by rw [blkZ_iblk V c t r q]

/-! ## The blocks cover the arrays -/

/-- Row `r` of the first output is row `r % 4000` of the block of point `r / 4000`. -/
theorem coverZ (i : S20000x128.Idx) : ∃ t : Fin cfg15.N, (cfg15.win 5).flush t = true ∧ i ∈ ((cfg15.win 5).blk t).view.set := by
  have hi0 : (i 0).val < 20000 := (i 0).isLt
  obtain ⟨t, ht⟩ : ∃ t : Fin cfg15.N, t.val = (i 0).val / 4000 :=
    ⟨⟨(i 0).val / 4000, by rw [show cfg15.N = 5 from N_15]; omega⟩, rfl⟩
  have h : ((cfg15.win 5).blk t).view.emb (ix2 (⟨(i 0).val % 4000, Nat.mod_lt _ (by omega)⟩ : Fin 4000) (i 1)) = i := by
    refine (embZ t _ _).trans ?_
    funext a
    apply Fin.ext
    match a with
    | ⟨0, _⟩ => show 4000 * t.val + (i 0).val % 4000 = (i 0).val; rw [ht]; omega
    | ⟨1, _⟩ => rfl
  exact ⟨t, flush15_5 t, by rw [← h]; exact ((cfg15.win 5).blk t).view.emb_mem_set _⟩

/-- Tile `p` of the sums array is the block of point `p`. -/
theorem coverSum (i : S5x8x128.Idx) : ∃ t : Fin cfg15.N, (cfg15.win 6).flush t = true ∧ i ∈ ((cfg15.win 6).blk t).view.set := by
  have hi0 : (i 0).val < 5 := (i 0).isLt
  obtain ⟨t, ht⟩ : ∃ t : Fin cfg15.N, t.val = (i 0).val :=
    ⟨⟨(i 0).val, by rw [show cfg15.N = 5 from N_15]; omega⟩, rfl⟩
  have h : ((cfg15.win 6).blk t).view.emb (ix3 (0 : Fin 1) (i 1) (i 2)) = i := by
    refine (embSum t _ _ _).trans ?_
    funext a
    apply Fin.ext
    match a with
    | ⟨0, _⟩ => exact ht
    | ⟨1, _⟩ => rfl
    | ⟨2, _⟩ => rfl
  exact ⟨t, flush15_6 t, by rw [← h]; exact ((cfg15.win 6).blk t).view.emb_mem_set _⟩

/-- Likewise the sums of squares array. -/
theorem coverSq (i : S5x8x128.Idx) : ∃ t : Fin cfg15.N, (cfg15.win 7).flush t = true ∧ i ∈ ((cfg15.win 7).blk t).view.set := by
  have hi0 : (i 0).val < 5 := (i 0).isLt
  obtain ⟨t, ht⟩ : ∃ t : Fin cfg15.N, t.val = (i 0).val :=
    ⟨⟨(i 0).val, by rw [show cfg15.N = 5 from N_15]; omega⟩, rfl⟩
  have h : ((cfg15.win 7).blk t).view.emb (ix3 (0 : Fin 1) (i 1) (i 2)) = i := by
    refine (embSq t _ _ _).trans ?_
    funext a
    apply Fin.ext
    match a with
    | ⟨0, _⟩ => exact ht
    | ⟨1, _⟩ => rfl
    | ⟨2, _⟩ => rfl
  exact ⟨t, flush15_7 t, by rw [← h]; exact ((cfg15.win 7).blk t).view.emb_mem_set _⟩

/-! ## The three output arrays after the region -/

/-- The first output array: the input array normalised with the given statistics, scaled, shifted and rectified. -/
theorem arr15_5 (c : Dev nD) :
    (dat15 (F := Ideal) V c).arrAt 5 cfg15.N
      = M.mk2 (M.bnrelu (M.at2 (V c (Pipeline.arrRef spec15 0))) (fun j => M.at2 (V c (Pipeline.arrRef spec15 1)) 0 j)
          (fun j => M.at2 (V c (Pipeline.arrRef spec15 2)) 0 j) (fun j => M.at2 (V c (Pipeline.arrRef spec15 3)) 0 j)
          (fun j => M.at2 (V c (Pipeline.arrRef spec15 4)) 0 j)) :=
  (dat15 V c).arrAt_eq_of_cover 5 (M.mk2 (z V c)) (fun t _ => flushedZ_eq V c t) coverZ

/-- The second output array: that array's column sums tile by tile, each in eight rows. -/
theorem arr15_6 (c : Dev nD) :
    (dat15 (F := Ideal) V c).arrAt 6 cfg15.N
      = M.mk3 (M.sumT (M.bnrelu (M.at2 (V c (Pipeline.arrRef spec15 0))) (fun j => M.at2 (V c (Pipeline.arrRef spec15 1)) 0 j)
          (fun j => M.at2 (V c (Pipeline.arrRef spec15 2)) 0 j) (fun j => M.at2 (V c (Pipeline.arrRef spec15 3)) 0 j)
          (fun j => M.at2 (V c (Pipeline.arrRef spec15 4)) 0 j))) :=
  (dat15 V c).arrAt_eq_of_cover 6 (M.mk3 (M.sumT (z V c))) (fun t _ => flushedSum_eq V c t) coverSum

/-- The third output array: that array's column sums of squares tile by tile, each in eight rows. -/
theorem arr15_7 (c : Dev nD) :
    (dat15 (F := Ideal) V c).arrAt 7 cfg15.N
      = M.mk3 (M.sumsqT (M.bnrelu (M.at2 (V c (Pipeline.arrRef spec15 0))) (fun j => M.at2 (V c (Pipeline.arrRef spec15 1)) 0 j)
          (fun j => M.at2 (V c (Pipeline.arrRef spec15 2)) 0 j) (fun j => M.at2 (V c (Pipeline.arrRef spec15 3)) 0 j)
          (fun j => M.at2 (V c (Pipeline.arrRef spec15 4)) 0 j))) :=
  (dat15 V c).arrAt_eq_of_cover 7 (M.mk3 (M.sumsqT (z V c))) (fun t _ => flushedSq_eq V c t) coverSq

end Cert.RegC15

end
-- ==== Proof.RegD16.lean ====
/-
  The values of a layer's last region: its first output array after the region is the layer's output
  `h + max ((z − mean) · rsqrt (var + ε) · g + b) 0`, the other two that output times one whole weight each. The region
  works on row blocks of 4000; the statistics, scale and shift are one row each, broadcast over the block's rows.
-/
import proofs.«416875_j80633716015165_3_alg».proof.Proof.RegNP
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

open Cert

namespace Cert.RegD16

open Cert.KernelIdeal Cert.KernelIdeal.Gen

variable (V : (c : Dev nD) → (b : Ref sig .tc) → Buf (Elt Ideal) ((c : Thread nD τ).loc b))

/-! ## The payloads at an index -/

/-- The first output's payload at row `p`, column `q`: the input block there plus the normalised, rectified third
    stage, the statistics, scale and shift read from their one row. -/
theorem pay2_apply (z : Vec Ideal S4000x128 .bf16) (vr mn g b : Vec Ideal S1x128 .f32) (h : Vec Ideal S4000x128 .f32)
    (p : Fin 4000) (q : Fin 128) :
    k16_pay2 z vr mn g b h (ix2 p q)
      = h (ix2 p q) + max ((z (ix2 p q) - mn (ix2 0 q)) * Ideal.rsqrt (vr (ix2 0 q) + M.cEps) * g (ix2 0 q) + b (ix2 0 q)) M.c0 := by
  unfold k16_pay2
  simp only [shapeCast_self]
  first
  | (refine Eq.trans (b := h (ix2 p q) + max ((z (ix2 p q) - broadcastTo S4000x128 mn broadcasts_S1x128_S4000x128 (ix2 p q))
        * broadcastTo S4000x128 (fun i => Ideal.rsqrt (vr i + M.cEps)) broadcasts_S1x128_S4000x128 (ix2 p q)
        * broadcastTo S4000x128 g broadcasts_S1x128_S4000x128 (ix2 p q)
        + broadcastTo S4000x128 b broadcasts_S1x128_S4000x128 (ix2 p q)) M.c0) rfl ?_
     rw [broadcastTo_1b_ab_apply, broadcastTo_1b_ab_apply, broadcastTo_1b_ab_apply, broadcastTo_1b_ab_apply] <;> rfl)
  | (simp only [addf_apply, maximumf_apply, mulf_apply, subf_apply, extf_apply, broadcast_apply,
      broadcastTo_1b_ab_apply]
     rfl)

/-- The second output's payload at row `p`, column `q`: row `p` of the first output's block against column `q` of
    the weight. -/
theorem pay5_apply (z : Vec Ideal S4000x128 .bf16) (vr mn g b : Vec Ideal S1x128 .f32) (h : Vec Ideal S4000x128 .f32)
    (w : Vec Ideal S128x128 .bf16) (p : Fin 4000) (q : Fin 128) :
    k16_pay5 z vr mn g b h w (ix2 p q) = ∑ t : Fin 128, k16_pay2 z vr mn g b h (ix2 p t) * w (ix2 t q) := by
  unfold k16_pay5 k16_pay3
  simp only [shapeCast_self]
  exact RegNP.mm_apply _ _ p q

/-- The third output's payload at row `p`, column `q`, likewise. -/
theorem pay14_apply (z : Vec Ideal S4000x128 .bf16) (vr mn g b : Vec Ideal S1x128 .f32) (h : Vec Ideal S4000x128 .f32)
    (w : Vec Ideal S128x128 .bf16) (p : Fin 4000) (q : Fin 128) :
    k16_pay1 (k16_pay4 z vr mn g b h w) (ix2 p q) = ∑ t : Fin 128, k16_pay2 z vr mn g b h (ix2 p t) * w (ix2 t q) := by
  unfold k16_pay1 k16_pay4 k16_pay3
  simp only [shapeCast_self]
  exact RegNP.mm_apply _ _ p q

/-! ## From blocks to the arrays -/

theorem hz : (![0, 0] : Fin 2 → Nat) = fun _ => 0 := funext fun a => by fin_cases a <;> rfl

/-- The index maps over the grid, window by window: a row-blocked window's block is row block `t`, -/
theorem idx_0 : ∀ t : Fin cfg16.N, win16_0.index t (0 : Fin 2) = t.val ∧ win16_0.index t (1 : Fin 2) = 0 :=
  (by decide +kernel : ∀ t : Fin grid16.N, _)
theorem idx_5 : ∀ t : Fin cfg16.N, win16_5.index t (0 : Fin 2) = t.val ∧ win16_5.index t (1 : Fin 2) = 0 :=
  (by decide +kernel : ∀ t : Fin grid16.N, _)
theorem idx_8 : ∀ t : Fin cfg16.N, win16_8.index t (0 : Fin 2) = t.val ∧ win16_8.index t (1 : Fin 2) = 0 :=
  (by decide +kernel : ∀ t : Fin grid16.N, _)
theorem idx_9 : ∀ t : Fin cfg16.N, win16_9.index t (0 : Fin 2) = t.val ∧ win16_9.index t (1 : Fin 2) = 0 :=
  (by decide +kernel : ∀ t : Fin grid16.N, _)
theorem idx_10 : ∀ t : Fin cfg16.N, win16_10.index t (0 : Fin 2) = t.val ∧ win16_10.index t (1 : Fin 2) = 0 :=
  (by decide +kernel : ∀ t : Fin grid16.N, _)
/-- a whole window's block is the array. -/
theorem idx_1 : ∀ t : Fin cfg16.N, win16_1.index t (0 : Fin 2) = 0 ∧ win16_1.index t (1 : Fin 2) = 0 :=
  (by decide +kernel : ∀ t : Fin grid16.N, _)
theorem idx_2 : ∀ t : Fin cfg16.N, win16_2.index t (0 : Fin 2) = 0 ∧ win16_2.index t (1 : Fin 2) = 0 :=
  (by decide +kernel : ∀ t : Fin grid16.N, _)
theorem idx_3 : ∀ t : Fin cfg16.N, win16_3.index t (0 : Fin 2) = 0 ∧ win16_3.index t (1 : Fin 2) = 0 :=
  (by decide +kernel : ∀ t : Fin grid16.N, _)
theorem idx_4 : ∀ t : Fin cfg16.N, win16_4.index t (0 : Fin 2) = 0 ∧ win16_4.index t (1 : Fin 2) = 0 :=
  (by decide +kernel : ∀ t : Fin grid16.N, _)
theorem idx_6 : ∀ t : Fin cfg16.N, win16_6.index t (0 : Fin 2) = 0 ∧ win16_6.index t (1 : Fin 2) = 0 :=
  (by decide +kernel : ∀ t : Fin grid16.N, _)
theorem idx_7 : ∀ t : Fin cfg16.N, win16_7.index t (0 : Fin 2) = 0 ∧ win16_7.index t (1 : Fin 2) = 0 :=
  (by decide +kernel : ∀ t : Fin grid16.N, _)

/-- The arrays as the region finds them: the third stage, -/
abbrev zArr (c : Dev nD) : S20000x128.Idx → EReal := V c (Pipeline.arrRef spec16 0)
/-- its columns' means, -/
abbrev mnArr (c : Dev nD) : S1x128.Idx → EReal := V c (Pipeline.arrRef spec16 1)
/-- its columns' variances, -/
abbrev vrArr (c : Dev nD) : S1x128.Idx → EReal := V c (Pipeline.arrRef spec16 2)
/-- the scale, -/
abbrev gArr (c : Dev nD) : S1x128.Idx → EReal := V c (Pipeline.arrRef spec16 3)
/-- the shift, -/
abbrev bArr (c : Dev nD) : S1x128.Idx → EReal := V c (Pipeline.arrRef spec16 4)
/-- the layer's input, -/
abbrev hArr (c : Dev nD) : S20000x128.Idx → EReal := V c (Pipeline.arrRef spec16 5)
/-- the first weight, -/
abbrev wtArr (c : Dev nD) : S128x128.Idx → EReal := V c (Pipeline.arrRef spec16 6)
/-- and the second. -/
abbrev wbArr (c : Dev nD) : S128x128.Idx → EReal := V c (Pipeline.arrRef spec16 7)
/-- The layer's output from them. -/
abbrev XN (c : Dev nD) : Fin 20000 → Fin 128 → EReal :=
  RegNP.xnew (zArr V c) (mnArr V c) (vrArr V c) (gArr V c) (bArr V c) (hArr V c)

/-- Row block `t` of the third stage: entry `(p, q)` is the array's at row `4000 t + p`. -/
theorem zblk_apply (c : Dev nD) (t : Fin cfg16.N) (p : Fin 4000) (q : Fin 128) (r : Fin 20000)
    (hr : r.val = t.val * 4000 + p.val) :
    (iblk16 V c 0 t : Vec Ideal S4000x128 .bf16) (ix2 p q) = zArr V c (ix2 r q) := by
  have e := idx_0 t
  show V c (Pipeline.arrRef spec16 0) (((cfg16.win 0).blk t).view.emb (ix2 p q)) = V c (Pipeline.arrRef spec16 0) (ix2 r q)
  refine congrArg _ (funext fun a => Fin.ext ?_)
  match a with
  | ⟨0, _⟩ => show win16_0.index t (0 : Fin 2) * 4000 + 1 * p.val = r.val; omega
  | ⟨1, _⟩ => show win16_0.index t (1 : Fin 2) * 128 + 1 * q.val = q.val; omega

/-- Row block `t` of the layer's input likewise. -/
theorem hblk_apply (c : Dev nD) (t : Fin cfg16.N) (p : Fin 4000) (q : Fin 128) (r : Fin 20000)
    (hr : r.val = t.val * 4000 + p.val) :
    (iblk16 V c 5 t : Vec Ideal S4000x128 .f32) (ix2 p q) = hArr V c (ix2 r q) := by
  have e := idx_5 t
  show V c (Pipeline.arrRef spec16 5) (((cfg16.win 5).blk t).view.emb (ix2 p q)) = V c (Pipeline.arrRef spec16 5) (ix2 r q)
  refine congrArg _ (funext fun a => Fin.ext ?_)
  match a with
  | ⟨0, _⟩ => show win16_5.index t (0 : Fin 2) * 4000 + 1 * p.val = r.val; omega
  | ⟨1, _⟩ => show win16_5.index t (1 : Fin 2) * 128 + 1 * q.val = q.val; omega

/-- The means' block is their one row, -/
theorem mnblk_apply (c : Dev nD) (t : Fin cfg16.N) (q : Fin 128) :
    (iblk16 V c 1 t : Vec Ideal S1x128 .f32) (ix2 0 q) = mnArr V c (ix2 0 q) := by
  have e := idx_1 t
  show V c (Pipeline.arrRef spec16 1) (((cfg16.win 1).blk t).view.emb (ix2 0 q)) = V c (Pipeline.arrRef spec16 1) (ix2 0 q)
  refine congrArg _ (funext fun a => Fin.ext ?_)
  match a with
  | ⟨0, _⟩ => show win16_1.index t (0 : Fin 2) * 1 + 1 * 0 = 0; omega
  | ⟨1, _⟩ => show win16_1.index t (1 : Fin 2) * 128 + 1 * q.val = q.val; omega

/-- the variances' likewise, -/
theorem vrblk_apply (c : Dev nD) (t : Fin cfg16.N) (q : Fin 128) :
    (iblk16 V c 2 t : Vec Ideal S1x128 .f32) (ix2 0 q) = vrArr V c (ix2 0 q) := by
  have e := idx_2 t
  show V c (Pipeline.arrRef spec16 2) (((cfg16.win 2).blk t).view.emb (ix2 0 q)) = V c (Pipeline.arrRef spec16 2) (ix2 0 q)
  refine congrArg _ (funext fun a => Fin.ext ?_)
  match a with
  | ⟨0, _⟩ => show win16_2.index t (0 : Fin 2) * 1 + 1 * 0 = 0; omega
  | ⟨1, _⟩ => show win16_2.index t (1 : Fin 2) * 128 + 1 * q.val = q.val; omega

/-- the scale's, -/
theorem gblk_apply (c : Dev nD) (t : Fin cfg16.N) (q : Fin 128) :
    (iblk16 V c 3 t : Vec Ideal S1x128 .f32) (ix2 0 q) = gArr V c (ix2 0 q) := by
  have e := idx_3 t
  show V c (Pipeline.arrRef spec16 3) (((cfg16.win 3).blk t).view.emb (ix2 0 q)) = V c (Pipeline.arrRef spec16 3) (ix2 0 q)
  refine congrArg _ (funext fun a => Fin.ext ?_)
  match a with
  | ⟨0, _⟩ => show win16_3.index t (0 : Fin 2) * 1 + 1 * 0 = 0; omega
  | ⟨1, _⟩ => show win16_3.index t (1 : Fin 2) * 128 + 1 * q.val = q.val; omega

/-- and the shift's. -/
theorem bblk_apply (c : Dev nD) (t : Fin cfg16.N) (q : Fin 128) :
    (iblk16 V c 4 t : Vec Ideal S1x128 .f32) (ix2 0 q) = bArr V c (ix2 0 q) := by
  have e := idx_4 t
  show V c (Pipeline.arrRef spec16 4) (((cfg16.win 4).blk t).view.emb (ix2 0 q)) = V c (Pipeline.arrRef spec16 4) (ix2 0 q)
  refine congrArg _ (funext fun a => Fin.ext ?_)
  match a with
  | ⟨0, _⟩ => show win16_4.index t (0 : Fin 2) * 1 + 1 * 0 = 0; omega
  | ⟨1, _⟩ => show win16_4.index t (1 : Fin 2) * 128 + 1 * q.val = q.val; omega

/-- The first weight's block is the weight, -/
theorem wtblk_apply (c : Dev nD) (t : Fin cfg16.N) (k q : Fin 128) :
    (iblk16 V c 6 t : Vec Ideal S128x128 .bf16) (ix2 k q) = wtArr V c (ix2 k q) := by
  have e := idx_6 t
  show V c (Pipeline.arrRef spec16 6) (((cfg16.win 6).blk t).view.emb (ix2 k q)) = V c (Pipeline.arrRef spec16 6) (ix2 k q)
  refine congrArg _ (funext fun a => Fin.ext ?_)
  match a with
  | ⟨0, _⟩ => show win16_6.index t (0 : Fin 2) * 128 + 1 * k.val = k.val; omega
  | ⟨1, _⟩ => show win16_6.index t (1 : Fin 2) * 128 + 1 * q.val = q.val; omega

/-- and the second's. -/
theorem wbblk_apply (c : Dev nD) (t : Fin cfg16.N) (k q : Fin 128) :
    (iblk16 V c 7 t : Vec Ideal S128x128 .bf16) (ix2 k q) = wbArr V c (ix2 k q) := by
  have e := idx_7 t
  show V c (Pipeline.arrRef spec16 7) (((cfg16.win 7).blk t).view.emb (ix2 k q)) = V c (Pipeline.arrRef spec16 7) (ix2 k q)
  refine congrArg _ (funext fun a => Fin.ext ?_)
  match a with
  | ⟨0, _⟩ => show win16_7.index t (0 : Fin 2) * 128 + 1 * k.val = k.val; omega
  | ⟨1, _⟩ => show win16_7.index t (1 : Fin 2) * 128 + 1 * q.val = q.val; omega

/-- The first payload on the blocks at point `t` is the layer's output on row block `t`. -/
theorem xn_blk (c : Dev nD) (t : Fin cfg16.N) (p : Fin 4000) (q : Fin 128) (r : Fin 20000)
    (hr : r.val = t.val * 4000 + p.val) :
    k16_pay2 (iblk16 V c 0 t) (iblk16 V c 2 t) (iblk16 V c 1 t) (iblk16 V c 3 t) (iblk16 V c 4 t) (iblk16 V c 5 t) (ix2 p q) = XN V c r q := by
  refine (pay2_apply (iblk16 V c 0 t) (iblk16 V c 2 t) (iblk16 V c 1 t) (iblk16 V c 3 t) (iblk16 V c 4 t) (iblk16 V c 5 t) p q).trans ?_
  rw [zblk_apply V c t p q r hr, hblk_apply V c t p q r hr, mnblk_apply V c t q, vrblk_apply V c t q,
    gblk_apply V c t q, bblk_apply V c t q]
  rfl

/-- The body's result for the first output window on the blocks at point `t`, read through the window's block, is block `t` of the layer's output. -/
theorem out8_eq (c : Dev nD) (t : Fin cfg16.N) :
    (cfg16.win 8).cut (grid16.coords t) (out16_8 (iblk16 V c 0 t) (iblk16 V c 1 t) (iblk16 V c 2 t) (iblk16 V c 3 t) (iblk16 V c 4 t) (iblk16 V c 5 t) (iblk16 V c 6 t) (iblk16 V c 7 t))
      = ((cfg16.win 8).blk t).view.read (Elt Ideal) (M.mk2 (XN V c)) := by
  unfold out16_8
  rw [View.canon_unit_zero hz]
  simp only [View.ld_unit_zero (S := S4000x128) hz, View.ld_unit_zero (S := S1x128) hz]
  have e := idx_8 t
  funext j
  obtain ⟨p, q, rfl⟩ : ∃ (p : Fin 4000) (q : Fin 128), j = ix2 p q := ⟨j 0, j 1, eq_ix2 j⟩
  show k16_pay2 (iblk16 V c 0 t) (iblk16 V c 2 t) (iblk16 V c 1 t) (iblk16 V c 3 t) (iblk16 V c 4 t) (iblk16 V c 5 t) (ix2 p q) = (M.mk2 (XN V c)) (((cfg16.win 8).blk t).view.emb (ix2 p q))
  obtain ⟨i, hi⟩ : ∃ i : S20000x128.Idx, i = ((cfg16.win 8).blk t).view.emb (ix2 p q) := ⟨_, rfl⟩
  rw [← hi]
  have hi0 : (i 0).val = t.val * 4000 + p.val := by
    rw [hi]; show win16_8.index t (0 : Fin 2) * 4000 + 1 * p.val = _; omega
  have hi1 : i 1 = q := Fin.ext (by rw [hi]; show win16_8.index t (1 : Fin 2) * 128 + 1 * q.val = _; omega)
  show _ = XN V c (i 0) (i 1)
  rw [hi1]
  exact xn_blk V c t p q (i 0) hi0

/-- For the second output window: block `t` of the layer's output times the first weight. -/
theorem out9_eq (c : Dev nD) (t : Fin cfg16.N) :
    (cfg16.win 9).cut (grid16.coords t) (out16_9 (iblk16 V c 0 t) (iblk16 V c 1 t) (iblk16 V c 2 t) (iblk16 V c 3 t) (iblk16 V c 4 t) (iblk16 V c 5 t) (iblk16 V c 6 t) (iblk16 V c 7 t))
      = ((cfg16.win 9).blk t).view.read (Elt Ideal) (M.mk2 (M.mm (XN V c) (M.at2 (wtArr V c)))) := by
  unfold out16_9
  rw [View.canon_unit_zero hz]
  simp only [View.ld_unit_zero (S := S4000x128) hz, View.ld_unit_zero (S := S1x128) hz, View.ld_unit_zero (S := S128x128) hz]
  have e := idx_9 t
  funext j
  obtain ⟨p, q, rfl⟩ : ∃ (p : Fin 4000) (q : Fin 128), j = ix2 p q := ⟨j 0, j 1, eq_ix2 j⟩
  show k16_pay5 (iblk16 V c 0 t) (iblk16 V c 2 t) (iblk16 V c 1 t) (iblk16 V c 3 t) (iblk16 V c 4 t) (iblk16 V c 5 t) (iblk16 V c 6 t) (ix2 p q) = (M.mk2 (M.mm (XN V c) (M.at2 (wtArr V c)))) (((cfg16.win 9).blk t).view.emb (ix2 p q))
  obtain ⟨i, hi⟩ : ∃ i : S20000x128.Idx, i = ((cfg16.win 9).blk t).view.emb (ix2 p q) := ⟨_, rfl⟩
  rw [← hi]
  have hi0 : (i 0).val = t.val * 4000 + p.val := by
    rw [hi]; show win16_9.index t (0 : Fin 2) * 4000 + 1 * p.val = _; omega
  have hi1 : i 1 = q := Fin.ext (by rw [hi]; show win16_9.index t (1 : Fin 2) * 128 + 1 * q.val = _; omega)
  refine (pay5_apply (iblk16 V c 0 t) (iblk16 V c 2 t) (iblk16 V c 1 t) (iblk16 V c 3 t) (iblk16 V c 4 t) (iblk16 V c 5 t) (iblk16 V c 6 t) p q).trans ?_
  show _ = ∑ k : Fin 128, XN V c (i 0) k * wtArr V c (ix2 k (i 1))
  rw [hi1]
  refine Finset.sum_congr rfl fun k _ => ?_
  rw [xn_blk V c t p k (i 0) hi0, wtblk_apply V c t k q]

/-- For the third output window: block `t` of the layer's output times the second weight. -/
theorem out10_eq (c : Dev nD) (t : Fin cfg16.N) :
    (cfg16.win 10).cut (grid16.coords t) (out16_10 (iblk16 V c 0 t) (iblk16 V c 1 t) (iblk16 V c 2 t) (iblk16 V c 3 t) (iblk16 V c 4 t) (iblk16 V c 5 t) (iblk16 V c 6 t) (iblk16 V c 7 t))
      = ((cfg16.win 10).blk t).view.read (Elt Ideal) (M.mk2 (M.mm (XN V c) (M.at2 (wbArr V c)))) := by
  unfold out16_10
  rw [View.canon_unit_zero hz]
  simp only [View.ld_unit_zero (S := S4000x128) hz, View.ld_unit_zero (S := S1x128) hz, View.ld_unit_zero (S := S128x128) hz]
  have e := idx_10 t
  funext j
  obtain ⟨p, q, rfl⟩ : ∃ (p : Fin 4000) (q : Fin 128), j = ix2 p q := ⟨j 0, j 1, eq_ix2 j⟩
  show k16_pay1 (k16_pay4 (iblk16 V c 0 t) (iblk16 V c 2 t) (iblk16 V c 1 t) (iblk16 V c 3 t) (iblk16 V c 4 t) (iblk16 V c 5 t) (iblk16 V c 7 t)) (ix2 p q) = (M.mk2 (M.mm (XN V c) (M.at2 (wbArr V c)))) (((cfg16.win 10).blk t).view.emb (ix2 p q))
  obtain ⟨i, hi⟩ : ∃ i : S20000x128.Idx, i = ((cfg16.win 10).blk t).view.emb (ix2 p q) := ⟨_, rfl⟩
  rw [← hi]
  have hi0 : (i 0).val = t.val * 4000 + p.val := by
    rw [hi]; show win16_10.index t (0 : Fin 2) * 4000 + 1 * p.val = _; omega
  have hi1 : i 1 = q := Fin.ext (by rw [hi]; show win16_10.index t (1 : Fin 2) * 128 + 1 * q.val = _; omega)
  refine (pay14_apply (iblk16 V c 0 t) (iblk16 V c 2 t) (iblk16 V c 1 t) (iblk16 V c 3 t) (iblk16 V c 4 t) (iblk16 V c 5 t) (iblk16 V c 7 t) p q).trans ?_
  show _ = ∑ k : Fin 128, XN V c (i 0) k * wbArr V c (ix2 k (i 1))
  rw [hi1]
  refine Finset.sum_congr rfl fun k _ => ?_
  rw [xn_blk V c t p k (i 0) hi0, wbblk_apply V c t k q]

/-- An index of the array is in point `t`'s block of output window 8 iff each coordinate is in the block's range on its axis. -/
theorem mem_blk8 (t : Fin cfg16.N) (i : S20000x128.Idx) :
    i ∈ ((cfg16.win 8).blk t).view.set ↔ ∀ a : Fin 2, win16_8.index t a * S4000x128.size a ≤ (i a).val ∧ (i a).val < win16_8.index t a * S4000x128.size a + S4000x128.size a := by
  show i ∈ ((View.whole main_v533_0).slice (win16_8.rect t)).set ↔ _
  rw [View.set_slice_whole, Rect.mem_set_unit]
  exact Iff.rfl

/-- Row `r` of the array is in the block of point `r / 4000`. -/
theorem cover8 (i : S20000x128.Idx) : ∃ t : Fin cfg16.N, (cfg16.win 8).flush t = true ∧ i ∈ ((cfg16.win 8).blk t).view.set := by
  have hi0 : (i 0).val < 20000 := (i 0).isLt
  have hi1 : (i 1).val < 128 := (i 1).isLt
  have hN : cfg16.N = 5 := N_16
  obtain ⟨t, ht⟩ : ∃ t : Fin cfg16.N, t.val = (i 0).val / 4000 := ⟨⟨(i 0).val / 4000, by rw [hN]; omega⟩, rfl⟩
  have e := idx_8 t
  refine ⟨t, flush16_8 t, ?_⟩
  rw [mem_blk8]
  intro a
  match a with
  | ⟨0, _⟩ =>
    show win16_8.index t (0 : Fin 2) * 4000 ≤ (i 0).val ∧ (i 0).val < win16_8.index t (0 : Fin 2) * 4000 + 4000
    omega
  | ⟨1, _⟩ =>
    show win16_8.index t (1 : Fin 2) * 128 ≤ (i 1).val ∧ (i 1).val < win16_8.index t (1 : Fin 2) * 128 + 128
    omega

/-- An index of the array is in point `t`'s block of output window 9 iff each coordinate is in the block's range on its axis. -/
theorem mem_blk9 (t : Fin cfg16.N) (i : S20000x128.Idx) :
    i ∈ ((cfg16.win 9).blk t).view.set ↔ ∀ a : Fin 2, win16_9.index t a * S4000x128.size a ≤ (i a).val ∧ (i a).val < win16_9.index t a * S4000x128.size a + S4000x128.size a := by
  show i ∈ ((View.whole main_v533_1).slice (win16_9.rect t)).set ↔ _
  rw [View.set_slice_whole, Rect.mem_set_unit]
  exact Iff.rfl

/-- Row `r` of the array is in the block of point `r / 4000`. -/
theorem cover9 (i : S20000x128.Idx) : ∃ t : Fin cfg16.N, (cfg16.win 9).flush t = true ∧ i ∈ ((cfg16.win 9).blk t).view.set := by
  have hi0 : (i 0).val < 20000 := (i 0).isLt
  have hi1 : (i 1).val < 128 := (i 1).isLt
  have hN : cfg16.N = 5 := N_16
  obtain ⟨t, ht⟩ : ∃ t : Fin cfg16.N, t.val = (i 0).val / 4000 := ⟨⟨(i 0).val / 4000, by rw [hN]; omega⟩, rfl⟩
  have e := idx_9 t
  refine ⟨t, flush16_9 t, ?_⟩
  rw [mem_blk9]
  intro a
  match a with
  | ⟨0, _⟩ =>
    show win16_9.index t (0 : Fin 2) * 4000 ≤ (i 0).val ∧ (i 0).val < win16_9.index t (0 : Fin 2) * 4000 + 4000
    omega
  | ⟨1, _⟩ =>
    show win16_9.index t (1 : Fin 2) * 128 ≤ (i 1).val ∧ (i 1).val < win16_9.index t (1 : Fin 2) * 128 + 128
    omega

/-- An index of the array is in point `t`'s block of output window 10 iff each coordinate is in the block's range on its axis. -/
theorem mem_blk10 (t : Fin cfg16.N) (i : S20000x128.Idx) :
    i ∈ ((cfg16.win 10).blk t).view.set ↔ ∀ a : Fin 2, win16_10.index t a * S4000x128.size a ≤ (i a).val ∧ (i a).val < win16_10.index t a * S4000x128.size a + S4000x128.size a := by
  show i ∈ ((View.whole main_v533_2).slice (win16_10.rect t)).set ↔ _
  rw [View.set_slice_whole, Rect.mem_set_unit]
  exact Iff.rfl

/-- Row `r` of the array is in the block of point `r / 4000`. -/
theorem cover10 (i : S20000x128.Idx) : ∃ t : Fin cfg16.N, (cfg16.win 10).flush t = true ∧ i ∈ ((cfg16.win 10).blk t).view.set := by
  have hi0 : (i 0).val < 20000 := (i 0).isLt
  have hi1 : (i 1).val < 128 := (i 1).isLt
  have hN : cfg16.N = 5 := N_16
  obtain ⟨t, ht⟩ : ∃ t : Fin cfg16.N, t.val = (i 0).val / 4000 := ⟨⟨(i 0).val / 4000, by rw [hN]; omega⟩, rfl⟩
  have e := idx_10 t
  refine ⟨t, flush16_10 t, ?_⟩
  rw [mem_blk10]
  intro a
  match a with
  | ⟨0, _⟩ =>
    show win16_10.index t (0 : Fin 2) * 4000 ≤ (i 0).val ∧ (i 0).val < win16_10.index t (0 : Fin 2) * 4000 + 4000
    omega
  | ⟨1, _⟩ =>
    show win16_10.index t (1 : Fin 2) * 128 ≤ (i 1).val ∧ (i 1).val < win16_10.index t (1 : Fin 2) * 128 + 128
    omega

/-- What point `t` writes back to output window 8. -/
theorem flushed8_eq (c : Dev nD) (t : Fin cfg16.N) :
    (dat16 V c).flushed 8 t = ((cfg16.win 8).blk t).view.read (Elt Ideal) (M.mk2 (XN V c)) := by
  show (cfg16.win 8).cut (grid16.coords t) ((dat16 V c).after 8 t) = _
  rw [after16_8]
  exact out8_eq V c t

/-- What point `t` writes back to output window 9. -/
theorem flushed9_eq (c : Dev nD) (t : Fin cfg16.N) :
    (dat16 V c).flushed 9 t = ((cfg16.win 9).blk t).view.read (Elt Ideal) (M.mk2 (M.mm (XN V c) (M.at2 (wtArr V c)))) := by
  show (cfg16.win 9).cut (grid16.coords t) ((dat16 V c).after 9 t) = _
  rw [after16_9]
  exact out9_eq V c t

/-- What point `t` writes back to output window 10. -/
theorem flushed10_eq (c : Dev nD) (t : Fin cfg16.N) :
    (dat16 V c).flushed 10 t = ((cfg16.win 10).blk t).view.read (Elt Ideal) (M.mk2 (M.mm (XN V c) (M.at2 (wbArr V c)))) := by
  show (cfg16.win 10).cut (grid16.coords t) ((dat16 V c).after 10 t) = _
  rw [after16_10]
  exact out10_eq V c t

/-! ## The region's values -/

/-- The layer's output array after the region. -/
theorem arr16_8 (c : Dev nD) : (Cert.KernelIdeal.Gen.dat16 (F := Ideal) V c).arrAt 8 Cert.KernelIdeal.cfg16.N
    = M.mk2 (RegNP.xnew (V c (Pipeline.arrRef Cert.KernelIdeal.spec16 0)) (V c (Pipeline.arrRef Cert.KernelIdeal.spec16 1)) (V c (Pipeline.arrRef Cert.KernelIdeal.spec16 2)) (V c (Pipeline.arrRef Cert.KernelIdeal.spec16 3)) (V c (Pipeline.arrRef Cert.KernelIdeal.spec16 4)) (V c (Pipeline.arrRef Cert.KernelIdeal.spec16 5))) :=
  (dat16 V c).arrAt_eq_of_cover 8 _ (fun t _ => flushed8_eq V c t) cover8

/-- The layer's output times the first weight. -/
theorem arr16_9 (c : Dev nD) : (Cert.KernelIdeal.Gen.dat16 (F := Ideal) V c).arrAt 9 Cert.KernelIdeal.cfg16.N
    = M.mk2 (M.mm (RegNP.xnew (V c (Pipeline.arrRef Cert.KernelIdeal.spec16 0)) (V c (Pipeline.arrRef Cert.KernelIdeal.spec16 1)) (V c (Pipeline.arrRef Cert.KernelIdeal.spec16 2)) (V c (Pipeline.arrRef Cert.KernelIdeal.spec16 3)) (V c (Pipeline.arrRef Cert.KernelIdeal.spec16 4)) (V c (Pipeline.arrRef Cert.KernelIdeal.spec16 5))) (M.at2 (a := 128) (b := 128) (V c (Pipeline.arrRef Cert.KernelIdeal.spec16 6)))) :=
  (dat16 V c).arrAt_eq_of_cover 9 _ (fun t _ => flushed9_eq V c t) cover9

/-- The layer's output times the second weight. -/
theorem arr16_10 (c : Dev nD) : (Cert.KernelIdeal.Gen.dat16 (F := Ideal) V c).arrAt 10 Cert.KernelIdeal.cfg16.N
    = M.mk2 (M.mm (RegNP.xnew (V c (Pipeline.arrRef Cert.KernelIdeal.spec16 0)) (V c (Pipeline.arrRef Cert.KernelIdeal.spec16 1)) (V c (Pipeline.arrRef Cert.KernelIdeal.spec16 2)) (V c (Pipeline.arrRef Cert.KernelIdeal.spec16 3)) (V c (Pipeline.arrRef Cert.KernelIdeal.spec16 4)) (V c (Pipeline.arrRef Cert.KernelIdeal.spec16 5))) (M.at2 (a := 128) (b := 128) (V c (Pipeline.arrRef Cert.KernelIdeal.spec16 7)))) :=
  (dat16 V c).arrAt_eq_of_cover 10 _ (fun t _ => flushed10_eq V c t) cover10

end Cert.RegD16

end
-- ==== Proof.KStageFinL3.lean ====
/-
  The statistics stretches of layer 3 of the kernel program's host code, read into the common mathematical form:
  the same statements as the first layer's, over the later stretches' references and the layer's rows of the
  stacked parameters.
-/
import proofs.«416875_j80633716015165_3_alg».proof.Proof.KStageFin

-- a later layer's references sit deeper in the signature: reading their types off it takes more steps
set_option maxHeartbeats 1000000

noncomputable section

open Idealize.ShloMosaic Idealize.ShloMosaic.ValueIdx
open Cert.KernelIdeal Cert.KernelIdeal.Gen

namespace Cert.KStageFin

/-! ## The stretch `hostOps14` -/

/-- The references `hostOps14` writes. -/
abbrev wr14 : List (Ref sig .tc) :=
  [main_cst_89, main_v454, main_cst_90, main_v455, main_v456, main_cst_91, main_v457, main_cst_92, main_v458, main_v459, main_cst_93, main_v460, main_v461, main_cst_94, main_v462, main_v463, main_v464, main_v465, main_cst_95, main_v466, main_v467, main_v468, main_v469, main_v470, main_v471, main_v472, main_v473, main_v474, main_v475, main_v476, main_v477, main_v478, main_v479, main_v480]

theorem hostOps14_writes : (hostOps14 : List (HloOp τ sig (Elt Ideal))).Forall fun op =>
    op.writes ⊆ (wr14.map (Proc.devRef (τ := τ) .tc)).toFinset :=
  ⟨writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide)⟩

/-- A reference the stretch does not write keeps its contents. -/
theorem hostOps14_keep (V : Valuation τ sig (Elt Ideal)) {r : Ref sig .tc} (hr : r ∉ wr14) :
    StableHlo.after hostOps14 V (Proc.devRef .tc r) = V (Proc.devRef .tc r) :=
  StableHlo.after_of_writes_sub _ V hostOps14_writes hr

/-- The mean. -/
theorem hostOps14_main_v468 (V : Valuation τ sig (Elt Ideal)) :
    (StableHlo.after hostOps14 V (Proc.devRef .tc main_v468) : S1x128.Idx → EReal)
      = M.mk2 (fun _ j => M.meanK (M.at3 (V (Proc.devRef .tc main_v453_1) : S5x8x128.Idx → EReal)) j) := by
  after_results
  exact mean_eq _ _ _ _ _

/-- The variance. -/
theorem hostOps14_main_v469 (V : Valuation τ sig (Elt Ideal)) :
    (StableHlo.after hostOps14 V (Proc.devRef .tc main_v469) : S1x128.Idx → EReal)
      = M.mk2 (fun _ j => M.varK (M.at3 (V (Proc.devRef .tc main_v453_1) : S5x8x128.Idx → EReal))
          (M.at3 (V (Proc.devRef .tc main_v453_2) : S5x8x128.Idx → EReal)) j) := by
  after_results
  exact var_eq _ _ _ _ _ _

/-- Row 3 of `main_arg6`. -/
theorem hostOps14_main_v472 (V : Valuation τ sig (Elt Ideal)) :
    (StableHlo.after hostOps14 V (Proc.devRef .tc main_v472) : S1x128.Idx → EReal)
      = M.mk2 (fun _ j => M.at2 (V (Proc.devRef .tc main_arg6) : S4x128.Idx → EReal) (3 : Fin 4) j) := by
  after_results
  exact rowSlice_eq 3 (by decide) _ _ _ _

/-- Row 3 of `main_arg7`. -/
theorem hostOps14_main_v475 (V : Valuation τ sig (Elt Ideal)) :
    (StableHlo.after hostOps14 V (Proc.devRef .tc main_v475) : S1x128.Idx → EReal)
      = M.mk2 (fun _ j => M.at2 (V (Proc.devRef .tc main_arg7) : S4x128.Idx → EReal) (3 : Fin 4) j) := by
  after_results
  exact rowSlice_eq 3 (by decide) _ _ _ _

/-- Matrix 3 of `main_arg8`. -/
theorem hostOps14_main_v477 (V : Valuation τ sig (Elt Ideal)) :
    (StableHlo.after hostOps14 V (Proc.devRef .tc main_v477) : S128x128.Idx → EReal)
      = M.mk2 (fun k j => M.at3 (V (Proc.devRef .tc main_arg8) : S4x128x128.Idx → EReal) (3 : Fin 4) k j) := by
  after_results
  exact matSlice_eq 3 (by decide) _ _ _

/-- Row 3 of `main_arg9`. -/
theorem hostOps14_main_v480 (V : Valuation τ sig (Elt Ideal)) :
    (StableHlo.after hostOps14 V (Proc.devRef .tc main_v480) : S1x128.Idx → EReal)
      = M.mk2 (fun _ j => M.at2 (V (Proc.devRef .tc main_arg9) : S4x128.Idx → EReal) (3 : Fin 4) j) := by
  after_results
  exact rowSlice_eq 3 (by decide) _ _ _ _

/-! ## The stretch `hostOps15` -/

/-- The references `hostOps15` writes. -/
abbrev wr15 : List (Ref sig .tc) :=
  [main_cst_96, main_v482, main_cst_97, main_v483, main_v484, main_cst_98, main_v485, main_cst_99, main_v486, main_v487, main_cst_100, main_v488, main_v489, main_cst_101, main_v490, main_v491, main_v492, main_v493, main_cst_102, main_v494, main_v495, main_v496, main_v497, main_v498, main_v499, main_v500, main_v501, main_v502, main_v503]

theorem hostOps15_writes : (hostOps15 : List (HloOp τ sig (Elt Ideal))).Forall fun op =>
    op.writes ⊆ (wr15.map (Proc.devRef (τ := τ) .tc)).toFinset :=
  ⟨writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide)⟩

/-- A reference the stretch does not write keeps its contents. -/
theorem hostOps15_keep (V : Valuation τ sig (Elt Ideal)) {r : Ref sig .tc} (hr : r ∉ wr15) :
    StableHlo.after hostOps15 V (Proc.devRef .tc r) = V (Proc.devRef .tc r) :=
  StableHlo.after_of_writes_sub _ V hostOps15_writes hr

/-- The mean. -/
theorem hostOps15_main_v496 (V : Valuation τ sig (Elt Ideal)) :
    (StableHlo.after hostOps15 V (Proc.devRef .tc main_v496) : S1x128.Idx → EReal)
      = M.mk2 (fun _ j => M.meanK (M.at3 (V (Proc.devRef .tc main_v481_1) : S5x8x128.Idx → EReal)) j) := by
  after_results
  exact mean_eq _ _ _ _ _

/-- The variance. -/
theorem hostOps15_main_v497 (V : Valuation τ sig (Elt Ideal)) :
    (StableHlo.after hostOps15 V (Proc.devRef .tc main_v497) : S1x128.Idx → EReal)
      = M.mk2 (fun _ j => M.varK (M.at3 (V (Proc.devRef .tc main_v481_1) : S5x8x128.Idx → EReal))
          (M.at3 (V (Proc.devRef .tc main_v481_2) : S5x8x128.Idx → EReal)) j) := by
  after_results
  exact var_eq _ _ _ _ _ _

/-- Row 3 of `main_arg10`. -/
theorem hostOps15_main_v500 (V : Valuation τ sig (Elt Ideal)) :
    (StableHlo.after hostOps15 V (Proc.devRef .tc main_v500) : S1x128.Idx → EReal)
      = M.mk2 (fun _ j => M.at2 (V (Proc.devRef .tc main_arg10) : S4x128.Idx → EReal) (3 : Fin 4) j) := by
  after_results
  exact rowSlice_eq 3 (by decide) _ _ _ _

/-- Row 3 of `main_arg11`. -/
theorem hostOps15_main_v503 (V : Valuation τ sig (Elt Ideal)) :
    (StableHlo.after hostOps15 V (Proc.devRef .tc main_v503) : S1x128.Idx → EReal)
      = M.mk2 (fun _ j => M.at2 (V (Proc.devRef .tc main_arg11) : S4x128.Idx → EReal) (3 : Fin 4) j) := by
  after_results
  exact rowSlice_eq 3 (by decide) _ _ _ _

/-! ## The stretch `hostOps16` -/

/-- The references `hostOps16` writes. -/
abbrev wr16 : List (Ref sig .tc) :=
  [main_cst_103, main_v505, main_cst_104, main_v506, main_v507, main_cst_105, main_v508, main_cst_106, main_v509, main_v510, main_cst_107, main_v511, main_v512, main_cst_108, main_v513, main_v514, main_v515, main_v516, main_cst_109, main_v517, main_v518, main_v519, main_v520, main_v521, main_v522, main_v523, main_v524, main_v525, main_v526, main_v527, main_v528, main_v529, main_v530, main_v531, main_v532]

theorem hostOps16_writes : (hostOps16 : List (HloOp τ sig (Elt Ideal))).Forall fun op =>
    op.writes ⊆ (wr16.map (Proc.devRef (τ := τ) .tc)).toFinset :=
  ⟨writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide)⟩

/-- A reference the stretch does not write keeps its contents. -/
theorem hostOps16_keep (V : Valuation τ sig (Elt Ideal)) {r : Ref sig .tc} (hr : r ∉ wr16) :
    StableHlo.after hostOps16 V (Proc.devRef .tc r) = V (Proc.devRef .tc r) :=
  StableHlo.after_of_writes_sub _ V hostOps16_writes hr

/-- The mean. -/
theorem hostOps16_main_v519 (V : Valuation τ sig (Elt Ideal)) :
    (StableHlo.after hostOps16 V (Proc.devRef .tc main_v519) : S1x128.Idx → EReal)
      = M.mk2 (fun _ j => M.meanK (M.at3 (V (Proc.devRef .tc main_v504_1) : S5x8x128.Idx → EReal)) j) := by
  after_results
  exact mean_eq _ _ _ _ _

/-- The variance. -/
theorem hostOps16_main_v520 (V : Valuation τ sig (Elt Ideal)) :
    (StableHlo.after hostOps16 V (Proc.devRef .tc main_v520) : S1x128.Idx → EReal)
      = M.mk2 (fun _ j => M.varK (M.at3 (V (Proc.devRef .tc main_v504_1) : S5x8x128.Idx → EReal))
          (M.at3 (V (Proc.devRef .tc main_v504_2) : S5x8x128.Idx → EReal)) j) := by
  after_results
  exact var_eq _ _ _ _ _ _

/-- Row 3 of `main_arg12`. -/
theorem hostOps16_main_v523 (V : Valuation τ sig (Elt Ideal)) :
    (StableHlo.after hostOps16 V (Proc.devRef .tc main_v523) : S1x128.Idx → EReal)
      = M.mk2 (fun _ j => M.at2 (V (Proc.devRef .tc main_arg12) : S4x128.Idx → EReal) (3 : Fin 4) j) := by
  after_results
  exact rowSlice_eq 3 (by decide) _ _ _ _

/-- Row 3 of `main_arg13`. -/
theorem hostOps16_main_v526 (V : Valuation τ sig (Elt Ideal)) :
    (StableHlo.after hostOps16 V (Proc.devRef .tc main_v526) : S1x128.Idx → EReal)
      = M.mk2 (fun _ j => M.at2 (V (Proc.devRef .tc main_arg13) : S4x128.Idx → EReal) (3 : Fin 4) j) := by
  after_results
  exact rowSlice_eq 3 (by decide) _ _ _ _

/-- The top half of matrix 4 of `main_arg14`, in bf16. -/
theorem hostOps16_main_v530 (V : Valuation τ sig (Elt Ideal)) :
    (StableHlo.after hostOps16 V (Proc.devRef .tc main_v530) : S128x128.Idx → EReal)
      = M.mk2 (M.top (M.at3 (V (Proc.devRef .tc main_arg14) : S5x256x128.Idx → EReal) (4 : Fin 5))) := by
  after_results
  exact topHalf_eq 4 (by decide) _ _ _ _ _

/-- The bottom half of matrix 4 of `main_arg14`, in bf16. -/
theorem hostOps16_main_v532 (V : Valuation τ sig (Elt Ideal)) :
    (StableHlo.after hostOps16 V (Proc.devRef .tc main_v532) : S128x128.Idx → EReal)
      = M.mk2 (M.bot (M.at3 (V (Proc.devRef .tc main_arg14) : S5x256x128.Idx → EReal) (4 : Fin 5))) := by
  after_results
  exact botHalf_eq 4 (by decide) _ _ _ _ _

end Cert.KStageFin
-- ==== Proof.KChainLa3.lean ====
/-
  Layer 3's four regions and the three stretches of host operations between them: from what the buffers hold where the
  layer's first region is entered to what they hold where its last region is left.
-/
import proofs.«416875_j80633716015165_3_alg».proof.Proof.KChainBase
import proofs.«416875_j80633716015165_3_alg».proof.Proof.KChainKeep
import proofs.«416875_j80633716015165_3_alg».proof.Proof.KChainArgs
import proofs.«416875_j80633716015165_3_alg».proof.Proof.RegA13
import proofs.«416875_j80633716015165_3_alg».proof.Proof.RegB14
import proofs.«416875_j80633716015165_3_alg».proof.Proof.RegC15
import proofs.«416875_j80633716015165_3_alg».proof.Proof.RegD16
import proofs.«416875_j80633716015165_3_alg».proof.Proof.KStageFinL3

set_option maxRecDepth 16384
-- reading a region's window array back to its buffer name is an evaluation of the window record
set_option maxHeartbeats 1000000
-- one declaration at a time: each reading of a region's window array is evaluated on its own
set_option Elab.async false

noncomputable section

open Idealize.ShloMosaic Idealize.ShloMosaic.TcCoe Idealize.ShloMosaic.ValueIdx
open Cert.KernelIdeal Cert.KernelIdeal.Gen

namespace Cert.KChain.La3

variable (m : (ℓ : Loc nD τ sig) → Buf (Elt Ideal) ℓ) (ρ : Dev nD → PrngReg) (c : Dev nD)

/-! ## The arguments, the node array and the running score are kept -/

theorem args6 (hfin : (inputsK m c).Finite) (h : Entry3 m c (W35 (F := Ideal) m ρ c)) : ArgsKept m c (W36 (F := Ideal) m ρ c) := argsW36 m ρ c h.args
theorem args7 (hfin : (inputsK m c).Finite) (h : Entry3 m c (W35 (F := Ideal) m ρ c)) : ArgsKept m c (W37 (F := Ideal) m ρ c) := argsW37 m ρ c (args6 m ρ c hfin h)
theorem args8 (hfin : (inputsK m c).Finite) (h : Entry3 m c (W35 (F := Ideal) m ρ c)) : ArgsKept m c (W38 (F := Ideal) m ρ c) := argsW38 m ρ c (args7 m ρ c hfin h)
theorem args9 (hfin : (inputsK m c).Finite) (h : Entry3 m c (W35 (F := Ideal) m ρ c)) : ArgsKept m c (W39 (F := Ideal) m ρ c) := argsW39 m ρ c (args8 m ρ c hfin h)
theorem args10 (hfin : (inputsK m c).Finite) (h : Entry3 m c (W35 (F := Ideal) m ρ c)) : ArgsKept m c (W40 (F := Ideal) m ρ c) := argsW40 m ρ c (args9 m ρ c hfin h)
theorem args11 (hfin : (inputsK m c).Finite) (h : Entry3 m c (W35 (F := Ideal) m ρ c)) : ArgsKept m c (W41 (F := Ideal) m ρ c) := argsW41 m ρ c (args10 m ρ c hfin h)
theorem args12 (hfin : (inputsK m c).Finite) (h : Entry3 m c (W35 (F := Ideal) m ρ c)) : ArgsKept m c (W42 (F := Ideal) m ρ c) := argsW42 m ρ c (args11 m ρ c hfin h)

theorem x6 (hfin : (inputsK m c).Finite) (h : Entry3 m c (W35 (F := Ideal) m ρ c)) :
    W36 (F := Ideal) m ρ c (Proc.devRef .tc main_v402_0) = M.mk2 (M.x3 (inputsK m c)) :=
  (keepW36 m ρ c main_v402_0 (nm (by decide))).trans (h.x)
theorem x7 (hfin : (inputsK m c).Finite) (h : Entry3 m c (W35 (F := Ideal) m ρ c)) :
    W37 (F := Ideal) m ρ c (Proc.devRef .tc main_v402_0) = M.mk2 (M.x3 (inputsK m c)) :=
  (keepW37 m ρ c main_v402_0 (nm (by decide))).trans (x6 m ρ c hfin h)
theorem x8 (hfin : (inputsK m c).Finite) (h : Entry3 m c (W35 (F := Ideal) m ρ c)) :
    W38 (F := Ideal) m ρ c (Proc.devRef .tc main_v402_0) = M.mk2 (M.x3 (inputsK m c)) :=
  (keepW38 m ρ c main_v402_0 (nm (by decide))).trans (x7 m ρ c hfin h)
theorem x9 (hfin : (inputsK m c).Finite) (h : Entry3 m c (W35 (F := Ideal) m ρ c)) :
    W39 (F := Ideal) m ρ c (Proc.devRef .tc main_v402_0) = M.mk2 (M.x3 (inputsK m c)) :=
  (keepW39 m ρ c main_v402_0 (nm (by decide))).trans (x8 m ρ c hfin h)
theorem x10 (hfin : (inputsK m c).Finite) (h : Entry3 m c (W35 (F := Ideal) m ρ c)) :
    W40 (F := Ideal) m ρ c (Proc.devRef .tc main_v402_0) = M.mk2 (M.x3 (inputsK m c)) :=
  (keepW40 m ρ c main_v402_0 (nm (by decide))).trans (x9 m ρ c hfin h)
theorem x11 (hfin : (inputsK m c).Finite) (h : Entry3 m c (W35 (F := Ideal) m ρ c)) :
    W41 (F := Ideal) m ρ c (Proc.devRef .tc main_v402_0) = M.mk2 (M.x3 (inputsK m c)) :=
  (keepW41 m ρ c main_v402_0 (nm (by decide))).trans (x10 m ρ c hfin h)

theorem sc6 (hfin : (inputsK m c).Finite) (h : Entry3 m c (W35 (F := Ideal) m ρ c)) :
    W36 (F := Ideal) m ρ c (Proc.devRef .tc main_v434) = M.mk2 (s3 (inputsK m c)) :=
  (keepW36 m ρ c main_v434 (nm (by decide))).trans (h.score)
theorem sc7 (hfin : (inputsK m c).Finite) (h : Entry3 m c (W35 (F := Ideal) m ρ c)) :
    W37 (F := Ideal) m ρ c (Proc.devRef .tc main_v434) = M.mk2 (s3 (inputsK m c)) :=
  (keepW37 m ρ c main_v434 (nm (by decide))).trans (sc6 m ρ c hfin h)
theorem sc8 (hfin : (inputsK m c).Finite) (h : Entry3 m c (W35 (F := Ideal) m ρ c)) :
    W38 (F := Ideal) m ρ c (Proc.devRef .tc main_v434) = M.mk2 (s3 (inputsK m c)) :=
  (keepW38 m ρ c main_v434 (nm (by decide))).trans (sc7 m ρ c hfin h)
theorem sc9 (hfin : (inputsK m c).Finite) (h : Entry3 m c (W35 (F := Ideal) m ρ c)) :
    W39 (F := Ideal) m ρ c (Proc.devRef .tc main_v434) = M.mk2 (s3 (inputsK m c)) :=
  (keepW39 m ρ c main_v434 (nm (by decide))).trans (sc8 m ρ c hfin h)
theorem sc10 (hfin : (inputsK m c).Finite) (h : Entry3 m c (W35 (F := Ideal) m ρ c)) :
    W40 (F := Ideal) m ρ c (Proc.devRef .tc main_v434) = M.mk2 (s3 (inputsK m c)) :=
  (keepW40 m ρ c main_v434 (nm (by decide))).trans (sc9 m ρ c hfin h)
theorem sc11 (hfin : (inputsK m c).Finite) (h : Entry3 m c (W35 (F := Ideal) m ρ c)) :
    W41 (F := Ideal) m ρ c (Proc.devRef .tc main_v434) = M.mk2 (s3 (inputsK m c)) :=
  (keepW41 m ρ c main_v434 (nm (by decide))).trans (sc10 m ρ c hfin h)
theorem sc12 (hfin : (inputsK m c).Finite) (h : Entry3 m c (W35 (F := Ideal) m ρ c)) :
    W42 (F := Ideal) m ρ c (Proc.devRef .tc main_v434) = M.mk2 (s3 (inputsK m c)) :=
  (keepW42 m ρ c main_v434 (nm (by decide))).trans (sc11 m ρ c hfin h)

/-! ## The first region: the first linear map and its tile sums -/

theorem valA (hfin : (inputsK m c).Finite) (h : Entry3 m c (W35 (F := Ideal) m ρ c)) : RegA13.linA (V35 (F := Ideal) m ρ) c = (a1I (inputsK m c) (3 : Fin 4) (M.x3 (inputsK m c))) := by
  have e0 : V35 (F := Ideal) m ρ c (Pipeline.arrRef spec13 0) = M.mk2 (M.x3 (inputsK m c)) := h.x
  have e1 : V35 (F := Ideal) m ρ c (Pipeline.arrRef spec13 1) = M.mk2 (M.neigh (M.x3 (inputsK m c)) (inputsK m c).src (inputsK m c).dst) := h.neigh
  have e2 : V35 (F := Ideal) m ρ c (Pipeline.arrRef spec13 2) = M.mk2 (fun (_ : Fin 1) (_ : Fin 1) => (inputsK m c).eps (3 : Fin 4)) := h.eps
  have e3 : V35 (F := Ideal) m ρ c (Pipeline.arrRef spec13 3) = M.mk2 ((inputsK m c).mlp_w1 (3 : Fin 4)) := h.w1
  have e4 : V35 (F := Ideal) m ρ c (Pipeline.arrRef spec13 4) = M.mk2 (fun (_ : Fin 1) (j : Fin 128) => (inputsK m c).mlp_b1 (3 : Fin 4) j) := h.b1
  exact shapeA e0 e1 e2 e3 e4

theorem a1_6 (hfin : (inputsK m c).Finite) (h : Entry3 m c (W35 (F := Ideal) m ρ c)) : W36 (F := Ideal) m ρ c (Proc.devRef .tc main_v453_0) = M.mk2 (a1I (inputsK m c) (3 : Fin 4) (M.x3 (inputsK m c))) :=
  (W36_arr m ρ c 5).trans ((RegA13.arr13_5 (V35 (F := Ideal) m ρ) c).trans (congrArg M.mk2 (valA m ρ c hfin h)))
theorem S1_6 (hfin : (inputsK m c).Finite) (h : Entry3 m c (W35 (F := Ideal) m ρ c)) : W36 (F := Ideal) m ρ c (Proc.devRef .tc main_v453_1) = M.mk3 (M.sumT (a1I (inputsK m c) (3 : Fin 4) (M.x3 (inputsK m c)))) :=
  (W36_arr m ρ c 6).trans ((RegA13.arr13_6 (V35 (F := Ideal) m ρ) c).trans (congrArg (fun v => M.mk3 (M.sumT v)) (valA m ρ c hfin h)))
theorem Q1_6 (hfin : (inputsK m c).Finite) (h : Entry3 m c (W35 (F := Ideal) m ρ c)) : W36 (F := Ideal) m ρ c (Proc.devRef .tc main_v453_2) = M.mk3 (M.sumsqT (a1I (inputsK m c) (3 : Fin 4) (M.x3 (inputsK m c)))) :=
  (W36_arr m ρ c 7).trans ((RegA13.arr13_7 (V35 (F := Ideal) m ρ) c).trans (congrArg (fun v => M.mk3 (M.sumsqT v)) (valA m ρ c hfin h)))

/-! ## The first statistics stretch -/

theorem a1_7 (hfin : (inputsK m c).Finite) (h : Entry3 m c (W35 (F := Ideal) m ρ c)) : W37 (F := Ideal) m ρ c (Proc.devRef .tc main_v453_0) = M.mk2 (a1I (inputsK m c) (3 : Fin 4) (M.x3 (inputsK m c))) :=
  (keepW37 m ρ c main_v453_0 (nm (by decide))).trans (a1_6 m ρ c hfin h)
theorem mean1_7 (hfin : (inputsK m c).Finite) (h : Entry3 m c (W35 (F := Ideal) m ρ c)) : W37 (F := Ideal) m ρ c (Proc.devRef .tc main_v468) = M.mk2 (fun (_ : Fin 1) j => M.meanK (M.sumT (a1I (inputsK m c) (3 : Fin 4) (M.x3 (inputsK m c)))) j) := by
  have e := KStageFin.hostOps14_main_v468 (W36 (F := Ideal) m ρ c)
  rw [S1_6 m ρ c hfin h] at e
  exact e
theorem var1_7 (hfin : (inputsK m c).Finite) (h : Entry3 m c (W35 (F := Ideal) m ρ c)) : W37 (F := Ideal) m ρ c (Proc.devRef .tc main_v469) = M.mk2 (fun (_ : Fin 1) j => M.varK (M.sumT (a1I (inputsK m c) (3 : Fin 4) (M.x3 (inputsK m c)))) (M.sumsqT (a1I (inputsK m c) (3 : Fin 4) (M.x3 (inputsK m c)))) j) := by
  have e := KStageFin.hostOps14_main_v469 (W36 (F := Ideal) m ρ c)
  rw [S1_6 m ρ c hfin h, Q1_6 m ρ c hfin h] at e
  exact e
theorem g1_7 (hfin : (inputsK m c).Finite) (h : Entry3 m c (W35 (F := Ideal) m ρ c)) : W37 (F := Ideal) m ρ c (Proc.devRef .tc main_v472) = M.mk2 (fun (_ : Fin 1) j => (inputsK m c).mlp_bn_g (3 : Fin 4) j) := by
  have e := KStageFin.hostOps14_main_v472 (W36 (F := Ideal) m ρ c)
  rw [args6 m ρ c hfin h main_arg6 (by decide)] at e
  exact e
theorem c1_7 (hfin : (inputsK m c).Finite) (h : Entry3 m c (W35 (F := Ideal) m ρ c)) : W37 (F := Ideal) m ρ c (Proc.devRef .tc main_v475) = M.mk2 (fun (_ : Fin 1) j => (inputsK m c).mlp_bn_b (3 : Fin 4) j) := by
  have e := KStageFin.hostOps14_main_v475 (W36 (F := Ideal) m ρ c)
  rw [args6 m ρ c hfin h main_arg7 (by decide)] at e
  exact e
theorem w2_7 (hfin : (inputsK m c).Finite) (h : Entry3 m c (W35 (F := Ideal) m ρ c)) : W37 (F := Ideal) m ρ c (Proc.devRef .tc main_v477) = M.mk2 ((inputsK m c).mlp_w2 (3 : Fin 4)) := by
  have e := KStageFin.hostOps14_main_v477 (W36 (F := Ideal) m ρ c)
  rw [args6 m ρ c hfin h main_arg8 (by decide)] at e
  exact e
theorem b2_7 (hfin : (inputsK m c).Finite) (h : Entry3 m c (W35 (F := Ideal) m ρ c)) : W37 (F := Ideal) m ρ c (Proc.devRef .tc main_v480) = M.mk2 (fun (_ : Fin 1) j => (inputsK m c).mlp_b2 (3 : Fin 4) j) := by
  have e := KStageFin.hostOps14_main_v480 (W36 (F := Ideal) m ρ c)
  rw [args6 m ρ c hfin h main_arg9 (by decide)] at e
  exact e

/-! ## The second region: the second linear map and its tile sums -/

theorem valB (hfin : (inputsK m c).Finite) (h : Entry3 m c (W35 (F := Ideal) m ρ c)) : RegB14.val (V37 (F := Ideal) m ρ) c = (a2I (inputsK m c) (3 : Fin 4) (M.x3 (inputsK m c))) := by
  have e0 : V37 (F := Ideal) m ρ c (Pipeline.arrRef spec14 0) = M.mk2 (a1I (inputsK m c) (3 : Fin 4) (M.x3 (inputsK m c))) := a1_7 m ρ c hfin h
  have e1 : V37 (F := Ideal) m ρ c (Pipeline.arrRef spec14 1) = M.mk2 (fun (_ : Fin 1) j => M.meanK (M.sumT (a1I (inputsK m c) (3 : Fin 4) (M.x3 (inputsK m c)))) j) := mean1_7 m ρ c hfin h
  have e2 : V37 (F := Ideal) m ρ c (Pipeline.arrRef spec14 2) = M.mk2 (fun (_ : Fin 1) j => M.varK (M.sumT (a1I (inputsK m c) (3 : Fin 4) (M.x3 (inputsK m c)))) (M.sumsqT (a1I (inputsK m c) (3 : Fin 4) (M.x3 (inputsK m c)))) j) := var1_7 m ρ c hfin h
  have e3 : V37 (F := Ideal) m ρ c (Pipeline.arrRef spec14 3) = M.mk2 (fun (_ : Fin 1) j => (inputsK m c).mlp_bn_g (3 : Fin 4) j) := g1_7 m ρ c hfin h
  have e4 : V37 (F := Ideal) m ρ c (Pipeline.arrRef spec14 4) = M.mk2 (fun (_ : Fin 1) j => (inputsK m c).mlp_bn_b (3 : Fin 4) j) := c1_7 m ρ c hfin h
  have e5 : V37 (F := Ideal) m ρ c (Pipeline.arrRef spec14 5) = M.mk2 ((inputsK m c).mlp_w2 (3 : Fin 4)) := w2_7 m ρ c hfin h
  have e6 : V37 (F := Ideal) m ρ c (Pipeline.arrRef spec14 6) = M.mk2 (fun (_ : Fin 1) j => (inputsK m c).mlp_b2 (3 : Fin 4) j) := b2_7 m ρ c hfin h
  exact shapeB (fin_a1I (inputsK m c) hfin (3 : Fin 4) (M.x3 (inputsK m c)) (MathStats.fin_x3 (inputsK m c) hfin)) e0 e1 e2 e3 e4 e5 e6

theorem a2_8 (hfin : (inputsK m c).Finite) (h : Entry3 m c (W35 (F := Ideal) m ρ c)) : W38 (F := Ideal) m ρ c (Proc.devRef .tc main_v481_0) = M.mk2 (a2I (inputsK m c) (3 : Fin 4) (M.x3 (inputsK m c))) :=
  (W38_arr m ρ c 7).trans ((RegB14.arr14_7 (V37 (F := Ideal) m ρ) c).trans (congrArg M.mk2 (valB m ρ c hfin h)))
theorem S2_8 (hfin : (inputsK m c).Finite) (h : Entry3 m c (W35 (F := Ideal) m ρ c)) : W38 (F := Ideal) m ρ c (Proc.devRef .tc main_v481_1) = M.mk3 (M.sumT (a2I (inputsK m c) (3 : Fin 4) (M.x3 (inputsK m c)))) :=
  (W38_arr m ρ c 8).trans ((RegB14.arr14_8 (V37 (F := Ideal) m ρ) c).trans (congrArg (fun v => M.mk3 (M.sumT v)) (valB m ρ c hfin h)))
theorem Q2_8 (hfin : (inputsK m c).Finite) (h : Entry3 m c (W35 (F := Ideal) m ρ c)) : W38 (F := Ideal) m ρ c (Proc.devRef .tc main_v481_2) = M.mk3 (M.sumsqT (a2I (inputsK m c) (3 : Fin 4) (M.x3 (inputsK m c)))) :=
  (W38_arr m ρ c 9).trans ((RegB14.arr14_9 (V37 (F := Ideal) m ρ) c).trans (congrArg (fun v => M.mk3 (M.sumsqT v)) (valB m ρ c hfin h)))

/-! ## The second statistics stretch -/

theorem a2_9 (hfin : (inputsK m c).Finite) (h : Entry3 m c (W35 (F := Ideal) m ρ c)) : W39 (F := Ideal) m ρ c (Proc.devRef .tc main_v481_0) = M.mk2 (a2I (inputsK m c) (3 : Fin 4) (M.x3 (inputsK m c))) :=
  (keepW39 m ρ c main_v481_0 (nm (by decide))).trans (a2_8 m ρ c hfin h)
theorem mean2_9 (hfin : (inputsK m c).Finite) (h : Entry3 m c (W35 (F := Ideal) m ρ c)) : W39 (F := Ideal) m ρ c (Proc.devRef .tc main_v496) = M.mk2 (fun (_ : Fin 1) j => M.meanK (M.sumT (a2I (inputsK m c) (3 : Fin 4) (M.x3 (inputsK m c)))) j) := by
  have e := KStageFin.hostOps15_main_v496 (W38 (F := Ideal) m ρ c)
  rw [S2_8 m ρ c hfin h] at e
  exact e
theorem var2_9 (hfin : (inputsK m c).Finite) (h : Entry3 m c (W35 (F := Ideal) m ρ c)) : W39 (F := Ideal) m ρ c (Proc.devRef .tc main_v497) = M.mk2 (fun (_ : Fin 1) j => M.varK (M.sumT (a2I (inputsK m c) (3 : Fin 4) (M.x3 (inputsK m c)))) (M.sumsqT (a2I (inputsK m c) (3 : Fin 4) (M.x3 (inputsK m c)))) j) := by
  have e := KStageFin.hostOps15_main_v497 (W38 (F := Ideal) m ρ c)
  rw [S2_8 m ρ c hfin h, Q2_8 m ρ c hfin h] at e
  exact e
theorem ag_9 (hfin : (inputsK m c).Finite) (h : Entry3 m c (W35 (F := Ideal) m ρ c)) : W39 (F := Ideal) m ρ c (Proc.devRef .tc main_v500) = M.mk2 (fun (_ : Fin 1) j => (inputsK m c).app_bn_g (3 : Fin 4) j) := by
  have e := KStageFin.hostOps15_main_v500 (W38 (F := Ideal) m ρ c)
  rw [args8 m ρ c hfin h main_arg10 (by decide)] at e
  exact e
theorem ab_9 (hfin : (inputsK m c).Finite) (h : Entry3 m c (W35 (F := Ideal) m ρ c)) : W39 (F := Ideal) m ρ c (Proc.devRef .tc main_v503) = M.mk2 (fun (_ : Fin 1) j => (inputsK m c).app_bn_b (3 : Fin 4) j) := by
  have e := KStageFin.hostOps15_main_v503 (W38 (F := Ideal) m ρ c)
  rw [args8 m ρ c hfin h main_arg11 (by decide)] at e
  exact e

/-! ## The third region: the second normalisation and its tile sums -/

theorem valC (hfin : (inputsK m c).Finite) (h : Entry3 m c (W35 (F := Ideal) m ρ c)) :
    M.bnrelu (M.at2 (V39 (F := Ideal) m ρ c (Pipeline.arrRef spec15 0))) (fun j => M.at2 (V39 (F := Ideal) m ρ c (Pipeline.arrRef spec15 1)) 0 j)
      (fun j => M.at2 (V39 (F := Ideal) m ρ c (Pipeline.arrRef spec15 2)) 0 j) (fun j => M.at2 (V39 (F := Ideal) m ρ c (Pipeline.arrRef spec15 3)) 0 j)
      (fun j => M.at2 (V39 (F := Ideal) m ρ c (Pipeline.arrRef spec15 4)) 0 j) = (a3I (inputsK m c) (3 : Fin 4) (M.x3 (inputsK m c))) := by
  have e0 : V39 (F := Ideal) m ρ c (Pipeline.arrRef spec15 0) = M.mk2 (a2I (inputsK m c) (3 : Fin 4) (M.x3 (inputsK m c))) := a2_9 m ρ c hfin h
  have e1 : V39 (F := Ideal) m ρ c (Pipeline.arrRef spec15 1) = M.mk2 (fun (_ : Fin 1) j => M.meanK (M.sumT (a2I (inputsK m c) (3 : Fin 4) (M.x3 (inputsK m c)))) j) := mean2_9 m ρ c hfin h
  have e2 : V39 (F := Ideal) m ρ c (Pipeline.arrRef spec15 2) = M.mk2 (fun (_ : Fin 1) j => M.varK (M.sumT (a2I (inputsK m c) (3 : Fin 4) (M.x3 (inputsK m c)))) (M.sumsqT (a2I (inputsK m c) (3 : Fin 4) (M.x3 (inputsK m c)))) j) := var2_9 m ρ c hfin h
  have e3 : V39 (F := Ideal) m ρ c (Pipeline.arrRef spec15 3) = M.mk2 (fun (_ : Fin 1) j => (inputsK m c).app_bn_g (3 : Fin 4) j) := ag_9 m ρ c hfin h
  have e4 : V39 (F := Ideal) m ρ c (Pipeline.arrRef spec15 4) = M.mk2 (fun (_ : Fin 1) j => (inputsK m c).app_bn_b (3 : Fin 4) j) := ab_9 m ρ c hfin h
  exact shapeC (fin_a2I (inputsK m c) hfin (3 : Fin 4) (M.x3 (inputsK m c)) (MathStats.fin_x3 (inputsK m c) hfin)) e0 e1 e2 e3 e4

theorem a3_10 (hfin : (inputsK m c).Finite) (h : Entry3 m c (W35 (F := Ideal) m ρ c)) : W40 (F := Ideal) m ρ c (Proc.devRef .tc main_v504_0) = M.mk2 (a3I (inputsK m c) (3 : Fin 4) (M.x3 (inputsK m c))) :=
  (W40_arr m ρ c 5).trans ((RegC15.arr15_5 (V39 (F := Ideal) m ρ) c).trans (congrArg M.mk2 (valC m ρ c hfin h)))
theorem S3_10 (hfin : (inputsK m c).Finite) (h : Entry3 m c (W35 (F := Ideal) m ρ c)) : W40 (F := Ideal) m ρ c (Proc.devRef .tc main_v504_1) = M.mk3 (M.sumT (a3I (inputsK m c) (3 : Fin 4) (M.x3 (inputsK m c)))) :=
  (W40_arr m ρ c 6).trans ((RegC15.arr15_6 (V39 (F := Ideal) m ρ) c).trans (congrArg (fun v => M.mk3 (M.sumT v)) (valC m ρ c hfin h)))
theorem Q3_10 (hfin : (inputsK m c).Finite) (h : Entry3 m c (W35 (F := Ideal) m ρ c)) : W40 (F := Ideal) m ρ c (Proc.devRef .tc main_v504_2) = M.mk3 (M.sumsqT (a3I (inputsK m c) (3 : Fin 4) (M.x3 (inputsK m c)))) :=
  (W40_arr m ρ c 7).trans ((RegC15.arr15_7 (V39 (F := Ideal) m ρ) c).trans (congrArg (fun v => M.mk3 (M.sumsqT v)) (valC m ρ c hfin h)))

/-! ## The third statistics stretch, with the next head's weight halves -/

theorem a3_11 (hfin : (inputsK m c).Finite) (h : Entry3 m c (W35 (F := Ideal) m ρ c)) : W41 (F := Ideal) m ρ c (Proc.devRef .tc main_v504_0) = M.mk2 (a3I (inputsK m c) (3 : Fin 4) (M.x3 (inputsK m c))) :=
  (keepW41 m ρ c main_v504_0 (nm (by decide))).trans (a3_10 m ρ c hfin h)
theorem mean3_11 (hfin : (inputsK m c).Finite) (h : Entry3 m c (W35 (F := Ideal) m ρ c)) : W41 (F := Ideal) m ρ c (Proc.devRef .tc main_v519) = M.mk2 (fun (_ : Fin 1) j => M.meanK (M.sumT (a3I (inputsK m c) (3 : Fin 4) (M.x3 (inputsK m c)))) j) := by
  have e := KStageFin.hostOps16_main_v519 (W40 (F := Ideal) m ρ c)
  rw [S3_10 m ρ c hfin h] at e
  exact e
theorem var3_11 (hfin : (inputsK m c).Finite) (h : Entry3 m c (W35 (F := Ideal) m ρ c)) : W41 (F := Ideal) m ρ c (Proc.devRef .tc main_v520) = M.mk2 (fun (_ : Fin 1) j => M.varK (M.sumT (a3I (inputsK m c) (3 : Fin 4) (M.x3 (inputsK m c)))) (M.sumsqT (a3I (inputsK m c) (3 : Fin 4) (M.x3 (inputsK m c)))) j) := by
  have e := KStageFin.hostOps16_main_v520 (W40 (F := Ideal) m ρ c)
  rw [S3_10 m ρ c hfin h, Q3_10 m ρ c hfin h] at e
  exact e
theorem gg_11 (hfin : (inputsK m c).Finite) (h : Entry3 m c (W35 (F := Ideal) m ρ c)) : W41 (F := Ideal) m ρ c (Proc.devRef .tc main_v523) = M.mk2 (fun (_ : Fin 1) j => (inputsK m c).gin_bn_g (3 : Fin 4) j) := by
  have e := KStageFin.hostOps16_main_v523 (W40 (F := Ideal) m ρ c)
  rw [args10 m ρ c hfin h main_arg12 (by decide)] at e
  exact e
theorem gb_11 (hfin : (inputsK m c).Finite) (h : Entry3 m c (W35 (F := Ideal) m ρ c)) : W41 (F := Ideal) m ρ c (Proc.devRef .tc main_v526) = M.mk2 (fun (_ : Fin 1) j => (inputsK m c).gin_bn_b (3 : Fin 4) j) := by
  have e := KStageFin.hostOps16_main_v526 (W40 (F := Ideal) m ρ c)
  rw [args10 m ρ c hfin h main_arg13 (by decide)] at e
  exact e
theorem wt_11 (hfin : (inputsK m c).Finite) (h : Entry3 m c (W35 (F := Ideal) m ρ c)) : W41 (F := Ideal) m ρ c (Proc.devRef .tc main_v530) = M.mk2 (M.top ((inputsK m c).pred_w1 (4 : Fin 5))) := by
  have e := KStageFin.hostOps16_main_v530 (W40 (F := Ideal) m ρ c)
  rw [args10 m ρ c hfin h main_arg14 (by decide)] at e
  exact e
theorem wb_11 (hfin : (inputsK m c).Finite) (h : Entry3 m c (W35 (F := Ideal) m ρ c)) : W41 (F := Ideal) m ρ c (Proc.devRef .tc main_v532) = M.mk2 (M.bot ((inputsK m c).pred_w1 (4 : Fin 5))) := by
  have e := KStageFin.hostOps16_main_v532 (W40 (F := Ideal) m ρ c)
  rw [args10 m ρ c hfin h main_arg14 (by decide)] at e
  exact e

/-! ## The fourth region: the layer's output and its two products with the next head's weight halves -/

theorem valD (hfin : (inputsK m c).Finite) (h : Entry3 m c (W35 (F := Ideal) m ρ c)) :
    RegNP.xnew (V41 (F := Ideal) m ρ c (Pipeline.arrRef spec16 0)) (V41 (F := Ideal) m ρ c (Pipeline.arrRef spec16 1)) (V41 (F := Ideal) m ρ c (Pipeline.arrRef spec16 2)) (V41 (F := Ideal) m ρ c (Pipeline.arrRef spec16 3))
      (V41 (F := Ideal) m ρ c (Pipeline.arrRef spec16 4)) (V41 (F := Ideal) m ρ c (Pipeline.arrRef spec16 5)) = M.x4 (inputsK m c) := by
  have e0 : V41 (F := Ideal) m ρ c (Pipeline.arrRef spec16 0) = M.mk2 (a3I (inputsK m c) (3 : Fin 4) (M.x3 (inputsK m c))) := a3_11 m ρ c hfin h
  have e1 : V41 (F := Ideal) m ρ c (Pipeline.arrRef spec16 1) = M.mk2 (fun (_ : Fin 1) j => M.meanK (M.sumT (a3I (inputsK m c) (3 : Fin 4) (M.x3 (inputsK m c)))) j) := mean3_11 m ρ c hfin h
  have e2 : V41 (F := Ideal) m ρ c (Pipeline.arrRef spec16 2) = M.mk2 (fun (_ : Fin 1) j => M.varK (M.sumT (a3I (inputsK m c) (3 : Fin 4) (M.x3 (inputsK m c)))) (M.sumsqT (a3I (inputsK m c) (3 : Fin 4) (M.x3 (inputsK m c)))) j) := var3_11 m ρ c hfin h
  have e3 : V41 (F := Ideal) m ρ c (Pipeline.arrRef spec16 3) = M.mk2 (fun (_ : Fin 1) j => (inputsK m c).gin_bn_g (3 : Fin 4) j) := gg_11 m ρ c hfin h
  have e4 : V41 (F := Ideal) m ρ c (Pipeline.arrRef spec16 4) = M.mk2 (fun (_ : Fin 1) j => (inputsK m c).gin_bn_b (3 : Fin 4) j) := gb_11 m ρ c hfin h
  have e5 : V41 (F := Ideal) m ρ c (Pipeline.arrRef spec16 5) = M.mk2 (M.x3 (inputsK m c)) := x11 m ρ c hfin h
  exact (shapeD (fin_a3I (inputsK m c) hfin (3 : Fin 4) (M.x3 (inputsK m c)) (MathStats.fin_x3 (inputsK m c) hfin)) e0 e1 e2 e3 e4 e5).trans
    (layerI_eq (inputsK m c) (3 : Fin 4) (M.x3 (inputsK m c))).symm

theorem x_12 (hfin : (inputsK m c).Finite) (h : Entry3 m c (W35 (F := Ideal) m ρ c)) : W42 (F := Ideal) m ρ c (Proc.devRef .tc main_v533_0) = M.mk2 (M.x4 (inputsK m c)) :=
  (W42_arr m ρ c 8).trans ((RegD16.arr16_8 (V41 (F := Ideal) m ρ) c).trans (congrArg M.mk2 (valD m ρ c hfin h)))
theorem p_12 (hfin : (inputsK m c).Finite) (h : Entry3 m c (W35 (F := Ideal) m ρ c)) : W42 (F := Ideal) m ρ c (Proc.devRef .tc main_v533_1) = M.mk2 (M.mm (M.x4 (inputsK m c)) (M.top ((inputsK m c).pred_w1 (4 : Fin 5)))) :=
  (W42_arr m ρ c 9).trans ((RegD16.arr16_9 (V41 (F := Ideal) m ρ) c).trans
    (congrArg M.mk2 (congrArg₂ M.mm (valD m ρ c hfin h) (congrArg (M.at2 (a := 128) (b := 128)) (wt_11 m ρ c hfin h)))))
theorem q_12 (hfin : (inputsK m c).Finite) (h : Entry3 m c (W35 (F := Ideal) m ρ c)) : W42 (F := Ideal) m ρ c (Proc.devRef .tc main_v533_2) = M.mk2 (M.mm (M.x4 (inputsK m c)) (M.bot ((inputsK m c).pred_w1 (4 : Fin 5)))) :=
  (W42_arr m ρ c 10).trans ((RegD16.arr16_10 (V41 (F := Ideal) m ρ) c).trans
    (congrArg M.mk2 (congrArg₂ M.mm (valD m ρ c hfin h) (congrArg (M.at2 (a := 128) (b := 128)) (wb_11 m ρ c hfin h)))))

end Cert.KChain.La3

namespace Cert.KChain

/-- Layer 3's regions: from the layer's entry to its last region's exit. -/
theorem la3 (m : (ℓ : Loc nD τ sig) → Buf (Elt Ideal) ℓ) (ρ : Dev nD → PrngReg) (c : Dev nD)
    (hfin : (inputsK m c).Finite) (h : Entry3 m c (W35 (F := Ideal) m ρ c)) : Exit3 m c (W42 (F := Ideal) m ρ c) :=
  ⟨La3.x_12 m ρ c hfin h, La3.p_12 m ρ c hfin h, La3.q_12 m ρ c hfin h, La3.sc12 m ρ c hfin h, La3.args12 m ρ c hfin h⟩

end Cert.KChain

end
-- ==== Proof.KChainLast.lean ====
/-
  The kernel's run from the last region's exit to the returned buffer, read as mathematics.

  The last region leaves the final node array `x₄` and its products with the two halves of head 4's first weight.
  The three stretches after it gather the two products at the edges' source and target nodes, add them and the first
  bias, rectify, multiply by the second weight, add the second bias, and add the result to the running score of heads
  0 to 3. A gathered row of a product is the product of the gathered row, and a contraction over a concatenated row
  pair is the sum of the contractions over its halves, so what is added is head 4 on `x₄`, and the sum of the five
  heads' scores in order is the network's score.
-/
import proofs.«416875_j80633716015165_3_alg».proof.Proof.KChainBase
import proofs.«416875_j80633716015165_3_alg».proof.Proof.KStageHeadSib
import proofs.«416875_j80633716015165_3_alg».proof.Proof.GatherRows

set_option maxRecDepth 16384

noncomputable section

open Idealize.ShloMosaic Idealize.ShloMosaic.TcCoe Idealize.ShloMosaic.ValueIdx
open Cert.KernelIdeal Cert.KernelIdeal.Gen

namespace Cert.KChain

variable (m : (ℓ : Loc nD τ sig) → Buf (Elt Ideal) ℓ) (ρ : Dev nD → PrngReg) (c : Dev nD)

/-- A listed argument is among the arguments. -/
local macro "arg_mem" : tactic =>
  `(tactic| simp only [argRefs, List.mem_cons, eq_self, true_or, or_true])

section
variable (h : Exit3 m c (W42 (F := Ideal) m ρ c))
include h

/-- At the last region's exit an argument's buffer holds the launch contents. -/
theorem arg_W42 (r : Ref sig .tc) (hr : r ∈ argRefs) :
    W42 (F := Ideal) m ρ c (Proc.devRef .tc r) = m ((c : Thread nD τ).loc r) := h.args r hr

/-- The first product gathered at the edges' source nodes: the source rows of `x₄` times the top half. -/
theorem gs_W42 : KStageHead.gath .bf16 (W42 (F := Ideal) m ρ c (Proc.devRef .tc main_v533_1))
      (W42 (F := Ideal) m ρ c (Proc.devRef .tc main_arg18))
    = M.mk2 (M.rows (M.mm (M.x4 (inputsK m c)) (M.top ((inputsK m c).pred_w1 4))) (inputsK m c).src) := by
  rw [show (W42 (F := Ideal) m ρ c (Proc.devRef .tc main_v533_1) : S20000x128.Idx → EReal)
        = M.mk2 (M.mm (M.x4 (inputsK m c)) (M.top ((inputsK m c).pred_w1 4))) from h.p,
    arg_W42 m ρ c h main_arg18 (by arg_mem)]
  exact GatherRows.gather_rows_of gather_S20000x128_S320000x1_S320000x128_1_0_n_n_0_1_1128 _ rfl
    bcast_S320000_S320000x1_0 bcast_S_S320000 _ _

/-- The second product gathered at the edges' target nodes. -/
theorem gd_W42 : KStageHead.gath .bf16 (W42 (F := Ideal) m ρ c (Proc.devRef .tc main_v533_2))
      (W42 (F := Ideal) m ρ c (Proc.devRef .tc main_arg19))
    = M.mk2 (M.rows (M.mm (M.x4 (inputsK m c)) (M.bot ((inputsK m c).pred_w1 4))) (inputsK m c).dst) := by
  rw [show (W42 (F := Ideal) m ρ c (Proc.devRef .tc main_v533_2) : S20000x128.Idx → EReal)
        = M.mk2 (M.mm (M.x4 (inputsK m c)) (M.bot ((inputsK m c).pred_w1 4))) from h.q,
    arg_W42 m ρ c h main_arg19 (by arg_mem)]
  exact GatherRows.gather_rows_of gather_S20000x128_S320000x1_S320000x128_1_0_n_n_0_1_1128 _ rfl
    bcast_S320000_S320000x1_0 bcast_S_S320000 _ _

end

/-- The returned buffer holds the network's score of the launch arguments. -/
theorem final (hfin : (inputsK m c).Finite) (h : Exit3 m c (W42 (F := Ideal) m ρ c)) :
    (W45 (F := Ideal) m ρ c (Proc.devRef .tc main_v565) : S320000x2.Idx → EReal) = M.mk2 (M.score (inputsK m c)) := by
  have hh : (W45 (F := Ideal) m ρ c (Proc.devRef .tc main_v565) : S320000x2.Idx → EReal)
      = M.mk2 (fun e k => M.at2 (W42 (F := Ideal) m ρ c (Proc.devRef .tc main_v434)) e k
          + M.headK
              (M.at2 (KStageHead.gath .bf16 (W42 (F := Ideal) m ρ c (Proc.devRef .tc main_v533_1)) (W42 (F := Ideal) m ρ c (Proc.devRef .tc main_arg18))))
              (M.at2 (KStageHead.gath .bf16 (W42 (F := Ideal) m ρ c (Proc.devRef .tc main_v533_2)) (W42 (F := Ideal) m ρ c (Proc.devRef .tc main_arg19))))
              (fun j => M.at2 (W42 (F := Ideal) m ρ c (Proc.devRef .tc main_arg15)) (4 : Fin 5) j)
              (fun j k => M.at3 (W42 (F := Ideal) m ρ c (Proc.devRef .tc main_arg16)) (4 : Fin 5) j k)
              (fun k => M.at2 (W42 (F := Ideal) m ρ c (Proc.devRef .tc main_arg17)) (4 : Fin 5) k) e k) :=
    KStageHead.head17_v565 (W42 (F := Ideal) m ρ c)
  rw [hh, show (W42 (F := Ideal) m ρ c (Proc.devRef .tc main_v434) : S320000x2.Idx → EReal) = M.mk2 (s3 (inputsK m c)) from h.score,
    gs_W42 m ρ c h, gd_W42 m ρ c h, arg_W42 m ρ c h main_arg15 (by arg_mem), arg_W42 m ρ c h main_arg16 (by arg_mem),
    arg_W42 m ρ c h main_arg17 (by arg_mem), score_eq (inputsK m c), ← headI_K (inputsK m c) 4 (M.x4 (inputsK m c))]
  rfl

end Cert.KChain

end
-- ==== Proof.KChain.lean ====
/-
  The kernel's run read as mathematics: the buffer the result is returned from holds the network's score of the
  twenty argument arrays as launched.
-/
import proofs.«416875_j80633716015165_3_alg».proof.Proof.KChainBase
import proofs.«416875_j80633716015165_3_alg».proof.Proof.KChainFirst
import proofs.«416875_j80633716015165_3_alg».proof.Proof.KChainLa0
import proofs.«416875_j80633716015165_3_alg».proof.Proof.KChainLh0
import proofs.«416875_j80633716015165_3_alg».proof.Proof.KChainLa1
import proofs.«416875_j80633716015165_3_alg».proof.Proof.KChainLh1
import proofs.«416875_j80633716015165_3_alg».proof.Proof.KChainLa2
import proofs.«416875_j80633716015165_3_alg».proof.Proof.KChainLh2
import proofs.«416875_j80633716015165_3_alg».proof.Proof.KChainLa3
import proofs.«416875_j80633716015165_3_alg».proof.Proof.KChainLast

noncomputable section

open Idealize.ShloMosaic Idealize.ShloMosaic.TcCoe Idealize.ShloMosaic.ValueIdx
open Cert.KernelIdeal Cert.KernelIdeal.Gen

namespace Cert.KChain

/-- The returned buffer holds the network's score of the launch arguments, when every float argument is real. -/
theorem result_eq (m : (ℓ : Loc nD τ sig) → Buf (Elt Ideal) ℓ) (ρ : Dev nD → PrngReg) (c : Dev nD)
    (hfin : (inputsK m c).Finite) :
    Gen.W45 (F := Ideal) m ρ c (Proc.devRef .tc main_v565) = M.mk2 (M.score (inputsK m c)) :=
  final m ρ c hfin <| la3 m ρ c hfin <| lh2 m ρ c hfin <| la2 m ρ c hfin <| lh1 m ρ c hfin <| la1 m ρ c hfin <|
    lh0 m ρ c hfin <| la0 m ρ c hfin <| entry0 m ρ c hfin

end Cert.KChain

end
-- ==== Proof.RRun.lean ====
/-
  The reference program's run. Its @main is a straight line: 958 host operations once every call is replaced by
  its callee's operations over that call's buffers (a rectifier is three operations: the zero, its broadcast, the
  maximum; a variance is twenty-two: the column sums, the mean, the squared deviations, their sums, the divisor
  n - ddof, the quotient, and the select on n - ddof > 0 whose other branch is the not-a-number constant).
  `ops` is that line, as the pieces of the computation one after the other: the embedding and the first head
  (`pP`), then four layers alike (`u0` ... `u3`), each: the neighbour sums, the first linear map, its mean, its
  variance, normalise and rectify, the second linear map, mean, variance, normalise and rectify, mean, variance,
  normalise and rectify, the residual, the next head's gathers, its score, the running sum of scores. A piece that
  crosses the end of one of the printed program's windows of sixty statements is two lists. `main_eq` says
  @main is `seq ops`; `run_main` is the library's run of a straight line: every fair execution ends, each
  buffer at the fold of the operations over the launch contents.
-/
import proofs.«416875_j80633716015165_3_alg».proof.ReferenceIdeal
import proofs.«416875_j80633716015165_3_alg».proof.Proof.Gen.ReferenceIdeal
import Idealize.ShloMosaic.Lib.StableHlo.Run

noncomputable section

namespace Cert.RRun

open Cert.ReferenceIdeal Cert.ReferenceIdeal.Gen Idealize.ShloMosaic Idealize.ShloMosaic.TcCoe Idealize.SL.Sem Idealize.ShloMosaic.StableHlo

universe u

/-- A property of every element of two lists holds of every element of their concatenation. -/
theorem forall_app {α : Type u} {p : α → Prop} {xs ys : List α} (hx : xs.Forall p) (hy : ys.Forall p) : (xs ++ ys).Forall p :=
  List.forall_append.2 ⟨hx, hy⟩

/-- The fold over two lines in a row is the second line's fold over the first's. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

variable {F : FTy → Type} [FloatOps F]

/-! ## The pieces: literal lists, each inside one printed window -/

/-- Statements 1 to 4 of @main: 4 operations. -/
abbrev p_emb : List (HloOp τ sig (Elt F)) :=
  [ StableHlo.binary main_arg0 main_arg1 main_v0 ((fun l r => Host.dotGeneral dot_S20000x2_S2x128_S20000x128_1_0_0_1_n_n none l r) : (⟨S20000x2, .f32⟩ : BufTy).Contents (Elt F) → (⟨S2x128, .f32⟩ : BufTy).Contents (Elt F) → (⟨S20000x128, .f32⟩ : BufTy).Contents (Elt F)),
    StableHlo.unary main_arg2 main_v1 (broadcastInDim S1x128 ![1] bcast_S128_S1x128_1 : (⟨S128, .f32⟩ : BufTy).Contents (Elt F) → (⟨S1x128, .f32⟩ : BufTy).Contents (Elt F)),
    StableHlo.unary main_v1 main_v2 (broadcastInDim S20000x128 ![0, 1] bcast_S1x128_S20000x128_0_1 : (⟨S1x128, .f32⟩ : BufTy).Contents (Elt F) → (⟨S20000x128, .f32⟩ : BufTy).Contents (Elt F)),
    StableHlo.binary main_v0 main_v2 main_v3 (addf : (⟨S20000x128, .f32⟩ : BufTy).Contents (Elt F) → (⟨S20000x128, .f32⟩ : BufTy).Contents (Elt F) → (⟨S20000x128, .f32⟩ : BufTy).Contents (Elt F)) ]

theorem p_emb_sub : (p_emb : List (HloOp τ sig (Elt F))).Forall fun op => op.bufs ⊆ tcRefs τ sig :=
  ⟨binary_bufs_sub .., unary_bufs_sub .., unary_bufs_sub .., binary_bufs_sub ..⟩
theorem p_emb_fresh : (p_emb : List (HloOp τ sig (Elt F))).Forall fun op => op.fresh = ∅ :=
  ⟨rfl, rfl, rfl, rfl⟩

/-- Statements 5 to 22 of @main: 18 operations. -/
abbrev p_hg_0 : List (HloOp τ sig (Elt F)) :=
  [ StableHlo.nullary main_c (constantI S_ 32 0#32),
    StableHlo.unary main_c main_v4 (broadcastInDim S320000 ![] bcast_S_S320000 : (⟨S_, .i32⟩ : BufTy).Contents (Elt F) → (⟨S320000, .i32⟩ : BufTy).Contents (Elt F)),
    StableHlo.binary main_arg18 main_v4 main_v5 (cmpi .slt : (⟨S320000, .i32⟩ : BufTy).Contents (Elt F) → (⟨S320000, .i32⟩ : BufTy).Contents (Elt F) → (⟨S320000, .i1⟩ : BufTy).Contents (Elt F)),
    StableHlo.nullary main_c_0 (constantI S_ 32 20000#32),
    StableHlo.unary main_c_0 main_v6 (broadcastInDim S320000 ![] bcast_S_S320000 : (⟨S_, .i32⟩ : BufTy).Contents (Elt F) → (⟨S320000, .i32⟩ : BufTy).Contents (Elt F)),
    StableHlo.binary main_arg18 main_v6 main_v7 (addi : (⟨S320000, .i32⟩ : BufTy).Contents (Elt F) → (⟨S320000, .i32⟩ : BufTy).Contents (Elt F) → (⟨S320000, .i32⟩ : BufTy).Contents (Elt F)),
    StableHlo.ternary main_v5 main_v7 main_arg18 main_v8 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v8 main_v9 (broadcastInDim S320000x1 ![0] bcast_S320000_S320000x1_0 : (⟨S320000, .i32⟩ : BufTy).Contents (Elt F) → (⟨S320000x1, .i32⟩ : BufTy).Contents (Elt F)),
    StableHlo.binary main_v3 main_v9 main_v10 ((fun x i => Host.gather gather_S20000x128_S320000x1_S320000x128_1_0_n_n_0_1_1128 x i) : (⟨S20000x128, .f32⟩ : BufTy).Contents (Elt F) → (⟨S320000x1, .i32⟩ : BufTy).Contents (Elt F) → (⟨S320000x128, .f32⟩ : BufTy).Contents (Elt F)),
    StableHlo.nullary main_c_1 (constantI S_ 32 0#32),
    StableHlo.unary main_c_1 main_v11 (broadcastInDim S320000 ![] bcast_S_S320000 : (⟨S_, .i32⟩ : BufTy).Contents (Elt F) → (⟨S320000, .i32⟩ : BufTy).Contents (Elt F)),
    StableHlo.binary main_arg19 main_v11 main_v12 (cmpi .slt : (⟨S320000, .i32⟩ : BufTy).Contents (Elt F) → (⟨S320000, .i32⟩ : BufTy).Contents (Elt F) → (⟨S320000, .i1⟩ : BufTy).Contents (Elt F)),
    StableHlo.nullary main_c_2 (constantI S_ 32 20000#32),
    StableHlo.unary main_c_2 main_v13 (broadcastInDim S320000 ![] bcast_S_S320000 : (⟨S_, .i32⟩ : BufTy).Contents (Elt F) → (⟨S320000, .i32⟩ : BufTy).Contents (Elt F)),
    StableHlo.binary main_arg19 main_v13 main_v14 (addi : (⟨S320000, .i32⟩ : BufTy).Contents (Elt F) → (⟨S320000, .i32⟩ : BufTy).Contents (Elt F) → (⟨S320000, .i32⟩ : BufTy).Contents (Elt F)),
    StableHlo.ternary main_v12 main_v14 main_arg19 main_v15 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v15 main_v16 (broadcastInDim S320000x1 ![0] bcast_S320000_S320000x1_0 : (⟨S320000, .i32⟩ : BufTy).Contents (Elt F) → (⟨S320000x1, .i32⟩ : BufTy).Contents (Elt F)),
    StableHlo.binary main_v3 main_v16 main_v17 ((fun x i => Host.gather gather_S20000x128_S320000x1_S320000x128_1_0_n_n_0_1_1128 x i) : (⟨S20000x128, .f32⟩ : BufTy).Contents (Elt F) → (⟨S320000x1, .i32⟩ : BufTy).Contents (Elt F) → (⟨S320000x128, .f32⟩ : BufTy).Contents (Elt F)) ]

theorem p_hg_0_sub : (p_hg_0 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..⟩
theorem p_hg_0_fresh : (p_hg_0 : List (HloOp τ sig (Elt F))).Forall fun op => op.fresh = ∅ :=
  ⟨rfl, rfl, rfl, rfl, rfl, rfl, rfl, rfl, rfl, rfl, rfl, rfl, rfl, rfl, rfl, rfl, rfl, rfl⟩

/-- Statements 23 to 40 of @main: 20 operations. -/
abbrev p_hs_0 : List (HloOp τ sig (Elt F)) :=
  [ StableHlo.binary main_v10 main_v17 main_v18 ((fun a b => concatenate S320000x256 1 [⟨S320000x128, a⟩, ⟨S320000x128, b⟩] concatenates_S320000x128_S320000x128_S320000x256_d1) : (⟨S320000x128, .f32⟩ : BufTy).Contents (Elt F) → (⟨S320000x128, .f32⟩ : BufTy).Contents (Elt F) → (⟨S320000x256, .f32⟩ : BufTy).Contents (Elt F)),
    StableHlo.unary main_arg14 main_v19 ((extractStridedSlice S1x256x128 ![0, 0, 0] · slices_S5x256x128_S1x256x128_0_0_0) : (⟨S5x256x128, .f32⟩ : BufTy).Contents (Elt F) → (⟨S1x256x128, .f32⟩ : BufTy).Contents (Elt F)),
    StableHlo.reshape main_v19 main_v20 rfl shapeCasts_S1x256x128_S256x128,
    StableHlo.binary main_v18 main_v20 main_v21 ((fun l r => Host.dotGeneral dot_S320000x256_S256x128_S320000x128_1_0_0_1_n_n none l r) : (⟨S320000x256, .f32⟩ : BufTy).Contents (Elt F) → (⟨S256x128, .f32⟩ : BufTy).Contents (Elt F) → (⟨S320000x128, .f32⟩ : BufTy).Contents (Elt F)),
    StableHlo.unary main_arg15 main_v22 ((extractStridedSlice S1x128 ![0, 0] · slices_S5x128_S1x128_0_0) : (⟨S5x128, .f32⟩ : BufTy).Contents (Elt F) → (⟨S1x128, .f32⟩ : BufTy).Contents (Elt F)),
    StableHlo.reshape main_v22 main_v23 rfl shapeCasts_S1x128_S128,
    StableHlo.unary main_v23 main_v24 (broadcastInDim S1x128 ![1] bcast_S128_S1x128_1 : (⟨S128, .f32⟩ : BufTy).Contents (Elt F) → (⟨S1x128, .f32⟩ : BufTy).Contents (Elt F)),
    StableHlo.unary main_v24 main_v25 (broadcastInDim S320000x128 ![0, 1] bcast_S1x128_S320000x128_0_1 : (⟨S1x128, .f32⟩ : BufTy).Contents (Elt F) → (⟨S320000x128, .f32⟩ : BufTy).Contents (Elt F)),
    StableHlo.binary main_v21 main_v25 main_v26 (addf : (⟨S320000x128, .f32⟩ : BufTy).Contents (Elt F) → (⟨S320000x128, .f32⟩ : BufTy).Contents (Elt F) → (⟨S320000x128, .f32⟩ : BufTy).Contents (Elt F)),
    StableHlo.TRef.nullary main_call0.cst (constant S_ .f32 0x00000000#32),
    StableHlo.TRef.unary main_call0.cst main_call0.v0 (broadcastInDim S320000x128 ![] bcast_S_S320000x128),
    StableHlo.TRef.binary (.of main_v26) main_call0.v0 main_call0.v1 maximumf,
    StableHlo.unary main_arg16 main_v28 ((extractStridedSlice S1x128x2 ![0, 0, 0] · slices_S5x128x2_S1x128x2_0_0_0) : (⟨S5x128x2, .f32⟩ : BufTy).Contents (Elt F) → (⟨S1x128x2, .f32⟩ : BufTy).Contents (Elt F)),
    StableHlo.reshape main_v28 main_v29 rfl shapeCasts_S1x128x2_S128x2,
    StableHlo.binary main_v27 main_v29 main_v30 ((fun l r => Host.dotGeneral dot_S320000x128_S128x2_S320000x2_1_0_0_1_n_n none l r) : (⟨S320000x128, .f32⟩ : BufTy).Contents (Elt F) → (⟨S128x2, .f32⟩ : BufTy).Contents (Elt F) → (⟨S320000x2, .f32⟩ : BufTy).Contents (Elt F)),
    StableHlo.unary main_arg17 main_v31 ((extractStridedSlice S1x2 ![0, 0] · slices_S5x2_S1x2_0_0) : (⟨S5x2, .f32⟩ : BufTy).Contents (Elt F) → (⟨S1x2, .f32⟩ : BufTy).Contents (Elt F)),
    StableHlo.reshape main_v31 main_v32 rfl shapeCasts_S1x2_S2,
    StableHlo.unary main_v32 main_v33 (broadcastInDim S1x2 ![1] bcast_S2_S1x2_1 : (⟨S2, .f32⟩ : BufTy).Contents (Elt F) → (⟨S1x2, .f32⟩ : BufTy).Contents (Elt F)),
    StableHlo.unary main_v33 main_v34 (broadcastInDim S320000x2 ![0, 1] bcast_S1x2_S320000x2_0_1 : (⟨S1x2, .f32⟩ : BufTy).Contents (Elt F) → (⟨S320000x2, .f32⟩ : BufTy).Contents (Elt F)),
    StableHlo.binary main_v30 main_v34 main_v35 (addf : (⟨S320000x2, .f32⟩ : BufTy).Contents (Elt F) → (⟨S320000x2, .f32⟩ : BufTy).Contents (Elt F) → (⟨S320000x2, .f32⟩ : BufTy).Contents (Elt F)) ]

theorem p_hs_0_sub : (p_hs_0 : List (HloOp τ sig (Elt F))).Forall fun op => op.bufs ⊆ tcRefs τ sig :=
  ⟨binary_bufs_sub .., unary_bufs_sub .., reshape_bufs_sub .., binary_bufs_sub .., unary_bufs_sub .., reshape_bufs_sub ..,
    unary_bufs_sub .., unary_bufs_sub .., binary_bufs_sub .., nullary_bufs_sub .., unary_bufs_sub .., binary_bufs_sub ..,
    unary_bufs_sub .., reshape_bufs_sub .., binary_bufs_sub .., unary_bufs_sub .., reshape_bufs_sub .., unary_bufs_sub ..,
    unary_bufs_sub .., binary_bufs_sub ..⟩
theorem p_hs_0_fresh : (p_hs_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

/-- Statements 41 to 53 of @main: 13 operations. -/
abbrev p_ng_0 : List (HloOp τ sig (Elt F)) :=
  [ StableHlo.nullary main_c_3 (constantI S_ 32 0#32),
    StableHlo.unary main_c_3 main_v36 (broadcastInDim S320000 ![] bcast_S_S320000 : (⟨S_, .i32⟩ : BufTy).Contents (Elt F) → (⟨S320000, .i32⟩ : BufTy).Contents (Elt F)),
    StableHlo.binary main_arg18 main_v36 main_v37 (cmpi .slt : (⟨S320000, .i32⟩ : BufTy).Contents (Elt F) → (⟨S320000, .i32⟩ : BufTy).Contents (Elt F) → (⟨S320000, .i1⟩ : BufTy).Contents (Elt F)),
    StableHlo.nullary main_c_4 (constantI S_ 32 20000#32),
    StableHlo.unary main_c_4 main_v38 (broadcastInDim S320000 ![] bcast_S_S320000 : (⟨S_, .i32⟩ : BufTy).Contents (Elt F) → (⟨S320000, .i32⟩ : BufTy).Contents (Elt F)),
    StableHlo.binary main_arg18 main_v38 main_v39 (addi : (⟨S320000, .i32⟩ : BufTy).Contents (Elt F) → (⟨S320000, .i32⟩ : BufTy).Contents (Elt F) → (⟨S320000, .i32⟩ : BufTy).Contents (Elt F)),
    StableHlo.ternary main_v37 main_v39 main_arg18 main_v40 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v40 main_v41 (broadcastInDim S320000x1 ![0] bcast_S320000_S320000x1_0 : (⟨S320000, .i32⟩ : BufTy).Contents (Elt F) → (⟨S320000x1, .i32⟩ : BufTy).Contents (Elt F)),
    StableHlo.binary main_v3 main_v41 main_v42 ((fun x i => Host.gather gather_S20000x128_S320000x1_S320000x128_1_0_n_n_0_1_1128 x i) : (⟨S20000x128, .f32⟩ : BufTy).Contents (Elt F) → (⟨S320000x1, .i32⟩ : BufTy).Contents (Elt F) → (⟨S320000x128, .f32⟩ : BufTy).Contents (Elt F)),
    StableHlo.nullary main_cst (constant S_ .f32 0x00000000#32),
    StableHlo.unary main_cst main_v43 (broadcastInDim S20000x128 ![] bcast_S_S20000x128 : (⟨S_, .f32⟩ : BufTy).Contents (Elt F) → (⟨S20000x128, .f32⟩ : BufTy).Contents (Elt F)),
    StableHlo.unary main_arg19 main_v44 (broadcastInDim S320000x1 ![0] bcast_S320000_S320000x1_0 : (⟨S320000, .i32⟩ : BufTy).Contents (Elt F) → (⟨S320000x1, .i32⟩ : BufTy).Contents (Elt F)),
    StableHlo.ternary main_v43 main_v44 main_v42 main_v45 ((fun x i u => Host.scatterAdd scatter_S20000x128_S320000x1_S320000x128_1_0_0_1 x i u) : (⟨S20000x128, .f32⟩ : BufTy).Contents (Elt F) → (⟨S320000x1, .i32⟩ : BufTy).Contents (Elt F) → (⟨S320000x128, .f32⟩ : BufTy).Contents (Elt F) → (⟨S20000x128, .f32⟩ : BufTy).Contents (Elt F)) ]

theorem p_ng_0_sub : (p_ng_0 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub ..⟩
theorem p_ng_0_fresh : (p_ng_0 : List (HloOp τ sig (Elt F))).Forall fun op => op.fresh = ∅ :=
  ⟨rfl, rfl, rfl, rfl, rfl, rfl, rfl, rfl, rfl, rfl, rfl, rfl, rfl⟩

/-- Statements 54 to 60 of @main: 7 operations. -/
abbrev p_l1_0_a : List (HloOp τ sig (Elt F)) :=
  [ StableHlo.unary main_arg3 main_v46 ((extractStridedSlice S1 ![0] · slices_S4_S1_0) : (⟨S4, .f32⟩ : BufTy).Contents (Elt F) → (⟨S1, .f32⟩ : BufTy).Contents (Elt F)),
    StableHlo.reshape main_v46 main_v47 rfl shapeCasts_S1_S_,
    StableHlo.nullary main_cst_5 (constant S_ .f32 0x3F800000#32),
    StableHlo.binary main_cst_5 main_v47 main_v48 (addf : (⟨S_, .f32⟩ : BufTy).Contents (Elt F) → (⟨S_, .f32⟩ : BufTy).Contents (Elt F) → (⟨S_, .f32⟩ : BufTy).Contents (Elt F)),
    StableHlo.unary main_v48 main_v49 (broadcastInDim S20000x128 ![] bcast_S_S20000x128 : (⟨S_, .f32⟩ : BufTy).Contents (Elt F) → (⟨S20000x128, .f32⟩ : BufTy).Contents (Elt F)),
    StableHlo.binary main_v49 main_v3 main_v50 (mulf : (⟨S20000x128, .f32⟩ : BufTy).Contents (Elt F) → (⟨S20000x128, .f32⟩ : BufTy).Contents (Elt F) → (⟨S20000x128, .f32⟩ : BufTy).Contents (Elt F)),
    StableHlo.binary main_v50 main_v45 main_v51 (addf : (⟨S20000x128, .f32⟩ : BufTy).Contents (Elt F) → (⟨S20000x128, .f32⟩ : BufTy).Contents (Elt F) → (⟨S20000x128, .f32⟩ : BufTy).Contents (Elt F)) ]

theorem p_l1_0_a_sub : (p_l1_0_a : List (HloOp τ sig (Elt F))).Forall fun op => op.bufs ⊆ tcRefs τ sig :=
  ⟨unary_bufs_sub .., reshape_bufs_sub .., nullary_bufs_sub .., binary_bufs_sub .., unary_bufs_sub .., binary_bufs_sub ..,
    binary_bufs_sub ..⟩
theorem p_l1_0_a_fresh : (p_l1_0_a : List (HloOp τ sig (Elt F))).Forall fun op => op.fresh = ∅ :=
  ⟨rfl, rfl, rfl, rfl, rfl, rfl, rfl⟩

/-- Statements 61 to 68 of @main: 8 operations. -/
abbrev p_l1_0_b : List (HloOp τ sig (Elt F)) :=
  [ StableHlo.unary main_arg4 main_v52 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v52 main_v53 rfl shapeCasts_S1x128x128_S128x128,
    StableHlo.binary main_v51 main_v53 main_v54 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    StableHlo.unary main_arg5 main_v55 ((extractStridedSlice S1x128 ![0, 0] · slices_S4x128_S1x128_0_0) : (⟨S4x128, .f32⟩ : BufTy).Contents (Elt F) → (⟨S1x128, .f32⟩ : BufTy).Contents (Elt F)),
    StableHlo.reshape main_v55 main_v56 rfl shapeCasts_S1x128_S128,
    StableHlo.unary main_v56 main_v57 (broadcastInDim S1x128 ![1] bcast_S128_S1x128_1 : (⟨S128, .f32⟩ : BufTy).Contents (Elt F) → (⟨S1x128, .f32⟩ : BufTy).Contents (Elt F)),
    StableHlo.unary main_v57 main_v58 (broadcastInDim S20000x128 ![0, 1] bcast_S1x128_S20000x128_0_1 : (⟨S1x128, .f32⟩ : BufTy).Contents (Elt F) → (⟨S20000x128, .f32⟩ : BufTy).Contents (Elt F)),
    StableHlo.binary main_v54 main_v58 main_v59 (addf : (⟨S20000x128, .f32⟩ : BufTy).Contents (Elt F) → (⟨S20000x128, .f32⟩ : BufTy).Contents (Elt F) → (⟨S20000x128, .f32⟩ : BufTy).Contents (Elt F)) ]

theorem p_l1_0_b_sub : (p_l1_0_b : List (HloOp τ sig (Elt F))).Forall fun op => op.bufs ⊆ tcRefs τ sig :=
  ⟨unary_bufs_sub .., reshape_bufs_sub .., binary_bufs_sub .., unary_bufs_sub .., reshape_bufs_sub .., unary_bufs_sub ..,
    unary_bufs_sub .., binary_bufs_sub ..⟩
theorem p_l1_0_b_fresh : (p_l1_0_b : List (HloOp τ sig (Elt F))).Forall fun op => op.fresh = ∅ :=
  ⟨rfl, rfl, rfl, rfl, rfl, rfl, rfl, rfl⟩

/-- Statements 69 to 77 of @main: 9 operations. -/
abbrev p_m1_0 : List (HloOp τ sig (Elt F)) :=
  [ StableHlo.unary main_arg6 main_v60 ((extractStridedSlice S1x128 ![0, 0] · slices_S4x128_S1x128_0_0) : (⟨S4x128, .f32⟩ : BufTy).Contents (Elt F) → (⟨S1x128, .f32⟩ : BufTy).Contents (Elt F)),
    StableHlo.reshape main_v60 main_v61 rfl shapeCasts_S1x128_S128,
    StableHlo.unary main_arg7 main_v62 ((extractStridedSlice S1x128 ![0, 0] · slices_S4x128_S1x128_0_0) : (⟨S4x128, .f32⟩ : BufTy).Contents (Elt F) → (⟨S1x128, .f32⟩ : BufTy).Contents (Elt F)),
    StableHlo.reshape main_v62 main_v63 rfl shapeCasts_S1x128_S128,
    StableHlo.nullary main_cst_6 (constant S_ .f32 0x00000000#32),
    StableHlo.binary main_v59 main_cst_6 main_v64 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    StableHlo.nullary main_cst_7 (constant S_ .f32 0x469C4000#32),
    StableHlo.unary main_cst_7 main_v65 (broadcastInDim S128 ![] bcast_S_S128 : (⟨S_, .f32⟩ : BufTy).Contents (Elt F) → (⟨S128, .f32⟩ : BufTy).Contents (Elt F)),
    StableHlo.binary main_v64 main_v65 main_v66 (Host.divf : (⟨S128, .f32⟩ : BufTy).Contents (Elt F) → (⟨S128, .f32⟩ : BufTy).Contents (Elt F) → (⟨S128, .f32⟩ : BufTy).Contents (Elt F)) ]

theorem p_m1_0_sub : (p_m1_0 : List (HloOp τ sig (Elt F))).Forall fun op => op.bufs ⊆ tcRefs τ sig :=
  ⟨unary_bufs_sub .., reshape_bufs_sub .., unary_bufs_sub .., reshape_bufs_sub .., nullary_bufs_sub .., binary_bufs_sub ..,
    nullary_bufs_sub .., unary_bufs_sub .., binary_bufs_sub ..⟩
theorem p_m1_0_fresh : (p_m1_0 : List (HloOp τ sig (Elt F))).Forall fun op => op.fresh = ∅ :=
  ⟨rfl, rfl, rfl, rfl, rfl, rfl, rfl, rfl, rfl⟩

/-- Statements 78 to 79 of @main: 23 operations. -/
abbrev p_v1_0 : List (HloOp τ sig (Elt F)) :=
  [ StableHlo.nullary main_c_8 (constantI S_ 32 0#32),
    StableHlo.TRef.nullary main_call1.cst (constant S_ .f32 0x00000000#32),
    StableHlo.TRef.binary (.of main_v59) main_call1.cst main_call1.v0 (fun x v => Host.reduceAdd x v reducesTo_S20000x128_S128_d0 h_S_),
    StableHlo.TRef.unary main_call1.v0 main_call1.v1 (broadcastInDim S1x128 ![1] bcast_S128_S1x128_1),
    StableHlo.TRef.nullary main_call1.cst_0 (constant S_ .f32 0x469C4000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S20000x128 ![0, 1] bcast_S1x128_S20000x128_0_1),
    StableHlo.TRef.binary (.of main_v59) main_call1.v4 main_call1.v5 subf,
    StableHlo.TRef.binary main_call1.v5 main_call1.v5 main_call1.v6 mulf,
    StableHlo.TRef.unary (.of main_c_8) main_call1.v7 (sitofp .f32),
    StableHlo.TRef.nullary main_call1.cst_1 (constant S_ .f32 0x469C4000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S20000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b) ]

theorem p_v1_0_sub : (p_v1_0 : List (HloOp τ sig (Elt F))).Forall fun op => op.bufs ⊆ tcRefs τ sig :=
  ⟨nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub ..⟩
theorem p_v1_0_fresh : (p_v1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- Statements 80 to 96 of @main: 19 operations. -/
abbrev p_n1_0 : List (HloOp τ sig (Elt F)) :=
  [ StableHlo.unary main_v66 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S20000x128 ![0, 1] bcast_S1x128_S20000x128_0_1 : (⟨S1x128, .f32⟩ : BufTy).Contents (Elt F) → (⟨S20000x128, .f32⟩ : BufTy).Contents (Elt F)),
    StableHlo.binary main_v59 main_v69 main_v70 (subf : (⟨S20000x128, .f32⟩ : BufTy).Contents (Elt F) → (⟨S20000x128, .f32⟩ : BufTy).Contents (Elt F) → (⟨S20000x128, .f32⟩ : BufTy).Contents (Elt F)),
    StableHlo.nullary main_cst_9 (constant S_ .f32 0x3727C5AC#32),
    StableHlo.unary main_cst_9 main_v71 (broadcastInDim S128 ![] bcast_S_S128 : (⟨S_, .f32⟩ : BufTy).Contents (Elt F) → (⟨S128, .f32⟩ : BufTy).Contents (Elt F)),
    StableHlo.binary main_v67 main_v71 main_v72 (addf : (⟨S128, .f32⟩ : BufTy).Contents (Elt F) → (⟨S128, .f32⟩ : BufTy).Contents (Elt F) → (⟨S128, .f32⟩ : BufTy).Contents (Elt F)),
    StableHlo.unary main_v72 main_v73 (Host.rsqrt : (⟨S128, .f32⟩ : BufTy).Contents (Elt F) → (⟨S128, .f32⟩ : BufTy).Contents (Elt F)),
    StableHlo.unary main_v73 main_v74 (broadcastInDim S1x128 ![1] bcast_S128_S1x128_1 : (⟨S128, .f32⟩ : BufTy).Contents (Elt F) → (⟨S1x128, .f32⟩ : BufTy).Contents (Elt F)),
    StableHlo.unary main_v74 main_v75 (broadcastInDim S20000x128 ![0, 1] bcast_S1x128_S20000x128_0_1 : (⟨S1x128, .f32⟩ : BufTy).Contents (Elt F) → (⟨S20000x128, .f32⟩ : BufTy).Contents (Elt F)),
    StableHlo.binary main_v70 main_v75 main_v76 (mulf : (⟨S20000x128, .f32⟩ : BufTy).Contents (Elt F) → (⟨S20000x128, .f32⟩ : BufTy).Contents (Elt F) → (⟨S20000x128, .f32⟩ : BufTy).Contents (Elt F)),
    StableHlo.unary main_v61 main_v77 (broadcastInDim S1x128 ![1] bcast_S128_S1x128_1 : (⟨S128, .f32⟩ : BufTy).Contents (Elt F) → (⟨S1x128, .f32⟩ : BufTy).Contents (Elt F)),
    StableHlo.unary main_v77 main_v78 (broadcastInDim S20000x128 ![0, 1] bcast_S1x128_S20000x128_0_1 : (⟨S1x128, .f32⟩ : BufTy).Contents (Elt F) → (⟨S20000x128, .f32⟩ : BufTy).Contents (Elt F)),
    StableHlo.binary main_v76 main_v78 main_v79 (mulf : (⟨S20000x128, .f32⟩ : BufTy).Contents (Elt F) → (⟨S20000x128, .f32⟩ : BufTy).Contents (Elt F) → (⟨S20000x128, .f32⟩ : BufTy).Contents (Elt F)),
    StableHlo.unary main_v63 main_v80 (broadcastInDim S1x128 ![1] bcast_S128_S1x128_1 : (⟨S128, .f32⟩ : BufTy).Contents (Elt F) → (⟨S1x128, .f32⟩ : BufTy).Contents (Elt F)),
    StableHlo.unary main_v80 main_v81 (broadcastInDim S20000x128 ![0, 1] bcast_S1x128_S20000x128_0_1 : (⟨S1x128, .f32⟩ : BufTy).Contents (Elt F) → (⟨S20000x128, .f32⟩ : BufTy).Contents (Elt F)),
    StableHlo.binary main_v79 main_v81 main_v82 (addf : (⟨S20000x128, .f32⟩ : BufTy).Contents (Elt F) → (⟨S20000x128, .f32⟩ : BufTy).Contents (Elt F) → (⟨S20000x128, .f32⟩ : BufTy).Contents (Elt F)),
    StableHlo.TRef.nullary main_call2.cst (constant S_ .f32 0x00000000#32),
    StableHlo.TRef.unary main_call2.cst main_call2.v0 (broadcastInDim S20000x128 ![] bcast_S_S20000x128),
    StableHlo.TRef.binary (.of main_v82) main_call2.v0 main_call2.v1 maximumf ]

theorem p_n1_0_sub : (p_n1_0 : List (HloOp τ sig (Elt F))).Forall fun op => op.bufs ⊆ tcRefs τ sig :=
  ⟨unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub ..⟩
theorem p_n1_0_fresh : (p_n1_0 : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- Statements 97 to 104 of @main: 8 operations. -/
abbrev p_l2_0 : List (HloOp τ sig (Elt F)) :=
  [ StableHlo.unary main_arg8 main_v84 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v84 main_v85 rfl shapeCasts_S1x128x128_S128x128,
    StableHlo.binary main_v83 main_v85 main_v86 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    StableHlo.unary main_arg9 main_v87 ((extractStridedSlice S1x128 ![0, 0] · slices_S4x128_S1x128_0_0) : (⟨S4x128, .f32⟩ : BufTy).Contents (Elt F) → (⟨S1x128, .f32⟩ : BufTy).Contents (Elt F)),
    StableHlo.reshape main_v87 main_v88 rfl shapeCasts_S1x128_S128,
    StableHlo.unary main_v88 main_v89 (broadcastInDim S1x128 ![1] bcast_S128_S1x128_1 : (⟨S128, .f32⟩ : BufTy).Contents (Elt F) → (⟨S1x128, .f32⟩ : BufTy).Contents (Elt F)),
    StableHlo.unary main_v89 main_v90 (broadcastInDim S20000x128 ![0, 1] bcast_S1x128_S20000x128_0_1 : (⟨S1x128, .f32⟩ : BufTy).Contents (Elt F) → (⟨S20000x128, .f32⟩ : BufTy).Contents (Elt F)),
    StableHlo.binary main_v86 main_v90 main_v91 (addf : (⟨S20000x128, .f32⟩ : BufTy).Contents (Elt F) → (⟨S20000x128, .f32⟩ : BufTy).Contents (Elt F) → (⟨S20000x128, .f32⟩ : BufTy).Contents (Elt F)) ]

theorem p_l2_0_sub : (p_l2_0 : List (HloOp τ sig (Elt F))).Forall fun op => op.bufs ⊆ tcRefs τ sig :=
  ⟨unary_bufs_sub .., reshape_bufs_sub .., binary_bufs_sub .., unary_bufs_sub .., reshape_bufs_sub .., unary_bufs_sub ..,
    unary_bufs_sub .., binary_bufs_sub ..⟩
theorem p_l2_0_fresh : (p_l2_0 : List (HloOp τ sig (Elt F))).Forall fun op => op.fresh = ∅ :=
  ⟨rfl, rfl, rfl, rfl, rfl, rfl, rfl, rfl⟩

/-- Statements 105 to 113 of @main: 9 operations. -/
abbrev p_m2_0 : List (HloOp τ sig (Elt F)) :=
  [ StableHlo.unary main_arg10 main_v92 ((extractStridedSlice S1x128 ![0, 0] · slices_S4x128_S1x128_0_0) : (⟨S4x128, .f32⟩ : BufTy).Contents (Elt F) → (⟨S1x128, .f32⟩ : BufTy).Contents (Elt F)),
    StableHlo.reshape main_v92 main_v93 rfl shapeCasts_S1x128_S128,
    StableHlo.unary main_arg11 main_v94 ((extractStridedSlice S1x128 ![0, 0] · slices_S4x128_S1x128_0_0) : (⟨S4x128, .f32⟩ : BufTy).Contents (Elt F) → (⟨S1x128, .f32⟩ : BufTy).Contents (Elt F)),
    StableHlo.reshape main_v94 main_v95 rfl shapeCasts_S1x128_S128,
    StableHlo.nullary main_cst_10 (constant S_ .f32 0x00000000#32),
    StableHlo.binary main_v91 main_cst_10 main_v96 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    StableHlo.nullary main_cst_11 (constant S_ .f32 0x469C4000#32),
    StableHlo.unary main_cst_11 main_v97 (broadcastInDim S128 ![] bcast_S_S128 : (⟨S_, .f32⟩ : BufTy).Contents (Elt F) → (⟨S128, .f32⟩ : BufTy).Contents (Elt F)),
    StableHlo.binary main_v96 main_v97 main_v98 (Host.divf : (⟨S128, .f32⟩ : BufTy).Contents (Elt F) → (⟨S128, .f32⟩ : BufTy).Contents (Elt F) → (⟨S128, .f32⟩ : BufTy).Contents (Elt F)) ]

theorem p_m2_0_sub : (p_m2_0 : List (HloOp τ sig (Elt F))).Forall fun op => op.bufs ⊆ tcRefs τ sig :=
  ⟨unary_bufs_sub .., reshape_bufs_sub .., unary_bufs_sub .., reshape_bufs_sub .., nullary_bufs_sub .., binary_bufs_sub ..,
    nullary_bufs_sub .., unary_bufs_sub .., binary_bufs_sub ..⟩
theorem p_m2_0_fresh : (p_m2_0 : List (HloOp τ sig (Elt F))).Forall fun op => op.fresh = ∅ :=
  ⟨rfl, rfl, rfl, rfl, rfl, rfl, rfl, rfl, rfl⟩

/-- Statements 114 to 115 of @main: 23 operations. -/
abbrev p_v2_0 : List (HloOp τ sig (Elt F)) :=
  [ StableHlo.nullary main_c_12 (constantI S_ 32 0#32),
    StableHlo.TRef.nullary main_call3.cst (constant S_ .f32 0x00000000#32),
    StableHlo.TRef.binary (.of main_v91) main_call3.cst main_call3.v0 (fun x v => Host.reduceAdd x v reducesTo_S20000x128_S128_d0 h_S_),
    StableHlo.TRef.unary main_call3.v0 main_call3.v1 (broadcastInDim S1x128 ![1] bcast_S128_S1x128_1),
    StableHlo.TRef.nullary main_call3.cst_0 (constant S_ .f32 0x469C4000#32),
    StableHlo.TRef.unary main_call3.cst_0 main_call3.v2 (broadcastInDim S1x128 ![] bcast_S_S1x128),
    StableHlo.TRef.binary main_call3.v1 main_call3.v2 main_call3.v3 Host.divf,
    StableHlo.TRef.unary main_call3.v3 main_call3.v4 (broadcastInDim S20000x128 ![0, 1] bcast_S1x128_S20000x128_0_1),
    StableHlo.TRef.binary (.of main_v91) main_call3.v4 main_call3.v5 subf,
    StableHlo.TRef.binary main_call3.v5 main_call3.v5 main_call3.v6 mulf,
    StableHlo.TRef.unary (.of main_c_12) main_call3.v7 (sitofp .f32),
    StableHlo.TRef.nullary main_call3.cst_1 (constant S_ .f32 0x469C4000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S20000x128_S128_d0 h_S_),
    StableHlo.TRef.unary main_call3.v8 main_call3.v10 (broadcastInDim S128 ![] bcast_S_S128),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S128 ![] bcast_S_S128),
    StableHlo.TRef.ternary main_call3.v12 main_call3.v11 main_call3.call0.v1 main_call3.call0.v2 (fun p a b => select (broadcastInDim S128 ![] bcast_S_S128 p) a b) ]

theorem p_v2_0_sub : (p_v2_0 : List (HloOp τ sig (Elt F))).Forall fun op => op.bufs ⊆ tcRefs τ sig :=
  ⟨nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub ..⟩
theorem p_v2_0_fresh : (p_v2_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- Statements 116 to 120 of @main: 5 operations. -/
abbrev p_n2_0_a : List (HloOp τ sig (Elt F)) :=
  [ StableHlo.unary main_v98 main_v100 (broadcastInDim S1x128 ![1] bcast_S128_S1x128_1 : (⟨S128, .f32⟩ : BufTy).Contents (Elt F) → (⟨S1x128, .f32⟩ : BufTy).Contents (Elt F)),
    StableHlo.unary main_v100 main_v101 (broadcastInDim S20000x128 ![0, 1] bcast_S1x128_S20000x128_0_1 : (⟨S1x128, .f32⟩ : BufTy).Contents (Elt F) → (⟨S20000x128, .f32⟩ : BufTy).Contents (Elt F)),
    StableHlo.binary main_v91 main_v101 main_v102 (subf : (⟨S20000x128, .f32⟩ : BufTy).Contents (Elt F) → (⟨S20000x128, .f32⟩ : BufTy).Contents (Elt F) → (⟨S20000x128, .f32⟩ : BufTy).Contents (Elt F)),
    StableHlo.nullary main_cst_13 (constant S_ .f32 0x3727C5AC#32),
    StableHlo.unary main_cst_13 main_v103 (broadcastInDim S128 ![] bcast_S_S128 : (⟨S_, .f32⟩ : BufTy).Contents (Elt F) → (⟨S128, .f32⟩ : BufTy).Contents (Elt F)) ]

theorem p_n2_0_a_sub : (p_n2_0_a : List (HloOp τ sig (Elt F))).Forall fun op => op.bufs ⊆ tcRefs τ sig :=
  ⟨unary_bufs_sub .., unary_bufs_sub .., binary_bufs_sub .., nullary_bufs_sub .., unary_bufs_sub ..⟩
theorem p_n2_0_a_fresh : (p_n2_0_a : List (HloOp τ sig (Elt F))).Forall fun op => op.fresh = ∅ :=
  ⟨rfl, rfl, rfl, rfl, rfl⟩

/-- Statements 121 to 132 of @main: 14 operations. -/
abbrev p_n2_0_b : List (HloOp τ sig (Elt F)) :=
  [ StableHlo.binary main_v99 main_v103 main_v104 (addf : (⟨S128, .f32⟩ : BufTy).Contents (Elt F) → (⟨S128, .f32⟩ : BufTy).Contents (Elt F) → (⟨S128, .f32⟩ : BufTy).Contents (Elt F)),
    StableHlo.unary main_v104 main_v105 (Host.rsqrt : (⟨S128, .f32⟩ : BufTy).Contents (Elt F) → (⟨S128, .f32⟩ : BufTy).Contents (Elt F)),
    StableHlo.unary main_v105 main_v106 (broadcastInDim S1x128 ![1] bcast_S128_S1x128_1 : (⟨S128, .f32⟩ : BufTy).Contents (Elt F) → (⟨S1x128, .f32⟩ : BufTy).Contents (Elt F)),
    StableHlo.unary main_v106 main_v107 (broadcastInDim S20000x128 ![0, 1] bcast_S1x128_S20000x128_0_1 : (⟨S1x128, .f32⟩ : BufTy).Contents (Elt F) → (⟨S20000x128, .f32⟩ : BufTy).Contents (Elt F)),
    StableHlo.binary main_v102 main_v107 main_v108 (mulf : (⟨S20000x128, .f32⟩ : BufTy).Contents (Elt F) → (⟨S20000x128, .f32⟩ : BufTy).Contents (Elt F) → (⟨S20000x128, .f32⟩ : BufTy).Contents (Elt F)),
    StableHlo.unary main_v93 main_v109 (broadcastInDim S1x128 ![1] bcast_S128_S1x128_1 : (⟨S128, .f32⟩ : BufTy).Contents (Elt F) → (⟨S1x128, .f32⟩ : BufTy).Contents (Elt F)),
    StableHlo.unary main_v109 main_v110 (broadcastInDim S20000x128 ![0, 1] bcast_S1x128_S20000x128_0_1 : (⟨S1x128, .f32⟩ : BufTy).Contents (Elt F) → (⟨S20000x128, .f32⟩ : BufTy).Contents (Elt F)),
    StableHlo.binary main_v108 main_v110 main_v111 (mulf : (⟨S20000x128, .f32⟩ : BufTy).Contents (Elt F) → (⟨S20000x128, .f32⟩ : BufTy).Contents (Elt F) → (⟨S20000x128, .f32⟩ : BufTy).Contents (Elt F)),
    StableHlo.unary main_v95 main_v112 (broadcastInDim S1x128 ![1] bcast_S128_S1x128_1 : (⟨S128, .f32⟩ : BufTy).Contents (Elt F) → (⟨S1x128, .f32⟩ : BufTy).Contents (Elt F)),
    StableHlo.unary main_v112 main_v113 (broadcastInDim S20000x128 ![0, 1] bcast_S1x128_S20000x128_0_1 : (⟨S1x128, .f32⟩ : BufTy).Contents (Elt F) → (⟨S20000x128, .f32⟩ : BufTy).Contents (Elt F)),
    StableHlo.binary main_v111 main_v113 main_v114 (addf : (⟨S20000x128, .f32⟩ : BufTy).Contents (Elt F) → (⟨S20000x128, .f32⟩ : BufTy).Contents (Elt F) → (⟨S20000x128, .f32⟩ : BufTy).Contents (Elt F)),
    StableHlo.TRef.nullary main_call4.cst (constant S_ .f32 0x00000000#32),
    StableHlo.TRef.unary main_call4.cst main_call4.v0 (broadcastInDim S20000x128 ![] bcast_S_S20000x128),
    StableHlo.TRef.binary (.of main_v114) main_call4.v0 main_call4.v1 maximumf ]

theorem p_n2_0_b_sub : (p_n2_0_b : List (HloOp τ sig (Elt F))).Forall fun op => op.bufs ⊆ tcRefs τ sig :=
  ⟨binary_bufs_sub .., unary_bufs_sub .., unary_bufs_sub .., unary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub ..⟩
theorem p_n2_0_b_fresh : (p_n2_0_b : List (HloOp τ sig (Elt F))).Forall fun op => op.fresh = ∅ :=
  ⟨rfl, rfl, rfl, rfl, rfl, rfl, rfl, rfl, rfl, rfl, rfl, rfl, rfl, rfl⟩

/-- Statements 133 to 141 of @main: 9 operations. -/
abbrev p_m3_0 : List (HloOp τ sig (Elt F)) :=
  [ StableHlo.unary main_arg12 main_v116 ((extractStridedSlice S1x128 ![0, 0] · slices_S4x128_S1x128_0_0) : (⟨S4x128, .f32⟩ : BufTy).Contents (Elt F) → (⟨S1x128, .f32⟩ : BufTy).Contents (Elt F)),
    StableHlo.reshape main_v116 main_v117 rfl shapeCasts_S1x128_S128,
    StableHlo.unary main_arg13 main_v118 ((extractStridedSlice S1x128 ![0, 0] · slices_S4x128_S1x128_0_0) : (⟨S4x128, .f32⟩ : BufTy).Contents (Elt F) → (⟨S1x128, .f32⟩ : BufTy).Contents (Elt F)),
    StableHlo.reshape main_v118 main_v119 rfl shapeCasts_S1x128_S128,
    StableHlo.nullary main_cst_14 (constant S_ .f32 0x00000000#32),
    StableHlo.binary main_v115 main_cst_14 main_v120 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    StableHlo.nullary main_cst_15 (constant S_ .f32 0x469C4000#32),
    StableHlo.unary main_cst_15 main_v121 (broadcastInDim S128 ![] bcast_S_S128 : (⟨S_, .f32⟩ : BufTy).Contents (Elt F) → (⟨S128, .f32⟩ : BufTy).Contents (Elt F)),
    StableHlo.binary main_v120 main_v121 main_v122 (Host.divf : (⟨S128, .f32⟩ : BufTy).Contents (Elt F) → (⟨S128, .f32⟩ : BufTy).Contents (Elt F) → (⟨S128, .f32⟩ : BufTy).Contents (Elt F)) ]

theorem p_m3_0_sub : (p_m3_0 : List (HloOp τ sig (Elt F))).Forall fun op => op.bufs ⊆ tcRefs τ sig :=
  ⟨unary_bufs_sub .., reshape_bufs_sub .., unary_bufs_sub .., reshape_bufs_sub .., nullary_bufs_sub .., binary_bufs_sub ..,
    nullary_bufs_sub .., unary_bufs_sub .., binary_bufs_sub ..⟩
theorem p_m3_0_fresh : (p_m3_0 : List (HloOp τ sig (Elt F))).Forall fun op => op.fresh = ∅ :=
  ⟨rfl, rfl, rfl, rfl, rfl, rfl, rfl, rfl, rfl⟩

/-- Statements 142 to 143 of @main: 23 operations. -/
abbrev p_v3_0 : List (HloOp τ sig (Elt F)) :=
  [ StableHlo.nullary main_c_16 (constantI S_ 32 0#32),
    StableHlo.TRef.nullary main_call5.cst (constant S_ .f32 0x00000000#32),
    StableHlo.TRef.binary (.of main_v115) main_call5.cst main_call5.v0 (fun x v => Host.reduceAdd x v reducesTo_S20000x128_S128_d0 h_S_),
    StableHlo.TRef.unary main_call5.v0 main_call5.v1 (broadcastInDim S1x128 ![1] bcast_S128_S1x128_1),
    StableHlo.TRef.nullary main_call5.cst_0 (constant S_ .f32 0x469C4000#32),
    StableHlo.TRef.unary main_call5.cst_0 main_call5.v2 (broadcastInDim S1x128 ![] bcast_S_S1x128),
    StableHlo.TRef.binary main_call5.v1 main_call5.v2 main_call5.v3 Host.divf,
    StableHlo.TRef.unary main_call5.v3 main_call5.v4 (broadcastInDim S20000x128 ![0, 1] bcast_S1x128_S20000x128_0_1),
    StableHlo.TRef.binary (.of main_v115) main_call5.v4 main_call5.v5 subf,
    StableHlo.TRef.binary main_call5.v5 main_call5.v5 main_call5.v6 mulf,
    StableHlo.TRef.unary (.of main_c_16) main_call5.v7 (sitofp .f32),
    StableHlo.TRef.nullary main_call5.cst_1 (constant S_ .f32 0x469C4000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S20000x128_S128_d0 h_S_),
    StableHlo.TRef.unary main_call5.v8 main_call5.v10 (broadcastInDim S128 ![] bcast_S_S128),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S128 ![] bcast_S_S128),
    StableHlo.TRef.ternary main_call5.v12 main_call5.v11 main_call5.call0.v1 main_call5.call0.v2 (fun p a b => select (broadcastInDim S128 ![] bcast_S_S128 p) a b) ]

theorem p_v3_0_sub : (p_v3_0 : List (HloOp τ sig (Elt F))).Forall fun op => op.bufs ⊆ tcRefs τ sig :=
  ⟨nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub ..⟩
theorem p_v3_0_fresh : (p_v3_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- Statements 144 to 160 of @main: 19 operations. -/
abbrev p_n3_0 : List (HloOp τ sig (Elt F)) :=
  [ StableHlo.unary main_v122 main_v124 (broadcastInDim S1x128 ![1] bcast_S128_S1x128_1 : (⟨S128, .f32⟩ : BufTy).Contents (Elt F) → (⟨S1x128, .f32⟩ : BufTy).Contents (Elt F)),
    StableHlo.unary main_v124 main_v125 (broadcastInDim S20000x128 ![0, 1] bcast_S1x128_S20000x128_0_1 : (⟨S1x128, .f32⟩ : BufTy).Contents (Elt F) → (⟨S20000x128, .f32⟩ : BufTy).Contents (Elt F)),
    StableHlo.binary main_v115 main_v125 main_v126 (subf : (⟨S20000x128, .f32⟩ : BufTy).Contents (Elt F) → (⟨S20000x128, .f32⟩ : BufTy).Contents (Elt F) → (⟨S20000x128, .f32⟩ : BufTy).Contents (Elt F)),
    StableHlo.nullary main_cst_17 (constant S_ .f32 0x3727C5AC#32),
    StableHlo.unary main_cst_17 main_v127 (broadcastInDim S128 ![] bcast_S_S128 : (⟨S_, .f32⟩ : BufTy).Contents (Elt F) → (⟨S128, .f32⟩ : BufTy).Contents (Elt F)),
    StableHlo.binary main_v123 main_v127 main_v128 (addf : (⟨S128, .f32⟩ : BufTy).Contents (Elt F) → (⟨S128, .f32⟩ : BufTy).Contents (Elt F) → (⟨S128, .f32⟩ : BufTy).Contents (Elt F)),
    StableHlo.unary main_v128 main_v129 (Host.rsqrt : (⟨S128, .f32⟩ : BufTy).Contents (Elt F) → (⟨S128, .f32⟩ : BufTy).Contents (Elt F)),
    StableHlo.unary main_v129 main_v130 (broadcastInDim S1x128 ![1] bcast_S128_S1x128_1 : (⟨S128, .f32⟩ : BufTy).Contents (Elt F) → (⟨S1x128, .f32⟩ : BufTy).Contents (Elt F)),
    StableHlo.unary main_v130 main_v131 (broadcastInDim S20000x128 ![0, 1] bcast_S1x128_S20000x128_0_1 : (⟨S1x128, .f32⟩ : BufTy).Contents (Elt F) → (⟨S20000x128, .f32⟩ : BufTy).Contents (Elt F)),
    StableHlo.binary main_v126 main_v131 main_v132 (mulf : (⟨S20000x128, .f32⟩ : BufTy).Contents (Elt F) → (⟨S20000x128, .f32⟩ : BufTy).Contents (Elt F) → (⟨S20000x128, .f32⟩ : BufTy).Contents (Elt F)),
    StableHlo.unary main_v117 main_v133 (broadcastInDim S1x128 ![1] bcast_S128_S1x128_1 : (⟨S128, .f32⟩ : BufTy).Contents (Elt F) → (⟨S1x128, .f32⟩ : BufTy).Contents (Elt F)),
    StableHlo.unary main_v133 main_v134 (broadcastInDim S20000x128 ![0, 1] bcast_S1x128_S20000x128_0_1 : (⟨S1x128, .f32⟩ : BufTy).Contents (Elt F) → (⟨S20000x128, .f32⟩ : BufTy).Contents (Elt F)),
    StableHlo.binary main_v132 main_v134 main_v135 (mulf : (⟨S20000x128, .f32⟩ : BufTy).Contents (Elt F) → (⟨S20000x128, .f32⟩ : BufTy).Contents (Elt F) → (⟨S20000x128, .f32⟩ : BufTy).Contents (Elt F)),
    StableHlo.unary main_v119 main_v136 (broadcastInDim S1x128 ![1] bcast_S128_S1x128_1 : (⟨S128, .f32⟩ : BufTy).Contents (Elt F) → (⟨S1x128, .f32⟩ : BufTy).Contents (Elt F)),
    StableHlo.unary main_v136 main_v137 (broadcastInDim S20000x128 ![0, 1] bcast_S1x128_S20000x128_0_1 : (⟨S1x128, .f32⟩ : BufTy).Contents (Elt F) → (⟨S20000x128, .f32⟩ : BufTy).Contents (Elt F)),
    StableHlo.binary main_v135 main_v137 main_v138 (addf : (⟨S20000x128, .f32⟩ : BufTy).Contents (Elt F) → (⟨S20000x128, .f32⟩ : BufTy).Contents (Elt F) → (⟨S20000x128, .f32⟩ : BufTy).Contents (Elt F)),
    StableHlo.TRef.nullary main_call6.cst (constant S_ .f32 0x00000000#32),
    StableHlo.TRef.unary main_call6.cst main_call6.v0 (broadcastInDim S20000x128 ![] bcast_S_S20000x128),
    StableHlo.TRef.binary (.of main_v138) main_call6.v0 main_call6.v1 maximumf ]

theorem p_n3_0_sub : (p_n3_0 : List (HloOp τ sig (Elt F))).Forall fun op => op.bufs ⊆ tcRefs τ sig :=
  ⟨unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub ..⟩
theorem p_n3_0_fresh : (p_n3_0 : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- Statements 161 to 161 of @main: 1 operation. -/
abbrev p_rs_0 : List (HloOp τ sig (Elt F)) :=
  [ StableHlo.binary main_v3 main_v139 main_v140 (addf : (⟨S20000x128, .f32⟩ : BufTy).Contents (Elt F) → (⟨S20000x128, .f32⟩ : BufTy).Contents (Elt F) → (⟨S20000x128, .f32⟩ : BufTy).Contents (Elt F)) ]

theorem p_rs_0_sub : (p_rs_0 : List (HloOp τ sig (Elt F))).Forall fun op => op.bufs ⊆ tcRefs τ sig :=
  binary_bufs_sub ..
theorem p_rs_0_fresh : (p_rs_0 : List (HloOp τ sig (Elt F))).Forall fun op => op.fresh = ∅ :=
  rfl

/-- Statements 162 to 179 of @main: 18 operations. -/
abbrev p_hg_1 : List (HloOp τ sig (Elt F)) :=
  [ StableHlo.nullary main_c_18 (constantI S_ 32 0#32),
    StableHlo.unary main_c_18 main_v141 (broadcastInDim S320000 ![] bcast_S_S320000 : (⟨S_, .i32⟩ : BufTy).Contents (Elt F) → (⟨S320000, .i32⟩ : BufTy).Contents (Elt F)),
    StableHlo.binary main_arg18 main_v141 main_v142 (cmpi .slt : (⟨S320000, .i32⟩ : BufTy).Contents (Elt F) → (⟨S320000, .i32⟩ : BufTy).Contents (Elt F) → (⟨S320000, .i1⟩ : BufTy).Contents (Elt F)),
    StableHlo.nullary main_c_19 (constantI S_ 32 20000#32),
    StableHlo.unary main_c_19 main_v143 (broadcastInDim S320000 ![] bcast_S_S320000 : (⟨S_, .i32⟩ : BufTy).Contents (Elt F) → (⟨S320000, .i32⟩ : BufTy).Contents (Elt F)),
    StableHlo.binary main_arg18 main_v143 main_v144 (addi : (⟨S320000, .i32⟩ : BufTy).Contents (Elt F) → (⟨S320000, .i32⟩ : BufTy).Contents (Elt F) → (⟨S320000, .i32⟩ : BufTy).Contents (Elt F)),
    StableHlo.ternary main_v142 main_v144 main_arg18 main_v145 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v145 main_v146 (broadcastInDim S320000x1 ![0] bcast_S320000_S320000x1_0 : (⟨S320000, .i32⟩ : BufTy).Contents (Elt F) → (⟨S320000x1, .i32⟩ : BufTy).Contents (Elt F)),
    StableHlo.binary main_v140 main_v146 main_v147 ((fun x i => Host.gather gather_S20000x128_S320000x1_S320000x128_1_0_n_n_0_1_1128 x i) : (⟨S20000x128, .f32⟩ : BufTy).Contents (Elt F) → (⟨S320000x1, .i32⟩ : BufTy).Contents (Elt F) → (⟨S320000x128, .f32⟩ : BufTy).Contents (Elt F)),
    StableHlo.nullary main_c_20 (constantI S_ 32 0#32),
    StableHlo.unary main_c_20 main_v148 (broadcastInDim S320000 ![] bcast_S_S320000 : (⟨S_, .i32⟩ : BufTy).Contents (Elt F) → (⟨S320000, .i32⟩ : BufTy).Contents (Elt F)),
    StableHlo.binary main_arg19 main_v148 main_v149 (cmpi .slt : (⟨S320000, .i32⟩ : BufTy).Contents (Elt F) → (⟨S320000, .i32⟩ : BufTy).Contents (Elt F) → (⟨S320000, .i1⟩ : BufTy).Contents (Elt F)),
    StableHlo.nullary main_c_21 (constantI S_ 32 20000#32),
    StableHlo.unary main_c_21 main_v150 (broadcastInDim S320000 ![] bcast_S_S320000 : (⟨S_, .i32⟩ : BufTy).Contents (Elt F) → (⟨S320000, .i32⟩ : BufTy).Contents (Elt F)),
    StableHlo.binary main_arg19 main_v150 main_v151 (addi : (⟨S320000, .i32⟩ : BufTy).Contents (Elt F) → (⟨S320000, .i32⟩ : BufTy).Contents (Elt F) → (⟨S320000, .i32⟩ : BufTy).Contents (Elt F)),
    StableHlo.ternary main_v149 main_v151 main_arg19 main_v152 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v152 main_v153 (broadcastInDim S320000x1 ![0] bcast_S320000_S320000x1_0 : (⟨S320000, .i32⟩ : BufTy).Contents (Elt F) → (⟨S320000x1, .i32⟩ : BufTy).Contents (Elt F)),
    StableHlo.binary main_v140 main_v153 main_v154 ((fun x i => Host.gather gather_S20000x128_S320000x1_S320000x128_1_0_n_n_0_1_1128 x i) : (⟨S20000x128, .f32⟩ : BufTy).Contents (Elt F) → (⟨S320000x1, .i32⟩ : BufTy).Contents (Elt F) → (⟨S320000x128, .f32⟩ : BufTy).Contents (Elt F)) ]

theorem p_hg_1_sub : (p_hg_1 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..⟩
theorem p_hg_1_fresh : (p_hg_1 : List (HloOp τ sig (Elt F))).Forall fun op => op.fresh = ∅ :=
  ⟨rfl, rfl, rfl, rfl, rfl, rfl, rfl, rfl, rfl, rfl, rfl, rfl, rfl, rfl, rfl, rfl, rfl, rfl⟩

/-- Statements 180 to 180 of @main: 1 operation. -/
abbrev p_hs_1_a : List (HloOp τ sig (Elt F)) :=
  [ StableHlo.binary main_v147 main_v154 main_v155 ((fun a b => concatenate S320000x256 1 [⟨S320000x128, a⟩, ⟨S320000x128, b⟩] concatenates_S320000x128_S320000x128_S320000x256_d1) : (⟨S320000x128, .f32⟩ : BufTy).Contents (Elt F) → (⟨S320000x128, .f32⟩ : BufTy).Contents (Elt F) → (⟨S320000x256, .f32⟩ : BufTy).Contents (Elt F)) ]

theorem p_hs_1_a_sub : (p_hs_1_a : List (HloOp τ sig (Elt F))).Forall fun op => op.bufs ⊆ tcRefs τ sig :=
  binary_bufs_sub ..
theorem p_hs_1_a_fresh : (p_hs_1_a : List (HloOp τ sig (Elt F))).Forall fun op => op.fresh = ∅ :=
  rfl

/-- Statements 181 to 197 of @main: 19 operations. -/
abbrev p_hs_1_b : List (HloOp τ sig (Elt F)) :=
  [ StableHlo.unary main_arg14 main_v156 ((extractStridedSlice S1x256x128 ![1, 0, 0] · slices_S5x256x128_S1x256x128_1_0_0) : (⟨S5x256x128, .f32⟩ : BufTy).Contents (Elt F) → (⟨S1x256x128, .f32⟩ : BufTy).Contents (Elt F)),
    StableHlo.reshape main_v156 main_v157 rfl shapeCasts_S1x256x128_S256x128,
    StableHlo.binary main_v155 main_v157 main_v158 ((fun l r => Host.dotGeneral dot_S320000x256_S256x128_S320000x128_1_0_0_1_n_n none l r) : (⟨S320000x256, .f32⟩ : BufTy).Contents (Elt F) → (⟨S256x128, .f32⟩ : BufTy).Contents (Elt F) → (⟨S320000x128, .f32⟩ : BufTy).Contents (Elt F)),
    StableHlo.unary main_arg15 main_v159 ((extractStridedSlice S1x128 ![1, 0] · slices_S5x128_S1x128_1_0) : (⟨S5x128, .f32⟩ : BufTy).Contents (Elt F) → (⟨S1x128, .f32⟩ : BufTy).Contents (Elt F)),
    StableHlo.reshape main_v159 main_v160 rfl shapeCasts_S1x128_S128,
    StableHlo.unary main_v160 main_v161 (broadcastInDim S1x128 ![1] bcast_S128_S1x128_1 : (⟨S128, .f32⟩ : BufTy).Contents (Elt F) → (⟨S1x128, .f32⟩ : BufTy).Contents (Elt F)),
    StableHlo.unary main_v161 main_v162 (broadcastInDim S320000x128 ![0, 1] bcast_S1x128_S320000x128_0_1 : (⟨S1x128, .f32⟩ : BufTy).Contents (Elt F) → (⟨S320000x128, .f32⟩ : BufTy).Contents (Elt F)),
    StableHlo.binary main_v158 main_v162 main_v163 (addf : (⟨S320000x128, .f32⟩ : BufTy).Contents (Elt F) → (⟨S320000x128, .f32⟩ : BufTy).Contents (Elt F) → (⟨S320000x128, .f32⟩ : BufTy).Contents (Elt F)),
    StableHlo.TRef.nullary main_call7.cst (constant S_ .f32 0x00000000#32),
    StableHlo.TRef.unary main_call7.cst main_call7.v0 (broadcastInDim S320000x128 ![] bcast_S_S320000x128),
    StableHlo.TRef.binary (.of main_v163) main_call7.v0 main_call7.v1 maximumf,
    StableHlo.unary main_arg16 main_v165 ((extractStridedSlice S1x128x2 ![1, 0, 0] · slices_S5x128x2_S1x128x2_1_0_0) : (⟨S5x128x2, .f32⟩ : BufTy).Contents (Elt F) → (⟨S1x128x2, .f32⟩ : BufTy).Contents (Elt F)),
    StableHlo.reshape main_v165 main_v166 rfl shapeCasts_S1x128x2_S128x2,
    StableHlo.binary main_v164 main_v166 main_v167 ((fun l r => Host.dotGeneral dot_S320000x128_S128x2_S320000x2_1_0_0_1_n_n none l r) : (⟨S320000x128, .f32⟩ : BufTy).Contents (Elt F) → (⟨S128x2, .f32⟩ : BufTy).Contents (Elt F) → (⟨S320000x2, .f32⟩ : BufTy).Contents (Elt F)),
    StableHlo.unary main_arg17 main_v168 ((extractStridedSlice S1x2 ![1, 0] · slices_S5x2_S1x2_1_0) : (⟨S5x2, .f32⟩ : BufTy).Contents (Elt F) → (⟨S1x2, .f32⟩ : BufTy).Contents (Elt F)),
    StableHlo.reshape main_v168 main_v169 rfl shapeCasts_S1x2_S2,
    StableHlo.unary main_v169 main_v170 (broadcastInDim S1x2 ![1] bcast_S2_S1x2_1 : (⟨S2, .f32⟩ : BufTy).Contents (Elt F) → (⟨S1x2, .f32⟩ : BufTy).Contents (Elt F)),
    StableHlo.unary main_v170 main_v171 (broadcastInDim S320000x2 ![0, 1] bcast_S1x2_S320000x2_0_1 : (⟨S1x2, .f32⟩ : BufTy).Contents (Elt F) → (⟨S320000x2, .f32⟩ : BufTy).Contents (Elt F)),
    StableHlo.binary main_v167 main_v171 main_v172 (addf : (⟨S320000x2, .f32⟩ : BufTy).Contents (Elt F) → (⟨S320000x2, .f32⟩ : BufTy).Contents (Elt F) → (⟨S320000x2, .f32⟩ : BufTy).Contents (Elt F)) ]

theorem p_hs_1_b_sub : (p_hs_1_b : List (HloOp τ sig (Elt F))).Forall fun op => op.bufs ⊆ tcRefs τ sig :=
  ⟨unary_bufs_sub .., reshape_bufs_sub .., binary_bufs_sub .., unary_bufs_sub .., reshape_bufs_sub .., unary_bufs_sub ..,
    unary_bufs_sub .., binary_bufs_sub .., nullary_bufs_sub .., unary_bufs_sub .., binary_bufs_sub .., unary_bufs_sub ..,
    reshape_bufs_sub .., binary_bufs_sub .., unary_bufs_sub .., reshape_bufs_sub .., unary_bufs_sub .., unary_bufs_sub ..,
    binary_bufs_sub ..⟩
theorem p_hs_1_b_fresh : (p_hs_1_b : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- Statements 198 to 198 of @main: 1 operation. -/
abbrev p_ad_1 : List (HloOp τ sig (Elt F)) :=
  [ StableHlo.binary main_v35 main_v172 main_v173 (addf : (⟨S320000x2, .f32⟩ : BufTy).Contents (Elt F) → (⟨S320000x2, .f32⟩ : BufTy).Contents (Elt F) → (⟨S320000x2, .f32⟩ : BufTy).Contents (Elt F)) ]

theorem p_ad_1_sub : (p_ad_1 : List (HloOp τ sig (Elt F))).Forall fun op => op.bufs ⊆ tcRefs τ sig :=
  binary_bufs_sub ..
theorem p_ad_1_fresh : (p_ad_1 : List (HloOp τ sig (Elt F))).Forall fun op => op.fresh = ∅ :=
  rfl

/-- Statements 199 to 211 of @main: 13 operations. -/
abbrev p_ng_1 : List (HloOp τ sig (Elt F)) :=
  [ StableHlo.nullary main_c_22 (constantI S_ 32 0#32),
    StableHlo.unary main_c_22 main_v174 (broadcastInDim S320000 ![] bcast_S_S320000 : (⟨S_, .i32⟩ : BufTy).Contents (Elt F) → (⟨S320000, .i32⟩ : BufTy).Contents (Elt F)),
    StableHlo.binary main_arg18 main_v174 main_v175 (cmpi .slt : (⟨S320000, .i32⟩ : BufTy).Contents (Elt F) → (⟨S320000, .i32⟩ : BufTy).Contents (Elt F) → (⟨S320000, .i1⟩ : BufTy).Contents (Elt F)),
    StableHlo.nullary main_c_23 (constantI S_ 32 20000#32),
    StableHlo.unary main_c_23 main_v176 (broadcastInDim S320000 ![] bcast_S_S320000 : (⟨S_, .i32⟩ : BufTy).Contents (Elt F) → (⟨S320000, .i32⟩ : BufTy).Contents (Elt F)),
    StableHlo.binary main_arg18 main_v176 main_v177 (addi : (⟨S320000, .i32⟩ : BufTy).Contents (Elt F) → (⟨S320000, .i32⟩ : BufTy).Contents (Elt F) → (⟨S320000, .i32⟩ : BufTy).Contents (Elt F)),
    StableHlo.ternary main_v175 main_v177 main_arg18 main_v178 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v178 main_v179 (broadcastInDim S320000x1 ![0] bcast_S320000_S320000x1_0 : (⟨S320000, .i32⟩ : BufTy).Contents (Elt F) → (⟨S320000x1, .i32⟩ : BufTy).Contents (Elt F)),
    StableHlo.binary main_v140 main_v179 main_v180 ((fun x i => Host.gather gather_S20000x128_S320000x1_S320000x128_1_0_n_n_0_1_1128 x i) : (⟨S20000x128, .f32⟩ : BufTy).Contents (Elt F) → (⟨S320000x1, .i32⟩ : BufTy).Contents (Elt F) → (⟨S320000x128, .f32⟩ : BufTy).Contents (Elt F)),
    StableHlo.nullary main_cst_24 (constant S_ .f32 0x00000000#32),
    StableHlo.unary main_cst_24 main_v181 (broadcastInDim S20000x128 ![] bcast_S_S20000x128 : (⟨S_, .f32⟩ : BufTy).Contents (Elt F) → (⟨S20000x128, .f32⟩ : BufTy).Contents (Elt F)),
    StableHlo.unary main_arg19 main_v182 (broadcastInDim S320000x1 ![0] bcast_S320000_S320000x1_0 : (⟨S320000, .i32⟩ : BufTy).Contents (Elt F) → (⟨S320000x1, .i32⟩ : BufTy).Contents (Elt F)),
    StableHlo.ternary main_v181 main_v182 main_v180 main_v183 ((fun x i u => Host.scatterAdd scatter_S20000x128_S320000x1_S320000x128_1_0_0_1 x i u) : (⟨S20000x128, .f32⟩ : BufTy).Contents (Elt F) → (⟨S320000x1, .i32⟩ : BufTy).Contents (Elt F) → (⟨S320000x128, .f32⟩ : BufTy).Contents (Elt F) → (⟨S20000x128, .f32⟩ : BufTy).Contents (Elt F)) ]

theorem p_ng_1_sub : (p_ng_1 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub ..⟩
theorem p_ng_1_fresh : (p_ng_1 : List (HloOp τ sig (Elt F))).Forall fun op => op.fresh = ∅ :=
  ⟨rfl, rfl, rfl, rfl, rfl, rfl, rfl, rfl, rfl, rfl, rfl, rfl, rfl⟩

/-- Statements 212 to 226 of @main: 15 operations. -/
abbrev p_l1_1 : List (HloOp τ sig (Elt F)) :=
  [ StableHlo.unary main_arg3 main_v184 ((extractStridedSlice S1 ![1] · slices_S4_S1_1) : (⟨S4, .f32⟩ : BufTy).Contents (Elt F) → (⟨S1, .f32⟩ : BufTy).Contents (Elt F)),
    StableHlo.reshape main_v184 main_v185 rfl shapeCasts_S1_S_,
    StableHlo.nullary main_cst_25 (constant S_ .f32 0x3F800000#32),
    StableHlo.binary main_cst_25 main_v185 main_v186 (addf : (⟨S_, .f32⟩ : BufTy).Contents (Elt F) → (⟨S_, .f32⟩ : BufTy).Contents (Elt F) → (⟨S_, .f32⟩ : BufTy).Contents (Elt F)),
    StableHlo.unary main_v186 main_v187 (broadcastInDim S20000x128 ![] bcast_S_S20000x128 : (⟨S_, .f32⟩ : BufTy).Contents (Elt F) → (⟨S20000x128, .f32⟩ : BufTy).Contents (Elt F)),
    StableHlo.binary main_v187 main_v140 main_v188 (mulf : (⟨S20000x128, .f32⟩ : BufTy).Contents (Elt F) → (⟨S20000x128, .f32⟩ : BufTy).Contents (Elt F) → (⟨S20000x128, .f32⟩ : BufTy).Contents (Elt F)),
    StableHlo.binary main_v188 main_v183 main_v189 (addf : (⟨S20000x128, .f32⟩ : BufTy).Contents (Elt F) → (⟨S20000x128, .f32⟩ : BufTy).Contents (Elt F) → (⟨S20000x128, .f32⟩ : BufTy).Contents (Elt F)),
    StableHlo.unary main_arg4 main_v190 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v190 main_v191 rfl shapeCasts_S1x128x128_S128x128,
    StableHlo.binary main_v189 main_v191 main_v192 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    StableHlo.unary main_arg5 main_v193 ((extractStridedSlice S1x128 ![1, 0] · slices_S4x128_S1x128_1_0) : (⟨S4x128, .f32⟩ : BufTy).Contents (Elt F) → (⟨S1x128, .f32⟩ : BufTy).Contents (Elt F)),
    StableHlo.reshape main_v193 main_v194 rfl shapeCasts_S1x128_S128,
    StableHlo.unary main_v194 main_v195 (broadcastInDim S1x128 ![1] bcast_S128_S1x128_1 : (⟨S128, .f32⟩ : BufTy).Contents (Elt F) → (⟨S1x128, .f32⟩ : BufTy).Contents (Elt F)),
    StableHlo.unary main_v195 main_v196 (broadcastInDim S20000x128 ![0, 1] bcast_S1x128_S20000x128_0_1 : (⟨S1x128, .f32⟩ : BufTy).Contents (Elt F) → (⟨S20000x128, .f32⟩ : BufTy).Contents (Elt F)),
    StableHlo.binary main_v192 main_v196 main_v197 (addf : (⟨S20000x128, .f32⟩ : BufTy).Contents (Elt F) → (⟨S20000x128, .f32⟩ : BufTy).Contents (Elt F) → (⟨S20000x128, .f32⟩ : BufTy).Contents (Elt F)) ]

theorem p_l1_1_sub : (p_l1_1 : List (HloOp τ sig (Elt F))).Forall fun op => op.bufs ⊆ tcRefs τ sig :=
  ⟨unary_bufs_sub .., reshape_bufs_sub .., nullary_bufs_sub .., binary_bufs_sub .., unary_bufs_sub .., binary_bufs_sub ..,
    binary_bufs_sub .., unary_bufs_sub .., reshape_bufs_sub .., binary_bufs_sub .., unary_bufs_sub .., reshape_bufs_sub ..,
    unary_bufs_sub .., unary_bufs_sub .., binary_bufs_sub ..⟩
theorem p_l1_1_fresh : (p_l1_1 : List (HloOp τ sig (Elt F))).Forall fun op => op.fresh = ∅ :=
  ⟨rfl, rfl, rfl, rfl, rfl, rfl, rfl, rfl, rfl, rfl, rfl, rfl, rfl, rfl, rfl⟩

/-- Statements 227 to 235 of @main: 9 operations. -/
abbrev p_m1_1 : List (HloOp τ sig (Elt F)) :=
  [ StableHlo.unary main_arg6 main_v198 ((extractStridedSlice S1x128 ![1, 0] · slices_S4x128_S1x128_1_0) : (⟨S4x128, .f32⟩ : BufTy).Contents (Elt F) → (⟨S1x128, .f32⟩ : BufTy).Contents (Elt F)),
    StableHlo.reshape main_v198 main_v199 rfl shapeCasts_S1x128_S128,
    StableHlo.unary main_arg7 main_v200 ((extractStridedSlice S1x128 ![1, 0] · slices_S4x128_S1x128_1_0) : (⟨S4x128, .f32⟩ : BufTy).Contents (Elt F) → (⟨S1x128, .f32⟩ : BufTy).Contents (Elt F)),
    StableHlo.reshape main_v200 main_v201 rfl shapeCasts_S1x128_S128,
    StableHlo.nullary main_cst_26 (constant S_ .f32 0x00000000#32),
    StableHlo.binary main_v197 main_cst_26 main_v202 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    StableHlo.nullary main_cst_27 (constant S_ .f32 0x469C4000#32),
    StableHlo.unary main_cst_27 main_v203 (broadcastInDim S128 ![] bcast_S_S128 : (⟨S_, .f32⟩ : BufTy).Contents (Elt F) → (⟨S128, .f32⟩ : BufTy).Contents (Elt F)),
    StableHlo.binary main_v202 main_v203 main_v204 (Host.divf : (⟨S128, .f32⟩ : BufTy).Contents (Elt F) → (⟨S128, .f32⟩ : BufTy).Contents (Elt F) → (⟨S128, .f32⟩ : BufTy).Contents (Elt F)) ]

theorem p_m1_1_sub : (p_m1_1 : List (HloOp τ sig (Elt F))).Forall fun op => op.bufs ⊆ tcRefs τ sig :=
  ⟨unary_bufs_sub .., reshape_bufs_sub .., unary_bufs_sub .., reshape_bufs_sub .., nullary_bufs_sub .., binary_bufs_sub ..,
    nullary_bufs_sub .., unary_bufs_sub .., binary_bufs_sub ..⟩
theorem p_m1_1_fresh : (p_m1_1 : List (HloOp τ sig (Elt F))).Forall fun op => op.fresh = ∅ :=
  ⟨rfl, rfl, rfl, rfl, rfl, rfl, rfl, rfl, rfl⟩

/-- Statements 236 to 237 of @main: 23 operations. -/
abbrev p_v1_1 : List (HloOp τ sig (Elt F)) :=
  [ StableHlo.nullary main_c_28 (constantI S_ 32 0#32),
    StableHlo.TRef.nullary main_call8.cst (constant S_ .f32 0x00000000#32),
    StableHlo.TRef.binary (.of main_v197) main_call8.cst main_call8.v0 (fun x v => Host.reduceAdd x v reducesTo_S20000x128_S128_d0 h_S_),
    StableHlo.TRef.unary main_call8.v0 main_call8.v1 (broadcastInDim S1x128 ![1] bcast_S128_S1x128_1),
    StableHlo.TRef.nullary main_call8.cst_0 (constant S_ .f32 0x469C4000#32),
    StableHlo.TRef.unary main_call8.cst_0 main_call8.v2 (broadcastInDim S1x128 ![] bcast_S_S1x128),
    StableHlo.TRef.binary main_call8.v1 main_call8.v2 main_call8.v3 Host.divf,
    StableHlo.TRef.unary main_call8.v3 main_call8.v4 (broadcastInDim S20000x128 ![0, 1] bcast_S1x128_S20000x128_0_1),
    StableHlo.TRef.binary (.of main_v197) main_call8.v4 main_call8.v5 subf,
    StableHlo.TRef.binary main_call8.v5 main_call8.v5 main_call8.v6 mulf,
    StableHlo.TRef.unary (.of main_c_28) main_call8.v7 (sitofp .f32),
    StableHlo.TRef.nullary main_call8.cst_1 (constant S_ .f32 0x469C4000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S20000x128_S128_d0 h_S_),
    StableHlo.TRef.unary main_call8.v8 main_call8.v10 (broadcastInDim S128 ![] bcast_S_S128),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S128 ![] bcast_S_S128),
    StableHlo.TRef.ternary main_call8.v12 main_call8.v11 main_call8.call0.v1 main_call8.call0.v2 (fun p a b => select (broadcastInDim S128 ![] bcast_S_S128 p) a b) ]

theorem p_v1_1_sub : (p_v1_1 : List (HloOp τ sig (Elt F))).Forall fun op => op.bufs ⊆ tcRefs τ sig :=
  ⟨nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub ..⟩
theorem p_v1_1_fresh : (p_v1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- Statements 238 to 240 of @main: 3 operations. -/
abbrev p_n1_1_a : List (HloOp τ sig (Elt F)) :=
  [ StableHlo.unary main_v204 main_v206 (broadcastInDim S1x128 ![1] bcast_S128_S1x128_1 : (⟨S128, .f32⟩ : BufTy).Contents (Elt F) → (⟨S1x128, .f32⟩ : BufTy).Contents (Elt F)),
    StableHlo.unary main_v206 main_v207 (broadcastInDim S20000x128 ![0, 1] bcast_S1x128_S20000x128_0_1 : (⟨S1x128, .f32⟩ : BufTy).Contents (Elt F) → (⟨S20000x128, .f32⟩ : BufTy).Contents (Elt F)),
    StableHlo.binary main_v197 main_v207 main_v208 (subf : (⟨S20000x128, .f32⟩ : BufTy).Contents (Elt F) → (⟨S20000x128, .f32⟩ : BufTy).Contents (Elt F) → (⟨S20000x128, .f32⟩ : BufTy).Contents (Elt F)) ]

theorem p_n1_1_a_sub : (p_n1_1_a : List (HloOp τ sig (Elt F))).Forall fun op => op.bufs ⊆ tcRefs τ sig :=
  ⟨unary_bufs_sub .., unary_bufs_sub .., binary_bufs_sub ..⟩
theorem p_n1_1_a_fresh : (p_n1_1_a : List (HloOp τ sig (Elt F))).Forall fun op => op.fresh = ∅ :=
  ⟨rfl, rfl, rfl⟩

/-- Statements 241 to 254 of @main: 16 operations. -/
abbrev p_n1_1_b : List (HloOp τ sig (Elt F)) :=
  [ StableHlo.nullary main_cst_29 (constant S_ .f32 0x3727C5AC#32),
    StableHlo.unary main_cst_29 main_v209 (broadcastInDim S128 ![] bcast_S_S128 : (⟨S_, .f32⟩ : BufTy).Contents (Elt F) → (⟨S128, .f32⟩ : BufTy).Contents (Elt F)),
    StableHlo.binary main_v205 main_v209 main_v210 (addf : (⟨S128, .f32⟩ : BufTy).Contents (Elt F) → (⟨S128, .f32⟩ : BufTy).Contents (Elt F) → (⟨S128, .f32⟩ : BufTy).Contents (Elt F)),
    StableHlo.unary main_v210 main_v211 (Host.rsqrt : (⟨S128, .f32⟩ : BufTy).Contents (Elt F) → (⟨S128, .f32⟩ : BufTy).Contents (Elt F)),
    StableHlo.unary main_v211 main_v212 (broadcastInDim S1x128 ![1] bcast_S128_S1x128_1 : (⟨S128, .f32⟩ : BufTy).Contents (Elt F) → (⟨S1x128, .f32⟩ : BufTy).Contents (Elt F)),
    StableHlo.unary main_v212 main_v213 (broadcastInDim S20000x128 ![0, 1] bcast_S1x128_S20000x128_0_1 : (⟨S1x128, .f32⟩ : BufTy).Contents (Elt F) → (⟨S20000x128, .f32⟩ : BufTy).Contents (Elt F)),
    StableHlo.binary main_v208 main_v213 main_v214 (mulf : (⟨S20000x128, .f32⟩ : BufTy).Contents (Elt F) → (⟨S20000x128, .f32⟩ : BufTy).Contents (Elt F) → (⟨S20000x128, .f32⟩ : BufTy).Contents (Elt F)),
    StableHlo.unary main_v199 main_v215 (broadcastInDim S1x128 ![1] bcast_S128_S1x128_1 : (⟨S128, .f32⟩ : BufTy).Contents (Elt F) → (⟨S1x128, .f32⟩ : BufTy).Contents (Elt F)),
    StableHlo.unary main_v215 main_v216 (broadcastInDim S20000x128 ![0, 1] bcast_S1x128_S20000x128_0_1 : (⟨S1x128, .f32⟩ : BufTy).Contents (Elt F) → (⟨S20000x128, .f32⟩ : BufTy).Contents (Elt F)),
    StableHlo.binary main_v214 main_v216 main_v217 (mulf : (⟨S20000x128, .f32⟩ : BufTy).Contents (Elt F) → (⟨S20000x128, .f32⟩ : BufTy).Contents (Elt F) → (⟨S20000x128, .f32⟩ : BufTy).Contents (Elt F)),
    StableHlo.unary main_v201 main_v218 (broadcastInDim S1x128 ![1] bcast_S128_S1x128_1 : (⟨S128, .f32⟩ : BufTy).Contents (Elt F) → (⟨S1x128, .f32⟩ : BufTy).Contents (Elt F)),
    StableHlo.unary main_v218 main_v219 (broadcastInDim S20000x128 ![0, 1] bcast_S1x128_S20000x128_0_1 : (⟨S1x128, .f32⟩ : BufTy).Contents (Elt F) → (⟨S20000x128, .f32⟩ : BufTy).Contents (Elt F)),
    StableHlo.binary main_v217 main_v219 main_v220 (addf : (⟨S20000x128, .f32⟩ : BufTy).Contents (Elt F) → (⟨S20000x128, .f32⟩ : BufTy).Contents (Elt F) → (⟨S20000x128, .f32⟩ : BufTy).Contents (Elt F)),
    StableHlo.TRef.nullary main_call9.cst (constant S_ .f32 0x00000000#32),
    StableHlo.TRef.unary main_call9.cst main_call9.v0 (broadcastInDim S20000x128 ![] bcast_S_S20000x128),
    StableHlo.TRef.binary (.of main_v220) main_call9.v0 main_call9.v1 maximumf ]

theorem p_n1_1_b_sub : (p_n1_1_b : List (HloOp τ sig (Elt F))).Forall fun op => op.bufs ⊆ tcRefs τ sig :=
  ⟨nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub ..⟩
theorem p_n1_1_b_fresh : (p_n1_1_b : List (HloOp τ sig (Elt F))).Forall fun op => op.fresh = ∅ :=
  ⟨rfl, rfl, rfl, rfl, rfl, rfl, rfl, rfl, rfl, rfl, rfl, rfl, rfl, rfl, rfl, rfl⟩

/-- Statements 255 to 262 of @main: 8 operations. -/
abbrev p_l2_1 : List (HloOp τ sig (Elt F)) :=
  [ StableHlo.unary main_arg8 main_v222 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v222 main_v223 rfl shapeCasts_S1x128x128_S128x128,
    StableHlo.binary main_v221 main_v223 main_v224 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    StableHlo.unary main_arg9 main_v225 ((extractStridedSlice S1x128 ![1, 0] · slices_S4x128_S1x128_1_0) : (⟨S4x128, .f32⟩ : BufTy).Contents (Elt F) → (⟨S1x128, .f32⟩ : BufTy).Contents (Elt F)),
    StableHlo.reshape main_v225 main_v226 rfl shapeCasts_S1x128_S128,
    StableHlo.unary main_v226 main_v227 (broadcastInDim S1x128 ![1] bcast_S128_S1x128_1 : (⟨S128, .f32⟩ : BufTy).Contents (Elt F) → (⟨S1x128, .f32⟩ : BufTy).Contents (Elt F)),
    StableHlo.unary main_v227 main_v228 (broadcastInDim S20000x128 ![0, 1] bcast_S1x128_S20000x128_0_1 : (⟨S1x128, .f32⟩ : BufTy).Contents (Elt F) → (⟨S20000x128, .f32⟩ : BufTy).Contents (Elt F)),
    StableHlo.binary main_v224 main_v228 main_v229 (addf : (⟨S20000x128, .f32⟩ : BufTy).Contents (Elt F) → (⟨S20000x128, .f32⟩ : BufTy).Contents (Elt F) → (⟨S20000x128, .f32⟩ : BufTy).Contents (Elt F)) ]

theorem p_l2_1_sub : (p_l2_1 : List (HloOp τ sig (Elt F))).Forall fun op => op.bufs ⊆ tcRefs τ sig :=
  ⟨unary_bufs_sub .., reshape_bufs_sub .., binary_bufs_sub .., unary_bufs_sub .., reshape_bufs_sub .., unary_bufs_sub ..,
    unary_bufs_sub .., binary_bufs_sub ..⟩
theorem p_l2_1_fresh : (p_l2_1 : List (HloOp τ sig (Elt F))).Forall fun op => op.fresh = ∅ :=
  ⟨rfl, rfl, rfl, rfl, rfl, rfl, rfl, rfl⟩

/-- Statements 263 to 271 of @main: 9 operations. -/
abbrev p_m2_1 : List (HloOp τ sig (Elt F)) :=
  [ StableHlo.unary main_arg10 main_v230 ((extractStridedSlice S1x128 ![1, 0] · slices_S4x128_S1x128_1_0) : (⟨S4x128, .f32⟩ : BufTy).Contents (Elt F) → (⟨S1x128, .f32⟩ : BufTy).Contents (Elt F)),
    StableHlo.reshape main_v230 main_v231 rfl shapeCasts_S1x128_S128,
    StableHlo.unary main_arg11 main_v232 ((extractStridedSlice S1x128 ![1, 0] · slices_S4x128_S1x128_1_0) : (⟨S4x128, .f32⟩ : BufTy).Contents (Elt F) → (⟨S1x128, .f32⟩ : BufTy).Contents (Elt F)),
    StableHlo.reshape main_v232 main_v233 rfl shapeCasts_S1x128_S128,
    StableHlo.nullary main_cst_30 (constant S_ .f32 0x00000000#32),
    StableHlo.binary main_v229 main_cst_30 main_v234 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    StableHlo.nullary main_cst_31 (constant S_ .f32 0x469C4000#32),
    StableHlo.unary main_cst_31 main_v235 (broadcastInDim S128 ![] bcast_S_S128 : (⟨S_, .f32⟩ : BufTy).Contents (Elt F) → (⟨S128, .f32⟩ : BufTy).Contents (Elt F)),
    StableHlo.binary main_v234 main_v235 main_v236 (Host.divf : (⟨S128, .f32⟩ : BufTy).Contents (Elt F) → (⟨S128, .f32⟩ : BufTy).Contents (Elt F) → (⟨S128, .f32⟩ : BufTy).Contents (Elt F)) ]

theorem p_m2_1_sub : (p_m2_1 : List (HloOp τ sig (Elt F))).Forall fun op => op.bufs ⊆ tcRefs τ sig :=
  ⟨unary_bufs_sub .., reshape_bufs_sub .., unary_bufs_sub .., reshape_bufs_sub .., nullary_bufs_sub .., binary_bufs_sub ..,
    nullary_bufs_sub .., unary_bufs_sub .., binary_bufs_sub ..⟩
theorem p_m2_1_fresh : (p_m2_1 : List (HloOp τ sig (Elt F))).Forall fun op => op.fresh = ∅ :=
  ⟨rfl, rfl, rfl, rfl, rfl, rfl, rfl, rfl, rfl⟩

/-- Statements 272 to 273 of @main: 23 operations. -/
abbrev p_v2_1 : List (HloOp τ sig (Elt F)) :=
  [ StableHlo.nullary main_c_32 (constantI S_ 32 0#32),
    StableHlo.TRef.nullary main_call10.cst (constant S_ .f32 0x00000000#32),
    StableHlo.TRef.binary (.of main_v229) main_call10.cst main_call10.v0 (fun x v => Host.reduceAdd x v reducesTo_S20000x128_S128_d0 h_S_),
    StableHlo.TRef.unary main_call10.v0 main_call10.v1 (broadcastInDim S1x128 ![1] bcast_S128_S1x128_1),
    StableHlo.TRef.nullary main_call10.cst_0 (constant S_ .f32 0x469C4000#32),
    StableHlo.TRef.unary main_call10.cst_0 main_call10.v2 (broadcastInDim S1x128 ![] bcast_S_S1x128),
    StableHlo.TRef.binary main_call10.v1 main_call10.v2 main_call10.v3 Host.divf,
    StableHlo.TRef.unary main_call10.v3 main_call10.v4 (broadcastInDim S20000x128 ![0, 1] bcast_S1x128_S20000x128_0_1),
    StableHlo.TRef.binary (.of main_v229) main_call10.v4 main_call10.v5 subf,
    StableHlo.TRef.binary main_call10.v5 main_call10.v5 main_call10.v6 mulf,
    StableHlo.TRef.unary (.of main_c_32) main_call10.v7 (sitofp .f32),
    StableHlo.TRef.nullary main_call10.cst_1 (constant S_ .f32 0x469C4000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S20000x128_S128_d0 h_S_),
    StableHlo.TRef.unary main_call10.v8 main_call10.v10 (broadcastInDim S128 ![] bcast_S_S128),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S128 ![] bcast_S_S128),
    StableHlo.TRef.ternary main_call10.v12 main_call10.v11 main_call10.call0.v1 main_call10.call0.v2 (fun p a b => select (broadcastInDim S128 ![] bcast_S_S128 p) a b) ]

theorem p_v2_1_sub : (p_v2_1 : List (HloOp τ sig (Elt F))).Forall fun op => op.bufs ⊆ tcRefs τ sig :=
  ⟨nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub ..⟩
theorem p_v2_1_fresh : (p_v2_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- Statements 274 to 290 of @main: 19 operations. -/
abbrev p_n2_1 : List (HloOp τ sig (Elt F)) :=
  [ StableHlo.unary main_v236 main_v238 (broadcastInDim S1x128 ![1] bcast_S128_S1x128_1 : (⟨S128, .f32⟩ : BufTy).Contents (Elt F) → (⟨S1x128, .f32⟩ : BufTy).Contents (Elt F)),
    StableHlo.unary main_v238 main_v239 (broadcastInDim S20000x128 ![0, 1] bcast_S1x128_S20000x128_0_1 : (⟨S1x128, .f32⟩ : BufTy).Contents (Elt F) → (⟨S20000x128, .f32⟩ : BufTy).Contents (Elt F)),
    StableHlo.binary main_v229 main_v239 main_v240 (subf : (⟨S20000x128, .f32⟩ : BufTy).Contents (Elt F) → (⟨S20000x128, .f32⟩ : BufTy).Contents (Elt F) → (⟨S20000x128, .f32⟩ : BufTy).Contents (Elt F)),
    StableHlo.nullary main_cst_33 (constant S_ .f32 0x3727C5AC#32),
    StableHlo.unary main_cst_33 main_v241 (broadcastInDim S128 ![] bcast_S_S128 : (⟨S_, .f32⟩ : BufTy).Contents (Elt F) → (⟨S128, .f32⟩ : BufTy).Contents (Elt F)),
    StableHlo.binary main_v237 main_v241 main_v242 (addf : (⟨S128, .f32⟩ : BufTy).Contents (Elt F) → (⟨S128, .f32⟩ : BufTy).Contents (Elt F) → (⟨S128, .f32⟩ : BufTy).Contents (Elt F)),
    StableHlo.unary main_v242 main_v243 (Host.rsqrt : (⟨S128, .f32⟩ : BufTy).Contents (Elt F) → (⟨S128, .f32⟩ : BufTy).Contents (Elt F)),
    StableHlo.unary main_v243 main_v244 (broadcastInDim S1x128 ![1] bcast_S128_S1x128_1 : (⟨S128, .f32⟩ : BufTy).Contents (Elt F) → (⟨S1x128, .f32⟩ : BufTy).Contents (Elt F)),
    StableHlo.unary main_v244 main_v245 (broadcastInDim S20000x128 ![0, 1] bcast_S1x128_S20000x128_0_1 : (⟨S1x128, .f32⟩ : BufTy).Contents (Elt F) → (⟨S20000x128, .f32⟩ : BufTy).Contents (Elt F)),
    StableHlo.binary main_v240 main_v245 main_v246 (mulf : (⟨S20000x128, .f32⟩ : BufTy).Contents (Elt F) → (⟨S20000x128, .f32⟩ : BufTy).Contents (Elt F) → (⟨S20000x128, .f32⟩ : BufTy).Contents (Elt F)),
    StableHlo.unary main_v231 main_v247 (broadcastInDim S1x128 ![1] bcast_S128_S1x128_1 : (⟨S128, .f32⟩ : BufTy).Contents (Elt F) → (⟨S1x128, .f32⟩ : BufTy).Contents (Elt F)),
    StableHlo.unary main_v247 main_v248 (broadcastInDim S20000x128 ![0, 1] bcast_S1x128_S20000x128_0_1 : (⟨S1x128, .f32⟩ : BufTy).Contents (Elt F) → (⟨S20000x128, .f32⟩ : BufTy).Contents (Elt F)),
    StableHlo.binary main_v246 main_v248 main_v249 (mulf : (⟨S20000x128, .f32⟩ : BufTy).Contents (Elt F) → (⟨S20000x128, .f32⟩ : BufTy).Contents (Elt F) → (⟨S20000x128, .f32⟩ : BufTy).Contents (Elt F)),
    StableHlo.unary main_v233 main_v250 (broadcastInDim S1x128 ![1] bcast_S128_S1x128_1 : (⟨S128, .f32⟩ : BufTy).Contents (Elt F) → (⟨S1x128, .f32⟩ : BufTy).Contents (Elt F)),
    StableHlo.unary main_v250 main_v251 (broadcastInDim S20000x128 ![0, 1] bcast_S1x128_S20000x128_0_1 : (⟨S1x128, .f32⟩ : BufTy).Contents (Elt F) → (⟨S20000x128, .f32⟩ : BufTy).Contents (Elt F)),
    StableHlo.binary main_v249 main_v251 main_v252 (addf : (⟨S20000x128, .f32⟩ : BufTy).Contents (Elt F) → (⟨S20000x128, .f32⟩ : BufTy).Contents (Elt F) → (⟨S20000x128, .f32⟩ : BufTy).Contents (Elt F)),
    StableHlo.TRef.nullary main_call11.cst (constant S_ .f32 0x00000000#32),
    StableHlo.TRef.unary main_call11.cst main_call11.v0 (broadcastInDim S20000x128 ![] bcast_S_S20000x128),
    StableHlo.TRef.binary (.of main_v252) main_call11.v0 main_call11.v1 maximumf ]

theorem p_n2_1_sub : (p_n2_1 : List (HloOp τ sig (Elt F))).Forall fun op => op.bufs ⊆ tcRefs τ sig :=
  ⟨unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub ..⟩
theorem p_n2_1_fresh : (p_n2_1 : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- Statements 291 to 299 of @main: 9 operations. -/
abbrev p_m3_1 : List (HloOp τ sig (Elt F)) :=
  [ StableHlo.unary main_arg12 main_v254 ((extractStridedSlice S1x128 ![1, 0] · slices_S4x128_S1x128_1_0) : (⟨S4x128, .f32⟩ : BufTy).Contents (Elt F) → (⟨S1x128, .f32⟩ : BufTy).Contents (Elt F)),
    StableHlo.reshape main_v254 main_v255 rfl shapeCasts_S1x128_S128,
    StableHlo.unary main_arg13 main_v256 ((extractStridedSlice S1x128 ![1, 0] · slices_S4x128_S1x128_1_0) : (⟨S4x128, .f32⟩ : BufTy).Contents (Elt F) → (⟨S1x128, .f32⟩ : BufTy).Contents (Elt F)),
    StableHlo.reshape main_v256 main_v257 rfl shapeCasts_S1x128_S128,
    StableHlo.nullary main_cst_34 (constant S_ .f32 0x00000000#32),
    StableHlo.binary main_v253 main_cst_34 main_v258 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    StableHlo.nullary main_cst_35 (constant S_ .f32 0x469C4000#32),
    StableHlo.unary main_cst_35 main_v259 (broadcastInDim S128 ![] bcast_S_S128 : (⟨S_, .f32⟩ : BufTy).Contents (Elt F) → (⟨S128, .f32⟩ : BufTy).Contents (Elt F)),
    StableHlo.binary main_v258 main_v259 main_v260 (Host.divf : (⟨S128, .f32⟩ : BufTy).Contents (Elt F) → (⟨S128, .f32⟩ : BufTy).Contents (Elt F) → (⟨S128, .f32⟩ : BufTy).Contents (Elt F)) ]

theorem p_m3_1_sub : (p_m3_1 : List (HloOp τ sig (Elt F))).Forall fun op => op.bufs ⊆ tcRefs τ sig :=
  ⟨unary_bufs_sub .., reshape_bufs_sub .., unary_bufs_sub .., reshape_bufs_sub .., nullary_bufs_sub .., binary_bufs_sub ..,
    nullary_bufs_sub .., unary_bufs_sub .., binary_bufs_sub ..⟩
theorem p_m3_1_fresh : (p_m3_1 : List (HloOp τ sig (Elt F))).Forall fun op => op.fresh = ∅ :=
  ⟨rfl, rfl, rfl, rfl, rfl, rfl, rfl, rfl, rfl⟩

/-- Statements 300 to 300 of @main: 1 operation. -/
abbrev p_v3_1_a : List (HloOp τ sig (Elt F)) :=
  [ StableHlo.nullary main_c_36 (constantI S_ 32 0#32) ]

theorem p_v3_1_a_sub : (p_v3_1_a : List (HloOp τ sig (Elt F))).Forall fun op => op.bufs ⊆ tcRefs τ sig :=
  nullary_bufs_sub ..
theorem p_v3_1_a_fresh : (p_v3_1_a : List (HloOp τ sig (Elt F))).Forall fun op => op.fresh = ∅ :=
  rfl

/-- Statements 301 to 301 of @main: 22 operations. -/
abbrev p_v3_1_b : List (HloOp τ sig (Elt F)) :=
  [ StableHlo.TRef.nullary main_call12.cst (constant S_ .f32 0x00000000#32),
    StableHlo.TRef.binary (.of main_v253) main_call12.cst main_call12.v0 (fun x v => Host.reduceAdd x v reducesTo_S20000x128_S128_d0 h_S_),
    StableHlo.TRef.unary main_call12.v0 main_call12.v1 (broadcastInDim S1x128 ![1] bcast_S128_S1x128_1),
    StableHlo.TRef.nullary main_call12.cst_0 (constant S_ .f32 0x469C4000#32),
    StableHlo.TRef.unary main_call12.cst_0 main_call12.v2 (broadcastInDim S1x128 ![] bcast_S_S1x128),
    StableHlo.TRef.binary main_call12.v1 main_call12.v2 main_call12.v3 Host.divf,
    StableHlo.TRef.unary main_call12.v3 main_call12.v4 (broadcastInDim S20000x128 ![0, 1] bcast_S1x128_S20000x128_0_1),
    StableHlo.TRef.binary (.of main_v253) main_call12.v4 main_call12.v5 subf,
    StableHlo.TRef.binary main_call12.v5 main_call12.v5 main_call12.v6 mulf,
    StableHlo.TRef.unary (.of main_c_36) main_call12.v7 (sitofp .f32),
    StableHlo.TRef.nullary main_call12.cst_1 (constant S_ .f32 0x469C4000#32),
    StableHlo.TRef.binary main_call12.cst_1 main_call12.v7 main_call12.v8 subf,
    StableHlo.TRef.nullary main_call12.cst_2 (constant S_ .f32 0x00000000#32),
    StableHlo.TRef.binary main_call12.v6 main_call12.cst_2 main_call12.v9 (fun x v => Host.reduceAdd x v reducesTo_S20000x128_S128_d0 h_S_),
    StableHlo.TRef.unary main_call12.v8 main_call12.v10 (broadcastInDim S128 ![] bcast_S_S128),
    StableHlo.TRef.binary main_call12.v9 main_call12.v10 main_call12.v11 Host.divf,
    StableHlo.TRef.nullary main_call12.cst_3 (constant S_ .f32 0x00000000#32),
    StableHlo.TRef.binary main_call12.v8 main_call12.cst_3 main_call12.v12 (cmpf .ogt),
    StableHlo.TRef.nullary main_call12.cst_4 (constant S_ .f32 0x7FC00000#32),
    StableHlo.TRef.unary main_call12.cst_4 main_call12.call0.v0 id,
    StableHlo.TRef.unary main_call12.call0.v0 main_call12.call0.v1 (broadcastInDim S128 ![] bcast_S_S128),
    StableHlo.TRef.ternary main_call12.v12 main_call12.v11 main_call12.call0.v1 main_call12.call0.v2 (fun p a b => select (broadcastInDim S128 ![] bcast_S_S128 p) a b) ]

theorem p_v3_1_b_sub : (p_v3_1_b : List (HloOp τ sig (Elt F))).Forall fun op => op.bufs ⊆ tcRefs τ sig :=
  ⟨nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub ..⟩
theorem p_v3_1_b_fresh : (p_v3_1_b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

/-- Statements 302 to 318 of @main: 19 operations. -/
abbrev p_n3_1 : List (HloOp τ sig (Elt F)) :=
  [ StableHlo.unary main_v260 main_v262 (broadcastInDim S1x128 ![1] bcast_S128_S1x128_1 : (⟨S128, .f32⟩ : BufTy).Contents (Elt F) → (⟨S1x128, .f32⟩ : BufTy).Contents (Elt F)),
    StableHlo.unary main_v262 main_v263 (broadcastInDim S20000x128 ![0, 1] bcast_S1x128_S20000x128_0_1 : (⟨S1x128, .f32⟩ : BufTy).Contents (Elt F) → (⟨S20000x128, .f32⟩ : BufTy).Contents (Elt F)),
    StableHlo.binary main_v253 main_v263 main_v264 (subf : (⟨S20000x128, .f32⟩ : BufTy).Contents (Elt F) → (⟨S20000x128, .f32⟩ : BufTy).Contents (Elt F) → (⟨S20000x128, .f32⟩ : BufTy).Contents (Elt F)),
    StableHlo.nullary main_cst_37 (constant S_ .f32 0x3727C5AC#32),
    StableHlo.unary main_cst_37 main_v265 (broadcastInDim S128 ![] bcast_S_S128 : (⟨S_, .f32⟩ : BufTy).Contents (Elt F) → (⟨S128, .f32⟩ : BufTy).Contents (Elt F)),
    StableHlo.binary main_v261 main_v265 main_v266 (addf : (⟨S128, .f32⟩ : BufTy).Contents (Elt F) → (⟨S128, .f32⟩ : BufTy).Contents (Elt F) → (⟨S128, .f32⟩ : BufTy).Contents (Elt F)),
    StableHlo.unary main_v266 main_v267 (Host.rsqrt : (⟨S128, .f32⟩ : BufTy).Contents (Elt F) → (⟨S128, .f32⟩ : BufTy).Contents (Elt F)),
    StableHlo.unary main_v267 main_v268 (broadcastInDim S1x128 ![1] bcast_S128_S1x128_1 : (⟨S128, .f32⟩ : BufTy).Contents (Elt F) → (⟨S1x128, .f32⟩ : BufTy).Contents (Elt F)),
    StableHlo.unary main_v268 main_v269 (broadcastInDim S20000x128 ![0, 1] bcast_S1x128_S20000x128_0_1 : (⟨S1x128, .f32⟩ : BufTy).Contents (Elt F) → (⟨S20000x128, .f32⟩ : BufTy).Contents (Elt F)),
    StableHlo.binary main_v264 main_v269 main_v270 (mulf : (⟨S20000x128, .f32⟩ : BufTy).Contents (Elt F) → (⟨S20000x128, .f32⟩ : BufTy).Contents (Elt F) → (⟨S20000x128, .f32⟩ : BufTy).Contents (Elt F)),
    StableHlo.unary main_v255 main_v271 (broadcastInDim S1x128 ![1] bcast_S128_S1x128_1 : (⟨S128, .f32⟩ : BufTy).Contents (Elt F) → (⟨S1x128, .f32⟩ : BufTy).Contents (Elt F)),
    StableHlo.unary main_v271 main_v272 (broadcastInDim S20000x128 ![0, 1] bcast_S1x128_S20000x128_0_1 : (⟨S1x128, .f32⟩ : BufTy).Contents (Elt F) → (⟨S20000x128, .f32⟩ : BufTy).Contents (Elt F)),
    StableHlo.binary main_v270 main_v272 main_v273 (mulf : (⟨S20000x128, .f32⟩ : BufTy).Contents (Elt F) → (⟨S20000x128, .f32⟩ : BufTy).Contents (Elt F) → (⟨S20000x128, .f32⟩ : BufTy).Contents (Elt F)),
    StableHlo.unary main_v257 main_v274 (broadcastInDim S1x128 ![1] bcast_S128_S1x128_1 : (⟨S128, .f32⟩ : BufTy).Contents (Elt F) → (⟨S1x128, .f32⟩ : BufTy).Contents (Elt F)),
    StableHlo.unary main_v274 main_v275 (broadcastInDim S20000x128 ![0, 1] bcast_S1x128_S20000x128_0_1 : (⟨S1x128, .f32⟩ : BufTy).Contents (Elt F) → (⟨S20000x128, .f32⟩ : BufTy).Contents (Elt F)),
    StableHlo.binary main_v273 main_v275 main_v276 (addf : (⟨S20000x128, .f32⟩ : BufTy).Contents (Elt F) → (⟨S20000x128, .f32⟩ : BufTy).Contents (Elt F) → (⟨S20000x128, .f32⟩ : BufTy).Contents (Elt F)),
    StableHlo.TRef.nullary main_call13.cst (constant S_ .f32 0x00000000#32),
    StableHlo.TRef.unary main_call13.cst main_call13.v0 (broadcastInDim S20000x128 ![] bcast_S_S20000x128),
    StableHlo.TRef.binary (.of main_v276) main_call13.v0 main_call13.v1 maximumf ]

theorem p_n3_1_sub : (p_n3_1 : List (HloOp τ sig (Elt F))).Forall fun op => op.bufs ⊆ tcRefs τ sig :=
  ⟨unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub ..⟩
theorem p_n3_1_fresh : (p_n3_1 : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- Statements 319 to 319 of @main: 1 operation. -/
abbrev p_rs_1 : List (HloOp τ sig (Elt F)) :=
  [ StableHlo.binary main_v140 main_v277 main_v278 (addf : (⟨S20000x128, .f32⟩ : BufTy).Contents (Elt F) → (⟨S20000x128, .f32⟩ : BufTy).Contents (Elt F) → (⟨S20000x128, .f32⟩ : BufTy).Contents (Elt F)) ]

theorem p_rs_1_sub : (p_rs_1 : List (HloOp τ sig (Elt F))).Forall fun op => op.bufs ⊆ tcRefs τ sig :=
  binary_bufs_sub ..
theorem p_rs_1_fresh : (p_rs_1 : List (HloOp τ sig (Elt F))).Forall fun op => op.fresh = ∅ :=
  rfl

/-- Statements 320 to 337 of @main: 18 operations. -/
abbrev p_hg_2 : List (HloOp τ sig (Elt F)) :=
  [ StableHlo.nullary main_c_38 (constantI S_ 32 0#32),
    StableHlo.unary main_c_38 main_v279 (broadcastInDim S320000 ![] bcast_S_S320000 : (⟨S_, .i32⟩ : BufTy).Contents (Elt F) → (⟨S320000, .i32⟩ : BufTy).Contents (Elt F)),
    StableHlo.binary main_arg18 main_v279 main_v280 (cmpi .slt : (⟨S320000, .i32⟩ : BufTy).Contents (Elt F) → (⟨S320000, .i32⟩ : BufTy).Contents (Elt F) → (⟨S320000, .i1⟩ : BufTy).Contents (Elt F)),
    StableHlo.nullary main_c_39 (constantI S_ 32 20000#32),
    StableHlo.unary main_c_39 main_v281 (broadcastInDim S320000 ![] bcast_S_S320000 : (⟨S_, .i32⟩ : BufTy).Contents (Elt F) → (⟨S320000, .i32⟩ : BufTy).Contents (Elt F)),
    StableHlo.binary main_arg18 main_v281 main_v282 (addi : (⟨S320000, .i32⟩ : BufTy).Contents (Elt F) → (⟨S320000, .i32⟩ : BufTy).Contents (Elt F) → (⟨S320000, .i32⟩ : BufTy).Contents (Elt F)),
    StableHlo.ternary main_v280 main_v282 main_arg18 main_v283 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v283 main_v284 (broadcastInDim S320000x1 ![0] bcast_S320000_S320000x1_0 : (⟨S320000, .i32⟩ : BufTy).Contents (Elt F) → (⟨S320000x1, .i32⟩ : BufTy).Contents (Elt F)),
    StableHlo.binary main_v278 main_v284 main_v285 ((fun x i => Host.gather gather_S20000x128_S320000x1_S320000x128_1_0_n_n_0_1_1128 x i) : (⟨S20000x128, .f32⟩ : BufTy).Contents (Elt F) → (⟨S320000x1, .i32⟩ : BufTy).Contents (Elt F) → (⟨S320000x128, .f32⟩ : BufTy).Contents (Elt F)),
    StableHlo.nullary main_c_40 (constantI S_ 32 0#32),
    StableHlo.unary main_c_40 main_v286 (broadcastInDim S320000 ![] bcast_S_S320000 : (⟨S_, .i32⟩ : BufTy).Contents (Elt F) → (⟨S320000, .i32⟩ : BufTy).Contents (Elt F)),
    StableHlo.binary main_arg19 main_v286 main_v287 (cmpi .slt : (⟨S320000, .i32⟩ : BufTy).Contents (Elt F) → (⟨S320000, .i32⟩ : BufTy).Contents (Elt F) → (⟨S320000, .i1⟩ : BufTy).Contents (Elt F)),
    StableHlo.nullary main_c_41 (constantI S_ 32 20000#32),
    StableHlo.unary main_c_41 main_v288 (broadcastInDim S320000 ![] bcast_S_S320000 : (⟨S_, .i32⟩ : BufTy).Contents (Elt F) → (⟨S320000, .i32⟩ : BufTy).Contents (Elt F)),
    StableHlo.binary main_arg19 main_v288 main_v289 (addi : (⟨S320000, .i32⟩ : BufTy).Contents (Elt F) → (⟨S320000, .i32⟩ : BufTy).Contents (Elt F) → (⟨S320000, .i32⟩ : BufTy).Contents (Elt F)),
    StableHlo.ternary main_v287 main_v289 main_arg19 main_v290 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v290 main_v291 (broadcastInDim S320000x1 ![0] bcast_S320000_S320000x1_0 : (⟨S320000, .i32⟩ : BufTy).Contents (Elt F) → (⟨S320000x1, .i32⟩ : BufTy).Contents (Elt F)),
    StableHlo.binary main_v278 main_v291 main_v292 ((fun x i => Host.gather gather_S20000x128_S320000x1_S320000x128_1_0_n_n_0_1_1128 x i) : (⟨S20000x128, .f32⟩ : BufTy).Contents (Elt F) → (⟨S320000x1, .i32⟩ : BufTy).Contents (Elt F) → (⟨S320000x128, .f32⟩ : BufTy).Contents (Elt F)) ]

theorem p_hg_2_sub : (p_hg_2 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..⟩
theorem p_hg_2_fresh : (p_hg_2 : List (HloOp τ sig (Elt F))).Forall fun op => op.fresh = ∅ :=
  ⟨rfl, rfl, rfl, rfl, rfl, rfl, rfl, rfl, rfl, rfl, rfl, rfl, rfl, rfl, rfl, rfl, rfl, rfl⟩

/-- Statements 338 to 355 of @main: 20 operations. -/
abbrev p_hs_2 : List (HloOp τ sig (Elt F)) :=
  [ StableHlo.binary main_v285 main_v292 main_v293 ((fun a b => concatenate S320000x256 1 [⟨S320000x128, a⟩, ⟨S320000x128, b⟩] concatenates_S320000x128_S320000x128_S320000x256_d1) : (⟨S320000x128, .f32⟩ : BufTy).Contents (Elt F) → (⟨S320000x128, .f32⟩ : BufTy).Contents (Elt F) → (⟨S320000x256, .f32⟩ : BufTy).Contents (Elt F)),
    StableHlo.unary main_arg14 main_v294 ((extractStridedSlice S1x256x128 ![2, 0, 0] · slices_S5x256x128_S1x256x128_2_0_0) : (⟨S5x256x128, .f32⟩ : BufTy).Contents (Elt F) → (⟨S1x256x128, .f32⟩ : BufTy).Contents (Elt F)),
    StableHlo.reshape main_v294 main_v295 rfl shapeCasts_S1x256x128_S256x128,
    StableHlo.binary main_v293 main_v295 main_v296 ((fun l r => Host.dotGeneral dot_S320000x256_S256x128_S320000x128_1_0_0_1_n_n none l r) : (⟨S320000x256, .f32⟩ : BufTy).Contents (Elt F) → (⟨S256x128, .f32⟩ : BufTy).Contents (Elt F) → (⟨S320000x128, .f32⟩ : BufTy).Contents (Elt F)),
    StableHlo.unary main_arg15 main_v297 ((extractStridedSlice S1x128 ![2, 0] · slices_S5x128_S1x128_2_0) : (⟨S5x128, .f32⟩ : BufTy).Contents (Elt F) → (⟨S1x128, .f32⟩ : BufTy).Contents (Elt F)),
    StableHlo.reshape main_v297 main_v298 rfl shapeCasts_S1x128_S128,
    StableHlo.unary main_v298 main_v299 (broadcastInDim S1x128 ![1] bcast_S128_S1x128_1 : (⟨S128, .f32⟩ : BufTy).Contents (Elt F) → (⟨S1x128, .f32⟩ : BufTy).Contents (Elt F)),
    StableHlo.unary main_v299 main_v300 (broadcastInDim S320000x128 ![0, 1] bcast_S1x128_S320000x128_0_1 : (⟨S1x128, .f32⟩ : BufTy).Contents (Elt F) → (⟨S320000x128, .f32⟩ : BufTy).Contents (Elt F)),
    StableHlo.binary main_v296 main_v300 main_v301 (addf : (⟨S320000x128, .f32⟩ : BufTy).Contents (Elt F) → (⟨S320000x128, .f32⟩ : BufTy).Contents (Elt F) → (⟨S320000x128, .f32⟩ : BufTy).Contents (Elt F)),
    StableHlo.TRef.nullary main_call14.cst (constant S_ .f32 0x00000000#32),
    StableHlo.TRef.unary main_call14.cst main_call14.v0 (broadcastInDim S320000x128 ![] bcast_S_S320000x128),
    StableHlo.TRef.binary (.of main_v301) main_call14.v0 main_call14.v1 maximumf,
    StableHlo.unary main_arg16 main_v303 ((extractStridedSlice S1x128x2 ![2, 0, 0] · slices_S5x128x2_S1x128x2_2_0_0) : (⟨S5x128x2, .f32⟩ : BufTy).Contents (Elt F) → (⟨S1x128x2, .f32⟩ : BufTy).Contents (Elt F)),
    StableHlo.reshape main_v303 main_v304 rfl shapeCasts_S1x128x2_S128x2,
    StableHlo.binary main_v302 main_v304 main_v305 ((fun l r => Host.dotGeneral dot_S320000x128_S128x2_S320000x2_1_0_0_1_n_n none l r) : (⟨S320000x128, .f32⟩ : BufTy).Contents (Elt F) → (⟨S128x2, .f32⟩ : BufTy).Contents (Elt F) → (⟨S320000x2, .f32⟩ : BufTy).Contents (Elt F)),
    StableHlo.unary main_arg17 main_v306 ((extractStridedSlice S1x2 ![2, 0] · slices_S5x2_S1x2_2_0) : (⟨S5x2, .f32⟩ : BufTy).Contents (Elt F) → (⟨S1x2, .f32⟩ : BufTy).Contents (Elt F)),
    StableHlo.reshape main_v306 main_v307 rfl shapeCasts_S1x2_S2,
    StableHlo.unary main_v307 main_v308 (broadcastInDim S1x2 ![1] bcast_S2_S1x2_1 : (⟨S2, .f32⟩ : BufTy).Contents (Elt F) → (⟨S1x2, .f32⟩ : BufTy).Contents (Elt F)),
    StableHlo.unary main_v308 main_v309 (broadcastInDim S320000x2 ![0, 1] bcast_S1x2_S320000x2_0_1 : (⟨S1x2, .f32⟩ : BufTy).Contents (Elt F) → (⟨S320000x2, .f32⟩ : BufTy).Contents (Elt F)),
    StableHlo.binary main_v305 main_v309 main_v310 (addf : (⟨S320000x2, .f32⟩ : BufTy).Contents (Elt F) → (⟨S320000x2, .f32⟩ : BufTy).Contents (Elt F) → (⟨S320000x2, .f32⟩ : BufTy).Contents (Elt F)) ]

theorem p_hs_2_sub : (p_hs_2 : List (HloOp τ sig (Elt F))).Forall fun op => op.bufs ⊆ tcRefs τ sig :=
  ⟨binary_bufs_sub .., unary_bufs_sub .., reshape_bufs_sub .., binary_bufs_sub .., unary_bufs_sub .., reshape_bufs_sub ..,
    unary_bufs_sub .., unary_bufs_sub .., binary_bufs_sub .., nullary_bufs_sub .., unary_bufs_sub .., binary_bufs_sub ..,
    unary_bufs_sub .., reshape_bufs_sub .., binary_bufs_sub .., unary_bufs_sub .., reshape_bufs_sub .., unary_bufs_sub ..,
    unary_bufs_sub .., binary_bufs_sub ..⟩
theorem p_hs_2_fresh : (p_hs_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

/-- Statements 356 to 356 of @main: 1 operation. -/
abbrev p_ad_2 : List (HloOp τ sig (Elt F)) :=
  [ StableHlo.binary main_v173 main_v310 main_v311 (addf : (⟨S320000x2, .f32⟩ : BufTy).Contents (Elt F) → (⟨S320000x2, .f32⟩ : BufTy).Contents (Elt F) → (⟨S320000x2, .f32⟩ : BufTy).Contents (Elt F)) ]

theorem p_ad_2_sub : (p_ad_2 : List (HloOp τ sig (Elt F))).Forall fun op => op.bufs ⊆ tcRefs τ sig :=
  binary_bufs_sub ..
theorem p_ad_2_fresh : (p_ad_2 : List (HloOp τ sig (Elt F))).Forall fun op => op.fresh = ∅ :=
  rfl

/-- Statements 357 to 360 of @main: 4 operations. -/
abbrev p_ng_2_a : List (HloOp τ sig (Elt F)) :=
  [ StableHlo.nullary main_c_42 (constantI S_ 32 0#32),
    StableHlo.unary main_c_42 main_v312 (broadcastInDim S320000 ![] bcast_S_S320000 : (⟨S_, .i32⟩ : BufTy).Contents (Elt F) → (⟨S320000, .i32⟩ : BufTy).Contents (Elt F)),
    StableHlo.binary main_arg18 main_v312 main_v313 (cmpi .slt : (⟨S320000, .i32⟩ : BufTy).Contents (Elt F) → (⟨S320000, .i32⟩ : BufTy).Contents (Elt F) → (⟨S320000, .i1⟩ : BufTy).Contents (Elt F)),
    StableHlo.nullary main_c_43 (constantI S_ 32 20000#32) ]

theorem p_ng_2_a_sub : (p_ng_2_a : List (HloOp τ sig (Elt F))).Forall fun op => op.bufs ⊆ tcRefs τ sig :=
  ⟨nullary_bufs_sub .., unary_bufs_sub .., binary_bufs_sub .., nullary_bufs_sub ..⟩
theorem p_ng_2_a_fresh : (p_ng_2_a : List (HloOp τ sig (Elt F))).Forall fun op => op.fresh = ∅ :=
  ⟨rfl, rfl, rfl, rfl⟩

/-- Statements 361 to 369 of @main: 9 operations. -/
abbrev p_ng_2_b : List (HloOp τ sig (Elt F)) :=
  [ StableHlo.unary main_c_43 main_v314 (broadcastInDim S320000 ![] bcast_S_S320000 : (⟨S_, .i32⟩ : BufTy).Contents (Elt F) → (⟨S320000, .i32⟩ : BufTy).Contents (Elt F)),
    StableHlo.binary main_arg18 main_v314 main_v315 (addi : (⟨S320000, .i32⟩ : BufTy).Contents (Elt F) → (⟨S320000, .i32⟩ : BufTy).Contents (Elt F) → (⟨S320000, .i32⟩ : BufTy).Contents (Elt F)),
    StableHlo.ternary main_v313 main_v315 main_arg18 main_v316 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v316 main_v317 (broadcastInDim S320000x1 ![0] bcast_S320000_S320000x1_0 : (⟨S320000, .i32⟩ : BufTy).Contents (Elt F) → (⟨S320000x1, .i32⟩ : BufTy).Contents (Elt F)),
    StableHlo.binary main_v278 main_v317 main_v318 ((fun x i => Host.gather gather_S20000x128_S320000x1_S320000x128_1_0_n_n_0_1_1128 x i) : (⟨S20000x128, .f32⟩ : BufTy).Contents (Elt F) → (⟨S320000x1, .i32⟩ : BufTy).Contents (Elt F) → (⟨S320000x128, .f32⟩ : BufTy).Contents (Elt F)),
    StableHlo.nullary main_cst_44 (constant S_ .f32 0x00000000#32),
    StableHlo.unary main_cst_44 main_v319 (broadcastInDim S20000x128 ![] bcast_S_S20000x128 : (⟨S_, .f32⟩ : BufTy).Contents (Elt F) → (⟨S20000x128, .f32⟩ : BufTy).Contents (Elt F)),
    StableHlo.unary main_arg19 main_v320 (broadcastInDim S320000x1 ![0] bcast_S320000_S320000x1_0 : (⟨S320000, .i32⟩ : BufTy).Contents (Elt F) → (⟨S320000x1, .i32⟩ : BufTy).Contents (Elt F)),
    StableHlo.ternary main_v319 main_v320 main_v318 main_v321 ((fun x i u => Host.scatterAdd scatter_S20000x128_S320000x1_S320000x128_1_0_0_1 x i u) : (⟨S20000x128, .f32⟩ : BufTy).Contents (Elt F) → (⟨S320000x1, .i32⟩ : BufTy).Contents (Elt F) → (⟨S320000x128, .f32⟩ : BufTy).Contents (Elt F) → (⟨S20000x128, .f32⟩ : BufTy).Contents (Elt F)) ]

theorem p_ng_2_b_sub : (p_ng_2_b : List (HloOp τ sig (Elt F))).Forall fun op => op.bufs ⊆ tcRefs τ sig :=
  ⟨unary_bufs_sub .., binary_bufs_sub .., ternary_bufs_sub .., unary_bufs_sub .., binary_bufs_sub .., nullary_bufs_sub ..,
    unary_bufs_sub .., unary_bufs_sub .., ternary_bufs_sub ..⟩
theorem p_ng_2_b_fresh : (p_ng_2_b : List (HloOp τ sig (Elt F))).Forall fun op => op.fresh = ∅ :=
  ⟨rfl, rfl, rfl, rfl, rfl, rfl, rfl, rfl, rfl⟩

/-- Statements 370 to 384 of @main: 15 operations. -/
abbrev p_l1_2 : List (HloOp τ sig (Elt F)) :=
  [ StableHlo.unary main_arg3 main_v322 ((extractStridedSlice S1 ![2] · slices_S4_S1_2) : (⟨S4, .f32⟩ : BufTy).Contents (Elt F) → (⟨S1, .f32⟩ : BufTy).Contents (Elt F)),
    StableHlo.reshape main_v322 main_v323 rfl shapeCasts_S1_S_,
    StableHlo.nullary main_cst_45 (constant S_ .f32 0x3F800000#32),
    StableHlo.binary main_cst_45 main_v323 main_v324 (addf : (⟨S_, .f32⟩ : BufTy).Contents (Elt F) → (⟨S_, .f32⟩ : BufTy).Contents (Elt F) → (⟨S_, .f32⟩ : BufTy).Contents (Elt F)),
    StableHlo.unary main_v324 main_v325 (broadcastInDim S20000x128 ![] bcast_S_S20000x128 : (⟨S_, .f32⟩ : BufTy).Contents (Elt F) → (⟨S20000x128, .f32⟩ : BufTy).Contents (Elt F)),
    StableHlo.binary main_v325 main_v278 main_v326 (mulf : (⟨S20000x128, .f32⟩ : BufTy).Contents (Elt F) → (⟨S20000x128, .f32⟩ : BufTy).Contents (Elt F) → (⟨S20000x128, .f32⟩ : BufTy).Contents (Elt F)),
    StableHlo.binary main_v326 main_v321 main_v327 (addf : (⟨S20000x128, .f32⟩ : BufTy).Contents (Elt F) → (⟨S20000x128, .f32⟩ : BufTy).Contents (Elt F) → (⟨S20000x128, .f32⟩ : BufTy).Contents (Elt F)),
    StableHlo.unary main_arg4 main_v328 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v328 main_v329 rfl shapeCasts_S1x128x128_S128x128,
    StableHlo.binary main_v327 main_v329 main_v330 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    StableHlo.unary main_arg5 main_v331 ((extractStridedSlice S1x128 ![2, 0] · slices_S4x128_S1x128_2_0) : (⟨S4x128, .f32⟩ : BufTy).Contents (Elt F) → (⟨S1x128, .f32⟩ : BufTy).Contents (Elt F)),
    StableHlo.reshape main_v331 main_v332 rfl shapeCasts_S1x128_S128,
    StableHlo.unary main_v332 main_v333 (broadcastInDim S1x128 ![1] bcast_S128_S1x128_1 : (⟨S128, .f32⟩ : BufTy).Contents (Elt F) → (⟨S1x128, .f32⟩ : BufTy).Contents (Elt F)),
    StableHlo.unary main_v333 main_v334 (broadcastInDim S20000x128 ![0, 1] bcast_S1x128_S20000x128_0_1 : (⟨S1x128, .f32⟩ : BufTy).Contents (Elt F) → (⟨S20000x128, .f32⟩ : BufTy).Contents (Elt F)),
    StableHlo.binary main_v330 main_v334 main_v335 (addf : (⟨S20000x128, .f32⟩ : BufTy).Contents (Elt F) → (⟨S20000x128, .f32⟩ : BufTy).Contents (Elt F) → (⟨S20000x128, .f32⟩ : BufTy).Contents (Elt F)) ]

theorem p_l1_2_sub : (p_l1_2 : List (HloOp τ sig (Elt F))).Forall fun op => op.bufs ⊆ tcRefs τ sig :=
  ⟨unary_bufs_sub .., reshape_bufs_sub .., nullary_bufs_sub .., binary_bufs_sub .., unary_bufs_sub .., binary_bufs_sub ..,
    binary_bufs_sub .., unary_bufs_sub .., reshape_bufs_sub .., binary_bufs_sub .., unary_bufs_sub .., reshape_bufs_sub ..,
    unary_bufs_sub .., unary_bufs_sub .., binary_bufs_sub ..⟩
theorem p_l1_2_fresh : (p_l1_2 : List (HloOp τ sig (Elt F))).Forall fun op => op.fresh = ∅ :=
  ⟨rfl, rfl, rfl, rfl, rfl, rfl, rfl, rfl, rfl, rfl, rfl, rfl, rfl, rfl, rfl⟩

/-- Statements 385 to 393 of @main: 9 operations. -/
abbrev p_m1_2 : List (HloOp τ sig (Elt F)) :=
  [ StableHlo.unary main_arg6 main_v336 ((extractStridedSlice S1x128 ![2, 0] · slices_S4x128_S1x128_2_0) : (⟨S4x128, .f32⟩ : BufTy).Contents (Elt F) → (⟨S1x128, .f32⟩ : BufTy).Contents (Elt F)),
    StableHlo.reshape main_v336 main_v337 rfl shapeCasts_S1x128_S128,
    StableHlo.unary main_arg7 main_v338 ((extractStridedSlice S1x128 ![2, 0] · slices_S4x128_S1x128_2_0) : (⟨S4x128, .f32⟩ : BufTy).Contents (Elt F) → (⟨S1x128, .f32⟩ : BufTy).Contents (Elt F)),
    StableHlo.reshape main_v338 main_v339 rfl shapeCasts_S1x128_S128,
    StableHlo.nullary main_cst_46 (constant S_ .f32 0x00000000#32),
    StableHlo.binary main_v335 main_cst_46 main_v340 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    StableHlo.nullary main_cst_47 (constant S_ .f32 0x469C4000#32),
    StableHlo.unary main_cst_47 main_v341 (broadcastInDim S128 ![] bcast_S_S128 : (⟨S_, .f32⟩ : BufTy).Contents (Elt F) → (⟨S128, .f32⟩ : BufTy).Contents (Elt F)),
    StableHlo.binary main_v340 main_v341 main_v342 (Host.divf : (⟨S128, .f32⟩ : BufTy).Contents (Elt F) → (⟨S128, .f32⟩ : BufTy).Contents (Elt F) → (⟨S128, .f32⟩ : BufTy).Contents (Elt F)) ]

theorem p_m1_2_sub : (p_m1_2 : List (HloOp τ sig (Elt F))).Forall fun op => op.bufs ⊆ tcRefs τ sig :=
  ⟨unary_bufs_sub .., reshape_bufs_sub .., unary_bufs_sub .., reshape_bufs_sub .., nullary_bufs_sub .., binary_bufs_sub ..,
    nullary_bufs_sub .., unary_bufs_sub .., binary_bufs_sub ..⟩
theorem p_m1_2_fresh : (p_m1_2 : List (HloOp τ sig (Elt F))).Forall fun op => op.fresh = ∅ :=
  ⟨rfl, rfl, rfl, rfl, rfl, rfl, rfl, rfl, rfl⟩

/-- Statements 394 to 395 of @main: 23 operations. -/
abbrev p_v1_2 : List (HloOp τ sig (Elt F)) :=
  [ StableHlo.nullary main_c_48 (constantI S_ 32 0#32),
    StableHlo.TRef.nullary main_call15.cst (constant S_ .f32 0x00000000#32),
    StableHlo.TRef.binary (.of main_v335) main_call15.cst main_call15.v0 (fun x v => Host.reduceAdd x v reducesTo_S20000x128_S128_d0 h_S_),
    StableHlo.TRef.unary main_call15.v0 main_call15.v1 (broadcastInDim S1x128 ![1] bcast_S128_S1x128_1),
    StableHlo.TRef.nullary main_call15.cst_0 (constant S_ .f32 0x469C4000#32),
    StableHlo.TRef.unary main_call15.cst_0 main_call15.v2 (broadcastInDim S1x128 ![] bcast_S_S1x128),
    StableHlo.TRef.binary main_call15.v1 main_call15.v2 main_call15.v3 Host.divf,
    StableHlo.TRef.unary main_call15.v3 main_call15.v4 (broadcastInDim S20000x128 ![0, 1] bcast_S1x128_S20000x128_0_1),
    StableHlo.TRef.binary (.of main_v335) main_call15.v4 main_call15.v5 subf,
    StableHlo.TRef.binary main_call15.v5 main_call15.v5 main_call15.v6 mulf,
    StableHlo.TRef.unary (.of main_c_48) main_call15.v7 (sitofp .f32),
    StableHlo.TRef.nullary main_call15.cst_1 (constant S_ .f32 0x469C4000#32),
    StableHlo.TRef.binary main_call15.cst_1 main_call15.v7 main_call15.v8 subf,
    StableHlo.TRef.nullary main_call15.cst_2 (constant S_ .f32 0x00000000#32),
    StableHlo.TRef.binary main_call15.v6 main_call15.cst_2 main_call15.v9 (fun x v => Host.reduceAdd x v reducesTo_S20000x128_S128_d0 h_S_),
    StableHlo.TRef.unary main_call15.v8 main_call15.v10 (broadcastInDim S128 ![] bcast_S_S128),
    StableHlo.TRef.binary main_call15.v9 main_call15.v10 main_call15.v11 Host.divf,
    StableHlo.TRef.nullary main_call15.cst_3 (constant S_ .f32 0x00000000#32),
    StableHlo.TRef.binary main_call15.v8 main_call15.cst_3 main_call15.v12 (cmpf .ogt),
    StableHlo.TRef.nullary main_call15.cst_4 (constant S_ .f32 0x7FC00000#32),
    StableHlo.TRef.unary main_call15.cst_4 main_call15.call0.v0 id,
    StableHlo.TRef.unary main_call15.call0.v0 main_call15.call0.v1 (broadcastInDim S128 ![] bcast_S_S128),
    StableHlo.TRef.ternary main_call15.v12 main_call15.v11 main_call15.call0.v1 main_call15.call0.v2 (fun p a b => select (broadcastInDim S128 ![] bcast_S_S128 p) a b) ]

theorem p_v1_2_sub : (p_v1_2 : List (HloOp τ sig (Elt F))).Forall fun op => op.bufs ⊆ tcRefs τ sig :=
  ⟨nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub ..⟩
theorem p_v1_2_fresh : (p_v1_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- Statements 396 to 412 of @main: 19 operations. -/
abbrev p_n1_2 : List (HloOp τ sig (Elt F)) :=
  [ StableHlo.unary main_v342 main_v344 (broadcastInDim S1x128 ![1] bcast_S128_S1x128_1 : (⟨S128, .f32⟩ : BufTy).Contents (Elt F) → (⟨S1x128, .f32⟩ : BufTy).Contents (Elt F)),
    StableHlo.unary main_v344 main_v345 (broadcastInDim S20000x128 ![0, 1] bcast_S1x128_S20000x128_0_1 : (⟨S1x128, .f32⟩ : BufTy).Contents (Elt F) → (⟨S20000x128, .f32⟩ : BufTy).Contents (Elt F)),
    StableHlo.binary main_v335 main_v345 main_v346 (subf : (⟨S20000x128, .f32⟩ : BufTy).Contents (Elt F) → (⟨S20000x128, .f32⟩ : BufTy).Contents (Elt F) → (⟨S20000x128, .f32⟩ : BufTy).Contents (Elt F)),
    StableHlo.nullary main_cst_49 (constant S_ .f32 0x3727C5AC#32),
    StableHlo.unary main_cst_49 main_v347 (broadcastInDim S128 ![] bcast_S_S128 : (⟨S_, .f32⟩ : BufTy).Contents (Elt F) → (⟨S128, .f32⟩ : BufTy).Contents (Elt F)),
    StableHlo.binary main_v343 main_v347 main_v348 (addf : (⟨S128, .f32⟩ : BufTy).Contents (Elt F) → (⟨S128, .f32⟩ : BufTy).Contents (Elt F) → (⟨S128, .f32⟩ : BufTy).Contents (Elt F)),
    StableHlo.unary main_v348 main_v349 (Host.rsqrt : (⟨S128, .f32⟩ : BufTy).Contents (Elt F) → (⟨S128, .f32⟩ : BufTy).Contents (Elt F)),
    StableHlo.unary main_v349 main_v350 (broadcastInDim S1x128 ![1] bcast_S128_S1x128_1 : (⟨S128, .f32⟩ : BufTy).Contents (Elt F) → (⟨S1x128, .f32⟩ : BufTy).Contents (Elt F)),
    StableHlo.unary main_v350 main_v351 (broadcastInDim S20000x128 ![0, 1] bcast_S1x128_S20000x128_0_1 : (⟨S1x128, .f32⟩ : BufTy).Contents (Elt F) → (⟨S20000x128, .f32⟩ : BufTy).Contents (Elt F)),
    StableHlo.binary main_v346 main_v351 main_v352 (mulf : (⟨S20000x128, .f32⟩ : BufTy).Contents (Elt F) → (⟨S20000x128, .f32⟩ : BufTy).Contents (Elt F) → (⟨S20000x128, .f32⟩ : BufTy).Contents (Elt F)),
    StableHlo.unary main_v337 main_v353 (broadcastInDim S1x128 ![1] bcast_S128_S1x128_1 : (⟨S128, .f32⟩ : BufTy).Contents (Elt F) → (⟨S1x128, .f32⟩ : BufTy).Contents (Elt F)),
    StableHlo.unary main_v353 main_v354 (broadcastInDim S20000x128 ![0, 1] bcast_S1x128_S20000x128_0_1 : (⟨S1x128, .f32⟩ : BufTy).Contents (Elt F) → (⟨S20000x128, .f32⟩ : BufTy).Contents (Elt F)),
    StableHlo.binary main_v352 main_v354 main_v355 (mulf : (⟨S20000x128, .f32⟩ : BufTy).Contents (Elt F) → (⟨S20000x128, .f32⟩ : BufTy).Contents (Elt F) → (⟨S20000x128, .f32⟩ : BufTy).Contents (Elt F)),
    StableHlo.unary main_v339 main_v356 (broadcastInDim S1x128 ![1] bcast_S128_S1x128_1 : (⟨S128, .f32⟩ : BufTy).Contents (Elt F) → (⟨S1x128, .f32⟩ : BufTy).Contents (Elt F)),
    StableHlo.unary main_v356 main_v357 (broadcastInDim S20000x128 ![0, 1] bcast_S1x128_S20000x128_0_1 : (⟨S1x128, .f32⟩ : BufTy).Contents (Elt F) → (⟨S20000x128, .f32⟩ : BufTy).Contents (Elt F)),
    StableHlo.binary main_v355 main_v357 main_v358 (addf : (⟨S20000x128, .f32⟩ : BufTy).Contents (Elt F) → (⟨S20000x128, .f32⟩ : BufTy).Contents (Elt F) → (⟨S20000x128, .f32⟩ : BufTy).Contents (Elt F)),
    StableHlo.TRef.nullary main_call16.cst (constant S_ .f32 0x00000000#32),
    StableHlo.TRef.unary main_call16.cst main_call16.v0 (broadcastInDim S20000x128 ![] bcast_S_S20000x128),
    StableHlo.TRef.binary (.of main_v358) main_call16.v0 main_call16.v1 maximumf ]

theorem p_n1_2_sub : (p_n1_2 : List (HloOp τ sig (Elt F))).Forall fun op => op.bufs ⊆ tcRefs τ sig :=
  ⟨unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub ..⟩
theorem p_n1_2_fresh : (p_n1_2 : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- Statements 413 to 420 of @main: 8 operations. -/
abbrev p_l2_2 : List (HloOp τ sig (Elt F)) :=
  [ StableHlo.unary main_arg8 main_v360 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v360 main_v361 rfl shapeCasts_S1x128x128_S128x128,
    StableHlo.binary main_v359 main_v361 main_v362 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    StableHlo.unary main_arg9 main_v363 ((extractStridedSlice S1x128 ![2, 0] · slices_S4x128_S1x128_2_0) : (⟨S4x128, .f32⟩ : BufTy).Contents (Elt F) → (⟨S1x128, .f32⟩ : BufTy).Contents (Elt F)),
    StableHlo.reshape main_v363 main_v364 rfl shapeCasts_S1x128_S128,
    StableHlo.unary main_v364 main_v365 (broadcastInDim S1x128 ![1] bcast_S128_S1x128_1 : (⟨S128, .f32⟩ : BufTy).Contents (Elt F) → (⟨S1x128, .f32⟩ : BufTy).Contents (Elt F)),
    StableHlo.unary main_v365 main_v366 (broadcastInDim S20000x128 ![0, 1] bcast_S1x128_S20000x128_0_1 : (⟨S1x128, .f32⟩ : BufTy).Contents (Elt F) → (⟨S20000x128, .f32⟩ : BufTy).Contents (Elt F)),
    StableHlo.binary main_v362 main_v366 main_v367 (addf : (⟨S20000x128, .f32⟩ : BufTy).Contents (Elt F) → (⟨S20000x128, .f32⟩ : BufTy).Contents (Elt F) → (⟨S20000x128, .f32⟩ : BufTy).Contents (Elt F)) ]

theorem p_l2_2_sub : (p_l2_2 : List (HloOp τ sig (Elt F))).Forall fun op => op.bufs ⊆ tcRefs τ sig :=
  ⟨unary_bufs_sub .., reshape_bufs_sub .., binary_bufs_sub .., unary_bufs_sub .., reshape_bufs_sub .., unary_bufs_sub ..,
    unary_bufs_sub .., binary_bufs_sub ..⟩
theorem p_l2_2_fresh : (p_l2_2 : List (HloOp τ sig (Elt F))).Forall fun op => op.fresh = ∅ :=
  ⟨rfl, rfl, rfl, rfl, rfl, rfl, rfl, rfl⟩

/-- Statements 421 to 429 of @main: 9 operations. -/
abbrev p_m2_2 : List (HloOp τ sig (Elt F)) :=
  [ StableHlo.unary main_arg10 main_v368 ((extractStridedSlice S1x128 ![2, 0] · slices_S4x128_S1x128_2_0) : (⟨S4x128, .f32⟩ : BufTy).Contents (Elt F) → (⟨S1x128, .f32⟩ : BufTy).Contents (Elt F)),
    StableHlo.reshape main_v368 main_v369 rfl shapeCasts_S1x128_S128,
    StableHlo.unary main_arg11 main_v370 ((extractStridedSlice S1x128 ![2, 0] · slices_S4x128_S1x128_2_0) : (⟨S4x128, .f32⟩ : BufTy).Contents (Elt F) → (⟨S1x128, .f32⟩ : BufTy).Contents (Elt F)),
    StableHlo.reshape main_v370 main_v371 rfl shapeCasts_S1x128_S128,
    StableHlo.nullary main_cst_50 (constant S_ .f32 0x00000000#32),
    StableHlo.binary main_v367 main_cst_50 main_v372 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    StableHlo.nullary main_cst_51 (constant S_ .f32 0x469C4000#32),
    StableHlo.unary main_cst_51 main_v373 (broadcastInDim S128 ![] bcast_S_S128 : (⟨S_, .f32⟩ : BufTy).Contents (Elt F) → (⟨S128, .f32⟩ : BufTy).Contents (Elt F)),
    StableHlo.binary main_v372 main_v373 main_v374 (Host.divf : (⟨S128, .f32⟩ : BufTy).Contents (Elt F) → (⟨S128, .f32⟩ : BufTy).Contents (Elt F) → (⟨S128, .f32⟩ : BufTy).Contents (Elt F)) ]

theorem p_m2_2_sub : (p_m2_2 : List (HloOp τ sig (Elt F))).Forall fun op => op.bufs ⊆ tcRefs τ sig :=
  ⟨unary_bufs_sub .., reshape_bufs_sub .., unary_bufs_sub .., reshape_bufs_sub .., nullary_bufs_sub .., binary_bufs_sub ..,
    nullary_bufs_sub .., unary_bufs_sub .., binary_bufs_sub ..⟩
theorem p_m2_2_fresh : (p_m2_2 : List (HloOp τ sig (Elt F))).Forall fun op => op.fresh = ∅ :=
  ⟨rfl, rfl, rfl, rfl, rfl, rfl, rfl, rfl, rfl⟩

/-- Statements 430 to 431 of @main: 23 operations. -/
abbrev p_v2_2 : List (HloOp τ sig (Elt F)) :=
  [ StableHlo.nullary main_c_52 (constantI S_ 32 0#32),
    StableHlo.TRef.nullary main_call17.cst (constant S_ .f32 0x00000000#32),
    StableHlo.TRef.binary (.of main_v367) main_call17.cst main_call17.v0 (fun x v => Host.reduceAdd x v reducesTo_S20000x128_S128_d0 h_S_),
    StableHlo.TRef.unary main_call17.v0 main_call17.v1 (broadcastInDim S1x128 ![1] bcast_S128_S1x128_1),
    StableHlo.TRef.nullary main_call17.cst_0 (constant S_ .f32 0x469C4000#32),
    StableHlo.TRef.unary main_call17.cst_0 main_call17.v2 (broadcastInDim S1x128 ![] bcast_S_S1x128),
    StableHlo.TRef.binary main_call17.v1 main_call17.v2 main_call17.v3 Host.divf,
    StableHlo.TRef.unary main_call17.v3 main_call17.v4 (broadcastInDim S20000x128 ![0, 1] bcast_S1x128_S20000x128_0_1),
    StableHlo.TRef.binary (.of main_v367) main_call17.v4 main_call17.v5 subf,
    StableHlo.TRef.binary main_call17.v5 main_call17.v5 main_call17.v6 mulf,
    StableHlo.TRef.unary (.of main_c_52) main_call17.v7 (sitofp .f32),
    StableHlo.TRef.nullary main_call17.cst_1 (constant S_ .f32 0x469C4000#32),
    StableHlo.TRef.binary main_call17.cst_1 main_call17.v7 main_call17.v8 subf,
    StableHlo.TRef.nullary main_call17.cst_2 (constant S_ .f32 0x00000000#32),
    StableHlo.TRef.binary main_call17.v6 main_call17.cst_2 main_call17.v9 (fun x v => Host.reduceAdd x v reducesTo_S20000x128_S128_d0 h_S_),
    StableHlo.TRef.unary main_call17.v8 main_call17.v10 (broadcastInDim S128 ![] bcast_S_S128),
    StableHlo.TRef.binary main_call17.v9 main_call17.v10 main_call17.v11 Host.divf,
    StableHlo.TRef.nullary main_call17.cst_3 (constant S_ .f32 0x00000000#32),
    StableHlo.TRef.binary main_call17.v8 main_call17.cst_3 main_call17.v12 (cmpf .ogt),
    StableHlo.TRef.nullary main_call17.cst_4 (constant S_ .f32 0x7FC00000#32),
    StableHlo.TRef.unary main_call17.cst_4 main_call17.call0.v0 id,
    StableHlo.TRef.unary main_call17.call0.v0 main_call17.call0.v1 (broadcastInDim S128 ![] bcast_S_S128),
    StableHlo.TRef.ternary main_call17.v12 main_call17.v11 main_call17.call0.v1 main_call17.call0.v2 (fun p a b => select (broadcastInDim S128 ![] bcast_S_S128 p) a b) ]

theorem p_v2_2_sub : (p_v2_2 : List (HloOp τ sig (Elt F))).Forall fun op => op.bufs ⊆ tcRefs τ sig :=
  ⟨nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub ..⟩
theorem p_v2_2_fresh : (p_v2_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- Statements 432 to 448 of @main: 19 operations. -/
abbrev p_n2_2 : List (HloOp τ sig (Elt F)) :=
  [ StableHlo.unary main_v374 main_v376 (broadcastInDim S1x128 ![1] bcast_S128_S1x128_1 : (⟨S128, .f32⟩ : BufTy).Contents (Elt F) → (⟨S1x128, .f32⟩ : BufTy).Contents (Elt F)),
    StableHlo.unary main_v376 main_v377 (broadcastInDim S20000x128 ![0, 1] bcast_S1x128_S20000x128_0_1 : (⟨S1x128, .f32⟩ : BufTy).Contents (Elt F) → (⟨S20000x128, .f32⟩ : BufTy).Contents (Elt F)),
    StableHlo.binary main_v367 main_v377 main_v378 (subf : (⟨S20000x128, .f32⟩ : BufTy).Contents (Elt F) → (⟨S20000x128, .f32⟩ : BufTy).Contents (Elt F) → (⟨S20000x128, .f32⟩ : BufTy).Contents (Elt F)),
    StableHlo.nullary main_cst_53 (constant S_ .f32 0x3727C5AC#32),
    StableHlo.unary main_cst_53 main_v379 (broadcastInDim S128 ![] bcast_S_S128 : (⟨S_, .f32⟩ : BufTy).Contents (Elt F) → (⟨S128, .f32⟩ : BufTy).Contents (Elt F)),
    StableHlo.binary main_v375 main_v379 main_v380 (addf : (⟨S128, .f32⟩ : BufTy).Contents (Elt F) → (⟨S128, .f32⟩ : BufTy).Contents (Elt F) → (⟨S128, .f32⟩ : BufTy).Contents (Elt F)),
    StableHlo.unary main_v380 main_v381 (Host.rsqrt : (⟨S128, .f32⟩ : BufTy).Contents (Elt F) → (⟨S128, .f32⟩ : BufTy).Contents (Elt F)),
    StableHlo.unary main_v381 main_v382 (broadcastInDim S1x128 ![1] bcast_S128_S1x128_1 : (⟨S128, .f32⟩ : BufTy).Contents (Elt F) → (⟨S1x128, .f32⟩ : BufTy).Contents (Elt F)),
    StableHlo.unary main_v382 main_v383 (broadcastInDim S20000x128 ![0, 1] bcast_S1x128_S20000x128_0_1 : (⟨S1x128, .f32⟩ : BufTy).Contents (Elt F) → (⟨S20000x128, .f32⟩ : BufTy).Contents (Elt F)),
    StableHlo.binary main_v378 main_v383 main_v384 (mulf : (⟨S20000x128, .f32⟩ : BufTy).Contents (Elt F) → (⟨S20000x128, .f32⟩ : BufTy).Contents (Elt F) → (⟨S20000x128, .f32⟩ : BufTy).Contents (Elt F)),
    StableHlo.unary main_v369 main_v385 (broadcastInDim S1x128 ![1] bcast_S128_S1x128_1 : (⟨S128, .f32⟩ : BufTy).Contents (Elt F) → (⟨S1x128, .f32⟩ : BufTy).Contents (Elt F)),
    StableHlo.unary main_v385 main_v386 (broadcastInDim S20000x128 ![0, 1] bcast_S1x128_S20000x128_0_1 : (⟨S1x128, .f32⟩ : BufTy).Contents (Elt F) → (⟨S20000x128, .f32⟩ : BufTy).Contents (Elt F)),
    StableHlo.binary main_v384 main_v386 main_v387 (mulf : (⟨S20000x128, .f32⟩ : BufTy).Contents (Elt F) → (⟨S20000x128, .f32⟩ : BufTy).Contents (Elt F) → (⟨S20000x128, .f32⟩ : BufTy).Contents (Elt F)),
    StableHlo.unary main_v371 main_v388 (broadcastInDim S1x128 ![1] bcast_S128_S1x128_1 : (⟨S128, .f32⟩ : BufTy).Contents (Elt F) → (⟨S1x128, .f32⟩ : BufTy).Contents (Elt F)),
    StableHlo.unary main_v388 main_v389 (broadcastInDim S20000x128 ![0, 1] bcast_S1x128_S20000x128_0_1 : (⟨S1x128, .f32⟩ : BufTy).Contents (Elt F) → (⟨S20000x128, .f32⟩ : BufTy).Contents (Elt F)),
    StableHlo.binary main_v387 main_v389 main_v390 (addf : (⟨S20000x128, .f32⟩ : BufTy).Contents (Elt F) → (⟨S20000x128, .f32⟩ : BufTy).Contents (Elt F) → (⟨S20000x128, .f32⟩ : BufTy).Contents (Elt F)),
    StableHlo.TRef.nullary main_call18.cst (constant S_ .f32 0x00000000#32),
    StableHlo.TRef.unary main_call18.cst main_call18.v0 (broadcastInDim S20000x128 ![] bcast_S_S20000x128),
    StableHlo.TRef.binary (.of main_v390) main_call18.v0 main_call18.v1 maximumf ]

theorem p_n2_2_sub : (p_n2_2 : List (HloOp τ sig (Elt F))).Forall fun op => op.bufs ⊆ tcRefs τ sig :=
  ⟨unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub ..⟩
theorem p_n2_2_fresh : (p_n2_2 : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- Statements 449 to 457 of @main: 9 operations. -/
abbrev p_m3_2 : List (HloOp τ sig (Elt F)) :=
  [ StableHlo.unary main_arg12 main_v392 ((extractStridedSlice S1x128 ![2, 0] · slices_S4x128_S1x128_2_0) : (⟨S4x128, .f32⟩ : BufTy).Contents (Elt F) → (⟨S1x128, .f32⟩ : BufTy).Contents (Elt F)),
    StableHlo.reshape main_v392 main_v393 rfl shapeCasts_S1x128_S128,
    StableHlo.unary main_arg13 main_v394 ((extractStridedSlice S1x128 ![2, 0] · slices_S4x128_S1x128_2_0) : (⟨S4x128, .f32⟩ : BufTy).Contents (Elt F) → (⟨S1x128, .f32⟩ : BufTy).Contents (Elt F)),
    StableHlo.reshape main_v394 main_v395 rfl shapeCasts_S1x128_S128,
    StableHlo.nullary main_cst_54 (constant S_ .f32 0x00000000#32),
    StableHlo.binary main_v391 main_cst_54 main_v396 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    StableHlo.nullary main_cst_55 (constant S_ .f32 0x469C4000#32),
    StableHlo.unary main_cst_55 main_v397 (broadcastInDim S128 ![] bcast_S_S128 : (⟨S_, .f32⟩ : BufTy).Contents (Elt F) → (⟨S128, .f32⟩ : BufTy).Contents (Elt F)),
    StableHlo.binary main_v396 main_v397 main_v398 (Host.divf : (⟨S128, .f32⟩ : BufTy).Contents (Elt F) → (⟨S128, .f32⟩ : BufTy).Contents (Elt F) → (⟨S128, .f32⟩ : BufTy).Contents (Elt F)) ]

theorem p_m3_2_sub : (p_m3_2 : List (HloOp τ sig (Elt F))).Forall fun op => op.bufs ⊆ tcRefs τ sig :=
  ⟨unary_bufs_sub .., reshape_bufs_sub .., unary_bufs_sub .., reshape_bufs_sub .., nullary_bufs_sub .., binary_bufs_sub ..,
    nullary_bufs_sub .., unary_bufs_sub .., binary_bufs_sub ..⟩
theorem p_m3_2_fresh : (p_m3_2 : List (HloOp τ sig (Elt F))).Forall fun op => op.fresh = ∅ :=
  ⟨rfl, rfl, rfl, rfl, rfl, rfl, rfl, rfl, rfl⟩

/-- Statements 458 to 459 of @main: 23 operations. -/
abbrev p_v3_2 : List (HloOp τ sig (Elt F)) :=
  [ StableHlo.nullary main_c_56 (constantI S_ 32 0#32),
    StableHlo.TRef.nullary main_call19.cst (constant S_ .f32 0x00000000#32),
    StableHlo.TRef.binary (.of main_v391) main_call19.cst main_call19.v0 (fun x v => Host.reduceAdd x v reducesTo_S20000x128_S128_d0 h_S_),
    StableHlo.TRef.unary main_call19.v0 main_call19.v1 (broadcastInDim S1x128 ![1] bcast_S128_S1x128_1),
    StableHlo.TRef.nullary main_call19.cst_0 (constant S_ .f32 0x469C4000#32),
    StableHlo.TRef.unary main_call19.cst_0 main_call19.v2 (broadcastInDim S1x128 ![] bcast_S_S1x128),
    StableHlo.TRef.binary main_call19.v1 main_call19.v2 main_call19.v3 Host.divf,
    StableHlo.TRef.unary main_call19.v3 main_call19.v4 (broadcastInDim S20000x128 ![0, 1] bcast_S1x128_S20000x128_0_1),
    StableHlo.TRef.binary (.of main_v391) main_call19.v4 main_call19.v5 subf,
    StableHlo.TRef.binary main_call19.v5 main_call19.v5 main_call19.v6 mulf,
    StableHlo.TRef.unary (.of main_c_56) main_call19.v7 (sitofp .f32),
    StableHlo.TRef.nullary main_call19.cst_1 (constant S_ .f32 0x469C4000#32),
    StableHlo.TRef.binary main_call19.cst_1 main_call19.v7 main_call19.v8 subf,
    StableHlo.TRef.nullary main_call19.cst_2 (constant S_ .f32 0x00000000#32),
    StableHlo.TRef.binary main_call19.v6 main_call19.cst_2 main_call19.v9 (fun x v => Host.reduceAdd x v reducesTo_S20000x128_S128_d0 h_S_),
    StableHlo.TRef.unary main_call19.v8 main_call19.v10 (broadcastInDim S128 ![] bcast_S_S128),
    StableHlo.TRef.binary main_call19.v9 main_call19.v10 main_call19.v11 Host.divf,
    StableHlo.TRef.nullary main_call19.cst_3 (constant S_ .f32 0x00000000#32),
    StableHlo.TRef.binary main_call19.v8 main_call19.cst_3 main_call19.v12 (cmpf .ogt),
    StableHlo.TRef.nullary main_call19.cst_4 (constant S_ .f32 0x7FC00000#32),
    StableHlo.TRef.unary main_call19.cst_4 main_call19.call0.v0 id,
    StableHlo.TRef.unary main_call19.call0.v0 main_call19.call0.v1 (broadcastInDim S128 ![] bcast_S_S128),
    StableHlo.TRef.ternary main_call19.v12 main_call19.v11 main_call19.call0.v1 main_call19.call0.v2 (fun p a b => select (broadcastInDim S128 ![] bcast_S_S128 p) a b) ]

theorem p_v3_2_sub : (p_v3_2 : List (HloOp τ sig (Elt F))).Forall fun op => op.bufs ⊆ tcRefs τ sig :=
  ⟨nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub ..⟩
theorem p_v3_2_fresh : (p_v3_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- Statements 460 to 476 of @main: 19 operations. -/
abbrev p_n3_2 : List (HloOp τ sig (Elt F)) :=
  [ StableHlo.unary main_v398 main_v400 (broadcastInDim S1x128 ![1] bcast_S128_S1x128_1 : (⟨S128, .f32⟩ : BufTy).Contents (Elt F) → (⟨S1x128, .f32⟩ : BufTy).Contents (Elt F)),
    StableHlo.unary main_v400 main_v401 (broadcastInDim S20000x128 ![0, 1] bcast_S1x128_S20000x128_0_1 : (⟨S1x128, .f32⟩ : BufTy).Contents (Elt F) → (⟨S20000x128, .f32⟩ : BufTy).Contents (Elt F)),
    StableHlo.binary main_v391 main_v401 main_v402 (subf : (⟨S20000x128, .f32⟩ : BufTy).Contents (Elt F) → (⟨S20000x128, .f32⟩ : BufTy).Contents (Elt F) → (⟨S20000x128, .f32⟩ : BufTy).Contents (Elt F)),
    StableHlo.nullary main_cst_57 (constant S_ .f32 0x3727C5AC#32),
    StableHlo.unary main_cst_57 main_v403 (broadcastInDim S128 ![] bcast_S_S128 : (⟨S_, .f32⟩ : BufTy).Contents (Elt F) → (⟨S128, .f32⟩ : BufTy).Contents (Elt F)),
    StableHlo.binary main_v399 main_v403 main_v404 (addf : (⟨S128, .f32⟩ : BufTy).Contents (Elt F) → (⟨S128, .f32⟩ : BufTy).Contents (Elt F) → (⟨S128, .f32⟩ : BufTy).Contents (Elt F)),
    StableHlo.unary main_v404 main_v405 (Host.rsqrt : (⟨S128, .f32⟩ : BufTy).Contents (Elt F) → (⟨S128, .f32⟩ : BufTy).Contents (Elt F)),
    StableHlo.unary main_v405 main_v406 (broadcastInDim S1x128 ![1] bcast_S128_S1x128_1 : (⟨S128, .f32⟩ : BufTy).Contents (Elt F) → (⟨S1x128, .f32⟩ : BufTy).Contents (Elt F)),
    StableHlo.unary main_v406 main_v407 (broadcastInDim S20000x128 ![0, 1] bcast_S1x128_S20000x128_0_1 : (⟨S1x128, .f32⟩ : BufTy).Contents (Elt F) → (⟨S20000x128, .f32⟩ : BufTy).Contents (Elt F)),
    StableHlo.binary main_v402 main_v407 main_v408 (mulf : (⟨S20000x128, .f32⟩ : BufTy).Contents (Elt F) → (⟨S20000x128, .f32⟩ : BufTy).Contents (Elt F) → (⟨S20000x128, .f32⟩ : BufTy).Contents (Elt F)),
    StableHlo.unary main_v393 main_v409 (broadcastInDim S1x128 ![1] bcast_S128_S1x128_1 : (⟨S128, .f32⟩ : BufTy).Contents (Elt F) → (⟨S1x128, .f32⟩ : BufTy).Contents (Elt F)),
    StableHlo.unary main_v409 main_v410 (broadcastInDim S20000x128 ![0, 1] bcast_S1x128_S20000x128_0_1 : (⟨S1x128, .f32⟩ : BufTy).Contents (Elt F) → (⟨S20000x128, .f32⟩ : BufTy).Contents (Elt F)),
    StableHlo.binary main_v408 main_v410 main_v411 (mulf : (⟨S20000x128, .f32⟩ : BufTy).Contents (Elt F) → (⟨S20000x128, .f32⟩ : BufTy).Contents (Elt F) → (⟨S20000x128, .f32⟩ : BufTy).Contents (Elt F)),
    StableHlo.unary main_v395 main_v412 (broadcastInDim S1x128 ![1] bcast_S128_S1x128_1 : (⟨S128, .f32⟩ : BufTy).Contents (Elt F) → (⟨S1x128, .f32⟩ : BufTy).Contents (Elt F)),
    StableHlo.unary main_v412 main_v413 (broadcastInDim S20000x128 ![0, 1] bcast_S1x128_S20000x128_0_1 : (⟨S1x128, .f32⟩ : BufTy).Contents (Elt F) → (⟨S20000x128, .f32⟩ : BufTy).Contents (Elt F)),
    StableHlo.binary main_v411 main_v413 main_v414 (addf : (⟨S20000x128, .f32⟩ : BufTy).Contents (Elt F) → (⟨S20000x128, .f32⟩ : BufTy).Contents (Elt F) → (⟨S20000x128, .f32⟩ : BufTy).Contents (Elt F)),
    StableHlo.TRef.nullary main_call20.cst (constant S_ .f32 0x00000000#32),
    StableHlo.TRef.unary main_call20.cst main_call20.v0 (broadcastInDim S20000x128 ![] bcast_S_S20000x128),
    StableHlo.TRef.binary (.of main_v414) main_call20.v0 main_call20.v1 maximumf ]

theorem p_n3_2_sub : (p_n3_2 : List (HloOp τ sig (Elt F))).Forall fun op => op.bufs ⊆ tcRefs τ sig :=
  ⟨unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub ..⟩
theorem p_n3_2_fresh : (p_n3_2 : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- Statements 477 to 477 of @main: 1 operation. -/
abbrev p_rs_2 : List (HloOp τ sig (Elt F)) :=
  [ StableHlo.binary main_v278 main_v415 main_v416 (addf : (⟨S20000x128, .f32⟩ : BufTy).Contents (Elt F) → (⟨S20000x128, .f32⟩ : BufTy).Contents (Elt F) → (⟨S20000x128, .f32⟩ : BufTy).Contents (Elt F)) ]

theorem p_rs_2_sub : (p_rs_2 : List (HloOp τ sig (Elt F))).Forall fun op => op.bufs ⊆ tcRefs τ sig :=
  binary_bufs_sub ..
theorem p_rs_2_fresh : (p_rs_2 : List (HloOp τ sig (Elt F))).Forall fun op => op.fresh = ∅ :=
  rfl

/-- Statements 478 to 480 of @main: 3 operations. -/
abbrev p_hg_3_a : List (HloOp τ sig (Elt F)) :=
  [ StableHlo.nullary main_c_58 (constantI S_ 32 0#32),
    StableHlo.unary main_c_58 main_v417 (broadcastInDim S320000 ![] bcast_S_S320000 : (⟨S_, .i32⟩ : BufTy).Contents (Elt F) → (⟨S320000, .i32⟩ : BufTy).Contents (Elt F)),
    StableHlo.binary main_arg18 main_v417 main_v418 (cmpi .slt : (⟨S320000, .i32⟩ : BufTy).Contents (Elt F) → (⟨S320000, .i32⟩ : BufTy).Contents (Elt F) → (⟨S320000, .i1⟩ : BufTy).Contents (Elt F)) ]

theorem p_hg_3_a_sub : (p_hg_3_a : List (HloOp τ sig (Elt F))).Forall fun op => op.bufs ⊆ tcRefs τ sig :=
  ⟨nullary_bufs_sub .., unary_bufs_sub .., binary_bufs_sub ..⟩
theorem p_hg_3_a_fresh : (p_hg_3_a : List (HloOp τ sig (Elt F))).Forall fun op => op.fresh = ∅ :=
  ⟨rfl, rfl, rfl⟩

/-- Statements 481 to 495 of @main: 15 operations. -/
abbrev p_hg_3_b : List (HloOp τ sig (Elt F)) :=
  [ StableHlo.nullary main_c_59 (constantI S_ 32 20000#32),
    StableHlo.unary main_c_59 main_v419 (broadcastInDim S320000 ![] bcast_S_S320000 : (⟨S_, .i32⟩ : BufTy).Contents (Elt F) → (⟨S320000, .i32⟩ : BufTy).Contents (Elt F)),
    StableHlo.binary main_arg18 main_v419 main_v420 (addi : (⟨S320000, .i32⟩ : BufTy).Contents (Elt F) → (⟨S320000, .i32⟩ : BufTy).Contents (Elt F) → (⟨S320000, .i32⟩ : BufTy).Contents (Elt F)),
    StableHlo.ternary main_v418 main_v420 main_arg18 main_v421 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v421 main_v422 (broadcastInDim S320000x1 ![0] bcast_S320000_S320000x1_0 : (⟨S320000, .i32⟩ : BufTy).Contents (Elt F) → (⟨S320000x1, .i32⟩ : BufTy).Contents (Elt F)),
    StableHlo.binary main_v416 main_v422 main_v423 ((fun x i => Host.gather gather_S20000x128_S320000x1_S320000x128_1_0_n_n_0_1_1128 x i) : (⟨S20000x128, .f32⟩ : BufTy).Contents (Elt F) → (⟨S320000x1, .i32⟩ : BufTy).Contents (Elt F) → (⟨S320000x128, .f32⟩ : BufTy).Contents (Elt F)),
    StableHlo.nullary main_c_60 (constantI S_ 32 0#32),
    StableHlo.unary main_c_60 main_v424 (broadcastInDim S320000 ![] bcast_S_S320000 : (⟨S_, .i32⟩ : BufTy).Contents (Elt F) → (⟨S320000, .i32⟩ : BufTy).Contents (Elt F)),
    StableHlo.binary main_arg19 main_v424 main_v425 (cmpi .slt : (⟨S320000, .i32⟩ : BufTy).Contents (Elt F) → (⟨S320000, .i32⟩ : BufTy).Contents (Elt F) → (⟨S320000, .i1⟩ : BufTy).Contents (Elt F)),
    StableHlo.nullary main_c_61 (constantI S_ 32 20000#32),
    StableHlo.unary main_c_61 main_v426 (broadcastInDim S320000 ![] bcast_S_S320000 : (⟨S_, .i32⟩ : BufTy).Contents (Elt F) → (⟨S320000, .i32⟩ : BufTy).Contents (Elt F)),
    StableHlo.binary main_arg19 main_v426 main_v427 (addi : (⟨S320000, .i32⟩ : BufTy).Contents (Elt F) → (⟨S320000, .i32⟩ : BufTy).Contents (Elt F) → (⟨S320000, .i32⟩ : BufTy).Contents (Elt F)),
    StableHlo.ternary main_v425 main_v427 main_arg19 main_v428 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v428 main_v429 (broadcastInDim S320000x1 ![0] bcast_S320000_S320000x1_0 : (⟨S320000, .i32⟩ : BufTy).Contents (Elt F) → (⟨S320000x1, .i32⟩ : BufTy).Contents (Elt F)),
    StableHlo.binary main_v416 main_v429 main_v430 ((fun x i => Host.gather gather_S20000x128_S320000x1_S320000x128_1_0_n_n_0_1_1128 x i) : (⟨S20000x128, .f32⟩ : BufTy).Contents (Elt F) → (⟨S320000x1, .i32⟩ : BufTy).Contents (Elt F) → (⟨S320000x128, .f32⟩ : BufTy).Contents (Elt F)) ]

theorem p_hg_3_b_sub : (p_hg_3_b : List (HloOp τ sig (Elt F))).Forall fun op => op.bufs ⊆ tcRefs τ sig :=
  ⟨nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub ..⟩
theorem p_hg_3_b_fresh : (p_hg_3_b : List (HloOp τ sig (Elt F))).Forall fun op => op.fresh = ∅ :=
  ⟨rfl, rfl, rfl, rfl, rfl, rfl, rfl, rfl, rfl, rfl, rfl, rfl, rfl, rfl, rfl⟩

/-- Statements 496 to 513 of @main: 20 operations. -/
abbrev p_hs_3 : List (HloOp τ sig (Elt F)) :=
  [ StableHlo.binary main_v423 main_v430 main_v431 ((fun a b => concatenate S320000x256 1 [⟨S320000x128, a⟩, ⟨S320000x128, b⟩] concatenates_S320000x128_S320000x128_S320000x256_d1) : (⟨S320000x128, .f32⟩ : BufTy).Contents (Elt F) → (⟨S320000x128, .f32⟩ : BufTy).Contents (Elt F) → (⟨S320000x256, .f32⟩ : BufTy).Contents (Elt F)),
    StableHlo.unary main_arg14 main_v432 ((extractStridedSlice S1x256x128 ![3, 0, 0] · slices_S5x256x128_S1x256x128_3_0_0) : (⟨S5x256x128, .f32⟩ : BufTy).Contents (Elt F) → (⟨S1x256x128, .f32⟩ : BufTy).Contents (Elt F)),
    StableHlo.reshape main_v432 main_v433 rfl shapeCasts_S1x256x128_S256x128,
    StableHlo.binary main_v431 main_v433 main_v434 ((fun l r => Host.dotGeneral dot_S320000x256_S256x128_S320000x128_1_0_0_1_n_n none l r) : (⟨S320000x256, .f32⟩ : BufTy).Contents (Elt F) → (⟨S256x128, .f32⟩ : BufTy).Contents (Elt F) → (⟨S320000x128, .f32⟩ : BufTy).Contents (Elt F)),
    StableHlo.unary main_arg15 main_v435 ((extractStridedSlice S1x128 ![3, 0] · slices_S5x128_S1x128_3_0) : (⟨S5x128, .f32⟩ : BufTy).Contents (Elt F) → (⟨S1x128, .f32⟩ : BufTy).Contents (Elt F)),
    StableHlo.reshape main_v435 main_v436 rfl shapeCasts_S1x128_S128,
    StableHlo.unary main_v436 main_v437 (broadcastInDim S1x128 ![1] bcast_S128_S1x128_1 : (⟨S128, .f32⟩ : BufTy).Contents (Elt F) → (⟨S1x128, .f32⟩ : BufTy).Contents (Elt F)),
    StableHlo.unary main_v437 main_v438 (broadcastInDim S320000x128 ![0, 1] bcast_S1x128_S320000x128_0_1 : (⟨S1x128, .f32⟩ : BufTy).Contents (Elt F) → (⟨S320000x128, .f32⟩ : BufTy).Contents (Elt F)),
    StableHlo.binary main_v434 main_v438 main_v439 (addf : (⟨S320000x128, .f32⟩ : BufTy).Contents (Elt F) → (⟨S320000x128, .f32⟩ : BufTy).Contents (Elt F) → (⟨S320000x128, .f32⟩ : BufTy).Contents (Elt F)),
    StableHlo.TRef.nullary main_call21.cst (constant S_ .f32 0x00000000#32),
    StableHlo.TRef.unary main_call21.cst main_call21.v0 (broadcastInDim S320000x128 ![] bcast_S_S320000x128),
    StableHlo.TRef.binary (.of main_v439) main_call21.v0 main_call21.v1 maximumf,
    StableHlo.unary main_arg16 main_v441 ((extractStridedSlice S1x128x2 ![3, 0, 0] · slices_S5x128x2_S1x128x2_3_0_0) : (⟨S5x128x2, .f32⟩ : BufTy).Contents (Elt F) → (⟨S1x128x2, .f32⟩ : BufTy).Contents (Elt F)),
    StableHlo.reshape main_v441 main_v442 rfl shapeCasts_S1x128x2_S128x2,
    StableHlo.binary main_v440 main_v442 main_v443 ((fun l r => Host.dotGeneral dot_S320000x128_S128x2_S320000x2_1_0_0_1_n_n none l r) : (⟨S320000x128, .f32⟩ : BufTy).Contents (Elt F) → (⟨S128x2, .f32⟩ : BufTy).Contents (Elt F) → (⟨S320000x2, .f32⟩ : BufTy).Contents (Elt F)),
    StableHlo.unary main_arg17 main_v444 ((extractStridedSlice S1x2 ![3, 0] · slices_S5x2_S1x2_3_0) : (⟨S5x2, .f32⟩ : BufTy).Contents (Elt F) → (⟨S1x2, .f32⟩ : BufTy).Contents (Elt F)),
    StableHlo.reshape main_v444 main_v445 rfl shapeCasts_S1x2_S2,
    StableHlo.unary main_v445 main_v446 (broadcastInDim S1x2 ![1] bcast_S2_S1x2_1 : (⟨S2, .f32⟩ : BufTy).Contents (Elt F) → (⟨S1x2, .f32⟩ : BufTy).Contents (Elt F)),
    StableHlo.unary main_v446 main_v447 (broadcastInDim S320000x2 ![0, 1] bcast_S1x2_S320000x2_0_1 : (⟨S1x2, .f32⟩ : BufTy).Contents (Elt F) → (⟨S320000x2, .f32⟩ : BufTy).Contents (Elt F)),
    StableHlo.binary main_v443 main_v447 main_v448 (addf : (⟨S320000x2, .f32⟩ : BufTy).Contents (Elt F) → (⟨S320000x2, .f32⟩ : BufTy).Contents (Elt F) → (⟨S320000x2, .f32⟩ : BufTy).Contents (Elt F)) ]

theorem p_hs_3_sub : (p_hs_3 : List (HloOp τ sig (Elt F))).Forall fun op => op.bufs ⊆ tcRefs τ sig :=
  ⟨binary_bufs_sub .., unary_bufs_sub .., reshape_bufs_sub .., binary_bufs_sub .., unary_bufs_sub .., reshape_bufs_sub ..,
    unary_bufs_sub .., unary_bufs_sub .., binary_bufs_sub .., nullary_bufs_sub .., unary_bufs_sub .., binary_bufs_sub ..,
    unary_bufs_sub .., reshape_bufs_sub .., binary_bufs_sub .., unary_bufs_sub .., reshape_bufs_sub .., unary_bufs_sub ..,
    unary_bufs_sub .., binary_bufs_sub ..⟩
theorem p_hs_3_fresh : (p_hs_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

/-- Statements 514 to 514 of @main: 1 operation. -/
abbrev p_ad_3 : List (HloOp τ sig (Elt F)) :=
  [ StableHlo.binary main_v311 main_v448 main_v449 (addf : (⟨S320000x2, .f32⟩ : BufTy).Contents (Elt F) → (⟨S320000x2, .f32⟩ : BufTy).Contents (Elt F) → (⟨S320000x2, .f32⟩ : BufTy).Contents (Elt F)) ]

theorem p_ad_3_sub : (p_ad_3 : List (HloOp τ sig (Elt F))).Forall fun op => op.bufs ⊆ tcRefs τ sig :=
  binary_bufs_sub ..
theorem p_ad_3_fresh : (p_ad_3 : List (HloOp τ sig (Elt F))).Forall fun op => op.fresh = ∅ :=
  rfl

/-- Statements 515 to 527 of @main: 13 operations. -/
abbrev p_ng_3 : List (HloOp τ sig (Elt F)) :=
  [ StableHlo.nullary main_c_62 (constantI S_ 32 0#32),
    StableHlo.unary main_c_62 main_v450 (broadcastInDim S320000 ![] bcast_S_S320000 : (⟨S_, .i32⟩ : BufTy).Contents (Elt F) → (⟨S320000, .i32⟩ : BufTy).Contents (Elt F)),
    StableHlo.binary main_arg18 main_v450 main_v451 (cmpi .slt : (⟨S320000, .i32⟩ : BufTy).Contents (Elt F) → (⟨S320000, .i32⟩ : BufTy).Contents (Elt F) → (⟨S320000, .i1⟩ : BufTy).Contents (Elt F)),
    StableHlo.nullary main_c_63 (constantI S_ 32 20000#32),
    StableHlo.unary main_c_63 main_v452 (broadcastInDim S320000 ![] bcast_S_S320000 : (⟨S_, .i32⟩ : BufTy).Contents (Elt F) → (⟨S320000, .i32⟩ : BufTy).Contents (Elt F)),
    StableHlo.binary main_arg18 main_v452 main_v453 (addi : (⟨S320000, .i32⟩ : BufTy).Contents (Elt F) → (⟨S320000, .i32⟩ : BufTy).Contents (Elt F) → (⟨S320000, .i32⟩ : BufTy).Contents (Elt F)),
    StableHlo.ternary main_v451 main_v453 main_arg18 main_v454 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v454 main_v455 (broadcastInDim S320000x1 ![0] bcast_S320000_S320000x1_0 : (⟨S320000, .i32⟩ : BufTy).Contents (Elt F) → (⟨S320000x1, .i32⟩ : BufTy).Contents (Elt F)),
    StableHlo.binary main_v416 main_v455 main_v456 ((fun x i => Host.gather gather_S20000x128_S320000x1_S320000x128_1_0_n_n_0_1_1128 x i) : (⟨S20000x128, .f32⟩ : BufTy).Contents (Elt F) → (⟨S320000x1, .i32⟩ : BufTy).Contents (Elt F) → (⟨S320000x128, .f32⟩ : BufTy).Contents (Elt F)),
    StableHlo.nullary main_cst_64 (constant S_ .f32 0x00000000#32),
    StableHlo.unary main_cst_64 main_v457 (broadcastInDim S20000x128 ![] bcast_S_S20000x128 : (⟨S_, .f32⟩ : BufTy).Contents (Elt F) → (⟨S20000x128, .f32⟩ : BufTy).Contents (Elt F)),
    StableHlo.unary main_arg19 main_v458 (broadcastInDim S320000x1 ![0] bcast_S320000_S320000x1_0 : (⟨S320000, .i32⟩ : BufTy).Contents (Elt F) → (⟨S320000x1, .i32⟩ : BufTy).Contents (Elt F)),
    StableHlo.ternary main_v457 main_v458 main_v456 main_v459 ((fun x i u => Host.scatterAdd scatter_S20000x128_S320000x1_S320000x128_1_0_0_1 x i u) : (⟨S20000x128, .f32⟩ : BufTy).Contents (Elt F) → (⟨S320000x1, .i32⟩ : BufTy).Contents (Elt F) → (⟨S320000x128, .f32⟩ : BufTy).Contents (Elt F) → (⟨S20000x128, .f32⟩ : BufTy).Contents (Elt F)) ]

theorem p_ng_3_sub : (p_ng_3 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub ..⟩
theorem p_ng_3_fresh : (p_ng_3 : List (HloOp τ sig (Elt F))).Forall fun op => op.fresh = ∅ :=
  ⟨rfl, rfl, rfl, rfl, rfl, rfl, rfl, rfl, rfl, rfl, rfl, rfl, rfl⟩

/-- Statements 528 to 540 of @main: 13 operations. -/
abbrev p_l1_3_a : List (HloOp τ sig (Elt F)) :=
  [ StableHlo.unary main_arg3 main_v460 ((extractStridedSlice S1 ![3] · slices_S4_S1_3) : (⟨S4, .f32⟩ : BufTy).Contents (Elt F) → (⟨S1, .f32⟩ : BufTy).Contents (Elt F)),
    StableHlo.reshape main_v460 main_v461 rfl shapeCasts_S1_S_,
    StableHlo.nullary main_cst_65 (constant S_ .f32 0x3F800000#32),
    StableHlo.binary main_cst_65 main_v461 main_v462 (addf : (⟨S_, .f32⟩ : BufTy).Contents (Elt F) → (⟨S_, .f32⟩ : BufTy).Contents (Elt F) → (⟨S_, .f32⟩ : BufTy).Contents (Elt F)),
    StableHlo.unary main_v462 main_v463 (broadcastInDim S20000x128 ![] bcast_S_S20000x128 : (⟨S_, .f32⟩ : BufTy).Contents (Elt F) → (⟨S20000x128, .f32⟩ : BufTy).Contents (Elt F)),
    StableHlo.binary main_v463 main_v416 main_v464 (mulf : (⟨S20000x128, .f32⟩ : BufTy).Contents (Elt F) → (⟨S20000x128, .f32⟩ : BufTy).Contents (Elt F) → (⟨S20000x128, .f32⟩ : BufTy).Contents (Elt F)),
    StableHlo.binary main_v464 main_v459 main_v465 (addf : (⟨S20000x128, .f32⟩ : BufTy).Contents (Elt F) → (⟨S20000x128, .f32⟩ : BufTy).Contents (Elt F) → (⟨S20000x128, .f32⟩ : BufTy).Contents (Elt F)),
    StableHlo.unary main_arg4 main_v466 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v466 main_v467 rfl shapeCasts_S1x128x128_S128x128,
    StableHlo.binary main_v465 main_v467 main_v468 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    StableHlo.unary main_arg5 main_v469 ((extractStridedSlice S1x128 ![3, 0] · slices_S4x128_S1x128_3_0) : (⟨S4x128, .f32⟩ : BufTy).Contents (Elt F) → (⟨S1x128, .f32⟩ : BufTy).Contents (Elt F)),
    StableHlo.reshape main_v469 main_v470 rfl shapeCasts_S1x128_S128,
    StableHlo.unary main_v470 main_v471 (broadcastInDim S1x128 ![1] bcast_S128_S1x128_1 : (⟨S128, .f32⟩ : BufTy).Contents (Elt F) → (⟨S1x128, .f32⟩ : BufTy).Contents (Elt F)) ]

theorem p_l1_3_a_sub : (p_l1_3_a : List (HloOp τ sig (Elt F))).Forall fun op => op.bufs ⊆ tcRefs τ sig :=
  ⟨unary_bufs_sub .., reshape_bufs_sub .., nullary_bufs_sub .., binary_bufs_sub .., unary_bufs_sub .., binary_bufs_sub ..,
    binary_bufs_sub .., unary_bufs_sub .., reshape_bufs_sub .., binary_bufs_sub .., unary_bufs_sub .., reshape_bufs_sub ..,
    unary_bufs_sub ..⟩
theorem p_l1_3_a_fresh : (p_l1_3_a : List (HloOp τ sig (Elt F))).Forall fun op => op.fresh = ∅ :=
  ⟨rfl, rfl, rfl, rfl, rfl, rfl, rfl, rfl, rfl, rfl, rfl, rfl, rfl⟩

/-- Statements 541 to 542 of @main: 2 operations. -/
abbrev p_l1_3_b : List (HloOp τ sig (Elt F)) :=
  [ StableHlo.unary main_v471 main_v472 (broadcastInDim S20000x128 ![0, 1] bcast_S1x128_S20000x128_0_1 : (⟨S1x128, .f32⟩ : BufTy).Contents (Elt F) → (⟨S20000x128, .f32⟩ : BufTy).Contents (Elt F)),
    StableHlo.binary main_v468 main_v472 main_v473 (addf : (⟨S20000x128, .f32⟩ : BufTy).Contents (Elt F) → (⟨S20000x128, .f32⟩ : BufTy).Contents (Elt F) → (⟨S20000x128, .f32⟩ : BufTy).Contents (Elt F)) ]

theorem p_l1_3_b_sub : (p_l1_3_b : List (HloOp τ sig (Elt F))).Forall fun op => op.bufs ⊆ tcRefs τ sig :=
  ⟨unary_bufs_sub .., binary_bufs_sub ..⟩
theorem p_l1_3_b_fresh : (p_l1_3_b : List (HloOp τ sig (Elt F))).Forall fun op => op.fresh = ∅ :=
  ⟨rfl, rfl⟩

/-- Statements 543 to 551 of @main: 9 operations. -/
abbrev p_m1_3 : List (HloOp τ sig (Elt F)) :=
  [ StableHlo.unary main_arg6 main_v474 ((extractStridedSlice S1x128 ![3, 0] · slices_S4x128_S1x128_3_0) : (⟨S4x128, .f32⟩ : BufTy).Contents (Elt F) → (⟨S1x128, .f32⟩ : BufTy).Contents (Elt F)),
    StableHlo.reshape main_v474 main_v475 rfl shapeCasts_S1x128_S128,
    StableHlo.unary main_arg7 main_v476 ((extractStridedSlice S1x128 ![3, 0] · slices_S4x128_S1x128_3_0) : (⟨S4x128, .f32⟩ : BufTy).Contents (Elt F) → (⟨S1x128, .f32⟩ : BufTy).Contents (Elt F)),
    StableHlo.reshape main_v476 main_v477 rfl shapeCasts_S1x128_S128,
    StableHlo.nullary main_cst_66 (constant S_ .f32 0x00000000#32),
    StableHlo.binary main_v473 main_cst_66 main_v478 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    StableHlo.nullary main_cst_67 (constant S_ .f32 0x469C4000#32),
    StableHlo.unary main_cst_67 main_v479 (broadcastInDim S128 ![] bcast_S_S128 : (⟨S_, .f32⟩ : BufTy).Contents (Elt F) → (⟨S128, .f32⟩ : BufTy).Contents (Elt F)),
    StableHlo.binary main_v478 main_v479 main_v480 (Host.divf : (⟨S128, .f32⟩ : BufTy).Contents (Elt F) → (⟨S128, .f32⟩ : BufTy).Contents (Elt F) → (⟨S128, .f32⟩ : BufTy).Contents (Elt F)) ]

theorem p_m1_3_sub : (p_m1_3 : List (HloOp τ sig (Elt F))).Forall fun op => op.bufs ⊆ tcRefs τ sig :=
  ⟨unary_bufs_sub .., reshape_bufs_sub .., unary_bufs_sub .., reshape_bufs_sub .., nullary_bufs_sub .., binary_bufs_sub ..,
    nullary_bufs_sub .., unary_bufs_sub .., binary_bufs_sub ..⟩
theorem p_m1_3_fresh : (p_m1_3 : List (HloOp τ sig (Elt F))).Forall fun op => op.fresh = ∅ :=
  ⟨rfl, rfl, rfl, rfl, rfl, rfl, rfl, rfl, rfl⟩

/-- Statements 552 to 553 of @main: 23 operations. -/
abbrev p_v1_3 : List (HloOp τ sig (Elt F)) :=
  [ StableHlo.nullary main_c_68 (constantI S_ 32 0#32),
    StableHlo.TRef.nullary main_call22.cst (constant S_ .f32 0x00000000#32),
    StableHlo.TRef.binary (.of main_v473) main_call22.cst main_call22.v0 (fun x v => Host.reduceAdd x v reducesTo_S20000x128_S128_d0 h_S_),
    StableHlo.TRef.unary main_call22.v0 main_call22.v1 (broadcastInDim S1x128 ![1] bcast_S128_S1x128_1),
    StableHlo.TRef.nullary main_call22.cst_0 (constant S_ .f32 0x469C4000#32),
    StableHlo.TRef.unary main_call22.cst_0 main_call22.v2 (broadcastInDim S1x128 ![] bcast_S_S1x128),
    StableHlo.TRef.binary main_call22.v1 main_call22.v2 main_call22.v3 Host.divf,
    StableHlo.TRef.unary main_call22.v3 main_call22.v4 (broadcastInDim S20000x128 ![0, 1] bcast_S1x128_S20000x128_0_1),
    StableHlo.TRef.binary (.of main_v473) main_call22.v4 main_call22.v5 subf,
    StableHlo.TRef.binary main_call22.v5 main_call22.v5 main_call22.v6 mulf,
    StableHlo.TRef.unary (.of main_c_68) main_call22.v7 (sitofp .f32),
    StableHlo.TRef.nullary main_call22.cst_1 (constant S_ .f32 0x469C4000#32),
    StableHlo.TRef.binary main_call22.cst_1 main_call22.v7 main_call22.v8 subf,
    StableHlo.TRef.nullary main_call22.cst_2 (constant S_ .f32 0x00000000#32),
    StableHlo.TRef.binary main_call22.v6 main_call22.cst_2 main_call22.v9 (fun x v => Host.reduceAdd x v reducesTo_S20000x128_S128_d0 h_S_),
    StableHlo.TRef.unary main_call22.v8 main_call22.v10 (broadcastInDim S128 ![] bcast_S_S128),
    StableHlo.TRef.binary main_call22.v9 main_call22.v10 main_call22.v11 Host.divf,
    StableHlo.TRef.nullary main_call22.cst_3 (constant S_ .f32 0x00000000#32),
    StableHlo.TRef.binary main_call22.v8 main_call22.cst_3 main_call22.v12 (cmpf .ogt),
    StableHlo.TRef.nullary main_call22.cst_4 (constant S_ .f32 0x7FC00000#32),
    StableHlo.TRef.unary main_call22.cst_4 main_call22.call0.v0 id,
    StableHlo.TRef.unary main_call22.call0.v0 main_call22.call0.v1 (broadcastInDim S128 ![] bcast_S_S128),
    StableHlo.TRef.ternary main_call22.v12 main_call22.v11 main_call22.call0.v1 main_call22.call0.v2 (fun p a b => select (broadcastInDim S128 ![] bcast_S_S128 p) a b) ]

theorem p_v1_3_sub : (p_v1_3 : List (HloOp τ sig (Elt F))).Forall fun op => op.bufs ⊆ tcRefs τ sig :=
  ⟨nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub ..⟩
theorem p_v1_3_fresh : (p_v1_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- Statements 554 to 570 of @main: 19 operations. -/
abbrev p_n1_3 : List (HloOp τ sig (Elt F)) :=
  [ StableHlo.unary main_v480 main_v482 (broadcastInDim S1x128 ![1] bcast_S128_S1x128_1 : (⟨S128, .f32⟩ : BufTy).Contents (Elt F) → (⟨S1x128, .f32⟩ : BufTy).Contents (Elt F)),
    StableHlo.unary main_v482 main_v483 (broadcastInDim S20000x128 ![0, 1] bcast_S1x128_S20000x128_0_1 : (⟨S1x128, .f32⟩ : BufTy).Contents (Elt F) → (⟨S20000x128, .f32⟩ : BufTy).Contents (Elt F)),
    StableHlo.binary main_v473 main_v483 main_v484 (subf : (⟨S20000x128, .f32⟩ : BufTy).Contents (Elt F) → (⟨S20000x128, .f32⟩ : BufTy).Contents (Elt F) → (⟨S20000x128, .f32⟩ : BufTy).Contents (Elt F)),
    StableHlo.nullary main_cst_69 (constant S_ .f32 0x3727C5AC#32),
    StableHlo.unary main_cst_69 main_v485 (broadcastInDim S128 ![] bcast_S_S128 : (⟨S_, .f32⟩ : BufTy).Contents (Elt F) → (⟨S128, .f32⟩ : BufTy).Contents (Elt F)),
    StableHlo.binary main_v481 main_v485 main_v486 (addf : (⟨S128, .f32⟩ : BufTy).Contents (Elt F) → (⟨S128, .f32⟩ : BufTy).Contents (Elt F) → (⟨S128, .f32⟩ : BufTy).Contents (Elt F)),
    StableHlo.unary main_v486 main_v487 (Host.rsqrt : (⟨S128, .f32⟩ : BufTy).Contents (Elt F) → (⟨S128, .f32⟩ : BufTy).Contents (Elt F)),
    StableHlo.unary main_v487 main_v488 (broadcastInDim S1x128 ![1] bcast_S128_S1x128_1 : (⟨S128, .f32⟩ : BufTy).Contents (Elt F) → (⟨S1x128, .f32⟩ : BufTy).Contents (Elt F)),
    StableHlo.unary main_v488 main_v489 (broadcastInDim S20000x128 ![0, 1] bcast_S1x128_S20000x128_0_1 : (⟨S1x128, .f32⟩ : BufTy).Contents (Elt F) → (⟨S20000x128, .f32⟩ : BufTy).Contents (Elt F)),
    StableHlo.binary main_v484 main_v489 main_v490 (mulf : (⟨S20000x128, .f32⟩ : BufTy).Contents (Elt F) → (⟨S20000x128, .f32⟩ : BufTy).Contents (Elt F) → (⟨S20000x128, .f32⟩ : BufTy).Contents (Elt F)),
    StableHlo.unary main_v475 main_v491 (broadcastInDim S1x128 ![1] bcast_S128_S1x128_1 : (⟨S128, .f32⟩ : BufTy).Contents (Elt F) → (⟨S1x128, .f32⟩ : BufTy).Contents (Elt F)),
    StableHlo.unary main_v491 main_v492 (broadcastInDim S20000x128 ![0, 1] bcast_S1x128_S20000x128_0_1 : (⟨S1x128, .f32⟩ : BufTy).Contents (Elt F) → (⟨S20000x128, .f32⟩ : BufTy).Contents (Elt F)),
    StableHlo.binary main_v490 main_v492 main_v493 (mulf : (⟨S20000x128, .f32⟩ : BufTy).Contents (Elt F) → (⟨S20000x128, .f32⟩ : BufTy).Contents (Elt F) → (⟨S20000x128, .f32⟩ : BufTy).Contents (Elt F)),
    StableHlo.unary main_v477 main_v494 (broadcastInDim S1x128 ![1] bcast_S128_S1x128_1 : (⟨S128, .f32⟩ : BufTy).Contents (Elt F) → (⟨S1x128, .f32⟩ : BufTy).Contents (Elt F)),
    StableHlo.unary main_v494 main_v495 (broadcastInDim S20000x128 ![0, 1] bcast_S1x128_S20000x128_0_1 : (⟨S1x128, .f32⟩ : BufTy).Contents (Elt F) → (⟨S20000x128, .f32⟩ : BufTy).Contents (Elt F)),
    StableHlo.binary main_v493 main_v495 main_v496 (addf : (⟨S20000x128, .f32⟩ : BufTy).Contents (Elt F) → (⟨S20000x128, .f32⟩ : BufTy).Contents (Elt F) → (⟨S20000x128, .f32⟩ : BufTy).Contents (Elt F)),
    StableHlo.TRef.nullary main_call23.cst (constant S_ .f32 0x00000000#32),
    StableHlo.TRef.unary main_call23.cst main_call23.v0 (broadcastInDim S20000x128 ![] bcast_S_S20000x128),
    StableHlo.TRef.binary (.of main_v496) main_call23.v0 main_call23.v1 maximumf ]

theorem p_n1_3_sub : (p_n1_3 : List (HloOp τ sig (Elt F))).Forall fun op => op.bufs ⊆ tcRefs τ sig :=
  ⟨unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub ..⟩
theorem p_n1_3_fresh : (p_n1_3 : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- Statements 571 to 578 of @main: 8 operations. -/
abbrev p_l2_3 : List (HloOp τ sig (Elt F)) :=
  [ StableHlo.unary main_arg8 main_v498 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v498 main_v499 rfl shapeCasts_S1x128x128_S128x128,
    StableHlo.binary main_v497 main_v499 main_v500 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    StableHlo.unary main_arg9 main_v501 ((extractStridedSlice S1x128 ![3, 0] · slices_S4x128_S1x128_3_0) : (⟨S4x128, .f32⟩ : BufTy).Contents (Elt F) → (⟨S1x128, .f32⟩ : BufTy).Contents (Elt F)),
    StableHlo.reshape main_v501 main_v502 rfl shapeCasts_S1x128_S128,
    StableHlo.unary main_v502 main_v503 (broadcastInDim S1x128 ![1] bcast_S128_S1x128_1 : (⟨S128, .f32⟩ : BufTy).Contents (Elt F) → (⟨S1x128, .f32⟩ : BufTy).Contents (Elt F)),
    StableHlo.unary main_v503 main_v504 (broadcastInDim S20000x128 ![0, 1] bcast_S1x128_S20000x128_0_1 : (⟨S1x128, .f32⟩ : BufTy).Contents (Elt F) → (⟨S20000x128, .f32⟩ : BufTy).Contents (Elt F)),
    StableHlo.binary main_v500 main_v504 main_v505 (addf : (⟨S20000x128, .f32⟩ : BufTy).Contents (Elt F) → (⟨S20000x128, .f32⟩ : BufTy).Contents (Elt F) → (⟨S20000x128, .f32⟩ : BufTy).Contents (Elt F)) ]

theorem p_l2_3_sub : (p_l2_3 : List (HloOp τ sig (Elt F))).Forall fun op => op.bufs ⊆ tcRefs τ sig :=
  ⟨unary_bufs_sub .., reshape_bufs_sub .., binary_bufs_sub .., unary_bufs_sub .., reshape_bufs_sub .., unary_bufs_sub ..,
    unary_bufs_sub .., binary_bufs_sub ..⟩
theorem p_l2_3_fresh : (p_l2_3 : List (HloOp τ sig (Elt F))).Forall fun op => op.fresh = ∅ :=
  ⟨rfl, rfl, rfl, rfl, rfl, rfl, rfl, rfl⟩

/-- Statements 579 to 587 of @main: 9 operations. -/
abbrev p_m2_3 : List (HloOp τ sig (Elt F)) :=
  [ StableHlo.unary main_arg10 main_v506 ((extractStridedSlice S1x128 ![3, 0] · slices_S4x128_S1x128_3_0) : (⟨S4x128, .f32⟩ : BufTy).Contents (Elt F) → (⟨S1x128, .f32⟩ : BufTy).Contents (Elt F)),
    StableHlo.reshape main_v506 main_v507 rfl shapeCasts_S1x128_S128,
    StableHlo.unary main_arg11 main_v508 ((extractStridedSlice S1x128 ![3, 0] · slices_S4x128_S1x128_3_0) : (⟨S4x128, .f32⟩ : BufTy).Contents (Elt F) → (⟨S1x128, .f32⟩ : BufTy).Contents (Elt F)),
    StableHlo.reshape main_v508 main_v509 rfl shapeCasts_S1x128_S128,
    StableHlo.nullary main_cst_70 (constant S_ .f32 0x00000000#32),
    StableHlo.binary main_v505 main_cst_70 main_v510 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    StableHlo.nullary main_cst_71 (constant S_ .f32 0x469C4000#32),
    StableHlo.unary main_cst_71 main_v511 (broadcastInDim S128 ![] bcast_S_S128 : (⟨S_, .f32⟩ : BufTy).Contents (Elt F) → (⟨S128, .f32⟩ : BufTy).Contents (Elt F)),
    StableHlo.binary main_v510 main_v511 main_v512 (Host.divf : (⟨S128, .f32⟩ : BufTy).Contents (Elt F) → (⟨S128, .f32⟩ : BufTy).Contents (Elt F) → (⟨S128, .f32⟩ : BufTy).Contents (Elt F)) ]

theorem p_m2_3_sub : (p_m2_3 : List (HloOp τ sig (Elt F))).Forall fun op => op.bufs ⊆ tcRefs τ sig :=
  ⟨unary_bufs_sub .., reshape_bufs_sub .., unary_bufs_sub .., reshape_bufs_sub .., nullary_bufs_sub .., binary_bufs_sub ..,
    nullary_bufs_sub .., unary_bufs_sub .., binary_bufs_sub ..⟩
theorem p_m2_3_fresh : (p_m2_3 : List (HloOp τ sig (Elt F))).Forall fun op => op.fresh = ∅ :=
  ⟨rfl, rfl, rfl, rfl, rfl, rfl, rfl, rfl, rfl⟩

/-- Statements 588 to 589 of @main: 23 operations. -/
abbrev p_v2_3 : List (HloOp τ sig (Elt F)) :=
  [ StableHlo.nullary main_c_72 (constantI S_ 32 0#32),
    StableHlo.TRef.nullary main_call24.cst (constant S_ .f32 0x00000000#32),
    StableHlo.TRef.binary (.of main_v505) main_call24.cst main_call24.v0 (fun x v => Host.reduceAdd x v reducesTo_S20000x128_S128_d0 h_S_),
    StableHlo.TRef.unary main_call24.v0 main_call24.v1 (broadcastInDim S1x128 ![1] bcast_S128_S1x128_1),
    StableHlo.TRef.nullary main_call24.cst_0 (constant S_ .f32 0x469C4000#32),
    StableHlo.TRef.unary main_call24.cst_0 main_call24.v2 (broadcastInDim S1x128 ![] bcast_S_S1x128),
    StableHlo.TRef.binary main_call24.v1 main_call24.v2 main_call24.v3 Host.divf,
    StableHlo.TRef.unary main_call24.v3 main_call24.v4 (broadcastInDim S20000x128 ![0, 1] bcast_S1x128_S20000x128_0_1),
    StableHlo.TRef.binary (.of main_v505) main_call24.v4 main_call24.v5 subf,
    StableHlo.TRef.binary main_call24.v5 main_call24.v5 main_call24.v6 mulf,
    StableHlo.TRef.unary (.of main_c_72) main_call24.v7 (sitofp .f32),
    StableHlo.TRef.nullary main_call24.cst_1 (constant S_ .f32 0x469C4000#32),
    StableHlo.TRef.binary main_call24.cst_1 main_call24.v7 main_call24.v8 subf,
    StableHlo.TRef.nullary main_call24.cst_2 (constant S_ .f32 0x00000000#32),
    StableHlo.TRef.binary main_call24.v6 main_call24.cst_2 main_call24.v9 (fun x v => Host.reduceAdd x v reducesTo_S20000x128_S128_d0 h_S_),
    StableHlo.TRef.unary main_call24.v8 main_call24.v10 (broadcastInDim S128 ![] bcast_S_S128),
    StableHlo.TRef.binary main_call24.v9 main_call24.v10 main_call24.v11 Host.divf,
    StableHlo.TRef.nullary main_call24.cst_3 (constant S_ .f32 0x00000000#32),
    StableHlo.TRef.binary main_call24.v8 main_call24.cst_3 main_call24.v12 (cmpf .ogt),
    StableHlo.TRef.nullary main_call24.cst_4 (constant S_ .f32 0x7FC00000#32),
    StableHlo.TRef.unary main_call24.cst_4 main_call24.call0.v0 id,
    StableHlo.TRef.unary main_call24.call0.v0 main_call24.call0.v1 (broadcastInDim S128 ![] bcast_S_S128),
    StableHlo.TRef.ternary main_call24.v12 main_call24.v11 main_call24.call0.v1 main_call24.call0.v2 (fun p a b => select (broadcastInDim S128 ![] bcast_S_S128 p) a b) ]

theorem p_v2_3_sub : (p_v2_3 : List (HloOp τ sig (Elt F))).Forall fun op => op.bufs ⊆ tcRefs τ sig :=
  ⟨nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub ..⟩
theorem p_v2_3_fresh : (p_v2_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- Statements 590 to 600 of @main: 11 operations. -/
abbrev p_n2_3_a : List (HloOp τ sig (Elt F)) :=
  [ StableHlo.unary main_v512 main_v514 (broadcastInDim S1x128 ![1] bcast_S128_S1x128_1 : (⟨S128, .f32⟩ : BufTy).Contents (Elt F) → (⟨S1x128, .f32⟩ : BufTy).Contents (Elt F)),
    StableHlo.unary main_v514 main_v515 (broadcastInDim S20000x128 ![0, 1] bcast_S1x128_S20000x128_0_1 : (⟨S1x128, .f32⟩ : BufTy).Contents (Elt F) → (⟨S20000x128, .f32⟩ : BufTy).Contents (Elt F)),
    StableHlo.binary main_v505 main_v515 main_v516 (subf : (⟨S20000x128, .f32⟩ : BufTy).Contents (Elt F) → (⟨S20000x128, .f32⟩ : BufTy).Contents (Elt F) → (⟨S20000x128, .f32⟩ : BufTy).Contents (Elt F)),
    StableHlo.nullary main_cst_73 (constant S_ .f32 0x3727C5AC#32),
    StableHlo.unary main_cst_73 main_v517 (broadcastInDim S128 ![] bcast_S_S128 : (⟨S_, .f32⟩ : BufTy).Contents (Elt F) → (⟨S128, .f32⟩ : BufTy).Contents (Elt F)),
    StableHlo.binary main_v513 main_v517 main_v518 (addf : (⟨S128, .f32⟩ : BufTy).Contents (Elt F) → (⟨S128, .f32⟩ : BufTy).Contents (Elt F) → (⟨S128, .f32⟩ : BufTy).Contents (Elt F)),
    StableHlo.unary main_v518 main_v519 (Host.rsqrt : (⟨S128, .f32⟩ : BufTy).Contents (Elt F) → (⟨S128, .f32⟩ : BufTy).Contents (Elt F)),
    StableHlo.unary main_v519 main_v520 (broadcastInDim S1x128 ![1] bcast_S128_S1x128_1 : (⟨S128, .f32⟩ : BufTy).Contents (Elt F) → (⟨S1x128, .f32⟩ : BufTy).Contents (Elt F)),
    StableHlo.unary main_v520 main_v521 (broadcastInDim S20000x128 ![0, 1] bcast_S1x128_S20000x128_0_1 : (⟨S1x128, .f32⟩ : BufTy).Contents (Elt F) → (⟨S20000x128, .f32⟩ : BufTy).Contents (Elt F)),
    StableHlo.binary main_v516 main_v521 main_v522 (mulf : (⟨S20000x128, .f32⟩ : BufTy).Contents (Elt F) → (⟨S20000x128, .f32⟩ : BufTy).Contents (Elt F) → (⟨S20000x128, .f32⟩ : BufTy).Contents (Elt F)),
    StableHlo.unary main_v507 main_v523 (broadcastInDim S1x128 ![1] bcast_S128_S1x128_1 : (⟨S128, .f32⟩ : BufTy).Contents (Elt F) → (⟨S1x128, .f32⟩ : BufTy).Contents (Elt F)) ]

theorem p_n2_3_a_sub : (p_n2_3_a : List (HloOp τ sig (Elt F))).Forall fun op => op.bufs ⊆ tcRefs τ sig :=
  ⟨unary_bufs_sub .., unary_bufs_sub .., binary_bufs_sub .., nullary_bufs_sub .., unary_bufs_sub .., binary_bufs_sub ..,
    unary_bufs_sub .., unary_bufs_sub .., unary_bufs_sub .., binary_bufs_sub .., unary_bufs_sub ..⟩
theorem p_n2_3_a_fresh : (p_n2_3_a : List (HloOp τ sig (Elt F))).Forall fun op => op.fresh = ∅ :=
  ⟨rfl, rfl, rfl, rfl, rfl, rfl, rfl, rfl, rfl, rfl, rfl⟩

/-- Statements 601 to 606 of @main: 8 operations. -/
abbrev p_n2_3_b : List (HloOp τ sig (Elt F)) :=
  [ StableHlo.unary main_v523 main_v524 (broadcastInDim S20000x128 ![0, 1] bcast_S1x128_S20000x128_0_1 : (⟨S1x128, .f32⟩ : BufTy).Contents (Elt F) → (⟨S20000x128, .f32⟩ : BufTy).Contents (Elt F)),
    StableHlo.binary main_v522 main_v524 main_v525 (mulf : (⟨S20000x128, .f32⟩ : BufTy).Contents (Elt F) → (⟨S20000x128, .f32⟩ : BufTy).Contents (Elt F) → (⟨S20000x128, .f32⟩ : BufTy).Contents (Elt F)),
    StableHlo.unary main_v509 main_v526 (broadcastInDim S1x128 ![1] bcast_S128_S1x128_1 : (⟨S128, .f32⟩ : BufTy).Contents (Elt F) → (⟨S1x128, .f32⟩ : BufTy).Contents (Elt F)),
    StableHlo.unary main_v526 main_v527 (broadcastInDim S20000x128 ![0, 1] bcast_S1x128_S20000x128_0_1 : (⟨S1x128, .f32⟩ : BufTy).Contents (Elt F) → (⟨S20000x128, .f32⟩ : BufTy).Contents (Elt F)),
    StableHlo.binary main_v525 main_v527 main_v528 (addf : (⟨S20000x128, .f32⟩ : BufTy).Contents (Elt F) → (⟨S20000x128, .f32⟩ : BufTy).Contents (Elt F) → (⟨S20000x128, .f32⟩ : BufTy).Contents (Elt F)),
    StableHlo.TRef.nullary main_call25.cst (constant S_ .f32 0x00000000#32),
    StableHlo.TRef.unary main_call25.cst main_call25.v0 (broadcastInDim S20000x128 ![] bcast_S_S20000x128),
    StableHlo.TRef.binary (.of main_v528) main_call25.v0 main_call25.v1 maximumf ]

theorem p_n2_3_b_sub : (p_n2_3_b : List (HloOp τ sig (Elt F))).Forall fun op => op.bufs ⊆ tcRefs τ sig :=
  ⟨unary_bufs_sub .., binary_bufs_sub .., unary_bufs_sub .., unary_bufs_sub .., binary_bufs_sub .., nullary_bufs_sub ..,
    unary_bufs_sub .., binary_bufs_sub ..⟩
theorem p_n2_3_b_fresh : (p_n2_3_b : List (HloOp τ sig (Elt F))).Forall fun op => op.fresh = ∅ :=
  ⟨rfl, rfl, rfl, rfl, rfl, rfl, rfl, rfl⟩

/-- Statements 607 to 615 of @main: 9 operations. -/
abbrev p_m3_3 : List (HloOp τ sig (Elt F)) :=
  [ StableHlo.unary main_arg12 main_v530 ((extractStridedSlice S1x128 ![3, 0] · slices_S4x128_S1x128_3_0) : (⟨S4x128, .f32⟩ : BufTy).Contents (Elt F) → (⟨S1x128, .f32⟩ : BufTy).Contents (Elt F)),
    StableHlo.reshape main_v530 main_v531 rfl shapeCasts_S1x128_S128,
    StableHlo.unary main_arg13 main_v532 ((extractStridedSlice S1x128 ![3, 0] · slices_S4x128_S1x128_3_0) : (⟨S4x128, .f32⟩ : BufTy).Contents (Elt F) → (⟨S1x128, .f32⟩ : BufTy).Contents (Elt F)),
    StableHlo.reshape main_v532 main_v533 rfl shapeCasts_S1x128_S128,
    StableHlo.nullary main_cst_74 (constant S_ .f32 0x00000000#32),
    StableHlo.binary main_v529 main_cst_74 main_v534 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    StableHlo.nullary main_cst_75 (constant S_ .f32 0x469C4000#32),
    StableHlo.unary main_cst_75 main_v535 (broadcastInDim S128 ![] bcast_S_S128 : (⟨S_, .f32⟩ : BufTy).Contents (Elt F) → (⟨S128, .f32⟩ : BufTy).Contents (Elt F)),
    StableHlo.binary main_v534 main_v535 main_v536 (Host.divf : (⟨S128, .f32⟩ : BufTy).Contents (Elt F) → (⟨S128, .f32⟩ : BufTy).Contents (Elt F) → (⟨S128, .f32⟩ : BufTy).Contents (Elt F)) ]

theorem p_m3_3_sub : (p_m3_3 : List (HloOp τ sig (Elt F))).Forall fun op => op.bufs ⊆ tcRefs τ sig :=
  ⟨unary_bufs_sub .., reshape_bufs_sub .., unary_bufs_sub .., reshape_bufs_sub .., nullary_bufs_sub .., binary_bufs_sub ..,
    nullary_bufs_sub .., unary_bufs_sub .., binary_bufs_sub ..⟩
theorem p_m3_3_fresh : (p_m3_3 : List (HloOp τ sig (Elt F))).Forall fun op => op.fresh = ∅ :=
  ⟨rfl, rfl, rfl, rfl, rfl, rfl, rfl, rfl, rfl⟩

/-- Statements 616 to 617 of @main: 23 operations. -/
abbrev p_v3_3 : List (HloOp τ sig (Elt F)) :=
  [ StableHlo.nullary main_c_76 (constantI S_ 32 0#32),
    StableHlo.TRef.nullary main_call26.cst (constant S_ .f32 0x00000000#32),
    StableHlo.TRef.binary (.of main_v529) main_call26.cst main_call26.v0 (fun x v => Host.reduceAdd x v reducesTo_S20000x128_S128_d0 h_S_),
    StableHlo.TRef.unary main_call26.v0 main_call26.v1 (broadcastInDim S1x128 ![1] bcast_S128_S1x128_1),
    StableHlo.TRef.nullary main_call26.cst_0 (constant S_ .f32 0x469C4000#32),
    StableHlo.TRef.unary main_call26.cst_0 main_call26.v2 (broadcastInDim S1x128 ![] bcast_S_S1x128),
    StableHlo.TRef.binary main_call26.v1 main_call26.v2 main_call26.v3 Host.divf,
    StableHlo.TRef.unary main_call26.v3 main_call26.v4 (broadcastInDim S20000x128 ![0, 1] bcast_S1x128_S20000x128_0_1),
    StableHlo.TRef.binary (.of main_v529) main_call26.v4 main_call26.v5 subf,
    StableHlo.TRef.binary main_call26.v5 main_call26.v5 main_call26.v6 mulf,
    StableHlo.TRef.unary (.of main_c_76) main_call26.v7 (sitofp .f32),
    StableHlo.TRef.nullary main_call26.cst_1 (constant S_ .f32 0x469C4000#32),
    StableHlo.TRef.binary main_call26.cst_1 main_call26.v7 main_call26.v8 subf,
    StableHlo.TRef.nullary main_call26.cst_2 (constant S_ .f32 0x00000000#32),
    StableHlo.TRef.binary main_call26.v6 main_call26.cst_2 main_call26.v9 (fun x v => Host.reduceAdd x v reducesTo_S20000x128_S128_d0 h_S_),
    StableHlo.TRef.unary main_call26.v8 main_call26.v10 (broadcastInDim S128 ![] bcast_S_S128),
    StableHlo.TRef.binary main_call26.v9 main_call26.v10 main_call26.v11 Host.divf,
    StableHlo.TRef.nullary main_call26.cst_3 (constant S_ .f32 0x00000000#32),
    StableHlo.TRef.binary main_call26.v8 main_call26.cst_3 main_call26.v12 (cmpf .ogt),
    StableHlo.TRef.nullary main_call26.cst_4 (constant S_ .f32 0x7FC00000#32),
    StableHlo.TRef.unary main_call26.cst_4 main_call26.call0.v0 id,
    StableHlo.TRef.unary main_call26.call0.v0 main_call26.call0.v1 (broadcastInDim S128 ![] bcast_S_S128),
    StableHlo.TRef.ternary main_call26.v12 main_call26.v11 main_call26.call0.v1 main_call26.call0.v2 (fun p a b => select (broadcastInDim S128 ![] bcast_S_S128 p) a b) ]

theorem p_v3_3_sub : (p_v3_3 : List (HloOp τ sig (Elt F))).Forall fun op => op.bufs ⊆ tcRefs τ sig :=
  ⟨nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub ..⟩
theorem p_v3_3_fresh : (p_v3_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- Statements 618 to 634 of @main: 19 operations. -/
abbrev p_n3_3 : List (HloOp τ sig (Elt F)) :=
  [ StableHlo.unary main_v536 main_v538 (broadcastInDim S1x128 ![1] bcast_S128_S1x128_1 : (⟨S128, .f32⟩ : BufTy).Contents (Elt F) → (⟨S1x128, .f32⟩ : BufTy).Contents (Elt F)),
    StableHlo.unary main_v538 main_v539 (broadcastInDim S20000x128 ![0, 1] bcast_S1x128_S20000x128_0_1 : (⟨S1x128, .f32⟩ : BufTy).Contents (Elt F) → (⟨S20000x128, .f32⟩ : BufTy).Contents (Elt F)),
    StableHlo.binary main_v529 main_v539 main_v540 (subf : (⟨S20000x128, .f32⟩ : BufTy).Contents (Elt F) → (⟨S20000x128, .f32⟩ : BufTy).Contents (Elt F) → (⟨S20000x128, .f32⟩ : BufTy).Contents (Elt F)),
    StableHlo.nullary main_cst_77 (constant S_ .f32 0x3727C5AC#32),
    StableHlo.unary main_cst_77 main_v541 (broadcastInDim S128 ![] bcast_S_S128 : (⟨S_, .f32⟩ : BufTy).Contents (Elt F) → (⟨S128, .f32⟩ : BufTy).Contents (Elt F)),
    StableHlo.binary main_v537 main_v541 main_v542 (addf : (⟨S128, .f32⟩ : BufTy).Contents (Elt F) → (⟨S128, .f32⟩ : BufTy).Contents (Elt F) → (⟨S128, .f32⟩ : BufTy).Contents (Elt F)),
    StableHlo.unary main_v542 main_v543 (Host.rsqrt : (⟨S128, .f32⟩ : BufTy).Contents (Elt F) → (⟨S128, .f32⟩ : BufTy).Contents (Elt F)),
    StableHlo.unary main_v543 main_v544 (broadcastInDim S1x128 ![1] bcast_S128_S1x128_1 : (⟨S128, .f32⟩ : BufTy).Contents (Elt F) → (⟨S1x128, .f32⟩ : BufTy).Contents (Elt F)),
    StableHlo.unary main_v544 main_v545 (broadcastInDim S20000x128 ![0, 1] bcast_S1x128_S20000x128_0_1 : (⟨S1x128, .f32⟩ : BufTy).Contents (Elt F) → (⟨S20000x128, .f32⟩ : BufTy).Contents (Elt F)),
    StableHlo.binary main_v540 main_v545 main_v546 (mulf : (⟨S20000x128, .f32⟩ : BufTy).Contents (Elt F) → (⟨S20000x128, .f32⟩ : BufTy).Contents (Elt F) → (⟨S20000x128, .f32⟩ : BufTy).Contents (Elt F)),
    StableHlo.unary main_v531 main_v547 (broadcastInDim S1x128 ![1] bcast_S128_S1x128_1 : (⟨S128, .f32⟩ : BufTy).Contents (Elt F) → (⟨S1x128, .f32⟩ : BufTy).Contents (Elt F)),
    StableHlo.unary main_v547 main_v548 (broadcastInDim S20000x128 ![0, 1] bcast_S1x128_S20000x128_0_1 : (⟨S1x128, .f32⟩ : BufTy).Contents (Elt F) → (⟨S20000x128, .f32⟩ : BufTy).Contents (Elt F)),
    StableHlo.binary main_v546 main_v548 main_v549 (mulf : (⟨S20000x128, .f32⟩ : BufTy).Contents (Elt F) → (⟨S20000x128, .f32⟩ : BufTy).Contents (Elt F) → (⟨S20000x128, .f32⟩ : BufTy).Contents (Elt F)),
    StableHlo.unary main_v533 main_v550 (broadcastInDim S1x128 ![1] bcast_S128_S1x128_1 : (⟨S128, .f32⟩ : BufTy).Contents (Elt F) → (⟨S1x128, .f32⟩ : BufTy).Contents (Elt F)),
    StableHlo.unary main_v550 main_v551 (broadcastInDim S20000x128 ![0, 1] bcast_S1x128_S20000x128_0_1 : (⟨S1x128, .f32⟩ : BufTy).Contents (Elt F) → (⟨S20000x128, .f32⟩ : BufTy).Contents (Elt F)),
    StableHlo.binary main_v549 main_v551 main_v552 (addf : (⟨S20000x128, .f32⟩ : BufTy).Contents (Elt F) → (⟨S20000x128, .f32⟩ : BufTy).Contents (Elt F) → (⟨S20000x128, .f32⟩ : BufTy).Contents (Elt F)),
    StableHlo.TRef.nullary main_call27.cst (constant S_ .f32 0x00000000#32),
    StableHlo.TRef.unary main_call27.cst main_call27.v0 (broadcastInDim S20000x128 ![] bcast_S_S20000x128),
    StableHlo.TRef.binary (.of main_v552) main_call27.v0 main_call27.v1 maximumf ]

theorem p_n3_3_sub : (p_n3_3 : List (HloOp τ sig (Elt F))).Forall fun op => op.bufs ⊆ tcRefs τ sig :=
  ⟨unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub ..⟩
theorem p_n3_3_fresh : (p_n3_3 : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- Statements 635 to 635 of @main: 1 operation. -/
abbrev p_rs_3 : List (HloOp τ sig (Elt F)) :=
  [ StableHlo.binary main_v416 main_v553 main_v554 (addf : (⟨S20000x128, .f32⟩ : BufTy).Contents (Elt F) → (⟨S20000x128, .f32⟩ : BufTy).Contents (Elt F) → (⟨S20000x128, .f32⟩ : BufTy).Contents (Elt F)) ]

theorem p_rs_3_sub : (p_rs_3 : List (HloOp τ sig (Elt F))).Forall fun op => op.bufs ⊆ tcRefs τ sig :=
  binary_bufs_sub ..
theorem p_rs_3_fresh : (p_rs_3 : List (HloOp τ sig (Elt F))).Forall fun op => op.fresh = ∅ :=
  rfl

/-- Statements 636 to 653 of @main: 18 operations. -/
abbrev p_hg_4 : List (HloOp τ sig (Elt F)) :=
  [ StableHlo.nullary main_c_78 (constantI S_ 32 0#32),
    StableHlo.unary main_c_78 main_v555 (broadcastInDim S320000 ![] bcast_S_S320000 : (⟨S_, .i32⟩ : BufTy).Contents (Elt F) → (⟨S320000, .i32⟩ : BufTy).Contents (Elt F)),
    StableHlo.binary main_arg18 main_v555 main_v556 (cmpi .slt : (⟨S320000, .i32⟩ : BufTy).Contents (Elt F) → (⟨S320000, .i32⟩ : BufTy).Contents (Elt F) → (⟨S320000, .i1⟩ : BufTy).Contents (Elt F)),
    StableHlo.nullary main_c_79 (constantI S_ 32 20000#32),
    StableHlo.unary main_c_79 main_v557 (broadcastInDim S320000 ![] bcast_S_S320000 : (⟨S_, .i32⟩ : BufTy).Contents (Elt F) → (⟨S320000, .i32⟩ : BufTy).Contents (Elt F)),
    StableHlo.binary main_arg18 main_v557 main_v558 (addi : (⟨S320000, .i32⟩ : BufTy).Contents (Elt F) → (⟨S320000, .i32⟩ : BufTy).Contents (Elt F) → (⟨S320000, .i32⟩ : BufTy).Contents (Elt F)),
    StableHlo.ternary main_v556 main_v558 main_arg18 main_v559 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v559 main_v560 (broadcastInDim S320000x1 ![0] bcast_S320000_S320000x1_0 : (⟨S320000, .i32⟩ : BufTy).Contents (Elt F) → (⟨S320000x1, .i32⟩ : BufTy).Contents (Elt F)),
    StableHlo.binary main_v554 main_v560 main_v561 ((fun x i => Host.gather gather_S20000x128_S320000x1_S320000x128_1_0_n_n_0_1_1128 x i) : (⟨S20000x128, .f32⟩ : BufTy).Contents (Elt F) → (⟨S320000x1, .i32⟩ : BufTy).Contents (Elt F) → (⟨S320000x128, .f32⟩ : BufTy).Contents (Elt F)),
    StableHlo.nullary main_c_80 (constantI S_ 32 0#32),
    StableHlo.unary main_c_80 main_v562 (broadcastInDim S320000 ![] bcast_S_S320000 : (⟨S_, .i32⟩ : BufTy).Contents (Elt F) → (⟨S320000, .i32⟩ : BufTy).Contents (Elt F)),
    StableHlo.binary main_arg19 main_v562 main_v563 (cmpi .slt : (⟨S320000, .i32⟩ : BufTy).Contents (Elt F) → (⟨S320000, .i32⟩ : BufTy).Contents (Elt F) → (⟨S320000, .i1⟩ : BufTy).Contents (Elt F)),
    StableHlo.nullary main_c_81 (constantI S_ 32 20000#32),
    StableHlo.unary main_c_81 main_v564 (broadcastInDim S320000 ![] bcast_S_S320000 : (⟨S_, .i32⟩ : BufTy).Contents (Elt F) → (⟨S320000, .i32⟩ : BufTy).Contents (Elt F)),
    StableHlo.binary main_arg19 main_v564 main_v565 (addi : (⟨S320000, .i32⟩ : BufTy).Contents (Elt F) → (⟨S320000, .i32⟩ : BufTy).Contents (Elt F) → (⟨S320000, .i32⟩ : BufTy).Contents (Elt F)),
    StableHlo.ternary main_v563 main_v565 main_arg19 main_v566 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v566 main_v567 (broadcastInDim S320000x1 ![0] bcast_S320000_S320000x1_0 : (⟨S320000, .i32⟩ : BufTy).Contents (Elt F) → (⟨S320000x1, .i32⟩ : BufTy).Contents (Elt F)),
    StableHlo.binary main_v554 main_v567 main_v568 ((fun x i => Host.gather gather_S20000x128_S320000x1_S320000x128_1_0_n_n_0_1_1128 x i) : (⟨S20000x128, .f32⟩ : BufTy).Contents (Elt F) → (⟨S320000x1, .i32⟩ : BufTy).Contents (Elt F) → (⟨S320000x128, .f32⟩ : BufTy).Contents (Elt F)) ]

theorem p_hg_4_sub : (p_hg_4 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..⟩
theorem p_hg_4_fresh : (p_hg_4 : List (HloOp τ sig (Elt F))).Forall fun op => op.fresh = ∅ :=
  ⟨rfl, rfl, rfl, rfl, rfl, rfl, rfl, rfl, rfl, rfl, rfl, rfl, rfl, rfl, rfl, rfl, rfl, rfl⟩

/-- Statements 654 to 660 of @main: 7 operations. -/
abbrev p_hs_4_a : List (HloOp τ sig (Elt F)) :=
  [ StableHlo.binary main_v561 main_v568 main_v569 ((fun a b => concatenate S320000x256 1 [⟨S320000x128, a⟩, ⟨S320000x128, b⟩] concatenates_S320000x128_S320000x128_S320000x256_d1) : (⟨S320000x128, .f32⟩ : BufTy).Contents (Elt F) → (⟨S320000x128, .f32⟩ : BufTy).Contents (Elt F) → (⟨S320000x256, .f32⟩ : BufTy).Contents (Elt F)),
    StableHlo.unary main_arg14 main_v570 ((extractStridedSlice S1x256x128 ![4, 0, 0] · slices_S5x256x128_S1x256x128_4_0_0) : (⟨S5x256x128, .f32⟩ : BufTy).Contents (Elt F) → (⟨S1x256x128, .f32⟩ : BufTy).Contents (Elt F)),
    StableHlo.reshape main_v570 main_v571 rfl shapeCasts_S1x256x128_S256x128,
    StableHlo.binary main_v569 main_v571 main_v572 ((fun l r => Host.dotGeneral dot_S320000x256_S256x128_S320000x128_1_0_0_1_n_n none l r) : (⟨S320000x256, .f32⟩ : BufTy).Contents (Elt F) → (⟨S256x128, .f32⟩ : BufTy).Contents (Elt F) → (⟨S320000x128, .f32⟩ : BufTy).Contents (Elt F)),
    StableHlo.unary main_arg15 main_v573 ((extractStridedSlice S1x128 ![4, 0] · slices_S5x128_S1x128_4_0) : (⟨S5x128, .f32⟩ : BufTy).Contents (Elt F) → (⟨S1x128, .f32⟩ : BufTy).Contents (Elt F)),
    StableHlo.reshape main_v573 main_v574 rfl shapeCasts_S1x128_S128,
    StableHlo.unary main_v574 main_v575 (broadcastInDim S1x128 ![1] bcast_S128_S1x128_1 : (⟨S128, .f32⟩ : BufTy).Contents (Elt F) → (⟨S1x128, .f32⟩ : BufTy).Contents (Elt F)) ]

theorem p_hs_4_a_sub : (p_hs_4_a : List (HloOp τ sig (Elt F))).Forall fun op => op.bufs ⊆ tcRefs τ sig :=
  ⟨binary_bufs_sub .., unary_bufs_sub .., reshape_bufs_sub .., binary_bufs_sub .., unary_bufs_sub .., reshape_bufs_sub ..,
    unary_bufs_sub ..⟩
theorem p_hs_4_a_fresh : (p_hs_4_a : List (HloOp τ sig (Elt F))).Forall fun op => op.fresh = ∅ :=
  ⟨rfl, rfl, rfl, rfl, rfl, rfl, rfl⟩

/-- Statements 661 to 671 of @main: 13 operations. -/
abbrev p_hs_4_b : List (HloOp τ sig (Elt F)) :=
  [ StableHlo.unary main_v575 main_v576 (broadcastInDim S320000x128 ![0, 1] bcast_S1x128_S320000x128_0_1 : (⟨S1x128, .f32⟩ : BufTy).Contents (Elt F) → (⟨S320000x128, .f32⟩ : BufTy).Contents (Elt F)),
    StableHlo.binary main_v572 main_v576 main_v577 (addf : (⟨S320000x128, .f32⟩ : BufTy).Contents (Elt F) → (⟨S320000x128, .f32⟩ : BufTy).Contents (Elt F) → (⟨S320000x128, .f32⟩ : BufTy).Contents (Elt F)),
    StableHlo.TRef.nullary main_call28.cst (constant S_ .f32 0x00000000#32),
    StableHlo.TRef.unary main_call28.cst main_call28.v0 (broadcastInDim S320000x128 ![] bcast_S_S320000x128),
    StableHlo.TRef.binary (.of main_v577) main_call28.v0 main_call28.v1 maximumf,
    StableHlo.unary main_arg16 main_v579 ((extractStridedSlice S1x128x2 ![4, 0, 0] · slices_S5x128x2_S1x128x2_4_0_0) : (⟨S5x128x2, .f32⟩ : BufTy).Contents (Elt F) → (⟨S1x128x2, .f32⟩ : BufTy).Contents (Elt F)),
    StableHlo.reshape main_v579 main_v580 rfl shapeCasts_S1x128x2_S128x2,
    StableHlo.binary main_v578 main_v580 main_v581 ((fun l r => Host.dotGeneral dot_S320000x128_S128x2_S320000x2_1_0_0_1_n_n none l r) : (⟨S320000x128, .f32⟩ : BufTy).Contents (Elt F) → (⟨S128x2, .f32⟩ : BufTy).Contents (Elt F) → (⟨S320000x2, .f32⟩ : BufTy).Contents (Elt F)),
    StableHlo.unary main_arg17 main_v582 ((extractStridedSlice S1x2 ![4, 0] · slices_S5x2_S1x2_4_0) : (⟨S5x2, .f32⟩ : BufTy).Contents (Elt F) → (⟨S1x2, .f32⟩ : BufTy).Contents (Elt F)),
    StableHlo.reshape main_v582 main_v583 rfl shapeCasts_S1x2_S2,
    StableHlo.unary main_v583 main_v584 (broadcastInDim S1x2 ![1] bcast_S2_S1x2_1 : (⟨S2, .f32⟩ : BufTy).Contents (Elt F) → (⟨S1x2, .f32⟩ : BufTy).Contents (Elt F)),
    StableHlo.unary main_v584 main_v585 (broadcastInDim S320000x2 ![0, 1] bcast_S1x2_S320000x2_0_1 : (⟨S1x2, .f32⟩ : BufTy).Contents (Elt F) → (⟨S320000x2, .f32⟩ : BufTy).Contents (Elt F)),
    StableHlo.binary main_v581 main_v585 main_v586 (addf : (⟨S320000x2, .f32⟩ : BufTy).Contents (Elt F) → (⟨S320000x2, .f32⟩ : BufTy).Contents (Elt F) → (⟨S320000x2, .f32⟩ : BufTy).Contents (Elt F)) ]

theorem p_hs_4_b_sub : (p_hs_4_b : List (HloOp τ sig (Elt F))).Forall fun op => op.bufs ⊆ tcRefs τ sig :=
  ⟨unary_bufs_sub .., binary_bufs_sub .., nullary_bufs_sub .., unary_bufs_sub .., binary_bufs_sub .., unary_bufs_sub ..,
    reshape_bufs_sub .., binary_bufs_sub .., unary_bufs_sub .., reshape_bufs_sub .., unary_bufs_sub .., unary_bufs_sub ..,
    binary_bufs_sub ..⟩
theorem p_hs_4_b_fresh : (p_hs_4_b : List (HloOp τ sig (Elt F))).Forall fun op => op.fresh = ∅ :=
  ⟨rfl, rfl, rfl, rfl, rfl, rfl, rfl, rfl, rfl, rfl, rfl, rfl, rfl⟩

/-- Statements 672 to 672 of @main: 1 operation. -/
abbrev p_ad_4 : List (HloOp τ sig (Elt F)) :=
  [ StableHlo.binary main_v449 main_v586 main_v587 (addf : (⟨S320000x2, .f32⟩ : BufTy).Contents (Elt F) → (⟨S320000x2, .f32⟩ : BufTy).Contents (Elt F) → (⟨S320000x2, .f32⟩ : BufTy).Contents (Elt F)) ]

theorem p_ad_4_sub : (p_ad_4 : List (HloOp τ sig (Elt F))).Forall fun op => op.bufs ⊆ tcRefs τ sig :=
  binary_bufs_sub ..
theorem p_ad_4_fresh : (p_ad_4 : List (HloOp τ sig (Elt F))).Forall fun op => op.fresh = ∅ :=
  rfl

/-! ## The pieces put together -/

abbrev pP : List (HloOp τ sig (Elt F)) := p_emb ++ (p_hg_0 ++ (p_hs_0))
theorem pP_sub : (pP : List (HloOp τ sig (Elt F))).Forall fun op => op.bufs ⊆ tcRefs τ sig := forall_app p_emb_sub (forall_app p_hg_0_sub (p_hs_0_sub))
theorem pP_fresh : (pP : List (HloOp τ sig (Elt F))).Forall fun op => op.fresh = ∅ := forall_app p_emb_fresh (forall_app p_hg_0_fresh (p_hs_0_fresh))

abbrev p_l1_0 : List (HloOp τ sig (Elt F)) := p_l1_0_a ++ (p_l1_0_b)
theorem p_l1_0_sub : (p_l1_0 : List (HloOp τ sig (Elt F))).Forall fun op => op.bufs ⊆ tcRefs τ sig := forall_app p_l1_0_a_sub (p_l1_0_b_sub)
theorem p_l1_0_fresh : (p_l1_0 : List (HloOp τ sig (Elt F))).Forall fun op => op.fresh = ∅ := forall_app p_l1_0_a_fresh (p_l1_0_b_fresh)

abbrev p_n2_0 : List (HloOp τ sig (Elt F)) := p_n2_0_a ++ (p_n2_0_b)
theorem p_n2_0_sub : (p_n2_0 : List (HloOp τ sig (Elt F))).Forall fun op => op.bufs ⊆ tcRefs τ sig := forall_app p_n2_0_a_sub (p_n2_0_b_sub)
theorem p_n2_0_fresh : (p_n2_0 : List (HloOp τ sig (Elt F))).Forall fun op => op.fresh = ∅ := forall_app p_n2_0_a_fresh (p_n2_0_b_fresh)

abbrev p_hs_1 : List (HloOp τ sig (Elt F)) := p_hs_1_a ++ (p_hs_1_b)
theorem p_hs_1_sub : (p_hs_1 : List (HloOp τ sig (Elt F))).Forall fun op => op.bufs ⊆ tcRefs τ sig := forall_app p_hs_1_a_sub (p_hs_1_b_sub)
theorem p_hs_1_fresh : (p_hs_1 : List (HloOp τ sig (Elt F))).Forall fun op => op.fresh = ∅ := forall_app p_hs_1_a_fresh (p_hs_1_b_fresh)

abbrev u0 : List (HloOp τ sig (Elt F)) := p_ng_0 ++ (p_l1_0 ++ (p_m1_0 ++ (p_v1_0 ++ (p_n1_0 ++ (p_l2_0 ++ (p_m2_0 ++ (p_v2_0 ++ (p_n2_0 ++ (p_m3_0 ++ (p_v3_0 ++ (p_n3_0 ++ (p_rs_0 ++ (p_hg_1 ++ (p_hs_1 ++ (p_ad_1)))))))))))))))
theorem u0_sub : (u0 : List (HloOp τ sig (Elt F))).Forall fun op => op.bufs ⊆ tcRefs τ sig := forall_app p_ng_0_sub (forall_app p_l1_0_sub (forall_app p_m1_0_sub (forall_app p_v1_0_sub (forall_app p_n1_0_sub (forall_app p_l2_0_sub (forall_app p_m2_0_sub (forall_app p_v2_0_sub (forall_app p_n2_0_sub (forall_app p_m3_0_sub (forall_app p_v3_0_sub (forall_app p_n3_0_sub (forall_app p_rs_0_sub (forall_app p_hg_1_sub (forall_app p_hs_1_sub (p_ad_1_sub)))))))))))))))
theorem u0_fresh : (u0 : List (HloOp τ sig (Elt F))).Forall fun op => op.fresh = ∅ := forall_app p_ng_0_fresh (forall_app p_l1_0_fresh (forall_app p_m1_0_fresh (forall_app p_v1_0_fresh (forall_app p_n1_0_fresh (forall_app p_l2_0_fresh (forall_app p_m2_0_fresh (forall_app p_v2_0_fresh (forall_app p_n2_0_fresh (forall_app p_m3_0_fresh (forall_app p_v3_0_fresh (forall_app p_n3_0_fresh (forall_app p_rs_0_fresh (forall_app p_hg_1_fresh (forall_app p_hs_1_fresh (p_ad_1_fresh)))))))))))))))

abbrev p_n1_1 : List (HloOp τ sig (Elt F)) := p_n1_1_a ++ (p_n1_1_b)
theorem p_n1_1_sub : (p_n1_1 : List (HloOp τ sig (Elt F))).Forall fun op => op.bufs ⊆ tcRefs τ sig := forall_app p_n1_1_a_sub (p_n1_1_b_sub)
theorem p_n1_1_fresh : (p_n1_1 : List (HloOp τ sig (Elt F))).Forall fun op => op.fresh = ∅ := forall_app p_n1_1_a_fresh (p_n1_1_b_fresh)

abbrev p_v3_1 : List (HloOp τ sig (Elt F)) := p_v3_1_a ++ (p_v3_1_b)
theorem p_v3_1_sub : (p_v3_1 : List (HloOp τ sig (Elt F))).Forall fun op => op.bufs ⊆ tcRefs τ sig := forall_app p_v3_1_a_sub (p_v3_1_b_sub)
theorem p_v3_1_fresh : (p_v3_1 : List (HloOp τ sig (Elt F))).Forall fun op => op.fresh = ∅ := forall_app p_v3_1_a_fresh (p_v3_1_b_fresh)

abbrev u1 : List (HloOp τ sig (Elt F)) := p_ng_1 ++ (p_l1_1 ++ (p_m1_1 ++ (p_v1_1 ++ (p_n1_1 ++ (p_l2_1 ++ (p_m2_1 ++ (p_v2_1 ++ (p_n2_1 ++ (p_m3_1 ++ (p_v3_1 ++ (p_n3_1 ++ (p_rs_1 ++ (p_hg_2 ++ (p_hs_2 ++ (p_ad_2)))))))))))))))
theorem u1_sub : (u1 : List (HloOp τ sig (Elt F))).Forall fun op => op.bufs ⊆ tcRefs τ sig := forall_app p_ng_1_sub (forall_app p_l1_1_sub (forall_app p_m1_1_sub (forall_app p_v1_1_sub (forall_app p_n1_1_sub (forall_app p_l2_1_sub (forall_app p_m2_1_sub (forall_app p_v2_1_sub (forall_app p_n2_1_sub (forall_app p_m3_1_sub (forall_app p_v3_1_sub (forall_app p_n3_1_sub (forall_app p_rs_1_sub (forall_app p_hg_2_sub (forall_app p_hs_2_sub (p_ad_2_sub)))))))))))))))
theorem u1_fresh : (u1 : List (HloOp τ sig (Elt F))).Forall fun op => op.fresh = ∅ := forall_app p_ng_1_fresh (forall_app p_l1_1_fresh (forall_app p_m1_1_fresh (forall_app p_v1_1_fresh (forall_app p_n1_1_fresh (forall_app p_l2_1_fresh (forall_app p_m2_1_fresh (forall_app p_v2_1_fresh (forall_app p_n2_1_fresh (forall_app p_m3_1_fresh (forall_app p_v3_1_fresh (forall_app p_n3_1_fresh (forall_app p_rs_1_fresh (forall_app p_hg_2_fresh (forall_app p_hs_2_fresh (p_ad_2_fresh)))))))))))))))

abbrev p_ng_2 : List (HloOp τ sig (Elt F)) := p_ng_2_a ++ (p_ng_2_b)
theorem p_ng_2_sub : (p_ng_2 : List (HloOp τ sig (Elt F))).Forall fun op => op.bufs ⊆ tcRefs τ sig := forall_app p_ng_2_a_sub (p_ng_2_b_sub)
theorem p_ng_2_fresh : (p_ng_2 : List (HloOp τ sig (Elt F))).Forall fun op => op.fresh = ∅ := forall_app p_ng_2_a_fresh (p_ng_2_b_fresh)

abbrev p_hg_3 : List (HloOp τ sig (Elt F)) := p_hg_3_a ++ (p_hg_3_b)
theorem p_hg_3_sub : (p_hg_3 : List (HloOp τ sig (Elt F))).Forall fun op => op.bufs ⊆ tcRefs τ sig := forall_app p_hg_3_a_sub (p_hg_3_b_sub)
theorem p_hg_3_fresh : (p_hg_3 : List (HloOp τ sig (Elt F))).Forall fun op => op.fresh = ∅ := forall_app p_hg_3_a_fresh (p_hg_3_b_fresh)

abbrev u2 : List (HloOp τ sig (Elt F)) := p_ng_2 ++ (p_l1_2 ++ (p_m1_2 ++ (p_v1_2 ++ (p_n1_2 ++ (p_l2_2 ++ (p_m2_2 ++ (p_v2_2 ++ (p_n2_2 ++ (p_m3_2 ++ (p_v3_2 ++ (p_n3_2 ++ (p_rs_2 ++ (p_hg_3 ++ (p_hs_3 ++ (p_ad_3)))))))))))))))
theorem u2_sub : (u2 : List (HloOp τ sig (Elt F))).Forall fun op => op.bufs ⊆ tcRefs τ sig := forall_app p_ng_2_sub (forall_app p_l1_2_sub (forall_app p_m1_2_sub (forall_app p_v1_2_sub (forall_app p_n1_2_sub (forall_app p_l2_2_sub (forall_app p_m2_2_sub (forall_app p_v2_2_sub (forall_app p_n2_2_sub (forall_app p_m3_2_sub (forall_app p_v3_2_sub (forall_app p_n3_2_sub (forall_app p_rs_2_sub (forall_app p_hg_3_sub (forall_app p_hs_3_sub (p_ad_3_sub)))))))))))))))
theorem u2_fresh : (u2 : List (HloOp τ sig (Elt F))).Forall fun op => op.fresh = ∅ := forall_app p_ng_2_fresh (forall_app p_l1_2_fresh (forall_app p_m1_2_fresh (forall_app p_v1_2_fresh (forall_app p_n1_2_fresh (forall_app p_l2_2_fresh (forall_app p_m2_2_fresh (forall_app p_v2_2_fresh (forall_app p_n2_2_fresh (forall_app p_m3_2_fresh (forall_app p_v3_2_fresh (forall_app p_n3_2_fresh (forall_app p_rs_2_fresh (forall_app p_hg_3_fresh (forall_app p_hs_3_fresh (p_ad_3_fresh)))))))))))))))

abbrev p_l1_3 : List (HloOp τ sig (Elt F)) := p_l1_3_a ++ (p_l1_3_b)
theorem p_l1_3_sub : (p_l1_3 : List (HloOp τ sig (Elt F))).Forall fun op => op.bufs ⊆ tcRefs τ sig := forall_app p_l1_3_a_sub (p_l1_3_b_sub)
theorem p_l1_3_fresh : (p_l1_3 : List (HloOp τ sig (Elt F))).Forall fun op => op.fresh = ∅ := forall_app p_l1_3_a_fresh (p_l1_3_b_fresh)

abbrev p_n2_3 : List (HloOp τ sig (Elt F)) := p_n2_3_a ++ (p_n2_3_b)
theorem p_n2_3_sub : (p_n2_3 : List (HloOp τ sig (Elt F))).Forall fun op => op.bufs ⊆ tcRefs τ sig := forall_app p_n2_3_a_sub (p_n2_3_b_sub)
theorem p_n2_3_fresh : (p_n2_3 : List (HloOp τ sig (Elt F))).Forall fun op => op.fresh = ∅ := forall_app p_n2_3_a_fresh (p_n2_3_b_fresh)

abbrev p_hs_4 : List (HloOp τ sig (Elt F)) := p_hs_4_a ++ (p_hs_4_b)
theorem p_hs_4_sub : (p_hs_4 : List (HloOp τ sig (Elt F))).Forall fun op => op.bufs ⊆ tcRefs τ sig := forall_app p_hs_4_a_sub (p_hs_4_b_sub)
theorem p_hs_4_fresh : (p_hs_4 : List (HloOp τ sig (Elt F))).Forall fun op => op.fresh = ∅ := forall_app p_hs_4_a_fresh (p_hs_4_b_fresh)

abbrev u3 : List (HloOp τ sig (Elt F)) := p_ng_3 ++ (p_l1_3 ++ (p_m1_3 ++ (p_v1_3 ++ (p_n1_3 ++ (p_l2_3 ++ (p_m2_3 ++ (p_v2_3 ++ (p_n2_3 ++ (p_m3_3 ++ (p_v3_3 ++ (p_n3_3 ++ (p_rs_3 ++ (p_hg_4 ++ (p_hs_4 ++ (p_ad_4)))))))))))))))
theorem u3_sub : (u3 : List (HloOp τ sig (Elt F))).Forall fun op => op.bufs ⊆ tcRefs τ sig := forall_app p_ng_3_sub (forall_app p_l1_3_sub (forall_app p_m1_3_sub (forall_app p_v1_3_sub (forall_app p_n1_3_sub (forall_app p_l2_3_sub (forall_app p_m2_3_sub (forall_app p_v2_3_sub (forall_app p_n2_3_sub (forall_app p_m3_3_sub (forall_app p_v3_3_sub (forall_app p_n3_3_sub (forall_app p_rs_3_sub (forall_app p_hg_4_sub (forall_app p_hs_4_sub (p_ad_4_sub)))))))))))))))
theorem u3_fresh : (u3 : List (HloOp τ sig (Elt F))).Forall fun op => op.fresh = ∅ := forall_app p_ng_3_fresh (forall_app p_l1_3_fresh (forall_app p_m1_3_fresh (forall_app p_v1_3_fresh (forall_app p_n1_3_fresh (forall_app p_l2_3_fresh (forall_app p_m2_3_fresh (forall_app p_v2_3_fresh (forall_app p_n2_3_fresh (forall_app p_m3_3_fresh (forall_app p_v3_3_fresh (forall_app p_n3_3_fresh (forall_app p_rs_3_fresh (forall_app p_hg_4_fresh (forall_app p_hs_4_fresh (p_ad_4_fresh)))))))))))))))

abbrev ops : List (HloOp τ sig (Elt F)) := pP ++ (u0 ++ (u1 ++ (u2 ++ (u3))))
theorem ops_sub : (ops : List (HloOp τ sig (Elt F))).Forall fun op => op.bufs ⊆ tcRefs τ sig := forall_app pP_sub (forall_app u0_sub (forall_app u1_sub (forall_app u2_sub (u3_sub))))
theorem ops_fresh : (ops : List (HloOp τ sig (Elt F))).Forall fun op => op.fresh = ∅ := forall_app pP_fresh (forall_app u0_fresh (forall_app u1_fresh (forall_app u2_fresh (u3_fresh))))

/-! ## Each printed window is its pieces in a line -/

set_option maxRecDepth 8192 in
/-- Window 0: the callees' definitions unfolded at their calls, sequencing reassociated. -/
theorem main_part0_eq (c : Dev nD) : main_part0 (F := F) c = seq (p_emb ++ (p_hg_0 ++ (p_hs_0 ++ (p_ng_0 ++ (p_l1_0_a))))) := by
  simp only [main_part0, fn_relu.body, fn_relu_0.body, fn_var.body, fn_where.body, seq_append, seq, bind_assoc, pure_bind] <;> rfl

set_option maxRecDepth 8192 in
/-- Window 1: the callees' definitions unfolded at their calls, sequencing reassociated. -/
theorem main_part1_eq (c : Dev nD) : main_part1 (F := F) c = seq (p_l1_0_b ++ (p_m1_0 ++ (p_v1_0 ++ (p_n1_0 ++ (p_l2_0 ++ (p_m2_0 ++ (p_v2_0 ++ (p_n2_0_a)))))))) := by
  simp only [main_part1, fn_relu.body, fn_relu_0.body, fn_var.body, fn_where.body, seq_append, seq, bind_assoc, pure_bind] <;> rfl

set_option maxRecDepth 8192 in
/-- Window 2: the callees' definitions unfolded at their calls, sequencing reassociated. -/
theorem main_part2_eq (c : Dev nD) : main_part2 (F := F) c = seq (p_n2_0_b ++ (p_m3_0 ++ (p_v3_0 ++ (p_n3_0 ++ (p_rs_0 ++ (p_hg_1 ++ (p_hs_1_a))))))) := by
  simp only [main_part2, fn_relu.body, fn_relu_0.body, fn_var.body, fn_where.body, seq_append, seq, bind_assoc, pure_bind] <;> rfl

set_option maxRecDepth 8192 in
/-- Window 3: the callees' definitions unfolded at their calls, sequencing reassociated. -/
theorem main_part3_eq (c : Dev nD) : main_part3 (F := F) c = seq (p_hs_1_b ++ (p_ad_1 ++ (p_ng_1 ++ (p_l1_1 ++ (p_m1_1 ++ (p_v1_1 ++ (p_n1_1_a))))))) := by
  simp only [main_part3, fn_relu.body, fn_relu_0.body, fn_var.body, fn_where.body, seq_append, seq, bind_assoc, pure_bind] <;> rfl

set_option maxRecDepth 8192 in
/-- Window 4: the callees' definitions unfolded at their calls, sequencing reassociated. -/
theorem main_part4_eq (c : Dev nD) : main_part4 (F := F) c = seq (p_n1_1_b ++ (p_l2_1 ++ (p_m2_1 ++ (p_v2_1 ++ (p_n2_1 ++ (p_m3_1 ++ (p_v3_1_a))))))) := by
  simp only [main_part4, fn_relu.body, fn_relu_0.body, fn_var.body, fn_where.body, seq_append, seq, bind_assoc, pure_bind] <;> rfl

set_option maxRecDepth 8192 in
/-- Window 5: the callees' definitions unfolded at their calls, sequencing reassociated. -/
theorem main_part5_eq (c : Dev nD) : main_part5 (F := F) c = seq (p_v3_1_b ++ (p_n3_1 ++ (p_rs_1 ++ (p_hg_2 ++ (p_hs_2 ++ (p_ad_2 ++ (p_ng_2_a))))))) := by
  simp only [main_part5, fn_relu.body, fn_relu_0.body, fn_var.body, fn_where.body, seq_append, seq, bind_assoc, pure_bind] <;> rfl

set_option maxRecDepth 8192 in
/-- Window 6: the callees' definitions unfolded at their calls, sequencing reassociated. -/
theorem main_part6_eq (c : Dev nD) : main_part6 (F := F) c = seq (p_ng_2_b ++ (p_l1_2 ++ (p_m1_2 ++ (p_v1_2 ++ (p_n1_2 ++ (p_l2_2)))))) := by
  simp only [main_part6, fn_relu.body, fn_relu_0.body, fn_var.body, fn_where.body, seq_append, seq, bind_assoc, pure_bind] <;> rfl

set_option maxRecDepth 8192 in
/-- Window 7: the callees' definitions unfolded at their calls, sequencing reassociated. -/
theorem main_part7_eq (c : Dev nD) : main_part7 (F := F) c = seq (p_m2_2 ++ (p_v2_2 ++ (p_n2_2 ++ (p_m3_2 ++ (p_v3_2 ++ (p_n3_2 ++ (p_rs_2 ++ (p_hg_3_a)))))))) := by
  simp only [main_part7, fn_relu.body, fn_relu_0.body, fn_var.body, fn_where.body, seq_append, seq, bind_assoc, pure_bind] <;> rfl

set_option maxRecDepth 8192 in
/-- Window 8: the callees' definitions unfolded at their calls, sequencing reassociated. -/
theorem main_part8_eq (c : Dev nD) : main_part8 (F := F) c = seq (p_hg_3_b ++ (p_hs_3 ++ (p_ad_3 ++ (p_ng_3 ++ (p_l1_3_a))))) := by
  simp only [main_part8, fn_relu.body, fn_relu_0.body, fn_var.body, fn_where.body, seq_append, seq, bind_assoc, pure_bind] <;> rfl

set_option maxRecDepth 8192 in
/-- Window 9: the callees' definitions unfolded at their calls, sequencing reassociated. -/
theorem main_part9_eq (c : Dev nD) : main_part9 (F := F) c = seq (p_l1_3_b ++ (p_m1_3 ++ (p_v1_3 ++ (p_n1_3 ++ (p_l2_3 ++ (p_m2_3 ++ (p_v2_3 ++ (p_n2_3_a)))))))) := by
  simp only [main_part9, fn_relu.body, fn_relu_0.body, fn_var.body, fn_where.body, seq_append, seq, bind_assoc, pure_bind] <;> rfl

set_option maxRecDepth 8192 in
/-- Window 10: the callees' definitions unfolded at their calls, sequencing reassociated. -/
theorem main_part10_eq (c : Dev nD) : main_part10 (F := F) c = seq (p_n2_3_b ++ (p_m3_3 ++ (p_v3_3 ++ (p_n3_3 ++ (p_rs_3 ++ (p_hg_4 ++ (p_hs_4_a))))))) := by
  simp only [main_part10, fn_relu.body, fn_relu_0.body, fn_var.body, fn_where.body, seq_append, seq, bind_assoc, pure_bind] <;> rfl

set_option maxRecDepth 8192 in
/-- Window 11: the callees' definitions unfolded at their calls, sequencing reassociated. -/
theorem main_part11_eq (c : Dev nD) : main_part11 (F := F) c = seq (p_hs_4_b ++ (p_ad_4)) := by
  simp only [main_part11, fn_relu.body, fn_relu_0.body, fn_var.body, fn_where.body, seq_append, seq, bind_assoc, pure_bind] <;> rfl

/-! ## The run -/

/-- @main is that straight line. -/
theorem main_eq (c : Dev nD) : main (F := F) c = seq ops := by
  simp only [ops, pP, u0, u1, u2, u3, p_l1_0, p_n2_0, p_hs_1, p_n1_1, p_v3_1, p_ng_2, p_hg_3, p_l1_3, p_n2_3, p_hs_4, seq_append, main, main_part0_eq, main_part1_eq, main_part2_eq, main_part3_eq, main_part4_eq, main_part5_eq, main_part6_eq, main_part7_eq, main_part8_eq, main_part9_eq, main_part10_eq, main_part11_eq, bind_assoc]

/-- No TensorCore buffer is scoped: the program has no kernel, every buffer is a tensor value of @main in HBM. -/
theorem scopedRefs_eq : (Finset.univ.filter fun b : Ref sig .tc => b.isScoped) = ∅ := by
  refine Finset.filter_eq_empty_iff.2 fun b _ => ?_
  rcases b with ⟨sp, i, h⟩
  cases sp <;> first | exact i.elim0 | exact Bool.false_ne_true | decide
theorem scopedSems_eq : (Finset.univ.filter fun sm : SemLoc sig => sm.isScoped .tc) = ∅ := by decide

/-- Every operation determines its results. -/
theorem ops_fresh_mem : ∀ op ∈ (ops : List (HloOp τ sig (Elt F))), op.fresh = ∅ := List.forall_iff_forall_mem.1 ops_fresh

/-- The whole line's fold, piece by piece. -/
theorem after_ops (V : Valuation τ sig (Elt F)) :
    after ops V = after p_ad_4 (after p_hs_4 (after p_hg_4 (after p_rs_3 (after p_n3_3 (after p_v3_3 (after p_m3_3 (after p_n2_3 (after p_v2_3 (after p_m2_3 (after p_l2_3 (after p_n1_3 (after p_v1_3 (after p_m1_3 (after p_l1_3 (after p_ng_3 (after p_ad_3 (after p_hs_3 (after p_hg_3 (after p_rs_2 (after p_n3_2 (after p_v3_2 (after p_m3_2 (after p_n2_2 (after p_v2_2 (after p_m2_2 (after p_l2_2 (after p_n1_2 (after p_v1_2 (after p_m1_2 (after p_l1_2 (after p_ng_2 (after p_ad_2 (after p_hs_2 (after p_hg_2 (after p_rs_1 (after p_n3_1 (after p_v3_1 (after p_m3_1 (after p_n2_1 (after p_v2_1 (after p_m2_1 (after p_l2_1 (after p_n1_1 (after p_v1_1 (after p_m1_1 (after p_l1_1 (after p_ng_1 (after p_ad_1 (after p_hs_1 (after p_hg_1 (after p_rs_0 (after p_n3_0 (after p_v3_0 (after p_m3_0 (after p_n2_0 (after p_v2_0 (after p_m2_0 (after p_l2_0 (after p_n1_0 (after p_v1_0 (after p_m1_0 (after p_l1_0 (after p_ng_0 (after p_hs_0 (after p_hg_0 (after p_emb V)))))))))))))))))))))))))))))))))))))))))))))))))))))))))))))))))) := by
  simp only [ops, pP, u0, u1, u2, u3, after_append]

/-- For any float values, from any memory with zero counters: every weakly fair execution of @main on the
    TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (launchContents m c) (b : DevRef τ sig) :=
  run_seq scopedRefs_eq scopedSems_eq defs main (fun _ => ops) main_eq (fun _ => ops_sub) m ρ (fun _ => ops_fresh_mem)

end Cert.RRun

end
-- ==== Proof.RStage.lean ====
/-
  The reference program's host terms, stage by stage, as functions of coordinates.

  Each lemma takes the composed term of one stretch of the reference's operations over variable arrays, exactly as
  the operations print it, and reads it at an index: the embedding, a layer's two linear maps, a column's mean and
  biased variance (the variance with its divisor, its comparison against zero and its selection evaluated at the
  zero degrees-of-freedom word), the normalisation with the rectifier, the residual sum, the edge head over the two
  gathered arrays, the sum of the five heads, and member `o` of each stacked parameter.
-/
import proofs.«416875_j80633716015165_3_alg».proof.ReferenceIdeal
import proofs.«416875_j80633716015165_3_alg».proof.Proof.Gen.ReferenceIdeal
import proofs.«416875_j80633716015165_3_alg».proof.Proof.Spec
import Idealize.ShloMosaic.Lib.StackMember
import Idealize.ShloMosaic.Lib.IdealHost
import Idealize.ShloMosaic.Lib.ValueLayout
import Idealize.ShloMosaic.Lib.Pipeline.Value

noncomputable section

open Idealize.ShloMosaic Idealize.ShloMosaic.ValueIdx Idealize.ShloMosaic.StackMember
open Cert.ReferenceIdeal Cert.ReferenceIdeal.Facts₀

namespace Cert.RStage

/-! ## Arrays and functions of coordinates -/

theorem at1_mk1 {a : Nat} (f : Fin a → EReal) : M.at1 (M.mk1 f) = f := rfl
theorem at2_mk2 {a b : Nat} (f : Fin a → Fin b → EReal) : M.at2 (M.mk2 f) = f := rfl
theorem at3_mk3 {a b c : Nat} (f : Fin a → Fin b → Fin c → EReal) : M.at3 (M.mk3 f) = f := rfl
theorem mk1_at1 {a : Nat} (x : (⟨1, ![a]⟩ : Shape).Idx → EReal) : M.mk1 (M.at1 x) = x :=
  funext fun i => congrArg x (eq_ix1 i).symm
theorem mk2_at2 {a b : Nat} (x : (⟨2, ![a, b]⟩ : Shape).Idx → EReal) : M.mk2 (M.at2 x) = x :=
  funext fun i => congrArg x (eq_ix2 i).symm
theorem mk3_at3 {a b c : Nat} (x : (⟨3, ![a, b, c]⟩ : Shape).Idx → EReal) : M.mk3 (M.at3 x) = x :=
  funext fun i => congrArg x (eq_ix3 i).symm

/-! ## A vector laid along every row, read at an index -/

/-- A vector of 128 broadcast down 20000 rows reads the vector at the column. -/
theorem rowBcast_apply (b : FVec Ideal S128 .f32) (r : Fin 20000) (j : Fin 128) :
    (broadcastInDim S20000x128 ![0, 1] bcast_S1x128_S20000x128_0_1 (broadcastInDim S1x128 ![1] bcast_S128_S1x128_1 b)) (ix2 r j) = b (ix1 j) := by
  refine (broadcastInDim_apply _ _ _ (ix2 r j) (ix2 (0 : Fin 1) j) (fun a => ?_)).trans ?_
  · match a with
    | ⟨0, _⟩ => rfl
    | ⟨1, _⟩ => rfl
  · refine (broadcastInDim_apply _ _ _ (ix2 (0 : Fin 1) j) (ix1 j) (fun a => ?_))
    match a with
    | ⟨0, _⟩ => rfl

/-- A vector of 128 broadcast down 320000 rows reads the vector at the column. -/
theorem rowBcast320_apply (b : FVec Ideal S128 .f32) (r : Fin 320000) (j : Fin 128) :
    (broadcastInDim S320000x128 ![0, 1] bcast_S1x128_S320000x128_0_1 (broadcastInDim S1x128 ![1] bcast_S128_S1x128_1 b)) (ix2 r j) = b (ix1 j) := by
  refine (broadcastInDim_apply _ _ _ (ix2 r j) (ix2 (0 : Fin 1) j) (fun a => ?_)).trans ?_
  · match a with
    | ⟨0, _⟩ => rfl
    | ⟨1, _⟩ => rfl
  · refine (broadcastInDim_apply _ _ _ (ix2 (0 : Fin 1) j) (ix1 j) (fun a => ?_))
    match a with
    | ⟨0, _⟩ => rfl

/-- A vector of 2 broadcast down 320000 rows reads the vector at the column. -/
theorem rowBcast2_apply (b : FVec Ideal S2 .f32) (r : Fin 320000) (j : Fin 2) :
    (broadcastInDim S320000x2 ![0, 1] bcast_S1x2_S320000x2_0_1 (broadcastInDim S1x2 ![1] bcast_S2_S1x2_1 b)) (ix2 r j) = b (ix1 j) := by
  refine (broadcastInDim_apply _ _ _ (ix2 r j) (ix2 (0 : Fin 1) j) (fun a => ?_)).trans ?_
  · match a with
    | ⟨0, _⟩ => rfl
    | ⟨1, _⟩ => rfl
  · refine (broadcastInDim_apply _ _ _ (ix2 (0 : Fin 1) j) (ix1 j) (fun a => ?_))
    match a with
    | ⟨0, _⟩ => rfl

/-! ## The products read at an index -/

theorem dot_embed_apply (h : FVec Ideal S20000x2 .f32) (w : FVec Ideal S2x128 .f32) (r : Fin 20000) (j : Fin 128) :
    Host.dotGeneral dot_S20000x2_S2x128_S20000x128_1_0_0_1_n_n none h w (ix2 r j) = ∑ t : Fin 2, h (ix2 r t) * w (ix2 t j) := by
  rw [show dot_S20000x2_S2x128_S20000x128_1_0_0_1_n_n = DotDims.plain 20000 2 128 from rfl, dotGeneral_plain_apply]

theorem dot_node_apply (x : FVec Ideal S20000x128 .f32) (w : FVec Ideal S128x128 .f32) (r : Fin 20000) (j : Fin 128) :
    Host.dotGeneral dot_S20000x128_S128x128_S20000x128_1_0_0_1_n_n none x w (ix2 r j) = ∑ t : Fin 128, x (ix2 r t) * w (ix2 t j) := by
  rw [show dot_S20000x128_S128x128_S20000x128_1_0_0_1_n_n = DotDims.plain 20000 128 128 from rfl, dotGeneral_plain_apply]

theorem dot_head1_apply (x : FVec Ideal S320000x256 .f32) (w : FVec Ideal S256x128 .f32) (r : Fin 320000) (j : Fin 128) :
    Host.dotGeneral dot_S320000x256_S256x128_S320000x128_1_0_0_1_n_n none x w (ix2 r j) = ∑ t : Fin 256, x (ix2 r t) * w (ix2 t j) := by
  rw [show dot_S320000x256_S256x128_S320000x128_1_0_0_1_n_n = DotDims.plain 320000 256 128 from rfl, dotGeneral_plain_apply]

theorem dot_head2_apply (x : FVec Ideal S320000x128 .f32) (w : FVec Ideal S128x2 .f32) (r : Fin 320000) (j : Fin 2) :
    Host.dotGeneral dot_S320000x128_S128x2_S320000x2_1_0_0_1_n_n none x w (ix2 r j) = ∑ t : Fin 128, x (ix2 r t) * w (ix2 t j) := by
  rw [show dot_S320000x128_S128x2_S320000x2_1_0_0_1_n_n = DotDims.plain 320000 128 2 from rfl, dotGeneral_plain_apply]

/-! ## The column sums read at an index -/

theorem colSum_apply (a : FVec Ideal S20000x128 .f32) (j : Fin 128) :
    (Host.reduceAdd a (constant S_ .f32 0x00000000#32) reducesTo_S20000x128_S128_d0 h_S_) (ix1 j) = M.c0 + ∑ r : Fin 20000, a (ix2 r j) := by
  have h2 : S20000x128.Reduces [0] S128 := ⟨reducesTo_S20000x128_S128_d0.1, Nat.one_pos, reducesTo_S20000x128_S128_d0.2⟩
  rw [hostReduceAdd_apply, Ideal.hostReduceAdd_single reducesTo_S20000x128_S128_d0 h2]
  refine congrArg₂ (· + ·) rfl (Finset.sum_congr rfl fun k _ => ?_)
  refine congrArg a (funext fun ax => Fin.ext ?_)
  match ax with
  | ⟨0, _⟩ => rfl
  | ⟨1, _⟩ => rfl

/-! ## Stage: the embedding -/

theorem embed_eq (h : FVec Ideal S20000x2 .f32) (w : FVec Ideal S2x128 .f32) (b : FVec Ideal S128 .f32) :
    addf (Host.dotGeneral dot_S20000x2_S2x128_S20000x128_1_0_0_1_n_n none h w) (broadcastInDim S20000x128 ![0, 1] bcast_S1x128_S20000x128_0_1 (broadcastInDim S1x128 ![1] bcast_S128_S1x128_1 b))
    = M.mk2 (M.affine (M.at2 h) (M.at2 w) (M.at1 b)) := by
  funext i
  obtain ⟨r, j, rfl⟩ : ∃ (r : Fin 20000) (j : Fin 128), i = ix2 r j := ⟨i 0, i 1, eq_ix2 i⟩
  rw [addf_apply, rowBcast_apply, dot_embed_apply]
  rfl

/-! ## Stage: a layer's linear maps -/

/-- The first linear map: `((1 + ε) · x + neigh) · w + b`. -/
theorem lin_eq (x ng : FVec Ideal S20000x128 .f32) (e : FVec Ideal S_ .f32) (w : FVec Ideal S128x128 .f32) (b : FVec Ideal S128 .f32) :
    addf (Host.dotGeneral dot_S20000x128_S128x128_S20000x128_1_0_0_1_n_n none (addf (mulf (broadcastInDim S20000x128 ![] bcast_S_S20000x128 (addf (constant S_ .f32 0x3F800000#32) e)) x) ng) w) (broadcastInDim S20000x128 ![0, 1] bcast_S1x128_S20000x128_0_1 (broadcastInDim S1x128 ![1] bcast_S128_S1x128_1 b))
    = M.mk2 (M.lin (M.at2 x) (M.at2 ng) (e ix0) (M.at2 w) (M.at1 b)) := by
  funext i
  obtain ⟨r, j, rfl⟩ : ∃ (r : Fin 20000) (j : Fin 128), i = ix2 r j := ⟨i 0, i 1, eq_ix2 i⟩
  rw [addf_apply, rowBcast_apply, dot_node_apply]
  refine congrArg₂ (· + ·) (Finset.sum_congr rfl fun t _ => ?_) rfl
  rw [addf_apply, mulf_apply, broadcastInDim_scalar_apply, addf_apply]
  rfl

/-- The second linear map: `a · w + b`. -/
theorem affine_eq (a : FVec Ideal S20000x128 .f32) (w : FVec Ideal S128x128 .f32) (b : FVec Ideal S128 .f32) :
    addf (Host.dotGeneral dot_S20000x128_S128x128_S20000x128_1_0_0_1_n_n none a w) (broadcastInDim S20000x128 ![0, 1] bcast_S1x128_S20000x128_0_1 (broadcastInDim S1x128 ![1] bcast_S128_S1x128_1 b))
    = M.mk2 (M.affine (M.at2 a) (M.at2 w) (M.at1 b)) := by
  funext i
  obtain ⟨r, j, rfl⟩ : ∃ (r : Fin 20000) (j : Fin 128), i = ix2 r j := ⟨i 0, i 1, eq_ix2 i⟩
  rw [addf_apply, rowBcast_apply, dot_node_apply]
  rfl

/-! ## Stage: the column statistics -/

/-- The mean of every column. -/
theorem mean_eq (a : FVec Ideal S20000x128 .f32) :
    Host.divf (Host.reduceAdd a (constant S_ .f32 0x00000000#32) reducesTo_S20000x128_S128_d0 h_S_) (broadcastInDim S128 ![] bcast_S_S128 (constant S_ .f32 0x469C4000#32))
    = M.mk1 (M.meanR (M.at2 a)) := by
  funext i
  obtain ⟨j, rfl⟩ : ∃ j : Fin 128, i = ix1 j := ⟨i 0, eq_ix1 i⟩
  rw [hostDivf_apply, colSum_apply, broadcastInDim_scalar_apply]
  rfl

/-- The row count's word is the real 20000. -/
theorem cN_eq : M.cN = ((20000 : ℝ) : EReal) := by
  show Ideal.ofBits .f32 0x469C4000#32 = _
  simp [Ideal.ofBits, Ideal.ieee, -EReal.coe_mul]; norm_num

/-- The divisor: the row count's word less the converted zero word is the row count's word. -/
theorem divisor_apply :
    (subf (constant S_ .f32 0x469C4000#32) (sitofp .f32 (constantI S_ 32 0#32) : FVec Ideal S_ .f32)) ix0 = M.cN := by
  show M.cN - ((((0#32 : BitVec 32).toInt : ℤ) : ℝ) : EReal) = M.cN
  simp

/-- The divisor is positive: the comparison against the zero word is the bit one. -/
theorem divisor_pos :
    (cmpf .ogt (subf (constant S_ .f32 0x469C4000#32) (sitofp .f32 (constantI S_ 32 0#32) : FVec Ideal S_ .f32)) (constant S_ .f32 0x00000000#32)) ix0 = 1#1 := by
  rw [cmpf_apply, divisor_apply]
  show Ideal.cmp .ogt M.cN (Ideal.ofBits .f32 0x00000000#32) = 1#1
  rw [cN_eq, Ideal.ofBits_zero_f32]
  have h : (0 : EReal) < ((20000 : ℝ) : EReal) := EReal.coe_pos.mpr (by norm_num)
  simp [Ideal.cmp, h]

/-- A deviation from the column's mean, read at an index. -/
theorem dev_apply (a : FVec Ideal S20000x128 .f32) (r : Fin 20000) (j : Fin 128) :
    (subf a (broadcastInDim S20000x128 ![0, 1] bcast_S1x128_S20000x128_0_1 (Host.divf (broadcastInDim S1x128 ![1] bcast_S128_S1x128_1 (Host.reduceAdd a (constant S_ .f32 0x00000000#32) reducesTo_S20000x128_S128_d0 h_S_)) (broadcastInDim S1x128 ![] bcast_S_S1x128 (constant S_ .f32 0x469C4000#32))))) (ix2 r j) = a (ix2 r j) - M.meanR (M.at2 a) j := by
  rw [subf_apply]
  refine congrArg₂ (· - ·) rfl ?_
  refine (broadcastInDim_apply _ _ _ (ix2 r j) (ix2 (0 : Fin 1) j) (fun ax => ?_)).trans ?_
  · match ax with
    | ⟨0, _⟩ => rfl
    | ⟨1, _⟩ => rfl
  rw [hostDivf_apply, broadcastInDim_scalar_apply]
  refine congrArg₂ Ideal.div ?_ rfl
  refine (broadcastInDim_apply _ _ _ (ix2 (0 : Fin 1) j) (ix1 j) (fun ax => ?_)).trans (colSum_apply a j)
  match ax with
  | ⟨0, _⟩ => rfl

/-- The biased variance of every column, as the callee computes it from the zero `ddof` word. -/
theorem var_eq (a : FVec Ideal S20000x128 .f32) :
    select (broadcastInDim S128 ![] bcast_S_S128 (cmpf .ogt (subf (constant S_ .f32 0x469C4000#32) (sitofp .f32 (constantI S_ 32 0#32) : FVec Ideal S_ .f32)) (constant S_ .f32 0x00000000#32))) (Host.divf (Host.reduceAdd (mulf (subf a (broadcastInDim S20000x128 ![0, 1] bcast_S1x128_S20000x128_0_1 (Host.divf (broadcastInDim S1x128 ![1] bcast_S128_S1x128_1 (Host.reduceAdd a (constant S_ .f32 0x00000000#32) reducesTo_S20000x128_S128_d0 h_S_)) (broadcastInDim S1x128 ![] bcast_S_S1x128 (constant S_ .f32 0x469C4000#32))))) (subf a (broadcastInDim S20000x128 ![0, 1] bcast_S1x128_S20000x128_0_1 (Host.divf (broadcastInDim S1x128 ![1] bcast_S128_S1x128_1 (Host.reduceAdd a (constant S_ .f32 0x00000000#32) reducesTo_S20000x128_S128_d0 h_S_)) (broadcastInDim S1x128 ![] bcast_S_S1x128 (constant S_ .f32 0x469C4000#32)))))) (constant S_ .f32 0x00000000#32) reducesTo_S20000x128_S128_d0 h_S_) (broadcastInDim S128 ![] bcast_S_S128 (subf (constant S_ .f32 0x469C4000#32) (sitofp .f32 (constantI S_ 32 0#32) : FVec Ideal S_ .f32)))) (broadcastInDim S128 ![] bcast_S_S128 (id (constant S_ .f32 0x7FC00000#32)))
    = M.mk1 (M.varR (M.at2 a)) := by
  funext i
  obtain ⟨j, rfl⟩ : ∃ j : Fin 128, i = ix1 j := ⟨i 0, eq_ix1 i⟩
  rw [select_apply, broadcastInDim_scalar_apply, divisor_pos, select_one, hostDivf_apply, colSum_apply,
    broadcastInDim_scalar_apply, divisor_apply]
  refine congrArg₂ Ideal.div (congrArg₂ (· + ·) rfl (Finset.sum_congr rfl fun r _ => ?_)) rfl
  rw [mulf_apply, dev_apply]

/-! ## Stage: normalisation and rectifier -/

theorem bnrelu_eq (a : FVec Ideal S20000x128 .f32) (mean var g b : FVec Ideal S128 .f32) :
    maximumf (addf (mulf (mulf (subf a (broadcastInDim S20000x128 ![0, 1] bcast_S1x128_S20000x128_0_1 (broadcastInDim S1x128 ![1] bcast_S128_S1x128_1 mean))) (broadcastInDim S20000x128 ![0, 1] bcast_S1x128_S20000x128_0_1 (broadcastInDim S1x128 ![1] bcast_S128_S1x128_1 (Host.rsqrt (addf var (broadcastInDim S128 ![] bcast_S_S128 (constant S_ .f32 0x3727C5AC#32))))))) (broadcastInDim S20000x128 ![0, 1] bcast_S1x128_S20000x128_0_1 (broadcastInDim S1x128 ![1] bcast_S128_S1x128_1 g))) (broadcastInDim S20000x128 ![0, 1] bcast_S1x128_S20000x128_0_1 (broadcastInDim S1x128 ![1] bcast_S128_S1x128_1 b))) (broadcastInDim S20000x128 ![] bcast_S_S20000x128 (constant S_ .f32 0x00000000#32))
    = M.mk2 (M.bnrelu (M.at2 a) (M.at1 mean) (M.at1 var) (M.at1 g) (M.at1 b)) := by
  funext i
  obtain ⟨r, j, rfl⟩ : ∃ (r : Fin 20000) (j : Fin 128), i = ix2 r j := ⟨i 0, i 1, eq_ix2 i⟩
  rw [maximumf_apply, broadcastInDim_scalar_apply, addf_apply, rowBcast_apply, mulf_apply, rowBcast_apply, mulf_apply,
    rowBcast_apply, subf_apply, rowBcast_apply]
  rfl

/-! ## Stage: the residual and the sums of arrays -/

theorem addf_eq {a b : Nat} (x y : FVec Ideal ⟨2, ![a, b]⟩ .f32) :
    addf x y = M.mk2 (fun r j => M.at2 x r j + M.at2 y r j) := by
  funext i
  obtain ⟨r, j, rfl⟩ : ∃ (r : Fin a) (j : Fin b), i = ix2 r j := ⟨i 0, i 1, eq_ix2 i⟩
  rfl

theorem addf_mk2 {a b : Nat} (f g : Fin a → Fin b → EReal) :
    addf (F := Ideal) (φ := .f32) (M.mk2 f) (M.mk2 g) = M.mk2 (fun r j => f r j + g r j) := rfl

/-- The layer's output: the input plus the last normalisation. -/
theorem residual_eq (x : FVec Ideal S20000x128 .f32) (z : Fin 20000 → Fin 128 → EReal) :
    addf x (M.mk2 z) = M.mk2 (fun r j => M.at2 x r j + z r j) := by
  funext i
  obtain ⟨r, j, rfl⟩ : ∃ (r : Fin 20000) (j : Fin 128), i = ix2 r j := ⟨i 0, i 1, eq_ix2 i⟩
  rfl

/-- The five heads' scores added in order. -/
theorem score_sum_eq (h0 h1 h2 h3 h4 : Fin 320000 → Fin 2 → EReal) :
    addf (F := Ideal) (φ := .f32) (addf (addf (addf (M.mk2 h0) (M.mk2 h1)) (M.mk2 h2)) (M.mk2 h3)) (M.mk2 h4)
    = M.mk2 (fun e c => (((h0 e c + h1 e c) + h2 e c) + h3 e c) + h4 e c) := rfl

/-! ## Stage: the edge head -/

theorem head_eq (xs xd : FVec Ideal S320000x128 .f32) (W1 : FVec Ideal S256x128 .f32) (b1 : FVec Ideal S128 .f32)
    (w2 : FVec Ideal S128x2 .f32) (b2 : FVec Ideal S2 .f32) :
    addf (Host.dotGeneral dot_S320000x128_S128x2_S320000x2_1_0_0_1_n_n none (maximumf (addf (Host.dotGeneral dot_S320000x256_S256x128_S320000x128_1_0_0_1_n_n none (concatenate S320000x256 1 [⟨S320000x128, xs⟩, ⟨S320000x128, xd⟩] concatenates_S320000x128_S320000x128_S320000x256_d1) W1) (broadcastInDim S320000x128 ![0, 1] bcast_S1x128_S320000x128_0_1 (broadcastInDim S1x128 ![1] bcast_S128_S1x128_1 b1))) (broadcastInDim S320000x128 ![] bcast_S_S320000x128 (constant S_ .f32 0x00000000#32))) w2) (broadcastInDim S320000x2 ![0, 1] bcast_S1x2_S320000x2_0_1 (broadcastInDim S1x2 ![1] bcast_S2_S1x2_1 b2))
    = M.mk2 (M.headR (M.at2 xs) (M.at2 xd) (M.at2 W1) (M.at1 b1) (M.at2 w2) (M.at1 b2)) := by
  funext i
  obtain ⟨e, c, rfl⟩ : ∃ (e : Fin 320000) (c : Fin 2), i = ix2 e c := ⟨i 0, i 1, eq_ix2 i⟩
  rw [addf_apply, rowBcast2_apply, dot_head2_apply]
  refine congrArg₂ (· + ·) (Finset.sum_congr rfl fun t _ => ?_) rfl
  refine congrArg₂ (· * ·) ?_ rfl
  rw [maximumf_apply, broadcastInDim_scalar_apply, addf_apply, rowBcast320_apply, dot_head1_apply]
  refine congrArg₂ max (congrArg₂ (· + ·) (Finset.sum_congr rfl fun k _ => ?_) rfl) rfl
  refine congrArg₂ (· * ·) ?_ rfl
  unfold M.cat
  by_cases hk : k.val < 128
  · rw [dif_pos hk]
    exact concatenate_pair_apply_left 1 xs xd _ (ix2 e k) rfl (ix2 e ⟨k.val, hk⟩)
      (fun b => match b with | ⟨0, _⟩ => rfl | ⟨1, _⟩ => rfl)
  · rw [dif_neg hk]
    exact concatenate_pair_apply_right 1 xs xd _ (ix2 e k) rfl rfl (ix2 e ⟨k.val - 128, by omega⟩)
      (fun b hb => match b, hb with | ⟨0, _⟩, _ => rfl | ⟨1, _⟩, hb => absurd rfl hb)
      (by show k.val - 128 + 128 = k.val; omega)

/-! ## The stacked parameters' slices -/

/-- Entry `o` of the four small constants, as a scalar. -/
theorem eps_slice (E : FVec Ideal S4 .f32) (o : Nat) (ho : o < 4) (h : S4.Slices ![o] S1) :
    shapeCast S_ (extractStridedSlice S1 ![o] E h) shapeCasts_S1_S_ ix0 = M.at1 E ⟨o, ho⟩ := by
  refine (shapeCast_dropUnit_apply (![] : Fin 0 → Nat) _ _ ix0).trans ?_
  refine extractStridedSlice_apply _ _ _ _ (ix1 ⟨o, ho⟩) (fun a => ?_)
  match a with
  | ⟨0, _⟩ => rfl

/-- Member `o` of a stack of four 128×128 matrices. -/
theorem w_slice (W : FVec Ideal S4x128x128 .f32) (o : Nat) (ho : o < 4) (h : S4x128x128.Slices ![o, 0, 0] S1x128x128) :
    shapeCast S128x128 (extractStridedSlice S1x128x128 ![o, 0, 0] W h) shapeCasts_S1x128x128_S128x128
    = M.mk2 (fun k j => M.at3 W ⟨o, ho⟩ k j) := by
  funext i
  obtain ⟨k, j, rfl⟩ : ∃ (k : Fin _) (j : Fin _), i = ix2 k j := ⟨i 0, i 1, eq_ix2 i⟩
  refine (shapeCast_dropUnit_apply ![128, 128] _ _ (ix2 k j)).trans ?_
  refine extractStridedSlice_apply _ _ _ _ (ix3 ⟨o, ho⟩ k j) (fun a => ?_)
  match a with
  | ⟨0, _⟩ => rfl
  | ⟨1, _⟩ => exact (Nat.zero_add _).symm
  | ⟨2, _⟩ => exact (Nat.zero_add _).symm

/-- Member `o` of a stack of four vectors of 128. -/
theorem v_slice (B : FVec Ideal S4x128 .f32) (o : Nat) (ho : o < 4) (h : S4x128.Slices ![o, 0] S1x128) :
    shapeCast S128 (extractStridedSlice S1x128 ![o, 0] B h) shapeCasts_S1x128_S128
    = M.mk1 (fun j => M.at2 B ⟨o, ho⟩ j) := by
  funext i
  obtain ⟨j, rfl⟩ : ∃ j : Fin _, i = ix1 j := ⟨i 0, eq_ix1 i⟩
  refine (shapeCast_dropUnit_apply ![128] _ _ (ix1 j)).trans ?_
  refine extractStridedSlice_apply _ _ _ _ (ix2 ⟨o, ho⟩ j) (fun a => ?_)
  match a with
  | ⟨0, _⟩ => rfl
  | ⟨1, _⟩ => exact (Nat.zero_add _).symm

/-- Member `o` of a stack of five 256×128 matrices. -/
theorem pw1_slice (W : FVec Ideal S5x256x128 .f32) (o : Nat) (ho : o < 5) (h : S5x256x128.Slices ![o, 0, 0] S1x256x128) :
    shapeCast S256x128 (extractStridedSlice S1x256x128 ![o, 0, 0] W h) shapeCasts_S1x256x128_S256x128
    = M.mk2 (fun k j => M.at3 W ⟨o, ho⟩ k j) := by
  funext i
  obtain ⟨k, j, rfl⟩ : ∃ (k : Fin _) (j : Fin _), i = ix2 k j := ⟨i 0, i 1, eq_ix2 i⟩
  refine (shapeCast_dropUnit_apply ![256, 128] _ _ (ix2 k j)).trans ?_
  refine extractStridedSlice_apply _ _ _ _ (ix3 ⟨o, ho⟩ k j) (fun a => ?_)
  match a with
  | ⟨0, _⟩ => rfl
  | ⟨1, _⟩ => exact (Nat.zero_add _).symm
  | ⟨2, _⟩ => exact (Nat.zero_add _).symm

/-- Member `o` of a stack of five vectors of 128. -/
theorem pb1_slice (B : FVec Ideal S5x128 .f32) (o : Nat) (ho : o < 5) (h : S5x128.Slices ![o, 0] S1x128) :
    shapeCast S128 (extractStridedSlice S1x128 ![o, 0] B h) shapeCasts_S1x128_S128
    = M.mk1 (fun j => M.at2 B ⟨o, ho⟩ j) := by
  funext i
  obtain ⟨j, rfl⟩ : ∃ j : Fin _, i = ix1 j := ⟨i 0, eq_ix1 i⟩
  refine (shapeCast_dropUnit_apply ![128] _ _ (ix1 j)).trans ?_
  refine extractStridedSlice_apply _ _ _ _ (ix2 ⟨o, ho⟩ j) (fun a => ?_)
  match a with
  | ⟨0, _⟩ => rfl
  | ⟨1, _⟩ => exact (Nat.zero_add _).symm

/-- Member `o` of a stack of five 128×2 matrices. -/
theorem pw2_slice (W : FVec Ideal S5x128x2 .f32) (o : Nat) (ho : o < 5) (h : S5x128x2.Slices ![o, 0, 0] S1x128x2) :
    shapeCast S128x2 (extractStridedSlice S1x128x2 ![o, 0, 0] W h) shapeCasts_S1x128x2_S128x2
    = M.mk2 (fun k j => M.at3 W ⟨o, ho⟩ k j) := by
  funext i
  obtain ⟨k, j, rfl⟩ : ∃ (k : Fin _) (j : Fin _), i = ix2 k j := ⟨i 0, i 1, eq_ix2 i⟩
  refine (shapeCast_dropUnit_apply ![128, 2] _ _ (ix2 k j)).trans ?_
  refine extractStridedSlice_apply _ _ _ _ (ix3 ⟨o, ho⟩ k j) (fun a => ?_)
  match a with
  | ⟨0, _⟩ => rfl
  | ⟨1, _⟩ => exact (Nat.zero_add _).symm
  | ⟨2, _⟩ => exact (Nat.zero_add _).symm

/-- Member `o` of a stack of five vectors of 2. -/
theorem pb2_slice (B : FVec Ideal S5x2 .f32) (o : Nat) (ho : o < 5) (h : S5x2.Slices ![o, 0] S1x2) :
    shapeCast S2 (extractStridedSlice S1x2 ![o, 0] B h) shapeCasts_S1x2_S2
    = M.mk1 (fun j => M.at2 B ⟨o, ho⟩ j) := by
  funext i
  obtain ⟨j, rfl⟩ : ∃ j : Fin _, i = ix1 j := ⟨i 0, eq_ix1 i⟩
  refine (shapeCast_dropUnit_apply ![2] _ _ (ix1 j)).trans ?_
  refine extractStridedSlice_apply _ _ _ _ (ix2 ⟨o, ho⟩ j) (fun a => ?_)
  match a with
  | ⟨0, _⟩ => rfl
  | ⟨1, _⟩ => exact (Nat.zero_add _).symm

/-! ## The members the program takes, at their literal offsets -/

theorem eps_slice0 (E : FVec Ideal S4 .f32) :
    shapeCast S_ (extractStridedSlice S1 ![0] E slices_S4_S1_0) shapeCasts_S1_S_ ix0 = M.at1 E 0 :=
  eps_slice E 0 (by decide) _

theorem w_slice0 (W : FVec Ideal S4x128x128 .f32) :
    shapeCast S128x128 (extractStridedSlice S1x128x128 ![0, 0, 0] W slices_S4x128x128_S1x128x128_0_0_0) shapeCasts_S1x128x128_S128x128
    = M.mk2 (M.at3 W 0) :=
  w_slice W 0 (by decide) _

theorem v_slice0 (B : FVec Ideal S4x128 .f32) :
    shapeCast S128 (extractStridedSlice S1x128 ![0, 0] B slices_S4x128_S1x128_0_0) shapeCasts_S1x128_S128
    = M.mk1 (M.at2 B 0) :=
  v_slice B 0 (by decide) _

theorem eps_slice1 (E : FVec Ideal S4 .f32) :
    shapeCast S_ (extractStridedSlice S1 ![1] E slices_S4_S1_1) shapeCasts_S1_S_ ix0 = M.at1 E 1 :=
  eps_slice E 1 (by decide) _

theorem w_slice1 (W : FVec Ideal S4x128x128 .f32) :
    shapeCast S128x128 (extractStridedSlice S1x128x128 ![1, 0, 0] W slices_S4x128x128_S1x128x128_1_0_0) shapeCasts_S1x128x128_S128x128
    = M.mk2 (M.at3 W 1) :=
  w_slice W 1 (by decide) _

theorem v_slice1 (B : FVec Ideal S4x128 .f32) :
    shapeCast S128 (extractStridedSlice S1x128 ![1, 0] B slices_S4x128_S1x128_1_0) shapeCasts_S1x128_S128
    = M.mk1 (M.at2 B 1) :=
  v_slice B 1 (by decide) _

theorem eps_slice2 (E : FVec Ideal S4 .f32) :
    shapeCast S_ (extractStridedSlice S1 ![2] E slices_S4_S1_2) shapeCasts_S1_S_ ix0 = M.at1 E 2 :=
  eps_slice E 2 (by decide) _

theorem w_slice2 (W : FVec Ideal S4x128x128 .f32) :
    shapeCast S128x128 (extractStridedSlice S1x128x128 ![2, 0, 0] W slices_S4x128x128_S1x128x128_2_0_0) shapeCasts_S1x128x128_S128x128
    = M.mk2 (M.at3 W 2) :=
  w_slice W 2 (by decide) _

theorem v_slice2 (B : FVec Ideal S4x128 .f32) :
    shapeCast S128 (extractStridedSlice S1x128 ![2, 0] B slices_S4x128_S1x128_2_0) shapeCasts_S1x128_S128
    = M.mk1 (M.at2 B 2) :=
  v_slice B 2 (by decide) _

theorem eps_slice3 (E : FVec Ideal S4 .f32) :
    shapeCast S_ (extractStridedSlice S1 ![3] E slices_S4_S1_3) shapeCasts_S1_S_ ix0 = M.at1 E 3 :=
  eps_slice E 3 (by decide) _

theorem w_slice3 (W : FVec Ideal S4x128x128 .f32) :
    shapeCast S128x128 (extractStridedSlice S1x128x128 ![3, 0, 0] W slices_S4x128x128_S1x128x128_3_0_0) shapeCasts_S1x128x128_S128x128
    = M.mk2 (M.at3 W 3) :=
  w_slice W 3 (by decide) _

theorem v_slice3 (B : FVec Ideal S4x128 .f32) :
    shapeCast S128 (extractStridedSlice S1x128 ![3, 0] B slices_S4x128_S1x128_3_0) shapeCasts_S1x128_S128
    = M.mk1 (M.at2 B 3) :=
  v_slice B 3 (by decide) _

theorem pw1_slice0 (W : FVec Ideal S5x256x128 .f32) :
    shapeCast S256x128 (extractStridedSlice S1x256x128 ![0, 0, 0] W slices_S5x256x128_S1x256x128_0_0_0) shapeCasts_S1x256x128_S256x128
    = M.mk2 (M.at3 W 0) :=
  pw1_slice W 0 (by decide) _

theorem pb1_slice0 (B : FVec Ideal S5x128 .f32) :
    shapeCast S128 (extractStridedSlice S1x128 ![0, 0] B slices_S5x128_S1x128_0_0) shapeCasts_S1x128_S128
    = M.mk1 (M.at2 B 0) :=
  pb1_slice B 0 (by decide) _

theorem pw2_slice0 (W : FVec Ideal S5x128x2 .f32) :
    shapeCast S128x2 (extractStridedSlice S1x128x2 ![0, 0, 0] W slices_S5x128x2_S1x128x2_0_0_0) shapeCasts_S1x128x2_S128x2
    = M.mk2 (M.at3 W 0) :=
  pw2_slice W 0 (by decide) _

theorem pb2_slice0 (B : FVec Ideal S5x2 .f32) :
    shapeCast S2 (extractStridedSlice S1x2 ![0, 0] B slices_S5x2_S1x2_0_0) shapeCasts_S1x2_S2
    = M.mk1 (M.at2 B 0) :=
  pb2_slice B 0 (by decide) _

theorem pw1_slice1 (W : FVec Ideal S5x256x128 .f32) :
    shapeCast S256x128 (extractStridedSlice S1x256x128 ![1, 0, 0] W slices_S5x256x128_S1x256x128_1_0_0) shapeCasts_S1x256x128_S256x128
    = M.mk2 (M.at3 W 1) :=
  pw1_slice W 1 (by decide) _

theorem pb1_slice1 (B : FVec Ideal S5x128 .f32) :
    shapeCast S128 (extractStridedSlice S1x128 ![1, 0] B slices_S5x128_S1x128_1_0) shapeCasts_S1x128_S128
    = M.mk1 (M.at2 B 1) :=
  pb1_slice B 1 (by decide) _

theorem pw2_slice1 (W : FVec Ideal S5x128x2 .f32) :
    shapeCast S128x2 (extractStridedSlice S1x128x2 ![1, 0, 0] W slices_S5x128x2_S1x128x2_1_0_0) shapeCasts_S1x128x2_S128x2
    = M.mk2 (M.at3 W 1) :=
  pw2_slice W 1 (by decide) _

theorem pb2_slice1 (B : FVec Ideal S5x2 .f32) :
    shapeCast S2 (extractStridedSlice S1x2 ![1, 0] B slices_S5x2_S1x2_1_0) shapeCasts_S1x2_S2
    = M.mk1 (M.at2 B 1) :=
  pb2_slice B 1 (by decide) _

theorem pw1_slice2 (W : FVec Ideal S5x256x128 .f32) :
    shapeCast S256x128 (extractStridedSlice S1x256x128 ![2, 0, 0] W slices_S5x256x128_S1x256x128_2_0_0) shapeCasts_S1x256x128_S256x128
    = M.mk2 (M.at3 W 2) :=
  pw1_slice W 2 (by decide) _

theorem pb1_slice2 (B : FVec Ideal S5x128 .f32) :
    shapeCast S128 (extractStridedSlice S1x128 ![2, 0] B slices_S5x128_S1x128_2_0) shapeCasts_S1x128_S128
    = M.mk1 (M.at2 B 2) :=
  pb1_slice B 2 (by decide) _

theorem pw2_slice2 (W : FVec Ideal S5x128x2 .f32) :
    shapeCast S128x2 (extractStridedSlice S1x128x2 ![2, 0, 0] W slices_S5x128x2_S1x128x2_2_0_0) shapeCasts_S1x128x2_S128x2
    = M.mk2 (M.at3 W 2) :=
  pw2_slice W 2 (by decide) _

theorem pb2_slice2 (B : FVec Ideal S5x2 .f32) :
    shapeCast S2 (extractStridedSlice S1x2 ![2, 0] B slices_S5x2_S1x2_2_0) shapeCasts_S1x2_S2
    = M.mk1 (M.at2 B 2) :=
  pb2_slice B 2 (by decide) _

theorem pw1_slice3 (W : FVec Ideal S5x256x128 .f32) :
    shapeCast S256x128 (extractStridedSlice S1x256x128 ![3, 0, 0] W slices_S5x256x128_S1x256x128_3_0_0) shapeCasts_S1x256x128_S256x128
    = M.mk2 (M.at3 W 3) :=
  pw1_slice W 3 (by decide) _

theorem pb1_slice3 (B : FVec Ideal S5x128 .f32) :
    shapeCast S128 (extractStridedSlice S1x128 ![3, 0] B slices_S5x128_S1x128_3_0) shapeCasts_S1x128_S128
    = M.mk1 (M.at2 B 3) :=
  pb1_slice B 3 (by decide) _

theorem pw2_slice3 (W : FVec Ideal S5x128x2 .f32) :
    shapeCast S128x2 (extractStridedSlice S1x128x2 ![3, 0, 0] W slices_S5x128x2_S1x128x2_3_0_0) shapeCasts_S1x128x2_S128x2
    = M.mk2 (M.at3 W 3) :=
  pw2_slice W 3 (by decide) _

theorem pb2_slice3 (B : FVec Ideal S5x2 .f32) :
    shapeCast S2 (extractStridedSlice S1x2 ![3, 0] B slices_S5x2_S1x2_3_0) shapeCasts_S1x2_S2
    = M.mk1 (M.at2 B 3) :=
  pb2_slice B 3 (by decide) _

theorem pw1_slice4 (W : FVec Ideal S5x256x128 .f32) :
    shapeCast S256x128 (extractStridedSlice S1x256x128 ![4, 0, 0] W slices_S5x256x128_S1x256x128_4_0_0) shapeCasts_S1x256x128_S256x128
    = M.mk2 (M.at3 W 4) :=
  pw1_slice W 4 (by decide) _

theorem pb1_slice4 (B : FVec Ideal S5x128 .f32) :
    shapeCast S128 (extractStridedSlice S1x128 ![4, 0] B slices_S5x128_S1x128_4_0) shapeCasts_S1x128_S128
    = M.mk1 (M.at2 B 4) :=
  pb1_slice B 4 (by decide) _

theorem pw2_slice4 (W : FVec Ideal S5x128x2 .f32) :
    shapeCast S128x2 (extractStridedSlice S1x128x2 ![4, 0, 0] W slices_S5x128x2_S1x128x2_4_0_0) shapeCasts_S1x128x2_S128x2
    = M.mk2 (M.at3 W 4) :=
  pw2_slice W 4 (by decide) _

theorem pb2_slice4 (B : FVec Ideal S5x2 .f32) :
    shapeCast S2 (extractStridedSlice S1x2 ![4, 0] B slices_S5x2_S1x2_4_0) shapeCasts_S1x2_S2
    = M.mk1 (M.at2 B 4) :=
  pb2_slice B 4 (by decide) _

end Cert.RStage

end
-- ==== Proof.RChainArr.lean ====
/-
  The reference's stage terms with their parameter slices, as functions of coordinates.

  A layer's linear maps and an edge head take their weights as member `o` of a stacked parameter; here each stage's
  composed term over the stacked arrays is read into the network's functions at that member, and the gathers and
  the neighbour sums are read at the program's own dimension records.
-/
import proofs.«416875_j80633716015165_3_alg».proof.Proof.RStage
import proofs.«416875_j80633716015165_3_alg».proof.Proof.GatherRows

noncomputable section

open Idealize.ShloMosaic Idealize.ShloMosaic.ValueIdx
open Cert.ReferenceIdeal Cert.ReferenceIdeal.Facts₀

namespace Cert.RChain

/-- The first linear map with member `o` of its stacked parameters. -/
theorem lin_member (x ng : Fin 20000 → Fin 128 → EReal) (E : FVec Ideal S4 .f32) (Wt : FVec Ideal S4x128x128 .f32)
    (B : FVec Ideal S4x128 .f32) (o : Nat) (ho : o < 4) (h₁ : S4.Slices ![o] S1)
    (h₂ : S4x128x128.Slices ![o, 0, 0] S1x128x128) (h₃ : S4x128.Slices ![o, 0] S1x128) :
    addf (Host.dotGeneral dot_S20000x128_S128x128_S20000x128_1_0_0_1_n_n none (addf (mulf (broadcastInDim S20000x128 ![] bcast_S_S20000x128 (addf (constant S_ .f32 0x3F800000#32) (shapeCast S_ (extractStridedSlice S1 ![o] E h₁) shapeCasts_S1_S_))) (M.mk2 x)) (M.mk2 ng)) (shapeCast S128x128 (extractStridedSlice S1x128x128 ![o, 0, 0] Wt h₂) shapeCasts_S1x128x128_S128x128)) (broadcastInDim S20000x128 ![0, 1] bcast_S1x128_S20000x128_0_1 (broadcastInDim S1x128 ![1] bcast_S128_S1x128_1 (shapeCast S128 (extractStridedSlice S1x128 ![o, 0] B h₃) shapeCasts_S1x128_S128)))
    = M.mk2 (M.lin x ng (M.at1 E ⟨o, ho⟩) (M.at3 Wt ⟨o, ho⟩) (M.at2 B ⟨o, ho⟩)) := by
  rw [RStage.lin_eq, RStage.eps_slice E o ho h₁, RStage.w_slice Wt o ho h₂, RStage.v_slice B o ho h₃]
  rfl

/-- The second linear map with member `o` of its stacked parameters. -/
theorem affine_member (a : Fin 20000 → Fin 128 → EReal) (Wt : FVec Ideal S4x128x128 .f32) (B : FVec Ideal S4x128 .f32)
    (o : Nat) (ho : o < 4) (h₂ : S4x128x128.Slices ![o, 0, 0] S1x128x128) (h₃ : S4x128.Slices ![o, 0] S1x128) :
    addf (Host.dotGeneral (φ₁ := .f32) dot_S20000x128_S128x128_S20000x128_1_0_0_1_n_n none (M.mk2 a) (shapeCast S128x128 (extractStridedSlice S1x128x128 ![o, 0, 0] Wt h₂) shapeCasts_S1x128x128_S128x128)) (broadcastInDim S20000x128 ![0, 1] bcast_S1x128_S20000x128_0_1 (broadcastInDim S1x128 ![1] bcast_S128_S1x128_1 (shapeCast S128 (extractStridedSlice S1x128 ![o, 0] B h₃) shapeCasts_S1x128_S128)))
    = M.mk2 (M.affine a (M.at3 Wt ⟨o, ho⟩) (M.at2 B ⟨o, ho⟩)) := by
  rw [RStage.affine_eq, RStage.w_slice Wt o ho h₂, RStage.v_slice B o ho h₃]
  rfl

/-- Member `o` of a stack of four vectors, as the normalisation's scale or shift. -/
theorem vec_member (B : FVec Ideal S4x128 .f32) (o : Nat) (ho : o < 4) (h₃ : S4x128.Slices ![o, 0] S1x128) :
    shapeCast S128 (extractStridedSlice S1x128 ![o, 0] B h₃) shapeCasts_S1x128_S128 = M.mk1 (M.at2 B ⟨o, ho⟩) :=
  RStage.v_slice B o ho h₃

/-- The edge head with member `o` of its stacked parameters, from the two gathered arrays. -/
theorem head_member (xs xd : Fin 320000 → Fin 128 → EReal) (W1 : FVec Ideal S5x256x128 .f32) (B1 : FVec Ideal S5x128 .f32)
    (W2 : FVec Ideal S5x128x2 .f32) (B2 : FVec Ideal S5x2 .f32) (o : Nat) (ho : o < 5)
    (h₁ : S5x256x128.Slices ![o, 0, 0] S1x256x128) (h₂ : S5x128.Slices ![o, 0] S1x128)
    (h₃ : S5x128x2.Slices ![o, 0, 0] S1x128x2) (h₄ : S5x2.Slices ![o, 0] S1x2) :
    addf (Host.dotGeneral dot_S320000x128_S128x2_S320000x2_1_0_0_1_n_n none (maximumf (addf (Host.dotGeneral (φ₁ := .f32) dot_S320000x256_S256x128_S320000x128_1_0_0_1_n_n none (concatenate S320000x256 1 [⟨S320000x128, (M.mk2 xs : FVec Ideal S320000x128 .f32)⟩, ⟨S320000x128, (M.mk2 xd : FVec Ideal S320000x128 .f32)⟩] concatenates_S320000x128_S320000x128_S320000x256_d1) (shapeCast S256x128 (extractStridedSlice S1x256x128 ![o, 0, 0] W1 h₁) shapeCasts_S1x256x128_S256x128)) (broadcastInDim S320000x128 ![0, 1] bcast_S1x128_S320000x128_0_1 (broadcastInDim S1x128 ![1] bcast_S128_S1x128_1 (shapeCast S128 (extractStridedSlice S1x128 ![o, 0] B1 h₂) shapeCasts_S1x128_S128)))) (broadcastInDim S320000x128 ![] bcast_S_S320000x128 (constant S_ .f32 0x00000000#32))) (shapeCast S128x2 (extractStridedSlice S1x128x2 ![o, 0, 0] W2 h₃) shapeCasts_S1x128x2_S128x2)) (broadcastInDim S320000x2 ![0, 1] bcast_S1x2_S320000x2_0_1 (broadcastInDim S1x2 ![1] bcast_S2_S1x2_1 (shapeCast S2 (extractStridedSlice S1x2 ![o, 0] B2 h₄) shapeCasts_S1x2_S2)))
    = M.mk2 (M.headR xs xd (M.at3 W1 ⟨o, ho⟩) (M.at2 B1 ⟨o, ho⟩) (M.at3 W2 ⟨o, ho⟩) (M.at2 B2 ⟨o, ho⟩)) := by
  rw [RStage.head_eq, RStage.pw1_slice W1 o ho h₁, RStage.pb1_slice B1 o ho h₂, RStage.pw2_slice W2 o ho h₃,
    RStage.pb2_slice B2 o ho h₄]
  rfl

/-- The rows of a node array at the edges' index words, with the program's gather record. -/
theorem rows_read (x : Fin 20000 → Fin 128 → EReal) (idx : IVec S320000 32) :
    Host.gather gather_S20000x128_S320000x1_S320000x128_1_0_n_n_0_1_1128 (M.mk2 x : FVec Ideal S20000x128 .f32)
      (broadcastInDim S320000x1 ![0] bcast_S320000_S320000x1_0 (select (cmpi .slt idx (broadcastInDim S320000 ![] bcast_S_S320000 (constantI S_ 32 0#32))) (addi idx (broadcastInDim S320000 ![] bcast_S_S320000 (constantI S_ 32 20000#32))) idx))
    = M.mk2 (M.rows x (fun e => idx (ix1 e))) :=
  Cert.GatherRows.gather_rows_of gather_S20000x128_S320000x1_S320000x128_1_0_n_n_0_1_1128 _ rfl
    bcast_S320000_S320000x1_0 bcast_S_S320000 (M.mk2 x) idx

/-- The neighbour sums of a node array, with the program's gather and scatter records. -/
theorem neigh_read (x : Fin 20000 → Fin 128 → EReal) (src dst : IVec S320000 32) :
    Host.scatterAdd (F := Ideal) (φ := .f32) scatter_S20000x128_S320000x1_S320000x128_1_0_0_1
      (broadcastInDim S20000x128 ![] bcast_S_S20000x128 (constant (F := Ideal) S_ .f32 0x00000000#32))
      (broadcastInDim S320000x1 ![0] bcast_S320000_S320000x1_0 dst)
      (Host.gather gather_S20000x128_S320000x1_S320000x128_1_0_n_n_0_1_1128 (M.mk2 x : FVec Ideal S20000x128 .f32)
        (broadcastInDim S320000x1 ![0] bcast_S320000_S320000x1_0 (select (cmpi .slt src (broadcastInDim S320000 ![] bcast_S_S320000 (constantI S_ 32 0#32))) (addi src (broadcastInDim S320000 ![] bcast_S_S320000 (constantI S_ 32 20000#32))) src)))
    = M.mk2 (M.neigh x (fun e => src (ix1 e)) (fun e => dst (ix1 e))) :=
  Cert.GatherRows.neigh_eq_of gather_S20000x128_S320000x1_S320000x128_1_0_n_n_0_1_1128 _ rfl
    scatter_S20000x128_S320000x1_S320000x128_1_0_0_1 _ rfl bcast_S_S20000x128 bcast_S320000_S320000x1_0 bcast_S_S320000
    (M.mk2 x) src dst

end Cert.RChain

end
-- ==== Proof.RChainBase.lean ====
/-
  The reference's operations in stretches: which references a stretch writes, that a reference it does not write
  keeps its contents, and that no stretch writes an argument.
-/
import proofs.«416875_j80633716015165_3_alg».proof.Proof.Spec
import proofs.«416875_j80633716015165_3_alg».proof.ReferenceIdeal
import proofs.«416875_j80633716015165_3_alg».proof.Proof.Gen.ReferenceIdeal
import Idealize.ShloMosaic.Lib.StableHlo.Run

noncomputable section

open Idealize.ShloMosaic Idealize.ShloMosaic.ValueIdx Idealize.SL.Sem
open Cert.ReferenceIdeal Cert.ReferenceIdeal.Facts₀

namespace Cert.RChain

open Idealize.ShloMosaic.StableHlo

/-- The reference's twenty argument buffers, in argument order, as the network's inputs. -/
def inputsR (V : Valuation τ sig (Elt Ideal)) : M.Inputs :=
  M.inputsOf (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7))
    (V (Proc.devRef .tc main_arg8)) (V (Proc.devRef .tc main_arg9)) (V (Proc.devRef .tc main_arg10)) (V (Proc.devRef .tc main_arg11))
    (V (Proc.devRef .tc main_arg12)) (V (Proc.devRef .tc main_arg13)) (V (Proc.devRef .tc main_arg14)) (V (Proc.devRef .tc main_arg15))
    (V (Proc.devRef .tc main_arg16)) (V (Proc.devRef .tc main_arg17)) (V (Proc.devRef .tc main_arg18)) (V (Proc.devRef .tc main_arg19))

/-! ## Which references a stretch of operations writes -/

/-- A single written reference lies in the set of a list of references that holds it. -/
theorem single_sub {Ws : List (Ref sig .tc)} {y : Ref sig .tc} (h : y ∈ Ws) :
    ({Proc.devRef (τ := τ) .tc y} : Finset (DevRef τ sig)) ⊆ (Ws.map (Proc.devRef (τ := τ) .tc)).toFinset := by
  intro d hd
  rw [Finset.mem_singleton] at hd
  subst hd
  exact List.mem_toFinset.mpr (List.mem_map.mpr ⟨y, h, rfl⟩)

/-- Every operation of the stretch writes only references of the list. -/
def WritesIn (ops : List (HloOp τ sig (Elt Ideal))) (Ws : List (Ref sig .tc)) : Prop :=
  ops.Forall fun op => op.writes ⊆ (Ws.map (Proc.devRef (τ := τ) .tc)).toFinset

/-- A reference outside the list keeps its contents across the stretch. -/
theorem WritesIn.frame {ops : List (HloOp τ sig (Elt Ideal))} {Ws : List (Ref sig .tc)} (h : WritesIn ops Ws)
    {r : Ref sig .tc} (hr : r ∉ Ws) (V : Valuation τ sig (Elt Ideal)) :
    after ops V (Proc.devRef .tc r) = V (Proc.devRef .tc r) :=
  after_of_writes_sub ops V h hr

/-- Two stretches in a row write within the two lists in a row. -/
theorem WritesIn.append {o₁ o₂ : List (HloOp τ sig (Elt Ideal))} {W₁ W₂ : List (Ref sig .tc)}
    (h₁ : WritesIn o₁ W₁) (h₂ : WritesIn o₂ W₂) : WritesIn (o₁ ++ o₂) (W₁ ++ W₂) := by
  unfold WritesIn at h₁ h₂ ⊢
  rw [List.forall_iff_forall_mem] at h₁ h₂ ⊢
  intro op hop d hd
  rw [List.mem_toFinset, List.map_append, List.mem_append]
  rcases List.mem_append.mp hop with h | h
  · exact Or.inl (List.mem_toFinset.mp (h₁ op h hd))
  · exact Or.inr (List.mem_toFinset.mp (h₂ op h hd))

/-- `after` over two stretches in a row. -/
theorem after_app (l₁ l₂ : List (HloOp τ sig (Elt Ideal))) (V : Valuation τ sig (Elt Ideal)) :
    after (l₁ ++ l₂) V = after l₂ (after l₁ V) := by
  induction l₁ generalizing V with
  | nil => rfl
  | cons op l ih => rw [List.cons_append, after_cons, after_cons, ih]

/-! ## The arguments are never written -/

/-- The twenty argument references. -/
def argRefs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19]

/-- The arguments hold in `W` what they hold in `V`. -/
def ArgsAre (V W : Valuation τ sig (Elt Ideal)) : Prop :=
  ∀ r ∈ argRefs, W (Proc.devRef .tc r) = V (Proc.devRef .tc r)

theorem ArgsAre.refl (V : Valuation τ sig (Elt Ideal)) : ArgsAre V V := fun _ _ => rfl

/-- A stretch that writes no argument keeps them. -/
theorem ArgsAre.step {V W : Valuation τ sig (Elt Ideal)} (h : ArgsAre V W) {ops : List (HloOp τ sig (Elt Ideal))}
    {Ws : List (Ref sig .tc)} (hW : WritesIn ops Ws) (hd : ∀ r ∈ argRefs, r ∉ Ws) : ArgsAre V (after ops W) :=
  fun r hr => (hW.frame (hd r hr) W).trans (h r hr)

/-- With the same arguments, the same inputs. -/
theorem ArgsAre.inputs {V W : Valuation τ sig (Elt Ideal)} (h : ArgsAre V W) : inputsR W = inputsR V := by
  unfold inputsR
  rw [h main_arg0 (by decide), h main_arg1 (by decide), h main_arg2 (by decide), h main_arg3 (by decide), h main_arg4 (by decide), h main_arg5 (by decide), h main_arg6 (by decide), h main_arg7 (by decide), h main_arg8 (by decide), h main_arg9 (by decide), h main_arg10 (by decide), h main_arg11 (by decide), h main_arg12 (by decide), h main_arg13 (by decide), h main_arg14 (by decide), h main_arg15 (by decide), h main_arg16 (by decide), h main_arg17 (by decide), h main_arg18 (by decide), h main_arg19 (by decide)]

end Cert.RChain

end
-- ==== Proof.RChainChunksP.lean ====
import proofs.«416875_j80633716015165_3_alg».proof.Proof.RChainBase

noncomputable section

open Idealize.ShloMosaic Idealize.ShloMosaic.ValueIdx Idealize.SL.Sem
open Cert.ReferenceIdeal Cert.ReferenceIdeal.Facts₀
open Idealize.ShloMosaic.StableHlo

namespace Cert.RChain

/-- The embedding: the input times its weight, plus the bias on every row. -/
def c_emb {F : FTy → Type} [FloatOps F] : List (HloOp τ sig (Elt F)) :=
  [ binary main_arg0 main_arg1 main_v0 ((fun l r => Host.dotGeneral dot_S20000x2_S2x128_S20000x128_1_0_0_1_n_n none l r) : (⟨S20000x2, .f32⟩ : BufTy).Contents (Elt F) → (⟨S2x128, .f32⟩ : BufTy).Contents (Elt F) → (⟨S20000x128, .f32⟩ : BufTy).Contents (Elt F)),
    unary main_arg2 main_v1 (broadcastInDim S1x128 ![1] bcast_S128_S1x128_1 : (⟨S128, .f32⟩ : BufTy).Contents (Elt F) → (⟨S1x128, .f32⟩ : BufTy).Contents (Elt F)),
    unary main_v1 main_v2 (broadcastInDim S20000x128 ![0, 1] bcast_S1x128_S20000x128_0_1 : (⟨S1x128, .f32⟩ : BufTy).Contents (Elt F) → (⟨S20000x128, .f32⟩ : BufTy).Contents (Elt F)),
    binary main_v0 main_v2 main_v3 (addf : (⟨S20000x128, .f32⟩ : BufTy).Contents (Elt F) → (⟨S20000x128, .f32⟩ : BufTy).Contents (Elt F) → (⟨S20000x128, .f32⟩ : BufTy).Contents (Elt F)) ]

/-- The references it writes. -/
def W_c_emb : List (Ref sig .tc) :=
  [main_v0, main_v1, main_v2, main_v3]

theorem hW_c_emb : WritesIn (c_emb (F := Ideal)) W_c_emb := by
  unfold WritesIn c_emb
  exact ⟨single_sub (y := main_v0) (by decide +kernel),
    single_sub (y := main_v1) (by decide +kernel),
    single_sub (y := main_v2) (by decide +kernel),
    single_sub (y := main_v3) (by decide +kernel)⟩

/-- It writes no argument. -/
theorem hA_c_emb : ∀ r ∈ argRefs, r ∉ W_c_emb := by
  decide +kernel

/-- Head 0: the node rows at both ends of every edge. -/
def c_hg_0 {F : FTy → Type} [FloatOps F] : List (HloOp τ sig (Elt F)) :=
  [ nullary main_c (constantI S_ 32 0#32),
    unary main_c main_v4 (broadcastInDim S320000 ![] bcast_S_S320000 : (⟨S_, .i32⟩ : BufTy).Contents (Elt F) → (⟨S320000, .i32⟩ : BufTy).Contents (Elt F)),
    binary main_arg18 main_v4 main_v5 (cmpi .slt : (⟨S320000, .i32⟩ : BufTy).Contents (Elt F) → (⟨S320000, .i32⟩ : BufTy).Contents (Elt F) → (⟨S320000, .i1⟩ : BufTy).Contents (Elt F)),
    nullary main_c_0 (constantI S_ 32 20000#32),
    unary main_c_0 main_v6 (broadcastInDim S320000 ![] bcast_S_S320000 : (⟨S_, .i32⟩ : BufTy).Contents (Elt F) → (⟨S320000, .i32⟩ : BufTy).Contents (Elt F)),
    binary main_arg18 main_v6 main_v7 (addi : (⟨S320000, .i32⟩ : BufTy).Contents (Elt F) → (⟨S320000, .i32⟩ : BufTy).Contents (Elt F) → (⟨S320000, .i32⟩ : BufTy).Contents (Elt F)),
    ternary main_v5 main_v7 main_arg18 main_v8 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v8 main_v9 (broadcastInDim S320000x1 ![0] bcast_S320000_S320000x1_0 : (⟨S320000, .i32⟩ : BufTy).Contents (Elt F) → (⟨S320000x1, .i32⟩ : BufTy).Contents (Elt F)),
    binary main_v3 main_v9 main_v10 ((fun x i => Host.gather gather_S20000x128_S320000x1_S320000x128_1_0_n_n_0_1_1128 x i) : (⟨S20000x128, .f32⟩ : BufTy).Contents (Elt F) → (⟨S320000x1, .i32⟩ : BufTy).Contents (Elt F) → (⟨S320000x128, .f32⟩ : BufTy).Contents (Elt F)),
    nullary main_c_1 (constantI S_ 32 0#32),
    unary main_c_1 main_v11 (broadcastInDim S320000 ![] bcast_S_S320000 : (⟨S_, .i32⟩ : BufTy).Contents (Elt F) → (⟨S320000, .i32⟩ : BufTy).Contents (Elt F)),
    binary main_arg19 main_v11 main_v12 (cmpi .slt : (⟨S320000, .i32⟩ : BufTy).Contents (Elt F) → (⟨S320000, .i32⟩ : BufTy).Contents (Elt F) → (⟨S320000, .i1⟩ : BufTy).Contents (Elt F)),
    nullary main_c_2 (constantI S_ 32 20000#32),
    unary main_c_2 main_v13 (broadcastInDim S320000 ![] bcast_S_S320000 : (⟨S_, .i32⟩ : BufTy).Contents (Elt F) → (⟨S320000, .i32⟩ : BufTy).Contents (Elt F)),
    binary main_arg19 main_v13 main_v14 (addi : (⟨S320000, .i32⟩ : BufTy).Contents (Elt F) → (⟨S320000, .i32⟩ : BufTy).Contents (Elt F) → (⟨S320000, .i32⟩ : BufTy).Contents (Elt F)),
    ternary main_v12 main_v14 main_arg19 main_v15 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v15 main_v16 (broadcastInDim S320000x1 ![0] bcast_S320000_S320000x1_0 : (⟨S320000, .i32⟩ : BufTy).Contents (Elt F) → (⟨S320000x1, .i32⟩ : BufTy).Contents (Elt F)),
    binary main_v3 main_v16 main_v17 ((fun x i => Host.gather gather_S20000x128_S320000x1_S320000x128_1_0_n_n_0_1_1128 x i) : (⟨S20000x128, .f32⟩ : BufTy).Contents (Elt F) → (⟨S320000x1, .i32⟩ : BufTy).Contents (Elt F) → (⟨S320000x128, .f32⟩ : BufTy).Contents (Elt F)) ]

/-- The references it writes. -/
def W_c_hg_0 : List (Ref sig .tc) :=
  [main_c, main_v4, main_v5, main_c_0, main_v6, main_v7, main_v8, main_v9, main_v10, main_c_1, main_v11, main_v12, main_c_2, main_v13, main_v14, main_v15, main_v16, main_v17]

theorem hW_c_hg_0 : WritesIn (c_hg_0 (F := Ideal)) W_c_hg_0 := by
  unfold WritesIn c_hg_0
  exact ⟨single_sub (y := main_c) (by decide +kernel),
    single_sub (y := main_v4) (by decide +kernel),
    single_sub (y := main_v5) (by decide +kernel),
    single_sub (y := main_c_0) (by decide +kernel),
    single_sub (y := main_v6) (by decide +kernel),
    single_sub (y := main_v7) (by decide +kernel),
    single_sub (y := main_v8) (by decide +kernel),
    single_sub (y := main_v9) (by decide +kernel),
    single_sub (y := main_v10) (by decide +kernel),
    single_sub (y := main_c_1) (by decide +kernel),
    single_sub (y := main_v11) (by decide +kernel),
    single_sub (y := main_v12) (by decide +kernel),
    single_sub (y := main_c_2) (by decide +kernel),
    single_sub (y := main_v13) (by decide +kernel),
    single_sub (y := main_v14) (by decide +kernel),
    single_sub (y := main_v15) (by decide +kernel),
    single_sub (y := main_v16) (by decide +kernel),
    single_sub (y := main_v17) (by decide +kernel)⟩

/-- It writes no argument. -/
theorem hA_c_hg_0 : ∀ r ∈ argRefs, r ∉ W_c_hg_0 := by
  decide +kernel

/-- Head 0: the joined rows' score. -/
def c_hs_0 {F : FTy → Type} [FloatOps F] : List (HloOp τ sig (Elt F)) :=
  [ binary main_v10 main_v17 main_v18 ((fun a b => concatenate S320000x256 1 [⟨S320000x128, a⟩, ⟨S320000x128, b⟩] concatenates_S320000x128_S320000x128_S320000x256_d1) : (⟨S320000x128, .f32⟩ : BufTy).Contents (Elt F) → (⟨S320000x128, .f32⟩ : BufTy).Contents (Elt F) → (⟨S320000x256, .f32⟩ : BufTy).Contents (Elt F)),
    unary main_arg14 main_v19 ((extractStridedSlice S1x256x128 ![0, 0, 0] · slices_S5x256x128_S1x256x128_0_0_0) : (⟨S5x256x128, .f32⟩ : BufTy).Contents (Elt F) → (⟨S1x256x128, .f32⟩ : BufTy).Contents (Elt F)),
    reshape main_v19 main_v20 rfl shapeCasts_S1x256x128_S256x128,
    binary main_v18 main_v20 main_v21 ((fun l r => Host.dotGeneral dot_S320000x256_S256x128_S320000x128_1_0_0_1_n_n none l r) : (⟨S320000x256, .f32⟩ : BufTy).Contents (Elt F) → (⟨S256x128, .f32⟩ : BufTy).Contents (Elt F) → (⟨S320000x128, .f32⟩ : BufTy).Contents (Elt F)),
    unary main_arg15 main_v22 ((extractStridedSlice S1x128 ![0, 0] · slices_S5x128_S1x128_0_0) : (⟨S5x128, .f32⟩ : BufTy).Contents (Elt F) → (⟨S1x128, .f32⟩ : BufTy).Contents (Elt F)),
    reshape main_v22 main_v23 rfl shapeCasts_S1x128_S128,
    unary main_v23 main_v24 (broadcastInDim S1x128 ![1] bcast_S128_S1x128_1 : (⟨S128, .f32⟩ : BufTy).Contents (Elt F) → (⟨S1x128, .f32⟩ : BufTy).Contents (Elt F)),
    unary main_v24 main_v25 (broadcastInDim S320000x128 ![0, 1] bcast_S1x128_S320000x128_0_1 : (⟨S1x128, .f32⟩ : BufTy).Contents (Elt F) → (⟨S320000x128, .f32⟩ : BufTy).Contents (Elt F)),
    binary main_v21 main_v25 main_v26 (addf : (⟨S320000x128, .f32⟩ : BufTy).Contents (Elt F) → (⟨S320000x128, .f32⟩ : BufTy).Contents (Elt F) → (⟨S320000x128, .f32⟩ : BufTy).Contents (Elt F)),
    TRef.nullary main_call0.cst (constant S_ .f32 0x00000000#32),
    TRef.unary main_call0.cst main_call0.v0 (broadcastInDim S320000x128 ![] bcast_S_S320000x128),
    TRef.binary (.of main_v26) main_call0.v0 main_call0.v1 maximumf,
    unary main_arg16 main_v28 ((extractStridedSlice S1x128x2 ![0, 0, 0] · slices_S5x128x2_S1x128x2_0_0_0) : (⟨S5x128x2, .f32⟩ : BufTy).Contents (Elt F) → (⟨S1x128x2, .f32⟩ : BufTy).Contents (Elt F)),
    reshape main_v28 main_v29 rfl shapeCasts_S1x128x2_S128x2,
    binary main_v27 main_v29 main_v30 ((fun l r => Host.dotGeneral dot_S320000x128_S128x2_S320000x2_1_0_0_1_n_n none l r) : (⟨S320000x128, .f32⟩ : BufTy).Contents (Elt F) → (⟨S128x2, .f32⟩ : BufTy).Contents (Elt F) → (⟨S320000x2, .f32⟩ : BufTy).Contents (Elt F)),
    unary main_arg17 main_v31 ((extractStridedSlice S1x2 ![0, 0] · slices_S5x2_S1x2_0_0) : (⟨S5x2, .f32⟩ : BufTy).Contents (Elt F) → (⟨S1x2, .f32⟩ : BufTy).Contents (Elt F)),
    reshape main_v31 main_v32 rfl shapeCasts_S1x2_S2,
    unary main_v32 main_v33 (broadcastInDim S1x2 ![1] bcast_S2_S1x2_1 : (⟨S2, .f32⟩ : BufTy).Contents (Elt F) → (⟨S1x2, .f32⟩ : BufTy).Contents (Elt F)),
    unary main_v33 main_v34 (broadcastInDim S320000x2 ![0, 1] bcast_S1x2_S320000x2_0_1 : (⟨S1x2, .f32⟩ : BufTy).Contents (Elt F) → (⟨S320000x2, .f32⟩ : BufTy).Contents (Elt F)),
    binary main_v30 main_v34 main_v35 (addf : (⟨S320000x2, .f32⟩ : BufTy).Contents (Elt F) → (⟨S320000x2, .f32⟩ : BufTy).Contents (Elt F) → (⟨S320000x2, .f32⟩ : BufTy).Contents (Elt F)) ]

/-- The references it writes. -/
def W_c_hs_0 : List (Ref sig .tc) :=
  [main_v18, main_v19, main_v20, main_v21, main_v22, main_v23, main_v24, main_v25, main_v26, main_call0_cst, main_call0_v0, main_v27, main_v28, main_v29, main_v30, main_v31, main_v32, main_v33, main_v34, main_v35]

theorem hW_c_hs_0 : WritesIn (c_hs_0 (F := Ideal)) W_c_hs_0 := by
  unfold WritesIn c_hs_0
  exact ⟨single_sub (y := main_v18) (by decide +kernel),
    single_sub (y := main_v19) (by decide +kernel),
    single_sub (y := main_v20) (by decide +kernel),
    single_sub (y := main_v21) (by decide +kernel),
    single_sub (y := main_v22) (by decide +kernel),
    single_sub (y := main_v23) (by decide +kernel),
    single_sub (y := main_v24) (by decide +kernel),
    single_sub (y := main_v25) (by decide +kernel),
    single_sub (y := main_v26) (by decide +kernel),
    single_sub (y := main_call0_cst) (by decide +kernel),
    single_sub (y := main_call0_v0) (by decide +kernel),
    single_sub (y := main_v27) (by decide +kernel),
    single_sub (y := main_v28) (by decide +kernel),
    single_sub (y := main_v29) (by decide +kernel),
    single_sub (y := main_v30) (by decide +kernel),
    single_sub (y := main_v31) (by decide +kernel),
    single_sub (y := main_v32) (by decide +kernel),
    single_sub (y := main_v33) (by decide +kernel),
    single_sub (y := main_v34) (by decide +kernel),
    single_sub (y := main_v35) (by decide +kernel)⟩

/-- It writes no argument. -/
theorem hA_c_hs_0 : ∀ r ∈ argRefs, r ∉ W_c_hs_0 := by
  decide +kernel

end Cert.RChain

end
-- ==== Proof.RChainP.lean ====
/-
  The reference's first stretch: the embedding of the node inputs and head 0's score.

  The stretch is three runs of operations in a row. The first leaves the embedding; the second gathers the embedding's
  rows at both ends of every edge; the third scores every edge from the joined rows with member 0 of the head's
  parameters. No run writes an argument, and the embedding's buffer is written by the first run only, so after all
  three the arguments are as they began, the embedding is in its buffer and head 0's score is in its own.
-/
import proofs.«416875_j80633716015165_3_alg».proof.Proof.RChainArr
import proofs.«416875_j80633716015165_3_alg».proof.Proof.RChainChunksP

noncomputable section

open Idealize.ShloMosaic Idealize.ShloMosaic.ValueIdx Idealize.SL.Sem
open Cert.ReferenceIdeal Cert.ReferenceIdeal.Facts₀
open Idealize.ShloMosaic.StableHlo

namespace Cert.RChain

/-! ## Each run, from what it finds in the buffers it reads -/

/-- The embedding: the node inputs times the weight, plus the bias on every row. -/
theorem emb_P (W : Valuation τ sig (Elt Ideal)) :
    after (c_emb (F := Ideal)) W (Proc.devRef .tc main_v3) = M.mk2 (M.x0 (inputsR W)) := by
  unfold c_emb
  after_results
  unfold M.x0
  exact RStage.embed_eq _ _ _

/-- The embedding's rows at the edges' source words. -/
theorem hgs_P (W : Valuation τ sig (Elt Ideal)) {x : Fin 20000 → Fin 128 → EReal}
    (hx : W (Proc.devRef .tc main_v3) = M.mk2 x) :
    after (c_hg_0 (F := Ideal)) W (Proc.devRef .tc main_v10) = M.mk2 (M.rows x (inputsR W).src) := by
  unfold c_hg_0
  after_results
  rw [hx]
  exact rows_read x _

/-- The embedding's rows at the edges' target words. -/
theorem hgd_P (W : Valuation τ sig (Elt Ideal)) {x : Fin 20000 → Fin 128 → EReal}
    (hx : W (Proc.devRef .tc main_v3) = M.mk2 x) :
    after (c_hg_0 (F := Ideal)) W (Proc.devRef .tc main_v17) = M.mk2 (M.rows x (inputsR W).dst) := by
  unfold c_hg_0
  after_results
  rw [hx]
  exact rows_read x _

set_option maxHeartbeats 4000000 in
/-- Head 0's score from the two gathered arrays. -/
theorem hs_P (W : Valuation τ sig (Elt Ideal)) {xs xd : Fin 320000 → Fin 128 → EReal}
    (h₁ : W (Proc.devRef .tc main_v10) = M.mk2 xs) (h₂ : W (Proc.devRef .tc main_v17) = M.mk2 xd) :
    after (c_hs_0 (F := Ideal)) W (Proc.devRef .tc main_v35)
      = M.mk2 (M.headR xs xd ((inputsR W).pred_w1 (0 : Fin 5)) ((inputsR W).pred_b1 (0 : Fin 5))
          ((inputsR W).pred_w2 (0 : Fin 5)) ((inputsR W).pred_b2 (0 : Fin 5))) := by
  unfold c_hs_0
  first
  | (after_results_simp; (try simp only [TRef.ofBuf, TRef.toBuf, cast_cast, cast_eq]); rw [h₁, h₂]; exact head_member xs xd _ _ _ _ 0 (by decide : 0 < 5) _ _ _ _)
  | (after_results; rw [h₁, h₂]; exact head_member xs xd _ _ _ _ 0 (by decide : 0 < 5) _ _ _ _)

/-! ## The three runs in a row -/

/-- The first stretch's operations. -/
def P : List (HloOp τ sig (Elt Ideal)) := (c_emb (F := Ideal)) ++ ((c_hg_0 (F := Ideal)) ++ (c_hs_0 (F := Ideal)))

/-- The references the first stretch writes. -/
def WP : List (Ref sig .tc) := W_c_emb ++ (W_c_hg_0 ++ W_c_hs_0)

theorem hWP : WritesIn P WP := hW_c_emb.append (hW_c_hg_0.append hW_c_hs_0)

set_option maxHeartbeats 1000000 in
/-- After the first stretch the arguments are as they began, the embedding is in its buffer, and head 0's score of the
    embedding is in its own. -/
theorem prologue (V : Valuation τ sig (Elt Ideal)) :
    ArgsAre V (after P V) ∧ after P V (Proc.devRef .tc main_v3) = M.mk2 (M.x0 (inputsR V))
      ∧ after P V (Proc.devRef .tc main_v35) = M.mk2 (M.headI (inputsR V) (0 : Fin 5) (M.x0 (inputsR V))) := by
  have e : after P V = after (c_hs_0 (F := Ideal)) (after (c_hg_0 (F := Ideal)) (after (c_emb (F := Ideal)) V)) := by
    unfold P
    simp only [after_app]
  have a1 : ArgsAre V (after (c_emb (F := Ideal)) V) := (ArgsAre.refl V).step hW_c_emb hA_c_emb
  have a2 : ArgsAre V (after (c_hg_0 (F := Ideal)) (after (c_emb (F := Ideal)) V)) := a1.step hW_c_hg_0 hA_c_hg_0
  have a3 : ArgsAre V (after (c_hs_0 (F := Ideal)) (after (c_hg_0 (F := Ideal)) (after (c_emb (F := Ideal)) V))) := a2.step hW_c_hs_0 hA_c_hs_0
  have x1 : after (c_emb (F := Ideal)) V (Proc.devRef .tc main_v3) = M.mk2 (M.x0 (inputsR V)) := emb_P V
  have x2 : (after (c_hg_0 (F := Ideal)) (after (c_emb (F := Ideal)) V)) (Proc.devRef .tc main_v3) = M.mk2 (M.x0 (inputsR V)) :=
    (hW_c_hg_0.frame (r := main_v3) (by decide +kernel) (after (c_emb (F := Ideal)) V)).trans x1
  have x3 : after (c_hs_0 (F := Ideal)) (after (c_hg_0 (F := Ideal)) (after (c_emb (F := Ideal)) V)) (Proc.devRef .tc main_v3) = M.mk2 (M.x0 (inputsR V)) :=
    (hW_c_hs_0.frame (r := main_v3) (by decide +kernel) (after (c_hg_0 (F := Ideal)) (after (c_emb (F := Ideal)) V))).trans x2
  have g1 := hgs_P (after (c_emb (F := Ideal)) V) x1
  have g2 := hgd_P (after (c_emb (F := Ideal)) V) x1
  rw [a1.inputs] at g1 g2
  have s := hs_P (after (c_hg_0 (F := Ideal)) (after (c_emb (F := Ideal)) V)) g1 g2
  rw [a2.inputs] at s
  rw [e]
  refine ⟨a3, x3, ?_⟩
  rw [s]
  unfold M.headI
  rfl

end Cert.RChain

end
-- ==== Proof.RChainChunks0.lean ====
import proofs.«416875_j80633716015165_3_alg».proof.Proof.RChainBase

noncomputable section

open Idealize.ShloMosaic Idealize.ShloMosaic.ValueIdx Idealize.SL.Sem
open Cert.ReferenceIdeal Cert.ReferenceIdeal.Facts₀
open Idealize.ShloMosaic.StableHlo

namespace Cert.RChain

/-- Layer 0: the neighbour sums. -/
def c_ng_0 {F : FTy → Type} [FloatOps F] : List (HloOp τ sig (Elt F)) :=
  [ nullary main_c_3 (constantI S_ 32 0#32),
    unary main_c_3 main_v36 (broadcastInDim S320000 ![] bcast_S_S320000 : (⟨S_, .i32⟩ : BufTy).Contents (Elt F) → (⟨S320000, .i32⟩ : BufTy).Contents (Elt F)),
    binary main_arg18 main_v36 main_v37 (cmpi .slt : (⟨S320000, .i32⟩ : BufTy).Contents (Elt F) → (⟨S320000, .i32⟩ : BufTy).Contents (Elt F) → (⟨S320000, .i1⟩ : BufTy).Contents (Elt F)),
    nullary main_c_4 (constantI S_ 32 20000#32),
    unary main_c_4 main_v38 (broadcastInDim S320000 ![] bcast_S_S320000 : (⟨S_, .i32⟩ : BufTy).Contents (Elt F) → (⟨S320000, .i32⟩ : BufTy).Contents (Elt F)),
    binary main_arg18 main_v38 main_v39 (addi : (⟨S320000, .i32⟩ : BufTy).Contents (Elt F) → (⟨S320000, .i32⟩ : BufTy).Contents (Elt F) → (⟨S320000, .i32⟩ : BufTy).Contents (Elt F)),
    ternary main_v37 main_v39 main_arg18 main_v40 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v40 main_v41 (broadcastInDim S320000x1 ![0] bcast_S320000_S320000x1_0 : (⟨S320000, .i32⟩ : BufTy).Contents (Elt F) → (⟨S320000x1, .i32⟩ : BufTy).Contents (Elt F)),
    binary main_v3 main_v41 main_v42 ((fun x i => Host.gather gather_S20000x128_S320000x1_S320000x128_1_0_n_n_0_1_1128 x i) : (⟨S20000x128, .f32⟩ : BufTy).Contents (Elt F) → (⟨S320000x1, .i32⟩ : BufTy).Contents (Elt F) → (⟨S320000x128, .f32⟩ : BufTy).Contents (Elt F)),
    nullary main_cst (constant S_ .f32 0x00000000#32),
    unary main_cst main_v43 (broadcastInDim S20000x128 ![] bcast_S_S20000x128 : (⟨S_, .f32⟩ : BufTy).Contents (Elt F) → (⟨S20000x128, .f32⟩ : BufTy).Contents (Elt F)),
    unary main_arg19 main_v44 (broadcastInDim S320000x1 ![0] bcast_S320000_S320000x1_0 : (⟨S320000, .i32⟩ : BufTy).Contents (Elt F) → (⟨S320000x1, .i32⟩ : BufTy).Contents (Elt F)),
    ternary main_v43 main_v44 main_v42 main_v45 ((fun x i u => Host.scatterAdd scatter_S20000x128_S320000x1_S320000x128_1_0_0_1 x i u) : (⟨S20000x128, .f32⟩ : BufTy).Contents (Elt F) → (⟨S320000x1, .i32⟩ : BufTy).Contents (Elt F) → (⟨S320000x128, .f32⟩ : BufTy).Contents (Elt F) → (⟨S20000x128, .f32⟩ : BufTy).Contents (Elt F)) ]

/-- The references it writes. -/
def W_c_ng_0 : List (Ref sig .tc) :=
  [main_c_3, main_v36, main_v37, main_c_4, main_v38, main_v39, main_v40, main_v41, main_v42, main_cst, main_v43, main_v44, main_v45]

theorem hW_c_ng_0 : WritesIn (c_ng_0 (F := Ideal)) W_c_ng_0 := by
  unfold WritesIn c_ng_0
  exact ⟨single_sub (y := main_c_3) (by decide +kernel),
    single_sub (y := main_v36) (by decide +kernel),
    single_sub (y := main_v37) (by decide +kernel),
    single_sub (y := main_c_4) (by decide +kernel),
    single_sub (y := main_v38) (by decide +kernel),
    single_sub (y := main_v39) (by decide +kernel),
    single_sub (y := main_v40) (by decide +kernel),
    single_sub (y := main_v41) (by decide +kernel),
    single_sub (y := main_v42) (by decide +kernel),
    single_sub (y := main_cst) (by decide +kernel),
    single_sub (y := main_v43) (by decide +kernel),
    single_sub (y := main_v44) (by decide +kernel),
    single_sub (y := main_v45) (by decide +kernel)⟩

/-- It writes no argument. -/
theorem hA_c_ng_0 : ∀ r ∈ argRefs, r ∉ W_c_ng_0 := by
  decide +kernel

/-- Layer 0: the scaled input plus the neighbour sums, through the first linear map. -/
def c_l1_0 {F : FTy → Type} [FloatOps F] : List (HloOp τ sig (Elt F)) :=
  [ unary main_arg3 main_v46 ((extractStridedSlice S1 ![0] · slices_S4_S1_0) : (⟨S4, .f32⟩ : BufTy).Contents (Elt F) → (⟨S1, .f32⟩ : BufTy).Contents (Elt F)),
    reshape main_v46 main_v47 rfl shapeCasts_S1_S_,
    nullary main_cst_5 (constant S_ .f32 0x3F800000#32),
    binary main_cst_5 main_v47 main_v48 (addf : (⟨S_, .f32⟩ : BufTy).Contents (Elt F) → (⟨S_, .f32⟩ : BufTy).Contents (Elt F) → (⟨S_, .f32⟩ : BufTy).Contents (Elt F)),
    unary main_v48 main_v49 (broadcastInDim S20000x128 ![] bcast_S_S20000x128 : (⟨S_, .f32⟩ : BufTy).Contents (Elt F) → (⟨S20000x128, .f32⟩ : BufTy).Contents (Elt F)),
    binary main_v49 main_v3 main_v50 (mulf : (⟨S20000x128, .f32⟩ : BufTy).Contents (Elt F) → (⟨S20000x128, .f32⟩ : BufTy).Contents (Elt F) → (⟨S20000x128, .f32⟩ : BufTy).Contents (Elt F)),
    binary main_v50 main_v45 main_v51 (addf : (⟨S20000x128, .f32⟩ : BufTy).Contents (Elt F) → (⟨S20000x128, .f32⟩ : BufTy).Contents (Elt F) → (⟨S20000x128, .f32⟩ : BufTy).Contents (Elt F)),
    unary main_arg4 main_v52 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v52 main_v53 rfl shapeCasts_S1x128x128_S128x128,
    binary main_v51 main_v53 main_v54 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg5 main_v55 ((extractStridedSlice S1x128 ![0, 0] · slices_S4x128_S1x128_0_0) : (⟨S4x128, .f32⟩ : BufTy).Contents (Elt F) → (⟨S1x128, .f32⟩ : BufTy).Contents (Elt F)),
    reshape main_v55 main_v56 rfl shapeCasts_S1x128_S128,
    unary main_v56 main_v57 (broadcastInDim S1x128 ![1] bcast_S128_S1x128_1 : (⟨S128, .f32⟩ : BufTy).Contents (Elt F) → (⟨S1x128, .f32⟩ : BufTy).Contents (Elt F)),
    unary main_v57 main_v58 (broadcastInDim S20000x128 ![0, 1] bcast_S1x128_S20000x128_0_1 : (⟨S1x128, .f32⟩ : BufTy).Contents (Elt F) → (⟨S20000x128, .f32⟩ : BufTy).Contents (Elt F)),
    binary main_v54 main_v58 main_v59 (addf : (⟨S20000x128, .f32⟩ : BufTy).Contents (Elt F) → (⟨S20000x128, .f32⟩ : BufTy).Contents (Elt F) → (⟨S20000x128, .f32⟩ : BufTy).Contents (Elt F)) ]

/-- The references it writes. -/
def W_c_l1_0 : List (Ref sig .tc) :=
  [main_v46, main_v47, main_cst_5, main_v48, main_v49, main_v50, main_v51, main_v52, main_v53, main_v54, main_v55, main_v56, main_v57, main_v58, main_v59]

theorem hW_c_l1_0 : WritesIn (c_l1_0 (F := Ideal)) W_c_l1_0 := by
  unfold WritesIn c_l1_0
  exact ⟨single_sub (y := main_v46) (by decide +kernel),
    single_sub (y := main_v47) (by decide +kernel),
    single_sub (y := main_cst_5) (by decide +kernel),
    single_sub (y := main_v48) (by decide +kernel),
    single_sub (y := main_v49) (by decide +kernel),
    single_sub (y := main_v50) (by decide +kernel),
    single_sub (y := main_v51) (by decide +kernel),
    single_sub (y := main_v52) (by decide +kernel),
    single_sub (y := main_v53) (by decide +kernel),
    single_sub (y := main_v54) (by decide +kernel),
    single_sub (y := main_v55) (by decide +kernel),
    single_sub (y := main_v56) (by decide +kernel),
    single_sub (y := main_v57) (by decide +kernel),
    single_sub (y := main_v58) (by decide +kernel),
    single_sub (y := main_v59) (by decide +kernel)⟩

/-- It writes no argument. -/
theorem hA_c_l1_0 : ∀ r ∈ argRefs, r ∉ W_c_l1_0 := by
  decide +kernel

/-- Layer 0, normalisation 1: its scale, its shift and every column's mean. -/
def c_m1_0 {F : FTy → Type} [FloatOps F] : List (HloOp τ sig (Elt F)) :=
  [ unary main_arg6 main_v60 ((extractStridedSlice S1x128 ![0, 0] · slices_S4x128_S1x128_0_0) : (⟨S4x128, .f32⟩ : BufTy).Contents (Elt F) → (⟨S1x128, .f32⟩ : BufTy).Contents (Elt F)),
    reshape main_v60 main_v61 rfl shapeCasts_S1x128_S128,
    unary main_arg7 main_v62 ((extractStridedSlice S1x128 ![0, 0] · slices_S4x128_S1x128_0_0) : (⟨S4x128, .f32⟩ : BufTy).Contents (Elt F) → (⟨S1x128, .f32⟩ : BufTy).Contents (Elt F)),
    reshape main_v62 main_v63 rfl shapeCasts_S1x128_S128,
    nullary main_cst_6 (constant S_ .f32 0x00000000#32),
    binary main_v59 main_cst_6 main_v64 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    nullary main_cst_7 (constant S_ .f32 0x469C4000#32),
    unary main_cst_7 main_v65 (broadcastInDim S128 ![] bcast_S_S128 : (⟨S_, .f32⟩ : BufTy).Contents (Elt F) → (⟨S128, .f32⟩ : BufTy).Contents (Elt F)),
    binary main_v64 main_v65 main_v66 (Host.divf : (⟨S128, .f32⟩ : BufTy).Contents (Elt F) → (⟨S128, .f32⟩ : BufTy).Contents (Elt F) → (⟨S128, .f32⟩ : BufTy).Contents (Elt F)) ]

/-- The references it writes. -/
def W_c_m1_0 : List (Ref sig .tc) :=
  [main_v60, main_v61, main_v62, main_v63, main_cst_6, main_v64, main_cst_7, main_v65, main_v66]

theorem hW_c_m1_0 : WritesIn (c_m1_0 (F := Ideal)) W_c_m1_0 := by
  unfold WritesIn c_m1_0
  exact ⟨single_sub (y := main_v60) (by decide +kernel),
    single_sub (y := main_v61) (by decide +kernel),
    single_sub (y := main_v62) (by decide +kernel),
    single_sub (y := main_v63) (by decide +kernel),
    single_sub (y := main_cst_6) (by decide +kernel),
    single_sub (y := main_v64) (by decide +kernel),
    single_sub (y := main_cst_7) (by decide +kernel),
    single_sub (y := main_v65) (by decide +kernel),
    single_sub (y := main_v66) (by decide +kernel)⟩

/-- It writes no argument. -/
theorem hA_c_m1_0 : ∀ r ∈ argRefs, r ∉ W_c_m1_0 := by
  decide +kernel

/-- Layer 0, normalisation 1: every column's biased variance. -/
def c_v1_0 {F : FTy → Type} [FloatOps F] : List (HloOp τ sig (Elt F)) :=
  [ nullary main_c_8 (constantI S_ 32 0#32),
    TRef.nullary main_call1.cst (constant S_ .f32 0x00000000#32),
    TRef.binary (.of main_v59) main_call1.cst main_call1.v0 (fun x v => Host.reduceAdd x v reducesTo_S20000x128_S128_d0 h_S_),
    TRef.unary main_call1.v0 main_call1.v1 (broadcastInDim S1x128 ![1] bcast_S128_S1x128_1),
    TRef.nullary main_call1.cst_0 (constant S_ .f32 0x469C4000#32),
    TRef.unary main_call1.cst_0 main_call1.v2 (broadcastInDim S1x128 ![] bcast_S_S1x128),
    TRef.binary main_call1.v1 main_call1.v2 main_call1.v3 Host.divf,
    TRef.unary main_call1.v3 main_call1.v4 (broadcastInDim S20000x128 ![0, 1] bcast_S1x128_S20000x128_0_1),
    TRef.binary (.of main_v59) main_call1.v4 main_call1.v5 subf,
    TRef.binary main_call1.v5 main_call1.v5 main_call1.v6 mulf,
    TRef.unary (.of main_c_8) main_call1.v7 (sitofp .f32),
    TRef.nullary main_call1.cst_1 (constant S_ .f32 0x469C4000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S20000x128_S128_d0 h_S_),
    TRef.unary main_call1.v8 main_call1.v10 (broadcastInDim S128 ![] bcast_S_S128),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S128 ![] bcast_S_S128),
    TRef.ternary main_call1.v12 main_call1.v11 main_call1.call0.v1 main_call1.call0.v2 (fun p a b => select (broadcastInDim S128 ![] bcast_S_S128 p) a b) ]

/-- The references it writes. -/
def W_c_v1_0 : List (Ref sig .tc) :=
  [main_c_8, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v67]

theorem hW_c_v1_0 : WritesIn (c_v1_0 (F := Ideal)) W_c_v1_0 := by
  unfold WritesIn c_v1_0
  exact ⟨single_sub (y := main_c_8) (by decide +kernel),
    single_sub (y := main_call1_cst) (by decide +kernel),
    single_sub (y := main_call1_v0) (by decide +kernel),
    single_sub (y := main_call1_v1) (by decide +kernel),
    single_sub (y := main_call1_cst_0) (by decide +kernel),
    single_sub (y := main_call1_v2) (by decide +kernel),
    single_sub (y := main_call1_v3) (by decide +kernel),
    single_sub (y := main_call1_v4) (by decide +kernel),
    single_sub (y := main_call1_v5) (by decide +kernel),
    single_sub (y := main_call1_v6) (by decide +kernel),
    single_sub (y := main_call1_v7) (by decide +kernel),
    single_sub (y := main_call1_cst_1) (by decide +kernel),
    single_sub (y := main_call1_v8) (by decide +kernel),
    single_sub (y := main_call1_cst_2) (by decide +kernel),
    single_sub (y := main_call1_v9) (by decide +kernel),
    single_sub (y := main_call1_v10) (by decide +kernel),
    single_sub (y := main_call1_v11) (by decide +kernel),
    single_sub (y := main_call1_cst_3) (by decide +kernel),
    single_sub (y := main_call1_v12) (by decide +kernel),
    single_sub (y := main_call1_cst_4) (by decide +kernel),
    single_sub (y := main_call1_call0_v0) (by decide +kernel),
    single_sub (y := main_call1_call0_v1) (by decide +kernel),
    single_sub (y := main_v67) (by decide +kernel)⟩

/-- It writes no argument. -/
theorem hA_c_v1_0 : ∀ r ∈ argRefs, r ∉ W_c_v1_0 := by
  decide +kernel

/-- Layer 0, normalisation 1: normalised, scaled, shifted and rectified. -/
def c_n1_0 {F : FTy → Type} [FloatOps F] : List (HloOp τ sig (Elt F)) :=
  [ unary main_v66 main_v68 (broadcastInDim S1x128 ![1] bcast_S128_S1x128_1 : (⟨S128, .f32⟩ : BufTy).Contents (Elt F) → (⟨S1x128, .f32⟩ : BufTy).Contents (Elt F)),
    unary main_v68 main_v69 (broadcastInDim S20000x128 ![0, 1] bcast_S1x128_S20000x128_0_1 : (⟨S1x128, .f32⟩ : BufTy).Contents (Elt F) → (⟨S20000x128, .f32⟩ : BufTy).Contents (Elt F)),
    binary main_v59 main_v69 main_v70 (subf : (⟨S20000x128, .f32⟩ : BufTy).Contents (Elt F) → (⟨S20000x128, .f32⟩ : BufTy).Contents (Elt F) → (⟨S20000x128, .f32⟩ : BufTy).Contents (Elt F)),
    nullary main_cst_9 (constant S_ .f32 0x3727C5AC#32),
    unary main_cst_9 main_v71 (broadcastInDim S128 ![] bcast_S_S128 : (⟨S_, .f32⟩ : BufTy).Contents (Elt F) → (⟨S128, .f32⟩ : BufTy).Contents (Elt F)),
    binary main_v67 main_v71 main_v72 (addf : (⟨S128, .f32⟩ : BufTy).Contents (Elt F) → (⟨S128, .f32⟩ : BufTy).Contents (Elt F) → (⟨S128, .f32⟩ : BufTy).Contents (Elt F)),
    unary main_v72 main_v73 (Host.rsqrt : (⟨S128, .f32⟩ : BufTy).Contents (Elt F) → (⟨S128, .f32⟩ : BufTy).Contents (Elt F)),
    unary main_v73 main_v74 (broadcastInDim S1x128 ![1] bcast_S128_S1x128_1 : (⟨S128, .f32⟩ : BufTy).Contents (Elt F) → (⟨S1x128, .f32⟩ : BufTy).Contents (Elt F)),
    unary main_v74 main_v75 (broadcastInDim S20000x128 ![0, 1] bcast_S1x128_S20000x128_0_1 : (⟨S1x128, .f32⟩ : BufTy).Contents (Elt F) → (⟨S20000x128, .f32⟩ : BufTy).Contents (Elt F)),
    binary main_v70 main_v75 main_v76 (mulf : (⟨S20000x128, .f32⟩ : BufTy).Contents (Elt F) → (⟨S20000x128, .f32⟩ : BufTy).Contents (Elt F) → (⟨S20000x128, .f32⟩ : BufTy).Contents (Elt F)),
    unary main_v61 main_v77 (broadcastInDim S1x128 ![1] bcast_S128_S1x128_1 : (⟨S128, .f32⟩ : BufTy).Contents (Elt F) → (⟨S1x128, .f32⟩ : BufTy).Contents (Elt F)),
    unary main_v77 main_v78 (broadcastInDim S20000x128 ![0, 1] bcast_S1x128_S20000x128_0_1 : (⟨S1x128, .f32⟩ : BufTy).Contents (Elt F) → (⟨S20000x128, .f32⟩ : BufTy).Contents (Elt F)),
    binary main_v76 main_v78 main_v79 (mulf : (⟨S20000x128, .f32⟩ : BufTy).Contents (Elt F) → (⟨S20000x128, .f32⟩ : BufTy).Contents (Elt F) → (⟨S20000x128, .f32⟩ : BufTy).Contents (Elt F)),
    unary main_v63 main_v80 (broadcastInDim S1x128 ![1] bcast_S128_S1x128_1 : (⟨S128, .f32⟩ : BufTy).Contents (Elt F) → (⟨S1x128, .f32⟩ : BufTy).Contents (Elt F)),
    unary main_v80 main_v81 (broadcastInDim S20000x128 ![0, 1] bcast_S1x128_S20000x128_0_1 : (⟨S1x128, .f32⟩ : BufTy).Contents (Elt F) → (⟨S20000x128, .f32⟩ : BufTy).Contents (Elt F)),
    binary main_v79 main_v81 main_v82 (addf : (⟨S20000x128, .f32⟩ : BufTy).Contents (Elt F) → (⟨S20000x128, .f32⟩ : BufTy).Contents (Elt F) → (⟨S20000x128, .f32⟩ : BufTy).Contents (Elt F)),
    TRef.nullary main_call2.cst (constant S_ .f32 0x00000000#32),
    TRef.unary main_call2.cst main_call2.v0 (broadcastInDim S20000x128 ![] bcast_S_S20000x128),
    TRef.binary (.of main_v82) main_call2.v0 main_call2.v1 maximumf ]

/-- The references it writes. -/
def W_c_n1_0 : List (Ref sig .tc) :=
  [main_v68, main_v69, main_v70, main_cst_9, main_v71, main_v72, main_v73, main_v74, main_v75, main_v76, main_v77, main_v78, main_v79, main_v80, main_v81, main_v82, main_call2_cst, main_call2_v0, main_v83]

theorem hW_c_n1_0 : WritesIn (c_n1_0 (F := Ideal)) W_c_n1_0 := by
  unfold WritesIn c_n1_0
  exact ⟨single_sub (y := main_v68) (by decide +kernel),
    single_sub (y := main_v69) (by decide +kernel),
    single_sub (y := main_v70) (by decide +kernel),
    single_sub (y := main_cst_9) (by decide +kernel),
    single_sub (y := main_v71) (by decide +kernel),
    single_sub (y := main_v72) (by decide +kernel),
    single_sub (y := main_v73) (by decide +kernel),
    single_sub (y := main_v74) (by decide +kernel),
    single_sub (y := main_v75) (by decide +kernel),
    single_sub (y := main_v76) (by decide +kernel),
    single_sub (y := main_v77) (by decide +kernel),
    single_sub (y := main_v78) (by decide +kernel),
    single_sub (y := main_v79) (by decide +kernel),
    single_sub (y := main_v80) (by decide +kernel),
    single_sub (y := main_v81) (by decide +kernel),
    single_sub (y := main_v82) (by decide +kernel),
    single_sub (y := main_call2_cst) (by decide +kernel),
    single_sub (y := main_call2_v0) (by decide +kernel),
    single_sub (y := main_v83) (by decide +kernel)⟩

/-- It writes no argument. -/
theorem hA_c_n1_0 : ∀ r ∈ argRefs, r ∉ W_c_n1_0 := by
  decide +kernel

/-- Layer 0: the second linear map. -/
def c_l2_0 {F : FTy → Type} [FloatOps F] : List (HloOp τ sig (Elt F)) :=
  [ unary main_arg8 main_v84 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v84 main_v85 rfl shapeCasts_S1x128x128_S128x128,
    binary main_v83 main_v85 main_v86 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg9 main_v87 ((extractStridedSlice S1x128 ![0, 0] · slices_S4x128_S1x128_0_0) : (⟨S4x128, .f32⟩ : BufTy).Contents (Elt F) → (⟨S1x128, .f32⟩ : BufTy).Contents (Elt F)),
    reshape main_v87 main_v88 rfl shapeCasts_S1x128_S128,
    unary main_v88 main_v89 (broadcastInDim S1x128 ![1] bcast_S128_S1x128_1 : (⟨S128, .f32⟩ : BufTy).Contents (Elt F) → (⟨S1x128, .f32⟩ : BufTy).Contents (Elt F)),
    unary main_v89 main_v90 (broadcastInDim S20000x128 ![0, 1] bcast_S1x128_S20000x128_0_1 : (⟨S1x128, .f32⟩ : BufTy).Contents (Elt F) → (⟨S20000x128, .f32⟩ : BufTy).Contents (Elt F)),
    binary main_v86 main_v90 main_v91 (addf : (⟨S20000x128, .f32⟩ : BufTy).Contents (Elt F) → (⟨S20000x128, .f32⟩ : BufTy).Contents (Elt F) → (⟨S20000x128, .f32⟩ : BufTy).Contents (Elt F)) ]

/-- The references it writes. -/
def W_c_l2_0 : List (Ref sig .tc) :=
  [main_v84, main_v85, main_v86, main_v87, main_v88, main_v89, main_v90, main_v91]

theorem hW_c_l2_0 : WritesIn (c_l2_0 (F := Ideal)) W_c_l2_0 := by
  unfold WritesIn c_l2_0
  exact ⟨single_sub (y := main_v84) (by decide +kernel),
    single_sub (y := main_v85) (by decide +kernel),
    single_sub (y := main_v86) (by decide +kernel),
    single_sub (y := main_v87) (by decide +kernel),
    single_sub (y := main_v88) (by decide +kernel),
    single_sub (y := main_v89) (by decide +kernel),
    single_sub (y := main_v90) (by decide +kernel),
    single_sub (y := main_v91) (by decide +kernel)⟩

/-- It writes no argument. -/
theorem hA_c_l2_0 : ∀ r ∈ argRefs, r ∉ W_c_l2_0 := by
  decide +kernel

/-- Layer 0, normalisation 2: its scale, its shift and every column's mean. -/
def c_m2_0 {F : FTy → Type} [FloatOps F] : List (HloOp τ sig (Elt F)) :=
  [ unary main_arg10 main_v92 ((extractStridedSlice S1x128 ![0, 0] · slices_S4x128_S1x128_0_0) : (⟨S4x128, .f32⟩ : BufTy).Contents (Elt F) → (⟨S1x128, .f32⟩ : BufTy).Contents (Elt F)),
    reshape main_v92 main_v93 rfl shapeCasts_S1x128_S128,
    unary main_arg11 main_v94 ((extractStridedSlice S1x128 ![0, 0] · slices_S4x128_S1x128_0_0) : (⟨S4x128, .f32⟩ : BufTy).Contents (Elt F) → (⟨S1x128, .f32⟩ : BufTy).Contents (Elt F)),
    reshape main_v94 main_v95 rfl shapeCasts_S1x128_S128,
    nullary main_cst_10 (constant S_ .f32 0x00000000#32),
    binary main_v91 main_cst_10 main_v96 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    nullary main_cst_11 (constant S_ .f32 0x469C4000#32),
    unary main_cst_11 main_v97 (broadcastInDim S128 ![] bcast_S_S128 : (⟨S_, .f32⟩ : BufTy).Contents (Elt F) → (⟨S128, .f32⟩ : BufTy).Contents (Elt F)),
    binary main_v96 main_v97 main_v98 (Host.divf : (⟨S128, .f32⟩ : BufTy).Contents (Elt F) → (⟨S128, .f32⟩ : BufTy).Contents (Elt F) → (⟨S128, .f32⟩ : BufTy).Contents (Elt F)) ]

/-- The references it writes. -/
def W_c_m2_0 : List (Ref sig .tc) :=
  [main_v92, main_v93, main_v94, main_v95, main_cst_10, main_v96, main_cst_11, main_v97, main_v98]

theorem hW_c_m2_0 : WritesIn (c_m2_0 (F := Ideal)) W_c_m2_0 := by
  unfold WritesIn c_m2_0
  exact ⟨single_sub (y := main_v92) (by decide +kernel),
    single_sub (y := main_v93) (by decide +kernel),
    single_sub (y := main_v94) (by decide +kernel),
    single_sub (y := main_v95) (by decide +kernel),
    single_sub (y := main_cst_10) (by decide +kernel),
    single_sub (y := main_v96) (by decide +kernel),
    single_sub (y := main_cst_11) (by decide +kernel),
    single_sub (y := main_v97) (by decide +kernel),
    single_sub (y := main_v98) (by decide +kernel)⟩

/-- It writes no argument. -/
theorem hA_c_m2_0 : ∀ r ∈ argRefs, r ∉ W_c_m2_0 := by
  decide +kernel

/-- Layer 0, normalisation 2: every column's biased variance. -/
def c_v2_0 {F : FTy → Type} [FloatOps F] : List (HloOp τ sig (Elt F)) :=
  [ nullary main_c_12 (constantI S_ 32 0#32),
    TRef.nullary main_call3.cst (constant S_ .f32 0x00000000#32),
    TRef.binary (.of main_v91) main_call3.cst main_call3.v0 (fun x v => Host.reduceAdd x v reducesTo_S20000x128_S128_d0 h_S_),
    TRef.unary main_call3.v0 main_call3.v1 (broadcastInDim S1x128 ![1] bcast_S128_S1x128_1),
    TRef.nullary main_call3.cst_0 (constant S_ .f32 0x469C4000#32),
    TRef.unary main_call3.cst_0 main_call3.v2 (broadcastInDim S1x128 ![] bcast_S_S1x128),
    TRef.binary main_call3.v1 main_call3.v2 main_call3.v3 Host.divf,
    TRef.unary main_call3.v3 main_call3.v4 (broadcastInDim S20000x128 ![0, 1] bcast_S1x128_S20000x128_0_1),
    TRef.binary (.of main_v91) main_call3.v4 main_call3.v5 subf,
    TRef.binary main_call3.v5 main_call3.v5 main_call3.v6 mulf,
    TRef.unary (.of main_c_12) main_call3.v7 (sitofp .f32),
    TRef.nullary main_call3.cst_1 (constant S_ .f32 0x469C4000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S20000x128_S128_d0 h_S_),
    TRef.unary main_call3.v8 main_call3.v10 (broadcastInDim S128 ![] bcast_S_S128),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S128 ![] bcast_S_S128),
    TRef.ternary main_call3.v12 main_call3.v11 main_call3.call0.v1 main_call3.call0.v2 (fun p a b => select (broadcastInDim S128 ![] bcast_S_S128 p) a b) ]

/-- The references it writes. -/
def W_c_v2_0 : List (Ref sig .tc) :=
  [main_c_12, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v99]

theorem hW_c_v2_0 : WritesIn (c_v2_0 (F := Ideal)) W_c_v2_0 := by
  unfold WritesIn c_v2_0
  exact ⟨single_sub (y := main_c_12) (by decide +kernel),
    single_sub (y := main_call3_cst) (by decide +kernel),
    single_sub (y := main_call3_v0) (by decide +kernel),
    single_sub (y := main_call3_v1) (by decide +kernel),
    single_sub (y := main_call3_cst_0) (by decide +kernel),
    single_sub (y := main_call3_v2) (by decide +kernel),
    single_sub (y := main_call3_v3) (by decide +kernel),
    single_sub (y := main_call3_v4) (by decide +kernel),
    single_sub (y := main_call3_v5) (by decide +kernel),
    single_sub (y := main_call3_v6) (by decide +kernel),
    single_sub (y := main_call3_v7) (by decide +kernel),
    single_sub (y := main_call3_cst_1) (by decide +kernel),
    single_sub (y := main_call3_v8) (by decide +kernel),
    single_sub (y := main_call3_cst_2) (by decide +kernel),
    single_sub (y := main_call3_v9) (by decide +kernel),
    single_sub (y := main_call3_v10) (by decide +kernel),
    single_sub (y := main_call3_v11) (by decide +kernel),
    single_sub (y := main_call3_cst_3) (by decide +kernel),
    single_sub (y := main_call3_v12) (by decide +kernel),
    single_sub (y := main_call3_cst_4) (by decide +kernel),
    single_sub (y := main_call3_call0_v0) (by decide +kernel),
    single_sub (y := main_call3_call0_v1) (by decide +kernel),
    single_sub (y := main_v99) (by decide +kernel)⟩

/-- It writes no argument. -/
theorem hA_c_v2_0 : ∀ r ∈ argRefs, r ∉ W_c_v2_0 := by
  decide +kernel

/-- Layer 0, normalisation 2: normalised, scaled, shifted and rectified. -/
def c_n2_0 {F : FTy → Type} [FloatOps F] : List (HloOp τ sig (Elt F)) :=
  [ unary main_v98 main_v100 (broadcastInDim S1x128 ![1] bcast_S128_S1x128_1 : (⟨S128, .f32⟩ : BufTy).Contents (Elt F) → (⟨S1x128, .f32⟩ : BufTy).Contents (Elt F)),
    unary main_v100 main_v101 (broadcastInDim S20000x128 ![0, 1] bcast_S1x128_S20000x128_0_1 : (⟨S1x128, .f32⟩ : BufTy).Contents (Elt F) → (⟨S20000x128, .f32⟩ : BufTy).Contents (Elt F)),
    binary main_v91 main_v101 main_v102 (subf : (⟨S20000x128, .f32⟩ : BufTy).Contents (Elt F) → (⟨S20000x128, .f32⟩ : BufTy).Contents (Elt F) → (⟨S20000x128, .f32⟩ : BufTy).Contents (Elt F)),
    nullary main_cst_13 (constant S_ .f32 0x3727C5AC#32),
    unary main_cst_13 main_v103 (broadcastInDim S128 ![] bcast_S_S128 : (⟨S_, .f32⟩ : BufTy).Contents (Elt F) → (⟨S128, .f32⟩ : BufTy).Contents (Elt F)),
    binary main_v99 main_v103 main_v104 (addf : (⟨S128, .f32⟩ : BufTy).Contents (Elt F) → (⟨S128, .f32⟩ : BufTy).Contents (Elt F) → (⟨S128, .f32⟩ : BufTy).Contents (Elt F)),
    unary main_v104 main_v105 (Host.rsqrt : (⟨S128, .f32⟩ : BufTy).Contents (Elt F) → (⟨S128, .f32⟩ : BufTy).Contents (Elt F)),
    unary main_v105 main_v106 (broadcastInDim S1x128 ![1] bcast_S128_S1x128_1 : (⟨S128, .f32⟩ : BufTy).Contents (Elt F) → (⟨S1x128, .f32⟩ : BufTy).Contents (Elt F)),
    unary main_v106 main_v107 (broadcastInDim S20000x128 ![0, 1] bcast_S1x128_S20000x128_0_1 : (⟨S1x128, .f32⟩ : BufTy).Contents (Elt F) → (⟨S20000x128, .f32⟩ : BufTy).Contents (Elt F)),
    binary main_v102 main_v107 main_v108 (mulf : (⟨S20000x128, .f32⟩ : BufTy).Contents (Elt F) → (⟨S20000x128, .f32⟩ : BufTy).Contents (Elt F) → (⟨S20000x128, .f32⟩ : BufTy).Contents (Elt F)),
    unary main_v93 main_v109 (broadcastInDim S1x128 ![1] bcast_S128_S1x128_1 : (⟨S128, .f32⟩ : BufTy).Contents (Elt F) → (⟨S1x128, .f32⟩ : BufTy).Contents (Elt F)),
    unary main_v109 main_v110 (broadcastInDim S20000x128 ![0, 1] bcast_S1x128_S20000x128_0_1 : (⟨S1x128, .f32⟩ : BufTy).Contents (Elt F) → (⟨S20000x128, .f32⟩ : BufTy).Contents (Elt F)),
    binary main_v108 main_v110 main_v111 (mulf : (⟨S20000x128, .f32⟩ : BufTy).Contents (Elt F) → (⟨S20000x128, .f32⟩ : BufTy).Contents (Elt F) → (⟨S20000x128, .f32⟩ : BufTy).Contents (Elt F)),
    unary main_v95 main_v112 (broadcastInDim S1x128 ![1] bcast_S128_S1x128_1 : (⟨S128, .f32⟩ : BufTy).Contents (Elt F) → (⟨S1x128, .f32⟩ : BufTy).Contents (Elt F)),
    unary main_v112 main_v113 (broadcastInDim S20000x128 ![0, 1] bcast_S1x128_S20000x128_0_1 : (⟨S1x128, .f32⟩ : BufTy).Contents (Elt F) → (⟨S20000x128, .f32⟩ : BufTy).Contents (Elt F)),
    binary main_v111 main_v113 main_v114 (addf : (⟨S20000x128, .f32⟩ : BufTy).Contents (Elt F) → (⟨S20000x128, .f32⟩ : BufTy).Contents (Elt F) → (⟨S20000x128, .f32⟩ : BufTy).Contents (Elt F)),
    TRef.nullary main_call4.cst (constant S_ .f32 0x00000000#32),
    TRef.unary main_call4.cst main_call4.v0 (broadcastInDim S20000x128 ![] bcast_S_S20000x128),
    TRef.binary (.of main_v114) main_call4.v0 main_call4.v1 maximumf ]

/-- The references it writes. -/
def W_c_n2_0 : List (Ref sig .tc) :=
  [main_v100, main_v101, main_v102, main_cst_13, main_v103, main_v104, main_v105, main_v106, main_v107, main_v108, main_v109, main_v110, main_v111, main_v112, main_v113, main_v114, main_call4_cst, main_call4_v0, main_v115]

theorem hW_c_n2_0 : WritesIn (c_n2_0 (F := Ideal)) W_c_n2_0 := by
  unfold WritesIn c_n2_0
  exact ⟨single_sub (y := main_v100) (by decide +kernel),
    single_sub (y := main_v101) (by decide +kernel),
    single_sub (y := main_v102) (by decide +kernel),
    single_sub (y := main_cst_13) (by decide +kernel),
    single_sub (y := main_v103) (by decide +kernel),
    single_sub (y := main_v104) (by decide +kernel),
    single_sub (y := main_v105) (by decide +kernel),
    single_sub (y := main_v106) (by decide +kernel),
    single_sub (y := main_v107) (by decide +kernel),
    single_sub (y := main_v108) (by decide +kernel),
    single_sub (y := main_v109) (by decide +kernel),
    single_sub (y := main_v110) (by decide +kernel),
    single_sub (y := main_v111) (by decide +kernel),
    single_sub (y := main_v112) (by decide +kernel),
    single_sub (y := main_v113) (by decide +kernel),
    single_sub (y := main_v114) (by decide +kernel),
    single_sub (y := main_call4_cst) (by decide +kernel),
    single_sub (y := main_call4_v0) (by decide +kernel),
    single_sub (y := main_v115) (by decide +kernel)⟩

/-- It writes no argument. -/
theorem hA_c_n2_0 : ∀ r ∈ argRefs, r ∉ W_c_n2_0 := by
  decide +kernel

/-- Layer 0, normalisation 3: its scale, its shift and every column's mean. -/
def c_m3_0 {F : FTy → Type} [FloatOps F] : List (HloOp τ sig (Elt F)) :=
  [ unary main_arg12 main_v116 ((extractStridedSlice S1x128 ![0, 0] · slices_S4x128_S1x128_0_0) : (⟨S4x128, .f32⟩ : BufTy).Contents (Elt F) → (⟨S1x128, .f32⟩ : BufTy).Contents (Elt F)),
    reshape main_v116 main_v117 rfl shapeCasts_S1x128_S128,
    unary main_arg13 main_v118 ((extractStridedSlice S1x128 ![0, 0] · slices_S4x128_S1x128_0_0) : (⟨S4x128, .f32⟩ : BufTy).Contents (Elt F) → (⟨S1x128, .f32⟩ : BufTy).Contents (Elt F)),
    reshape main_v118 main_v119 rfl shapeCasts_S1x128_S128,
    nullary main_cst_14 (constant S_ .f32 0x00000000#32),
    binary main_v115 main_cst_14 main_v120 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    nullary main_cst_15 (constant S_ .f32 0x469C4000#32),
    unary main_cst_15 main_v121 (broadcastInDim S128 ![] bcast_S_S128 : (⟨S_, .f32⟩ : BufTy).Contents (Elt F) → (⟨S128, .f32⟩ : BufTy).Contents (Elt F)),
    binary main_v120 main_v121 main_v122 (Host.divf : (⟨S128, .f32⟩ : BufTy).Contents (Elt F) → (⟨S128, .f32⟩ : BufTy).Contents (Elt F) → (⟨S128, .f32⟩ : BufTy).Contents (Elt F)) ]

/-- The references it writes. -/
def W_c_m3_0 : List (Ref sig .tc) :=
  [main_v116, main_v117, main_v118, main_v119, main_cst_14, main_v120, main_cst_15, main_v121, main_v122]

theorem hW_c_m3_0 : WritesIn (c_m3_0 (F := Ideal)) W_c_m3_0 := by
  unfold WritesIn c_m3_0
  exact ⟨single_sub (y := main_v116) (by decide +kernel),
    single_sub (y := main_v117) (by decide +kernel),
    single_sub (y := main_v118) (by decide +kernel),
    single_sub (y := main_v119) (by decide +kernel),
    single_sub (y := main_cst_14) (by decide +kernel),
    single_sub (y := main_v120) (by decide +kernel),
    single_sub (y := main_cst_15) (by decide +kernel),
    single_sub (y := main_v121) (by decide +kernel),
    single_sub (y := main_v122) (by decide +kernel)⟩

/-- It writes no argument. -/
theorem hA_c_m3_0 : ∀ r ∈ argRefs, r ∉ W_c_m3_0 := by
  decide +kernel

/-- Layer 0, normalisation 3: every column's biased variance. -/
def c_v3_0 {F : FTy → Type} [FloatOps F] : List (HloOp τ sig (Elt F)) :=
  [ nullary main_c_16 (constantI S_ 32 0#32),
    TRef.nullary main_call5.cst (constant S_ .f32 0x00000000#32),
    TRef.binary (.of main_v115) main_call5.cst main_call5.v0 (fun x v => Host.reduceAdd x v reducesTo_S20000x128_S128_d0 h_S_),
    TRef.unary main_call5.v0 main_call5.v1 (broadcastInDim S1x128 ![1] bcast_S128_S1x128_1),
    TRef.nullary main_call5.cst_0 (constant S_ .f32 0x469C4000#32),
    TRef.unary main_call5.cst_0 main_call5.v2 (broadcastInDim S1x128 ![] bcast_S_S1x128),
    TRef.binary main_call5.v1 main_call5.v2 main_call5.v3 Host.divf,
    TRef.unary main_call5.v3 main_call5.v4 (broadcastInDim S20000x128 ![0, 1] bcast_S1x128_S20000x128_0_1),
    TRef.binary (.of main_v115) main_call5.v4 main_call5.v5 subf,
    TRef.binary main_call5.v5 main_call5.v5 main_call5.v6 mulf,
    TRef.unary (.of main_c_16) main_call5.v7 (sitofp .f32),
    TRef.nullary main_call5.cst_1 (constant S_ .f32 0x469C4000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S20000x128_S128_d0 h_S_),
    TRef.unary main_call5.v8 main_call5.v10 (broadcastInDim S128 ![] bcast_S_S128),
    TRef.binary main_call5.v9 main_call5.v10 main_call5.v11 Host.divf,
    TRef.nullary main_call5.cst_3 (constant S_ .f32 0x00000000#32),
    TRef.binary main_call5.v8 main_call5.cst_3 main_call5.v12 (cmpf .ogt),
    TRef.nullary main_call5.cst_4 (constant S_ .f32 0x7FC00000#32),
    TRef.unary main_call5.cst_4 main_call5.call0.v0 id,
    TRef.unary main_call5.call0.v0 main_call5.call0.v1 (broadcastInDim S128 ![] bcast_S_S128),
    TRef.ternary main_call5.v12 main_call5.v11 main_call5.call0.v1 main_call5.call0.v2 (fun p a b => select (broadcastInDim S128 ![] bcast_S_S128 p) a b) ]

/-- The references it writes. -/
def W_c_v3_0 : List (Ref sig .tc) :=
  [main_c_16, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v123]

theorem hW_c_v3_0 : WritesIn (c_v3_0 (F := Ideal)) W_c_v3_0 := by
  unfold WritesIn c_v3_0
  exact ⟨single_sub (y := main_c_16) (by decide +kernel),
    single_sub (y := main_call5_cst) (by decide +kernel),
    single_sub (y := main_call5_v0) (by decide +kernel),
    single_sub (y := main_call5_v1) (by decide +kernel),
    single_sub (y := main_call5_cst_0) (by decide +kernel),
    single_sub (y := main_call5_v2) (by decide +kernel),
    single_sub (y := main_call5_v3) (by decide +kernel),
    single_sub (y := main_call5_v4) (by decide +kernel),
    single_sub (y := main_call5_v5) (by decide +kernel),
    single_sub (y := main_call5_v6) (by decide +kernel),
    single_sub (y := main_call5_v7) (by decide +kernel),
    single_sub (y := main_call5_cst_1) (by decide +kernel),
    single_sub (y := main_call5_v8) (by decide +kernel),
    single_sub (y := main_call5_cst_2) (by decide +kernel),
    single_sub (y := main_call5_v9) (by decide +kernel),
    single_sub (y := main_call5_v10) (by decide +kernel),
    single_sub (y := main_call5_v11) (by decide +kernel),
    single_sub (y := main_call5_cst_3) (by decide +kernel),
    single_sub (y := main_call5_v12) (by decide +kernel),
    single_sub (y := main_call5_cst_4) (by decide +kernel),
    single_sub (y := main_call5_call0_v0) (by decide +kernel),
    single_sub (y := main_call5_call0_v1) (by decide +kernel),
    single_sub (y := main_v123) (by decide +kernel)⟩

/-- It writes no argument. -/
theorem hA_c_v3_0 : ∀ r ∈ argRefs, r ∉ W_c_v3_0 := by
  decide +kernel

/-- Layer 0, normalisation 3: normalised, scaled, shifted and rectified. -/
def c_n3_0 {F : FTy → Type} [FloatOps F] : List (HloOp τ sig (Elt F)) :=
  [ unary main_v122 main_v124 (broadcastInDim S1x128 ![1] bcast_S128_S1x128_1 : (⟨S128, .f32⟩ : BufTy).Contents (Elt F) → (⟨S1x128, .f32⟩ : BufTy).Contents (Elt F)),
    unary main_v124 main_v125 (broadcastInDim S20000x128 ![0, 1] bcast_S1x128_S20000x128_0_1 : (⟨S1x128, .f32⟩ : BufTy).Contents (Elt F) → (⟨S20000x128, .f32⟩ : BufTy).Contents (Elt F)),
    binary main_v115 main_v125 main_v126 (subf : (⟨S20000x128, .f32⟩ : BufTy).Contents (Elt F) → (⟨S20000x128, .f32⟩ : BufTy).Contents (Elt F) → (⟨S20000x128, .f32⟩ : BufTy).Contents (Elt F)),
    nullary main_cst_17 (constant S_ .f32 0x3727C5AC#32),
    unary main_cst_17 main_v127 (broadcastInDim S128 ![] bcast_S_S128 : (⟨S_, .f32⟩ : BufTy).Contents (Elt F) → (⟨S128, .f32⟩ : BufTy).Contents (Elt F)),
    binary main_v123 main_v127 main_v128 (addf : (⟨S128, .f32⟩ : BufTy).Contents (Elt F) → (⟨S128, .f32⟩ : BufTy).Contents (Elt F) → (⟨S128, .f32⟩ : BufTy).Contents (Elt F)),
    unary main_v128 main_v129 (Host.rsqrt : (⟨S128, .f32⟩ : BufTy).Contents (Elt F) → (⟨S128, .f32⟩ : BufTy).Contents (Elt F)),
    unary main_v129 main_v130 (broadcastInDim S1x128 ![1] bcast_S128_S1x128_1 : (⟨S128, .f32⟩ : BufTy).Contents (Elt F) → (⟨S1x128, .f32⟩ : BufTy).Contents (Elt F)),
    unary main_v130 main_v131 (broadcastInDim S20000x128 ![0, 1] bcast_S1x128_S20000x128_0_1 : (⟨S1x128, .f32⟩ : BufTy).Contents (Elt F) → (⟨S20000x128, .f32⟩ : BufTy).Contents (Elt F)),
    binary main_v126 main_v131 main_v132 (mulf : (⟨S20000x128, .f32⟩ : BufTy).Contents (Elt F) → (⟨S20000x128, .f32⟩ : BufTy).Contents (Elt F) → (⟨S20000x128, .f32⟩ : BufTy).Contents (Elt F)),
    unary main_v117 main_v133 (broadcastInDim S1x128 ![1] bcast_S128_S1x128_1 : (⟨S128, .f32⟩ : BufTy).Contents (Elt F) → (⟨S1x128, .f32⟩ : BufTy).Contents (Elt F)),
    unary main_v133 main_v134 (broadcastInDim S20000x128 ![0, 1] bcast_S1x128_S20000x128_0_1 : (⟨S1x128, .f32⟩ : BufTy).Contents (Elt F) → (⟨S20000x128, .f32⟩ : BufTy).Contents (Elt F)),
    binary main_v132 main_v134 main_v135 (mulf : (⟨S20000x128, .f32⟩ : BufTy).Contents (Elt F) → (⟨S20000x128, .f32⟩ : BufTy).Contents (Elt F) → (⟨S20000x128, .f32⟩ : BufTy).Contents (Elt F)),
    unary main_v119 main_v136 (broadcastInDim S1x128 ![1] bcast_S128_S1x128_1 : (⟨S128, .f32⟩ : BufTy).Contents (Elt F) → (⟨S1x128, .f32⟩ : BufTy).Contents (Elt F)),
    unary main_v136 main_v137 (broadcastInDim S20000x128 ![0, 1] bcast_S1x128_S20000x128_0_1 : (⟨S1x128, .f32⟩ : BufTy).Contents (Elt F) → (⟨S20000x128, .f32⟩ : BufTy).Contents (Elt F)),
    binary main_v135 main_v137 main_v138 (addf : (⟨S20000x128, .f32⟩ : BufTy).Contents (Elt F) → (⟨S20000x128, .f32⟩ : BufTy).Contents (Elt F) → (⟨S20000x128, .f32⟩ : BufTy).Contents (Elt F)),
    TRef.nullary main_call6.cst (constant S_ .f32 0x00000000#32),
    TRef.unary main_call6.cst main_call6.v0 (broadcastInDim S20000x128 ![] bcast_S_S20000x128),
    TRef.binary (.of main_v138) main_call6.v0 main_call6.v1 maximumf ]

/-- The references it writes. -/
def W_c_n3_0 : List (Ref sig .tc) :=
  [main_v124, main_v125, main_v126, main_cst_17, main_v127, main_v128, main_v129, main_v130, main_v131, main_v132, main_v133, main_v134, main_v135, main_v136, main_v137, main_v138, main_call6_cst, main_call6_v0, main_v139]

theorem hW_c_n3_0 : WritesIn (c_n3_0 (F := Ideal)) W_c_n3_0 := by
  unfold WritesIn c_n3_0
  exact ⟨single_sub (y := main_v124) (by decide +kernel),
    single_sub (y := main_v125) (by decide +kernel),
    single_sub (y := main_v126) (by decide +kernel),
    single_sub (y := main_cst_17) (by decide +kernel),
    single_sub (y := main_v127) (by decide +kernel),
    single_sub (y := main_v128) (by decide +kernel),
    single_sub (y := main_v129) (by decide +kernel),
    single_sub (y := main_v130) (by decide +kernel),
    single_sub (y := main_v131) (by decide +kernel),
    single_sub (y := main_v132) (by decide +kernel),
    single_sub (y := main_v133) (by decide +kernel),
    single_sub (y := main_v134) (by decide +kernel),
    single_sub (y := main_v135) (by decide +kernel),
    single_sub (y := main_v136) (by decide +kernel),
    single_sub (y := main_v137) (by decide +kernel),
    single_sub (y := main_v138) (by decide +kernel),
    single_sub (y := main_call6_cst) (by decide +kernel),
    single_sub (y := main_call6_v0) (by decide +kernel),
    single_sub (y := main_v139) (by decide +kernel)⟩

/-- It writes no argument. -/
theorem hA_c_n3_0 : ∀ r ∈ argRefs, r ∉ W_c_n3_0 := by
  decide +kernel

/-- Layer 0: the input plus the last normalisation. -/
def c_rs_0 {F : FTy → Type} [FloatOps F] : List (HloOp τ sig (Elt F)) :=
  [ binary main_v3 main_v139 main_v140 (addf : (⟨S20000x128, .f32⟩ : BufTy).Contents (Elt F) → (⟨S20000x128, .f32⟩ : BufTy).Contents (Elt F) → (⟨S20000x128, .f32⟩ : BufTy).Contents (Elt F)) ]

/-- The references it writes. -/
def W_c_rs_0 : List (Ref sig .tc) :=
  [main_v140]

theorem hW_c_rs_0 : WritesIn (c_rs_0 (F := Ideal)) W_c_rs_0 := by
  unfold WritesIn c_rs_0
  exact single_sub (y := main_v140) (by decide +kernel)

/-- It writes no argument. -/
theorem hA_c_rs_0 : ∀ r ∈ argRefs, r ∉ W_c_rs_0 := by
  decide +kernel

/-- Head 1: the node rows at both ends of every edge. -/
def c_hg_1 {F : FTy → Type} [FloatOps F] : List (HloOp τ sig (Elt F)) :=
  [ nullary main_c_18 (constantI S_ 32 0#32),
    unary main_c_18 main_v141 (broadcastInDim S320000 ![] bcast_S_S320000 : (⟨S_, .i32⟩ : BufTy).Contents (Elt F) → (⟨S320000, .i32⟩ : BufTy).Contents (Elt F)),
    binary main_arg18 main_v141 main_v142 (cmpi .slt : (⟨S320000, .i32⟩ : BufTy).Contents (Elt F) → (⟨S320000, .i32⟩ : BufTy).Contents (Elt F) → (⟨S320000, .i1⟩ : BufTy).Contents (Elt F)),
    nullary main_c_19 (constantI S_ 32 20000#32),
    unary main_c_19 main_v143 (broadcastInDim S320000 ![] bcast_S_S320000 : (⟨S_, .i32⟩ : BufTy).Contents (Elt F) → (⟨S320000, .i32⟩ : BufTy).Contents (Elt F)),
    binary main_arg18 main_v143 main_v144 (addi : (⟨S320000, .i32⟩ : BufTy).Contents (Elt F) → (⟨S320000, .i32⟩ : BufTy).Contents (Elt F) → (⟨S320000, .i32⟩ : BufTy).Contents (Elt F)),
    ternary main_v142 main_v144 main_arg18 main_v145 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v145 main_v146 (broadcastInDim S320000x1 ![0] bcast_S320000_S320000x1_0 : (⟨S320000, .i32⟩ : BufTy).Contents (Elt F) → (⟨S320000x1, .i32⟩ : BufTy).Contents (Elt F)),
    binary main_v140 main_v146 main_v147 ((fun x i => Host.gather gather_S20000x128_S320000x1_S320000x128_1_0_n_n_0_1_1128 x i) : (⟨S20000x128, .f32⟩ : BufTy).Contents (Elt F) → (⟨S320000x1, .i32⟩ : BufTy).Contents (Elt F) → (⟨S320000x128, .f32⟩ : BufTy).Contents (Elt F)),
    nullary main_c_20 (constantI S_ 32 0#32),
    unary main_c_20 main_v148 (broadcastInDim S320000 ![] bcast_S_S320000 : (⟨S_, .i32⟩ : BufTy).Contents (Elt F) → (⟨S320000, .i32⟩ : BufTy).Contents (Elt F)),
    binary main_arg19 main_v148 main_v149 (cmpi .slt : (⟨S320000, .i32⟩ : BufTy).Contents (Elt F) → (⟨S320000, .i32⟩ : BufTy).Contents (Elt F) → (⟨S320000, .i1⟩ : BufTy).Contents (Elt F)),
    nullary main_c_21 (constantI S_ 32 20000#32),
    unary main_c_21 main_v150 (broadcastInDim S320000 ![] bcast_S_S320000 : (⟨S_, .i32⟩ : BufTy).Contents (Elt F) → (⟨S320000, .i32⟩ : BufTy).Contents (Elt F)),
    binary main_arg19 main_v150 main_v151 (addi : (⟨S320000, .i32⟩ : BufTy).Contents (Elt F) → (⟨S320000, .i32⟩ : BufTy).Contents (Elt F) → (⟨S320000, .i32⟩ : BufTy).Contents (Elt F)),
    ternary main_v149 main_v151 main_arg19 main_v152 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v152 main_v153 (broadcastInDim S320000x1 ![0] bcast_S320000_S320000x1_0 : (⟨S320000, .i32⟩ : BufTy).Contents (Elt F) → (⟨S320000x1, .i32⟩ : BufTy).Contents (Elt F)),
    binary main_v140 main_v153 main_v154 ((fun x i => Host.gather gather_S20000x128_S320000x1_S320000x128_1_0_n_n_0_1_1128 x i) : (⟨S20000x128, .f32⟩ : BufTy).Contents (Elt F) → (⟨S320000x1, .i32⟩ : BufTy).Contents (Elt F) → (⟨S320000x128, .f32⟩ : BufTy).Contents (Elt F)) ]

/-- The references it writes. -/
def W_c_hg_1 : List (Ref sig .tc) :=
  [main_c_18, main_v141, main_v142, main_c_19, main_v143, main_v144, main_v145, main_v146, main_v147, main_c_20, main_v148, main_v149, main_c_21, main_v150, main_v151, main_v152, main_v153, main_v154]

theorem hW_c_hg_1 : WritesIn (c_hg_1 (F := Ideal)) W_c_hg_1 := by
  unfold WritesIn c_hg_1
  exact ⟨single_sub (y := main_c_18) (by decide +kernel),
    single_sub (y := main_v141) (by decide +kernel),
    single_sub (y := main_v142) (by decide +kernel),
    single_sub (y := main_c_19) (by decide +kernel),
    single_sub (y := main_v143) (by decide +kernel),
    single_sub (y := main_v144) (by decide +kernel),
    single_sub (y := main_v145) (by decide +kernel),
    single_sub (y := main_v146) (by decide +kernel),
    single_sub (y := main_v147) (by decide +kernel),
    single_sub (y := main_c_20) (by decide +kernel),
    single_sub (y := main_v148) (by decide +kernel),
    single_sub (y := main_v149) (by decide +kernel),
    single_sub (y := main_c_21) (by decide +kernel),
    single_sub (y := main_v150) (by decide +kernel),
    single_sub (y := main_v151) (by decide +kernel),
    single_sub (y := main_v152) (by decide +kernel),
    single_sub (y := main_v153) (by decide +kernel),
    single_sub (y := main_v154) (by decide +kernel)⟩

/-- It writes no argument. -/
theorem hA_c_hg_1 : ∀ r ∈ argRefs, r ∉ W_c_hg_1 := by
  decide +kernel

/-- Head 1: the joined rows' score. -/
def c_hs_1 {F : FTy → Type} [FloatOps F] : List (HloOp τ sig (Elt F)) :=
  [ binary main_v147 main_v154 main_v155 ((fun a b => concatenate S320000x256 1 [⟨S320000x128, a⟩, ⟨S320000x128, b⟩] concatenates_S320000x128_S320000x128_S320000x256_d1) : (⟨S320000x128, .f32⟩ : BufTy).Contents (Elt F) → (⟨S320000x128, .f32⟩ : BufTy).Contents (Elt F) → (⟨S320000x256, .f32⟩ : BufTy).Contents (Elt F)),
    unary main_arg14 main_v156 ((extractStridedSlice S1x256x128 ![1, 0, 0] · slices_S5x256x128_S1x256x128_1_0_0) : (⟨S5x256x128, .f32⟩ : BufTy).Contents (Elt F) → (⟨S1x256x128, .f32⟩ : BufTy).Contents (Elt F)),
    reshape main_v156 main_v157 rfl shapeCasts_S1x256x128_S256x128,
    binary main_v155 main_v157 main_v158 ((fun l r => Host.dotGeneral dot_S320000x256_S256x128_S320000x128_1_0_0_1_n_n none l r) : (⟨S320000x256, .f32⟩ : BufTy).Contents (Elt F) → (⟨S256x128, .f32⟩ : BufTy).Contents (Elt F) → (⟨S320000x128, .f32⟩ : BufTy).Contents (Elt F)),
    unary main_arg15 main_v159 ((extractStridedSlice S1x128 ![1, 0] · slices_S5x128_S1x128_1_0) : (⟨S5x128, .f32⟩ : BufTy).Contents (Elt F) → (⟨S1x128, .f32⟩ : BufTy).Contents (Elt F)),
    reshape main_v159 main_v160 rfl shapeCasts_S1x128_S128,
    unary main_v160 main_v161 (broadcastInDim S1x128 ![1] bcast_S128_S1x128_1 : (⟨S128, .f32⟩ : BufTy).Contents (Elt F) → (⟨S1x128, .f32⟩ : BufTy).Contents (Elt F)),
    unary main_v161 main_v162 (broadcastInDim S320000x128 ![0, 1] bcast_S1x128_S320000x128_0_1 : (⟨S1x128, .f32⟩ : BufTy).Contents (Elt F) → (⟨S320000x128, .f32⟩ : BufTy).Contents (Elt F)),
    binary main_v158 main_v162 main_v163 (addf : (⟨S320000x128, .f32⟩ : BufTy).Contents (Elt F) → (⟨S320000x128, .f32⟩ : BufTy).Contents (Elt F) → (⟨S320000x128, .f32⟩ : BufTy).Contents (Elt F)),
    TRef.nullary main_call7.cst (constant S_ .f32 0x00000000#32),
    TRef.unary main_call7.cst main_call7.v0 (broadcastInDim S320000x128 ![] bcast_S_S320000x128),
    TRef.binary (.of main_v163) main_call7.v0 main_call7.v1 maximumf,
    unary main_arg16 main_v165 ((extractStridedSlice S1x128x2 ![1, 0, 0] · slices_S5x128x2_S1x128x2_1_0_0) : (⟨S5x128x2, .f32⟩ : BufTy).Contents (Elt F) → (⟨S1x128x2, .f32⟩ : BufTy).Contents (Elt F)),
    reshape main_v165 main_v166 rfl shapeCasts_S1x128x2_S128x2,
    binary main_v164 main_v166 main_v167 ((fun l r => Host.dotGeneral dot_S320000x128_S128x2_S320000x2_1_0_0_1_n_n none l r) : (⟨S320000x128, .f32⟩ : BufTy).Contents (Elt F) → (⟨S128x2, .f32⟩ : BufTy).Contents (Elt F) → (⟨S320000x2, .f32⟩ : BufTy).Contents (Elt F)),
    unary main_arg17 main_v168 ((extractStridedSlice S1x2 ![1, 0] · slices_S5x2_S1x2_1_0) : (⟨S5x2, .f32⟩ : BufTy).Contents (Elt F) → (⟨S1x2, .f32⟩ : BufTy).Contents (Elt F)),
    reshape main_v168 main_v169 rfl shapeCasts_S1x2_S2,
    unary main_v169 main_v170 (broadcastInDim S1x2 ![1] bcast_S2_S1x2_1 : (⟨S2, .f32⟩ : BufTy).Contents (Elt F) → (⟨S1x2, .f32⟩ : BufTy).Contents (Elt F)),
    unary main_v170 main_v171 (broadcastInDim S320000x2 ![0, 1] bcast_S1x2_S320000x2_0_1 : (⟨S1x2, .f32⟩ : BufTy).Contents (Elt F) → (⟨S320000x2, .f32⟩ : BufTy).Contents (Elt F)),
    binary main_v167 main_v171 main_v172 (addf : (⟨S320000x2, .f32⟩ : BufTy).Contents (Elt F) → (⟨S320000x2, .f32⟩ : BufTy).Contents (Elt F) → (⟨S320000x2, .f32⟩ : BufTy).Contents (Elt F)) ]

/-- The references it writes. -/
def W_c_hs_1 : List (Ref sig .tc) :=
  [main_v155, main_v156, main_v157, main_v158, main_v159, main_v160, main_v161, main_v162, main_v163, main_call7_cst, main_call7_v0, main_v164, main_v165, main_v166, main_v167, main_v168, main_v169, main_v170, main_v171, main_v172]

theorem hW_c_hs_1 : WritesIn (c_hs_1 (F := Ideal)) W_c_hs_1 := by
  unfold WritesIn c_hs_1
  exact ⟨single_sub (y := main_v155) (by decide +kernel),
    single_sub (y := main_v156) (by decide +kernel),
    single_sub (y := main_v157) (by decide +kernel),
    single_sub (y := main_v158) (by decide +kernel),
    single_sub (y := main_v159) (by decide +kernel),
    single_sub (y := main_v160) (by decide +kernel),
    single_sub (y := main_v161) (by decide +kernel),
    single_sub (y := main_v162) (by decide +kernel),
    single_sub (y := main_v163) (by decide +kernel),
    single_sub (y := main_call7_cst) (by decide +kernel),
    single_sub (y := main_call7_v0) (by decide +kernel),
    single_sub (y := main_v164) (by decide +kernel),
    single_sub (y := main_v165) (by decide +kernel),
    single_sub (y := main_v166) (by decide +kernel),
    single_sub (y := main_v167) (by decide +kernel),
    single_sub (y := main_v168) (by decide +kernel),
    single_sub (y := main_v169) (by decide +kernel),
    single_sub (y := main_v170) (by decide +kernel),
    single_sub (y := main_v171) (by decide +kernel),
    single_sub (y := main_v172) (by decide +kernel)⟩

/-- It writes no argument. -/
theorem hA_c_hs_1 : ∀ r ∈ argRefs, r ∉ W_c_hs_1 := by
  decide +kernel

/-- The running score plus head 1's. -/
def c_ad_1 {F : FTy → Type} [FloatOps F] : List (HloOp τ sig (Elt F)) :=
  [ binary main_v35 main_v172 main_v173 (addf : (⟨S320000x2, .f32⟩ : BufTy).Contents (Elt F) → (⟨S320000x2, .f32⟩ : BufTy).Contents (Elt F) → (⟨S320000x2, .f32⟩ : BufTy).Contents (Elt F)) ]

/-- The references it writes. -/
def W_c_ad_1 : List (Ref sig .tc) :=
  [main_v173]

theorem hW_c_ad_1 : WritesIn (c_ad_1 (F := Ideal)) W_c_ad_1 := by
  unfold WritesIn c_ad_1
  exact single_sub (y := main_v173) (by decide +kernel)

/-- It writes no argument. -/
theorem hA_c_ad_1 : ∀ r ∈ argRefs, r ∉ W_c_ad_1 := by
  decide +kernel

end Cert.RChain

end
-- ==== Proof.RChainS0.lean ====
/-
  Layer 0, head 1 and the score's sum, stretch by stretch: what each stretch leaves in the buffers later stretches
  read, as a function of what it found in the buffers it reads.
-/
import proofs.«416875_j80633716015165_3_alg».proof.Proof.RChainArr
import proofs.«416875_j80633716015165_3_alg».proof.Proof.RChainChunks0

noncomputable section

open Idealize.ShloMosaic Idealize.ShloMosaic.ValueIdx Idealize.SL.Sem
open Cert.ReferenceIdeal Cert.ReferenceIdeal.Facts₀
open Idealize.ShloMosaic.StableHlo

namespace Cert.RChain

/-- The neighbour sums of the layer's input. -/
theorem ng_0 (W : Valuation τ sig (Elt Ideal)) {x : Fin 20000 → Fin 128 → EReal} (hx : W (Proc.devRef .tc main_v3) = M.mk2 x) :
    after c_ng_0 W (Proc.devRef .tc main_v45) = M.mk2 (M.neigh x (inputsR W).src (inputsR W).dst) := by
  unfold c_ng_0
  after_results
  rw [hx]
  exact neigh_read x _ _

/-- The first linear map. -/
theorem l1_0 (W : Valuation τ sig (Elt Ideal)) {x ng : Fin 20000 → Fin 128 → EReal} (hx : W (Proc.devRef .tc main_v3) = M.mk2 x)
    (hng : W (Proc.devRef .tc main_v45) = M.mk2 ng) :
    after c_l1_0 W (Proc.devRef .tc main_v59)
      = M.mk2 (M.lin x ng ((inputsR W).eps (0 : Fin 4)) ((inputsR W).mlp_w1 (0 : Fin 4)) ((inputsR W).mlp_b1 (0 : Fin 4))) := by
  unfold c_l1_0
  after_results
  rw [hx, hng]
  exact lin_member x ng _ _ _ 0 (by decide : 0 < 4) _ _ _

/-- Normalisation 1: its scale. -/
theorem m1g_0 (W : Valuation τ sig (Elt Ideal)) :
    after c_m1_0 W (Proc.devRef .tc main_v61) = M.mk1 ((inputsR W).mlp_bn_g (0 : Fin 4)) := by
  unfold c_m1_0
  after_results
  exact vec_member _ 0 (by decide : 0 < 4) _

/-- Normalisation 1: its shift. -/
theorem m1b_0 (W : Valuation τ sig (Elt Ideal)) :
    after c_m1_0 W (Proc.devRef .tc main_v63) = M.mk1 ((inputsR W).mlp_bn_b (0 : Fin 4)) := by
  unfold c_m1_0
  after_results
  exact vec_member _ 0 (by decide : 0 < 4) _

/-- Normalisation 1: every column's mean. -/
theorem m1m_0 (W : Valuation τ sig (Elt Ideal)) {a : Fin 20000 → Fin 128 → EReal} (ha : W (Proc.devRef .tc main_v59) = M.mk2 a) :
    after c_m1_0 W (Proc.devRef .tc main_v66) = M.mk1 (M.meanR a) := by
  unfold c_m1_0
  after_results
  rw [ha]
  exact RStage.mean_eq (M.mk2 a)

attribute [local irreducible] Host.reduceAdd in
set_option maxHeartbeats 4000000 in
/-- Normalisation 1: every column's biased variance. -/
theorem v1_0 (W : Valuation τ sig (Elt Ideal)) {a : Fin 20000 → Fin 128 → EReal} (ha : W (Proc.devRef .tc main_v59) = M.mk2 a) :
    after c_v1_0 W (Proc.devRef .tc main_v67) = M.mk1 (M.varR a) := by
  unfold c_v1_0
  first
  | (after_results_simp; (try simp only [TRef.ofBuf, TRef.toBuf, cast_cast, cast_eq]); rw [ha]; exact RStage.var_eq (M.mk2 a))
  | (refine Eq.trans ?_ ((RStage.var_eq (W (Proc.devRef .tc main_v59))).trans (by rw [ha]; rfl)); simp only [after_cons, after_nil]; rfl)

set_option maxHeartbeats 1600000 in
/-- Normalisation 1: normalised, scaled, shifted, rectified. -/
theorem n1_0 (W : Valuation τ sig (Elt Ideal)) {a : Fin 20000 → Fin 128 → EReal} {m v g b : Fin 128 → EReal}
    (ha : W (Proc.devRef .tc main_v59) = M.mk2 a) (hm : W (Proc.devRef .tc main_v66) = M.mk1 m) (hv : W (Proc.devRef .tc main_v67) = M.mk1 v)
    (hg : W (Proc.devRef .tc main_v61) = M.mk1 g) (hb : W (Proc.devRef .tc main_v63) = M.mk1 b) :
    after c_n1_0 W (Proc.devRef .tc main_v83) = M.mk2 (M.bnrelu a m v g b) := by
  unfold c_n1_0
  first
  | (after_results_simp; (try simp only [TRef.ofBuf, TRef.toBuf, cast_cast, cast_eq]); rw [ha, hm, hv, hg, hb]; exact RStage.bnrelu_eq (M.mk2 a) (M.mk1 m) (M.mk1 v) (M.mk1 g) (M.mk1 b))
  | (refine Eq.trans ?_ ((RStage.bnrelu_eq (W (Proc.devRef .tc main_v59)) (W (Proc.devRef .tc main_v66)) (W (Proc.devRef .tc main_v67)) (W (Proc.devRef .tc main_v61)) (W (Proc.devRef .tc main_v63))).trans (by rw [ha, hm, hv, hg, hb]; rfl)); simp only [after_cons, after_nil]; rfl)

/-- The second linear map. -/
theorem l2_0 (W : Valuation τ sig (Elt Ideal)) {z : Fin 20000 → Fin 128 → EReal} (hz : W (Proc.devRef .tc main_v83) = M.mk2 z) :
    after c_l2_0 W (Proc.devRef .tc main_v91) = M.mk2 (M.affine z ((inputsR W).mlp_w2 (0 : Fin 4)) ((inputsR W).mlp_b2 (0 : Fin 4))) := by
  unfold c_l2_0
  after_results
  rw [hz]
  exact affine_member z _ _ 0 (by decide : 0 < 4) _ _

/-- Normalisation 2: its scale. -/
theorem m2g_0 (W : Valuation τ sig (Elt Ideal)) :
    after c_m2_0 W (Proc.devRef .tc main_v93) = M.mk1 ((inputsR W).app_bn_g (0 : Fin 4)) := by
  unfold c_m2_0
  after_results
  exact vec_member _ 0 (by decide : 0 < 4) _

/-- Normalisation 2: its shift. -/
theorem m2b_0 (W : Valuation τ sig (Elt Ideal)) :
    after c_m2_0 W (Proc.devRef .tc main_v95) = M.mk1 ((inputsR W).app_bn_b (0 : Fin 4)) := by
  unfold c_m2_0
  after_results
  exact vec_member _ 0 (by decide : 0 < 4) _

/-- Normalisation 2: every column's mean. -/
theorem m2m_0 (W : Valuation τ sig (Elt Ideal)) {a : Fin 20000 → Fin 128 → EReal} (ha : W (Proc.devRef .tc main_v91) = M.mk2 a) :
    after c_m2_0 W (Proc.devRef .tc main_v98) = M.mk1 (M.meanR a) := by
  unfold c_m2_0
  after_results
  rw [ha]
  exact RStage.mean_eq (M.mk2 a)

attribute [local irreducible] Host.reduceAdd in
set_option maxHeartbeats 4000000 in
/-- Normalisation 2: every column's biased variance. -/
theorem v2_0 (W : Valuation τ sig (Elt Ideal)) {a : Fin 20000 → Fin 128 → EReal} (ha : W (Proc.devRef .tc main_v91) = M.mk2 a) :
    after c_v2_0 W (Proc.devRef .tc main_v99) = M.mk1 (M.varR a) := by
  unfold c_v2_0
  first
  | (after_results_simp; (try simp only [TRef.ofBuf, TRef.toBuf, cast_cast, cast_eq]); rw [ha]; exact RStage.var_eq (M.mk2 a))
  | (refine Eq.trans ?_ ((RStage.var_eq (W (Proc.devRef .tc main_v91))).trans (by rw [ha]; rfl)); simp only [after_cons, after_nil]; rfl)

set_option maxHeartbeats 1600000 in
/-- Normalisation 2: normalised, scaled, shifted, rectified. -/
theorem n2_0 (W : Valuation τ sig (Elt Ideal)) {a : Fin 20000 → Fin 128 → EReal} {m v g b : Fin 128 → EReal}
    (ha : W (Proc.devRef .tc main_v91) = M.mk2 a) (hm : W (Proc.devRef .tc main_v98) = M.mk1 m) (hv : W (Proc.devRef .tc main_v99) = M.mk1 v)
    (hg : W (Proc.devRef .tc main_v93) = M.mk1 g) (hb : W (Proc.devRef .tc main_v95) = M.mk1 b) :
    after c_n2_0 W (Proc.devRef .tc main_v115) = M.mk2 (M.bnrelu a m v g b) := by
  unfold c_n2_0
  first
  | (after_results_simp; (try simp only [TRef.ofBuf, TRef.toBuf, cast_cast, cast_eq]); rw [ha, hm, hv, hg, hb]; exact RStage.bnrelu_eq (M.mk2 a) (M.mk1 m) (M.mk1 v) (M.mk1 g) (M.mk1 b))
  | (refine Eq.trans ?_ ((RStage.bnrelu_eq (W (Proc.devRef .tc main_v91)) (W (Proc.devRef .tc main_v98)) (W (Proc.devRef .tc main_v99)) (W (Proc.devRef .tc main_v93)) (W (Proc.devRef .tc main_v95))).trans (by rw [ha, hm, hv, hg, hb]; rfl)); simp only [after_cons, after_nil]; rfl)

/-- Normalisation 3: its scale. -/
theorem m3g_0 (W : Valuation τ sig (Elt Ideal)) :
    after c_m3_0 W (Proc.devRef .tc main_v117) = M.mk1 ((inputsR W).gin_bn_g (0 : Fin 4)) := by
  unfold c_m3_0
  after_results
  exact vec_member _ 0 (by decide : 0 < 4) _

/-- Normalisation 3: its shift. -/
theorem m3b_0 (W : Valuation τ sig (Elt Ideal)) :
    after c_m3_0 W (Proc.devRef .tc main_v119) = M.mk1 ((inputsR W).gin_bn_b (0 : Fin 4)) := by
  unfold c_m3_0
  after_results
  exact vec_member _ 0 (by decide : 0 < 4) _

/-- Normalisation 3: every column's mean. -/
theorem m3m_0 (W : Valuation τ sig (Elt Ideal)) {a : Fin 20000 → Fin 128 → EReal} (ha : W (Proc.devRef .tc main_v115) = M.mk2 a) :
    after c_m3_0 W (Proc.devRef .tc main_v122) = M.mk1 (M.meanR a) := by
  unfold c_m3_0
  after_results
  rw [ha]
  exact RStage.mean_eq (M.mk2 a)

attribute [local irreducible] Host.reduceAdd in
set_option maxHeartbeats 4000000 in
/-- Normalisation 3: every column's biased variance. -/
theorem v3_0 (W : Valuation τ sig (Elt Ideal)) {a : Fin 20000 → Fin 128 → EReal} (ha : W (Proc.devRef .tc main_v115) = M.mk2 a) :
    after c_v3_0 W (Proc.devRef .tc main_v123) = M.mk1 (M.varR a) := by
  unfold c_v3_0
  first
  | (after_results_simp; (try simp only [TRef.ofBuf, TRef.toBuf, cast_cast, cast_eq]); rw [ha]; exact RStage.var_eq (M.mk2 a))
  | (refine Eq.trans ?_ ((RStage.var_eq (W (Proc.devRef .tc main_v115))).trans (by rw [ha]; rfl)); simp only [after_cons, after_nil]; rfl)

set_option maxHeartbeats 1600000 in
/-- Normalisation 3: normalised, scaled, shifted, rectified. -/
theorem n3_0 (W : Valuation τ sig (Elt Ideal)) {a : Fin 20000 → Fin 128 → EReal} {m v g b : Fin 128 → EReal}
    (ha : W (Proc.devRef .tc main_v115) = M.mk2 a) (hm : W (Proc.devRef .tc main_v122) = M.mk1 m) (hv : W (Proc.devRef .tc main_v123) = M.mk1 v)
    (hg : W (Proc.devRef .tc main_v117) = M.mk1 g) (hb : W (Proc.devRef .tc main_v119) = M.mk1 b) :
    after c_n3_0 W (Proc.devRef .tc main_v139) = M.mk2 (M.bnrelu a m v g b) := by
  unfold c_n3_0
  first
  | (after_results_simp; (try simp only [TRef.ofBuf, TRef.toBuf, cast_cast, cast_eq]); rw [ha, hm, hv, hg, hb]; exact RStage.bnrelu_eq (M.mk2 a) (M.mk1 m) (M.mk1 v) (M.mk1 g) (M.mk1 b))
  | (refine Eq.trans ?_ ((RStage.bnrelu_eq (W (Proc.devRef .tc main_v115)) (W (Proc.devRef .tc main_v122)) (W (Proc.devRef .tc main_v123)) (W (Proc.devRef .tc main_v117)) (W (Proc.devRef .tc main_v119))).trans (by rw [ha, hm, hv, hg, hb]; rfl)); simp only [after_cons, after_nil]; rfl)

/-- The layer's output: its input plus the last normalisation. -/
theorem rs_0 (W : Valuation τ sig (Elt Ideal)) {x z : Fin 20000 → Fin 128 → EReal} (hx : W (Proc.devRef .tc main_v3) = M.mk2 x)
    (hz : W (Proc.devRef .tc main_v139) = M.mk2 z) :
    after c_rs_0 W (Proc.devRef .tc main_v140) = M.mk2 (fun r j => x r j + z r j) := by
  unfold c_rs_0
  after_results
  rw [hx, hz]
  rfl

set_option maxHeartbeats 1600000 in
/-- The head's rows at the edges' source words. -/
theorem hgs_1 (W : Valuation τ sig (Elt Ideal)) {x : Fin 20000 → Fin 128 → EReal} (hx : W (Proc.devRef .tc main_v140) = M.mk2 x) :
    after c_hg_1 W (Proc.devRef .tc main_v147) = M.mk2 (M.rows x (inputsR W).src) := by
  unfold c_hg_1
  after_results_simp
  try simp only [TRef.ofBuf, TRef.toBuf, cast_cast, cast_eq]
  rw [hx]
  exact rows_read x _

set_option maxHeartbeats 1600000 in
/-- The head's rows at the edges' target words. -/
theorem hgd_1 (W : Valuation τ sig (Elt Ideal)) {x : Fin 20000 → Fin 128 → EReal} (hx : W (Proc.devRef .tc main_v140) = M.mk2 x) :
    after c_hg_1 W (Proc.devRef .tc main_v154) = M.mk2 (M.rows x (inputsR W).dst) := by
  unfold c_hg_1
  after_results_simp
  try simp only [TRef.ofBuf, TRef.toBuf, cast_cast, cast_eq]
  rw [hx]
  exact rows_read x _

set_option maxHeartbeats 1600000 in
/-- The head's score from the two gathered arrays. -/
theorem hs_1 (W : Valuation τ sig (Elt Ideal)) {xs xd : Fin 320000 → Fin 128 → EReal} (h₁ : W (Proc.devRef .tc main_v147) = M.mk2 xs)
    (h₂ : W (Proc.devRef .tc main_v154) = M.mk2 xd) :
    after c_hs_1 W (Proc.devRef .tc main_v172)
      = M.mk2 (M.headR xs xd ((inputsR W).pred_w1 (1 : Fin 5)) ((inputsR W).pred_b1 (1 : Fin 5)) ((inputsR W).pred_w2 (1 : Fin 5))
          ((inputsR W).pred_b2 (1 : Fin 5))) := by
  unfold c_hs_1
  after_results_simp
  try simp only [TRef.ofBuf, TRef.toBuf, cast_cast, cast_eq]
  rw [h₁, h₂]
  exact head_member xs xd _ _ _ _ 1 (by decide : 1 < 5) _ _ _ _

/-- The running score plus the head's. -/
theorem ad_1 (W : Valuation τ sig (Elt Ideal)) {s h : Fin 320000 → Fin 2 → EReal} (hs : W (Proc.devRef .tc main_v35) = M.mk2 s)
    (hh : W (Proc.devRef .tc main_v172) = M.mk2 h) :
    after c_ad_1 W (Proc.devRef .tc main_v173) = M.mk2 (fun e c => s e c + h e c) := by
  unfold c_ad_1
  after_results
  rw [hs, hh]
  rfl

end Cert.RChain

end
-- ==== Proof.RChainU0.lean ====
/-
  Layer 0, head 1 and the score's sum as one step: from the layer's input and the running score to the layer's output
  and the score with the head's added, the arguments kept.
-/
import proofs.«416875_j80633716015165_3_alg».proof.Proof.RChainS0

noncomputable section

open Idealize.ShloMosaic Idealize.ShloMosaic.ValueIdx Idealize.SL.Sem
open Cert.ReferenceIdeal Cert.ReferenceIdeal.Facts₀
open Idealize.ShloMosaic.StableHlo

namespace Cert.RChain

/-- Layer 0, head 1 and the score's sum, in order. -/
def U_0 : List (HloOp τ sig (Elt Ideal)) :=
  c_ng_0 ++ (c_l1_0 ++ (c_m1_0 ++ (c_v1_0 ++ (c_n1_0 ++ (c_l2_0 ++ (c_m2_0 ++ (c_v2_0 ++ (c_n2_0 ++ (c_m3_0 ++ (c_v3_0 ++ (c_n3_0 ++ (c_rs_0 ++ (c_hg_1 ++ (c_hs_1 ++ (c_ad_1)))))))))))))))

/-- The references they write. -/
def WU_0 : List (Ref sig .tc) :=
  W_c_ng_0 ++ (W_c_l1_0 ++ (W_c_m1_0 ++ (W_c_v1_0 ++ (W_c_n1_0 ++ (W_c_l2_0 ++ (W_c_m2_0 ++ (W_c_v2_0 ++ (W_c_n2_0 ++ (W_c_m3_0 ++ (W_c_v3_0 ++ (W_c_n3_0 ++ (W_c_rs_0 ++ (W_c_hg_1 ++ (W_c_hs_1 ++ (W_c_ad_1)))))))))))))))

theorem hWU_0 : WritesIn U_0 WU_0 :=
  hW_c_ng_0.append (hW_c_l1_0.append (hW_c_m1_0.append (hW_c_v1_0.append (hW_c_n1_0.append (hW_c_l2_0.append (hW_c_m2_0.append (hW_c_v2_0.append (hW_c_n2_0.append (hW_c_m3_0.append (hW_c_v3_0.append (hW_c_n3_0.append (hW_c_rs_0.append (hW_c_hg_1.append (hW_c_hs_1.append (hW_c_ad_1)))))))))))))))

set_option maxHeartbeats 1000000 in
/-- From the layer's input and the running score: the layer's output and the score with head 1 added; the arguments
    are kept. -/
theorem unit_0 {V W : Valuation τ sig (Elt Ideal)} {x : Fin 20000 → Fin 128 → EReal} {s : Fin 320000 → Fin 2 → EReal}
    (a : ArgsAre V W) (hx : W (Proc.devRef .tc main_v3) = M.mk2 x) (hs : W (Proc.devRef .tc main_v35) = M.mk2 s) :
    ArgsAre V (after U_0 W)
      ∧ after U_0 W (Proc.devRef .tc main_v140) = M.mk2 (M.layerI (inputsR V) (0 : Fin 4) x)
      ∧ after U_0 W (Proc.devRef .tc main_v173)
          = M.mk2 (fun e c => s e c + M.headI (inputsR V) (1 : Fin 5) (M.layerI (inputsR V) (0 : Fin 4) x) e c) := by
  have h1_v45 := ng_0 _ hx
  rw [a.inputs] at h1_v45
  have h1_v3 := (hW_c_ng_0.frame (r := main_v3) (by decide +kernel) _).trans hx
  have h1_v35 := (hW_c_ng_0.frame (r := main_v35) (by decide +kernel) _).trans hs
  have a1 := a.step hW_c_ng_0 hA_c_ng_0
  have h2_v59 := l1_0 _ h1_v3 h1_v45
  rw [a1.inputs] at h2_v59
  have h2_v3 := (hW_c_l1_0.frame (r := main_v3) (by decide +kernel) _).trans h1_v3
  have h2_v35 := (hW_c_l1_0.frame (r := main_v35) (by decide +kernel) _).trans h1_v35
  have a2 := a1.step hW_c_l1_0 hA_c_l1_0
  have h3_v61 := m1g_0 (after c_l1_0 (after c_ng_0 W))
  rw [a2.inputs] at h3_v61
  have h3_v63 := m1b_0 (after c_l1_0 (after c_ng_0 W))
  rw [a2.inputs] at h3_v63
  have h3_v66 := m1m_0 _ h2_v59
  have h3_v3 := (hW_c_m1_0.frame (r := main_v3) (by decide +kernel) _).trans h2_v3
  have h3_v35 := (hW_c_m1_0.frame (r := main_v35) (by decide +kernel) _).trans h2_v35
  have h3_v59 := (hW_c_m1_0.frame (r := main_v59) (by decide +kernel) _).trans h2_v59
  have a3 := a2.step hW_c_m1_0 hA_c_m1_0
  have h4_v67 := v1_0 _ h3_v59
  have h4_v3 := (hW_c_v1_0.frame (r := main_v3) (by decide +kernel) _).trans h3_v3
  have h4_v35 := (hW_c_v1_0.frame (r := main_v35) (by decide +kernel) _).trans h3_v35
  have h4_v59 := (hW_c_v1_0.frame (r := main_v59) (by decide +kernel) _).trans h3_v59
  have h4_v61 := (hW_c_v1_0.frame (r := main_v61) (by decide +kernel) _).trans h3_v61
  have h4_v63 := (hW_c_v1_0.frame (r := main_v63) (by decide +kernel) _).trans h3_v63
  have h4_v66 := (hW_c_v1_0.frame (r := main_v66) (by decide +kernel) _).trans h3_v66
  have a4 := a3.step hW_c_v1_0 hA_c_v1_0
  have h5_v83 := n1_0 _ h4_v59 h4_v66 h4_v67 h4_v61 h4_v63
  have h5_v3 := (hW_c_n1_0.frame (r := main_v3) (by decide +kernel) _).trans h4_v3
  have h5_v35 := (hW_c_n1_0.frame (r := main_v35) (by decide +kernel) _).trans h4_v35
  have a5 := a4.step hW_c_n1_0 hA_c_n1_0
  have h6_v91 := l2_0 _ h5_v83
  rw [a5.inputs] at h6_v91
  have h6_v3 := (hW_c_l2_0.frame (r := main_v3) (by decide +kernel) _).trans h5_v3
  have h6_v35 := (hW_c_l2_0.frame (r := main_v35) (by decide +kernel) _).trans h5_v35
  have a6 := a5.step hW_c_l2_0 hA_c_l2_0
  have h7_v93 := m2g_0 (after c_l2_0 (after c_n1_0 (after c_v1_0 (after c_m1_0 (after c_l1_0 (after c_ng_0 W))))))
  rw [a6.inputs] at h7_v93
  have h7_v95 := m2b_0 (after c_l2_0 (after c_n1_0 (after c_v1_0 (after c_m1_0 (after c_l1_0 (after c_ng_0 W))))))
  rw [a6.inputs] at h7_v95
  have h7_v98 := m2m_0 _ h6_v91
  have h7_v3 := (hW_c_m2_0.frame (r := main_v3) (by decide +kernel) _).trans h6_v3
  have h7_v35 := (hW_c_m2_0.frame (r := main_v35) (by decide +kernel) _).trans h6_v35
  have h7_v91 := (hW_c_m2_0.frame (r := main_v91) (by decide +kernel) _).trans h6_v91
  have a7 := a6.step hW_c_m2_0 hA_c_m2_0
  have h8_v99 := v2_0 _ h7_v91
  have h8_v3 := (hW_c_v2_0.frame (r := main_v3) (by decide +kernel) _).trans h7_v3
  have h8_v35 := (hW_c_v2_0.frame (r := main_v35) (by decide +kernel) _).trans h7_v35
  have h8_v91 := (hW_c_v2_0.frame (r := main_v91) (by decide +kernel) _).trans h7_v91
  have h8_v93 := (hW_c_v2_0.frame (r := main_v93) (by decide +kernel) _).trans h7_v93
  have h8_v95 := (hW_c_v2_0.frame (r := main_v95) (by decide +kernel) _).trans h7_v95
  have h8_v98 := (hW_c_v2_0.frame (r := main_v98) (by decide +kernel) _).trans h7_v98
  have a8 := a7.step hW_c_v2_0 hA_c_v2_0
  have h9_v115 := n2_0 _ h8_v91 h8_v98 h8_v99 h8_v93 h8_v95
  have h9_v3 := (hW_c_n2_0.frame (r := main_v3) (by decide +kernel) _).trans h8_v3
  have h9_v35 := (hW_c_n2_0.frame (r := main_v35) (by decide +kernel) _).trans h8_v35
  have a9 := a8.step hW_c_n2_0 hA_c_n2_0
  have h10_v117 := m3g_0 (after c_n2_0 (after c_v2_0 (after c_m2_0 (after c_l2_0 (after c_n1_0 (after c_v1_0 (after c_m1_0 (after c_l1_0 (after c_ng_0 W)))))))))
  rw [a9.inputs] at h10_v117
  have h10_v119 := m3b_0 (after c_n2_0 (after c_v2_0 (after c_m2_0 (after c_l2_0 (after c_n1_0 (after c_v1_0 (after c_m1_0 (after c_l1_0 (after c_ng_0 W)))))))))
  rw [a9.inputs] at h10_v119
  have h10_v122 := m3m_0 _ h9_v115
  have h10_v3 := (hW_c_m3_0.frame (r := main_v3) (by decide +kernel) _).trans h9_v3
  have h10_v35 := (hW_c_m3_0.frame (r := main_v35) (by decide +kernel) _).trans h9_v35
  have h10_v115 := (hW_c_m3_0.frame (r := main_v115) (by decide +kernel) _).trans h9_v115
  have a10 := a9.step hW_c_m3_0 hA_c_m3_0
  have h11_v123 := v3_0 _ h10_v115
  have h11_v3 := (hW_c_v3_0.frame (r := main_v3) (by decide +kernel) _).trans h10_v3
  have h11_v35 := (hW_c_v3_0.frame (r := main_v35) (by decide +kernel) _).trans h10_v35
  have h11_v115 := (hW_c_v3_0.frame (r := main_v115) (by decide +kernel) _).trans h10_v115
  have h11_v117 := (hW_c_v3_0.frame (r := main_v117) (by decide +kernel) _).trans h10_v117
  have h11_v119 := (hW_c_v3_0.frame (r := main_v119) (by decide +kernel) _).trans h10_v119
  have h11_v122 := (hW_c_v3_0.frame (r := main_v122) (by decide +kernel) _).trans h10_v122
  have a11 := a10.step hW_c_v3_0 hA_c_v3_0
  have h12_v139 := n3_0 _ h11_v115 h11_v122 h11_v123 h11_v117 h11_v119
  have h12_v3 := (hW_c_n3_0.frame (r := main_v3) (by decide +kernel) _).trans h11_v3
  have h12_v35 := (hW_c_n3_0.frame (r := main_v35) (by decide +kernel) _).trans h11_v35
  have a12 := a11.step hW_c_n3_0 hA_c_n3_0
  have h13_v140 := rs_0 _ h12_v3 h12_v139
  have h13_v35 := (hW_c_rs_0.frame (r := main_v35) (by decide +kernel) _).trans h12_v35
  have a13 := a12.step hW_c_rs_0 hA_c_rs_0
  have h14_v147 := hgs_1 _ h13_v140
  rw [a13.inputs] at h14_v147
  have h14_v154 := hgd_1 _ h13_v140
  rw [a13.inputs] at h14_v154
  have h14_v35 := (hW_c_hg_1.frame (r := main_v35) (by decide +kernel) _).trans h13_v35
  have h14_v140 := (hW_c_hg_1.frame (r := main_v140) (by decide +kernel) _).trans h13_v140
  have a14 := a13.step hW_c_hg_1 hA_c_hg_1
  have h15_v172 := hs_1 _ h14_v147 h14_v154
  rw [a14.inputs] at h15_v172
  have h15_v35 := (hW_c_hs_1.frame (r := main_v35) (by decide +kernel) _).trans h14_v35
  have h15_v140 := (hW_c_hs_1.frame (r := main_v140) (by decide +kernel) _).trans h14_v140
  have a15 := a14.step hW_c_hs_1 hA_c_hs_1
  have h16_v173 := ad_1 _ h15_v35 h15_v172
  have h16_v140 := (hW_c_ad_1.frame (r := main_v140) (by decide +kernel) _).trans h15_v140
  have a16 := a15.step hW_c_ad_1 hA_c_ad_1
  have e : after U_0 W = after c_ad_1 (after c_hs_1 (after c_hg_1 (after c_rs_0 (after c_n3_0 (after c_v3_0 (after c_m3_0 (after c_n2_0 (after c_v2_0 (after c_m2_0 (after c_l2_0 (after c_n1_0 (after c_v1_0 (after c_m1_0 (after c_l1_0 (after c_ng_0 W))))))))))))))) := by
    unfold U_0
    simp only [after_app]
  rw [e]
  refine ⟨a16, ?_, ?_⟩
  · rw [h16_v140]
    unfold M.layerI M.layer M.stage4 M.stage3 M.stage2
    rfl
  · rw [h16_v173]
    unfold M.headI M.layerI M.layer M.stage4 M.stage3 M.stage2
    rfl

end Cert.RChain

end
-- ==== Proof.RChainChunks1.lean ====
import proofs.«416875_j80633716015165_3_alg».proof.Proof.RChainBase

noncomputable section

open Idealize.ShloMosaic Idealize.ShloMosaic.ValueIdx Idealize.SL.Sem
open Cert.ReferenceIdeal Cert.ReferenceIdeal.Facts₀
open Idealize.ShloMosaic.StableHlo

namespace Cert.RChain

/-- Layer 1: the neighbour sums. -/
def c_ng_1 {F : FTy → Type} [FloatOps F] : List (HloOp τ sig (Elt F)) :=
  [ nullary main_c_22 (constantI S_ 32 0#32),
    unary main_c_22 main_v174 (broadcastInDim S320000 ![] bcast_S_S320000 : (⟨S_, .i32⟩ : BufTy).Contents (Elt F) → (⟨S320000, .i32⟩ : BufTy).Contents (Elt F)),
    binary main_arg18 main_v174 main_v175 (cmpi .slt : (⟨S320000, .i32⟩ : BufTy).Contents (Elt F) → (⟨S320000, .i32⟩ : BufTy).Contents (Elt F) → (⟨S320000, .i1⟩ : BufTy).Contents (Elt F)),
    nullary main_c_23 (constantI S_ 32 20000#32),
    unary main_c_23 main_v176 (broadcastInDim S320000 ![] bcast_S_S320000 : (⟨S_, .i32⟩ : BufTy).Contents (Elt F) → (⟨S320000, .i32⟩ : BufTy).Contents (Elt F)),
    binary main_arg18 main_v176 main_v177 (addi : (⟨S320000, .i32⟩ : BufTy).Contents (Elt F) → (⟨S320000, .i32⟩ : BufTy).Contents (Elt F) → (⟨S320000, .i32⟩ : BufTy).Contents (Elt F)),
    ternary main_v175 main_v177 main_arg18 main_v178 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v178 main_v179 (broadcastInDim S320000x1 ![0] bcast_S320000_S320000x1_0 : (⟨S320000, .i32⟩ : BufTy).Contents (Elt F) → (⟨S320000x1, .i32⟩ : BufTy).Contents (Elt F)),
    binary main_v140 main_v179 main_v180 ((fun x i => Host.gather gather_S20000x128_S320000x1_S320000x128_1_0_n_n_0_1_1128 x i) : (⟨S20000x128, .f32⟩ : BufTy).Contents (Elt F) → (⟨S320000x1, .i32⟩ : BufTy).Contents (Elt F) → (⟨S320000x128, .f32⟩ : BufTy).Contents (Elt F)),
    nullary main_cst_24 (constant S_ .f32 0x00000000#32),
    unary main_cst_24 main_v181 (broadcastInDim S20000x128 ![] bcast_S_S20000x128 : (⟨S_, .f32⟩ : BufTy).Contents (Elt F) → (⟨S20000x128, .f32⟩ : BufTy).Contents (Elt F)),
    unary main_arg19 main_v182 (broadcastInDim S320000x1 ![0] bcast_S320000_S320000x1_0 : (⟨S320000, .i32⟩ : BufTy).Contents (Elt F) → (⟨S320000x1, .i32⟩ : BufTy).Contents (Elt F)),
    ternary main_v181 main_v182 main_v180 main_v183 ((fun x i u => Host.scatterAdd scatter_S20000x128_S320000x1_S320000x128_1_0_0_1 x i u) : (⟨S20000x128, .f32⟩ : BufTy).Contents (Elt F) → (⟨S320000x1, .i32⟩ : BufTy).Contents (Elt F) → (⟨S320000x128, .f32⟩ : BufTy).Contents (Elt F) → (⟨S20000x128, .f32⟩ : BufTy).Contents (Elt F)) ]

/-- The references it writes. -/
def W_c_ng_1 : List (Ref sig .tc) :=
  [main_c_22, main_v174, main_v175, main_c_23, main_v176, main_v177, main_v178, main_v179, main_v180, main_cst_24, main_v181, main_v182, main_v183]

theorem hW_c_ng_1 : WritesIn (c_ng_1 (F := Ideal)) W_c_ng_1 := by
  unfold WritesIn c_ng_1
  exact ⟨single_sub (y := main_c_22) (by decide +kernel),
    single_sub (y := main_v174) (by decide +kernel),
    single_sub (y := main_v175) (by decide +kernel),
    single_sub (y := main_c_23) (by decide +kernel),
    single_sub (y := main_v176) (by decide +kernel),
    single_sub (y := main_v177) (by decide +kernel),
    single_sub (y := main_v178) (by decide +kernel),
    single_sub (y := main_v179) (by decide +kernel),
    single_sub (y := main_v180) (by decide +kernel),
    single_sub (y := main_cst_24) (by decide +kernel),
    single_sub (y := main_v181) (by decide +kernel),
    single_sub (y := main_v182) (by decide +kernel),
    single_sub (y := main_v183) (by decide +kernel)⟩

/-- It writes no argument. -/
theorem hA_c_ng_1 : ∀ r ∈ argRefs, r ∉ W_c_ng_1 := by
  decide +kernel

/-- Layer 1: the scaled input plus the neighbour sums, through the first linear map. -/
def c_l1_1 {F : FTy → Type} [FloatOps F] : List (HloOp τ sig (Elt F)) :=
  [ unary main_arg3 main_v184 ((extractStridedSlice S1 ![1] · slices_S4_S1_1) : (⟨S4, .f32⟩ : BufTy).Contents (Elt F) → (⟨S1, .f32⟩ : BufTy).Contents (Elt F)),
    reshape main_v184 main_v185 rfl shapeCasts_S1_S_,
    nullary main_cst_25 (constant S_ .f32 0x3F800000#32),
    binary main_cst_25 main_v185 main_v186 (addf : (⟨S_, .f32⟩ : BufTy).Contents (Elt F) → (⟨S_, .f32⟩ : BufTy).Contents (Elt F) → (⟨S_, .f32⟩ : BufTy).Contents (Elt F)),
    unary main_v186 main_v187 (broadcastInDim S20000x128 ![] bcast_S_S20000x128 : (⟨S_, .f32⟩ : BufTy).Contents (Elt F) → (⟨S20000x128, .f32⟩ : BufTy).Contents (Elt F)),
    binary main_v187 main_v140 main_v188 (mulf : (⟨S20000x128, .f32⟩ : BufTy).Contents (Elt F) → (⟨S20000x128, .f32⟩ : BufTy).Contents (Elt F) → (⟨S20000x128, .f32⟩ : BufTy).Contents (Elt F)),
    binary main_v188 main_v183 main_v189 (addf : (⟨S20000x128, .f32⟩ : BufTy).Contents (Elt F) → (⟨S20000x128, .f32⟩ : BufTy).Contents (Elt F) → (⟨S20000x128, .f32⟩ : BufTy).Contents (Elt F)),
    unary main_arg4 main_v190 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v190 main_v191 rfl shapeCasts_S1x128x128_S128x128,
    binary main_v189 main_v191 main_v192 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg5 main_v193 ((extractStridedSlice S1x128 ![1, 0] · slices_S4x128_S1x128_1_0) : (⟨S4x128, .f32⟩ : BufTy).Contents (Elt F) → (⟨S1x128, .f32⟩ : BufTy).Contents (Elt F)),
    reshape main_v193 main_v194 rfl shapeCasts_S1x128_S128,
    unary main_v194 main_v195 (broadcastInDim S1x128 ![1] bcast_S128_S1x128_1 : (⟨S128, .f32⟩ : BufTy).Contents (Elt F) → (⟨S1x128, .f32⟩ : BufTy).Contents (Elt F)),
    unary main_v195 main_v196 (broadcastInDim S20000x128 ![0, 1] bcast_S1x128_S20000x128_0_1 : (⟨S1x128, .f32⟩ : BufTy).Contents (Elt F) → (⟨S20000x128, .f32⟩ : BufTy).Contents (Elt F)),
    binary main_v192 main_v196 main_v197 (addf : (⟨S20000x128, .f32⟩ : BufTy).Contents (Elt F) → (⟨S20000x128, .f32⟩ : BufTy).Contents (Elt F) → (⟨S20000x128, .f32⟩ : BufTy).Contents (Elt F)) ]

/-- The references it writes. -/
def W_c_l1_1 : List (Ref sig .tc) :=
  [main_v184, main_v185, main_cst_25, main_v186, main_v187, main_v188, main_v189, main_v190, main_v191, main_v192, main_v193, main_v194, main_v195, main_v196, main_v197]

theorem hW_c_l1_1 : WritesIn (c_l1_1 (F := Ideal)) W_c_l1_1 := by
  unfold WritesIn c_l1_1
  exact ⟨single_sub (y := main_v184) (by decide +kernel),
    single_sub (y := main_v185) (by decide +kernel),
    single_sub (y := main_cst_25) (by decide +kernel),
    single_sub (y := main_v186) (by decide +kernel),
    single_sub (y := main_v187) (by decide +kernel),
    single_sub (y := main_v188) (by decide +kernel),
    single_sub (y := main_v189) (by decide +kernel),
    single_sub (y := main_v190) (by decide +kernel),
    single_sub (y := main_v191) (by decide +kernel),
    single_sub (y := main_v192) (by decide +kernel),
    single_sub (y := main_v193) (by decide +kernel),
    single_sub (y := main_v194) (by decide +kernel),
    single_sub (y := main_v195) (by decide +kernel),
    single_sub (y := main_v196) (by decide +kernel),
    single_sub (y := main_v197) (by decide +kernel)⟩

/-- It writes no argument. -/
theorem hA_c_l1_1 : ∀ r ∈ argRefs, r ∉ W_c_l1_1 := by
  decide +kernel

/-- Layer 1, normalisation 1: its scale, its shift and every column's mean. -/
def c_m1_1 {F : FTy → Type} [FloatOps F] : List (HloOp τ sig (Elt F)) :=
  [ unary main_arg6 main_v198 ((extractStridedSlice S1x128 ![1, 0] · slices_S4x128_S1x128_1_0) : (⟨S4x128, .f32⟩ : BufTy).Contents (Elt F) → (⟨S1x128, .f32⟩ : BufTy).Contents (Elt F)),
    reshape main_v198 main_v199 rfl shapeCasts_S1x128_S128,
    unary main_arg7 main_v200 ((extractStridedSlice S1x128 ![1, 0] · slices_S4x128_S1x128_1_0) : (⟨S4x128, .f32⟩ : BufTy).Contents (Elt F) → (⟨S1x128, .f32⟩ : BufTy).Contents (Elt F)),
    reshape main_v200 main_v201 rfl shapeCasts_S1x128_S128,
    nullary main_cst_26 (constant S_ .f32 0x00000000#32),
    binary main_v197 main_cst_26 main_v202 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    nullary main_cst_27 (constant S_ .f32 0x469C4000#32),
    unary main_cst_27 main_v203 (broadcastInDim S128 ![] bcast_S_S128 : (⟨S_, .f32⟩ : BufTy).Contents (Elt F) → (⟨S128, .f32⟩ : BufTy).Contents (Elt F)),
    binary main_v202 main_v203 main_v204 (Host.divf : (⟨S128, .f32⟩ : BufTy).Contents (Elt F) → (⟨S128, .f32⟩ : BufTy).Contents (Elt F) → (⟨S128, .f32⟩ : BufTy).Contents (Elt F)) ]

/-- The references it writes. -/
def W_c_m1_1 : List (Ref sig .tc) :=
  [main_v198, main_v199, main_v200, main_v201, main_cst_26, main_v202, main_cst_27, main_v203, main_v204]

theorem hW_c_m1_1 : WritesIn (c_m1_1 (F := Ideal)) W_c_m1_1 := by
  unfold WritesIn c_m1_1
  exact ⟨single_sub (y := main_v198) (by decide +kernel),
    single_sub (y := main_v199) (by decide +kernel),
    single_sub (y := main_v200) (by decide +kernel),
    single_sub (y := main_v201) (by decide +kernel),
    single_sub (y := main_cst_26) (by decide +kernel),
    single_sub (y := main_v202) (by decide +kernel),
    single_sub (y := main_cst_27) (by decide +kernel),
    single_sub (y := main_v203) (by decide +kernel),
    single_sub (y := main_v204) (by decide +kernel)⟩

/-- It writes no argument. -/
theorem hA_c_m1_1 : ∀ r ∈ argRefs, r ∉ W_c_m1_1 := by
  decide +kernel

/-- Layer 1, normalisation 1: every column's biased variance. -/
def c_v1_1 {F : FTy → Type} [FloatOps F] : List (HloOp τ sig (Elt F)) :=
  [ nullary main_c_28 (constantI S_ 32 0#32),
    TRef.nullary main_call8.cst (constant S_ .f32 0x00000000#32),
    TRef.binary (.of main_v197) main_call8.cst main_call8.v0 (fun x v => Host.reduceAdd x v reducesTo_S20000x128_S128_d0 h_S_),
    TRef.unary main_call8.v0 main_call8.v1 (broadcastInDim S1x128 ![1] bcast_S128_S1x128_1),
    TRef.nullary main_call8.cst_0 (constant S_ .f32 0x469C4000#32),
    TRef.unary main_call8.cst_0 main_call8.v2 (broadcastInDim S1x128 ![] bcast_S_S1x128),
    TRef.binary main_call8.v1 main_call8.v2 main_call8.v3 Host.divf,
    TRef.unary main_call8.v3 main_call8.v4 (broadcastInDim S20000x128 ![0, 1] bcast_S1x128_S20000x128_0_1),
    TRef.binary (.of main_v197) main_call8.v4 main_call8.v5 subf,
    TRef.binary main_call8.v5 main_call8.v5 main_call8.v6 mulf,
    TRef.unary (.of main_c_28) main_call8.v7 (sitofp .f32),
    TRef.nullary main_call8.cst_1 (constant S_ .f32 0x469C4000#32),
    TRef.binary main_call8.cst_1 main_call8.v7 main_call8.v8 subf,
    TRef.nullary main_call8.cst_2 (constant S_ .f32 0x00000000#32),
    TRef.binary main_call8.v6 main_call8.cst_2 main_call8.v9 (fun x v => Host.reduceAdd x v reducesTo_S20000x128_S128_d0 h_S_),
    TRef.unary main_call8.v8 main_call8.v10 (broadcastInDim S128 ![] bcast_S_S128),
    TRef.binary main_call8.v9 main_call8.v10 main_call8.v11 Host.divf,
    TRef.nullary main_call8.cst_3 (constant S_ .f32 0x00000000#32),
    TRef.binary main_call8.v8 main_call8.cst_3 main_call8.v12 (cmpf .ogt),
    TRef.nullary main_call8.cst_4 (constant S_ .f32 0x7FC00000#32),
    TRef.unary main_call8.cst_4 main_call8.call0.v0 id,
    TRef.unary main_call8.call0.v0 main_call8.call0.v1 (broadcastInDim S128 ![] bcast_S_S128),
    TRef.ternary main_call8.v12 main_call8.v11 main_call8.call0.v1 main_call8.call0.v2 (fun p a b => select (broadcastInDim S128 ![] bcast_S_S128 p) a b) ]

/-- The references it writes. -/
def W_c_v1_1 : List (Ref sig .tc) :=
  [main_c_28, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v205]

theorem hW_c_v1_1 : WritesIn (c_v1_1 (F := Ideal)) W_c_v1_1 := by
  unfold WritesIn c_v1_1
  exact ⟨single_sub (y := main_c_28) (by decide +kernel),
    single_sub (y := main_call8_cst) (by decide +kernel),
    single_sub (y := main_call8_v0) (by decide +kernel),
    single_sub (y := main_call8_v1) (by decide +kernel),
    single_sub (y := main_call8_cst_0) (by decide +kernel),
    single_sub (y := main_call8_v2) (by decide +kernel),
    single_sub (y := main_call8_v3) (by decide +kernel),
    single_sub (y := main_call8_v4) (by decide +kernel),
    single_sub (y := main_call8_v5) (by decide +kernel),
    single_sub (y := main_call8_v6) (by decide +kernel),
    single_sub (y := main_call8_v7) (by decide +kernel),
    single_sub (y := main_call8_cst_1) (by decide +kernel),
    single_sub (y := main_call8_v8) (by decide +kernel),
    single_sub (y := main_call8_cst_2) (by decide +kernel),
    single_sub (y := main_call8_v9) (by decide +kernel),
    single_sub (y := main_call8_v10) (by decide +kernel),
    single_sub (y := main_call8_v11) (by decide +kernel),
    single_sub (y := main_call8_cst_3) (by decide +kernel),
    single_sub (y := main_call8_v12) (by decide +kernel),
    single_sub (y := main_call8_cst_4) (by decide +kernel),
    single_sub (y := main_call8_call0_v0) (by decide +kernel),
    single_sub (y := main_call8_call0_v1) (by decide +kernel),
    single_sub (y := main_v205) (by decide +kernel)⟩

/-- It writes no argument. -/
theorem hA_c_v1_1 : ∀ r ∈ argRefs, r ∉ W_c_v1_1 := by
  decide +kernel

/-- Layer 1, normalisation 1: normalised, scaled, shifted and rectified. -/
def c_n1_1 {F : FTy → Type} [FloatOps F] : List (HloOp τ sig (Elt F)) :=
  [ unary main_v204 main_v206 (broadcastInDim S1x128 ![1] bcast_S128_S1x128_1 : (⟨S128, .f32⟩ : BufTy).Contents (Elt F) → (⟨S1x128, .f32⟩ : BufTy).Contents (Elt F)),
    unary main_v206 main_v207 (broadcastInDim S20000x128 ![0, 1] bcast_S1x128_S20000x128_0_1 : (⟨S1x128, .f32⟩ : BufTy).Contents (Elt F) → (⟨S20000x128, .f32⟩ : BufTy).Contents (Elt F)),
    binary main_v197 main_v207 main_v208 (subf : (⟨S20000x128, .f32⟩ : BufTy).Contents (Elt F) → (⟨S20000x128, .f32⟩ : BufTy).Contents (Elt F) → (⟨S20000x128, .f32⟩ : BufTy).Contents (Elt F)),
    nullary main_cst_29 (constant S_ .f32 0x3727C5AC#32),
    unary main_cst_29 main_v209 (broadcastInDim S128 ![] bcast_S_S128 : (⟨S_, .f32⟩ : BufTy).Contents (Elt F) → (⟨S128, .f32⟩ : BufTy).Contents (Elt F)),
    binary main_v205 main_v209 main_v210 (addf : (⟨S128, .f32⟩ : BufTy).Contents (Elt F) → (⟨S128, .f32⟩ : BufTy).Contents (Elt F) → (⟨S128, .f32⟩ : BufTy).Contents (Elt F)),
    unary main_v210 main_v211 (Host.rsqrt : (⟨S128, .f32⟩ : BufTy).Contents (Elt F) → (⟨S128, .f32⟩ : BufTy).Contents (Elt F)),
    unary main_v211 main_v212 (broadcastInDim S1x128 ![1] bcast_S128_S1x128_1 : (⟨S128, .f32⟩ : BufTy).Contents (Elt F) → (⟨S1x128, .f32⟩ : BufTy).Contents (Elt F)),
    unary main_v212 main_v213 (broadcastInDim S20000x128 ![0, 1] bcast_S1x128_S20000x128_0_1 : (⟨S1x128, .f32⟩ : BufTy).Contents (Elt F) → (⟨S20000x128, .f32⟩ : BufTy).Contents (Elt F)),
    binary main_v208 main_v213 main_v214 (mulf : (⟨S20000x128, .f32⟩ : BufTy).Contents (Elt F) → (⟨S20000x128, .f32⟩ : BufTy).Contents (Elt F) → (⟨S20000x128, .f32⟩ : BufTy).Contents (Elt F)),
    unary main_v199 main_v215 (broadcastInDim S1x128 ![1] bcast_S128_S1x128_1 : (⟨S128, .f32⟩ : BufTy).Contents (Elt F) → (⟨S1x128, .f32⟩ : BufTy).Contents (Elt F)),
    unary main_v215 main_v216 (broadcastInDim S20000x128 ![0, 1] bcast_S1x128_S20000x128_0_1 : (⟨S1x128, .f32⟩ : BufTy).Contents (Elt F) → (⟨S20000x128, .f32⟩ : BufTy).Contents (Elt F)),
    binary main_v214 main_v216 main_v217 (mulf : (⟨S20000x128, .f32⟩ : BufTy).Contents (Elt F) → (⟨S20000x128, .f32⟩ : BufTy).Contents (Elt F) → (⟨S20000x128, .f32⟩ : BufTy).Contents (Elt F)),
    unary main_v201 main_v218 (broadcastInDim S1x128 ![1] bcast_S128_S1x128_1 : (⟨S128, .f32⟩ : BufTy).Contents (Elt F) → (⟨S1x128, .f32⟩ : BufTy).Contents (Elt F)),
    unary main_v218 main_v219 (broadcastInDim S20000x128 ![0, 1] bcast_S1x128_S20000x128_0_1 : (⟨S1x128, .f32⟩ : BufTy).Contents (Elt F) → (⟨S20000x128, .f32⟩ : BufTy).Contents (Elt F)),
    binary main_v217 main_v219 main_v220 (addf : (⟨S20000x128, .f32⟩ : BufTy).Contents (Elt F) → (⟨S20000x128, .f32⟩ : BufTy).Contents (Elt F) → (⟨S20000x128, .f32⟩ : BufTy).Contents (Elt F)),
    TRef.nullary main_call9.cst (constant S_ .f32 0x00000000#32),
    TRef.unary main_call9.cst main_call9.v0 (broadcastInDim S20000x128 ![] bcast_S_S20000x128),
    TRef.binary (.of main_v220) main_call9.v0 main_call9.v1 maximumf ]

/-- The references it writes. -/
def W_c_n1_1 : List (Ref sig .tc) :=
  [main_v206, main_v207, main_v208, main_cst_29, main_v209, main_v210, main_v211, main_v212, main_v213, main_v214, main_v215, main_v216, main_v217, main_v218, main_v219, main_v220, main_call9_cst, main_call9_v0, main_v221]

theorem hW_c_n1_1 : WritesIn (c_n1_1 (F := Ideal)) W_c_n1_1 := by
  unfold WritesIn c_n1_1
  exact ⟨single_sub (y := main_v206) (by decide +kernel),
    single_sub (y := main_v207) (by decide +kernel),
    single_sub (y := main_v208) (by decide +kernel),
    single_sub (y := main_cst_29) (by decide +kernel),
    single_sub (y := main_v209) (by decide +kernel),
    single_sub (y := main_v210) (by decide +kernel),
    single_sub (y := main_v211) (by decide +kernel),
    single_sub (y := main_v212) (by decide +kernel),
    single_sub (y := main_v213) (by decide +kernel),
    single_sub (y := main_v214) (by decide +kernel),
    single_sub (y := main_v215) (by decide +kernel),
    single_sub (y := main_v216) (by decide +kernel),
    single_sub (y := main_v217) (by decide +kernel),
    single_sub (y := main_v218) (by decide +kernel),
    single_sub (y := main_v219) (by decide +kernel),
    single_sub (y := main_v220) (by decide +kernel),
    single_sub (y := main_call9_cst) (by decide +kernel),
    single_sub (y := main_call9_v0) (by decide +kernel),
    single_sub (y := main_v221) (by decide +kernel)⟩

/-- It writes no argument. -/
theorem hA_c_n1_1 : ∀ r ∈ argRefs, r ∉ W_c_n1_1 := by
  decide +kernel

/-- Layer 1: the second linear map. -/
def c_l2_1 {F : FTy → Type} [FloatOps F] : List (HloOp τ sig (Elt F)) :=
  [ unary main_arg8 main_v222 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v222 main_v223 rfl shapeCasts_S1x128x128_S128x128,
    binary main_v221 main_v223 main_v224 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg9 main_v225 ((extractStridedSlice S1x128 ![1, 0] · slices_S4x128_S1x128_1_0) : (⟨S4x128, .f32⟩ : BufTy).Contents (Elt F) → (⟨S1x128, .f32⟩ : BufTy).Contents (Elt F)),
    reshape main_v225 main_v226 rfl shapeCasts_S1x128_S128,
    unary main_v226 main_v227 (broadcastInDim S1x128 ![1] bcast_S128_S1x128_1 : (⟨S128, .f32⟩ : BufTy).Contents (Elt F) → (⟨S1x128, .f32⟩ : BufTy).Contents (Elt F)),
    unary main_v227 main_v228 (broadcastInDim S20000x128 ![0, 1] bcast_S1x128_S20000x128_0_1 : (⟨S1x128, .f32⟩ : BufTy).Contents (Elt F) → (⟨S20000x128, .f32⟩ : BufTy).Contents (Elt F)),
    binary main_v224 main_v228 main_v229 (addf : (⟨S20000x128, .f32⟩ : BufTy).Contents (Elt F) → (⟨S20000x128, .f32⟩ : BufTy).Contents (Elt F) → (⟨S20000x128, .f32⟩ : BufTy).Contents (Elt F)) ]

/-- The references it writes. -/
def W_c_l2_1 : List (Ref sig .tc) :=
  [main_v222, main_v223, main_v224, main_v225, main_v226, main_v227, main_v228, main_v229]

theorem hW_c_l2_1 : WritesIn (c_l2_1 (F := Ideal)) W_c_l2_1 := by
  unfold WritesIn c_l2_1
  exact ⟨single_sub (y := main_v222) (by decide +kernel),
    single_sub (y := main_v223) (by decide +kernel),
    single_sub (y := main_v224) (by decide +kernel),
    single_sub (y := main_v225) (by decide +kernel),
    single_sub (y := main_v226) (by decide +kernel),
    single_sub (y := main_v227) (by decide +kernel),
    single_sub (y := main_v228) (by decide +kernel),
    single_sub (y := main_v229) (by decide +kernel)⟩

/-- It writes no argument. -/
theorem hA_c_l2_1 : ∀ r ∈ argRefs, r ∉ W_c_l2_1 := by
  decide +kernel

/-- Layer 1, normalisation 2: its scale, its shift and every column's mean. -/
def c_m2_1 {F : FTy → Type} [FloatOps F] : List (HloOp τ sig (Elt F)) :=
  [ unary main_arg10 main_v230 ((extractStridedSlice S1x128 ![1, 0] · slices_S4x128_S1x128_1_0) : (⟨S4x128, .f32⟩ : BufTy).Contents (Elt F) → (⟨S1x128, .f32⟩ : BufTy).Contents (Elt F)),
    reshape main_v230 main_v231 rfl shapeCasts_S1x128_S128,
    unary main_arg11 main_v232 ((extractStridedSlice S1x128 ![1, 0] · slices_S4x128_S1x128_1_0) : (⟨S4x128, .f32⟩ : BufTy).Contents (Elt F) → (⟨S1x128, .f32⟩ : BufTy).Contents (Elt F)),
    reshape main_v232 main_v233 rfl shapeCasts_S1x128_S128,
    nullary main_cst_30 (constant S_ .f32 0x00000000#32),
    binary main_v229 main_cst_30 main_v234 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    nullary main_cst_31 (constant S_ .f32 0x469C4000#32),
    unary main_cst_31 main_v235 (broadcastInDim S128 ![] bcast_S_S128 : (⟨S_, .f32⟩ : BufTy).Contents (Elt F) → (⟨S128, .f32⟩ : BufTy).Contents (Elt F)),
    binary main_v234 main_v235 main_v236 (Host.divf : (⟨S128, .f32⟩ : BufTy).Contents (Elt F) → (⟨S128, .f32⟩ : BufTy).Contents (Elt F) → (⟨S128, .f32⟩ : BufTy).Contents (Elt F)) ]

/-- The references it writes. -/
def W_c_m2_1 : List (Ref sig .tc) :=
  [main_v230, main_v231, main_v232, main_v233, main_cst_30, main_v234, main_cst_31, main_v235, main_v236]

theorem hW_c_m2_1 : WritesIn (c_m2_1 (F := Ideal)) W_c_m2_1 := by
  unfold WritesIn c_m2_1
  exact ⟨single_sub (y := main_v230) (by decide +kernel),
    single_sub (y := main_v231) (by decide +kernel),
    single_sub (y := main_v232) (by decide +kernel),
    single_sub (y := main_v233) (by decide +kernel),
    single_sub (y := main_cst_30) (by decide +kernel),
    single_sub (y := main_v234) (by decide +kernel),
    single_sub (y := main_cst_31) (by decide +kernel),
    single_sub (y := main_v235) (by decide +kernel),
    single_sub (y := main_v236) (by decide +kernel)⟩

/-- It writes no argument. -/
theorem hA_c_m2_1 : ∀ r ∈ argRefs, r ∉ W_c_m2_1 := by
  decide +kernel

/-- Layer 1, normalisation 2: every column's biased variance. -/
def c_v2_1 {F : FTy → Type} [FloatOps F] : List (HloOp τ sig (Elt F)) :=
  [ nullary main_c_32 (constantI S_ 32 0#32),
    TRef.nullary main_call10.cst (constant S_ .f32 0x00000000#32),
    TRef.binary (.of main_v229) main_call10.cst main_call10.v0 (fun x v => Host.reduceAdd x v reducesTo_S20000x128_S128_d0 h_S_),
    TRef.unary main_call10.v0 main_call10.v1 (broadcastInDim S1x128 ![1] bcast_S128_S1x128_1),
    TRef.nullary main_call10.cst_0 (constant S_ .f32 0x469C4000#32),
    TRef.unary main_call10.cst_0 main_call10.v2 (broadcastInDim S1x128 ![] bcast_S_S1x128),
    TRef.binary main_call10.v1 main_call10.v2 main_call10.v3 Host.divf,
    TRef.unary main_call10.v3 main_call10.v4 (broadcastInDim S20000x128 ![0, 1] bcast_S1x128_S20000x128_0_1),
    TRef.binary (.of main_v229) main_call10.v4 main_call10.v5 subf,
    TRef.binary main_call10.v5 main_call10.v5 main_call10.v6 mulf,
    TRef.unary (.of main_c_32) main_call10.v7 (sitofp .f32),
    TRef.nullary main_call10.cst_1 (constant S_ .f32 0x469C4000#32),
    TRef.binary main_call10.cst_1 main_call10.v7 main_call10.v8 subf,
    TRef.nullary main_call10.cst_2 (constant S_ .f32 0x00000000#32),
    TRef.binary main_call10.v6 main_call10.cst_2 main_call10.v9 (fun x v => Host.reduceAdd x v reducesTo_S20000x128_S128_d0 h_S_),
    TRef.unary main_call10.v8 main_call10.v10 (broadcastInDim S128 ![] bcast_S_S128),
    TRef.binary main_call10.v9 main_call10.v10 main_call10.v11 Host.divf,
    TRef.nullary main_call10.cst_3 (constant S_ .f32 0x00000000#32),
    TRef.binary main_call10.v8 main_call10.cst_3 main_call10.v12 (cmpf .ogt),
    TRef.nullary main_call10.cst_4 (constant S_ .f32 0x7FC00000#32),
    TRef.unary main_call10.cst_4 main_call10.call0.v0 id,
    TRef.unary main_call10.call0.v0 main_call10.call0.v1 (broadcastInDim S128 ![] bcast_S_S128),
    TRef.ternary main_call10.v12 main_call10.v11 main_call10.call0.v1 main_call10.call0.v2 (fun p a b => select (broadcastInDim S128 ![] bcast_S_S128 p) a b) ]

/-- The references it writes. -/
def W_c_v2_1 : List (Ref sig .tc) :=
  [main_c_32, main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_cst_3, main_call10_v12, main_call10_cst_4, main_call10_call0_v0, main_call10_call0_v1, main_v237]

theorem hW_c_v2_1 : WritesIn (c_v2_1 (F := Ideal)) W_c_v2_1 := by
  unfold WritesIn c_v2_1
  exact ⟨single_sub (y := main_c_32) (by decide +kernel),
    single_sub (y := main_call10_cst) (by decide +kernel),
    single_sub (y := main_call10_v0) (by decide +kernel),
    single_sub (y := main_call10_v1) (by decide +kernel),
    single_sub (y := main_call10_cst_0) (by decide +kernel),
    single_sub (y := main_call10_v2) (by decide +kernel),
    single_sub (y := main_call10_v3) (by decide +kernel),
    single_sub (y := main_call10_v4) (by decide +kernel),
    single_sub (y := main_call10_v5) (by decide +kernel),
    single_sub (y := main_call10_v6) (by decide +kernel),
    single_sub (y := main_call10_v7) (by decide +kernel),
    single_sub (y := main_call10_cst_1) (by decide +kernel),
    single_sub (y := main_call10_v8) (by decide +kernel),
    single_sub (y := main_call10_cst_2) (by decide +kernel),
    single_sub (y := main_call10_v9) (by decide +kernel),
    single_sub (y := main_call10_v10) (by decide +kernel),
    single_sub (y := main_call10_v11) (by decide +kernel),
    single_sub (y := main_call10_cst_3) (by decide +kernel),
    single_sub (y := main_call10_v12) (by decide +kernel),
    single_sub (y := main_call10_cst_4) (by decide +kernel),
    single_sub (y := main_call10_call0_v0) (by decide +kernel),
    single_sub (y := main_call10_call0_v1) (by decide +kernel),
    single_sub (y := main_v237) (by decide +kernel)⟩

/-- It writes no argument. -/
theorem hA_c_v2_1 : ∀ r ∈ argRefs, r ∉ W_c_v2_1 := by
  decide +kernel

/-- Layer 1, normalisation 2: normalised, scaled, shifted and rectified. -/
def c_n2_1 {F : FTy → Type} [FloatOps F] : List (HloOp τ sig (Elt F)) :=
  [ unary main_v236 main_v238 (broadcastInDim S1x128 ![1] bcast_S128_S1x128_1 : (⟨S128, .f32⟩ : BufTy).Contents (Elt F) → (⟨S1x128, .f32⟩ : BufTy).Contents (Elt F)),
    unary main_v238 main_v239 (broadcastInDim S20000x128 ![0, 1] bcast_S1x128_S20000x128_0_1 : (⟨S1x128, .f32⟩ : BufTy).Contents (Elt F) → (⟨S20000x128, .f32⟩ : BufTy).Contents (Elt F)),
    binary main_v229 main_v239 main_v240 (subf : (⟨S20000x128, .f32⟩ : BufTy).Contents (Elt F) → (⟨S20000x128, .f32⟩ : BufTy).Contents (Elt F) → (⟨S20000x128, .f32⟩ : BufTy).Contents (Elt F)),
    nullary main_cst_33 (constant S_ .f32 0x3727C5AC#32),
    unary main_cst_33 main_v241 (broadcastInDim S128 ![] bcast_S_S128 : (⟨S_, .f32⟩ : BufTy).Contents (Elt F) → (⟨S128, .f32⟩ : BufTy).Contents (Elt F)),
    binary main_v237 main_v241 main_v242 (addf : (⟨S128, .f32⟩ : BufTy).Contents (Elt F) → (⟨S128, .f32⟩ : BufTy).Contents (Elt F) → (⟨S128, .f32⟩ : BufTy).Contents (Elt F)),
    unary main_v242 main_v243 (Host.rsqrt : (⟨S128, .f32⟩ : BufTy).Contents (Elt F) → (⟨S128, .f32⟩ : BufTy).Contents (Elt F)),
    unary main_v243 main_v244 (broadcastInDim S1x128 ![1] bcast_S128_S1x128_1 : (⟨S128, .f32⟩ : BufTy).Contents (Elt F) → (⟨S1x128, .f32⟩ : BufTy).Contents (Elt F)),
    unary main_v244 main_v245 (broadcastInDim S20000x128 ![0, 1] bcast_S1x128_S20000x128_0_1 : (⟨S1x128, .f32⟩ : BufTy).Contents (Elt F) → (⟨S20000x128, .f32⟩ : BufTy).Contents (Elt F)),
    binary main_v240 main_v245 main_v246 (mulf : (⟨S20000x128, .f32⟩ : BufTy).Contents (Elt F) → (⟨S20000x128, .f32⟩ : BufTy).Contents (Elt F) → (⟨S20000x128, .f32⟩ : BufTy).Contents (Elt F)),
    unary main_v231 main_v247 (broadcastInDim S1x128 ![1] bcast_S128_S1x128_1 : (⟨S128, .f32⟩ : BufTy).Contents (Elt F) → (⟨S1x128, .f32⟩ : BufTy).Contents (Elt F)),
    unary main_v247 main_v248 (broadcastInDim S20000x128 ![0, 1] bcast_S1x128_S20000x128_0_1 : (⟨S1x128, .f32⟩ : BufTy).Contents (Elt F) → (⟨S20000x128, .f32⟩ : BufTy).Contents (Elt F)),
    binary main_v246 main_v248 main_v249 (mulf : (⟨S20000x128, .f32⟩ : BufTy).Contents (Elt F) → (⟨S20000x128, .f32⟩ : BufTy).Contents (Elt F) → (⟨S20000x128, .f32⟩ : BufTy).Contents (Elt F)),
    unary main_v233 main_v250 (broadcastInDim S1x128 ![1] bcast_S128_S1x128_1 : (⟨S128, .f32⟩ : BufTy).Contents (Elt F) → (⟨S1x128, .f32⟩ : BufTy).Contents (Elt F)),
    unary main_v250 main_v251 (broadcastInDim S20000x128 ![0, 1] bcast_S1x128_S20000x128_0_1 : (⟨S1x128, .f32⟩ : BufTy).Contents (Elt F) → (⟨S20000x128, .f32⟩ : BufTy).Contents (Elt F)),
    binary main_v249 main_v251 main_v252 (addf : (⟨S20000x128, .f32⟩ : BufTy).Contents (Elt F) → (⟨S20000x128, .f32⟩ : BufTy).Contents (Elt F) → (⟨S20000x128, .f32⟩ : BufTy).Contents (Elt F)),
    TRef.nullary main_call11.cst (constant S_ .f32 0x00000000#32),
    TRef.unary main_call11.cst main_call11.v0 (broadcastInDim S20000x128 ![] bcast_S_S20000x128),
    TRef.binary (.of main_v252) main_call11.v0 main_call11.v1 maximumf ]

/-- The references it writes. -/
def W_c_n2_1 : List (Ref sig .tc) :=
  [main_v238, main_v239, main_v240, main_cst_33, main_v241, main_v242, main_v243, main_v244, main_v245, main_v246, main_v247, main_v248, main_v249, main_v250, main_v251, main_v252, main_call11_cst, main_call11_v0, main_v253]

theorem hW_c_n2_1 : WritesIn (c_n2_1 (F := Ideal)) W_c_n2_1 := by
  unfold WritesIn c_n2_1
  exact ⟨single_sub (y := main_v238) (by decide +kernel),
    single_sub (y := main_v239) (by decide +kernel),
    single_sub (y := main_v240) (by decide +kernel),
    single_sub (y := main_cst_33) (by decide +kernel),
    single_sub (y := main_v241) (by decide +kernel),
    single_sub (y := main_v242) (by decide +kernel),
    single_sub (y := main_v243) (by decide +kernel),
    single_sub (y := main_v244) (by decide +kernel),
    single_sub (y := main_v245) (by decide +kernel),
    single_sub (y := main_v246) (by decide +kernel),
    single_sub (y := main_v247) (by decide +kernel),
    single_sub (y := main_v248) (by decide +kernel),
    single_sub (y := main_v249) (by decide +kernel),
    single_sub (y := main_v250) (by decide +kernel),
    single_sub (y := main_v251) (by decide +kernel),
    single_sub (y := main_v252) (by decide +kernel),
    single_sub (y := main_call11_cst) (by decide +kernel),
    single_sub (y := main_call11_v0) (by decide +kernel),
    single_sub (y := main_v253) (by decide +kernel)⟩

/-- It writes no argument. -/
theorem hA_c_n2_1 : ∀ r ∈ argRefs, r ∉ W_c_n2_1 := by
  decide +kernel

/-- Layer 1, normalisation 3: its scale, its shift and every column's mean. -/
def c_m3_1 {F : FTy → Type} [FloatOps F] : List (HloOp τ sig (Elt F)) :=
  [ unary main_arg12 main_v254 ((extractStridedSlice S1x128 ![1, 0] · slices_S4x128_S1x128_1_0) : (⟨S4x128, .f32⟩ : BufTy).Contents (Elt F) → (⟨S1x128, .f32⟩ : BufTy).Contents (Elt F)),
    reshape main_v254 main_v255 rfl shapeCasts_S1x128_S128,
    unary main_arg13 main_v256 ((extractStridedSlice S1x128 ![1, 0] · slices_S4x128_S1x128_1_0) : (⟨S4x128, .f32⟩ : BufTy).Contents (Elt F) → (⟨S1x128, .f32⟩ : BufTy).Contents (Elt F)),
    reshape main_v256 main_v257 rfl shapeCasts_S1x128_S128,
    nullary main_cst_34 (constant S_ .f32 0x00000000#32),
    binary main_v253 main_cst_34 main_v258 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    nullary main_cst_35 (constant S_ .f32 0x469C4000#32),
    unary main_cst_35 main_v259 (broadcastInDim S128 ![] bcast_S_S128 : (⟨S_, .f32⟩ : BufTy).Contents (Elt F) → (⟨S128, .f32⟩ : BufTy).Contents (Elt F)),
    binary main_v258 main_v259 main_v260 (Host.divf : (⟨S128, .f32⟩ : BufTy).Contents (Elt F) → (⟨S128, .f32⟩ : BufTy).Contents (Elt F) → (⟨S128, .f32⟩ : BufTy).Contents (Elt F)) ]

/-- The references it writes. -/
def W_c_m3_1 : List (Ref sig .tc) :=
  [main_v254, main_v255, main_v256, main_v257, main_cst_34, main_v258, main_cst_35, main_v259, main_v260]

theorem hW_c_m3_1 : WritesIn (c_m3_1 (F := Ideal)) W_c_m3_1 := by
  unfold WritesIn c_m3_1
  exact ⟨single_sub (y := main_v254) (by decide +kernel),
    single_sub (y := main_v255) (by decide +kernel),
    single_sub (y := main_v256) (by decide +kernel),
    single_sub (y := main_v257) (by decide +kernel),
    single_sub (y := main_cst_34) (by decide +kernel),
    single_sub (y := main_v258) (by decide +kernel),
    single_sub (y := main_cst_35) (by decide +kernel),
    single_sub (y := main_v259) (by decide +kernel),
    single_sub (y := main_v260) (by decide +kernel)⟩

/-- It writes no argument. -/
theorem hA_c_m3_1 : ∀ r ∈ argRefs, r ∉ W_c_m3_1 := by
  decide +kernel

/-- Layer 1, normalisation 3: every column's biased variance. -/
def c_v3_1 {F : FTy → Type} [FloatOps F] : List (HloOp τ sig (Elt F)) :=
  [ nullary main_c_36 (constantI S_ 32 0#32),
    TRef.nullary main_call12.cst (constant S_ .f32 0x00000000#32),
    TRef.binary (.of main_v253) main_call12.cst main_call12.v0 (fun x v => Host.reduceAdd x v reducesTo_S20000x128_S128_d0 h_S_),
    TRef.unary main_call12.v0 main_call12.v1 (broadcastInDim S1x128 ![1] bcast_S128_S1x128_1),
    TRef.nullary main_call12.cst_0 (constant S_ .f32 0x469C4000#32),
    TRef.unary main_call12.cst_0 main_call12.v2 (broadcastInDim S1x128 ![] bcast_S_S1x128),
    TRef.binary main_call12.v1 main_call12.v2 main_call12.v3 Host.divf,
    TRef.unary main_call12.v3 main_call12.v4 (broadcastInDim S20000x128 ![0, 1] bcast_S1x128_S20000x128_0_1),
    TRef.binary (.of main_v253) main_call12.v4 main_call12.v5 subf,
    TRef.binary main_call12.v5 main_call12.v5 main_call12.v6 mulf,
    TRef.unary (.of main_c_36) main_call12.v7 (sitofp .f32),
    TRef.nullary main_call12.cst_1 (constant S_ .f32 0x469C4000#32),
    TRef.binary main_call12.cst_1 main_call12.v7 main_call12.v8 subf,
    TRef.nullary main_call12.cst_2 (constant S_ .f32 0x00000000#32),
    TRef.binary main_call12.v6 main_call12.cst_2 main_call12.v9 (fun x v => Host.reduceAdd x v reducesTo_S20000x128_S128_d0 h_S_),
    TRef.unary main_call12.v8 main_call12.v10 (broadcastInDim S128 ![] bcast_S_S128),
    TRef.binary main_call12.v9 main_call12.v10 main_call12.v11 Host.divf,
    TRef.nullary main_call12.cst_3 (constant S_ .f32 0x00000000#32),
    TRef.binary main_call12.v8 main_call12.cst_3 main_call12.v12 (cmpf .ogt),
    TRef.nullary main_call12.cst_4 (constant S_ .f32 0x7FC00000#32),
    TRef.unary main_call12.cst_4 main_call12.call0.v0 id,
    TRef.unary main_call12.call0.v0 main_call12.call0.v1 (broadcastInDim S128 ![] bcast_S_S128),
    TRef.ternary main_call12.v12 main_call12.v11 main_call12.call0.v1 main_call12.call0.v2 (fun p a b => select (broadcastInDim S128 ![] bcast_S_S128 p) a b) ]

/-- The references it writes. -/
def W_c_v3_1 : List (Ref sig .tc) :=
  [main_c_36, main_call12_cst, main_call12_v0, main_call12_v1, main_call12_cst_0, main_call12_v2, main_call12_v3, main_call12_v4, main_call12_v5, main_call12_v6, main_call12_v7, main_call12_cst_1, main_call12_v8, main_call12_cst_2, main_call12_v9, main_call12_v10, main_call12_v11, main_call12_cst_3, main_call12_v12, main_call12_cst_4, main_call12_call0_v0, main_call12_call0_v1, main_v261]

theorem hW_c_v3_1 : WritesIn (c_v3_1 (F := Ideal)) W_c_v3_1 := by
  unfold WritesIn c_v3_1
  exact ⟨single_sub (y := main_c_36) (by decide +kernel),
    single_sub (y := main_call12_cst) (by decide +kernel),
    single_sub (y := main_call12_v0) (by decide +kernel),
    single_sub (y := main_call12_v1) (by decide +kernel),
    single_sub (y := main_call12_cst_0) (by decide +kernel),
    single_sub (y := main_call12_v2) (by decide +kernel),
    single_sub (y := main_call12_v3) (by decide +kernel),
    single_sub (y := main_call12_v4) (by decide +kernel),
    single_sub (y := main_call12_v5) (by decide +kernel),
    single_sub (y := main_call12_v6) (by decide +kernel),
    single_sub (y := main_call12_v7) (by decide +kernel),
    single_sub (y := main_call12_cst_1) (by decide +kernel),
    single_sub (y := main_call12_v8) (by decide +kernel),
    single_sub (y := main_call12_cst_2) (by decide +kernel),
    single_sub (y := main_call12_v9) (by decide +kernel),
    single_sub (y := main_call12_v10) (by decide +kernel),
    single_sub (y := main_call12_v11) (by decide +kernel),
    single_sub (y := main_call12_cst_3) (by decide +kernel),
    single_sub (y := main_call12_v12) (by decide +kernel),
    single_sub (y := main_call12_cst_4) (by decide +kernel),
    single_sub (y := main_call12_call0_v0) (by decide +kernel),
    single_sub (y := main_call12_call0_v1) (by decide +kernel),
    single_sub (y := main_v261) (by decide +kernel)⟩

/-- It writes no argument. -/
theorem hA_c_v3_1 : ∀ r ∈ argRefs, r ∉ W_c_v3_1 := by
  decide +kernel

/-- Layer 1, normalisation 3: normalised, scaled, shifted and rectified. -/
def c_n3_1 {F : FTy → Type} [FloatOps F] : List (HloOp τ sig (Elt F)) :=
  [ unary main_v260 main_v262 (broadcastInDim S1x128 ![1] bcast_S128_S1x128_1 : (⟨S128, .f32⟩ : BufTy).Contents (Elt F) → (⟨S1x128, .f32⟩ : BufTy).Contents (Elt F)),
    unary main_v262 main_v263 (broadcastInDim S20000x128 ![0, 1] bcast_S1x128_S20000x128_0_1 : (⟨S1x128, .f32⟩ : BufTy).Contents (Elt F) → (⟨S20000x128, .f32⟩ : BufTy).Contents (Elt F)),
    binary main_v253 main_v263 main_v264 (subf : (⟨S20000x128, .f32⟩ : BufTy).Contents (Elt F) → (⟨S20000x128, .f32⟩ : BufTy).Contents (Elt F) → (⟨S20000x128, .f32⟩ : BufTy).Contents (Elt F)),
    nullary main_cst_37 (constant S_ .f32 0x3727C5AC#32),
    unary main_cst_37 main_v265 (broadcastInDim S128 ![] bcast_S_S128 : (⟨S_, .f32⟩ : BufTy).Contents (Elt F) → (⟨S128, .f32⟩ : BufTy).Contents (Elt F)),
    binary main_v261 main_v265 main_v266 (addf : (⟨S128, .f32⟩ : BufTy).Contents (Elt F) → (⟨S128, .f32⟩ : BufTy).Contents (Elt F) → (⟨S128, .f32⟩ : BufTy).Contents (Elt F)),
    unary main_v266 main_v267 (Host.rsqrt : (⟨S128, .f32⟩ : BufTy).Contents (Elt F) → (⟨S128, .f32⟩ : BufTy).Contents (Elt F)),
    unary main_v267 main_v268 (broadcastInDim S1x128 ![1] bcast_S128_S1x128_1 : (⟨S128, .f32⟩ : BufTy).Contents (Elt F) → (⟨S1x128, .f32⟩ : BufTy).Contents (Elt F)),
    unary main_v268 main_v269 (broadcastInDim S20000x128 ![0, 1] bcast_S1x128_S20000x128_0_1 : (⟨S1x128, .f32⟩ : BufTy).Contents (Elt F) → (⟨S20000x128, .f32⟩ : BufTy).Contents (Elt F)),
    binary main_v264 main_v269 main_v270 (mulf : (⟨S20000x128, .f32⟩ : BufTy).Contents (Elt F) → (⟨S20000x128, .f32⟩ : BufTy).Contents (Elt F) → (⟨S20000x128, .f32⟩ : BufTy).Contents (Elt F)),
    unary main_v255 main_v271 (broadcastInDim S1x128 ![1] bcast_S128_S1x128_1 : (⟨S128, .f32⟩ : BufTy).Contents (Elt F) → (⟨S1x128, .f32⟩ : BufTy).Contents (Elt F)),
    unary main_v271 main_v272 (broadcastInDim S20000x128 ![0, 1] bcast_S1x128_S20000x128_0_1 : (⟨S1x128, .f32⟩ : BufTy).Contents (Elt F) → (⟨S20000x128, .f32⟩ : BufTy).Contents (Elt F)),
    binary main_v270 main_v272 main_v273 (mulf : (⟨S20000x128, .f32⟩ : BufTy).Contents (Elt F) → (⟨S20000x128, .f32⟩ : BufTy).Contents (Elt F) → (⟨S20000x128, .f32⟩ : BufTy).Contents (Elt F)),
    unary main_v257 main_v274 (broadcastInDim S1x128 ![1] bcast_S128_S1x128_1 : (⟨S128, .f32⟩ : BufTy).Contents (Elt F) → (⟨S1x128, .f32⟩ : BufTy).Contents (Elt F)),
    unary main_v274 main_v275 (broadcastInDim S20000x128 ![0, 1] bcast_S1x128_S20000x128_0_1 : (⟨S1x128, .f32⟩ : BufTy).Contents (Elt F) → (⟨S20000x128, .f32⟩ : BufTy).Contents (Elt F)),
    binary main_v273 main_v275 main_v276 (addf : (⟨S20000x128, .f32⟩ : BufTy).Contents (Elt F) → (⟨S20000x128, .f32⟩ : BufTy).Contents (Elt F) → (⟨S20000x128, .f32⟩ : BufTy).Contents (Elt F)),
    TRef.nullary main_call13.cst (constant S_ .f32 0x00000000#32),
    TRef.unary main_call13.cst main_call13.v0 (broadcastInDim S20000x128 ![] bcast_S_S20000x128),
    TRef.binary (.of main_v276) main_call13.v0 main_call13.v1 maximumf ]

/-- The references it writes. -/
def W_c_n3_1 : List (Ref sig .tc) :=
  [main_v262, main_v263, main_v264, main_cst_37, main_v265, main_v266, main_v267, main_v268, main_v269, main_v270, main_v271, main_v272, main_v273, main_v274, main_v275, main_v276, main_call13_cst, main_call13_v0, main_v277]

theorem hW_c_n3_1 : WritesIn (c_n3_1 (F := Ideal)) W_c_n3_1 := by
  unfold WritesIn c_n3_1
  exact ⟨single_sub (y := main_v262) (by decide +kernel),
    single_sub (y := main_v263) (by decide +kernel),
    single_sub (y := main_v264) (by decide +kernel),
    single_sub (y := main_cst_37) (by decide +kernel),
    single_sub (y := main_v265) (by decide +kernel),
    single_sub (y := main_v266) (by decide +kernel),
    single_sub (y := main_v267) (by decide +kernel),
    single_sub (y := main_v268) (by decide +kernel),
    single_sub (y := main_v269) (by decide +kernel),
    single_sub (y := main_v270) (by decide +kernel),
    single_sub (y := main_v271) (by decide +kernel),
    single_sub (y := main_v272) (by decide +kernel),
    single_sub (y := main_v273) (by decide +kernel),
    single_sub (y := main_v274) (by decide +kernel),
    single_sub (y := main_v275) (by decide +kernel),
    single_sub (y := main_v276) (by decide +kernel),
    single_sub (y := main_call13_cst) (by decide +kernel),
    single_sub (y := main_call13_v0) (by decide +kernel),
    single_sub (y := main_v277) (by decide +kernel)⟩

/-- It writes no argument. -/
theorem hA_c_n3_1 : ∀ r ∈ argRefs, r ∉ W_c_n3_1 := by
  decide +kernel

/-- Layer 1: the input plus the last normalisation. -/
def c_rs_1 {F : FTy → Type} [FloatOps F] : List (HloOp τ sig (Elt F)) :=
  [ binary main_v140 main_v277 main_v278 (addf : (⟨S20000x128, .f32⟩ : BufTy).Contents (Elt F) → (⟨S20000x128, .f32⟩ : BufTy).Contents (Elt F) → (⟨S20000x128, .f32⟩ : BufTy).Contents (Elt F)) ]

/-- The references it writes. -/
def W_c_rs_1 : List (Ref sig .tc) :=
  [main_v278]

theorem hW_c_rs_1 : WritesIn (c_rs_1 (F := Ideal)) W_c_rs_1 := by
  unfold WritesIn c_rs_1
  exact single_sub (y := main_v278) (by decide +kernel)

/-- It writes no argument. -/
theorem hA_c_rs_1 : ∀ r ∈ argRefs, r ∉ W_c_rs_1 := by
  decide +kernel

/-- Head 2: the node rows at both ends of every edge. -/
def c_hg_2 {F : FTy → Type} [FloatOps F] : List (HloOp τ sig (Elt F)) :=
  [ nullary main_c_38 (constantI S_ 32 0#32),
    unary main_c_38 main_v279 (broadcastInDim S320000 ![] bcast_S_S320000 : (⟨S_, .i32⟩ : BufTy).Contents (Elt F) → (⟨S320000, .i32⟩ : BufTy).Contents (Elt F)),
    binary main_arg18 main_v279 main_v280 (cmpi .slt : (⟨S320000, .i32⟩ : BufTy).Contents (Elt F) → (⟨S320000, .i32⟩ : BufTy).Contents (Elt F) → (⟨S320000, .i1⟩ : BufTy).Contents (Elt F)),
    nullary main_c_39 (constantI S_ 32 20000#32),
    unary main_c_39 main_v281 (broadcastInDim S320000 ![] bcast_S_S320000 : (⟨S_, .i32⟩ : BufTy).Contents (Elt F) → (⟨S320000, .i32⟩ : BufTy).Contents (Elt F)),
    binary main_arg18 main_v281 main_v282 (addi : (⟨S320000, .i32⟩ : BufTy).Contents (Elt F) → (⟨S320000, .i32⟩ : BufTy).Contents (Elt F) → (⟨S320000, .i32⟩ : BufTy).Contents (Elt F)),
    ternary main_v280 main_v282 main_arg18 main_v283 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v283 main_v284 (broadcastInDim S320000x1 ![0] bcast_S320000_S320000x1_0 : (⟨S320000, .i32⟩ : BufTy).Contents (Elt F) → (⟨S320000x1, .i32⟩ : BufTy).Contents (Elt F)),
    binary main_v278 main_v284 main_v285 ((fun x i => Host.gather gather_S20000x128_S320000x1_S320000x128_1_0_n_n_0_1_1128 x i) : (⟨S20000x128, .f32⟩ : BufTy).Contents (Elt F) → (⟨S320000x1, .i32⟩ : BufTy).Contents (Elt F) → (⟨S320000x128, .f32⟩ : BufTy).Contents (Elt F)),
    nullary main_c_40 (constantI S_ 32 0#32),
    unary main_c_40 main_v286 (broadcastInDim S320000 ![] bcast_S_S320000 : (⟨S_, .i32⟩ : BufTy).Contents (Elt F) → (⟨S320000, .i32⟩ : BufTy).Contents (Elt F)),
    binary main_arg19 main_v286 main_v287 (cmpi .slt : (⟨S320000, .i32⟩ : BufTy).Contents (Elt F) → (⟨S320000, .i32⟩ : BufTy).Contents (Elt F) → (⟨S320000, .i1⟩ : BufTy).Contents (Elt F)),
    nullary main_c_41 (constantI S_ 32 20000#32),
    unary main_c_41 main_v288 (broadcastInDim S320000 ![] bcast_S_S320000 : (⟨S_, .i32⟩ : BufTy).Contents (Elt F) → (⟨S320000, .i32⟩ : BufTy).Contents (Elt F)),
    binary main_arg19 main_v288 main_v289 (addi : (⟨S320000, .i32⟩ : BufTy).Contents (Elt F) → (⟨S320000, .i32⟩ : BufTy).Contents (Elt F) → (⟨S320000, .i32⟩ : BufTy).Contents (Elt F)),
    ternary main_v287 main_v289 main_arg19 main_v290 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v290 main_v291 (broadcastInDim S320000x1 ![0] bcast_S320000_S320000x1_0 : (⟨S320000, .i32⟩ : BufTy).Contents (Elt F) → (⟨S320000x1, .i32⟩ : BufTy).Contents (Elt F)),
    binary main_v278 main_v291 main_v292 ((fun x i => Host.gather gather_S20000x128_S320000x1_S320000x128_1_0_n_n_0_1_1128 x i) : (⟨S20000x128, .f32⟩ : BufTy).Contents (Elt F) → (⟨S320000x1, .i32⟩ : BufTy).Contents (Elt F) → (⟨S320000x128, .f32⟩ : BufTy).Contents (Elt F)) ]

/-- The references it writes. -/
def W_c_hg_2 : List (Ref sig .tc) :=
  [main_c_38, main_v279, main_v280, main_c_39, main_v281, main_v282, main_v283, main_v284, main_v285, main_c_40, main_v286, main_v287, main_c_41, main_v288, main_v289, main_v290, main_v291, main_v292]

theorem hW_c_hg_2 : WritesIn (c_hg_2 (F := Ideal)) W_c_hg_2 := by
  unfold WritesIn c_hg_2
  exact ⟨single_sub (y := main_c_38) (by decide +kernel),
    single_sub (y := main_v279) (by decide +kernel),
    single_sub (y := main_v280) (by decide +kernel),
    single_sub (y := main_c_39) (by decide +kernel),
    single_sub (y := main_v281) (by decide +kernel),
    single_sub (y := main_v282) (by decide +kernel),
    single_sub (y := main_v283) (by decide +kernel),
    single_sub (y := main_v284) (by decide +kernel),
    single_sub (y := main_v285) (by decide +kernel),
    single_sub (y := main_c_40) (by decide +kernel),
    single_sub (y := main_v286) (by decide +kernel),
    single_sub (y := main_v287) (by decide +kernel),
    single_sub (y := main_c_41) (by decide +kernel),
    single_sub (y := main_v288) (by decide +kernel),
    single_sub (y := main_v289) (by decide +kernel),
    single_sub (y := main_v290) (by decide +kernel),
    single_sub (y := main_v291) (by decide +kernel),
    single_sub (y := main_v292) (by decide +kernel)⟩

/-- It writes no argument. -/
theorem hA_c_hg_2 : ∀ r ∈ argRefs, r ∉ W_c_hg_2 := by
  decide +kernel

/-- Head 2: the joined rows' score. -/
def c_hs_2 {F : FTy → Type} [FloatOps F] : List (HloOp τ sig (Elt F)) :=
  [ binary main_v285 main_v292 main_v293 ((fun a b => concatenate S320000x256 1 [⟨S320000x128, a⟩, ⟨S320000x128, b⟩] concatenates_S320000x128_S320000x128_S320000x256_d1) : (⟨S320000x128, .f32⟩ : BufTy).Contents (Elt F) → (⟨S320000x128, .f32⟩ : BufTy).Contents (Elt F) → (⟨S320000x256, .f32⟩ : BufTy).Contents (Elt F)),
    unary main_arg14 main_v294 ((extractStridedSlice S1x256x128 ![2, 0, 0] · slices_S5x256x128_S1x256x128_2_0_0) : (⟨S5x256x128, .f32⟩ : BufTy).Contents (Elt F) → (⟨S1x256x128, .f32⟩ : BufTy).Contents (Elt F)),
    reshape main_v294 main_v295 rfl shapeCasts_S1x256x128_S256x128,
    binary main_v293 main_v295 main_v296 ((fun l r => Host.dotGeneral dot_S320000x256_S256x128_S320000x128_1_0_0_1_n_n none l r) : (⟨S320000x256, .f32⟩ : BufTy).Contents (Elt F) → (⟨S256x128, .f32⟩ : BufTy).Contents (Elt F) → (⟨S320000x128, .f32⟩ : BufTy).Contents (Elt F)),
    unary main_arg15 main_v297 ((extractStridedSlice S1x128 ![2, 0] · slices_S5x128_S1x128_2_0) : (⟨S5x128, .f32⟩ : BufTy).Contents (Elt F) → (⟨S1x128, .f32⟩ : BufTy).Contents (Elt F)),
    reshape main_v297 main_v298 rfl shapeCasts_S1x128_S128,
    unary main_v298 main_v299 (broadcastInDim S1x128 ![1] bcast_S128_S1x128_1 : (⟨S128, .f32⟩ : BufTy).Contents (Elt F) → (⟨S1x128, .f32⟩ : BufTy).Contents (Elt F)),
    unary main_v299 main_v300 (broadcastInDim S320000x128 ![0, 1] bcast_S1x128_S320000x128_0_1 : (⟨S1x128, .f32⟩ : BufTy).Contents (Elt F) → (⟨S320000x128, .f32⟩ : BufTy).Contents (Elt F)),
    binary main_v296 main_v300 main_v301 (addf : (⟨S320000x128, .f32⟩ : BufTy).Contents (Elt F) → (⟨S320000x128, .f32⟩ : BufTy).Contents (Elt F) → (⟨S320000x128, .f32⟩ : BufTy).Contents (Elt F)),
    TRef.nullary main_call14.cst (constant S_ .f32 0x00000000#32),
    TRef.unary main_call14.cst main_call14.v0 (broadcastInDim S320000x128 ![] bcast_S_S320000x128),
    TRef.binary (.of main_v301) main_call14.v0 main_call14.v1 maximumf,
    unary main_arg16 main_v303 ((extractStridedSlice S1x128x2 ![2, 0, 0] · slices_S5x128x2_S1x128x2_2_0_0) : (⟨S5x128x2, .f32⟩ : BufTy).Contents (Elt F) → (⟨S1x128x2, .f32⟩ : BufTy).Contents (Elt F)),
    reshape main_v303 main_v304 rfl shapeCasts_S1x128x2_S128x2,
    binary main_v302 main_v304 main_v305 ((fun l r => Host.dotGeneral dot_S320000x128_S128x2_S320000x2_1_0_0_1_n_n none l r) : (⟨S320000x128, .f32⟩ : BufTy).Contents (Elt F) → (⟨S128x2, .f32⟩ : BufTy).Contents (Elt F) → (⟨S320000x2, .f32⟩ : BufTy).Contents (Elt F)),
    unary main_arg17 main_v306 ((extractStridedSlice S1x2 ![2, 0] · slices_S5x2_S1x2_2_0) : (⟨S5x2, .f32⟩ : BufTy).Contents (Elt F) → (⟨S1x2, .f32⟩ : BufTy).Contents (Elt F)),
    reshape main_v306 main_v307 rfl shapeCasts_S1x2_S2,
    unary main_v307 main_v308 (broadcastInDim S1x2 ![1] bcast_S2_S1x2_1 : (⟨S2, .f32⟩ : BufTy).Contents (Elt F) → (⟨S1x2, .f32⟩ : BufTy).Contents (Elt F)),
    unary main_v308 main_v309 (broadcastInDim S320000x2 ![0, 1] bcast_S1x2_S320000x2_0_1 : (⟨S1x2, .f32⟩ : BufTy).Contents (Elt F) → (⟨S320000x2, .f32⟩ : BufTy).Contents (Elt F)),
    binary main_v305 main_v309 main_v310 (addf : (⟨S320000x2, .f32⟩ : BufTy).Contents (Elt F) → (⟨S320000x2, .f32⟩ : BufTy).Contents (Elt F) → (⟨S320000x2, .f32⟩ : BufTy).Contents (Elt F)) ]

/-- The references it writes. -/
def W_c_hs_2 : List (Ref sig .tc) :=
  [main_v293, main_v294, main_v295, main_v296, main_v297, main_v298, main_v299, main_v300, main_v301, main_call14_cst, main_call14_v0, main_v302, main_v303, main_v304, main_v305, main_v306, main_v307, main_v308, main_v309, main_v310]

theorem hW_c_hs_2 : WritesIn (c_hs_2 (F := Ideal)) W_c_hs_2 := by
  unfold WritesIn c_hs_2
  exact ⟨single_sub (y := main_v293) (by decide +kernel),
    single_sub (y := main_v294) (by decide +kernel),
    single_sub (y := main_v295) (by decide +kernel),
    single_sub (y := main_v296) (by decide +kernel),
    single_sub (y := main_v297) (by decide +kernel),
    single_sub (y := main_v298) (by decide +kernel),
    single_sub (y := main_v299) (by decide +kernel),
    single_sub (y := main_v300) (by decide +kernel),
    single_sub (y := main_v301) (by decide +kernel),
    single_sub (y := main_call14_cst) (by decide +kernel),
    single_sub (y := main_call14_v0) (by decide +kernel),
    single_sub (y := main_v302) (by decide +kernel),
    single_sub (y := main_v303) (by decide +kernel),
    single_sub (y := main_v304) (by decide +kernel),
    single_sub (y := main_v305) (by decide +kernel),
    single_sub (y := main_v306) (by decide +kernel),
    single_sub (y := main_v307) (by decide +kernel),
    single_sub (y := main_v308) (by decide +kernel),
    single_sub (y := main_v309) (by decide +kernel),
    single_sub (y := main_v310) (by decide +kernel)⟩

/-- It writes no argument. -/
theorem hA_c_hs_2 : ∀ r ∈ argRefs, r ∉ W_c_hs_2 := by
  decide +kernel

/-- The running score plus head 2's. -/
def c_ad_2 {F : FTy → Type} [FloatOps F] : List (HloOp τ sig (Elt F)) :=
  [ binary main_v173 main_v310 main_v311 (addf : (⟨S320000x2, .f32⟩ : BufTy).Contents (Elt F) → (⟨S320000x2, .f32⟩ : BufTy).Contents (Elt F) → (⟨S320000x2, .f32⟩ : BufTy).Contents (Elt F)) ]

/-- The references it writes. -/
def W_c_ad_2 : List (Ref sig .tc) :=
  [main_v311]

theorem hW_c_ad_2 : WritesIn (c_ad_2 (F := Ideal)) W_c_ad_2 := by
  unfold WritesIn c_ad_2
  exact single_sub (y := main_v311) (by decide +kernel)

/-- It writes no argument. -/
theorem hA_c_ad_2 : ∀ r ∈ argRefs, r ∉ W_c_ad_2 := by
  decide +kernel

end Cert.RChain

end
-- ==== Proof.RChainS1.lean ====
/-
  Layer 1, head 2 and the score's sum, stretch by stretch: what each stretch leaves in the buffers later stretches
  read, as a function of what it found in the buffers it reads.
-/
import proofs.«416875_j80633716015165_3_alg».proof.Proof.RChainArr
import proofs.«416875_j80633716015165_3_alg».proof.Proof.RChainChunks1

noncomputable section

open Idealize.ShloMosaic Idealize.ShloMosaic.ValueIdx Idealize.SL.Sem
open Cert.ReferenceIdeal Cert.ReferenceIdeal.Facts₀
open Idealize.ShloMosaic.StableHlo

namespace Cert.RChain

/-- The neighbour sums of the layer's input. -/
theorem ng_1 (W : Valuation τ sig (Elt Ideal)) {x : Fin 20000 → Fin 128 → EReal} (hx : W (Proc.devRef .tc main_v140) = M.mk2 x) :
    after c_ng_1 W (Proc.devRef .tc main_v183) = M.mk2 (M.neigh x (inputsR W).src (inputsR W).dst) := by
  unfold c_ng_1
  after_results
  rw [hx]
  exact neigh_read x _ _

/-- The first linear map. -/
theorem l1_1 (W : Valuation τ sig (Elt Ideal)) {x ng : Fin 20000 → Fin 128 → EReal} (hx : W (Proc.devRef .tc main_v140) = M.mk2 x)
    (hng : W (Proc.devRef .tc main_v183) = M.mk2 ng) :
    after c_l1_1 W (Proc.devRef .tc main_v197)
      = M.mk2 (M.lin x ng ((inputsR W).eps (1 : Fin 4)) ((inputsR W).mlp_w1 (1 : Fin 4)) ((inputsR W).mlp_b1 (1 : Fin 4))) := by
  unfold c_l1_1
  after_results
  rw [hx, hng]
  exact lin_member x ng _ _ _ 1 (by decide : 1 < 4) _ _ _

/-- Normalisation 1: its scale. -/
theorem m1g_1 (W : Valuation τ sig (Elt Ideal)) :
    after c_m1_1 W (Proc.devRef .tc main_v199) = M.mk1 ((inputsR W).mlp_bn_g (1 : Fin 4)) := by
  unfold c_m1_1
  after_results
  exact vec_member _ 1 (by decide : 1 < 4) _

/-- Normalisation 1: its shift. -/
theorem m1b_1 (W : Valuation τ sig (Elt Ideal)) :
    after c_m1_1 W (Proc.devRef .tc main_v201) = M.mk1 ((inputsR W).mlp_bn_b (1 : Fin 4)) := by
  unfold c_m1_1
  after_results
  exact vec_member _ 1 (by decide : 1 < 4) _

/-- Normalisation 1: every column's mean. -/
theorem m1m_1 (W : Valuation τ sig (Elt Ideal)) {a : Fin 20000 → Fin 128 → EReal} (ha : W (Proc.devRef .tc main_v197) = M.mk2 a) :
    after c_m1_1 W (Proc.devRef .tc main_v204) = M.mk1 (M.meanR a) := by
  unfold c_m1_1
  after_results
  rw [ha]
  exact RStage.mean_eq (M.mk2 a)

attribute [local irreducible] Host.reduceAdd in
set_option maxHeartbeats 4000000 in
/-- Normalisation 1: every column's biased variance. -/
theorem v1_1 (W : Valuation τ sig (Elt Ideal)) {a : Fin 20000 → Fin 128 → EReal} (ha : W (Proc.devRef .tc main_v197) = M.mk2 a) :
    after c_v1_1 W (Proc.devRef .tc main_v205) = M.mk1 (M.varR a) := by
  unfold c_v1_1
  first
  | (after_results_simp; (try simp only [TRef.ofBuf, TRef.toBuf, cast_cast, cast_eq]); rw [ha]; exact RStage.var_eq (M.mk2 a))
  | (refine Eq.trans ?_ ((RStage.var_eq (W (Proc.devRef .tc main_v197))).trans (by rw [ha]; rfl)); simp only [after_cons, after_nil]; rfl)

set_option maxHeartbeats 1600000 in
/-- Normalisation 1: normalised, scaled, shifted, rectified. -/
theorem n1_1 (W : Valuation τ sig (Elt Ideal)) {a : Fin 20000 → Fin 128 → EReal} {m v g b : Fin 128 → EReal}
    (ha : W (Proc.devRef .tc main_v197) = M.mk2 a) (hm : W (Proc.devRef .tc main_v204) = M.mk1 m) (hv : W (Proc.devRef .tc main_v205) = M.mk1 v)
    (hg : W (Proc.devRef .tc main_v199) = M.mk1 g) (hb : W (Proc.devRef .tc main_v201) = M.mk1 b) :
    after c_n1_1 W (Proc.devRef .tc main_v221) = M.mk2 (M.bnrelu a m v g b) := by
  unfold c_n1_1
  first
  | (after_results_simp; (try simp only [TRef.ofBuf, TRef.toBuf, cast_cast, cast_eq]); rw [ha, hm, hv, hg, hb]; exact RStage.bnrelu_eq (M.mk2 a) (M.mk1 m) (M.mk1 v) (M.mk1 g) (M.mk1 b))
  | (refine Eq.trans ?_ ((RStage.bnrelu_eq (W (Proc.devRef .tc main_v197)) (W (Proc.devRef .tc main_v204)) (W (Proc.devRef .tc main_v205)) (W (Proc.devRef .tc main_v199)) (W (Proc.devRef .tc main_v201))).trans (by rw [ha, hm, hv, hg, hb]; rfl)); simp only [after_cons, after_nil]; rfl)

/-- The second linear map. -/
theorem l2_1 (W : Valuation τ sig (Elt Ideal)) {z : Fin 20000 → Fin 128 → EReal} (hz : W (Proc.devRef .tc main_v221) = M.mk2 z) :
    after c_l2_1 W (Proc.devRef .tc main_v229) = M.mk2 (M.affine z ((inputsR W).mlp_w2 (1 : Fin 4)) ((inputsR W).mlp_b2 (1 : Fin 4))) := by
  unfold c_l2_1
  after_results
  rw [hz]
  exact affine_member z _ _ 1 (by decide : 1 < 4) _ _

/-- Normalisation 2: its scale. -/
theorem m2g_1 (W : Valuation τ sig (Elt Ideal)) :
    after c_m2_1 W (Proc.devRef .tc main_v231) = M.mk1 ((inputsR W).app_bn_g (1 : Fin 4)) := by
  unfold c_m2_1
  after_results
  exact vec_member _ 1 (by decide : 1 < 4) _

/-- Normalisation 2: its shift. -/
theorem m2b_1 (W : Valuation τ sig (Elt Ideal)) :
    after c_m2_1 W (Proc.devRef .tc main_v233) = M.mk1 ((inputsR W).app_bn_b (1 : Fin 4)) := by
  unfold c_m2_1
  after_results
  exact vec_member _ 1 (by decide : 1 < 4) _

/-- Normalisation 2: every column's mean. -/
theorem m2m_1 (W : Valuation τ sig (Elt Ideal)) {a : Fin 20000 → Fin 128 → EReal} (ha : W (Proc.devRef .tc main_v229) = M.mk2 a) :
    after c_m2_1 W (Proc.devRef .tc main_v236) = M.mk1 (M.meanR a) := by
  unfold c_m2_1
  after_results
  rw [ha]
  exact RStage.mean_eq (M.mk2 a)

attribute [local irreducible] Host.reduceAdd in
set_option maxHeartbeats 4000000 in
/-- Normalisation 2: every column's biased variance. -/
theorem v2_1 (W : Valuation τ sig (Elt Ideal)) {a : Fin 20000 → Fin 128 → EReal} (ha : W (Proc.devRef .tc main_v229) = M.mk2 a) :
    after c_v2_1 W (Proc.devRef .tc main_v237) = M.mk1 (M.varR a) := by
  unfold c_v2_1
  first
  | (after_results_simp; (try simp only [TRef.ofBuf, TRef.toBuf, cast_cast, cast_eq]); rw [ha]; exact RStage.var_eq (M.mk2 a))
  | (refine Eq.trans ?_ ((RStage.var_eq (W (Proc.devRef .tc main_v229))).trans (by rw [ha]; rfl)); simp only [after_cons, after_nil]; rfl)

set_option maxHeartbeats 1600000 in
/-- Normalisation 2: normalised, scaled, shifted, rectified. -/
theorem n2_1 (W : Valuation τ sig (Elt Ideal)) {a : Fin 20000 → Fin 128 → EReal} {m v g b : Fin 128 → EReal}
    (ha : W (Proc.devRef .tc main_v229) = M.mk2 a) (hm : W (Proc.devRef .tc main_v236) = M.mk1 m) (hv : W (Proc.devRef .tc main_v237) = M.mk1 v)
    (hg : W (Proc.devRef .tc main_v231) = M.mk1 g) (hb : W (Proc.devRef .tc main_v233) = M.mk1 b) :
    after c_n2_1 W (Proc.devRef .tc main_v253) = M.mk2 (M.bnrelu a m v g b) := by
  unfold c_n2_1
  first
  | (after_results_simp; (try simp only [TRef.ofBuf, TRef.toBuf, cast_cast, cast_eq]); rw [ha, hm, hv, hg, hb]; exact RStage.bnrelu_eq (M.mk2 a) (M.mk1 m) (M.mk1 v) (M.mk1 g) (M.mk1 b))
  | (refine Eq.trans ?_ ((RStage.bnrelu_eq (W (Proc.devRef .tc main_v229)) (W (Proc.devRef .tc main_v236)) (W (Proc.devRef .tc main_v237)) (W (Proc.devRef .tc main_v231)) (W (Proc.devRef .tc main_v233))).trans (by rw [ha, hm, hv, hg, hb]; rfl)); simp only [after_cons, after_nil]; rfl)

/-- Normalisation 3: its scale. -/
theorem m3g_1 (W : Valuation τ sig (Elt Ideal)) :
    after c_m3_1 W (Proc.devRef .tc main_v255) = M.mk1 ((inputsR W).gin_bn_g (1 : Fin 4)) := by
  unfold c_m3_1
  after_results
  exact vec_member _ 1 (by decide : 1 < 4) _

/-- Normalisation 3: its shift. -/
theorem m3b_1 (W : Valuation τ sig (Elt Ideal)) :
    after c_m3_1 W (Proc.devRef .tc main_v257) = M.mk1 ((inputsR W).gin_bn_b (1 : Fin 4)) := by
  unfold c_m3_1
  after_results
  exact vec_member _ 1 (by decide : 1 < 4) _

/-- Normalisation 3: every column's mean. -/
theorem m3m_1 (W : Valuation τ sig (Elt Ideal)) {a : Fin 20000 → Fin 128 → EReal} (ha : W (Proc.devRef .tc main_v253) = M.mk2 a) :
    after c_m3_1 W (Proc.devRef .tc main_v260) = M.mk1 (M.meanR a) := by
  unfold c_m3_1
  after_results
  rw [ha]
  exact RStage.mean_eq (M.mk2 a)

attribute [local irreducible] Host.reduceAdd in
set_option maxHeartbeats 4000000 in
/-- Normalisation 3: every column's biased variance. -/
theorem v3_1 (W : Valuation τ sig (Elt Ideal)) {a : Fin 20000 → Fin 128 → EReal} (ha : W (Proc.devRef .tc main_v253) = M.mk2 a) :
    after c_v3_1 W (Proc.devRef .tc main_v261) = M.mk1 (M.varR a) := by
  unfold c_v3_1
  first
  | (after_results_simp; (try simp only [TRef.ofBuf, TRef.toBuf, cast_cast, cast_eq]); rw [ha]; exact RStage.var_eq (M.mk2 a))
  | (refine Eq.trans ?_ ((RStage.var_eq (W (Proc.devRef .tc main_v253))).trans (by rw [ha]; rfl)); simp only [after_cons, after_nil]; rfl)

set_option maxHeartbeats 1600000 in
/-- Normalisation 3: normalised, scaled, shifted, rectified. -/
theorem n3_1 (W : Valuation τ sig (Elt Ideal)) {a : Fin 20000 → Fin 128 → EReal} {m v g b : Fin 128 → EReal}
    (ha : W (Proc.devRef .tc main_v253) = M.mk2 a) (hm : W (Proc.devRef .tc main_v260) = M.mk1 m) (hv : W (Proc.devRef .tc main_v261) = M.mk1 v)
    (hg : W (Proc.devRef .tc main_v255) = M.mk1 g) (hb : W (Proc.devRef .tc main_v257) = M.mk1 b) :
    after c_n3_1 W (Proc.devRef .tc main_v277) = M.mk2 (M.bnrelu a m v g b) := by
  unfold c_n3_1
  first
  | (after_results_simp; (try simp only [TRef.ofBuf, TRef.toBuf, cast_cast, cast_eq]); rw [ha, hm, hv, hg, hb]; exact RStage.bnrelu_eq (M.mk2 a) (M.mk1 m) (M.mk1 v) (M.mk1 g) (M.mk1 b))
  | (refine Eq.trans ?_ ((RStage.bnrelu_eq (W (Proc.devRef .tc main_v253)) (W (Proc.devRef .tc main_v260)) (W (Proc.devRef .tc main_v261)) (W (Proc.devRef .tc main_v255)) (W (Proc.devRef .tc main_v257))).trans (by rw [ha, hm, hv, hg, hb]; rfl)); simp only [after_cons, after_nil]; rfl)

/-- The layer's output: its input plus the last normalisation. -/
theorem rs_1 (W : Valuation τ sig (Elt Ideal)) {x z : Fin 20000 → Fin 128 → EReal} (hx : W (Proc.devRef .tc main_v140) = M.mk2 x)
    (hz : W (Proc.devRef .tc main_v277) = M.mk2 z) :
    after c_rs_1 W (Proc.devRef .tc main_v278) = M.mk2 (fun r j => x r j + z r j) := by
  unfold c_rs_1
  after_results
  rw [hx, hz]
  rfl

set_option maxHeartbeats 1600000 in
/-- The head's rows at the edges' source words. -/
theorem hgs_2 (W : Valuation τ sig (Elt Ideal)) {x : Fin 20000 → Fin 128 → EReal} (hx : W (Proc.devRef .tc main_v278) = M.mk2 x) :
    after c_hg_2 W (Proc.devRef .tc main_v285) = M.mk2 (M.rows x (inputsR W).src) := by
  unfold c_hg_2
  after_results_simp
  try simp only [TRef.ofBuf, TRef.toBuf, cast_cast, cast_eq]
  rw [hx]
  exact rows_read x _

set_option maxHeartbeats 1600000 in
/-- The head's rows at the edges' target words. -/
theorem hgd_2 (W : Valuation τ sig (Elt Ideal)) {x : Fin 20000 → Fin 128 → EReal} (hx : W (Proc.devRef .tc main_v278) = M.mk2 x) :
    after c_hg_2 W (Proc.devRef .tc main_v292) = M.mk2 (M.rows x (inputsR W).dst) := by
  unfold c_hg_2
  after_results_simp
  try simp only [TRef.ofBuf, TRef.toBuf, cast_cast, cast_eq]
  rw [hx]
  exact rows_read x _

set_option maxHeartbeats 1600000 in
/-- The head's score from the two gathered arrays. -/
theorem hs_2 (W : Valuation τ sig (Elt Ideal)) {xs xd : Fin 320000 → Fin 128 → EReal} (h₁ : W (Proc.devRef .tc main_v285) = M.mk2 xs)
    (h₂ : W (Proc.devRef .tc main_v292) = M.mk2 xd) :
    after c_hs_2 W (Proc.devRef .tc main_v310)
      = M.mk2 (M.headR xs xd ((inputsR W).pred_w1 (2 : Fin 5)) ((inputsR W).pred_b1 (2 : Fin 5)) ((inputsR W).pred_w2 (2 : Fin 5))
          ((inputsR W).pred_b2 (2 : Fin 5))) := by
  unfold c_hs_2
  after_results_simp
  try simp only [TRef.ofBuf, TRef.toBuf, cast_cast, cast_eq]
  rw [h₁, h₂]
  exact head_member xs xd _ _ _ _ 2 (by decide : 2 < 5) _ _ _ _

/-- The running score plus the head's. -/
theorem ad_2 (W : Valuation τ sig (Elt Ideal)) {s h : Fin 320000 → Fin 2 → EReal} (hs : W (Proc.devRef .tc main_v173) = M.mk2 s)
    (hh : W (Proc.devRef .tc main_v310) = M.mk2 h) :
    after c_ad_2 W (Proc.devRef .tc main_v311) = M.mk2 (fun e c => s e c + h e c) := by
  unfold c_ad_2
  after_results
  rw [hs, hh]
  rfl

end Cert.RChain

end
-- ==== Proof.RChainU1.lean ====
/-
  Layer 1, head 2 and the score's sum as one step: from the layer's input and the running score to the layer's output
  and the score with the head's added, the arguments kept.
-/
import proofs.«416875_j80633716015165_3_alg».proof.Proof.RChainS1

noncomputable section

open Idealize.ShloMosaic Idealize.ShloMosaic.ValueIdx Idealize.SL.Sem
open Cert.ReferenceIdeal Cert.ReferenceIdeal.Facts₀
open Idealize.ShloMosaic.StableHlo

namespace Cert.RChain

/-- Layer 1, head 2 and the score's sum, in order. -/
def U_1 : List (HloOp τ sig (Elt Ideal)) :=
  c_ng_1 ++ (c_l1_1 ++ (c_m1_1 ++ (c_v1_1 ++ (c_n1_1 ++ (c_l2_1 ++ (c_m2_1 ++ (c_v2_1 ++ (c_n2_1 ++ (c_m3_1 ++ (c_v3_1 ++ (c_n3_1 ++ (c_rs_1 ++ (c_hg_2 ++ (c_hs_2 ++ (c_ad_2)))))))))))))))

/-- The references they write. -/
def WU_1 : List (Ref sig .tc) :=
  W_c_ng_1 ++ (W_c_l1_1 ++ (W_c_m1_1 ++ (W_c_v1_1 ++ (W_c_n1_1 ++ (W_c_l2_1 ++ (W_c_m2_1 ++ (W_c_v2_1 ++ (W_c_n2_1 ++ (W_c_m3_1 ++ (W_c_v3_1 ++ (W_c_n3_1 ++ (W_c_rs_1 ++ (W_c_hg_2 ++ (W_c_hs_2 ++ (W_c_ad_2)))))))))))))))

theorem hWU_1 : WritesIn U_1 WU_1 :=
  hW_c_ng_1.append (hW_c_l1_1.append (hW_c_m1_1.append (hW_c_v1_1.append (hW_c_n1_1.append (hW_c_l2_1.append (hW_c_m2_1.append (hW_c_v2_1.append (hW_c_n2_1.append (hW_c_m3_1.append (hW_c_v3_1.append (hW_c_n3_1.append (hW_c_rs_1.append (hW_c_hg_2.append (hW_c_hs_2.append (hW_c_ad_2)))))))))))))))

set_option maxHeartbeats 1000000 in
/-- From the layer's input and the running score: the layer's output and the score with head 2 added; the arguments
    are kept. -/
theorem unit_1 {V W : Valuation τ sig (Elt Ideal)} {x : Fin 20000 → Fin 128 → EReal} {s : Fin 320000 → Fin 2 → EReal}
    (a : ArgsAre V W) (hx : W (Proc.devRef .tc main_v140) = M.mk2 x) (hs : W (Proc.devRef .tc main_v173) = M.mk2 s) :
    ArgsAre V (after U_1 W)
      ∧ after U_1 W (Proc.devRef .tc main_v278) = M.mk2 (M.layerI (inputsR V) (1 : Fin 4) x)
      ∧ after U_1 W (Proc.devRef .tc main_v311)
          = M.mk2 (fun e c => s e c + M.headI (inputsR V) (2 : Fin 5) (M.layerI (inputsR V) (1 : Fin 4) x) e c) := by
  have h1_v45 := ng_1 _ hx
  rw [a.inputs] at h1_v45
  have h1_v3 := (hW_c_ng_1.frame (r := main_v140) (by decide +kernel) _).trans hx
  have h1_v35 := (hW_c_ng_1.frame (r := main_v173) (by decide +kernel) _).trans hs
  have a1 := a.step hW_c_ng_1 hA_c_ng_1
  have h2_v59 := l1_1 _ h1_v3 h1_v45
  rw [a1.inputs] at h2_v59
  have h2_v3 := (hW_c_l1_1.frame (r := main_v140) (by decide +kernel) _).trans h1_v3
  have h2_v35 := (hW_c_l1_1.frame (r := main_v173) (by decide +kernel) _).trans h1_v35
  have a2 := a1.step hW_c_l1_1 hA_c_l1_1
  have h3_v61 := m1g_1 (after c_l1_1 (after c_ng_1 W))
  rw [a2.inputs] at h3_v61
  have h3_v63 := m1b_1 (after c_l1_1 (after c_ng_1 W))
  rw [a2.inputs] at h3_v63
  have h3_v66 := m1m_1 _ h2_v59
  have h3_v3 := (hW_c_m1_1.frame (r := main_v140) (by decide +kernel) _).trans h2_v3
  have h3_v35 := (hW_c_m1_1.frame (r := main_v173) (by decide +kernel) _).trans h2_v35
  have h3_v59 := (hW_c_m1_1.frame (r := main_v197) (by decide +kernel) _).trans h2_v59
  have a3 := a2.step hW_c_m1_1 hA_c_m1_1
  have h4_v67 := v1_1 _ h3_v59
  have h4_v3 := (hW_c_v1_1.frame (r := main_v140) (by decide +kernel) _).trans h3_v3
  have h4_v35 := (hW_c_v1_1.frame (r := main_v173) (by decide +kernel) _).trans h3_v35
  have h4_v59 := (hW_c_v1_1.frame (r := main_v197) (by decide +kernel) _).trans h3_v59
  have h4_v61 := (hW_c_v1_1.frame (r := main_v199) (by decide +kernel) _).trans h3_v61
  have h4_v63 := (hW_c_v1_1.frame (r := main_v201) (by decide +kernel) _).trans h3_v63
  have h4_v66 := (hW_c_v1_1.frame (r := main_v204) (by decide +kernel) _).trans h3_v66
  have a4 := a3.step hW_c_v1_1 hA_c_v1_1
  have h5_v83 := n1_1 _ h4_v59 h4_v66 h4_v67 h4_v61 h4_v63
  have h5_v3 := (hW_c_n1_1.frame (r := main_v140) (by decide +kernel) _).trans h4_v3
  have h5_v35 := (hW_c_n1_1.frame (r := main_v173) (by decide +kernel) _).trans h4_v35
  have a5 := a4.step hW_c_n1_1 hA_c_n1_1
  have h6_v91 := l2_1 _ h5_v83
  rw [a5.inputs] at h6_v91
  have h6_v3 := (hW_c_l2_1.frame (r := main_v140) (by decide +kernel) _).trans h5_v3
  have h6_v35 := (hW_c_l2_1.frame (r := main_v173) (by decide +kernel) _).trans h5_v35
  have a6 := a5.step hW_c_l2_1 hA_c_l2_1
  have h7_v93 := m2g_1 (after c_l2_1 (after c_n1_1 (after c_v1_1 (after c_m1_1 (after c_l1_1 (after c_ng_1 W))))))
  rw [a6.inputs] at h7_v93
  have h7_v95 := m2b_1 (after c_l2_1 (after c_n1_1 (after c_v1_1 (after c_m1_1 (after c_l1_1 (after c_ng_1 W))))))
  rw [a6.inputs] at h7_v95
  have h7_v98 := m2m_1 _ h6_v91
  have h7_v3 := (hW_c_m2_1.frame (r := main_v140) (by decide +kernel) _).trans h6_v3
  have h7_v35 := (hW_c_m2_1.frame (r := main_v173) (by decide +kernel) _).trans h6_v35
  have h7_v91 := (hW_c_m2_1.frame (r := main_v229) (by decide +kernel) _).trans h6_v91
  have a7 := a6.step hW_c_m2_1 hA_c_m2_1
  have h8_v99 := v2_1 _ h7_v91
  have h8_v3 := (hW_c_v2_1.frame (r := main_v140) (by decide +kernel) _).trans h7_v3
  have h8_v35 := (hW_c_v2_1.frame (r := main_v173) (by decide +kernel) _).trans h7_v35
  have h8_v91 := (hW_c_v2_1.frame (r := main_v229) (by decide +kernel) _).trans h7_v91
  have h8_v93 := (hW_c_v2_1.frame (r := main_v231) (by decide +kernel) _).trans h7_v93
  have h8_v95 := (hW_c_v2_1.frame (r := main_v233) (by decide +kernel) _).trans h7_v95
  have h8_v98 := (hW_c_v2_1.frame (r := main_v236) (by decide +kernel) _).trans h7_v98
  have a8 := a7.step hW_c_v2_1 hA_c_v2_1
  have h9_v115 := n2_1 _ h8_v91 h8_v98 h8_v99 h8_v93 h8_v95
  have h9_v3 := (hW_c_n2_1.frame (r := main_v140) (by decide +kernel) _).trans h8_v3
  have h9_v35 := (hW_c_n2_1.frame (r := main_v173) (by decide +kernel) _).trans h8_v35
  have a9 := a8.step hW_c_n2_1 hA_c_n2_1
  have h10_v117 := m3g_1 (after c_n2_1 (after c_v2_1 (after c_m2_1 (after c_l2_1 (after c_n1_1 (after c_v1_1 (after c_m1_1 (after c_l1_1 (after c_ng_1 W)))))))))
  rw [a9.inputs] at h10_v117
  have h10_v119 := m3b_1 (after c_n2_1 (after c_v2_1 (after c_m2_1 (after c_l2_1 (after c_n1_1 (after c_v1_1 (after c_m1_1 (after c_l1_1 (after c_ng_1 W)))))))))
  rw [a9.inputs] at h10_v119
  have h10_v122 := m3m_1 _ h9_v115
  have h10_v3 := (hW_c_m3_1.frame (r := main_v140) (by decide +kernel) _).trans h9_v3
  have h10_v35 := (hW_c_m3_1.frame (r := main_v173) (by decide +kernel) _).trans h9_v35
  have h10_v115 := (hW_c_m3_1.frame (r := main_v253) (by decide +kernel) _).trans h9_v115
  have a10 := a9.step hW_c_m3_1 hA_c_m3_1
  have h11_v123 := v3_1 _ h10_v115
  have h11_v3 := (hW_c_v3_1.frame (r := main_v140) (by decide +kernel) _).trans h10_v3
  have h11_v35 := (hW_c_v3_1.frame (r := main_v173) (by decide +kernel) _).trans h10_v35
  have h11_v115 := (hW_c_v3_1.frame (r := main_v253) (by decide +kernel) _).trans h10_v115
  have h11_v117 := (hW_c_v3_1.frame (r := main_v255) (by decide +kernel) _).trans h10_v117
  have h11_v119 := (hW_c_v3_1.frame (r := main_v257) (by decide +kernel) _).trans h10_v119
  have h11_v122 := (hW_c_v3_1.frame (r := main_v260) (by decide +kernel) _).trans h10_v122
  have a11 := a10.step hW_c_v3_1 hA_c_v3_1
  have h12_v139 := n3_1 _ h11_v115 h11_v122 h11_v123 h11_v117 h11_v119
  have h12_v3 := (hW_c_n3_1.frame (r := main_v140) (by decide +kernel) _).trans h11_v3
  have h12_v35 := (hW_c_n3_1.frame (r := main_v173) (by decide +kernel) _).trans h11_v35
  have a12 := a11.step hW_c_n3_1 hA_c_n3_1
  have h13_v140 := rs_1 _ h12_v3 h12_v139
  have h13_v35 := (hW_c_rs_1.frame (r := main_v173) (by decide +kernel) _).trans h12_v35
  have a13 := a12.step hW_c_rs_1 hA_c_rs_1
  have h14_v147 := hgs_2 _ h13_v140
  rw [a13.inputs] at h14_v147
  have h14_v154 := hgd_2 _ h13_v140
  rw [a13.inputs] at h14_v154
  have h14_v35 := (hW_c_hg_2.frame (r := main_v173) (by decide +kernel) _).trans h13_v35
  have h14_v140 := (hW_c_hg_2.frame (r := main_v278) (by decide +kernel) _).trans h13_v140
  have a14 := a13.step hW_c_hg_2 hA_c_hg_2
  have h15_v172 := hs_2 _ h14_v147 h14_v154
  rw [a14.inputs] at h15_v172
  have h15_v35 := (hW_c_hs_2.frame (r := main_v173) (by decide +kernel) _).trans h14_v35
  have h15_v140 := (hW_c_hs_2.frame (r := main_v278) (by decide +kernel) _).trans h14_v140
  have a15 := a14.step hW_c_hs_2 hA_c_hs_2
  have h16_v173 := ad_2 _ h15_v35 h15_v172
  have h16_v140 := (hW_c_ad_2.frame (r := main_v278) (by decide +kernel) _).trans h15_v140
  have a16 := a15.step hW_c_ad_2 hA_c_ad_2
  have e : after U_1 W = after c_ad_2 (after c_hs_2 (after c_hg_2 (after c_rs_1 (after c_n3_1 (after c_v3_1 (after c_m3_1 (after c_n2_1 (after c_v2_1 (after c_m2_1 (after c_l2_1 (after c_n1_1 (after c_v1_1 (after c_m1_1 (after c_l1_1 (after c_ng_1 W))))))))))))))) := by
    unfold U_1
    simp only [after_app]
  rw [e]
  refine ⟨a16, ?_, ?_⟩
  · rw [h16_v140]
    unfold M.layerI M.layer M.stage4 M.stage3 M.stage2
    rfl
  · rw [h16_v173]
    unfold M.headI M.layerI M.layer M.stage4 M.stage3 M.stage2
    rfl

end Cert.RChain

end
-- ==== Proof.RChainChunks2.lean ====
import proofs.«416875_j80633716015165_3_alg».proof.Proof.RChainBase

noncomputable section

open Idealize.ShloMosaic Idealize.ShloMosaic.ValueIdx Idealize.SL.Sem
open Cert.ReferenceIdeal Cert.ReferenceIdeal.Facts₀
open Idealize.ShloMosaic.StableHlo

namespace Cert.RChain

/-- Layer 2: the neighbour sums. -/
def c_ng_2 {F : FTy → Type} [FloatOps F] : List (HloOp τ sig (Elt F)) :=
  [ nullary main_c_42 (constantI S_ 32 0#32),
    unary main_c_42 main_v312 (broadcastInDim S320000 ![] bcast_S_S320000 : (⟨S_, .i32⟩ : BufTy).Contents (Elt F) → (⟨S320000, .i32⟩ : BufTy).Contents (Elt F)),
    binary main_arg18 main_v312 main_v313 (cmpi .slt : (⟨S320000, .i32⟩ : BufTy).Contents (Elt F) → (⟨S320000, .i32⟩ : BufTy).Contents (Elt F) → (⟨S320000, .i1⟩ : BufTy).Contents (Elt F)),
    nullary main_c_43 (constantI S_ 32 20000#32),
    unary main_c_43 main_v314 (broadcastInDim S320000 ![] bcast_S_S320000 : (⟨S_, .i32⟩ : BufTy).Contents (Elt F) → (⟨S320000, .i32⟩ : BufTy).Contents (Elt F)),
    binary main_arg18 main_v314 main_v315 (addi : (⟨S320000, .i32⟩ : BufTy).Contents (Elt F) → (⟨S320000, .i32⟩ : BufTy).Contents (Elt F) → (⟨S320000, .i32⟩ : BufTy).Contents (Elt F)),
    ternary main_v313 main_v315 main_arg18 main_v316 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v316 main_v317 (broadcastInDim S320000x1 ![0] bcast_S320000_S320000x1_0 : (⟨S320000, .i32⟩ : BufTy).Contents (Elt F) → (⟨S320000x1, .i32⟩ : BufTy).Contents (Elt F)),
    binary main_v278 main_v317 main_v318 ((fun x i => Host.gather gather_S20000x128_S320000x1_S320000x128_1_0_n_n_0_1_1128 x i) : (⟨S20000x128, .f32⟩ : BufTy).Contents (Elt F) → (⟨S320000x1, .i32⟩ : BufTy).Contents (Elt F) → (⟨S320000x128, .f32⟩ : BufTy).Contents (Elt F)),
    nullary main_cst_44 (constant S_ .f32 0x00000000#32),
    unary main_cst_44 main_v319 (broadcastInDim S20000x128 ![] bcast_S_S20000x128 : (⟨S_, .f32⟩ : BufTy).Contents (Elt F) → (⟨S20000x128, .f32⟩ : BufTy).Contents (Elt F)),
    unary main_arg19 main_v320 (broadcastInDim S320000x1 ![0] bcast_S320000_S320000x1_0 : (⟨S320000, .i32⟩ : BufTy).Contents (Elt F) → (⟨S320000x1, .i32⟩ : BufTy).Contents (Elt F)),
    ternary main_v319 main_v320 main_v318 main_v321 ((fun x i u => Host.scatterAdd scatter_S20000x128_S320000x1_S320000x128_1_0_0_1 x i u) : (⟨S20000x128, .f32⟩ : BufTy).Contents (Elt F) → (⟨S320000x1, .i32⟩ : BufTy).Contents (Elt F) → (⟨S320000x128, .f32⟩ : BufTy).Contents (Elt F) → (⟨S20000x128, .f32⟩ : BufTy).Contents (Elt F)) ]

/-- The references it writes. -/
def W_c_ng_2 : List (Ref sig .tc) :=
  [main_c_42, main_v312, main_v313, main_c_43, main_v314, main_v315, main_v316, main_v317, main_v318, main_cst_44, main_v319, main_v320, main_v321]

theorem hW_c_ng_2 : WritesIn (c_ng_2 (F := Ideal)) W_c_ng_2 := by
  unfold WritesIn c_ng_2
  exact ⟨single_sub (y := main_c_42) (by decide +kernel),
    single_sub (y := main_v312) (by decide +kernel),
    single_sub (y := main_v313) (by decide +kernel),
    single_sub (y := main_c_43) (by decide +kernel),
    single_sub (y := main_v314) (by decide +kernel),
    single_sub (y := main_v315) (by decide +kernel),
    single_sub (y := main_v316) (by decide +kernel),
    single_sub (y := main_v317) (by decide +kernel),
    single_sub (y := main_v318) (by decide +kernel),
    single_sub (y := main_cst_44) (by decide +kernel),
    single_sub (y := main_v319) (by decide +kernel),
    single_sub (y := main_v320) (by decide +kernel),
    single_sub (y := main_v321) (by decide +kernel)⟩

/-- It writes no argument. -/
theorem hA_c_ng_2 : ∀ r ∈ argRefs, r ∉ W_c_ng_2 := by
  decide +kernel

/-- Layer 2: the scaled input plus the neighbour sums, through the first linear map. -/
def c_l1_2 {F : FTy → Type} [FloatOps F] : List (HloOp τ sig (Elt F)) :=
  [ unary main_arg3 main_v322 ((extractStridedSlice S1 ![2] · slices_S4_S1_2) : (⟨S4, .f32⟩ : BufTy).Contents (Elt F) → (⟨S1, .f32⟩ : BufTy).Contents (Elt F)),
    reshape main_v322 main_v323 rfl shapeCasts_S1_S_,
    nullary main_cst_45 (constant S_ .f32 0x3F800000#32),
    binary main_cst_45 main_v323 main_v324 (addf : (⟨S_, .f32⟩ : BufTy).Contents (Elt F) → (⟨S_, .f32⟩ : BufTy).Contents (Elt F) → (⟨S_, .f32⟩ : BufTy).Contents (Elt F)),
    unary main_v324 main_v325 (broadcastInDim S20000x128 ![] bcast_S_S20000x128 : (⟨S_, .f32⟩ : BufTy).Contents (Elt F) → (⟨S20000x128, .f32⟩ : BufTy).Contents (Elt F)),
    binary main_v325 main_v278 main_v326 (mulf : (⟨S20000x128, .f32⟩ : BufTy).Contents (Elt F) → (⟨S20000x128, .f32⟩ : BufTy).Contents (Elt F) → (⟨S20000x128, .f32⟩ : BufTy).Contents (Elt F)),
    binary main_v326 main_v321 main_v327 (addf : (⟨S20000x128, .f32⟩ : BufTy).Contents (Elt F) → (⟨S20000x128, .f32⟩ : BufTy).Contents (Elt F) → (⟨S20000x128, .f32⟩ : BufTy).Contents (Elt F)),
    unary main_arg4 main_v328 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v328 main_v329 rfl shapeCasts_S1x128x128_S128x128,
    binary main_v327 main_v329 main_v330 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg5 main_v331 ((extractStridedSlice S1x128 ![2, 0] · slices_S4x128_S1x128_2_0) : (⟨S4x128, .f32⟩ : BufTy).Contents (Elt F) → (⟨S1x128, .f32⟩ : BufTy).Contents (Elt F)),
    reshape main_v331 main_v332 rfl shapeCasts_S1x128_S128,
    unary main_v332 main_v333 (broadcastInDim S1x128 ![1] bcast_S128_S1x128_1 : (⟨S128, .f32⟩ : BufTy).Contents (Elt F) → (⟨S1x128, .f32⟩ : BufTy).Contents (Elt F)),
    unary main_v333 main_v334 (broadcastInDim S20000x128 ![0, 1] bcast_S1x128_S20000x128_0_1 : (⟨S1x128, .f32⟩ : BufTy).Contents (Elt F) → (⟨S20000x128, .f32⟩ : BufTy).Contents (Elt F)),
    binary main_v330 main_v334 main_v335 (addf : (⟨S20000x128, .f32⟩ : BufTy).Contents (Elt F) → (⟨S20000x128, .f32⟩ : BufTy).Contents (Elt F) → (⟨S20000x128, .f32⟩ : BufTy).Contents (Elt F)) ]

/-- The references it writes. -/
def W_c_l1_2 : List (Ref sig .tc) :=
  [main_v322, main_v323, main_cst_45, main_v324, main_v325, main_v326, main_v327, main_v328, main_v329, main_v330, main_v331, main_v332, main_v333, main_v334, main_v335]

theorem hW_c_l1_2 : WritesIn (c_l1_2 (F := Ideal)) W_c_l1_2 := by
  unfold WritesIn c_l1_2
  exact ⟨single_sub (y := main_v322) (by decide +kernel),
    single_sub (y := main_v323) (by decide +kernel),
    single_sub (y := main_cst_45) (by decide +kernel),
    single_sub (y := main_v324) (by decide +kernel),
    single_sub (y := main_v325) (by decide +kernel),
    single_sub (y := main_v326) (by decide +kernel),
    single_sub (y := main_v327) (by decide +kernel),
    single_sub (y := main_v328) (by decide +kernel),
    single_sub (y := main_v329) (by decide +kernel),
    single_sub (y := main_v330) (by decide +kernel),
    single_sub (y := main_v331) (by decide +kernel),
    single_sub (y := main_v332) (by decide +kernel),
    single_sub (y := main_v333) (by decide +kernel),
    single_sub (y := main_v334) (by decide +kernel),
    single_sub (y := main_v335) (by decide +kernel)⟩

/-- It writes no argument. -/
theorem hA_c_l1_2 : ∀ r ∈ argRefs, r ∉ W_c_l1_2 := by
  decide +kernel

/-- Layer 2, normalisation 1: its scale, its shift and every column's mean. -/
def c_m1_2 {F : FTy → Type} [FloatOps F] : List (HloOp τ sig (Elt F)) :=
  [ unary main_arg6 main_v336 ((extractStridedSlice S1x128 ![2, 0] · slices_S4x128_S1x128_2_0) : (⟨S4x128, .f32⟩ : BufTy).Contents (Elt F) → (⟨S1x128, .f32⟩ : BufTy).Contents (Elt F)),
    reshape main_v336 main_v337 rfl shapeCasts_S1x128_S128,
    unary main_arg7 main_v338 ((extractStridedSlice S1x128 ![2, 0] · slices_S4x128_S1x128_2_0) : (⟨S4x128, .f32⟩ : BufTy).Contents (Elt F) → (⟨S1x128, .f32⟩ : BufTy).Contents (Elt F)),
    reshape main_v338 main_v339 rfl shapeCasts_S1x128_S128,
    nullary main_cst_46 (constant S_ .f32 0x00000000#32),
    binary main_v335 main_cst_46 main_v340 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    nullary main_cst_47 (constant S_ .f32 0x469C4000#32),
    unary main_cst_47 main_v341 (broadcastInDim S128 ![] bcast_S_S128 : (⟨S_, .f32⟩ : BufTy).Contents (Elt F) → (⟨S128, .f32⟩ : BufTy).Contents (Elt F)),
    binary main_v340 main_v341 main_v342 (Host.divf : (⟨S128, .f32⟩ : BufTy).Contents (Elt F) → (⟨S128, .f32⟩ : BufTy).Contents (Elt F) → (⟨S128, .f32⟩ : BufTy).Contents (Elt F)) ]

/-- The references it writes. -/
def W_c_m1_2 : List (Ref sig .tc) :=
  [main_v336, main_v337, main_v338, main_v339, main_cst_46, main_v340, main_cst_47, main_v341, main_v342]

theorem hW_c_m1_2 : WritesIn (c_m1_2 (F := Ideal)) W_c_m1_2 := by
  unfold WritesIn c_m1_2
  exact ⟨single_sub (y := main_v336) (by decide +kernel),
    single_sub (y := main_v337) (by decide +kernel),
    single_sub (y := main_v338) (by decide +kernel),
    single_sub (y := main_v339) (by decide +kernel),
    single_sub (y := main_cst_46) (by decide +kernel),
    single_sub (y := main_v340) (by decide +kernel),
    single_sub (y := main_cst_47) (by decide +kernel),
    single_sub (y := main_v341) (by decide +kernel),
    single_sub (y := main_v342) (by decide +kernel)⟩

/-- It writes no argument. -/
theorem hA_c_m1_2 : ∀ r ∈ argRefs, r ∉ W_c_m1_2 := by
  decide +kernel

/-- Layer 2, normalisation 1: every column's biased variance. -/
def c_v1_2 {F : FTy → Type} [FloatOps F] : List (HloOp τ sig (Elt F)) :=
  [ nullary main_c_48 (constantI S_ 32 0#32),
    TRef.nullary main_call15.cst (constant S_ .f32 0x00000000#32),
    TRef.binary (.of main_v335) main_call15.cst main_call15.v0 (fun x v => Host.reduceAdd x v reducesTo_S20000x128_S128_d0 h_S_),
    TRef.unary main_call15.v0 main_call15.v1 (broadcastInDim S1x128 ![1] bcast_S128_S1x128_1),
    TRef.nullary main_call15.cst_0 (constant S_ .f32 0x469C4000#32),
    TRef.unary main_call15.cst_0 main_call15.v2 (broadcastInDim S1x128 ![] bcast_S_S1x128),
    TRef.binary main_call15.v1 main_call15.v2 main_call15.v3 Host.divf,
    TRef.unary main_call15.v3 main_call15.v4 (broadcastInDim S20000x128 ![0, 1] bcast_S1x128_S20000x128_0_1),
    TRef.binary (.of main_v335) main_call15.v4 main_call15.v5 subf,
    TRef.binary main_call15.v5 main_call15.v5 main_call15.v6 mulf,
    TRef.unary (.of main_c_48) main_call15.v7 (sitofp .f32),
    TRef.nullary main_call15.cst_1 (constant S_ .f32 0x469C4000#32),
    TRef.binary main_call15.cst_1 main_call15.v7 main_call15.v8 subf,
    TRef.nullary main_call15.cst_2 (constant S_ .f32 0x00000000#32),
    TRef.binary main_call15.v6 main_call15.cst_2 main_call15.v9 (fun x v => Host.reduceAdd x v reducesTo_S20000x128_S128_d0 h_S_),
    TRef.unary main_call15.v8 main_call15.v10 (broadcastInDim S128 ![] bcast_S_S128),
    TRef.binary main_call15.v9 main_call15.v10 main_call15.v11 Host.divf,
    TRef.nullary main_call15.cst_3 (constant S_ .f32 0x00000000#32),
    TRef.binary main_call15.v8 main_call15.cst_3 main_call15.v12 (cmpf .ogt),
    TRef.nullary main_call15.cst_4 (constant S_ .f32 0x7FC00000#32),
    TRef.unary main_call15.cst_4 main_call15.call0.v0 id,
    TRef.unary main_call15.call0.v0 main_call15.call0.v1 (broadcastInDim S128 ![] bcast_S_S128),
    TRef.ternary main_call15.v12 main_call15.v11 main_call15.call0.v1 main_call15.call0.v2 (fun p a b => select (broadcastInDim S128 ![] bcast_S_S128 p) a b) ]

/-- The references it writes. -/
def W_c_v1_2 : List (Ref sig .tc) :=
  [main_c_48, main_call15_cst, main_call15_v0, main_call15_v1, main_call15_cst_0, main_call15_v2, main_call15_v3, main_call15_v4, main_call15_v5, main_call15_v6, main_call15_v7, main_call15_cst_1, main_call15_v8, main_call15_cst_2, main_call15_v9, main_call15_v10, main_call15_v11, main_call15_cst_3, main_call15_v12, main_call15_cst_4, main_call15_call0_v0, main_call15_call0_v1, main_v343]

theorem hW_c_v1_2 : WritesIn (c_v1_2 (F := Ideal)) W_c_v1_2 := by
  unfold WritesIn c_v1_2
  exact ⟨single_sub (y := main_c_48) (by decide +kernel),
    single_sub (y := main_call15_cst) (by decide +kernel),
    single_sub (y := main_call15_v0) (by decide +kernel),
    single_sub (y := main_call15_v1) (by decide +kernel),
    single_sub (y := main_call15_cst_0) (by decide +kernel),
    single_sub (y := main_call15_v2) (by decide +kernel),
    single_sub (y := main_call15_v3) (by decide +kernel),
    single_sub (y := main_call15_v4) (by decide +kernel),
    single_sub (y := main_call15_v5) (by decide +kernel),
    single_sub (y := main_call15_v6) (by decide +kernel),
    single_sub (y := main_call15_v7) (by decide +kernel),
    single_sub (y := main_call15_cst_1) (by decide +kernel),
    single_sub (y := main_call15_v8) (by decide +kernel),
    single_sub (y := main_call15_cst_2) (by decide +kernel),
    single_sub (y := main_call15_v9) (by decide +kernel),
    single_sub (y := main_call15_v10) (by decide +kernel),
    single_sub (y := main_call15_v11) (by decide +kernel),
    single_sub (y := main_call15_cst_3) (by decide +kernel),
    single_sub (y := main_call15_v12) (by decide +kernel),
    single_sub (y := main_call15_cst_4) (by decide +kernel),
    single_sub (y := main_call15_call0_v0) (by decide +kernel),
    single_sub (y := main_call15_call0_v1) (by decide +kernel),
    single_sub (y := main_v343) (by decide +kernel)⟩

/-- It writes no argument. -/
theorem hA_c_v1_2 : ∀ r ∈ argRefs, r ∉ W_c_v1_2 := by
  decide +kernel

/-- Layer 2, normalisation 1: normalised, scaled, shifted and rectified. -/
def c_n1_2 {F : FTy → Type} [FloatOps F] : List (HloOp τ sig (Elt F)) :=
  [ unary main_v342 main_v344 (broadcastInDim S1x128 ![1] bcast_S128_S1x128_1 : (⟨S128, .f32⟩ : BufTy).Contents (Elt F) → (⟨S1x128, .f32⟩ : BufTy).Contents (Elt F)),
    unary main_v344 main_v345 (broadcastInDim S20000x128 ![0, 1] bcast_S1x128_S20000x128_0_1 : (⟨S1x128, .f32⟩ : BufTy).Contents (Elt F) → (⟨S20000x128, .f32⟩ : BufTy).Contents (Elt F)),
    binary main_v335 main_v345 main_v346 (subf : (⟨S20000x128, .f32⟩ : BufTy).Contents (Elt F) → (⟨S20000x128, .f32⟩ : BufTy).Contents (Elt F) → (⟨S20000x128, .f32⟩ : BufTy).Contents (Elt F)),
    nullary main_cst_49 (constant S_ .f32 0x3727C5AC#32),
    unary main_cst_49 main_v347 (broadcastInDim S128 ![] bcast_S_S128 : (⟨S_, .f32⟩ : BufTy).Contents (Elt F) → (⟨S128, .f32⟩ : BufTy).Contents (Elt F)),
    binary main_v343 main_v347 main_v348 (addf : (⟨S128, .f32⟩ : BufTy).Contents (Elt F) → (⟨S128, .f32⟩ : BufTy).Contents (Elt F) → (⟨S128, .f32⟩ : BufTy).Contents (Elt F)),
    unary main_v348 main_v349 (Host.rsqrt : (⟨S128, .f32⟩ : BufTy).Contents (Elt F) → (⟨S128, .f32⟩ : BufTy).Contents (Elt F)),
    unary main_v349 main_v350 (broadcastInDim S1x128 ![1] bcast_S128_S1x128_1 : (⟨S128, .f32⟩ : BufTy).Contents (Elt F) → (⟨S1x128, .f32⟩ : BufTy).Contents (Elt F)),
    unary main_v350 main_v351 (broadcastInDim S20000x128 ![0, 1] bcast_S1x128_S20000x128_0_1 : (⟨S1x128, .f32⟩ : BufTy).Contents (Elt F) → (⟨S20000x128, .f32⟩ : BufTy).Contents (Elt F)),
    binary main_v346 main_v351 main_v352 (mulf : (⟨S20000x128, .f32⟩ : BufTy).Contents (Elt F) → (⟨S20000x128, .f32⟩ : BufTy).Contents (Elt F) → (⟨S20000x128, .f32⟩ : BufTy).Contents (Elt F)),
    unary main_v337 main_v353 (broadcastInDim S1x128 ![1] bcast_S128_S1x128_1 : (⟨S128, .f32⟩ : BufTy).Contents (Elt F) → (⟨S1x128, .f32⟩ : BufTy).Contents (Elt F)),
    unary main_v353 main_v354 (broadcastInDim S20000x128 ![0, 1] bcast_S1x128_S20000x128_0_1 : (⟨S1x128, .f32⟩ : BufTy).Contents (Elt F) → (⟨S20000x128, .f32⟩ : BufTy).Contents (Elt F)),
    binary main_v352 main_v354 main_v355 (mulf : (⟨S20000x128, .f32⟩ : BufTy).Contents (Elt F) → (⟨S20000x128, .f32⟩ : BufTy).Contents (Elt F) → (⟨S20000x128, .f32⟩ : BufTy).Contents (Elt F)),
    unary main_v339 main_v356 (broadcastInDim S1x128 ![1] bcast_S128_S1x128_1 : (⟨S128, .f32⟩ : BufTy).Contents (Elt F) → (⟨S1x128, .f32⟩ : BufTy).Contents (Elt F)),
    unary main_v356 main_v357 (broadcastInDim S20000x128 ![0, 1] bcast_S1x128_S20000x128_0_1 : (⟨S1x128, .f32⟩ : BufTy).Contents (Elt F) → (⟨S20000x128, .f32⟩ : BufTy).Contents (Elt F)),
    binary main_v355 main_v357 main_v358 (addf : (⟨S20000x128, .f32⟩ : BufTy).Contents (Elt F) → (⟨S20000x128, .f32⟩ : BufTy).Contents (Elt F) → (⟨S20000x128, .f32⟩ : BufTy).Contents (Elt F)),
    TRef.nullary main_call16.cst (constant S_ .f32 0x00000000#32),
    TRef.unary main_call16.cst main_call16.v0 (broadcastInDim S20000x128 ![] bcast_S_S20000x128),
    TRef.binary (.of main_v358) main_call16.v0 main_call16.v1 maximumf ]

/-- The references it writes. -/
def W_c_n1_2 : List (Ref sig .tc) :=
  [main_v344, main_v345, main_v346, main_cst_49, main_v347, main_v348, main_v349, main_v350, main_v351, main_v352, main_v353, main_v354, main_v355, main_v356, main_v357, main_v358, main_call16_cst, main_call16_v0, main_v359]

theorem hW_c_n1_2 : WritesIn (c_n1_2 (F := Ideal)) W_c_n1_2 := by
  unfold WritesIn c_n1_2
  exact ⟨single_sub (y := main_v344) (by decide +kernel),
    single_sub (y := main_v345) (by decide +kernel),
    single_sub (y := main_v346) (by decide +kernel),
    single_sub (y := main_cst_49) (by decide +kernel),
    single_sub (y := main_v347) (by decide +kernel),
    single_sub (y := main_v348) (by decide +kernel),
    single_sub (y := main_v349) (by decide +kernel),
    single_sub (y := main_v350) (by decide +kernel),
    single_sub (y := main_v351) (by decide +kernel),
    single_sub (y := main_v352) (by decide +kernel),
    single_sub (y := main_v353) (by decide +kernel),
    single_sub (y := main_v354) (by decide +kernel),
    single_sub (y := main_v355) (by decide +kernel),
    single_sub (y := main_v356) (by decide +kernel),
    single_sub (y := main_v357) (by decide +kernel),
    single_sub (y := main_v358) (by decide +kernel),
    single_sub (y := main_call16_cst) (by decide +kernel),
    single_sub (y := main_call16_v0) (by decide +kernel),
    single_sub (y := main_v359) (by decide +kernel)⟩

/-- It writes no argument. -/
theorem hA_c_n1_2 : ∀ r ∈ argRefs, r ∉ W_c_n1_2 := by
  decide +kernel

/-- Layer 2: the second linear map. -/
def c_l2_2 {F : FTy → Type} [FloatOps F] : List (HloOp τ sig (Elt F)) :=
  [ unary main_arg8 main_v360 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v360 main_v361 rfl shapeCasts_S1x128x128_S128x128,
    binary main_v359 main_v361 main_v362 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg9 main_v363 ((extractStridedSlice S1x128 ![2, 0] · slices_S4x128_S1x128_2_0) : (⟨S4x128, .f32⟩ : BufTy).Contents (Elt F) → (⟨S1x128, .f32⟩ : BufTy).Contents (Elt F)),
    reshape main_v363 main_v364 rfl shapeCasts_S1x128_S128,
    unary main_v364 main_v365 (broadcastInDim S1x128 ![1] bcast_S128_S1x128_1 : (⟨S128, .f32⟩ : BufTy).Contents (Elt F) → (⟨S1x128, .f32⟩ : BufTy).Contents (Elt F)),
    unary main_v365 main_v366 (broadcastInDim S20000x128 ![0, 1] bcast_S1x128_S20000x128_0_1 : (⟨S1x128, .f32⟩ : BufTy).Contents (Elt F) → (⟨S20000x128, .f32⟩ : BufTy).Contents (Elt F)),
    binary main_v362 main_v366 main_v367 (addf : (⟨S20000x128, .f32⟩ : BufTy).Contents (Elt F) → (⟨S20000x128, .f32⟩ : BufTy).Contents (Elt F) → (⟨S20000x128, .f32⟩ : BufTy).Contents (Elt F)) ]

/-- The references it writes. -/
def W_c_l2_2 : List (Ref sig .tc) :=
  [main_v360, main_v361, main_v362, main_v363, main_v364, main_v365, main_v366, main_v367]

theorem hW_c_l2_2 : WritesIn (c_l2_2 (F := Ideal)) W_c_l2_2 := by
  unfold WritesIn c_l2_2
  exact ⟨single_sub (y := main_v360) (by decide +kernel),
    single_sub (y := main_v361) (by decide +kernel),
    single_sub (y := main_v362) (by decide +kernel),
    single_sub (y := main_v363) (by decide +kernel),
    single_sub (y := main_v364) (by decide +kernel),
    single_sub (y := main_v365) (by decide +kernel),
    single_sub (y := main_v366) (by decide +kernel),
    single_sub (y := main_v367) (by decide +kernel)⟩

/-- It writes no argument. -/
theorem hA_c_l2_2 : ∀ r ∈ argRefs, r ∉ W_c_l2_2 := by
  decide +kernel

/-- Layer 2, normalisation 2: its scale, its shift and every column's mean. -/
def c_m2_2 {F : FTy → Type} [FloatOps F] : List (HloOp τ sig (Elt F)) :=
  [ unary main_arg10 main_v368 ((extractStridedSlice S1x128 ![2, 0] · slices_S4x128_S1x128_2_0) : (⟨S4x128, .f32⟩ : BufTy).Contents (Elt F) → (⟨S1x128, .f32⟩ : BufTy).Contents (Elt F)),
    reshape main_v368 main_v369 rfl shapeCasts_S1x128_S128,
    unary main_arg11 main_v370 ((extractStridedSlice S1x128 ![2, 0] · slices_S4x128_S1x128_2_0) : (⟨S4x128, .f32⟩ : BufTy).Contents (Elt F) → (⟨S1x128, .f32⟩ : BufTy).Contents (Elt F)),
    reshape main_v370 main_v371 rfl shapeCasts_S1x128_S128,
    nullary main_cst_50 (constant S_ .f32 0x00000000#32),
    binary main_v367 main_cst_50 main_v372 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    nullary main_cst_51 (constant S_ .f32 0x469C4000#32),
    unary main_cst_51 main_v373 (broadcastInDim S128 ![] bcast_S_S128 : (⟨S_, .f32⟩ : BufTy).Contents (Elt F) → (⟨S128, .f32⟩ : BufTy).Contents (Elt F)),
    binary main_v372 main_v373 main_v374 (Host.divf : (⟨S128, .f32⟩ : BufTy).Contents (Elt F) → (⟨S128, .f32⟩ : BufTy).Contents (Elt F) → (⟨S128, .f32⟩ : BufTy).Contents (Elt F)) ]

/-- The references it writes. -/
def W_c_m2_2 : List (Ref sig .tc) :=
  [main_v368, main_v369, main_v370, main_v371, main_cst_50, main_v372, main_cst_51, main_v373, main_v374]

theorem hW_c_m2_2 : WritesIn (c_m2_2 (F := Ideal)) W_c_m2_2 := by
  unfold WritesIn c_m2_2
  exact ⟨single_sub (y := main_v368) (by decide +kernel),
    single_sub (y := main_v369) (by decide +kernel),
    single_sub (y := main_v370) (by decide +kernel),
    single_sub (y := main_v371) (by decide +kernel),
    single_sub (y := main_cst_50) (by decide +kernel),
    single_sub (y := main_v372) (by decide +kernel),
    single_sub (y := main_cst_51) (by decide +kernel),
    single_sub (y := main_v373) (by decide +kernel),
    single_sub (y := main_v374) (by decide +kernel)⟩

/-- It writes no argument. -/
theorem hA_c_m2_2 : ∀ r ∈ argRefs, r ∉ W_c_m2_2 := by
  decide +kernel

/-- Layer 2, normalisation 2: every column's biased variance. -/
def c_v2_2 {F : FTy → Type} [FloatOps F] : List (HloOp τ sig (Elt F)) :=
  [ nullary main_c_52 (constantI S_ 32 0#32),
    TRef.nullary main_call17.cst (constant S_ .f32 0x00000000#32),
    TRef.binary (.of main_v367) main_call17.cst main_call17.v0 (fun x v => Host.reduceAdd x v reducesTo_S20000x128_S128_d0 h_S_),
    TRef.unary main_call17.v0 main_call17.v1 (broadcastInDim S1x128 ![1] bcast_S128_S1x128_1),
    TRef.nullary main_call17.cst_0 (constant S_ .f32 0x469C4000#32),
    TRef.unary main_call17.cst_0 main_call17.v2 (broadcastInDim S1x128 ![] bcast_S_S1x128),
    TRef.binary main_call17.v1 main_call17.v2 main_call17.v3 Host.divf,
    TRef.unary main_call17.v3 main_call17.v4 (broadcastInDim S20000x128 ![0, 1] bcast_S1x128_S20000x128_0_1),
    TRef.binary (.of main_v367) main_call17.v4 main_call17.v5 subf,
    TRef.binary main_call17.v5 main_call17.v5 main_call17.v6 mulf,
    TRef.unary (.of main_c_52) main_call17.v7 (sitofp .f32),
    TRef.nullary main_call17.cst_1 (constant S_ .f32 0x469C4000#32),
    TRef.binary main_call17.cst_1 main_call17.v7 main_call17.v8 subf,
    TRef.nullary main_call17.cst_2 (constant S_ .f32 0x00000000#32),
    TRef.binary main_call17.v6 main_call17.cst_2 main_call17.v9 (fun x v => Host.reduceAdd x v reducesTo_S20000x128_S128_d0 h_S_),
    TRef.unary main_call17.v8 main_call17.v10 (broadcastInDim S128 ![] bcast_S_S128),
    TRef.binary main_call17.v9 main_call17.v10 main_call17.v11 Host.divf,
    TRef.nullary main_call17.cst_3 (constant S_ .f32 0x00000000#32),
    TRef.binary main_call17.v8 main_call17.cst_3 main_call17.v12 (cmpf .ogt),
    TRef.nullary main_call17.cst_4 (constant S_ .f32 0x7FC00000#32),
    TRef.unary main_call17.cst_4 main_call17.call0.v0 id,
    TRef.unary main_call17.call0.v0 main_call17.call0.v1 (broadcastInDim S128 ![] bcast_S_S128),
    TRef.ternary main_call17.v12 main_call17.v11 main_call17.call0.v1 main_call17.call0.v2 (fun p a b => select (broadcastInDim S128 ![] bcast_S_S128 p) a b) ]

/-- The references it writes. -/
def W_c_v2_2 : List (Ref sig .tc) :=
  [main_c_52, main_call17_cst, main_call17_v0, main_call17_v1, main_call17_cst_0, main_call17_v2, main_call17_v3, main_call17_v4, main_call17_v5, main_call17_v6, main_call17_v7, main_call17_cst_1, main_call17_v8, main_call17_cst_2, main_call17_v9, main_call17_v10, main_call17_v11, main_call17_cst_3, main_call17_v12, main_call17_cst_4, main_call17_call0_v0, main_call17_call0_v1, main_v375]

theorem hW_c_v2_2 : WritesIn (c_v2_2 (F := Ideal)) W_c_v2_2 := by
  unfold WritesIn c_v2_2
  exact ⟨single_sub (y := main_c_52) (by decide +kernel),
    single_sub (y := main_call17_cst) (by decide +kernel),
    single_sub (y := main_call17_v0) (by decide +kernel),
    single_sub (y := main_call17_v1) (by decide +kernel),
    single_sub (y := main_call17_cst_0) (by decide +kernel),
    single_sub (y := main_call17_v2) (by decide +kernel),
    single_sub (y := main_call17_v3) (by decide +kernel),
    single_sub (y := main_call17_v4) (by decide +kernel),
    single_sub (y := main_call17_v5) (by decide +kernel),
    single_sub (y := main_call17_v6) (by decide +kernel),
    single_sub (y := main_call17_v7) (by decide +kernel),
    single_sub (y := main_call17_cst_1) (by decide +kernel),
    single_sub (y := main_call17_v8) (by decide +kernel),
    single_sub (y := main_call17_cst_2) (by decide +kernel),
    single_sub (y := main_call17_v9) (by decide +kernel),
    single_sub (y := main_call17_v10) (by decide +kernel),
    single_sub (y := main_call17_v11) (by decide +kernel),
    single_sub (y := main_call17_cst_3) (by decide +kernel),
    single_sub (y := main_call17_v12) (by decide +kernel),
    single_sub (y := main_call17_cst_4) (by decide +kernel),
    single_sub (y := main_call17_call0_v0) (by decide +kernel),
    single_sub (y := main_call17_call0_v1) (by decide +kernel),
    single_sub (y := main_v375) (by decide +kernel)⟩

/-- It writes no argument. -/
theorem hA_c_v2_2 : ∀ r ∈ argRefs, r ∉ W_c_v2_2 := by
  decide +kernel

/-- Layer 2, normalisation 2: normalised, scaled, shifted and rectified. -/
def c_n2_2 {F : FTy → Type} [FloatOps F] : List (HloOp τ sig (Elt F)) :=
  [ unary main_v374 main_v376 (broadcastInDim S1x128 ![1] bcast_S128_S1x128_1 : (⟨S128, .f32⟩ : BufTy).Contents (Elt F) → (⟨S1x128, .f32⟩ : BufTy).Contents (Elt F)),
    unary main_v376 main_v377 (broadcastInDim S20000x128 ![0, 1] bcast_S1x128_S20000x128_0_1 : (⟨S1x128, .f32⟩ : BufTy).Contents (Elt F) → (⟨S20000x128, .f32⟩ : BufTy).Contents (Elt F)),
    binary main_v367 main_v377 main_v378 (subf : (⟨S20000x128, .f32⟩ : BufTy).Contents (Elt F) → (⟨S20000x128, .f32⟩ : BufTy).Contents (Elt F) → (⟨S20000x128, .f32⟩ : BufTy).Contents (Elt F)),
    nullary main_cst_53 (constant S_ .f32 0x3727C5AC#32),
    unary main_cst_53 main_v379 (broadcastInDim S128 ![] bcast_S_S128 : (⟨S_, .f32⟩ : BufTy).Contents (Elt F) → (⟨S128, .f32⟩ : BufTy).Contents (Elt F)),
    binary main_v375 main_v379 main_v380 (addf : (⟨S128, .f32⟩ : BufTy).Contents (Elt F) → (⟨S128, .f32⟩ : BufTy).Contents (Elt F) → (⟨S128, .f32⟩ : BufTy).Contents (Elt F)),
    unary main_v380 main_v381 (Host.rsqrt : (⟨S128, .f32⟩ : BufTy).Contents (Elt F) → (⟨S128, .f32⟩ : BufTy).Contents (Elt F)),
    unary main_v381 main_v382 (broadcastInDim S1x128 ![1] bcast_S128_S1x128_1 : (⟨S128, .f32⟩ : BufTy).Contents (Elt F) → (⟨S1x128, .f32⟩ : BufTy).Contents (Elt F)),
    unary main_v382 main_v383 (broadcastInDim S20000x128 ![0, 1] bcast_S1x128_S20000x128_0_1 : (⟨S1x128, .f32⟩ : BufTy).Contents (Elt F) → (⟨S20000x128, .f32⟩ : BufTy).Contents (Elt F)),
    binary main_v378 main_v383 main_v384 (mulf : (⟨S20000x128, .f32⟩ : BufTy).Contents (Elt F) → (⟨S20000x128, .f32⟩ : BufTy).Contents (Elt F) → (⟨S20000x128, .f32⟩ : BufTy).Contents (Elt F)),
    unary main_v369 main_v385 (broadcastInDim S1x128 ![1] bcast_S128_S1x128_1 : (⟨S128, .f32⟩ : BufTy).Contents (Elt F) → (⟨S1x128, .f32⟩ : BufTy).Contents (Elt F)),
    unary main_v385 main_v386 (broadcastInDim S20000x128 ![0, 1] bcast_S1x128_S20000x128_0_1 : (⟨S1x128, .f32⟩ : BufTy).Contents (Elt F) → (⟨S20000x128, .f32⟩ : BufTy).Contents (Elt F)),
    binary main_v384 main_v386 main_v387 (mulf : (⟨S20000x128, .f32⟩ : BufTy).Contents (Elt F) → (⟨S20000x128, .f32⟩ : BufTy).Contents (Elt F) → (⟨S20000x128, .f32⟩ : BufTy).Contents (Elt F)),
    unary main_v371 main_v388 (broadcastInDim S1x128 ![1] bcast_S128_S1x128_1 : (⟨S128, .f32⟩ : BufTy).Contents (Elt F) → (⟨S1x128, .f32⟩ : BufTy).Contents (Elt F)),
    unary main_v388 main_v389 (broadcastInDim S20000x128 ![0, 1] bcast_S1x128_S20000x128_0_1 : (⟨S1x128, .f32⟩ : BufTy).Contents (Elt F) → (⟨S20000x128, .f32⟩ : BufTy).Contents (Elt F)),
    binary main_v387 main_v389 main_v390 (addf : (⟨S20000x128, .f32⟩ : BufTy).Contents (Elt F) → (⟨S20000x128, .f32⟩ : BufTy).Contents (Elt F) → (⟨S20000x128, .f32⟩ : BufTy).Contents (Elt F)),
    TRef.nullary main_call18.cst (constant S_ .f32 0x00000000#32),
    TRef.unary main_call18.cst main_call18.v0 (broadcastInDim S20000x128 ![] bcast_S_S20000x128),
    TRef.binary (.of main_v390) main_call18.v0 main_call18.v1 maximumf ]

/-- The references it writes. -/
def W_c_n2_2 : List (Ref sig .tc) :=
  [main_v376, main_v377, main_v378, main_cst_53, main_v379, main_v380, main_v381, main_v382, main_v383, main_v384, main_v385, main_v386, main_v387, main_v388, main_v389, main_v390, main_call18_cst, main_call18_v0, main_v391]

theorem hW_c_n2_2 : WritesIn (c_n2_2 (F := Ideal)) W_c_n2_2 := by
  unfold WritesIn c_n2_2
  exact ⟨single_sub (y := main_v376) (by decide +kernel),
    single_sub (y := main_v377) (by decide +kernel),
    single_sub (y := main_v378) (by decide +kernel),
    single_sub (y := main_cst_53) (by decide +kernel),
    single_sub (y := main_v379) (by decide +kernel),
    single_sub (y := main_v380) (by decide +kernel),
    single_sub (y := main_v381) (by decide +kernel),
    single_sub (y := main_v382) (by decide +kernel),
    single_sub (y := main_v383) (by decide +kernel),
    single_sub (y := main_v384) (by decide +kernel),
    single_sub (y := main_v385) (by decide +kernel),
    single_sub (y := main_v386) (by decide +kernel),
    single_sub (y := main_v387) (by decide +kernel),
    single_sub (y := main_v388) (by decide +kernel),
    single_sub (y := main_v389) (by decide +kernel),
    single_sub (y := main_v390) (by decide +kernel),
    single_sub (y := main_call18_cst) (by decide +kernel),
    single_sub (y := main_call18_v0) (by decide +kernel),
    single_sub (y := main_v391) (by decide +kernel)⟩

/-- It writes no argument. -/
theorem hA_c_n2_2 : ∀ r ∈ argRefs, r ∉ W_c_n2_2 := by
  decide +kernel

/-- Layer 2, normalisation 3: its scale, its shift and every column's mean. -/
def c_m3_2 {F : FTy → Type} [FloatOps F] : List (HloOp τ sig (Elt F)) :=
  [ unary main_arg12 main_v392 ((extractStridedSlice S1x128 ![2, 0] · slices_S4x128_S1x128_2_0) : (⟨S4x128, .f32⟩ : BufTy).Contents (Elt F) → (⟨S1x128, .f32⟩ : BufTy).Contents (Elt F)),
    reshape main_v392 main_v393 rfl shapeCasts_S1x128_S128,
    unary main_arg13 main_v394 ((extractStridedSlice S1x128 ![2, 0] · slices_S4x128_S1x128_2_0) : (⟨S4x128, .f32⟩ : BufTy).Contents (Elt F) → (⟨S1x128, .f32⟩ : BufTy).Contents (Elt F)),
    reshape main_v394 main_v395 rfl shapeCasts_S1x128_S128,
    nullary main_cst_54 (constant S_ .f32 0x00000000#32),
    binary main_v391 main_cst_54 main_v396 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    nullary main_cst_55 (constant S_ .f32 0x469C4000#32),
    unary main_cst_55 main_v397 (broadcastInDim S128 ![] bcast_S_S128 : (⟨S_, .f32⟩ : BufTy).Contents (Elt F) → (⟨S128, .f32⟩ : BufTy).Contents (Elt F)),
    binary main_v396 main_v397 main_v398 (Host.divf : (⟨S128, .f32⟩ : BufTy).Contents (Elt F) → (⟨S128, .f32⟩ : BufTy).Contents (Elt F) → (⟨S128, .f32⟩ : BufTy).Contents (Elt F)) ]

/-- The references it writes. -/
def W_c_m3_2 : List (Ref sig .tc) :=
  [main_v392, main_v393, main_v394, main_v395, main_cst_54, main_v396, main_cst_55, main_v397, main_v398]

theorem hW_c_m3_2 : WritesIn (c_m3_2 (F := Ideal)) W_c_m3_2 := by
  unfold WritesIn c_m3_2
  exact ⟨single_sub (y := main_v392) (by decide +kernel),
    single_sub (y := main_v393) (by decide +kernel),
    single_sub (y := main_v394) (by decide +kernel),
    single_sub (y := main_v395) (by decide +kernel),
    single_sub (y := main_cst_54) (by decide +kernel),
    single_sub (y := main_v396) (by decide +kernel),
    single_sub (y := main_cst_55) (by decide +kernel),
    single_sub (y := main_v397) (by decide +kernel),
    single_sub (y := main_v398) (by decide +kernel)⟩

/-- It writes no argument. -/
theorem hA_c_m3_2 : ∀ r ∈ argRefs, r ∉ W_c_m3_2 := by
  decide +kernel

/-- Layer 2, normalisation 3: every column's biased variance. -/
def c_v3_2 {F : FTy → Type} [FloatOps F] : List (HloOp τ sig (Elt F)) :=
  [ nullary main_c_56 (constantI S_ 32 0#32),
    TRef.nullary main_call19.cst (constant S_ .f32 0x00000000#32),
    TRef.binary (.of main_v391) main_call19.cst main_call19.v0 (fun x v => Host.reduceAdd x v reducesTo_S20000x128_S128_d0 h_S_),
    TRef.unary main_call19.v0 main_call19.v1 (broadcastInDim S1x128 ![1] bcast_S128_S1x128_1),
    TRef.nullary main_call19.cst_0 (constant S_ .f32 0x469C4000#32),
    TRef.unary main_call19.cst_0 main_call19.v2 (broadcastInDim S1x128 ![] bcast_S_S1x128),
    TRef.binary main_call19.v1 main_call19.v2 main_call19.v3 Host.divf,
    TRef.unary main_call19.v3 main_call19.v4 (broadcastInDim S20000x128 ![0, 1] bcast_S1x128_S20000x128_0_1),
    TRef.binary (.of main_v391) main_call19.v4 main_call19.v5 subf,
    TRef.binary main_call19.v5 main_call19.v5 main_call19.v6 mulf,
    TRef.unary (.of main_c_56) main_call19.v7 (sitofp .f32),
    TRef.nullary main_call19.cst_1 (constant S_ .f32 0x469C4000#32),
    TRef.binary main_call19.cst_1 main_call19.v7 main_call19.v8 subf,
    TRef.nullary main_call19.cst_2 (constant S_ .f32 0x00000000#32),
    TRef.binary main_call19.v6 main_call19.cst_2 main_call19.v9 (fun x v => Host.reduceAdd x v reducesTo_S20000x128_S128_d0 h_S_),
    TRef.unary main_call19.v8 main_call19.v10 (broadcastInDim S128 ![] bcast_S_S128),
    TRef.binary main_call19.v9 main_call19.v10 main_call19.v11 Host.divf,
    TRef.nullary main_call19.cst_3 (constant S_ .f32 0x00000000#32),
    TRef.binary main_call19.v8 main_call19.cst_3 main_call19.v12 (cmpf .ogt),
    TRef.nullary main_call19.cst_4 (constant S_ .f32 0x7FC00000#32),
    TRef.unary main_call19.cst_4 main_call19.call0.v0 id,
    TRef.unary main_call19.call0.v0 main_call19.call0.v1 (broadcastInDim S128 ![] bcast_S_S128),
    TRef.ternary main_call19.v12 main_call19.v11 main_call19.call0.v1 main_call19.call0.v2 (fun p a b => select (broadcastInDim S128 ![] bcast_S_S128 p) a b) ]

/-- The references it writes. -/
def W_c_v3_2 : List (Ref sig .tc) :=
  [main_c_56, main_call19_cst, main_call19_v0, main_call19_v1, main_call19_cst_0, main_call19_v2, main_call19_v3, main_call19_v4, main_call19_v5, main_call19_v6, main_call19_v7, main_call19_cst_1, main_call19_v8, main_call19_cst_2, main_call19_v9, main_call19_v10, main_call19_v11, main_call19_cst_3, main_call19_v12, main_call19_cst_4, main_call19_call0_v0, main_call19_call0_v1, main_v399]

theorem hW_c_v3_2 : WritesIn (c_v3_2 (F := Ideal)) W_c_v3_2 := by
  unfold WritesIn c_v3_2
  exact ⟨single_sub (y := main_c_56) (by decide +kernel),
    single_sub (y := main_call19_cst) (by decide +kernel),
    single_sub (y := main_call19_v0) (by decide +kernel),
    single_sub (y := main_call19_v1) (by decide +kernel),
    single_sub (y := main_call19_cst_0) (by decide +kernel),
    single_sub (y := main_call19_v2) (by decide +kernel),
    single_sub (y := main_call19_v3) (by decide +kernel),
    single_sub (y := main_call19_v4) (by decide +kernel),
    single_sub (y := main_call19_v5) (by decide +kernel),
    single_sub (y := main_call19_v6) (by decide +kernel),
    single_sub (y := main_call19_v7) (by decide +kernel),
    single_sub (y := main_call19_cst_1) (by decide +kernel),
    single_sub (y := main_call19_v8) (by decide +kernel),
    single_sub (y := main_call19_cst_2) (by decide +kernel),
    single_sub (y := main_call19_v9) (by decide +kernel),
    single_sub (y := main_call19_v10) (by decide +kernel),
    single_sub (y := main_call19_v11) (by decide +kernel),
    single_sub (y := main_call19_cst_3) (by decide +kernel),
    single_sub (y := main_call19_v12) (by decide +kernel),
    single_sub (y := main_call19_cst_4) (by decide +kernel),
    single_sub (y := main_call19_call0_v0) (by decide +kernel),
    single_sub (y := main_call19_call0_v1) (by decide +kernel),
    single_sub (y := main_v399) (by decide +kernel)⟩

/-- It writes no argument. -/
theorem hA_c_v3_2 : ∀ r ∈ argRefs, r ∉ W_c_v3_2 := by
  decide +kernel

/-- Layer 2, normalisation 3: normalised, scaled, shifted and rectified. -/
def c_n3_2 {F : FTy → Type} [FloatOps F] : List (HloOp τ sig (Elt F)) :=
  [ unary main_v398 main_v400 (broadcastInDim S1x128 ![1] bcast_S128_S1x128_1 : (⟨S128, .f32⟩ : BufTy).Contents (Elt F) → (⟨S1x128, .f32⟩ : BufTy).Contents (Elt F)),
    unary main_v400 main_v401 (broadcastInDim S20000x128 ![0, 1] bcast_S1x128_S20000x128_0_1 : (⟨S1x128, .f32⟩ : BufTy).Contents (Elt F) → (⟨S20000x128, .f32⟩ : BufTy).Contents (Elt F)),
    binary main_v391 main_v401 main_v402 (subf : (⟨S20000x128, .f32⟩ : BufTy).Contents (Elt F) → (⟨S20000x128, .f32⟩ : BufTy).Contents (Elt F) → (⟨S20000x128, .f32⟩ : BufTy).Contents (Elt F)),
    nullary main_cst_57 (constant S_ .f32 0x3727C5AC#32),
    unary main_cst_57 main_v403 (broadcastInDim S128 ![] bcast_S_S128 : (⟨S_, .f32⟩ : BufTy).Contents (Elt F) → (⟨S128, .f32⟩ : BufTy).Contents (Elt F)),
    binary main_v399 main_v403 main_v404 (addf : (⟨S128, .f32⟩ : BufTy).Contents (Elt F) → (⟨S128, .f32⟩ : BufTy).Contents (Elt F) → (⟨S128, .f32⟩ : BufTy).Contents (Elt F)),
    unary main_v404 main_v405 (Host.rsqrt : (⟨S128, .f32⟩ : BufTy).Contents (Elt F) → (⟨S128, .f32⟩ : BufTy).Contents (Elt F)),
    unary main_v405 main_v406 (broadcastInDim S1x128 ![1] bcast_S128_S1x128_1 : (⟨S128, .f32⟩ : BufTy).Contents (Elt F) → (⟨S1x128, .f32⟩ : BufTy).Contents (Elt F)),
    unary main_v406 main_v407 (broadcastInDim S20000x128 ![0, 1] bcast_S1x128_S20000x128_0_1 : (⟨S1x128, .f32⟩ : BufTy).Contents (Elt F) → (⟨S20000x128, .f32⟩ : BufTy).Contents (Elt F)),
    binary main_v402 main_v407 main_v408 (mulf : (⟨S20000x128, .f32⟩ : BufTy).Contents (Elt F) → (⟨S20000x128, .f32⟩ : BufTy).Contents (Elt F) → (⟨S20000x128, .f32⟩ : BufTy).Contents (Elt F)),
    unary main_v393 main_v409 (broadcastInDim S1x128 ![1] bcast_S128_S1x128_1 : (⟨S128, .f32⟩ : BufTy).Contents (Elt F) → (⟨S1x128, .f32⟩ : BufTy).Contents (Elt F)),
    unary main_v409 main_v410 (broadcastInDim S20000x128 ![0, 1] bcast_S1x128_S20000x128_0_1 : (⟨S1x128, .f32⟩ : BufTy).Contents (Elt F) → (⟨S20000x128, .f32⟩ : BufTy).Contents (Elt F)),
    binary main_v408 main_v410 main_v411 (mulf : (⟨S20000x128, .f32⟩ : BufTy).Contents (Elt F) → (⟨S20000x128, .f32⟩ : BufTy).Contents (Elt F) → (⟨S20000x128, .f32⟩ : BufTy).Contents (Elt F)),
    unary main_v395 main_v412 (broadcastInDim S1x128 ![1] bcast_S128_S1x128_1 : (⟨S128, .f32⟩ : BufTy).Contents (Elt F) → (⟨S1x128, .f32⟩ : BufTy).Contents (Elt F)),
    unary main_v412 main_v413 (broadcastInDim S20000x128 ![0, 1] bcast_S1x128_S20000x128_0_1 : (⟨S1x128, .f32⟩ : BufTy).Contents (Elt F) → (⟨S20000x128, .f32⟩ : BufTy).Contents (Elt F)),
    binary main_v411 main_v413 main_v414 (addf : (⟨S20000x128, .f32⟩ : BufTy).Contents (Elt F) → (⟨S20000x128, .f32⟩ : BufTy).Contents (Elt F) → (⟨S20000x128, .f32⟩ : BufTy).Contents (Elt F)),
    TRef.nullary main_call20.cst (constant S_ .f32 0x00000000#32),
    TRef.unary main_call20.cst main_call20.v0 (broadcastInDim S20000x128 ![] bcast_S_S20000x128),
    TRef.binary (.of main_v414) main_call20.v0 main_call20.v1 maximumf ]

/-- The references it writes. -/
def W_c_n3_2 : List (Ref sig .tc) :=
  [main_v400, main_v401, main_v402, main_cst_57, main_v403, main_v404, main_v405, main_v406, main_v407, main_v408, main_v409, main_v410, main_v411, main_v412, main_v413, main_v414, main_call20_cst, main_call20_v0, main_v415]

theorem hW_c_n3_2 : WritesIn (c_n3_2 (F := Ideal)) W_c_n3_2 := by
  unfold WritesIn c_n3_2
  exact ⟨single_sub (y := main_v400) (by decide +kernel),
    single_sub (y := main_v401) (by decide +kernel),
    single_sub (y := main_v402) (by decide +kernel),
    single_sub (y := main_cst_57) (by decide +kernel),
    single_sub (y := main_v403) (by decide +kernel),
    single_sub (y := main_v404) (by decide +kernel),
    single_sub (y := main_v405) (by decide +kernel),
    single_sub (y := main_v406) (by decide +kernel),
    single_sub (y := main_v407) (by decide +kernel),
    single_sub (y := main_v408) (by decide +kernel),
    single_sub (y := main_v409) (by decide +kernel),
    single_sub (y := main_v410) (by decide +kernel),
    single_sub (y := main_v411) (by decide +kernel),
    single_sub (y := main_v412) (by decide +kernel),
    single_sub (y := main_v413) (by decide +kernel),
    single_sub (y := main_v414) (by decide +kernel),
    single_sub (y := main_call20_cst) (by decide +kernel),
    single_sub (y := main_call20_v0) (by decide +kernel),
    single_sub (y := main_v415) (by decide +kernel)⟩

/-- It writes no argument. -/
theorem hA_c_n3_2 : ∀ r ∈ argRefs, r ∉ W_c_n3_2 := by
  decide +kernel

/-- Layer 2: the input plus the last normalisation. -/
def c_rs_2 {F : FTy → Type} [FloatOps F] : List (HloOp τ sig (Elt F)) :=
  [ binary main_v278 main_v415 main_v416 (addf : (⟨S20000x128, .f32⟩ : BufTy).Contents (Elt F) → (⟨S20000x128, .f32⟩ : BufTy).Contents (Elt F) → (⟨S20000x128, .f32⟩ : BufTy).Contents (Elt F)) ]

/-- The references it writes. -/
def W_c_rs_2 : List (Ref sig .tc) :=
  [main_v416]

theorem hW_c_rs_2 : WritesIn (c_rs_2 (F := Ideal)) W_c_rs_2 := by
  unfold WritesIn c_rs_2
  exact single_sub (y := main_v416) (by decide +kernel)

/-- It writes no argument. -/
theorem hA_c_rs_2 : ∀ r ∈ argRefs, r ∉ W_c_rs_2 := by
  decide +kernel

/-- Head 3: the node rows at both ends of every edge. -/
def c_hg_3 {F : FTy → Type} [FloatOps F] : List (HloOp τ sig (Elt F)) :=
  [ nullary main_c_58 (constantI S_ 32 0#32),
    unary main_c_58 main_v417 (broadcastInDim S320000 ![] bcast_S_S320000 : (⟨S_, .i32⟩ : BufTy).Contents (Elt F) → (⟨S320000, .i32⟩ : BufTy).Contents (Elt F)),
    binary main_arg18 main_v417 main_v418 (cmpi .slt : (⟨S320000, .i32⟩ : BufTy).Contents (Elt F) → (⟨S320000, .i32⟩ : BufTy).Contents (Elt F) → (⟨S320000, .i1⟩ : BufTy).Contents (Elt F)),
    nullary main_c_59 (constantI S_ 32 20000#32),
    unary main_c_59 main_v419 (broadcastInDim S320000 ![] bcast_S_S320000 : (⟨S_, .i32⟩ : BufTy).Contents (Elt F) → (⟨S320000, .i32⟩ : BufTy).Contents (Elt F)),
    binary main_arg18 main_v419 main_v420 (addi : (⟨S320000, .i32⟩ : BufTy).Contents (Elt F) → (⟨S320000, .i32⟩ : BufTy).Contents (Elt F) → (⟨S320000, .i32⟩ : BufTy).Contents (Elt F)),
    ternary main_v418 main_v420 main_arg18 main_v421 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v421 main_v422 (broadcastInDim S320000x1 ![0] bcast_S320000_S320000x1_0 : (⟨S320000, .i32⟩ : BufTy).Contents (Elt F) → (⟨S320000x1, .i32⟩ : BufTy).Contents (Elt F)),
    binary main_v416 main_v422 main_v423 ((fun x i => Host.gather gather_S20000x128_S320000x1_S320000x128_1_0_n_n_0_1_1128 x i) : (⟨S20000x128, .f32⟩ : BufTy).Contents (Elt F) → (⟨S320000x1, .i32⟩ : BufTy).Contents (Elt F) → (⟨S320000x128, .f32⟩ : BufTy).Contents (Elt F)),
    nullary main_c_60 (constantI S_ 32 0#32),
    unary main_c_60 main_v424 (broadcastInDim S320000 ![] bcast_S_S320000 : (⟨S_, .i32⟩ : BufTy).Contents (Elt F) → (⟨S320000, .i32⟩ : BufTy).Contents (Elt F)),
    binary main_arg19 main_v424 main_v425 (cmpi .slt : (⟨S320000, .i32⟩ : BufTy).Contents (Elt F) → (⟨S320000, .i32⟩ : BufTy).Contents (Elt F) → (⟨S320000, .i1⟩ : BufTy).Contents (Elt F)),
    nullary main_c_61 (constantI S_ 32 20000#32),
    unary main_c_61 main_v426 (broadcastInDim S320000 ![] bcast_S_S320000 : (⟨S_, .i32⟩ : BufTy).Contents (Elt F) → (⟨S320000, .i32⟩ : BufTy).Contents (Elt F)),
    binary main_arg19 main_v426 main_v427 (addi : (⟨S320000, .i32⟩ : BufTy).Contents (Elt F) → (⟨S320000, .i32⟩ : BufTy).Contents (Elt F) → (⟨S320000, .i32⟩ : BufTy).Contents (Elt F)),
    ternary main_v425 main_v427 main_arg19 main_v428 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v428 main_v429 (broadcastInDim S320000x1 ![0] bcast_S320000_S320000x1_0 : (⟨S320000, .i32⟩ : BufTy).Contents (Elt F) → (⟨S320000x1, .i32⟩ : BufTy).Contents (Elt F)),
    binary main_v416 main_v429 main_v430 ((fun x i => Host.gather gather_S20000x128_S320000x1_S320000x128_1_0_n_n_0_1_1128 x i) : (⟨S20000x128, .f32⟩ : BufTy).Contents (Elt F) → (⟨S320000x1, .i32⟩ : BufTy).Contents (Elt F) → (⟨S320000x128, .f32⟩ : BufTy).Contents (Elt F)) ]

/-- The references it writes. -/
def W_c_hg_3 : List (Ref sig .tc) :=
  [main_c_58, main_v417, main_v418, main_c_59, main_v419, main_v420, main_v421, main_v422, main_v423, main_c_60, main_v424, main_v425, main_c_61, main_v426, main_v427, main_v428, main_v429, main_v430]

theorem hW_c_hg_3 : WritesIn (c_hg_3 (F := Ideal)) W_c_hg_3 := by
  unfold WritesIn c_hg_3
  exact ⟨single_sub (y := main_c_58) (by decide +kernel),
    single_sub (y := main_v417) (by decide +kernel),
    single_sub (y := main_v418) (by decide +kernel),
    single_sub (y := main_c_59) (by decide +kernel),
    single_sub (y := main_v419) (by decide +kernel),
    single_sub (y := main_v420) (by decide +kernel),
    single_sub (y := main_v421) (by decide +kernel),
    single_sub (y := main_v422) (by decide +kernel),
    single_sub (y := main_v423) (by decide +kernel),
    single_sub (y := main_c_60) (by decide +kernel),
    single_sub (y := main_v424) (by decide +kernel),
    single_sub (y := main_v425) (by decide +kernel),
    single_sub (y := main_c_61) (by decide +kernel),
    single_sub (y := main_v426) (by decide +kernel),
    single_sub (y := main_v427) (by decide +kernel),
    single_sub (y := main_v428) (by decide +kernel),
    single_sub (y := main_v429) (by decide +kernel),
    single_sub (y := main_v430) (by decide +kernel)⟩

/-- It writes no argument. -/
theorem hA_c_hg_3 : ∀ r ∈ argRefs, r ∉ W_c_hg_3 := by
  decide +kernel

/-- Head 3: the joined rows' score. -/
def c_hs_3 {F : FTy → Type} [FloatOps F] : List (HloOp τ sig (Elt F)) :=
  [ binary main_v423 main_v430 main_v431 ((fun a b => concatenate S320000x256 1 [⟨S320000x128, a⟩, ⟨S320000x128, b⟩] concatenates_S320000x128_S320000x128_S320000x256_d1) : (⟨S320000x128, .f32⟩ : BufTy).Contents (Elt F) → (⟨S320000x128, .f32⟩ : BufTy).Contents (Elt F) → (⟨S320000x256, .f32⟩ : BufTy).Contents (Elt F)),
    unary main_arg14 main_v432 ((extractStridedSlice S1x256x128 ![3, 0, 0] · slices_S5x256x128_S1x256x128_3_0_0) : (⟨S5x256x128, .f32⟩ : BufTy).Contents (Elt F) → (⟨S1x256x128, .f32⟩ : BufTy).Contents (Elt F)),
    reshape main_v432 main_v433 rfl shapeCasts_S1x256x128_S256x128,
    binary main_v431 main_v433 main_v434 ((fun l r => Host.dotGeneral dot_S320000x256_S256x128_S320000x128_1_0_0_1_n_n none l r) : (⟨S320000x256, .f32⟩ : BufTy).Contents (Elt F) → (⟨S256x128, .f32⟩ : BufTy).Contents (Elt F) → (⟨S320000x128, .f32⟩ : BufTy).Contents (Elt F)),
    unary main_arg15 main_v435 ((extractStridedSlice S1x128 ![3, 0] · slices_S5x128_S1x128_3_0) : (⟨S5x128, .f32⟩ : BufTy).Contents (Elt F) → (⟨S1x128, .f32⟩ : BufTy).Contents (Elt F)),
    reshape main_v435 main_v436 rfl shapeCasts_S1x128_S128,
    unary main_v436 main_v437 (broadcastInDim S1x128 ![1] bcast_S128_S1x128_1 : (⟨S128, .f32⟩ : BufTy).Contents (Elt F) → (⟨S1x128, .f32⟩ : BufTy).Contents (Elt F)),
    unary main_v437 main_v438 (broadcastInDim S320000x128 ![0, 1] bcast_S1x128_S320000x128_0_1 : (⟨S1x128, .f32⟩ : BufTy).Contents (Elt F) → (⟨S320000x128, .f32⟩ : BufTy).Contents (Elt F)),
    binary main_v434 main_v438 main_v439 (addf : (⟨S320000x128, .f32⟩ : BufTy).Contents (Elt F) → (⟨S320000x128, .f32⟩ : BufTy).Contents (Elt F) → (⟨S320000x128, .f32⟩ : BufTy).Contents (Elt F)),
    TRef.nullary main_call21.cst (constant S_ .f32 0x00000000#32),
    TRef.unary main_call21.cst main_call21.v0 (broadcastInDim S320000x128 ![] bcast_S_S320000x128),
    TRef.binary (.of main_v439) main_call21.v0 main_call21.v1 maximumf,
    unary main_arg16 main_v441 ((extractStridedSlice S1x128x2 ![3, 0, 0] · slices_S5x128x2_S1x128x2_3_0_0) : (⟨S5x128x2, .f32⟩ : BufTy).Contents (Elt F) → (⟨S1x128x2, .f32⟩ : BufTy).Contents (Elt F)),
    reshape main_v441 main_v442 rfl shapeCasts_S1x128x2_S128x2,
    binary main_v440 main_v442 main_v443 ((fun l r => Host.dotGeneral dot_S320000x128_S128x2_S320000x2_1_0_0_1_n_n none l r) : (⟨S320000x128, .f32⟩ : BufTy).Contents (Elt F) → (⟨S128x2, .f32⟩ : BufTy).Contents (Elt F) → (⟨S320000x2, .f32⟩ : BufTy).Contents (Elt F)),
    unary main_arg17 main_v444 ((extractStridedSlice S1x2 ![3, 0] · slices_S5x2_S1x2_3_0) : (⟨S5x2, .f32⟩ : BufTy).Contents (Elt F) → (⟨S1x2, .f32⟩ : BufTy).Contents (Elt F)),
    reshape main_v444 main_v445 rfl shapeCasts_S1x2_S2,
    unary main_v445 main_v446 (broadcastInDim S1x2 ![1] bcast_S2_S1x2_1 : (⟨S2, .f32⟩ : BufTy).Contents (Elt F) → (⟨S1x2, .f32⟩ : BufTy).Contents (Elt F)),
    unary main_v446 main_v447 (broadcastInDim S320000x2 ![0, 1] bcast_S1x2_S320000x2_0_1 : (⟨S1x2, .f32⟩ : BufTy).Contents (Elt F) → (⟨S320000x2, .f32⟩ : BufTy).Contents (Elt F)),
    binary main_v443 main_v447 main_v448 (addf : (⟨S320000x2, .f32⟩ : BufTy).Contents (Elt F) → (⟨S320000x2, .f32⟩ : BufTy).Contents (Elt F) → (⟨S320000x2, .f32⟩ : BufTy).Contents (Elt F)) ]

/-- The references it writes. -/
def W_c_hs_3 : List (Ref sig .tc) :=
  [main_v431, main_v432, main_v433, main_v434, main_v435, main_v436, main_v437, main_v438, main_v439, main_call21_cst, main_call21_v0, main_v440, main_v441, main_v442, main_v443, main_v444, main_v445, main_v446, main_v447, main_v448]

theorem hW_c_hs_3 : WritesIn (c_hs_3 (F := Ideal)) W_c_hs_3 := by
  unfold WritesIn c_hs_3
  exact ⟨single_sub (y := main_v431) (by decide +kernel),
    single_sub (y := main_v432) (by decide +kernel),
    single_sub (y := main_v433) (by decide +kernel),
    single_sub (y := main_v434) (by decide +kernel),
    single_sub (y := main_v435) (by decide +kernel),
    single_sub (y := main_v436) (by decide +kernel),
    single_sub (y := main_v437) (by decide +kernel),
    single_sub (y := main_v438) (by decide +kernel),
    single_sub (y := main_v439) (by decide +kernel),
    single_sub (y := main_call21_cst) (by decide +kernel),
    single_sub (y := main_call21_v0) (by decide +kernel),
    single_sub (y := main_v440) (by decide +kernel),
    single_sub (y := main_v441) (by decide +kernel),
    single_sub (y := main_v442) (by decide +kernel),
    single_sub (y := main_v443) (by decide +kernel),
    single_sub (y := main_v444) (by decide +kernel),
    single_sub (y := main_v445) (by decide +kernel),
    single_sub (y := main_v446) (by decide +kernel),
    single_sub (y := main_v447) (by decide +kernel),
    single_sub (y := main_v448) (by decide +kernel)⟩

/-- It writes no argument. -/
theorem hA_c_hs_3 : ∀ r ∈ argRefs, r ∉ W_c_hs_3 := by
  decide +kernel

/-- The running score plus head 3's. -/
def c_ad_3 {F : FTy → Type} [FloatOps F] : List (HloOp τ sig (Elt F)) :=
  [ binary main_v311 main_v448 main_v449 (addf : (⟨S320000x2, .f32⟩ : BufTy).Contents (Elt F) → (⟨S320000x2, .f32⟩ : BufTy).Contents (Elt F) → (⟨S320000x2, .f32⟩ : BufTy).Contents (Elt F)) ]

/-- The references it writes. -/
def W_c_ad_3 : List (Ref sig .tc) :=
  [main_v449]

theorem hW_c_ad_3 : WritesIn (c_ad_3 (F := Ideal)) W_c_ad_3 := by
  unfold WritesIn c_ad_3
  exact single_sub (y := main_v449) (by decide +kernel)

/-- It writes no argument. -/
theorem hA_c_ad_3 : ∀ r ∈ argRefs, r ∉ W_c_ad_3 := by
  decide +kernel

end Cert.RChain

end
-- ==== Proof.RChainS2.lean ====
/-
  Layer 2, head 3 and the score's sum, stretch by stretch: what each stretch leaves in the buffers later stretches
  read, as a function of what it found in the buffers it reads.
-/
import proofs.«416875_j80633716015165_3_alg».proof.Proof.RChainArr
import proofs.«416875_j80633716015165_3_alg».proof.Proof.RChainChunks2

noncomputable section

open Idealize.ShloMosaic Idealize.ShloMosaic.ValueIdx Idealize.SL.Sem
open Cert.ReferenceIdeal Cert.ReferenceIdeal.Facts₀
open Idealize.ShloMosaic.StableHlo

namespace Cert.RChain

/-- The neighbour sums of the layer's input. -/
theorem ng_2 (W : Valuation τ sig (Elt Ideal)) {x : Fin 20000 → Fin 128 → EReal} (hx : W (Proc.devRef .tc main_v278) = M.mk2 x) :
    after c_ng_2 W (Proc.devRef .tc main_v321) = M.mk2 (M.neigh x (inputsR W).src (inputsR W).dst) := by
  unfold c_ng_2
  after_results
  rw [hx]
  exact neigh_read x _ _

/-- The first linear map. -/
theorem l1_2 (W : Valuation τ sig (Elt Ideal)) {x ng : Fin 20000 → Fin 128 → EReal} (hx : W (Proc.devRef .tc main_v278) = M.mk2 x)
    (hng : W (Proc.devRef .tc main_v321) = M.mk2 ng) :
    after c_l1_2 W (Proc.devRef .tc main_v335)
      = M.mk2 (M.lin x ng ((inputsR W).eps (2 : Fin 4)) ((inputsR W).mlp_w1 (2 : Fin 4)) ((inputsR W).mlp_b1 (2 : Fin 4))) := by
  unfold c_l1_2
  after_results
  rw [hx, hng]
  exact lin_member x ng _ _ _ 2 (by decide : 2 < 4) _ _ _

/-- Normalisation 1: its scale. -/
theorem m1g_2 (W : Valuation τ sig (Elt Ideal)) :
    after c_m1_2 W (Proc.devRef .tc main_v337) = M.mk1 ((inputsR W).mlp_bn_g (2 : Fin 4)) := by
  unfold c_m1_2
  after_results
  exact vec_member _ 2 (by decide : 2 < 4) _

/-- Normalisation 1: its shift. -/
theorem m1b_2 (W : Valuation τ sig (Elt Ideal)) :
    after c_m1_2 W (Proc.devRef .tc main_v339) = M.mk1 ((inputsR W).mlp_bn_b (2 : Fin 4)) := by
  unfold c_m1_2
  after_results
  exact vec_member _ 2 (by decide : 2 < 4) _

/-- Normalisation 1: every column's mean. -/
theorem m1m_2 (W : Valuation τ sig (Elt Ideal)) {a : Fin 20000 → Fin 128 → EReal} (ha : W (Proc.devRef .tc main_v335) = M.mk2 a) :
    after c_m1_2 W (Proc.devRef .tc main_v342) = M.mk1 (M.meanR a) := by
  unfold c_m1_2
  after_results
  rw [ha]
  exact RStage.mean_eq (M.mk2 a)

attribute [local irreducible] Host.reduceAdd in
set_option maxHeartbeats 4000000 in
/-- Normalisation 1: every column's biased variance. -/
theorem v1_2 (W : Valuation τ sig (Elt Ideal)) {a : Fin 20000 → Fin 128 → EReal} (ha : W (Proc.devRef .tc main_v335) = M.mk2 a) :
    after c_v1_2 W (Proc.devRef .tc main_v343) = M.mk1 (M.varR a) := by
  unfold c_v1_2
  first
  | (after_results_simp; (try simp only [TRef.ofBuf, TRef.toBuf, cast_cast, cast_eq]); rw [ha]; exact RStage.var_eq (M.mk2 a))
  | (refine Eq.trans ?_ ((RStage.var_eq (W (Proc.devRef .tc main_v335))).trans (by rw [ha]; rfl)); simp only [after_cons, after_nil]; rfl)

set_option maxHeartbeats 1600000 in
/-- Normalisation 1: normalised, scaled, shifted, rectified. -/
theorem n1_2 (W : Valuation τ sig (Elt Ideal)) {a : Fin 20000 → Fin 128 → EReal} {m v g b : Fin 128 → EReal}
    (ha : W (Proc.devRef .tc main_v335) = M.mk2 a) (hm : W (Proc.devRef .tc main_v342) = M.mk1 m) (hv : W (Proc.devRef .tc main_v343) = M.mk1 v)
    (hg : W (Proc.devRef .tc main_v337) = M.mk1 g) (hb : W (Proc.devRef .tc main_v339) = M.mk1 b) :
    after c_n1_2 W (Proc.devRef .tc main_v359) = M.mk2 (M.bnrelu a m v g b) := by
  unfold c_n1_2
  first
  | (after_results_simp; (try simp only [TRef.ofBuf, TRef.toBuf, cast_cast, cast_eq]); rw [ha, hm, hv, hg, hb]; exact RStage.bnrelu_eq (M.mk2 a) (M.mk1 m) (M.mk1 v) (M.mk1 g) (M.mk1 b))
  | (refine Eq.trans ?_ ((RStage.bnrelu_eq (W (Proc.devRef .tc main_v335)) (W (Proc.devRef .tc main_v342)) (W (Proc.devRef .tc main_v343)) (W (Proc.devRef .tc main_v337)) (W (Proc.devRef .tc main_v339))).trans (by rw [ha, hm, hv, hg, hb]; rfl)); simp only [after_cons, after_nil]; rfl)

/-- The second linear map. -/
theorem l2_2 (W : Valuation τ sig (Elt Ideal)) {z : Fin 20000 → Fin 128 → EReal} (hz : W (Proc.devRef .tc main_v359) = M.mk2 z) :
    after c_l2_2 W (Proc.devRef .tc main_v367) = M.mk2 (M.affine z ((inputsR W).mlp_w2 (2 : Fin 4)) ((inputsR W).mlp_b2 (2 : Fin 4))) := by
  unfold c_l2_2
  after_results
  rw [hz]
  exact affine_member z _ _ 2 (by decide : 2 < 4) _ _

/-- Normalisation 2: its scale. -/
theorem m2g_2 (W : Valuation τ sig (Elt Ideal)) :
    after c_m2_2 W (Proc.devRef .tc main_v369) = M.mk1 ((inputsR W).app_bn_g (2 : Fin 4)) := by
  unfold c_m2_2
  after_results
  exact vec_member _ 2 (by decide : 2 < 4) _

/-- Normalisation 2: its shift. -/
theorem m2b_2 (W : Valuation τ sig (Elt Ideal)) :
    after c_m2_2 W (Proc.devRef .tc main_v371) = M.mk1 ((inputsR W).app_bn_b (2 : Fin 4)) := by
  unfold c_m2_2
  after_results
  exact vec_member _ 2 (by decide : 2 < 4) _

/-- Normalisation 2: every column's mean. -/
theorem m2m_2 (W : Valuation τ sig (Elt Ideal)) {a : Fin 20000 → Fin 128 → EReal} (ha : W (Proc.devRef .tc main_v367) = M.mk2 a) :
    after c_m2_2 W (Proc.devRef .tc main_v374) = M.mk1 (M.meanR a) := by
  unfold c_m2_2
  after_results
  rw [ha]
  exact RStage.mean_eq (M.mk2 a)

attribute [local irreducible] Host.reduceAdd in
set_option maxHeartbeats 4000000 in
/-- Normalisation 2: every column's biased variance. -/
theorem v2_2 (W : Valuation τ sig (Elt Ideal)) {a : Fin 20000 → Fin 128 → EReal} (ha : W (Proc.devRef .tc main_v367) = M.mk2 a) :
    after c_v2_2 W (Proc.devRef .tc main_v375) = M.mk1 (M.varR a) := by
  unfold c_v2_2
  first
  | (after_results_simp; (try simp only [TRef.ofBuf, TRef.toBuf, cast_cast, cast_eq]); rw [ha]; exact RStage.var_eq (M.mk2 a))
  | (refine Eq.trans ?_ ((RStage.var_eq (W (Proc.devRef .tc main_v367))).trans (by rw [ha]; rfl)); simp only [after_cons, after_nil]; rfl)

set_option maxHeartbeats 1600000 in
/-- Normalisation 2: normalised, scaled, shifted, rectified. -/
theorem n2_2 (W : Valuation τ sig (Elt Ideal)) {a : Fin 20000 → Fin 128 → EReal} {m v g b : Fin 128 → EReal}
    (ha : W (Proc.devRef .tc main_v367) = M.mk2 a) (hm : W (Proc.devRef .tc main_v374) = M.mk1 m) (hv : W (Proc.devRef .tc main_v375) = M.mk1 v)
    (hg : W (Proc.devRef .tc main_v369) = M.mk1 g) (hb : W (Proc.devRef .tc main_v371) = M.mk1 b) :
    after c_n2_2 W (Proc.devRef .tc main_v391) = M.mk2 (M.bnrelu a m v g b) := by
  unfold c_n2_2
  first
  | (after_results_simp; (try simp only [TRef.ofBuf, TRef.toBuf, cast_cast, cast_eq]); rw [ha, hm, hv, hg, hb]; exact RStage.bnrelu_eq (M.mk2 a) (M.mk1 m) (M.mk1 v) (M.mk1 g) (M.mk1 b))
  | (refine Eq.trans ?_ ((RStage.bnrelu_eq (W (Proc.devRef .tc main_v367)) (W (Proc.devRef .tc main_v374)) (W (Proc.devRef .tc main_v375)) (W (Proc.devRef .tc main_v369)) (W (Proc.devRef .tc main_v371))).trans (by rw [ha, hm, hv, hg, hb]; rfl)); simp only [after_cons, after_nil]; rfl)

/-- Normalisation 3: its scale. -/
theorem m3g_2 (W : Valuation τ sig (Elt Ideal)) :
    after c_m3_2 W (Proc.devRef .tc main_v393) = M.mk1 ((inputsR W).gin_bn_g (2 : Fin 4)) := by
  unfold c_m3_2
  after_results
  exact vec_member _ 2 (by decide : 2 < 4) _

/-- Normalisation 3: its shift. -/
theorem m3b_2 (W : Valuation τ sig (Elt Ideal)) :
    after c_m3_2 W (Proc.devRef .tc main_v395) = M.mk1 ((inputsR W).gin_bn_b (2 : Fin 4)) := by
  unfold c_m3_2
  after_results
  exact vec_member _ 2 (by decide : 2 < 4) _

/-- Normalisation 3: every column's mean. -/
theorem m3m_2 (W : Valuation τ sig (Elt Ideal)) {a : Fin 20000 → Fin 128 → EReal} (ha : W (Proc.devRef .tc main_v391) = M.mk2 a) :
    after c_m3_2 W (Proc.devRef .tc main_v398) = M.mk1 (M.meanR a) := by
  unfold c_m3_2
  after_results
  rw [ha]
  exact RStage.mean_eq (M.mk2 a)

attribute [local irreducible] Host.reduceAdd in
set_option maxHeartbeats 4000000 in
/-- Normalisation 3: every column's biased variance. -/
theorem v3_2 (W : Valuation τ sig (Elt Ideal)) {a : Fin 20000 → Fin 128 → EReal} (ha : W (Proc.devRef .tc main_v391) = M.mk2 a) :
    after c_v3_2 W (Proc.devRef .tc main_v399) = M.mk1 (M.varR a) := by
  unfold c_v3_2
  first
  | (after_results_simp; (try simp only [TRef.ofBuf, TRef.toBuf, cast_cast, cast_eq]); rw [ha]; exact RStage.var_eq (M.mk2 a))
  | (refine Eq.trans ?_ ((RStage.var_eq (W (Proc.devRef .tc main_v391))).trans (by rw [ha]; rfl)); simp only [after_cons, after_nil]; rfl)

set_option maxHeartbeats 1600000 in
/-- Normalisation 3: normalised, scaled, shifted, rectified. -/
theorem n3_2 (W : Valuation τ sig (Elt Ideal)) {a : Fin 20000 → Fin 128 → EReal} {m v g b : Fin 128 → EReal}
    (ha : W (Proc.devRef .tc main_v391) = M.mk2 a) (hm : W (Proc.devRef .tc main_v398) = M.mk1 m) (hv : W (Proc.devRef .tc main_v399) = M.mk1 v)
    (hg : W (Proc.devRef .tc main_v393) = M.mk1 g) (hb : W (Proc.devRef .tc main_v395) = M.mk1 b) :
    after c_n3_2 W (Proc.devRef .tc main_v415) = M.mk2 (M.bnrelu a m v g b) := by
  unfold c_n3_2
  first
  | (after_results_simp; (try simp only [TRef.ofBuf, TRef.toBuf, cast_cast, cast_eq]); rw [ha, hm, hv, hg, hb]; exact RStage.bnrelu_eq (M.mk2 a) (M.mk1 m) (M.mk1 v) (M.mk1 g) (M.mk1 b))
  | (refine Eq.trans ?_ ((RStage.bnrelu_eq (W (Proc.devRef .tc main_v391)) (W (Proc.devRef .tc main_v398)) (W (Proc.devRef .tc main_v399)) (W (Proc.devRef .tc main_v393)) (W (Proc.devRef .tc main_v395))).trans (by rw [ha, hm, hv, hg, hb]; rfl)); simp only [after_cons, after_nil]; rfl)

/-- The layer's output: its input plus the last normalisation. -/
theorem rs_2 (W : Valuation τ sig (Elt Ideal)) {x z : Fin 20000 → Fin 128 → EReal} (hx : W (Proc.devRef .tc main_v278) = M.mk2 x)
    (hz : W (Proc.devRef .tc main_v415) = M.mk2 z) :
    after c_rs_2 W (Proc.devRef .tc main_v416) = M.mk2 (fun r j => x r j + z r j) := by
  unfold c_rs_2
  after_results
  rw [hx, hz]
  rfl

set_option maxHeartbeats 1600000 in
/-- The head's rows at the edges' source words. -/
theorem hgs_3 (W : Valuation τ sig (Elt Ideal)) {x : Fin 20000 → Fin 128 → EReal} (hx : W (Proc.devRef .tc main_v416) = M.mk2 x) :
    after c_hg_3 W (Proc.devRef .tc main_v423) = M.mk2 (M.rows x (inputsR W).src) := by
  unfold c_hg_3
  after_results_simp
  try simp only [TRef.ofBuf, TRef.toBuf, cast_cast, cast_eq]
  rw [hx]
  exact rows_read x _

set_option maxHeartbeats 1600000 in
/-- The head's rows at the edges' target words. -/
theorem hgd_3 (W : Valuation τ sig (Elt Ideal)) {x : Fin 20000 → Fin 128 → EReal} (hx : W (Proc.devRef .tc main_v416) = M.mk2 x) :
    after c_hg_3 W (Proc.devRef .tc main_v430) = M.mk2 (M.rows x (inputsR W).dst) := by
  unfold c_hg_3
  after_results_simp
  try simp only [TRef.ofBuf, TRef.toBuf, cast_cast, cast_eq]
  rw [hx]
  exact rows_read x _

set_option maxHeartbeats 1600000 in
/-- The head's score from the two gathered arrays. -/
theorem hs_3 (W : Valuation τ sig (Elt Ideal)) {xs xd : Fin 320000 → Fin 128 → EReal} (h₁ : W (Proc.devRef .tc main_v423) = M.mk2 xs)
    (h₂ : W (Proc.devRef .tc main_v430) = M.mk2 xd) :
    after c_hs_3 W (Proc.devRef .tc main_v448)
      = M.mk2 (M.headR xs xd ((inputsR W).pred_w1 (3 : Fin 5)) ((inputsR W).pred_b1 (3 : Fin 5)) ((inputsR W).pred_w2 (3 : Fin 5))
          ((inputsR W).pred_b2 (3 : Fin 5))) := by
  unfold c_hs_3
  after_results_simp
  try simp only [TRef.ofBuf, TRef.toBuf, cast_cast, cast_eq]
  rw [h₁, h₂]
  exact head_member xs xd _ _ _ _ 3 (by decide : 3 < 5) _ _ _ _

/-- The running score plus the head's. -/
theorem ad_3 (W : Valuation τ sig (Elt Ideal)) {s h : Fin 320000 → Fin 2 → EReal} (hs : W (Proc.devRef .tc main_v311) = M.mk2 s)
    (hh : W (Proc.devRef .tc main_v448) = M.mk2 h) :
    after c_ad_3 W (Proc.devRef .tc main_v449) = M.mk2 (fun e c => s e c + h e c) := by
  unfold c_ad_3
  after_results
  rw [hs, hh]
  rfl

end Cert.RChain

end
-- ==== Proof.RChainU2.lean ====
/-
  Layer 2, head 3 and the score's sum as one step: from the layer's input and the running score to the layer's output
  and the score with the head's added, the arguments kept.
-/
import proofs.«416875_j80633716015165_3_alg».proof.Proof.RChainS2

noncomputable section

open Idealize.ShloMosaic Idealize.ShloMosaic.ValueIdx Idealize.SL.Sem
open Cert.ReferenceIdeal Cert.ReferenceIdeal.Facts₀
open Idealize.ShloMosaic.StableHlo

namespace Cert.RChain

/-- Layer 2, head 3 and the score's sum, in order. -/
def U_2 : List (HloOp τ sig (Elt Ideal)) :=
  c_ng_2 ++ (c_l1_2 ++ (c_m1_2 ++ (c_v1_2 ++ (c_n1_2 ++ (c_l2_2 ++ (c_m2_2 ++ (c_v2_2 ++ (c_n2_2 ++ (c_m3_2 ++ (c_v3_2 ++ (c_n3_2 ++ (c_rs_2 ++ (c_hg_3 ++ (c_hs_3 ++ (c_ad_3)))))))))))))))

/-- The references they write. -/
def WU_2 : List (Ref sig .tc) :=
  W_c_ng_2 ++ (W_c_l1_2 ++ (W_c_m1_2 ++ (W_c_v1_2 ++ (W_c_n1_2 ++ (W_c_l2_2 ++ (W_c_m2_2 ++ (W_c_v2_2 ++ (W_c_n2_2 ++ (W_c_m3_2 ++ (W_c_v3_2 ++ (W_c_n3_2 ++ (W_c_rs_2 ++ (W_c_hg_3 ++ (W_c_hs_3 ++ (W_c_ad_3)))))))))))))))

theorem hWU_2 : WritesIn U_2 WU_2 :=
  hW_c_ng_2.append (hW_c_l1_2.append (hW_c_m1_2.append (hW_c_v1_2.append (hW_c_n1_2.append (hW_c_l2_2.append (hW_c_m2_2.append (hW_c_v2_2.append (hW_c_n2_2.append (hW_c_m3_2.append (hW_c_v3_2.append (hW_c_n3_2.append (hW_c_rs_2.append (hW_c_hg_3.append (hW_c_hs_3.append (hW_c_ad_3)))))))))))))))

set_option maxHeartbeats 1000000 in
/-- From the layer's input and the running score: the layer's output and the score with head 3 added; the arguments
    are kept. -/
theorem unit_2 {V W : Valuation τ sig (Elt Ideal)} {x : Fin 20000 → Fin 128 → EReal} {s : Fin 320000 → Fin 2 → EReal}
    (a : ArgsAre V W) (hx : W (Proc.devRef .tc main_v278) = M.mk2 x) (hs : W (Proc.devRef .tc main_v311) = M.mk2 s) :
    ArgsAre V (after U_2 W)
      ∧ after U_2 W (Proc.devRef .tc main_v416) = M.mk2 (M.layerI (inputsR V) (2 : Fin 4) x)
      ∧ after U_2 W (Proc.devRef .tc main_v449)
          = M.mk2 (fun e c => s e c + M.headI (inputsR V) (3 : Fin 5) (M.layerI (inputsR V) (2 : Fin 4) x) e c) := by
  have h1_v45 := ng_2 _ hx
  rw [a.inputs] at h1_v45
  have h1_v3 := (hW_c_ng_2.frame (r := main_v278) (by decide +kernel) _).trans hx
  have h1_v35 := (hW_c_ng_2.frame (r := main_v311) (by decide +kernel) _).trans hs
  have a1 := a.step hW_c_ng_2 hA_c_ng_2
  have h2_v59 := l1_2 _ h1_v3 h1_v45
  rw [a1.inputs] at h2_v59
  have h2_v3 := (hW_c_l1_2.frame (r := main_v278) (by decide +kernel) _).trans h1_v3
  have h2_v35 := (hW_c_l1_2.frame (r := main_v311) (by decide +kernel) _).trans h1_v35
  have a2 := a1.step hW_c_l1_2 hA_c_l1_2
  have h3_v61 := m1g_2 (after c_l1_2 (after c_ng_2 W))
  rw [a2.inputs] at h3_v61
  have h3_v63 := m1b_2 (after c_l1_2 (after c_ng_2 W))
  rw [a2.inputs] at h3_v63
  have h3_v66 := m1m_2 _ h2_v59
  have h3_v3 := (hW_c_m1_2.frame (r := main_v278) (by decide +kernel) _).trans h2_v3
  have h3_v35 := (hW_c_m1_2.frame (r := main_v311) (by decide +kernel) _).trans h2_v35
  have h3_v59 := (hW_c_m1_2.frame (r := main_v335) (by decide +kernel) _).trans h2_v59
  have a3 := a2.step hW_c_m1_2 hA_c_m1_2
  have h4_v67 := v1_2 _ h3_v59
  have h4_v3 := (hW_c_v1_2.frame (r := main_v278) (by decide +kernel) _).trans h3_v3
  have h4_v35 := (hW_c_v1_2.frame (r := main_v311) (by decide +kernel) _).trans h3_v35
  have h4_v59 := (hW_c_v1_2.frame (r := main_v335) (by decide +kernel) _).trans h3_v59
  have h4_v61 := (hW_c_v1_2.frame (r := main_v337) (by decide +kernel) _).trans h3_v61
  have h4_v63 := (hW_c_v1_2.frame (r := main_v339) (by decide +kernel) _).trans h3_v63
  have h4_v66 := (hW_c_v1_2.frame (r := main_v342) (by decide +kernel) _).trans h3_v66
  have a4 := a3.step hW_c_v1_2 hA_c_v1_2
  have h5_v83 := n1_2 _ h4_v59 h4_v66 h4_v67 h4_v61 h4_v63
  have h5_v3 := (hW_c_n1_2.frame (r := main_v278) (by decide +kernel) _).trans h4_v3
  have h5_v35 := (hW_c_n1_2.frame (r := main_v311) (by decide +kernel) _).trans h4_v35
  have a5 := a4.step hW_c_n1_2 hA_c_n1_2
  have h6_v91 := l2_2 _ h5_v83
  rw [a5.inputs] at h6_v91
  have h6_v3 := (hW_c_l2_2.frame (r := main_v278) (by decide +kernel) _).trans h5_v3
  have h6_v35 := (hW_c_l2_2.frame (r := main_v311) (by decide +kernel) _).trans h5_v35
  have a6 := a5.step hW_c_l2_2 hA_c_l2_2
  have h7_v93 := m2g_2 (after c_l2_2 (after c_n1_2 (after c_v1_2 (after c_m1_2 (after c_l1_2 (after c_ng_2 W))))))
  rw [a6.inputs] at h7_v93
  have h7_v95 := m2b_2 (after c_l2_2 (after c_n1_2 (after c_v1_2 (after c_m1_2 (after c_l1_2 (after c_ng_2 W))))))
  rw [a6.inputs] at h7_v95
  have h7_v98 := m2m_2 _ h6_v91
  have h7_v3 := (hW_c_m2_2.frame (r := main_v278) (by decide +kernel) _).trans h6_v3
  have h7_v35 := (hW_c_m2_2.frame (r := main_v311) (by decide +kernel) _).trans h6_v35
  have h7_v91 := (hW_c_m2_2.frame (r := main_v367) (by decide +kernel) _).trans h6_v91
  have a7 := a6.step hW_c_m2_2 hA_c_m2_2
  have h8_v99 := v2_2 _ h7_v91
  have h8_v3 := (hW_c_v2_2.frame (r := main_v278) (by decide +kernel) _).trans h7_v3
  have h8_v35 := (hW_c_v2_2.frame (r := main_v311) (by decide +kernel) _).trans h7_v35
  have h8_v91 := (hW_c_v2_2.frame (r := main_v367) (by decide +kernel) _).trans h7_v91
  have h8_v93 := (hW_c_v2_2.frame (r := main_v369) (by decide +kernel) _).trans h7_v93
  have h8_v95 := (hW_c_v2_2.frame (r := main_v371) (by decide +kernel) _).trans h7_v95
  have h8_v98 := (hW_c_v2_2.frame (r := main_v374) (by decide +kernel) _).trans h7_v98
  have a8 := a7.step hW_c_v2_2 hA_c_v2_2
  have h9_v115 := n2_2 _ h8_v91 h8_v98 h8_v99 h8_v93 h8_v95
  have h9_v3 := (hW_c_n2_2.frame (r := main_v278) (by decide +kernel) _).trans h8_v3
  have h9_v35 := (hW_c_n2_2.frame (r := main_v311) (by decide +kernel) _).trans h8_v35
  have a9 := a8.step hW_c_n2_2 hA_c_n2_2
  have h10_v117 := m3g_2 (after c_n2_2 (after c_v2_2 (after c_m2_2 (after c_l2_2 (after c_n1_2 (after c_v1_2 (after c_m1_2 (after c_l1_2 (after c_ng_2 W)))))))))
  rw [a9.inputs] at h10_v117
  have h10_v119 := m3b_2 (after c_n2_2 (after c_v2_2 (after c_m2_2 (after c_l2_2 (after c_n1_2 (after c_v1_2 (after c_m1_2 (after c_l1_2 (after c_ng_2 W)))))))))
  rw [a9.inputs] at h10_v119
  have h10_v122 := m3m_2 _ h9_v115
  have h10_v3 := (hW_c_m3_2.frame (r := main_v278) (by decide +kernel) _).trans h9_v3
  have h10_v35 := (hW_c_m3_2.frame (r := main_v311) (by decide +kernel) _).trans h9_v35
  have h10_v115 := (hW_c_m3_2.frame (r := main_v391) (by decide +kernel) _).trans h9_v115
  have a10 := a9.step hW_c_m3_2 hA_c_m3_2
  have h11_v123 := v3_2 _ h10_v115
  have h11_v3 := (hW_c_v3_2.frame (r := main_v278) (by decide +kernel) _).trans h10_v3
  have h11_v35 := (hW_c_v3_2.frame (r := main_v311) (by decide +kernel) _).trans h10_v35
  have h11_v115 := (hW_c_v3_2.frame (r := main_v391) (by decide +kernel) _).trans h10_v115
  have h11_v117 := (hW_c_v3_2.frame (r := main_v393) (by decide +kernel) _).trans h10_v117
  have h11_v119 := (hW_c_v3_2.frame (r := main_v395) (by decide +kernel) _).trans h10_v119
  have h11_v122 := (hW_c_v3_2.frame (r := main_v398) (by decide +kernel) _).trans h10_v122
  have a11 := a10.step hW_c_v3_2 hA_c_v3_2
  have h12_v139 := n3_2 _ h11_v115 h11_v122 h11_v123 h11_v117 h11_v119
  have h12_v3 := (hW_c_n3_2.frame (r := main_v278) (by decide +kernel) _).trans h11_v3
  have h12_v35 := (hW_c_n3_2.frame (r := main_v311) (by decide +kernel) _).trans h11_v35
  have a12 := a11.step hW_c_n3_2 hA_c_n3_2
  have h13_v140 := rs_2 _ h12_v3 h12_v139
  have h13_v35 := (hW_c_rs_2.frame (r := main_v311) (by decide +kernel) _).trans h12_v35
  have a13 := a12.step hW_c_rs_2 hA_c_rs_2
  have h14_v147 := hgs_3 _ h13_v140
  rw [a13.inputs] at h14_v147
  have h14_v154 := hgd_3 _ h13_v140
  rw [a13.inputs] at h14_v154
  have h14_v35 := (hW_c_hg_3.frame (r := main_v311) (by decide +kernel) _).trans h13_v35
  have h14_v140 := (hW_c_hg_3.frame (r := main_v416) (by decide +kernel) _).trans h13_v140
  have a14 := a13.step hW_c_hg_3 hA_c_hg_3
  have h15_v172 := hs_3 _ h14_v147 h14_v154
  rw [a14.inputs] at h15_v172
  have h15_v35 := (hW_c_hs_3.frame (r := main_v311) (by decide +kernel) _).trans h14_v35
  have h15_v140 := (hW_c_hs_3.frame (r := main_v416) (by decide +kernel) _).trans h14_v140
  have a15 := a14.step hW_c_hs_3 hA_c_hs_3
  have h16_v173 := ad_3 _ h15_v35 h15_v172
  have h16_v140 := (hW_c_ad_3.frame (r := main_v416) (by decide +kernel) _).trans h15_v140
  have a16 := a15.step hW_c_ad_3 hA_c_ad_3
  have e : after U_2 W = after c_ad_3 (after c_hs_3 (after c_hg_3 (after c_rs_2 (after c_n3_2 (after c_v3_2 (after c_m3_2 (after c_n2_2 (after c_v2_2 (after c_m2_2 (after c_l2_2 (after c_n1_2 (after c_v1_2 (after c_m1_2 (after c_l1_2 (after c_ng_2 W))))))))))))))) := by
    unfold U_2
    simp only [after_app]
  rw [e]
  refine ⟨a16, ?_, ?_⟩
  · rw [h16_v140]
    unfold M.layerI M.layer M.stage4 M.stage3 M.stage2
    rfl
  · rw [h16_v173]
    unfold M.headI M.layerI M.layer M.stage4 M.stage3 M.stage2
    rfl

end Cert.RChain

end
-- ==== Proof.RChainChunks3.lean ====
import proofs.«416875_j80633716015165_3_alg».proof.Proof.RChainBase

noncomputable section

open Idealize.ShloMosaic Idealize.ShloMosaic.ValueIdx Idealize.SL.Sem
open Cert.ReferenceIdeal Cert.ReferenceIdeal.Facts₀
open Idealize.ShloMosaic.StableHlo

namespace Cert.RChain

/-- Layer 3: the neighbour sums. -/
def c_ng_3 {F : FTy → Type} [FloatOps F] : List (HloOp τ sig (Elt F)) :=
  [ nullary main_c_62 (constantI S_ 32 0#32),
    unary main_c_62 main_v450 (broadcastInDim S320000 ![] bcast_S_S320000 : (⟨S_, .i32⟩ : BufTy).Contents (Elt F) → (⟨S320000, .i32⟩ : BufTy).Contents (Elt F)),
    binary main_arg18 main_v450 main_v451 (cmpi .slt : (⟨S320000, .i32⟩ : BufTy).Contents (Elt F) → (⟨S320000, .i32⟩ : BufTy).Contents (Elt F) → (⟨S320000, .i1⟩ : BufTy).Contents (Elt F)),
    nullary main_c_63 (constantI S_ 32 20000#32),
    unary main_c_63 main_v452 (broadcastInDim S320000 ![] bcast_S_S320000 : (⟨S_, .i32⟩ : BufTy).Contents (Elt F) → (⟨S320000, .i32⟩ : BufTy).Contents (Elt F)),
    binary main_arg18 main_v452 main_v453 (addi : (⟨S320000, .i32⟩ : BufTy).Contents (Elt F) → (⟨S320000, .i32⟩ : BufTy).Contents (Elt F) → (⟨S320000, .i32⟩ : BufTy).Contents (Elt F)),
    ternary main_v451 main_v453 main_arg18 main_v454 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v454 main_v455 (broadcastInDim S320000x1 ![0] bcast_S320000_S320000x1_0 : (⟨S320000, .i32⟩ : BufTy).Contents (Elt F) → (⟨S320000x1, .i32⟩ : BufTy).Contents (Elt F)),
    binary main_v416 main_v455 main_v456 ((fun x i => Host.gather gather_S20000x128_S320000x1_S320000x128_1_0_n_n_0_1_1128 x i) : (⟨S20000x128, .f32⟩ : BufTy).Contents (Elt F) → (⟨S320000x1, .i32⟩ : BufTy).Contents (Elt F) → (⟨S320000x128, .f32⟩ : BufTy).Contents (Elt F)),
    nullary main_cst_64 (constant S_ .f32 0x00000000#32),
    unary main_cst_64 main_v457 (broadcastInDim S20000x128 ![] bcast_S_S20000x128 : (⟨S_, .f32⟩ : BufTy).Contents (Elt F) → (⟨S20000x128, .f32⟩ : BufTy).Contents (Elt F)),
    unary main_arg19 main_v458 (broadcastInDim S320000x1 ![0] bcast_S320000_S320000x1_0 : (⟨S320000, .i32⟩ : BufTy).Contents (Elt F) → (⟨S320000x1, .i32⟩ : BufTy).Contents (Elt F)),
    ternary main_v457 main_v458 main_v456 main_v459 ((fun x i u => Host.scatterAdd scatter_S20000x128_S320000x1_S320000x128_1_0_0_1 x i u) : (⟨S20000x128, .f32⟩ : BufTy).Contents (Elt F) → (⟨S320000x1, .i32⟩ : BufTy).Contents (Elt F) → (⟨S320000x128, .f32⟩ : BufTy).Contents (Elt F) → (⟨S20000x128, .f32⟩ : BufTy).Contents (Elt F)) ]

/-- The references it writes. -/
def W_c_ng_3 : List (Ref sig .tc) :=
  [main_c_62, main_v450, main_v451, main_c_63, main_v452, main_v453, main_v454, main_v455, main_v456, main_cst_64, main_v457, main_v458, main_v459]

theorem hW_c_ng_3 : WritesIn (c_ng_3 (F := Ideal)) W_c_ng_3 := by
  unfold WritesIn c_ng_3
  exact ⟨single_sub (y := main_c_62) (by decide +kernel),
    single_sub (y := main_v450) (by decide +kernel),
    single_sub (y := main_v451) (by decide +kernel),
    single_sub (y := main_c_63) (by decide +kernel),
    single_sub (y := main_v452) (by decide +kernel),
    single_sub (y := main_v453) (by decide +kernel),
    single_sub (y := main_v454) (by decide +kernel),
    single_sub (y := main_v455) (by decide +kernel),
    single_sub (y := main_v456) (by decide +kernel),
    single_sub (y := main_cst_64) (by decide +kernel),
    single_sub (y := main_v457) (by decide +kernel),
    single_sub (y := main_v458) (by decide +kernel),
    single_sub (y := main_v459) (by decide +kernel)⟩

/-- It writes no argument. -/
theorem hA_c_ng_3 : ∀ r ∈ argRefs, r ∉ W_c_ng_3 := by
  decide +kernel

/-- Layer 3: the scaled input plus the neighbour sums, through the first linear map. -/
def c_l1_3 {F : FTy → Type} [FloatOps F] : List (HloOp τ sig (Elt F)) :=
  [ unary main_arg3 main_v460 ((extractStridedSlice S1 ![3] · slices_S4_S1_3) : (⟨S4, .f32⟩ : BufTy).Contents (Elt F) → (⟨S1, .f32⟩ : BufTy).Contents (Elt F)),
    reshape main_v460 main_v461 rfl shapeCasts_S1_S_,
    nullary main_cst_65 (constant S_ .f32 0x3F800000#32),
    binary main_cst_65 main_v461 main_v462 (addf : (⟨S_, .f32⟩ : BufTy).Contents (Elt F) → (⟨S_, .f32⟩ : BufTy).Contents (Elt F) → (⟨S_, .f32⟩ : BufTy).Contents (Elt F)),
    unary main_v462 main_v463 (broadcastInDim S20000x128 ![] bcast_S_S20000x128 : (⟨S_, .f32⟩ : BufTy).Contents (Elt F) → (⟨S20000x128, .f32⟩ : BufTy).Contents (Elt F)),
    binary main_v463 main_v416 main_v464 (mulf : (⟨S20000x128, .f32⟩ : BufTy).Contents (Elt F) → (⟨S20000x128, .f32⟩ : BufTy).Contents (Elt F) → (⟨S20000x128, .f32⟩ : BufTy).Contents (Elt F)),
    binary main_v464 main_v459 main_v465 (addf : (⟨S20000x128, .f32⟩ : BufTy).Contents (Elt F) → (⟨S20000x128, .f32⟩ : BufTy).Contents (Elt F) → (⟨S20000x128, .f32⟩ : BufTy).Contents (Elt F)),
    unary main_arg4 main_v466 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v466 main_v467 rfl shapeCasts_S1x128x128_S128x128,
    binary main_v465 main_v467 main_v468 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg5 main_v469 ((extractStridedSlice S1x128 ![3, 0] · slices_S4x128_S1x128_3_0) : (⟨S4x128, .f32⟩ : BufTy).Contents (Elt F) → (⟨S1x128, .f32⟩ : BufTy).Contents (Elt F)),
    reshape main_v469 main_v470 rfl shapeCasts_S1x128_S128,
    unary main_v470 main_v471 (broadcastInDim S1x128 ![1] bcast_S128_S1x128_1 : (⟨S128, .f32⟩ : BufTy).Contents (Elt F) → (⟨S1x128, .f32⟩ : BufTy).Contents (Elt F)),
    unary main_v471 main_v472 (broadcastInDim S20000x128 ![0, 1] bcast_S1x128_S20000x128_0_1 : (⟨S1x128, .f32⟩ : BufTy).Contents (Elt F) → (⟨S20000x128, .f32⟩ : BufTy).Contents (Elt F)),
    binary main_v468 main_v472 main_v473 (addf : (⟨S20000x128, .f32⟩ : BufTy).Contents (Elt F) → (⟨S20000x128, .f32⟩ : BufTy).Contents (Elt F) → (⟨S20000x128, .f32⟩ : BufTy).Contents (Elt F)) ]

/-- The references it writes. -/
def W_c_l1_3 : List (Ref sig .tc) :=
  [main_v460, main_v461, main_cst_65, main_v462, main_v463, main_v464, main_v465, main_v466, main_v467, main_v468, main_v469, main_v470, main_v471, main_v472, main_v473]

theorem hW_c_l1_3 : WritesIn (c_l1_3 (F := Ideal)) W_c_l1_3 := by
  unfold WritesIn c_l1_3
  exact ⟨single_sub (y := main_v460) (by decide +kernel),
    single_sub (y := main_v461) (by decide +kernel),
    single_sub (y := main_cst_65) (by decide +kernel),
    single_sub (y := main_v462) (by decide +kernel),
    single_sub (y := main_v463) (by decide +kernel),
    single_sub (y := main_v464) (by decide +kernel),
    single_sub (y := main_v465) (by decide +kernel),
    single_sub (y := main_v466) (by decide +kernel),
    single_sub (y := main_v467) (by decide +kernel),
    single_sub (y := main_v468) (by decide +kernel),
    single_sub (y := main_v469) (by decide +kernel),
    single_sub (y := main_v470) (by decide +kernel),
    single_sub (y := main_v471) (by decide +kernel),
    single_sub (y := main_v472) (by decide +kernel),
    single_sub (y := main_v473) (by decide +kernel)⟩

/-- It writes no argument. -/
theorem hA_c_l1_3 : ∀ r ∈ argRefs, r ∉ W_c_l1_3 := by
  decide +kernel

/-- Layer 3, normalisation 1: its scale, its shift and every column's mean. -/
def c_m1_3 {F : FTy → Type} [FloatOps F] : List (HloOp τ sig (Elt F)) :=
  [ unary main_arg6 main_v474 ((extractStridedSlice S1x128 ![3, 0] · slices_S4x128_S1x128_3_0) : (⟨S4x128, .f32⟩ : BufTy).Contents (Elt F) → (⟨S1x128, .f32⟩ : BufTy).Contents (Elt F)),
    reshape main_v474 main_v475 rfl shapeCasts_S1x128_S128,
    unary main_arg7 main_v476 ((extractStridedSlice S1x128 ![3, 0] · slices_S4x128_S1x128_3_0) : (⟨S4x128, .f32⟩ : BufTy).Contents (Elt F) → (⟨S1x128, .f32⟩ : BufTy).Contents (Elt F)),
    reshape main_v476 main_v477 rfl shapeCasts_S1x128_S128,
    nullary main_cst_66 (constant S_ .f32 0x00000000#32),
    binary main_v473 main_cst_66 main_v478 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    nullary main_cst_67 (constant S_ .f32 0x469C4000#32),
    unary main_cst_67 main_v479 (broadcastInDim S128 ![] bcast_S_S128 : (⟨S_, .f32⟩ : BufTy).Contents (Elt F) → (⟨S128, .f32⟩ : BufTy).Contents (Elt F)),
    binary main_v478 main_v479 main_v480 (Host.divf : (⟨S128, .f32⟩ : BufTy).Contents (Elt F) → (⟨S128, .f32⟩ : BufTy).Contents (Elt F) → (⟨S128, .f32⟩ : BufTy).Contents (Elt F)) ]

/-- The references it writes. -/
def W_c_m1_3 : List (Ref sig .tc) :=
  [main_v474, main_v475, main_v476, main_v477, main_cst_66, main_v478, main_cst_67, main_v479, main_v480]

theorem hW_c_m1_3 : WritesIn (c_m1_3 (F := Ideal)) W_c_m1_3 := by
  unfold WritesIn c_m1_3
  exact ⟨single_sub (y := main_v474) (by decide +kernel),
    single_sub (y := main_v475) (by decide +kernel),
    single_sub (y := main_v476) (by decide +kernel),
    single_sub (y := main_v477) (by decide +kernel),
    single_sub (y := main_cst_66) (by decide +kernel),
    single_sub (y := main_v478) (by decide +kernel),
    single_sub (y := main_cst_67) (by decide +kernel),
    single_sub (y := main_v479) (by decide +kernel),
    single_sub (y := main_v480) (by decide +kernel)⟩

/-- It writes no argument. -/
theorem hA_c_m1_3 : ∀ r ∈ argRefs, r ∉ W_c_m1_3 := by
  decide +kernel

/-- Layer 3, normalisation 1: every column's biased variance. -/
def c_v1_3 {F : FTy → Type} [FloatOps F] : List (HloOp τ sig (Elt F)) :=
  [ nullary main_c_68 (constantI S_ 32 0#32),
    TRef.nullary main_call22.cst (constant S_ .f32 0x00000000#32),
    TRef.binary (.of main_v473) main_call22.cst main_call22.v0 (fun x v => Host.reduceAdd x v reducesTo_S20000x128_S128_d0 h_S_),
    TRef.unary main_call22.v0 main_call22.v1 (broadcastInDim S1x128 ![1] bcast_S128_S1x128_1),
    TRef.nullary main_call22.cst_0 (constant S_ .f32 0x469C4000#32),
    TRef.unary main_call22.cst_0 main_call22.v2 (broadcastInDim S1x128 ![] bcast_S_S1x128),
    TRef.binary main_call22.v1 main_call22.v2 main_call22.v3 Host.divf,
    TRef.unary main_call22.v3 main_call22.v4 (broadcastInDim S20000x128 ![0, 1] bcast_S1x128_S20000x128_0_1),
    TRef.binary (.of main_v473) main_call22.v4 main_call22.v5 subf,
    TRef.binary main_call22.v5 main_call22.v5 main_call22.v6 mulf,
    TRef.unary (.of main_c_68) main_call22.v7 (sitofp .f32),
    TRef.nullary main_call22.cst_1 (constant S_ .f32 0x469C4000#32),
    TRef.binary main_call22.cst_1 main_call22.v7 main_call22.v8 subf,
    TRef.nullary main_call22.cst_2 (constant S_ .f32 0x00000000#32),
    TRef.binary main_call22.v6 main_call22.cst_2 main_call22.v9 (fun x v => Host.reduceAdd x v reducesTo_S20000x128_S128_d0 h_S_),
    TRef.unary main_call22.v8 main_call22.v10 (broadcastInDim S128 ![] bcast_S_S128),
    TRef.binary main_call22.v9 main_call22.v10 main_call22.v11 Host.divf,
    TRef.nullary main_call22.cst_3 (constant S_ .f32 0x00000000#32),
    TRef.binary main_call22.v8 main_call22.cst_3 main_call22.v12 (cmpf .ogt),
    TRef.nullary main_call22.cst_4 (constant S_ .f32 0x7FC00000#32),
    TRef.unary main_call22.cst_4 main_call22.call0.v0 id,
    TRef.unary main_call22.call0.v0 main_call22.call0.v1 (broadcastInDim S128 ![] bcast_S_S128),
    TRef.ternary main_call22.v12 main_call22.v11 main_call22.call0.v1 main_call22.call0.v2 (fun p a b => select (broadcastInDim S128 ![] bcast_S_S128 p) a b) ]

/-- The references it writes. -/
def W_c_v1_3 : List (Ref sig .tc) :=
  [main_c_68, main_call22_cst, main_call22_v0, main_call22_v1, main_call22_cst_0, main_call22_v2, main_call22_v3, main_call22_v4, main_call22_v5, main_call22_v6, main_call22_v7, main_call22_cst_1, main_call22_v8, main_call22_cst_2, main_call22_v9, main_call22_v10, main_call22_v11, main_call22_cst_3, main_call22_v12, main_call22_cst_4, main_call22_call0_v0, main_call22_call0_v1, main_v481]

theorem hW_c_v1_3 : WritesIn (c_v1_3 (F := Ideal)) W_c_v1_3 := by
  unfold WritesIn c_v1_3
  exact ⟨single_sub (y := main_c_68) (by decide +kernel),
    single_sub (y := main_call22_cst) (by decide +kernel),
    single_sub (y := main_call22_v0) (by decide +kernel),
    single_sub (y := main_call22_v1) (by decide +kernel),
    single_sub (y := main_call22_cst_0) (by decide +kernel),
    single_sub (y := main_call22_v2) (by decide +kernel),
    single_sub (y := main_call22_v3) (by decide +kernel),
    single_sub (y := main_call22_v4) (by decide +kernel),
    single_sub (y := main_call22_v5) (by decide +kernel),
    single_sub (y := main_call22_v6) (by decide +kernel),
    single_sub (y := main_call22_v7) (by decide +kernel),
    single_sub (y := main_call22_cst_1) (by decide +kernel),
    single_sub (y := main_call22_v8) (by decide +kernel),
    single_sub (y := main_call22_cst_2) (by decide +kernel),
    single_sub (y := main_call22_v9) (by decide +kernel),
    single_sub (y := main_call22_v10) (by decide +kernel),
    single_sub (y := main_call22_v11) (by decide +kernel),
    single_sub (y := main_call22_cst_3) (by decide +kernel),
    single_sub (y := main_call22_v12) (by decide +kernel),
    single_sub (y := main_call22_cst_4) (by decide +kernel),
    single_sub (y := main_call22_call0_v0) (by decide +kernel),
    single_sub (y := main_call22_call0_v1) (by decide +kernel),
    single_sub (y := main_v481) (by decide +kernel)⟩

/-- It writes no argument. -/
theorem hA_c_v1_3 : ∀ r ∈ argRefs, r ∉ W_c_v1_3 := by
  decide +kernel

/-- Layer 3, normalisation 1: normalised, scaled, shifted and rectified. -/
def c_n1_3 {F : FTy → Type} [FloatOps F] : List (HloOp τ sig (Elt F)) :=
  [ unary main_v480 main_v482 (broadcastInDim S1x128 ![1] bcast_S128_S1x128_1 : (⟨S128, .f32⟩ : BufTy).Contents (Elt F) → (⟨S1x128, .f32⟩ : BufTy).Contents (Elt F)),
    unary main_v482 main_v483 (broadcastInDim S20000x128 ![0, 1] bcast_S1x128_S20000x128_0_1 : (⟨S1x128, .f32⟩ : BufTy).Contents (Elt F) → (⟨S20000x128, .f32⟩ : BufTy).Contents (Elt F)),
    binary main_v473 main_v483 main_v484 (subf : (⟨S20000x128, .f32⟩ : BufTy).Contents (Elt F) → (⟨S20000x128, .f32⟩ : BufTy).Contents (Elt F) → (⟨S20000x128, .f32⟩ : BufTy).Contents (Elt F)),
    nullary main_cst_69 (constant S_ .f32 0x3727C5AC#32),
    unary main_cst_69 main_v485 (broadcastInDim S128 ![] bcast_S_S128 : (⟨S_, .f32⟩ : BufTy).Contents (Elt F) → (⟨S128, .f32⟩ : BufTy).Contents (Elt F)),
    binary main_v481 main_v485 main_v486 (addf : (⟨S128, .f32⟩ : BufTy).Contents (Elt F) → (⟨S128, .f32⟩ : BufTy).Contents (Elt F) → (⟨S128, .f32⟩ : BufTy).Contents (Elt F)),
    unary main_v486 main_v487 (Host.rsqrt : (⟨S128, .f32⟩ : BufTy).Contents (Elt F) → (⟨S128, .f32⟩ : BufTy).Contents (Elt F)),
    unary main_v487 main_v488 (broadcastInDim S1x128 ![1] bcast_S128_S1x128_1 : (⟨S128, .f32⟩ : BufTy).Contents (Elt F) → (⟨S1x128, .f32⟩ : BufTy).Contents (Elt F)),
    unary main_v488 main_v489 (broadcastInDim S20000x128 ![0, 1] bcast_S1x128_S20000x128_0_1 : (⟨S1x128, .f32⟩ : BufTy).Contents (Elt F) → (⟨S20000x128, .f32⟩ : BufTy).Contents (Elt F)),
    binary main_v484 main_v489 main_v490 (mulf : (⟨S20000x128, .f32⟩ : BufTy).Contents (Elt F) → (⟨S20000x128, .f32⟩ : BufTy).Contents (Elt F) → (⟨S20000x128, .f32⟩ : BufTy).Contents (Elt F)),
    unary main_v475 main_v491 (broadcastInDim S1x128 ![1] bcast_S128_S1x128_1 : (⟨S128, .f32⟩ : BufTy).Contents (Elt F) → (⟨S1x128, .f32⟩ : BufTy).Contents (Elt F)),
    unary main_v491 main_v492 (broadcastInDim S20000x128 ![0, 1] bcast_S1x128_S20000x128_0_1 : (⟨S1x128, .f32⟩ : BufTy).Contents (Elt F) → (⟨S20000x128, .f32⟩ : BufTy).Contents (Elt F)),
    binary main_v490 main_v492 main_v493 (mulf : (⟨S20000x128, .f32⟩ : BufTy).Contents (Elt F) → (⟨S20000x128, .f32⟩ : BufTy).Contents (Elt F) → (⟨S20000x128, .f32⟩ : BufTy).Contents (Elt F)),
    unary main_v477 main_v494 (broadcastInDim S1x128 ![1] bcast_S128_S1x128_1 : (⟨S128, .f32⟩ : BufTy).Contents (Elt F) → (⟨S1x128, .f32⟩ : BufTy).Contents (Elt F)),
    unary main_v494 main_v495 (broadcastInDim S20000x128 ![0, 1] bcast_S1x128_S20000x128_0_1 : (⟨S1x128, .f32⟩ : BufTy).Contents (Elt F) → (⟨S20000x128, .f32⟩ : BufTy).Contents (Elt F)),
    binary main_v493 main_v495 main_v496 (addf : (⟨S20000x128, .f32⟩ : BufTy).Contents (Elt F) → (⟨S20000x128, .f32⟩ : BufTy).Contents (Elt F) → (⟨S20000x128, .f32⟩ : BufTy).Contents (Elt F)),
    TRef.nullary main_call23.cst (constant S_ .f32 0x00000000#32),
    TRef.unary main_call23.cst main_call23.v0 (broadcastInDim S20000x128 ![] bcast_S_S20000x128),
    TRef.binary (.of main_v496) main_call23.v0 main_call23.v1 maximumf ]

/-- The references it writes. -/
def W_c_n1_3 : List (Ref sig .tc) :=
  [main_v482, main_v483, main_v484, main_cst_69, main_v485, main_v486, main_v487, main_v488, main_v489, main_v490, main_v491, main_v492, main_v493, main_v494, main_v495, main_v496, main_call23_cst, main_call23_v0, main_v497]

theorem hW_c_n1_3 : WritesIn (c_n1_3 (F := Ideal)) W_c_n1_3 := by
  unfold WritesIn c_n1_3
  exact ⟨single_sub (y := main_v482) (by decide +kernel),
    single_sub (y := main_v483) (by decide +kernel),
    single_sub (y := main_v484) (by decide +kernel),
    single_sub (y := main_cst_69) (by decide +kernel),
    single_sub (y := main_v485) (by decide +kernel),
    single_sub (y := main_v486) (by decide +kernel),
    single_sub (y := main_v487) (by decide +kernel),
    single_sub (y := main_v488) (by decide +kernel),
    single_sub (y := main_v489) (by decide +kernel),
    single_sub (y := main_v490) (by decide +kernel),
    single_sub (y := main_v491) (by decide +kernel),
    single_sub (y := main_v492) (by decide +kernel),
    single_sub (y := main_v493) (by decide +kernel),
    single_sub (y := main_v494) (by decide +kernel),
    single_sub (y := main_v495) (by decide +kernel),
    single_sub (y := main_v496) (by decide +kernel),
    single_sub (y := main_call23_cst) (by decide +kernel),
    single_sub (y := main_call23_v0) (by decide +kernel),
    single_sub (y := main_v497) (by decide +kernel)⟩

/-- It writes no argument. -/
theorem hA_c_n1_3 : ∀ r ∈ argRefs, r ∉ W_c_n1_3 := by
  decide +kernel

/-- Layer 3: the second linear map. -/
def c_l2_3 {F : FTy → Type} [FloatOps F] : List (HloOp τ sig (Elt F)) :=
  [ unary main_arg8 main_v498 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v498 main_v499 rfl shapeCasts_S1x128x128_S128x128,
    binary main_v497 main_v499 main_v500 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg9 main_v501 ((extractStridedSlice S1x128 ![3, 0] · slices_S4x128_S1x128_3_0) : (⟨S4x128, .f32⟩ : BufTy).Contents (Elt F) → (⟨S1x128, .f32⟩ : BufTy).Contents (Elt F)),
    reshape main_v501 main_v502 rfl shapeCasts_S1x128_S128,
    unary main_v502 main_v503 (broadcastInDim S1x128 ![1] bcast_S128_S1x128_1 : (⟨S128, .f32⟩ : BufTy).Contents (Elt F) → (⟨S1x128, .f32⟩ : BufTy).Contents (Elt F)),
    unary main_v503 main_v504 (broadcastInDim S20000x128 ![0, 1] bcast_S1x128_S20000x128_0_1 : (⟨S1x128, .f32⟩ : BufTy).Contents (Elt F) → (⟨S20000x128, .f32⟩ : BufTy).Contents (Elt F)),
    binary main_v500 main_v504 main_v505 (addf : (⟨S20000x128, .f32⟩ : BufTy).Contents (Elt F) → (⟨S20000x128, .f32⟩ : BufTy).Contents (Elt F) → (⟨S20000x128, .f32⟩ : BufTy).Contents (Elt F)) ]

/-- The references it writes. -/
def W_c_l2_3 : List (Ref sig .tc) :=
  [main_v498, main_v499, main_v500, main_v501, main_v502, main_v503, main_v504, main_v505]

theorem hW_c_l2_3 : WritesIn (c_l2_3 (F := Ideal)) W_c_l2_3 := by
  unfold WritesIn c_l2_3
  exact ⟨single_sub (y := main_v498) (by decide +kernel),
    single_sub (y := main_v499) (by decide +kernel),
    single_sub (y := main_v500) (by decide +kernel),
    single_sub (y := main_v501) (by decide +kernel),
    single_sub (y := main_v502) (by decide +kernel),
    single_sub (y := main_v503) (by decide +kernel),
    single_sub (y := main_v504) (by decide +kernel),
    single_sub (y := main_v505) (by decide +kernel)⟩

/-- It writes no argument. -/
theorem hA_c_l2_3 : ∀ r ∈ argRefs, r ∉ W_c_l2_3 := by
  decide +kernel

/-- Layer 3, normalisation 2: its scale, its shift and every column's mean. -/
def c_m2_3 {F : FTy → Type} [FloatOps F] : List (HloOp τ sig (Elt F)) :=
  [ unary main_arg10 main_v506 ((extractStridedSlice S1x128 ![3, 0] · slices_S4x128_S1x128_3_0) : (⟨S4x128, .f32⟩ : BufTy).Contents (Elt F) → (⟨S1x128, .f32⟩ : BufTy).Contents (Elt F)),
    reshape main_v506 main_v507 rfl shapeCasts_S1x128_S128,
    unary main_arg11 main_v508 ((extractStridedSlice S1x128 ![3, 0] · slices_S4x128_S1x128_3_0) : (⟨S4x128, .f32⟩ : BufTy).Contents (Elt F) → (⟨S1x128, .f32⟩ : BufTy).Contents (Elt F)),
    reshape main_v508 main_v509 rfl shapeCasts_S1x128_S128,
    nullary main_cst_70 (constant S_ .f32 0x00000000#32),
    binary main_v505 main_cst_70 main_v510 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    nullary main_cst_71 (constant S_ .f32 0x469C4000#32),
    unary main_cst_71 main_v511 (broadcastInDim S128 ![] bcast_S_S128 : (⟨S_, .f32⟩ : BufTy).Contents (Elt F) → (⟨S128, .f32⟩ : BufTy).Contents (Elt F)),
    binary main_v510 main_v511 main_v512 (Host.divf : (⟨S128, .f32⟩ : BufTy).Contents (Elt F) → (⟨S128, .f32⟩ : BufTy).Contents (Elt F) → (⟨S128, .f32⟩ : BufTy).Contents (Elt F)) ]

/-- The references it writes. -/
def W_c_m2_3 : List (Ref sig .tc) :=
  [main_v506, main_v507, main_v508, main_v509, main_cst_70, main_v510, main_cst_71, main_v511, main_v512]

theorem hW_c_m2_3 : WritesIn (c_m2_3 (F := Ideal)) W_c_m2_3 := by
  unfold WritesIn c_m2_3
  exact ⟨single_sub (y := main_v506) (by decide +kernel),
    single_sub (y := main_v507) (by decide +kernel),
    single_sub (y := main_v508) (by decide +kernel),
    single_sub (y := main_v509) (by decide +kernel),
    single_sub (y := main_cst_70) (by decide +kernel),
    single_sub (y := main_v510) (by decide +kernel),
    single_sub (y := main_cst_71) (by decide +kernel),
    single_sub (y := main_v511) (by decide +kernel),
    single_sub (y := main_v512) (by decide +kernel)⟩

/-- It writes no argument. -/
theorem hA_c_m2_3 : ∀ r ∈ argRefs, r ∉ W_c_m2_3 := by
  decide +kernel

/-- Layer 3, normalisation 2: every column's biased variance. -/
def c_v2_3 {F : FTy → Type} [FloatOps F] : List (HloOp τ sig (Elt F)) :=
  [ nullary main_c_72 (constantI S_ 32 0#32),
    TRef.nullary main_call24.cst (constant S_ .f32 0x00000000#32),
    TRef.binary (.of main_v505) main_call24.cst main_call24.v0 (fun x v => Host.reduceAdd x v reducesTo_S20000x128_S128_d0 h_S_),
    TRef.unary main_call24.v0 main_call24.v1 (broadcastInDim S1x128 ![1] bcast_S128_S1x128_1),
    TRef.nullary main_call24.cst_0 (constant S_ .f32 0x469C4000#32),
    TRef.unary main_call24.cst_0 main_call24.v2 (broadcastInDim S1x128 ![] bcast_S_S1x128),
    TRef.binary main_call24.v1 main_call24.v2 main_call24.v3 Host.divf,
    TRef.unary main_call24.v3 main_call24.v4 (broadcastInDim S20000x128 ![0, 1] bcast_S1x128_S20000x128_0_1),
    TRef.binary (.of main_v505) main_call24.v4 main_call24.v5 subf,
    TRef.binary main_call24.v5 main_call24.v5 main_call24.v6 mulf,
    TRef.unary (.of main_c_72) main_call24.v7 (sitofp .f32),
    TRef.nullary main_call24.cst_1 (constant S_ .f32 0x469C4000#32),
    TRef.binary main_call24.cst_1 main_call24.v7 main_call24.v8 subf,
    TRef.nullary main_call24.cst_2 (constant S_ .f32 0x00000000#32),
    TRef.binary main_call24.v6 main_call24.cst_2 main_call24.v9 (fun x v => Host.reduceAdd x v reducesTo_S20000x128_S128_d0 h_S_),
    TRef.unary main_call24.v8 main_call24.v10 (broadcastInDim S128 ![] bcast_S_S128),
    TRef.binary main_call24.v9 main_call24.v10 main_call24.v11 Host.divf,
    TRef.nullary main_call24.cst_3 (constant S_ .f32 0x00000000#32),
    TRef.binary main_call24.v8 main_call24.cst_3 main_call24.v12 (cmpf .ogt),
    TRef.nullary main_call24.cst_4 (constant S_ .f32 0x7FC00000#32),
    TRef.unary main_call24.cst_4 main_call24.call0.v0 id,
    TRef.unary main_call24.call0.v0 main_call24.call0.v1 (broadcastInDim S128 ![] bcast_S_S128),
    TRef.ternary main_call24.v12 main_call24.v11 main_call24.call0.v1 main_call24.call0.v2 (fun p a b => select (broadcastInDim S128 ![] bcast_S_S128 p) a b) ]

/-- The references it writes. -/
def W_c_v2_3 : List (Ref sig .tc) :=
  [main_c_72, main_call24_cst, main_call24_v0, main_call24_v1, main_call24_cst_0, main_call24_v2, main_call24_v3, main_call24_v4, main_call24_v5, main_call24_v6, main_call24_v7, main_call24_cst_1, main_call24_v8, main_call24_cst_2, main_call24_v9, main_call24_v10, main_call24_v11, main_call24_cst_3, main_call24_v12, main_call24_cst_4, main_call24_call0_v0, main_call24_call0_v1, main_v513]

theorem hW_c_v2_3 : WritesIn (c_v2_3 (F := Ideal)) W_c_v2_3 := by
  unfold WritesIn c_v2_3
  exact ⟨single_sub (y := main_c_72) (by decide +kernel),
    single_sub (y := main_call24_cst) (by decide +kernel),
    single_sub (y := main_call24_v0) (by decide +kernel),
    single_sub (y := main_call24_v1) (by decide +kernel),
    single_sub (y := main_call24_cst_0) (by decide +kernel),
    single_sub (y := main_call24_v2) (by decide +kernel),
    single_sub (y := main_call24_v3) (by decide +kernel),
    single_sub (y := main_call24_v4) (by decide +kernel),
    single_sub (y := main_call24_v5) (by decide +kernel),
    single_sub (y := main_call24_v6) (by decide +kernel),
    single_sub (y := main_call24_v7) (by decide +kernel),
    single_sub (y := main_call24_cst_1) (by decide +kernel),
    single_sub (y := main_call24_v8) (by decide +kernel),
    single_sub (y := main_call24_cst_2) (by decide +kernel),
    single_sub (y := main_call24_v9) (by decide +kernel),
    single_sub (y := main_call24_v10) (by decide +kernel),
    single_sub (y := main_call24_v11) (by decide +kernel),
    single_sub (y := main_call24_cst_3) (by decide +kernel),
    single_sub (y := main_call24_v12) (by decide +kernel),
    single_sub (y := main_call24_cst_4) (by decide +kernel),
    single_sub (y := main_call24_call0_v0) (by decide +kernel),
    single_sub (y := main_call24_call0_v1) (by decide +kernel),
    single_sub (y := main_v513) (by decide +kernel)⟩

/-- It writes no argument. -/
theorem hA_c_v2_3 : ∀ r ∈ argRefs, r ∉ W_c_v2_3 := by
  decide +kernel

/-- Layer 3, normalisation 2: normalised, scaled, shifted and rectified. -/
def c_n2_3 {F : FTy → Type} [FloatOps F] : List (HloOp τ sig (Elt F)) :=
  [ unary main_v512 main_v514 (broadcastInDim S1x128 ![1] bcast_S128_S1x128_1 : (⟨S128, .f32⟩ : BufTy).Contents (Elt F) → (⟨S1x128, .f32⟩ : BufTy).Contents (Elt F)),
    unary main_v514 main_v515 (broadcastInDim S20000x128 ![0, 1] bcast_S1x128_S20000x128_0_1 : (⟨S1x128, .f32⟩ : BufTy).Contents (Elt F) → (⟨S20000x128, .f32⟩ : BufTy).Contents (Elt F)),
    binary main_v505 main_v515 main_v516 (subf : (⟨S20000x128, .f32⟩ : BufTy).Contents (Elt F) → (⟨S20000x128, .f32⟩ : BufTy).Contents (Elt F) → (⟨S20000x128, .f32⟩ : BufTy).Contents (Elt F)),
    nullary main_cst_73 (constant S_ .f32 0x3727C5AC#32),
    unary main_cst_73 main_v517 (broadcastInDim S128 ![] bcast_S_S128 : (⟨S_, .f32⟩ : BufTy).Contents (Elt F) → (⟨S128, .f32⟩ : BufTy).Contents (Elt F)),
    binary main_v513 main_v517 main_v518 (addf : (⟨S128, .f32⟩ : BufTy).Contents (Elt F) → (⟨S128, .f32⟩ : BufTy).Contents (Elt F) → (⟨S128, .f32⟩ : BufTy).Contents (Elt F)),
    unary main_v518 main_v519 (Host.rsqrt : (⟨S128, .f32⟩ : BufTy).Contents (Elt F) → (⟨S128, .f32⟩ : BufTy).Contents (Elt F)),
    unary main_v519 main_v520 (broadcastInDim S1x128 ![1] bcast_S128_S1x128_1 : (⟨S128, .f32⟩ : BufTy).Contents (Elt F) → (⟨S1x128, .f32⟩ : BufTy).Contents (Elt F)),
    unary main_v520 main_v521 (broadcastInDim S20000x128 ![0, 1] bcast_S1x128_S20000x128_0_1 : (⟨S1x128, .f32⟩ : BufTy).Contents (Elt F) → (⟨S20000x128, .f32⟩ : BufTy).Contents (Elt F)),
    binary main_v516 main_v521 main_v522 (mulf : (⟨S20000x128, .f32⟩ : BufTy).Contents (Elt F) → (⟨S20000x128, .f32⟩ : BufTy).Contents (Elt F) → (⟨S20000x128, .f32⟩ : BufTy).Contents (Elt F)),
    unary main_v507 main_v523 (broadcastInDim S1x128 ![1] bcast_S128_S1x128_1 : (⟨S128, .f32⟩ : BufTy).Contents (Elt F) → (⟨S1x128, .f32⟩ : BufTy).Contents (Elt F)),
    unary main_v523 main_v524 (broadcastInDim S20000x128 ![0, 1] bcast_S1x128_S20000x128_0_1 : (⟨S1x128, .f32⟩ : BufTy).Contents (Elt F) → (⟨S20000x128, .f32⟩ : BufTy).Contents (Elt F)),
    binary main_v522 main_v524 main_v525 (mulf : (⟨S20000x128, .f32⟩ : BufTy).Contents (Elt F) → (⟨S20000x128, .f32⟩ : BufTy).Contents (Elt F) → (⟨S20000x128, .f32⟩ : BufTy).Contents (Elt F)),
    unary main_v509 main_v526 (broadcastInDim S1x128 ![1] bcast_S128_S1x128_1 : (⟨S128, .f32⟩ : BufTy).Contents (Elt F) → (⟨S1x128, .f32⟩ : BufTy).Contents (Elt F)),
    unary main_v526 main_v527 (broadcastInDim S20000x128 ![0, 1] bcast_S1x128_S20000x128_0_1 : (⟨S1x128, .f32⟩ : BufTy).Contents (Elt F) → (⟨S20000x128, .f32⟩ : BufTy).Contents (Elt F)),
    binary main_v525 main_v527 main_v528 (addf : (⟨S20000x128, .f32⟩ : BufTy).Contents (Elt F) → (⟨S20000x128, .f32⟩ : BufTy).Contents (Elt F) → (⟨S20000x128, .f32⟩ : BufTy).Contents (Elt F)),
    TRef.nullary main_call25.cst (constant S_ .f32 0x00000000#32),
    TRef.unary main_call25.cst main_call25.v0 (broadcastInDim S20000x128 ![] bcast_S_S20000x128),
    TRef.binary (.of main_v528) main_call25.v0 main_call25.v1 maximumf ]

/-- The references it writes. -/
def W_c_n2_3 : List (Ref sig .tc) :=
  [main_v514, main_v515, main_v516, main_cst_73, main_v517, main_v518, main_v519, main_v520, main_v521, main_v522, main_v523, main_v524, main_v525, main_v526, main_v527, main_v528, main_call25_cst, main_call25_v0, main_v529]

theorem hW_c_n2_3 : WritesIn (c_n2_3 (F := Ideal)) W_c_n2_3 := by
  unfold WritesIn c_n2_3
  exact ⟨single_sub (y := main_v514) (by decide +kernel),
    single_sub (y := main_v515) (by decide +kernel),
    single_sub (y := main_v516) (by decide +kernel),
    single_sub (y := main_cst_73) (by decide +kernel),
    single_sub (y := main_v517) (by decide +kernel),
    single_sub (y := main_v518) (by decide +kernel),
    single_sub (y := main_v519) (by decide +kernel),
    single_sub (y := main_v520) (by decide +kernel),
    single_sub (y := main_v521) (by decide +kernel),
    single_sub (y := main_v522) (by decide +kernel),
    single_sub (y := main_v523) (by decide +kernel),
    single_sub (y := main_v524) (by decide +kernel),
    single_sub (y := main_v525) (by decide +kernel),
    single_sub (y := main_v526) (by decide +kernel),
    single_sub (y := main_v527) (by decide +kernel),
    single_sub (y := main_v528) (by decide +kernel),
    single_sub (y := main_call25_cst) (by decide +kernel),
    single_sub (y := main_call25_v0) (by decide +kernel),
    single_sub (y := main_v529) (by decide +kernel)⟩

/-- It writes no argument. -/
theorem hA_c_n2_3 : ∀ r ∈ argRefs, r ∉ W_c_n2_3 := by
  decide +kernel

/-- Layer 3, normalisation 3: its scale, its shift and every column's mean. -/
def c_m3_3 {F : FTy → Type} [FloatOps F] : List (HloOp τ sig (Elt F)) :=
  [ unary main_arg12 main_v530 ((extractStridedSlice S1x128 ![3, 0] · slices_S4x128_S1x128_3_0) : (⟨S4x128, .f32⟩ : BufTy).Contents (Elt F) → (⟨S1x128, .f32⟩ : BufTy).Contents (Elt F)),
    reshape main_v530 main_v531 rfl shapeCasts_S1x128_S128,
    unary main_arg13 main_v532 ((extractStridedSlice S1x128 ![3, 0] · slices_S4x128_S1x128_3_0) : (⟨S4x128, .f32⟩ : BufTy).Contents (Elt F) → (⟨S1x128, .f32⟩ : BufTy).Contents (Elt F)),
    reshape main_v532 main_v533 rfl shapeCasts_S1x128_S128,
    nullary main_cst_74 (constant S_ .f32 0x00000000#32),
    binary main_v529 main_cst_74 main_v534 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    nullary main_cst_75 (constant S_ .f32 0x469C4000#32),
    unary main_cst_75 main_v535 (broadcastInDim S128 ![] bcast_S_S128 : (⟨S_, .f32⟩ : BufTy).Contents (Elt F) → (⟨S128, .f32⟩ : BufTy).Contents (Elt F)),
    binary main_v534 main_v535 main_v536 (Host.divf : (⟨S128, .f32⟩ : BufTy).Contents (Elt F) → (⟨S128, .f32⟩ : BufTy).Contents (Elt F) → (⟨S128, .f32⟩ : BufTy).Contents (Elt F)) ]

/-- The references it writes. -/
def W_c_m3_3 : List (Ref sig .tc) :=
  [main_v530, main_v531, main_v532, main_v533, main_cst_74, main_v534, main_cst_75, main_v535, main_v536]

theorem hW_c_m3_3 : WritesIn (c_m3_3 (F := Ideal)) W_c_m3_3 := by
  unfold WritesIn c_m3_3
  exact ⟨single_sub (y := main_v530) (by decide +kernel),
    single_sub (y := main_v531) (by decide +kernel),
    single_sub (y := main_v532) (by decide +kernel),
    single_sub (y := main_v533) (by decide +kernel),
    single_sub (y := main_cst_74) (by decide +kernel),
    single_sub (y := main_v534) (by decide +kernel),
    single_sub (y := main_cst_75) (by decide +kernel),
    single_sub (y := main_v535) (by decide +kernel),
    single_sub (y := main_v536) (by decide +kernel)⟩

/-- It writes no argument. -/
theorem hA_c_m3_3 : ∀ r ∈ argRefs, r ∉ W_c_m3_3 := by
  decide +kernel

/-- Layer 3, normalisation 3: every column's biased variance. -/
def c_v3_3 {F : FTy → Type} [FloatOps F] : List (HloOp τ sig (Elt F)) :=
  [ nullary main_c_76 (constantI S_ 32 0#32),
    TRef.nullary main_call26.cst (constant S_ .f32 0x00000000#32),
    TRef.binary (.of main_v529) main_call26.cst main_call26.v0 (fun x v => Host.reduceAdd x v reducesTo_S20000x128_S128_d0 h_S_),
    TRef.unary main_call26.v0 main_call26.v1 (broadcastInDim S1x128 ![1] bcast_S128_S1x128_1),
    TRef.nullary main_call26.cst_0 (constant S_ .f32 0x469C4000#32),
    TRef.unary main_call26.cst_0 main_call26.v2 (broadcastInDim S1x128 ![] bcast_S_S1x128),
    TRef.binary main_call26.v1 main_call26.v2 main_call26.v3 Host.divf,
    TRef.unary main_call26.v3 main_call26.v4 (broadcastInDim S20000x128 ![0, 1] bcast_S1x128_S20000x128_0_1),
    TRef.binary (.of main_v529) main_call26.v4 main_call26.v5 subf,
    TRef.binary main_call26.v5 main_call26.v5 main_call26.v6 mulf,
    TRef.unary (.of main_c_76) main_call26.v7 (sitofp .f32),
    TRef.nullary main_call26.cst_1 (constant S_ .f32 0x469C4000#32),
    TRef.binary main_call26.cst_1 main_call26.v7 main_call26.v8 subf,
    TRef.nullary main_call26.cst_2 (constant S_ .f32 0x00000000#32),
    TRef.binary main_call26.v6 main_call26.cst_2 main_call26.v9 (fun x v => Host.reduceAdd x v reducesTo_S20000x128_S128_d0 h_S_),
    TRef.unary main_call26.v8 main_call26.v10 (broadcastInDim S128 ![] bcast_S_S128),
    TRef.binary main_call26.v9 main_call26.v10 main_call26.v11 Host.divf,
    TRef.nullary main_call26.cst_3 (constant S_ .f32 0x00000000#32),
    TRef.binary main_call26.v8 main_call26.cst_3 main_call26.v12 (cmpf .ogt),
    TRef.nullary main_call26.cst_4 (constant S_ .f32 0x7FC00000#32),
    TRef.unary main_call26.cst_4 main_call26.call0.v0 id,
    TRef.unary main_call26.call0.v0 main_call26.call0.v1 (broadcastInDim S128 ![] bcast_S_S128),
    TRef.ternary main_call26.v12 main_call26.v11 main_call26.call0.v1 main_call26.call0.v2 (fun p a b => select (broadcastInDim S128 ![] bcast_S_S128 p) a b) ]

/-- The references it writes. -/
def W_c_v3_3 : List (Ref sig .tc) :=
  [main_c_76, main_call26_cst, main_call26_v0, main_call26_v1, main_call26_cst_0, main_call26_v2, main_call26_v3, main_call26_v4, main_call26_v5, main_call26_v6, main_call26_v7, main_call26_cst_1, main_call26_v8, main_call26_cst_2, main_call26_v9, main_call26_v10, main_call26_v11, main_call26_cst_3, main_call26_v12, main_call26_cst_4, main_call26_call0_v0, main_call26_call0_v1, main_v537]

theorem hW_c_v3_3 : WritesIn (c_v3_3 (F := Ideal)) W_c_v3_3 := by
  unfold WritesIn c_v3_3
  exact ⟨single_sub (y := main_c_76) (by decide +kernel),
    single_sub (y := main_call26_cst) (by decide +kernel),
    single_sub (y := main_call26_v0) (by decide +kernel),
    single_sub (y := main_call26_v1) (by decide +kernel),
    single_sub (y := main_call26_cst_0) (by decide +kernel),
    single_sub (y := main_call26_v2) (by decide +kernel),
    single_sub (y := main_call26_v3) (by decide +kernel),
    single_sub (y := main_call26_v4) (by decide +kernel),
    single_sub (y := main_call26_v5) (by decide +kernel),
    single_sub (y := main_call26_v6) (by decide +kernel),
    single_sub (y := main_call26_v7) (by decide +kernel),
    single_sub (y := main_call26_cst_1) (by decide +kernel),
    single_sub (y := main_call26_v8) (by decide +kernel),
    single_sub (y := main_call26_cst_2) (by decide +kernel),
    single_sub (y := main_call26_v9) (by decide +kernel),
    single_sub (y := main_call26_v10) (by decide +kernel),
    single_sub (y := main_call26_v11) (by decide +kernel),
    single_sub (y := main_call26_cst_3) (by decide +kernel),
    single_sub (y := main_call26_v12) (by decide +kernel),
    single_sub (y := main_call26_cst_4) (by decide +kernel),
    single_sub (y := main_call26_call0_v0) (by decide +kernel),
    single_sub (y := main_call26_call0_v1) (by decide +kernel),
    single_sub (y := main_v537) (by decide +kernel)⟩

/-- It writes no argument. -/
theorem hA_c_v3_3 : ∀ r ∈ argRefs, r ∉ W_c_v3_3 := by
  decide +kernel

/-- Layer 3, normalisation 3: normalised, scaled, shifted and rectified. -/
def c_n3_3 {F : FTy → Type} [FloatOps F] : List (HloOp τ sig (Elt F)) :=
  [ unary main_v536 main_v538 (broadcastInDim S1x128 ![1] bcast_S128_S1x128_1 : (⟨S128, .f32⟩ : BufTy).Contents (Elt F) → (⟨S1x128, .f32⟩ : BufTy).Contents (Elt F)),
    unary main_v538 main_v539 (broadcastInDim S20000x128 ![0, 1] bcast_S1x128_S20000x128_0_1 : (⟨S1x128, .f32⟩ : BufTy).Contents (Elt F) → (⟨S20000x128, .f32⟩ : BufTy).Contents (Elt F)),
    binary main_v529 main_v539 main_v540 (subf : (⟨S20000x128, .f32⟩ : BufTy).Contents (Elt F) → (⟨S20000x128, .f32⟩ : BufTy).Contents (Elt F) → (⟨S20000x128, .f32⟩ : BufTy).Contents (Elt F)),
    nullary main_cst_77 (constant S_ .f32 0x3727C5AC#32),
    unary main_cst_77 main_v541 (broadcastInDim S128 ![] bcast_S_S128 : (⟨S_, .f32⟩ : BufTy).Contents (Elt F) → (⟨S128, .f32⟩ : BufTy).Contents (Elt F)),
    binary main_v537 main_v541 main_v542 (addf : (⟨S128, .f32⟩ : BufTy).Contents (Elt F) → (⟨S128, .f32⟩ : BufTy).Contents (Elt F) → (⟨S128, .f32⟩ : BufTy).Contents (Elt F)),
    unary main_v542 main_v543 (Host.rsqrt : (⟨S128, .f32⟩ : BufTy).Contents (Elt F) → (⟨S128, .f32⟩ : BufTy).Contents (Elt F)),
    unary main_v543 main_v544 (broadcastInDim S1x128 ![1] bcast_S128_S1x128_1 : (⟨S128, .f32⟩ : BufTy).Contents (Elt F) → (⟨S1x128, .f32⟩ : BufTy).Contents (Elt F)),
    unary main_v544 main_v545 (broadcastInDim S20000x128 ![0, 1] bcast_S1x128_S20000x128_0_1 : (⟨S1x128, .f32⟩ : BufTy).Contents (Elt F) → (⟨S20000x128, .f32⟩ : BufTy).Contents (Elt F)),
    binary main_v540 main_v545 main_v546 (mulf : (⟨S20000x128, .f32⟩ : BufTy).Contents (Elt F) → (⟨S20000x128, .f32⟩ : BufTy).Contents (Elt F) → (⟨S20000x128, .f32⟩ : BufTy).Contents (Elt F)),
    unary main_v531 main_v547 (broadcastInDim S1x128 ![1] bcast_S128_S1x128_1 : (⟨S128, .f32⟩ : BufTy).Contents (Elt F) → (⟨S1x128, .f32⟩ : BufTy).Contents (Elt F)),
    unary main_v547 main_v548 (broadcastInDim S20000x128 ![0, 1] bcast_S1x128_S20000x128_0_1 : (⟨S1x128, .f32⟩ : BufTy).Contents (Elt F) → (⟨S20000x128, .f32⟩ : BufTy).Contents (Elt F)),
    binary main_v546 main_v548 main_v549 (mulf : (⟨S20000x128, .f32⟩ : BufTy).Contents (Elt F) → (⟨S20000x128, .f32⟩ : BufTy).Contents (Elt F) → (⟨S20000x128, .f32⟩ : BufTy).Contents (Elt F)),
    unary main_v533 main_v550 (broadcastInDim S1x128 ![1] bcast_S128_S1x128_1 : (⟨S128, .f32⟩ : BufTy).Contents (Elt F) → (⟨S1x128, .f32⟩ : BufTy).Contents (Elt F)),
    unary main_v550 main_v551 (broadcastInDim S20000x128 ![0, 1] bcast_S1x128_S20000x128_0_1 : (⟨S1x128, .f32⟩ : BufTy).Contents (Elt F) → (⟨S20000x128, .f32⟩ : BufTy).Contents (Elt F)),
    binary main_v549 main_v551 main_v552 (addf : (⟨S20000x128, .f32⟩ : BufTy).Contents (Elt F) → (⟨S20000x128, .f32⟩ : BufTy).Contents (Elt F) → (⟨S20000x128, .f32⟩ : BufTy).Contents (Elt F)),
    TRef.nullary main_call27.cst (constant S_ .f32 0x00000000#32),
    TRef.unary main_call27.cst main_call27.v0 (broadcastInDim S20000x128 ![] bcast_S_S20000x128),
    TRef.binary (.of main_v552) main_call27.v0 main_call27.v1 maximumf ]

/-- The references it writes. -/
def W_c_n3_3 : List (Ref sig .tc) :=
  [main_v538, main_v539, main_v540, main_cst_77, main_v541, main_v542, main_v543, main_v544, main_v545, main_v546, main_v547, main_v548, main_v549, main_v550, main_v551, main_v552, main_call27_cst, main_call27_v0, main_v553]

theorem hW_c_n3_3 : WritesIn (c_n3_3 (F := Ideal)) W_c_n3_3 := by
  unfold WritesIn c_n3_3
  exact ⟨single_sub (y := main_v538) (by decide +kernel),
    single_sub (y := main_v539) (by decide +kernel),
    single_sub (y := main_v540) (by decide +kernel),
    single_sub (y := main_cst_77) (by decide +kernel),
    single_sub (y := main_v541) (by decide +kernel),
    single_sub (y := main_v542) (by decide +kernel),
    single_sub (y := main_v543) (by decide +kernel),
    single_sub (y := main_v544) (by decide +kernel),
    single_sub (y := main_v545) (by decide +kernel),
    single_sub (y := main_v546) (by decide +kernel),
    single_sub (y := main_v547) (by decide +kernel),
    single_sub (y := main_v548) (by decide +kernel),
    single_sub (y := main_v549) (by decide +kernel),
    single_sub (y := main_v550) (by decide +kernel),
    single_sub (y := main_v551) (by decide +kernel),
    single_sub (y := main_v552) (by decide +kernel),
    single_sub (y := main_call27_cst) (by decide +kernel),
    single_sub (y := main_call27_v0) (by decide +kernel),
    single_sub (y := main_v553) (by decide +kernel)⟩

/-- It writes no argument. -/
theorem hA_c_n3_3 : ∀ r ∈ argRefs, r ∉ W_c_n3_3 := by
  decide +kernel

/-- Layer 3: the input plus the last normalisation. -/
def c_rs_3 {F : FTy → Type} [FloatOps F] : List (HloOp τ sig (Elt F)) :=
  [ binary main_v416 main_v553 main_v554 (addf : (⟨S20000x128, .f32⟩ : BufTy).Contents (Elt F) → (⟨S20000x128, .f32⟩ : BufTy).Contents (Elt F) → (⟨S20000x128, .f32⟩ : BufTy).Contents (Elt F)) ]

/-- The references it writes. -/
def W_c_rs_3 : List (Ref sig .tc) :=
  [main_v554]

theorem hW_c_rs_3 : WritesIn (c_rs_3 (F := Ideal)) W_c_rs_3 := by
  unfold WritesIn c_rs_3
  exact single_sub (y := main_v554) (by decide +kernel)

/-- It writes no argument. -/
theorem hA_c_rs_3 : ∀ r ∈ argRefs, r ∉ W_c_rs_3 := by
  decide +kernel

/-- Head 4: the node rows at both ends of every edge. -/
def c_hg_4 {F : FTy → Type} [FloatOps F] : List (HloOp τ sig (Elt F)) :=
  [ nullary main_c_78 (constantI S_ 32 0#32),
    unary main_c_78 main_v555 (broadcastInDim S320000 ![] bcast_S_S320000 : (⟨S_, .i32⟩ : BufTy).Contents (Elt F) → (⟨S320000, .i32⟩ : BufTy).Contents (Elt F)),
    binary main_arg18 main_v555 main_v556 (cmpi .slt : (⟨S320000, .i32⟩ : BufTy).Contents (Elt F) → (⟨S320000, .i32⟩ : BufTy).Contents (Elt F) → (⟨S320000, .i1⟩ : BufTy).Contents (Elt F)),
    nullary main_c_79 (constantI S_ 32 20000#32),
    unary main_c_79 main_v557 (broadcastInDim S320000 ![] bcast_S_S320000 : (⟨S_, .i32⟩ : BufTy).Contents (Elt F) → (⟨S320000, .i32⟩ : BufTy).Contents (Elt F)),
    binary main_arg18 main_v557 main_v558 (addi : (⟨S320000, .i32⟩ : BufTy).Contents (Elt F) → (⟨S320000, .i32⟩ : BufTy).Contents (Elt F) → (⟨S320000, .i32⟩ : BufTy).Contents (Elt F)),
    ternary main_v556 main_v558 main_arg18 main_v559 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v559 main_v560 (broadcastInDim S320000x1 ![0] bcast_S320000_S320000x1_0 : (⟨S320000, .i32⟩ : BufTy).Contents (Elt F) → (⟨S320000x1, .i32⟩ : BufTy).Contents (Elt F)),
    binary main_v554 main_v560 main_v561 ((fun x i => Host.gather gather_S20000x128_S320000x1_S320000x128_1_0_n_n_0_1_1128 x i) : (⟨S20000x128, .f32⟩ : BufTy).Contents (Elt F) → (⟨S320000x1, .i32⟩ : BufTy).Contents (Elt F) → (⟨S320000x128, .f32⟩ : BufTy).Contents (Elt F)),
    nullary main_c_80 (constantI S_ 32 0#32),
    unary main_c_80 main_v562 (broadcastInDim S320000 ![] bcast_S_S320000 : (⟨S_, .i32⟩ : BufTy).Contents (Elt F) → (⟨S320000, .i32⟩ : BufTy).Contents (Elt F)),
    binary main_arg19 main_v562 main_v563 (cmpi .slt : (⟨S320000, .i32⟩ : BufTy).Contents (Elt F) → (⟨S320000, .i32⟩ : BufTy).Contents (Elt F) → (⟨S320000, .i1⟩ : BufTy).Contents (Elt F)),
    nullary main_c_81 (constantI S_ 32 20000#32),
    unary main_c_81 main_v564 (broadcastInDim S320000 ![] bcast_S_S320000 : (⟨S_, .i32⟩ : BufTy).Contents (Elt F) → (⟨S320000, .i32⟩ : BufTy).Contents (Elt F)),
    binary main_arg19 main_v564 main_v565 (addi : (⟨S320000, .i32⟩ : BufTy).Contents (Elt F) → (⟨S320000, .i32⟩ : BufTy).Contents (Elt F) → (⟨S320000, .i32⟩ : BufTy).Contents (Elt F)),
    ternary main_v563 main_v565 main_arg19 main_v566 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v566 main_v567 (broadcastInDim S320000x1 ![0] bcast_S320000_S320000x1_0 : (⟨S320000, .i32⟩ : BufTy).Contents (Elt F) → (⟨S320000x1, .i32⟩ : BufTy).Contents (Elt F)),
    binary main_v554 main_v567 main_v568 ((fun x i => Host.gather gather_S20000x128_S320000x1_S320000x128_1_0_n_n_0_1_1128 x i) : (⟨S20000x128, .f32⟩ : BufTy).Contents (Elt F) → (⟨S320000x1, .i32⟩ : BufTy).Contents (Elt F) → (⟨S320000x128, .f32⟩ : BufTy).Contents (Elt F)) ]

/-- The references it writes. -/
def W_c_hg_4 : List (Ref sig .tc) :=
  [main_c_78, main_v555, main_v556, main_c_79, main_v557, main_v558, main_v559, main_v560, main_v561, main_c_80, main_v562, main_v563, main_c_81, main_v564, main_v565, main_v566, main_v567, main_v568]

theorem hW_c_hg_4 : WritesIn (c_hg_4 (F := Ideal)) W_c_hg_4 := by
  unfold WritesIn c_hg_4
  exact ⟨single_sub (y := main_c_78) (by decide +kernel),
    single_sub (y := main_v555) (by decide +kernel),
    single_sub (y := main_v556) (by decide +kernel),
    single_sub (y := main_c_79) (by decide +kernel),
    single_sub (y := main_v557) (by decide +kernel),
    single_sub (y := main_v558) (by decide +kernel),
    single_sub (y := main_v559) (by decide +kernel),
    single_sub (y := main_v560) (by decide +kernel),
    single_sub (y := main_v561) (by decide +kernel),
    single_sub (y := main_c_80) (by decide +kernel),
    single_sub (y := main_v562) (by decide +kernel),
    single_sub (y := main_v563) (by decide +kernel),
    single_sub (y := main_c_81) (by decide +kernel),
    single_sub (y := main_v564) (by decide +kernel),
    single_sub (y := main_v565) (by decide +kernel),
    single_sub (y := main_v566) (by decide +kernel),
    single_sub (y := main_v567) (by decide +kernel),
    single_sub (y := main_v568) (by decide +kernel)⟩

/-- It writes no argument. -/
theorem hA_c_hg_4 : ∀ r ∈ argRefs, r ∉ W_c_hg_4 := by
  decide +kernel

/-- Head 4: the joined rows' score. -/
def c_hs_4 {F : FTy → Type} [FloatOps F] : List (HloOp τ sig (Elt F)) :=
  [ binary main_v561 main_v568 main_v569 ((fun a b => concatenate S320000x256 1 [⟨S320000x128, a⟩, ⟨S320000x128, b⟩] concatenates_S320000x128_S320000x128_S320000x256_d1) : (⟨S320000x128, .f32⟩ : BufTy).Contents (Elt F) → (⟨S320000x128, .f32⟩ : BufTy).Contents (Elt F) → (⟨S320000x256, .f32⟩ : BufTy).Contents (Elt F)),
    unary main_arg14 main_v570 ((extractStridedSlice S1x256x128 ![4, 0, 0] · slices_S5x256x128_S1x256x128_4_0_0) : (⟨S5x256x128, .f32⟩ : BufTy).Contents (Elt F) → (⟨S1x256x128, .f32⟩ : BufTy).Contents (Elt F)),
    reshape main_v570 main_v571 rfl shapeCasts_S1x256x128_S256x128,
    binary main_v569 main_v571 main_v572 ((fun l r => Host.dotGeneral dot_S320000x256_S256x128_S320000x128_1_0_0_1_n_n none l r) : (⟨S320000x256, .f32⟩ : BufTy).Contents (Elt F) → (⟨S256x128, .f32⟩ : BufTy).Contents (Elt F) → (⟨S320000x128, .f32⟩ : BufTy).Contents (Elt F)),
    unary main_arg15 main_v573 ((extractStridedSlice S1x128 ![4, 0] · slices_S5x128_S1x128_4_0) : (⟨S5x128, .f32⟩ : BufTy).Contents (Elt F) → (⟨S1x128, .f32⟩ : BufTy).Contents (Elt F)),
    reshape main_v573 main_v574 rfl shapeCasts_S1x128_S128,
    unary main_v574 main_v575 (broadcastInDim S1x128 ![1] bcast_S128_S1x128_1 : (⟨S128, .f32⟩ : BufTy).Contents (Elt F) → (⟨S1x128, .f32⟩ : BufTy).Contents (Elt F)),
    unary main_v575 main_v576 (broadcastInDim S320000x128 ![0, 1] bcast_S1x128_S320000x128_0_1 : (⟨S1x128, .f32⟩ : BufTy).Contents (Elt F) → (⟨S320000x128, .f32⟩ : BufTy).Contents (Elt F)),
    binary main_v572 main_v576 main_v577 (addf : (⟨S320000x128, .f32⟩ : BufTy).Contents (Elt F) → (⟨S320000x128, .f32⟩ : BufTy).Contents (Elt F) → (⟨S320000x128, .f32⟩ : BufTy).Contents (Elt F)),
    TRef.nullary main_call28.cst (constant S_ .f32 0x00000000#32),
    TRef.unary main_call28.cst main_call28.v0 (broadcastInDim S320000x128 ![] bcast_S_S320000x128),
    TRef.binary (.of main_v577) main_call28.v0 main_call28.v1 maximumf,
    unary main_arg16 main_v579 ((extractStridedSlice S1x128x2 ![4, 0, 0] · slices_S5x128x2_S1x128x2_4_0_0) : (⟨S5x128x2, .f32⟩ : BufTy).Contents (Elt F) → (⟨S1x128x2, .f32⟩ : BufTy).Contents (Elt F)),
    reshape main_v579 main_v580 rfl shapeCasts_S1x128x2_S128x2,
    binary main_v578 main_v580 main_v581 ((fun l r => Host.dotGeneral dot_S320000x128_S128x2_S320000x2_1_0_0_1_n_n none l r) : (⟨S320000x128, .f32⟩ : BufTy).Contents (Elt F) → (⟨S128x2, .f32⟩ : BufTy).Contents (Elt F) → (⟨S320000x2, .f32⟩ : BufTy).Contents (Elt F)),
    unary main_arg17 main_v582 ((extractStridedSlice S1x2 ![4, 0] · slices_S5x2_S1x2_4_0) : (⟨S5x2, .f32⟩ : BufTy).Contents (Elt F) → (⟨S1x2, .f32⟩ : BufTy).Contents (Elt F)),
    reshape main_v582 main_v583 rfl shapeCasts_S1x2_S2,
    unary main_v583 main_v584 (broadcastInDim S1x2 ![1] bcast_S2_S1x2_1 : (⟨S2, .f32⟩ : BufTy).Contents (Elt F) → (⟨S1x2, .f32⟩ : BufTy).Contents (Elt F)),
    unary main_v584 main_v585 (broadcastInDim S320000x2 ![0, 1] bcast_S1x2_S320000x2_0_1 : (⟨S1x2, .f32⟩ : BufTy).Contents (Elt F) → (⟨S320000x2, .f32⟩ : BufTy).Contents (Elt F)),
    binary main_v581 main_v585 main_v586 (addf : (⟨S320000x2, .f32⟩ : BufTy).Contents (Elt F) → (⟨S320000x2, .f32⟩ : BufTy).Contents (Elt F) → (⟨S320000x2, .f32⟩ : BufTy).Contents (Elt F)) ]

/-- The references it writes. -/
def W_c_hs_4 : List (Ref sig .tc) :=
  [main_v569, main_v570, main_v571, main_v572, main_v573, main_v574, main_v575, main_v576, main_v577, main_call28_cst, main_call28_v0, main_v578, main_v579, main_v580, main_v581, main_v582, main_v583, main_v584, main_v585, main_v586]

theorem hW_c_hs_4 : WritesIn (c_hs_4 (F := Ideal)) W_c_hs_4 := by
  unfold WritesIn c_hs_4
  exact ⟨single_sub (y := main_v569) (by decide +kernel),
    single_sub (y := main_v570) (by decide +kernel),
    single_sub (y := main_v571) (by decide +kernel),
    single_sub (y := main_v572) (by decide +kernel),
    single_sub (y := main_v573) (by decide +kernel),
    single_sub (y := main_v574) (by decide +kernel),
    single_sub (y := main_v575) (by decide +kernel),
    single_sub (y := main_v576) (by decide +kernel),
    single_sub (y := main_v577) (by decide +kernel),
    single_sub (y := main_call28_cst) (by decide +kernel),
    single_sub (y := main_call28_v0) (by decide +kernel),
    single_sub (y := main_v578) (by decide +kernel),
    single_sub (y := main_v579) (by decide +kernel),
    single_sub (y := main_v580) (by decide +kernel),
    single_sub (y := main_v581) (by decide +kernel),
    single_sub (y := main_v582) (by decide +kernel),
    single_sub (y := main_v583) (by decide +kernel),
    single_sub (y := main_v584) (by decide +kernel),
    single_sub (y := main_v585) (by decide +kernel),
    single_sub (y := main_v586) (by decide +kernel)⟩

/-- It writes no argument. -/
theorem hA_c_hs_4 : ∀ r ∈ argRefs, r ∉ W_c_hs_4 := by
  decide +kernel

/-- The running score plus head 4's. -/
def c_ad_4 {F : FTy → Type} [FloatOps F] : List (HloOp τ sig (Elt F)) :=
  [ binary main_v449 main_v586 main_v587 (addf : (⟨S320000x2, .f32⟩ : BufTy).Contents (Elt F) → (⟨S320000x2, .f32⟩ : BufTy).Contents (Elt F) → (⟨S320000x2, .f32⟩ : BufTy).Contents (Elt F)) ]

/-- The references it writes. -/
def W_c_ad_4 : List (Ref sig .tc) :=
  [main_v587]

theorem hW_c_ad_4 : WritesIn (c_ad_4 (F := Ideal)) W_c_ad_4 := by
  unfold WritesIn c_ad_4
  exact single_sub (y := main_v587) (by decide +kernel)

/-- It writes no argument. -/
theorem hA_c_ad_4 : ∀ r ∈ argRefs, r ∉ W_c_ad_4 := by
  decide +kernel

end Cert.RChain

end
-- ==== Proof.RChainS3.lean ====
/-
  Layer 3, head 4 and the score's sum, stretch by stretch: what each stretch leaves in the buffers later stretches
  read, as a function of what it found in the buffers it reads.
-/
import proofs.«416875_j80633716015165_3_alg».proof.Proof.RChainArr
import proofs.«416875_j80633716015165_3_alg».proof.Proof.RChainChunks3

noncomputable section

open Idealize.ShloMosaic Idealize.ShloMosaic.ValueIdx Idealize.SL.Sem
open Cert.ReferenceIdeal Cert.ReferenceIdeal.Facts₀
open Idealize.ShloMosaic.StableHlo

namespace Cert.RChain

set_option maxHeartbeats 4000000 in
/-- The neighbour sums of the layer's input. -/
theorem ng_3 (W : Valuation τ sig (Elt Ideal)) {x : Fin 20000 → Fin 128 → EReal} (hx : W (Proc.devRef .tc main_v416) = M.mk2 x) :
    after c_ng_3 W (Proc.devRef .tc main_v459) = M.mk2 (M.neigh x (inputsR W).src (inputsR W).dst) := by
  unfold c_ng_3
  after_results
  rw [hx]
  exact neigh_read x _ _

set_option maxHeartbeats 4000000 in
/-- The first linear map. -/
theorem l1_3 (W : Valuation τ sig (Elt Ideal)) {x ng : Fin 20000 → Fin 128 → EReal} (hx : W (Proc.devRef .tc main_v416) = M.mk2 x)
    (hng : W (Proc.devRef .tc main_v459) = M.mk2 ng) :
    after c_l1_3 W (Proc.devRef .tc main_v473)
      = M.mk2 (M.lin x ng ((inputsR W).eps (3 : Fin 4)) ((inputsR W).mlp_w1 (3 : Fin 4)) ((inputsR W).mlp_b1 (3 : Fin 4))) := by
  unfold c_l1_3
  after_results
  rw [hx, hng]
  exact lin_member x ng _ _ _ 3 (by decide : 3 < 4) _ _ _

set_option maxHeartbeats 4000000 in
/-- Normalisation 1: its scale. -/
theorem m1g_3 (W : Valuation τ sig (Elt Ideal)) :
    after c_m1_3 W (Proc.devRef .tc main_v475) = M.mk1 ((inputsR W).mlp_bn_g (3 : Fin 4)) := by
  unfold c_m1_3
  after_results
  exact vec_member _ 3 (by decide : 3 < 4) _

set_option maxHeartbeats 4000000 in
/-- Normalisation 1: its shift. -/
theorem m1b_3 (W : Valuation τ sig (Elt Ideal)) :
    after c_m1_3 W (Proc.devRef .tc main_v477) = M.mk1 ((inputsR W).mlp_bn_b (3 : Fin 4)) := by
  unfold c_m1_3
  after_results
  exact vec_member _ 3 (by decide : 3 < 4) _

set_option maxHeartbeats 4000000 in
/-- Normalisation 1: every column's mean. -/
theorem m1m_3 (W : Valuation τ sig (Elt Ideal)) {a : Fin 20000 → Fin 128 → EReal} (ha : W (Proc.devRef .tc main_v473) = M.mk2 a) :
    after c_m1_3 W (Proc.devRef .tc main_v480) = M.mk1 (M.meanR a) := by
  unfold c_m1_3
  after_results
  rw [ha]
  exact RStage.mean_eq (M.mk2 a)

attribute [local irreducible] Host.reduceAdd in
set_option maxHeartbeats 4000000 in
/-- Normalisation 1: every column's biased variance. -/
theorem v1_3 (W : Valuation τ sig (Elt Ideal)) {a : Fin 20000 → Fin 128 → EReal} (ha : W (Proc.devRef .tc main_v473) = M.mk2 a) :
    after c_v1_3 W (Proc.devRef .tc main_v481) = M.mk1 (M.varR a) := by
  unfold c_v1_3
  first
  | (after_results_simp; (try simp only [TRef.ofBuf, TRef.toBuf, cast_cast, cast_eq]); rw [ha]; exact RStage.var_eq (M.mk2 a))
  | (refine Eq.trans ?_ ((RStage.var_eq (W (Proc.devRef .tc main_v473))).trans (by rw [ha]; rfl)); simp only [after_cons, after_nil]; rfl)

set_option maxHeartbeats 4000000 in
/-- Normalisation 1: normalised, scaled, shifted, rectified. -/
theorem n1_3 (W : Valuation τ sig (Elt Ideal)) {a : Fin 20000 → Fin 128 → EReal} {m v g b : Fin 128 → EReal}
    (ha : W (Proc.devRef .tc main_v473) = M.mk2 a) (hm : W (Proc.devRef .tc main_v480) = M.mk1 m) (hv : W (Proc.devRef .tc main_v481) = M.mk1 v)
    (hg : W (Proc.devRef .tc main_v475) = M.mk1 g) (hb : W (Proc.devRef .tc main_v477) = M.mk1 b) :
    after c_n1_3 W (Proc.devRef .tc main_v497) = M.mk2 (M.bnrelu a m v g b) := by
  unfold c_n1_3
  first
  | (after_results_simp; (try simp only [TRef.ofBuf, TRef.toBuf, cast_cast, cast_eq]); rw [ha, hm, hv, hg, hb]; exact RStage.bnrelu_eq (M.mk2 a) (M.mk1 m) (M.mk1 v) (M.mk1 g) (M.mk1 b))
  | (refine Eq.trans ?_ ((RStage.bnrelu_eq (W (Proc.devRef .tc main_v473)) (W (Proc.devRef .tc main_v480)) (W (Proc.devRef .tc main_v481)) (W (Proc.devRef .tc main_v475)) (W (Proc.devRef .tc main_v477))).trans (by rw [ha, hm, hv, hg, hb]; rfl)); simp only [after_cons, after_nil]; rfl)

set_option maxHeartbeats 4000000 in
/-- The second linear map. -/
theorem l2_3 (W : Valuation τ sig (Elt Ideal)) {z : Fin 20000 → Fin 128 → EReal} (hz : W (Proc.devRef .tc main_v497) = M.mk2 z) :
    after c_l2_3 W (Proc.devRef .tc main_v505) = M.mk2 (M.affine z ((inputsR W).mlp_w2 (3 : Fin 4)) ((inputsR W).mlp_b2 (3 : Fin 4))) := by
  unfold c_l2_3
  after_results
  rw [hz]
  exact affine_member z _ _ 3 (by decide : 3 < 4) _ _

set_option maxHeartbeats 4000000 in
/-- Normalisation 2: its scale. -/
theorem m2g_3 (W : Valuation τ sig (Elt Ideal)) :
    after c_m2_3 W (Proc.devRef .tc main_v507) = M.mk1 ((inputsR W).app_bn_g (3 : Fin 4)) := by
  unfold c_m2_3
  after_results
  exact vec_member _ 3 (by decide : 3 < 4) _

set_option maxHeartbeats 4000000 in
/-- Normalisation 2: its shift. -/
theorem m2b_3 (W : Valuation τ sig (Elt Ideal)) :
    after c_m2_3 W (Proc.devRef .tc main_v509) = M.mk1 ((inputsR W).app_bn_b (3 : Fin 4)) := by
  unfold c_m2_3
  after_results
  exact vec_member _ 3 (by decide : 3 < 4) _

set_option maxHeartbeats 4000000 in
/-- Normalisation 2: every column's mean. -/
theorem m2m_3 (W : Valuation τ sig (Elt Ideal)) {a : Fin 20000 → Fin 128 → EReal} (ha : W (Proc.devRef .tc main_v505) = M.mk2 a) :
    after c_m2_3 W (Proc.devRef .tc main_v512) = M.mk1 (M.meanR a) := by
  unfold c_m2_3
  after_results
  rw [ha]
  exact RStage.mean_eq (M.mk2 a)

attribute [local irreducible] Host.reduceAdd in
set_option maxHeartbeats 4000000 in
/-- Normalisation 2: every column's biased variance. -/
theorem v2_3 (W : Valuation τ sig (Elt Ideal)) {a : Fin 20000 → Fin 128 → EReal} (ha : W (Proc.devRef .tc main_v505) = M.mk2 a) :
    after c_v2_3 W (Proc.devRef .tc main_v513) = M.mk1 (M.varR a) := by
  unfold c_v2_3
  first
  | (after_results_simp; (try simp only [TRef.ofBuf, TRef.toBuf, cast_cast, cast_eq]); rw [ha]; exact RStage.var_eq (M.mk2 a))
  | (refine Eq.trans ?_ ((RStage.var_eq (W (Proc.devRef .tc main_v505))).trans (by rw [ha]; rfl)); simp only [after_cons, after_nil]; rfl)

set_option maxHeartbeats 4000000 in
/-- Normalisation 2: normalised, scaled, shifted, rectified. -/
theorem n2_3 (W : Valuation τ sig (Elt Ideal)) {a : Fin 20000 → Fin 128 → EReal} {m v g b : Fin 128 → EReal}
    (ha : W (Proc.devRef .tc main_v505) = M.mk2 a) (hm : W (Proc.devRef .tc main_v512) = M.mk1 m) (hv : W (Proc.devRef .tc main_v513) = M.mk1 v)
    (hg : W (Proc.devRef .tc main_v507) = M.mk1 g) (hb : W (Proc.devRef .tc main_v509) = M.mk1 b) :
    after c_n2_3 W (Proc.devRef .tc main_v529) = M.mk2 (M.bnrelu a m v g b) := by
  unfold c_n2_3
  first
  | (after_results_simp; (try simp only [TRef.ofBuf, TRef.toBuf, cast_cast, cast_eq]); rw [ha, hm, hv, hg, hb]; exact RStage.bnrelu_eq (M.mk2 a) (M.mk1 m) (M.mk1 v) (M.mk1 g) (M.mk1 b))
  | (refine Eq.trans ?_ ((RStage.bnrelu_eq (W (Proc.devRef .tc main_v505)) (W (Proc.devRef .tc main_v512)) (W (Proc.devRef .tc main_v513)) (W (Proc.devRef .tc main_v507)) (W (Proc.devRef .tc main_v509))).trans (by rw [ha, hm, hv, hg, hb]; rfl)); simp only [after_cons, after_nil]; rfl)

set_option maxHeartbeats 4000000 in
/-- Normalisation 3: its scale. -/
theorem m3g_3 (W : Valuation τ sig (Elt Ideal)) :
    after c_m3_3 W (Proc.devRef .tc main_v531) = M.mk1 ((inputsR W).gin_bn_g (3 : Fin 4)) := by
  unfold c_m3_3
  after_results
  exact vec_member _ 3 (by decide : 3 < 4) _

set_option maxHeartbeats 4000000 in
/-- Normalisation 3: its shift. -/
theorem m3b_3 (W : Valuation τ sig (Elt Ideal)) :
    after c_m3_3 W (Proc.devRef .tc main_v533) = M.mk1 ((inputsR W).gin_bn_b (3 : Fin 4)) := by
  unfold c_m3_3
  after_results
  exact vec_member _ 3 (by decide : 3 < 4) _

set_option maxHeartbeats 4000000 in
/-- Normalisation 3: every column's mean. -/
theorem m3m_3 (W : Valuation τ sig (Elt Ideal)) {a : Fin 20000 → Fin 128 → EReal} (ha : W (Proc.devRef .tc main_v529) = M.mk2 a) :
    after c_m3_3 W (Proc.devRef .tc main_v536) = M.mk1 (M.meanR a) := by
  unfold c_m3_3
  after_results
  rw [ha]
  exact RStage.mean_eq (M.mk2 a)

attribute [local irreducible] Host.reduceAdd in
set_option maxHeartbeats 4000000 in
/-- Normalisation 3: every column's biased variance. -/
theorem v3_3 (W : Valuation τ sig (Elt Ideal)) {a : Fin 20000 → Fin 128 → EReal} (ha : W (Proc.devRef .tc main_v529) = M.mk2 a) :
    after c_v3_3 W (Proc.devRef .tc main_v537) = M.mk1 (M.varR a) := by
  unfold c_v3_3
  first
  | (after_results_simp; (try simp only [TRef.ofBuf, TRef.toBuf, cast_cast, cast_eq]); rw [ha]; exact RStage.var_eq (M.mk2 a))
  | (refine Eq.trans ?_ ((RStage.var_eq (W (Proc.devRef .tc main_v529))).trans (by rw [ha]; rfl)); simp only [after_cons, after_nil]; rfl)

set_option maxHeartbeats 4000000 in
/-- Normalisation 3: normalised, scaled, shifted, rectified. -/
theorem n3_3 (W : Valuation τ sig (Elt Ideal)) {a : Fin 20000 → Fin 128 → EReal} {m v g b : Fin 128 → EReal}
    (ha : W (Proc.devRef .tc main_v529) = M.mk2 a) (hm : W (Proc.devRef .tc main_v536) = M.mk1 m) (hv : W (Proc.devRef .tc main_v537) = M.mk1 v)
    (hg : W (Proc.devRef .tc main_v531) = M.mk1 g) (hb : W (Proc.devRef .tc main_v533) = M.mk1 b) :
    after c_n3_3 W (Proc.devRef .tc main_v553) = M.mk2 (M.bnrelu a m v g b) := by
  unfold c_n3_3
  first
  | (after_results_simp; (try simp only [TRef.ofBuf, TRef.toBuf, cast_cast, cast_eq]); rw [ha, hm, hv, hg, hb]; exact RStage.bnrelu_eq (M.mk2 a) (M.mk1 m) (M.mk1 v) (M.mk1 g) (M.mk1 b))
  | (refine Eq.trans ?_ ((RStage.bnrelu_eq (W (Proc.devRef .tc main_v529)) (W (Proc.devRef .tc main_v536)) (W (Proc.devRef .tc main_v537)) (W (Proc.devRef .tc main_v531)) (W (Proc.devRef .tc main_v533))).trans (by rw [ha, hm, hv, hg, hb]; rfl)); simp only [after_cons, after_nil]; rfl)

set_option maxHeartbeats 4000000 in
/-- The layer's output: its input plus the last normalisation. -/
theorem rs_3 (W : Valuation τ sig (Elt Ideal)) {x z : Fin 20000 → Fin 128 → EReal} (hx : W (Proc.devRef .tc main_v416) = M.mk2 x)
    (hz : W (Proc.devRef .tc main_v553) = M.mk2 z) :
    after c_rs_3 W (Proc.devRef .tc main_v554) = M.mk2 (fun r j => x r j + z r j) := by
  unfold c_rs_3
  after_results
  rw [hx, hz]
  rfl

set_option maxHeartbeats 4000000 in
/-- The head's rows at the edges' source words. -/
theorem hgs_4 (W : Valuation τ sig (Elt Ideal)) {x : Fin 20000 → Fin 128 → EReal} (hx : W (Proc.devRef .tc main_v554) = M.mk2 x) :
    after c_hg_4 W (Proc.devRef .tc main_v561) = M.mk2 (M.rows x (inputsR W).src) := by
  unfold c_hg_4
  after_results_simp
  try simp only [TRef.ofBuf, TRef.toBuf, cast_cast, cast_eq]
  rw [hx]
  exact rows_read x _

set_option maxHeartbeats 4000000 in
/-- The head's rows at the edges' target words. -/
theorem hgd_4 (W : Valuation τ sig (Elt Ideal)) {x : Fin 20000 → Fin 128 → EReal} (hx : W (Proc.devRef .tc main_v554) = M.mk2 x) :
    after c_hg_4 W (Proc.devRef .tc main_v568) = M.mk2 (M.rows x (inputsR W).dst) := by
  unfold c_hg_4
  after_results_simp
  try simp only [TRef.ofBuf, TRef.toBuf, cast_cast, cast_eq]
  rw [hx]
  exact rows_read x _

set_option maxHeartbeats 4000000 in
/-- The head's score from the two gathered arrays. -/
theorem hs_4 (W : Valuation τ sig (Elt Ideal)) {xs xd : Fin 320000 → Fin 128 → EReal} (h₁ : W (Proc.devRef .tc main_v561) = M.mk2 xs)
    (h₂ : W (Proc.devRef .tc main_v568) = M.mk2 xd) :
    after c_hs_4 W (Proc.devRef .tc main_v586)
      = M.mk2 (M.headR xs xd ((inputsR W).pred_w1 (4 : Fin 5)) ((inputsR W).pred_b1 (4 : Fin 5)) ((inputsR W).pred_w2 (4 : Fin 5))
          ((inputsR W).pred_b2 (4 : Fin 5))) := by
  unfold c_hs_4
  after_results_simp
  try simp only [TRef.ofBuf, TRef.toBuf, cast_cast, cast_eq]
  rw [h₁, h₂]
  exact head_member xs xd _ _ _ _ 4 (by decide : 4 < 5) _ _ _ _

set_option maxHeartbeats 4000000 in
/-- The running score plus the head's. -/
theorem ad_4 (W : Valuation τ sig (Elt Ideal)) {s h : Fin 320000 → Fin 2 → EReal} (hs : W (Proc.devRef .tc main_v449) = M.mk2 s)
    (hh : W (Proc.devRef .tc main_v586) = M.mk2 h) :
    after c_ad_4 W (Proc.devRef .tc main_v587) = M.mk2 (fun e c => s e c + h e c) := by
  unfold c_ad_4
  after_results
  rw [hs, hh]
  rfl

end Cert.RChain

end
-- ==== Proof.RChainU3.lean ====
/-
  Layer 3, head 4 and the score's sum as one step: from the layer's input and the running score to the layer's output
  and the score with the head's added, the arguments kept.
-/
import proofs.«416875_j80633716015165_3_alg».proof.Proof.RChainS3

noncomputable section

open Idealize.ShloMosaic Idealize.ShloMosaic.ValueIdx Idealize.SL.Sem
open Cert.ReferenceIdeal Cert.ReferenceIdeal.Facts₀
open Idealize.ShloMosaic.StableHlo

namespace Cert.RChain

/-- Layer 3, head 4 and the score's sum, in order. -/
def U_3 : List (HloOp τ sig (Elt Ideal)) :=
  c_ng_3 ++ (c_l1_3 ++ (c_m1_3 ++ (c_v1_3 ++ (c_n1_3 ++ (c_l2_3 ++ (c_m2_3 ++ (c_v2_3 ++ (c_n2_3 ++ (c_m3_3 ++ (c_v3_3 ++ (c_n3_3 ++ (c_rs_3 ++ (c_hg_4 ++ (c_hs_4 ++ (c_ad_4)))))))))))))))

/-- The references they write. -/
def WU_3 : List (Ref sig .tc) :=
  W_c_ng_3 ++ (W_c_l1_3 ++ (W_c_m1_3 ++ (W_c_v1_3 ++ (W_c_n1_3 ++ (W_c_l2_3 ++ (W_c_m2_3 ++ (W_c_v2_3 ++ (W_c_n2_3 ++ (W_c_m3_3 ++ (W_c_v3_3 ++ (W_c_n3_3 ++ (W_c_rs_3 ++ (W_c_hg_4 ++ (W_c_hs_4 ++ (W_c_ad_4)))))))))))))))

theorem hWU_3 : WritesIn U_3 WU_3 :=
  hW_c_ng_3.append (hW_c_l1_3.append (hW_c_m1_3.append (hW_c_v1_3.append (hW_c_n1_3.append (hW_c_l2_3.append (hW_c_m2_3.append (hW_c_v2_3.append (hW_c_n2_3.append (hW_c_m3_3.append (hW_c_v3_3.append (hW_c_n3_3.append (hW_c_rs_3.append (hW_c_hg_4.append (hW_c_hs_4.append (hW_c_ad_4)))))))))))))))

set_option maxHeartbeats 4000000 in
/-- From the layer's input and the running score: the layer's output and the score with head 4 added; the arguments
    are kept. -/
theorem unit_3 {V W : Valuation τ sig (Elt Ideal)} {x : Fin 20000 → Fin 128 → EReal} {s : Fin 320000 → Fin 2 → EReal}
    (a : ArgsAre V W) (hx : W (Proc.devRef .tc main_v416) = M.mk2 x) (hs : W (Proc.devRef .tc main_v449) = M.mk2 s) :
    ArgsAre V (after U_3 W)
      ∧ after U_3 W (Proc.devRef .tc main_v554) = M.mk2 (M.layerI (inputsR V) (3 : Fin 4) x)
      ∧ after U_3 W (Proc.devRef .tc main_v587)
          = M.mk2 (fun e c => s e c + M.headI (inputsR V) (4 : Fin 5) (M.layerI (inputsR V) (3 : Fin 4) x) e c) := by
  have h1_v45 := ng_3 _ hx
  rw [a.inputs] at h1_v45
  have h1_v3 := (hW_c_ng_3.frame (r := main_v416) (by decide +kernel) _).trans hx
  have h1_v35 := (hW_c_ng_3.frame (r := main_v449) (by decide +kernel) _).trans hs
  have a1 := a.step hW_c_ng_3 hA_c_ng_3
  have h2_v59 := l1_3 _ h1_v3 h1_v45
  rw [a1.inputs] at h2_v59
  have h2_v3 := (hW_c_l1_3.frame (r := main_v416) (by decide +kernel) _).trans h1_v3
  have h2_v35 := (hW_c_l1_3.frame (r := main_v449) (by decide +kernel) _).trans h1_v35
  have a2 := a1.step hW_c_l1_3 hA_c_l1_3
  have h3_v61 := m1g_3 (after c_l1_3 (after c_ng_3 W))
  rw [a2.inputs] at h3_v61
  have h3_v63 := m1b_3 (after c_l1_3 (after c_ng_3 W))
  rw [a2.inputs] at h3_v63
  have h3_v66 := m1m_3 _ h2_v59
  have h3_v3 := (hW_c_m1_3.frame (r := main_v416) (by decide +kernel) _).trans h2_v3
  have h3_v35 := (hW_c_m1_3.frame (r := main_v449) (by decide +kernel) _).trans h2_v35
  have h3_v59 := (hW_c_m1_3.frame (r := main_v473) (by decide +kernel) _).trans h2_v59
  have a3 := a2.step hW_c_m1_3 hA_c_m1_3
  have h4_v67 := v1_3 _ h3_v59
  have h4_v3 := (hW_c_v1_3.frame (r := main_v416) (by decide +kernel) _).trans h3_v3
  have h4_v35 := (hW_c_v1_3.frame (r := main_v449) (by decide +kernel) _).trans h3_v35
  have h4_v59 := (hW_c_v1_3.frame (r := main_v473) (by decide +kernel) _).trans h3_v59
  have h4_v61 := (hW_c_v1_3.frame (r := main_v475) (by decide +kernel) _).trans h3_v61
  have h4_v63 := (hW_c_v1_3.frame (r := main_v477) (by decide +kernel) _).trans h3_v63
  have h4_v66 := (hW_c_v1_3.frame (r := main_v480) (by decide +kernel) _).trans h3_v66
  have a4 := a3.step hW_c_v1_3 hA_c_v1_3
  have h5_v83 := n1_3 _ h4_v59 h4_v66 h4_v67 h4_v61 h4_v63
  have h5_v3 := (hW_c_n1_3.frame (r := main_v416) (by decide +kernel) _).trans h4_v3
  have h5_v35 := (hW_c_n1_3.frame (r := main_v449) (by decide +kernel) _).trans h4_v35
  have a5 := a4.step hW_c_n1_3 hA_c_n1_3
  have h6_v91 := l2_3 _ h5_v83
  rw [a5.inputs] at h6_v91
  have h6_v3 := (hW_c_l2_3.frame (r := main_v416) (by decide +kernel) _).trans h5_v3
  have h6_v35 := (hW_c_l2_3.frame (r := main_v449) (by decide +kernel) _).trans h5_v35
  have a6 := a5.step hW_c_l2_3 hA_c_l2_3
  have h7_v93 := m2g_3 (after c_l2_3 (after c_n1_3 (after c_v1_3 (after c_m1_3 (after c_l1_3 (after c_ng_3 W))))))
  rw [a6.inputs] at h7_v93
  have h7_v95 := m2b_3 (after c_l2_3 (after c_n1_3 (after c_v1_3 (after c_m1_3 (after c_l1_3 (after c_ng_3 W))))))
  rw [a6.inputs] at h7_v95
  have h7_v98 := m2m_3 _ h6_v91
  have h7_v3 := (hW_c_m2_3.frame (r := main_v416) (by decide +kernel) _).trans h6_v3
  have h7_v35 := (hW_c_m2_3.frame (r := main_v449) (by decide +kernel) _).trans h6_v35
  have h7_v91 := (hW_c_m2_3.frame (r := main_v505) (by decide +kernel) _).trans h6_v91
  have a7 := a6.step hW_c_m2_3 hA_c_m2_3
  have h8_v99 := v2_3 _ h7_v91
  have h8_v3 := (hW_c_v2_3.frame (r := main_v416) (by decide +kernel) _).trans h7_v3
  have h8_v35 := (hW_c_v2_3.frame (r := main_v449) (by decide +kernel) _).trans h7_v35
  have h8_v91 := (hW_c_v2_3.frame (r := main_v505) (by decide +kernel) _).trans h7_v91
  have h8_v93 := (hW_c_v2_3.frame (r := main_v507) (by decide +kernel) _).trans h7_v93
  have h8_v95 := (hW_c_v2_3.frame (r := main_v509) (by decide +kernel) _).trans h7_v95
  have h8_v98 := (hW_c_v2_3.frame (r := main_v512) (by decide +kernel) _).trans h7_v98
  have a8 := a7.step hW_c_v2_3 hA_c_v2_3
  have h9_v115 := n2_3 _ h8_v91 h8_v98 h8_v99 h8_v93 h8_v95
  have h9_v3 := (hW_c_n2_3.frame (r := main_v416) (by decide +kernel) _).trans h8_v3
  have h9_v35 := (hW_c_n2_3.frame (r := main_v449) (by decide +kernel) _).trans h8_v35
  have a9 := a8.step hW_c_n2_3 hA_c_n2_3
  have h10_v117 := m3g_3 (after c_n2_3 (after c_v2_3 (after c_m2_3 (after c_l2_3 (after c_n1_3 (after c_v1_3 (after c_m1_3 (after c_l1_3 (after c_ng_3 W)))))))))
  rw [a9.inputs] at h10_v117
  have h10_v119 := m3b_3 (after c_n2_3 (after c_v2_3 (after c_m2_3 (after c_l2_3 (after c_n1_3 (after c_v1_3 (after c_m1_3 (after c_l1_3 (after c_ng_3 W)))))))))
  rw [a9.inputs] at h10_v119
  have h10_v122 := m3m_3 _ h9_v115
  have h10_v3 := (hW_c_m3_3.frame (r := main_v416) (by decide +kernel) _).trans h9_v3
  have h10_v35 := (hW_c_m3_3.frame (r := main_v449) (by decide +kernel) _).trans h9_v35
  have h10_v115 := (hW_c_m3_3.frame (r := main_v529) (by decide +kernel) _).trans h9_v115
  have a10 := a9.step hW_c_m3_3 hA_c_m3_3
  have h11_v123 := v3_3 _ h10_v115
  have h11_v3 := (hW_c_v3_3.frame (r := main_v416) (by decide +kernel) _).trans h10_v3
  have h11_v35 := (hW_c_v3_3.frame (r := main_v449) (by decide +kernel) _).trans h10_v35
  have h11_v115 := (hW_c_v3_3.frame (r := main_v529) (by decide +kernel) _).trans h10_v115
  have h11_v117 := (hW_c_v3_3.frame (r := main_v531) (by decide +kernel) _).trans h10_v117
  have h11_v119 := (hW_c_v3_3.frame (r := main_v533) (by decide +kernel) _).trans h10_v119
  have h11_v122 := (hW_c_v3_3.frame (r := main_v536) (by decide +kernel) _).trans h10_v122
  have a11 := a10.step hW_c_v3_3 hA_c_v3_3
  have h12_v139 := n3_3 _ h11_v115 h11_v122 h11_v123 h11_v117 h11_v119
  have h12_v3 := (hW_c_n3_3.frame (r := main_v416) (by decide +kernel) _).trans h11_v3
  have h12_v35 := (hW_c_n3_3.frame (r := main_v449) (by decide +kernel) _).trans h11_v35
  have a12 := a11.step hW_c_n3_3 hA_c_n3_3
  have h13_v140 := rs_3 _ h12_v3 h12_v139
  have h13_v35 := (hW_c_rs_3.frame (r := main_v449) (by decide +kernel) _).trans h12_v35
  have a13 := a12.step hW_c_rs_3 hA_c_rs_3
  have h14_v147 := hgs_4 _ h13_v140
  rw [a13.inputs] at h14_v147
  have h14_v154 := hgd_4 _ h13_v140
  rw [a13.inputs] at h14_v154
  have h14_v35 := (hW_c_hg_4.frame (r := main_v449) (by decide +kernel) _).trans h13_v35
  have h14_v140 := (hW_c_hg_4.frame (r := main_v554) (by decide +kernel) _).trans h13_v140
  have a14 := a13.step hW_c_hg_4 hA_c_hg_4
  have h15_v172 := hs_4 _ h14_v147 h14_v154
  rw [a14.inputs] at h15_v172
  have h15_v35 := (hW_c_hs_4.frame (r := main_v449) (by decide +kernel) _).trans h14_v35
  have h15_v140 := (hW_c_hs_4.frame (r := main_v554) (by decide +kernel) _).trans h14_v140
  have a15 := a14.step hW_c_hs_4 hA_c_hs_4
  have h16_v173 := ad_4 _ h15_v35 h15_v172
  have h16_v140 := (hW_c_ad_4.frame (r := main_v554) (by decide +kernel) _).trans h15_v140
  have a16 := a15.step hW_c_ad_4 hA_c_ad_4
  have e : after U_3 W = after c_ad_4 (after c_hs_4 (after c_hg_4 (after c_rs_3 (after c_n3_3 (after c_v3_3 (after c_m3_3 (after c_n2_3 (after c_v2_3 (after c_m2_3 (after c_l2_3 (after c_n1_3 (after c_v1_3 (after c_m1_3 (after c_l1_3 (after c_ng_3 W))))))))))))))) := by
    unfold U_3
    simp only [after_app]
  rw [e]
  refine ⟨a16, ?_, ?_⟩
  · rw [h16_v140]
    unfold M.layerI M.layer M.stage4 M.stage3 M.stage2
    rfl
  · rw [h16_v173]
    unfold M.headI M.layerI M.layer M.stage4 M.stage3 M.stage2
    rfl

end Cert.RChain

end
-- ==== Proof.RChainEnd.lean ====
/-
  The reference's whole line of operations: the first stretch, then the four layers with their heads.

  Each layer's stretch takes the node array and the running score where the stretch before left them, and leaves the
  layer's output and the running score plus the next head's. Five stretches in a row leave, in the last score buffer,
  head 0's score of the embedding plus head 1's of the first layer's output, and so on to head 4's of the fourth
  layer's output: the network's score. No stretch writes an argument.
-/
import proofs.«416875_j80633716015165_3_alg».proof.Proof.RChainP
import proofs.«416875_j80633716015165_3_alg».proof.Proof.RChainU0
import proofs.«416875_j80633716015165_3_alg».proof.Proof.RChainU1
import proofs.«416875_j80633716015165_3_alg».proof.Proof.RChainU2
import proofs.«416875_j80633716015165_3_alg».proof.Proof.RChainU3

noncomputable section

open Idealize.ShloMosaic Idealize.ShloMosaic.ValueIdx Idealize.SL.Sem
open Cert.ReferenceIdeal Cert.ReferenceIdeal.Facts₀
open Idealize.ShloMosaic.StableHlo

namespace Cert.RChain

set_option maxHeartbeats 1000000 in
/-- After all the reference's operations the arguments are as they began and the last score buffer holds the network's
    score of the arguments. -/
theorem chain (V : Valuation τ sig (Elt Ideal)) :
    ArgsAre V (after (P ++ (U_0 ++ (U_1 ++ (U_2 ++ U_3)))) V)
      ∧ after (P ++ (U_0 ++ (U_1 ++ (U_2 ++ U_3)))) V (Proc.devRef .tc main_v587) = M.mk2 (M.score (inputsR V)) := by
  obtain ⟨a0, hx0, hs0⟩ := prologue V
  obtain ⟨a1, hx1, hs1⟩ := unit_0 a0 hx0 hs0
  obtain ⟨a2, hx2, hs2⟩ := unit_1 a1 hx1 hs1
  obtain ⟨a3, hx3, hs3⟩ := unit_2 a2 hx2 hs2
  obtain ⟨a4, _, hs4⟩ := unit_3 a3 hx3 hs3
  simp only [after_app]
  refine ⟨a4, ?_⟩
  rw [hs4]
  unfold M.score M.x4 M.x3 M.x2 M.x1
  rfl

end Cert.RChain

end
-- ==== Proof.RChainPieces.lean ====
/-
  The reference's line of host operations is laid out twice from the printed program: once for its run (the run's
  pieces, which @main is proved to be in sequence) and once for the chain that reads its value. Piece by piece the
  two layouts are the same list, by computation; so the line the run is proved about is the chain's pieces on the
  same spine: the head, then the four layers.
-/
import proofs.«416875_j80633716015165_3_alg».proof.Proof.RRun
import proofs.«416875_j80633716015165_3_alg».proof.Proof.RChainChunksP
import proofs.«416875_j80633716015165_3_alg».proof.Proof.RChainChunks0
import proofs.«416875_j80633716015165_3_alg».proof.Proof.RChainChunks1
import proofs.«416875_j80633716015165_3_alg».proof.Proof.RChainChunks2
import proofs.«416875_j80633716015165_3_alg».proof.Proof.RChainChunks3

noncomputable section

namespace Cert.RChain

open Cert.ReferenceIdeal Idealize.ShloMosaic Idealize.ShloMosaic.StableHlo

/-! ## Piece by piece -/

theorem c_emb_eq : (c_emb : List (HloOp τ sig (Elt Ideal))) = Cert.RRun.p_emb := rfl
theorem c_hg_0_eq : (c_hg_0 : List (HloOp τ sig (Elt Ideal))) = Cert.RRun.p_hg_0 := rfl
theorem c_hs_0_eq : (c_hs_0 : List (HloOp τ sig (Elt Ideal))) = Cert.RRun.p_hs_0 := rfl
theorem c_ng_0_eq : (c_ng_0 : List (HloOp τ sig (Elt Ideal))) = Cert.RRun.p_ng_0 := rfl
theorem c_l1_0_eq : (c_l1_0 : List (HloOp τ sig (Elt Ideal))) = Cert.RRun.p_l1_0 := rfl
theorem c_m1_0_eq : (c_m1_0 : List (HloOp τ sig (Elt Ideal))) = Cert.RRun.p_m1_0 := rfl
theorem c_v1_0_eq : (c_v1_0 : List (HloOp τ sig (Elt Ideal))) = Cert.RRun.p_v1_0 := rfl
theorem c_n1_0_eq : (c_n1_0 : List (HloOp τ sig (Elt Ideal))) = Cert.RRun.p_n1_0 := rfl
theorem c_l2_0_eq : (c_l2_0 : List (HloOp τ sig (Elt Ideal))) = Cert.RRun.p_l2_0 := rfl
theorem c_m2_0_eq : (c_m2_0 : List (HloOp τ sig (Elt Ideal))) = Cert.RRun.p_m2_0 := rfl
theorem c_v2_0_eq : (c_v2_0 : List (HloOp τ sig (Elt Ideal))) = Cert.RRun.p_v2_0 := rfl
theorem c_n2_0_eq : (c_n2_0 : List (HloOp τ sig (Elt Ideal))) = Cert.RRun.p_n2_0 := rfl
theorem c_m3_0_eq : (c_m3_0 : List (HloOp τ sig (Elt Ideal))) = Cert.RRun.p_m3_0 := rfl
theorem c_v3_0_eq : (c_v3_0 : List (HloOp τ sig (Elt Ideal))) = Cert.RRun.p_v3_0 := rfl
theorem c_n3_0_eq : (c_n3_0 : List (HloOp τ sig (Elt Ideal))) = Cert.RRun.p_n3_0 := rfl
theorem c_rs_0_eq : (c_rs_0 : List (HloOp τ sig (Elt Ideal))) = Cert.RRun.p_rs_0 := rfl
theorem c_hg_1_eq : (c_hg_1 : List (HloOp τ sig (Elt Ideal))) = Cert.RRun.p_hg_1 := rfl
theorem c_hs_1_eq : (c_hs_1 : List (HloOp τ sig (Elt Ideal))) = Cert.RRun.p_hs_1 := rfl
theorem c_ad_1_eq : (c_ad_1 : List (HloOp τ sig (Elt Ideal))) = Cert.RRun.p_ad_1 := rfl
theorem c_ng_1_eq : (c_ng_1 : List (HloOp τ sig (Elt Ideal))) = Cert.RRun.p_ng_1 := rfl
theorem c_l1_1_eq : (c_l1_1 : List (HloOp τ sig (Elt Ideal))) = Cert.RRun.p_l1_1 := rfl
theorem c_m1_1_eq : (c_m1_1 : List (HloOp τ sig (Elt Ideal))) = Cert.RRun.p_m1_1 := rfl
theorem c_v1_1_eq : (c_v1_1 : List (HloOp τ sig (Elt Ideal))) = Cert.RRun.p_v1_1 := rfl
theorem c_n1_1_eq : (c_n1_1 : List (HloOp τ sig (Elt Ideal))) = Cert.RRun.p_n1_1 := rfl
theorem c_l2_1_eq : (c_l2_1 : List (HloOp τ sig (Elt Ideal))) = Cert.RRun.p_l2_1 := rfl
theorem c_m2_1_eq : (c_m2_1 : List (HloOp τ sig (Elt Ideal))) = Cert.RRun.p_m2_1 := rfl
theorem c_v2_1_eq : (c_v2_1 : List (HloOp τ sig (Elt Ideal))) = Cert.RRun.p_v2_1 := rfl
theorem c_n2_1_eq : (c_n2_1 : List (HloOp τ sig (Elt Ideal))) = Cert.RRun.p_n2_1 := rfl
theorem c_m3_1_eq : (c_m3_1 : List (HloOp τ sig (Elt Ideal))) = Cert.RRun.p_m3_1 := rfl
theorem c_v3_1_eq : (c_v3_1 : List (HloOp τ sig (Elt Ideal))) = Cert.RRun.p_v3_1 := rfl
theorem c_n3_1_eq : (c_n3_1 : List (HloOp τ sig (Elt Ideal))) = Cert.RRun.p_n3_1 := rfl
theorem c_rs_1_eq : (c_rs_1 : List (HloOp τ sig (Elt Ideal))) = Cert.RRun.p_rs_1 := rfl
theorem c_hg_2_eq : (c_hg_2 : List (HloOp τ sig (Elt Ideal))) = Cert.RRun.p_hg_2 := rfl
theorem c_hs_2_eq : (c_hs_2 : List (HloOp τ sig (Elt Ideal))) = Cert.RRun.p_hs_2 := rfl
theorem c_ad_2_eq : (c_ad_2 : List (HloOp τ sig (Elt Ideal))) = Cert.RRun.p_ad_2 := rfl
theorem c_ng_2_eq : (c_ng_2 : List (HloOp τ sig (Elt Ideal))) = Cert.RRun.p_ng_2 := rfl
theorem c_l1_2_eq : (c_l1_2 : List (HloOp τ sig (Elt Ideal))) = Cert.RRun.p_l1_2 := rfl
theorem c_m1_2_eq : (c_m1_2 : List (HloOp τ sig (Elt Ideal))) = Cert.RRun.p_m1_2 := rfl
theorem c_v1_2_eq : (c_v1_2 : List (HloOp τ sig (Elt Ideal))) = Cert.RRun.p_v1_2 := rfl
theorem c_n1_2_eq : (c_n1_2 : List (HloOp τ sig (Elt Ideal))) = Cert.RRun.p_n1_2 := rfl
theorem c_l2_2_eq : (c_l2_2 : List (HloOp τ sig (Elt Ideal))) = Cert.RRun.p_l2_2 := rfl
theorem c_m2_2_eq : (c_m2_2 : List (HloOp τ sig (Elt Ideal))) = Cert.RRun.p_m2_2 := rfl
theorem c_v2_2_eq : (c_v2_2 : List (HloOp τ sig (Elt Ideal))) = Cert.RRun.p_v2_2 := rfl
theorem c_n2_2_eq : (c_n2_2 : List (HloOp τ sig (Elt Ideal))) = Cert.RRun.p_n2_2 := rfl
theorem c_m3_2_eq : (c_m3_2 : List (HloOp τ sig (Elt Ideal))) = Cert.RRun.p_m3_2 := rfl
theorem c_v3_2_eq : (c_v3_2 : List (HloOp τ sig (Elt Ideal))) = Cert.RRun.p_v3_2 := rfl
theorem c_n3_2_eq : (c_n3_2 : List (HloOp τ sig (Elt Ideal))) = Cert.RRun.p_n3_2 := rfl
theorem c_rs_2_eq : (c_rs_2 : List (HloOp τ sig (Elt Ideal))) = Cert.RRun.p_rs_2 := rfl
theorem c_hg_3_eq : (c_hg_3 : List (HloOp τ sig (Elt Ideal))) = Cert.RRun.p_hg_3 := rfl
theorem c_hs_3_eq : (c_hs_3 : List (HloOp τ sig (Elt Ideal))) = Cert.RRun.p_hs_3 := rfl
theorem c_ad_3_eq : (c_ad_3 : List (HloOp τ sig (Elt Ideal))) = Cert.RRun.p_ad_3 := rfl
theorem c_ng_3_eq : (c_ng_3 : List (HloOp τ sig (Elt Ideal))) = Cert.RRun.p_ng_3 := rfl
theorem c_l1_3_eq : (c_l1_3 : List (HloOp τ sig (Elt Ideal))) = Cert.RRun.p_l1_3 := rfl
theorem c_m1_3_eq : (c_m1_3 : List (HloOp τ sig (Elt Ideal))) = Cert.RRun.p_m1_3 := rfl
theorem c_v1_3_eq : (c_v1_3 : List (HloOp τ sig (Elt Ideal))) = Cert.RRun.p_v1_3 := rfl
theorem c_n1_3_eq : (c_n1_3 : List (HloOp τ sig (Elt Ideal))) = Cert.RRun.p_n1_3 := rfl
theorem c_l2_3_eq : (c_l2_3 : List (HloOp τ sig (Elt Ideal))) = Cert.RRun.p_l2_3 := rfl
theorem c_m2_3_eq : (c_m2_3 : List (HloOp τ sig (Elt Ideal))) = Cert.RRun.p_m2_3 := rfl
theorem c_v2_3_eq : (c_v2_3 : List (HloOp τ sig (Elt Ideal))) = Cert.RRun.p_v2_3 := rfl
theorem c_n2_3_eq : (c_n2_3 : List (HloOp τ sig (Elt Ideal))) = Cert.RRun.p_n2_3 := rfl
theorem c_m3_3_eq : (c_m3_3 : List (HloOp τ sig (Elt Ideal))) = Cert.RRun.p_m3_3 := rfl
theorem c_v3_3_eq : (c_v3_3 : List (HloOp τ sig (Elt Ideal))) = Cert.RRun.p_v3_3 := rfl
theorem c_n3_3_eq : (c_n3_3 : List (HloOp τ sig (Elt Ideal))) = Cert.RRun.p_n3_3 := rfl
theorem c_rs_3_eq : (c_rs_3 : List (HloOp τ sig (Elt Ideal))) = Cert.RRun.p_rs_3 := rfl
theorem c_hg_4_eq : (c_hg_4 : List (HloOp τ sig (Elt Ideal))) = Cert.RRun.p_hg_4 := rfl
theorem c_hs_4_eq : (c_hs_4 : List (HloOp τ sig (Elt Ideal))) = Cert.RRun.p_hs_4 := rfl
theorem c_ad_4_eq : (c_ad_4 : List (HloOp τ sig (Elt Ideal))) = Cert.RRun.p_ad_4 := rfl

/-! ## The whole line -/

/-- The run's line is the chain's pieces, the head and then the four layers. -/
theorem ops_pieces : (Cert.RRun.ops : List (HloOp τ sig (Elt Ideal))) =
    (c_emb ++ (c_hg_0 ++ (c_hs_0))) ++ ((c_ng_0 ++ (c_l1_0 ++ (c_m1_0 ++ (c_v1_0 ++ (c_n1_0 ++ (c_l2_0 ++ (c_m2_0 ++ (c_v2_0 ++ (c_n2_0 ++ (c_m3_0 ++ (c_v3_0 ++ (c_n3_0 ++ (c_rs_0 ++ (c_hg_1 ++ (c_hs_1 ++ (c_ad_1)))))))))))))))) ++ ((c_ng_1 ++ (c_l1_1 ++ (c_m1_1 ++ (c_v1_1 ++ (c_n1_1 ++ (c_l2_1 ++ (c_m2_1 ++ (c_v2_1 ++ (c_n2_1 ++ (c_m3_1 ++ (c_v3_1 ++ (c_n3_1 ++ (c_rs_1 ++ (c_hg_2 ++ (c_hs_2 ++ (c_ad_2)))))))))))))))) ++ ((c_ng_2 ++ (c_l1_2 ++ (c_m1_2 ++ (c_v1_2 ++ (c_n1_2 ++ (c_l2_2 ++ (c_m2_2 ++ (c_v2_2 ++ (c_n2_2 ++ (c_m3_2 ++ (c_v3_2 ++ (c_n3_2 ++ (c_rs_2 ++ (c_hg_3 ++ (c_hs_3 ++ (c_ad_3)))))))))))))))) ++ ((c_ng_3 ++ (c_l1_3 ++ (c_m1_3 ++ (c_v1_3 ++ (c_n1_3 ++ (c_l2_3 ++ (c_m2_3 ++ (c_v2_3 ++ (c_n2_3 ++ (c_m3_3 ++ (c_v3_3 ++ (c_n3_3 ++ (c_rs_3 ++ (c_hg_4 ++ (c_hs_4 ++ (c_ad_4)))))))))))))))))))) := by
  (rw [c_emb_eq, c_hg_0_eq, c_hs_0_eq, c_ng_0_eq, c_l1_0_eq, c_m1_0_eq, c_v1_0_eq, c_n1_0_eq, c_l2_0_eq, c_m2_0_eq, c_v2_0_eq, c_n2_0_eq, c_m3_0_eq, c_v3_0_eq, c_n3_0_eq, c_rs_0_eq, c_hg_1_eq, c_hs_1_eq, c_ad_1_eq, c_ng_1_eq, c_l1_1_eq, c_m1_1_eq, c_v1_1_eq, c_n1_1_eq, c_l2_1_eq, c_m2_1_eq, c_v2_1_eq, c_n2_1_eq, c_m3_1_eq, c_v3_1_eq, c_n3_1_eq, c_rs_1_eq, c_hg_2_eq, c_hs_2_eq, c_ad_2_eq, c_ng_2_eq, c_l1_2_eq, c_m1_2_eq, c_v1_2_eq, c_n1_2_eq, c_l2_2_eq, c_m2_2_eq, c_v2_2_eq, c_n2_2_eq, c_m3_2_eq, c_v3_2_eq, c_n3_2_eq, c_rs_2_eq, c_hg_3_eq, c_hs_3_eq, c_ad_3_eq, c_ng_3_eq, c_l1_3_eq, c_m1_3_eq, c_v1_3_eq, c_n1_3_eq, c_l2_3_eq, c_m2_3_eq, c_v2_3_eq, c_n2_3_eq, c_m3_3_eq, c_v3_3_eq, c_n3_3_eq, c_rs_3_eq, c_hg_4_eq, c_hs_4_eq, c_ad_4_eq]) <;> rfl

end Cert.RChain

end
-- ==== Proof.RChain.lean ====
/-
  The reference program's result as a function of its arguments.

  The reference's run leaves every buffer at the fold of its operations over the launch contents. The operations are
  the first segment (the embedding and head 0) and four layer steps in a row; read through them, the result buffer
  holds the network's score of the twenty argument arrays, and each argument buffer holds the argument (no operation
  writes an argument).
-/
import proofs.«416875_j80633716015165_3_alg».proof.Proof.RChainEnd
import proofs.«416875_j80633716015165_3_alg».proof.Proof.RChainPieces

noncomputable section

open Idealize.ShloMosaic Idealize.ShloMosaic.ValueIdx Idealize.SL.Sem
open Cert.ReferenceIdeal Cert.ReferenceIdeal.Facts₀
open Idealize.ShloMosaic.StableHlo

namespace Cert.RChain

/-- The reference's operations are the first segment and the four layer steps in a row. -/
theorem ops_eq : (Cert.RRun.ops : List (HloOp τ sig (Elt Ideal))) = P ++ (U_0 ++ (U_1 ++ (U_2 ++ U_3))) := by
  rw [ops_pieces]
  unfold P U_0 U_1 U_2 U_3
  rfl

/-- The result buffer after the reference's operations holds the network's score of the arguments. -/
theorem result_eq (V : Valuation τ sig (Elt Ideal)) :
    after Cert.RRun.ops V (Proc.devRef .tc main_v587) = M.mk2 (M.score (inputsR V)) := by
  rw [ops_eq]
  exact (chain V).2

/-- No operation writes argument 0: it ends as it began. -/
theorem arg_eq_0 (V : Valuation τ sig (Elt Ideal)) :
    after Cert.RRun.ops V (Proc.devRef .tc main_arg0) = V (Proc.devRef .tc main_arg0) := by
  rw [ops_eq]
  exact (chain V).1 main_arg0 (by decide)

/-- No operation writes argument 1: it ends as it began. -/
theorem arg_eq_1 (V : Valuation τ sig (Elt Ideal)) :
    after Cert.RRun.ops V (Proc.devRef .tc main_arg1) = V (Proc.devRef .tc main_arg1) := by
  rw [ops_eq]
  exact (chain V).1 main_arg1 (by decide)

/-- No operation writes argument 2: it ends as it began. -/
theorem arg_eq_2 (V : Valuation τ sig (Elt Ideal)) :
    after Cert.RRun.ops V (Proc.devRef .tc main_arg2) = V (Proc.devRef .tc main_arg2) := by
  rw [ops_eq]
  exact (chain V).1 main_arg2 (by decide)

/-- No operation writes argument 3: it ends as it began. -/
theorem arg_eq_3 (V : Valuation τ sig (Elt Ideal)) :
    after Cert.RRun.ops V (Proc.devRef .tc main_arg3) = V (Proc.devRef .tc main_arg3) := by
  rw [ops_eq]
  exact (chain V).1 main_arg3 (by decide)

/-- No operation writes argument 4: it ends as it began. -/
theorem arg_eq_4 (V : Valuation τ sig (Elt Ideal)) :
    after Cert.RRun.ops V (Proc.devRef .tc main_arg4) = V (Proc.devRef .tc main_arg4) := by
  rw [ops_eq]
  exact (chain V).1 main_arg4 (by decide)

/-- No operation writes argument 5: it ends as it began. -/
theorem arg_eq_5 (V : Valuation τ sig (Elt Ideal)) :
    after Cert.RRun.ops V (Proc.devRef .tc main_arg5) = V (Proc.devRef .tc main_arg5) := by
  rw [ops_eq]
  exact (chain V).1 main_arg5 (by decide)

/-- No operation writes argument 6: it ends as it began. -/
theorem arg_eq_6 (V : Valuation τ sig (Elt Ideal)) :
    after Cert.RRun.ops V (Proc.devRef .tc main_arg6) = V (Proc.devRef .tc main_arg6) := by
  rw [ops_eq]
  exact (chain V).1 main_arg6 (by decide)

/-- No operation writes argument 7: it ends as it began. -/
theorem arg_eq_7 (V : Valuation τ sig (Elt Ideal)) :
    after Cert.RRun.ops V (Proc.devRef .tc main_arg7) = V (Proc.devRef .tc main_arg7) := by
  rw [ops_eq]
  exact (chain V).1 main_arg7 (by decide)

/-- No operation writes argument 8: it ends as it began. -/
theorem arg_eq_8 (V : Valuation τ sig (Elt Ideal)) :
    after Cert.RRun.ops V (Proc.devRef .tc main_arg8) = V (Proc.devRef .tc main_arg8) := by
  rw [ops_eq]
  exact (chain V).1 main_arg8 (by decide)

/-- No operation writes argument 9: it ends as it began. -/
theorem arg_eq_9 (V : Valuation τ sig (Elt Ideal)) :
    after Cert.RRun.ops V (Proc.devRef .tc main_arg9) = V (Proc.devRef .tc main_arg9) := by
  rw [ops_eq]
  exact (chain V).1 main_arg9 (by decide)

/-- No operation writes argument 10: it ends as it began. -/
theorem arg_eq_10 (V : Valuation τ sig (Elt Ideal)) :
    after Cert.RRun.ops V (Proc.devRef .tc main_arg10) = V (Proc.devRef .tc main_arg10) := by
  rw [ops_eq]
  exact (chain V).1 main_arg10 (by decide)

/-- No operation writes argument 11: it ends as it began. -/
theorem arg_eq_11 (V : Valuation τ sig (Elt Ideal)) :
    after Cert.RRun.ops V (Proc.devRef .tc main_arg11) = V (Proc.devRef .tc main_arg11) := by
  rw [ops_eq]
  exact (chain V).1 main_arg11 (by decide)

/-- No operation writes argument 12: it ends as it began. -/
theorem arg_eq_12 (V : Valuation τ sig (Elt Ideal)) :
    after Cert.RRun.ops V (Proc.devRef .tc main_arg12) = V (Proc.devRef .tc main_arg12) := by
  rw [ops_eq]
  exact (chain V).1 main_arg12 (by decide)

/-- No operation writes argument 13: it ends as it began. -/
theorem arg_eq_13 (V : Valuation τ sig (Elt Ideal)) :
    after Cert.RRun.ops V (Proc.devRef .tc main_arg13) = V (Proc.devRef .tc main_arg13) := by
  rw [ops_eq]
  exact (chain V).1 main_arg13 (by decide)

/-- No operation writes argument 14: it ends as it began. -/
theorem arg_eq_14 (V : Valuation τ sig (Elt Ideal)) :
    after Cert.RRun.ops V (Proc.devRef .tc main_arg14) = V (Proc.devRef .tc main_arg14) := by
  rw [ops_eq]
  exact (chain V).1 main_arg14 (by decide)

/-- No operation writes argument 15: it ends as it began. -/
theorem arg_eq_15 (V : Valuation τ sig (Elt Ideal)) :
    after Cert.RRun.ops V (Proc.devRef .tc main_arg15) = V (Proc.devRef .tc main_arg15) := by
  rw [ops_eq]
  exact (chain V).1 main_arg15 (by decide)

/-- No operation writes argument 16: it ends as it began. -/
theorem arg_eq_16 (V : Valuation τ sig (Elt Ideal)) :
    after Cert.RRun.ops V (Proc.devRef .tc main_arg16) = V (Proc.devRef .tc main_arg16) := by
  rw [ops_eq]
  exact (chain V).1 main_arg16 (by decide)

/-- No operation writes argument 17: it ends as it began. -/
theorem arg_eq_17 (V : Valuation τ sig (Elt Ideal)) :
    after Cert.RRun.ops V (Proc.devRef .tc main_arg17) = V (Proc.devRef .tc main_arg17) := by
  rw [ops_eq]
  exact (chain V).1 main_arg17 (by decide)

/-- No operation writes argument 18: it ends as it began. -/
theorem arg_eq_18 (V : Valuation τ sig (Elt Ideal)) :
    after Cert.RRun.ops V (Proc.devRef .tc main_arg18) = V (Proc.devRef .tc main_arg18) := by
  rw [ops_eq]
  exact (chain V).1 main_arg18 (by decide)

/-- No operation writes argument 19: it ends as it began. -/
theorem arg_eq_19 (V : Valuation τ sig (Elt Ideal)) :
    after Cert.RRun.ops V (Proc.devRef .tc main_arg19) = V (Proc.devRef .tc main_arg19) := by
  rw [ops_eq]
  exact (chain V).1 main_arg19 (by decide)

end Cert.RChain

end
-- ==== Proof.lean ====
/-
  The certificate of the graph network's forward pass: a five-head edge scorer over a four-layer
  sum-aggregation network with three batch normalisations per layer, computed by seventeen tiled kernels with the
  statistics accumulated per tile, against the plain formulation.

  The three frames: the two kernel programs' are the generated launch over the generated regions and segments, the arguments read back to the launch memory by index; the reference's is its run with the
  result dropped. Nothing was rewritten by the idealization, so the preservation claim is empty.
  The value claim: both programs end with the same function of the inputs, `Cert.M.score` of the inputs read as functions
  of coordinates. On the kernel side the run is the generated launch with the result buffer read at the last boundary
  and that buffer's contents followed through the boundaries; on the reference side the run is the list of host
  operations and its result followed through the list. The two meet because on real entries the tiled one-pass
  statistics are the two-pass ones and a product with the concatenated row pair is the sum of the two half products;
  the precondition makes every float input real.
-/
import proofs.«416875_j80633716015165_3_alg».proof.Defs
import proofs.«416875_j80633716015165_3_alg».proof.Proof.Gen.Kernel
import proofs.«416875_j80633716015165_3_alg».proof.Proof.Gen.Kernel.Skeleton
import proofs.«416875_j80633716015165_3_alg».proof.Proof.Gen.Kernel.Launch
import proofs.«416875_j80633716015165_3_alg».proof.Proof.Gen.Kernel.Points
import proofs.«416875_j80633716015165_3_alg».proof.Proof.FrameK
import proofs.«416875_j80633716015165_3_alg».proof.Proof.Gen.KernelIdeal
import proofs.«416875_j80633716015165_3_alg».proof.Proof.Gen.KernelIdeal.Skeleton
import proofs.«416875_j80633716015165_3_alg».proof.Proof.Gen.KernelIdeal.Launch
import proofs.«416875_j80633716015165_3_alg».proof.Proof.Gen.KernelIdeal.Points
import proofs.«416875_j80633716015165_3_alg».proof.Proof.FrameKI
import proofs.«416875_j80633716015165_3_alg».proof.Proof.Gen.ReferenceIdeal
import proofs.«416875_j80633716015165_3_alg».proof.Proof.Gen.Pre_finite_inputs
import proofs.«416875_j80633716015165_3_alg».proof.Proof.Spec
import proofs.«416875_j80633716015165_3_alg».proof.Proof.InputsFinite
import proofs.«416875_j80633716015165_3_alg».proof.Proof.PreFinite
import proofs.«416875_j80633716015165_3_alg».proof.Proof.KRun
import proofs.«416875_j80633716015165_3_alg».proof.Proof.KRunK
import proofs.«416875_j80633716015165_3_alg».proof.Proof.KChain
import proofs.«416875_j80633716015165_3_alg».proof.Proof.RRun
import proofs.«416875_j80633716015165_3_alg».proof.Proof.RChain
import Idealize.ShloMosaic.Adequacy
import Idealize.ShloMosaic.Init

noncomputable section

namespace Cert.Proof

open Idealize.ShloMosaic Idealize.SL.Sem

/-- The word-level kernel program's frame: the generated launch over the generated regions and segments. -/
theorem frame_k : Cert.frame_Kernel := fun m ρ _ => Cert.KRunK.frame m ρ

/-- The idealized kernel program's frame: the same launch at the ideal instance. -/
theorem frame_ki : Cert.frame_KernelIdeal := fun m ρ _ => Cert.KRun.frame m ρ

open Cert.ReferenceIdeal in
/-- The reference's frame: its run, every argument buffer read back through the operations that never write it. -/
theorem frame_ri : Cert.frame_ReferenceIdeal := fun m ρ _ =>
  (θ_run Cert.ReferenceIdeal.defs _ _).mono (fun r h c =>
    ⟨(h c main_arg0).trans (Cert.RChain.arg_eq_0 _),
      (h c main_arg1).trans (Cert.RChain.arg_eq_1 _),
      (h c main_arg2).trans (Cert.RChain.arg_eq_2 _),
      (h c main_arg3).trans (Cert.RChain.arg_eq_3 _),
      (h c main_arg4).trans (Cert.RChain.arg_eq_4 _),
      (h c main_arg5).trans (Cert.RChain.arg_eq_5 _),
      (h c main_arg6).trans (Cert.RChain.arg_eq_6 _),
      (h c main_arg7).trans (Cert.RChain.arg_eq_7 _),
      (h c main_arg8).trans (Cert.RChain.arg_eq_8 _),
      (h c main_arg9).trans (Cert.RChain.arg_eq_9 _),
      (h c main_arg10).trans (Cert.RChain.arg_eq_10 _),
      (h c main_arg11).trans (Cert.RChain.arg_eq_11 _),
      (h c main_arg12).trans (Cert.RChain.arg_eq_12 _),
      (h c main_arg13).trans (Cert.RChain.arg_eq_13 _),
      (h c main_arg14).trans (Cert.RChain.arg_eq_14 _),
      (h c main_arg15).trans (Cert.RChain.arg_eq_15 _),
      (h c main_arg16).trans (Cert.RChain.arg_eq_16 _),
      (h c main_arg17).trans (Cert.RChain.arg_eq_17 _),
      (h c main_arg18).trans (Cert.RChain.arg_eq_18 _),
      (h c main_arg19).trans (Cert.RChain.arg_eq_19 _)⟩)
    (Cert.RRun.run_main (F := Ideal) m ρ)

/-- The precondition makes the inputs' finiteness record. -/
theorem finite_of_pre (m : (ℓ : Loc Cert.KernelIdeal.nD Cert.KernelIdeal.τ Cert.KernelIdeal.sig) → Buf (Elt Ideal) ℓ)
    (hpre : Cert.Pre_KernelIdeal m) (c : Dev Cert.KernelIdeal.nD) : (Cert.KChain.inputsK m c).Finite := by
  obtain ⟨h0, h1, h2, h3, h4, h5, h6, h7, h8, h9, h10, h11, h12, h13, h14, h15, h16, h17⟩ :=
    Cert.PreFinite.real_of_pre _ _ _ _ _ _ _ _ _ _ _ _ _ _ _ _ _ _ _ _ (hpre c)
  exact Cert.InputsFinite.inputsOf_finite _ _ _ _ _ _ _ _ _ _ _ _ _ _ _ _ _ _ _ _
    h0 h1 h2 h3 h4 h5 h6 h7 h8 h9 h10 h11 h12 h13 h14 h15 h16 h17

open Cert.ReferenceIdeal in
/-- Both programs end with the score of the inputs; the reference's inputs are the kernel's by the arguments' agreement. -/
theorem algebraic : Cert.algebraic_KernelIdeal_ReferenceIdeal := by
  intro m ρ m' ρ' hpre hagree
  refine ⟨fun c => Cert.M.mk2 (Cert.M.score (Cert.KChain.inputsK m c)),
    Cert.KRun.run_result_of m ρ _ (fun c => Cert.KChain.result_eq m ρ c (finite_of_pre m hpre c)), ?_⟩
  refine (θ_run Cert.ReferenceIdeal.defs _ _).mono (fun r h c => ⟨?_,
      (h c main_arg0).trans (Cert.RChain.arg_eq_0 _),
      (h c main_arg1).trans (Cert.RChain.arg_eq_1 _),
      (h c main_arg2).trans (Cert.RChain.arg_eq_2 _),
      (h c main_arg3).trans (Cert.RChain.arg_eq_3 _),
      (h c main_arg4).trans (Cert.RChain.arg_eq_4 _),
      (h c main_arg5).trans (Cert.RChain.arg_eq_5 _),
      (h c main_arg6).trans (Cert.RChain.arg_eq_6 _),
      (h c main_arg7).trans (Cert.RChain.arg_eq_7 _),
      (h c main_arg8).trans (Cert.RChain.arg_eq_8 _),
      (h c main_arg9).trans (Cert.RChain.arg_eq_9 _),
      (h c main_arg10).trans (Cert.RChain.arg_eq_10 _),
      (h c main_arg11).trans (Cert.RChain.arg_eq_11 _),
      (h c main_arg12).trans (Cert.RChain.arg_eq_12 _),
      (h c main_arg13).trans (Cert.RChain.arg_eq_13 _),
      (h c main_arg14).trans (Cert.RChain.arg_eq_14 _),
      (h c main_arg15).trans (Cert.RChain.arg_eq_15 _),
      (h c main_arg16).trans (Cert.RChain.arg_eq_16 _),
      (h c main_arg17).trans (Cert.RChain.arg_eq_17 _),
      (h c main_arg18).trans (Cert.RChain.arg_eq_18 _),
      (h c main_arg19).trans (Cert.RChain.arg_eq_19 _)⟩)
    (Cert.RRun.run_main (F := Ideal) m' ρ')
  rw [h c main_v587, Cert.RChain.result_eq]
  obtain ⟨e0, e1, e2, e3, e4, e5, e6, e7, e8, e9, e10, e11, e12, e13, e14, e15, e16, e17, e18, e19⟩ := hagree c
  show Cert.M.mk2 (Cert.M.score (Cert.M.inputsOf _ _ _ _ _ _ _ _ _ _ _ _ _ _ _ _ _ _ _ _)) = _
  unfold Cert.KChain.inputsK
  exact congrArg (fun A => Cert.M.mk2 (Cert.M.score A)) (by
    congr 1 <;> assumption)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
